-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v89)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v89) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x50000x64 : Shape := ⟨3, ![2, 50000, 64]⟩
abbrev S800000 : Shape := ⟨1, ![800000]⟩
abbrev S64x64 : Shape := ⟨2, ![64, 64]⟩
abbrev S_ : Shape := ⟨0, ![]⟩

class Facts : Prop where
  bcast_S_S2x50000x64 : S_.BroadcastsInDim S2x50000x64 (![] : Fin 0 → Fin S2x50000x64.rank)
  reducesTo_S2x50000x64_S_d0_1_2 : S2x50000x64.ReducesTo [0, 1, 2] S_
  h_S_ : 0 < S_.numel
  bcast_S_S64x64 : S_.BroadcastsInDim S64x64 (![] : Fin 0 → Fin S64x64.rank)
  reducesTo_S64x64_S_d0_1 : S64x64.ReducesTo [0, 1] S_
  bcast_S_S800000 : S_.BroadcastsInDim S800000 (![] : Fin 0 → Fin S800000.rank)
  reducesTo_S800000_S_d0 : S800000.ReducesTo [0] S_

variable [Facts]

def fn_part1 {F : FTy → Type} [FloatOps F] (main_arg1 : IVec S800000 32) (main_arg2 : IVec S800000 32) (main_v13 : IVec S_ 1) (main_v15 : IVec S800000 1) (main_c_5 : IVec S_ 1) : IVec S_ 1 :=
  let main_v16 : IVec S_ 1 := (fun x v => Host.reduce IntOp.andi x v reducesTo_S800000_S_d0 h_S_) main_v15 main_c_5
  let main_v17 : IVec S_ 1 := andi main_v13 main_v16
  let main_c_6 : IVec S_ 32 := constantI S_ 32 50000#32
  let main_v18 : IVec S800000 32 := broadcastInDim S800000 ![] bcast_S_S800000 main_c_6
  let main_v19 : IVec S800000 1 := cmpi .slt main_arg1 main_v18
  let main_c_7 : IVec S_ 1 := constantI S_ 1 1#1
  let main_v20 : IVec S_ 1 := (fun x v => Host.reduce IntOp.andi x v reducesTo_S800000_S_d0 h_S_) main_v19 main_c_7
  let main_v21 : IVec S_ 1 := andi main_v17 main_v20
  let main_c_8 : IVec S_ 32 := constantI S_ 32 0#32
  let main_v22 : IVec S800000 32 := broadcastInDim S800000 ![] bcast_S_S800000 main_c_8
  let main_v23 : IVec S800000 1 := cmpi .sge main_arg2 main_v22
  let main_c_9 : IVec S_ 1 := constantI S_ 1 1#1
  let main_v24 : IVec S_ 1 := (fun x v => Host.reduce IntOp.andi x v reducesTo_S800000_S_d0 h_S_) main_v23 main_c_9
  let main_v25 : IVec S_ 1 := andi main_v21 main_v24
  let main_c_10 : IVec S_ 32 := constantI S_ 32 50000#32
  let main_v26 : IVec S800000 32 := broadcastInDim S800000 ![] bcast_S_S800000 main_c_10
  let main_v27 : IVec S800000 1 := cmpi .slt main_arg2 main_v26
  let main_c_11 : IVec S_ 1 := constantI S_ 1 1#1
  let main_v28 : IVec S_ 1 := (fun x v => Host.reduce IntOp.andi x v reducesTo_S800000_S_d0 h_S_) main_v27 main_c_11
  let main_v29 : IVec S_ 1 := andi main_v25 main_v28
  main_v29

def fn {F : FTy → Type} [FloatOps F] (main_arg0 : FVec F S2x50000x64 .f32) (main_arg1 : IVec S800000 32) (main_arg2 : IVec S800000 32) (main_arg3 : FVec F S64x64 .f32) (main_arg4 : FVec F S64x64 .f32) : IVec S_ 1 :=
  let main_v0 : FVec F S2x50000x64 .f32 := Host.absf main_arg0
  let main_cst : FVec F S_ .f32 := constant S_ .f32 0x7F800000#32
  let main_v1 : FVec F S2x50000x64 .f32 := broadcastInDim S2x50000x64 ![] bcast_S_S2x50000x64 main_cst
  let main_v2 : IVec S2x50000x64 1 := cmpf .olt main_v0 main_v1
  let main_c : IVec S_ 1 := constantI S_ 1 1#1
  let main_v3 : IVec S_ 1 := (fun x v => Host.reduce IntOp.andi x v reducesTo_S2x50000x64_S_d0_1_2 h_S_) main_v2 main_c
  let main_v4 : FVec F S64x64 .f32 := Host.absf main_arg3
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64x64 .f32 := Host.absf main_arg4
  let main_cst_2 : FVec F S_ .f32 := constant S_ .f32 0x7F800000#32
  let main_v10 : FVec F S64x64 .f32 := broadcastInDim S64x64 ![] bcast_S_S64x64 main_cst_2
  let main_v11 : IVec S64x64 1 := cmpf .olt main_v9 main_v10
  let main_c_3 : IVec S_ 1 := constantI S_ 1 1#1
  let main_v12 : IVec S_ 1 := (fun x v => Host.reduce IntOp.andi x v reducesTo_S64x64_S_d0_1 h_S_) main_v11 main_c_3
  let main_v13 : IVec S_ 1 := andi main_v8 main_v12
  let main_c_4 : IVec S_ 32 := constantI S_ 32 0#32
  let main_v14 : IVec S800000 32 := broadcastInDim S800000 ![] bcast_S_S800000 main_c_4
  let main_v15 : IVec S800000 1 := cmpi .sge main_arg1 main_v14
  let main_c_5 : IVec S_ 1 := constantI S_ 1 1#1
  fn_part1 (F := F) main_arg1 main_arg2 main_v13 main_v15 main_c_5
-- ==== Kernel.lean ====
abbrev S2x50000x64 : Shape := ⟨3, ![2, 50000, 64]⟩
abbrev S800000 : Shape := ⟨1, ![800000]⟩
abbrev S64x64 : Shape := ⟨2, ![64, 64]⟩
abbrev S1x5000x64 : Shape := ⟨3, ![1, 5000, 64]⟩
abbrev S5000x64 : Shape := ⟨2, ![5000, 64]⟩
abbrev S50000x2x64 : Shape := ⟨3, ![50000, 2, 64]⟩
abbrev S50000x1x128 : Shape := ⟨3, ![50000, 1, 128]⟩
abbrev S40000 : Shape := ⟨1, ![40000]⟩
abbrev S40000x1x128 : Shape := ⟨3, ![40000, 1, 128]⟩
abbrev S1x1x128 : Shape := ⟨3, ![1, 1, 128]⟩
abbrev S1 : Shape := ⟨1, ![1]⟩
abbrev S40000x128 : Shape := ⟨2, ![40000, 128]⟩
abbrev S640000x128 : Shape := ⟨2, ![640000, 128]⟩
abbrev S160000x128 : Shape := ⟨2, ![160000, 128]⟩
abbrev S800000x128 : Shape := ⟨2, ![800000, 128]⟩
abbrev S800000x2x64 : Shape := ⟨3, ![800000, 2, 64]⟩
abbrev S2x800000x64 : Shape := ⟨3, ![2, 800000, 64]⟩

abbrev nBuf : Space → Nat
  | .hbm => 56
  | .vmem => 128
  | .smem => 40
  | _ => 0

abbrev bufTy : (tb : Table) → Fin (tcTables nBuf tb) → BufTy
  | .hbm, ⟨0, _⟩ => ⟨S2x50000x64, .f32⟩
  | .hbm, ⟨1, _⟩ => ⟨S800000, .i32⟩
  | .hbm, ⟨2, _⟩ => ⟨S800000, .i32⟩
  | .hbm, ⟨3, _⟩ => ⟨S64x64, .f32⟩
  | .hbm, ⟨4, _⟩ => ⟨S64x64, .f32⟩
  | .hbm, ⟨5, _⟩ => ⟨S2x50000x64, .f32⟩
  | .hbm, ⟨6, _⟩ => ⟨S2x50000x64, .f32⟩
  | .hbm, ⟨7, _⟩ => ⟨S50000x2x64, .f32⟩
  | .hbm, ⟨8, _⟩ => ⟨S50000x1x128, .f32⟩
  | .hbm, ⟨9, _⟩ => ⟨S50000x2x64, .f32⟩
  | .hbm, ⟨10, _⟩ => ⟨S50000x1x128, .f32⟩
  | .hbm, ⟨11, _⟩ => ⟨S40000x1x128, .f32⟩
  | .hbm, ⟨12, _⟩ => ⟨S40000x128, .f32⟩
  | .hbm, ⟨13, _⟩ => ⟨S40000x1x128, .f32⟩
  | .hbm, ⟨14, _⟩ => ⟨S40000x128, .f32⟩
  | .hbm, ⟨15, _⟩ => ⟨S40000x1x128, .f32⟩
  | .hbm, ⟨16, _⟩ => ⟨S40000x128, .f32⟩
  | .hbm, ⟨17, _⟩ => ⟨S40000x1x128, .f32⟩
  | .hbm, ⟨18, _⟩ => ⟨S40000x128, .f32⟩
  | .hbm, ⟨19, _⟩ => ⟨S40000x1x128, .f32⟩
  | .hbm, ⟨20, _⟩ => ⟨S40000x128, .f32⟩
  | .hbm, ⟨21, _⟩ => ⟨S40000x1x128, .f32⟩
  | .hbm, ⟨22, _⟩ => ⟨S40000x128, .f32⟩
  | .hbm, ⟨23, _⟩ => ⟨S40000x1x128, .f32⟩
  | .hbm, ⟨24, _⟩ => ⟨S40000x128, .f32⟩
  | .hbm, ⟨25, _⟩ => ⟨S40000x1x128, .f32⟩
  | .hbm, ⟨26, _⟩ => ⟨S40000x128, .f32⟩
  | .hbm, ⟨27, _⟩ => ⟨S40000x1x128, .f32⟩
  | .hbm, ⟨28, _⟩ => ⟨S40000x128, .f32⟩
  | .hbm, ⟨29, _⟩ => ⟨S40000x1x128, .f32⟩
  | .hbm, ⟨30, _⟩ => ⟨S40000x128, .f32⟩
  | .hbm, ⟨31, _⟩ => ⟨S40000x1x128, .f32⟩
  | .hbm, ⟨32, _⟩ => ⟨S40000x128, .f32⟩
  | .hbm, ⟨33, _⟩ => ⟨S40000x1x128, .f32⟩
  | .hbm, ⟨34, _⟩ => ⟨S40000x128, .f32⟩
  | .hbm, ⟨35, _⟩ => ⟨S40000x1x128, .f32⟩
  | .hbm, ⟨36, _⟩ => ⟨S40000x128, .f32⟩
  | .hbm, ⟨37, _⟩ => ⟨S40000x1x128, .f32⟩
  | .hbm, ⟨38, _⟩ => ⟨S40000x128, .f32⟩
  | .hbm, ⟨39, _⟩ => ⟨S40000x1x128, .f32⟩
  | .hbm, ⟨40, _⟩ => ⟨S40000x128, .f32⟩
  | .hbm, ⟨41, _⟩ => ⟨S40000x1x128, .f32⟩
  | .hbm, ⟨42, _⟩ => ⟨S40000x128, .f32⟩
  | .hbm, ⟨43, _⟩ => ⟨S40000x1x128, .f32⟩
  | .hbm, ⟨44, _⟩ => ⟨S40000x128, .f32⟩
  | .hbm, ⟨45, _⟩ => ⟨S40000x1x128, .f32⟩
  | .hbm, ⟨46, _⟩ => ⟨S40000x128, .f32⟩
  | .hbm, ⟨47, _⟩ => ⟨S40000x1x128, .f32⟩
  | .hbm, ⟨48, _⟩ => ⟨S40000x128, .f32⟩
  | .hbm, ⟨49, _⟩ => ⟨S40000x1x128, .f32⟩
  | .hbm, ⟨50, _⟩ => ⟨S40000x128, .f32⟩
  | .hbm, ⟨51, _⟩ => ⟨S640000x128, .f32⟩
  | .hbm, ⟨52, _⟩ => ⟨S160000x128, .f32⟩
  | .hbm, ⟨53, _⟩ => ⟨S800000x128, .f32⟩
  | .hbm, ⟨54, _⟩ => ⟨S800000x2x64, .f32⟩
  | .hbm, ⟨55, _⟩ => ⟨S2x800000x64, .f32⟩
  | .local _ .vmem, ⟨0, _⟩ => ⟨S1x5000x64, .f32⟩
  | .local _ .vmem, ⟨1, _⟩ => ⟨S1x5000x64, .f32⟩
  | .local _ .vmem, ⟨2, _⟩ => ⟨S64x64, .f32⟩
  | .local _ .vmem, ⟨3, _⟩ => ⟨S64x64, .f32⟩
  | .local _ .vmem, ⟨4, _⟩ => ⟨S1x5000x64, .f32⟩
  | .local _ .vmem, ⟨5, _⟩ => ⟨S1x5000x64, .f32⟩
  | .local _ .vmem, ⟨6, _⟩ => ⟨S1x5000x64, .f32⟩
  | .local _ .vmem, ⟨7, _⟩ => ⟨S1x5000x64, .f32⟩
  | .local _ .vmem, ⟨8, _⟩ => ⟨S1x1x128, .f32⟩
  | .local _ .vmem, ⟨9, _⟩ => ⟨S1x1x128, .f32⟩
  | .local _ .vmem, ⟨10, _⟩ => ⟨S1x1x128, .f32⟩
  | .local _ .vmem, ⟨11, _⟩ => ⟨S1x1x128, .f32⟩
  | .local _ .vmem, ⟨12, _⟩ => ⟨S1x1x128, .f32⟩
  | .local _ .vmem, ⟨13, _⟩ => ⟨S1x1x128, .f32⟩
  | .local _ .vmem, ⟨14, _⟩ => ⟨S1x1x128, .f32⟩
  | .local _ .vmem, ⟨15, _⟩ => ⟨S1x1x128, .f32⟩
  | .local _ .vmem, ⟨16, _⟩ => ⟨S1x1x128, .f32⟩
  | .local _ .vmem, ⟨17, _⟩ => ⟨S1x1x128, .f32⟩
  | .local _ .vmem, ⟨18, _⟩ => ⟨S1x1x128, .f32⟩
  | .local _ .vmem, ⟨19, _⟩ => ⟨S1x1x128, .f32⟩
  | .local _ .vmem, ⟨20, _⟩ => ⟨S1x1x128, .f32⟩
  | .local _ .vmem, ⟨21, _⟩ => ⟨S1x1x128, .f32⟩
  | .local _ .vmem, ⟨22, _⟩ => ⟨S1x1x128, .f32⟩
  | .local _ .vmem, ⟨23, _⟩ => ⟨S1x1x128, .f32⟩
  | .local _ .vmem, ⟨24, _⟩ => ⟨S1x1x128, .f32⟩
  | .local _ .vmem, ⟨25, _⟩ => ⟨S1x1x128, .f32⟩
  | .local _ .vmem, ⟨26, _⟩ => ⟨S1x1x128, .f32⟩
  | .local _ .vmem, ⟨27, _⟩ => ⟨S1x1x128, .f32⟩
  | .local _ .vmem, ⟨28, _⟩ => ⟨S1x1x128, .f32⟩
  | .local _ .vmem, ⟨29, _⟩ => ⟨S1x1x128, .f32⟩
  | .local _ .vmem, ⟨30, _⟩ => ⟨S1x1x128, .f32⟩
  | .local _ .vmem, ⟨31, _⟩ => ⟨S1x1x128, .f32⟩
  | .local _ .vmem, ⟨32, _⟩ => ⟨S1x1x128, .f32⟩
  | .local _ .vmem, ⟨33, _⟩ => ⟨S1x1x128, .f32⟩
  | .local _ .vmem, ⟨34, _⟩ => ⟨S1x1x128, .f32⟩
  | .local _ .vmem, ⟨35, _⟩ => ⟨S1x1x128, .f32⟩
  | .local _ .vmem, ⟨36, _⟩ => ⟨S1x1x128, .f32⟩
  | .local _ .vmem, ⟨37, _⟩ => ⟨S1x1x128, .f32⟩
  | .local _ .vmem, ⟨38, _⟩ => ⟨S1x1x128, .f32⟩
  | .local _ .vmem, ⟨39, _⟩ => ⟨S1x1x128, .f32⟩
  | .local _ .vmem, ⟨40, _⟩ => ⟨S1x1x128, .f32⟩
  | .local _ .vmem, ⟨41, _⟩ => ⟨S1x1x128, .f32⟩
  | .local _ .vmem, ⟨42, _⟩ => ⟨S1x1x128, .f32⟩
  | .local _ .vmem, ⟨43, _⟩ => ⟨S1x1x128, .f32⟩
  | .local _ .vmem, ⟨44, _⟩ => ⟨S1x1x128, .f32⟩
  | .local _ .vmem, ⟨45, _⟩ => ⟨S1x1x128, .f32⟩
  | .local _ .vmem, ⟨46, _⟩ => ⟨S1x1x128, .f32⟩
  | .local _ .vmem, ⟨47, _⟩ => ⟨S1x1x128, .f32⟩
  | .local _ .vmem, ⟨48, _⟩ => ⟨S1x1x128, .f32⟩
  | .local _ .vmem, ⟨49, _⟩ => ⟨S1x1x128, .f32⟩
  | .local _ .vmem, ⟨50, _⟩ => ⟨S1x1x128, .f32⟩
  | .local _ .vmem, ⟨51, _⟩ => ⟨S1x1x128, .f32⟩
  | .local _ .vmem, ⟨52, _⟩ => ⟨S1x1x128, .f32⟩
  | .local _ .vmem, ⟨53, _⟩ => ⟨S1x1x128, .f32⟩
  | .local _ .vmem, ⟨54, _⟩ => ⟨S1x1x128, .f32⟩
  | .local _ .vmem, ⟨55, _⟩ => ⟨S1x1x128, .f32⟩
  | .local _ .vmem, ⟨56, _⟩ => ⟨S1x1x128, .f32⟩
  | .local _ .vmem, ⟨57, _⟩ => ⟨S1x1x128, .f32⟩
  | .local _ .vmem, ⟨58, _⟩ => ⟨S1x1x128, .f32⟩
  | .local _ .vmem, ⟨59, _⟩ => ⟨S1x1x128, .f32⟩
  | .local _ .vmem, ⟨60, _⟩ => ⟨S1x1x128, .f32⟩
  | .local _ .vmem, ⟨61, _⟩ => ⟨S1x1x128, .f32⟩
  | .local _ .vmem, ⟨62, _⟩ => ⟨S1x1x128, .f32⟩
  | .local _ .vmem, ⟨63, _⟩ => ⟨S1x1x128, .f32⟩
  | .local _ .vmem, ⟨64, _⟩ => ⟨S1x1x128, .f32⟩
  | .local _ .vmem, ⟨65, _⟩ => ⟨S1x1x128, .f32⟩
  | .local _ .vmem, ⟨66, _⟩ => ⟨S1x1x128, .f32⟩
  | .local _ .vmem, ⟨67, _⟩ => ⟨S1x1x128, .f32⟩
  | .local _ .vmem, ⟨68, _⟩ => ⟨S1x1x128, .f32⟩
  | .local _ .vmem, ⟨69, _⟩ => ⟨S1x1x128, .f32⟩
  | .local _ .vmem, ⟨70, _⟩ => ⟨S1x1x128, .f32⟩
  | .local _ .vmem, ⟨71, _⟩ => ⟨S1x1x128, .f32⟩
  | .local _ .vmem, ⟨72, _⟩ => ⟨S1x1x128, .f32⟩
  | .local _ .vmem, ⟨73, _⟩ => ⟨S1x1x128, .f32⟩
  | .local _ .vmem, ⟨74, _⟩ => ⟨S1x1x128, .f32⟩
  | .local _ .vmem, ⟨75, _⟩ => ⟨S1x1x128, .f32⟩
  | .local _ .vmem, ⟨76, _⟩ => ⟨S1x1x128, .f32⟩
  | .local _ .vmem, ⟨77, _⟩ => ⟨S1x1x128, .f32⟩
  | .local _ .vmem, ⟨78, _⟩ => ⟨S1x1x128, .f32⟩
  | .local _ .vmem, ⟨79, _⟩ => ⟨S1x1x128, .f32⟩
  | .local _ .vmem, ⟨80, _⟩ => ⟨S1x1x128, .f32⟩
  | .local _ .vmem, ⟨81, _⟩ => ⟨S1x1x128, .f32⟩
  | .local _ .vmem, ⟨82, _⟩ => ⟨S1x1x128, .f32⟩
  | .local _ .vmem, ⟨83, _⟩ => ⟨S1x1x128, .f32⟩
  | .local _ .vmem, ⟨84, _⟩ => ⟨S1x1x128, .f32⟩
  | .local _ .vmem, ⟨85, _⟩ => ⟨S1x1x128, .f32⟩
  | .local _ .vmem, ⟨86, _⟩ => ⟨S1x1x128, .f32⟩
  | .local _ .vmem, ⟨87, _⟩ => ⟨S1x1x128, .f32⟩
  | .local _ .vmem, ⟨88, _⟩ => ⟨S1x1x128, .f32⟩
  | .local _ .vmem, ⟨89, _⟩ => ⟨S1x1x128, .f32⟩
  | .local _ .vmem, ⟨90, _⟩ => ⟨S1x1x128, .f32⟩
  | .local _ .vmem, ⟨91, _⟩ => ⟨S1x1x128, .f32⟩
  | .local _ .vmem, ⟨92, _⟩ => ⟨S1x1x128, .f32⟩
  | .local _ .vmem, ⟨93, _⟩ => ⟨S1x1x128, .f32⟩
  | .local _ .vmem, ⟨94, _⟩ => ⟨S1x1x128, .f32⟩
  | .local _ .vmem, ⟨95, _⟩ => ⟨S1x1x128, .f32⟩
  | .local _ .vmem, ⟨96, _⟩ => ⟨S1x1x128, .f32⟩
  | .local _ .vmem, ⟨97, _⟩ => ⟨S1x1x128, .f32⟩
  | .local _ .vmem, ⟨98, _⟩ => ⟨S1x1x128, .f32⟩
  | .local _ .vmem, ⟨99, _⟩ => ⟨S1x1x128, .f32⟩
  | .local _ .vmem, ⟨100, _⟩ => ⟨S1x1x128, .f32⟩
  | .local _ .vmem, ⟨101, _⟩ => ⟨S1x1x128, .f32⟩
  | .local _ .vmem, ⟨102, _⟩ => ⟨S1x1x128, .f32⟩
  | .local _ .vmem, ⟨103, _⟩ => ⟨S1x1x128, .f32⟩
  | .local _ .vmem, ⟨104, _⟩ => ⟨S1x1x128, .f32⟩
  | .local _ .vmem, ⟨105, _⟩ => ⟨S1x1x128, .f32⟩
  | .local _ .vmem, ⟨106, _⟩ => ⟨S1x1x128, .f32⟩
  | .local _ .vmem, ⟨107, _⟩ => ⟨S1x1x128, .f32⟩
  | .local _ .vmem, ⟨108, _⟩ => ⟨S1x1x128, .f32⟩
  | .local _ .vmem, ⟨109, _⟩ => ⟨S1x1x128, .f32⟩
  | .local _ .vmem, ⟨110, _⟩ => ⟨S1x1x128, .f32⟩
  | .local _ .vmem, ⟨111, _⟩ => ⟨S1x1x128, .f32⟩
  | .local _ .vmem, ⟨112, _⟩ => ⟨S1x1x128, .f32⟩
  | .local _ .vmem, ⟨113, _⟩ => ⟨S1x1x128, .f32⟩
  | .local _ .vmem, ⟨114, _⟩ => ⟨S1x1x128, .f32⟩
  | .local _ .vmem, ⟨115, _⟩ => ⟨S1x1x128, .f32⟩
  | .local _ .vmem, ⟨116, _⟩ => ⟨S1x1x128, .f32⟩
  | .local _ .vmem, ⟨117, _⟩ => ⟨S1x1x128, .f32⟩
  | .local _ .vmem, ⟨118, _⟩ => ⟨S1x1x128, .f32⟩
  | .local _ .vmem, ⟨119, _⟩ => ⟨S1x1x128, .f32⟩
  | .local _ .vmem, ⟨120, _⟩ => ⟨S1x1x128, .f32⟩
  | .local _ .vmem, ⟨121, _⟩ => ⟨S1x1x128, .f32⟩
  | .local _ .vmem, ⟨122, _⟩ => ⟨S1x1x128, .f32⟩
  | .local _ .vmem, ⟨123, _⟩ => ⟨S1x1x128, .f32⟩
  | .local _ .vmem, ⟨124, _⟩ => ⟨S1x1x128, .f32⟩
  | .local _ .vmem, ⟨125, _⟩ => ⟨S1x1x128, .f32⟩
  | .local _ .vmem, ⟨126, _⟩ => ⟨S1x1x128, .f32⟩
  | .local _ .vmem, ⟨127, _⟩ => ⟨S1x1x128, .f32⟩
  | .local _ .smem, ⟨0, _⟩ => ⟨S40000, .i32⟩
  | .local _ .smem, ⟨1, _⟩ => ⟨S40000, .i32⟩
  | .local _ .smem, ⟨2, _⟩ => ⟨S40000, .i32⟩
  | .local _ .smem, ⟨3, _⟩ => ⟨S40000, .i32⟩
  | .local _ .smem, ⟨4, _⟩ => ⟨S40000, .i32⟩
  | .local _ .smem, ⟨5, _⟩ => ⟨S40000, .i32⟩
  | .local _ .smem, ⟨6, _⟩ => ⟨S40000, .i32⟩
  | .local _ .smem, ⟨7, _⟩ => ⟨S40000, .i32⟩
  | .local _ .smem, ⟨8, _⟩ => ⟨S40000, .i32⟩
  | .local _ .smem, ⟨9, _⟩ => ⟨S40000, .i32⟩
  | .local _ .smem, ⟨10, _⟩ => ⟨S40000, .i32⟩
  | .local _ .smem, ⟨11, _⟩ => ⟨S40000, .i32⟩
  | .local _ .smem, ⟨12, _⟩ => ⟨S40000, .i32⟩
  | .local _ .smem, ⟨13, _⟩ => ⟨S40000, .i32⟩
  | .local _ .smem, ⟨14, _⟩ => ⟨S40000, .i32⟩
  | .local _ .smem, ⟨15, _⟩ => ⟨S40000, .i32⟩
  | .local _ .smem, ⟨16, _⟩ => ⟨S40000, .i32⟩
  | .local _ .smem, ⟨17, _⟩ => ⟨S40000, .i32⟩
  | .local _ .smem, ⟨18, _⟩ => ⟨S40000, .i32⟩
  | .local _ .smem, ⟨19, _⟩ => ⟨S40000, .i32⟩
  | .local _ .smem, ⟨20, _⟩ => ⟨S40000, .i32⟩
  | .local _ .smem, ⟨21, _⟩ => ⟨S40000, .i32⟩
  | .local _ .smem, ⟨22, _⟩ => ⟨S40000, .i32⟩
  | .local _ .smem, ⟨23, _⟩ => ⟨S40000, .i32⟩
  | .local _ .smem, ⟨24, _⟩ => ⟨S40000, .i32⟩
  | .local _ .smem, ⟨25, _⟩ => ⟨S40000, .i32⟩
  | .local _ .smem, ⟨26, _⟩ => ⟨S40000, .i32⟩
  | .local _ .smem, ⟨27, _⟩ => ⟨S40000, .i32⟩
  | .local _ .smem, ⟨28, _⟩ => ⟨S40000, .i32⟩
  | .local _ .smem, ⟨29, _⟩ => ⟨S40000, .i32⟩
  | .local _ .smem, ⟨30, _⟩ => ⟨S40000, .i32⟩
  | .local _ .smem, ⟨31, _⟩ => ⟨S40000, .i32⟩
  | .local _ .smem, ⟨32, _⟩ => ⟨S40000, .i32⟩
  | .local _ .smem, ⟨33, _⟩ => ⟨S40000, .i32⟩
  | .local _ .smem, ⟨34, _⟩ => ⟨S40000, .i32⟩
  | .local _ .smem, ⟨35, _⟩ => ⟨S40000, .i32⟩
  | .local _ .smem, ⟨36, _⟩ => ⟨S40000, .i32⟩
  | .local _ .smem, ⟨37, _⟩ => ⟨S40000, .i32⟩
  | .local _ .smem, ⟨38, _⟩ => ⟨S40000, .i32⟩
  | .local _ .smem, ⟨39, _⟩ => ⟨S40000, .i32⟩
  | _, _ => ⟨S2x50000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | .vmem, ⟨76, _⟩ => true
  | .vmem, ⟨77, _⟩ => true
  | .vmem, ⟨78, _⟩ => true
  | .vmem, ⟨79, _⟩ => true
  | .vmem, ⟨80, _⟩ => true
  | .vmem, ⟨81, _⟩ => true
  | .vmem, ⟨82, _⟩ => true
  | .vmem, ⟨83, _⟩ => true
  | .vmem, ⟨84, _⟩ => true
  | .vmem, ⟨85, _⟩ => true
  | .vmem, ⟨86, _⟩ => true
  | .vmem, ⟨87, _⟩ => true
  | .vmem, ⟨88, _⟩ => true
  | .vmem, ⟨89, _⟩ => true
  | .vmem, ⟨90, _⟩ => true
  | .vmem, ⟨91, _⟩ => true
  | .vmem, ⟨92, _⟩ => true
  | .vmem, ⟨93, _⟩ => true
  | .vmem, ⟨94, _⟩ => true
  | .vmem, ⟨95, _⟩ => true
  | .vmem, ⟨96, _⟩ => true
  | .vmem, ⟨97, _⟩ => true
  | .vmem, ⟨98, _⟩ => true
  | .vmem, ⟨99, _⟩ => true
  | .vmem, ⟨100, _⟩ => true
  | .vmem, ⟨101, _⟩ => true
  | .vmem, ⟨102, _⟩ => true
  | .vmem, ⟨103, _⟩ => true
  | .vmem, ⟨104, _⟩ => true
  | .vmem, ⟨105, _⟩ => true
  | .vmem, ⟨106, _⟩ => true
  | .vmem, ⟨107, _⟩ => true
  | .vmem, ⟨108, _⟩ => true
  | .vmem, ⟨109, _⟩ => true
  | .vmem, ⟨110, _⟩ => true
  | .vmem, ⟨111, _⟩ => true
  | .vmem, ⟨112, _⟩ => true
  | .vmem, ⟨113, _⟩ => true
  | .vmem, ⟨114, _⟩ => true
  | .vmem, ⟨115, _⟩ => true
  | .vmem, ⟨116, _⟩ => true
  | .vmem, ⟨117, _⟩ => true
  | .vmem, ⟨118, _⟩ => true
  | .vmem, ⟨119, _⟩ => true
  | .vmem, ⟨120, _⟩ => true
  | .vmem, ⟨121, _⟩ => true
  | .vmem, ⟨122, _⟩ => true
  | .vmem, ⟨123, _⟩ => true
  | .vmem, ⟨124, _⟩ => true
  | .vmem, ⟨125, _⟩ => true
  | .vmem, ⟨126, _⟩ => true
  | .vmem, ⟨127, _⟩ => true
  | _, _ => false

abbrev semScoped : Fin 0 → Bool
  | ⟨_, h⟩ => absurd h (Nat.not_lt_zero _)

abbrev dmaSemScoped : Fin 128 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | ⟨86, _⟩ => true
  | ⟨87, _⟩ => true
  | ⟨88, _⟩ => true
  | ⟨89, _⟩ => true
  | ⟨90, _⟩ => true
  | ⟨91, _⟩ => true
  | ⟨92, _⟩ => true
  | ⟨93, _⟩ => true
  | ⟨94, _⟩ => true
  | ⟨95, _⟩ => true
  | ⟨96, _⟩ => true
  | ⟨97, _⟩ => true
  | ⟨98, _⟩ => true
  | ⟨99, _⟩ => true
  | ⟨100, _⟩ => true
  | ⟨101, _⟩ => true
  | ⟨102, _⟩ => true
  | ⟨103, _⟩ => true
  | ⟨104, _⟩ => true
  | ⟨105, _⟩ => true
  | ⟨106, _⟩ => true
  | ⟨107, _⟩ => true
  | ⟨108, _⟩ => true
  | ⟨109, _⟩ => true
  | ⟨110, _⟩ => true
  | ⟨111, _⟩ => true
  | ⟨112, _⟩ => true
  | ⟨113, _⟩ => true
  | ⟨114, _⟩ => true
  | ⟨115, _⟩ => true
  | ⟨116, _⟩ => true
  | ⟨117, _⟩ => true
  | ⟨118, _⟩ => true
  | ⟨119, _⟩ => true
  | ⟨120, _⟩ => true
  | ⟨121, _⟩ => true
  | ⟨122, _⟩ => true
  | ⟨123, _⟩ => true
  | ⟨124, _⟩ => true
  | ⟨125, _⟩ => true
  | ⟨126, _⟩ => true
  | ⟨127, _⟩ => true
  | _ => false

abbrev sig : RefSig :=
  ofTc nBuf bufTy 0 128 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v7 : Ref sig .tc := ⟨.hbm, 11, rfl⟩
abbrev main_v8 : Ref sig .tc := ⟨.hbm, 12, rfl⟩
abbrev main_v11 : Ref sig .tc := ⟨.hbm, 13, rfl⟩
abbrev main_v12 : Ref sig .tc := ⟨.hbm, 14, rfl⟩
abbrev main_v15 : Ref sig .tc := ⟨.hbm, 15, rfl⟩
abbrev main_v16 : Ref sig .tc := ⟨.hbm, 16, rfl⟩
abbrev main_v19 : Ref sig .tc := ⟨.hbm, 17, rfl⟩
abbrev main_v20 : Ref sig .tc := ⟨.hbm, 18, rfl⟩
abbrev main_v23 : Ref sig .tc := ⟨.hbm, 19, rfl⟩
abbrev main_v24 : Ref sig .tc := ⟨.hbm, 20, rfl⟩
abbrev main_v27 : Ref sig .tc := ⟨.hbm, 21, rfl⟩
abbrev main_v28 : Ref sig .tc := ⟨.hbm, 22, rfl⟩
abbrev main_v31 : Ref sig .tc := ⟨.hbm, 23, rfl⟩
abbrev main_v32 : Ref sig .tc := ⟨.hbm, 24, rfl⟩
abbrev main_v35 : Ref sig .tc := ⟨.hbm, 25, rfl⟩
abbrev main_v36 : Ref sig .tc := ⟨.hbm, 26, rfl⟩
abbrev main_v39 : Ref sig .tc := ⟨.hbm, 27, rfl⟩
abbrev main_v40 : Ref sig .tc := ⟨.hbm, 28, rfl⟩
abbrev main_v43 : Ref sig .tc := ⟨.hbm, 29, rfl⟩
abbrev main_v44 : Ref sig .tc := ⟨.hbm, 30, rfl⟩
abbrev main_v47 : Ref sig .tc := ⟨.hbm, 31, rfl⟩
abbrev main_v48 : Ref sig .tc := ⟨.hbm, 32, rfl⟩
abbrev main_v51 : Ref sig .tc := ⟨.hbm, 33, rfl⟩
abbrev main_v52 : Ref sig .tc := ⟨.hbm, 34, rfl⟩
abbrev main_v55 : Ref sig .tc := ⟨.hbm, 35, rfl⟩
abbrev main_v56 : Ref sig .tc := ⟨.hbm, 36, rfl⟩
abbrev main_v59 : Ref sig .tc := ⟨.hbm, 37, rfl⟩
abbrev main_v60 : Ref sig .tc := ⟨.hbm, 38, rfl⟩
abbrev main_v63 : Ref sig .tc := ⟨.hbm, 39, rfl⟩
abbrev main_v64 : Ref sig .tc := ⟨.hbm, 40, rfl⟩
abbrev main_v67 : Ref sig .tc := ⟨.hbm, 41, rfl⟩
abbrev main_v68 : Ref sig .tc := ⟨.hbm, 42, rfl⟩
abbrev main_v71 : Ref sig .tc := ⟨.hbm, 43, rfl⟩
abbrev main_v72 : Ref sig .tc := ⟨.hbm, 44, rfl⟩
abbrev main_v75 : Ref sig .tc := ⟨.hbm, 45, rfl⟩
abbrev main_v76 : Ref sig .tc := ⟨.hbm, 46, rfl⟩
abbrev main_v79 : Ref sig .tc := ⟨.hbm, 47, rfl⟩
abbrev main_v80 : Ref sig .tc := ⟨.hbm, 48, rfl⟩
abbrev main_v83 : Ref sig .tc := ⟨.hbm, 49, rfl⟩
abbrev main_v84 : Ref sig .tc := ⟨.hbm, 50, rfl⟩
abbrev main_v85 : Ref sig .tc := ⟨.hbm, 51, rfl⟩
abbrev main_v86 : Ref sig .tc := ⟨.hbm, 52, rfl⟩
abbrev main_v87 : Ref sig .tc := ⟨.hbm, 53, rfl⟩
abbrev main_v88 : Ref sig .tc := ⟨.hbm, 54, rfl⟩
abbrev main_v89 : Ref sig .tc := ⟨.hbm, 55, rfl⟩
abbrev main_v5 : Ref sig .tc := ⟨.smem, 0, rfl⟩
abbrev main_v6 : Ref sig .tc := ⟨.smem, 1, rfl⟩
abbrev main_v9 : Ref sig .tc := ⟨.smem, 2, rfl⟩
abbrev main_v10 : Ref sig .tc := ⟨.smem, 3, rfl⟩
abbrev main_v13 : Ref sig .tc := ⟨.smem, 4, rfl⟩
abbrev main_v14 : Ref sig .tc := ⟨.smem, 5, rfl⟩
abbrev main_v17 : Ref sig .tc := ⟨.smem, 6, rfl⟩
abbrev main_v18 : Ref sig .tc := ⟨.smem, 7, rfl⟩
abbrev main_v21 : Ref sig .tc := ⟨.smem, 8, rfl⟩
abbrev main_v22 : Ref sig .tc := ⟨.smem, 9, rfl⟩
abbrev main_v25 : Ref sig .tc := ⟨.smem, 10, rfl⟩
abbrev main_v26 : Ref sig .tc := ⟨.smem, 11, rfl⟩
abbrev main_v29 : Ref sig .tc := ⟨.smem, 12, rfl⟩
abbrev main_v30 : Ref sig .tc := ⟨.smem, 13, rfl⟩
abbrev main_v33 : Ref sig .tc := ⟨.smem, 14, rfl⟩
abbrev main_v34 : Ref sig .tc := ⟨.smem, 15, rfl⟩
abbrev main_v37 : Ref sig .tc := ⟨.smem, 16, rfl⟩
abbrev main_v38 : Ref sig .tc := ⟨.smem, 17, rfl⟩
abbrev main_v41 : Ref sig .tc := ⟨.smem, 18, rfl⟩
abbrev main_v42 : Ref sig .tc := ⟨.smem, 19, rfl⟩
abbrev main_v45 : Ref sig .tc := ⟨.smem, 20, rfl⟩
abbrev main_v46 : Ref sig .tc := ⟨.smem, 21, rfl⟩
abbrev main_v49 : Ref sig .tc := ⟨.smem, 22, rfl⟩
abbrev main_v50 : Ref sig .tc := ⟨.smem, 23, rfl⟩
abbrev main_v53 : Ref sig .tc := ⟨.smem, 24, rfl⟩
abbrev main_v54 : Ref sig .tc := ⟨.smem, 25, rfl⟩
abbrev main_v57 : Ref sig .tc := ⟨.smem, 26, rfl⟩
abbrev main_v58 : Ref sig .tc := ⟨.smem, 27, rfl⟩
abbrev main_v61 : Ref sig .tc := ⟨.smem, 28, rfl⟩
abbrev main_v62 : Ref sig .tc := ⟨.smem, 29, rfl⟩
abbrev main_v65 : Ref sig .tc := ⟨.smem, 30, rfl⟩
abbrev main_v66 : Ref sig .tc := ⟨.smem, 31, rfl⟩
abbrev main_v69 : Ref sig .tc := ⟨.smem, 32, rfl⟩
abbrev main_v70 : Ref sig .tc := ⟨.smem, 33, rfl⟩
abbrev main_v73 : Ref sig .tc := ⟨.smem, 34, rfl⟩
abbrev main_v74 : Ref sig .tc := ⟨.smem, 35, rfl⟩
abbrev main_v77 : Ref sig .tc := ⟨.smem, 36, rfl⟩
abbrev main_v78 : Ref sig .tc := ⟨.smem, 37, rfl⟩
abbrev main_v81 : Ref sig .tc := ⟨.smem, 38, rfl⟩
abbrev main_v82 : Ref sig .tc := ⟨.smem, 39, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg2_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg1_1 : Ref sig .tc := ⟨.vmem, 17, rfl⟩
abbrev cc2_stg2_0 : Ref sig .tc := ⟨.vmem, 18, rfl⟩
abbrev cc2_stg2_1 : Ref sig .tc := ⟨.vmem, 19, rfl⟩
abbrev cc3_stg0_0 : Ref sig .tc := ⟨.vmem, 20, rfl⟩
abbrev cc3_stg0_1 : Ref sig .tc := ⟨.vmem, 21, rfl⟩
abbrev cc3_stg1_0 : Ref sig .tc := ⟨.vmem, 22, rfl⟩
abbrev cc3_stg1_1 : Ref sig .tc := ⟨.vmem, 23, rfl⟩
abbrev cc3_stg2_0 : Ref sig .tc := ⟨.vmem, 24, rfl⟩
abbrev cc3_stg2_1 : Ref sig .tc := ⟨.vmem, 25, rfl⟩
abbrev cc4_stg0_0 : Ref sig .tc := ⟨.vmem, 26, rfl⟩
abbrev cc4_stg0_1 : Ref sig .tc := ⟨.vmem, 27, rfl⟩
abbrev cc4_stg1_0 : Ref sig .tc := ⟨.vmem, 28, rfl⟩
abbrev cc4_stg1_1 : Ref sig .tc := ⟨.vmem, 29, rfl⟩
abbrev cc4_stg2_0 : Ref sig .tc := ⟨.vmem, 30, rfl⟩
abbrev cc4_stg2_1 : Ref sig .tc := ⟨.vmem, 31, rfl⟩
abbrev cc5_stg0_0 : Ref sig .tc := ⟨.vmem, 32, rfl⟩
abbrev cc5_stg0_1 : Ref sig .tc := ⟨.vmem, 33, rfl⟩
abbrev cc5_stg1_0 : Ref sig .tc := ⟨.vmem, 34, rfl⟩
abbrev cc5_stg1_1 : Ref sig .tc := ⟨.vmem, 35, rfl⟩
abbrev cc5_stg2_0 : Ref sig .tc := ⟨.vmem, 36, rfl⟩
abbrev cc5_stg2_1 : Ref sig .tc := ⟨.vmem, 37, rfl⟩
abbrev cc6_stg0_0 : Ref sig .tc := ⟨.vmem, 38, rfl⟩
abbrev cc6_stg0_1 : Ref sig .tc := ⟨.vmem, 39, rfl⟩
abbrev cc6_stg1_0 : Ref sig .tc := ⟨.vmem, 40, rfl⟩
abbrev cc6_stg1_1 : Ref sig .tc := ⟨.vmem, 41, rfl⟩
abbrev cc6_stg2_0 : Ref sig .tc := ⟨.vmem, 42, rfl⟩
abbrev cc6_stg2_1 : Ref sig .tc := ⟨.vmem, 43, rfl⟩
abbrev cc7_stg0_0 : Ref sig .tc := ⟨.vmem, 44, rfl⟩
abbrev cc7_stg0_1 : Ref sig .tc := ⟨.vmem, 45, rfl⟩
abbrev cc7_stg1_0 : Ref sig .tc := ⟨.vmem, 46, rfl⟩
abbrev cc7_stg1_1 : Ref sig .tc := ⟨.vmem, 47, rfl⟩
abbrev cc7_stg2_0 : Ref sig .tc := ⟨.vmem, 48, rfl⟩
abbrev cc7_stg2_1 : Ref sig .tc := ⟨.vmem, 49, rfl⟩
abbrev cc8_stg0_0 : Ref sig .tc := ⟨.vmem, 50, rfl⟩
abbrev cc8_stg0_1 : Ref sig .tc := ⟨.vmem, 51, rfl⟩
abbrev cc8_stg1_0 : Ref sig .tc := ⟨.vmem, 52, rfl⟩
abbrev cc8_stg1_1 : Ref sig .tc := ⟨.vmem, 53, rfl⟩
abbrev cc8_stg2_0 : Ref sig .tc := ⟨.vmem, 54, rfl⟩
abbrev cc8_stg2_1 : Ref sig .tc := ⟨.vmem, 55, rfl⟩
abbrev cc9_stg0_0 : Ref sig .tc := ⟨.vmem, 56, rfl⟩
abbrev cc9_stg0_1 : Ref sig .tc := ⟨.vmem, 57, rfl⟩
abbrev cc9_stg1_0 : Ref sig .tc := ⟨.vmem, 58, rfl⟩
abbrev cc9_stg1_1 : Ref sig .tc := ⟨.vmem, 59, rfl⟩
abbrev cc9_stg2_0 : Ref sig .tc := ⟨.vmem, 60, rfl⟩
abbrev cc9_stg2_1 : Ref sig .tc := ⟨.vmem, 61, rfl⟩
abbrev cc10_stg0_0 : Ref sig .tc := ⟨.vmem, 62, rfl⟩
abbrev cc10_stg0_1 : Ref sig .tc := ⟨.vmem, 63, rfl⟩
abbrev cc10_stg1_0 : Ref sig .tc := ⟨.vmem, 64, rfl⟩
abbrev cc10_stg1_1 : Ref sig .tc := ⟨.vmem, 65, rfl⟩
abbrev cc10_stg2_0 : Ref sig .tc := ⟨.vmem, 66, rfl⟩
abbrev cc10_stg2_1 : Ref sig .tc := ⟨.vmem, 67, rfl⟩
abbrev cc11_stg0_0 : Ref sig .tc := ⟨.vmem, 68, rfl⟩
abbrev cc11_stg0_1 : Ref sig .tc := ⟨.vmem, 69, rfl⟩
abbrev cc11_stg1_0 : Ref sig .tc := ⟨.vmem, 70, rfl⟩
abbrev cc11_stg1_1 : Ref sig .tc := ⟨.vmem, 71, rfl⟩
abbrev cc11_stg2_0 : Ref sig .tc := ⟨.vmem, 72, rfl⟩
abbrev cc11_stg2_1 : Ref sig .tc := ⟨.vmem, 73, rfl⟩
abbrev cc12_stg0_0 : Ref sig .tc := ⟨.vmem, 74, rfl⟩
abbrev cc12_stg0_1 : Ref sig .tc := ⟨.vmem, 75, rfl⟩
abbrev cc12_stg1_0 : Ref sig .tc := ⟨.vmem, 76, rfl⟩
abbrev cc12_stg1_1 : Ref sig .tc := ⟨.vmem, 77, rfl⟩
abbrev cc12_stg2_0 : Ref sig .tc := ⟨.vmem, 78, rfl⟩
abbrev cc12_stg2_1 : Ref sig .tc := ⟨.vmem, 79, rfl⟩
abbrev cc13_stg0_0 : Ref sig .tc := ⟨.vmem, 80, rfl⟩
abbrev cc13_stg0_1 : Ref sig .tc := ⟨.vmem, 81, rfl⟩
abbrev cc13_stg1_0 : Ref sig .tc := ⟨.vmem, 82, rfl⟩
abbrev cc13_stg1_1 : Ref sig .tc := ⟨.vmem, 83, rfl⟩
abbrev cc13_stg2_0 : Ref sig .tc := ⟨.vmem, 84, rfl⟩
abbrev cc13_stg2_1 : Ref sig .tc := ⟨.vmem, 85, rfl⟩
abbrev cc14_stg0_0 : Ref sig .tc := ⟨.vmem, 86, rfl⟩
abbrev cc14_stg0_1 : Ref sig .tc := ⟨.vmem, 87, rfl⟩
abbrev cc14_stg1_0 : Ref sig .tc := ⟨.vmem, 88, rfl⟩
abbrev cc14_stg1_1 : Ref sig .tc := ⟨.vmem, 89, rfl⟩
abbrev cc14_stg2_0 : Ref sig .tc := ⟨.vmem, 90, rfl⟩
abbrev cc14_stg2_1 : Ref sig .tc := ⟨.vmem, 91, rfl⟩
abbrev cc15_stg0_0 : Ref sig .tc := ⟨.vmem, 92, rfl⟩
abbrev cc15_stg0_1 : Ref sig .tc := ⟨.vmem, 93, rfl⟩
abbrev cc15_stg1_0 : Ref sig .tc := ⟨.vmem, 94, rfl⟩
abbrev cc15_stg1_1 : Ref sig .tc := ⟨.vmem, 95, rfl⟩
abbrev cc15_stg2_0 : Ref sig .tc := ⟨.vmem, 96, rfl⟩
abbrev cc15_stg2_1 : Ref sig .tc := ⟨.vmem, 97, rfl⟩
abbrev cc16_stg0_0 : Ref sig .tc := ⟨.vmem, 98, rfl⟩
abbrev cc16_stg0_1 : Ref sig .tc := ⟨.vmem, 99, rfl⟩
abbrev cc16_stg1_0 : Ref sig .tc := ⟨.vmem, 100, rfl⟩
abbrev cc16_stg1_1 : Ref sig .tc := ⟨.vmem, 101, rfl⟩
abbrev cc16_stg2_0 : Ref sig .tc := ⟨.vmem, 102, rfl⟩
abbrev cc16_stg2_1 : Ref sig .tc := ⟨.vmem, 103, rfl⟩
abbrev cc17_stg0_0 : Ref sig .tc := ⟨.vmem, 104, rfl⟩
abbrev cc17_stg0_1 : Ref sig .tc := ⟨.vmem, 105, rfl⟩
abbrev cc17_stg1_0 : Ref sig .tc := ⟨.vmem, 106, rfl⟩
abbrev cc17_stg1_1 : Ref sig .tc := ⟨.vmem, 107, rfl⟩
abbrev cc17_stg2_0 : Ref sig .tc := ⟨.vmem, 108, rfl⟩
abbrev cc17_stg2_1 : Ref sig .tc := ⟨.vmem, 109, rfl⟩
abbrev cc18_stg0_0 : Ref sig .tc := ⟨.vmem, 110, rfl⟩
abbrev cc18_stg0_1 : Ref sig .tc := ⟨.vmem, 111, rfl⟩
abbrev cc18_stg1_0 : Ref sig .tc := ⟨.vmem, 112, rfl⟩
abbrev cc18_stg1_1 : Ref sig .tc := ⟨.vmem, 113, rfl⟩
abbrev cc18_stg2_0 : Ref sig .tc := ⟨.vmem, 114, rfl⟩
abbrev cc18_stg2_1 : Ref sig .tc := ⟨.vmem, 115, rfl⟩
abbrev cc19_stg0_0 : Ref sig .tc := ⟨.vmem, 116, rfl⟩
abbrev cc19_stg0_1 : Ref sig .tc := ⟨.vmem, 117, rfl⟩
abbrev cc19_stg1_0 : Ref sig .tc := ⟨.vmem, 118, rfl⟩
abbrev cc19_stg1_1 : Ref sig .tc := ⟨.vmem, 119, rfl⟩
abbrev cc19_stg2_0 : Ref sig .tc := ⟨.vmem, 120, rfl⟩
abbrev cc19_stg2_1 : Ref sig .tc := ⟨.vmem, 121, rfl⟩
abbrev cc20_stg0_0 : Ref sig .tc := ⟨.vmem, 122, rfl⟩
abbrev cc20_stg0_1 : Ref sig .tc := ⟨.vmem, 123, rfl⟩
abbrev cc20_stg1_0 : Ref sig .tc := ⟨.vmem, 124, rfl⟩
abbrev cc20_stg1_1 : Ref sig .tc := ⟨.vmem, 125, rfl⟩
abbrev cc20_stg2_0 : Ref sig .tc := ⟨.vmem, 126, rfl⟩
abbrev cc20_stg2_1 : Ref sig .tc := ⟨.vmem, 127, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13
abbrev cc2_sem0_0 : DmaSem sig := 14
abbrev cc2_sem0_1 : DmaSem sig := 15
abbrev cc2_sem1_0 : DmaSem sig := 16
abbrev cc2_sem1_1 : DmaSem sig := 17
abbrev cc2_sem2_0 : DmaSem sig := 18
abbrev cc2_sem2_1 : DmaSem sig := 19
abbrev cc3_sem0_0 : DmaSem sig := 20
abbrev cc3_sem0_1 : DmaSem sig := 21
abbrev cc3_sem1_0 : DmaSem sig := 22
abbrev cc3_sem1_1 : DmaSem sig := 23
abbrev cc3_sem2_0 : DmaSem sig := 24
abbrev cc3_sem2_1 : DmaSem sig := 25
abbrev cc4_sem0_0 : DmaSem sig := 26
abbrev cc4_sem0_1 : DmaSem sig := 27
abbrev cc4_sem1_0 : DmaSem sig := 28
abbrev cc4_sem1_1 : DmaSem sig := 29
abbrev cc4_sem2_0 : DmaSem sig := 30
abbrev cc4_sem2_1 : DmaSem sig := 31
abbrev cc5_sem0_0 : DmaSem sig := 32
abbrev cc5_sem0_1 : DmaSem sig := 33
abbrev cc5_sem1_0 : DmaSem sig := 34
abbrev cc5_sem1_1 : DmaSem sig := 35
abbrev cc5_sem2_0 : DmaSem sig := 36
abbrev cc5_sem2_1 : DmaSem sig := 37
abbrev cc6_sem0_0 : DmaSem sig := 38
abbrev cc6_sem0_1 : DmaSem sig := 39
abbrev cc6_sem1_0 : DmaSem sig := 40
abbrev cc6_sem1_1 : DmaSem sig := 41
abbrev cc6_sem2_0 : DmaSem sig := 42
abbrev cc6_sem2_1 : DmaSem sig := 43
abbrev cc7_sem0_0 : DmaSem sig := 44
abbrev cc7_sem0_1 : DmaSem sig := 45
abbrev cc7_sem1_0 : DmaSem sig := 46
abbrev cc7_sem1_1 : DmaSem sig := 47
abbrev cc7_sem2_0 : DmaSem sig := 48
abbrev cc7_sem2_1 : DmaSem sig := 49
abbrev cc8_sem0_0 : DmaSem sig := 50
abbrev cc8_sem0_1 : DmaSem sig := 51
abbrev cc8_sem1_0 : DmaSem sig := 52
abbrev cc8_sem1_1 : DmaSem sig := 53
abbrev cc8_sem2_0 : DmaSem sig := 54
abbrev cc8_sem2_1 : DmaSem sig := 55
abbrev cc9_sem0_0 : DmaSem sig := 56
abbrev cc9_sem0_1 : DmaSem sig := 57
abbrev cc9_sem1_0 : DmaSem sig := 58
abbrev cc9_sem1_1 : DmaSem sig := 59
abbrev cc9_sem2_0 : DmaSem sig := 60
abbrev cc9_sem2_1 : DmaSem sig := 61
abbrev cc10_sem0_0 : DmaSem sig := 62
abbrev cc10_sem0_1 : DmaSem sig := 63
abbrev cc10_sem1_0 : DmaSem sig := 64
abbrev cc10_sem1_1 : DmaSem sig := 65
abbrev cc10_sem2_0 : DmaSem sig := 66
abbrev cc10_sem2_1 : DmaSem sig := 67
abbrev cc11_sem0_0 : DmaSem sig := 68
abbrev cc11_sem0_1 : DmaSem sig := 69
abbrev cc11_sem1_0 : DmaSem sig := 70
abbrev cc11_sem1_1 : DmaSem sig := 71
abbrev cc11_sem2_0 : DmaSem sig := 72
abbrev cc11_sem2_1 : DmaSem sig := 73
abbrev cc12_sem0_0 : DmaSem sig := 74
abbrev cc12_sem0_1 : DmaSem sig := 75
abbrev cc12_sem1_0 : DmaSem sig := 76
abbrev cc12_sem1_1 : DmaSem sig := 77
abbrev cc12_sem2_0 : DmaSem sig := 78
abbrev cc12_sem2_1 : DmaSem sig := 79
abbrev cc13_sem0_0 : DmaSem sig := 80
abbrev cc13_sem0_1 : DmaSem sig := 81
abbrev cc13_sem1_0 : DmaSem sig := 82
abbrev cc13_sem1_1 : DmaSem sig := 83
abbrev cc13_sem2_0 : DmaSem sig := 84
abbrev cc13_sem2_1 : DmaSem sig := 85
abbrev cc14_sem0_0 : DmaSem sig := 86
abbrev cc14_sem0_1 : DmaSem sig := 87
abbrev cc14_sem1_0 : DmaSem sig := 88
abbrev cc14_sem1_1 : DmaSem sig := 89
abbrev cc14_sem2_0 : DmaSem sig := 90
abbrev cc14_sem2_1 : DmaSem sig := 91
abbrev cc15_sem0_0 : DmaSem sig := 92
abbrev cc15_sem0_1 : DmaSem sig := 93
abbrev cc15_sem1_0 : DmaSem sig := 94
abbrev cc15_sem1_1 : DmaSem sig := 95
abbrev cc15_sem2_0 : DmaSem sig := 96
abbrev cc15_sem2_1 : DmaSem sig := 97
abbrev cc16_sem0_0 : DmaSem sig := 98
abbrev cc16_sem0_1 : DmaSem sig := 99
abbrev cc16_sem1_0 : DmaSem sig := 100
abbrev cc16_sem1_1 : DmaSem sig := 101
abbrev cc16_sem2_0 : DmaSem sig := 102
abbrev cc16_sem2_1 : DmaSem sig := 103
abbrev cc17_sem0_0 : DmaSem sig := 104
abbrev cc17_sem0_1 : DmaSem sig := 105
abbrev cc17_sem1_0 : DmaSem sig := 106
abbrev cc17_sem1_1 : DmaSem sig := 107
abbrev cc17_sem2_0 : DmaSem sig := 108
abbrev cc17_sem2_1 : DmaSem sig := 109
abbrev cc18_sem0_0 : DmaSem sig := 110
abbrev cc18_sem0_1 : DmaSem sig := 111
abbrev cc18_sem1_0 : DmaSem sig := 112
abbrev cc18_sem1_1 : DmaSem sig := 113
abbrev cc18_sem2_0 : DmaSem sig := 114
abbrev cc18_sem2_1 : DmaSem sig := 115
abbrev cc19_sem0_0 : DmaSem sig := 116
abbrev cc19_sem0_1 : DmaSem sig := 117
abbrev cc19_sem1_0 : DmaSem sig := 118
abbrev cc19_sem1_1 : DmaSem sig := 119
abbrev cc19_sem2_0 : DmaSem sig := 120
abbrev cc19_sem2_1 : DmaSem sig := 121
abbrev cc20_sem0_0 : DmaSem sig := 122
abbrev cc20_sem0_1 : DmaSem sig := 123
abbrev cc20_sem1_0 : DmaSem sig := 124
abbrev cc20_sem1_1 : DmaSem sig := 125
abbrev cc20_sem2_0 : DmaSem sig := 126
abbrev cc20_sem2_1 : DmaSem sig := 127

abbrev nD : Nat := 1
abbrev τ : Topo := Topo.v7x

variable {F : FTy → Type} [FloatOps F]

abbrev grid0 : Pipeline.Grid := ⟨2, ![2, 10], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S64x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x5000x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x5000x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev grid1 : Pipeline.Grid := ⟨1, ![40000], ![false]⟩

abbrev pre1 : Pipeline.Prefetch sig := ⟨2, ![main_v5.idx, main_v6.idx], fun | 0 => main_v5.names | 1 => main_v6.names | ⟨_ + 2, h⟩ => absurd h (Nat.not_lt.2 (Nat.le_add_left _ _)), fun | 0 => rfl | 1 => rfl | ⟨_ + 2, h⟩ => absurd h (Nat.not_lt.2 (Nat.le_add_left _ _))⟩

def k1_off1 (i : grid1.Coords) : Fin 1 → Nat :=
  let arg0 : BitVec 32 := BitVec.ofNat 32 (i 0).val
  let v0 : Index := Scalar.indexCast arg0
  ![v0.toNat]
def cc1_transform_0 (k1_off1_inb : ∀ i : grid1.Coords, ∀ a, (k1_off1 i) a + S1.size a ≤ S40000.size a) (numel1_S1 : S1.numel = 1) (pf : pre1.Contents (Elt F)) (i : grid1.Coords) : Fin 3 → Nat :=
  let arg0 : BitVec 32 := BitVec.ofNat 32 (i 0).val
  let v0 : Index := Scalar.indexCast arg0
  let v1 : BitVec 32 := pf.at 0 (Rect.unit (s := S40000) ![v0.toNat] S1.size (k1_off1_inb i)) numel1_S1
  let c0_i32 : BitVec 32 := 0#32
  let c0_i32_0 : BitVec 32 := 0#32
  let c0_i32_1 : BitVec 32 := 0#32
  ![v1.toNat, c0_i32.toNat, c0_i32_0.toNat]

def cc1_transform_1 (k1_off1_inb : ∀ i : grid1.Coords, ∀ a, (k1_off1 i) a + S1.size a ≤ S40000.size a) (numel1_S1 : S1.numel = 1) (pf : pre1.Contents (Elt F)) (i : grid1.Coords) : Fin 3 → Nat :=
  let arg0 : BitVec 32 := BitVec.ofNat 32 (i 0).val
  let v0 : Index := Scalar.indexCast arg0
  let v1 : BitVec 32 := pf.at 1 (Rect.unit (s := S40000) ![v0.toNat] S1.size (k1_off1_inb i)) numel1_S1
  let c0_i32 : BitVec 32 := 0#32
  let c0_i32_0 : BitVec 32 := 0#32
  let c0_i32_1 : BitVec 32 := 0#32
  ![v1.toNat, c0_i32.toNat, c0_i32_0.toNat]

def cc1_transform_2 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S1x1x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1x1x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1x1x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![40000], ![false]⟩

abbrev pre2 : Pipeline.Prefetch sig := ⟨2, ![main_v9.idx, main_v10.idx], fun | 0 => main_v9.names | 1 => main_v10.names | ⟨_ + 2, h⟩ => absurd h (Nat.not_lt.2 (Nat.le_add_left _ _)), fun | 0 => rfl | 1 => rfl | ⟨_ + 2, h⟩ => absurd h (Nat.not_lt.2 (Nat.le_add_left _ _))⟩

def k2_off1 (i : grid2.Coords) : Fin 1 → Nat :=
  let arg0 : BitVec 32 := BitVec.ofNat 32 (i 0).val
  let v0 : Index := Scalar.indexCast arg0
  ![v0.toNat]
def cc2_transform_0 (k2_off1_inb : ∀ i : grid2.Coords, ∀ a, (k2_off1 i) a + S1.size a ≤ S40000.size a) (numel1_S1 : S1.numel = 1) (pf : pre2.Contents (Elt F)) (i : grid2.Coords) : Fin 3 → Nat :=
  let arg0 : BitVec 32 := BitVec.ofNat 32 (i 0).val
  let v0 : Index := Scalar.indexCast arg0
  let v1 : BitVec 32 := pf.at 0 (Rect.unit (s := S40000) ![v0.toNat] S1.size (k2_off1_inb i)) numel1_S1
  let c0_i32 : BitVec 32 := 0#32
  let c0_i32_0 : BitVec 32 := 0#32
  let c0_i32_1 : BitVec 32 := 0#32
  ![v1.toNat, c0_i32.toNat, c0_i32_0.toNat]

def cc2_transform_1 (k2_off1_inb : ∀ i : grid2.Coords, ∀ a, (k2_off1 i) a + S1.size a ≤ S40000.size a) (numel1_S1 : S1.numel = 1) (pf : pre2.Contents (Elt F)) (i : grid2.Coords) : Fin 3 → Nat :=
  let arg0 : BitVec 32 := BitVec.ofNat 32 (i 0).val
  let v0 : Index := Scalar.indexCast arg0
  let v1 : BitVec 32 := pf.at 1 (Rect.unit (s := S40000) ![v0.toNat] S1.size (k2_off1_inb i)) numel1_S1
  let c0_i32 : BitVec 32 := 0#32
  let c0_i32_0 : BitVec 32 := 0#32
  let c0_i32_1 : BitVec 32 := 0#32
  ![v1.toNat, c0_i32.toNat, c0_i32_0.toNat]

def cc2_transform_2 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage2_0 : Fin 2 → Memref sig .tc .vmem S1x1x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S1x1x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S1x1x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![40000], ![false]⟩

abbrev pre3 : Pipeline.Prefetch sig := ⟨2, ![main_v13.idx, main_v14.idx], fun | 0 => main_v13.names | 1 => main_v14.names | ⟨_ + 2, h⟩ => absurd h (Nat.not_lt.2 (Nat.le_add_left _ _)), fun | 0 => rfl | 1 => rfl | ⟨_ + 2, h⟩ => absurd h (Nat.not_lt.2 (Nat.le_add_left _ _))⟩

def k3_off1 (i : grid3.Coords) : Fin 1 → Nat :=
  let arg0 : BitVec 32 := BitVec.ofNat 32 (i 0).val
  let v0 : Index := Scalar.indexCast arg0
  ![v0.toNat]
def cc3_transform_0 (k3_off1_inb : ∀ i : grid3.Coords, ∀ a, (k3_off1 i) a + S1.size a ≤ S40000.size a) (numel1_S1 : S1.numel = 1) (pf : pre3.Contents (Elt F)) (i : grid3.Coords) : Fin 3 → Nat :=
  let arg0 : BitVec 32 := BitVec.ofNat 32 (i 0).val
  let v0 : Index := Scalar.indexCast arg0
  let v1 : BitVec 32 := pf.at 0 (Rect.unit (s := S40000) ![v0.toNat] S1.size (k3_off1_inb i)) numel1_S1
  let c0_i32 : BitVec 32 := 0#32
  let c0_i32_0 : BitVec 32 := 0#32
  let c0_i32_1 : BitVec 32 := 0#32
  ![v1.toNat, c0_i32.toNat, c0_i32_0.toNat]

def cc3_transform_1 (k3_off1_inb : ∀ i : grid3.Coords, ∀ a, (k3_off1 i) a + S1.size a ≤ S40000.size a) (numel1_S1 : S1.numel = 1) (pf : pre3.Contents (Elt F)) (i : grid3.Coords) : Fin 3 → Nat :=
  let arg0 : BitVec 32 := BitVec.ofNat 32 (i 0).val
  let v0 : Index := Scalar.indexCast arg0
  let v1 : BitVec 32 := pf.at 1 (Rect.unit (s := S40000) ![v0.toNat] S1.size (k3_off1_inb i)) numel1_S1
  let c0_i32 : BitVec 32 := 0#32
  let c0_i32_0 : BitVec 32 := 0#32
  let c0_i32_1 : BitVec 32 := 0#32
  ![v1.toNat, c0_i32.toNat, c0_i32_0.toNat]

def cc3_transform_2 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage3_0 : Fin 2 → Memref sig .tc .vmem S1x1x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S1x1x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S1x1x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![40000], ![false]⟩

abbrev pre4 : Pipeline.Prefetch sig := ⟨2, ![main_v17.idx, main_v18.idx], fun | 0 => main_v17.names | 1 => main_v18.names | ⟨_ + 2, h⟩ => absurd h (Nat.not_lt.2 (Nat.le_add_left _ _)), fun | 0 => rfl | 1 => rfl | ⟨_ + 2, h⟩ => absurd h (Nat.not_lt.2 (Nat.le_add_left _ _))⟩

def k4_off1 (i : grid4.Coords) : Fin 1 → Nat :=
  let arg0 : BitVec 32 := BitVec.ofNat 32 (i 0).val
  let v0 : Index := Scalar.indexCast arg0
  ![v0.toNat]
def cc4_transform_0 (k4_off1_inb : ∀ i : grid4.Coords, ∀ a, (k4_off1 i) a + S1.size a ≤ S40000.size a) (numel1_S1 : S1.numel = 1) (pf : pre4.Contents (Elt F)) (i : grid4.Coords) : Fin 3 → Nat :=
  let arg0 : BitVec 32 := BitVec.ofNat 32 (i 0).val
  let v0 : Index := Scalar.indexCast arg0
  let v1 : BitVec 32 := pf.at 0 (Rect.unit (s := S40000) ![v0.toNat] S1.size (k4_off1_inb i)) numel1_S1
  let c0_i32 : BitVec 32 := 0#32
  let c0_i32_0 : BitVec 32 := 0#32
  let c0_i32_1 : BitVec 32 := 0#32
  ![v1.toNat, c0_i32.toNat, c0_i32_0.toNat]

def cc4_transform_1 (k4_off1_inb : ∀ i : grid4.Coords, ∀ a, (k4_off1 i) a + S1.size a ≤ S40000.size a) (numel1_S1 : S1.numel = 1) (pf : pre4.Contents (Elt F)) (i : grid4.Coords) : Fin 3 → Nat :=
  let arg0 : BitVec 32 := BitVec.ofNat 32 (i 0).val
  let v0 : Index := Scalar.indexCast arg0
  let v1 : BitVec 32 := pf.at 1 (Rect.unit (s := S40000) ![v0.toNat] S1.size (k4_off1_inb i)) numel1_S1
  let c0_i32 : BitVec 32 := 0#32
  let c0_i32_0 : BitVec 32 := 0#32
  let c0_i32_1 : BitVec 32 := 0#32
  ![v1.toNat, c0_i32.toNat, c0_i32_0.toNat]

def cc4_transform_2 (i : grid4.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage4_0 : Fin 2 → Memref sig .tc .vmem S1x1x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S1x1x128 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 2 → Memref sig .tc .vmem S1x1x128 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![40000], ![false]⟩

abbrev pre5 : Pipeline.Prefetch sig := ⟨2, ![main_v21.idx, main_v22.idx], fun | 0 => main_v21.names | 1 => main_v22.names | ⟨_ + 2, h⟩ => absurd h (Nat.not_lt.2 (Nat.le_add_left _ _)), fun | 0 => rfl | 1 => rfl | ⟨_ + 2, h⟩ => absurd h (Nat.not_lt.2 (Nat.le_add_left _ _))⟩

def k5_off1 (i : grid5.Coords) : Fin 1 → Nat :=
  let arg0 : BitVec 32 := BitVec.ofNat 32 (i 0).val
  let v0 : Index := Scalar.indexCast arg0
  ![v0.toNat]
def cc5_transform_0 (k5_off1_inb : ∀ i : grid5.Coords, ∀ a, (k5_off1 i) a + S1.size a ≤ S40000.size a) (numel1_S1 : S1.numel = 1) (pf : pre5.Contents (Elt F)) (i : grid5.Coords) : Fin 3 → Nat :=
  let arg0 : BitVec 32 := BitVec.ofNat 32 (i 0).val
  let v0 : Index := Scalar.indexCast arg0
  let v1 : BitVec 32 := pf.at 0 (Rect.unit (s := S40000) ![v0.toNat] S1.size (k5_off1_inb i)) numel1_S1
  let c0_i32 : BitVec 32 := 0#32
  let c0_i32_0 : BitVec 32 := 0#32
  let c0_i32_1 : BitVec 32 := 0#32
  ![v1.toNat, c0_i32.toNat, c0_i32_0.toNat]

def cc5_transform_1 (k5_off1_inb : ∀ i : grid5.Coords, ∀ a, (k5_off1 i) a + S1.size a ≤ S40000.size a) (numel1_S1 : S1.numel = 1) (pf : pre5.Contents (Elt F)) (i : grid5.Coords) : Fin 3 → Nat :=
  let arg0 : BitVec 32 := BitVec.ofNat 32 (i 0).val
  let v0 : Index := Scalar.indexCast arg0
  let v1 : BitVec 32 := pf.at 1 (Rect.unit (s := S40000) ![v0.toNat] S1.size (k5_off1_inb i)) numel1_S1
  let c0_i32 : BitVec 32 := 0#32
  let c0_i32_0 : BitVec 32 := 0#32
  let c0_i32_1 : BitVec 32 := 0#32
  ![v1.toNat, c0_i32.toNat, c0_i32_0.toNat]

def cc5_transform_2 (i : grid5.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage5_0 : Fin 2 → Memref sig .tc .vmem S1x1x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S1x1x128 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 2 → Memref sig .tc .vmem S1x1x128 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev grid6 : Pipeline.Grid := ⟨1, ![40000], ![false]⟩

abbrev pre6 : Pipeline.Prefetch sig := ⟨2, ![main_v25.idx, main_v26.idx], fun | 0 => main_v25.names | 1 => main_v26.names | ⟨_ + 2, h⟩ => absurd h (Nat.not_lt.2 (Nat.le_add_left _ _)), fun | 0 => rfl | 1 => rfl | ⟨_ + 2, h⟩ => absurd h (Nat.not_lt.2 (Nat.le_add_left _ _))⟩

def k6_off1 (i : grid6.Coords) : Fin 1 → Nat :=
  let arg0 : BitVec 32 := BitVec.ofNat 32 (i 0).val
  let v0 : Index := Scalar.indexCast arg0
  ![v0.toNat]
def cc6_transform_0 (k6_off1_inb : ∀ i : grid6.Coords, ∀ a, (k6_off1 i) a + S1.size a ≤ S40000.size a) (numel1_S1 : S1.numel = 1) (pf : pre6.Contents (Elt F)) (i : grid6.Coords) : Fin 3 → Nat :=
  let arg0 : BitVec 32 := BitVec.ofNat 32 (i 0).val
  let v0 : Index := Scalar.indexCast arg0
  let v1 : BitVec 32 := pf.at 0 (Rect.unit (s := S40000) ![v0.toNat] S1.size (k6_off1_inb i)) numel1_S1
  let c0_i32 : BitVec 32 := 0#32
  let c0_i32_0 : BitVec 32 := 0#32
  let c0_i32_1 : BitVec 32 := 0#32
  ![v1.toNat, c0_i32.toNat, c0_i32_0.toNat]

def cc6_transform_1 (k6_off1_inb : ∀ i : grid6.Coords, ∀ a, (k6_off1 i) a + S1.size a ≤ S40000.size a) (numel1_S1 : S1.numel = 1) (pf : pre6.Contents (Elt F)) (i : grid6.Coords) : Fin 3 → Nat :=
  let arg0 : BitVec 32 := BitVec.ofNat 32 (i 0).val
  let v0 : Index := Scalar.indexCast arg0
  let v1 : BitVec 32 := pf.at 1 (Rect.unit (s := S40000) ![v0.toNat] S1.size (k6_off1_inb i)) numel1_S1
  let c0_i32 : BitVec 32 := 0#32
  let c0_i32_0 : BitVec 32 := 0#32
  let c0_i32_1 : BitVec 32 := 0#32
  ![v1.toNat, c0_i32.toNat, c0_i32_0.toNat]

def cc6_transform_2 (i : grid6.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage6_0 : Fin 2 → Memref sig .tc .vmem S1x1x128 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 2 → Memref sig .tc .vmem S1x1x128 .f32 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true]

abbrev stage6_2 : Fin 2 → Memref sig .tc .vmem S1x1x128 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true]

abbrev grid7 : Pipeline.Grid := ⟨1, ![40000], ![false]⟩

abbrev pre7 : Pipeline.Prefetch sig := ⟨2, ![main_v29.idx, main_v30.idx], fun | 0 => main_v29.names | 1 => main_v30.names | ⟨_ + 2, h⟩ => absurd h (Nat.not_lt.2 (Nat.le_add_left _ _)), fun | 0 => rfl | 1 => rfl | ⟨_ + 2, h⟩ => absurd h (Nat.not_lt.2 (Nat.le_add_left _ _))⟩

def k7_off1 (i : grid7.Coords) : Fin 1 → Nat :=
  let arg0 : BitVec 32 := BitVec.ofNat 32 (i 0).val
  let v0 : Index := Scalar.indexCast arg0
  ![v0.toNat]
def cc7_transform_0 (k7_off1_inb : ∀ i : grid7.Coords, ∀ a, (k7_off1 i) a + S1.size a ≤ S40000.size a) (numel1_S1 : S1.numel = 1) (pf : pre7.Contents (Elt F)) (i : grid7.Coords) : Fin 3 → Nat :=
  let arg0 : BitVec 32 := BitVec.ofNat 32 (i 0).val
  let v0 : Index := Scalar.indexCast arg0
  let v1 : BitVec 32 := pf.at 0 (Rect.unit (s := S40000) ![v0.toNat] S1.size (k7_off1_inb i)) numel1_S1
  let c0_i32 : BitVec 32 := 0#32
  let c0_i32_0 : BitVec 32 := 0#32
  let c0_i32_1 : BitVec 32 := 0#32
  ![v1.toNat, c0_i32.toNat, c0_i32_0.toNat]

def cc7_transform_1 (k7_off1_inb : ∀ i : grid7.Coords, ∀ a, (k7_off1 i) a + S1.size a ≤ S40000.size a) (numel1_S1 : S1.numel = 1) (pf : pre7.Contents (Elt F)) (i : grid7.Coords) : Fin 3 → Nat :=
  let arg0 : BitVec 32 := BitVec.ofNat 32 (i 0).val
  let v0 : Index := Scalar.indexCast arg0
  let v1 : BitVec 32 := pf.at 1 (Rect.unit (s := S40000) ![v0.toNat] S1.size (k7_off1_inb i)) numel1_S1
  let c0_i32 : BitVec 32 := 0#32
  let c0_i32_0 : BitVec 32 := 0#32
  let c0_i32_1 : BitVec 32 := 0#32
  ![v1.toNat, c0_i32.toNat, c0_i32_0.toNat]

def cc7_transform_2 (i : grid7.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage7_0 : Fin 2 → Memref sig .tc .vmem S1x1x128 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 2 → Memref sig .tc .vmem S1x1x128 .f32 := fun | 0 => Memref.whole cc7_stg1_0 | 1 => Memref.whole cc7_stg1_1 | ⟨_ + 2, h⟩ => absurd h (Nat.not_lt.2 (Nat.le_add_left _ _))
abbrev sem7_1 : Fin 2 → DmaSem sig := fun | 0 => cc7_sem1_0 | 1 => cc7_sem1_1 | ⟨_ + 2, h⟩ => absurd h (Nat.not_lt.2 (Nat.le_add_left _ _))
abbrev reads7_1 : Fin grid7.rank → Bool := ![true]

abbrev stage7_2 : Fin 2 → Memref sig .tc .vmem S1x1x128 .f32 := fun | 0 => Memref.whole cc7_stg2_0 | 1 => Memref.whole cc7_stg2_1 | ⟨_ + 2, h⟩ => absurd h (Nat.not_lt.2 (Nat.le_add_left _ _))
abbrev sem7_2 : Fin 2 → DmaSem sig := fun | 0 => cc7_sem2_0 | 1 => cc7_sem2_1 | ⟨_ + 2, h⟩ => absurd h (Nat.not_lt.2 (Nat.le_add_left _ _))
abbrev reads7_2 : Fin grid7.rank → Bool := ![true]

abbrev grid8 : Pipeline.Grid := ⟨1, ![40000], ![false]⟩

abbrev pre8 : Pipeline.Prefetch sig := ⟨2, ![main_v33.idx, main_v34.idx], fun | 0 => main_v33.names | 1 => main_v34.names | ⟨_ + 2, h⟩ => absurd h (Nat.not_lt.2 (Nat.le_add_left _ _)), fun | 0 => rfl | 1 => rfl | ⟨_ + 2, h⟩ => absurd h (Nat.not_lt.2 (Nat.le_add_left _ _))⟩

def k8_off1 (i : grid8.Coords) : Fin 1 → Nat :=
  let arg0 : BitVec 32 := BitVec.ofNat 32 (i 0).val
  let v0 : Index := Scalar.indexCast arg0
  ![v0.toNat]
def cc8_transform_0 (k8_off1_inb : ∀ i : grid8.Coords, ∀ a, (k8_off1 i) a + S1.size a ≤ S40000.size a) (numel1_S1 : S1.numel = 1) (pf : pre8.Contents (Elt F)) (i : grid8.Coords) : Fin 3 → Nat :=
  let arg0 : BitVec 32 := BitVec.ofNat 32 (i 0).val
  let v0 : Index := Scalar.indexCast arg0
  let v1 : BitVec 32 := pf.at 0 (Rect.unit (s := S40000) ![v0.toNat] S1.size (k8_off1_inb i)) numel1_S1
  let c0_i32 : BitVec 32 := 0#32
  let c0_i32_0 : BitVec 32 := 0#32
  let c0_i32_1 : BitVec 32 := 0#32
  ![v1.toNat, c0_i32.toNat, c0_i32_0.toNat]

def cc8_transform_1 (k8_off1_inb : ∀ i : grid8.Coords, ∀ a, (k8_off1 i) a + S1.size a ≤ S40000.size a) (numel1_S1 : S1.numel = 1) (pf : pre8.Contents (Elt F)) (i : grid8.Coords) : Fin 3 → Nat :=
  let arg0 : BitVec 32 := BitVec.ofNat 32 (i 0).val
  let v0 : Index := Scalar.indexCast arg0
  let v1 : BitVec 32 := pf.at 1 (Rect.unit (s := S40000) ![v0.toNat] S1.size (k8_off1_inb i)) numel1_S1
  let c0_i32 : BitVec 32 := 0#32
  let c0_i32_0 : BitVec 32 := 0#32
  let c0_i32_1 : BitVec 32 := 0#32
  ![v1.toNat, c0_i32.toNat, c0_i32_0.toNat]

def cc8_transform_2 (i : grid8.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage8_0 : Fin 2 → Memref sig .tc .vmem S1x1x128 .f32 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true]

abbrev stage8_1 : Fin 2 → Memref sig .tc .vmem S1x1x128 .f32 := fun | 0 => Memref.whole cc8_stg1_0 | 1 => Memref.whole cc8_stg1_1 | ⟨_ + 2, h⟩ => absurd h (Nat.not_lt.2 (Nat.le_add_left _ _))
abbrev sem8_1 : Fin 2 → DmaSem sig := fun | 0 => cc8_sem1_0 | 1 => cc8_sem1_1 | ⟨_ + 2, h⟩ => absurd h (Nat.not_lt.2 (Nat.le_add_left _ _))
abbrev reads8_1 : Fin grid8.rank → Bool := ![true]

abbrev stage8_2 : Fin 2 → Memref sig .tc .vmem S1x1x128 .f32 := fun | 0 => Memref.whole cc8_stg2_0 | 1 => Memref.whole cc8_stg2_1 | ⟨_ + 2, h⟩ => absurd h (Nat.not_lt.2 (Nat.le_add_left _ _))
abbrev sem8_2 : Fin 2 → DmaSem sig := fun | 0 => cc8_sem2_0 | 1 => cc8_sem2_1 | ⟨_ + 2, h⟩ => absurd h (Nat.not_lt.2 (Nat.le_add_left _ _))
abbrev reads8_2 : Fin grid8.rank → Bool := ![true]

abbrev grid9 : Pipeline.Grid := ⟨1, ![40000], ![false]⟩

abbrev pre9 : Pipeline.Prefetch sig := ⟨2, ![main_v37.idx, main_v38.idx], fun | 0 => main_v37.names | 1 => main_v38.names | ⟨_ + 2, h⟩ => absurd h (Nat.not_lt.2 (Nat.le_add_left _ _)), fun | 0 => rfl | 1 => rfl | ⟨_ + 2, h⟩ => absurd h (Nat.not_lt.2 (Nat.le_add_left _ _))⟩

def k9_off1 (i : grid9.Coords) : Fin 1 → Nat :=
  let arg0 : BitVec 32 := BitVec.ofNat 32 (i 0).val
  let v0 : Index := Scalar.indexCast arg0
  ![v0.toNat]
def cc9_transform_0 (k9_off1_inb : ∀ i : grid9.Coords, ∀ a, (k9_off1 i) a + S1.size a ≤ S40000.size a) (numel1_S1 : S1.numel = 1) (pf : pre9.Contents (Elt F)) (i : grid9.Coords) : Fin 3 → Nat :=
  let arg0 : BitVec 32 := BitVec.ofNat 32 (i 0).val
  let v0 : Index := Scalar.indexCast arg0
  let v1 : BitVec 32 := pf.at 0 (Rect.unit (s := S40000) ![v0.toNat] S1.size (k9_off1_inb i)) numel1_S1
  let c0_i32 : BitVec 32 := 0#32
  let c0_i32_0 : BitVec 32 := 0#32
  let c0_i32_1 : BitVec 32 := 0#32
  ![v1.toNat, c0_i32.toNat, c0_i32_0.toNat]

def cc9_transform_1 (k9_off1_inb : ∀ i : grid9.Coords, ∀ a, (k9_off1 i) a + S1.size a ≤ S40000.size a) (numel1_S1 : S1.numel = 1) (pf : pre9.Contents (Elt F)) (i : grid9.Coords) : Fin 3 → Nat :=
  let arg0 : BitVec 32 := BitVec.ofNat 32 (i 0).val
  let v0 : Index := Scalar.indexCast arg0
  let v1 : BitVec 32 := pf.at 1 (Rect.unit (s := S40000) ![v0.toNat] S1.size (k9_off1_inb i)) numel1_S1
  let c0_i32 : BitVec 32 := 0#32
  let c0_i32_0 : BitVec 32 := 0#32
  let c0_i32_1 : BitVec 32 := 0#32
  ![v1.toNat, c0_i32.toNat, c0_i32_0.toNat]

def cc9_transform_2 (i : grid9.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage9_0 : Fin 2 → Memref sig .tc .vmem S1x1x128 .f32 := fun | 0 => Memref.whole cc9_stg0_0 | 1 => Memref.whole cc9_stg0_1 | ⟨_ + 2, h⟩ => absurd h (Nat.not_lt.2 (Nat.le_add_left _ _))
abbrev sem9_0 : Fin 2 → DmaSem sig := fun | 0 => cc9_sem0_0 | 1 => cc9_sem0_1 | ⟨_ + 2, h⟩ => absurd h (Nat.not_lt.2 (Nat.le_add_left _ _))
abbrev reads9_0 : Fin grid9.rank → Bool := ![true]

abbrev stage9_1 : Fin 2 → Memref sig .tc .vmem S1x1x128 .f32 := fun | 0 => Memref.whole cc9_stg1_0 | 1 => Memref.whole cc9_stg1_1 | ⟨_ + 2, h⟩ => absurd h (Nat.not_lt.2 (Nat.le_add_left _ _))
abbrev sem9_1 : Fin 2 → DmaSem sig := fun | 0 => cc9_sem1_0 | 1 => cc9_sem1_1 | ⟨_ + 2, h⟩ => absurd h (Nat.not_lt.2 (Nat.le_add_left _ _))
abbrev reads9_1 : Fin grid9.rank → Bool := ![true]

abbrev stage9_2 : Fin 2 → Memref sig .tc .vmem S1x1x128 .f32 := fun | 0 => Memref.whole cc9_stg2_0 | 1 => Memref.whole cc9_stg2_1 | ⟨_ + 2, h⟩ => absurd h (Nat.not_lt.2 (Nat.le_add_left _ _))
abbrev sem9_2 : Fin 2 → DmaSem sig := fun | 0 => cc9_sem2_0 | 1 => cc9_sem2_1 | ⟨_ + 2, h⟩ => absurd h (Nat.not_lt.2 (Nat.le_add_left _ _))
abbrev reads9_2 : Fin grid9.rank → Bool := ![true]

abbrev grid10 : Pipeline.Grid := ⟨1, ![40000], ![false]⟩

abbrev pre10 : Pipeline.Prefetch sig := ⟨2, ![main_v41.idx, main_v42.idx], fun | 0 => main_v41.names | 1 => main_v42.names | ⟨_ + 2, h⟩ => absurd h (Nat.not_lt.2 (Nat.le_add_left _ _)), fun | 0 => rfl | 1 => rfl | ⟨_ + 2, h⟩ => absurd h (Nat.not_lt.2 (Nat.le_add_left _ _))⟩

def k10_off1 (i : grid10.Coords) : Fin 1 → Nat :=
  let arg0 : BitVec 32 := BitVec.ofNat 32 (i 0).val
  let v0 : Index := Scalar.indexCast arg0
  ![v0.toNat]
def cc10_transform_0 (k10_off1_inb : ∀ i : grid10.Coords, ∀ a, (k10_off1 i) a + S1.size a ≤ S40000.size a) (numel1_S1 : S1.numel = 1) (pf : pre10.Contents (Elt F)) (i : grid10.Coords) : Fin 3 → Nat :=
  let arg0 : BitVec 32 := BitVec.ofNat 32 (i 0).val
  let v0 : Index := Scalar.indexCast arg0
  let v1 : BitVec 32 := pf.at 0 (Rect.unit (s := S40000) ![v0.toNat] S1.size (k10_off1_inb i)) numel1_S1
  let c0_i32 : BitVec 32 := 0#32
  let c0_i32_0 : BitVec 32 := 0#32
  let c0_i32_1 : BitVec 32 := 0#32
  ![v1.toNat, c0_i32.toNat, c0_i32_0.toNat]

def cc10_transform_1 (k10_off1_inb : ∀ i : grid10.Coords, ∀ a, (k10_off1 i) a + S1.size a ≤ S40000.size a) (numel1_S1 : S1.numel = 1) (pf : pre10.Contents (Elt F)) (i : grid10.Coords) : Fin 3 → Nat :=
  let arg0 : BitVec 32 := BitVec.ofNat 32 (i 0).val
  let v0 : Index := Scalar.indexCast arg0
  let v1 : BitVec 32 := pf.at 1 (Rect.unit (s := S40000) ![v0.toNat] S1.size (k10_off1_inb i)) numel1_S1
  let c0_i32 : BitVec 32 := 0#32
  let c0_i32_0 : BitVec 32 := 0#32
  let c0_i32_1 : BitVec 32 := 0#32
  ![v1.toNat, c0_i32.toNat, c0_i32_0.toNat]

def cc10_transform_2 (i : grid10.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage10_0 : Fin 2 → Memref sig .tc .vmem S1x1x128 .f32 := fun | 0 => Memref.whole cc10_stg0_0 | 1 => Memref.whole cc10_stg0_1 | ⟨_ + 2, h⟩ => absurd h (Nat.not_lt.2 (Nat.le_add_left _ _))
abbrev sem10_0 : Fin 2 → DmaSem sig := fun | 0 => cc10_sem0_0 | 1 => cc10_sem0_1 | ⟨_ + 2, h⟩ => absurd h (Nat.not_lt.2 (Nat.le_add_left _ _))
abbrev reads10_0 : Fin grid10.rank → Bool := ![true]

abbrev stage10_1 : Fin 2 → Memref sig .tc .vmem S1x1x128 .f32 := fun | 0 => Memref.whole cc10_stg1_0 | 1 => Memref.whole cc10_stg1_1 | ⟨_ + 2, h⟩ => absurd h (Nat.not_lt.2 (Nat.le_add_left _ _))
abbrev sem10_1 : Fin 2 → DmaSem sig := fun | 0 => cc10_sem1_0 | 1 => cc10_sem1_1 | ⟨_ + 2, h⟩ => absurd h (Nat.not_lt.2 (Nat.le_add_left _ _))
abbrev reads10_1 : Fin grid10.rank → Bool := ![true]

abbrev stage10_2 : Fin 2 → Memref sig .tc .vmem S1x1x128 .f32 := fun | 0 => Memref.whole cc10_stg2_0 | 1 => Memref.whole cc10_stg2_1 | ⟨_ + 2, h⟩ => absurd h (Nat.not_lt.2 (Nat.le_add_left _ _))
abbrev sem10_2 : Fin 2 → DmaSem sig := fun | 0 => cc10_sem2_0 | 1 => cc10_sem2_1 | ⟨_ + 2, h⟩ => absurd h (Nat.not_lt.2 (Nat.le_add_left _ _))
abbrev reads10_2 : Fin grid10.rank → Bool := ![true]

abbrev grid11 : Pipeline.Grid := ⟨1, ![40000], ![false]⟩

abbrev pre11 : Pipeline.Prefetch sig := ⟨2, ![main_v45.idx, main_v46.idx], fun | 0 => main_v45.names | 1 => main_v46.names | ⟨_ + 2, h⟩ => absurd h (Nat.not_lt.2 (Nat.le_add_left _ _)), fun | 0 => rfl | 1 => rfl | ⟨_ + 2, h⟩ => absurd h (Nat.not_lt.2 (Nat.le_add_left _ _))⟩

def k11_off1 (i : grid11.Coords) : Fin 1 → Nat :=
  let arg0 : BitVec 32 := BitVec.ofNat 32 (i 0).val
  let v0 : Index := Scalar.indexCast arg0
  ![v0.toNat]
def cc11_transform_0 (k11_off1_inb : ∀ i : grid11.Coords, ∀ a, (k11_off1 i) a + S1.size a ≤ S40000.size a) (numel1_S1 : S1.numel = 1) (pf : pre11.Contents (Elt F)) (i : grid11.Coords) : Fin 3 → Nat :=
  let arg0 : BitVec 32 := BitVec.ofNat 32 (i 0).val
  let v0 : Index := Scalar.indexCast arg0
  let v1 : BitVec 32 := pf.at 0 (Rect.unit (s := S40000) ![v0.toNat] S1.size (k11_off1_inb i)) numel1_S1
  let c0_i32 : BitVec 32 := 0#32
  let c0_i32_0 : BitVec 32 := 0#32
  let c0_i32_1 : BitVec 32 := 0#32
  ![v1.toNat, c0_i32.toNat, c0_i32_0.toNat]

def cc11_transform_1 (k11_off1_inb : ∀ i : grid11.Coords, ∀ a, (k11_off1 i) a + S1.size a ≤ S40000.size a) (numel1_S1 : S1.numel = 1) (pf : pre11.Contents (Elt F)) (i : grid11.Coords) : Fin 3 → Nat :=
  let arg0 : BitVec 32 := BitVec.ofNat 32 (i 0).val
  let v0 : Index := Scalar.indexCast arg0
  let v1 : BitVec 32 := pf.at 1 (Rect.unit (s := S40000) ![v0.toNat] S1.size (k11_off1_inb i)) numel1_S1
  let c0_i32 : BitVec 32 := 0#32
  let c0_i32_0 : BitVec 32 := 0#32
  let c0_i32_1 : BitVec 32 := 0#32
  ![v1.toNat, c0_i32.toNat, c0_i32_0.toNat]

def cc11_transform_2 (i : grid11.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage11_0 : Fin 2 → Memref sig .tc .vmem S1x1x128 .f32 := fun | 0 => Memref.whole cc11_stg0_0 | 1 => Memref.whole cc11_stg0_1 | ⟨_ + 2, h⟩ => absurd h (Nat.not_lt.2 (Nat.le_add_left _ _))
abbrev sem11_0 : Fin 2 → DmaSem sig := fun | 0 => cc11_sem0_0 | 1 => cc11_sem0_1 | ⟨_ + 2, h⟩ => absurd h (Nat.not_lt.2 (Nat.le_add_left _ _))
abbrev reads11_0 : Fin grid11.rank → Bool := ![true]

abbrev stage11_1 : Fin 2 → Memref sig .tc .vmem S1x1x128 .f32 := fun | 0 => Memref.whole cc11_stg1_0 | 1 => Memref.whole cc11_stg1_1 | ⟨_ + 2, h⟩ => absurd h (Nat.not_lt.2 (Nat.le_add_left _ _))
abbrev sem11_1 : Fin 2 → DmaSem sig := fun | 0 => cc11_sem1_0 | 1 => cc11_sem1_1 | ⟨_ + 2, h⟩ => absurd h (Nat.not_lt.2 (Nat.le_add_left _ _))
abbrev reads11_1 : Fin grid11.rank → Bool := ![true]

abbrev stage11_2 : Fin 2 → Memref sig .tc .vmem S1x1x128 .f32 := fun | 0 => Memref.whole cc11_stg2_0 | 1 => Memref.whole cc11_stg2_1 | ⟨_ + 2, h⟩ => absurd h (Nat.not_lt.2 (Nat.le_add_left _ _))
abbrev sem11_2 : Fin 2 → DmaSem sig := fun | 0 => cc11_sem2_0 | 1 => cc11_sem2_1 | ⟨_ + 2, h⟩ => absurd h (Nat.not_lt.2 (Nat.le_add_left _ _))
abbrev reads11_2 : Fin grid11.rank → Bool := ![true]

abbrev grid12 : Pipeline.Grid := ⟨1, ![40000], ![false]⟩

abbrev pre12 : Pipeline.Prefetch sig := ⟨2, ![main_v49.idx, main_v50.idx], fun | 0 => main_v49.names | 1 => main_v50.names | ⟨_ + 2, h⟩ => absurd h (Nat.not_lt.2 (Nat.le_add_left _ _)), fun | 0 => rfl | 1 => rfl | ⟨_ + 2, h⟩ => absurd h (Nat.not_lt.2 (Nat.le_add_left _ _))⟩

def k12_off1 (i : grid12.Coords) : Fin 1 → Nat :=
  let arg0 : BitVec 32 := BitVec.ofNat 32 (i 0).val
  let v0 : Index := Scalar.indexCast arg0
  ![v0.toNat]
def cc12_transform_0 (k12_off1_inb : ∀ i : grid12.Coords, ∀ a, (k12_off1 i) a + S1.size a ≤ S40000.size a) (numel1_S1 : S1.numel = 1) (pf : pre12.Contents (Elt F)) (i : grid12.Coords) : Fin 3 → Nat :=
  let arg0 : BitVec 32 := BitVec.ofNat 32 (i 0).val
  let v0 : Index := Scalar.indexCast arg0
  let v1 : BitVec 32 := pf.at 0 (Rect.unit (s := S40000) ![v0.toNat] S1.size (k12_off1_inb i)) numel1_S1
  let c0_i32 : BitVec 32 := 0#32
  let c0_i32_0 : BitVec 32 := 0#32
  let c0_i32_1 : BitVec 32 := 0#32
  ![v1.toNat, c0_i32.toNat, c0_i32_0.toNat]

def cc12_transform_1 (k12_off1_inb : ∀ i : grid12.Coords, ∀ a, (k12_off1 i) a + S1.size a ≤ S40000.size a) (numel1_S1 : S1.numel = 1) (pf : pre12.Contents (Elt F)) (i : grid12.Coords) : Fin 3 → Nat :=
  let arg0 : BitVec 32 := BitVec.ofNat 32 (i 0).val
  let v0 : Index := Scalar.indexCast arg0
  let v1 : BitVec 32 := pf.at 1 (Rect.unit (s := S40000) ![v0.toNat] S1.size (k12_off1_inb i)) numel1_S1
  let c0_i32 : BitVec 32 := 0#32
  let c0_i32_0 : BitVec 32 := 0#32
  let c0_i32_1 : BitVec 32 := 0#32
  ![v1.toNat, c0_i32.toNat, c0_i32_0.toNat]

def cc12_transform_2 (i : grid12.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage12_0 : Fin 2 → Memref sig .tc .vmem S1x1x128 .f32 := fun | 0 => Memref.whole cc12_stg0_0 | 1 => Memref.whole cc12_stg0_1 | ⟨_ + 2, h⟩ => absurd h (Nat.not_lt.2 (Nat.le_add_left _ _))
abbrev sem12_0 : Fin 2 → DmaSem sig := fun | 0 => cc12_sem0_0 | 1 => cc12_sem0_1 | ⟨_ + 2, h⟩ => absurd h (Nat.not_lt.2 (Nat.le_add_left _ _))
abbrev reads12_0 : Fin grid12.rank → Bool := ![true]

abbrev stage12_1 : Fin 2 → Memref sig .tc .vmem S1x1x128 .f32 := fun | 0 => Memref.whole cc12_stg1_0 | 1 => Memref.whole cc12_stg1_1 | ⟨_ + 2, h⟩ => absurd h (Nat.not_lt.2 (Nat.le_add_left _ _))
abbrev sem12_1 : Fin 2 → DmaSem sig := fun | 0 => cc12_sem1_0 | 1 => cc12_sem1_1 | ⟨_ + 2, h⟩ => absurd h (Nat.not_lt.2 (Nat.le_add_left _ _))
abbrev reads12_1 : Fin grid12.rank → Bool := ![true]

abbrev stage12_2 : Fin 2 → Memref sig .tc .vmem S1x1x128 .f32 := fun | 0 => Memref.whole cc12_stg2_0 | 1 => Memref.whole cc12_stg2_1 | ⟨_ + 2, h⟩ => absurd h (Nat.not_lt.2 (Nat.le_add_left _ _))
abbrev sem12_2 : Fin 2 → DmaSem sig := fun | 0 => cc12_sem2_0 | 1 => cc12_sem2_1 | ⟨_ + 2, h⟩ => absurd h (Nat.not_lt.2 (Nat.le_add_left _ _))
abbrev reads12_2 : Fin grid12.rank → Bool := ![true]

abbrev grid13 : Pipeline.Grid := ⟨1, ![40000], ![false]⟩

abbrev pre13 : Pipeline.Prefetch sig := ⟨2, ![main_v53.idx, main_v54.idx], fun | 0 => main_v53.names | 1 => main_v54.names | ⟨_ + 2, h⟩ => absurd h (Nat.not_lt.2 (Nat.le_add_left _ _)), fun | 0 => rfl | 1 => rfl | ⟨_ + 2, h⟩ => absurd h (Nat.not_lt.2 (Nat.le_add_left _ _))⟩

def k13_off1 (i : grid13.Coords) : Fin 1 → Nat :=
  let arg0 : BitVec 32 := BitVec.ofNat 32 (i 0).val
  let v0 : Index := Scalar.indexCast arg0
  ![v0.toNat]
def cc13_transform_0 (k13_off1_inb : ∀ i : grid13.Coords, ∀ a, (k13_off1 i) a + S1.size a ≤ S40000.size a) (numel1_S1 : S1.numel = 1) (pf : pre13.Contents (Elt F)) (i : grid13.Coords) : Fin 3 → Nat :=
  let arg0 : BitVec 32 := BitVec.ofNat 32 (i 0).val
  let v0 : Index := Scalar.indexCast arg0
  let v1 : BitVec 32 := pf.at 0 (Rect.unit (s := S40000) ![v0.toNat] S1.size (k13_off1_inb i)) numel1_S1
  let c0_i32 : BitVec 32 := 0#32
  let c0_i32_0 : BitVec 32 := 0#32
  let c0_i32_1 : BitVec 32 := 0#32
  ![v1.toNat, c0_i32.toNat, c0_i32_0.toNat]

def cc13_transform_1 (k13_off1_inb : ∀ i : grid13.Coords, ∀ a, (k13_off1 i) a + S1.size a ≤ S40000.size a) (numel1_S1 : S1.numel = 1) (pf : pre13.Contents (Elt F)) (i : grid13.Coords) : Fin 3 → Nat :=
  let arg0 : BitVec 32 := BitVec.ofNat 32 (i 0).val
  let v0 : Index := Scalar.indexCast arg0
  let v1 : BitVec 32 := pf.at 1 (Rect.unit (s := S40000) ![v0.toNat] S1.size (k13_off1_inb i)) numel1_S1
  let c0_i32 : BitVec 32 := 0#32
  let c0_i32_0 : BitVec 32 := 0#32
  let c0_i32_1 : BitVec 32 := 0#32
  ![v1.toNat, c0_i32.toNat, c0_i32_0.toNat]

def cc13_transform_2 (i : grid13.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage13_0 : Fin 2 → Memref sig .tc .vmem S1x1x128 .f32 := fun | 0 => Memref.whole cc13_stg0_0 | 1 => Memref.whole cc13_stg0_1 | ⟨_ + 2, h⟩ => absurd h (Nat.not_lt.2 (Nat.le_add_left _ _))
abbrev sem13_0 : Fin 2 → DmaSem sig := fun | 0 => cc13_sem0_0 | 1 => cc13_sem0_1 | ⟨_ + 2, h⟩ => absurd h (Nat.not_lt.2 (Nat.le_add_left _ _))
abbrev reads13_0 : Fin grid13.rank → Bool := ![true]

abbrev stage13_1 : Fin 2 → Memref sig .tc .vmem S1x1x128 .f32 := fun | 0 => Memref.whole cc13_stg1_0 | 1 => Memref.whole cc13_stg1_1 | ⟨_ + 2, h⟩ => absurd h (Nat.not_lt.2 (Nat.le_add_left _ _))
abbrev sem13_1 : Fin 2 → DmaSem sig := fun | 0 => cc13_sem1_0 | 1 => cc13_sem1_1 | ⟨_ + 2, h⟩ => absurd h (Nat.not_lt.2 (Nat.le_add_left _ _))
abbrev reads13_1 : Fin grid13.rank → Bool := ![true]

abbrev stage13_2 : Fin 2 → Memref sig .tc .vmem S1x1x128 .f32 := fun | 0 => Memref.whole cc13_stg2_0 | 1 => Memref.whole cc13_stg2_1 | ⟨_ + 2, h⟩ => absurd h (Nat.not_lt.2 (Nat.le_add_left _ _))
abbrev sem13_2 : Fin 2 → DmaSem sig := fun | 0 => cc13_sem2_0 | 1 => cc13_sem2_1 | ⟨_ + 2, h⟩ => absurd h (Nat.not_lt.2 (Nat.le_add_left _ _))
abbrev reads13_2 : Fin grid13.rank → Bool := ![true]

abbrev grid14 : Pipeline.Grid := ⟨1, ![40000], ![false]⟩

abbrev pre14 : Pipeline.Prefetch sig := ⟨2, ![main_v57.idx, main_v58.idx], fun | 0 => main_v57.names | 1 => main_v58.names | ⟨_ + 2, h⟩ => absurd h (Nat.not_lt.2 (Nat.le_add_left _ _)), fun | 0 => rfl | 1 => rfl | ⟨_ + 2, h⟩ => absurd h (Nat.not_lt.2 (Nat.le_add_left _ _))⟩

def k14_off1 (i : grid14.Coords) : Fin 1 → Nat :=
  let arg0 : BitVec 32 := BitVec.ofNat 32 (i 0).val
  let v0 : Index := Scalar.indexCast arg0
  ![v0.toNat]
def cc14_transform_0 (k14_off1_inb : ∀ i : grid14.Coords, ∀ a, (k14_off1 i) a + S1.size a ≤ S40000.size a) (numel1_S1 : S1.numel = 1) (pf : pre14.Contents (Elt F)) (i : grid14.Coords) : Fin 3 → Nat :=
  let arg0 : BitVec 32 := BitVec.ofNat 32 (i 0).val
  let v0 : Index := Scalar.indexCast arg0
  let v1 : BitVec 32 := pf.at 0 (Rect.unit (s := S40000) ![v0.toNat] S1.size (k14_off1_inb i)) numel1_S1
  let c0_i32 : BitVec 32 := 0#32
  let c0_i32_0 : BitVec 32 := 0#32
  let c0_i32_1 : BitVec 32 := 0#32
  ![v1.toNat, c0_i32.toNat, c0_i32_0.toNat]

def cc14_transform_1 (k14_off1_inb : ∀ i : grid14.Coords, ∀ a, (k14_off1 i) a + S1.size a ≤ S40000.size a) (numel1_S1 : S1.numel = 1) (pf : pre14.Contents (Elt F)) (i : grid14.Coords) : Fin 3 → Nat :=
  let arg0 : BitVec 32 := BitVec.ofNat 32 (i 0).val
  let v0 : Index := Scalar.indexCast arg0
  let v1 : BitVec 32 := pf.at 1 (Rect.unit (s := S40000) ![v0.toNat] S1.size (k14_off1_inb i)) numel1_S1
  let c0_i32 : BitVec 32 := 0#32
  let c0_i32_0 : BitVec 32 := 0#32
  let c0_i32_1 : BitVec 32 := 0#32
  ![v1.toNat, c0_i32.toNat, c0_i32_0.toNat]

def cc14_transform_2 (i : grid14.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage14_0 : Fin 2 → Memref sig .tc .vmem S1x1x128 .f32 := fun | 0 => Memref.whole cc14_stg0_0 | 1 => Memref.whole cc14_stg0_1 | ⟨_ + 2, h⟩ => absurd h (Nat.not_lt.2 (Nat.le_add_left _ _))
abbrev sem14_0 : Fin 2 → DmaSem sig := fun | 0 => cc14_sem0_0 | 1 => cc14_sem0_1 | ⟨_ + 2, h⟩ => absurd h (Nat.not_lt.2 (Nat.le_add_left _ _))
abbrev reads14_0 : Fin grid14.rank → Bool := ![true]

abbrev stage14_1 : Fin 2 → Memref sig .tc .vmem S1x1x128 .f32 := fun | 0 => Memref.whole cc14_stg1_0 | 1 => Memref.whole cc14_stg1_1 | ⟨_ + 2, h⟩ => absurd h (Nat.not_lt.2 (Nat.le_add_left _ _))
abbrev sem14_1 : Fin 2 → DmaSem sig := fun | 0 => cc14_sem1_0 | 1 => cc14_sem1_1 | ⟨_ + 2, h⟩ => absurd h (Nat.not_lt.2 (Nat.le_add_left _ _))
abbrev reads14_1 : Fin grid14.rank → Bool := ![true]

abbrev stage14_2 : Fin 2 → Memref sig .tc .vmem S1x1x128 .f32 := fun | 0 => Memref.whole cc14_stg2_0 | 1 => Memref.whole cc14_stg2_1 | ⟨_ + 2, h⟩ => absurd h (Nat.not_lt.2 (Nat.le_add_left _ _))
abbrev sem14_2 : Fin 2 → DmaSem sig := fun | 0 => cc14_sem2_0 | 1 => cc14_sem2_1 | ⟨_ + 2, h⟩ => absurd h (Nat.not_lt.2 (Nat.le_add_left _ _))
abbrev reads14_2 : Fin grid14.rank → Bool := ![true]

abbrev grid15 : Pipeline.Grid := ⟨1, ![40000], ![false]⟩

abbrev pre15 : Pipeline.Prefetch sig := ⟨2, ![main_v61.idx, main_v62.idx], fun | 0 => main_v61.names | 1 => main_v62.names | ⟨_ + 2, h⟩ => absurd h (Nat.not_lt.2 (Nat.le_add_left _ _)), fun | 0 => rfl | 1 => rfl | ⟨_ + 2, h⟩ => absurd h (Nat.not_lt.2 (Nat.le_add_left _ _))⟩

def k15_off1 (i : grid15.Coords) : Fin 1 → Nat :=
  let arg0 : BitVec 32 := BitVec.ofNat 32 (i 0).val
  let v0 : Index := Scalar.indexCast arg0
  ![v0.toNat]
def cc15_transform_0 (k15_off1_inb : ∀ i : grid15.Coords, ∀ a, (k15_off1 i) a + S1.size a ≤ S40000.size a) (numel1_S1 : S1.numel = 1) (pf : pre15.Contents (Elt F)) (i : grid15.Coords) : Fin 3 → Nat :=
  let arg0 : BitVec 32 := BitVec.ofNat 32 (i 0).val
  let v0 : Index := Scalar.indexCast arg0
  let v1 : BitVec 32 := pf.at 0 (Rect.unit (s := S40000) ![v0.toNat] S1.size (k15_off1_inb i)) numel1_S1
  let c0_i32 : BitVec 32 := 0#32
  let c0_i32_0 : BitVec 32 := 0#32
  let c0_i32_1 : BitVec 32 := 0#32
  ![v1.toNat, c0_i32.toNat, c0_i32_0.toNat]

def cc15_transform_1 (k15_off1_inb : ∀ i : grid15.Coords, ∀ a, (k15_off1 i) a + S1.size a ≤ S40000.size a) (numel1_S1 : S1.numel = 1) (pf : pre15.Contents (Elt F)) (i : grid15.Coords) : Fin 3 → Nat :=
  let arg0 : BitVec 32 := BitVec.ofNat 32 (i 0).val
  let v0 : Index := Scalar.indexCast arg0
  let v1 : BitVec 32 := pf.at 1 (Rect.unit (s := S40000) ![v0.toNat] S1.size (k15_off1_inb i)) numel1_S1
  let c0_i32 : BitVec 32 := 0#32
  let c0_i32_0 : BitVec 32 := 0#32
  let c0_i32_1 : BitVec 32 := 0#32
  ![v1.toNat, c0_i32.toNat, c0_i32_0.toNat]

def cc15_transform_2 (i : grid15.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage15_0 : Fin 2 → Memref sig .tc .vmem S1x1x128 .f32 := fun | 0 => Memref.whole cc15_stg0_0 | 1 => Memref.whole cc15_stg0_1 | ⟨_ + 2, h⟩ => absurd h (Nat.not_lt.2 (Nat.le_add_left _ _))
abbrev sem15_0 : Fin 2 → DmaSem sig := fun | 0 => cc15_sem0_0 | 1 => cc15_sem0_1 | ⟨_ + 2, h⟩ => absurd h (Nat.not_lt.2 (Nat.le_add_left _ _))
abbrev reads15_0 : Fin grid15.rank → Bool := ![true]

abbrev stage15_1 : Fin 2 → Memref sig .tc .vmem S1x1x128 .f32 := fun | 0 => Memref.whole cc15_stg1_0 | 1 => Memref.whole cc15_stg1_1 | ⟨_ + 2, h⟩ => absurd h (Nat.not_lt.2 (Nat.le_add_left _ _))
abbrev sem15_1 : Fin 2 → DmaSem sig := fun | 0 => cc15_sem1_0 | 1 => cc15_sem1_1 | ⟨_ + 2, h⟩ => absurd h (Nat.not_lt.2 (Nat.le_add_left _ _))
abbrev reads15_1 : Fin grid15.rank → Bool := ![true]

abbrev stage15_2 : Fin 2 → Memref sig .tc .vmem S1x1x128 .f32 := fun | 0 => Memref.whole cc15_stg2_0 | 1 => Memref.whole cc15_stg2_1 | ⟨_ + 2, h⟩ => absurd h (Nat.not_lt.2 (Nat.le_add_left _ _))
abbrev sem15_2 : Fin 2 → DmaSem sig := fun | 0 => cc15_sem2_0 | 1 => cc15_sem2_1 | ⟨_ + 2, h⟩ => absurd h (Nat.not_lt.2 (Nat.le_add_left _ _))
abbrev reads15_2 : Fin grid15.rank → Bool := ![true]

abbrev grid16 : Pipeline.Grid := ⟨1, ![40000], ![false]⟩

abbrev pre16 : Pipeline.Prefetch sig := ⟨2, ![main_v65.idx, main_v66.idx], fun | 0 => main_v65.names | 1 => main_v66.names | ⟨_ + 2, h⟩ => absurd h (Nat.not_lt.2 (Nat.le_add_left _ _)), fun | 0 => rfl | 1 => rfl | ⟨_ + 2, h⟩ => absurd h (Nat.not_lt.2 (Nat.le_add_left _ _))⟩

def k16_off1 (i : grid16.Coords) : Fin 1 → Nat :=
  let arg0 : BitVec 32 := BitVec.ofNat 32 (i 0).val
  let v0 : Index := Scalar.indexCast arg0
  ![v0.toNat]
def cc16_transform_0 (k16_off1_inb : ∀ i : grid16.Coords, ∀ a, (k16_off1 i) a + S1.size a ≤ S40000.size a) (numel1_S1 : S1.numel = 1) (pf : pre16.Contents (Elt F)) (i : grid16.Coords) : Fin 3 → Nat :=
  let arg0 : BitVec 32 := BitVec.ofNat 32 (i 0).val
  let v0 : Index := Scalar.indexCast arg0
  let v1 : BitVec 32 := pf.at 0 (Rect.unit (s := S40000) ![v0.toNat] S1.size (k16_off1_inb i)) numel1_S1
  let c0_i32 : BitVec 32 := 0#32
  let c0_i32_0 : BitVec 32 := 0#32
  let c0_i32_1 : BitVec 32 := 0#32
  ![v1.toNat, c0_i32.toNat, c0_i32_0.toNat]

def cc16_transform_1 (k16_off1_inb : ∀ i : grid16.Coords, ∀ a, (k16_off1 i) a + S1.size a ≤ S40000.size a) (numel1_S1 : S1.numel = 1) (pf : pre16.Contents (Elt F)) (i : grid16.Coords) : Fin 3 → Nat :=
  let arg0 : BitVec 32 := BitVec.ofNat 32 (i 0).val
  let v0 : Index := Scalar.indexCast arg0
  let v1 : BitVec 32 := pf.at 1 (Rect.unit (s := S40000) ![v0.toNat] S1.size (k16_off1_inb i)) numel1_S1
  let c0_i32 : BitVec 32 := 0#32
  let c0_i32_0 : BitVec 32 := 0#32
  let c0_i32_1 : BitVec 32 := 0#32
  ![v1.toNat, c0_i32.toNat, c0_i32_0.toNat]

def cc16_transform_2 (i : grid16.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage16_0 : Fin 2 → Memref sig .tc .vmem S1x1x128 .f32 := fun | 0 => Memref.whole cc16_stg0_0 | 1 => Memref.whole cc16_stg0_1 | ⟨_ + 2, h⟩ => absurd h (Nat.not_lt.2 (Nat.le_add_left _ _))
abbrev sem16_0 : Fin 2 → DmaSem sig := fun | 0 => cc16_sem0_0 | 1 => cc16_sem0_1 | ⟨_ + 2, h⟩ => absurd h (Nat.not_lt.2 (Nat.le_add_left _ _))
abbrev reads16_0 : Fin grid16.rank → Bool := ![true]

abbrev stage16_1 : Fin 2 → Memref sig .tc .vmem S1x1x128 .f32 := fun | 0 => Memref.whole cc16_stg1_0 | 1 => Memref.whole cc16_stg1_1 | ⟨_ + 2, h⟩ => absurd h (Nat.not_lt.2 (Nat.le_add_left _ _))
abbrev sem16_1 : Fin 2 → DmaSem sig := fun | 0 => cc16_sem1_0 | 1 => cc16_sem1_1 | ⟨_ + 2, h⟩ => absurd h (Nat.not_lt.2 (Nat.le_add_left _ _))
abbrev reads16_1 : Fin grid16.rank → Bool := ![true]

abbrev stage16_2 : Fin 2 → Memref sig .tc .vmem S1x1x128 .f32 := fun | 0 => Memref.whole cc16_stg2_0 | 1 => Memref.whole cc16_stg2_1 | ⟨_ + 2, h⟩ => absurd h (Nat.not_lt.2 (Nat.le_add_left _ _))
abbrev sem16_2 : Fin 2 → DmaSem sig := fun | 0 => cc16_sem2_0 | 1 => cc16_sem2_1 | ⟨_ + 2, h⟩ => absurd h (Nat.not_lt.2 (Nat.le_add_left _ _))
abbrev reads16_2 : Fin grid16.rank → Bool := ![true]

abbrev grid17 : Pipeline.Grid := ⟨1, ![40000], ![false]⟩

abbrev pre17 : Pipeline.Prefetch sig := ⟨2, ![main_v69.idx, main_v70.idx], fun | 0 => main_v69.names | 1 => main_v70.names | ⟨_ + 2, h⟩ => absurd h (Nat.not_lt.2 (Nat.le_add_left _ _)), fun | 0 => rfl | 1 => rfl | ⟨_ + 2, h⟩ => absurd h (Nat.not_lt.2 (Nat.le_add_left _ _))⟩

def k17_off1 (i : grid17.Coords) : Fin 1 → Nat :=
  let arg0 : BitVec 32 := BitVec.ofNat 32 (i 0).val
  let v0 : Index := Scalar.indexCast arg0
  ![v0.toNat]
def cc17_transform_0 (k17_off1_inb : ∀ i : grid17.Coords, ∀ a, (k17_off1 i) a + S1.size a ≤ S40000.size a) (numel1_S1 : S1.numel = 1) (pf : pre17.Contents (Elt F)) (i : grid17.Coords) : Fin 3 → Nat :=
  let arg0 : BitVec 32 := BitVec.ofNat 32 (i 0).val
  let v0 : Index := Scalar.indexCast arg0
  let v1 : BitVec 32 := pf.at 0 (Rect.unit (s := S40000) ![v0.toNat] S1.size (k17_off1_inb i)) numel1_S1
  let c0_i32 : BitVec 32 := 0#32
  let c0_i32_0 : BitVec 32 := 0#32
  let c0_i32_1 : BitVec 32 := 0#32
  ![v1.toNat, c0_i32.toNat, c0_i32_0.toNat]

def cc17_transform_1 (k17_off1_inb : ∀ i : grid17.Coords, ∀ a, (k17_off1 i) a + S1.size a ≤ S40000.size a) (numel1_S1 : S1.numel = 1) (pf : pre17.Contents (Elt F)) (i : grid17.Coords) : Fin 3 → Nat :=
  let arg0 : BitVec 32 := BitVec.ofNat 32 (i 0).val
  let v0 : Index := Scalar.indexCast arg0
  let v1 : BitVec 32 := pf.at 1 (Rect.unit (s := S40000) ![v0.toNat] S1.size (k17_off1_inb i)) numel1_S1
  let c0_i32 : BitVec 32 := 0#32
  let c0_i32_0 : BitVec 32 := 0#32
  let c0_i32_1 : BitVec 32 := 0#32
  ![v1.toNat, c0_i32.toNat, c0_i32_0.toNat]

def cc17_transform_2 (i : grid17.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage17_0 : Fin 2 → Memref sig .tc .vmem S1x1x128 .f32 := fun | 0 => Memref.whole cc17_stg0_0 | 1 => Memref.whole cc17_stg0_1 | ⟨_ + 2, h⟩ => absurd h (Nat.not_lt.2 (Nat.le_add_left _ _))
abbrev sem17_0 : Fin 2 → DmaSem sig := fun | 0 => cc17_sem0_0 | 1 => cc17_sem0_1 | ⟨_ + 2, h⟩ => absurd h (Nat.not_lt.2 (Nat.le_add_left _ _))
abbrev reads17_0 : Fin grid17.rank → Bool := ![true]

abbrev stage17_1 : Fin 2 → Memref sig .tc .vmem S1x1x128 .f32 := fun | 0 => Memref.whole cc17_stg1_0 | 1 => Memref.whole cc17_stg1_1 | ⟨_ + 2, h⟩ => absurd h (Nat.not_lt.2 (Nat.le_add_left _ _))
abbrev sem17_1 : Fin 2 → DmaSem sig := fun | 0 => cc17_sem1_0 | 1 => cc17_sem1_1 | ⟨_ + 2, h⟩ => absurd h (Nat.not_lt.2 (Nat.le_add_left _ _))
abbrev reads17_1 : Fin grid17.rank → Bool := ![true]

abbrev stage17_2 : Fin 2 → Memref sig .tc .vmem S1x1x128 .f32 := fun | 0 => Memref.whole cc17_stg2_0 | 1 => Memref.whole cc17_stg2_1 | ⟨_ + 2, h⟩ => absurd h (Nat.not_lt.2 (Nat.le_add_left _ _))
abbrev sem17_2 : Fin 2 → DmaSem sig := fun | 0 => cc17_sem2_0 | 1 => cc17_sem2_1 | ⟨_ + 2, h⟩ => absurd h (Nat.not_lt.2 (Nat.le_add_left _ _))
abbrev reads17_2 : Fin grid17.rank → Bool := ![true]

abbrev grid18 : Pipeline.Grid := ⟨1, ![40000], ![false]⟩

abbrev pre18 : Pipeline.Prefetch sig := ⟨2, ![main_v73.idx, main_v74.idx], fun | 0 => main_v73.names | 1 => main_v74.names | ⟨_ + 2, h⟩ => absurd h (Nat.not_lt.2 (Nat.le_add_left _ _)), fun | 0 => rfl | 1 => rfl | ⟨_ + 2, h⟩ => absurd h (Nat.not_lt.2 (Nat.le_add_left _ _))⟩

def k18_off1 (i : grid18.Coords) : Fin 1 → Nat :=
  let arg0 : BitVec 32 := BitVec.ofNat 32 (i 0).val
  let v0 : Index := Scalar.indexCast arg0
  ![v0.toNat]
def cc18_transform_0 (k18_off1_inb : ∀ i : grid18.Coords, ∀ a, (k18_off1 i) a + S1.size a ≤ S40000.size a) (numel1_S1 : S1.numel = 1) (pf : pre18.Contents (Elt F)) (i : grid18.Coords) : Fin 3 → Nat :=
  let arg0 : BitVec 32 := BitVec.ofNat 32 (i 0).val
  let v0 : Index := Scalar.indexCast arg0
  let v1 : BitVec 32 := pf.at 0 (Rect.unit (s := S40000) ![v0.toNat] S1.size (k18_off1_inb i)) numel1_S1
  let c0_i32 : BitVec 32 := 0#32
  let c0_i32_0 : BitVec 32 := 0#32
  let c0_i32_1 : BitVec 32 := 0#32
  ![v1.toNat, c0_i32.toNat, c0_i32_0.toNat]

def cc18_transform_1 (k18_off1_inb : ∀ i : grid18.Coords, ∀ a, (k18_off1 i) a + S1.size a ≤ S40000.size a) (numel1_S1 : S1.numel = 1) (pf : pre18.Contents (Elt F)) (i : grid18.Coords) : Fin 3 → Nat :=
  let arg0 : BitVec 32 := BitVec.ofNat 32 (i 0).val
  let v0 : Index := Scalar.indexCast arg0
  let v1 : BitVec 32 := pf.at 1 (Rect.unit (s := S40000) ![v0.toNat] S1.size (k18_off1_inb i)) numel1_S1
  let c0_i32 : BitVec 32 := 0#32
  let c0_i32_0 : BitVec 32 := 0#32
  let c0_i32_1 : BitVec 32 := 0#32
  ![v1.toNat, c0_i32.toNat, c0_i32_0.toNat]

def cc18_transform_2 (i : grid18.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage18_0 : Fin 2 → Memref sig .tc .vmem S1x1x128 .f32 := fun | 0 => Memref.whole cc18_stg0_0 | 1 => Memref.whole cc18_stg0_1 | ⟨_ + 2, h⟩ => absurd h (Nat.not_lt.2 (Nat.le_add_left _ _))
abbrev sem18_0 : Fin 2 → DmaSem sig := fun | 0 => cc18_sem0_0 | 1 => cc18_sem0_1 | ⟨_ + 2, h⟩ => absurd h (Nat.not_lt.2 (Nat.le_add_left _ _))
abbrev reads18_0 : Fin grid18.rank → Bool := ![true]

abbrev stage18_1 : Fin 2 → Memref sig .tc .vmem S1x1x128 .f32 := fun | 0 => Memref.whole cc18_stg1_0 | 1 => Memref.whole cc18_stg1_1 | ⟨_ + 2, h⟩ => absurd h (Nat.not_lt.2 (Nat.le_add_left _ _))
abbrev sem18_1 : Fin 2 → DmaSem sig := fun | 0 => cc18_sem1_0 | 1 => cc18_sem1_1 | ⟨_ + 2, h⟩ => absurd h (Nat.not_lt.2 (Nat.le_add_left _ _))
abbrev reads18_1 : Fin grid18.rank → Bool := ![true]

abbrev stage18_2 : Fin 2 → Memref sig .tc .vmem S1x1x128 .f32 := fun | 0 => Memref.whole cc18_stg2_0 | 1 => Memref.whole cc18_stg2_1 | ⟨_ + 2, h⟩ => absurd h (Nat.not_lt.2 (Nat.le_add_left _ _))
abbrev sem18_2 : Fin 2 → DmaSem sig := fun | 0 => cc18_sem2_0 | 1 => cc18_sem2_1 | ⟨_ + 2, h⟩ => absurd h (Nat.not_lt.2 (Nat.le_add_left _ _))
abbrev reads18_2 : Fin grid18.rank → Bool := ![true]

abbrev grid19 : Pipeline.Grid := ⟨1, ![40000], ![false]⟩

abbrev pre19 : Pipeline.Prefetch sig := ⟨2, ![main_v77.idx, main_v78.idx], fun | 0 => main_v77.names | 1 => main_v78.names | ⟨_ + 2, h⟩ => absurd h (Nat.not_lt.2 (Nat.le_add_left _ _)), fun | 0 => rfl | 1 => rfl | ⟨_ + 2, h⟩ => absurd h (Nat.not_lt.2 (Nat.le_add_left _ _))⟩

def k19_off1 (i : grid19.Coords) : Fin 1 → Nat :=
  let arg0 : BitVec 32 := BitVec.ofNat 32 (i 0).val
  let v0 : Index := Scalar.indexCast arg0
  ![v0.toNat]
def cc19_transform_0 (k19_off1_inb : ∀ i : grid19.Coords, ∀ a, (k19_off1 i) a + S1.size a ≤ S40000.size a) (numel1_S1 : S1.numel = 1) (pf : pre19.Contents (Elt F)) (i : grid19.Coords) : Fin 3 → Nat :=
  let arg0 : BitVec 32 := BitVec.ofNat 32 (i 0).val
  let v0 : Index := Scalar.indexCast arg0
  let v1 : BitVec 32 := pf.at 0 (Rect.unit (s := S40000) ![v0.toNat] S1.size (k19_off1_inb i)) numel1_S1
  let c0_i32 : BitVec 32 := 0#32
  let c0_i32_0 : BitVec 32 := 0#32
  let c0_i32_1 : BitVec 32 := 0#32
  ![v1.toNat, c0_i32.toNat, c0_i32_0.toNat]

def cc19_transform_1 (k19_off1_inb : ∀ i : grid19.Coords, ∀ a, (k19_off1 i) a + S1.size a ≤ S40000.size a) (numel1_S1 : S1.numel = 1) (pf : pre19.Contents (Elt F)) (i : grid19.Coords) : Fin 3 → Nat :=
  let arg0 : BitVec 32 := BitVec.ofNat 32 (i 0).val
  let v0 : Index := Scalar.indexCast arg0
  let v1 : BitVec 32 := pf.at 1 (Rect.unit (s := S40000) ![v0.toNat] S1.size (k19_off1_inb i)) numel1_S1
  let c0_i32 : BitVec 32 := 0#32
  let c0_i32_0 : BitVec 32 := 0#32
  let c0_i32_1 : BitVec 32 := 0#32
  ![v1.toNat, c0_i32.toNat, c0_i32_0.toNat]

def cc19_transform_2 (i : grid19.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage19_0 : Fin 2 → Memref sig .tc .vmem S1x1x128 .f32 := fun | 0 => Memref.whole cc19_stg0_0 | 1 => Memref.whole cc19_stg0_1 | ⟨_ + 2, h⟩ => absurd h (Nat.not_lt.2 (Nat.le_add_left _ _))
abbrev sem19_0 : Fin 2 → DmaSem sig := fun | 0 => cc19_sem0_0 | 1 => cc19_sem0_1 | ⟨_ + 2, h⟩ => absurd h (Nat.not_lt.2 (Nat.le_add_left _ _))
abbrev reads19_0 : Fin grid19.rank → Bool := ![true]

abbrev stage19_1 : Fin 2 → Memref sig .tc .vmem S1x1x128 .f32 := fun | 0 => Memref.whole cc19_stg1_0 | 1 => Memref.whole cc19_stg1_1 | ⟨_ + 2, h⟩ => absurd h (Nat.not_lt.2 (Nat.le_add_left _ _))
abbrev sem19_1 : Fin 2 → DmaSem sig := fun | 0 => cc19_sem1_0 | 1 => cc19_sem1_1 | ⟨_ + 2, h⟩ => absurd h (Nat.not_lt.2 (Nat.le_add_left _ _))
abbrev reads19_1 : Fin grid19.rank → Bool := ![true]

abbrev stage19_2 : Fin 2 → Memref sig .tc .vmem S1x1x128 .f32 := fun | 0 => Memref.whole cc19_stg2_0 | 1 => Memref.whole cc19_stg2_1 | ⟨_ + 2, h⟩ => absurd h (Nat.not_lt.2 (Nat.le_add_left _ _))
abbrev sem19_2 : Fin 2 → DmaSem sig := fun | 0 => cc19_sem2_0 | 1 => cc19_sem2_1 | ⟨_ + 2, h⟩ => absurd h (Nat.not_lt.2 (Nat.le_add_left _ _))
abbrev reads19_2 : Fin grid19.rank → Bool := ![true]

abbrev grid20 : Pipeline.Grid := ⟨1, ![40000], ![false]⟩

abbrev pre20 : Pipeline.Prefetch sig := ⟨2, ![main_v81.idx, main_v82.idx], fun | 0 => main_v81.names | 1 => main_v82.names | ⟨_ + 2, h⟩ => absurd h (Nat.not_lt.2 (Nat.le_add_left _ _)), fun | 0 => rfl | 1 => rfl | ⟨_ + 2, h⟩ => absurd h (Nat.not_lt.2 (Nat.le_add_left _ _))⟩

def k20_off1 (i : grid20.Coords) : Fin 1 → Nat :=
  let arg0 : BitVec 32 := BitVec.ofNat 32 (i 0).val
  let v0 : Index := Scalar.indexCast arg0
  ![v0.toNat]
def cc20_transform_0 (k20_off1_inb : ∀ i : grid20.Coords, ∀ a, (k20_off1 i) a + S1.size a ≤ S40000.size a) (numel1_S1 : S1.numel = 1) (pf : pre20.Contents (Elt F)) (i : grid20.Coords) : Fin 3 → Nat :=
  let arg0 : BitVec 32 := BitVec.ofNat 32 (i 0).val
  let v0 : Index := Scalar.indexCast arg0
  let v1 : BitVec 32 := pf.at 0 (Rect.unit (s := S40000) ![v0.toNat] S1.size (k20_off1_inb i)) numel1_S1
  let c0_i32 : BitVec 32 := 0#32
  let c0_i32_0 : BitVec 32 := 0#32
  let c0_i32_1 : BitVec 32 := 0#32
  ![v1.toNat, c0_i32.toNat, c0_i32_0.toNat]

def cc20_transform_1 (k20_off1_inb : ∀ i : grid20.Coords, ∀ a, (k20_off1 i) a + S1.size a ≤ S40000.size a) (numel1_S1 : S1.numel = 1) (pf : pre20.Contents (Elt F)) (i : grid20.Coords) : Fin 3 → Nat :=
  let arg0 : BitVec 32 := BitVec.ofNat 32 (i 0).val
  let v0 : Index := Scalar.indexCast arg0
  let v1 : BitVec 32 := pf.at 1 (Rect.unit (s := S40000) ![v0.toNat] S1.size (k20_off1_inb i)) numel1_S1
  let c0_i32 : BitVec 32 := 0#32
  let c0_i32_0 : BitVec 32 := 0#32
  let c0_i32_1 : BitVec 32 := 0#32
  ![v1.toNat, c0_i32.toNat, c0_i32_0.toNat]

def cc20_transform_2 (i : grid20.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage20_0 : Fin 2 → Memref sig .tc .vmem S1x1x128 .f32 := fun | 0 => Memref.whole cc20_stg0_0 | 1 => Memref.whole cc20_stg0_1 | ⟨_ + 2, h⟩ => absurd h (Nat.not_lt.2 (Nat.le_add_left _ _))
abbrev sem20_0 : Fin 2 → DmaSem sig := fun | 0 => cc20_sem0_0 | 1 => cc20_sem0_1 | ⟨_ + 2, h⟩ => absurd h (Nat.not_lt.2 (Nat.le_add_left _ _))
abbrev reads20_0 : Fin grid20.rank → Bool := ![true]

abbrev stage20_1 : Fin 2 → Memref sig .tc .vmem S1x1x128 .f32 := fun | 0 => Memref.whole cc20_stg1_0 | 1 => Memref.whole cc20_stg1_1 | ⟨_ + 2, h⟩ => absurd h (Nat.not_lt.2 (Nat.le_add_left _ _))
abbrev sem20_1 : Fin 2 → DmaSem sig := fun | 0 => cc20_sem1_0 | 1 => cc20_sem1_1 | ⟨_ + 2, h⟩ => absurd h (Nat.not_lt.2 (Nat.le_add_left _ _))
abbrev reads20_1 : Fin grid20.rank → Bool := ![true]

abbrev stage20_2 : Fin 2 → Memref sig .tc .vmem S1x1x128 .f32 := fun | 0 => Memref.whole cc20_stg2_0 | 1 => Memref.whole cc20_stg2_1 | ⟨_ + 2, h⟩ => absurd h (Nat.not_lt.2 (Nat.le_add_left _ _))
abbrev sem20_2 : Fin 2 → DmaSem sig := fun | 0 => cc20_sem2_0 | 1 => cc20_sem2_1 | ⟨_ + 2, h⟩ => absurd h (Nat.not_lt.2 (Nat.le_add_left _ _))
abbrev reads20_2 : Fin grid20.rank → Bool := ![true]

class Facts₀ : Prop where
  inb_S1x5000x64_S1x5000x64_0_0_0 : ∀ a, (![0, 0, 0] : Fin 3 → Nat) a + S1x5000x64.size a ≤ S1x5000x64.size a
  h_S1x5000x64 : 0 < S1x5000x64.numel
  shapeCasts_S1x5000x64_S5000x64 : S1x5000x64.ShapeCasts S5000x64
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  transposes_S64x64_p1_0_S64x64 : S64x64.Transposes [1, 0] S64x64
  shapeCasts_S5000x64_S1x5000x64 : S5000x64.ShapeCasts S1x5000x64
  transposes_S2x50000x64_S50000x2x64_1_0_2 : S2x50000x64.Transposes [1, 0, 2] S50000x2x64
  shapeCasts_S50000x2x64_S50000x1x128 : S50000x2x64.ShapeCasts S50000x1x128
  slices_S800000_S40000_0 : S800000.Slices ![0] S40000
  numel1_S1 : S1.numel = 1
  inb_S1x1x128_S1x1x128_0_0_0 : ∀ a, (![0, 0, 0] : Fin 3 → Nat) a + S1x1x128.size a ≤ S1x1x128.size a
  h_S1x1x128 : 0 < S1x1x128.numel
  shapeCasts_S1x1x128_S1x1x128 : S1x1x128.ShapeCasts S1x1x128
  shapeCasts_S40000x1x128_S40000x128 : S40000x1x128.ShapeCasts S40000x128
  slices_S800000_S40000_40000 : S800000.Slices ![40000] S40000
  slices_S800000_S40000_80000 : S800000.Slices ![80000] S40000
  slices_S800000_S40000_120000 : S800000.Slices ![120000] S40000
  slices_S800000_S40000_160000 : S800000.Slices ![160000] S40000
  slices_S800000_S40000_200000 : S800000.Slices ![200000] S40000
  slices_S800000_S40000_240000 : S800000.Slices ![240000] S40000
  slices_S800000_S40000_280000 : S800000.Slices ![280000] S40000
  slices_S800000_S40000_320000 : S800000.Slices ![320000] S40000
  slices_S800000_S40000_360000 : S800000.Slices ![360000] S40000
  slices_S800000_S40000_400000 : S800000.Slices ![400000] S40000
  slices_S800000_S40000_440000 : S800000.Slices ![440000] S40000
  slices_S800000_S40000_480000 : S800000.Slices ![480000] S40000
  slices_S800000_S40000_520000 : S800000.Slices ![520000] S40000
  slices_S800000_S40000_560000 : S800000.Slices ![560000] S40000
  slices_S800000_S40000_600000 : S800000.Slices ![600000] S40000
  slices_S800000_S40000_640000 : S800000.Slices ![640000] S40000
  slices_S800000_S40000_680000 : S800000.Slices ![680000] S40000
  slices_S800000_S40000_720000 : S800000.Slices ![720000] S40000
  slices_S800000_S40000_760000 : S800000.Slices ![760000] S40000
  concatenates_S40000x128_S40000x128_S40000x128_S40000x128_S40000x128_S40000x128_S40000x128_S40000x128_S40000x128_S40000x128_S40000x128_S40000x128_S40000x128_S40000x128_S40000x128_S40000x128_S640000x128_d0 : Shape.Concatenates [S40000x128, S40000x128, S40000x128, S40000x128, S40000x128, S40000x128, S40000x128, S40000x128, S40000x128, S40000x128, S40000x128, S40000x128, S40000x128, S40000x128, S40000x128, S40000x128] S640000x128 0
  concatenates_S40000x128_S40000x128_S40000x128_S40000x128_S160000x128_d0 : Shape.Concatenates [S40000x128, S40000x128, S40000x128, S40000x128] S160000x128 0
  concatenates_S640000x128_S160000x128_S800000x128_d0 : Shape.Concatenates [S640000x128, S160000x128] S800000x128 0
  shapeCasts_S800000x128_S800000x2x64 : S800000x128.ShapeCasts S800000x2x64
  transposes_S800000x2x64_S2x800000x64_1_0_2 : S800000x2x64.Transposes [1, 0, 2] S2x800000x64
  dot_S5000x64_S64x64_S5000x64_1_0_0_1_n_n_wf : DotDims.WF S5000x64 S64x64 S5000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x5000x64.size a ≤ S2x50000x64.size a
  hwx0_0 : ∀ i : grid0.Coords, EltTy.bits .f32 = 32 ∨ (Rect.block (s := S2x50000x64) S1x5000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x64.size a ≤ S64x64.size a
  hwx0_1 : ∀ i : grid0.Coords, EltTy.bits .f32 = 32 ∨ (Rect.block (s := S64x64) S64x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x64.size a ≤ S64x64.size a
  hwx0_2 : ∀ i : grid0.Coords, EltTy.bits .f32 = 32 ∨ (Rect.block (s := S64x64) S64x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x5000x64.size a ≤ S2x50000x64.size a
  hwx0_3 : ∀ i : grid0.Coords, EltTy.bits .f32 = 32 ∨ (Rect.block (s := S2x50000x64) S1x5000x64.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x5000x64.size a ≤ S2x50000x64.size a
  hwx0_4 : ∀ i : grid0.Coords, EltTy.bits .f32 = 32 ∨ (Rect.block (s := S2x50000x64) S1x5000x64.size (cc0_transform_4 i) (hinb0_4 i)).WholeWords (EltTy.packing .f32)
  hrank1 : 0 < grid1.rank
  k1_off1_inb : ∀ i : grid1.Coords, ∀ a, (k1_off1 i) a + S1.size a ≤ S40000.size a
  hstage1_0 : ∀ j, (stage1_0 j).IsWhole
  nbuf1_0 : grid1.bufCount reads1_0 false = 2
  hreads1_0 : ∀ {F : FTy → Type} [FloatOps F] (pf : pre1.Contents (Elt F)) (i i' : grid1.Coords), (∀ a, reads1_0 a = true → i a = i' a) → cc1_transform_0 k1_off1_inb numel1_S1 pf i = cc1_transform_0 k1_off1_inb numel1_S1 pf i'
  hstage1_1 : ∀ j, (stage1_1 j).IsWhole
  nbuf1_1 : grid1.bufCount reads1_1 false = 2
  hreads1_1 : ∀ {F : FTy → Type} [FloatOps F] (pf : pre1.Contents (Elt F)) (i i' : grid1.Coords), (∀ a, reads1_1 a = true → i a = i' a) → cc1_transform_1 k1_off1_inb numel1_S1 pf i = cc1_transform_1 k1_off1_inb numel1_S1 pf i'
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x1x128.size a ≤ S40000x1x128.size a
  hwx1_2 : ∀ i : grid1.Coords, EltTy.bits .f32 = 32 ∨ (Rect.block (s := S40000x1x128) S1x1x128.size (cc1_transform_2 i) (hinb1_2 i)).WholeWords (EltTy.packing .f32)
  hrank2 : 0 < grid2.rank
  k2_off1_inb : ∀ i : grid2.Coords, ∀ a, (k2_off1 i) a + S1.size a ≤ S40000.size a
  hstage2_0 : ∀ j, (stage2_0 j).IsWhole
  nbuf2_0 : grid2.bufCount reads2_0 false = 2
  hreads2_0 : ∀ {F : FTy → Type} [FloatOps F] (pf : pre2.Contents (Elt F)) (i i' : grid2.Coords), (∀ a, reads2_0 a = true → i a = i' a) → cc2_transform_0 k2_off1_inb numel1_S1 pf i = cc2_transform_0 k2_off1_inb numel1_S1 pf i'
  hstage2_1 : ∀ j, (stage2_1 j).IsWhole
  nbuf2_1 : grid2.bufCount reads2_1 false = 2
  hreads2_1 : ∀ {F : FTy → Type} [FloatOps F] (pf : pre2.Contents (Elt F)) (i i' : grid2.Coords), (∀ a, reads2_1 a = true → i a = i' a) → cc2_transform_1 k2_off1_inb numel1_S1 pf i = cc2_transform_1 k2_off1_inb numel1_S1 pf i'
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1x1x128.size a ≤ S40000x1x128.size a
  hwx2_2 : ∀ i : grid2.Coords, EltTy.bits .f32 = 32 ∨ (Rect.block (s := S40000x1x128) S1x1x128.size (cc2_transform_2 i) (hinb2_2 i)).WholeWords (EltTy.packing .f32)
  hrank3 : 0 < grid3.rank
  k3_off1_inb : ∀ i : grid3.Coords, ∀ a, (k3_off1 i) a + S1.size a ≤ S40000.size a
  hstage3_0 : ∀ j, (stage3_0 j).IsWhole
  nbuf3_0 : grid3.bufCount reads3_0 false = 2
  hreads3_0 : ∀ {F : FTy → Type} [FloatOps F] (pf : pre3.Contents (Elt F)) (i i' : grid3.Coords), (∀ a, reads3_0 a = true → i a = i' a) → cc3_transform_0 k3_off1_inb numel1_S1 pf i = cc3_transform_0 k3_off1_inb numel1_S1 pf i'
  hstage3_1 : ∀ j, (stage3_1 j).IsWhole
  nbuf3_1 : grid3.bufCount reads3_1 false = 2
  hreads3_1 : ∀ {F : FTy → Type} [FloatOps F] (pf : pre3.Contents (Elt F)) (i i' : grid3.Coords), (∀ a, reads3_1 a = true → i a = i' a) → cc3_transform_1 k3_off1_inb numel1_S1 pf i = cc3_transform_1 k3_off1_inb numel1_S1 pf i'
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S1x1x128.size a ≤ S40000x1x128.size a
  hwx3_2 : ∀ i : grid3.Coords, EltTy.bits .f32 = 32 ∨ (Rect.block (s := S40000x1x128) S1x1x128.size (cc3_transform_2 i) (hinb3_2 i)).WholeWords (EltTy.packing .f32)
  hrank4 : 0 < grid4.rank
  k4_off1_inb : ∀ i : grid4.Coords, ∀ a, (k4_off1 i) a + S1.size a ≤ S40000.size a
  hstage4_0 : ∀ j, (stage4_0 j).IsWhole
  nbuf4_0 : grid4.bufCount reads4_0 false = 2
  hreads4_0 : ∀ {F : FTy → Type} [FloatOps F] (pf : pre4.Contents (Elt F)) (i i' : grid4.Coords), (∀ a, reads4_0 a = true → i a = i' a) → cc4_transform_0 k4_off1_inb numel1_S1 pf i = cc4_transform_0 k4_off1_inb numel1_S1 pf i'
  hstage4_1 : ∀ j, (stage4_1 j).IsWhole
  nbuf4_1 : grid4.bufCount reads4_1 false = 2
  hreads4_1 : ∀ {F : FTy → Type} [FloatOps F] (pf : pre4.Contents (Elt F)) (i i' : grid4.Coords), (∀ a, reads4_1 a = true → i a = i' a) → cc4_transform_1 k4_off1_inb numel1_S1 pf i = cc4_transform_1 k4_off1_inb numel1_S1 pf i'
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S1x1x128.size a ≤ S40000x1x128.size a
  hwx4_2 : ∀ i : grid4.Coords, EltTy.bits .f32 = 32 ∨ (Rect.block (s := S40000x1x128) S1x1x128.size (cc4_transform_2 i) (hinb4_2 i)).WholeWords (EltTy.packing .f32)
  hrank5 : 0 < grid5.rank
  k5_off1_inb : ∀ i : grid5.Coords, ∀ a, (k5_off1 i) a + S1.size a ≤ S40000.size a
  hstage5_0 : ∀ j, (stage5_0 j).IsWhole
  nbuf5_0 : grid5.bufCount reads5_0 false = 2
  hreads5_0 : ∀ {F : FTy → Type} [FloatOps F] (pf : pre5.Contents (Elt F)) (i i' : grid5.Coords), (∀ a, reads5_0 a = true → i a = i' a) → cc5_transform_0 k5_off1_inb numel1_S1 pf i = cc5_transform_0 k5_off1_inb numel1_S1 pf i'
  hstage5_1 : ∀ j, (stage5_1 j).IsWhole
  nbuf5_1 : grid5.bufCount reads5_1 false = 2
  hreads5_1 : ∀ {F : FTy → Type} [FloatOps F] (pf : pre5.Contents (Elt F)) (i i' : grid5.Coords), (∀ a, reads5_1 a = true → i a = i' a) → cc5_transform_1 k5_off1_inb numel1_S1 pf i = cc5_transform_1 k5_off1_inb numel1_S1 pf i'
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S1x1x128.size a ≤ S40000x1x128.size a
  hwx5_2 : ∀ i : grid5.Coords, EltTy.bits .f32 = 32 ∨ (Rect.block (s := S40000x1x128) S1x1x128.size (cc5_transform_2 i) (hinb5_2 i)).WholeWords (EltTy.packing .f32)
  hrank6 : 0 < grid6.rank
  k6_off1_inb : ∀ i : grid6.Coords, ∀ a, (k6_off1 i) a + S1.size a ≤ S40000.size a
  hstage6_0 : ∀ j, (stage6_0 j).IsWhole
  nbuf6_0 : grid6.bufCount reads6_0 false = 2
  hreads6_0 : ∀ {F : FTy → Type} [FloatOps F] (pf : pre6.Contents (Elt F)) (i i' : grid6.Coords), (∀ a, reads6_0 a = true → i a = i' a) → cc6_transform_0 k6_off1_inb numel1_S1 pf i = cc6_transform_0 k6_off1_inb numel1_S1 pf i'
  hstage6_1 : ∀ j, (stage6_1 j).IsWhole
  nbuf6_1 : grid6.bufCount reads6_1 false = 2
  hreads6_1 : ∀ {F : FTy → Type} [FloatOps F] (pf : pre6.Contents (Elt F)) (i i' : grid6.Coords), (∀ a, reads6_1 a = true → i a = i' a) → cc6_transform_1 k6_off1_inb numel1_S1 pf i = cc6_transform_1 k6_off1_inb numel1_S1 pf i'
  hstage6_2 : ∀ j, (stage6_2 j).IsWhole
  nbuf6_2 : grid6.bufCount reads6_2 false = 2
  hreads6_2 : ∀ i i' : grid6.Coords, (∀ a, reads6_2 a = true → i a = i' a) → cc6_transform_2 i = cc6_transform_2 i'
  hinb6_2 : ∀ (i : grid6.Coords) a, (cc6_transform_2 i a + 1) * S1x1x128.size a ≤ S40000x1x128.size a
  hwx6_2 : ∀ i : grid6.Coords, EltTy.bits .f32 = 32 ∨ (Rect.block (s := S40000x1x128) S1x1x128.size (cc6_transform_2 i) (hinb6_2 i)).WholeWords (EltTy.packing .f32)
  hrank7 : 0 < grid7.rank
  k7_off1_inb : ∀ i : grid7.Coords, ∀ a, (k7_off1 i) a + S1.size a ≤ S40000.size a
  hstage7_0 : ∀ j, (stage7_0 j).IsWhole
  nbuf7_0 : grid7.bufCount reads7_0 false = 2
  hreads7_0 : ∀ {F : FTy → Type} [FloatOps F] (pf : pre7.Contents (Elt F)) (i i' : grid7.Coords), (∀ a, reads7_0 a = true → i a = i' a) → cc7_transform_0 k7_off1_inb numel1_S1 pf i = cc7_transform_0 k7_off1_inb numel1_S1 pf i'
  hstage7_1 : ∀ j, (stage7_1 j).IsWhole
  nbuf7_1 : grid7.bufCount reads7_1 false = 2
  hreads7_1 : ∀ {F : FTy → Type} [FloatOps F] (pf : pre7.Contents (Elt F)) (i i' : grid7.Coords), (∀ a, reads7_1 a = true → i a = i' a) → cc7_transform_1 k7_off1_inb numel1_S1 pf i = cc7_transform_1 k7_off1_inb numel1_S1 pf i'
  hstage7_2 : ∀ j, (stage7_2 j).IsWhole
  nbuf7_2 : grid7.bufCount reads7_2 false = 2
  hreads7_2 : ∀ i i' : grid7.Coords, (∀ a, reads7_2 a = true → i a = i' a) → cc7_transform_2 i = cc7_transform_2 i'
  hinb7_2 : ∀ (i : grid7.Coords) a, (cc7_transform_2 i a + 1) * S1x1x128.size a ≤ S40000x1x128.size a
  hwx7_2 : ∀ i : grid7.Coords, EltTy.bits .f32 = 32 ∨ (Rect.block (s := S40000x1x128) S1x1x128.size (cc7_transform_2 i) (hinb7_2 i)).WholeWords (EltTy.packing .f32)
  hrank8 : 0 < grid8.rank
  k8_off1_inb : ∀ i : grid8.Coords, ∀ a, (k8_off1 i) a + S1.size a ≤ S40000.size a
  hstage8_0 : ∀ j, (stage8_0 j).IsWhole
  nbuf8_0 : grid8.bufCount reads8_0 false = 2
  hreads8_0 : ∀ {F : FTy → Type} [FloatOps F] (pf : pre8.Contents (Elt F)) (i i' : grid8.Coords), (∀ a, reads8_0 a = true → i a = i' a) → cc8_transform_0 k8_off1_inb numel1_S1 pf i = cc8_transform_0 k8_off1_inb numel1_S1 pf i'
  hstage8_1 : ∀ j, (stage8_1 j).IsWhole
  nbuf8_1 : grid8.bufCount reads8_1 false = 2
  hreads8_1 : ∀ {F : FTy → Type} [FloatOps F] (pf : pre8.Contents (Elt F)) (i i' : grid8.Coords), (∀ a, reads8_1 a = true → i a = i' a) → cc8_transform_1 k8_off1_inb numel1_S1 pf i = cc8_transform_1 k8_off1_inb numel1_S1 pf i'
  hstage8_2 : ∀ j, (stage8_2 j).IsWhole
  nbuf8_2 : grid8.bufCount reads8_2 false = 2
  hreads8_2 : ∀ i i' : grid8.Coords, (∀ a, reads8_2 a = true → i a = i' a) → cc8_transform_2 i = cc8_transform_2 i'
  hinb8_2 : ∀ (i : grid8.Coords) a, (cc8_transform_2 i a + 1) * S1x1x128.size a ≤ S40000x1x128.size a
  hwx8_2 : ∀ i : grid8.Coords, EltTy.bits .f32 = 32 ∨ (Rect.block (s := S40000x1x128) S1x1x128.size (cc8_transform_2 i) (hinb8_2 i)).WholeWords (EltTy.packing .f32)
  hrank9 : 0 < grid9.rank
  k9_off1_inb : ∀ i : grid9.Coords, ∀ a, (k9_off1 i) a + S1.size a ≤ S40000.size a
  hstage9_0 : ∀ j, (stage9_0 j).IsWhole
  nbuf9_0 : grid9.bufCount reads9_0 false = 2
  hreads9_0 : ∀ {F : FTy → Type} [FloatOps F] (pf : pre9.Contents (Elt F)) (i i' : grid9.Coords), (∀ a, reads9_0 a = true → i a = i' a) → cc9_transform_0 k9_off1_inb numel1_S1 pf i = cc9_transform_0 k9_off1_inb numel1_S1 pf i'
  hstage9_1 : ∀ j, (stage9_1 j).IsWhole
  nbuf9_1 : grid9.bufCount reads9_1 false = 2
  hreads9_1 : ∀ {F : FTy → Type} [FloatOps F] (pf : pre9.Contents (Elt F)) (i i' : grid9.Coords), (∀ a, reads9_1 a = true → i a = i' a) → cc9_transform_1 k9_off1_inb numel1_S1 pf i = cc9_transform_1 k9_off1_inb numel1_S1 pf i'
  hstage9_2 : ∀ j, (stage9_2 j).IsWhole
  nbuf9_2 : grid9.bufCount reads9_2 false = 2
  hreads9_2 : ∀ i i' : grid9.Coords, (∀ a, reads9_2 a = true → i a = i' a) → cc9_transform_2 i = cc9_transform_2 i'
  hinb9_2 : ∀ (i : grid9.Coords) a, (cc9_transform_2 i a + 1) * S1x1x128.size a ≤ S40000x1x128.size a
  hwx9_2 : ∀ i : grid9.Coords, EltTy.bits .f32 = 32 ∨ (Rect.block (s := S40000x1x128) S1x1x128.size (cc9_transform_2 i) (hinb9_2 i)).WholeWords (EltTy.packing .f32)
  hrank10 : 0 < grid10.rank
  k10_off1_inb : ∀ i : grid10.Coords, ∀ a, (k10_off1 i) a + S1.size a ≤ S40000.size a
  hstage10_0 : ∀ j, (stage10_0 j).IsWhole
  nbuf10_0 : grid10.bufCount reads10_0 false = 2
  hreads10_0 : ∀ {F : FTy → Type} [FloatOps F] (pf : pre10.Contents (Elt F)) (i i' : grid10.Coords), (∀ a, reads10_0 a = true → i a = i' a) → cc10_transform_0 k10_off1_inb numel1_S1 pf i = cc10_transform_0 k10_off1_inb numel1_S1 pf i'
  hstage10_1 : ∀ j, (stage10_1 j).IsWhole
  nbuf10_1 : grid10.bufCount reads10_1 false = 2
  hreads10_1 : ∀ {F : FTy → Type} [FloatOps F] (pf : pre10.Contents (Elt F)) (i i' : grid10.Coords), (∀ a, reads10_1 a = true → i a = i' a) → cc10_transform_1 k10_off1_inb numel1_S1 pf i = cc10_transform_1 k10_off1_inb numel1_S1 pf i'
  hstage10_2 : ∀ j, (stage10_2 j).IsWhole
  nbuf10_2 : grid10.bufCount reads10_2 false = 2
  hreads10_2 : ∀ i i' : grid10.Coords, (∀ a, reads10_2 a = true → i a = i' a) → cc10_transform_2 i = cc10_transform_2 i'
  hinb10_2 : ∀ (i : grid10.Coords) a, (cc10_transform_2 i a + 1) * S1x1x128.size a ≤ S40000x1x128.size a
  hwx10_2 : ∀ i : grid10.Coords, EltTy.bits .f32 = 32 ∨ (Rect.block (s := S40000x1x128) S1x1x128.size (cc10_transform_2 i) (hinb10_2 i)).WholeWords (EltTy.packing .f32)
  hrank11 : 0 < grid11.rank
  k11_off1_inb : ∀ i : grid11.Coords, ∀ a, (k11_off1 i) a + S1.size a ≤ S40000.size a
  hstage11_0 : ∀ j, (stage11_0 j).IsWhole
  nbuf11_0 : grid11.bufCount reads11_0 false = 2
  hreads11_0 : ∀ {F : FTy → Type} [FloatOps F] (pf : pre11.Contents (Elt F)) (i i' : grid11.Coords), (∀ a, reads11_0 a = true → i a = i' a) → cc11_transform_0 k11_off1_inb numel1_S1 pf i = cc11_transform_0 k11_off1_inb numel1_S1 pf i'
  hstage11_1 : ∀ j, (stage11_1 j).IsWhole
  nbuf11_1 : grid11.bufCount reads11_1 false = 2
  hreads11_1 : ∀ {F : FTy → Type} [FloatOps F] (pf : pre11.Contents (Elt F)) (i i' : grid11.Coords), (∀ a, reads11_1 a = true → i a = i' a) → cc11_transform_1 k11_off1_inb numel1_S1 pf i = cc11_transform_1 k11_off1_inb numel1_S1 pf i'
  hstage11_2 : ∀ j, (stage11_2 j).IsWhole
  nbuf11_2 : grid11.bufCount reads11_2 false = 2
  hreads11_2 : ∀ i i' : grid11.Coords, (∀ a, reads11_2 a = true → i a = i' a) → cc11_transform_2 i = cc11_transform_2 i'
  hinb11_2 : ∀ (i : grid11.Coords) a, (cc11_transform_2 i a + 1) * S1x1x128.size a ≤ S40000x1x128.size a
  hwx11_2 : ∀ i : grid11.Coords, EltTy.bits .f32 = 32 ∨ (Rect.block (s := S40000x1x128) S1x1x128.size (cc11_transform_2 i) (hinb11_2 i)).WholeWords (EltTy.packing .f32)
  hrank12 : 0 < grid12.rank
  k12_off1_inb : ∀ i : grid12.Coords, ∀ a, (k12_off1 i) a + S1.size a ≤ S40000.size a
  hstage12_0 : ∀ j, (stage12_0 j).IsWhole
  nbuf12_0 : grid12.bufCount reads12_0 false = 2
  hreads12_0 : ∀ {F : FTy → Type} [FloatOps F] (pf : pre12.Contents (Elt F)) (i i' : grid12.Coords), (∀ a, reads12_0 a = true → i a = i' a) → cc12_transform_0 k12_off1_inb numel1_S1 pf i = cc12_transform_0 k12_off1_inb numel1_S1 pf i'
  hstage12_1 : ∀ j, (stage12_1 j).IsWhole
  nbuf12_1 : grid12.bufCount reads12_1 false = 2
  hreads12_1 : ∀ {F : FTy → Type} [FloatOps F] (pf : pre12.Contents (Elt F)) (i i' : grid12.Coords), (∀ a, reads12_1 a = true → i a = i' a) → cc12_transform_1 k12_off1_inb numel1_S1 pf i = cc12_transform_1 k12_off1_inb numel1_S1 pf i'
  hstage12_2 : ∀ j, (stage12_2 j).IsWhole
  nbuf12_2 : grid12.bufCount reads12_2 false = 2
  hreads12_2 : ∀ i i' : grid12.Coords, (∀ a, reads12_2 a = true → i a = i' a) → cc12_transform_2 i = cc12_transform_2 i'
  hinb12_2 : ∀ (i : grid12.Coords) a, (cc12_transform_2 i a + 1) * S1x1x128.size a ≤ S40000x1x128.size a
  hwx12_2 : ∀ i : grid12.Coords, EltTy.bits .f32 = 32 ∨ (Rect.block (s := S40000x1x128) S1x1x128.size (cc12_transform_2 i) (hinb12_2 i)).WholeWords (EltTy.packing .f32)
  hrank13 : 0 < grid13.rank
  k13_off1_inb : ∀ i : grid13.Coords, ∀ a, (k13_off1 i) a + S1.size a ≤ S40000.size a
  hstage13_0 : ∀ j, (stage13_0 j).IsWhole
  nbuf13_0 : grid13.bufCount reads13_0 false = 2
  hreads13_0 : ∀ {F : FTy → Type} [FloatOps F] (pf : pre13.Contents (Elt F)) (i i' : grid13.Coords), (∀ a, reads13_0 a = true → i a = i' a) → cc13_transform_0 k13_off1_inb numel1_S1 pf i = cc13_transform_0 k13_off1_inb numel1_S1 pf i'
  hstage13_1 : ∀ j, (stage13_1 j).IsWhole
  nbuf13_1 : grid13.bufCount reads13_1 false = 2
  hreads13_1 : ∀ {F : FTy → Type} [FloatOps F] (pf : pre13.Contents (Elt F)) (i i' : grid13.Coords), (∀ a, reads13_1 a = true → i a = i' a) → cc13_transform_1 k13_off1_inb numel1_S1 pf i = cc13_transform_1 k13_off1_inb numel1_S1 pf i'
  hstage13_2 : ∀ j, (stage13_2 j).IsWhole
  nbuf13_2 : grid13.bufCount reads13_2 false = 2
  hreads13_2 : ∀ i i' : grid13.Coords, (∀ a, reads13_2 a = true → i a = i' a) → cc13_transform_2 i = cc13_transform_2 i'
  hinb13_2 : ∀ (i : grid13.Coords) a, (cc13_transform_2 i a + 1) * S1x1x128.size a ≤ S40000x1x128.size a
  hwx13_2 : ∀ i : grid13.Coords, EltTy.bits .f32 = 32 ∨ (Rect.block (s := S40000x1x128) S1x1x128.size (cc13_transform_2 i) (hinb13_2 i)).WholeWords (EltTy.packing .f32)
  hrank14 : 0 < grid14.rank
  k14_off1_inb : ∀ i : grid14.Coords, ∀ a, (k14_off1 i) a + S1.size a ≤ S40000.size a
  hstage14_0 : ∀ j, (stage14_0 j).IsWhole
  nbuf14_0 : grid14.bufCount reads14_0 false = 2
  hreads14_0 : ∀ {F : FTy → Type} [FloatOps F] (pf : pre14.Contents (Elt F)) (i i' : grid14.Coords), (∀ a, reads14_0 a = true → i a = i' a) → cc14_transform_0 k14_off1_inb numel1_S1 pf i = cc14_transform_0 k14_off1_inb numel1_S1 pf i'
  hstage14_1 : ∀ j, (stage14_1 j).IsWhole
  nbuf14_1 : grid14.bufCount reads14_1 false = 2
  hreads14_1 : ∀ {F : FTy → Type} [FloatOps F] (pf : pre14.Contents (Elt F)) (i i' : grid14.Coords), (∀ a, reads14_1 a = true → i a = i' a) → cc14_transform_1 k14_off1_inb numel1_S1 pf i = cc14_transform_1 k14_off1_inb numel1_S1 pf i'
  hstage14_2 : ∀ j, (stage14_2 j).IsWhole
  nbuf14_2 : grid14.bufCount reads14_2 false = 2
  hreads14_2 : ∀ i i' : grid14.Coords, (∀ a, reads14_2 a = true → i a = i' a) → cc14_transform_2 i = cc14_transform_2 i'
  hinb14_2 : ∀ (i : grid14.Coords) a, (cc14_transform_2 i a + 1) * S1x1x128.size a ≤ S40000x1x128.size a
  hwx14_2 : ∀ i : grid14.Coords, EltTy.bits .f32 = 32 ∨ (Rect.block (s := S40000x1x128) S1x1x128.size (cc14_transform_2 i) (hinb14_2 i)).WholeWords (EltTy.packing .f32)
  hrank15 : 0 < grid15.rank
  k15_off1_inb : ∀ i : grid15.Coords, ∀ a, (k15_off1 i) a + S1.size a ≤ S40000.size a
  hstage15_0 : ∀ j, (stage15_0 j).IsWhole
  nbuf15_0 : grid15.bufCount reads15_0 false = 2
  hreads15_0 : ∀ {F : FTy → Type} [FloatOps F] (pf : pre15.Contents (Elt F)) (i i' : grid15.Coords), (∀ a, reads15_0 a = true → i a = i' a) → cc15_transform_0 k15_off1_inb numel1_S1 pf i = cc15_transform_0 k15_off1_inb numel1_S1 pf i'
  hstage15_1 : ∀ j, (stage15_1 j).IsWhole
  nbuf15_1 : grid15.bufCount reads15_1 false = 2
  hreads15_1 : ∀ {F : FTy → Type} [FloatOps F] (pf : pre15.Contents (Elt F)) (i i' : grid15.Coords), (∀ a, reads15_1 a = true → i a = i' a) → cc15_transform_1 k15_off1_inb numel1_S1 pf i = cc15_transform_1 k15_off1_inb numel1_S1 pf i'
  hstage15_2 : ∀ j, (stage15_2 j).IsWhole
  nbuf15_2 : grid15.bufCount reads15_2 false = 2
  hreads15_2 : ∀ i i' : grid15.Coords, (∀ a, reads15_2 a = true → i a = i' a) → cc15_transform_2 i = cc15_transform_2 i'
  hinb15_2 : ∀ (i : grid15.Coords) a, (cc15_transform_2 i a + 1) * S1x1x128.size a ≤ S40000x1x128.size a
  hwx15_2 : ∀ i : grid15.Coords, EltTy.bits .f32 = 32 ∨ (Rect.block (s := S40000x1x128) S1x1x128.size (cc15_transform_2 i) (hinb15_2 i)).WholeWords (EltTy.packing .f32)
  hrank16 : 0 < grid16.rank
  k16_off1_inb : ∀ i : grid16.Coords, ∀ a, (k16_off1 i) a + S1.size a ≤ S40000.size a
  hstage16_0 : ∀ j, (stage16_0 j).IsWhole
  nbuf16_0 : grid16.bufCount reads16_0 false = 2
  hreads16_0 : ∀ {F : FTy → Type} [FloatOps F] (pf : pre16.Contents (Elt F)) (i i' : grid16.Coords), (∀ a, reads16_0 a = true → i a = i' a) → cc16_transform_0 k16_off1_inb numel1_S1 pf i = cc16_transform_0 k16_off1_inb numel1_S1 pf i'
  hstage16_1 : ∀ j, (stage16_1 j).IsWhole
  nbuf16_1 : grid16.bufCount reads16_1 false = 2
  hreads16_1 : ∀ {F : FTy → Type} [FloatOps F] (pf : pre16.Contents (Elt F)) (i i' : grid16.Coords), (∀ a, reads16_1 a = true → i a = i' a) → cc16_transform_1 k16_off1_inb numel1_S1 pf i = cc16_transform_1 k16_off1_inb numel1_S1 pf i'
  hstage16_2 : ∀ j, (stage16_2 j).IsWhole
  nbuf16_2 : grid16.bufCount reads16_2 false = 2
  hreads16_2 : ∀ i i' : grid16.Coords, (∀ a, reads16_2 a = true → i a = i' a) → cc16_transform_2 i = cc16_transform_2 i'
  hinb16_2 : ∀ (i : grid16.Coords) a, (cc16_transform_2 i a + 1) * S1x1x128.size a ≤ S40000x1x128.size a
  hwx16_2 : ∀ i : grid16.Coords, EltTy.bits .f32 = 32 ∨ (Rect.block (s := S40000x1x128) S1x1x128.size (cc16_transform_2 i) (hinb16_2 i)).WholeWords (EltTy.packing .f32)
  hrank17 : 0 < grid17.rank
  k17_off1_inb : ∀ i : grid17.Coords, ∀ a, (k17_off1 i) a + S1.size a ≤ S40000.size a
  hstage17_0 : ∀ j, (stage17_0 j).IsWhole
  nbuf17_0 : grid17.bufCount reads17_0 false = 2
  hreads17_0 : ∀ {F : FTy → Type} [FloatOps F] (pf : pre17.Contents (Elt F)) (i i' : grid17.Coords), (∀ a, reads17_0 a = true → i a = i' a) → cc17_transform_0 k17_off1_inb numel1_S1 pf i = cc17_transform_0 k17_off1_inb numel1_S1 pf i'
  hstage17_1 : ∀ j, (stage17_1 j).IsWhole
  nbuf17_1 : grid17.bufCount reads17_1 false = 2
  hreads17_1 : ∀ {F : FTy → Type} [FloatOps F] (pf : pre17.Contents (Elt F)) (i i' : grid17.Coords), (∀ a, reads17_1 a = true → i a = i' a) → cc17_transform_1 k17_off1_inb numel1_S1 pf i = cc17_transform_1 k17_off1_inb numel1_S1 pf i'
  hstage17_2 : ∀ j, (stage17_2 j).IsWhole
  nbuf17_2 : grid17.bufCount reads17_2 false = 2
  hreads17_2 : ∀ i i' : grid17.Coords, (∀ a, reads17_2 a = true → i a = i' a) → cc17_transform_2 i = cc17_transform_2 i'
  hinb17_2 : ∀ (i : grid17.Coords) a, (cc17_transform_2 i a + 1) * S1x1x128.size a ≤ S40000x1x128.size a
  hwx17_2 : ∀ i : grid17.Coords, EltTy.bits .f32 = 32 ∨ (Rect.block (s := S40000x1x128) S1x1x128.size (cc17_transform_2 i) (hinb17_2 i)).WholeWords (EltTy.packing .f32)
  hrank18 : 0 < grid18.rank
  k18_off1_inb : ∀ i : grid18.Coords, ∀ a, (k18_off1 i) a + S1.size a ≤ S40000.size a
  hstage18_0 : ∀ j, (stage18_0 j).IsWhole
  nbuf18_0 : grid18.bufCount reads18_0 false = 2
  hreads18_0 : ∀ {F : FTy → Type} [FloatOps F] (pf : pre18.Contents (Elt F)) (i i' : grid18.Coords), (∀ a, reads18_0 a = true → i a = i' a) → cc18_transform_0 k18_off1_inb numel1_S1 pf i = cc18_transform_0 k18_off1_inb numel1_S1 pf i'
  hstage18_1 : ∀ j, (stage18_1 j).IsWhole
  nbuf18_1 : grid18.bufCount reads18_1 false = 2
  hreads18_1 : ∀ {F : FTy → Type} [FloatOps F] (pf : pre18.Contents (Elt F)) (i i' : grid18.Coords), (∀ a, reads18_1 a = true → i a = i' a) → cc18_transform_1 k18_off1_inb numel1_S1 pf i = cc18_transform_1 k18_off1_inb numel1_S1 pf i'
  hstage18_2 : ∀ j, (stage18_2 j).IsWhole
  nbuf18_2 : grid18.bufCount reads18_2 false = 2
  hreads18_2 : ∀ i i' : grid18.Coords, (∀ a, reads18_2 a = true → i a = i' a) → cc18_transform_2 i = cc18_transform_2 i'
  hinb18_2 : ∀ (i : grid18.Coords) a, (cc18_transform_2 i a + 1) * S1x1x128.size a ≤ S40000x1x128.size a
  hwx18_2 : ∀ i : grid18.Coords, EltTy.bits .f32 = 32 ∨ (Rect.block (s := S40000x1x128) S1x1x128.size (cc18_transform_2 i) (hinb18_2 i)).WholeWords (EltTy.packing .f32)
  hrank19 : 0 < grid19.rank
  k19_off1_inb : ∀ i : grid19.Coords, ∀ a, (k19_off1 i) a + S1.size a ≤ S40000.size a
  hstage19_0 : ∀ j, (stage19_0 j).IsWhole
  nbuf19_0 : grid19.bufCount reads19_0 false = 2
  hreads19_0 : ∀ {F : FTy → Type} [FloatOps F] (pf : pre19.Contents (Elt F)) (i i' : grid19.Coords), (∀ a, reads19_0 a = true → i a = i' a) → cc19_transform_0 k19_off1_inb numel1_S1 pf i = cc19_transform_0 k19_off1_inb numel1_S1 pf i'
  hstage19_1 : ∀ j, (stage19_1 j).IsWhole
  nbuf19_1 : grid19.bufCount reads19_1 false = 2
  hreads19_1 : ∀ {F : FTy → Type} [FloatOps F] (pf : pre19.Contents (Elt F)) (i i' : grid19.Coords), (∀ a, reads19_1 a = true → i a = i' a) → cc19_transform_1 k19_off1_inb numel1_S1 pf i = cc19_transform_1 k19_off1_inb numel1_S1 pf i'
  hstage19_2 : ∀ j, (stage19_2 j).IsWhole
  nbuf19_2 : grid19.bufCount reads19_2 false = 2
  hreads19_2 : ∀ i i' : grid19.Coords, (∀ a, reads19_2 a = true → i a = i' a) → cc19_transform_2 i = cc19_transform_2 i'
  hinb19_2 : ∀ (i : grid19.Coords) a, (cc19_transform_2 i a + 1) * S1x1x128.size a ≤ S40000x1x128.size a
  hwx19_2 : ∀ i : grid19.Coords, EltTy.bits .f32 = 32 ∨ (Rect.block (s := S40000x1x128) S1x1x128.size (cc19_transform_2 i) (hinb19_2 i)).WholeWords (EltTy.packing .f32)
  hrank20 : 0 < grid20.rank
  k20_off1_inb : ∀ i : grid20.Coords, ∀ a, (k20_off1 i) a + S1.size a ≤ S40000.size a
  hstage20_0 : ∀ j, (stage20_0 j).IsWhole
  nbuf20_0 : grid20.bufCount reads20_0 false = 2
  hreads20_0 : ∀ {F : FTy → Type} [FloatOps F] (pf : pre20.Contents (Elt F)) (i i' : grid20.Coords), (∀ a, reads20_0 a = true → i a = i' a) → cc20_transform_0 k20_off1_inb numel1_S1 pf i = cc20_transform_0 k20_off1_inb numel1_S1 pf i'
  hstage20_1 : ∀ j, (stage20_1 j).IsWhole
  nbuf20_1 : grid20.bufCount reads20_1 false = 2
  hreads20_1 : ∀ {F : FTy → Type} [FloatOps F] (pf : pre20.Contents (Elt F)) (i i' : grid20.Coords), (∀ a, reads20_1 a = true → i a = i' a) → cc20_transform_1 k20_off1_inb numel1_S1 pf i = cc20_transform_1 k20_off1_inb numel1_S1 pf i'
  hstage20_2 : ∀ j, (stage20_2 j).IsWhole
  nbuf20_2 : grid20.bufCount reads20_2 false = 2
  hreads20_2 : ∀ i i' : grid20.Coords, (∀ a, reads20_2 a = true → i a = i' a) → cc20_transform_2 i = cc20_transform_2 i'
  hinb20_2 : ∀ (i : grid20.Coords) a, (cc20_transform_2 i a + 1) * S1x1x128.size a ≤ S40000x1x128.size a
  hwx20_2 : ∀ i : grid20.Coords, EltTy.bits .f32 = 32 ∨ (Rect.block (s := S40000x1x128) S1x1x128.size (cc20_transform_2 i) (hinb20_2 i)).WholeWords (EltTy.packing .f32)

variable [Facts₀]

def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf

abbrev win0_0 : Pipeline.Window sig grid0 :=
  Pipeline.Window.ofSpec (Memref.whole main_arg0) S1x5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S64x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg4) S64x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0_0) S1x5000x64.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0_1) S1x5000x64.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev spec1_0 : Pipeline.WinSpec sig grid1.rank :=
  Pipeline.WinSpec.ofSpec (Memref.whole main_v2) S1x1x128.size reads1_0 false false 2 stage1_0 sem1_0 nbuf1_0 hstage1_0

abbrev spec1_1 : Pipeline.WinSpec sig grid1.rank :=
  Pipeline.WinSpec.ofSpec (Memref.whole main_v4) S1x1x128.size reads1_1 false false 2 stage1_1 sem1_1 nbuf1_1 hstage1_1

abbrev spec1_2 : Pipeline.WinSpec sig grid1.rank :=
  Pipeline.WinSpec.ofSpec (Memref.whole main_v7) S1x1x128.size reads1_2 true false 2 stage1_2 sem1_2 nbuf1_2 hstage1_2

abbrev spec1 : Fin 3 → Pipeline.WinSpec sig grid1.rank := fun | 0 => spec1_0 | 1 => spec1_1 | 2 => spec1_2 | ⟨_ + 3, h⟩ => absurd h (Nat.not_lt.2 (Nat.le_add_left _ _))
theorem hcount1 : ∀ w, grid1.bufCount (spec1 w).reads (spec1 w).sync = (spec1 w).nbuf := fun | 0 => nbuf1_0 | 1 => nbuf1_1 | 2 => nbuf1_2 | ⟨_ + 3, h⟩ => absurd h (Nat.not_lt.2 (Nat.le_add_left _ _))
abbrev ix1 (pf : pre1.Contents (Elt F)) : (w : Fin 3) → grid1.Coords → Fin (spec1 w).shape.rank → Nat := fun | 0 => cc1_transform_0 k1_off1_inb numel1_S1 pf | 1 => cc1_transform_1 k1_off1_inb numel1_S1 pf | 2 => cc1_transform_2 | ⟨_ + 3, h⟩ => absurd h (Nat.not_lt.2 (Nat.le_add_left _ _))
theorem hreads1 : ∀ (pf : pre1.Contents (Elt F)) w (i i' : grid1.Coords), (∀ a, (spec1 w).reads a = true → i a = i' a) → ix1 pf w i = ix1 pf w i' := fun pf => fun | 0 => hreads1_0 pf | 1 => hreads1_1 pf | 2 => hreads1_2 | ⟨_ + 3, h⟩ => absurd h (Nat.not_lt.2 (Nat.le_add_left _ _))
def ok1 (pf : pre1.Contents (Elt F)) : Prop :=
  (∀ i : grid1.Coords, ∃ h : (∀ a, (cc1_transform_0 k1_off1_inb numel1_S1 pf i a + 1) * S1x1x128.size a ≤ S50000x1x128.size a), EltTy.bits .f32 = 32 ∨ (Rect.block (s := S50000x1x128) S1x1x128.size (cc1_transform_0 k1_off1_inb numel1_S1 pf i) h).WholeWords (EltTy.packing .f32)) ∧
  (∀ i : grid1.Coords, ∃ h : (∀ a, (cc1_transform_1 k1_off1_inb numel1_S1 pf i a + 1) * S1x1x128.size a ≤ S50000x1x128.size a), EltTy.bits .f32 = 32 ∨ (Rect.block (s := S50000x1x128) S1x1x128.size (cc1_transform_1 k1_off1_inb numel1_S1 pf i) h).WholeWords (EltTy.packing .f32))
instance (pf : pre1.Contents (Elt F)) : Decidable (ok1 pf) := decidable_of_iff' _ (Iff.of_eq (ok1.eq_1 pf))
theorem hinb1 : ∀ (pf : pre1.Contents (Elt F)), ok1 pf → ∀ w (i : grid1.Coords) a, (ix1 pf w i a + 1) * (spec1 w).size a ≤ (spec1 w).shape.size a :=
  fun pf hok => fun | 0 => fun i a => (hok.1 i).elim fun h _ => h a | 1 => fun i a => (hok.2 i).elim fun h _ => h a | 2 => hinb1_2 | ⟨_ + 3, h⟩ => absurd h (Nat.not_lt.2 (Nat.le_add_left _ _))
theorem hwx1 : ∀ (pf : pre1.Contents (Elt F)) (hok : ok1 pf) w (i : grid1.Coords), (spec1 w).elt.bits = 32 ∨ (Rect.block (spec1 w).size (ix1 pf w i) (hinb1 pf hok w i)).WholeWords (spec1 w).elt.packing :=
  fun pf hok => fun | 0 => fun i => (hok.1 i).elim fun _ h => h | 1 => fun i => (hok.2 i).elim fun _ h => h | 2 => hwx1_2 | ⟨_ + 3, h⟩ => absurd h (Nat.not_lt.2 (Nat.le_add_left _ _))
abbrev spec2_0 : Pipeline.WinSpec sig grid2.rank :=
  Pipeline.WinSpec.ofSpec (Memref.whole main_v2) S1x1x128.size reads2_0 false false 2 stage2_0 sem2_0 nbuf2_0 hstage2_0

abbrev spec2_1 : Pipeline.WinSpec sig grid2.rank :=
  Pipeline.WinSpec.ofSpec (Memref.whole main_v4) S1x1x128.size reads2_1 false false 2 stage2_1 sem2_1 nbuf2_1 hstage2_1

abbrev spec2_2 : Pipeline.WinSpec sig grid2.rank :=
  Pipeline.WinSpec.ofSpec (Memref.whole main_v11) S1x1x128.size reads2_2 true false 2 stage2_2 sem2_2 nbuf2_2 hstage2_2

abbrev spec2 : Fin 3 → Pipeline.WinSpec sig grid2.rank := fun | 0 => spec2_0 | 1 => spec2_1 | 2 => spec2_2 | ⟨_ + 3, h⟩ => absurd h (Nat.not_lt.2 (Nat.le_add_left _ _))
theorem hcount2 : ∀ w, grid2.bufCount (spec2 w).reads (spec2 w).sync = (spec2 w).nbuf := fun | 0 => nbuf2_0 | 1 => nbuf2_1 | 2 => nbuf2_2 | ⟨_ + 3, h⟩ => absurd h (Nat.not_lt.2 (Nat.le_add_left _ _))
abbrev ix2 (pf : pre2.Contents (Elt F)) : (w : Fin 3) → grid2.Coords → Fin (spec2 w).shape.rank → Nat := fun | 0 => cc2_transform_0 k2_off1_inb numel1_S1 pf | 1 => cc2_transform_1 k2_off1_inb numel1_S1 pf | 2 => cc2_transform_2 | ⟨_ + 3, h⟩ => absurd h (Nat.not_lt.2 (Nat.le_add_left _ _))
theorem hreads2 : ∀ (pf : pre2.Contents (Elt F)) w (i i' : grid2.Coords), (∀ a, (spec2 w).reads a = true → i a = i' a) → ix2 pf w i = ix2 pf w i' := fun pf => fun | 0 => hreads2_0 pf | 1 => hreads2_1 pf | 2 => hreads2_2 | ⟨_ + 3, h⟩ => absurd h (Nat.not_lt.2 (Nat.le_add_left _ _))
def ok2 (pf : pre2.Contents (Elt F)) : Prop :=
  (∀ i : grid2.Coords, ∃ h : (∀ a, (cc2_transform_0 k2_off1_inb numel1_S1 pf i a + 1) * S1x1x128.size a ≤ S50000x1x128.size a), EltTy.bits .f32 = 32 ∨ (Rect.block (s := S50000x1x128) S1x1x128.size (cc2_transform_0 k2_off1_inb numel1_S1 pf i) h).WholeWords (EltTy.packing .f32)) ∧
  (∀ i : grid2.Coords, ∃ h : (∀ a, (cc2_transform_1 k2_off1_inb numel1_S1 pf i a + 1) * S1x1x128.size a ≤ S50000x1x128.size a), EltTy.bits .f32 = 32 ∨ (Rect.block (s := S50000x1x128) S1x1x128.size (cc2_transform_1 k2_off1_inb numel1_S1 pf i) h).WholeWords (EltTy.packing .f32))
instance (pf : pre2.Contents (Elt F)) : Decidable (ok2 pf) := decidable_of_iff' _ (Iff.of_eq (ok2.eq_1 pf))
theorem hinb2 : ∀ (pf : pre2.Contents (Elt F)), ok2 pf → ∀ w (i : grid2.Coords) a, (ix2 pf w i a + 1) * (spec2 w).size a ≤ (spec2 w).shape.size a :=
  fun pf hok => fun | 0 => fun i a => (hok.1 i).elim fun h _ => h a | 1 => fun i a => (hok.2 i).elim fun h _ => h a | 2 => hinb2_2 | ⟨_ + 3, h⟩ => absurd h (Nat.not_lt.2 (Nat.le_add_left _ _))
theorem hwx2 : ∀ (pf : pre2.Contents (Elt F)) (hok : ok2 pf) w (i : grid2.Coords), (spec2 w).elt.bits = 32 ∨ (Rect.block (spec2 w).size (ix2 pf w i) (hinb2 pf hok w i)).WholeWords (spec2 w).elt.packing :=
  fun pf hok => fun | 0 => fun i => (hok.1 i).elim fun _ h => h | 1 => fun i => (hok.2 i).elim fun _ h => h | 2 => hwx2_2 | ⟨_ + 3, h⟩ => absurd h (Nat.not_lt.2 (Nat.le_add_left _ _))
abbrev spec3_0 : Pipeline.WinSpec sig grid3.rank :=
  Pipeline.WinSpec.ofSpec (Memref.whole main_v2) S1x1x128.size reads3_0 false false 2 stage3_0 sem3_0 nbuf3_0 hstage3_0

abbrev spec3_1 : Pipeline.WinSpec sig grid3.rank :=
  Pipeline.WinSpec.ofSpec (Memref.whole main_v4) S1x1x128.size reads3_1 false false 2 stage3_1 sem3_1 nbuf3_1 hstage3_1

abbrev spec3_2 : Pipeline.WinSpec sig grid3.rank :=
  Pipeline.WinSpec.ofSpec (Memref.whole main_v15) S1x1x128.size reads3_2 true false 2 stage3_2 sem3_2 nbuf3_2 hstage3_2

abbrev spec3 : Fin 3 → Pipeline.WinSpec sig grid3.rank := fun | 0 => spec3_0 | 1 => spec3_1 | 2 => spec3_2 | ⟨_ + 3, h⟩ => absurd h (Nat.not_lt.2 (Nat.le_add_left _ _))
theorem hcount3 : ∀ w, grid3.bufCount (spec3 w).reads (spec3 w).sync = (spec3 w).nbuf := fun | 0 => nbuf3_0 | 1 => nbuf3_1 | 2 => nbuf3_2 | ⟨_ + 3, h⟩ => absurd h (Nat.not_lt.2 (Nat.le_add_left _ _))
abbrev ix3 (pf : pre3.Contents (Elt F)) : (w : Fin 3) → grid3.Coords → Fin (spec3 w).shape.rank → Nat := fun | 0 => cc3_transform_0 k3_off1_inb numel1_S1 pf | 1 => cc3_transform_1 k3_off1_inb numel1_S1 pf | 2 => cc3_transform_2 | ⟨_ + 3, h⟩ => absurd h (Nat.not_lt.2 (Nat.le_add_left _ _))
theorem hreads3 : ∀ (pf : pre3.Contents (Elt F)) w (i i' : grid3.Coords), (∀ a, (spec3 w).reads a = true → i a = i' a) → ix3 pf w i = ix3 pf w i' := fun pf => fun | 0 => hreads3_0 pf | 1 => hreads3_1 pf | 2 => hreads3_2 | ⟨_ + 3, h⟩ => absurd h (Nat.not_lt.2 (Nat.le_add_left _ _))
def ok3 (pf : pre3.Contents (Elt F)) : Prop :=
  (∀ i : grid3.Coords, ∃ h : (∀ a, (cc3_transform_0 k3_off1_inb numel1_S1 pf i a + 1) * S1x1x128.size a ≤ S50000x1x128.size a), EltTy.bits .f32 = 32 ∨ (Rect.block (s := S50000x1x128) S1x1x128.size (cc3_transform_0 k3_off1_inb numel1_S1 pf i) h).WholeWords (EltTy.packing .f32)) ∧
  (∀ i : grid3.Coords, ∃ h : (∀ a, (cc3_transform_1 k3_off1_inb numel1_S1 pf i a + 1) * S1x1x128.size a ≤ S50000x1x128.size a), EltTy.bits .f32 = 32 ∨ (Rect.block (s := S50000x1x128) S1x1x128.size (cc3_transform_1 k3_off1_inb numel1_S1 pf i) h).WholeWords (EltTy.packing .f32))
instance (pf : pre3.Contents (Elt F)) : Decidable (ok3 pf) := decidable_of_iff' _ (Iff.of_eq (ok3.eq_1 pf))
theorem hinb3 : ∀ (pf : pre3.Contents (Elt F)), ok3 pf → ∀ w (i : grid3.Coords) a, (ix3 pf w i a + 1) * (spec3 w).size a ≤ (spec3 w).shape.size a :=
  fun pf hok => fun | 0 => fun i a => (hok.1 i).elim fun h _ => h a | 1 => fun i a => (hok.2 i).elim fun h _ => h a | 2 => hinb3_2 | ⟨_ + 3, h⟩ => absurd h (Nat.not_lt.2 (Nat.le_add_left _ _))
theorem hwx3 : ∀ (pf : pre3.Contents (Elt F)) (hok : ok3 pf) w (i : grid3.Coords), (spec3 w).elt.bits = 32 ∨ (Rect.block (spec3 w).size (ix3 pf w i) (hinb3 pf hok w i)).WholeWords (spec3 w).elt.packing :=
  fun pf hok => fun | 0 => fun i => (hok.1 i).elim fun _ h => h | 1 => fun i => (hok.2 i).elim fun _ h => h | 2 => hwx3_2 | ⟨_ + 3, h⟩ => absurd h (Nat.not_lt.2 (Nat.le_add_left _ _))
abbrev spec4_0 : Pipeline.WinSpec sig grid4.rank :=
  Pipeline.WinSpec.ofSpec (Memref.whole main_v2) S1x1x128.size reads4_0 false false 2 stage4_0 sem4_0 nbuf4_0 hstage4_0

abbrev spec4_1 : Pipeline.WinSpec sig grid4.rank :=
  Pipeline.WinSpec.ofSpec (Memref.whole main_v4) S1x1x128.size reads4_1 false false 2 stage4_1 sem4_1 nbuf4_1 hstage4_1

abbrev spec4_2 : Pipeline.WinSpec sig grid4.rank :=
  Pipeline.WinSpec.ofSpec (Memref.whole main_v19) S1x1x128.size reads4_2 true false 2 stage4_2 sem4_2 nbuf4_2 hstage4_2

abbrev spec4 : Fin 3 → Pipeline.WinSpec sig grid4.rank := fun | 0 => spec4_0 | 1 => spec4_1 | 2 => spec4_2 | ⟨_ + 3, h⟩ => absurd h (Nat.not_lt.2 (Nat.le_add_left _ _))
theorem hcount4 : ∀ w, grid4.bufCount (spec4 w).reads (spec4 w).sync = (spec4 w).nbuf := fun | 0 => nbuf4_0 | 1 => nbuf4_1 | 2 => nbuf4_2 | ⟨_ + 3, h⟩ => absurd h (Nat.not_lt.2 (Nat.le_add_left _ _))
abbrev ix4 (pf : pre4.Contents (Elt F)) : (w : Fin 3) → grid4.Coords → Fin (spec4 w).shape.rank → Nat := fun | 0 => cc4_transform_0 k4_off1_inb numel1_S1 pf | 1 => cc4_transform_1 k4_off1_inb numel1_S1 pf | 2 => cc4_transform_2 | ⟨_ + 3, h⟩ => absurd h (Nat.not_lt.2 (Nat.le_add_left _ _))
theorem hreads4 : ∀ (pf : pre4.Contents (Elt F)) w (i i' : grid4.Coords), (∀ a, (spec4 w).reads a = true → i a = i' a) → ix4 pf w i = ix4 pf w i' := fun pf => fun | 0 => hreads4_0 pf | 1 => hreads4_1 pf | 2 => hreads4_2 | ⟨_ + 3, h⟩ => absurd h (Nat.not_lt.2 (Nat.le_add_left _ _))
def ok4 (pf : pre4.Contents (Elt F)) : Prop :=
  (∀ i : grid4.Coords, ∃ h : (∀ a, (cc4_transform_0 k4_off1_inb numel1_S1 pf i a + 1) * S1x1x128.size a ≤ S50000x1x128.size a), EltTy.bits .f32 = 32 ∨ (Rect.block (s := S50000x1x128) S1x1x128.size (cc4_transform_0 k4_off1_inb numel1_S1 pf i) h).WholeWords (EltTy.packing .f32)) ∧
  (∀ i : grid4.Coords, ∃ h : (∀ a, (cc4_transform_1 k4_off1_inb numel1_S1 pf i a + 1) * S1x1x128.size a ≤ S50000x1x128.size a), EltTy.bits .f32 = 32 ∨ (Rect.block (s := S50000x1x128) S1x1x128.size (cc4_transform_1 k4_off1_inb numel1_S1 pf i) h).WholeWords (EltTy.packing .f32))
instance (pf : pre4.Contents (Elt F)) : Decidable (ok4 pf) := decidable_of_iff' _ (Iff.of_eq (ok4.eq_1 pf))
theorem hinb4 : ∀ (pf : pre4.Contents (Elt F)), ok4 pf → ∀ w (i : grid4.Coords) a, (ix4 pf w i a + 1) * (spec4 w).size a ≤ (spec4 w).shape.size a :=
  fun pf hok => fun | 0 => fun i a => (hok.1 i).elim fun h _ => h a | 1 => fun i a => (hok.2 i).elim fun h _ => h a | 2 => hinb4_2 | ⟨_ + 3, h⟩ => absurd h (Nat.not_lt.2 (Nat.le_add_left _ _))
theorem hwx4 : ∀ (pf : pre4.Contents (Elt F)) (hok : ok4 pf) w (i : grid4.Coords), (spec4 w).elt.bits = 32 ∨ (Rect.block (spec4 w).size (ix4 pf w i) (hinb4 pf hok w i)).WholeWords (spec4 w).elt.packing :=
  fun pf hok => fun | 0 => fun i => (hok.1 i).elim fun _ h => h | 1 => fun i => (hok.2 i).elim fun _ h => h | 2 => hwx4_2 | ⟨_ + 3, h⟩ => absurd h (Nat.not_lt.2 (Nat.le_add_left _ _))
abbrev spec5_0 : Pipeline.WinSpec sig grid5.rank :=
  Pipeline.WinSpec.ofSpec (Memref.whole main_v2) S1x1x128.size reads5_0 false false 2 stage5_0 sem5_0 nbuf5_0 hstage5_0

abbrev spec5_1 : Pipeline.WinSpec sig grid5.rank :=
  Pipeline.WinSpec.ofSpec (Memref.whole main_v4) S1x1x128.size reads5_1 false false 2 stage5_1 sem5_1 nbuf5_1 hstage5_1

abbrev spec5_2 : Pipeline.WinSpec sig grid5.rank :=
  Pipeline.WinSpec.ofSpec (Memref.whole main_v23) S1x1x128.size reads5_2 true false 2 stage5_2 sem5_2 nbuf5_2 hstage5_2

abbrev spec5 : Fin 3 → Pipeline.WinSpec sig grid5.rank := fun | 0 => spec5_0 | 1 => spec5_1 | 2 => spec5_2 | ⟨_ + 3, h⟩ => absurd h (Nat.not_lt.2 (Nat.le_add_left _ _))
theorem hcount5 : ∀ w, grid5.bufCount (spec5 w).reads (spec5 w).sync = (spec5 w).nbuf := fun | 0 => nbuf5_0 | 1 => nbuf5_1 | 2 => nbuf5_2 | ⟨_ + 3, h⟩ => absurd h (Nat.not_lt.2 (Nat.le_add_left _ _))
abbrev ix5 (pf : pre5.Contents (Elt F)) : (w : Fin 3) → grid5.Coords → Fin (spec5 w).shape.rank → Nat := fun | 0 => cc5_transform_0 k5_off1_inb numel1_S1 pf | 1 => cc5_transform_1 k5_off1_inb numel1_S1 pf | 2 => cc5_transform_2 | ⟨_ + 3, h⟩ => absurd h (Nat.not_lt.2 (Nat.le_add_left _ _))
theorem hreads5 : ∀ (pf : pre5.Contents (Elt F)) w (i i' : grid5.Coords), (∀ a, (spec5 w).reads a = true → i a = i' a) → ix5 pf w i = ix5 pf w i' := fun pf => fun | 0 => hreads5_0 pf | 1 => hreads5_1 pf | 2 => hreads5_2 | ⟨_ + 3, h⟩ => absurd h (Nat.not_lt.2 (Nat.le_add_left _ _))
def ok5 (pf : pre5.Contents (Elt F)) : Prop :=
  (∀ i : grid5.Coords, ∃ h : (∀ a, (cc5_transform_0 k5_off1_inb numel1_S1 pf i a + 1) * S1x1x128.size a ≤ S50000x1x128.size a), EltTy.bits .f32 = 32 ∨ (Rect.block (s := S50000x1x128) S1x1x128.size (cc5_transform_0 k5_off1_inb numel1_S1 pf i) h).WholeWords (EltTy.packing .f32)) ∧
  (∀ i : grid5.Coords, ∃ h : (∀ a, (cc5_transform_1 k5_off1_inb numel1_S1 pf i a + 1) * S1x1x128.size a ≤ S50000x1x128.size a), EltTy.bits .f32 = 32 ∨ (Rect.block (s := S50000x1x128) S1x1x128.size (cc5_transform_1 k5_off1_inb numel1_S1 pf i) h).WholeWords (EltTy.packing .f32))
instance (pf : pre5.Contents (Elt F)) : Decidable (ok5 pf) := decidable_of_iff' _ (Iff.of_eq (ok5.eq_1 pf))
theorem hinb5 : ∀ (pf : pre5.Contents (Elt F)), ok5 pf → ∀ w (i : grid5.Coords) a, (ix5 pf w i a + 1) * (spec5 w).size a ≤ (spec5 w).shape.size a :=
  fun pf hok => fun | 0 => fun i a => (hok.1 i).elim fun h _ => h a | 1 => fun i a => (hok.2 i).elim fun h _ => h a | 2 => hinb5_2 | ⟨_ + 3, h⟩ => absurd h (Nat.not_lt.2 (Nat.le_add_left _ _))
theorem hwx5 : ∀ (pf : pre5.Contents (Elt F)) (hok : ok5 pf) w (i : grid5.Coords), (spec5 w).elt.bits = 32 ∨ (Rect.block (spec5 w).size (ix5 pf w i) (hinb5 pf hok w i)).WholeWords (spec5 w).elt.packing :=
  fun pf hok => fun | 0 => fun i => (hok.1 i).elim fun _ h => h | 1 => fun i => (hok.2 i).elim fun _ h => h | 2 => hwx5_2 | ⟨_ + 3, h⟩ => absurd h (Nat.not_lt.2 (Nat.le_add_left _ _))
abbrev spec6_0 : Pipeline.WinSpec sig grid6.rank :=
  Pipeline.WinSpec.ofSpec (Memref.whole main_v2) S1x1x128.size reads6_0 false false 2 stage6_0 sem6_0 nbuf6_0 hstage6_0

abbrev spec6_1 : Pipeline.WinSpec sig grid6.rank :=
  Pipeline.WinSpec.ofSpec (Memref.whole main_v4) S1x1x128.size reads6_1 false false 2 stage6_1 sem6_1 nbuf6_1 hstage6_1

abbrev spec6_2 : Pipeline.WinSpec sig grid6.rank :=
  Pipeline.WinSpec.ofSpec (Memref.whole main_v27) S1x1x128.size reads6_2 true false 2 stage6_2 sem6_2 nbuf6_2 hstage6_2

abbrev spec6 : Fin 3 → Pipeline.WinSpec sig grid6.rank := fun | 0 => spec6_0 | 1 => spec6_1 | 2 => spec6_2 | ⟨_ + 3, h⟩ => absurd h (Nat.not_lt.2 (Nat.le_add_left _ _))
theorem hcount6 : ∀ w, grid6.bufCount (spec6 w).reads (spec6 w).sync = (spec6 w).nbuf := fun | 0 => nbuf6_0 | 1 => nbuf6_1 | 2 => nbuf6_2 | ⟨_ + 3, h⟩ => absurd h (Nat.not_lt.2 (Nat.le_add_left _ _))
abbrev ix6 (pf : pre6.Contents (Elt F)) : (w : Fin 3) → grid6.Coords → Fin (spec6 w).shape.rank → Nat := fun | 0 => cc6_transform_0 k6_off1_inb numel1_S1 pf | 1 => cc6_transform_1 k6_off1_inb numel1_S1 pf | 2 => cc6_transform_2 | ⟨_ + 3, h⟩ => absurd h (Nat.not_lt.2 (Nat.le_add_left _ _))
theorem hreads6 : ∀ (pf : pre6.Contents (Elt F)) w (i i' : grid6.Coords), (∀ a, (spec6 w).reads a = true → i a = i' a) → ix6 pf w i = ix6 pf w i' := fun pf => fun | 0 => hreads6_0 pf | 1 => hreads6_1 pf | 2 => hreads6_2 | ⟨_ + 3, h⟩ => absurd h (Nat.not_lt.2 (Nat.le_add_left _ _))
def ok6 (pf : pre6.Contents (Elt F)) : Prop :=
  (∀ i : grid6.Coords, ∃ h : (∀ a, (cc6_transform_0 k6_off1_inb numel1_S1 pf i a + 1) * S1x1x128.size a ≤ S50000x1x128.size a), EltTy.bits .f32 = 32 ∨ (Rect.block (s := S50000x1x128) S1x1x128.size (cc6_transform_0 k6_off1_inb numel1_S1 pf i) h).WholeWords (EltTy.packing .f32)) ∧
  (∀ i : grid6.Coords, ∃ h : (∀ a, (cc6_transform_1 k6_off1_inb numel1_S1 pf i a + 1) * S1x1x128.size a ≤ S50000x1x128.size a), EltTy.bits .f32 = 32 ∨ (Rect.block (s := S50000x1x128) S1x1x128.size (cc6_transform_1 k6_off1_inb numel1_S1 pf i) h).WholeWords (EltTy.packing .f32))
instance (pf : pre6.Contents (Elt F)) : Decidable (ok6 pf) := decidable_of_iff' _ (Iff.of_eq (ok6.eq_1 pf))
theorem hinb6 : ∀ (pf : pre6.Contents (Elt F)), ok6 pf → ∀ w (i : grid6.Coords) a, (ix6 pf w i a + 1) * (spec6 w).size a ≤ (spec6 w).shape.size a :=
  fun pf hok => fun | 0 => fun i a => (hok.1 i).elim fun h _ => h a | 1 => fun i a => (hok.2 i).elim fun h _ => h a | 2 => hinb6_2 | ⟨_ + 3, h⟩ => absurd h (Nat.not_lt.2 (Nat.le_add_left _ _))
theorem hwx6 : ∀ (pf : pre6.Contents (Elt F)) (hok : ok6 pf) w (i : grid6.Coords), (spec6 w).elt.bits = 32 ∨ (Rect.block (spec6 w).size (ix6 pf w i) (hinb6 pf hok w i)).WholeWords (spec6 w).elt.packing :=
  fun pf hok => fun | 0 => fun i => (hok.1 i).elim fun _ h => h | 1 => fun i => (hok.2 i).elim fun _ h => h | 2 => hwx6_2 | ⟨_ + 3, h⟩ => absurd h (Nat.not_lt.2 (Nat.le_add_left _ _))
abbrev spec7_0 : Pipeline.WinSpec sig grid7.rank :=
  Pipeline.WinSpec.ofSpec (Memref.whole main_v2) S1x1x128.size reads7_0 false false 2 stage7_0 sem7_0 nbuf7_0 hstage7_0

abbrev spec7_1 : Pipeline.WinSpec sig grid7.rank :=
  Pipeline.WinSpec.ofSpec (Memref.whole main_v4) S1x1x128.size reads7_1 false false 2 stage7_1 sem7_1 nbuf7_1 hstage7_1

abbrev spec7_2 : Pipeline.WinSpec sig grid7.rank :=
  Pipeline.WinSpec.ofSpec (Memref.whole main_v31) S1x1x128.size reads7_2 true false 2 stage7_2 sem7_2 nbuf7_2 hstage7_2

abbrev spec7 : Fin 3 → Pipeline.WinSpec sig grid7.rank := fun | 0 => spec7_0 | 1 => spec7_1 | 2 => spec7_2 | ⟨_ + 3, h⟩ => absurd h (Nat.not_lt.2 (Nat.le_add_left _ _))
theorem hcount7 : ∀ w, grid7.bufCount (spec7 w).reads (spec7 w).sync = (spec7 w).nbuf := fun | 0 => nbuf7_0 | 1 => nbuf7_1 | 2 => nbuf7_2 | ⟨_ + 3, h⟩ => absurd h (Nat.not_lt.2 (Nat.le_add_left _ _))
abbrev ix7 (pf : pre7.Contents (Elt F)) : (w : Fin 3) → grid7.Coords → Fin (spec7 w).shape.rank → Nat := fun | 0 => cc7_transform_0 k7_off1_inb numel1_S1 pf | 1 => cc7_transform_1 k7_off1_inb numel1_S1 pf | 2 => cc7_transform_2 | ⟨_ + 3, h⟩ => absurd h (Nat.not_lt.2 (Nat.le_add_left _ _))
theorem hreads7 : ∀ (pf : pre7.Contents (Elt F)) w (i i' : grid7.Coords), (∀ a, (spec7 w).reads a = true → i a = i' a) → ix7 pf w i = ix7 pf w i' := fun pf => fun | 0 => hreads7_0 pf | 1 => hreads7_1 pf | 2 => hreads7_2 | ⟨_ + 3, h⟩ => absurd h (Nat.not_lt.2 (Nat.le_add_left _ _))
def ok7 (pf : pre7.Contents (Elt F)) : Prop :=
  (∀ i : grid7.Coords, ∃ h : (∀ a, (cc7_transform_0 k7_off1_inb numel1_S1 pf i a + 1) * S1x1x128.size a ≤ S50000x1x128.size a), EltTy.bits .f32 = 32 ∨ (Rect.block (s := S50000x1x128) S1x1x128.size (cc7_transform_0 k7_off1_inb numel1_S1 pf i) h).WholeWords (EltTy.packing .f32)) ∧
  (∀ i : grid7.Coords, ∃ h : (∀ a, (cc7_transform_1 k7_off1_inb numel1_S1 pf i a + 1) * S1x1x128.size a ≤ S50000x1x128.size a), EltTy.bits .f32 = 32 ∨ (Rect.block (s := S50000x1x128) S1x1x128.size (cc7_transform_1 k7_off1_inb numel1_S1 pf i) h).WholeWords (EltTy.packing .f32))
instance (pf : pre7.Contents (Elt F)) : Decidable (ok7 pf) := decidable_of_iff' _ (Iff.of_eq (ok7.eq_1 pf))
theorem hinb7 : ∀ (pf : pre7.Contents (Elt F)), ok7 pf → ∀ w (i : grid7.Coords) a, (ix7 pf w i a + 1) * (spec7 w).size a ≤ (spec7 w).shape.size a :=
  fun pf hok => fun | 0 => fun i a => (hok.1 i).elim fun h _ => h a | 1 => fun i a => (hok.2 i).elim fun h _ => h a | 2 => hinb7_2 | ⟨_ + 3, h⟩ => absurd h (Nat.not_lt.2 (Nat.le_add_left _ _))
theorem hwx7 : ∀ (pf : pre7.Contents (Elt F)) (hok : ok7 pf) w (i : grid7.Coords), (spec7 w).elt.bits = 32 ∨ (Rect.block (spec7 w).size (ix7 pf w i) (hinb7 pf hok w i)).WholeWords (spec7 w).elt.packing :=
  fun pf hok => fun | 0 => fun i => (hok.1 i).elim fun _ h => h | 1 => fun i => (hok.2 i).elim fun _ h => h | 2 => hwx7_2 | ⟨_ + 3, h⟩ => absurd h (Nat.not_lt.2 (Nat.le_add_left _ _))
abbrev spec8_0 : Pipeline.WinSpec sig grid8.rank :=
  Pipeline.WinSpec.ofSpec (Memref.whole main_v2) S1x1x128.size reads8_0 false false 2 stage8_0 sem8_0 nbuf8_0 hstage8_0

abbrev spec8_1 : Pipeline.WinSpec sig grid8.rank :=
  Pipeline.WinSpec.ofSpec (Memref.whole main_v4) S1x1x128.size reads8_1 false false 2 stage8_1 sem8_1 nbuf8_1 hstage8_1

abbrev spec8_2 : Pipeline.WinSpec sig grid8.rank :=
  Pipeline.WinSpec.ofSpec (Memref.whole main_v35) S1x1x128.size reads8_2 true false 2 stage8_2 sem8_2 nbuf8_2 hstage8_2

abbrev spec8 : Fin 3 → Pipeline.WinSpec sig grid8.rank := fun | 0 => spec8_0 | 1 => spec8_1 | 2 => spec8_2 | ⟨_ + 3, h⟩ => absurd h (Nat.not_lt.2 (Nat.le_add_left _ _))
theorem hcount8 : ∀ w, grid8.bufCount (spec8 w).reads (spec8 w).sync = (spec8 w).nbuf := fun | 0 => nbuf8_0 | 1 => nbuf8_1 | 2 => nbuf8_2 | ⟨_ + 3, h⟩ => absurd h (Nat.not_lt.2 (Nat.le_add_left _ _))
abbrev ix8 (pf : pre8.Contents (Elt F)) : (w : Fin 3) → grid8.Coords → Fin (spec8 w).shape.rank → Nat := fun | 0 => cc8_transform_0 k8_off1_inb numel1_S1 pf | 1 => cc8_transform_1 k8_off1_inb numel1_S1 pf | 2 => cc8_transform_2 | ⟨_ + 3, h⟩ => absurd h (Nat.not_lt.2 (Nat.le_add_left _ _))
theorem hreads8 : ∀ (pf : pre8.Contents (Elt F)) w (i i' : grid8.Coords), (∀ a, (spec8 w).reads a = true → i a = i' a) → ix8 pf w i = ix8 pf w i' := fun pf => fun | 0 => hreads8_0 pf | 1 => hreads8_1 pf | 2 => hreads8_2 | ⟨_ + 3, h⟩ => absurd h (Nat.not_lt.2 (Nat.le_add_left _ _))
def ok8 (pf : pre8.Contents (Elt F)) : Prop :=
  (∀ i : grid8.Coords, ∃ h : (∀ a, (cc8_transform_0 k8_off1_inb numel1_S1 pf i a + 1) * S1x1x128.size a ≤ S50000x1x128.size a), EltTy.bits .f32 = 32 ∨ (Rect.block (s := S50000x1x128) S1x1x128.size (cc8_transform_0 k8_off1_inb numel1_S1 pf i) h).WholeWords (EltTy.packing .f32)) ∧
  (∀ i : grid8.Coords, ∃ h : (∀ a, (cc8_transform_1 k8_off1_inb numel1_S1 pf i a + 1) * S1x1x128.size a ≤ S50000x1x128.size a), EltTy.bits .f32 = 32 ∨ (Rect.block (s := S50000x1x128) S1x1x128.size (cc8_transform_1 k8_off1_inb numel1_S1 pf i) h).WholeWords (EltTy.packing .f32))
instance (pf : pre8.Contents (Elt F)) : Decidable (ok8 pf) := decidable_of_iff' _ (Iff.of_eq (ok8.eq_1 pf))
theorem hinb8 : ∀ (pf : pre8.Contents (Elt F)), ok8 pf → ∀ w (i : grid8.Coords) a, (ix8 pf w i a + 1) * (spec8 w).size a ≤ (spec8 w).shape.size a :=
  fun pf hok => fun | 0 => fun i a => (hok.1 i).elim fun h _ => h a | 1 => fun i a => (hok.2 i).elim fun h _ => h a | 2 => hinb8_2 | ⟨_ + 3, h⟩ => absurd h (Nat.not_lt.2 (Nat.le_add_left _ _))
theorem hwx8 : ∀ (pf : pre8.Contents (Elt F)) (hok : ok8 pf) w (i : grid8.Coords), (spec8 w).elt.bits = 32 ∨ (Rect.block (spec8 w).size (ix8 pf w i) (hinb8 pf hok w i)).WholeWords (spec8 w).elt.packing :=
  fun pf hok => fun | 0 => fun i => (hok.1 i).elim fun _ h => h | 1 => fun i => (hok.2 i).elim fun _ h => h | 2 => hwx8_2 | ⟨_ + 3, h⟩ => absurd h (Nat.not_lt.2 (Nat.le_add_left _ _))
abbrev spec9_0 : Pipeline.WinSpec sig grid9.rank :=
  Pipeline.WinSpec.ofSpec (Memref.whole main_v2) S1x1x128.size reads9_0 false false 2 stage9_0 sem9_0 nbuf9_0 hstage9_0

abbrev spec9_1 : Pipeline.WinSpec sig grid9.rank :=
  Pipeline.WinSpec.ofSpec (Memref.whole main_v4) S1x1x128.size reads9_1 false false 2 stage9_1 sem9_1 nbuf9_1 hstage9_1

abbrev spec9_2 : Pipeline.WinSpec sig grid9.rank :=
  Pipeline.WinSpec.ofSpec (Memref.whole main_v39) S1x1x128.size reads9_2 true false 2 stage9_2 sem9_2 nbuf9_2 hstage9_2

abbrev spec9 : Fin 3 → Pipeline.WinSpec sig grid9.rank := fun | 0 => spec9_0 | 1 => spec9_1 | 2 => spec9_2 | ⟨_ + 3, h⟩ => absurd h (Nat.not_lt.2 (Nat.le_add_left _ _))
theorem hcount9 : ∀ w, grid9.bufCount (spec9 w).reads (spec9 w).sync = (spec9 w).nbuf := fun | 0 => nbuf9_0 | 1 => nbuf9_1 | 2 => nbuf9_2 | ⟨_ + 3, h⟩ => absurd h (Nat.not_lt.2 (Nat.le_add_left _ _))
abbrev ix9 (pf : pre9.Contents (Elt F)) : (w : Fin 3) → grid9.Coords → Fin (spec9 w).shape.rank → Nat := fun | 0 => cc9_transform_0 k9_off1_inb numel1_S1 pf | 1 => cc9_transform_1 k9_off1_inb numel1_S1 pf | 2 => cc9_transform_2 | ⟨_ + 3, h⟩ => absurd h (Nat.not_lt.2 (Nat.le_add_left _ _))
theorem hreads9 : ∀ (pf : pre9.Contents (Elt F)) w (i i' : grid9.Coords), (∀ a, (spec9 w).reads a = true → i a = i' a) → ix9 pf w i = ix9 pf w i' := fun pf => fun | 0 => hreads9_0 pf | 1 => hreads9_1 pf | 2 => hreads9_2 | ⟨_ + 3, h⟩ => absurd h (Nat.not_lt.2 (Nat.le_add_left _ _))
def ok9 (pf : pre9.Contents (Elt F)) : Prop :=
  (∀ i : grid9.Coords, ∃ h : (∀ a, (cc9_transform_0 k9_off1_inb numel1_S1 pf i a + 1) * S1x1x128.size a ≤ S50000x1x128.size a), EltTy.bits .f32 = 32 ∨ (Rect.block (s := S50000x1x128) S1x1x128.size (cc9_transform_0 k9_off1_inb numel1_S1 pf i) h).WholeWords (EltTy.packing .f32)) ∧
  (∀ i : grid9.Coords, ∃ h : (∀ a, (cc9_transform_1 k9_off1_inb numel1_S1 pf i a + 1) * S1x1x128.size a ≤ S50000x1x128.size a), EltTy.bits .f32 = 32 ∨ (Rect.block (s := S50000x1x128) S1x1x128.size (cc9_transform_1 k9_off1_inb numel1_S1 pf i) h).WholeWords (EltTy.packing .f32))
instance (pf : pre9.Contents (Elt F)) : Decidable (ok9 pf) := decidable_of_iff' _ (Iff.of_eq (ok9.eq_1 pf))
theorem hinb9 : ∀ (pf : pre9.Contents (Elt F)), ok9 pf → ∀ w (i : grid9.Coords) a, (ix9 pf w i a + 1) * (spec9 w).size a ≤ (spec9 w).shape.size a :=
  fun pf hok => fun | 0 => fun i a => (hok.1 i).elim fun h _ => h a | 1 => fun i a => (hok.2 i).elim fun h _ => h a | 2 => hinb9_2 | ⟨_ + 3, h⟩ => absurd h (Nat.not_lt.2 (Nat.le_add_left _ _))
theorem hwx9 : ∀ (pf : pre9.Contents (Elt F)) (hok : ok9 pf) w (i : grid9.Coords), (spec9 w).elt.bits = 32 ∨ (Rect.block (spec9 w).size (ix9 pf w i) (hinb9 pf hok w i)).WholeWords (spec9 w).elt.packing :=
  fun pf hok => fun | 0 => fun i => (hok.1 i).elim fun _ h => h | 1 => fun i => (hok.2 i).elim fun _ h => h | 2 => hwx9_2 | ⟨_ + 3, h⟩ => absurd h (Nat.not_lt.2 (Nat.le_add_left _ _))
abbrev spec10_0 : Pipeline.WinSpec sig grid10.rank :=
  Pipeline.WinSpec.ofSpec (Memref.whole main_v2) S1x1x128.size reads10_0 false false 2 stage10_0 sem10_0 nbuf10_0 hstage10_0

abbrev spec10_1 : Pipeline.WinSpec sig grid10.rank :=
  Pipeline.WinSpec.ofSpec (Memref.whole main_v4) S1x1x128.size reads10_1 false false 2 stage10_1 sem10_1 nbuf10_1 hstage10_1

abbrev spec10_2 : Pipeline.WinSpec sig grid10.rank :=
  Pipeline.WinSpec.ofSpec (Memref.whole main_v43) S1x1x128.size reads10_2 true false 2 stage10_2 sem10_2 nbuf10_2 hstage10_2

abbrev spec10 : Fin 3 → Pipeline.WinSpec sig grid10.rank := fun | 0 => spec10_0 | 1 => spec10_1 | 2 => spec10_2 | ⟨_ + 3, h⟩ => absurd h (Nat.not_lt.2 (Nat.le_add_left _ _))
theorem hcount10 : ∀ w, grid10.bufCount (spec10 w).reads (spec10 w).sync = (spec10 w).nbuf := fun | 0 => nbuf10_0 | 1 => nbuf10_1 | 2 => nbuf10_2 | ⟨_ + 3, h⟩ => absurd h (Nat.not_lt.2 (Nat.le_add_left _ _))
abbrev ix10 (pf : pre10.Contents (Elt F)) : (w : Fin 3) → grid10.Coords → Fin (spec10 w).shape.rank → Nat := fun | 0 => cc10_transform_0 k10_off1_inb numel1_S1 pf | 1 => cc10_transform_1 k10_off1_inb numel1_S1 pf | 2 => cc10_transform_2 | ⟨_ + 3, h⟩ => absurd h (Nat.not_lt.2 (Nat.le_add_left _ _))
theorem hreads10 : ∀ (pf : pre10.Contents (Elt F)) w (i i' : grid10.Coords), (∀ a, (spec10 w).reads a = true → i a = i' a) → ix10 pf w i = ix10 pf w i' := fun pf => fun | 0 => hreads10_0 pf | 1 => hreads10_1 pf | 2 => hreads10_2 | ⟨_ + 3, h⟩ => absurd h (Nat.not_lt.2 (Nat.le_add_left _ _))
def ok10 (pf : pre10.Contents (Elt F)) : Prop :=
  (∀ i : grid10.Coords, ∃ h : (∀ a, (cc10_transform_0 k10_off1_inb numel1_S1 pf i a + 1) * S1x1x128.size a ≤ S50000x1x128.size a), EltTy.bits .f32 = 32 ∨ (Rect.block (s := S50000x1x128) S1x1x128.size (cc10_transform_0 k10_off1_inb numel1_S1 pf i) h).WholeWords (EltTy.packing .f32)) ∧
  (∀ i : grid10.Coords, ∃ h : (∀ a, (cc10_transform_1 k10_off1_inb numel1_S1 pf i a + 1) * S1x1x128.size a ≤ S50000x1x128.size a), EltTy.bits .f32 = 32 ∨ (Rect.block (s := S50000x1x128) S1x1x128.size (cc10_transform_1 k10_off1_inb numel1_S1 pf i) h).WholeWords (EltTy.packing .f32))
instance (pf : pre10.Contents (Elt F)) : Decidable (ok10 pf) := decidable_of_iff' _ (Iff.of_eq (ok10.eq_1 pf))
theorem hinb10 : ∀ (pf : pre10.Contents (Elt F)), ok10 pf → ∀ w (i : grid10.Coords) a, (ix10 pf w i a + 1) * (spec10 w).size a ≤ (spec10 w).shape.size a :=
  fun pf hok => fun | 0 => fun i a => (hok.1 i).elim fun h _ => h a | 1 => fun i a => (hok.2 i).elim fun h _ => h a | 2 => hinb10_2 | ⟨_ + 3, h⟩ => absurd h (Nat.not_lt.2 (Nat.le_add_left _ _))
theorem hwx10 : ∀ (pf : pre10.Contents (Elt F)) (hok : ok10 pf) w (i : grid10.Coords), (spec10 w).elt.bits = 32 ∨ (Rect.block (spec10 w).size (ix10 pf w i) (hinb10 pf hok w i)).WholeWords (spec10 w).elt.packing :=
  fun pf hok => fun | 0 => fun i => (hok.1 i).elim fun _ h => h | 1 => fun i => (hok.2 i).elim fun _ h => h | 2 => hwx10_2 | ⟨_ + 3, h⟩ => absurd h (Nat.not_lt.2 (Nat.le_add_left _ _))
abbrev spec11_0 : Pipeline.WinSpec sig grid11.rank :=
  Pipeline.WinSpec.ofSpec (Memref.whole main_v2) S1x1x128.size reads11_0 false false 2 stage11_0 sem11_0 nbuf11_0 hstage11_0

abbrev spec11_1 : Pipeline.WinSpec sig grid11.rank :=
  Pipeline.WinSpec.ofSpec (Memref.whole main_v4) S1x1x128.size reads11_1 false false 2 stage11_1 sem11_1 nbuf11_1 hstage11_1

abbrev spec11_2 : Pipeline.WinSpec sig grid11.rank :=
  Pipeline.WinSpec.ofSpec (Memref.whole main_v47) S1x1x128.size reads11_2 true false 2 stage11_2 sem11_2 nbuf11_2 hstage11_2

abbrev spec11 : Fin 3 → Pipeline.WinSpec sig grid11.rank := fun | 0 => spec11_0 | 1 => spec11_1 | 2 => spec11_2 | ⟨_ + 3, h⟩ => absurd h (Nat.not_lt.2 (Nat.le_add_left _ _))
theorem hcount11 : ∀ w, grid11.bufCount (spec11 w).reads (spec11 w).sync = (spec11 w).nbuf := fun | 0 => nbuf11_0 | 1 => nbuf11_1 | 2 => nbuf11_2 | ⟨_ + 3, h⟩ => absurd h (Nat.not_lt.2 (Nat.le_add_left _ _))
abbrev ix11 (pf : pre11.Contents (Elt F)) : (w : Fin 3) → grid11.Coords → Fin (spec11 w).shape.rank → Nat := fun | 0 => cc11_transform_0 k11_off1_inb numel1_S1 pf | 1 => cc11_transform_1 k11_off1_inb numel1_S1 pf | 2 => cc11_transform_2 | ⟨_ + 3, h⟩ => absurd h (Nat.not_lt.2 (Nat.le_add_left _ _))
theorem hreads11 : ∀ (pf : pre11.Contents (Elt F)) w (i i' : grid11.Coords), (∀ a, (spec11 w).reads a = true → i a = i' a) → ix11 pf w i = ix11 pf w i' := fun pf => fun | 0 => hreads11_0 pf | 1 => hreads11_1 pf | 2 => hreads11_2 | ⟨_ + 3, h⟩ => absurd h (Nat.not_lt.2 (Nat.le_add_left _ _))
def ok11 (pf : pre11.Contents (Elt F)) : Prop :=
  (∀ i : grid11.Coords, ∃ h : (∀ a, (cc11_transform_0 k11_off1_inb numel1_S1 pf i a + 1) * S1x1x128.size a ≤ S50000x1x128.size a), EltTy.bits .f32 = 32 ∨ (Rect.block (s := S50000x1x128) S1x1x128.size (cc11_transform_0 k11_off1_inb numel1_S1 pf i) h).WholeWords (EltTy.packing .f32)) ∧
  (∀ i : grid11.Coords, ∃ h : (∀ a, (cc11_transform_1 k11_off1_inb numel1_S1 pf i a + 1) * S1x1x128.size a ≤ S50000x1x128.size a), EltTy.bits .f32 = 32 ∨ (Rect.block (s := S50000x1x128) S1x1x128.size (cc11_transform_1 k11_off1_inb numel1_S1 pf i) h).WholeWords (EltTy.packing .f32))
instance (pf : pre11.Contents (Elt F)) : Decidable (ok11 pf) := decidable_of_iff' _ (Iff.of_eq (ok11.eq_1 pf))
theorem hinb11 : ∀ (pf : pre11.Contents (Elt F)), ok11 pf → ∀ w (i : grid11.Coords) a, (ix11 pf w i a + 1) * (spec11 w).size a ≤ (spec11 w).shape.size a :=
  fun pf hok => fun | 0 => fun i a => (hok.1 i).elim fun h _ => h a | 1 => fun i a => (hok.2 i).elim fun h _ => h a | 2 => hinb11_2 | ⟨_ + 3, h⟩ => absurd h (Nat.not_lt.2 (Nat.le_add_left _ _))
theorem hwx11 : ∀ (pf : pre11.Contents (Elt F)) (hok : ok11 pf) w (i : grid11.Coords), (spec11 w).elt.bits = 32 ∨ (Rect.block (spec11 w).size (ix11 pf w i) (hinb11 pf hok w i)).WholeWords (spec11 w).elt.packing :=
  fun pf hok => fun | 0 => fun i => (hok.1 i).elim fun _ h => h | 1 => fun i => (hok.2 i).elim fun _ h => h | 2 => hwx11_2 | ⟨_ + 3, h⟩ => absurd h (Nat.not_lt.2 (Nat.le_add_left _ _))
abbrev spec12_0 : Pipeline.WinSpec sig grid12.rank :=
  Pipeline.WinSpec.ofSpec (Memref.whole main_v2) S1x1x128.size reads12_0 false false 2 stage12_0 sem12_0 nbuf12_0 hstage12_0

abbrev spec12_1 : Pipeline.WinSpec sig grid12.rank :=
  Pipeline.WinSpec.ofSpec (Memref.whole main_v4) S1x1x128.size reads12_1 false false 2 stage12_1 sem12_1 nbuf12_1 hstage12_1

abbrev spec12_2 : Pipeline.WinSpec sig grid12.rank :=
  Pipeline.WinSpec.ofSpec (Memref.whole main_v51) S1x1x128.size reads12_2 true false 2 stage12_2 sem12_2 nbuf12_2 hstage12_2

abbrev spec12 : Fin 3 → Pipeline.WinSpec sig grid12.rank := fun | 0 => spec12_0 | 1 => spec12_1 | 2 => spec12_2 | ⟨_ + 3, h⟩ => absurd h (Nat.not_lt.2 (Nat.le_add_left _ _))
theorem hcount12 : ∀ w, grid12.bufCount (spec12 w).reads (spec12 w).sync = (spec12 w).nbuf := fun | 0 => nbuf12_0 | 1 => nbuf12_1 | 2 => nbuf12_2 | ⟨_ + 3, h⟩ => absurd h (Nat.not_lt.2 (Nat.le_add_left _ _))
abbrev ix12 (pf : pre12.Contents (Elt F)) : (w : Fin 3) → grid12.Coords → Fin (spec12 w).shape.rank → Nat := fun | 0 => cc12_transform_0 k12_off1_inb numel1_S1 pf | 1 => cc12_transform_1 k12_off1_inb numel1_S1 pf | 2 => cc12_transform_2 | ⟨_ + 3, h⟩ => absurd h (Nat.not_lt.2 (Nat.le_add_left _ _))
theorem hreads12 : ∀ (pf : pre12.Contents (Elt F)) w (i i' : grid12.Coords), (∀ a, (spec12 w).reads a = true → i a = i' a) → ix12 pf w i = ix12 pf w i' := fun pf => fun | 0 => hreads12_0 pf | 1 => hreads12_1 pf | 2 => hreads12_2 | ⟨_ + 3, h⟩ => absurd h (Nat.not_lt.2 (Nat.le_add_left _ _))
def ok12 (pf : pre12.Contents (Elt F)) : Prop :=
  (∀ i : grid12.Coords, ∃ h : (∀ a, (cc12_transform_0 k12_off1_inb numel1_S1 pf i a + 1) * S1x1x128.size a ≤ S50000x1x128.size a), EltTy.bits .f32 = 32 ∨ (Rect.block (s := S50000x1x128) S1x1x128.size (cc12_transform_0 k12_off1_inb numel1_S1 pf i) h).WholeWords (EltTy.packing .f32)) ∧
  (∀ i : grid12.Coords, ∃ h : (∀ a, (cc12_transform_1 k12_off1_inb numel1_S1 pf i a + 1) * S1x1x128.size a ≤ S50000x1x128.size a), EltTy.bits .f32 = 32 ∨ (Rect.block (s := S50000x1x128) S1x1x128.size (cc12_transform_1 k12_off1_inb numel1_S1 pf i) h).WholeWords (EltTy.packing .f32))
instance (pf : pre12.Contents (Elt F)) : Decidable (ok12 pf) := decidable_of_iff' _ (Iff.of_eq (ok12.eq_1 pf))
theorem hinb12 : ∀ (pf : pre12.Contents (Elt F)), ok12 pf → ∀ w (i : grid12.Coords) a, (ix12 pf w i a + 1) * (spec12 w).size a ≤ (spec12 w).shape.size a :=
  fun pf hok => fun | 0 => fun i a => (hok.1 i).elim fun h _ => h a | 1 => fun i a => (hok.2 i).elim fun h _ => h a | 2 => hinb12_2 | ⟨_ + 3, h⟩ => absurd h (Nat.not_lt.2 (Nat.le_add_left _ _))
theorem hwx12 : ∀ (pf : pre12.Contents (Elt F)) (hok : ok12 pf) w (i : grid12.Coords), (spec12 w).elt.bits = 32 ∨ (Rect.block (spec12 w).size (ix12 pf w i) (hinb12 pf hok w i)).WholeWords (spec12 w).elt.packing :=
  fun pf hok => fun | 0 => fun i => (hok.1 i).elim fun _ h => h | 1 => fun i => (hok.2 i).elim fun _ h => h | 2 => hwx12_2 | ⟨_ + 3, h⟩ => absurd h (Nat.not_lt.2 (Nat.le_add_left _ _))
abbrev spec13_0 : Pipeline.WinSpec sig grid13.rank :=
  Pipeline.WinSpec.ofSpec (Memref.whole main_v2) S1x1x128.size reads13_0 false false 2 stage13_0 sem13_0 nbuf13_0 hstage13_0

abbrev spec13_1 : Pipeline.WinSpec sig grid13.rank :=
  Pipeline.WinSpec.ofSpec (Memref.whole main_v4) S1x1x128.size reads13_1 false false 2 stage13_1 sem13_1 nbuf13_1 hstage13_1

abbrev spec13_2 : Pipeline.WinSpec sig grid13.rank :=
  Pipeline.WinSpec.ofSpec (Memref.whole main_v55) S1x1x128.size reads13_2 true false 2 stage13_2 sem13_2 nbuf13_2 hstage13_2

abbrev spec13 : Fin 3 → Pipeline.WinSpec sig grid13.rank := fun | 0 => spec13_0 | 1 => spec13_1 | 2 => spec13_2 | ⟨_ + 3, h⟩ => absurd h (Nat.not_lt.2 (Nat.le_add_left _ _))
theorem hcount13 : ∀ w, grid13.bufCount (spec13 w).reads (spec13 w).sync = (spec13 w).nbuf := fun | 0 => nbuf13_0 | 1 => nbuf13_1 | 2 => nbuf13_2 | ⟨_ + 3, h⟩ => absurd h (Nat.not_lt.2 (Nat.le_add_left _ _))
abbrev ix13 (pf : pre13.Contents (Elt F)) : (w : Fin 3) → grid13.Coords → Fin (spec13 w).shape.rank → Nat := fun | 0 => cc13_transform_0 k13_off1_inb numel1_S1 pf | 1 => cc13_transform_1 k13_off1_inb numel1_S1 pf | 2 => cc13_transform_2 | ⟨_ + 3, h⟩ => absurd h (Nat.not_lt.2 (Nat.le_add_left _ _))
theorem hreads13 : ∀ (pf : pre13.Contents (Elt F)) w (i i' : grid13.Coords), (∀ a, (spec13 w).reads a = true → i a = i' a) → ix13 pf w i = ix13 pf w i' := fun pf => fun | 0 => hreads13_0 pf | 1 => hreads13_1 pf | 2 => hreads13_2 | ⟨_ + 3, h⟩ => absurd h (Nat.not_lt.2 (Nat.le_add_left _ _))
def ok13 (pf : pre13.Contents (Elt F)) : Prop :=
  (∀ i : grid13.Coords, ∃ h : (∀ a, (cc13_transform_0 k13_off1_inb numel1_S1 pf i a + 1) * S1x1x128.size a ≤ S50000x1x128.size a), EltTy.bits .f32 = 32 ∨ (Rect.block (s := S50000x1x128) S1x1x128.size (cc13_transform_0 k13_off1_inb numel1_S1 pf i) h).WholeWords (EltTy.packing .f32)) ∧
  (∀ i : grid13.Coords, ∃ h : (∀ a, (cc13_transform_1 k13_off1_inb numel1_S1 pf i a + 1) * S1x1x128.size a ≤ S50000x1x128.size a), EltTy.bits .f32 = 32 ∨ (Rect.block (s := S50000x1x128) S1x1x128.size (cc13_transform_1 k13_off1_inb numel1_S1 pf i) h).WholeWords (EltTy.packing .f32))
instance (pf : pre13.Contents (Elt F)) : Decidable (ok13 pf) := decidable_of_iff' _ (Iff.of_eq (ok13.eq_1 pf))
theorem hinb13 : ∀ (pf : pre13.Contents (Elt F)), ok13 pf → ∀ w (i : grid13.Coords) a, (ix13 pf w i a + 1) * (spec13 w).size a ≤ (spec13 w).shape.size a :=
  fun pf hok => fun | 0 => fun i a => (hok.1 i).elim fun h _ => h a | 1 => fun i a => (hok.2 i).elim fun h _ => h a | 2 => hinb13_2 | ⟨_ + 3, h⟩ => absurd h (Nat.not_lt.2 (Nat.le_add_left _ _))
theorem hwx13 : ∀ (pf : pre13.Contents (Elt F)) (hok : ok13 pf) w (i : grid13.Coords), (spec13 w).elt.bits = 32 ∨ (Rect.block (spec13 w).size (ix13 pf w i) (hinb13 pf hok w i)).WholeWords (spec13 w).elt.packing :=
  fun pf hok => fun | 0 => fun i => (hok.1 i).elim fun _ h => h | 1 => fun i => (hok.2 i).elim fun _ h => h | 2 => hwx13_2 | ⟨_ + 3, h⟩ => absurd h (Nat.not_lt.2 (Nat.le_add_left _ _))
abbrev spec14_0 : Pipeline.WinSpec sig grid14.rank :=
  Pipeline.WinSpec.ofSpec (Memref.whole main_v2) S1x1x128.size reads14_0 false false 2 stage14_0 sem14_0 nbuf14_0 hstage14_0

abbrev spec14_1 : Pipeline.WinSpec sig grid14.rank :=
  Pipeline.WinSpec.ofSpec (Memref.whole main_v4) S1x1x128.size reads14_1 false false 2 stage14_1 sem14_1 nbuf14_1 hstage14_1

abbrev spec14_2 : Pipeline.WinSpec sig grid14.rank :=
  Pipeline.WinSpec.ofSpec (Memref.whole main_v59) S1x1x128.size reads14_2 true false 2 stage14_2 sem14_2 nbuf14_2 hstage14_2

abbrev spec14 : Fin 3 → Pipeline.WinSpec sig grid14.rank := fun | 0 => spec14_0 | 1 => spec14_1 | 2 => spec14_2 | ⟨_ + 3, h⟩ => absurd h (Nat.not_lt.2 (Nat.le_add_left _ _))
theorem hcount14 : ∀ w, grid14.bufCount (spec14 w).reads (spec14 w).sync = (spec14 w).nbuf := fun | 0 => nbuf14_0 | 1 => nbuf14_1 | 2 => nbuf14_2 | ⟨_ + 3, h⟩ => absurd h (Nat.not_lt.2 (Nat.le_add_left _ _))
abbrev ix14 (pf : pre14.Contents (Elt F)) : (w : Fin 3) → grid14.Coords → Fin (spec14 w).shape.rank → Nat := fun | 0 => cc14_transform_0 k14_off1_inb numel1_S1 pf | 1 => cc14_transform_1 k14_off1_inb numel1_S1 pf | 2 => cc14_transform_2 | ⟨_ + 3, h⟩ => absurd h (Nat.not_lt.2 (Nat.le_add_left _ _))
theorem hreads14 : ∀ (pf : pre14.Contents (Elt F)) w (i i' : grid14.Coords), (∀ a, (spec14 w).reads a = true → i a = i' a) → ix14 pf w i = ix14 pf w i' := fun pf => fun | 0 => hreads14_0 pf | 1 => hreads14_1 pf | 2 => hreads14_2 | ⟨_ + 3, h⟩ => absurd h (Nat.not_lt.2 (Nat.le_add_left _ _))
def ok14 (pf : pre14.Contents (Elt F)) : Prop :=
  (∀ i : grid14.Coords, ∃ h : (∀ a, (cc14_transform_0 k14_off1_inb numel1_S1 pf i a + 1) * S1x1x128.size a ≤ S50000x1x128.size a), EltTy.bits .f32 = 32 ∨ (Rect.block (s := S50000x1x128) S1x1x128.size (cc14_transform_0 k14_off1_inb numel1_S1 pf i) h).WholeWords (EltTy.packing .f32)) ∧
  (∀ i : grid14.Coords, ∃ h : (∀ a, (cc14_transform_1 k14_off1_inb numel1_S1 pf i a + 1) * S1x1x128.size a ≤ S50000x1x128.size a), EltTy.bits .f32 = 32 ∨ (Rect.block (s := S50000x1x128) S1x1x128.size (cc14_transform_1 k14_off1_inb numel1_S1 pf i) h).WholeWords (EltTy.packing .f32))
instance (pf : pre14.Contents (Elt F)) : Decidable (ok14 pf) := decidable_of_iff' _ (Iff.of_eq (ok14.eq_1 pf))
theorem hinb14 : ∀ (pf : pre14.Contents (Elt F)), ok14 pf → ∀ w (i : grid14.Coords) a, (ix14 pf w i a + 1) * (spec14 w).size a ≤ (spec14 w).shape.size a :=
  fun pf hok => fun | 0 => fun i a => (hok.1 i).elim fun h _ => h a | 1 => fun i a => (hok.2 i).elim fun h _ => h a | 2 => hinb14_2 | ⟨_ + 3, h⟩ => absurd h (Nat.not_lt.2 (Nat.le_add_left _ _))
theorem hwx14 : ∀ (pf : pre14.Contents (Elt F)) (hok : ok14 pf) w (i : grid14.Coords), (spec14 w).elt.bits = 32 ∨ (Rect.block (spec14 w).size (ix14 pf w i) (hinb14 pf hok w i)).WholeWords (spec14 w).elt.packing :=
  fun pf hok => fun | 0 => fun i => (hok.1 i).elim fun _ h => h | 1 => fun i => (hok.2 i).elim fun _ h => h | 2 => hwx14_2 | ⟨_ + 3, h⟩ => absurd h (Nat.not_lt.2 (Nat.le_add_left _ _))
abbrev spec15_0 : Pipeline.WinSpec sig grid15.rank :=
  Pipeline.WinSpec.ofSpec (Memref.whole main_v2) S1x1x128.size reads15_0 false false 2 stage15_0 sem15_0 nbuf15_0 hstage15_0

abbrev spec15_1 : Pipeline.WinSpec sig grid15.rank :=
  Pipeline.WinSpec.ofSpec (Memref.whole main_v4) S1x1x128.size reads15_1 false false 2 stage15_1 sem15_1 nbuf15_1 hstage15_1

abbrev spec15_2 : Pipeline.WinSpec sig grid15.rank :=
  Pipeline.WinSpec.ofSpec (Memref.whole main_v63) S1x1x128.size reads15_2 true false 2 stage15_2 sem15_2 nbuf15_2 hstage15_2

abbrev spec15 : Fin 3 → Pipeline.WinSpec sig grid15.rank := fun | 0 => spec15_0 | 1 => spec15_1 | 2 => spec15_2 | ⟨_ + 3, h⟩ => absurd h (Nat.not_lt.2 (Nat.le_add_left _ _))
theorem hcount15 : ∀ w, grid15.bufCount (spec15 w).reads (spec15 w).sync = (spec15 w).nbuf := fun | 0 => nbuf15_0 | 1 => nbuf15_1 | 2 => nbuf15_2 | ⟨_ + 3, h⟩ => absurd h (Nat.not_lt.2 (Nat.le_add_left _ _))
abbrev ix15 (pf : pre15.Contents (Elt F)) : (w : Fin 3) → grid15.Coords → Fin (spec15 w).shape.rank → Nat := fun | 0 => cc15_transform_0 k15_off1_inb numel1_S1 pf | 1 => cc15_transform_1 k15_off1_inb numel1_S1 pf | 2 => cc15_transform_2 | ⟨_ + 3, h⟩ => absurd h (Nat.not_lt.2 (Nat.le_add_left _ _))
theorem hreads15 : ∀ (pf : pre15.Contents (Elt F)) w (i i' : grid15.Coords), (∀ a, (spec15 w).reads a = true → i a = i' a) → ix15 pf w i = ix15 pf w i' := fun pf => fun | 0 => hreads15_0 pf | 1 => hreads15_1 pf | 2 => hreads15_2 | ⟨_ + 3, h⟩ => absurd h (Nat.not_lt.2 (Nat.le_add_left _ _))
def ok15 (pf : pre15.Contents (Elt F)) : Prop :=
  (∀ i : grid15.Coords, ∃ h : (∀ a, (cc15_transform_0 k15_off1_inb numel1_S1 pf i a + 1) * S1x1x128.size a ≤ S50000x1x128.size a), EltTy.bits .f32 = 32 ∨ (Rect.block (s := S50000x1x128) S1x1x128.size (cc15_transform_0 k15_off1_inb numel1_S1 pf i) h).WholeWords (EltTy.packing .f32)) ∧
  (∀ i : grid15.Coords, ∃ h : (∀ a, (cc15_transform_1 k15_off1_inb numel1_S1 pf i a + 1) * S1x1x128.size a ≤ S50000x1x128.size a), EltTy.bits .f32 = 32 ∨ (Rect.block (s := S50000x1x128) S1x1x128.size (cc15_transform_1 k15_off1_inb numel1_S1 pf i) h).WholeWords (EltTy.packing .f32))
instance (pf : pre15.Contents (Elt F)) : Decidable (ok15 pf) := decidable_of_iff' _ (Iff.of_eq (ok15.eq_1 pf))
theorem hinb15 : ∀ (pf : pre15.Contents (Elt F)), ok15 pf → ∀ w (i : grid15.Coords) a, (ix15 pf w i a + 1) * (spec15 w).size a ≤ (spec15 w).shape.size a :=
  fun pf hok => fun | 0 => fun i a => (hok.1 i).elim fun h _ => h a | 1 => fun i a => (hok.2 i).elim fun h _ => h a | 2 => hinb15_2 | ⟨_ + 3, h⟩ => absurd h (Nat.not_lt.2 (Nat.le_add_left _ _))
theorem hwx15 : ∀ (pf : pre15.Contents (Elt F)) (hok : ok15 pf) w (i : grid15.Coords), (spec15 w).elt.bits = 32 ∨ (Rect.block (spec15 w).size (ix15 pf w i) (hinb15 pf hok w i)).WholeWords (spec15 w).elt.packing :=
  fun pf hok => fun | 0 => fun i => (hok.1 i).elim fun _ h => h | 1 => fun i => (hok.2 i).elim fun _ h => h | 2 => hwx15_2 | ⟨_ + 3, h⟩ => absurd h (Nat.not_lt.2 (Nat.le_add_left _ _))
abbrev spec16_0 : Pipeline.WinSpec sig grid16.rank :=
  Pipeline.WinSpec.ofSpec (Memref.whole main_v2) S1x1x128.size reads16_0 false false 2 stage16_0 sem16_0 nbuf16_0 hstage16_0

abbrev spec16_1 : Pipeline.WinSpec sig grid16.rank :=
  Pipeline.WinSpec.ofSpec (Memref.whole main_v4) S1x1x128.size reads16_1 false false 2 stage16_1 sem16_1 nbuf16_1 hstage16_1

abbrev spec16_2 : Pipeline.WinSpec sig grid16.rank :=
  Pipeline.WinSpec.ofSpec (Memref.whole main_v67) S1x1x128.size reads16_2 true false 2 stage16_2 sem16_2 nbuf16_2 hstage16_2

abbrev spec16 : Fin 3 → Pipeline.WinSpec sig grid16.rank := fun | 0 => spec16_0 | 1 => spec16_1 | 2 => spec16_2 | ⟨_ + 3, h⟩ => absurd h (Nat.not_lt.2 (Nat.le_add_left _ _))
theorem hcount16 : ∀ w, grid16.bufCount (spec16 w).reads (spec16 w).sync = (spec16 w).nbuf := fun | 0 => nbuf16_0 | 1 => nbuf16_1 | 2 => nbuf16_2 | ⟨_ + 3, h⟩ => absurd h (Nat.not_lt.2 (Nat.le_add_left _ _))
abbrev ix16 (pf : pre16.Contents (Elt F)) : (w : Fin 3) → grid16.Coords → Fin (spec16 w).shape.rank → Nat := fun | 0 => cc16_transform_0 k16_off1_inb numel1_S1 pf | 1 => cc16_transform_1 k16_off1_inb numel1_S1 pf | 2 => cc16_transform_2 | ⟨_ + 3, h⟩ => absurd h (Nat.not_lt.2 (Nat.le_add_left _ _))
theorem hreads16 : ∀ (pf : pre16.Contents (Elt F)) w (i i' : grid16.Coords), (∀ a, (spec16 w).reads a = true → i a = i' a) → ix16 pf w i = ix16 pf w i' := fun pf => fun | 0 => hreads16_0 pf | 1 => hreads16_1 pf | 2 => hreads16_2 | ⟨_ + 3, h⟩ => absurd h (Nat.not_lt.2 (Nat.le_add_left _ _))
def ok16 (pf : pre16.Contents (Elt F)) : Prop :=
  (∀ i : grid16.Coords, ∃ h : (∀ a, (cc16_transform_0 k16_off1_inb numel1_S1 pf i a + 1) * S1x1x128.size a ≤ S50000x1x128.size a), EltTy.bits .f32 = 32 ∨ (Rect.block (s := S50000x1x128) S1x1x128.size (cc16_transform_0 k16_off1_inb numel1_S1 pf i) h).WholeWords (EltTy.packing .f32)) ∧
  (∀ i : grid16.Coords, ∃ h : (∀ a, (cc16_transform_1 k16_off1_inb numel1_S1 pf i a + 1) * S1x1x128.size a ≤ S50000x1x128.size a), EltTy.bits .f32 = 32 ∨ (Rect.block (s := S50000x1x128) S1x1x128.size (cc16_transform_1 k16_off1_inb numel1_S1 pf i) h).WholeWords (EltTy.packing .f32))
instance (pf : pre16.Contents (Elt F)) : Decidable (ok16 pf) := decidable_of_iff' _ (Iff.of_eq (ok16.eq_1 pf))
theorem hinb16 : ∀ (pf : pre16.Contents (Elt F)), ok16 pf → ∀ w (i : grid16.Coords) a, (ix16 pf w i a + 1) * (spec16 w).size a ≤ (spec16 w).shape.size a :=
  fun pf hok => fun | 0 => fun i a => (hok.1 i).elim fun h _ => h a | 1 => fun i a => (hok.2 i).elim fun h _ => h a | 2 => hinb16_2 | ⟨_ + 3, h⟩ => absurd h (Nat.not_lt.2 (Nat.le_add_left _ _))
theorem hwx16 : ∀ (pf : pre16.Contents (Elt F)) (hok : ok16 pf) w (i : grid16.Coords), (spec16 w).elt.bits = 32 ∨ (Rect.block (spec16 w).size (ix16 pf w i) (hinb16 pf hok w i)).WholeWords (spec16 w).elt.packing :=
  fun pf hok => fun | 0 => fun i => (hok.1 i).elim fun _ h => h | 1 => fun i => (hok.2 i).elim fun _ h => h | 2 => hwx16_2 | ⟨_ + 3, h⟩ => absurd h (Nat.not_lt.2 (Nat.le_add_left _ _))
abbrev spec17_0 : Pipeline.WinSpec sig grid17.rank :=
  Pipeline.WinSpec.ofSpec (Memref.whole main_v2) S1x1x128.size reads17_0 false false 2 stage17_0 sem17_0 nbuf17_0 hstage17_0

abbrev spec17_1 : Pipeline.WinSpec sig grid17.rank :=
  Pipeline.WinSpec.ofSpec (Memref.whole main_v4) S1x1x128.size reads17_1 false false 2 stage17_1 sem17_1 nbuf17_1 hstage17_1

abbrev spec17_2 : Pipeline.WinSpec sig grid17.rank :=
  Pipeline.WinSpec.ofSpec (Memref.whole main_v71) S1x1x128.size reads17_2 true false 2 stage17_2 sem17_2 nbuf17_2 hstage17_2

abbrev spec17 : Fin 3 → Pipeline.WinSpec sig grid17.rank := fun | 0 => spec17_0 | 1 => spec17_1 | 2 => spec17_2 | ⟨_ + 3, h⟩ => absurd h (Nat.not_lt.2 (Nat.le_add_left _ _))
theorem hcount17 : ∀ w, grid17.bufCount (spec17 w).reads (spec17 w).sync = (spec17 w).nbuf := fun | 0 => nbuf17_0 | 1 => nbuf17_1 | 2 => nbuf17_2 | ⟨_ + 3, h⟩ => absurd h (Nat.not_lt.2 (Nat.le_add_left _ _))
abbrev ix17 (pf : pre17.Contents (Elt F)) : (w : Fin 3) → grid17.Coords → Fin (spec17 w).shape.rank → Nat := fun | 0 => cc17_transform_0 k17_off1_inb numel1_S1 pf | 1 => cc17_transform_1 k17_off1_inb numel1_S1 pf | 2 => cc17_transform_2 | ⟨_ + 3, h⟩ => absurd h (Nat.not_lt.2 (Nat.le_add_left _ _))
theorem hreads17 : ∀ (pf : pre17.Contents (Elt F)) w (i i' : grid17.Coords), (∀ a, (spec17 w).reads a = true → i a = i' a) → ix17 pf w i = ix17 pf w i' := fun pf => fun | 0 => hreads17_0 pf | 1 => hreads17_1 pf | 2 => hreads17_2 | ⟨_ + 3, h⟩ => absurd h (Nat.not_lt.2 (Nat.le_add_left _ _))
def ok17 (pf : pre17.Contents (Elt F)) : Prop :=
  (∀ i : grid17.Coords, ∃ h : (∀ a, (cc17_transform_0 k17_off1_inb numel1_S1 pf i a + 1) * S1x1x128.size a ≤ S50000x1x128.size a), EltTy.bits .f32 = 32 ∨ (Rect.block (s := S50000x1x128) S1x1x128.size (cc17_transform_0 k17_off1_inb numel1_S1 pf i) h).WholeWords (EltTy.packing .f32)) ∧
  (∀ i : grid17.Coords, ∃ h : (∀ a, (cc17_transform_1 k17_off1_inb numel1_S1 pf i a + 1) * S1x1x128.size a ≤ S50000x1x128.size a), EltTy.bits .f32 = 32 ∨ (Rect.block (s := S50000x1x128) S1x1x128.size (cc17_transform_1 k17_off1_inb numel1_S1 pf i) h).WholeWords (EltTy.packing .f32))
instance (pf : pre17.Contents (Elt F)) : Decidable (ok17 pf) := decidable_of_iff' _ (Iff.of_eq (ok17.eq_1 pf))
theorem hinb17 : ∀ (pf : pre17.Contents (Elt F)), ok17 pf → ∀ w (i : grid17.Coords) a, (ix17 pf w i a + 1) * (spec17 w).size a ≤ (spec17 w).shape.size a :=
  fun pf hok => fun | 0 => fun i a => (hok.1 i).elim fun h _ => h a | 1 => fun i a => (hok.2 i).elim fun h _ => h a | 2 => hinb17_2 | ⟨_ + 3, h⟩ => absurd h (Nat.not_lt.2 (Nat.le_add_left _ _))
theorem hwx17 : ∀ (pf : pre17.Contents (Elt F)) (hok : ok17 pf) w (i : grid17.Coords), (spec17 w).elt.bits = 32 ∨ (Rect.block (spec17 w).size (ix17 pf w i) (hinb17 pf hok w i)).WholeWords (spec17 w).elt.packing :=
  fun pf hok => fun | 0 => fun i => (hok.1 i).elim fun _ h => h | 1 => fun i => (hok.2 i).elim fun _ h => h | 2 => hwx17_2 | ⟨_ + 3, h⟩ => absurd h (Nat.not_lt.2 (Nat.le_add_left _ _))
abbrev spec18_0 : Pipeline.WinSpec sig grid18.rank :=
  Pipeline.WinSpec.ofSpec (Memref.whole main_v2) S1x1x128.size reads18_0 false false 2 stage18_0 sem18_0 nbuf18_0 hstage18_0

abbrev spec18_1 : Pipeline.WinSpec sig grid18.rank :=
  Pipeline.WinSpec.ofSpec (Memref.whole main_v4) S1x1x128.size reads18_1 false false 2 stage18_1 sem18_1 nbuf18_1 hstage18_1

abbrev spec18_2 : Pipeline.WinSpec sig grid18.rank :=
  Pipeline.WinSpec.ofSpec (Memref.whole main_v75) S1x1x128.size reads18_2 true false 2 stage18_2 sem18_2 nbuf18_2 hstage18_2

abbrev spec18 : Fin 3 → Pipeline.WinSpec sig grid18.rank := fun | 0 => spec18_0 | 1 => spec18_1 | 2 => spec18_2 | ⟨_ + 3, h⟩ => absurd h (Nat.not_lt.2 (Nat.le_add_left _ _))
theorem hcount18 : ∀ w, grid18.bufCount (spec18 w).reads (spec18 w).sync = (spec18 w).nbuf := fun | 0 => nbuf18_0 | 1 => nbuf18_1 | 2 => nbuf18_2 | ⟨_ + 3, h⟩ => absurd h (Nat.not_lt.2 (Nat.le_add_left _ _))
abbrev ix18 (pf : pre18.Contents (Elt F)) : (w : Fin 3) → grid18.Coords → Fin (spec18 w).shape.rank → Nat := fun | 0 => cc18_transform_0 k18_off1_inb numel1_S1 pf | 1 => cc18_transform_1 k18_off1_inb numel1_S1 pf | 2 => cc18_transform_2 | ⟨_ + 3, h⟩ => absurd h (Nat.not_lt.2 (Nat.le_add_left _ _))
theorem hreads18 : ∀ (pf : pre18.Contents (Elt F)) w (i i' : grid18.Coords), (∀ a, (spec18 w).reads a = true → i a = i' a) → ix18 pf w i = ix18 pf w i' := fun pf => fun | 0 => hreads18_0 pf | 1 => hreads18_1 pf | 2 => hreads18_2 | ⟨_ + 3, h⟩ => absurd h (Nat.not_lt.2 (Nat.le_add_left _ _))
def ok18 (pf : pre18.Contents (Elt F)) : Prop :=
  (∀ i : grid18.Coords, ∃ h : (∀ a, (cc18_transform_0 k18_off1_inb numel1_S1 pf i a + 1) * S1x1x128.size a ≤ S50000x1x128.size a), EltTy.bits .f32 = 32 ∨ (Rect.block (s := S50000x1x128) S1x1x128.size (cc18_transform_0 k18_off1_inb numel1_S1 pf i) h).WholeWords (EltTy.packing .f32)) ∧
  (∀ i : grid18.Coords, ∃ h : (∀ a, (cc18_transform_1 k18_off1_inb numel1_S1 pf i a + 1) * S1x1x128.size a ≤ S50000x1x128.size a), EltTy.bits .f32 = 32 ∨ (Rect.block (s := S50000x1x128) S1x1x128.size (cc18_transform_1 k18_off1_inb numel1_S1 pf i) h).WholeWords (EltTy.packing .f32))
instance (pf : pre18.Contents (Elt F)) : Decidable (ok18 pf) := decidable_of_iff' _ (Iff.of_eq (ok18.eq_1 pf))
theorem hinb18 : ∀ (pf : pre18.Contents (Elt F)), ok18 pf → ∀ w (i : grid18.Coords) a, (ix18 pf w i a + 1) * (spec18 w).size a ≤ (spec18 w).shape.size a :=
  fun pf hok => fun | 0 => fun i a => (hok.1 i).elim fun h _ => h a | 1 => fun i a => (hok.2 i).elim fun h _ => h a | 2 => hinb18_2 | ⟨_ + 3, h⟩ => absurd h (Nat.not_lt.2 (Nat.le_add_left _ _))
theorem hwx18 : ∀ (pf : pre18.Contents (Elt F)) (hok : ok18 pf) w (i : grid18.Coords), (spec18 w).elt.bits = 32 ∨ (Rect.block (spec18 w).size (ix18 pf w i) (hinb18 pf hok w i)).WholeWords (spec18 w).elt.packing :=
  fun pf hok => fun | 0 => fun i => (hok.1 i).elim fun _ h => h | 1 => fun i => (hok.2 i).elim fun _ h => h | 2 => hwx18_2 | ⟨_ + 3, h⟩ => absurd h (Nat.not_lt.2 (Nat.le_add_left _ _))
abbrev spec19_0 : Pipeline.WinSpec sig grid19.rank :=
  Pipeline.WinSpec.ofSpec (Memref.whole main_v2) S1x1x128.size reads19_0 false false 2 stage19_0 sem19_0 nbuf19_0 hstage19_0

abbrev spec19_1 : Pipeline.WinSpec sig grid19.rank :=
  Pipeline.WinSpec.ofSpec (Memref.whole main_v4) S1x1x128.size reads19_1 false false 2 stage19_1 sem19_1 nbuf19_1 hstage19_1

abbrev spec19_2 : Pipeline.WinSpec sig grid19.rank :=
  Pipeline.WinSpec.ofSpec (Memref.whole main_v79) S1x1x128.size reads19_2 true false 2 stage19_2 sem19_2 nbuf19_2 hstage19_2

abbrev spec19 : Fin 3 → Pipeline.WinSpec sig grid19.rank := fun | 0 => spec19_0 | 1 => spec19_1 | 2 => spec19_2 | ⟨_ + 3, h⟩ => absurd h (Nat.not_lt.2 (Nat.le_add_left _ _))
theorem hcount19 : ∀ w, grid19.bufCount (spec19 w).reads (spec19 w).sync = (spec19 w).nbuf := fun | 0 => nbuf19_0 | 1 => nbuf19_1 | 2 => nbuf19_2 | ⟨_ + 3, h⟩ => absurd h (Nat.not_lt.2 (Nat.le_add_left _ _))
abbrev ix19 (pf : pre19.Contents (Elt F)) : (w : Fin 3) → grid19.Coords → Fin (spec19 w).shape.rank → Nat := fun | 0 => cc19_transform_0 k19_off1_inb numel1_S1 pf | 1 => cc19_transform_1 k19_off1_inb numel1_S1 pf | 2 => cc19_transform_2 | ⟨_ + 3, h⟩ => absurd h (Nat.not_lt.2 (Nat.le_add_left _ _))
theorem hreads19 : ∀ (pf : pre19.Contents (Elt F)) w (i i' : grid19.Coords), (∀ a, (spec19 w).reads a = true → i a = i' a) → ix19 pf w i = ix19 pf w i' := fun pf => fun | 0 => hreads19_0 pf | 1 => hreads19_1 pf | 2 => hreads19_2 | ⟨_ + 3, h⟩ => absurd h (Nat.not_lt.2 (Nat.le_add_left _ _))
def ok19 (pf : pre19.Contents (Elt F)) : Prop :=
  (∀ i : grid19.Coords, ∃ h : (∀ a, (cc19_transform_0 k19_off1_inb numel1_S1 pf i a + 1) * S1x1x128.size a ≤ S50000x1x128.size a), EltTy.bits .f32 = 32 ∨ (Rect.block (s := S50000x1x128) S1x1x128.size (cc19_transform_0 k19_off1_inb numel1_S1 pf i) h).WholeWords (EltTy.packing .f32)) ∧
  (∀ i : grid19.Coords, ∃ h : (∀ a, (cc19_transform_1 k19_off1_inb numel1_S1 pf i a + 1) * S1x1x128.size a ≤ S50000x1x128.size a), EltTy.bits .f32 = 32 ∨ (Rect.block (s := S50000x1x128) S1x1x128.size (cc19_transform_1 k19_off1_inb numel1_S1 pf i) h).WholeWords (EltTy.packing .f32))
instance (pf : pre19.Contents (Elt F)) : Decidable (ok19 pf) := decidable_of_iff' _ (Iff.of_eq (ok19.eq_1 pf))
theorem hinb19 : ∀ (pf : pre19.Contents (Elt F)), ok19 pf → ∀ w (i : grid19.Coords) a, (ix19 pf w i a + 1) * (spec19 w).size a ≤ (spec19 w).shape.size a :=
  fun pf hok => fun | 0 => fun i a => (hok.1 i).elim fun h _ => h a | 1 => fun i a => (hok.2 i).elim fun h _ => h a | 2 => hinb19_2 | ⟨_ + 3, h⟩ => absurd h (Nat.not_lt.2 (Nat.le_add_left _ _))
theorem hwx19 : ∀ (pf : pre19.Contents (Elt F)) (hok : ok19 pf) w (i : grid19.Coords), (spec19 w).elt.bits = 32 ∨ (Rect.block (spec19 w).size (ix19 pf w i) (hinb19 pf hok w i)).WholeWords (spec19 w).elt.packing :=
  fun pf hok => fun | 0 => fun i => (hok.1 i).elim fun _ h => h | 1 => fun i => (hok.2 i).elim fun _ h => h | 2 => hwx19_2 | ⟨_ + 3, h⟩ => absurd h (Nat.not_lt.2 (Nat.le_add_left _ _))
abbrev spec20_0 : Pipeline.WinSpec sig grid20.rank :=
  Pipeline.WinSpec.ofSpec (Memref.whole main_v2) S1x1x128.size reads20_0 false false 2 stage20_0 sem20_0 nbuf20_0 hstage20_0

abbrev spec20_1 : Pipeline.WinSpec sig grid20.rank :=
  Pipeline.WinSpec.ofSpec (Memref.whole main_v4) S1x1x128.size reads20_1 false false 2 stage20_1 sem20_1 nbuf20_1 hstage20_1

abbrev spec20_2 : Pipeline.WinSpec sig grid20.rank :=
  Pipeline.WinSpec.ofSpec (Memref.whole main_v83) S1x1x128.size reads20_2 true false 2 stage20_2 sem20_2 nbuf20_2 hstage20_2

abbrev spec20 : Fin 3 → Pipeline.WinSpec sig grid20.rank := fun | 0 => spec20_0 | 1 => spec20_1 | 2 => spec20_2 | ⟨_ + 3, h⟩ => absurd h (Nat.not_lt.2 (Nat.le_add_left _ _))
theorem hcount20 : ∀ w, grid20.bufCount (spec20 w).reads (spec20 w).sync = (spec20 w).nbuf := fun | 0 => nbuf20_0 | 1 => nbuf20_1 | 2 => nbuf20_2 | ⟨_ + 3, h⟩ => absurd h (Nat.not_lt.2 (Nat.le_add_left _ _))
abbrev ix20 (pf : pre20.Contents (Elt F)) : (w : Fin 3) → grid20.Coords → Fin (spec20 w).shape.rank → Nat := fun | 0 => cc20_transform_0 k20_off1_inb numel1_S1 pf | 1 => cc20_transform_1 k20_off1_inb numel1_S1 pf | 2 => cc20_transform_2 | ⟨_ + 3, h⟩ => absurd h (Nat.not_lt.2 (Nat.le_add_left _ _))
theorem hreads20 : ∀ (pf : pre20.Contents (Elt F)) w (i i' : grid20.Coords), (∀ a, (spec20 w).reads a = true → i a = i' a) → ix20 pf w i = ix20 pf w i' := fun pf => fun | 0 => hreads20_0 pf | 1 => hreads20_1 pf | 2 => hreads20_2 | ⟨_ + 3, h⟩ => absurd h (Nat.not_lt.2 (Nat.le_add_left _ _))
def ok20 (pf : pre20.Contents (Elt F)) : Prop :=
  (∀ i : grid20.Coords, ∃ h : (∀ a, (cc20_transform_0 k20_off1_inb numel1_S1 pf i a + 1) * S1x1x128.size a ≤ S50000x1x128.size a), EltTy.bits .f32 = 32 ∨ (Rect.block (s := S50000x1x128) S1x1x128.size (cc20_transform_0 k20_off1_inb numel1_S1 pf i) h).WholeWords (EltTy.packing .f32)) ∧
  (∀ i : grid20.Coords, ∃ h : (∀ a, (cc20_transform_1 k20_off1_inb numel1_S1 pf i a + 1) * S1x1x128.size a ≤ S50000x1x128.size a), EltTy.bits .f32 = 32 ∨ (Rect.block (s := S50000x1x128) S1x1x128.size (cc20_transform_1 k20_off1_inb numel1_S1 pf i) h).WholeWords (EltTy.packing .f32))
instance (pf : pre20.Contents (Elt F)) : Decidable (ok20 pf) := decidable_of_iff' _ (Iff.of_eq (ok20.eq_1 pf))
theorem hinb20 : ∀ (pf : pre20.Contents (Elt F)), ok20 pf → ∀ w (i : grid20.Coords) a, (ix20 pf w i a + 1) * (spec20 w).size a ≤ (spec20 w).shape.size a :=
  fun pf hok => fun | 0 => fun i a => (hok.1 i).elim fun h _ => h a | 1 => fun i a => (hok.2 i).elim fun h _ => h a | 2 => hinb20_2 | ⟨_ + 3, h⟩ => absurd h (Nat.not_lt.2 (Nat.le_add_left _ _))
theorem hwx20 : ∀ (pf : pre20.Contents (Elt F)) (hok : ok20 pf) w (i : grid20.Coords), (spec20 w).elt.bits = 32 ∨ (Rect.block (spec20 w).size (ix20 pf w i) (hinb20 pf hok w i)).WholeWords (spec20 w).elt.packing :=
  fun pf hok => fun | 0 => fun i => (hok.1 i).elim fun _ h => h | 1 => fun i => (hok.2 i).elim fun _ h => h | 2 => hwx20_2 | ⟨_ + 3, h⟩ => absurd h (Nat.not_lt.2 (Nat.le_add_left _ _))

class Facts : Prop extends Facts₀ where
  harr1 : ∀ w, (spec1 w).arr.IsWhole
  harr2 : ∀ w, (spec2 w).arr.IsWhole
  harr3 : ∀ w, (spec3 w).arr.IsWhole
  harr4 : ∀ w, (spec4 w).arr.IsWhole
  harr5 : ∀ w, (spec5 w).arr.IsWhole
  harr6 : ∀ w, (spec6 w).arr.IsWhole
  harr7 : ∀ w, (spec7 w).arr.IsWhole
  harr8 : ∀ w, (spec8 w).arr.IsWhole
  harr9 : ∀ w, (spec9 w).arr.IsWhole
  harr10 : ∀ w, (spec10 w).arr.IsWhole
  harr11 : ∀ w, (spec11 w).arr.IsWhole
  harr12 : ∀ w, (spec12 w).arr.IsWhole
  harr13 : ∀ w, (spec13 w).arr.IsWhole
  harr14 : ∀ w, (spec14 w).arr.IsWhole
  harr15 : ∀ w, (spec15 w).arr.IsWhole
  harr16 : ∀ w, (spec16 w).arr.IsWhole
  harr17 : ∀ w, (spec17 w).arr.IsWhole
  harr18 : ∀ w, (spec18 w).arr.IsWhole
  harr19 : ∀ w, (spec19 w).arr.IsWhole
  harr20 : ∀ w, (spec20 w).arr.IsWhole

variable [Facts]
-- ==== ReferenceIdeal.lean ====
abbrev S2x50000x64 : Shape := ⟨3, ![2, 50000, 64]⟩
abbrev S800000 : Shape := ⟨1, ![800000]⟩
abbrev S64x64 : Shape := ⟨2, ![64, 64]⟩
abbrev S_ : Shape := ⟨0, ![]⟩
abbrev S800000x1 : Shape := ⟨2, ![800000, 1]⟩
abbrev S2x800000x64 : Shape := ⟨3, ![2, 800000, 64]⟩

abbrev nBuf : Space → Nat
  | .hbm => 29
  | .vmem => 0
  | .smem => 0
  | _ => 0

abbrev bufTy : (tb : Table) → Fin (tcTables nBuf tb) → BufTy
  | .hbm, ⟨0, _⟩ => ⟨S2x50000x64, .f32⟩
  | .hbm, ⟨1, _⟩ => ⟨S800000, .i32⟩
  | .hbm, ⟨2, _⟩ => ⟨S800000, .i32⟩
  | .hbm, ⟨3, _⟩ => ⟨S64x64, .f32⟩
  | .hbm, ⟨4, _⟩ => ⟨S64x64, .f32⟩
  | .hbm, ⟨5, _⟩ => ⟨S2x50000x64, .f32⟩
  | .hbm, ⟨6, _⟩ => ⟨S2x50000x64, .f32⟩
  | .hbm, ⟨7, _⟩ => ⟨S_, .i32⟩
  | .hbm, ⟨8, _⟩ => ⟨S800000, .i32⟩
  | .hbm, ⟨9, _⟩ => ⟨S800000, .i1⟩
  | .hbm, ⟨10, _⟩ => ⟨S_, .i32⟩
  | .hbm, ⟨11, _⟩ => ⟨S800000, .i32⟩
  | .hbm, ⟨12, _⟩ => ⟨S800000, .i32⟩
  | .hbm, ⟨13, _⟩ => ⟨S800000, .i32⟩
  | .hbm, ⟨14, _⟩ => ⟨S800000x1, .i32⟩
  | .hbm, ⟨15, _⟩ => ⟨S2x800000x64, .f32⟩
  | .hbm, ⟨16, _⟩ => ⟨S_, .i32⟩
  | .hbm, ⟨17, _⟩ => ⟨S800000, .i32⟩
  | .hbm, ⟨18, _⟩ => ⟨S800000, .i1⟩
  | .hbm, ⟨19, _⟩ => ⟨S_, .i32⟩
  | .hbm, ⟨20, _⟩ => ⟨S800000, .i32⟩
  | .hbm, ⟨21, _⟩ => ⟨S800000, .i32⟩
  | .hbm, ⟨22, _⟩ => ⟨S800000, .i32⟩
  | .hbm, ⟨23, _⟩ => ⟨S800000x1, .i32⟩
  | .hbm, ⟨24, _⟩ => ⟨S2x800000x64, .f32⟩
  | .hbm, ⟨25, _⟩ => ⟨S2x800000x64, .f32⟩
  | .hbm, ⟨26, _⟩ => ⟨S_, .f32⟩
  | .hbm, ⟨27, _⟩ => ⟨S2x800000x64, .f32⟩
  | .hbm, ⟨28, _⟩ => ⟨S2x800000x64, .f32⟩
  | _, _ => ⟨S2x50000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_c : Ref sig .tc := ⟨.hbm, 7, rfl⟩
abbrev main_v2 : Ref sig .tc := ⟨.hbm, 8, rfl⟩
abbrev main_v3 : Ref sig .tc := ⟨.hbm, 9, rfl⟩
abbrev main_c_0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_c_1 : Ref sig .tc := ⟨.hbm, 16, rfl⟩
abbrev main_v9 : Ref sig .tc := ⟨.hbm, 17, rfl⟩
abbrev main_v10 : Ref sig .tc := ⟨.hbm, 18, rfl⟩
abbrev main_c_2 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst : Ref sig .tc := ⟨.hbm, 26, rfl⟩
abbrev main_v17 : Ref sig .tc := ⟨.hbm, 27, rfl⟩
abbrev main_v18 : Ref sig .tc := ⟨.hbm, 28, rfl⟩

abbrev nD : Nat := 1
abbrev τ : Topo := Topo.v7x

variable {F : FTy → Type} [FloatOps F]

class Facts₀ : Prop where
  bcast_S_S800000 : S_.BroadcastsInDim S800000 (![] : Fin 0 → Fin S800000.rank)
  bcast_S800000_S800000x1_0 : S800000.BroadcastsInDim S800000x1 (![0] : Fin 1 → Fin S800000x1.rank)
  bcast_S_S2x800000x64 : S_.BroadcastsInDim S2x800000x64 (![] : Fin 0 → Fin S2x800000x64.rank)
  dot_S2x50000x64_S64x64_S2x50000x64_2_1_01_0_n_n_wf : DotDims.WF S2x50000x64 S64x64 S2x50000x64 [2] [1] [0, 1] [0] [] []
  gather_S2x50000x64_S800000x1_S2x800000x64_02_1_n_n_1_1_2164_wf : GatherDims.WF S2x50000x64 S800000x1 S2x800000x64 [0, 2] [1] [] [1] [] 1 ![2, 1, 64]

variable [Facts₀]

def dot_S2x50000x64_S64x64_S2x50000x64_2_1_01_0_n_n : DotDims S2x50000x64 S64x64 S2x50000x64 where
  lhsContracting := [2]
  rhsContracting := [1]
  lhsNonContracting := [0, 1]
  rhsNonContracting := [0]
  lhsBatch := []
  rhsBatch := []
  wf := dot_S2x50000x64_S64x64_S2x50000x64_2_1_01_0_n_n_wf
def gather_S2x50000x64_S800000x1_S2x800000x64_02_1_n_n_1_1_2164 : GatherDims S2x50000x64 S800000x1 S2x800000x64 where
  offsetDims := [0, 2]
  collapsedSliceDims := [1]
  operandBatchingDims := []
  startIndicesBatchingDims := []
  startIndexMap := [1]
  indexVectorDim := 1
  sliceSizes := ![2, 1, 64]
  wf := gather_S2x50000x64_S800000x1_S2x800000x64_02_1_n_n_1_1_2164_wf

class Facts : Prop extends Facts₀ where

variable [Facts]
-- ==== Proof.PreRange.lean ====
/-
  The index ranges, read back out of the precondition.

  The precondition is a conjunction of "all elements satisfy p" statements, each an and-reduction of a
  one-bit array down to a single bit, and the conjunction is asserted to be the bit 1. Its last four
  conjuncts say of the two endpoint arrays: every word is at least 0 and below 50000, both compared as
  signed 32-bit numbers. A signed 32-bit word in [0, 50000) has the same value read unsigned, so every
  endpoint word, read unsigned, is below 50000: it names a node.
-/
import proofs.«413139_j22651657519351_3_alg».proof.Pre_finite_inputs
import proofs.«413139_j22651657519351_3_alg».proof.Proof.Gen.Pre_finite_inputs
import Idealize.ShloMosaic.Lib.ReduceAll
import Idealize.ShloMosaic.Lib.StableHlo.Predicate

namespace Cert.PreRange

open Idealize.ShloMosaic

/-- A 32-bit word that is at least 0 and below 50000 as a signed number is below 50000 as an unsigned one:
    a nonnegative signed value has its top bit clear, and then both readings agree. -/
theorem toNat_lt_of_signed (w : BitVec 32) (h0 : IntOp.cmpi .sge w 0#32 = 1#1)
    (h1 : IntOp.cmpi .slt w 50000#32 = 1#1) : w.toNat < 50000 := by
  have a : (0#32 : BitVec 32).toInt ≤ w.toInt := IntOp.cmpi_sge.1 h0
  have b : w.toInt < (50000#32 : BitVec 32).toInt := IntOp.cmpi_slt.1 h1
  rw [StableHlo.Predicate.toInt_ofNat_small 0 (by decide)] at a
  rw [StableHlo.Predicate.toInt_ofNat_small 50000 (by decide)] at b
  have hw := w.isLt
  rw [BitVec.toInt_eq_toNat_cond] at a b
  split at a <;> omega

/-- The scalar shape has exactly one index. -/
instance : Subsingleton Cert.Pre_finite_inputs.S_.Idx := ⟨fun a b => funext fun d => d.elim0⟩

/-- Every endpoint word is a node id: signed in [0, 50000), hence below 50000 unsigned. -/
theorem range_of_pre {F : FTy → Type} [FloatOps F] [Cert.Pre_finite_inputs.Facts]
    (x : FVec F Cert.Pre_finite_inputs.S2x50000x64 .f32) (src dst : IVec Cert.Pre_finite_inputs.S800000 32)
    (ws wd : FVec F Cert.Pre_finite_inputs.S64x64 .f32)
    (h : Cert.Pre_finite_inputs.fn (F := F) x src dst ws wd = fun _ => 1#1) :
    (∀ j : Cert.Pre_finite_inputs.S800000.Idx, (src j).toNat < 50000) ∧
      (∀ j : Cert.Pre_finite_inputs.S800000.Idx, (dst j).toNat < 50000) := by
  have e := congrFun h (fun a => a.elim0 : Cert.Pre_finite_inputs.S_.Idx)
  dsimp only [Cert.Pre_finite_inputs.fn, Cert.Pre_finite_inputs.fn_part1] at e
  -- the conjunction is the bit 1, so each of its last four conjuncts is
  obtain ⟨e, dLt⟩ := IntOp.andi_eq_one.1 e
  obtain ⟨e, dGe⟩ := IntOp.andi_eq_one.1 e
  obtain ⟨e, sLt⟩ := IntOp.andi_eq_one.1 e
  obtain ⟨_, sGe⟩ := IntOp.andi_eq_one.1 e
  -- an and-reduction to one bit that is 1 had a 1 at every element; the element is the comparison of
  -- the word at that place with the broadcast constant
  refine ⟨fun j => toNat_lt_of_signed (src j) ?_ ?_, fun j => toNat_lt_of_signed (dst j) ?_ ?_⟩
  · exact Host.reduce_andi_all _ _ _ _ _ sGe j
  · exact Host.reduce_andi_all _ _ _ _ _ sLt j
  · exact Host.reduce_andi_all _ _ _ _ _ dGe j
  · exact Host.reduce_andi_all _ _ _ _ _ dLt j

end Cert.PreRange
-- ==== Proof.Spec.lean ====
/-
  The specification: what both programs compute, as one function of the argument arrays, entry by entry.

  Node features x[b, n, d] (2 batches, 50000 nodes, 64 features) are projected by two 64×64 weight matrices,
      hs[b, n, e] = Σ_d x[b, n, d] · W_src[e, d],      hd[b, n, e] = Σ_d x[b, n, d] · W_dst[e, d],
  and edge j (800000 edges, endpoints src[j], dst[j]) receives
      out[b, j, e] = (hs[b, src[j], e] + hd[b, dst[j], e]) · c,
  c the float32 word 0x3F3504F3 that both programs carry (it is never evaluated: the same word stands on both sides).
  An endpoint is an index word; `node` reads it as a node id, reduced modulo the node count so that the function is
  total (on words in range, which is where the two programs are compared, it is the word's value).
-/
import Idealize.ShloMosaic.PureOps.Ideal
import Idealize.ShloMosaic.Lib.ValueIdx

noncomputable section

open scoped BigOperators

namespace Cert.Spec

open Idealize.ShloMosaic Idealize.ShloMosaic.ValueIdx

/-- The node an index word names. -/
def node (w : BitVec 32) : Fin 50000 := ⟨w.toNat % 50000, Nat.mod_lt _ (by norm_num)⟩

/-- On a word below the node count it is the word's value. -/
theorem node_val {w : BitVec 32} (h : w.toNat < 50000) : (node w).val = w.toNat := Nat.mod_eq_of_lt h

/-- One projected feature: row (b, n) of x against row e of the weight matrix. -/
def proj (x : FVec Ideal ⟨3, ![2, 50000, 64]⟩ .f32) (w : FVec Ideal ⟨2, ![64, 64]⟩ .f32) (b : Fin 2) (n : Fin 50000) (e : Fin 64) : EReal :=
  ∑ d : Fin 64, x (ix3 b n d) * w (ix2 e d)

/-- The scale both programs multiply by. -/
def scale : EReal := Ideal.ofBits .f32 0x3F3504F3#32

/-- The result: entry (b, j, e) is the scaled sum of the two projected features at edge j's endpoints. -/
def G (x : FVec Ideal ⟨3, ![2, 50000, 64]⟩ .f32) (src dst : IVec ⟨1, ![800000]⟩ 32)
    (ws wd : FVec Ideal ⟨2, ![64, 64]⟩ .f32) : FVec Ideal ⟨3, ![2, 800000, 64]⟩ .f32 :=
  fun i => (proj x ws (i 0) (node (src (ix1 (i 1)))) (i 2) + proj x wd (i 0) (node (dst (ix1 (i 1)))) (i 2)) * scale

theorem G_apply (x : FVec Ideal ⟨3, ![2, 50000, 64]⟩ .f32) (src dst : IVec ⟨1, ![800000]⟩ 32)
    (ws wd : FVec Ideal ⟨2, ![64, 64]⟩ .f32) (b : Fin 2) (j : Fin 800000) (e : Fin 64) :
    G x src dst ws wd (ix3 b j e) = (proj x ws b (node (src (ix1 j))) e + proj x wd b (node (dst (ix1 j))) e) * scale := rfl

end Cert.Spec

end
-- ==== Proof.RefValue.lean ====
/-
  The reference's run read as the specification.

  The reference projects the node features by the two weight matrices (two contractions of x's feature axis with a
  weight matrix's second axis), and for each endpoint array turns an index word w into "w + 50000 if w is negative,
  else w", lays the words out as a column, and gathers whole rows (b, ·, e) of the projected array at those words, each
  start index read signed and clamped into [0, 49999]; the two gathered arrays are added and multiplied by one
  constant word. On index words below 50000 the sign test fails (such a word is below 2³¹, so it is not negative),
  the clamp is the identity, and the word's value is the node the specification reads. So entry (b, j, e) of the
  result is (Σ_d x[b, src j, d]·W_src[e, d] + Σ_d x[b, dst j, d]·W_dst[e, d])·c: the specification's entry.
  First the gather is read at an entry (b, j, e): of the operand's three axes the middle one is the collapsed,
  start-indexed one and the outer two are offset axes carrying the result's coordinates b and e. Then the words, the
  contraction, and the whole result; last the run of the reference ends at the specification.
-/
import proofs.«413139_j22651657519351_3_alg».proof.Proof.Spec
import proofs.«413139_j22651657519351_3_alg».proof.Proof.Gen.ReferenceIdeal.Read
import Idealize.ShloMosaic.Lib.StableHlo.Predicate

noncomputable section

open scoped BigOperators
open Idealize.ShloMosaic Idealize.ShloMosaic.TcCoe Idealize.SL.Sem

namespace Cert.ReferenceIdeal.RefValue

open Cert.ReferenceIdeal Cert.ReferenceIdeal.Gen Cert.ReferenceIdeal.Read Idealize.ShloMosaic.StableHlo
  Idealize.ShloMosaic.ValueIdx Idealize.ShloMosaic.StableHlo.Predicate

/-! ## The row gather read at an entry -/

/-- The dimension numbers of the gather of whole rows along the node axis. -/
abbrev rowsDims : GatherDims S2x50000x64 S800000x1 S2x800000x64 :=
  gather_S2x50000x64_S800000x1_S2x800000x64_02_1_n_n_1_1_2164

/-- Off the node axis the slice starts at 0: only the node axis is start-indexed. -/
theorem start_off (y : S2x800000x64.Idx) (idx : IVec S800000x1 32) (a : Fin 3) (ha : a ≠ 1) :
    rowsDims.start y idx a = 0 := by
  unfold GatherDims.start
  rw [dif_neg (show ¬ a ∈ rowsDims.startIndexMap from fun h => ha (List.mem_singleton.mp h))]

/-- The batch axis and the feature axis are kept (neither collapsed nor batching). -/
theorem off_kept (a : Fin 3) (ha : a ≠ 1) : a ∈ rowsDims.sKept :=
  (GatherDims.mem_sKept _ _).mpr ⟨fun h => ha (List.mem_singleton.mp h), List.not_mem_nil⟩

/-- On a kept axis the offset coordinate is the result's coordinate on the offset axis in the same position. -/
theorem offCoord_at (y : S2x800000x64.Idx) (a : Fin 3) (ha : a ≠ 1) (n : Nat) (hn : List.idxOf a rowsDims.sKept = n)
    (hlt : n < rowsDims.offsetDims.length) : rowsDims.offCoord y a = (y (rowsDims.offsetDims[n]'hlt)).val := by
  unfold GatherDims.offCoord
  rw [dif_pos (off_kept a ha)]
  subst hn
  rfl

/-- THE GATHER READ AT (b, j, e): the operand at batch b, feature e, and the node named by start index j, read
    signed and clamped into [0, 49999]. -/
theorem gather_rows_apply {α : Type} (t : S2x50000x64.Idx → α) (idx : IVec S800000x1 32)
    (b : Fin 2) (j : Fin 800000) (e : Fin 64) :
    Host.gather rowsDims t idx (ix3 b j e)
      = t (ix3 b (⟨min (idx (ix2 j (0 : Fin 1))).toInt.toNat 49999, by omega⟩ : Fin 50000) e) := by
  unfold Host.gather
  congr 1
  funext a
  refine Fin.ext ?_
  match a with
  | ⟨0, _⟩ =>
    show rowsDims.start (ix3 b j e) idx 0 + rowsDims.batchCoord (ix3 b j e) 0 + rowsDims.offCoord (ix3 b j e) 0 = b.val
    rw [start_off _ _ 0 (by decide), GatherDims.batchCoord_eq_zero _ _ _ List.not_mem_nil,
      offCoord_at _ 0 (by decide) 0 (by decide) (by decide)]
    simp only [Nat.zero_add]
    rfl
  | ⟨1, _⟩ =>
    show rowsDims.start (ix3 b j e) idx 1 + rowsDims.batchCoord (ix3 b j e) 1 + rowsDims.offCoord (ix3 b j e) 1 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (1 : Fin 3) ∈ rowsDims.startIndexMap from List.mem_singleton.mpr rfl)]
    have hsi : rowsDims.siIdx (ix3 b j e) ⟨List.idxOf (1 : Fin 3) rowsDims.startIndexMap,
        List.idxOf_lt_length_iff.2 (List.mem_singleton.mpr rfl)⟩ = ix2 j (0 : Fin 1) := by
      funext c; refine Fin.ext ?_
      match c with
      | ⟨0, _⟩ => rfl
      | ⟨1, _⟩ => rfl
    rw [hsi]
    rfl
  | ⟨2, _⟩ =>
    show rowsDims.start (ix3 b j e) idx 2 + rowsDims.batchCoord (ix3 b j e) 2 + rowsDims.offCoord (ix3 b j e) 2 = e.val
    rw [start_off _ _ 2 (by decide), GatherDims.batchCoord_eq_zero _ _ _ List.not_mem_nil,
      offCoord_at _ 2 (by decide) 1 (by decide) (by decide)]
    simp only [Nat.zero_add]
    rfl

/-! ## Index words in range -/

/-- A word below the node count is not negative, so "add 50000 if negative" leaves it. -/
theorem wrap_word (w : BitVec 32) (h : w.toNat < 50000) :
    Scalar.select (IntOp.cmpi .slt w 0#32) (IntOp.addi w 50000#32) w = w := by
  have hn : ¬ IntOp.cmpi .slt w 0#32 = 1#1 := fun hc =>
    Nat.not_lt_zero _ ((slt_iff_toNat (a := w) (b := 0#32) (by omega) (by decide)).mp hc)
  rw [eq_zero_of_ne_one hn, select_zero]

/-- A word below the node count, read signed and clamped into [0, 49999], is the node it names. -/
theorem clamp_word (w : BitVec 32) (h : w.toNat < 50000) :
    (⟨min w.toInt.toNat 49999, by omega⟩ : Fin 50000) = Cert.Spec.node w := by
  refine Fin.ext ?_
  show min w.toInt.toNat 49999 = (Cert.Spec.node w).val
  rw [Cert.Spec.node_val h, toInt_eq_toNat_of_lt (by omega), Int.toNat_natCast]
  exact Nat.min_eq_left (by omega)

/-- Row j of the column of source words is the source word of edge j. -/
theorem col_src (src : IVec S800000 32) (j : Fin 800000) (h : (src (ix1 j)).toNat < 50000) :
    val_main_v7 (F := Ideal) src (ix2 j (0 : Fin 1)) = src (ix1 j) := by
  have hi : idx_main_v7 (ix2 j (0 : Fin 1)) = ix1 j := funext fun a => Fin.ext (by match a with | ⟨0, _⟩ => rfl)
  rw [val_main_v7_apply, val_main_v6_apply, val_main_v3_apply, val_main_v5_apply, val_main_v2_apply, val_main_v4_apply,
    val_main_c_apply, val_main_c_0_apply, hi]
  exact wrap_word _ h

/-- Row j of the column of destination words is the destination word of edge j. -/
theorem col_dst (dst : IVec S800000 32) (j : Fin 800000) (h : (dst (ix1 j)).toNat < 50000) :
    val_main_v14 (F := Ideal) dst (ix2 j (0 : Fin 1)) = dst (ix1 j) := by
  have hi : idx_main_v14 (ix2 j (0 : Fin 1)) = ix1 j := funext fun a => Fin.ext (by match a with | ⟨0, _⟩ => rfl)
  rw [val_main_v14_apply, val_main_v13_apply, val_main_v10_apply, val_main_v12_apply, val_main_v9_apply, val_main_v11_apply,
    val_main_c_1_apply, val_main_c_2_apply, hi]
  exact wrap_word _ h

/-- Gathering rows of an array t at a column whose row j holds a word w below the node count reads t at node w. -/
theorem gather_rows_node {α : Type} (t : S2x50000x64.Idx → α) (col : IVec S800000x1 32) (b : Fin 2) (j : Fin 800000)
    (e : Fin 64) (w : BitVec 32) (hw : col (ix2 j (0 : Fin 1)) = w) (h : w.toNat < 50000) :
    Host.gather rowsDims t col (ix3 b j e) = t (ix3 b (Cert.Spec.node w) e) := by
  refine (gather_rows_apply t col b j e).trans ?_
  subst hw
  rw [clamp_word _ h]

/-! ## The projections -/

/-- Entry (b, n, e) of x contracted with the source weights is the specification's projected feature. -/
theorem proj_src (x : FVec Ideal S2x50000x64 .f32) (ws : FVec Ideal S64x64 .f32) (b : Fin 2) (n : Fin 50000) (e : Fin 64) :
    val_main_v0 (F := Ideal) x ws (ix3 b n e) = Cert.Spec.proj x ws b n e := by
  rw [val_main_v0_apply]
  unfold Cert.Spec.proj
  refine Finset.sum_congr rfl fun k _ => ?_
  have el : lidx_main_v0 (ix3 b n e) k = ix3 b n k :=
    funext fun a => Fin.ext (by match a with | ⟨0, _⟩ => rfl | ⟨1, _⟩ => rfl | ⟨2, _⟩ => rfl)
  have er : ridx_main_v0 (ix3 b n e) k = ix2 e k :=
    funext fun a => Fin.ext (by match a with | ⟨0, _⟩ => rfl | ⟨1, _⟩ => rfl)
  rw [el, er]

/-- Entry (b, n, e) of x contracted with the destination weights is the specification's projected feature. -/
theorem proj_dst (x : FVec Ideal S2x50000x64 .f32) (wd : FVec Ideal S64x64 .f32) (b : Fin 2) (n : Fin 50000) (e : Fin 64) :
    val_main_v1 (F := Ideal) x wd (ix3 b n e) = Cert.Spec.proj x wd b n e := by
  rw [val_main_v1_apply]
  unfold Cert.Spec.proj
  refine Finset.sum_congr rfl fun k _ => ?_
  have el : lidx_main_v1 (ix3 b n e) k = ix3 b n k :=
    funext fun a => Fin.ext (by match a with | ⟨0, _⟩ => rfl | ⟨1, _⟩ => rfl | ⟨2, _⟩ => rfl)
  have er : ridx_main_v1 (ix3 b n e) k = ix2 e k :=
    funext fun a => Fin.ext (by match a with | ⟨0, _⟩ => rfl | ⟨1, _⟩ => rfl)
  rw [el, er]

/-! ## The result is the specification -/

/-- Entry (b, j, e) of the reference's result, on index words below the node count. -/
theorem entry (x : FVec Ideal S2x50000x64 .f32) (src dst : IVec S800000 32) (ws wd : FVec Ideal S64x64 .f32)
    (hs : ∀ j, (src j).toNat < 50000) (hd : ∀ j, (dst j).toNat < 50000) (b : Fin 2) (j : Fin 800000) (e : Fin 64) :
    val_main_v18 (F := Ideal) x src dst ws wd (ix3 b j e) = Cert.Spec.G x src dst ws wd (ix3 b j e) := by
  have g8 : val_main_v8 (F := Ideal) x src ws (ix3 b j e) = Cert.Spec.proj x ws b (Cert.Spec.node (src (ix1 j))) e :=
    (gather_rows_node _ _ b j e _ (col_src src j (hs _)) (hs _)).trans (proj_src x ws b _ e)
  have g15 : val_main_v15 (F := Ideal) x dst wd (ix3 b j e) = Cert.Spec.proj x wd b (Cert.Spec.node (dst (ix1 j))) e :=
    (gather_rows_node _ _ b j e _ (col_dst dst j (hd _)) (hd _)).trans (proj_dst x wd b _ e)
  rw [Cert.Spec.G_apply, val_main_v18_apply, val_main_v16_apply, val_main_v17_apply, val_main_cst_apply, g8, g15]
  simp only [Ideal.addf_def, Ideal.mulf_def, Ideal.ofBits_def]
  rfl

/-- THE REFERENCE'S RESULT TERM, on index words below the node count, is the specification. -/
theorem result_eq (x : FVec Ideal S2x50000x64 .f32) (src dst : IVec S800000 32) (ws wd : FVec Ideal S64x64 .f32)
    (hs : ∀ j, (src j).toNat < 50000) (hd : ∀ j, (dst j).toNat < 50000) :
    mulf (addf (Host.gather gather_S2x50000x64_S800000x1_S2x800000x64_02_1_n_n_1_1_2164 (Host.dotGeneral (F := Ideal) dot_S2x50000x64_S64x64_S2x50000x64_2_1_01_0_n_n none x ws) (broadcastInDim S800000x1 ![0] bcast_S800000_S800000x1_0 (select (cmpi .slt src (broadcastInDim S800000 ![] bcast_S_S800000 (constantI S_ 32 0#32))) (addi src (broadcastInDim S800000 ![] bcast_S_S800000 (constantI S_ 32 50000#32))) src))) (Host.gather gather_S2x50000x64_S800000x1_S2x800000x64_02_1_n_n_1_1_2164 (Host.dotGeneral (F := Ideal) dot_S2x50000x64_S64x64_S2x50000x64_2_1_01_0_n_n none x wd) (broadcastInDim S800000x1 ![0] bcast_S800000_S800000x1_0 (select (cmpi .slt dst (broadcastInDim S800000 ![] bcast_S_S800000 (constantI S_ 32 0#32))) (addi dst (broadcastInDim S800000 ![] bcast_S_S800000 (constantI S_ 32 50000#32))) dst)))) (broadcastInDim S2x800000x64 ![] bcast_S_S2x800000x64 (constant (F := Ideal) S_ .f32 0x3F3504F3#32))
      = Cert.Spec.G x src dst ws wd := by
  refine (val_main_v18_eq (F := Ideal) x src dst ws wd).trans ?_
  funext i
  obtain ⟨b, j, e, rfl⟩ : ∃ (b : Fin 2) (j : Fin 800000) (e : Fin 64), i = ix3 b j e := ⟨i 0, i 1, i 2, eq_ix3 i⟩
  exact entry x src dst ws wd hs hd b j e

/-! ## The run -/

/-- From any memory whose two endpoint arrays hold words below the node count, every weakly fair execution of the
    reference ends with its result at the specification of the arguments, and the arguments unchanged. -/
theorem run_G (m' : (ℓ : Loc nD τ sig) → Buf (Elt Ideal) ℓ) (ρ' : Dev nD → PrngReg)
    (hs : ∀ (c : Dev nD) (j : S800000.Idx), ((m' ((c.tc : Thread nD τ).loc main_arg1) : IVec S800000 32) j).toNat < 50000)
    (hd : ∀ (c : Dev nD) (j : S800000.Idx), ((m' ((c.tc : Thread nD τ).loc main_arg2) : IVec S800000 32) j).toNat < 50000) :
    θ_run (Cert.ReferenceIdeal.defs (F := Ideal)) (onTc (τ := τ) (Cert.ReferenceIdeal.main (F := Ideal))) ⟨m', fun _ => 0, ρ'⟩
      (fun r => ∀ c : Dev nD,
        r.2.mem ((c.tc : Thread nD τ).loc main_v18) = Cert.Spec.G (m' ((c.tc : Thread nD τ).loc main_arg0)) (m' ((c.tc : Thread nD τ).loc main_arg1)) (m' ((c.tc : Thread nD τ).loc main_arg2)) (m' ((c.tc : Thread nD τ).loc main_arg3)) (m' ((c.tc : Thread nD τ).loc main_arg4))
        ∧ r.2.mem ((c.tc : Thread nD τ).loc main_arg0) = m' ((c.tc : Thread nD τ).loc main_arg0)
        ∧ r.2.mem ((c.tc : Thread nD τ).loc main_arg1) = m' ((c.tc : Thread nD τ).loc main_arg1)
        ∧ r.2.mem ((c.tc : Thread nD τ).loc main_arg2) = m' ((c.tc : Thread nD τ).loc main_arg2)
        ∧ r.2.mem ((c.tc : Thread nD τ).loc main_arg3) = m' ((c.tc : Thread nD τ).loc main_arg3)
        ∧ r.2.mem ((c.tc : Thread nD τ).loc main_arg4) = m' ((c.tc : Thread nD τ).loc main_arg4)) :=
  (θ_run (Cert.ReferenceIdeal.defs (F := Ideal)) _ _).mono
    (fun _ h c => ⟨(h c).1.trans (result_eq _ _ _ _ _ (hs c) (hd c)), (h c).2⟩)
    (Cert.ReferenceIdeal.Value.run (F := Ideal) m' ρ')

end Cert.ReferenceIdeal.RefValue

end
-- ==== Proof.K.Region0.lean ====
/- The first pallas_call of the program (custom_call 0, the projection kernel `cc0__proj_kernel`, on a 2×10 grid over
   five windows): its proof data at the buffer contents `V` found when the region is entered, and its body obligation.

   The kernel reads one [1,5000,64] block of the activations (window 0) and the two whole [64,64] weight matrices
   (windows 1 and 2, whose block index never moves), and overwrites the whole of each of its two output blocks
   (windows 3 and 4) with a product that depends on the three values read alone. So after the body, at every grid
   point: each input's staging buffer still holds its block, and each output's buffer holds one whole-block piece whose
   payload is the skeleton's store value at the blocks read. Generic in the float instance. -/
import proofs.«413139_j22651657519351_3_alg».proof.Proof.Gen.Kernel.Launch
import proofs.«413139_j22651657519351_3_alg».proof.Proof.Gen.Kernel.Skeleton
import proofs.«413139_j22651657519351_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership of an index in a rectangle with a 5000-long axis: the structural look recurses along that axis
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region0
-- the TensorCore's buffer contents when the region is entered
variable (V : (c : Dev nD) → (b : Ref sig .tc) → Buf (Elt F) ((c : Thread nD τ).loc b))

/-! ## The windows' blocks -/

/-- Window `w`'s block at grid point `t`: the rectangle its index map selects there, read off the window's array as
    the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The activations' staging buffer holds the current block at every point. The window is refetched at every point,
    is not cut at the array's edge and is never idle, and the body leaves the block as it found it. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The first weight matrix's staging buffer holds the whole matrix at every point. It is fetched at the first point
    only; afterwards the block index has not moved and the body has left the buffer alone, so what was fetched then
    is still there, and it is this point's block. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- The second weight matrix's staging buffer likewise. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each is the whole of its buffer -/

abbrev r0_x : Rect S1x5000x64 := Rect.unit (s := S1x5000x64) ![0, 0, 0] S1x5000x64.size inb_S1x5000x64_S1x5000x64_0_0_0
abbrev r0_w : Rect S64x64 := Rect.unit (s := S64x64) ![0, 0] S64x64.size inb_S64x64_S64x64_0_0

/-! ## What the body leaves in each output buffer -/

/-- The first output's buffer after the body: one piece, the whole block, holding the first projection of the
    activations block `x0` by the weight matrix `x1`. -/
def out0_3 (x0 : Vec F S1x5000x64 .f32) (x1 : Vec F S64x64 .f32) : Vec F S1x5000x64 .f32 :=
  View.canon [⟨r0_x, k0_pay2 (View.ld x0 r0_x) (View.ld x1 r0_w)⟩]

/-- The second output's buffer after the body: one piece, the whole block, holding the second projection of `x0`, by
    the weight matrix `x2`. -/
def out0_4 (x0 : Vec F S1x5000x64 .f32) (x2 : Vec F S64x64 .f32) : Vec F S1x5000x64 .f32 :=
  View.canon [⟨r0_x, k0_pay3 (View.ld x0 r0_x) (View.ld x2 r0_w)⟩]

/-- A single store of the whole block tiles it (one tile, of the block's own extents), so it covers it. -/
theorem cover0_x (p0 : Vec F S1x5000x64 .f32) (y : S1x5000x64.Idx) :
    ∃ pc ∈ ([⟨r0_x, p0⟩] : List (View.Piece (Elt F) S1x5000x64 .f32)), y ∈ pc.1.set :=
  View.cover_of_tiled [⟨r0_x, p0⟩] S1x5000x64.size (by rfl) y

/-! ## The body's triple -/

set_option maxHeartbeats 1000000 in
/-- The kernel body on whole staging memrefs — the three inputs' reading `x0`, `x1`, `x2`, the two outputs' holding
    anything — runs to a state where the inputs' are unchanged and the outputs' hold `out0_3 x0 x1` and `out0_4 x0 x2`.
    The body reads each output buffer before overwriting it, but no stored value depends on what was read there. -/
theorem sound_kernel0 (c : Dev nD) (E : Set ℕ) (i : grid0.Coords)
    (arg2 : Memref sig .tc .vmem S1x5000x64 .f32) (harg2 : arg2.IsWhole)
    (arg3 : Memref sig .tc .vmem S64x64 .f32) (harg3 : arg3.IsWhole)
    (arg4 : Memref sig .tc .vmem S64x64 .f32) (harg4 : arg4.IsWhole)
    (arg5 : Memref sig .tc .vmem S1x5000x64 .f32) (harg5 : arg5.IsWhole)
    (arg6 : Memref sig .tc .vmem S1x5000x64 .f32) (harg6 : arg6.IsWhole)
    (x0 : Vec F S1x5000x64 .f32) (x1 x2 : Vec F S64x64 .f32) (K : PUnit → sProp 𝕄) :
    iprop(owns (c : Thread nD τ) arg2 fullShare x0 ∗ owns (c : Thread nD τ) arg3 fullShare x1
        ∗ owns (c : Thread nD τ) arg4 fullShare x2
        ∗ (∃ d, owns (c : Thread nD τ) arg5 fullShare d) ∗ (∃ d, owns (c : Thread nD τ) arg6 fullShare d)
        ∗ (iprop(owns (c : Thread nD τ) arg2 fullShare x0 ∗ owns (c : Thread nD τ) arg3 fullShare x1
            ∗ owns (c : Thread nD τ) arg4 fullShare x2
            ∗ owns (c : Thread nD τ) arg5 fullShare (out0_3 x0 x1)
            ∗ owns (c : Thread nD τ) arg6 fullShare (out0_4 x0 x2)) -∗ K ⟨⟩))
      ⊢ wp frame (wpE (defs₀ (F := F)) Variants.none c none) E
          (cc0__proj_kernel i arg2 harg2 arg3 harg3 arg4 harg4 arg5 harg5 arg6 harg6) K := by
  simp only [cc0__proj_kernel_eq_skeleton]; unfold cc0__proj_kernel_skel
  unfold owns
  iintro ⟨⟨%f0, %hf0, H0⟩, ⟨%f1, %hf1, H1⟩, ⟨%f2, %hf2, H2⟩, ⟨%d3, %f3, -, H3⟩, ⟨%d4, %f4, -, H4⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    exact View.read_writes_eq_canon _ _ _ (cover0_x _)
  iexists _; isplitr
  swap; · iexact H4
  ipureintro
  exact View.read_writes_eq_canon _ _ _ (cover0_x _)

/-! ## The pipeline's proof data -/

/-- The proof data of this pipeline on core `c`: the arrays as the region finds them; after the body at point `t`
    each input's buffer at its block and each output's at its whole-block piece over the input blocks; the invariant
    that leaves everything outside the windows untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t)
    | ⟨4, _⟩ => out0_4 (iblk0 V c 0 t) (iblk0 V c 2 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = out0_3 (iblk0 V c 0 t) (iblk0 V c 1 t) := by dsimp only [dat0]
theorem after0_4 (c : Dev nD) (t : Fin cfg0.N) :
    (dat0 V c).after 4 t = out0_4 (iblk0 V c 0 t) (iblk0 V c 2 t) := by dsimp only [dat0]

/-- Each input's current staging buffer holds its block at every point. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation, at a generic point -/

/-- What the body is called with at point `t`: the invariant, the core's debts, and each window's current staging
    buffer at what the pipeline left there. -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d)))

/-- What the body returns: the same invariant and debts, and each buffer at the proof data's `after`. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t))

/-- The body at any point: the inputs' buffers hold their blocks, so the body's triple applies; the invariant and the
    debts pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3, after0_4]
  iintro ⟨HΦ, Ho, ⟨%d0, H0⟩, ⟨%d1, H1⟩, ⟨%d2, H2⟩, ⟨%d3, H3⟩, ⟨%d4, H4⟩⟩
  iapply (sound_kernel0 c Set.univ _ _ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation0 (c : Dev nD) : BodyObligation (dat0 (F := F) V c) (defs₀ (F := F)) Variants.none () Set.univ := fun t => by
  rw [bigSep_W0, bigSep_W0]
  exact sound_body0 V c t

end Region0

end Cert.Kernel.Hand

end
-- ==== Proof.K.Region1.lean ====
/-
  Edge chunk 1's gather kernel (twenty chunks of 40000 edges): at grid point t the pipeline fetches row src[t] of the
  re-laid projection hs2 and row dst[t] of hd2 (two blocks of 128 lanes, chosen by the prefetched index tables),
  the body stores (row + row) · c into the output block, which is written back as row t of the chunk's output.
  Here: what each window's staging buffer holds before and after the body at every point, for any contents V of the
  buffers at the region's entry and any admissible contents `a` of the two index tables, and the body's run.
  The tables ride through the region untouched: the body never reads them.
-/
import proofs.«413139_j22651657519351_3_alg».proof.Proof.Gen.Kernel.Launch
import proofs.«413139_j22651657519351_3_alg».proof.Proof.Gen.Kernel.Skeleton
import proofs.«413139_j22651657519351_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region

variable (V : (c : Dev nD) → (b : Ref sig .tc) → Buf (Elt F) ((c : Thread nD τ).loc b))
variable (a : (pcfg1 (F := F)).Adm)

/-! ## The body as the pipeline calls it at a point -/

/-- Each window's current staging memref at point `t`, and its wholeness. -/
abbrev ms1_0 (t : Fin (cfg1 a).N) : Memref sig .tc .vmem S1x1x128 .f32 := spec1_0.stage ((cfg1 a).slots t 0)
abbrev hs1_0 (t : Fin (cfg1 a).N) : (ms1_0 a t).IsWhole := hstage1_0 (((cfg1 a).slots t 0).cast nbuf1_0)
abbrev ms1_1 (t : Fin (cfg1 a).N) : Memref sig .tc .vmem S1x1x128 .f32 := spec1_1.stage ((cfg1 a).slots t 1)
abbrev hs1_1 (t : Fin (cfg1 a).N) : (ms1_1 a t).IsWhole := hstage1_1 (((cfg1 a).slots t 1).cast nbuf1_1)
abbrev ms1_2 (t : Fin (cfg1 a).N) : Memref sig .tc .vmem S1x1x128 .f32 := spec1_2.stage ((cfg1 a).slots t 2)
abbrev hs1_2 (t : Fin (cfg1 a).N) : (ms1_2 a t).IsWhole := hstage1_2 (((cfg1 a).slots t 2).cast nbuf1_2)

/-- The kernel body at point `t`, on what the pipeline calls it with. -/
abbrev bodyAt1 (t : Fin (cfg1 a).N) : Prog (TpuEff nD τ sig (Elt F) Λ₀ .tc) PUnit :=
  cc1__gather_kernel (grid1.coords t) (Memref.whole main_v5) (Memref.isWhole_whole _) (Memref.whole main_v6) (Memref.isWhole_whole _)
    (ms1_0 a t) (hs1_0 a t) (ms1_1 a t) (hs1_1 a t) (ms1_2 a t) (hs1_2 a t)

/-! ## The windows' blocks -/

/-- Window `w`'s block at point `t`, read off its array as the region finds it: for the two gathered windows the
    row the tables' word at `t` names. -/
def iblk1 (c : Dev nD) (w : Fin (cfg1 a).W) (t : Fin (cfg1 a).N) :
    (((cfg1 a).win w).xblock ((cfg1 a).grid.coords t)).Idx → Elt F ((cfg1 a).win w).elt :=
  (((cfg1 a).win w).blk t).view.read (Elt F) (V c (Pipeline.arrRef spec1 w))

/-- An input window's current staging buffer holds its block at every point, fetched there or not. -/
theorem before1_0_of {c : Dev nD} (dat : Dat τ (Elt F) Unit ℕ (UR sig nD τ) ℕ (cfg1 a) c) (hA : dat.A 0 = V c (Pipeline.arrRef spec1 0))
    (hafter : ∀ t, dat.after 0 t = iblk1 V a c 0 t) (t : Fin (cfg1 a).N) (d) : dat.before 0 t d = iblk1 V a c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_1_of {c : Dev nD} (dat : Dat τ (Elt F) Unit ℕ (UR sig nD τ) ℕ (cfg1 a) c) (hA : dat.A 1 = V c (Pipeline.arrRef spec1 1))
    (hafter : ∀ t, dat.after 1 t = iblk1 V a c 1 t) (t : Fin (cfg1 a).N) (d) : dat.before 1 t d = iblk1 V a c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-! ## What the body leaves in the output window's buffer -/

/-- The one rectangle the body loads and stores through: the whole 1×1×128 block. -/
abbrev r1 : Rect S1x1x128 := Rect.unit (s := S1x1x128) ![0, 0, 0] S1x1x128.size inb_S1x1x128_S1x1x128_0_0_0

/-- The output block after the body, from the two gathered rows: its one store. -/
def out1_2 (x0 x1 : Vec F S1x1x128 .f32) : Vec F S1x1x128 .f32 :=
  View.canon [⟨r1, k1_pay1 (View.ld x0 r1) (View.ld x1 r1)⟩]

/-- The store covers the block. -/
theorem cover1_2 (p0 : Vec F S1x1x128 .f32) (y : S1x1x128.Idx) :
    ∃ pc ∈ ([⟨r1, p0⟩] : List (View.Piece (Elt F) S1x1x128 .f32)), y ∈ pc.1.set :=
  View.cover_of_tiled [⟨r1, p0⟩] S1x1x128.size (by rfl) y

/-! ## The body's run -/

set_option maxHeartbeats 1000000 in
/-- The body on whole staging memrefs, the two inputs' at contents `x0`, `x1` and the output's at anything, runs to the
    continuation holding the inputs as they were and the output at `out1_2 x0 x1`; the table memrefs are not touched. -/
theorem sound_kernel1 (c : Dev nD) (E : Set ℕ) (i : grid1.Coords)
    (arg1 : Memref sig .tc .smem S40000 .i32) (harg1 : arg1.IsWhole) (arg2 : Memref sig .tc .smem S40000 .i32) (harg2 : arg2.IsWhole)
    (arg3 : Memref sig .tc .vmem S1x1x128 .f32) (harg3 : arg3.IsWhole) (arg4 : Memref sig .tc .vmem S1x1x128 .f32) (harg4 : arg4.IsWhole)
    (arg5 : Memref sig .tc .vmem S1x1x128 .f32) (harg5 : arg5.IsWhole)
    (x0 x1 : Vec F S1x1x128 .f32) (K : PUnit → sProp 𝕄) :
    iprop(owns (c : Thread nD τ) arg3 fullShare x0 ∗ owns (c : Thread nD τ) arg4 fullShare x1 ∗ (∃ d, owns (c : Thread nD τ) arg5 fullShare d)
        ∗ (iprop(owns (c : Thread nD τ) arg3 fullShare x0 ∗ owns (c : Thread nD τ) arg4 fullShare x1
            ∗ owns (c : Thread nD τ) arg5 fullShare (out1_2 x0 x1)) -∗ K ⟨⟩))
      ⊢ wp frame (wpE (defs₀ (F := F)) Variants.none c none) E (cc1__gather_kernel i arg1 harg1 arg2 harg2 arg3 harg3 arg4 harg4 arg5 harg5) K := by
  simp only [cc1__gather_kernel_eq_skeleton]; unfold cc1__gather_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover1_2 _)

/-! ## The pipeline's proof data -/

/-- The proof data of this pipeline on core `c`: the arrays as the region finds them; after the body at point `t` each
    gathered input's buffer at its block and the output's at `out1_2` of the two; the invariant: the scoped rest, the
    generator register, and the two index tables held whole and untouched; nothing owed; full shares. -/
def dat1 (c : Dev nD) : Dat τ (Elt F) Unit ℕ (UR sig nD τ) ℕ (cfg1 a) c where
  A w := V c (Pipeline.arrRef spec1 w)
  after w t := match w with
    | ⟨0, _⟩ => iblk1 V a c 0 t
    | ⟨1, _⟩ => iblk1 V a c 1 t
    | ⟨2, _⟩ => out1_2 (iblk1 V a c 0 t) (iblk1 V a c 1 t)
  Φ _ := iprop(Pipeline.ΦA spec1 c ∗ Pipeline.prefHeld (Ix := Unit) (Name := ℕ) (U := UR sig nD τ) (Lvl := ℕ) pre1 c (fun _ => fullShare) a.1)
  q _ := fullShare
  owed _ := 0

theorem A_eq1 (c : Dev nD) (w : Fin (cfg1 a).W) : (dat1 V a c).A w = V c (Pipeline.arrRef spec1 w) := by
  dsimp only [dat1]

theorem after1_0 (c : Dev nD) (t : Fin (cfg1 a).N) : (dat1 V a c).after 0 t = iblk1 V a c 0 t := by dsimp only [dat1]; try rfl
theorem after1_1 (c : Dev nD) (t : Fin (cfg1 a).N) : (dat1 V a c).after 1 t = iblk1 V a c 1 t := by dsimp only [dat1]; try rfl
theorem after1_2 (c : Dev nD) (t : Fin (cfg1 a).N) : (dat1 V a c).after 2 t = out1_2 (iblk1 V a c 0 t) (iblk1 V a c 1 t) := by dsimp only [dat1]; try rfl

theorem before1_0 (c : Dev nD) (t : Fin (cfg1 a).N) (d) : (dat1 V a c).before 0 t d = iblk1 V a c 0 t :=
  before1_0_of V a (dat1 V a c) (A_eq1 V a c 0) (after1_0 V a c) t d
theorem before1_1 (c : Dev nD) (t : Fin (cfg1 a).N) (d) : (dat1 V a c).before 1 t d = iblk1 V a c 1 t :=
  before1_1_of V a (dat1 V a c) (A_eq1 V a c 1) (after1_1 V a c) t d

/-! ## The body obligation, at a generic point -/

def bodyPre1 (c : Dev nD) (t : Fin (cfg1 a).N) : sProp 𝕄 :=
  iprop((dat1 V a c).Φ t.castSucc ∗ (dat1 V a c).owesAt () t.castSucc
    ∗ (∃ d, owns (c : Thread nD τ) (ms1_0 a t) fullShare ((dat1 V a c).before 0 t d))
    ∗ (∃ d, owns (c : Thread nD τ) (ms1_1 a t) fullShare ((dat1 V a c).before 1 t d))
    ∗ (∃ d, owns (c : Thread nD τ) (ms1_2 a t) fullShare ((dat1 V a c).before 2 t d)))

def bodyPost1 (c : Dev nD) (t : Fin (cfg1 a).N) : sProp 𝕄 :=
  iprop((dat1 V a c).Φ t.succ ∗ (dat1 V a c).owesAt () t.succ
    ∗ owns (c : Thread nD τ) (ms1_0 a t) fullShare ((dat1 V a c).after 0 t)
    ∗ owns (c : Thread nD τ) (ms1_1 a t) fullShare ((dat1 V a c).after 1 t)
    ∗ owns (c : Thread nD τ) (ms1_2 a t) fullShare ((dat1 V a c).after 2 t))

/-- The body at any point: the inputs' memrefs hold their blocks, so the run applies; the invariant and the core's
    dues pass through unread. -/
theorem sound_body1 (c : Dev nD) (t : Fin (cfg1 a).N) :
    bodyPre1 V a c t ⊢ wp frame (wpE (defs₀ (F := F)) Variants.none c none) Set.univ (bodyAt1 a t) (fun _ => bodyPost1 V a c t) := by
  unfold bodyPre1 bodyPost1 bodyAt1
  simp only [before1_0, before1_1]
  rw [show (dat1 V a c).Φ t.succ = (dat1 V a c).Φ t.castSucc from rfl,
    show (dat1 V a c).owesAt () t.succ = (dat1 V a c).owesAt () t.castSucc from rfl,
    after1_0, after1_1, after1_2]
  iintro ⟨HΦ, Ho, ⟨%d0, H0⟩, ⟨%d1, H1⟩, ⟨%d2, H2⟩⟩
  iapply (sound_kernel1 c Set.univ _ _ _ _ _ _ _ _ _ _ _ (iblk1 V a c 0 t) (iblk1 V a c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation1 (c : Dev nD) : BodyObligation (dat1 (F := F) V a c) (defs₀ (F := F)) Variants.none () Set.univ := fun t => by
  rw [bigSep_W1, bigSep_W1]
  exact sound_body1 V a c t

end Region

end Cert.Kernel.Hand

end
-- ==== Proof.K.Range.lean ====
/-
  The domain the two programs are compared on: every endpoint word (both index arrays, every edge) is a node id,
  that is, below the node count 50000 as an unsigned word.
-/
import proofs.«413139_j22651657519351_3_alg».proof.Proof.Gen.Kernel.Launch
import proofs.«413139_j22651657519351_3_alg».proof.Proof.Gen.Kernel.Skeleton
import proofs.«413139_j22651657519351_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- Every word of the two endpoint arrays in the launch memory is below 50000. -/
def InRange (m : (ℓ : Loc nD τ sig) → Buf (Elt F) ℓ) : Prop :=
  ∀ c : Dev nD,
    (∀ j : S800000.Idx, ((m ((c : Thread nD τ).loc main_arg1) j : Elt F .i32) : BitVec 32).toNat < 50000)
    ∧ (∀ j : S800000.Idx, ((m ((c : Thread nD τ).loc main_arg2) j : Elt F .i32) : BitVec 32).toNat < 50000)

end Cert.Kernel.Hand

end
-- ==== Proof.K.Tables1.lean ====
/-
  Edge chunk 1's index tables. The host slices 40000 consecutive words, from word 0 on, out of each endpoint
  array (src, then dst) into scalar memory; the chunk's pipeline reads word t of each as the block row of its two
  gathered windows at grid point t. When every endpoint word is a node id (below 50000) each such row lies inside
  the 50000-row arrays: the tables' contents are admissible for the pipeline.
-/
import proofs.«413139_j22651657519351_3_alg».proof.Proof.Gen.Kernel.Launch
import proofs.«413139_j22651657519351_3_alg».proof.Proof.Gen.Kernel.Skeleton
import proofs.«413139_j22651657519351_3_alg».proof.Proof.Gen.Kernel.Points
import proofs.«413139_j22651657519351_3_alg».proof.Proof.K.Range
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Tables

variable (m : (ℓ : Loc nD τ sig) → Buf (Elt F) ℓ)

/-- The two tables' contents, read off the launch memory: the endpoint arrays' words 0 … 0 + 39999. -/
def tbl1 : pre1.Contents (Elt F) := fun k => match k with
  | ⟨0, _⟩ => (extractStridedSlice S40000 ![0] (m (((0 : Dev nD) : Thread nD τ).loc main_arg1)) slices_S800000_S40000_0 : (⟨S40000, .i32⟩ : BufTy).Contents (Elt F))
  | ⟨1, _⟩ => (extractStridedSlice S40000 ![0] (m (((0 : Dev nD) : Thread nD τ).loc main_arg2)) slices_S800000_S40000_0 : (⟨S40000, .i32⟩ : BufTy).Contents (Elt F))

/-- Tables whose every word is below the node count put every gathered block inside its array: row word + 1 ≤ 50000,
    the two unit axes and the 128 lanes exactly filled; float32 words transfer whole. -/
theorem ok1_of (pf : pre1.Contents (Elt F)) (h0 : ∀ j, ((pf 0 j : Elt F .i32) : BitVec 32).toNat < 50000)
    (h1 : ∀ j, ((pf 1 j : Elt F .i32) : BitVec 32).toNat < 50000) : ok1 pf := by
  refine ⟨fun i => ⟨fun a => ?_, Or.inl rfl⟩, fun i => ⟨fun a => ?_, Or.inl rfl⟩⟩
  · match a with
    | ⟨0, _⟩ =>
      show (BitVec.toNat (pf 0 _) + 1) * 1 ≤ 50000
      exact (Nat.mul_one _).le.trans (Nat.succ_le_of_lt (h0 _))
    | ⟨1, _⟩ => show (BitVec.toNat (0#32) + 1) * 1 ≤ 1; decide
    | ⟨2, _⟩ => show (BitVec.toNat (0#32) + 1) * 128 ≤ 128; decide
  · match a with
    | ⟨0, _⟩ =>
      show (BitVec.toNat (pf 1 _) + 1) * 1 ≤ 50000
      exact (Nat.mul_one _).le.trans (Nat.succ_le_of_lt (h1 _))
    | ⟨1, _⟩ => show (BitVec.toNat (0#32) + 1) * 1 ≤ 1; decide
    | ⟨2, _⟩ => show (BitVec.toNat (0#32) + 1) * 128 ≤ 128; decide

/-- The chunk's tables as admissible contents, when the endpoint words are node ids. -/
def a1 (hR : InRange m) : (pcfg1 (F := F)).Adm :=
  ⟨tbl1 m, ok1_of (tbl1 m) (fun j => (hR 0).1 _) (fun j => (hR 0).2 _)⟩

theorem a1_val (hR : InRange m) : (a1 m hR).1 = tbl1 m := rfl

end Tables

end Cert.Kernel.Hand

end
-- ==== Proof.K.Region2.lean ====
/-
  Edge chunk 2's gather kernel (twenty chunks of 40000 edges): at grid point t the pipeline fetches row src[t] of the
  re-laid projection hs2 and row dst[t] of hd2 (two blocks of 128 lanes, chosen by the prefetched index tables),
  the body stores (row + row) · c into the output block, which is written back as row t of the chunk's output.
  Here: what each window's staging buffer holds before and after the body at every point, for any contents V of the
  buffers at the region's entry and any admissible contents `a` of the two index tables, and the body's run.
  The tables ride through the region untouched: the body never reads them.
-/
import proofs.«413139_j22651657519351_3_alg».proof.Proof.Gen.Kernel.Launch
import proofs.«413139_j22651657519351_3_alg».proof.Proof.Gen.Kernel.Skeleton
import proofs.«413139_j22651657519351_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region

variable (V : (c : Dev nD) → (b : Ref sig .tc) → Buf (Elt F) ((c : Thread nD τ).loc b))
variable (a : (pcfg2 (F := F)).Adm)

/-! ## The body as the pipeline calls it at a point -/

/-- Each window's current staging memref at point `t`, and its wholeness. -/
abbrev ms2_0 (t : Fin (cfg2 a).N) : Memref sig .tc .vmem S1x1x128 .f32 := spec2_0.stage ((cfg2 a).slots t 0)
abbrev hs2_0 (t : Fin (cfg2 a).N) : (ms2_0 a t).IsWhole := hstage2_0 (((cfg2 a).slots t 0).cast nbuf2_0)
abbrev ms2_1 (t : Fin (cfg2 a).N) : Memref sig .tc .vmem S1x1x128 .f32 := spec2_1.stage ((cfg2 a).slots t 1)
abbrev hs2_1 (t : Fin (cfg2 a).N) : (ms2_1 a t).IsWhole := hstage2_1 (((cfg2 a).slots t 1).cast nbuf2_1)
abbrev ms2_2 (t : Fin (cfg2 a).N) : Memref sig .tc .vmem S1x1x128 .f32 := spec2_2.stage ((cfg2 a).slots t 2)
abbrev hs2_2 (t : Fin (cfg2 a).N) : (ms2_2 a t).IsWhole := hstage2_2 (((cfg2 a).slots t 2).cast nbuf2_2)

/-- The kernel body at point `t`, on what the pipeline calls it with. -/
abbrev bodyAt2 (t : Fin (cfg2 a).N) : Prog (TpuEff nD τ sig (Elt F) Λ₀ .tc) PUnit :=
  cc2__gather_kernel (grid2.coords t) (Memref.whole main_v9) (Memref.isWhole_whole _) (Memref.whole main_v10) (Memref.isWhole_whole _)
    (ms2_0 a t) (hs2_0 a t) (ms2_1 a t) (hs2_1 a t) (ms2_2 a t) (hs2_2 a t)

/-! ## The windows' blocks -/

/-- Window `w`'s block at point `t`, read off its array as the region finds it: for the two gathered windows the
    row the tables' word at `t` names. -/
def iblk2 (c : Dev nD) (w : Fin (cfg2 a).W) (t : Fin (cfg2 a).N) :
    (((cfg2 a).win w).xblock ((cfg2 a).grid.coords t)).Idx → Elt F ((cfg2 a).win w).elt :=
  (((cfg2 a).win w).blk t).view.read (Elt F) (V c (Pipeline.arrRef spec2 w))

/-- An input window's current staging buffer holds its block at every point, fetched there or not. -/
theorem before2_0_of {c : Dev nD} (dat : Dat τ (Elt F) Unit ℕ (UR sig nD τ) ℕ (cfg2 a) c) (hA : dat.A 0 = V c (Pipeline.arrRef spec2 0))
    (hafter : ∀ t, dat.after 0 t = iblk2 V a c 0 t) (t : Fin (cfg2 a).N) (d) : dat.before 0 t d = iblk2 V a c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

theorem before2_1_of {c : Dev nD} (dat : Dat τ (Elt F) Unit ℕ (UR sig nD τ) ℕ (cfg2 a) c) (hA : dat.A 1 = V c (Pipeline.arrRef spec2 1))
    (hafter : ∀ t, dat.after 1 t = iblk2 V a c 1 t) (t : Fin (cfg2 a).N) (d) : dat.before 1 t d = iblk2 V a c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-! ## What the body leaves in the output window's buffer -/

/-- The one rectangle the body loads and stores through: the whole 1×1×128 block. -/
abbrev r2 : Rect S1x1x128 := Rect.unit (s := S1x1x128) ![0, 0, 0] S1x1x128.size inb_S1x1x128_S1x1x128_0_0_0

/-- The output block after the body, from the two gathered rows: its one store. -/
def out2_2 (x0 x1 : Vec F S1x1x128 .f32) : Vec F S1x1x128 .f32 :=
  View.canon [⟨r2, k2_pay1 (View.ld x0 r2) (View.ld x1 r2)⟩]

/-- The store covers the block. -/
theorem cover2_2 (p0 : Vec F S1x1x128 .f32) (y : S1x1x128.Idx) :
    ∃ pc ∈ ([⟨r2, p0⟩] : List (View.Piece (Elt F) S1x1x128 .f32)), y ∈ pc.1.set :=
  View.cover_of_tiled [⟨r2, p0⟩] S1x1x128.size (by rfl) y

/-! ## The body's run -/

set_option maxHeartbeats 1000000 in
/-- The body on whole staging memrefs, the two inputs' at contents `x0`, `x1` and the output's at anything, runs to the
    continuation holding the inputs as they were and the output at `out2_2 x0 x1`; the table memrefs are not touched. -/
theorem sound_kernel2 (c : Dev nD) (E : Set ℕ) (i : grid2.Coords)
    (arg1 : Memref sig .tc .smem S40000 .i32) (harg1 : arg1.IsWhole) (arg2 : Memref sig .tc .smem S40000 .i32) (harg2 : arg2.IsWhole)
    (arg3 : Memref sig .tc .vmem S1x1x128 .f32) (harg3 : arg3.IsWhole) (arg4 : Memref sig .tc .vmem S1x1x128 .f32) (harg4 : arg4.IsWhole)
    (arg5 : Memref sig .tc .vmem S1x1x128 .f32) (harg5 : arg5.IsWhole)
    (x0 x1 : Vec F S1x1x128 .f32) (K : PUnit → sProp 𝕄) :
    iprop(owns (c : Thread nD τ) arg3 fullShare x0 ∗ owns (c : Thread nD τ) arg4 fullShare x1 ∗ (∃ d, owns (c : Thread nD τ) arg5 fullShare d)
        ∗ (iprop(owns (c : Thread nD τ) arg3 fullShare x0 ∗ owns (c : Thread nD τ) arg4 fullShare x1
            ∗ owns (c : Thread nD τ) arg5 fullShare (out2_2 x0 x1)) -∗ K ⟨⟩))
      ⊢ wp frame (wpE (defs₀ (F := F)) Variants.none c none) E (cc2__gather_kernel i arg1 harg1 arg2 harg2 arg3 harg3 arg4 harg4 arg5 harg5) K := by
  simp only [cc2__gather_kernel_eq_skeleton]; unfold cc2__gather_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover2_2 _)

/-! ## The pipeline's proof data -/

/-- The proof data of this pipeline on core `c`: the arrays as the region finds them; after the body at point `t` each
    gathered input's buffer at its block and the output's at `out2_2` of the two; the invariant: the scoped rest, the
    generator register, and the two index tables held whole and untouched; nothing owed; full shares. -/
def dat2 (c : Dev nD) : Dat τ (Elt F) Unit ℕ (UR sig nD τ) ℕ (cfg2 a) c where
  A w := V c (Pipeline.arrRef spec2 w)
  after w t := match w with
    | ⟨0, _⟩ => iblk2 V a c 0 t
    | ⟨1, _⟩ => iblk2 V a c 1 t
    | ⟨2, _⟩ => out2_2 (iblk2 V a c 0 t) (iblk2 V a c 1 t)
  Φ _ := iprop(Pipeline.ΦA spec2 c ∗ Pipeline.prefHeld (Ix := Unit) (Name := ℕ) (U := UR sig nD τ) (Lvl := ℕ) pre2 c (fun _ => fullShare) a.1)
  q _ := fullShare
  owed _ := 0

theorem A_eq2 (c : Dev nD) (w : Fin (cfg2 a).W) : (dat2 V a c).A w = V c (Pipeline.arrRef spec2 w) := by
  dsimp only [dat2]

theorem after2_0 (c : Dev nD) (t : Fin (cfg2 a).N) : (dat2 V a c).after 0 t = iblk2 V a c 0 t := by dsimp only [dat2]; try rfl
theorem after2_1 (c : Dev nD) (t : Fin (cfg2 a).N) : (dat2 V a c).after 1 t = iblk2 V a c 1 t := by dsimp only [dat2]; try rfl
theorem after2_2 (c : Dev nD) (t : Fin (cfg2 a).N) : (dat2 V a c).after 2 t = out2_2 (iblk2 V a c 0 t) (iblk2 V a c 1 t) := by dsimp only [dat2]; try rfl

theorem before2_0 (c : Dev nD) (t : Fin (cfg2 a).N) (d) : (dat2 V a c).before 0 t d = iblk2 V a c 0 t :=
  before2_0_of V a (dat2 V a c) (A_eq2 V a c 0) (after2_0 V a c) t d
theorem before2_1 (c : Dev nD) (t : Fin (cfg2 a).N) (d) : (dat2 V a c).before 1 t d = iblk2 V a c 1 t :=
  before2_1_of V a (dat2 V a c) (A_eq2 V a c 1) (after2_1 V a c) t d

/-! ## The body obligation, at a generic point -/

def bodyPre2 (c : Dev nD) (t : Fin (cfg2 a).N) : sProp 𝕄 :=
  iprop((dat2 V a c).Φ t.castSucc ∗ (dat2 V a c).owesAt () t.castSucc
    ∗ (∃ d, owns (c : Thread nD τ) (ms2_0 a t) fullShare ((dat2 V a c).before 0 t d))
    ∗ (∃ d, owns (c : Thread nD τ) (ms2_1 a t) fullShare ((dat2 V a c).before 1 t d))
    ∗ (∃ d, owns (c : Thread nD τ) (ms2_2 a t) fullShare ((dat2 V a c).before 2 t d)))

def bodyPost2 (c : Dev nD) (t : Fin (cfg2 a).N) : sProp 𝕄 :=
  iprop((dat2 V a c).Φ t.succ ∗ (dat2 V a c).owesAt () t.succ
    ∗ owns (c : Thread nD τ) (ms2_0 a t) fullShare ((dat2 V a c).after 0 t)
    ∗ owns (c : Thread nD τ) (ms2_1 a t) fullShare ((dat2 V a c).after 1 t)
    ∗ owns (c : Thread nD τ) (ms2_2 a t) fullShare ((dat2 V a c).after 2 t))

/-- The body at any point: the inputs' memrefs hold their blocks, so the run applies; the invariant and the core's
    dues pass through unread. -/
theorem sound_body2 (c : Dev nD) (t : Fin (cfg2 a).N) :
    bodyPre2 V a c t ⊢ wp frame (wpE (defs₀ (F := F)) Variants.none c none) Set.univ (bodyAt2 a t) (fun _ => bodyPost2 V a c t) := by
  unfold bodyPre2 bodyPost2 bodyAt2
  simp only [before2_0, before2_1]
  rw [show (dat2 V a c).Φ t.succ = (dat2 V a c).Φ t.castSucc from rfl,
    show (dat2 V a c).owesAt () t.succ = (dat2 V a c).owesAt () t.castSucc from rfl,
    after2_0, after2_1, after2_2]
  iintro ⟨HΦ, Ho, ⟨%d0, H0⟩, ⟨%d1, H1⟩, ⟨%d2, H2⟩⟩
  iapply (sound_kernel2 c Set.univ _ _ _ _ _ _ _ _ _ _ _ (iblk2 V a c 0 t) (iblk2 V a c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation2 (c : Dev nD) : BodyObligation (dat2 (F := F) V a c) (defs₀ (F := F)) Variants.none () Set.univ := fun t => by
  rw [bigSep_W2, bigSep_W2]
  exact sound_body2 V a c t

end Region

end Cert.Kernel.Hand

end
-- ==== Proof.K.Tables2.lean ====
/-
  Edge chunk 2's index tables. The host slices 40000 consecutive words, from word 40000 on, out of each endpoint
  array (src, then dst) into scalar memory; the chunk's pipeline reads word t of each as the block row of its two
  gathered windows at grid point t. When every endpoint word is a node id (below 50000) each such row lies inside
  the 50000-row arrays: the tables' contents are admissible for the pipeline.
-/
import proofs.«413139_j22651657519351_3_alg».proof.Proof.Gen.Kernel.Launch
import proofs.«413139_j22651657519351_3_alg».proof.Proof.Gen.Kernel.Skeleton
import proofs.«413139_j22651657519351_3_alg».proof.Proof.Gen.Kernel.Points
import proofs.«413139_j22651657519351_3_alg».proof.Proof.K.Range
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Tables

variable (m : (ℓ : Loc nD τ sig) → Buf (Elt F) ℓ)

/-- The two tables' contents, read off the launch memory: the endpoint arrays' words 40000 … 40000 + 39999. -/
def tbl2 : pre2.Contents (Elt F) := fun k => match k with
  | ⟨0, _⟩ => (extractStridedSlice S40000 ![40000] (m (((0 : Dev nD) : Thread nD τ).loc main_arg1)) slices_S800000_S40000_40000 : (⟨S40000, .i32⟩ : BufTy).Contents (Elt F))
  | ⟨1, _⟩ => (extractStridedSlice S40000 ![40000] (m (((0 : Dev nD) : Thread nD τ).loc main_arg2)) slices_S800000_S40000_40000 : (⟨S40000, .i32⟩ : BufTy).Contents (Elt F))

/-- Tables whose every word is below the node count put every gathered block inside its array: row word + 1 ≤ 50000,
    the two unit axes and the 128 lanes exactly filled; float32 words transfer whole. -/
theorem ok2_of (pf : pre2.Contents (Elt F)) (h0 : ∀ j, ((pf 0 j : Elt F .i32) : BitVec 32).toNat < 50000)
    (h1 : ∀ j, ((pf 1 j : Elt F .i32) : BitVec 32).toNat < 50000) : ok2 pf := by
  refine ⟨fun i => ⟨fun a => ?_, Or.inl rfl⟩, fun i => ⟨fun a => ?_, Or.inl rfl⟩⟩
  · match a with
    | ⟨0, _⟩ =>
      show (BitVec.toNat (pf 0 _) + 1) * 1 ≤ 50000
      exact (Nat.mul_one _).le.trans (Nat.succ_le_of_lt (h0 _))
    | ⟨1, _⟩ => show (BitVec.toNat (0#32) + 1) * 1 ≤ 1; decide
    | ⟨2, _⟩ => show (BitVec.toNat (0#32) + 1) * 128 ≤ 128; decide
  · match a with
    | ⟨0, _⟩ =>
      show (BitVec.toNat (pf 1 _) + 1) * 1 ≤ 50000
      exact (Nat.mul_one _).le.trans (Nat.succ_le_of_lt (h1 _))
    | ⟨1, _⟩ => show (BitVec.toNat (0#32) + 1) * 1 ≤ 1; decide
    | ⟨2, _⟩ => show (BitVec.toNat (0#32) + 1) * 128 ≤ 128; decide

/-- The chunk's tables as admissible contents, when the endpoint words are node ids. -/
def a2 (hR : InRange m) : (pcfg2 (F := F)).Adm :=
  ⟨tbl2 m, ok2_of (tbl2 m) (fun j => (hR 0).1 _) (fun j => (hR 0).2 _)⟩

theorem a2_val (hR : InRange m) : (a2 m hR).1 = tbl2 m := rfl

end Tables

end Cert.Kernel.Hand

end
-- ==== Proof.K.Region3.lean ====
/-
  Edge chunk 3's gather kernel (twenty chunks of 40000 edges): at grid point t the pipeline fetches row src[t] of the
  re-laid projection hs2 and row dst[t] of hd2 (two blocks of 128 lanes, chosen by the prefetched index tables),
  the body stores (row + row) · c into the output block, which is written back as row t of the chunk's output.
  Here: what each window's staging buffer holds before and after the body at every point, for any contents V of the
  buffers at the region's entry and any admissible contents `a` of the two index tables, and the body's run.
  The tables ride through the region untouched: the body never reads them.
-/
import proofs.«413139_j22651657519351_3_alg».proof.Proof.Gen.Kernel.Launch
import proofs.«413139_j22651657519351_3_alg».proof.Proof.Gen.Kernel.Skeleton
import proofs.«413139_j22651657519351_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region

variable (V : (c : Dev nD) → (b : Ref sig .tc) → Buf (Elt F) ((c : Thread nD τ).loc b))
variable (a : (pcfg3 (F := F)).Adm)

/-! ## The body as the pipeline calls it at a point -/

/-- Each window's current staging memref at point `t`, and its wholeness. -/
abbrev ms3_0 (t : Fin (cfg3 a).N) : Memref sig .tc .vmem S1x1x128 .f32 := spec3_0.stage ((cfg3 a).slots t 0)
abbrev hs3_0 (t : Fin (cfg3 a).N) : (ms3_0 a t).IsWhole := hstage3_0 (((cfg3 a).slots t 0).cast nbuf3_0)
abbrev ms3_1 (t : Fin (cfg3 a).N) : Memref sig .tc .vmem S1x1x128 .f32 := spec3_1.stage ((cfg3 a).slots t 1)
abbrev hs3_1 (t : Fin (cfg3 a).N) : (ms3_1 a t).IsWhole := hstage3_1 (((cfg3 a).slots t 1).cast nbuf3_1)
abbrev ms3_2 (t : Fin (cfg3 a).N) : Memref sig .tc .vmem S1x1x128 .f32 := spec3_2.stage ((cfg3 a).slots t 2)
abbrev hs3_2 (t : Fin (cfg3 a).N) : (ms3_2 a t).IsWhole := hstage3_2 (((cfg3 a).slots t 2).cast nbuf3_2)

/-- The kernel body at point `t`, on what the pipeline calls it with. -/
abbrev bodyAt3 (t : Fin (cfg3 a).N) : Prog (TpuEff nD τ sig (Elt F) Λ₀ .tc) PUnit :=
  cc3__gather_kernel (grid3.coords t) (Memref.whole main_v13) (Memref.isWhole_whole _) (Memref.whole main_v14) (Memref.isWhole_whole _)
    (ms3_0 a t) (hs3_0 a t) (ms3_1 a t) (hs3_1 a t) (ms3_2 a t) (hs3_2 a t)

/-! ## The windows' blocks -/

/-- Window `w`'s block at point `t`, read off its array as the region finds it: for the two gathered windows the
    row the tables' word at `t` names. -/
def iblk3 (c : Dev nD) (w : Fin (cfg3 a).W) (t : Fin (cfg3 a).N) :
    (((cfg3 a).win w).xblock ((cfg3 a).grid.coords t)).Idx → Elt F ((cfg3 a).win w).elt :=
  (((cfg3 a).win w).blk t).view.read (Elt F) (V c (Pipeline.arrRef spec3 w))

/-- An input window's current staging buffer holds its block at every point, fetched there or not. -/
theorem before3_0_of {c : Dev nD} (dat : Dat τ (Elt F) Unit ℕ (UR sig nD τ) ℕ (cfg3 a) c) (hA : dat.A 0 = V c (Pipeline.arrRef spec3 0))
    (hafter : ∀ t, dat.after 0 t = iblk3 V a c 0 t) (t : Fin (cfg3 a).N) (d) : dat.before 0 t d = iblk3 V a c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

theorem before3_1_of {c : Dev nD} (dat : Dat τ (Elt F) Unit ℕ (UR sig nD τ) ℕ (cfg3 a) c) (hA : dat.A 1 = V c (Pipeline.arrRef spec3 1))
    (hafter : ∀ t, dat.after 1 t = iblk3 V a c 1 t) (t : Fin (cfg3 a).N) (d) : dat.before 1 t d = iblk3 V a c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-! ## What the body leaves in the output window's buffer -/

/-- The one rectangle the body loads and stores through: the whole 1×1×128 block. -/
abbrev r3 : Rect S1x1x128 := Rect.unit (s := S1x1x128) ![0, 0, 0] S1x1x128.size inb_S1x1x128_S1x1x128_0_0_0

/-- The output block after the body, from the two gathered rows: its one store. -/
def out3_2 (x0 x1 : Vec F S1x1x128 .f32) : Vec F S1x1x128 .f32 :=
  View.canon [⟨r3, k3_pay1 (View.ld x0 r3) (View.ld x1 r3)⟩]

/-- The store covers the block. -/
theorem cover3_2 (p0 : Vec F S1x1x128 .f32) (y : S1x1x128.Idx) :
    ∃ pc ∈ ([⟨r3, p0⟩] : List (View.Piece (Elt F) S1x1x128 .f32)), y ∈ pc.1.set :=
  View.cover_of_tiled [⟨r3, p0⟩] S1x1x128.size (by rfl) y

/-! ## The body's run -/

set_option maxHeartbeats 1000000 in
/-- The body on whole staging memrefs, the two inputs' at contents `x0`, `x1` and the output's at anything, runs to the
    continuation holding the inputs as they were and the output at `out3_2 x0 x1`; the table memrefs are not touched. -/
theorem sound_kernel3 (c : Dev nD) (E : Set ℕ) (i : grid3.Coords)
    (arg1 : Memref sig .tc .smem S40000 .i32) (harg1 : arg1.IsWhole) (arg2 : Memref sig .tc .smem S40000 .i32) (harg2 : arg2.IsWhole)
    (arg3 : Memref sig .tc .vmem S1x1x128 .f32) (harg3 : arg3.IsWhole) (arg4 : Memref sig .tc .vmem S1x1x128 .f32) (harg4 : arg4.IsWhole)
    (arg5 : Memref sig .tc .vmem S1x1x128 .f32) (harg5 : arg5.IsWhole)
    (x0 x1 : Vec F S1x1x128 .f32) (K : PUnit → sProp 𝕄) :
    iprop(owns (c : Thread nD τ) arg3 fullShare x0 ∗ owns (c : Thread nD τ) arg4 fullShare x1 ∗ (∃ d, owns (c : Thread nD τ) arg5 fullShare d)
        ∗ (iprop(owns (c : Thread nD τ) arg3 fullShare x0 ∗ owns (c : Thread nD τ) arg4 fullShare x1
            ∗ owns (c : Thread nD τ) arg5 fullShare (out3_2 x0 x1)) -∗ K ⟨⟩))
      ⊢ wp frame (wpE (defs₀ (F := F)) Variants.none c none) E (cc3__gather_kernel i arg1 harg1 arg2 harg2 arg3 harg3 arg4 harg4 arg5 harg5) K := by
  simp only [cc3__gather_kernel_eq_skeleton]; unfold cc3__gather_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover3_2 _)

/-! ## The pipeline's proof data -/

/-- The proof data of this pipeline on core `c`: the arrays as the region finds them; after the body at point `t` each
    gathered input's buffer at its block and the output's at `out3_2` of the two; the invariant: the scoped rest, the
    generator register, and the two index tables held whole and untouched; nothing owed; full shares. -/
def dat3 (c : Dev nD) : Dat τ (Elt F) Unit ℕ (UR sig nD τ) ℕ (cfg3 a) c where
  A w := V c (Pipeline.arrRef spec3 w)
  after w t := match w with
    | ⟨0, _⟩ => iblk3 V a c 0 t
    | ⟨1, _⟩ => iblk3 V a c 1 t
    | ⟨2, _⟩ => out3_2 (iblk3 V a c 0 t) (iblk3 V a c 1 t)
  Φ _ := iprop(Pipeline.ΦA spec3 c ∗ Pipeline.prefHeld (Ix := Unit) (Name := ℕ) (U := UR sig nD τ) (Lvl := ℕ) pre3 c (fun _ => fullShare) a.1)
  q _ := fullShare
  owed _ := 0

theorem A_eq3 (c : Dev nD) (w : Fin (cfg3 a).W) : (dat3 V a c).A w = V c (Pipeline.arrRef spec3 w) := by
  dsimp only [dat3]

theorem after3_0 (c : Dev nD) (t : Fin (cfg3 a).N) : (dat3 V a c).after 0 t = iblk3 V a c 0 t := by dsimp only [dat3]; try rfl
theorem after3_1 (c : Dev nD) (t : Fin (cfg3 a).N) : (dat3 V a c).after 1 t = iblk3 V a c 1 t := by dsimp only [dat3]; try rfl
theorem after3_2 (c : Dev nD) (t : Fin (cfg3 a).N) : (dat3 V a c).after 2 t = out3_2 (iblk3 V a c 0 t) (iblk3 V a c 1 t) := by dsimp only [dat3]; try rfl

theorem before3_0 (c : Dev nD) (t : Fin (cfg3 a).N) (d) : (dat3 V a c).before 0 t d = iblk3 V a c 0 t :=
  before3_0_of V a (dat3 V a c) (A_eq3 V a c 0) (after3_0 V a c) t d
theorem before3_1 (c : Dev nD) (t : Fin (cfg3 a).N) (d) : (dat3 V a c).before 1 t d = iblk3 V a c 1 t :=
  before3_1_of V a (dat3 V a c) (A_eq3 V a c 1) (after3_1 V a c) t d

/-! ## The body obligation, at a generic point -/

def bodyPre3 (c : Dev nD) (t : Fin (cfg3 a).N) : sProp 𝕄 :=
  iprop((dat3 V a c).Φ t.castSucc ∗ (dat3 V a c).owesAt () t.castSucc
    ∗ (∃ d, owns (c : Thread nD τ) (ms3_0 a t) fullShare ((dat3 V a c).before 0 t d))
    ∗ (∃ d, owns (c : Thread nD τ) (ms3_1 a t) fullShare ((dat3 V a c).before 1 t d))
    ∗ (∃ d, owns (c : Thread nD τ) (ms3_2 a t) fullShare ((dat3 V a c).before 2 t d)))

def bodyPost3 (c : Dev nD) (t : Fin (cfg3 a).N) : sProp 𝕄 :=
  iprop((dat3 V a c).Φ t.succ ∗ (dat3 V a c).owesAt () t.succ
    ∗ owns (c : Thread nD τ) (ms3_0 a t) fullShare ((dat3 V a c).after 0 t)
    ∗ owns (c : Thread nD τ) (ms3_1 a t) fullShare ((dat3 V a c).after 1 t)
    ∗ owns (c : Thread nD τ) (ms3_2 a t) fullShare ((dat3 V a c).after 2 t))

/-- The body at any point: the inputs' memrefs hold their blocks, so the run applies; the invariant and the core's
    dues pass through unread. -/
theorem sound_body3 (c : Dev nD) (t : Fin (cfg3 a).N) :
    bodyPre3 V a c t ⊢ wp frame (wpE (defs₀ (F := F)) Variants.none c none) Set.univ (bodyAt3 a t) (fun _ => bodyPost3 V a c t) := by
  unfold bodyPre3 bodyPost3 bodyAt3
  simp only [before3_0, before3_1]
  rw [show (dat3 V a c).Φ t.succ = (dat3 V a c).Φ t.castSucc from rfl,
    show (dat3 V a c).owesAt () t.succ = (dat3 V a c).owesAt () t.castSucc from rfl,
    after3_0, after3_1, after3_2]
  iintro ⟨HΦ, Ho, ⟨%d0, H0⟩, ⟨%d1, H1⟩, ⟨%d2, H2⟩⟩
  iapply (sound_kernel3 c Set.univ _ _ _ _ _ _ _ _ _ _ _ (iblk3 V a c 0 t) (iblk3 V a c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation3 (c : Dev nD) : BodyObligation (dat3 (F := F) V a c) (defs₀ (F := F)) Variants.none () Set.univ := fun t => by
  rw [bigSep_W3, bigSep_W3]
  exact sound_body3 V a c t

end Region

end Cert.Kernel.Hand

end
-- ==== Proof.K.Tables3.lean ====
/-
  Edge chunk 3's index tables. The host slices 40000 consecutive words, from word 80000 on, out of each endpoint
  array (src, then dst) into scalar memory; the chunk's pipeline reads word t of each as the block row of its two
  gathered windows at grid point t. When every endpoint word is a node id (below 50000) each such row lies inside
  the 50000-row arrays: the tables' contents are admissible for the pipeline.
-/
import proofs.«413139_j22651657519351_3_alg».proof.Proof.Gen.Kernel.Launch
import proofs.«413139_j22651657519351_3_alg».proof.Proof.Gen.Kernel.Skeleton
import proofs.«413139_j22651657519351_3_alg».proof.Proof.Gen.Kernel.Points
import proofs.«413139_j22651657519351_3_alg».proof.Proof.K.Range
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Tables

variable (m : (ℓ : Loc nD τ sig) → Buf (Elt F) ℓ)

/-- The two tables' contents, read off the launch memory: the endpoint arrays' words 80000 … 80000 + 39999. -/
def tbl3 : pre3.Contents (Elt F) := fun k => match k with
  | ⟨0, _⟩ => (extractStridedSlice S40000 ![80000] (m (((0 : Dev nD) : Thread nD τ).loc main_arg1)) slices_S800000_S40000_80000 : (⟨S40000, .i32⟩ : BufTy).Contents (Elt F))
  | ⟨1, _⟩ => (extractStridedSlice S40000 ![80000] (m (((0 : Dev nD) : Thread nD τ).loc main_arg2)) slices_S800000_S40000_80000 : (⟨S40000, .i32⟩ : BufTy).Contents (Elt F))

/-- Tables whose every word is below the node count put every gathered block inside its array: row word + 1 ≤ 50000,
    the two unit axes and the 128 lanes exactly filled; float32 words transfer whole. -/
theorem ok3_of (pf : pre3.Contents (Elt F)) (h0 : ∀ j, ((pf 0 j : Elt F .i32) : BitVec 32).toNat < 50000)
    (h1 : ∀ j, ((pf 1 j : Elt F .i32) : BitVec 32).toNat < 50000) : ok3 pf := by
  refine ⟨fun i => ⟨fun a => ?_, Or.inl rfl⟩, fun i => ⟨fun a => ?_, Or.inl rfl⟩⟩
  · match a with
    | ⟨0, _⟩ =>
      show (BitVec.toNat (pf 0 _) + 1) * 1 ≤ 50000
      exact (Nat.mul_one _).le.trans (Nat.succ_le_of_lt (h0 _))
    | ⟨1, _⟩ => show (BitVec.toNat (0#32) + 1) * 1 ≤ 1; decide
    | ⟨2, _⟩ => show (BitVec.toNat (0#32) + 1) * 128 ≤ 128; decide
  · match a with
    | ⟨0, _⟩ =>
      show (BitVec.toNat (pf 1 _) + 1) * 1 ≤ 50000
      exact (Nat.mul_one _).le.trans (Nat.succ_le_of_lt (h1 _))
    | ⟨1, _⟩ => show (BitVec.toNat (0#32) + 1) * 1 ≤ 1; decide
    | ⟨2, _⟩ => show (BitVec.toNat (0#32) + 1) * 128 ≤ 128; decide

/-- The chunk's tables as admissible contents, when the endpoint words are node ids. -/
def a3 (hR : InRange m) : (pcfg3 (F := F)).Adm :=
  ⟨tbl3 m, ok3_of (tbl3 m) (fun j => (hR 0).1 _) (fun j => (hR 0).2 _)⟩

theorem a3_val (hR : InRange m) : (a3 m hR).1 = tbl3 m := rfl

end Tables

end Cert.Kernel.Hand

end
-- ==== Proof.K.Region4.lean ====
/-
  Edge chunk 4's gather kernel (twenty chunks of 40000 edges): at grid point t the pipeline fetches row src[t] of the
  re-laid projection hs2 and row dst[t] of hd2 (two blocks of 128 lanes, chosen by the prefetched index tables),
  the body stores (row + row) · c into the output block, which is written back as row t of the chunk's output.
  Here: what each window's staging buffer holds before and after the body at every point, for any contents V of the
  buffers at the region's entry and any admissible contents `a` of the two index tables, and the body's run.
  The tables ride through the region untouched: the body never reads them.
-/
import proofs.«413139_j22651657519351_3_alg».proof.Proof.Gen.Kernel.Launch
import proofs.«413139_j22651657519351_3_alg».proof.Proof.Gen.Kernel.Skeleton
import proofs.«413139_j22651657519351_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region

variable (V : (c : Dev nD) → (b : Ref sig .tc) → Buf (Elt F) ((c : Thread nD τ).loc b))
variable (a : (pcfg4 (F := F)).Adm)

/-! ## The body as the pipeline calls it at a point -/

/-- Each window's current staging memref at point `t`, and its wholeness. -/
abbrev ms4_0 (t : Fin (cfg4 a).N) : Memref sig .tc .vmem S1x1x128 .f32 := spec4_0.stage ((cfg4 a).slots t 0)
abbrev hs4_0 (t : Fin (cfg4 a).N) : (ms4_0 a t).IsWhole := hstage4_0 (((cfg4 a).slots t 0).cast nbuf4_0)
abbrev ms4_1 (t : Fin (cfg4 a).N) : Memref sig .tc .vmem S1x1x128 .f32 := spec4_1.stage ((cfg4 a).slots t 1)
abbrev hs4_1 (t : Fin (cfg4 a).N) : (ms4_1 a t).IsWhole := hstage4_1 (((cfg4 a).slots t 1).cast nbuf4_1)
abbrev ms4_2 (t : Fin (cfg4 a).N) : Memref sig .tc .vmem S1x1x128 .f32 := spec4_2.stage ((cfg4 a).slots t 2)
abbrev hs4_2 (t : Fin (cfg4 a).N) : (ms4_2 a t).IsWhole := hstage4_2 (((cfg4 a).slots t 2).cast nbuf4_2)

/-- The kernel body at point `t`, on what the pipeline calls it with. -/
abbrev bodyAt4 (t : Fin (cfg4 a).N) : Prog (TpuEff nD τ sig (Elt F) Λ₀ .tc) PUnit :=
  cc4__gather_kernel (grid4.coords t) (Memref.whole main_v17) (Memref.isWhole_whole _) (Memref.whole main_v18) (Memref.isWhole_whole _)
    (ms4_0 a t) (hs4_0 a t) (ms4_1 a t) (hs4_1 a t) (ms4_2 a t) (hs4_2 a t)

/-! ## The windows' blocks -/

/-- Window `w`'s block at point `t`, read off its array as the region finds it: for the two gathered windows the
    row the tables' word at `t` names. -/
def iblk4 (c : Dev nD) (w : Fin (cfg4 a).W) (t : Fin (cfg4 a).N) :
    (((cfg4 a).win w).xblock ((cfg4 a).grid.coords t)).Idx → Elt F ((cfg4 a).win w).elt :=
  (((cfg4 a).win w).blk t).view.read (Elt F) (V c (Pipeline.arrRef spec4 w))

/-- An input window's current staging buffer holds its block at every point, fetched there or not. -/
theorem before4_0_of {c : Dev nD} (dat : Dat τ (Elt F) Unit ℕ (UR sig nD τ) ℕ (cfg4 a) c) (hA : dat.A 0 = V c (Pipeline.arrRef spec4 0))
    (hafter : ∀ t, dat.after 0 t = iblk4 V a c 0 t) (t : Fin (cfg4 a).N) (d) : dat.before 0 t d = iblk4 V a c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)

theorem before4_1_of {c : Dev nD} (dat : Dat τ (Elt F) Unit ℕ (UR sig nD τ) ℕ (cfg4 a) c) (hA : dat.A 1 = V c (Pipeline.arrRef spec4 1))
    (hafter : ∀ t, dat.after 1 t = iblk4 V a c 1 t) (t : Fin (cfg4 a).N) (d) : dat.before 1 t d = iblk4 V a c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)

/-! ## What the body leaves in the output window's buffer -/

/-- The one rectangle the body loads and stores through: the whole 1×1×128 block. -/
abbrev r4 : Rect S1x1x128 := Rect.unit (s := S1x1x128) ![0, 0, 0] S1x1x128.size inb_S1x1x128_S1x1x128_0_0_0

/-- The output block after the body, from the two gathered rows: its one store. -/
def out4_2 (x0 x1 : Vec F S1x1x128 .f32) : Vec F S1x1x128 .f32 :=
  View.canon [⟨r4, k4_pay1 (View.ld x0 r4) (View.ld x1 r4)⟩]

/-- The store covers the block. -/
theorem cover4_2 (p0 : Vec F S1x1x128 .f32) (y : S1x1x128.Idx) :
    ∃ pc ∈ ([⟨r4, p0⟩] : List (View.Piece (Elt F) S1x1x128 .f32)), y ∈ pc.1.set :=
  View.cover_of_tiled [⟨r4, p0⟩] S1x1x128.size (by rfl) y

/-! ## The body's run -/

set_option maxHeartbeats 1000000 in
/-- The body on whole staging memrefs, the two inputs' at contents `x0`, `x1` and the output's at anything, runs to the
    continuation holding the inputs as they were and the output at `out4_2 x0 x1`; the table memrefs are not touched. -/
theorem sound_kernel4 (c : Dev nD) (E : Set ℕ) (i : grid4.Coords)
    (arg1 : Memref sig .tc .smem S40000 .i32) (harg1 : arg1.IsWhole) (arg2 : Memref sig .tc .smem S40000 .i32) (harg2 : arg2.IsWhole)
    (arg3 : Memref sig .tc .vmem S1x1x128 .f32) (harg3 : arg3.IsWhole) (arg4 : Memref sig .tc .vmem S1x1x128 .f32) (harg4 : arg4.IsWhole)
    (arg5 : Memref sig .tc .vmem S1x1x128 .f32) (harg5 : arg5.IsWhole)
    (x0 x1 : Vec F S1x1x128 .f32) (K : PUnit → sProp 𝕄) :
    iprop(owns (c : Thread nD τ) arg3 fullShare x0 ∗ owns (c : Thread nD τ) arg4 fullShare x1 ∗ (∃ d, owns (c : Thread nD τ) arg5 fullShare d)
        ∗ (iprop(owns (c : Thread nD τ) arg3 fullShare x0 ∗ owns (c : Thread nD τ) arg4 fullShare x1
            ∗ owns (c : Thread nD τ) arg5 fullShare (out4_2 x0 x1)) -∗ K ⟨⟩))
      ⊢ wp frame (wpE (defs₀ (F := F)) Variants.none c none) E (cc4__gather_kernel i arg1 harg1 arg2 harg2 arg3 harg3 arg4 harg4 arg5 harg5) K := by
  simp only [cc4__gather_kernel_eq_skeleton]; unfold cc4__gather_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover4_2 _)

/-! ## The pipeline's proof data -/

/-- The proof data of this pipeline on core `c`: the arrays as the region finds them; after the body at point `t` each
    gathered input's buffer at its block and the output's at `out4_2` of the two; the invariant: the scoped rest, the
    generator register, and the two index tables held whole and untouched; nothing owed; full shares. -/
def dat4 (c : Dev nD) : Dat τ (Elt F) Unit ℕ (UR sig nD τ) ℕ (cfg4 a) c where
  A w := V c (Pipeline.arrRef spec4 w)
  after w t := match w with
    | ⟨0, _⟩ => iblk4 V a c 0 t
    | ⟨1, _⟩ => iblk4 V a c 1 t
    | ⟨2, _⟩ => out4_2 (iblk4 V a c 0 t) (iblk4 V a c 1 t)
  Φ _ := iprop(Pipeline.ΦA spec4 c ∗ Pipeline.prefHeld (Ix := Unit) (Name := ℕ) (U := UR sig nD τ) (Lvl := ℕ) pre4 c (fun _ => fullShare) a.1)
  q _ := fullShare
  owed _ := 0

theorem A_eq4 (c : Dev nD) (w : Fin (cfg4 a).W) : (dat4 V a c).A w = V c (Pipeline.arrRef spec4 w) := by
  dsimp only [dat4]

theorem after4_0 (c : Dev nD) (t : Fin (cfg4 a).N) : (dat4 V a c).after 0 t = iblk4 V a c 0 t := by dsimp only [dat4]; try rfl
theorem after4_1 (c : Dev nD) (t : Fin (cfg4 a).N) : (dat4 V a c).after 1 t = iblk4 V a c 1 t := by dsimp only [dat4]; try rfl
theorem after4_2 (c : Dev nD) (t : Fin (cfg4 a).N) : (dat4 V a c).after 2 t = out4_2 (iblk4 V a c 0 t) (iblk4 V a c 1 t) := by dsimp only [dat4]; try rfl

theorem before4_0 (c : Dev nD) (t : Fin (cfg4 a).N) (d) : (dat4 V a c).before 0 t d = iblk4 V a c 0 t :=
  before4_0_of V a (dat4 V a c) (A_eq4 V a c 0) (after4_0 V a c) t d
theorem before4_1 (c : Dev nD) (t : Fin (cfg4 a).N) (d) : (dat4 V a c).before 1 t d = iblk4 V a c 1 t :=
  before4_1_of V a (dat4 V a c) (A_eq4 V a c 1) (after4_1 V a c) t d

/-! ## The body obligation, at a generic point -/

def bodyPre4 (c : Dev nD) (t : Fin (cfg4 a).N) : sProp 𝕄 :=
  iprop((dat4 V a c).Φ t.castSucc ∗ (dat4 V a c).owesAt () t.castSucc
    ∗ (∃ d, owns (c : Thread nD τ) (ms4_0 a t) fullShare ((dat4 V a c).before 0 t d))
    ∗ (∃ d, owns (c : Thread nD τ) (ms4_1 a t) fullShare ((dat4 V a c).before 1 t d))
    ∗ (∃ d, owns (c : Thread nD τ) (ms4_2 a t) fullShare ((dat4 V a c).before 2 t d)))

def bodyPost4 (c : Dev nD) (t : Fin (cfg4 a).N) : sProp 𝕄 :=
  iprop((dat4 V a c).Φ t.succ ∗ (dat4 V a c).owesAt () t.succ
    ∗ owns (c : Thread nD τ) (ms4_0 a t) fullShare ((dat4 V a c).after 0 t)
    ∗ owns (c : Thread nD τ) (ms4_1 a t) fullShare ((dat4 V a c).after 1 t)
    ∗ owns (c : Thread nD τ) (ms4_2 a t) fullShare ((dat4 V a c).after 2 t))

/-- The body at any point: the inputs' memrefs hold their blocks, so the run applies; the invariant and the core's
    dues pass through unread. -/
theorem sound_body4 (c : Dev nD) (t : Fin (cfg4 a).N) :
    bodyPre4 V a c t ⊢ wp frame (wpE (defs₀ (F := F)) Variants.none c none) Set.univ (bodyAt4 a t) (fun _ => bodyPost4 V a c t) := by
  unfold bodyPre4 bodyPost4 bodyAt4
  simp only [before4_0, before4_1]
  rw [show (dat4 V a c).Φ t.succ = (dat4 V a c).Φ t.castSucc from rfl,
    show (dat4 V a c).owesAt () t.succ = (dat4 V a c).owesAt () t.castSucc from rfl,
    after4_0, after4_1, after4_2]
  iintro ⟨HΦ, Ho, ⟨%d0, H0⟩, ⟨%d1, H1⟩, ⟨%d2, H2⟩⟩
  iapply (sound_kernel4 c Set.univ _ _ _ _ _ _ _ _ _ _ _ (iblk4 V a c 0 t) (iblk4 V a c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation4 (c : Dev nD) : BodyObligation (dat4 (F := F) V a c) (defs₀ (F := F)) Variants.none () Set.univ := fun t => by
  rw [bigSep_W4, bigSep_W4]
  exact sound_body4 V a c t

end Region

end Cert.Kernel.Hand

end
-- ==== Proof.K.Tables4.lean ====
/-
  Edge chunk 4's index tables. The host slices 40000 consecutive words, from word 120000 on, out of each endpoint
  array (src, then dst) into scalar memory; the chunk's pipeline reads word t of each as the block row of its two
  gathered windows at grid point t. When every endpoint word is a node id (below 50000) each such row lies inside
  the 50000-row arrays: the tables' contents are admissible for the pipeline.
-/
import proofs.«413139_j22651657519351_3_alg».proof.Proof.Gen.Kernel.Launch
import proofs.«413139_j22651657519351_3_alg».proof.Proof.Gen.Kernel.Skeleton
import proofs.«413139_j22651657519351_3_alg».proof.Proof.Gen.Kernel.Points
import proofs.«413139_j22651657519351_3_alg».proof.Proof.K.Range
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Tables

variable (m : (ℓ : Loc nD τ sig) → Buf (Elt F) ℓ)

/-- The two tables' contents, read off the launch memory: the endpoint arrays' words 120000 … 120000 + 39999. -/
def tbl4 : pre4.Contents (Elt F) := fun k => match k with
  | ⟨0, _⟩ => (extractStridedSlice S40000 ![120000] (m (((0 : Dev nD) : Thread nD τ).loc main_arg1)) slices_S800000_S40000_120000 : (⟨S40000, .i32⟩ : BufTy).Contents (Elt F))
  | ⟨1, _⟩ => (extractStridedSlice S40000 ![120000] (m (((0 : Dev nD) : Thread nD τ).loc main_arg2)) slices_S800000_S40000_120000 : (⟨S40000, .i32⟩ : BufTy).Contents (Elt F))

/-- Tables whose every word is below the node count put every gathered block inside its array: row word + 1 ≤ 50000,
    the two unit axes and the 128 lanes exactly filled; float32 words transfer whole. -/
theorem ok4_of (pf : pre4.Contents (Elt F)) (h0 : ∀ j, ((pf 0 j : Elt F .i32) : BitVec 32).toNat < 50000)
    (h1 : ∀ j, ((pf 1 j : Elt F .i32) : BitVec 32).toNat < 50000) : ok4 pf := by
  refine ⟨fun i => ⟨fun a => ?_, Or.inl rfl⟩, fun i => ⟨fun a => ?_, Or.inl rfl⟩⟩
  · match a with
    | ⟨0, _⟩ =>
      show (BitVec.toNat (pf 0 _) + 1) * 1 ≤ 50000
      exact (Nat.mul_one _).le.trans (Nat.succ_le_of_lt (h0 _))
    | ⟨1, _⟩ => show (BitVec.toNat (0#32) + 1) * 1 ≤ 1; decide
    | ⟨2, _⟩ => show (BitVec.toNat (0#32) + 1) * 128 ≤ 128; decide
  · match a with
    | ⟨0, _⟩ =>
      show (BitVec.toNat (pf 1 _) + 1) * 1 ≤ 50000
      exact (Nat.mul_one _).le.trans (Nat.succ_le_of_lt (h1 _))
    | ⟨1, _⟩ => show (BitVec.toNat (0#32) + 1) * 1 ≤ 1; decide
    | ⟨2, _⟩ => show (BitVec.toNat (0#32) + 1) * 128 ≤ 128; decide

/-- The chunk's tables as admissible contents, when the endpoint words are node ids. -/
def a4 (hR : InRange m) : (pcfg4 (F := F)).Adm :=
  ⟨tbl4 m, ok4_of (tbl4 m) (fun j => (hR 0).1 _) (fun j => (hR 0).2 _)⟩

theorem a4_val (hR : InRange m) : (a4 m hR).1 = tbl4 m := rfl

end Tables

end Cert.Kernel.Hand

end
-- ==== Proof.K.Region5.lean ====
/-
  Edge chunk 5's gather kernel (twenty chunks of 40000 edges): at grid point t the pipeline fetches row src[t] of the
  re-laid projection hs2 and row dst[t] of hd2 (two blocks of 128 lanes, chosen by the prefetched index tables),
  the body stores (row + row) · c into the output block, which is written back as row t of the chunk's output.
  Here: what each window's staging buffer holds before and after the body at every point, for any contents V of the
  buffers at the region's entry and any admissible contents `a` of the two index tables, and the body's run.
  The tables ride through the region untouched: the body never reads them.
-/
import proofs.«413139_j22651657519351_3_alg».proof.Proof.Gen.Kernel.Launch
import proofs.«413139_j22651657519351_3_alg».proof.Proof.Gen.Kernel.Skeleton
import proofs.«413139_j22651657519351_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region

variable (V : (c : Dev nD) → (b : Ref sig .tc) → Buf (Elt F) ((c : Thread nD τ).loc b))
variable (a : (pcfg5 (F := F)).Adm)

/-! ## The body as the pipeline calls it at a point -/

/-- Each window's current staging memref at point `t`, and its wholeness. -/
abbrev ms5_0 (t : Fin (cfg5 a).N) : Memref sig .tc .vmem S1x1x128 .f32 := spec5_0.stage ((cfg5 a).slots t 0)
abbrev hs5_0 (t : Fin (cfg5 a).N) : (ms5_0 a t).IsWhole := hstage5_0 (((cfg5 a).slots t 0).cast nbuf5_0)
abbrev ms5_1 (t : Fin (cfg5 a).N) : Memref sig .tc .vmem S1x1x128 .f32 := spec5_1.stage ((cfg5 a).slots t 1)
abbrev hs5_1 (t : Fin (cfg5 a).N) : (ms5_1 a t).IsWhole := hstage5_1 (((cfg5 a).slots t 1).cast nbuf5_1)
abbrev ms5_2 (t : Fin (cfg5 a).N) : Memref sig .tc .vmem S1x1x128 .f32 := spec5_2.stage ((cfg5 a).slots t 2)
abbrev hs5_2 (t : Fin (cfg5 a).N) : (ms5_2 a t).IsWhole := hstage5_2 (((cfg5 a).slots t 2).cast nbuf5_2)

/-- The kernel body at point `t`, on what the pipeline calls it with. -/
abbrev bodyAt5 (t : Fin (cfg5 a).N) : Prog (TpuEff nD τ sig (Elt F) Λ₀ .tc) PUnit :=
  cc5__gather_kernel (grid5.coords t) (Memref.whole main_v21) (Memref.isWhole_whole _) (Memref.whole main_v22) (Memref.isWhole_whole _)
    (ms5_0 a t) (hs5_0 a t) (ms5_1 a t) (hs5_1 a t) (ms5_2 a t) (hs5_2 a t)

/-! ## The windows' blocks -/

/-- Window `w`'s block at point `t`, read off its array as the region finds it: for the two gathered windows the
    row the tables' word at `t` names. -/
def iblk5 (c : Dev nD) (w : Fin (cfg5 a).W) (t : Fin (cfg5 a).N) :
    (((cfg5 a).win w).xblock ((cfg5 a).grid.coords t)).Idx → Elt F ((cfg5 a).win w).elt :=
  (((cfg5 a).win w).blk t).view.read (Elt F) (V c (Pipeline.arrRef spec5 w))

/-- An input window's current staging buffer holds its block at every point, fetched there or not. -/
theorem before5_0_of {c : Dev nD} (dat : Dat τ (Elt F) Unit ℕ (UR sig nD τ) ℕ (cfg5 a) c) (hA : dat.A 0 = V c (Pipeline.arrRef spec5 0))
    (hafter : ∀ t, dat.after 0 t = iblk5 V a c 0 t) (t : Fin (cfg5 a).N) (d) : dat.before 0 t d = iblk5 V a c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)

theorem before5_1_of {c : Dev nD} (dat : Dat τ (Elt F) Unit ℕ (UR sig nD τ) ℕ (cfg5 a) c) (hA : dat.A 1 = V c (Pipeline.arrRef spec5 1))
    (hafter : ∀ t, dat.after 1 t = iblk5 V a c 1 t) (t : Fin (cfg5 a).N) (d) : dat.before 1 t d = iblk5 V a c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)

/-! ## What the body leaves in the output window's buffer -/

/-- The one rectangle the body loads and stores through: the whole 1×1×128 block. -/
abbrev r5 : Rect S1x1x128 := Rect.unit (s := S1x1x128) ![0, 0, 0] S1x1x128.size inb_S1x1x128_S1x1x128_0_0_0

/-- The output block after the body, from the two gathered rows: its one store. -/
def out5_2 (x0 x1 : Vec F S1x1x128 .f32) : Vec F S1x1x128 .f32 :=
  View.canon [⟨r5, k5_pay1 (View.ld x0 r5) (View.ld x1 r5)⟩]

/-- The store covers the block. -/
theorem cover5_2 (p0 : Vec F S1x1x128 .f32) (y : S1x1x128.Idx) :
    ∃ pc ∈ ([⟨r5, p0⟩] : List (View.Piece (Elt F) S1x1x128 .f32)), y ∈ pc.1.set :=
  View.cover_of_tiled [⟨r5, p0⟩] S1x1x128.size (by rfl) y

/-! ## The body's run -/

set_option maxHeartbeats 1000000 in
/-- The body on whole staging memrefs, the two inputs' at contents `x0`, `x1` and the output's at anything, runs to the
    continuation holding the inputs as they were and the output at `out5_2 x0 x1`; the table memrefs are not touched. -/
theorem sound_kernel5 (c : Dev nD) (E : Set ℕ) (i : grid5.Coords)
    (arg1 : Memref sig .tc .smem S40000 .i32) (harg1 : arg1.IsWhole) (arg2 : Memref sig .tc .smem S40000 .i32) (harg2 : arg2.IsWhole)
    (arg3 : Memref sig .tc .vmem S1x1x128 .f32) (harg3 : arg3.IsWhole) (arg4 : Memref sig .tc .vmem S1x1x128 .f32) (harg4 : arg4.IsWhole)
    (arg5 : Memref sig .tc .vmem S1x1x128 .f32) (harg5 : arg5.IsWhole)
    (x0 x1 : Vec F S1x1x128 .f32) (K : PUnit → sProp 𝕄) :
    iprop(owns (c : Thread nD τ) arg3 fullShare x0 ∗ owns (c : Thread nD τ) arg4 fullShare x1 ∗ (∃ d, owns (c : Thread nD τ) arg5 fullShare d)
        ∗ (iprop(owns (c : Thread nD τ) arg3 fullShare x0 ∗ owns (c : Thread nD τ) arg4 fullShare x1
            ∗ owns (c : Thread nD τ) arg5 fullShare (out5_2 x0 x1)) -∗ K ⟨⟩))
      ⊢ wp frame (wpE (defs₀ (F := F)) Variants.none c none) E (cc5__gather_kernel i arg1 harg1 arg2 harg2 arg3 harg3 arg4 harg4 arg5 harg5) K := by
  simp only [cc5__gather_kernel_eq_skeleton]; unfold cc5__gather_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover5_2 _)

/-! ## The pipeline's proof data -/

/-- The proof data of this pipeline on core `c`: the arrays as the region finds them; after the body at point `t` each
    gathered input's buffer at its block and the output's at `out5_2` of the two; the invariant: the scoped rest, the
    generator register, and the two index tables held whole and untouched; nothing owed; full shares. -/
def dat5 (c : Dev nD) : Dat τ (Elt F) Unit ℕ (UR sig nD τ) ℕ (cfg5 a) c where
  A w := V c (Pipeline.arrRef spec5 w)
  after w t := match w with
    | ⟨0, _⟩ => iblk5 V a c 0 t
    | ⟨1, _⟩ => iblk5 V a c 1 t
    | ⟨2, _⟩ => out5_2 (iblk5 V a c 0 t) (iblk5 V a c 1 t)
  Φ _ := iprop(Pipeline.ΦA spec5 c ∗ Pipeline.prefHeld (Ix := Unit) (Name := ℕ) (U := UR sig nD τ) (Lvl := ℕ) pre5 c (fun _ => fullShare) a.1)
  q _ := fullShare
  owed _ := 0

theorem A_eq5 (c : Dev nD) (w : Fin (cfg5 a).W) : (dat5 V a c).A w = V c (Pipeline.arrRef spec5 w) := by
  dsimp only [dat5]

theorem after5_0 (c : Dev nD) (t : Fin (cfg5 a).N) : (dat5 V a c).after 0 t = iblk5 V a c 0 t := by dsimp only [dat5]; try rfl
theorem after5_1 (c : Dev nD) (t : Fin (cfg5 a).N) : (dat5 V a c).after 1 t = iblk5 V a c 1 t := by dsimp only [dat5]; try rfl
theorem after5_2 (c : Dev nD) (t : Fin (cfg5 a).N) : (dat5 V a c).after 2 t = out5_2 (iblk5 V a c 0 t) (iblk5 V a c 1 t) := by dsimp only [dat5]; try rfl

theorem before5_0 (c : Dev nD) (t : Fin (cfg5 a).N) (d) : (dat5 V a c).before 0 t d = iblk5 V a c 0 t :=
  before5_0_of V a (dat5 V a c) (A_eq5 V a c 0) (after5_0 V a c) t d
theorem before5_1 (c : Dev nD) (t : Fin (cfg5 a).N) (d) : (dat5 V a c).before 1 t d = iblk5 V a c 1 t :=
  before5_1_of V a (dat5 V a c) (A_eq5 V a c 1) (after5_1 V a c) t d

/-! ## The body obligation, at a generic point -/

def bodyPre5 (c : Dev nD) (t : Fin (cfg5 a).N) : sProp 𝕄 :=
  iprop((dat5 V a c).Φ t.castSucc ∗ (dat5 V a c).owesAt () t.castSucc
    ∗ (∃ d, owns (c : Thread nD τ) (ms5_0 a t) fullShare ((dat5 V a c).before 0 t d))
    ∗ (∃ d, owns (c : Thread nD τ) (ms5_1 a t) fullShare ((dat5 V a c).before 1 t d))
    ∗ (∃ d, owns (c : Thread nD τ) (ms5_2 a t) fullShare ((dat5 V a c).before 2 t d)))

def bodyPost5 (c : Dev nD) (t : Fin (cfg5 a).N) : sProp 𝕄 :=
  iprop((dat5 V a c).Φ t.succ ∗ (dat5 V a c).owesAt () t.succ
    ∗ owns (c : Thread nD τ) (ms5_0 a t) fullShare ((dat5 V a c).after 0 t)
    ∗ owns (c : Thread nD τ) (ms5_1 a t) fullShare ((dat5 V a c).after 1 t)
    ∗ owns (c : Thread nD τ) (ms5_2 a t) fullShare ((dat5 V a c).after 2 t))

/-- The body at any point: the inputs' memrefs hold their blocks, so the run applies; the invariant and the core's
    dues pass through unread. -/
theorem sound_body5 (c : Dev nD) (t : Fin (cfg5 a).N) :
    bodyPre5 V a c t ⊢ wp frame (wpE (defs₀ (F := F)) Variants.none c none) Set.univ (bodyAt5 a t) (fun _ => bodyPost5 V a c t) := by
  unfold bodyPre5 bodyPost5 bodyAt5
  simp only [before5_0, before5_1]
  rw [show (dat5 V a c).Φ t.succ = (dat5 V a c).Φ t.castSucc from rfl,
    show (dat5 V a c).owesAt () t.succ = (dat5 V a c).owesAt () t.castSucc from rfl,
    after5_0, after5_1, after5_2]
  iintro ⟨HΦ, Ho, ⟨%d0, H0⟩, ⟨%d1, H1⟩, ⟨%d2, H2⟩⟩
  iapply (sound_kernel5 c Set.univ _ _ _ _ _ _ _ _ _ _ _ (iblk5 V a c 0 t) (iblk5 V a c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation5 (c : Dev nD) : BodyObligation (dat5 (F := F) V a c) (defs₀ (F := F)) Variants.none () Set.univ := fun t => by
  rw [bigSep_W5, bigSep_W5]
  exact sound_body5 V a c t

end Region

end Cert.Kernel.Hand

end
-- ==== Proof.K.Tables5.lean ====
/-
  Edge chunk 5's index tables. The host slices 40000 consecutive words, from word 160000 on, out of each endpoint
  array (src, then dst) into scalar memory; the chunk's pipeline reads word t of each as the block row of its two
  gathered windows at grid point t. When every endpoint word is a node id (below 50000) each such row lies inside
  the 50000-row arrays: the tables' contents are admissible for the pipeline.
-/
import proofs.«413139_j22651657519351_3_alg».proof.Proof.Gen.Kernel.Launch
import proofs.«413139_j22651657519351_3_alg».proof.Proof.Gen.Kernel.Skeleton
import proofs.«413139_j22651657519351_3_alg».proof.Proof.Gen.Kernel.Points
import proofs.«413139_j22651657519351_3_alg».proof.Proof.K.Range
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Tables

variable (m : (ℓ : Loc nD τ sig) → Buf (Elt F) ℓ)

/-- The two tables' contents, read off the launch memory: the endpoint arrays' words 160000 … 160000 + 39999. -/
def tbl5 : pre5.Contents (Elt F) := fun k => match k with
  | ⟨0, _⟩ => (extractStridedSlice S40000 ![160000] (m (((0 : Dev nD) : Thread nD τ).loc main_arg1)) slices_S800000_S40000_160000 : (⟨S40000, .i32⟩ : BufTy).Contents (Elt F))
  | ⟨1, _⟩ => (extractStridedSlice S40000 ![160000] (m (((0 : Dev nD) : Thread nD τ).loc main_arg2)) slices_S800000_S40000_160000 : (⟨S40000, .i32⟩ : BufTy).Contents (Elt F))

/-- Tables whose every word is below the node count put every gathered block inside its array: row word + 1 ≤ 50000,
    the two unit axes and the 128 lanes exactly filled; float32 words transfer whole. -/
theorem ok5_of (pf : pre5.Contents (Elt F)) (h0 : ∀ j, ((pf 0 j : Elt F .i32) : BitVec 32).toNat < 50000)
    (h1 : ∀ j, ((pf 1 j : Elt F .i32) : BitVec 32).toNat < 50000) : ok5 pf := by
  refine ⟨fun i => ⟨fun a => ?_, Or.inl rfl⟩, fun i => ⟨fun a => ?_, Or.inl rfl⟩⟩
  · match a with
    | ⟨0, _⟩ =>
      show (BitVec.toNat (pf 0 _) + 1) * 1 ≤ 50000
      exact (Nat.mul_one _).le.trans (Nat.succ_le_of_lt (h0 _))
    | ⟨1, _⟩ => show (BitVec.toNat (0#32) + 1) * 1 ≤ 1; decide
    | ⟨2, _⟩ => show (BitVec.toNat (0#32) + 1) * 128 ≤ 128; decide
  · match a with
    | ⟨0, _⟩ =>
      show (BitVec.toNat (pf 1 _) + 1) * 1 ≤ 50000
      exact (Nat.mul_one _).le.trans (Nat.succ_le_of_lt (h1 _))
    | ⟨1, _⟩ => show (BitVec.toNat (0#32) + 1) * 1 ≤ 1; decide
    | ⟨2, _⟩ => show (BitVec.toNat (0#32) + 1) * 128 ≤ 128; decide

/-- The chunk's tables as admissible contents, when the endpoint words are node ids. -/
def a5 (hR : InRange m) : (pcfg5 (F := F)).Adm :=
  ⟨tbl5 m, ok5_of (tbl5 m) (fun j => (hR 0).1 _) (fun j => (hR 0).2 _)⟩

theorem a5_val (hR : InRange m) : (a5 m hR).1 = tbl5 m := rfl

end Tables

end Cert.Kernel.Hand

end
-- ==== Proof.K.Region6.lean ====
/-
  Edge chunk 6's gather kernel (twenty chunks of 40000 edges): at grid point t the pipeline fetches row src[t] of the
  re-laid projection hs2 and row dst[t] of hd2 (two blocks of 128 lanes, chosen by the prefetched index tables),
  the body stores (row + row) · c into the output block, which is written back as row t of the chunk's output.
  Here: what each window's staging buffer holds before and after the body at every point, for any contents V of the
  buffers at the region's entry and any admissible contents `a` of the two index tables, and the body's run.
  The tables ride through the region untouched: the body never reads them.
-/
import proofs.«413139_j22651657519351_3_alg».proof.Proof.Gen.Kernel.Launch
import proofs.«413139_j22651657519351_3_alg».proof.Proof.Gen.Kernel.Skeleton
import proofs.«413139_j22651657519351_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region

variable (V : (c : Dev nD) → (b : Ref sig .tc) → Buf (Elt F) ((c : Thread nD τ).loc b))
variable (a : (pcfg6 (F := F)).Adm)

/-! ## The body as the pipeline calls it at a point -/

/-- Each window's current staging memref at point `t`, and its wholeness. -/
abbrev ms6_0 (t : Fin (cfg6 a).N) : Memref sig .tc .vmem S1x1x128 .f32 := spec6_0.stage ((cfg6 a).slots t 0)
abbrev hs6_0 (t : Fin (cfg6 a).N) : (ms6_0 a t).IsWhole := hstage6_0 (((cfg6 a).slots t 0).cast nbuf6_0)
abbrev ms6_1 (t : Fin (cfg6 a).N) : Memref sig .tc .vmem S1x1x128 .f32 := spec6_1.stage ((cfg6 a).slots t 1)
abbrev hs6_1 (t : Fin (cfg6 a).N) : (ms6_1 a t).IsWhole := hstage6_1 (((cfg6 a).slots t 1).cast nbuf6_1)
abbrev ms6_2 (t : Fin (cfg6 a).N) : Memref sig .tc .vmem S1x1x128 .f32 := spec6_2.stage ((cfg6 a).slots t 2)
abbrev hs6_2 (t : Fin (cfg6 a).N) : (ms6_2 a t).IsWhole := hstage6_2 (((cfg6 a).slots t 2).cast nbuf6_2)

/-- The kernel body at point `t`, on what the pipeline calls it with. -/
abbrev bodyAt6 (t : Fin (cfg6 a).N) : Prog (TpuEff nD τ sig (Elt F) Λ₀ .tc) PUnit :=
  cc6__gather_kernel (grid6.coords t) (Memref.whole main_v25) (Memref.isWhole_whole _) (Memref.whole main_v26) (Memref.isWhole_whole _)
    (ms6_0 a t) (hs6_0 a t) (ms6_1 a t) (hs6_1 a t) (ms6_2 a t) (hs6_2 a t)

/-! ## The windows' blocks -/

/-- Window `w`'s block at point `t`, read off its array as the region finds it: for the two gathered windows the
    row the tables' word at `t` names. -/
def iblk6 (c : Dev nD) (w : Fin (cfg6 a).W) (t : Fin (cfg6 a).N) :
    (((cfg6 a).win w).xblock ((cfg6 a).grid.coords t)).Idx → Elt F ((cfg6 a).win w).elt :=
  (((cfg6 a).win w).blk t).view.read (Elt F) (V c (Pipeline.arrRef spec6 w))

/-- An input window's current staging buffer holds its block at every point, fetched there or not. -/
theorem before6_0_of {c : Dev nD} (dat : Dat τ (Elt F) Unit ℕ (UR sig nD τ) ℕ (cfg6 a) c) (hA : dat.A 0 = V c (Pipeline.arrRef spec6 0))
    (hafter : ∀ t, dat.after 0 t = iblk6 V a c 0 t) (t : Fin (cfg6 a).N) (d) : dat.before 0 t d = iblk6 V a c 0 t :=
  (dat.before_in_eq_fetched 0 rfl (fun _ => rfl) (fun _ _ _ => rfl) (fun t => by rw [hafter]; unfold Dat.blockOf iblk6; rw [hA]; try rfl) t d).trans
    (by unfold Dat.fetched Dat.blockOf iblk6; rw [hA]; try rfl)

theorem before6_1_of {c : Dev nD} (dat : Dat τ (Elt F) Unit ℕ (UR sig nD τ) ℕ (cfg6 a) c) (hA : dat.A 1 = V c (Pipeline.arrRef spec6 1))
    (hafter : ∀ t, dat.after 1 t = iblk6 V a c 1 t) (t : Fin (cfg6 a).N) (d) : dat.before 1 t d = iblk6 V a c 1 t :=
  (dat.before_in_eq_fetched 1 rfl (fun _ => rfl) (fun _ _ _ => rfl) (fun t => by rw [hafter]; unfold Dat.blockOf iblk6; rw [hA]; try rfl) t d).trans
    (by unfold Dat.fetched Dat.blockOf iblk6; rw [hA]; try rfl)

/-! ## What the body leaves in the output window's buffer -/

/-- The one rectangle the body loads and stores through: the whole 1×1×128 block. -/
abbrev r6 : Rect S1x1x128 := Rect.unit (s := S1x1x128) ![0, 0, 0] S1x1x128.size inb_S1x1x128_S1x1x128_0_0_0

/-- The output block after the body, from the two gathered rows: its one store. -/
def out6_2 (x0 x1 : Vec F S1x1x128 .f32) : Vec F S1x1x128 .f32 :=
  View.canon [⟨r6, k6_pay1 (View.ld x0 r6) (View.ld x1 r6)⟩]

/-- The store covers the block. -/
theorem cover6_2 (p0 : Vec F S1x1x128 .f32) (y : S1x1x128.Idx) :
    ∃ pc ∈ ([⟨r6, p0⟩] : List (View.Piece (Elt F) S1x1x128 .f32)), y ∈ pc.1.set :=
  View.cover_of_tiled [⟨r6, p0⟩] S1x1x128.size (by rfl) y

/-! ## The body's run -/

set_option maxHeartbeats 1000000 in
/-- The body on whole staging memrefs, the two inputs' at contents `x0`, `x1` and the output's at anything, runs to the
    continuation holding the inputs as they were and the output at `out6_2 x0 x1`; the table memrefs are not touched. -/
theorem sound_kernel6 (c : Dev nD) (E : Set ℕ) (i : grid6.Coords)
    (arg1 : Memref sig .tc .smem S40000 .i32) (harg1 : arg1.IsWhole) (arg2 : Memref sig .tc .smem S40000 .i32) (harg2 : arg2.IsWhole)
    (arg3 : Memref sig .tc .vmem S1x1x128 .f32) (harg3 : arg3.IsWhole) (arg4 : Memref sig .tc .vmem S1x1x128 .f32) (harg4 : arg4.IsWhole)
    (arg5 : Memref sig .tc .vmem S1x1x128 .f32) (harg5 : arg5.IsWhole)
    (x0 x1 : Vec F S1x1x128 .f32) (K : PUnit → sProp 𝕄) :
    iprop(owns (c : Thread nD τ) arg3 fullShare x0 ∗ owns (c : Thread nD τ) arg4 fullShare x1 ∗ (∃ d, owns (c : Thread nD τ) arg5 fullShare d)
        ∗ (iprop(owns (c : Thread nD τ) arg3 fullShare x0 ∗ owns (c : Thread nD τ) arg4 fullShare x1
            ∗ owns (c : Thread nD τ) arg5 fullShare (out6_2 x0 x1)) -∗ K ⟨⟩))
      ⊢ wp frame (wpE (defs₀ (F := F)) Variants.none c none) E (cc6__gather_kernel i arg1 harg1 arg2 harg2 arg3 harg3 arg4 harg4 arg5 harg5) K := by
  simp only [cc6__gather_kernel_eq_skeleton]; unfold cc6__gather_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover6_2 _)

/-! ## The pipeline's proof data -/

/-- The proof data of this pipeline on core `c`: the arrays as the region finds them; after the body at point `t` each
    gathered input's buffer at its block and the output's at `out6_2` of the two; the invariant: the scoped rest, the
    generator register, and the two index tables held whole and untouched; nothing owed; full shares. -/
def dat6 (c : Dev nD) : Dat τ (Elt F) Unit ℕ (UR sig nD τ) ℕ (cfg6 a) c where
  A w := V c (Pipeline.arrRef spec6 w)
  after w t := match w with
    | ⟨0, _⟩ => iblk6 V a c 0 t
    | ⟨1, _⟩ => iblk6 V a c 1 t
    | ⟨2, _⟩ => out6_2 (iblk6 V a c 0 t) (iblk6 V a c 1 t)
  Φ _ := iprop(Pipeline.ΦA spec6 c ∗ Pipeline.prefHeld (Ix := Unit) (Name := ℕ) (U := UR sig nD τ) (Lvl := ℕ) pre6 c (fun _ => fullShare) a.1)
  q _ := fullShare
  owed _ := 0

theorem A_eq6 (c : Dev nD) (w : Fin (cfg6 a).W) : (dat6 V a c).A w = V c (Pipeline.arrRef spec6 w) := by
  dsimp only [dat6]

theorem after6_0 (c : Dev nD) (t : Fin (cfg6 a).N) : (dat6 V a c).after 0 t = iblk6 V a c 0 t := by dsimp only [dat6]; try rfl
theorem after6_1 (c : Dev nD) (t : Fin (cfg6 a).N) : (dat6 V a c).after 1 t = iblk6 V a c 1 t := by dsimp only [dat6]; try rfl
theorem after6_2 (c : Dev nD) (t : Fin (cfg6 a).N) : (dat6 V a c).after 2 t = out6_2 (iblk6 V a c 0 t) (iblk6 V a c 1 t) := by dsimp only [dat6]; try rfl

theorem before6_0 (c : Dev nD) (t : Fin (cfg6 a).N) (d) : (dat6 V a c).before 0 t d = iblk6 V a c 0 t :=
  before6_0_of V a (dat6 V a c) (A_eq6 V a c 0) (after6_0 V a c) t d
theorem before6_1 (c : Dev nD) (t : Fin (cfg6 a).N) (d) : (dat6 V a c).before 1 t d = iblk6 V a c 1 t :=
  before6_1_of V a (dat6 V a c) (A_eq6 V a c 1) (after6_1 V a c) t d

/-! ## The body obligation, at a generic point -/

def bodyPre6 (c : Dev nD) (t : Fin (cfg6 a).N) : sProp 𝕄 :=
  iprop((dat6 V a c).Φ t.castSucc ∗ (dat6 V a c).owesAt () t.castSucc
    ∗ (∃ d, owns (c : Thread nD τ) (ms6_0 a t) fullShare ((dat6 V a c).before 0 t d))
    ∗ (∃ d, owns (c : Thread nD τ) (ms6_1 a t) fullShare ((dat6 V a c).before 1 t d))
    ∗ (∃ d, owns (c : Thread nD τ) (ms6_2 a t) fullShare ((dat6 V a c).before 2 t d)))

def bodyPost6 (c : Dev nD) (t : Fin (cfg6 a).N) : sProp 𝕄 :=
  iprop((dat6 V a c).Φ t.succ ∗ (dat6 V a c).owesAt () t.succ
    ∗ owns (c : Thread nD τ) (ms6_0 a t) fullShare ((dat6 V a c).after 0 t)
    ∗ owns (c : Thread nD τ) (ms6_1 a t) fullShare ((dat6 V a c).after 1 t)
    ∗ owns (c : Thread nD τ) (ms6_2 a t) fullShare ((dat6 V a c).after 2 t))

/-- The body at any point: the inputs' memrefs hold their blocks, so the run applies; the invariant and the core's
    dues pass through unread. -/
theorem sound_body6 (c : Dev nD) (t : Fin (cfg6 a).N) :
    bodyPre6 V a c t ⊢ wp frame (wpE (defs₀ (F := F)) Variants.none c none) Set.univ (bodyAt6 a t) (fun _ => bodyPost6 V a c t) := by
  unfold bodyPre6 bodyPost6 bodyAt6
  simp only [before6_0, before6_1]
  rw [show (dat6 V a c).Φ t.succ = (dat6 V a c).Φ t.castSucc from rfl,
    show (dat6 V a c).owesAt () t.succ = (dat6 V a c).owesAt () t.castSucc from rfl,
    after6_0, after6_1, after6_2]
  iintro ⟨HΦ, Ho, ⟨%d0, H0⟩, ⟨%d1, H1⟩, ⟨%d2, H2⟩⟩
  iapply (sound_kernel6 c Set.univ _ _ _ _ _ _ _ _ _ _ _ (iblk6 V a c 0 t) (iblk6 V a c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation6 (c : Dev nD) : BodyObligation (dat6 (F := F) V a c) (defs₀ (F := F)) Variants.none () Set.univ := fun t => by
  rw [bigSep_W6, bigSep_W6]
  exact sound_body6 V a c t

end Region

end Cert.Kernel.Hand

end
-- ==== Proof.K.Tables6.lean ====
/-
  Edge chunk 6's index tables. The host slices 40000 consecutive words, from word 200000 on, out of each endpoint
  array (src, then dst) into scalar memory; the chunk's pipeline reads word t of each as the block row of its two
  gathered windows at grid point t. When every endpoint word is a node id (below 50000) each such row lies inside
  the 50000-row arrays: the tables' contents are admissible for the pipeline.
-/
import proofs.«413139_j22651657519351_3_alg».proof.Proof.Gen.Kernel.Launch
import proofs.«413139_j22651657519351_3_alg».proof.Proof.Gen.Kernel.Skeleton
import proofs.«413139_j22651657519351_3_alg».proof.Proof.Gen.Kernel.Points
import proofs.«413139_j22651657519351_3_alg».proof.Proof.K.Range
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Tables

variable (m : (ℓ : Loc nD τ sig) → Buf (Elt F) ℓ)

/-- The two tables' contents, read off the launch memory: the endpoint arrays' words 200000 … 200000 + 39999. -/
def tbl6 : pre6.Contents (Elt F) := fun k => match k with
  | ⟨0, _⟩ => (extractStridedSlice S40000 ![200000] (m (((0 : Dev nD) : Thread nD τ).loc main_arg1)) slices_S800000_S40000_200000 : (⟨S40000, .i32⟩ : BufTy).Contents (Elt F))
  | ⟨1, _⟩ => (extractStridedSlice S40000 ![200000] (m (((0 : Dev nD) : Thread nD τ).loc main_arg2)) slices_S800000_S40000_200000 : (⟨S40000, .i32⟩ : BufTy).Contents (Elt F))

/-- Tables whose every word is below the node count put every gathered block inside its array: row word + 1 ≤ 50000,
    the two unit axes and the 128 lanes exactly filled; float32 words transfer whole. -/
theorem ok6_of (pf : pre6.Contents (Elt F)) (h0 : ∀ j, ((pf 0 j : Elt F .i32) : BitVec 32).toNat < 50000)
    (h1 : ∀ j, ((pf 1 j : Elt F .i32) : BitVec 32).toNat < 50000) : ok6 pf := by
  refine ⟨fun i => ⟨fun a => ?_, Or.inl rfl⟩, fun i => ⟨fun a => ?_, Or.inl rfl⟩⟩
  · match a with
    | ⟨0, _⟩ =>
      show (BitVec.toNat (pf 0 _) + 1) * 1 ≤ 50000
      exact (Nat.mul_one _).le.trans (Nat.succ_le_of_lt (h0 _))
    | ⟨1, _⟩ => show (BitVec.toNat (0#32) + 1) * 1 ≤ 1; decide
    | ⟨2, _⟩ => show (BitVec.toNat (0#32) + 1) * 128 ≤ 128; decide
  · match a with
    | ⟨0, _⟩ =>
      show (BitVec.toNat (pf 1 _) + 1) * 1 ≤ 50000
      exact (Nat.mul_one _).le.trans (Nat.succ_le_of_lt (h1 _))
    | ⟨1, _⟩ => show (BitVec.toNat (0#32) + 1) * 1 ≤ 1; decide
    | ⟨2, _⟩ => show (BitVec.toNat (0#32) + 1) * 128 ≤ 128; decide

/-- The chunk's tables as admissible contents, when the endpoint words are node ids. -/
def a6 (hR : InRange m) : (pcfg6 (F := F)).Adm :=
  ⟨tbl6 m, ok6_of (tbl6 m) (fun j => (hR 0).1 _) (fun j => (hR 0).2 _)⟩

theorem a6_val (hR : InRange m) : (a6 m hR).1 = tbl6 m := rfl

end Tables

end Cert.Kernel.Hand

end
-- ==== Proof.K.Region7.lean ====
/-
  Edge chunk 7's gather kernel (twenty chunks of 40000 edges): at grid point t the pipeline fetches row src[t] of the
  re-laid projection hs2 and row dst[t] of hd2 (two blocks of 128 lanes, chosen by the prefetched index tables),
  the body stores (row + row) · c into the output block, which is written back as row t of the chunk's output.
  Here: what each window's staging buffer holds before and after the body at every point, for any contents V of the
  buffers at the region's entry and any admissible contents `a` of the two index tables, and the body's run.
  The tables ride through the region untouched: the body never reads them.
-/
import proofs.«413139_j22651657519351_3_alg».proof.Proof.Gen.Kernel.Launch
import proofs.«413139_j22651657519351_3_alg».proof.Proof.Gen.Kernel.Skeleton
import proofs.«413139_j22651657519351_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region

variable (V : (c : Dev nD) → (b : Ref sig .tc) → Buf (Elt F) ((c : Thread nD τ).loc b))
variable (a : (pcfg7 (F := F)).Adm)

/-! ## The body as the pipeline calls it at a point -/

/-- Each window's current staging memref at point `t`, and its wholeness. -/
abbrev ms7_0 (t : Fin (cfg7 a).N) : Memref sig .tc .vmem S1x1x128 .f32 := spec7_0.stage ((cfg7 a).slots t 0)
abbrev hs7_0 (t : Fin (cfg7 a).N) : (ms7_0 a t).IsWhole := hstage7_0 (((cfg7 a).slots t 0).cast nbuf7_0)
abbrev ms7_1 (t : Fin (cfg7 a).N) : Memref sig .tc .vmem S1x1x128 .f32 := spec7_1.stage ((cfg7 a).slots t 1)
abbrev hs7_1 (t : Fin (cfg7 a).N) : (ms7_1 a t).IsWhole := hstage7_1 (((cfg7 a).slots t 1).cast nbuf7_1)
abbrev ms7_2 (t : Fin (cfg7 a).N) : Memref sig .tc .vmem S1x1x128 .f32 := spec7_2.stage ((cfg7 a).slots t 2)
abbrev hs7_2 (t : Fin (cfg7 a).N) : (ms7_2 a t).IsWhole := hstage7_2 (((cfg7 a).slots t 2).cast nbuf7_2)

/-- The kernel body at point `t`, on what the pipeline calls it with. -/
abbrev bodyAt7 (t : Fin (cfg7 a).N) : Prog (TpuEff nD τ sig (Elt F) Λ₀ .tc) PUnit :=
  cc7__gather_kernel (grid7.coords t) (Memref.whole main_v29) (Memref.isWhole_whole _) (Memref.whole main_v30) (Memref.isWhole_whole _)
    (ms7_0 a t) (hs7_0 a t) (ms7_1 a t) (hs7_1 a t) (ms7_2 a t) (hs7_2 a t)

/-! ## The windows' blocks -/

/-- Window `w`'s block at point `t`, read off its array as the region finds it: for the two gathered windows the
    row the tables' word at `t` names. -/
def iblk7 (c : Dev nD) (w : Fin (cfg7 a).W) (t : Fin (cfg7 a).N) :
    (((cfg7 a).win w).xblock ((cfg7 a).grid.coords t)).Idx → Elt F ((cfg7 a).win w).elt :=
  (((cfg7 a).win w).blk t).view.read (Elt F) (V c (Pipeline.arrRef spec7 w))

/-- An input window's current staging buffer holds its block at every point, fetched there or not. -/
theorem before7_0_of {c : Dev nD} (dat : Dat τ (Elt F) Unit ℕ (UR sig nD τ) ℕ (cfg7 a) c) (hA : dat.A 0 = V c (Pipeline.arrRef spec7 0))
    (hafter : ∀ t, dat.after 0 t = iblk7 V a c 0 t) (t : Fin (cfg7 a).N) (d) : dat.before 0 t d = iblk7 V a c 0 t :=
  (dat.before_in_eq_fetched 0 rfl (fun _ => rfl) (fun _ _ _ => rfl) (fun t => by rw [hafter]; unfold Dat.blockOf iblk7; rw [hA]; try rfl) t d).trans
    (by unfold Dat.fetched Dat.blockOf iblk7; rw [hA]; try rfl)

theorem before7_1_of {c : Dev nD} (dat : Dat τ (Elt F) Unit ℕ (UR sig nD τ) ℕ (cfg7 a) c) (hA : dat.A 1 = V c (Pipeline.arrRef spec7 1))
    (hafter : ∀ t, dat.after 1 t = iblk7 V a c 1 t) (t : Fin (cfg7 a).N) (d) : dat.before 1 t d = iblk7 V a c 1 t :=
  (dat.before_in_eq_fetched 1 rfl (fun _ => rfl) (fun _ _ _ => rfl) (fun t => by rw [hafter]; unfold Dat.blockOf iblk7; rw [hA]; try rfl) t d).trans
    (by unfold Dat.fetched Dat.blockOf iblk7; rw [hA]; try rfl)

/-! ## What the body leaves in the output window's buffer -/

/-- The one rectangle the body loads and stores through: the whole 1×1×128 block. -/
abbrev r7 : Rect S1x1x128 := Rect.unit (s := S1x1x128) ![0, 0, 0] S1x1x128.size inb_S1x1x128_S1x1x128_0_0_0

/-- The output block after the body, from the two gathered rows: its one store. -/
def out7_2 (x0 x1 : Vec F S1x1x128 .f32) : Vec F S1x1x128 .f32 :=
  View.canon [⟨r7, k7_pay1 (View.ld x0 r7) (View.ld x1 r7)⟩]

/-- The store covers the block. -/
theorem cover7_2 (p0 : Vec F S1x1x128 .f32) (y : S1x1x128.Idx) :
    ∃ pc ∈ ([⟨r7, p0⟩] : List (View.Piece (Elt F) S1x1x128 .f32)), y ∈ pc.1.set :=
  View.cover_of_tiled [⟨r7, p0⟩] S1x1x128.size (by rfl) y

/-! ## The body's run -/

set_option maxHeartbeats 1000000 in
/-- The body on whole staging memrefs, the two inputs' at contents `x0`, `x1` and the output's at anything, runs to the
    continuation holding the inputs as they were and the output at `out7_2 x0 x1`; the table memrefs are not touched. -/
theorem sound_kernel7 (c : Dev nD) (E : Set ℕ) (i : grid7.Coords)
    (arg1 : Memref sig .tc .smem S40000 .i32) (harg1 : arg1.IsWhole) (arg2 : Memref sig .tc .smem S40000 .i32) (harg2 : arg2.IsWhole)
    (arg3 : Memref sig .tc .vmem S1x1x128 .f32) (harg3 : arg3.IsWhole) (arg4 : Memref sig .tc .vmem S1x1x128 .f32) (harg4 : arg4.IsWhole)
    (arg5 : Memref sig .tc .vmem S1x1x128 .f32) (harg5 : arg5.IsWhole)
    (x0 x1 : Vec F S1x1x128 .f32) (K : PUnit → sProp 𝕄) :
    iprop(owns (c : Thread nD τ) arg3 fullShare x0 ∗ owns (c : Thread nD τ) arg4 fullShare x1 ∗ (∃ d, owns (c : Thread nD τ) arg5 fullShare d)
        ∗ (iprop(owns (c : Thread nD τ) arg3 fullShare x0 ∗ owns (c : Thread nD τ) arg4 fullShare x1
            ∗ owns (c : Thread nD τ) arg5 fullShare (out7_2 x0 x1)) -∗ K ⟨⟩))
      ⊢ wp frame (wpE (defs₀ (F := F)) Variants.none c none) E (cc7__gather_kernel i arg1 harg1 arg2 harg2 arg3 harg3 arg4 harg4 arg5 harg5) K := by
  simp only [cc7__gather_kernel_eq_skeleton]; unfold cc7__gather_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover7_2 _)

/-! ## The pipeline's proof data -/

/-- The proof data of this pipeline on core `c`: the arrays as the region finds them; after the body at point `t` each
    gathered input's buffer at its block and the output's at `out7_2` of the two; the invariant: the scoped rest, the
    generator register, and the two index tables held whole and untouched; nothing owed; full shares. -/
def dat7 (c : Dev nD) : Dat τ (Elt F) Unit ℕ (UR sig nD τ) ℕ (cfg7 a) c where
  A w := V c (Pipeline.arrRef spec7 w)
  after w t := match w with
    | ⟨0, _⟩ => iblk7 V a c 0 t
    | ⟨1, _⟩ => iblk7 V a c 1 t
    | ⟨2, _⟩ => out7_2 (iblk7 V a c 0 t) (iblk7 V a c 1 t)
  Φ _ := iprop(Pipeline.ΦA spec7 c ∗ Pipeline.prefHeld (Ix := Unit) (Name := ℕ) (U := UR sig nD τ) (Lvl := ℕ) pre7 c (fun _ => fullShare) a.1)
  q _ := fullShare
  owed _ := 0

theorem A_eq7 (c : Dev nD) (w : Fin (cfg7 a).W) : (dat7 V a c).A w = V c (Pipeline.arrRef spec7 w) := by
  dsimp only [dat7]

theorem after7_0 (c : Dev nD) (t : Fin (cfg7 a).N) : (dat7 V a c).after 0 t = iblk7 V a c 0 t := by dsimp only [dat7]; try rfl
theorem after7_1 (c : Dev nD) (t : Fin (cfg7 a).N) : (dat7 V a c).after 1 t = iblk7 V a c 1 t := by dsimp only [dat7]; try rfl
theorem after7_2 (c : Dev nD) (t : Fin (cfg7 a).N) : (dat7 V a c).after 2 t = out7_2 (iblk7 V a c 0 t) (iblk7 V a c 1 t) := by dsimp only [dat7]; try rfl

theorem before7_0 (c : Dev nD) (t : Fin (cfg7 a).N) (d) : (dat7 V a c).before 0 t d = iblk7 V a c 0 t :=
  before7_0_of V a (dat7 V a c) (A_eq7 V a c 0) (after7_0 V a c) t d
theorem before7_1 (c : Dev nD) (t : Fin (cfg7 a).N) (d) : (dat7 V a c).before 1 t d = iblk7 V a c 1 t :=
  before7_1_of V a (dat7 V a c) (A_eq7 V a c 1) (after7_1 V a c) t d

/-! ## The body obligation, at a generic point -/

def bodyPre7 (c : Dev nD) (t : Fin (cfg7 a).N) : sProp 𝕄 :=
  iprop((dat7 V a c).Φ t.castSucc ∗ (dat7 V a c).owesAt () t.castSucc
    ∗ (∃ d, owns (c : Thread nD τ) (ms7_0 a t) fullShare ((dat7 V a c).before 0 t d))
    ∗ (∃ d, owns (c : Thread nD τ) (ms7_1 a t) fullShare ((dat7 V a c).before 1 t d))
    ∗ (∃ d, owns (c : Thread nD τ) (ms7_2 a t) fullShare ((dat7 V a c).before 2 t d)))

def bodyPost7 (c : Dev nD) (t : Fin (cfg7 a).N) : sProp 𝕄 :=
  iprop((dat7 V a c).Φ t.succ ∗ (dat7 V a c).owesAt () t.succ
    ∗ owns (c : Thread nD τ) (ms7_0 a t) fullShare ((dat7 V a c).after 0 t)
    ∗ owns (c : Thread nD τ) (ms7_1 a t) fullShare ((dat7 V a c).after 1 t)
    ∗ owns (c : Thread nD τ) (ms7_2 a t) fullShare ((dat7 V a c).after 2 t))

/-- The body at any point: the inputs' memrefs hold their blocks, so the run applies; the invariant and the core's
    dues pass through unread. -/
theorem sound_body7 (c : Dev nD) (t : Fin (cfg7 a).N) :
    bodyPre7 V a c t ⊢ wp frame (wpE (defs₀ (F := F)) Variants.none c none) Set.univ (bodyAt7 a t) (fun _ => bodyPost7 V a c t) := by
  unfold bodyPre7 bodyPost7 bodyAt7
  simp only [before7_0, before7_1]
  rw [show (dat7 V a c).Φ t.succ = (dat7 V a c).Φ t.castSucc from rfl,
    show (dat7 V a c).owesAt () t.succ = (dat7 V a c).owesAt () t.castSucc from rfl,
    after7_0, after7_1, after7_2]
  iintro ⟨HΦ, Ho, ⟨%d0, H0⟩, ⟨%d1, H1⟩, ⟨%d2, H2⟩⟩
  iapply (sound_kernel7 c Set.univ _ _ _ _ _ _ _ _ _ _ _ (iblk7 V a c 0 t) (iblk7 V a c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation7 (c : Dev nD) : BodyObligation (dat7 (F := F) V a c) (defs₀ (F := F)) Variants.none () Set.univ := fun t => by
  rw [bigSep_W7, bigSep_W7]
  exact sound_body7 V a c t

end Region

end Cert.Kernel.Hand

end
-- ==== Proof.K.Tables7.lean ====
/-
  Edge chunk 7's index tables. The host slices 40000 consecutive words, from word 240000 on, out of each endpoint
  array (src, then dst) into scalar memory; the chunk's pipeline reads word t of each as the block row of its two
  gathered windows at grid point t. When every endpoint word is a node id (below 50000) each such row lies inside
  the 50000-row arrays: the tables' contents are admissible for the pipeline.
-/
import proofs.«413139_j22651657519351_3_alg».proof.Proof.Gen.Kernel.Launch
import proofs.«413139_j22651657519351_3_alg».proof.Proof.Gen.Kernel.Skeleton
import proofs.«413139_j22651657519351_3_alg».proof.Proof.Gen.Kernel.Points
import proofs.«413139_j22651657519351_3_alg».proof.Proof.K.Range
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Tables

variable (m : (ℓ : Loc nD τ sig) → Buf (Elt F) ℓ)

/-- The two tables' contents, read off the launch memory: the endpoint arrays' words 240000 … 240000 + 39999. -/
def tbl7 : pre7.Contents (Elt F) := fun k => match k with
  | ⟨0, _⟩ => (extractStridedSlice S40000 ![240000] (m (((0 : Dev nD) : Thread nD τ).loc main_arg1)) slices_S800000_S40000_240000 : (⟨S40000, .i32⟩ : BufTy).Contents (Elt F))
  | ⟨1, _⟩ => (extractStridedSlice S40000 ![240000] (m (((0 : Dev nD) : Thread nD τ).loc main_arg2)) slices_S800000_S40000_240000 : (⟨S40000, .i32⟩ : BufTy).Contents (Elt F))

/-- Tables whose every word is below the node count put every gathered block inside its array: row word + 1 ≤ 50000,
    the two unit axes and the 128 lanes exactly filled; float32 words transfer whole. -/
theorem ok7_of (pf : pre7.Contents (Elt F)) (h0 : ∀ j, ((pf 0 j : Elt F .i32) : BitVec 32).toNat < 50000)
    (h1 : ∀ j, ((pf 1 j : Elt F .i32) : BitVec 32).toNat < 50000) : ok7 pf := by
  refine ⟨fun i => ⟨fun a => ?_, Or.inl rfl⟩, fun i => ⟨fun a => ?_, Or.inl rfl⟩⟩
  · match a with
    | ⟨0, _⟩ =>
      show (BitVec.toNat (pf 0 _) + 1) * 1 ≤ 50000
      exact (Nat.mul_one _).le.trans (Nat.succ_le_of_lt (h0 _))
    | ⟨1, _⟩ => show (BitVec.toNat (0#32) + 1) * 1 ≤ 1; decide
    | ⟨2, _⟩ => show (BitVec.toNat (0#32) + 1) * 128 ≤ 128; decide
  · match a with
    | ⟨0, _⟩ =>
      show (BitVec.toNat (pf 1 _) + 1) * 1 ≤ 50000
      exact (Nat.mul_one _).le.trans (Nat.succ_le_of_lt (h1 _))
    | ⟨1, _⟩ => show (BitVec.toNat (0#32) + 1) * 1 ≤ 1; decide
    | ⟨2, _⟩ => show (BitVec.toNat (0#32) + 1) * 128 ≤ 128; decide

/-- The chunk's tables as admissible contents, when the endpoint words are node ids. -/
def a7 (hR : InRange m) : (pcfg7 (F := F)).Adm :=
  ⟨tbl7 m, ok7_of (tbl7 m) (fun j => (hR 0).1 _) (fun j => (hR 0).2 _)⟩

theorem a7_val (hR : InRange m) : (a7 m hR).1 = tbl7 m := rfl

end Tables

end Cert.Kernel.Hand

end
-- ==== Proof.K.Region8.lean ====
/-
  Edge chunk 8's gather kernel (twenty chunks of 40000 edges): at grid point t the pipeline fetches row src[t] of the
  re-laid projection hs2 and row dst[t] of hd2 (two blocks of 128 lanes, chosen by the prefetched index tables),
  the body stores (row + row) · c into the output block, which is written back as row t of the chunk's output.
  Here: what each window's staging buffer holds before and after the body at every point, for any contents V of the
  buffers at the region's entry and any admissible contents `a` of the two index tables, and the body's run.
  The tables ride through the region untouched: the body never reads them.
-/
import proofs.«413139_j22651657519351_3_alg».proof.Proof.Gen.Kernel.Launch
import proofs.«413139_j22651657519351_3_alg».proof.Proof.Gen.Kernel.Skeleton
import proofs.«413139_j22651657519351_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region

variable (V : (c : Dev nD) → (b : Ref sig .tc) → Buf (Elt F) ((c : Thread nD τ).loc b))
variable (a : (pcfg8 (F := F)).Adm)

/-! ## The body as the pipeline calls it at a point -/

/-- Each window's current staging memref at point `t`, and its wholeness. -/
abbrev ms8_0 (t : Fin (cfg8 a).N) : Memref sig .tc .vmem S1x1x128 .f32 := spec8_0.stage ((cfg8 a).slots t 0)
abbrev hs8_0 (t : Fin (cfg8 a).N) : (ms8_0 a t).IsWhole := hstage8_0 (((cfg8 a).slots t 0).cast nbuf8_0)
abbrev ms8_1 (t : Fin (cfg8 a).N) : Memref sig .tc .vmem S1x1x128 .f32 := spec8_1.stage ((cfg8 a).slots t 1)
abbrev hs8_1 (t : Fin (cfg8 a).N) : (ms8_1 a t).IsWhole := hstage8_1 (((cfg8 a).slots t 1).cast nbuf8_1)
abbrev ms8_2 (t : Fin (cfg8 a).N) : Memref sig .tc .vmem S1x1x128 .f32 := spec8_2.stage ((cfg8 a).slots t 2)
abbrev hs8_2 (t : Fin (cfg8 a).N) : (ms8_2 a t).IsWhole := hstage8_2 (((cfg8 a).slots t 2).cast nbuf8_2)

/-- The kernel body at point `t`, on what the pipeline calls it with. -/
abbrev bodyAt8 (t : Fin (cfg8 a).N) : Prog (TpuEff nD τ sig (Elt F) Λ₀ .tc) PUnit :=
  cc8__gather_kernel (grid8.coords t) (Memref.whole main_v33) (Memref.isWhole_whole _) (Memref.whole main_v34) (Memref.isWhole_whole _)
    (ms8_0 a t) (hs8_0 a t) (ms8_1 a t) (hs8_1 a t) (ms8_2 a t) (hs8_2 a t)

/-! ## The windows' blocks -/

/-- Window `w`'s block at point `t`, read off its array as the region finds it: for the two gathered windows the
    row the tables' word at `t` names. -/
def iblk8 (c : Dev nD) (w : Fin (cfg8 a).W) (t : Fin (cfg8 a).N) :
    (((cfg8 a).win w).xblock ((cfg8 a).grid.coords t)).Idx → Elt F ((cfg8 a).win w).elt :=
  (((cfg8 a).win w).blk t).view.read (Elt F) (V c (Pipeline.arrRef spec8 w))

/-- An input window's current staging buffer holds its block at every point, fetched there or not. -/
theorem before8_0_of {c : Dev nD} (dat : Dat τ (Elt F) Unit ℕ (UR sig nD τ) ℕ (cfg8 a) c) (hA : dat.A 0 = V c (Pipeline.arrRef spec8 0))
    (hafter : ∀ t, dat.after 0 t = iblk8 V a c 0 t) (t : Fin (cfg8 a).N) (d) : dat.before 0 t d = iblk8 V a c 0 t :=
  (dat.before_in_eq_fetched 0 rfl (fun _ => rfl) (fun _ _ _ => rfl) (fun t => by rw [hafter]; unfold Dat.blockOf iblk8; rw [hA]; try rfl) t d).trans
    (by unfold Dat.fetched Dat.blockOf iblk8; rw [hA]; try rfl)

theorem before8_1_of {c : Dev nD} (dat : Dat τ (Elt F) Unit ℕ (UR sig nD τ) ℕ (cfg8 a) c) (hA : dat.A 1 = V c (Pipeline.arrRef spec8 1))
    (hafter : ∀ t, dat.after 1 t = iblk8 V a c 1 t) (t : Fin (cfg8 a).N) (d) : dat.before 1 t d = iblk8 V a c 1 t :=
  (dat.before_in_eq_fetched 1 rfl (fun _ => rfl) (fun _ _ _ => rfl) (fun t => by rw [hafter]; unfold Dat.blockOf iblk8; rw [hA]; try rfl) t d).trans
    (by unfold Dat.fetched Dat.blockOf iblk8; rw [hA]; try rfl)

/-! ## What the body leaves in the output window's buffer -/

/-- The one rectangle the body loads and stores through: the whole 1×1×128 block. -/
abbrev r8 : Rect S1x1x128 := Rect.unit (s := S1x1x128) ![0, 0, 0] S1x1x128.size inb_S1x1x128_S1x1x128_0_0_0

/-- The output block after the body, from the two gathered rows: its one store. -/
def out8_2 (x0 x1 : Vec F S1x1x128 .f32) : Vec F S1x1x128 .f32 :=
  View.canon [⟨r8, k8_pay1 (View.ld x0 r8) (View.ld x1 r8)⟩]

/-- The store covers the block. -/
theorem cover8_2 (p0 : Vec F S1x1x128 .f32) (y : S1x1x128.Idx) :
    ∃ pc ∈ ([⟨r8, p0⟩] : List (View.Piece (Elt F) S1x1x128 .f32)), y ∈ pc.1.set :=
  View.cover_of_tiled [⟨r8, p0⟩] S1x1x128.size (by rfl) y

/-! ## The body's run -/

set_option maxHeartbeats 1000000 in
/-- The body on whole staging memrefs, the two inputs' at contents `x0`, `x1` and the output's at anything, runs to the
    continuation holding the inputs as they were and the output at `out8_2 x0 x1`; the table memrefs are not touched. -/
theorem sound_kernel8 (c : Dev nD) (E : Set ℕ) (i : grid8.Coords)
    (arg1 : Memref sig .tc .smem S40000 .i32) (harg1 : arg1.IsWhole) (arg2 : Memref sig .tc .smem S40000 .i32) (harg2 : arg2.IsWhole)
    (arg3 : Memref sig .tc .vmem S1x1x128 .f32) (harg3 : arg3.IsWhole) (arg4 : Memref sig .tc .vmem S1x1x128 .f32) (harg4 : arg4.IsWhole)
    (arg5 : Memref sig .tc .vmem S1x1x128 .f32) (harg5 : arg5.IsWhole)
    (x0 x1 : Vec F S1x1x128 .f32) (K : PUnit → sProp 𝕄) :
    iprop(owns (c : Thread nD τ) arg3 fullShare x0 ∗ owns (c : Thread nD τ) arg4 fullShare x1 ∗ (∃ d, owns (c : Thread nD τ) arg5 fullShare d)
        ∗ (iprop(owns (c : Thread nD τ) arg3 fullShare x0 ∗ owns (c : Thread nD τ) arg4 fullShare x1
            ∗ owns (c : Thread nD τ) arg5 fullShare (out8_2 x0 x1)) -∗ K ⟨⟩))
      ⊢ wp frame (wpE (defs₀ (F := F)) Variants.none c none) E (cc8__gather_kernel i arg1 harg1 arg2 harg2 arg3 harg3 arg4 harg4 arg5 harg5) K := by
  simp only [cc8__gather_kernel_eq_skeleton]; unfold cc8__gather_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover8_2 _)

/-! ## The pipeline's proof data -/

/-- The proof data of this pipeline on core `c`: the arrays as the region finds them; after the body at point `t` each
    gathered input's buffer at its block and the output's at `out8_2` of the two; the invariant: the scoped rest, the
    generator register, and the two index tables held whole and untouched; nothing owed; full shares. -/
def dat8 (c : Dev nD) : Dat τ (Elt F) Unit ℕ (UR sig nD τ) ℕ (cfg8 a) c where
  A w := V c (Pipeline.arrRef spec8 w)
  after w t := match w with
    | ⟨0, _⟩ => iblk8 V a c 0 t
    | ⟨1, _⟩ => iblk8 V a c 1 t
    | ⟨2, _⟩ => out8_2 (iblk8 V a c 0 t) (iblk8 V a c 1 t)
  Φ _ := iprop(Pipeline.ΦA spec8 c ∗ Pipeline.prefHeld (Ix := Unit) (Name := ℕ) (U := UR sig nD τ) (Lvl := ℕ) pre8 c (fun _ => fullShare) a.1)
  q _ := fullShare
  owed _ := 0

theorem A_eq8 (c : Dev nD) (w : Fin (cfg8 a).W) : (dat8 V a c).A w = V c (Pipeline.arrRef spec8 w) := by
  dsimp only [dat8]

theorem after8_0 (c : Dev nD) (t : Fin (cfg8 a).N) : (dat8 V a c).after 0 t = iblk8 V a c 0 t := by dsimp only [dat8]; try rfl
theorem after8_1 (c : Dev nD) (t : Fin (cfg8 a).N) : (dat8 V a c).after 1 t = iblk8 V a c 1 t := by dsimp only [dat8]; try rfl
theorem after8_2 (c : Dev nD) (t : Fin (cfg8 a).N) : (dat8 V a c).after 2 t = out8_2 (iblk8 V a c 0 t) (iblk8 V a c 1 t) := by dsimp only [dat8]; try rfl

theorem before8_0 (c : Dev nD) (t : Fin (cfg8 a).N) (d) : (dat8 V a c).before 0 t d = iblk8 V a c 0 t :=
  before8_0_of V a (dat8 V a c) (A_eq8 V a c 0) (after8_0 V a c) t d
theorem before8_1 (c : Dev nD) (t : Fin (cfg8 a).N) (d) : (dat8 V a c).before 1 t d = iblk8 V a c 1 t :=
  before8_1_of V a (dat8 V a c) (A_eq8 V a c 1) (after8_1 V a c) t d

/-! ## The body obligation, at a generic point -/

def bodyPre8 (c : Dev nD) (t : Fin (cfg8 a).N) : sProp 𝕄 :=
  iprop((dat8 V a c).Φ t.castSucc ∗ (dat8 V a c).owesAt () t.castSucc
    ∗ (∃ d, owns (c : Thread nD τ) (ms8_0 a t) fullShare ((dat8 V a c).before 0 t d))
    ∗ (∃ d, owns (c : Thread nD τ) (ms8_1 a t) fullShare ((dat8 V a c).before 1 t d))
    ∗ (∃ d, owns (c : Thread nD τ) (ms8_2 a t) fullShare ((dat8 V a c).before 2 t d)))

def bodyPost8 (c : Dev nD) (t : Fin (cfg8 a).N) : sProp 𝕄 :=
  iprop((dat8 V a c).Φ t.succ ∗ (dat8 V a c).owesAt () t.succ
    ∗ owns (c : Thread nD τ) (ms8_0 a t) fullShare ((dat8 V a c).after 0 t)
    ∗ owns (c : Thread nD τ) (ms8_1 a t) fullShare ((dat8 V a c).after 1 t)
    ∗ owns (c : Thread nD τ) (ms8_2 a t) fullShare ((dat8 V a c).after 2 t))

/-- The body at any point: the inputs' memrefs hold their blocks, so the run applies; the invariant and the core's
    dues pass through unread. -/
theorem sound_body8 (c : Dev nD) (t : Fin (cfg8 a).N) :
    bodyPre8 V a c t ⊢ wp frame (wpE (defs₀ (F := F)) Variants.none c none) Set.univ (bodyAt8 a t) (fun _ => bodyPost8 V a c t) := by
  unfold bodyPre8 bodyPost8 bodyAt8
  simp only [before8_0, before8_1]
  rw [show (dat8 V a c).Φ t.succ = (dat8 V a c).Φ t.castSucc from rfl,
    show (dat8 V a c).owesAt () t.succ = (dat8 V a c).owesAt () t.castSucc from rfl,
    after8_0, after8_1, after8_2]
  iintro ⟨HΦ, Ho, ⟨%d0, H0⟩, ⟨%d1, H1⟩, ⟨%d2, H2⟩⟩
  iapply (sound_kernel8 c Set.univ _ _ _ _ _ _ _ _ _ _ _ (iblk8 V a c 0 t) (iblk8 V a c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation8 (c : Dev nD) : BodyObligation (dat8 (F := F) V a c) (defs₀ (F := F)) Variants.none () Set.univ := fun t => by
  rw [bigSep_W8, bigSep_W8]
  exact sound_body8 V a c t

end Region

end Cert.Kernel.Hand

end
-- ==== Proof.K.Tables8.lean ====
/-
  Edge chunk 8's index tables. The host slices 40000 consecutive words, from word 280000 on, out of each endpoint
  array (src, then dst) into scalar memory; the chunk's pipeline reads word t of each as the block row of its two
  gathered windows at grid point t. When every endpoint word is a node id (below 50000) each such row lies inside
  the 50000-row arrays: the tables' contents are admissible for the pipeline.
-/
import proofs.«413139_j22651657519351_3_alg».proof.Proof.Gen.Kernel.Launch
import proofs.«413139_j22651657519351_3_alg».proof.Proof.Gen.Kernel.Skeleton
import proofs.«413139_j22651657519351_3_alg».proof.Proof.Gen.Kernel.Points
import proofs.«413139_j22651657519351_3_alg».proof.Proof.K.Range
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Tables

variable (m : (ℓ : Loc nD τ sig) → Buf (Elt F) ℓ)

/-- The two tables' contents, read off the launch memory: the endpoint arrays' words 280000 … 280000 + 39999. -/
def tbl8 : pre8.Contents (Elt F) := fun k => match k with
  | ⟨0, _⟩ => (extractStridedSlice S40000 ![280000] (m (((0 : Dev nD) : Thread nD τ).loc main_arg1)) slices_S800000_S40000_280000 : (⟨S40000, .i32⟩ : BufTy).Contents (Elt F))
  | ⟨1, _⟩ => (extractStridedSlice S40000 ![280000] (m (((0 : Dev nD) : Thread nD τ).loc main_arg2)) slices_S800000_S40000_280000 : (⟨S40000, .i32⟩ : BufTy).Contents (Elt F))

/-- Tables whose every word is below the node count put every gathered block inside its array: row word + 1 ≤ 50000,
    the two unit axes and the 128 lanes exactly filled; float32 words transfer whole. -/
theorem ok8_of (pf : pre8.Contents (Elt F)) (h0 : ∀ j, ((pf 0 j : Elt F .i32) : BitVec 32).toNat < 50000)
    (h1 : ∀ j, ((pf 1 j : Elt F .i32) : BitVec 32).toNat < 50000) : ok8 pf := by
  refine ⟨fun i => ⟨fun a => ?_, Or.inl rfl⟩, fun i => ⟨fun a => ?_, Or.inl rfl⟩⟩
  · match a with
    | ⟨0, _⟩ =>
      show (BitVec.toNat (pf 0 _) + 1) * 1 ≤ 50000
      exact (Nat.mul_one _).le.trans (Nat.succ_le_of_lt (h0 _))
    | ⟨1, _⟩ => show (BitVec.toNat (0#32) + 1) * 1 ≤ 1; decide
    | ⟨2, _⟩ => show (BitVec.toNat (0#32) + 1) * 128 ≤ 128; decide
  · match a with
    | ⟨0, _⟩ =>
      show (BitVec.toNat (pf 1 _) + 1) * 1 ≤ 50000
      exact (Nat.mul_one _).le.trans (Nat.succ_le_of_lt (h1 _))
    | ⟨1, _⟩ => show (BitVec.toNat (0#32) + 1) * 1 ≤ 1; decide
    | ⟨2, _⟩ => show (BitVec.toNat (0#32) + 1) * 128 ≤ 128; decide

/-- The chunk's tables as admissible contents, when the endpoint words are node ids. -/
def a8 (hR : InRange m) : (pcfg8 (F := F)).Adm :=
  ⟨tbl8 m, ok8_of (tbl8 m) (fun j => (hR 0).1 _) (fun j => (hR 0).2 _)⟩

theorem a8_val (hR : InRange m) : (a8 m hR).1 = tbl8 m := rfl

end Tables

end Cert.Kernel.Hand

end
-- ==== Proof.K.Region9.lean ====
/-
  Edge chunk 9's gather kernel (twenty chunks of 40000 edges): at grid point t the pipeline fetches row src[t] of the
  re-laid projection hs2 and row dst[t] of hd2 (two blocks of 128 lanes, chosen by the prefetched index tables),
  the body stores (row + row) · c into the output block, which is written back as row t of the chunk's output.
  Here: what each window's staging buffer holds before and after the body at every point, for any contents V of the
  buffers at the region's entry and any admissible contents `a` of the two index tables, and the body's run.
  The tables ride through the region untouched: the body never reads them.
-/
import proofs.«413139_j22651657519351_3_alg».proof.Proof.Gen.Kernel.Launch
import proofs.«413139_j22651657519351_3_alg».proof.Proof.Gen.Kernel.Skeleton
import proofs.«413139_j22651657519351_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region

variable (V : (c : Dev nD) → (b : Ref sig .tc) → Buf (Elt F) ((c : Thread nD τ).loc b))
variable (a : (pcfg9 (F := F)).Adm)

/-! ## The body as the pipeline calls it at a point -/

/-- Each window's current staging memref at point `t`, and its wholeness. -/
abbrev ms9_0 (t : Fin (cfg9 a).N) : Memref sig .tc .vmem S1x1x128 .f32 := spec9_0.stage ((cfg9 a).slots t 0)
abbrev hs9_0 (t : Fin (cfg9 a).N) : (ms9_0 a t).IsWhole := hstage9_0 (((cfg9 a).slots t 0).cast nbuf9_0)
abbrev ms9_1 (t : Fin (cfg9 a).N) : Memref sig .tc .vmem S1x1x128 .f32 := spec9_1.stage ((cfg9 a).slots t 1)
abbrev hs9_1 (t : Fin (cfg9 a).N) : (ms9_1 a t).IsWhole := hstage9_1 (((cfg9 a).slots t 1).cast nbuf9_1)
abbrev ms9_2 (t : Fin (cfg9 a).N) : Memref sig .tc .vmem S1x1x128 .f32 := spec9_2.stage ((cfg9 a).slots t 2)
abbrev hs9_2 (t : Fin (cfg9 a).N) : (ms9_2 a t).IsWhole := hstage9_2 (((cfg9 a).slots t 2).cast nbuf9_2)

/-- The kernel body at point `t`, on what the pipeline calls it with. -/
abbrev bodyAt9 (t : Fin (cfg9 a).N) : Prog (TpuEff nD τ sig (Elt F) Λ₀ .tc) PUnit :=
  cc9__gather_kernel (grid9.coords t) (Memref.whole main_v37) (Memref.isWhole_whole _) (Memref.whole main_v38) (Memref.isWhole_whole _)
    (ms9_0 a t) (hs9_0 a t) (ms9_1 a t) (hs9_1 a t) (ms9_2 a t) (hs9_2 a t)

/-! ## The windows' blocks -/

/-- Window `w`'s block at point `t`, read off its array as the region finds it: for the two gathered windows the
    row the tables' word at `t` names. -/
def iblk9 (c : Dev nD) (w : Fin (cfg9 a).W) (t : Fin (cfg9 a).N) :
    (((cfg9 a).win w).xblock ((cfg9 a).grid.coords t)).Idx → Elt F ((cfg9 a).win w).elt :=
  (((cfg9 a).win w).blk t).view.read (Elt F) (V c (Pipeline.arrRef spec9 w))

/-- An input window's current staging buffer holds its block at every point, fetched there or not. -/
theorem before9_0_of {c : Dev nD} (dat : Dat τ (Elt F) Unit ℕ (UR sig nD τ) ℕ (cfg9 a) c) (hA : dat.A 0 = V c (Pipeline.arrRef spec9 0))
    (hafter : ∀ t, dat.after 0 t = iblk9 V a c 0 t) (t : Fin (cfg9 a).N) (d) : dat.before 0 t d = iblk9 V a c 0 t :=
  (dat.before_in_eq_fetched 0 rfl (fun _ => rfl) (fun _ _ _ => rfl) (fun t => by rw [hafter]; unfold Dat.blockOf iblk9; rw [hA]; try rfl) t d).trans
    (by unfold Dat.fetched Dat.blockOf iblk9; rw [hA]; try rfl)

theorem before9_1_of {c : Dev nD} (dat : Dat τ (Elt F) Unit ℕ (UR sig nD τ) ℕ (cfg9 a) c) (hA : dat.A 1 = V c (Pipeline.arrRef spec9 1))
    (hafter : ∀ t, dat.after 1 t = iblk9 V a c 1 t) (t : Fin (cfg9 a).N) (d) : dat.before 1 t d = iblk9 V a c 1 t :=
  (dat.before_in_eq_fetched 1 rfl (fun _ => rfl) (fun _ _ _ => rfl) (fun t => by rw [hafter]; unfold Dat.blockOf iblk9; rw [hA]; try rfl) t d).trans
    (by unfold Dat.fetched Dat.blockOf iblk9; rw [hA]; try rfl)

/-! ## What the body leaves in the output window's buffer -/

/-- The one rectangle the body loads and stores through: the whole 1×1×128 block. -/
abbrev r9 : Rect S1x1x128 := Rect.unit (s := S1x1x128) ![0, 0, 0] S1x1x128.size inb_S1x1x128_S1x1x128_0_0_0

/-- The output block after the body, from the two gathered rows: its one store. -/
def out9_2 (x0 x1 : Vec F S1x1x128 .f32) : Vec F S1x1x128 .f32 :=
  View.canon [⟨r9, k9_pay1 (View.ld x0 r9) (View.ld x1 r9)⟩]

/-- The store covers the block. -/
theorem cover9_2 (p0 : Vec F S1x1x128 .f32) (y : S1x1x128.Idx) :
    ∃ pc ∈ ([⟨r9, p0⟩] : List (View.Piece (Elt F) S1x1x128 .f32)), y ∈ pc.1.set :=
  View.cover_of_tiled [⟨r9, p0⟩] S1x1x128.size (by rfl) y

/-! ## The body's run -/

set_option maxHeartbeats 1000000 in
/-- The body on whole staging memrefs, the two inputs' at contents `x0`, `x1` and the output's at anything, runs to the
    continuation holding the inputs as they were and the output at `out9_2 x0 x1`; the table memrefs are not touched. -/
theorem sound_kernel9 (c : Dev nD) (E : Set ℕ) (i : grid9.Coords)
    (arg1 : Memref sig .tc .smem S40000 .i32) (harg1 : arg1.IsWhole) (arg2 : Memref sig .tc .smem S40000 .i32) (harg2 : arg2.IsWhole)
    (arg3 : Memref sig .tc .vmem S1x1x128 .f32) (harg3 : arg3.IsWhole) (arg4 : Memref sig .tc .vmem S1x1x128 .f32) (harg4 : arg4.IsWhole)
    (arg5 : Memref sig .tc .vmem S1x1x128 .f32) (harg5 : arg5.IsWhole)
    (x0 x1 : Vec F S1x1x128 .f32) (K : PUnit → sProp 𝕄) :
    iprop(owns (c : Thread nD τ) arg3 fullShare x0 ∗ owns (c : Thread nD τ) arg4 fullShare x1 ∗ (∃ d, owns (c : Thread nD τ) arg5 fullShare d)
        ∗ (iprop(owns (c : Thread nD τ) arg3 fullShare x0 ∗ owns (c : Thread nD τ) arg4 fullShare x1
            ∗ owns (c : Thread nD τ) arg5 fullShare (out9_2 x0 x1)) -∗ K ⟨⟩))
      ⊢ wp frame (wpE (defs₀ (F := F)) Variants.none c none) E (cc9__gather_kernel i arg1 harg1 arg2 harg2 arg3 harg3 arg4 harg4 arg5 harg5) K := by
  simp only [cc9__gather_kernel_eq_skeleton]; unfold cc9__gather_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover9_2 _)

/-! ## The pipeline's proof data -/

/-- The proof data of this pipeline on core `c`: the arrays as the region finds them; after the body at point `t` each
    gathered input's buffer at its block and the output's at `out9_2` of the two; the invariant: the scoped rest, the
    generator register, and the two index tables held whole and untouched; nothing owed; full shares. -/
def dat9 (c : Dev nD) : Dat τ (Elt F) Unit ℕ (UR sig nD τ) ℕ (cfg9 a) c where
  A w := V c (Pipeline.arrRef spec9 w)
  after w t := match w with
    | ⟨0, _⟩ => iblk9 V a c 0 t
    | ⟨1, _⟩ => iblk9 V a c 1 t
    | ⟨2, _⟩ => out9_2 (iblk9 V a c 0 t) (iblk9 V a c 1 t)
  Φ _ := iprop(Pipeline.ΦA spec9 c ∗ Pipeline.prefHeld (Ix := Unit) (Name := ℕ) (U := UR sig nD τ) (Lvl := ℕ) pre9 c (fun _ => fullShare) a.1)
  q _ := fullShare
  owed _ := 0

theorem A_eq9 (c : Dev nD) (w : Fin (cfg9 a).W) : (dat9 V a c).A w = V c (Pipeline.arrRef spec9 w) := by
  dsimp only [dat9]

theorem after9_0 (c : Dev nD) (t : Fin (cfg9 a).N) : (dat9 V a c).after 0 t = iblk9 V a c 0 t := by dsimp only [dat9]; try rfl
theorem after9_1 (c : Dev nD) (t : Fin (cfg9 a).N) : (dat9 V a c).after 1 t = iblk9 V a c 1 t := by dsimp only [dat9]; try rfl
theorem after9_2 (c : Dev nD) (t : Fin (cfg9 a).N) : (dat9 V a c).after 2 t = out9_2 (iblk9 V a c 0 t) (iblk9 V a c 1 t) := by dsimp only [dat9]; try rfl

theorem before9_0 (c : Dev nD) (t : Fin (cfg9 a).N) (d) : (dat9 V a c).before 0 t d = iblk9 V a c 0 t :=
  before9_0_of V a (dat9 V a c) (A_eq9 V a c 0) (after9_0 V a c) t d
theorem before9_1 (c : Dev nD) (t : Fin (cfg9 a).N) (d) : (dat9 V a c).before 1 t d = iblk9 V a c 1 t :=
  before9_1_of V a (dat9 V a c) (A_eq9 V a c 1) (after9_1 V a c) t d

/-! ## The body obligation, at a generic point -/

def bodyPre9 (c : Dev nD) (t : Fin (cfg9 a).N) : sProp 𝕄 :=
  iprop((dat9 V a c).Φ t.castSucc ∗ (dat9 V a c).owesAt () t.castSucc
    ∗ (∃ d, owns (c : Thread nD τ) (ms9_0 a t) fullShare ((dat9 V a c).before 0 t d))
    ∗ (∃ d, owns (c : Thread nD τ) (ms9_1 a t) fullShare ((dat9 V a c).before 1 t d))
    ∗ (∃ d, owns (c : Thread nD τ) (ms9_2 a t) fullShare ((dat9 V a c).before 2 t d)))

def bodyPost9 (c : Dev nD) (t : Fin (cfg9 a).N) : sProp 𝕄 :=
  iprop((dat9 V a c).Φ t.succ ∗ (dat9 V a c).owesAt () t.succ
    ∗ owns (c : Thread nD τ) (ms9_0 a t) fullShare ((dat9 V a c).after 0 t)
    ∗ owns (c : Thread nD τ) (ms9_1 a t) fullShare ((dat9 V a c).after 1 t)
    ∗ owns (c : Thread nD τ) (ms9_2 a t) fullShare ((dat9 V a c).after 2 t))

/-- The body at any point: the inputs' memrefs hold their blocks, so the run applies; the invariant and the core's
    dues pass through unread. -/
theorem sound_body9 (c : Dev nD) (t : Fin (cfg9 a).N) :
    bodyPre9 V a c t ⊢ wp frame (wpE (defs₀ (F := F)) Variants.none c none) Set.univ (bodyAt9 a t) (fun _ => bodyPost9 V a c t) := by
  unfold bodyPre9 bodyPost9 bodyAt9
  simp only [before9_0, before9_1]
  rw [show (dat9 V a c).Φ t.succ = (dat9 V a c).Φ t.castSucc from rfl,
    show (dat9 V a c).owesAt () t.succ = (dat9 V a c).owesAt () t.castSucc from rfl,
    after9_0, after9_1, after9_2]
  iintro ⟨HΦ, Ho, ⟨%d0, H0⟩, ⟨%d1, H1⟩, ⟨%d2, H2⟩⟩
  iapply (sound_kernel9 c Set.univ _ _ _ _ _ _ _ _ _ _ _ (iblk9 V a c 0 t) (iblk9 V a c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation9 (c : Dev nD) : BodyObligation (dat9 (F := F) V a c) (defs₀ (F := F)) Variants.none () Set.univ := fun t => by
  rw [bigSep_W9, bigSep_W9]
  exact sound_body9 V a c t

end Region

end Cert.Kernel.Hand

end
-- ==== Proof.K.Tables9.lean ====
/-
  Edge chunk 9's index tables. The host slices 40000 consecutive words, from word 320000 on, out of each endpoint
  array (src, then dst) into scalar memory; the chunk's pipeline reads word t of each as the block row of its two
  gathered windows at grid point t. When every endpoint word is a node id (below 50000) each such row lies inside
  the 50000-row arrays: the tables' contents are admissible for the pipeline.
-/
import proofs.«413139_j22651657519351_3_alg».proof.Proof.Gen.Kernel.Launch
import proofs.«413139_j22651657519351_3_alg».proof.Proof.Gen.Kernel.Skeleton
import proofs.«413139_j22651657519351_3_alg».proof.Proof.Gen.Kernel.Points
import proofs.«413139_j22651657519351_3_alg».proof.Proof.K.Range
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Tables

variable (m : (ℓ : Loc nD τ sig) → Buf (Elt F) ℓ)

/-- The two tables' contents, read off the launch memory: the endpoint arrays' words 320000 … 320000 + 39999. -/
def tbl9 : pre9.Contents (Elt F) := fun k => match k with
  | ⟨0, _⟩ => (extractStridedSlice S40000 ![320000] (m (((0 : Dev nD) : Thread nD τ).loc main_arg1)) slices_S800000_S40000_320000 : (⟨S40000, .i32⟩ : BufTy).Contents (Elt F))
  | ⟨1, _⟩ => (extractStridedSlice S40000 ![320000] (m (((0 : Dev nD) : Thread nD τ).loc main_arg2)) slices_S800000_S40000_320000 : (⟨S40000, .i32⟩ : BufTy).Contents (Elt F))

/-- Tables whose every word is below the node count put every gathered block inside its array: row word + 1 ≤ 50000,
    the two unit axes and the 128 lanes exactly filled; float32 words transfer whole. -/
theorem ok9_of (pf : pre9.Contents (Elt F)) (h0 : ∀ j, ((pf 0 j : Elt F .i32) : BitVec 32).toNat < 50000)
    (h1 : ∀ j, ((pf 1 j : Elt F .i32) : BitVec 32).toNat < 50000) : ok9 pf := by
  refine ⟨fun i => ⟨fun a => ?_, Or.inl rfl⟩, fun i => ⟨fun a => ?_, Or.inl rfl⟩⟩
  · match a with
    | ⟨0, _⟩ =>
      show (BitVec.toNat (pf 0 _) + 1) * 1 ≤ 50000
      exact (Nat.mul_one _).le.trans (Nat.succ_le_of_lt (h0 _))
    | ⟨1, _⟩ => show (BitVec.toNat (0#32) + 1) * 1 ≤ 1; decide
    | ⟨2, _⟩ => show (BitVec.toNat (0#32) + 1) * 128 ≤ 128; decide
  · match a with
    | ⟨0, _⟩ =>
      show (BitVec.toNat (pf 1 _) + 1) * 1 ≤ 50000
      exact (Nat.mul_one _).le.trans (Nat.succ_le_of_lt (h1 _))
    | ⟨1, _⟩ => show (BitVec.toNat (0#32) + 1) * 1 ≤ 1; decide
    | ⟨2, _⟩ => show (BitVec.toNat (0#32) + 1) * 128 ≤ 128; decide

/-- The chunk's tables as admissible contents, when the endpoint words are node ids. -/
def a9 (hR : InRange m) : (pcfg9 (F := F)).Adm :=
  ⟨tbl9 m, ok9_of (tbl9 m) (fun j => (hR 0).1 _) (fun j => (hR 0).2 _)⟩

theorem a9_val (hR : InRange m) : (a9 m hR).1 = tbl9 m := rfl

end Tables

end Cert.Kernel.Hand

end
-- ==== Proof.K.Region10.lean ====
/-
  Edge chunk 10's gather kernel (twenty chunks of 40000 edges): at grid point t the pipeline fetches row src[t] of the
  re-laid projection hs2 and row dst[t] of hd2 (two blocks of 128 lanes, chosen by the prefetched index tables),
  the body stores (row + row) · c into the output block, which is written back as row t of the chunk's output.
  Here: what each window's staging buffer holds before and after the body at every point, for any contents V of the
  buffers at the region's entry and any admissible contents `a` of the two index tables, and the body's run.
  The tables ride through the region untouched: the body never reads them.
-/
import proofs.«413139_j22651657519351_3_alg».proof.Proof.Gen.Kernel.Launch
import proofs.«413139_j22651657519351_3_alg».proof.Proof.Gen.Kernel.Skeleton
import proofs.«413139_j22651657519351_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region

variable (V : (c : Dev nD) → (b : Ref sig .tc) → Buf (Elt F) ((c : Thread nD τ).loc b))
variable (a : (pcfg10 (F := F)).Adm)

/-! ## The body as the pipeline calls it at a point -/

/-- Each window's current staging memref at point `t`, and its wholeness. -/
abbrev ms10_0 (t : Fin (cfg10 a).N) : Memref sig .tc .vmem S1x1x128 .f32 := spec10_0.stage ((cfg10 a).slots t 0)
abbrev hs10_0 (t : Fin (cfg10 a).N) : (ms10_0 a t).IsWhole := hstage10_0 (((cfg10 a).slots t 0).cast nbuf10_0)
abbrev ms10_1 (t : Fin (cfg10 a).N) : Memref sig .tc .vmem S1x1x128 .f32 := spec10_1.stage ((cfg10 a).slots t 1)
abbrev hs10_1 (t : Fin (cfg10 a).N) : (ms10_1 a t).IsWhole := hstage10_1 (((cfg10 a).slots t 1).cast nbuf10_1)
abbrev ms10_2 (t : Fin (cfg10 a).N) : Memref sig .tc .vmem S1x1x128 .f32 := spec10_2.stage ((cfg10 a).slots t 2)
abbrev hs10_2 (t : Fin (cfg10 a).N) : (ms10_2 a t).IsWhole := hstage10_2 (((cfg10 a).slots t 2).cast nbuf10_2)

/-- The kernel body at point `t`, on what the pipeline calls it with. -/
abbrev bodyAt10 (t : Fin (cfg10 a).N) : Prog (TpuEff nD τ sig (Elt F) Λ₀ .tc) PUnit :=
  cc10__gather_kernel (grid10.coords t) (Memref.whole main_v41) (Memref.isWhole_whole _) (Memref.whole main_v42) (Memref.isWhole_whole _)
    (ms10_0 a t) (hs10_0 a t) (ms10_1 a t) (hs10_1 a t) (ms10_2 a t) (hs10_2 a t)

/-! ## The windows' blocks -/

/-- Window `w`'s block at point `t`, read off its array as the region finds it: for the two gathered windows the
    row the tables' word at `t` names. -/
def iblk10 (c : Dev nD) (w : Fin (cfg10 a).W) (t : Fin (cfg10 a).N) :
    (((cfg10 a).win w).xblock ((cfg10 a).grid.coords t)).Idx → Elt F ((cfg10 a).win w).elt :=
  (((cfg10 a).win w).blk t).view.read (Elt F) (V c (Pipeline.arrRef spec10 w))

/-- An input window's current staging buffer holds its block at every point, fetched there or not. -/
theorem before10_0_of {c : Dev nD} (dat : Dat τ (Elt F) Unit ℕ (UR sig nD τ) ℕ (cfg10 a) c) (hA : dat.A 0 = V c (Pipeline.arrRef spec10 0))
    (hafter : ∀ t, dat.after 0 t = iblk10 V a c 0 t) (t : Fin (cfg10 a).N) (d) : dat.before 0 t d = iblk10 V a c 0 t :=
  (dat.before_in_eq_fetched 0 rfl (fun _ => rfl) (fun _ _ _ => rfl) (fun t => by rw [hafter]; unfold Dat.blockOf iblk10; rw [hA]; try rfl) t d).trans
    (by unfold Dat.fetched Dat.blockOf iblk10; rw [hA]; try rfl)

theorem before10_1_of {c : Dev nD} (dat : Dat τ (Elt F) Unit ℕ (UR sig nD τ) ℕ (cfg10 a) c) (hA : dat.A 1 = V c (Pipeline.arrRef spec10 1))
    (hafter : ∀ t, dat.after 1 t = iblk10 V a c 1 t) (t : Fin (cfg10 a).N) (d) : dat.before 1 t d = iblk10 V a c 1 t :=
  (dat.before_in_eq_fetched 1 rfl (fun _ => rfl) (fun _ _ _ => rfl) (fun t => by rw [hafter]; unfold Dat.blockOf iblk10; rw [hA]; try rfl) t d).trans
    (by unfold Dat.fetched Dat.blockOf iblk10; rw [hA]; try rfl)

/-! ## What the body leaves in the output window's buffer -/

/-- The one rectangle the body loads and stores through: the whole 1×1×128 block. -/
abbrev r10 : Rect S1x1x128 := Rect.unit (s := S1x1x128) ![0, 0, 0] S1x1x128.size inb_S1x1x128_S1x1x128_0_0_0

/-- The output block after the body, from the two gathered rows: its one store. -/
def out10_2 (x0 x1 : Vec F S1x1x128 .f32) : Vec F S1x1x128 .f32 :=
  View.canon [⟨r10, k10_pay1 (View.ld x0 r10) (View.ld x1 r10)⟩]

/-- The store covers the block. -/
theorem cover10_2 (p0 : Vec F S1x1x128 .f32) (y : S1x1x128.Idx) :
    ∃ pc ∈ ([⟨r10, p0⟩] : List (View.Piece (Elt F) S1x1x128 .f32)), y ∈ pc.1.set :=
  View.cover_of_tiled [⟨r10, p0⟩] S1x1x128.size (by rfl) y

/-! ## The body's run -/

set_option maxHeartbeats 1000000 in
/-- The body on whole staging memrefs, the two inputs' at contents `x0`, `x1` and the output's at anything, runs to the
    continuation holding the inputs as they were and the output at `out10_2 x0 x1`; the table memrefs are not touched. -/
theorem sound_kernel10 (c : Dev nD) (E : Set ℕ) (i : grid10.Coords)
    (arg1 : Memref sig .tc .smem S40000 .i32) (harg1 : arg1.IsWhole) (arg2 : Memref sig .tc .smem S40000 .i32) (harg2 : arg2.IsWhole)
    (arg3 : Memref sig .tc .vmem S1x1x128 .f32) (harg3 : arg3.IsWhole) (arg4 : Memref sig .tc .vmem S1x1x128 .f32) (harg4 : arg4.IsWhole)
    (arg5 : Memref sig .tc .vmem S1x1x128 .f32) (harg5 : arg5.IsWhole)
    (x0 x1 : Vec F S1x1x128 .f32) (K : PUnit → sProp 𝕄) :
    iprop(owns (c : Thread nD τ) arg3 fullShare x0 ∗ owns (c : Thread nD τ) arg4 fullShare x1 ∗ (∃ d, owns (c : Thread nD τ) arg5 fullShare d)
        ∗ (iprop(owns (c : Thread nD τ) arg3 fullShare x0 ∗ owns (c : Thread nD τ) arg4 fullShare x1
            ∗ owns (c : Thread nD τ) arg5 fullShare (out10_2 x0 x1)) -∗ K ⟨⟩))
      ⊢ wp frame (wpE (defs₀ (F := F)) Variants.none c none) E (cc10__gather_kernel i arg1 harg1 arg2 harg2 arg3 harg3 arg4 harg4 arg5 harg5) K := by
  simp only [cc10__gather_kernel_eq_skeleton]; unfold cc10__gather_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover10_2 _)

/-! ## The pipeline's proof data -/

/-- The proof data of this pipeline on core `c`: the arrays as the region finds them; after the body at point `t` each
    gathered input's buffer at its block and the output's at `out10_2` of the two; the invariant: the scoped rest, the
    generator register, and the two index tables held whole and untouched; nothing owed; full shares. -/
def dat10 (c : Dev nD) : Dat τ (Elt F) Unit ℕ (UR sig nD τ) ℕ (cfg10 a) c where
  A w := V c (Pipeline.arrRef spec10 w)
  after w t := match w with
    | ⟨0, _⟩ => iblk10 V a c 0 t
    | ⟨1, _⟩ => iblk10 V a c 1 t
    | ⟨2, _⟩ => out10_2 (iblk10 V a c 0 t) (iblk10 V a c 1 t)
  Φ _ := iprop(Pipeline.ΦA spec10 c ∗ Pipeline.prefHeld (Ix := Unit) (Name := ℕ) (U := UR sig nD τ) (Lvl := ℕ) pre10 c (fun _ => fullShare) a.1)
  q _ := fullShare
  owed _ := 0

theorem A_eq10 (c : Dev nD) (w : Fin (cfg10 a).W) : (dat10 V a c).A w = V c (Pipeline.arrRef spec10 w) := by
  dsimp only [dat10]

theorem after10_0 (c : Dev nD) (t : Fin (cfg10 a).N) : (dat10 V a c).after 0 t = iblk10 V a c 0 t := by dsimp only [dat10]; try rfl
theorem after10_1 (c : Dev nD) (t : Fin (cfg10 a).N) : (dat10 V a c).after 1 t = iblk10 V a c 1 t := by dsimp only [dat10]; try rfl
theorem after10_2 (c : Dev nD) (t : Fin (cfg10 a).N) : (dat10 V a c).after 2 t = out10_2 (iblk10 V a c 0 t) (iblk10 V a c 1 t) := by dsimp only [dat10]; try rfl

theorem before10_0 (c : Dev nD) (t : Fin (cfg10 a).N) (d) : (dat10 V a c).before 0 t d = iblk10 V a c 0 t :=
  before10_0_of V a (dat10 V a c) (A_eq10 V a c 0) (after10_0 V a c) t d
theorem before10_1 (c : Dev nD) (t : Fin (cfg10 a).N) (d) : (dat10 V a c).before 1 t d = iblk10 V a c 1 t :=
  before10_1_of V a (dat10 V a c) (A_eq10 V a c 1) (after10_1 V a c) t d

/-! ## The body obligation, at a generic point -/

def bodyPre10 (c : Dev nD) (t : Fin (cfg10 a).N) : sProp 𝕄 :=
  iprop((dat10 V a c).Φ t.castSucc ∗ (dat10 V a c).owesAt () t.castSucc
    ∗ (∃ d, owns (c : Thread nD τ) (ms10_0 a t) fullShare ((dat10 V a c).before 0 t d))
    ∗ (∃ d, owns (c : Thread nD τ) (ms10_1 a t) fullShare ((dat10 V a c).before 1 t d))
    ∗ (∃ d, owns (c : Thread nD τ) (ms10_2 a t) fullShare ((dat10 V a c).before 2 t d)))

def bodyPost10 (c : Dev nD) (t : Fin (cfg10 a).N) : sProp 𝕄 :=
  iprop((dat10 V a c).Φ t.succ ∗ (dat10 V a c).owesAt () t.succ
    ∗ owns (c : Thread nD τ) (ms10_0 a t) fullShare ((dat10 V a c).after 0 t)
    ∗ owns (c : Thread nD τ) (ms10_1 a t) fullShare ((dat10 V a c).after 1 t)
    ∗ owns (c : Thread nD τ) (ms10_2 a t) fullShare ((dat10 V a c).after 2 t))

/-- The body at any point: the inputs' memrefs hold their blocks, so the run applies; the invariant and the core's
    dues pass through unread. -/
theorem sound_body10 (c : Dev nD) (t : Fin (cfg10 a).N) :
    bodyPre10 V a c t ⊢ wp frame (wpE (defs₀ (F := F)) Variants.none c none) Set.univ (bodyAt10 a t) (fun _ => bodyPost10 V a c t) := by
  unfold bodyPre10 bodyPost10 bodyAt10
  simp only [before10_0, before10_1]
  rw [show (dat10 V a c).Φ t.succ = (dat10 V a c).Φ t.castSucc from rfl,
    show (dat10 V a c).owesAt () t.succ = (dat10 V a c).owesAt () t.castSucc from rfl,
    after10_0, after10_1, after10_2]
  iintro ⟨HΦ, Ho, ⟨%d0, H0⟩, ⟨%d1, H1⟩, ⟨%d2, H2⟩⟩
  iapply (sound_kernel10 c Set.univ _ _ _ _ _ _ _ _ _ _ _ (iblk10 V a c 0 t) (iblk10 V a c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation10 (c : Dev nD) : BodyObligation (dat10 (F := F) V a c) (defs₀ (F := F)) Variants.none () Set.univ := fun t => by
  rw [bigSep_W10, bigSep_W10]
  exact sound_body10 V a c t

end Region

end Cert.Kernel.Hand

end
-- ==== Proof.K.Tables10.lean ====
/-
  Edge chunk 10's index tables. The host slices 40000 consecutive words, from word 360000 on, out of each endpoint
  array (src, then dst) into scalar memory; the chunk's pipeline reads word t of each as the block row of its two
  gathered windows at grid point t. When every endpoint word is a node id (below 50000) each such row lies inside
  the 50000-row arrays: the tables' contents are admissible for the pipeline.
-/
import proofs.«413139_j22651657519351_3_alg».proof.Proof.Gen.Kernel.Launch
import proofs.«413139_j22651657519351_3_alg».proof.Proof.Gen.Kernel.Skeleton
import proofs.«413139_j22651657519351_3_alg».proof.Proof.Gen.Kernel.Points
import proofs.«413139_j22651657519351_3_alg».proof.Proof.K.Range
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Tables

variable (m : (ℓ : Loc nD τ sig) → Buf (Elt F) ℓ)

/-- The two tables' contents, read off the launch memory: the endpoint arrays' words 360000 … 360000 + 39999. -/
def tbl10 : pre10.Contents (Elt F) := fun k => match k with
  | ⟨0, _⟩ => (extractStridedSlice S40000 ![360000] (m (((0 : Dev nD) : Thread nD τ).loc main_arg1)) slices_S800000_S40000_360000 : (⟨S40000, .i32⟩ : BufTy).Contents (Elt F))
  | ⟨1, _⟩ => (extractStridedSlice S40000 ![360000] (m (((0 : Dev nD) : Thread nD τ).loc main_arg2)) slices_S800000_S40000_360000 : (⟨S40000, .i32⟩ : BufTy).Contents (Elt F))

/-- Tables whose every word is below the node count put every gathered block inside its array: row word + 1 ≤ 50000,
    the two unit axes and the 128 lanes exactly filled; float32 words transfer whole. -/
theorem ok10_of (pf : pre10.Contents (Elt F)) (h0 : ∀ j, ((pf 0 j : Elt F .i32) : BitVec 32).toNat < 50000)
    (h1 : ∀ j, ((pf 1 j : Elt F .i32) : BitVec 32).toNat < 50000) : ok10 pf := by
  refine ⟨fun i => ⟨fun a => ?_, Or.inl rfl⟩, fun i => ⟨fun a => ?_, Or.inl rfl⟩⟩
  · match a with
    | ⟨0, _⟩ =>
      show (BitVec.toNat (pf 0 _) + 1) * 1 ≤ 50000
      exact (Nat.mul_one _).le.trans (Nat.succ_le_of_lt (h0 _))
    | ⟨1, _⟩ => show (BitVec.toNat (0#32) + 1) * 1 ≤ 1; decide
    | ⟨2, _⟩ => show (BitVec.toNat (0#32) + 1) * 128 ≤ 128; decide
  · match a with
    | ⟨0, _⟩ =>
      show (BitVec.toNat (pf 1 _) + 1) * 1 ≤ 50000
      exact (Nat.mul_one _).le.trans (Nat.succ_le_of_lt (h1 _))
    | ⟨1, _⟩ => show (BitVec.toNat (0#32) + 1) * 1 ≤ 1; decide
    | ⟨2, _⟩ => show (BitVec.toNat (0#32) + 1) * 128 ≤ 128; decide

/-- The chunk's tables as admissible contents, when the endpoint words are node ids. -/
def a10 (hR : InRange m) : (pcfg10 (F := F)).Adm :=
  ⟨tbl10 m, ok10_of (tbl10 m) (fun j => (hR 0).1 _) (fun j => (hR 0).2 _)⟩

theorem a10_val (hR : InRange m) : (a10 m hR).1 = tbl10 m := rfl

end Tables

end Cert.Kernel.Hand

end
-- ==== Proof.K.Region11.lean ====
/-
  Edge chunk 11's gather kernel (twenty chunks of 40000 edges): at grid point t the pipeline fetches row src[t] of the
  re-laid projection hs2 and row dst[t] of hd2 (two blocks of 128 lanes, chosen by the prefetched index tables),
  the body stores (row + row) · c into the output block, which is written back as row t of the chunk's output.
  Here: what each window's staging buffer holds before and after the body at every point, for any contents V of the
  buffers at the region's entry and any admissible contents `a` of the two index tables, and the body's run.
  The tables ride through the region untouched: the body never reads them.
-/
import proofs.«413139_j22651657519351_3_alg».proof.Proof.Gen.Kernel.Launch
import proofs.«413139_j22651657519351_3_alg».proof.Proof.Gen.Kernel.Skeleton
import proofs.«413139_j22651657519351_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region

variable (V : (c : Dev nD) → (b : Ref sig .tc) → Buf (Elt F) ((c : Thread nD τ).loc b))
variable (a : (pcfg11 (F := F)).Adm)

/-! ## The body as the pipeline calls it at a point -/

/-- Each window's current staging memref at point `t`, and its wholeness. -/
abbrev ms11_0 (t : Fin (cfg11 a).N) : Memref sig .tc .vmem S1x1x128 .f32 := spec11_0.stage ((cfg11 a).slots t 0)
abbrev hs11_0 (t : Fin (cfg11 a).N) : (ms11_0 a t).IsWhole := hstage11_0 (((cfg11 a).slots t 0).cast nbuf11_0)
abbrev ms11_1 (t : Fin (cfg11 a).N) : Memref sig .tc .vmem S1x1x128 .f32 := spec11_1.stage ((cfg11 a).slots t 1)
abbrev hs11_1 (t : Fin (cfg11 a).N) : (ms11_1 a t).IsWhole := hstage11_1 (((cfg11 a).slots t 1).cast nbuf11_1)
abbrev ms11_2 (t : Fin (cfg11 a).N) : Memref sig .tc .vmem S1x1x128 .f32 := spec11_2.stage ((cfg11 a).slots t 2)
abbrev hs11_2 (t : Fin (cfg11 a).N) : (ms11_2 a t).IsWhole := hstage11_2 (((cfg11 a).slots t 2).cast nbuf11_2)

/-- The kernel body at point `t`, on what the pipeline calls it with. -/
abbrev bodyAt11 (t : Fin (cfg11 a).N) : Prog (TpuEff nD τ sig (Elt F) Λ₀ .tc) PUnit :=
  cc11__gather_kernel (grid11.coords t) (Memref.whole main_v45) (Memref.isWhole_whole _) (Memref.whole main_v46) (Memref.isWhole_whole _)
    (ms11_0 a t) (hs11_0 a t) (ms11_1 a t) (hs11_1 a t) (ms11_2 a t) (hs11_2 a t)

/-! ## The windows' blocks -/

/-- Window `w`'s block at point `t`, read off its array as the region finds it: for the two gathered windows the
    row the tables' word at `t` names. -/
def iblk11 (c : Dev nD) (w : Fin (cfg11 a).W) (t : Fin (cfg11 a).N) :
    (((cfg11 a).win w).xblock ((cfg11 a).grid.coords t)).Idx → Elt F ((cfg11 a).win w).elt :=
  (((cfg11 a).win w).blk t).view.read (Elt F) (V c (Pipeline.arrRef spec11 w))

/-- An input window's current staging buffer holds its block at every point, fetched there or not. -/
theorem before11_0_of {c : Dev nD} (dat : Dat τ (Elt F) Unit ℕ (UR sig nD τ) ℕ (cfg11 a) c) (hA : dat.A 0 = V c (Pipeline.arrRef spec11 0))
    (hafter : ∀ t, dat.after 0 t = iblk11 V a c 0 t) (t : Fin (cfg11 a).N) (d) : dat.before 0 t d = iblk11 V a c 0 t :=
  (dat.before_in_eq_fetched 0 rfl (fun _ => rfl) (fun _ _ _ => rfl) (fun t => by rw [hafter]; unfold Dat.blockOf iblk11; rw [hA]; try rfl) t d).trans
    (by unfold Dat.fetched Dat.blockOf iblk11; rw [hA]; try rfl)

theorem before11_1_of {c : Dev nD} (dat : Dat τ (Elt F) Unit ℕ (UR sig nD τ) ℕ (cfg11 a) c) (hA : dat.A 1 = V c (Pipeline.arrRef spec11 1))
    (hafter : ∀ t, dat.after 1 t = iblk11 V a c 1 t) (t : Fin (cfg11 a).N) (d) : dat.before 1 t d = iblk11 V a c 1 t :=
  (dat.before_in_eq_fetched 1 rfl (fun _ => rfl) (fun _ _ _ => rfl) (fun t => by rw [hafter]; unfold Dat.blockOf iblk11; rw [hA]; try rfl) t d).trans
    (by unfold Dat.fetched Dat.blockOf iblk11; rw [hA]; try rfl)

/-! ## What the body leaves in the output window's buffer -/

/-- The one rectangle the body loads and stores through: the whole 1×1×128 block. -/
abbrev r11 : Rect S1x1x128 := Rect.unit (s := S1x1x128) ![0, 0, 0] S1x1x128.size inb_S1x1x128_S1x1x128_0_0_0

/-- The output block after the body, from the two gathered rows: its one store. -/
def out11_2 (x0 x1 : Vec F S1x1x128 .f32) : Vec F S1x1x128 .f32 :=
  View.canon [⟨r11, k11_pay1 (View.ld x0 r11) (View.ld x1 r11)⟩]

/-- The store covers the block. -/
theorem cover11_2 (p0 : Vec F S1x1x128 .f32) (y : S1x1x128.Idx) :
    ∃ pc ∈ ([⟨r11, p0⟩] : List (View.Piece (Elt F) S1x1x128 .f32)), y ∈ pc.1.set :=
  View.cover_of_tiled [⟨r11, p0⟩] S1x1x128.size (by rfl) y

/-! ## The body's run -/

set_option maxHeartbeats 1000000 in
/-- The body on whole staging memrefs, the two inputs' at contents `x0`, `x1` and the output's at anything, runs to the
    continuation holding the inputs as they were and the output at `out11_2 x0 x1`; the table memrefs are not touched. -/
theorem sound_kernel11 (c : Dev nD) (E : Set ℕ) (i : grid11.Coords)
    (arg1 : Memref sig .tc .smem S40000 .i32) (harg1 : arg1.IsWhole) (arg2 : Memref sig .tc .smem S40000 .i32) (harg2 : arg2.IsWhole)
    (arg3 : Memref sig .tc .vmem S1x1x128 .f32) (harg3 : arg3.IsWhole) (arg4 : Memref sig .tc .vmem S1x1x128 .f32) (harg4 : arg4.IsWhole)
    (arg5 : Memref sig .tc .vmem S1x1x128 .f32) (harg5 : arg5.IsWhole)
    (x0 x1 : Vec F S1x1x128 .f32) (K : PUnit → sProp 𝕄) :
    iprop(owns (c : Thread nD τ) arg3 fullShare x0 ∗ owns (c : Thread nD τ) arg4 fullShare x1 ∗ (∃ d, owns (c : Thread nD τ) arg5 fullShare d)
        ∗ (iprop(owns (c : Thread nD τ) arg3 fullShare x0 ∗ owns (c : Thread nD τ) arg4 fullShare x1
            ∗ owns (c : Thread nD τ) arg5 fullShare (out11_2 x0 x1)) -∗ K ⟨⟩))
      ⊢ wp frame (wpE (defs₀ (F := F)) Variants.none c none) E (cc11__gather_kernel i arg1 harg1 arg2 harg2 arg3 harg3 arg4 harg4 arg5 harg5) K := by
  simp only [cc11__gather_kernel_eq_skeleton]; unfold cc11__gather_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover11_2 _)

/-! ## The pipeline's proof data -/

/-- The proof data of this pipeline on core `c`: the arrays as the region finds them; after the body at point `t` each
    gathered input's buffer at its block and the output's at `out11_2` of the two; the invariant: the scoped rest, the
    generator register, and the two index tables held whole and untouched; nothing owed; full shares. -/
def dat11 (c : Dev nD) : Dat τ (Elt F) Unit ℕ (UR sig nD τ) ℕ (cfg11 a) c where
  A w := V c (Pipeline.arrRef spec11 w)
  after w t := match w with
    | ⟨0, _⟩ => iblk11 V a c 0 t
    | ⟨1, _⟩ => iblk11 V a c 1 t
    | ⟨2, _⟩ => out11_2 (iblk11 V a c 0 t) (iblk11 V a c 1 t)
  Φ _ := iprop(Pipeline.ΦA spec11 c ∗ Pipeline.prefHeld (Ix := Unit) (Name := ℕ) (U := UR sig nD τ) (Lvl := ℕ) pre11 c (fun _ => fullShare) a.1)
  q _ := fullShare
  owed _ := 0

theorem A_eq11 (c : Dev nD) (w : Fin (cfg11 a).W) : (dat11 V a c).A w = V c (Pipeline.arrRef spec11 w) := by
  dsimp only [dat11]

theorem after11_0 (c : Dev nD) (t : Fin (cfg11 a).N) : (dat11 V a c).after 0 t = iblk11 V a c 0 t := by dsimp only [dat11]; try rfl
theorem after11_1 (c : Dev nD) (t : Fin (cfg11 a).N) : (dat11 V a c).after 1 t = iblk11 V a c 1 t := by dsimp only [dat11]; try rfl
theorem after11_2 (c : Dev nD) (t : Fin (cfg11 a).N) : (dat11 V a c).after 2 t = out11_2 (iblk11 V a c 0 t) (iblk11 V a c 1 t) := by dsimp only [dat11]; try rfl

theorem before11_0 (c : Dev nD) (t : Fin (cfg11 a).N) (d) : (dat11 V a c).before 0 t d = iblk11 V a c 0 t :=
  before11_0_of V a (dat11 V a c) (A_eq11 V a c 0) (after11_0 V a c) t d
theorem before11_1 (c : Dev nD) (t : Fin (cfg11 a).N) (d) : (dat11 V a c).before 1 t d = iblk11 V a c 1 t :=
  before11_1_of V a (dat11 V a c) (A_eq11 V a c 1) (after11_1 V a c) t d

/-! ## The body obligation, at a generic point -/

def bodyPre11 (c : Dev nD) (t : Fin (cfg11 a).N) : sProp 𝕄 :=
  iprop((dat11 V a c).Φ t.castSucc ∗ (dat11 V a c).owesAt () t.castSucc
    ∗ (∃ d, owns (c : Thread nD τ) (ms11_0 a t) fullShare ((dat11 V a c).before 0 t d))
    ∗ (∃ d, owns (c : Thread nD τ) (ms11_1 a t) fullShare ((dat11 V a c).before 1 t d))
    ∗ (∃ d, owns (c : Thread nD τ) (ms11_2 a t) fullShare ((dat11 V a c).before 2 t d)))

def bodyPost11 (c : Dev nD) (t : Fin (cfg11 a).N) : sProp 𝕄 :=
  iprop((dat11 V a c).Φ t.succ ∗ (dat11 V a c).owesAt () t.succ
    ∗ owns (c : Thread nD τ) (ms11_0 a t) fullShare ((dat11 V a c).after 0 t)
    ∗ owns (c : Thread nD τ) (ms11_1 a t) fullShare ((dat11 V a c).after 1 t)
    ∗ owns (c : Thread nD τ) (ms11_2 a t) fullShare ((dat11 V a c).after 2 t))

/-- The body at any point: the inputs' memrefs hold their blocks, so the run applies; the invariant and the core's
    dues pass through unread. -/
theorem sound_body11 (c : Dev nD) (t : Fin (cfg11 a).N) :
    bodyPre11 V a c t ⊢ wp frame (wpE (defs₀ (F := F)) Variants.none c none) Set.univ (bodyAt11 a t) (fun _ => bodyPost11 V a c t) := by
  unfold bodyPre11 bodyPost11 bodyAt11
  simp only [before11_0, before11_1]
  rw [show (dat11 V a c).Φ t.succ = (dat11 V a c).Φ t.castSucc from rfl,
    show (dat11 V a c).owesAt () t.succ = (dat11 V a c).owesAt () t.castSucc from rfl,
    after11_0, after11_1, after11_2]
  iintro ⟨HΦ, Ho, ⟨%d0, H0⟩, ⟨%d1, H1⟩, ⟨%d2, H2⟩⟩
  iapply (sound_kernel11 c Set.univ _ _ _ _ _ _ _ _ _ _ _ (iblk11 V a c 0 t) (iblk11 V a c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation11 (c : Dev nD) : BodyObligation (dat11 (F := F) V a c) (defs₀ (F := F)) Variants.none () Set.univ := fun t => by
  rw [bigSep_W11, bigSep_W11]
  exact sound_body11 V a c t

end Region

end Cert.Kernel.Hand

end
-- ==== Proof.K.Tables11.lean ====
/-
  Edge chunk 11's index tables. The host slices 40000 consecutive words, from word 400000 on, out of each endpoint
  array (src, then dst) into scalar memory; the chunk's pipeline reads word t of each as the block row of its two
  gathered windows at grid point t. When every endpoint word is a node id (below 50000) each such row lies inside
  the 50000-row arrays: the tables' contents are admissible for the pipeline.
-/
import proofs.«413139_j22651657519351_3_alg».proof.Proof.Gen.Kernel.Launch
import proofs.«413139_j22651657519351_3_alg».proof.Proof.Gen.Kernel.Skeleton
import proofs.«413139_j22651657519351_3_alg».proof.Proof.Gen.Kernel.Points
import proofs.«413139_j22651657519351_3_alg».proof.Proof.K.Range
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Tables

variable (m : (ℓ : Loc nD τ sig) → Buf (Elt F) ℓ)

/-- The two tables' contents, read off the launch memory: the endpoint arrays' words 400000 … 400000 + 39999. -/
def tbl11 : pre11.Contents (Elt F) := fun k => match k with
  | ⟨0, _⟩ => (extractStridedSlice S40000 ![400000] (m (((0 : Dev nD) : Thread nD τ).loc main_arg1)) slices_S800000_S40000_400000 : (⟨S40000, .i32⟩ : BufTy).Contents (Elt F))
  | ⟨1, _⟩ => (extractStridedSlice S40000 ![400000] (m (((0 : Dev nD) : Thread nD τ).loc main_arg2)) slices_S800000_S40000_400000 : (⟨S40000, .i32⟩ : BufTy).Contents (Elt F))

/-- Tables whose every word is below the node count put every gathered block inside its array: row word + 1 ≤ 50000,
    the two unit axes and the 128 lanes exactly filled; float32 words transfer whole. -/
theorem ok11_of (pf : pre11.Contents (Elt F)) (h0 : ∀ j, ((pf 0 j : Elt F .i32) : BitVec 32).toNat < 50000)
    (h1 : ∀ j, ((pf 1 j : Elt F .i32) : BitVec 32).toNat < 50000) : ok11 pf := by
  refine ⟨fun i => ⟨fun a => ?_, Or.inl rfl⟩, fun i => ⟨fun a => ?_, Or.inl rfl⟩⟩
  · match a with
    | ⟨0, _⟩ =>
      show (BitVec.toNat (pf 0 _) + 1) * 1 ≤ 50000
      exact (Nat.mul_one _).le.trans (Nat.succ_le_of_lt (h0 _))
    | ⟨1, _⟩ => show (BitVec.toNat (0#32) + 1) * 1 ≤ 1; decide
    | ⟨2, _⟩ => show (BitVec.toNat (0#32) + 1) * 128 ≤ 128; decide
  · match a with
    | ⟨0, _⟩ =>
      show (BitVec.toNat (pf 1 _) + 1) * 1 ≤ 50000
      exact (Nat.mul_one _).le.trans (Nat.succ_le_of_lt (h1 _))
    | ⟨1, _⟩ => show (BitVec.toNat (0#32) + 1) * 1 ≤ 1; decide
    | ⟨2, _⟩ => show (BitVec.toNat (0#32) + 1) * 128 ≤ 128; decide

/-- The chunk's tables as admissible contents, when the endpoint words are node ids. -/
def a11 (hR : InRange m) : (pcfg11 (F := F)).Adm :=
  ⟨tbl11 m, ok11_of (tbl11 m) (fun j => (hR 0).1 _) (fun j => (hR 0).2 _)⟩

theorem a11_val (hR : InRange m) : (a11 m hR).1 = tbl11 m := rfl

end Tables

end Cert.Kernel.Hand

end
-- ==== Proof.K.Region12.lean ====
/-
  Edge chunk 12's gather kernel (twenty chunks of 40000 edges): at grid point t the pipeline fetches row src[t] of the
  re-laid projection hs2 and row dst[t] of hd2 (two blocks of 128 lanes, chosen by the prefetched index tables),
  the body stores (row + row) · c into the output block, which is written back as row t of the chunk's output.
  Here: what each window's staging buffer holds before and after the body at every point, for any contents V of the
  buffers at the region's entry and any admissible contents `a` of the two index tables, and the body's run.
  The tables ride through the region untouched: the body never reads them.
-/
import proofs.«413139_j22651657519351_3_alg».proof.Proof.Gen.Kernel.Launch
import proofs.«413139_j22651657519351_3_alg».proof.Proof.Gen.Kernel.Skeleton
import proofs.«413139_j22651657519351_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region

variable (V : (c : Dev nD) → (b : Ref sig .tc) → Buf (Elt F) ((c : Thread nD τ).loc b))
variable (a : (pcfg12 (F := F)).Adm)

/-! ## The body as the pipeline calls it at a point -/

/-- Each window's current staging memref at point `t`, and its wholeness. -/
abbrev ms12_0 (t : Fin (cfg12 a).N) : Memref sig .tc .vmem S1x1x128 .f32 := spec12_0.stage ((cfg12 a).slots t 0)
abbrev hs12_0 (t : Fin (cfg12 a).N) : (ms12_0 a t).IsWhole := hstage12_0 (((cfg12 a).slots t 0).cast nbuf12_0)
abbrev ms12_1 (t : Fin (cfg12 a).N) : Memref sig .tc .vmem S1x1x128 .f32 := spec12_1.stage ((cfg12 a).slots t 1)
abbrev hs12_1 (t : Fin (cfg12 a).N) : (ms12_1 a t).IsWhole := hstage12_1 (((cfg12 a).slots t 1).cast nbuf12_1)
abbrev ms12_2 (t : Fin (cfg12 a).N) : Memref sig .tc .vmem S1x1x128 .f32 := spec12_2.stage ((cfg12 a).slots t 2)
abbrev hs12_2 (t : Fin (cfg12 a).N) : (ms12_2 a t).IsWhole := hstage12_2 (((cfg12 a).slots t 2).cast nbuf12_2)

/-- The kernel body at point `t`, on what the pipeline calls it with. -/
abbrev bodyAt12 (t : Fin (cfg12 a).N) : Prog (TpuEff nD τ sig (Elt F) Λ₀ .tc) PUnit :=
  cc12__gather_kernel (grid12.coords t) (Memref.whole main_v49) (Memref.isWhole_whole _) (Memref.whole main_v50) (Memref.isWhole_whole _)
    (ms12_0 a t) (hs12_0 a t) (ms12_1 a t) (hs12_1 a t) (ms12_2 a t) (hs12_2 a t)

/-! ## The windows' blocks -/

/-- Window `w`'s block at point `t`, read off its array as the region finds it: for the two gathered windows the
    row the tables' word at `t` names. -/
def iblk12 (c : Dev nD) (w : Fin (cfg12 a).W) (t : Fin (cfg12 a).N) :
    (((cfg12 a).win w).xblock ((cfg12 a).grid.coords t)).Idx → Elt F ((cfg12 a).win w).elt :=
  (((cfg12 a).win w).blk t).view.read (Elt F) (V c (Pipeline.arrRef spec12 w))

/-- An input window's current staging buffer holds its block at every point, fetched there or not. -/
theorem before12_0_of {c : Dev nD} (dat : Dat τ (Elt F) Unit ℕ (UR sig nD τ) ℕ (cfg12 a) c) (hA : dat.A 0 = V c (Pipeline.arrRef spec12 0))
    (hafter : ∀ t, dat.after 0 t = iblk12 V a c 0 t) (t : Fin (cfg12 a).N) (d) : dat.before 0 t d = iblk12 V a c 0 t :=
  (dat.before_in_eq_fetched 0 rfl (fun _ => rfl) (fun _ _ _ => rfl) (fun t => by rw [hafter]; unfold Dat.blockOf iblk12; rw [hA]; try rfl) t d).trans
    (by unfold Dat.fetched Dat.blockOf iblk12; rw [hA]; try rfl)

theorem before12_1_of {c : Dev nD} (dat : Dat τ (Elt F) Unit ℕ (UR sig nD τ) ℕ (cfg12 a) c) (hA : dat.A 1 = V c (Pipeline.arrRef spec12 1))
    (hafter : ∀ t, dat.after 1 t = iblk12 V a c 1 t) (t : Fin (cfg12 a).N) (d) : dat.before 1 t d = iblk12 V a c 1 t :=
  (dat.before_in_eq_fetched 1 rfl (fun _ => rfl) (fun _ _ _ => rfl) (fun t => by rw [hafter]; unfold Dat.blockOf iblk12; rw [hA]; try rfl) t d).trans
    (by unfold Dat.fetched Dat.blockOf iblk12; rw [hA]; try rfl)

/-! ## What the body leaves in the output window's buffer -/

/-- The one rectangle the body loads and stores through: the whole 1×1×128 block. -/
abbrev r12 : Rect S1x1x128 := Rect.unit (s := S1x1x128) ![0, 0, 0] S1x1x128.size inb_S1x1x128_S1x1x128_0_0_0

/-- The output block after the body, from the two gathered rows: its one store. -/
def out12_2 (x0 x1 : Vec F S1x1x128 .f32) : Vec F S1x1x128 .f32 :=
  View.canon [⟨r12, k12_pay1 (View.ld x0 r12) (View.ld x1 r12)⟩]

/-- The store covers the block. -/
theorem cover12_2 (p0 : Vec F S1x1x128 .f32) (y : S1x1x128.Idx) :
    ∃ pc ∈ ([⟨r12, p0⟩] : List (View.Piece (Elt F) S1x1x128 .f32)), y ∈ pc.1.set :=
  View.cover_of_tiled [⟨r12, p0⟩] S1x1x128.size (by rfl) y

/-! ## The body's run -/

set_option maxHeartbeats 1000000 in
/-- The body on whole staging memrefs, the two inputs' at contents `x0`, `x1` and the output's at anything, runs to the
    continuation holding the inputs as they were and the output at `out12_2 x0 x1`; the table memrefs are not touched. -/
theorem sound_kernel12 (c : Dev nD) (E : Set ℕ) (i : grid12.Coords)
    (arg1 : Memref sig .tc .smem S40000 .i32) (harg1 : arg1.IsWhole) (arg2 : Memref sig .tc .smem S40000 .i32) (harg2 : arg2.IsWhole)
    (arg3 : Memref sig .tc .vmem S1x1x128 .f32) (harg3 : arg3.IsWhole) (arg4 : Memref sig .tc .vmem S1x1x128 .f32) (harg4 : arg4.IsWhole)
    (arg5 : Memref sig .tc .vmem S1x1x128 .f32) (harg5 : arg5.IsWhole)
    (x0 x1 : Vec F S1x1x128 .f32) (K : PUnit → sProp 𝕄) :
    iprop(owns (c : Thread nD τ) arg3 fullShare x0 ∗ owns (c : Thread nD τ) arg4 fullShare x1 ∗ (∃ d, owns (c : Thread nD τ) arg5 fullShare d)
        ∗ (iprop(owns (c : Thread nD τ) arg3 fullShare x0 ∗ owns (c : Thread nD τ) arg4 fullShare x1
            ∗ owns (c : Thread nD τ) arg5 fullShare (out12_2 x0 x1)) -∗ K ⟨⟩))
      ⊢ wp frame (wpE (defs₀ (F := F)) Variants.none c none) E (cc12__gather_kernel i arg1 harg1 arg2 harg2 arg3 harg3 arg4 harg4 arg5 harg5) K := by
  simp only [cc12__gather_kernel_eq_skeleton]; unfold cc12__gather_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover12_2 _)

/-! ## The pipeline's proof data -/

/-- The proof data of this pipeline on core `c`: the arrays as the region finds them; after the body at point `t` each
    gathered input's buffer at its block and the output's at `out12_2` of the two; the invariant: the scoped rest, the
    generator register, and the two index tables held whole and untouched; nothing owed; full shares. -/
def dat12 (c : Dev nD) : Dat τ (Elt F) Unit ℕ (UR sig nD τ) ℕ (cfg12 a) c where
  A w := V c (Pipeline.arrRef spec12 w)
  after w t := match w with
    | ⟨0, _⟩ => iblk12 V a c 0 t
    | ⟨1, _⟩ => iblk12 V a c 1 t
    | ⟨2, _⟩ => out12_2 (iblk12 V a c 0 t) (iblk12 V a c 1 t)
  Φ _ := iprop(Pipeline.ΦA spec12 c ∗ Pipeline.prefHeld (Ix := Unit) (Name := ℕ) (U := UR sig nD τ) (Lvl := ℕ) pre12 c (fun _ => fullShare) a.1)
  q _ := fullShare
  owed _ := 0

theorem A_eq12 (c : Dev nD) (w : Fin (cfg12 a).W) : (dat12 V a c).A w = V c (Pipeline.arrRef spec12 w) := by
  dsimp only [dat12]

theorem after12_0 (c : Dev nD) (t : Fin (cfg12 a).N) : (dat12 V a c).after 0 t = iblk12 V a c 0 t := by dsimp only [dat12]; try rfl
theorem after12_1 (c : Dev nD) (t : Fin (cfg12 a).N) : (dat12 V a c).after 1 t = iblk12 V a c 1 t := by dsimp only [dat12]; try rfl
theorem after12_2 (c : Dev nD) (t : Fin (cfg12 a).N) : (dat12 V a c).after 2 t = out12_2 (iblk12 V a c 0 t) (iblk12 V a c 1 t) := by dsimp only [dat12]; try rfl

theorem before12_0 (c : Dev nD) (t : Fin (cfg12 a).N) (d) : (dat12 V a c).before 0 t d = iblk12 V a c 0 t :=
  before12_0_of V a (dat12 V a c) (A_eq12 V a c 0) (after12_0 V a c) t d
theorem before12_1 (c : Dev nD) (t : Fin (cfg12 a).N) (d) : (dat12 V a c).before 1 t d = iblk12 V a c 1 t :=
  before12_1_of V a (dat12 V a c) (A_eq12 V a c 1) (after12_1 V a c) t d

/-! ## The body obligation, at a generic point -/

def bodyPre12 (c : Dev nD) (t : Fin (cfg12 a).N) : sProp 𝕄 :=
  iprop((dat12 V a c).Φ t.castSucc ∗ (dat12 V a c).owesAt () t.castSucc
    ∗ (∃ d, owns (c : Thread nD τ) (ms12_0 a t) fullShare ((dat12 V a c).before 0 t d))
    ∗ (∃ d, owns (c : Thread nD τ) (ms12_1 a t) fullShare ((dat12 V a c).before 1 t d))
    ∗ (∃ d, owns (c : Thread nD τ) (ms12_2 a t) fullShare ((dat12 V a c).before 2 t d)))

def bodyPost12 (c : Dev nD) (t : Fin (cfg12 a).N) : sProp 𝕄 :=
  iprop((dat12 V a c).Φ t.succ ∗ (dat12 V a c).owesAt () t.succ
    ∗ owns (c : Thread nD τ) (ms12_0 a t) fullShare ((dat12 V a c).after 0 t)
    ∗ owns (c : Thread nD τ) (ms12_1 a t) fullShare ((dat12 V a c).after 1 t)
    ∗ owns (c : Thread nD τ) (ms12_2 a t) fullShare ((dat12 V a c).after 2 t))

/-- The body at any point: the inputs' memrefs hold their blocks, so the run applies; the invariant and the core's
    dues pass through unread. -/
theorem sound_body12 (c : Dev nD) (t : Fin (cfg12 a).N) :
    bodyPre12 V a c t ⊢ wp frame (wpE (defs₀ (F := F)) Variants.none c none) Set.univ (bodyAt12 a t) (fun _ => bodyPost12 V a c t) := by
  unfold bodyPre12 bodyPost12 bodyAt12
  simp only [before12_0, before12_1]
  rw [show (dat12 V a c).Φ t.succ = (dat12 V a c).Φ t.castSucc from rfl,
    show (dat12 V a c).owesAt () t.succ = (dat12 V a c).owesAt () t.castSucc from rfl,
    after12_0, after12_1, after12_2]
  iintro ⟨HΦ, Ho, ⟨%d0, H0⟩, ⟨%d1, H1⟩, ⟨%d2, H2⟩⟩
  iapply (sound_kernel12 c Set.univ _ _ _ _ _ _ _ _ _ _ _ (iblk12 V a c 0 t) (iblk12 V a c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation12 (c : Dev nD) : BodyObligation (dat12 (F := F) V a c) (defs₀ (F := F)) Variants.none () Set.univ := fun t => by
  rw [bigSep_W12, bigSep_W12]
  exact sound_body12 V a c t

end Region

end Cert.Kernel.Hand

end
-- ==== Proof.K.Tables12.lean ====
/-
  Edge chunk 12's index tables. The host slices 40000 consecutive words, from word 440000 on, out of each endpoint
  array (src, then dst) into scalar memory; the chunk's pipeline reads word t of each as the block row of its two
  gathered windows at grid point t. When every endpoint word is a node id (below 50000) each such row lies inside
  the 50000-row arrays: the tables' contents are admissible for the pipeline.
-/
import proofs.«413139_j22651657519351_3_alg».proof.Proof.Gen.Kernel.Launch
import proofs.«413139_j22651657519351_3_alg».proof.Proof.Gen.Kernel.Skeleton
import proofs.«413139_j22651657519351_3_alg».proof.Proof.Gen.Kernel.Points
import proofs.«413139_j22651657519351_3_alg».proof.Proof.K.Range
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Tables

variable (m : (ℓ : Loc nD τ sig) → Buf (Elt F) ℓ)

/-- The two tables' contents, read off the launch memory: the endpoint arrays' words 440000 … 440000 + 39999. -/
def tbl12 : pre12.Contents (Elt F) := fun k => match k with
  | ⟨0, _⟩ => (extractStridedSlice S40000 ![440000] (m (((0 : Dev nD) : Thread nD τ).loc main_arg1)) slices_S800000_S40000_440000 : (⟨S40000, .i32⟩ : BufTy).Contents (Elt F))
  | ⟨1, _⟩ => (extractStridedSlice S40000 ![440000] (m (((0 : Dev nD) : Thread nD τ).loc main_arg2)) slices_S800000_S40000_440000 : (⟨S40000, .i32⟩ : BufTy).Contents (Elt F))

/-- Tables whose every word is below the node count put every gathered block inside its array: row word + 1 ≤ 50000,
    the two unit axes and the 128 lanes exactly filled; float32 words transfer whole. -/
theorem ok12_of (pf : pre12.Contents (Elt F)) (h0 : ∀ j, ((pf 0 j : Elt F .i32) : BitVec 32).toNat < 50000)
    (h1 : ∀ j, ((pf 1 j : Elt F .i32) : BitVec 32).toNat < 50000) : ok12 pf := by
  refine ⟨fun i => ⟨fun a => ?_, Or.inl rfl⟩, fun i => ⟨fun a => ?_, Or.inl rfl⟩⟩
  · match a with
    | ⟨0, _⟩ =>
      show (BitVec.toNat (pf 0 _) + 1) * 1 ≤ 50000
      exact (Nat.mul_one _).le.trans (Nat.succ_le_of_lt (h0 _))
    | ⟨1, _⟩ => show (BitVec.toNat (0#32) + 1) * 1 ≤ 1; decide
    | ⟨2, _⟩ => show (BitVec.toNat (0#32) + 1) * 128 ≤ 128; decide
  · match a with
    | ⟨0, _⟩ =>
      show (BitVec.toNat (pf 1 _) + 1) * 1 ≤ 50000
      exact (Nat.mul_one _).le.trans (Nat.succ_le_of_lt (h1 _))
    | ⟨1, _⟩ => show (BitVec.toNat (0#32) + 1) * 1 ≤ 1; decide
    | ⟨2, _⟩ => show (BitVec.toNat (0#32) + 1) * 128 ≤ 128; decide

/-- The chunk's tables as admissible contents, when the endpoint words are node ids. -/
def a12 (hR : InRange m) : (pcfg12 (F := F)).Adm :=
  ⟨tbl12 m, ok12_of (tbl12 m) (fun j => (hR 0).1 _) (fun j => (hR 0).2 _)⟩

theorem a12_val (hR : InRange m) : (a12 m hR).1 = tbl12 m := rfl

end Tables

end Cert.Kernel.Hand

end
-- ==== Proof.K.Region13.lean ====
/-
  Edge chunk 13's gather kernel (twenty chunks of 40000 edges): at grid point t the pipeline fetches row src[t] of the
  re-laid projection hs2 and row dst[t] of hd2 (two blocks of 128 lanes, chosen by the prefetched index tables),
  the body stores (row + row) · c into the output block, which is written back as row t of the chunk's output.
  Here: what each window's staging buffer holds before and after the body at every point, for any contents V of the
  buffers at the region's entry and any admissible contents `a` of the two index tables, and the body's run.
  The tables ride through the region untouched: the body never reads them.
-/
import proofs.«413139_j22651657519351_3_alg».proof.Proof.Gen.Kernel.Launch
import proofs.«413139_j22651657519351_3_alg».proof.Proof.Gen.Kernel.Skeleton
import proofs.«413139_j22651657519351_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region

variable (V : (c : Dev nD) → (b : Ref sig .tc) → Buf (Elt F) ((c : Thread nD τ).loc b))
variable (a : (pcfg13 (F := F)).Adm)

/-! ## The body as the pipeline calls it at a point -/

/-- Each window's current staging memref at point `t`, and its wholeness. -/
abbrev ms13_0 (t : Fin (cfg13 a).N) : Memref sig .tc .vmem S1x1x128 .f32 := spec13_0.stage ((cfg13 a).slots t 0)
abbrev hs13_0 (t : Fin (cfg13 a).N) : (ms13_0 a t).IsWhole := hstage13_0 (((cfg13 a).slots t 0).cast nbuf13_0)
abbrev ms13_1 (t : Fin (cfg13 a).N) : Memref sig .tc .vmem S1x1x128 .f32 := spec13_1.stage ((cfg13 a).slots t 1)
abbrev hs13_1 (t : Fin (cfg13 a).N) : (ms13_1 a t).IsWhole := hstage13_1 (((cfg13 a).slots t 1).cast nbuf13_1)
abbrev ms13_2 (t : Fin (cfg13 a).N) : Memref sig .tc .vmem S1x1x128 .f32 := spec13_2.stage ((cfg13 a).slots t 2)
abbrev hs13_2 (t : Fin (cfg13 a).N) : (ms13_2 a t).IsWhole := hstage13_2 (((cfg13 a).slots t 2).cast nbuf13_2)

/-- The kernel body at point `t`, on what the pipeline calls it with. -/
abbrev bodyAt13 (t : Fin (cfg13 a).N) : Prog (TpuEff nD τ sig (Elt F) Λ₀ .tc) PUnit :=
  cc13__gather_kernel (grid13.coords t) (Memref.whole main_v53) (Memref.isWhole_whole _) (Memref.whole main_v54) (Memref.isWhole_whole _)
    (ms13_0 a t) (hs13_0 a t) (ms13_1 a t) (hs13_1 a t) (ms13_2 a t) (hs13_2 a t)

/-! ## The windows' blocks -/

/-- Window `w`'s block at point `t`, read off its array as the region finds it: for the two gathered windows the
    row the tables' word at `t` names. -/
def iblk13 (c : Dev nD) (w : Fin (cfg13 a).W) (t : Fin (cfg13 a).N) :
    (((cfg13 a).win w).xblock ((cfg13 a).grid.coords t)).Idx → Elt F ((cfg13 a).win w).elt :=
  (((cfg13 a).win w).blk t).view.read (Elt F) (V c (Pipeline.arrRef spec13 w))

/-- An input window's current staging buffer holds its block at every point, fetched there or not. -/
theorem before13_0_of {c : Dev nD} (dat : Dat τ (Elt F) Unit ℕ (UR sig nD τ) ℕ (cfg13 a) c) (hA : dat.A 0 = V c (Pipeline.arrRef spec13 0))
    (hafter : ∀ t, dat.after 0 t = iblk13 V a c 0 t) (t : Fin (cfg13 a).N) (d) : dat.before 0 t d = iblk13 V a c 0 t :=
  (dat.before_in_eq_fetched 0 rfl (fun _ => rfl) (fun _ _ _ => rfl) (fun t => by rw [hafter]; unfold Dat.blockOf iblk13; rw [hA]; try rfl) t d).trans
    (by unfold Dat.fetched Dat.blockOf iblk13; rw [hA]; try rfl)

theorem before13_1_of {c : Dev nD} (dat : Dat τ (Elt F) Unit ℕ (UR sig nD τ) ℕ (cfg13 a) c) (hA : dat.A 1 = V c (Pipeline.arrRef spec13 1))
    (hafter : ∀ t, dat.after 1 t = iblk13 V a c 1 t) (t : Fin (cfg13 a).N) (d) : dat.before 1 t d = iblk13 V a c 1 t :=
  (dat.before_in_eq_fetched 1 rfl (fun _ => rfl) (fun _ _ _ => rfl) (fun t => by rw [hafter]; unfold Dat.blockOf iblk13; rw [hA]; try rfl) t d).trans
    (by unfold Dat.fetched Dat.blockOf iblk13; rw [hA]; try rfl)

/-! ## What the body leaves in the output window's buffer -/

/-- The one rectangle the body loads and stores through: the whole 1×1×128 block. -/
abbrev r13 : Rect S1x1x128 := Rect.unit (s := S1x1x128) ![0, 0, 0] S1x1x128.size inb_S1x1x128_S1x1x128_0_0_0

/-- The output block after the body, from the two gathered rows: its one store. -/
def out13_2 (x0 x1 : Vec F S1x1x128 .f32) : Vec F S1x1x128 .f32 :=
  View.canon [⟨r13, k13_pay1 (View.ld x0 r13) (View.ld x1 r13)⟩]

/-- The store covers the block. -/
theorem cover13_2 (p0 : Vec F S1x1x128 .f32) (y : S1x1x128.Idx) :
    ∃ pc ∈ ([⟨r13, p0⟩] : List (View.Piece (Elt F) S1x1x128 .f32)), y ∈ pc.1.set :=
  View.cover_of_tiled [⟨r13, p0⟩] S1x1x128.size (by rfl) y

/-! ## The body's run -/

set_option maxHeartbeats 1000000 in
/-- The body on whole staging memrefs, the two inputs' at contents `x0`, `x1` and the output's at anything, runs to the
    continuation holding the inputs as they were and the output at `out13_2 x0 x1`; the table memrefs are not touched. -/
theorem sound_kernel13 (c : Dev nD) (E : Set ℕ) (i : grid13.Coords)
    (arg1 : Memref sig .tc .smem S40000 .i32) (harg1 : arg1.IsWhole) (arg2 : Memref sig .tc .smem S40000 .i32) (harg2 : arg2.IsWhole)
    (arg3 : Memref sig .tc .vmem S1x1x128 .f32) (harg3 : arg3.IsWhole) (arg4 : Memref sig .tc .vmem S1x1x128 .f32) (harg4 : arg4.IsWhole)
    (arg5 : Memref sig .tc .vmem S1x1x128 .f32) (harg5 : arg5.IsWhole)
    (x0 x1 : Vec F S1x1x128 .f32) (K : PUnit → sProp 𝕄) :
    iprop(owns (c : Thread nD τ) arg3 fullShare x0 ∗ owns (c : Thread nD τ) arg4 fullShare x1 ∗ (∃ d, owns (c : Thread nD τ) arg5 fullShare d)
        ∗ (iprop(owns (c : Thread nD τ) arg3 fullShare x0 ∗ owns (c : Thread nD τ) arg4 fullShare x1
            ∗ owns (c : Thread nD τ) arg5 fullShare (out13_2 x0 x1)) -∗ K ⟨⟩))
      ⊢ wp frame (wpE (defs₀ (F := F)) Variants.none c none) E (cc13__gather_kernel i arg1 harg1 arg2 harg2 arg3 harg3 arg4 harg4 arg5 harg5) K := by
  simp only [cc13__gather_kernel_eq_skeleton]; unfold cc13__gather_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover13_2 _)

/-! ## The pipeline's proof data -/

/-- The proof data of this pipeline on core `c`: the arrays as the region finds them; after the body at point `t` each
    gathered input's buffer at its block and the output's at `out13_2` of the two; the invariant: the scoped rest, the
    generator register, and the two index tables held whole and untouched; nothing owed; full shares. -/
def dat13 (c : Dev nD) : Dat τ (Elt F) Unit ℕ (UR sig nD τ) ℕ (cfg13 a) c where
  A w := V c (Pipeline.arrRef spec13 w)
  after w t := match w with
    | ⟨0, _⟩ => iblk13 V a c 0 t
    | ⟨1, _⟩ => iblk13 V a c 1 t
    | ⟨2, _⟩ => out13_2 (iblk13 V a c 0 t) (iblk13 V a c 1 t)
  Φ _ := iprop(Pipeline.ΦA spec13 c ∗ Pipeline.prefHeld (Ix := Unit) (Name := ℕ) (U := UR sig nD τ) (Lvl := ℕ) pre13 c (fun _ => fullShare) a.1)
  q _ := fullShare
  owed _ := 0

theorem A_eq13 (c : Dev nD) (w : Fin (cfg13 a).W) : (dat13 V a c).A w = V c (Pipeline.arrRef spec13 w) := by
  dsimp only [dat13]

theorem after13_0 (c : Dev nD) (t : Fin (cfg13 a).N) : (dat13 V a c).after 0 t = iblk13 V a c 0 t := by dsimp only [dat13]; try rfl
theorem after13_1 (c : Dev nD) (t : Fin (cfg13 a).N) : (dat13 V a c).after 1 t = iblk13 V a c 1 t := by dsimp only [dat13]; try rfl
theorem after13_2 (c : Dev nD) (t : Fin (cfg13 a).N) : (dat13 V a c).after 2 t = out13_2 (iblk13 V a c 0 t) (iblk13 V a c 1 t) := by dsimp only [dat13]; try rfl

theorem before13_0 (c : Dev nD) (t : Fin (cfg13 a).N) (d) : (dat13 V a c).before 0 t d = iblk13 V a c 0 t :=
  before13_0_of V a (dat13 V a c) (A_eq13 V a c 0) (after13_0 V a c) t d
theorem before13_1 (c : Dev nD) (t : Fin (cfg13 a).N) (d) : (dat13 V a c).before 1 t d = iblk13 V a c 1 t :=
  before13_1_of V a (dat13 V a c) (A_eq13 V a c 1) (after13_1 V a c) t d

/-! ## The body obligation, at a generic point -/

def bodyPre13 (c : Dev nD) (t : Fin (cfg13 a).N) : sProp 𝕄 :=
  iprop((dat13 V a c).Φ t.castSucc ∗ (dat13 V a c).owesAt () t.castSucc
    ∗ (∃ d, owns (c : Thread nD τ) (ms13_0 a t) fullShare ((dat13 V a c).before 0 t d))
    ∗ (∃ d, owns (c : Thread nD τ) (ms13_1 a t) fullShare ((dat13 V a c).before 1 t d))
    ∗ (∃ d, owns (c : Thread nD τ) (ms13_2 a t) fullShare ((dat13 V a c).before 2 t d)))

def bodyPost13 (c : Dev nD) (t : Fin (cfg13 a).N) : sProp 𝕄 :=
  iprop((dat13 V a c).Φ t.succ ∗ (dat13 V a c).owesAt () t.succ
    ∗ owns (c : Thread nD τ) (ms13_0 a t) fullShare ((dat13 V a c).after 0 t)
    ∗ owns (c : Thread nD τ) (ms13_1 a t) fullShare ((dat13 V a c).after 1 t)
    ∗ owns (c : Thread nD τ) (ms13_2 a t) fullShare ((dat13 V a c).after 2 t))

/-- The body at any point: the inputs' memrefs hold their blocks, so the run applies; the invariant and the core's
    dues pass through unread. -/
theorem sound_body13 (c : Dev nD) (t : Fin (cfg13 a).N) :
    bodyPre13 V a c t ⊢ wp frame (wpE (defs₀ (F := F)) Variants.none c none) Set.univ (bodyAt13 a t) (fun _ => bodyPost13 V a c t) := by
  unfold bodyPre13 bodyPost13 bodyAt13
  simp only [before13_0, before13_1]
  rw [show (dat13 V a c).Φ t.succ = (dat13 V a c).Φ t.castSucc from rfl,
    show (dat13 V a c).owesAt () t.succ = (dat13 V a c).owesAt () t.castSucc from rfl,
    after13_0, after13_1, after13_2]
  iintro ⟨HΦ, Ho, ⟨%d0, H0⟩, ⟨%d1, H1⟩, ⟨%d2, H2⟩⟩
  iapply (sound_kernel13 c Set.univ _ _ _ _ _ _ _ _ _ _ _ (iblk13 V a c 0 t) (iblk13 V a c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation13 (c : Dev nD) : BodyObligation (dat13 (F := F) V a c) (defs₀ (F := F)) Variants.none () Set.univ := fun t => by
  rw [bigSep_W13, bigSep_W13]
  exact sound_body13 V a c t

end Region

end Cert.Kernel.Hand

end
-- ==== Proof.K.Tables13.lean ====
/-
  Edge chunk 13's index tables. The host slices 40000 consecutive words, from word 480000 on, out of each endpoint
  array (src, then dst) into scalar memory; the chunk's pipeline reads word t of each as the block row of its two
  gathered windows at grid point t. When every endpoint word is a node id (below 50000) each such row lies inside
  the 50000-row arrays: the tables' contents are admissible for the pipeline.
-/
import proofs.«413139_j22651657519351_3_alg».proof.Proof.Gen.Kernel.Launch
import proofs.«413139_j22651657519351_3_alg».proof.Proof.Gen.Kernel.Skeleton
import proofs.«413139_j22651657519351_3_alg».proof.Proof.Gen.Kernel.Points
import proofs.«413139_j22651657519351_3_alg».proof.Proof.K.Range
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Tables

variable (m : (ℓ : Loc nD τ sig) → Buf (Elt F) ℓ)

/-- The two tables' contents, read off the launch memory: the endpoint arrays' words 480000 … 480000 + 39999. -/
def tbl13 : pre13.Contents (Elt F) := fun k => match k with
  | ⟨0, _⟩ => (extractStridedSlice S40000 ![480000] (m (((0 : Dev nD) : Thread nD τ).loc main_arg1)) slices_S800000_S40000_480000 : (⟨S40000, .i32⟩ : BufTy).Contents (Elt F))
  | ⟨1, _⟩ => (extractStridedSlice S40000 ![480000] (m (((0 : Dev nD) : Thread nD τ).loc main_arg2)) slices_S800000_S40000_480000 : (⟨S40000, .i32⟩ : BufTy).Contents (Elt F))

/-- Tables whose every word is below the node count put every gathered block inside its array: row word + 1 ≤ 50000,
    the two unit axes and the 128 lanes exactly filled; float32 words transfer whole. -/
theorem ok13_of (pf : pre13.Contents (Elt F)) (h0 : ∀ j, ((pf 0 j : Elt F .i32) : BitVec 32).toNat < 50000)
    (h1 : ∀ j, ((pf 1 j : Elt F .i32) : BitVec 32).toNat < 50000) : ok13 pf := by
  refine ⟨fun i => ⟨fun a => ?_, Or.inl rfl⟩, fun i => ⟨fun a => ?_, Or.inl rfl⟩⟩
  · match a with
    | ⟨0, _⟩ =>
      show (BitVec.toNat (pf 0 _) + 1) * 1 ≤ 50000
      exact (Nat.mul_one _).le.trans (Nat.succ_le_of_lt (h0 _))
    | ⟨1, _⟩ => show (BitVec.toNat (0#32) + 1) * 1 ≤ 1; decide
    | ⟨2, _⟩ => show (BitVec.toNat (0#32) + 1) * 128 ≤ 128; decide
  · match a with
    | ⟨0, _⟩ =>
      show (BitVec.toNat (pf 1 _) + 1) * 1 ≤ 50000
      exact (Nat.mul_one _).le.trans (Nat.succ_le_of_lt (h1 _))
    | ⟨1, _⟩ => show (BitVec.toNat (0#32) + 1) * 1 ≤ 1; decide
    | ⟨2, _⟩ => show (BitVec.toNat (0#32) + 1) * 128 ≤ 128; decide

/-- The chunk's tables as admissible contents, when the endpoint words are node ids. -/
def a13 (hR : InRange m) : (pcfg13 (F := F)).Adm :=
  ⟨tbl13 m, ok13_of (tbl13 m) (fun j => (hR 0).1 _) (fun j => (hR 0).2 _)⟩

theorem a13_val (hR : InRange m) : (a13 m hR).1 = tbl13 m := rfl

end Tables

end Cert.Kernel.Hand

end
-- ==== Proof.K.Region14.lean ====
/-
  Edge chunk 14's gather kernel (twenty chunks of 40000 edges): at grid point t the pipeline fetches row src[t] of the
  re-laid projection hs2 and row dst[t] of hd2 (two blocks of 128 lanes, chosen by the prefetched index tables),
  the body stores (row + row) · c into the output block, which is written back as row t of the chunk's output.
  Here: what each window's staging buffer holds before and after the body at every point, for any contents V of the
  buffers at the region's entry and any admissible contents `a` of the two index tables, and the body's run.
  The tables ride through the region untouched: the body never reads them.
-/
import proofs.«413139_j22651657519351_3_alg».proof.Proof.Gen.Kernel.Launch
import proofs.«413139_j22651657519351_3_alg».proof.Proof.Gen.Kernel.Skeleton
import proofs.«413139_j22651657519351_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region

variable (V : (c : Dev nD) → (b : Ref sig .tc) → Buf (Elt F) ((c : Thread nD τ).loc b))
variable (a : (pcfg14 (F := F)).Adm)

/-! ## The body as the pipeline calls it at a point -/

/-- Each window's current staging memref at point `t`, and its wholeness. -/
abbrev ms14_0 (t : Fin (cfg14 a).N) : Memref sig .tc .vmem S1x1x128 .f32 := spec14_0.stage ((cfg14 a).slots t 0)
abbrev hs14_0 (t : Fin (cfg14 a).N) : (ms14_0 a t).IsWhole := hstage14_0 (((cfg14 a).slots t 0).cast nbuf14_0)
abbrev ms14_1 (t : Fin (cfg14 a).N) : Memref sig .tc .vmem S1x1x128 .f32 := spec14_1.stage ((cfg14 a).slots t 1)
abbrev hs14_1 (t : Fin (cfg14 a).N) : (ms14_1 a t).IsWhole := hstage14_1 (((cfg14 a).slots t 1).cast nbuf14_1)
abbrev ms14_2 (t : Fin (cfg14 a).N) : Memref sig .tc .vmem S1x1x128 .f32 := spec14_2.stage ((cfg14 a).slots t 2)
abbrev hs14_2 (t : Fin (cfg14 a).N) : (ms14_2 a t).IsWhole := hstage14_2 (((cfg14 a).slots t 2).cast nbuf14_2)

/-- The kernel body at point `t`, on what the pipeline calls it with. -/
abbrev bodyAt14 (t : Fin (cfg14 a).N) : Prog (TpuEff nD τ sig (Elt F) Λ₀ .tc) PUnit :=
  cc14__gather_kernel (grid14.coords t) (Memref.whole main_v57) (Memref.isWhole_whole _) (Memref.whole main_v58) (Memref.isWhole_whole _)
    (ms14_0 a t) (hs14_0 a t) (ms14_1 a t) (hs14_1 a t) (ms14_2 a t) (hs14_2 a t)

/-! ## The windows' blocks -/

/-- Window `w`'s block at point `t`, read off its array as the region finds it: for the two gathered windows the
    row the tables' word at `t` names. -/
def iblk14 (c : Dev nD) (w : Fin (cfg14 a).W) (t : Fin (cfg14 a).N) :
    (((cfg14 a).win w).xblock ((cfg14 a).grid.coords t)).Idx → Elt F ((cfg14 a).win w).elt :=
  (((cfg14 a).win w).blk t).view.read (Elt F) (V c (Pipeline.arrRef spec14 w))

/-- An input window's current staging buffer holds its block at every point, fetched there or not. -/
theorem before14_0_of {c : Dev nD} (dat : Dat τ (Elt F) Unit ℕ (UR sig nD τ) ℕ (cfg14 a) c) (hA : dat.A 0 = V c (Pipeline.arrRef spec14 0))
    (hafter : ∀ t, dat.after 0 t = iblk14 V a c 0 t) (t : Fin (cfg14 a).N) (d) : dat.before 0 t d = iblk14 V a c 0 t :=
  (dat.before_in_eq_fetched 0 rfl (fun _ => rfl) (fun _ _ _ => rfl) (fun t => by rw [hafter]; unfold Dat.blockOf iblk14; rw [hA]; try rfl) t d).trans
    (by unfold Dat.fetched Dat.blockOf iblk14; rw [hA]; try rfl)

theorem before14_1_of {c : Dev nD} (dat : Dat τ (Elt F) Unit ℕ (UR sig nD τ) ℕ (cfg14 a) c) (hA : dat.A 1 = V c (Pipeline.arrRef spec14 1))
    (hafter : ∀ t, dat.after 1 t = iblk14 V a c 1 t) (t : Fin (cfg14 a).N) (d) : dat.before 1 t d = iblk14 V a c 1 t :=
  (dat.before_in_eq_fetched 1 rfl (fun _ => rfl) (fun _ _ _ => rfl) (fun t => by rw [hafter]; unfold Dat.blockOf iblk14; rw [hA]; try rfl) t d).trans
    (by unfold Dat.fetched Dat.blockOf iblk14; rw [hA]; try rfl)

/-! ## What the body leaves in the output window's buffer -/

/-- The one rectangle the body loads and stores through: the whole 1×1×128 block. -/
abbrev r14 : Rect S1x1x128 := Rect.unit (s := S1x1x128) ![0, 0, 0] S1x1x128.size inb_S1x1x128_S1x1x128_0_0_0

/-- The output block after the body, from the two gathered rows: its one store. -/
def out14_2 (x0 x1 : Vec F S1x1x128 .f32) : Vec F S1x1x128 .f32 :=
  View.canon [⟨r14, k14_pay1 (View.ld x0 r14) (View.ld x1 r14)⟩]

/-- The store covers the block. -/
theorem cover14_2 (p0 : Vec F S1x1x128 .f32) (y : S1x1x128.Idx) :
    ∃ pc ∈ ([⟨r14, p0⟩] : List (View.Piece (Elt F) S1x1x128 .f32)), y ∈ pc.1.set :=
  View.cover_of_tiled [⟨r14, p0⟩] S1x1x128.size (by rfl) y

/-! ## The body's run -/

set_option maxHeartbeats 1000000 in
/-- The body on whole staging memrefs, the two inputs' at contents `x0`, `x1` and the output's at anything, runs to the
    continuation holding the inputs as they were and the output at `out14_2 x0 x1`; the table memrefs are not touched. -/
theorem sound_kernel14 (c : Dev nD) (E : Set ℕ) (i : grid14.Coords)
    (arg1 : Memref sig .tc .smem S40000 .i32) (harg1 : arg1.IsWhole) (arg2 : Memref sig .tc .smem S40000 .i32) (harg2 : arg2.IsWhole)
    (arg3 : Memref sig .tc .vmem S1x1x128 .f32) (harg3 : arg3.IsWhole) (arg4 : Memref sig .tc .vmem S1x1x128 .f32) (harg4 : arg4.IsWhole)
    (arg5 : Memref sig .tc .vmem S1x1x128 .f32) (harg5 : arg5.IsWhole)
    (x0 x1 : Vec F S1x1x128 .f32) (K : PUnit → sProp 𝕄) :
    iprop(owns (c : Thread nD τ) arg3 fullShare x0 ∗ owns (c : Thread nD τ) arg4 fullShare x1 ∗ (∃ d, owns (c : Thread nD τ) arg5 fullShare d)
        ∗ (iprop(owns (c : Thread nD τ) arg3 fullShare x0 ∗ owns (c : Thread nD τ) arg4 fullShare x1
            ∗ owns (c : Thread nD τ) arg5 fullShare (out14_2 x0 x1)) -∗ K ⟨⟩))
      ⊢ wp frame (wpE (defs₀ (F := F)) Variants.none c none) E (cc14__gather_kernel i arg1 harg1 arg2 harg2 arg3 harg3 arg4 harg4 arg5 harg5) K := by
  simp only [cc14__gather_kernel_eq_skeleton]; unfold cc14__gather_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover14_2 _)

/-! ## The pipeline's proof data -/

/-- The proof data of this pipeline on core `c`: the arrays as the region finds them; after the body at point `t` each
    gathered input's buffer at its block and the output's at `out14_2` of the two; the invariant: the scoped rest, the
    generator register, and the two index tables held whole and untouched; nothing owed; full shares. -/
def dat14 (c : Dev nD) : Dat τ (Elt F) Unit ℕ (UR sig nD τ) ℕ (cfg14 a) c where
  A w := V c (Pipeline.arrRef spec14 w)
  after w t := match w with
    | ⟨0, _⟩ => iblk14 V a c 0 t
    | ⟨1, _⟩ => iblk14 V a c 1 t
    | ⟨2, _⟩ => out14_2 (iblk14 V a c 0 t) (iblk14 V a c 1 t)
  Φ _ := iprop(Pipeline.ΦA spec14 c ∗ Pipeline.prefHeld (Ix := Unit) (Name := ℕ) (U := UR sig nD τ) (Lvl := ℕ) pre14 c (fun _ => fullShare) a.1)
  q _ := fullShare
  owed _ := 0

theorem A_eq14 (c : Dev nD) (w : Fin (cfg14 a).W) : (dat14 V a c).A w = V c (Pipeline.arrRef spec14 w) := by
  dsimp only [dat14]

theorem after14_0 (c : Dev nD) (t : Fin (cfg14 a).N) : (dat14 V a c).after 0 t = iblk14 V a c 0 t := by dsimp only [dat14]; try rfl
theorem after14_1 (c : Dev nD) (t : Fin (cfg14 a).N) : (dat14 V a c).after 1 t = iblk14 V a c 1 t := by dsimp only [dat14]; try rfl
theorem after14_2 (c : Dev nD) (t : Fin (cfg14 a).N) : (dat14 V a c).after 2 t = out14_2 (iblk14 V a c 0 t) (iblk14 V a c 1 t) := by dsimp only [dat14]; try rfl

theorem before14_0 (c : Dev nD) (t : Fin (cfg14 a).N) (d) : (dat14 V a c).before 0 t d = iblk14 V a c 0 t :=
  before14_0_of V a (dat14 V a c) (A_eq14 V a c 0) (after14_0 V a c) t d
theorem before14_1 (c : Dev nD) (t : Fin (cfg14 a).N) (d) : (dat14 V a c).before 1 t d = iblk14 V a c 1 t :=
  before14_1_of V a (dat14 V a c) (A_eq14 V a c 1) (after14_1 V a c) t d

/-! ## The body obligation, at a generic point -/

def bodyPre14 (c : Dev nD) (t : Fin (cfg14 a).N) : sProp 𝕄 :=
  iprop((dat14 V a c).Φ t.castSucc ∗ (dat14 V a c).owesAt () t.castSucc
    ∗ (∃ d, owns (c : Thread nD τ) (ms14_0 a t) fullShare ((dat14 V a c).before 0 t d))
    ∗ (∃ d, owns (c : Thread nD τ) (ms14_1 a t) fullShare ((dat14 V a c).before 1 t d))
    ∗ (∃ d, owns (c : Thread nD τ) (ms14_2 a t) fullShare ((dat14 V a c).before 2 t d)))

def bodyPost14 (c : Dev nD) (t : Fin (cfg14 a).N) : sProp 𝕄 :=
  iprop((dat14 V a c).Φ t.succ ∗ (dat14 V a c).owesAt () t.succ
    ∗ owns (c : Thread nD τ) (ms14_0 a t) fullShare ((dat14 V a c).after 0 t)
    ∗ owns (c : Thread nD τ) (ms14_1 a t) fullShare ((dat14 V a c).after 1 t)
    ∗ owns (c : Thread nD τ) (ms14_2 a t) fullShare ((dat14 V a c).after 2 t))

/-- The body at any point: the inputs' memrefs hold their blocks, so the run applies; the invariant and the core's
    dues pass through unread. -/
theorem sound_body14 (c : Dev nD) (t : Fin (cfg14 a).N) :
    bodyPre14 V a c t ⊢ wp frame (wpE (defs₀ (F := F)) Variants.none c none) Set.univ (bodyAt14 a t) (fun _ => bodyPost14 V a c t) := by
  unfold bodyPre14 bodyPost14 bodyAt14
  simp only [before14_0, before14_1]
  rw [show (dat14 V a c).Φ t.succ = (dat14 V a c).Φ t.castSucc from rfl,
    show (dat14 V a c).owesAt () t.succ = (dat14 V a c).owesAt () t.castSucc from rfl,
    after14_0, after14_1, after14_2]
  iintro ⟨HΦ, Ho, ⟨%d0, H0⟩, ⟨%d1, H1⟩, ⟨%d2, H2⟩⟩
  iapply (sound_kernel14 c Set.univ _ _ _ _ _ _ _ _ _ _ _ (iblk14 V a c 0 t) (iblk14 V a c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation14 (c : Dev nD) : BodyObligation (dat14 (F := F) V a c) (defs₀ (F := F)) Variants.none () Set.univ := fun t => by
  rw [bigSep_W14, bigSep_W14]
  exact sound_body14 V a c t

end Region

end Cert.Kernel.Hand

end
-- ==== Proof.K.Tables14.lean ====
/-
  Edge chunk 14's index tables. The host slices 40000 consecutive words, from word 520000 on, out of each endpoint
  array (src, then dst) into scalar memory; the chunk's pipeline reads word t of each as the block row of its two
  gathered windows at grid point t. When every endpoint word is a node id (below 50000) each such row lies inside
  the 50000-row arrays: the tables' contents are admissible for the pipeline.
-/
import proofs.«413139_j22651657519351_3_alg».proof.Proof.Gen.Kernel.Launch
import proofs.«413139_j22651657519351_3_alg».proof.Proof.Gen.Kernel.Skeleton
import proofs.«413139_j22651657519351_3_alg».proof.Proof.Gen.Kernel.Points
import proofs.«413139_j22651657519351_3_alg».proof.Proof.K.Range
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Tables

variable (m : (ℓ : Loc nD τ sig) → Buf (Elt F) ℓ)

/-- The two tables' contents, read off the launch memory: the endpoint arrays' words 520000 … 520000 + 39999. -/
def tbl14 : pre14.Contents (Elt F) := fun k => match k with
  | ⟨0, _⟩ => (extractStridedSlice S40000 ![520000] (m (((0 : Dev nD) : Thread nD τ).loc main_arg1)) slices_S800000_S40000_520000 : (⟨S40000, .i32⟩ : BufTy).Contents (Elt F))
  | ⟨1, _⟩ => (extractStridedSlice S40000 ![520000] (m (((0 : Dev nD) : Thread nD τ).loc main_arg2)) slices_S800000_S40000_520000 : (⟨S40000, .i32⟩ : BufTy).Contents (Elt F))

/-- Tables whose every word is below the node count put every gathered block inside its array: row word + 1 ≤ 50000,
    the two unit axes and the 128 lanes exactly filled; float32 words transfer whole. -/
theorem ok14_of (pf : pre14.Contents (Elt F)) (h0 : ∀ j, ((pf 0 j : Elt F .i32) : BitVec 32).toNat < 50000)
    (h1 : ∀ j, ((pf 1 j : Elt F .i32) : BitVec 32).toNat < 50000) : ok14 pf := by
  refine ⟨fun i => ⟨fun a => ?_, Or.inl rfl⟩, fun i => ⟨fun a => ?_, Or.inl rfl⟩⟩
  · match a with
    | ⟨0, _⟩ =>
      show (BitVec.toNat (pf 0 _) + 1) * 1 ≤ 50000
      exact (Nat.mul_one _).le.trans (Nat.succ_le_of_lt (h0 _))
    | ⟨1, _⟩ => show (BitVec.toNat (0#32) + 1) * 1 ≤ 1; decide
    | ⟨2, _⟩ => show (BitVec.toNat (0#32) + 1) * 128 ≤ 128; decide
  · match a with
    | ⟨0, _⟩ =>
      show (BitVec.toNat (pf 1 _) + 1) * 1 ≤ 50000
      exact (Nat.mul_one _).le.trans (Nat.succ_le_of_lt (h1 _))
    | ⟨1, _⟩ => show (BitVec.toNat (0#32) + 1) * 1 ≤ 1; decide
    | ⟨2, _⟩ => show (BitVec.toNat (0#32) + 1) * 128 ≤ 128; decide

/-- The chunk's tables as admissible contents, when the endpoint words are node ids. -/
def a14 (hR : InRange m) : (pcfg14 (F := F)).Adm :=
  ⟨tbl14 m, ok14_of (tbl14 m) (fun j => (hR 0).1 _) (fun j => (hR 0).2 _)⟩

theorem a14_val (hR : InRange m) : (a14 m hR).1 = tbl14 m := rfl

end Tables

end Cert.Kernel.Hand

end
-- ==== Proof.K.Region15.lean ====
/-
  Edge chunk 15's gather kernel (twenty chunks of 40000 edges): at grid point t the pipeline fetches row src[t] of the
  re-laid projection hs2 and row dst[t] of hd2 (two blocks of 128 lanes, chosen by the prefetched index tables),
  the body stores (row + row) · c into the output block, which is written back as row t of the chunk's output.
  Here: what each window's staging buffer holds before and after the body at every point, for any contents V of the
  buffers at the region's entry and any admissible contents `a` of the two index tables, and the body's run.
  The tables ride through the region untouched: the body never reads them.
-/
import proofs.«413139_j22651657519351_3_alg».proof.Proof.Gen.Kernel.Launch
import proofs.«413139_j22651657519351_3_alg».proof.Proof.Gen.Kernel.Skeleton
import proofs.«413139_j22651657519351_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region

variable (V : (c : Dev nD) → (b : Ref sig .tc) → Buf (Elt F) ((c : Thread nD τ).loc b))
variable (a : (pcfg15 (F := F)).Adm)

/-! ## The body as the pipeline calls it at a point -/

/-- Each window's current staging memref at point `t`, and its wholeness. -/
abbrev ms15_0 (t : Fin (cfg15 a).N) : Memref sig .tc .vmem S1x1x128 .f32 := spec15_0.stage ((cfg15 a).slots t 0)
abbrev hs15_0 (t : Fin (cfg15 a).N) : (ms15_0 a t).IsWhole := hstage15_0 (((cfg15 a).slots t 0).cast nbuf15_0)
abbrev ms15_1 (t : Fin (cfg15 a).N) : Memref sig .tc .vmem S1x1x128 .f32 := spec15_1.stage ((cfg15 a).slots t 1)
abbrev hs15_1 (t : Fin (cfg15 a).N) : (ms15_1 a t).IsWhole := hstage15_1 (((cfg15 a).slots t 1).cast nbuf15_1)
abbrev ms15_2 (t : Fin (cfg15 a).N) : Memref sig .tc .vmem S1x1x128 .f32 := spec15_2.stage ((cfg15 a).slots t 2)
abbrev hs15_2 (t : Fin (cfg15 a).N) : (ms15_2 a t).IsWhole := hstage15_2 (((cfg15 a).slots t 2).cast nbuf15_2)

/-- The kernel body at point `t`, on what the pipeline calls it with. -/
abbrev bodyAt15 (t : Fin (cfg15 a).N) : Prog (TpuEff nD τ sig (Elt F) Λ₀ .tc) PUnit :=
  cc15__gather_kernel (grid15.coords t) (Memref.whole main_v61) (Memref.isWhole_whole _) (Memref.whole main_v62) (Memref.isWhole_whole _)
    (ms15_0 a t) (hs15_0 a t) (ms15_1 a t) (hs15_1 a t) (ms15_2 a t) (hs15_2 a t)

/-! ## The windows' blocks -/

/-- Window `w`'s block at point `t`, read off its array as the region finds it: for the two gathered windows the
    row the tables' word at `t` names. -/
def iblk15 (c : Dev nD) (w : Fin (cfg15 a).W) (t : Fin (cfg15 a).N) :
    (((cfg15 a).win w).xblock ((cfg15 a).grid.coords t)).Idx → Elt F ((cfg15 a).win w).elt :=
  (((cfg15 a).win w).blk t).view.read (Elt F) (V c (Pipeline.arrRef spec15 w))

/-- An input window's current staging buffer holds its block at every point, fetched there or not. -/
theorem before15_0_of {c : Dev nD} (dat : Dat τ (Elt F) Unit ℕ (UR sig nD τ) ℕ (cfg15 a) c) (hA : dat.A 0 = V c (Pipeline.arrRef spec15 0))
    (hafter : ∀ t, dat.after 0 t = iblk15 V a c 0 t) (t : Fin (cfg15 a).N) (d) : dat.before 0 t d = iblk15 V a c 0 t :=
  (dat.before_in_eq_fetched 0 rfl (fun _ => rfl) (fun _ _ _ => rfl) (fun t => by rw [hafter]; unfold Dat.blockOf iblk15; rw [hA]; try rfl) t d).trans
    (by unfold Dat.fetched Dat.blockOf iblk15; rw [hA]; try rfl)

theorem before15_1_of {c : Dev nD} (dat : Dat τ (Elt F) Unit ℕ (UR sig nD τ) ℕ (cfg15 a) c) (hA : dat.A 1 = V c (Pipeline.arrRef spec15 1))
    (hafter : ∀ t, dat.after 1 t = iblk15 V a c 1 t) (t : Fin (cfg15 a).N) (d) : dat.before 1 t d = iblk15 V a c 1 t :=
  (dat.before_in_eq_fetched 1 rfl (fun _ => rfl) (fun _ _ _ => rfl) (fun t => by rw [hafter]; unfold Dat.blockOf iblk15; rw [hA]; try rfl) t d).trans
    (by unfold Dat.fetched Dat.blockOf iblk15; rw [hA]; try rfl)

/-! ## What the body leaves in the output window's buffer -/

/-- The one rectangle the body loads and stores through: the whole 1×1×128 block. -/
abbrev r15 : Rect S1x1x128 := Rect.unit (s := S1x1x128) ![0, 0, 0] S1x1x128.size inb_S1x1x128_S1x1x128_0_0_0

/-- The output block after the body, from the two gathered rows: its one store. -/
def out15_2 (x0 x1 : Vec F S1x1x128 .f32) : Vec F S1x1x128 .f32 :=
  View.canon [⟨r15, k15_pay1 (View.ld x0 r15) (View.ld x1 r15)⟩]

/-- The store covers the block. -/
theorem cover15_2 (p0 : Vec F S1x1x128 .f32) (y : S1x1x128.Idx) :
    ∃ pc ∈ ([⟨r15, p0⟩] : List (View.Piece (Elt F) S1x1x128 .f32)), y ∈ pc.1.set :=
  View.cover_of_tiled [⟨r15, p0⟩] S1x1x128.size (by rfl) y

/-! ## The body's run -/

set_option maxHeartbeats 1000000 in
/-- The body on whole staging memrefs, the two inputs' at contents `x0`, `x1` and the output's at anything, runs to the
    continuation holding the inputs as they were and the output at `out15_2 x0 x1`; the table memrefs are not touched. -/
theorem sound_kernel15 (c : Dev nD) (E : Set ℕ) (i : grid15.Coords)
    (arg1 : Memref sig .tc .smem S40000 .i32) (harg1 : arg1.IsWhole) (arg2 : Memref sig .tc .smem S40000 .i32) (harg2 : arg2.IsWhole)
    (arg3 : Memref sig .tc .vmem S1x1x128 .f32) (harg3 : arg3.IsWhole) (arg4 : Memref sig .tc .vmem S1x1x128 .f32) (harg4 : arg4.IsWhole)
    (arg5 : Memref sig .tc .vmem S1x1x128 .f32) (harg5 : arg5.IsWhole)
    (x0 x1 : Vec F S1x1x128 .f32) (K : PUnit → sProp 𝕄) :
    iprop(owns (c : Thread nD τ) arg3 fullShare x0 ∗ owns (c : Thread nD τ) arg4 fullShare x1 ∗ (∃ d, owns (c : Thread nD τ) arg5 fullShare d)
        ∗ (iprop(owns (c : Thread nD τ) arg3 fullShare x0 ∗ owns (c : Thread nD τ) arg4 fullShare x1
            ∗ owns (c : Thread nD τ) arg5 fullShare (out15_2 x0 x1)) -∗ K ⟨⟩))
      ⊢ wp frame (wpE (defs₀ (F := F)) Variants.none c none) E (cc15__gather_kernel i arg1 harg1 arg2 harg2 arg3 harg3 arg4 harg4 arg5 harg5) K := by
  simp only [cc15__gather_kernel_eq_skeleton]; unfold cc15__gather_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover15_2 _)

/-! ## The pipeline's proof data -/

/-- The proof data of this pipeline on core `c`: the arrays as the region finds them; after the body at point `t` each
    gathered input's buffer at its block and the output's at `out15_2` of the two; the invariant: the scoped rest, the
    generator register, and the two index tables held whole and untouched; nothing owed; full shares. -/
def dat15 (c : Dev nD) : Dat τ (Elt F) Unit ℕ (UR sig nD τ) ℕ (cfg15 a) c where
  A w := V c (Pipeline.arrRef spec15 w)
  after w t := match w with
    | ⟨0, _⟩ => iblk15 V a c 0 t
    | ⟨1, _⟩ => iblk15 V a c 1 t
    | ⟨2, _⟩ => out15_2 (iblk15 V a c 0 t) (iblk15 V a c 1 t)
  Φ _ := iprop(Pipeline.ΦA spec15 c ∗ Pipeline.prefHeld (Ix := Unit) (Name := ℕ) (U := UR sig nD τ) (Lvl := ℕ) pre15 c (fun _ => fullShare) a.1)
  q _ := fullShare
  owed _ := 0

theorem A_eq15 (c : Dev nD) (w : Fin (cfg15 a).W) : (dat15 V a c).A w = V c (Pipeline.arrRef spec15 w) := by
  dsimp only [dat15]

theorem after15_0 (c : Dev nD) (t : Fin (cfg15 a).N) : (dat15 V a c).after 0 t = iblk15 V a c 0 t := by dsimp only [dat15]; try rfl
theorem after15_1 (c : Dev nD) (t : Fin (cfg15 a).N) : (dat15 V a c).after 1 t = iblk15 V a c 1 t := by dsimp only [dat15]; try rfl
theorem after15_2 (c : Dev nD) (t : Fin (cfg15 a).N) : (dat15 V a c).after 2 t = out15_2 (iblk15 V a c 0 t) (iblk15 V a c 1 t) := by dsimp only [dat15]; try rfl

theorem before15_0 (c : Dev nD) (t : Fin (cfg15 a).N) (d) : (dat15 V a c).before 0 t d = iblk15 V a c 0 t :=
  before15_0_of V a (dat15 V a c) (A_eq15 V a c 0) (after15_0 V a c) t d
theorem before15_1 (c : Dev nD) (t : Fin (cfg15 a).N) (d) : (dat15 V a c).before 1 t d = iblk15 V a c 1 t :=
  before15_1_of V a (dat15 V a c) (A_eq15 V a c 1) (after15_1 V a c) t d

/-! ## The body obligation, at a generic point -/

def bodyPre15 (c : Dev nD) (t : Fin (cfg15 a).N) : sProp 𝕄 :=
  iprop((dat15 V a c).Φ t.castSucc ∗ (dat15 V a c).owesAt () t.castSucc
    ∗ (∃ d, owns (c : Thread nD τ) (ms15_0 a t) fullShare ((dat15 V a c).before 0 t d))
    ∗ (∃ d, owns (c : Thread nD τ) (ms15_1 a t) fullShare ((dat15 V a c).before 1 t d))
    ∗ (∃ d, owns (c : Thread nD τ) (ms15_2 a t) fullShare ((dat15 V a c).before 2 t d)))

def bodyPost15 (c : Dev nD) (t : Fin (cfg15 a).N) : sProp 𝕄 :=
  iprop((dat15 V a c).Φ t.succ ∗ (dat15 V a c).owesAt () t.succ
    ∗ owns (c : Thread nD τ) (ms15_0 a t) fullShare ((dat15 V a c).after 0 t)
    ∗ owns (c : Thread nD τ) (ms15_1 a t) fullShare ((dat15 V a c).after 1 t)
    ∗ owns (c : Thread nD τ) (ms15_2 a t) fullShare ((dat15 V a c).after 2 t))

/-- The body at any point: the inputs' memrefs hold their blocks, so the run applies; the invariant and the core's
    dues pass through unread. -/
theorem sound_body15 (c : Dev nD) (t : Fin (cfg15 a).N) :
    bodyPre15 V a c t ⊢ wp frame (wpE (defs₀ (F := F)) Variants.none c none) Set.univ (bodyAt15 a t) (fun _ => bodyPost15 V a c t) := by
  unfold bodyPre15 bodyPost15 bodyAt15
  simp only [before15_0, before15_1]
  rw [show (dat15 V a c).Φ t.succ = (dat15 V a c).Φ t.castSucc from rfl,
    show (dat15 V a c).owesAt () t.succ = (dat15 V a c).owesAt () t.castSucc from rfl,
    after15_0, after15_1, after15_2]
  iintro ⟨HΦ, Ho, ⟨%d0, H0⟩, ⟨%d1, H1⟩, ⟨%d2, H2⟩⟩
  iapply (sound_kernel15 c Set.univ _ _ _ _ _ _ _ _ _ _ _ (iblk15 V a c 0 t) (iblk15 V a c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation15 (c : Dev nD) : BodyObligation (dat15 (F := F) V a c) (defs₀ (F := F)) Variants.none () Set.univ := fun t => by
  rw [bigSep_W15, bigSep_W15]
  exact sound_body15 V a c t

end Region

end Cert.Kernel.Hand

end
-- ==== Proof.K.Tables15.lean ====
/-
  Edge chunk 15's index tables. The host slices 40000 consecutive words, from word 560000 on, out of each endpoint
  array (src, then dst) into scalar memory; the chunk's pipeline reads word t of each as the block row of its two
  gathered windows at grid point t. When every endpoint word is a node id (below 50000) each such row lies inside
  the 50000-row arrays: the tables' contents are admissible for the pipeline.
-/
import proofs.«413139_j22651657519351_3_alg».proof.Proof.Gen.Kernel.Launch
import proofs.«413139_j22651657519351_3_alg».proof.Proof.Gen.Kernel.Skeleton
import proofs.«413139_j22651657519351_3_alg».proof.Proof.Gen.Kernel.Points
import proofs.«413139_j22651657519351_3_alg».proof.Proof.K.Range
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Tables

variable (m : (ℓ : Loc nD τ sig) → Buf (Elt F) ℓ)

/-- The two tables' contents, read off the launch memory: the endpoint arrays' words 560000 … 560000 + 39999. -/
def tbl15 : pre15.Contents (Elt F) := fun k => match k with
  | ⟨0, _⟩ => (extractStridedSlice S40000 ![560000] (m (((0 : Dev nD) : Thread nD τ).loc main_arg1)) slices_S800000_S40000_560000 : (⟨S40000, .i32⟩ : BufTy).Contents (Elt F))
  | ⟨1, _⟩ => (extractStridedSlice S40000 ![560000] (m (((0 : Dev nD) : Thread nD τ).loc main_arg2)) slices_S800000_S40000_560000 : (⟨S40000, .i32⟩ : BufTy).Contents (Elt F))

/-- Tables whose every word is below the node count put every gathered block inside its array: row word + 1 ≤ 50000,
    the two unit axes and the 128 lanes exactly filled; float32 words transfer whole. -/
theorem ok15_of (pf : pre15.Contents (Elt F)) (h0 : ∀ j, ((pf 0 j : Elt F .i32) : BitVec 32).toNat < 50000)
    (h1 : ∀ j, ((pf 1 j : Elt F .i32) : BitVec 32).toNat < 50000) : ok15 pf := by
  refine ⟨fun i => ⟨fun a => ?_, Or.inl rfl⟩, fun i => ⟨fun a => ?_, Or.inl rfl⟩⟩
  · match a with
    | ⟨0, _⟩ =>
      show (BitVec.toNat (pf 0 _) + 1) * 1 ≤ 50000
      exact (Nat.mul_one _).le.trans (Nat.succ_le_of_lt (h0 _))
    | ⟨1, _⟩ => show (BitVec.toNat (0#32) + 1) * 1 ≤ 1; decide
    | ⟨2, _⟩ => show (BitVec.toNat (0#32) + 1) * 128 ≤ 128; decide
  · match a with
    | ⟨0, _⟩ =>
      show (BitVec.toNat (pf 1 _) + 1) * 1 ≤ 50000
      exact (Nat.mul_one _).le.trans (Nat.succ_le_of_lt (h1 _))
    | ⟨1, _⟩ => show (BitVec.toNat (0#32) + 1) * 1 ≤ 1; decide
    | ⟨2, _⟩ => show (BitVec.toNat (0#32) + 1) * 128 ≤ 128; decide

/-- The chunk's tables as admissible contents, when the endpoint words are node ids. -/
def a15 (hR : InRange m) : (pcfg15 (F := F)).Adm :=
  ⟨tbl15 m, ok15_of (tbl15 m) (fun j => (hR 0).1 _) (fun j => (hR 0).2 _)⟩

theorem a15_val (hR : InRange m) : (a15 m hR).1 = tbl15 m := rfl

end Tables

end Cert.Kernel.Hand

end
-- ==== Proof.K.Region16.lean ====
/-
  Edge chunk 16's gather kernel (twenty chunks of 40000 edges): at grid point t the pipeline fetches row src[t] of the
  re-laid projection hs2 and row dst[t] of hd2 (two blocks of 128 lanes, chosen by the prefetched index tables),
  the body stores (row + row) · c into the output block, which is written back as row t of the chunk's output.
  Here: what each window's staging buffer holds before and after the body at every point, for any contents V of the
  buffers at the region's entry and any admissible contents `a` of the two index tables, and the body's run.
  The tables ride through the region untouched: the body never reads them.
-/
import proofs.«413139_j22651657519351_3_alg».proof.Proof.Gen.Kernel.Launch
import proofs.«413139_j22651657519351_3_alg».proof.Proof.Gen.Kernel.Skeleton
import proofs.«413139_j22651657519351_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region

variable (V : (c : Dev nD) → (b : Ref sig .tc) → Buf (Elt F) ((c : Thread nD τ).loc b))
variable (a : (pcfg16 (F := F)).Adm)

/-! ## The body as the pipeline calls it at a point -/

/-- Each window's current staging memref at point `t`, and its wholeness. -/
abbrev ms16_0 (t : Fin (cfg16 a).N) : Memref sig .tc .vmem S1x1x128 .f32 := spec16_0.stage ((cfg16 a).slots t 0)
abbrev hs16_0 (t : Fin (cfg16 a).N) : (ms16_0 a t).IsWhole := hstage16_0 (((cfg16 a).slots t 0).cast nbuf16_0)
abbrev ms16_1 (t : Fin (cfg16 a).N) : Memref sig .tc .vmem S1x1x128 .f32 := spec16_1.stage ((cfg16 a).slots t 1)
abbrev hs16_1 (t : Fin (cfg16 a).N) : (ms16_1 a t).IsWhole := hstage16_1 (((cfg16 a).slots t 1).cast nbuf16_1)
abbrev ms16_2 (t : Fin (cfg16 a).N) : Memref sig .tc .vmem S1x1x128 .f32 := spec16_2.stage ((cfg16 a).slots t 2)
abbrev hs16_2 (t : Fin (cfg16 a).N) : (ms16_2 a t).IsWhole := hstage16_2 (((cfg16 a).slots t 2).cast nbuf16_2)

/-- The kernel body at point `t`, on what the pipeline calls it with. -/
abbrev bodyAt16 (t : Fin (cfg16 a).N) : Prog (TpuEff nD τ sig (Elt F) Λ₀ .tc) PUnit :=
  cc16__gather_kernel (grid16.coords t) (Memref.whole main_v65) (Memref.isWhole_whole _) (Memref.whole main_v66) (Memref.isWhole_whole _)
    (ms16_0 a t) (hs16_0 a t) (ms16_1 a t) (hs16_1 a t) (ms16_2 a t) (hs16_2 a t)

/-! ## The windows' blocks -/

/-- Window `w`'s block at point `t`, read off its array as the region finds it: for the two gathered windows the
    row the tables' word at `t` names. -/
def iblk16 (c : Dev nD) (w : Fin (cfg16 a).W) (t : Fin (cfg16 a).N) :
    (((cfg16 a).win w).xblock ((cfg16 a).grid.coords t)).Idx → Elt F ((cfg16 a).win w).elt :=
  (((cfg16 a).win w).blk t).view.read (Elt F) (V c (Pipeline.arrRef spec16 w))

/-- An input window's current staging buffer holds its block at every point, fetched there or not. -/
theorem before16_0_of {c : Dev nD} (dat : Dat τ (Elt F) Unit ℕ (UR sig nD τ) ℕ (cfg16 a) c) (hA : dat.A 0 = V c (Pipeline.arrRef spec16 0))
    (hafter : ∀ t, dat.after 0 t = iblk16 V a c 0 t) (t : Fin (cfg16 a).N) (d) : dat.before 0 t d = iblk16 V a c 0 t :=
  (dat.before_in_eq_fetched 0 rfl (fun _ => rfl) (fun _ _ _ => rfl) (fun t => by rw [hafter]; unfold Dat.blockOf iblk16; rw [hA]; try rfl) t d).trans
    (by unfold Dat.fetched Dat.blockOf iblk16; rw [hA]; try rfl)

theorem before16_1_of {c : Dev nD} (dat : Dat τ (Elt F) Unit ℕ (UR sig nD τ) ℕ (cfg16 a) c) (hA : dat.A 1 = V c (Pipeline.arrRef spec16 1))
    (hafter : ∀ t, dat.after 1 t = iblk16 V a c 1 t) (t : Fin (cfg16 a).N) (d) : dat.before 1 t d = iblk16 V a c 1 t :=
  (dat.before_in_eq_fetched 1 rfl (fun _ => rfl) (fun _ _ _ => rfl) (fun t => by rw [hafter]; unfold Dat.blockOf iblk16; rw [hA]; try rfl) t d).trans
    (by unfold Dat.fetched Dat.blockOf iblk16; rw [hA]; try rfl)

/-! ## What the body leaves in the output window's buffer -/

/-- The one rectangle the body loads and stores through: the whole 1×1×128 block. -/
abbrev r16 : Rect S1x1x128 := Rect.unit (s := S1x1x128) ![0, 0, 0] S1x1x128.size inb_S1x1x128_S1x1x128_0_0_0

/-- The output block after the body, from the two gathered rows: its one store. -/
def out16_2 (x0 x1 : Vec F S1x1x128 .f32) : Vec F S1x1x128 .f32 :=
  View.canon [⟨r16, k16_pay1 (View.ld x0 r16) (View.ld x1 r16)⟩]

/-- The store covers the block. -/
theorem cover16_2 (p0 : Vec F S1x1x128 .f32) (y : S1x1x128.Idx) :
    ∃ pc ∈ ([⟨r16, p0⟩] : List (View.Piece (Elt F) S1x1x128 .f32)), y ∈ pc.1.set :=
  View.cover_of_tiled [⟨r16, p0⟩] S1x1x128.size (by rfl) y

/-! ## The body's run -/

set_option maxHeartbeats 1000000 in
/-- The body on whole staging memrefs, the two inputs' at contents `x0`, `x1` and the output's at anything, runs to the
    continuation holding the inputs as they were and the output at `out16_2 x0 x1`; the table memrefs are not touched. -/
theorem sound_kernel16 (c : Dev nD) (E : Set ℕ) (i : grid16.Coords)
    (arg1 : Memref sig .tc .smem S40000 .i32) (harg1 : arg1.IsWhole) (arg2 : Memref sig .tc .smem S40000 .i32) (harg2 : arg2.IsWhole)
    (arg3 : Memref sig .tc .vmem S1x1x128 .f32) (harg3 : arg3.IsWhole) (arg4 : Memref sig .tc .vmem S1x1x128 .f32) (harg4 : arg4.IsWhole)
    (arg5 : Memref sig .tc .vmem S1x1x128 .f32) (harg5 : arg5.IsWhole)
    (x0 x1 : Vec F S1x1x128 .f32) (K : PUnit → sProp 𝕄) :
    iprop(owns (c : Thread nD τ) arg3 fullShare x0 ∗ owns (c : Thread nD τ) arg4 fullShare x1 ∗ (∃ d, owns (c : Thread nD τ) arg5 fullShare d)
        ∗ (iprop(owns (c : Thread nD τ) arg3 fullShare x0 ∗ owns (c : Thread nD τ) arg4 fullShare x1
            ∗ owns (c : Thread nD τ) arg5 fullShare (out16_2 x0 x1)) -∗ K ⟨⟩))
      ⊢ wp frame (wpE (defs₀ (F := F)) Variants.none c none) E (cc16__gather_kernel i arg1 harg1 arg2 harg2 arg3 harg3 arg4 harg4 arg5 harg5) K := by
  simp only [cc16__gather_kernel_eq_skeleton]; unfold cc16__gather_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover16_2 _)

/-! ## The pipeline's proof data -/

/-- The proof data of this pipeline on core `c`: the arrays as the region finds them; after the body at point `t` each
    gathered input's buffer at its block and the output's at `out16_2` of the two; the invariant: the scoped rest, the
    generator register, and the two index tables held whole and untouched; nothing owed; full shares. -/
def dat16 (c : Dev nD) : Dat τ (Elt F) Unit ℕ (UR sig nD τ) ℕ (cfg16 a) c where
  A w := V c (Pipeline.arrRef spec16 w)
  after w t := match w with
    | ⟨0, _⟩ => iblk16 V a c 0 t
    | ⟨1, _⟩ => iblk16 V a c 1 t
    | ⟨2, _⟩ => out16_2 (iblk16 V a c 0 t) (iblk16 V a c 1 t)
  Φ _ := iprop(Pipeline.ΦA spec16 c ∗ Pipeline.prefHeld (Ix := Unit) (Name := ℕ) (U := UR sig nD τ) (Lvl := ℕ) pre16 c (fun _ => fullShare) a.1)
  q _ := fullShare
  owed _ := 0

theorem A_eq16 (c : Dev nD) (w : Fin (cfg16 a).W) : (dat16 V a c).A w = V c (Pipeline.arrRef spec16 w) := by
  dsimp only [dat16]

theorem after16_0 (c : Dev nD) (t : Fin (cfg16 a).N) : (dat16 V a c).after 0 t = iblk16 V a c 0 t := by dsimp only [dat16]; try rfl
theorem after16_1 (c : Dev nD) (t : Fin (cfg16 a).N) : (dat16 V a c).after 1 t = iblk16 V a c 1 t := by dsimp only [dat16]; try rfl
theorem after16_2 (c : Dev nD) (t : Fin (cfg16 a).N) : (dat16 V a c).after 2 t = out16_2 (iblk16 V a c 0 t) (iblk16 V a c 1 t) := by dsimp only [dat16]; try rfl

theorem before16_0 (c : Dev nD) (t : Fin (cfg16 a).N) (d) : (dat16 V a c).before 0 t d = iblk16 V a c 0 t :=
  before16_0_of V a (dat16 V a c) (A_eq16 V a c 0) (after16_0 V a c) t d
theorem before16_1 (c : Dev nD) (t : Fin (cfg16 a).N) (d) : (dat16 V a c).before 1 t d = iblk16 V a c 1 t :=
  before16_1_of V a (dat16 V a c) (A_eq16 V a c 1) (after16_1 V a c) t d

/-! ## The body obligation, at a generic point -/

def bodyPre16 (c : Dev nD) (t : Fin (cfg16 a).N) : sProp 𝕄 :=
  iprop((dat16 V a c).Φ t.castSucc ∗ (dat16 V a c).owesAt () t.castSucc
    ∗ (∃ d, owns (c : Thread nD τ) (ms16_0 a t) fullShare ((dat16 V a c).before 0 t d))
    ∗ (∃ d, owns (c : Thread nD τ) (ms16_1 a t) fullShare ((dat16 V a c).before 1 t d))
    ∗ (∃ d, owns (c : Thread nD τ) (ms16_2 a t) fullShare ((dat16 V a c).before 2 t d)))

def bodyPost16 (c : Dev nD) (t : Fin (cfg16 a).N) : sProp 𝕄 :=
  iprop((dat16 V a c).Φ t.succ ∗ (dat16 V a c).owesAt () t.succ
    ∗ owns (c : Thread nD τ) (ms16_0 a t) fullShare ((dat16 V a c).after 0 t)
    ∗ owns (c : Thread nD τ) (ms16_1 a t) fullShare ((dat16 V a c).after 1 t)
    ∗ owns (c : Thread nD τ) (ms16_2 a t) fullShare ((dat16 V a c).after 2 t))

/-- The body at any point: the inputs' memrefs hold their blocks, so the run applies; the invariant and the core's
    dues pass through unread. -/
theorem sound_body16 (c : Dev nD) (t : Fin (cfg16 a).N) :
    bodyPre16 V a c t ⊢ wp frame (wpE (defs₀ (F := F)) Variants.none c none) Set.univ (bodyAt16 a t) (fun _ => bodyPost16 V a c t) := by
  unfold bodyPre16 bodyPost16 bodyAt16
  simp only [before16_0, before16_1]
  rw [show (dat16 V a c).Φ t.succ = (dat16 V a c).Φ t.castSucc from rfl,
    show (dat16 V a c).owesAt () t.succ = (dat16 V a c).owesAt () t.castSucc from rfl,
    after16_0, after16_1, after16_2]
  iintro ⟨HΦ, Ho, ⟨%d0, H0⟩, ⟨%d1, H1⟩, ⟨%d2, H2⟩⟩
  iapply (sound_kernel16 c Set.univ _ _ _ _ _ _ _ _ _ _ _ (iblk16 V a c 0 t) (iblk16 V a c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation16 (c : Dev nD) : BodyObligation (dat16 (F := F) V a c) (defs₀ (F := F)) Variants.none () Set.univ := fun t => by
  rw [bigSep_W16, bigSep_W16]
  exact sound_body16 V a c t

end Region

end Cert.Kernel.Hand

end
-- ==== Proof.K.Tables16.lean ====
/-
  Edge chunk 16's index tables. The host slices 40000 consecutive words, from word 600000 on, out of each endpoint
  array (src, then dst) into scalar memory; the chunk's pipeline reads word t of each as the block row of its two
  gathered windows at grid point t. When every endpoint word is a node id (below 50000) each such row lies inside
  the 50000-row arrays: the tables' contents are admissible for the pipeline.
-/
import proofs.«413139_j22651657519351_3_alg».proof.Proof.Gen.Kernel.Launch
import proofs.«413139_j22651657519351_3_alg».proof.Proof.Gen.Kernel.Skeleton
import proofs.«413139_j22651657519351_3_alg».proof.Proof.Gen.Kernel.Points
import proofs.«413139_j22651657519351_3_alg».proof.Proof.K.Range
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Tables

variable (m : (ℓ : Loc nD τ sig) → Buf (Elt F) ℓ)

/-- The two tables' contents, read off the launch memory: the endpoint arrays' words 600000 … 600000 + 39999. -/
def tbl16 : pre16.Contents (Elt F) := fun k => match k with
  | ⟨0, _⟩ => (extractStridedSlice S40000 ![600000] (m (((0 : Dev nD) : Thread nD τ).loc main_arg1)) slices_S800000_S40000_600000 : (⟨S40000, .i32⟩ : BufTy).Contents (Elt F))
  | ⟨1, _⟩ => (extractStridedSlice S40000 ![600000] (m (((0 : Dev nD) : Thread nD τ).loc main_arg2)) slices_S800000_S40000_600000 : (⟨S40000, .i32⟩ : BufTy).Contents (Elt F))

/-- Tables whose every word is below the node count put every gathered block inside its array: row word + 1 ≤ 50000,
    the two unit axes and the 128 lanes exactly filled; float32 words transfer whole. -/
theorem ok16_of (pf : pre16.Contents (Elt F)) (h0 : ∀ j, ((pf 0 j : Elt F .i32) : BitVec 32).toNat < 50000)
    (h1 : ∀ j, ((pf 1 j : Elt F .i32) : BitVec 32).toNat < 50000) : ok16 pf := by
  refine ⟨fun i => ⟨fun a => ?_, Or.inl rfl⟩, fun i => ⟨fun a => ?_, Or.inl rfl⟩⟩
  · match a with
    | ⟨0, _⟩ =>
      show (BitVec.toNat (pf 0 _) + 1) * 1 ≤ 50000
      exact (Nat.mul_one _).le.trans (Nat.succ_le_of_lt (h0 _))
    | ⟨1, _⟩ => show (BitVec.toNat (0#32) + 1) * 1 ≤ 1; decide
    | ⟨2, _⟩ => show (BitVec.toNat (0#32) + 1) * 128 ≤ 128; decide
  · match a with
    | ⟨0, _⟩ =>
      show (BitVec.toNat (pf 1 _) + 1) * 1 ≤ 50000
      exact (Nat.mul_one _).le.trans (Nat.succ_le_of_lt (h1 _))
    | ⟨1, _⟩ => show (BitVec.toNat (0#32) + 1) * 1 ≤ 1; decide
    | ⟨2, _⟩ => show (BitVec.toNat (0#32) + 1) * 128 ≤ 128; decide

/-- The chunk's tables as admissible contents, when the endpoint words are node ids. -/
def a16 (hR : InRange m) : (pcfg16 (F := F)).Adm :=
  ⟨tbl16 m, ok16_of (tbl16 m) (fun j => (hR 0).1 _) (fun j => (hR 0).2 _)⟩

theorem a16_val (hR : InRange m) : (a16 m hR).1 = tbl16 m := rfl

end Tables

end Cert.Kernel.Hand

end
-- ==== Proof.K.Region17.lean ====
/-
  Edge chunk 17's gather kernel (twenty chunks of 40000 edges): at grid point t the pipeline fetches row src[t] of the
  re-laid projection hs2 and row dst[t] of hd2 (two blocks of 128 lanes, chosen by the prefetched index tables),
  the body stores (row + row) · c into the output block, which is written back as row t of the chunk's output.
  Here: what each window's staging buffer holds before and after the body at every point, for any contents V of the
  buffers at the region's entry and any admissible contents `a` of the two index tables, and the body's run.
  The tables ride through the region untouched: the body never reads them.
-/
import proofs.«413139_j22651657519351_3_alg».proof.Proof.Gen.Kernel.Launch
import proofs.«413139_j22651657519351_3_alg».proof.Proof.Gen.Kernel.Skeleton
import proofs.«413139_j22651657519351_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region

variable (V : (c : Dev nD) → (b : Ref sig .tc) → Buf (Elt F) ((c : Thread nD τ).loc b))
variable (a : (pcfg17 (F := F)).Adm)

/-! ## The body as the pipeline calls it at a point -/

/-- Each window's current staging memref at point `t`, and its wholeness. -/
abbrev ms17_0 (t : Fin (cfg17 a).N) : Memref sig .tc .vmem S1x1x128 .f32 := spec17_0.stage ((cfg17 a).slots t 0)
abbrev hs17_0 (t : Fin (cfg17 a).N) : (ms17_0 a t).IsWhole := hstage17_0 (((cfg17 a).slots t 0).cast nbuf17_0)
abbrev ms17_1 (t : Fin (cfg17 a).N) : Memref sig .tc .vmem S1x1x128 .f32 := spec17_1.stage ((cfg17 a).slots t 1)
abbrev hs17_1 (t : Fin (cfg17 a).N) : (ms17_1 a t).IsWhole := hstage17_1 (((cfg17 a).slots t 1).cast nbuf17_1)
abbrev ms17_2 (t : Fin (cfg17 a).N) : Memref sig .tc .vmem S1x1x128 .f32 := spec17_2.stage ((cfg17 a).slots t 2)
abbrev hs17_2 (t : Fin (cfg17 a).N) : (ms17_2 a t).IsWhole := hstage17_2 (((cfg17 a).slots t 2).cast nbuf17_2)

/-- The kernel body at point `t`, on what the pipeline calls it with. -/
abbrev bodyAt17 (t : Fin (cfg17 a).N) : Prog (TpuEff nD τ sig (Elt F) Λ₀ .tc) PUnit :=
  cc17__gather_kernel (grid17.coords t) (Memref.whole main_v69) (Memref.isWhole_whole _) (Memref.whole main_v70) (Memref.isWhole_whole _)
    (ms17_0 a t) (hs17_0 a t) (ms17_1 a t) (hs17_1 a t) (ms17_2 a t) (hs17_2 a t)

/-! ## The windows' blocks -/

/-- Window `w`'s block at point `t`, read off its array as the region finds it: for the two gathered windows the
    row the tables' word at `t` names. -/
def iblk17 (c : Dev nD) (w : Fin (cfg17 a).W) (t : Fin (cfg17 a).N) :
    (((cfg17 a).win w).xblock ((cfg17 a).grid.coords t)).Idx → Elt F ((cfg17 a).win w).elt :=
  (((cfg17 a).win w).blk t).view.read (Elt F) (V c (Pipeline.arrRef spec17 w))

/-- An input window's current staging buffer holds its block at every point, fetched there or not. -/
theorem before17_0_of {c : Dev nD} (dat : Dat τ (Elt F) Unit ℕ (UR sig nD τ) ℕ (cfg17 a) c) (hA : dat.A 0 = V c (Pipeline.arrRef spec17 0))
    (hafter : ∀ t, dat.after 0 t = iblk17 V a c 0 t) (t : Fin (cfg17 a).N) (d) : dat.before 0 t d = iblk17 V a c 0 t :=
  (dat.before_in_eq_fetched 0 rfl (fun _ => rfl) (fun _ _ _ => rfl) (fun t => by rw [hafter]; unfold Dat.blockOf iblk17; rw [hA]; try rfl) t d).trans
    (by unfold Dat.fetched Dat.blockOf iblk17; rw [hA]; try rfl)

theorem before17_1_of {c : Dev nD} (dat : Dat τ (Elt F) Unit ℕ (UR sig nD τ) ℕ (cfg17 a) c) (hA : dat.A 1 = V c (Pipeline.arrRef spec17 1))
    (hafter : ∀ t, dat.after 1 t = iblk17 V a c 1 t) (t : Fin (cfg17 a).N) (d) : dat.before 1 t d = iblk17 V a c 1 t :=
  (dat.before_in_eq_fetched 1 rfl (fun _ => rfl) (fun _ _ _ => rfl) (fun t => by rw [hafter]; unfold Dat.blockOf iblk17; rw [hA]; try rfl) t d).trans
    (by unfold Dat.fetched Dat.blockOf iblk17; rw [hA]; try rfl)

/-! ## What the body leaves in the output window's buffer -/

/-- The one rectangle the body loads and stores through: the whole 1×1×128 block. -/
abbrev r17 : Rect S1x1x128 := Rect.unit (s := S1x1x128) ![0, 0, 0] S1x1x128.size inb_S1x1x128_S1x1x128_0_0_0

/-- The output block after the body, from the two gathered rows: its one store. -/
def out17_2 (x0 x1 : Vec F S1x1x128 .f32) : Vec F S1x1x128 .f32 :=
  View.canon [⟨r17, k17_pay1 (View.ld x0 r17) (View.ld x1 r17)⟩]

/-- The store covers the block. -/
theorem cover17_2 (p0 : Vec F S1x1x128 .f32) (y : S1x1x128.Idx) :
    ∃ pc ∈ ([⟨r17, p0⟩] : List (View.Piece (Elt F) S1x1x128 .f32)), y ∈ pc.1.set :=
  View.cover_of_tiled [⟨r17, p0⟩] S1x1x128.size (by rfl) y

/-! ## The body's run -/

set_option maxHeartbeats 1000000 in
/-- The body on whole staging memrefs, the two inputs' at contents `x0`, `x1` and the output's at anything, runs to the
    continuation holding the inputs as they were and the output at `out17_2 x0 x1`; the table memrefs are not touched. -/
theorem sound_kernel17 (c : Dev nD) (E : Set ℕ) (i : grid17.Coords)
    (arg1 : Memref sig .tc .smem S40000 .i32) (harg1 : arg1.IsWhole) (arg2 : Memref sig .tc .smem S40000 .i32) (harg2 : arg2.IsWhole)
    (arg3 : Memref sig .tc .vmem S1x1x128 .f32) (harg3 : arg3.IsWhole) (arg4 : Memref sig .tc .vmem S1x1x128 .f32) (harg4 : arg4.IsWhole)
    (arg5 : Memref sig .tc .vmem S1x1x128 .f32) (harg5 : arg5.IsWhole)
    (x0 x1 : Vec F S1x1x128 .f32) (K : PUnit → sProp 𝕄) :
    iprop(owns (c : Thread nD τ) arg3 fullShare x0 ∗ owns (c : Thread nD τ) arg4 fullShare x1 ∗ (∃ d, owns (c : Thread nD τ) arg5 fullShare d)
        ∗ (iprop(owns (c : Thread nD τ) arg3 fullShare x0 ∗ owns (c : Thread nD τ) arg4 fullShare x1
            ∗ owns (c : Thread nD τ) arg5 fullShare (out17_2 x0 x1)) -∗ K ⟨⟩))
      ⊢ wp frame (wpE (defs₀ (F := F)) Variants.none c none) E (cc17__gather_kernel i arg1 harg1 arg2 harg2 arg3 harg3 arg4 harg4 arg5 harg5) K := by
  simp only [cc17__gather_kernel_eq_skeleton]; unfold cc17__gather_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover17_2 _)

/-! ## The pipeline's proof data -/

/-- The proof data of this pipeline on core `c`: the arrays as the region finds them; after the body at point `t` each
    gathered input's buffer at its block and the output's at `out17_2` of the two; the invariant: the scoped rest, the
    generator register, and the two index tables held whole and untouched; nothing owed; full shares. -/
def dat17 (c : Dev nD) : Dat τ (Elt F) Unit ℕ (UR sig nD τ) ℕ (cfg17 a) c where
  A w := V c (Pipeline.arrRef spec17 w)
  after w t := match w with
    | ⟨0, _⟩ => iblk17 V a c 0 t
    | ⟨1, _⟩ => iblk17 V a c 1 t
    | ⟨2, _⟩ => out17_2 (iblk17 V a c 0 t) (iblk17 V a c 1 t)
  Φ _ := iprop(Pipeline.ΦA spec17 c ∗ Pipeline.prefHeld (Ix := Unit) (Name := ℕ) (U := UR sig nD τ) (Lvl := ℕ) pre17 c (fun _ => fullShare) a.1)
  q _ := fullShare
  owed _ := 0

theorem A_eq17 (c : Dev nD) (w : Fin (cfg17 a).W) : (dat17 V a c).A w = V c (Pipeline.arrRef spec17 w) := by
  dsimp only [dat17]

theorem after17_0 (c : Dev nD) (t : Fin (cfg17 a).N) : (dat17 V a c).after 0 t = iblk17 V a c 0 t := by dsimp only [dat17]; try rfl
theorem after17_1 (c : Dev nD) (t : Fin (cfg17 a).N) : (dat17 V a c).after 1 t = iblk17 V a c 1 t := by dsimp only [dat17]; try rfl
theorem after17_2 (c : Dev nD) (t : Fin (cfg17 a).N) : (dat17 V a c).after 2 t = out17_2 (iblk17 V a c 0 t) (iblk17 V a c 1 t) := by dsimp only [dat17]; try rfl

theorem before17_0 (c : Dev nD) (t : Fin (cfg17 a).N) (d) : (dat17 V a c).before 0 t d = iblk17 V a c 0 t :=
  before17_0_of V a (dat17 V a c) (A_eq17 V a c 0) (after17_0 V a c) t d
theorem before17_1 (c : Dev nD) (t : Fin (cfg17 a).N) (d) : (dat17 V a c).before 1 t d = iblk17 V a c 1 t :=
  before17_1_of V a (dat17 V a c) (A_eq17 V a c 1) (after17_1 V a c) t d

/-! ## The body obligation, at a generic point -/

def bodyPre17 (c : Dev nD) (t : Fin (cfg17 a).N) : sProp 𝕄 :=
  iprop((dat17 V a c).Φ t.castSucc ∗ (dat17 V a c).owesAt () t.castSucc
    ∗ (∃ d, owns (c : Thread nD τ) (ms17_0 a t) fullShare ((dat17 V a c).before 0 t d))
    ∗ (∃ d, owns (c : Thread nD τ) (ms17_1 a t) fullShare ((dat17 V a c).before 1 t d))
    ∗ (∃ d, owns (c : Thread nD τ) (ms17_2 a t) fullShare ((dat17 V a c).before 2 t d)))

def bodyPost17 (c : Dev nD) (t : Fin (cfg17 a).N) : sProp 𝕄 :=
  iprop((dat17 V a c).Φ t.succ ∗ (dat17 V a c).owesAt () t.succ
    ∗ owns (c : Thread nD τ) (ms17_0 a t) fullShare ((dat17 V a c).after 0 t)
    ∗ owns (c : Thread nD τ) (ms17_1 a t) fullShare ((dat17 V a c).after 1 t)
    ∗ owns (c : Thread nD τ) (ms17_2 a t) fullShare ((dat17 V a c).after 2 t))

/-- The body at any point: the inputs' memrefs hold their blocks, so the run applies; the invariant and the core's
    dues pass through unread. -/
theorem sound_body17 (c : Dev nD) (t : Fin (cfg17 a).N) :
    bodyPre17 V a c t ⊢ wp frame (wpE (defs₀ (F := F)) Variants.none c none) Set.univ (bodyAt17 a t) (fun _ => bodyPost17 V a c t) := by
  unfold bodyPre17 bodyPost17 bodyAt17
  simp only [before17_0, before17_1]
  rw [show (dat17 V a c).Φ t.succ = (dat17 V a c).Φ t.castSucc from rfl,
    show (dat17 V a c).owesAt () t.succ = (dat17 V a c).owesAt () t.castSucc from rfl,
    after17_0, after17_1, after17_2]
  iintro ⟨HΦ, Ho, ⟨%d0, H0⟩, ⟨%d1, H1⟩, ⟨%d2, H2⟩⟩
  iapply (sound_kernel17 c Set.univ _ _ _ _ _ _ _ _ _ _ _ (iblk17 V a c 0 t) (iblk17 V a c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation17 (c : Dev nD) : BodyObligation (dat17 (F := F) V a c) (defs₀ (F := F)) Variants.none () Set.univ := fun t => by
  rw [bigSep_W17, bigSep_W17]
  exact sound_body17 V a c t

end Region

end Cert.Kernel.Hand

end
-- ==== Proof.K.Tables17.lean ====
/-
  Edge chunk 17's index tables. The host slices 40000 consecutive words, from word 640000 on, out of each endpoint
  array (src, then dst) into scalar memory; the chunk's pipeline reads word t of each as the block row of its two
  gathered windows at grid point t. When every endpoint word is a node id (below 50000) each such row lies inside
  the 50000-row arrays: the tables' contents are admissible for the pipeline.
-/
import proofs.«413139_j22651657519351_3_alg».proof.Proof.Gen.Kernel.Launch
import proofs.«413139_j22651657519351_3_alg».proof.Proof.Gen.Kernel.Skeleton
import proofs.«413139_j22651657519351_3_alg».proof.Proof.Gen.Kernel.Points
import proofs.«413139_j22651657519351_3_alg».proof.Proof.K.Range
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Tables

variable (m : (ℓ : Loc nD τ sig) → Buf (Elt F) ℓ)

/-- The two tables' contents, read off the launch memory: the endpoint arrays' words 640000 … 640000 + 39999. -/
def tbl17 : pre17.Contents (Elt F) := fun k => match k with
  | ⟨0, _⟩ => (extractStridedSlice S40000 ![640000] (m (((0 : Dev nD) : Thread nD τ).loc main_arg1)) slices_S800000_S40000_640000 : (⟨S40000, .i32⟩ : BufTy).Contents (Elt F))
  | ⟨1, _⟩ => (extractStridedSlice S40000 ![640000] (m (((0 : Dev nD) : Thread nD τ).loc main_arg2)) slices_S800000_S40000_640000 : (⟨S40000, .i32⟩ : BufTy).Contents (Elt F))

/-- Tables whose every word is below the node count put every gathered block inside its array: row word + 1 ≤ 50000,
    the two unit axes and the 128 lanes exactly filled; float32 words transfer whole. -/
theorem ok17_of (pf : pre17.Contents (Elt F)) (h0 : ∀ j, ((pf 0 j : Elt F .i32) : BitVec 32).toNat < 50000)
    (h1 : ∀ j, ((pf 1 j : Elt F .i32) : BitVec 32).toNat < 50000) : ok17 pf := by
  refine ⟨fun i => ⟨fun a => ?_, Or.inl rfl⟩, fun i => ⟨fun a => ?_, Or.inl rfl⟩⟩
  · match a with
    | ⟨0, _⟩ =>
      show (BitVec.toNat (pf 0 _) + 1) * 1 ≤ 50000
      exact (Nat.mul_one _).le.trans (Nat.succ_le_of_lt (h0 _))
    | ⟨1, _⟩ => show (BitVec.toNat (0#32) + 1) * 1 ≤ 1; decide
    | ⟨2, _⟩ => show (BitVec.toNat (0#32) + 1) * 128 ≤ 128; decide
  · match a with
    | ⟨0, _⟩ =>
      show (BitVec.toNat (pf 1 _) + 1) * 1 ≤ 50000
      exact (Nat.mul_one _).le.trans (Nat.succ_le_of_lt (h1 _))
    | ⟨1, _⟩ => show (BitVec.toNat (0#32) + 1) * 1 ≤ 1; decide
    | ⟨2, _⟩ => show (BitVec.toNat (0#32) + 1) * 128 ≤ 128; decide

/-- The chunk's tables as admissible contents, when the endpoint words are node ids. -/
def a17 (hR : InRange m) : (pcfg17 (F := F)).Adm :=
  ⟨tbl17 m, ok17_of (tbl17 m) (fun j => (hR 0).1 _) (fun j => (hR 0).2 _)⟩

theorem a17_val (hR : InRange m) : (a17 m hR).1 = tbl17 m := rfl

end Tables

end Cert.Kernel.Hand

end
-- ==== Proof.K.Region18.lean ====
/-
  Edge chunk 18's gather kernel (twenty chunks of 40000 edges): at grid point t the pipeline fetches row src[t] of the
  re-laid projection hs2 and row dst[t] of hd2 (two blocks of 128 lanes, chosen by the prefetched index tables),
  the body stores (row + row) · c into the output block, which is written back as row t of the chunk's output.
  Here: what each window's staging buffer holds before and after the body at every point, for any contents V of the
  buffers at the region's entry and any admissible contents `a` of the two index tables, and the body's run.
  The tables ride through the region untouched: the body never reads them.
-/
import proofs.«413139_j22651657519351_3_alg».proof.Proof.Gen.Kernel.Launch
import proofs.«413139_j22651657519351_3_alg».proof.Proof.Gen.Kernel.Skeleton
import proofs.«413139_j22651657519351_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region

variable (V : (c : Dev nD) → (b : Ref sig .tc) → Buf (Elt F) ((c : Thread nD τ).loc b))
variable (a : (pcfg18 (F := F)).Adm)

/-! ## The body as the pipeline calls it at a point -/

/-- Each window's current staging memref at point `t`, and its wholeness. -/
abbrev ms18_0 (t : Fin (cfg18 a).N) : Memref sig .tc .vmem S1x1x128 .f32 := spec18_0.stage ((cfg18 a).slots t 0)
abbrev hs18_0 (t : Fin (cfg18 a).N) : (ms18_0 a t).IsWhole := hstage18_0 (((cfg18 a).slots t 0).cast nbuf18_0)
abbrev ms18_1 (t : Fin (cfg18 a).N) : Memref sig .tc .vmem S1x1x128 .f32 := spec18_1.stage ((cfg18 a).slots t 1)
abbrev hs18_1 (t : Fin (cfg18 a).N) : (ms18_1 a t).IsWhole := hstage18_1 (((cfg18 a).slots t 1).cast nbuf18_1)
abbrev ms18_2 (t : Fin (cfg18 a).N) : Memref sig .tc .vmem S1x1x128 .f32 := spec18_2.stage ((cfg18 a).slots t 2)
abbrev hs18_2 (t : Fin (cfg18 a).N) : (ms18_2 a t).IsWhole := hstage18_2 (((cfg18 a).slots t 2).cast nbuf18_2)

/-- The kernel body at point `t`, on what the pipeline calls it with. -/
abbrev bodyAt18 (t : Fin (cfg18 a).N) : Prog (TpuEff nD τ sig (Elt F) Λ₀ .tc) PUnit :=
  cc18__gather_kernel (grid18.coords t) (Memref.whole main_v73) (Memref.isWhole_whole _) (Memref.whole main_v74) (Memref.isWhole_whole _)
    (ms18_0 a t) (hs18_0 a t) (ms18_1 a t) (hs18_1 a t) (ms18_2 a t) (hs18_2 a t)

/-! ## The windows' blocks -/

/-- Window `w`'s block at point `t`, read off its array as the region finds it: for the two gathered windows the
    row the tables' word at `t` names. -/
def iblk18 (c : Dev nD) (w : Fin (cfg18 a).W) (t : Fin (cfg18 a).N) :
    (((cfg18 a).win w).xblock ((cfg18 a).grid.coords t)).Idx → Elt F ((cfg18 a).win w).elt :=
  (((cfg18 a).win w).blk t).view.read (Elt F) (V c (Pipeline.arrRef spec18 w))

/-- An input window's current staging buffer holds its block at every point, fetched there or not. -/
theorem before18_0_of {c : Dev nD} (dat : Dat τ (Elt F) Unit ℕ (UR sig nD τ) ℕ (cfg18 a) c) (hA : dat.A 0 = V c (Pipeline.arrRef spec18 0))
    (hafter : ∀ t, dat.after 0 t = iblk18 V a c 0 t) (t : Fin (cfg18 a).N) (d) : dat.before 0 t d = iblk18 V a c 0 t :=
  (dat.before_in_eq_fetched 0 rfl (fun _ => rfl) (fun _ _ _ => rfl) (fun t => by rw [hafter]; unfold Dat.blockOf iblk18; rw [hA]; try rfl) t d).trans
    (by unfold Dat.fetched Dat.blockOf iblk18; rw [hA]; try rfl)

theorem before18_1_of {c : Dev nD} (dat : Dat τ (Elt F) Unit ℕ (UR sig nD τ) ℕ (cfg18 a) c) (hA : dat.A 1 = V c (Pipeline.arrRef spec18 1))
    (hafter : ∀ t, dat.after 1 t = iblk18 V a c 1 t) (t : Fin (cfg18 a).N) (d) : dat.before 1 t d = iblk18 V a c 1 t :=
  (dat.before_in_eq_fetched 1 rfl (fun _ => rfl) (fun _ _ _ => rfl) (fun t => by rw [hafter]; unfold Dat.blockOf iblk18; rw [hA]; try rfl) t d).trans
    (by unfold Dat.fetched Dat.blockOf iblk18; rw [hA]; try rfl)

/-! ## What the body leaves in the output window's buffer -/

/-- The one rectangle the body loads and stores through: the whole 1×1×128 block. -/
abbrev r18 : Rect S1x1x128 := Rect.unit (s := S1x1x128) ![0, 0, 0] S1x1x128.size inb_S1x1x128_S1x1x128_0_0_0

/-- The output block after the body, from the two gathered rows: its one store. -/
def out18_2 (x0 x1 : Vec F S1x1x128 .f32) : Vec F S1x1x128 .f32 :=
  View.canon [⟨r18, k18_pay1 (View.ld x0 r18) (View.ld x1 r18)⟩]

/-- The store covers the block. -/
theorem cover18_2 (p0 : Vec F S1x1x128 .f32) (y : S1x1x128.Idx) :
    ∃ pc ∈ ([⟨r18, p0⟩] : List (View.Piece (Elt F) S1x1x128 .f32)), y ∈ pc.1.set :=
  View.cover_of_tiled [⟨r18, p0⟩] S1x1x128.size (by rfl) y

/-! ## The body's run -/

set_option maxHeartbeats 1000000 in
/-- The body on whole staging memrefs, the two inputs' at contents `x0`, `x1` and the output's at anything, runs to the
    continuation holding the inputs as they were and the output at `out18_2 x0 x1`; the table memrefs are not touched. -/
theorem sound_kernel18 (c : Dev nD) (E : Set ℕ) (i : grid18.Coords)
    (arg1 : Memref sig .tc .smem S40000 .i32) (harg1 : arg1.IsWhole) (arg2 : Memref sig .tc .smem S40000 .i32) (harg2 : arg2.IsWhole)
    (arg3 : Memref sig .tc .vmem S1x1x128 .f32) (harg3 : arg3.IsWhole) (arg4 : Memref sig .tc .vmem S1x1x128 .f32) (harg4 : arg4.IsWhole)
    (arg5 : Memref sig .tc .vmem S1x1x128 .f32) (harg5 : arg5.IsWhole)
    (x0 x1 : Vec F S1x1x128 .f32) (K : PUnit → sProp 𝕄) :
    iprop(owns (c : Thread nD τ) arg3 fullShare x0 ∗ owns (c : Thread nD τ) arg4 fullShare x1 ∗ (∃ d, owns (c : Thread nD τ) arg5 fullShare d)
        ∗ (iprop(owns (c : Thread nD τ) arg3 fullShare x0 ∗ owns (c : Thread nD τ) arg4 fullShare x1
            ∗ owns (c : Thread nD τ) arg5 fullShare (out18_2 x0 x1)) -∗ K ⟨⟩))
      ⊢ wp frame (wpE (defs₀ (F := F)) Variants.none c none) E (cc18__gather_kernel i arg1 harg1 arg2 harg2 arg3 harg3 arg4 harg4 arg5 harg5) K := by
  simp only [cc18__gather_kernel_eq_skeleton]; unfold cc18__gather_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover18_2 _)

/-! ## The pipeline's proof data -/

/-- The proof data of this pipeline on core `c`: the arrays as the region finds them; after the body at point `t` each
    gathered input's buffer at its block and the output's at `out18_2` of the two; the invariant: the scoped rest, the
    generator register, and the two index tables held whole and untouched; nothing owed; full shares. -/
def dat18 (c : Dev nD) : Dat τ (Elt F) Unit ℕ (UR sig nD τ) ℕ (cfg18 a) c where
  A w := V c (Pipeline.arrRef spec18 w)
  after w t := match w with
    | ⟨0, _⟩ => iblk18 V a c 0 t
    | ⟨1, _⟩ => iblk18 V a c 1 t
    | ⟨2, _⟩ => out18_2 (iblk18 V a c 0 t) (iblk18 V a c 1 t)
  Φ _ := iprop(Pipeline.ΦA spec18 c ∗ Pipeline.prefHeld (Ix := Unit) (Name := ℕ) (U := UR sig nD τ) (Lvl := ℕ) pre18 c (fun _ => fullShare) a.1)
  q _ := fullShare
  owed _ := 0

theorem A_eq18 (c : Dev nD) (w : Fin (cfg18 a).W) : (dat18 V a c).A w = V c (Pipeline.arrRef spec18 w) := by
  dsimp only [dat18]

theorem after18_0 (c : Dev nD) (t : Fin (cfg18 a).N) : (dat18 V a c).after 0 t = iblk18 V a c 0 t := by dsimp only [dat18]; try rfl
theorem after18_1 (c : Dev nD) (t : Fin (cfg18 a).N) : (dat18 V a c).after 1 t = iblk18 V a c 1 t := by dsimp only [dat18]; try rfl
theorem after18_2 (c : Dev nD) (t : Fin (cfg18 a).N) : (dat18 V a c).after 2 t = out18_2 (iblk18 V a c 0 t) (iblk18 V a c 1 t) := by dsimp only [dat18]; try rfl

theorem before18_0 (c : Dev nD) (t : Fin (cfg18 a).N) (d) : (dat18 V a c).before 0 t d = iblk18 V a c 0 t :=
  before18_0_of V a (dat18 V a c) (A_eq18 V a c 0) (after18_0 V a c) t d
theorem before18_1 (c : Dev nD) (t : Fin (cfg18 a).N) (d) : (dat18 V a c).before 1 t d = iblk18 V a c 1 t :=
  before18_1_of V a (dat18 V a c) (A_eq18 V a c 1) (after18_1 V a c) t d

/-! ## The body obligation, at a generic point -/

def bodyPre18 (c : Dev nD) (t : Fin (cfg18 a).N) : sProp 𝕄 :=
  iprop((dat18 V a c).Φ t.castSucc ∗ (dat18 V a c).owesAt () t.castSucc
    ∗ (∃ d, owns (c : Thread nD τ) (ms18_0 a t) fullShare ((dat18 V a c).before 0 t d))
    ∗ (∃ d, owns (c : Thread nD τ) (ms18_1 a t) fullShare ((dat18 V a c).before 1 t d))
    ∗ (∃ d, owns (c : Thread nD τ) (ms18_2 a t) fullShare ((dat18 V a c).before 2 t d)))

def bodyPost18 (c : Dev nD) (t : Fin (cfg18 a).N) : sProp 𝕄 :=
  iprop((dat18 V a c).Φ t.succ ∗ (dat18 V a c).owesAt () t.succ
    ∗ owns (c : Thread nD τ) (ms18_0 a t) fullShare ((dat18 V a c).after 0 t)
    ∗ owns (c : Thread nD τ) (ms18_1 a t) fullShare ((dat18 V a c).after 1 t)
    ∗ owns (c : Thread nD τ) (ms18_2 a t) fullShare ((dat18 V a c).after 2 t))

/-- The body at any point: the inputs' memrefs hold their blocks, so the run applies; the invariant and the core's
    dues pass through unread. -/
theorem sound_body18 (c : Dev nD) (t : Fin (cfg18 a).N) :
    bodyPre18 V a c t ⊢ wp frame (wpE (defs₀ (F := F)) Variants.none c none) Set.univ (bodyAt18 a t) (fun _ => bodyPost18 V a c t) := by
  unfold bodyPre18 bodyPost18 bodyAt18
  simp only [before18_0, before18_1]
  rw [show (dat18 V a c).Φ t.succ = (dat18 V a c).Φ t.castSucc from rfl,
    show (dat18 V a c).owesAt () t.succ = (dat18 V a c).owesAt () t.castSucc from rfl,
    after18_0, after18_1, after18_2]
  iintro ⟨HΦ, Ho, ⟨%d0, H0⟩, ⟨%d1, H1⟩, ⟨%d2, H2⟩⟩
  iapply (sound_kernel18 c Set.univ _ _ _ _ _ _ _ _ _ _ _ (iblk18 V a c 0 t) (iblk18 V a c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation18 (c : Dev nD) : BodyObligation (dat18 (F := F) V a c) (defs₀ (F := F)) Variants.none () Set.univ := fun t => by
  rw [bigSep_W18, bigSep_W18]
  exact sound_body18 V a c t

end Region

end Cert.Kernel.Hand

end
-- ==== Proof.K.Tables18.lean ====
/-
  Edge chunk 18's index tables. The host slices 40000 consecutive words, from word 680000 on, out of each endpoint
  array (src, then dst) into scalar memory; the chunk's pipeline reads word t of each as the block row of its two
  gathered windows at grid point t. When every endpoint word is a node id (below 50000) each such row lies inside
  the 50000-row arrays: the tables' contents are admissible for the pipeline.
-/
import proofs.«413139_j22651657519351_3_alg».proof.Proof.Gen.Kernel.Launch
import proofs.«413139_j22651657519351_3_alg».proof.Proof.Gen.Kernel.Skeleton
import proofs.«413139_j22651657519351_3_alg».proof.Proof.Gen.Kernel.Points
import proofs.«413139_j22651657519351_3_alg».proof.Proof.K.Range
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Tables

variable (m : (ℓ : Loc nD τ sig) → Buf (Elt F) ℓ)

/-- The two tables' contents, read off the launch memory: the endpoint arrays' words 680000 … 680000 + 39999. -/
def tbl18 : pre18.Contents (Elt F) := fun k => match k with
  | ⟨0, _⟩ => (extractStridedSlice S40000 ![680000] (m (((0 : Dev nD) : Thread nD τ).loc main_arg1)) slices_S800000_S40000_680000 : (⟨S40000, .i32⟩ : BufTy).Contents (Elt F))
  | ⟨1, _⟩ => (extractStridedSlice S40000 ![680000] (m (((0 : Dev nD) : Thread nD τ).loc main_arg2)) slices_S800000_S40000_680000 : (⟨S40000, .i32⟩ : BufTy).Contents (Elt F))

/-- Tables whose every word is below the node count put every gathered block inside its array: row word + 1 ≤ 50000,
    the two unit axes and the 128 lanes exactly filled; float32 words transfer whole. -/
theorem ok18_of (pf : pre18.Contents (Elt F)) (h0 : ∀ j, ((pf 0 j : Elt F .i32) : BitVec 32).toNat < 50000)
    (h1 : ∀ j, ((pf 1 j : Elt F .i32) : BitVec 32).toNat < 50000) : ok18 pf := by
  refine ⟨fun i => ⟨fun a => ?_, Or.inl rfl⟩, fun i => ⟨fun a => ?_, Or.inl rfl⟩⟩
  · match a with
    | ⟨0, _⟩ =>
      show (BitVec.toNat (pf 0 _) + 1) * 1 ≤ 50000
      exact (Nat.mul_one _).le.trans (Nat.succ_le_of_lt (h0 _))
    | ⟨1, _⟩ => show (BitVec.toNat (0#32) + 1) * 1 ≤ 1; decide
    | ⟨2, _⟩ => show (BitVec.toNat (0#32) + 1) * 128 ≤ 128; decide
  · match a with
    | ⟨0, _⟩ =>
      show (BitVec.toNat (pf 1 _) + 1) * 1 ≤ 50000
      exact (Nat.mul_one _).le.trans (Nat.succ_le_of_lt (h1 _))
    | ⟨1, _⟩ => show (BitVec.toNat (0#32) + 1) * 1 ≤ 1; decide
    | ⟨2, _⟩ => show (BitVec.toNat (0#32) + 1) * 128 ≤ 128; decide

/-- The chunk's tables as admissible contents, when the endpoint words are node ids. -/
def a18 (hR : InRange m) : (pcfg18 (F := F)).Adm :=
  ⟨tbl18 m, ok18_of (tbl18 m) (fun j => (hR 0).1 _) (fun j => (hR 0).2 _)⟩

theorem a18_val (hR : InRange m) : (a18 m hR).1 = tbl18 m := rfl

end Tables

end Cert.Kernel.Hand

end
-- ==== Proof.K.Region19.lean ====
/-
  Edge chunk 19's gather kernel (twenty chunks of 40000 edges): at grid point t the pipeline fetches row src[t] of the
  re-laid projection hs2 and row dst[t] of hd2 (two blocks of 128 lanes, chosen by the prefetched index tables),
  the body stores (row + row) · c into the output block, which is written back as row t of the chunk's output.
  Here: what each window's staging buffer holds before and after the body at every point, for any contents V of the
  buffers at the region's entry and any admissible contents `a` of the two index tables, and the body's run.
  The tables ride through the region untouched: the body never reads them.
-/
import proofs.«413139_j22651657519351_3_alg».proof.Proof.Gen.Kernel.Launch
import proofs.«413139_j22651657519351_3_alg».proof.Proof.Gen.Kernel.Skeleton
import proofs.«413139_j22651657519351_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region

variable (V : (c : Dev nD) → (b : Ref sig .tc) → Buf (Elt F) ((c : Thread nD τ).loc b))
variable (a : (pcfg19 (F := F)).Adm)

/-! ## The body as the pipeline calls it at a point -/

/-- Each window's current staging memref at point `t`, and its wholeness. -/
abbrev ms19_0 (t : Fin (cfg19 a).N) : Memref sig .tc .vmem S1x1x128 .f32 := spec19_0.stage ((cfg19 a).slots t 0)
abbrev hs19_0 (t : Fin (cfg19 a).N) : (ms19_0 a t).IsWhole := hstage19_0 (((cfg19 a).slots t 0).cast nbuf19_0)
abbrev ms19_1 (t : Fin (cfg19 a).N) : Memref sig .tc .vmem S1x1x128 .f32 := spec19_1.stage ((cfg19 a).slots t 1)
abbrev hs19_1 (t : Fin (cfg19 a).N) : (ms19_1 a t).IsWhole := hstage19_1 (((cfg19 a).slots t 1).cast nbuf19_1)
abbrev ms19_2 (t : Fin (cfg19 a).N) : Memref sig .tc .vmem S1x1x128 .f32 := spec19_2.stage ((cfg19 a).slots t 2)
abbrev hs19_2 (t : Fin (cfg19 a).N) : (ms19_2 a t).IsWhole := hstage19_2 (((cfg19 a).slots t 2).cast nbuf19_2)

/-- The kernel body at point `t`, on what the pipeline calls it with. -/
abbrev bodyAt19 (t : Fin (cfg19 a).N) : Prog (TpuEff nD τ sig (Elt F) Λ₀ .tc) PUnit :=
  cc19__gather_kernel (grid19.coords t) (Memref.whole main_v77) (Memref.isWhole_whole _) (Memref.whole main_v78) (Memref.isWhole_whole _)
    (ms19_0 a t) (hs19_0 a t) (ms19_1 a t) (hs19_1 a t) (ms19_2 a t) (hs19_2 a t)

/-! ## The windows' blocks -/

/-- Window `w`'s block at point `t`, read off its array as the region finds it: for the two gathered windows the
    row the tables' word at `t` names. -/
def iblk19 (c : Dev nD) (w : Fin (cfg19 a).W) (t : Fin (cfg19 a).N) :
    (((cfg19 a).win w).xblock ((cfg19 a).grid.coords t)).Idx → Elt F ((cfg19 a).win w).elt :=
  (((cfg19 a).win w).blk t).view.read (Elt F) (V c (Pipeline.arrRef spec19 w))

/-- An input window's current staging buffer holds its block at every point, fetched there or not. -/
theorem before19_0_of {c : Dev nD} (dat : Dat τ (Elt F) Unit ℕ (UR sig nD τ) ℕ (cfg19 a) c) (hA : dat.A 0 = V c (Pipeline.arrRef spec19 0))
    (hafter : ∀ t, dat.after 0 t = iblk19 V a c 0 t) (t : Fin (cfg19 a).N) (d) : dat.before 0 t d = iblk19 V a c 0 t :=
  (dat.before_in_eq_fetched 0 rfl (fun _ => rfl) (fun _ _ _ => rfl) (fun t => by rw [hafter]; unfold Dat.blockOf iblk19; rw [hA]; try rfl) t d).trans
    (by unfold Dat.fetched Dat.blockOf iblk19; rw [hA]; try rfl)

theorem before19_1_of {c : Dev nD} (dat : Dat τ (Elt F) Unit ℕ (UR sig nD τ) ℕ (cfg19 a) c) (hA : dat.A 1 = V c (Pipeline.arrRef spec19 1))
    (hafter : ∀ t, dat.after 1 t = iblk19 V a c 1 t) (t : Fin (cfg19 a).N) (d) : dat.before 1 t d = iblk19 V a c 1 t :=
  (dat.before_in_eq_fetched 1 rfl (fun _ => rfl) (fun _ _ _ => rfl) (fun t => by rw [hafter]; unfold Dat.blockOf iblk19; rw [hA]; try rfl) t d).trans
    (by unfold Dat.fetched Dat.blockOf iblk19; rw [hA]; try rfl)

/-! ## What the body leaves in the output window's buffer -/

/-- The one rectangle the body loads and stores through: the whole 1×1×128 block. -/
abbrev r19 : Rect S1x1x128 := Rect.unit (s := S1x1x128) ![0, 0, 0] S1x1x128.size inb_S1x1x128_S1x1x128_0_0_0

/-- The output block after the body, from the two gathered rows: its one store. -/
def out19_2 (x0 x1 : Vec F S1x1x128 .f32) : Vec F S1x1x128 .f32 :=
  View.canon [⟨r19, k19_pay1 (View.ld x0 r19) (View.ld x1 r19)⟩]

/-- The store covers the block. -/
theorem cover19_2 (p0 : Vec F S1x1x128 .f32) (y : S1x1x128.Idx) :
    ∃ pc ∈ ([⟨r19, p0⟩] : List (View.Piece (Elt F) S1x1x128 .f32)), y ∈ pc.1.set :=
  View.cover_of_tiled [⟨r19, p0⟩] S1x1x128.size (by rfl) y

/-! ## The body's run -/

set_option maxHeartbeats 1000000 in
/-- The body on whole staging memrefs, the two inputs' at contents `x0`, `x1` and the output's at anything, runs to the
    continuation holding the inputs as they were and the output at `out19_2 x0 x1`; the table memrefs are not touched. -/
theorem sound_kernel19 (c : Dev nD) (E : Set ℕ) (i : grid19.Coords)
    (arg1 : Memref sig .tc .smem S40000 .i32) (harg1 : arg1.IsWhole) (arg2 : Memref sig .tc .smem S40000 .i32) (harg2 : arg2.IsWhole)
    (arg3 : Memref sig .tc .vmem S1x1x128 .f32) (harg3 : arg3.IsWhole) (arg4 : Memref sig .tc .vmem S1x1x128 .f32) (harg4 : arg4.IsWhole)
    (arg5 : Memref sig .tc .vmem S1x1x128 .f32) (harg5 : arg5.IsWhole)
    (x0 x1 : Vec F S1x1x128 .f32) (K : PUnit → sProp 𝕄) :
    iprop(owns (c : Thread nD τ) arg3 fullShare x0 ∗ owns (c : Thread nD τ) arg4 fullShare x1 ∗ (∃ d, owns (c : Thread nD τ) arg5 fullShare d)
        ∗ (iprop(owns (c : Thread nD τ) arg3 fullShare x0 ∗ owns (c : Thread nD τ) arg4 fullShare x1
            ∗ owns (c : Thread nD τ) arg5 fullShare (out19_2 x0 x1)) -∗ K ⟨⟩))
      ⊢ wp frame (wpE (defs₀ (F := F)) Variants.none c none) E (cc19__gather_kernel i arg1 harg1 arg2 harg2 arg3 harg3 arg4 harg4 arg5 harg5) K := by
  simp only [cc19__gather_kernel_eq_skeleton]; unfold cc19__gather_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover19_2 _)

/-! ## The pipeline's proof data -/

/-- The proof data of this pipeline on core `c`: the arrays as the region finds them; after the body at point `t` each
    gathered input's buffer at its block and the output's at `out19_2` of the two; the invariant: the scoped rest, the
    generator register, and the two index tables held whole and untouched; nothing owed; full shares. -/
def dat19 (c : Dev nD) : Dat τ (Elt F) Unit ℕ (UR sig nD τ) ℕ (cfg19 a) c where
  A w := V c (Pipeline.arrRef spec19 w)
  after w t := match w with
    | ⟨0, _⟩ => iblk19 V a c 0 t
    | ⟨1, _⟩ => iblk19 V a c 1 t
    | ⟨2, _⟩ => out19_2 (iblk19 V a c 0 t) (iblk19 V a c 1 t)
  Φ _ := iprop(Pipeline.ΦA spec19 c ∗ Pipeline.prefHeld (Ix := Unit) (Name := ℕ) (U := UR sig nD τ) (Lvl := ℕ) pre19 c (fun _ => fullShare) a.1)
  q _ := fullShare
  owed _ := 0

theorem A_eq19 (c : Dev nD) (w : Fin (cfg19 a).W) : (dat19 V a c).A w = V c (Pipeline.arrRef spec19 w) := by
  dsimp only [dat19]

theorem after19_0 (c : Dev nD) (t : Fin (cfg19 a).N) : (dat19 V a c).after 0 t = iblk19 V a c 0 t := by dsimp only [dat19]; try rfl
theorem after19_1 (c : Dev nD) (t : Fin (cfg19 a).N) : (dat19 V a c).after 1 t = iblk19 V a c 1 t := by dsimp only [dat19]; try rfl
theorem after19_2 (c : Dev nD) (t : Fin (cfg19 a).N) : (dat19 V a c).after 2 t = out19_2 (iblk19 V a c 0 t) (iblk19 V a c 1 t) := by dsimp only [dat19]; try rfl

theorem before19_0 (c : Dev nD) (t : Fin (cfg19 a).N) (d) : (dat19 V a c).before 0 t d = iblk19 V a c 0 t :=
  before19_0_of V a (dat19 V a c) (A_eq19 V a c 0) (after19_0 V a c) t d
theorem before19_1 (c : Dev nD) (t : Fin (cfg19 a).N) (d) : (dat19 V a c).before 1 t d = iblk19 V a c 1 t :=
  before19_1_of V a (dat19 V a c) (A_eq19 V a c 1) (after19_1 V a c) t d

/-! ## The body obligation, at a generic point -/

def bodyPre19 (c : Dev nD) (t : Fin (cfg19 a).N) : sProp 𝕄 :=
  iprop((dat19 V a c).Φ t.castSucc ∗ (dat19 V a c).owesAt () t.castSucc
    ∗ (∃ d, owns (c : Thread nD τ) (ms19_0 a t) fullShare ((dat19 V a c).before 0 t d))
    ∗ (∃ d, owns (c : Thread nD τ) (ms19_1 a t) fullShare ((dat19 V a c).before 1 t d))
    ∗ (∃ d, owns (c : Thread nD τ) (ms19_2 a t) fullShare ((dat19 V a c).before 2 t d)))

def bodyPost19 (c : Dev nD) (t : Fin (cfg19 a).N) : sProp 𝕄 :=
  iprop((dat19 V a c).Φ t.succ ∗ (dat19 V a c).owesAt () t.succ
    ∗ owns (c : Thread nD τ) (ms19_0 a t) fullShare ((dat19 V a c).after 0 t)
    ∗ owns (c : Thread nD τ) (ms19_1 a t) fullShare ((dat19 V a c).after 1 t)
    ∗ owns (c : Thread nD τ) (ms19_2 a t) fullShare ((dat19 V a c).after 2 t))

/-- The body at any point: the inputs' memrefs hold their blocks, so the run applies; the invariant and the core's
    dues pass through unread. -/
theorem sound_body19 (c : Dev nD) (t : Fin (cfg19 a).N) :
    bodyPre19 V a c t ⊢ wp frame (wpE (defs₀ (F := F)) Variants.none c none) Set.univ (bodyAt19 a t) (fun _ => bodyPost19 V a c t) := by
  unfold bodyPre19 bodyPost19 bodyAt19
  simp only [before19_0, before19_1]
  rw [show (dat19 V a c).Φ t.succ = (dat19 V a c).Φ t.castSucc from rfl,
    show (dat19 V a c).owesAt () t.succ = (dat19 V a c).owesAt () t.castSucc from rfl,
    after19_0, after19_1, after19_2]
  iintro ⟨HΦ, Ho, ⟨%d0, H0⟩, ⟨%d1, H1⟩, ⟨%d2, H2⟩⟩
  iapply (sound_kernel19 c Set.univ _ _ _ _ _ _ _ _ _ _ _ (iblk19 V a c 0 t) (iblk19 V a c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation19 (c : Dev nD) : BodyObligation (dat19 (F := F) V a c) (defs₀ (F := F)) Variants.none () Set.univ := fun t => by
  rw [bigSep_W19, bigSep_W19]
  exact sound_body19 V a c t

end Region

end Cert.Kernel.Hand

end
-- ==== Proof.K.Tables19.lean ====
/-
  Edge chunk 19's index tables. The host slices 40000 consecutive words, from word 720000 on, out of each endpoint
  array (src, then dst) into scalar memory; the chunk's pipeline reads word t of each as the block row of its two
  gathered windows at grid point t. When every endpoint word is a node id (below 50000) each such row lies inside
  the 50000-row arrays: the tables' contents are admissible for the pipeline.
-/
import proofs.«413139_j22651657519351_3_alg».proof.Proof.Gen.Kernel.Launch
import proofs.«413139_j22651657519351_3_alg».proof.Proof.Gen.Kernel.Skeleton
import proofs.«413139_j22651657519351_3_alg».proof.Proof.Gen.Kernel.Points
import proofs.«413139_j22651657519351_3_alg».proof.Proof.K.Range
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Tables

variable (m : (ℓ : Loc nD τ sig) → Buf (Elt F) ℓ)

/-- The two tables' contents, read off the launch memory: the endpoint arrays' words 720000 … 720000 + 39999. -/
def tbl19 : pre19.Contents (Elt F) := fun k => match k with
  | ⟨0, _⟩ => (extractStridedSlice S40000 ![720000] (m (((0 : Dev nD) : Thread nD τ).loc main_arg1)) slices_S800000_S40000_720000 : (⟨S40000, .i32⟩ : BufTy).Contents (Elt F))
  | ⟨1, _⟩ => (extractStridedSlice S40000 ![720000] (m (((0 : Dev nD) : Thread nD τ).loc main_arg2)) slices_S800000_S40000_720000 : (⟨S40000, .i32⟩ : BufTy).Contents (Elt F))

/-- Tables whose every word is below the node count put every gathered block inside its array: row word + 1 ≤ 50000,
    the two unit axes and the 128 lanes exactly filled; float32 words transfer whole. -/
theorem ok19_of (pf : pre19.Contents (Elt F)) (h0 : ∀ j, ((pf 0 j : Elt F .i32) : BitVec 32).toNat < 50000)
    (h1 : ∀ j, ((pf 1 j : Elt F .i32) : BitVec 32).toNat < 50000) : ok19 pf := by
  refine ⟨fun i => ⟨fun a => ?_, Or.inl rfl⟩, fun i => ⟨fun a => ?_, Or.inl rfl⟩⟩
  · match a with
    | ⟨0, _⟩ =>
      show (BitVec.toNat (pf 0 _) + 1) * 1 ≤ 50000
      exact (Nat.mul_one _).le.trans (Nat.succ_le_of_lt (h0 _))
    | ⟨1, _⟩ => show (BitVec.toNat (0#32) + 1) * 1 ≤ 1; decide
    | ⟨2, _⟩ => show (BitVec.toNat (0#32) + 1) * 128 ≤ 128; decide
  · match a with
    | ⟨0, _⟩ =>
      show (BitVec.toNat (pf 1 _) + 1) * 1 ≤ 50000
      exact (Nat.mul_one _).le.trans (Nat.succ_le_of_lt (h1 _))
    | ⟨1, _⟩ => show (BitVec.toNat (0#32) + 1) * 1 ≤ 1; decide
    | ⟨2, _⟩ => show (BitVec.toNat (0#32) + 1) * 128 ≤ 128; decide

/-- The chunk's tables as admissible contents, when the endpoint words are node ids. -/
def a19 (hR : InRange m) : (pcfg19 (F := F)).Adm :=
  ⟨tbl19 m, ok19_of (tbl19 m) (fun j => (hR 0).1 _) (fun j => (hR 0).2 _)⟩

theorem a19_val (hR : InRange m) : (a19 m hR).1 = tbl19 m := rfl

end Tables

end Cert.Kernel.Hand

end
-- ==== Proof.K.Region20.lean ====
/-
  Edge chunk 20's gather kernel (twenty chunks of 40000 edges): at grid point t the pipeline fetches row src[t] of the
  re-laid projection hs2 and row dst[t] of hd2 (two blocks of 128 lanes, chosen by the prefetched index tables),
  the body stores (row + row) · c into the output block, which is written back as row t of the chunk's output.
  Here: what each window's staging buffer holds before and after the body at every point, for any contents V of the
  buffers at the region's entry and any admissible contents `a` of the two index tables, and the body's run.
  The tables ride through the region untouched: the body never reads them.
-/
import proofs.«413139_j22651657519351_3_alg».proof.Proof.Gen.Kernel.Launch
import proofs.«413139_j22651657519351_3_alg».proof.Proof.Gen.Kernel.Skeleton
import proofs.«413139_j22651657519351_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region

variable (V : (c : Dev nD) → (b : Ref sig .tc) → Buf (Elt F) ((c : Thread nD τ).loc b))
variable (a : (pcfg20 (F := F)).Adm)

/-! ## The body as the pipeline calls it at a point -/

/-- Each window's current staging memref at point `t`, and its wholeness. -/
abbrev ms20_0 (t : Fin (cfg20 a).N) : Memref sig .tc .vmem S1x1x128 .f32 := spec20_0.stage ((cfg20 a).slots t 0)
abbrev hs20_0 (t : Fin (cfg20 a).N) : (ms20_0 a t).IsWhole := hstage20_0 (((cfg20 a).slots t 0).cast nbuf20_0)
abbrev ms20_1 (t : Fin (cfg20 a).N) : Memref sig .tc .vmem S1x1x128 .f32 := spec20_1.stage ((cfg20 a).slots t 1)
abbrev hs20_1 (t : Fin (cfg20 a).N) : (ms20_1 a t).IsWhole := hstage20_1 (((cfg20 a).slots t 1).cast nbuf20_1)
abbrev ms20_2 (t : Fin (cfg20 a).N) : Memref sig .tc .vmem S1x1x128 .f32 := spec20_2.stage ((cfg20 a).slots t 2)
abbrev hs20_2 (t : Fin (cfg20 a).N) : (ms20_2 a t).IsWhole := hstage20_2 (((cfg20 a).slots t 2).cast nbuf20_2)

/-- The kernel body at point `t`, on what the pipeline calls it with. -/
abbrev bodyAt20 (t : Fin (cfg20 a).N) : Prog (TpuEff nD τ sig (Elt F) Λ₀ .tc) PUnit :=
  cc20__gather_kernel (grid20.coords t) (Memref.whole main_v81) (Memref.isWhole_whole _) (Memref.whole main_v82) (Memref.isWhole_whole _)
    (ms20_0 a t) (hs20_0 a t) (ms20_1 a t) (hs20_1 a t) (ms20_2 a t) (hs20_2 a t)

/-! ## The windows' blocks -/

/-- Window `w`'s block at point `t`, read off its array as the region finds it: for the two gathered windows the
    row the tables' word at `t` names. -/
def iblk20 (c : Dev nD) (w : Fin (cfg20 a).W) (t : Fin (cfg20 a).N) :
    (((cfg20 a).win w).xblock ((cfg20 a).grid.coords t)).Idx → Elt F ((cfg20 a).win w).elt :=
  (((cfg20 a).win w).blk t).view.read (Elt F) (V c (Pipeline.arrRef spec20 w))

/-- An input window's current staging buffer holds its block at every point, fetched there or not. -/
theorem before20_0_of {c : Dev nD} (dat : Dat τ (Elt F) Unit ℕ (UR sig nD τ) ℕ (cfg20 a) c) (hA : dat.A 0 = V c (Pipeline.arrRef spec20 0))
    (hafter : ∀ t, dat.after 0 t = iblk20 V a c 0 t) (t : Fin (cfg20 a).N) (d) : dat.before 0 t d = iblk20 V a c 0 t :=
  (dat.before_in_eq_fetched 0 rfl (fun _ => rfl) (fun _ _ _ => rfl) (fun t => by rw [hafter]; unfold Dat.blockOf iblk20; rw [hA]; try rfl) t d).trans
    (by unfold Dat.fetched Dat.blockOf iblk20; rw [hA]; try rfl)

theorem before20_1_of {c : Dev nD} (dat : Dat τ (Elt F) Unit ℕ (UR sig nD τ) ℕ (cfg20 a) c) (hA : dat.A 1 = V c (Pipeline.arrRef spec20 1))
    (hafter : ∀ t, dat.after 1 t = iblk20 V a c 1 t) (t : Fin (cfg20 a).N) (d) : dat.before 1 t d = iblk20 V a c 1 t :=
  (dat.before_in_eq_fetched 1 rfl (fun _ => rfl) (fun _ _ _ => rfl) (fun t => by rw [hafter]; unfold Dat.blockOf iblk20; rw [hA]; try rfl) t d).trans
    (by unfold Dat.fetched Dat.blockOf iblk20; rw [hA]; try rfl)

/-! ## What the body leaves in the output window's buffer -/

/-- The one rectangle the body loads and stores through: the whole 1×1×128 block. -/
abbrev r20 : Rect S1x1x128 := Rect.unit (s := S1x1x128) ![0, 0, 0] S1x1x128.size inb_S1x1x128_S1x1x128_0_0_0

/-- The output block after the body, from the two gathered rows: its one store. -/
def out20_2 (x0 x1 : Vec F S1x1x128 .f32) : Vec F S1x1x128 .f32 :=
  View.canon [⟨r20, k20_pay1 (View.ld x0 r20) (View.ld x1 r20)⟩]

/-- The store covers the block. -/
theorem cover20_2 (p0 : Vec F S1x1x128 .f32) (y : S1x1x128.Idx) :
    ∃ pc ∈ ([⟨r20, p0⟩] : List (View.Piece (Elt F) S1x1x128 .f32)), y ∈ pc.1.set :=
  View.cover_of_tiled [⟨r20, p0⟩] S1x1x128.size (by rfl) y

/-! ## The body's run -/

set_option maxHeartbeats 1000000 in
/-- The body on whole staging memrefs, the two inputs' at contents `x0`, `x1` and the output's at anything, runs to the
    continuation holding the inputs as they were and the output at `out20_2 x0 x1`; the table memrefs are not touched. -/
theorem sound_kernel20 (c : Dev nD) (E : Set ℕ) (i : grid20.Coords)
    (arg1 : Memref sig .tc .smem S40000 .i32) (harg1 : arg1.IsWhole) (arg2 : Memref sig .tc .smem S40000 .i32) (harg2 : arg2.IsWhole)
    (arg3 : Memref sig .tc .vmem S1x1x128 .f32) (harg3 : arg3.IsWhole) (arg4 : Memref sig .tc .vmem S1x1x128 .f32) (harg4 : arg4.IsWhole)
    (arg5 : Memref sig .tc .vmem S1x1x128 .f32) (harg5 : arg5.IsWhole)
    (x0 x1 : Vec F S1x1x128 .f32) (K : PUnit → sProp 𝕄) :
    iprop(owns (c : Thread nD τ) arg3 fullShare x0 ∗ owns (c : Thread nD τ) arg4 fullShare x1 ∗ (∃ d, owns (c : Thread nD τ) arg5 fullShare d)
        ∗ (iprop(owns (c : Thread nD τ) arg3 fullShare x0 ∗ owns (c : Thread nD τ) arg4 fullShare x1
            ∗ owns (c : Thread nD τ) arg5 fullShare (out20_2 x0 x1)) -∗ K ⟨⟩))
      ⊢ wp frame (wpE (defs₀ (F := F)) Variants.none c none) E (cc20__gather_kernel i arg1 harg1 arg2 harg2 arg3 harg3 arg4 harg4 arg5 harg5) K := by
  simp only [cc20__gather_kernel_eq_skeleton]; unfold cc20__gather_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover20_2 _)

/-! ## The pipeline's proof data -/

/-- The proof data of this pipeline on core `c`: the arrays as the region finds them; after the body at point `t` each
    gathered input's buffer at its block and the output's at `out20_2` of the two; the invariant: the scoped rest, the
    generator register, and the two index tables held whole and untouched; nothing owed; full shares. -/
def dat20 (c : Dev nD) : Dat τ (Elt F) Unit ℕ (UR sig nD τ) ℕ (cfg20 a) c where
  A w := V c (Pipeline.arrRef spec20 w)
  after w t := match w with
    | ⟨0, _⟩ => iblk20 V a c 0 t
    | ⟨1, _⟩ => iblk20 V a c 1 t
    | ⟨2, _⟩ => out20_2 (iblk20 V a c 0 t) (iblk20 V a c 1 t)
  Φ _ := iprop(Pipeline.ΦA spec20 c ∗ Pipeline.prefHeld (Ix := Unit) (Name := ℕ) (U := UR sig nD τ) (Lvl := ℕ) pre20 c (fun _ => fullShare) a.1)
  q _ := fullShare
  owed _ := 0

theorem A_eq20 (c : Dev nD) (w : Fin (cfg20 a).W) : (dat20 V a c).A w = V c (Pipeline.arrRef spec20 w) := by
  dsimp only [dat20]

theorem after20_0 (c : Dev nD) (t : Fin (cfg20 a).N) : (dat20 V a c).after 0 t = iblk20 V a c 0 t := by dsimp only [dat20]; try rfl
theorem after20_1 (c : Dev nD) (t : Fin (cfg20 a).N) : (dat20 V a c).after 1 t = iblk20 V a c 1 t := by dsimp only [dat20]; try rfl
theorem after20_2 (c : Dev nD) (t : Fin (cfg20 a).N) : (dat20 V a c).after 2 t = out20_2 (iblk20 V a c 0 t) (iblk20 V a c 1 t) := by dsimp only [dat20]; try rfl

theorem before20_0 (c : Dev nD) (t : Fin (cfg20 a).N) (d) : (dat20 V a c).before 0 t d = iblk20 V a c 0 t :=
  before20_0_of V a (dat20 V a c) (A_eq20 V a c 0) (after20_0 V a c) t d
theorem before20_1 (c : Dev nD) (t : Fin (cfg20 a).N) (d) : (dat20 V a c).before 1 t d = iblk20 V a c 1 t :=
  before20_1_of V a (dat20 V a c) (A_eq20 V a c 1) (after20_1 V a c) t d

/-! ## The body obligation, at a generic point -/

def bodyPre20 (c : Dev nD) (t : Fin (cfg20 a).N) : sProp 𝕄 :=
  iprop((dat20 V a c).Φ t.castSucc ∗ (dat20 V a c).owesAt () t.castSucc
    ∗ (∃ d, owns (c : Thread nD τ) (ms20_0 a t) fullShare ((dat20 V a c).before 0 t d))
    ∗ (∃ d, owns (c : Thread nD τ) (ms20_1 a t) fullShare ((dat20 V a c).before 1 t d))
    ∗ (∃ d, owns (c : Thread nD τ) (ms20_2 a t) fullShare ((dat20 V a c).before 2 t d)))

def bodyPost20 (c : Dev nD) (t : Fin (cfg20 a).N) : sProp 𝕄 :=
  iprop((dat20 V a c).Φ t.succ ∗ (dat20 V a c).owesAt () t.succ
    ∗ owns (c : Thread nD τ) (ms20_0 a t) fullShare ((dat20 V a c).after 0 t)
    ∗ owns (c : Thread nD τ) (ms20_1 a t) fullShare ((dat20 V a c).after 1 t)
    ∗ owns (c : Thread nD τ) (ms20_2 a t) fullShare ((dat20 V a c).after 2 t))

/-- The body at any point: the inputs' memrefs hold their blocks, so the run applies; the invariant and the core's
    dues pass through unread. -/
theorem sound_body20 (c : Dev nD) (t : Fin (cfg20 a).N) :
    bodyPre20 V a c t ⊢ wp frame (wpE (defs₀ (F := F)) Variants.none c none) Set.univ (bodyAt20 a t) (fun _ => bodyPost20 V a c t) := by
  unfold bodyPre20 bodyPost20 bodyAt20
  simp only [before20_0, before20_1]
  rw [show (dat20 V a c).Φ t.succ = (dat20 V a c).Φ t.castSucc from rfl,
    show (dat20 V a c).owesAt () t.succ = (dat20 V a c).owesAt () t.castSucc from rfl,
    after20_0, after20_1, after20_2]
  iintro ⟨HΦ, Ho, ⟨%d0, H0⟩, ⟨%d1, H1⟩, ⟨%d2, H2⟩⟩
  iapply (sound_kernel20 c Set.univ _ _ _ _ _ _ _ _ _ _ _ (iblk20 V a c 0 t) (iblk20 V a c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation20 (c : Dev nD) : BodyObligation (dat20 (F := F) V a c) (defs₀ (F := F)) Variants.none () Set.univ := fun t => by
  rw [bigSep_W20, bigSep_W20]
  exact sound_body20 V a c t

end Region

end Cert.Kernel.Hand

end
-- ==== Proof.K.Tables20.lean ====
/-
  Edge chunk 20's index tables. The host slices 40000 consecutive words, from word 760000 on, out of each endpoint
  array (src, then dst) into scalar memory; the chunk's pipeline reads word t of each as the block row of its two
  gathered windows at grid point t. When every endpoint word is a node id (below 50000) each such row lies inside
  the 50000-row arrays: the tables' contents are admissible for the pipeline.
-/
import proofs.«413139_j22651657519351_3_alg».proof.Proof.Gen.Kernel.Launch
import proofs.«413139_j22651657519351_3_alg».proof.Proof.Gen.Kernel.Skeleton
import proofs.«413139_j22651657519351_3_alg».proof.Proof.Gen.Kernel.Points
import proofs.«413139_j22651657519351_3_alg».proof.Proof.K.Range
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Tables

variable (m : (ℓ : Loc nD τ sig) → Buf (Elt F) ℓ)

/-- The two tables' contents, read off the launch memory: the endpoint arrays' words 760000 … 760000 + 39999. -/
def tbl20 : pre20.Contents (Elt F) := fun k => match k with
  | ⟨0, _⟩ => (extractStridedSlice S40000 ![760000] (m (((0 : Dev nD) : Thread nD τ).loc main_arg1)) slices_S800000_S40000_760000 : (⟨S40000, .i32⟩ : BufTy).Contents (Elt F))
  | ⟨1, _⟩ => (extractStridedSlice S40000 ![760000] (m (((0 : Dev nD) : Thread nD τ).loc main_arg2)) slices_S800000_S40000_760000 : (⟨S40000, .i32⟩ : BufTy).Contents (Elt F))

/-- Tables whose every word is below the node count put every gathered block inside its array: row word + 1 ≤ 50000,
    the two unit axes and the 128 lanes exactly filled; float32 words transfer whole. -/
theorem ok20_of (pf : pre20.Contents (Elt F)) (h0 : ∀ j, ((pf 0 j : Elt F .i32) : BitVec 32).toNat < 50000)
    (h1 : ∀ j, ((pf 1 j : Elt F .i32) : BitVec 32).toNat < 50000) : ok20 pf := by
  refine ⟨fun i => ⟨fun a => ?_, Or.inl rfl⟩, fun i => ⟨fun a => ?_, Or.inl rfl⟩⟩
  · match a with
    | ⟨0, _⟩ =>
      show (BitVec.toNat (pf 0 _) + 1) * 1 ≤ 50000
      exact (Nat.mul_one _).le.trans (Nat.succ_le_of_lt (h0 _))
    | ⟨1, _⟩ => show (BitVec.toNat (0#32) + 1) * 1 ≤ 1; decide
    | ⟨2, _⟩ => show (BitVec.toNat (0#32) + 1) * 128 ≤ 128; decide
  · match a with
    | ⟨0, _⟩ =>
      show (BitVec.toNat (pf 1 _) + 1) * 1 ≤ 50000
      exact (Nat.mul_one _).le.trans (Nat.succ_le_of_lt (h1 _))
    | ⟨1, _⟩ => show (BitVec.toNat (0#32) + 1) * 1 ≤ 1; decide
    | ⟨2, _⟩ => show (BitVec.toNat (0#32) + 1) * 128 ≤ 128; decide

/-- The chunk's tables as admissible contents, when the endpoint words are node ids. -/
def a20 (hR : InRange m) : (pcfg20 (F := F)).Adm :=
  ⟨tbl20 m, ok20_of (tbl20 m) (fun j => (hR 0).1 _) (fun j => (hR 0).2 _)⟩

theorem a20_val (hR : InRange m) : (a20 m hR).1 = tbl20 m := rfl

end Tables

end Cert.Kernel.Hand

end
-- ==== Proof.K.Fold.lean ====
/-
  The fold through @main: what the TensorCore's buffers hold at each of the 43 boundaries between the program's 42
  items (21 pallas_calls alternating with 21 stretches of host operations), from the launch memory on.
  A host stretch maps the valuation before it to `StableHlo.after` of its operations; a pallas_call replaces the
  arrays of its windows by what its pipeline's write-backs leave (the inputs as entered, the output folded block by
  block) and leaves every other buffer as entered. Each item leaves the buffers it does not write alone; in
  particular the five argument arrays reach every boundary as launched, and each chunk's two index tables, sliced
  out of the endpoint arrays by the stretch before its pallas_call, are at that call's entry the slices of the LAUNCH
  contents. Last: the twenty-one pipelines' admissible table contents and proof data as literal families.
-/
import proofs.«413139_j22651657519351_3_alg».proof.Proof.Gen.Kernel.Launch
import proofs.«413139_j22651657519351_3_alg».proof.Proof.Gen.Kernel.Skeleton
import proofs.«413139_j22651657519351_3_alg».proof.Proof.Gen.Kernel.Points
import proofs.«413139_j22651657519351_3_alg».proof.Proof.K.RegionsP
import proofs.«413139_j22651657519351_3_alg».proof.Proof.K.Region0
import proofs.«413139_j22651657519351_3_alg».proof.Proof.K.Region1
import proofs.«413139_j22651657519351_3_alg».proof.Proof.K.Tables1
import proofs.«413139_j22651657519351_3_alg».proof.Proof.K.Region2
import proofs.«413139_j22651657519351_3_alg».proof.Proof.K.Tables2
import proofs.«413139_j22651657519351_3_alg».proof.Proof.K.Region3
import proofs.«413139_j22651657519351_3_alg».proof.Proof.K.Tables3
import proofs.«413139_j22651657519351_3_alg».proof.Proof.K.Region4
import proofs.«413139_j22651657519351_3_alg».proof.Proof.K.Tables4
import proofs.«413139_j22651657519351_3_alg».proof.Proof.K.Region5
import proofs.«413139_j22651657519351_3_alg».proof.Proof.K.Tables5
import proofs.«413139_j22651657519351_3_alg».proof.Proof.K.Region6
import proofs.«413139_j22651657519351_3_alg».proof.Proof.K.Tables6
import proofs.«413139_j22651657519351_3_alg».proof.Proof.K.Region7
import proofs.«413139_j22651657519351_3_alg».proof.Proof.K.Tables7
import proofs.«413139_j22651657519351_3_alg».proof.Proof.K.Region8
import proofs.«413139_j22651657519351_3_alg».proof.Proof.K.Tables8
import proofs.«413139_j22651657519351_3_alg».proof.Proof.K.Region9
import proofs.«413139_j22651657519351_3_alg».proof.Proof.K.Tables9
import proofs.«413139_j22651657519351_3_alg».proof.Proof.K.Region10
import proofs.«413139_j22651657519351_3_alg».proof.Proof.K.Tables10
import proofs.«413139_j22651657519351_3_alg».proof.Proof.K.Region11
import proofs.«413139_j22651657519351_3_alg».proof.Proof.K.Tables11
import proofs.«413139_j22651657519351_3_alg».proof.Proof.K.Region12
import proofs.«413139_j22651657519351_3_alg».proof.Proof.K.Tables12
import proofs.«413139_j22651657519351_3_alg».proof.Proof.K.Region13
import proofs.«413139_j22651657519351_3_alg».proof.Proof.K.Tables13
import proofs.«413139_j22651657519351_3_alg».proof.Proof.K.Region14
import proofs.«413139_j22651657519351_3_alg».proof.Proof.K.Tables14
import proofs.«413139_j22651657519351_3_alg».proof.Proof.K.Region15
import proofs.«413139_j22651657519351_3_alg».proof.Proof.K.Tables15
import proofs.«413139_j22651657519351_3_alg».proof.Proof.K.Region16
import proofs.«413139_j22651657519351_3_alg».proof.Proof.K.Tables16
import proofs.«413139_j22651657519351_3_alg».proof.Proof.K.Region17
import proofs.«413139_j22651657519351_3_alg».proof.Proof.K.Tables17
import proofs.«413139_j22651657519351_3_alg».proof.Proof.K.Region18
import proofs.«413139_j22651657519351_3_alg».proof.Proof.K.Tables18
import proofs.«413139_j22651657519351_3_alg».proof.Proof.K.Region19
import proofs.«413139_j22651657519351_3_alg».proof.Proof.K.Tables19
import proofs.«413139_j22651657519351_3_alg».proof.Proof.K.Region20
import proofs.«413139_j22651657519351_3_alg».proof.Proof.K.Tables20
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Fold

variable (m : (ℓ : Loc nD τ sig) → Buf (Elt F) ℓ)

/-! ## The launch, and the projection call (item 0) -/

/-- Core `c`'s buffers at launch. -/
abbrev W0 (hR : InRange m) : Dev nD → Valuation τ sig (Elt F) := fun c b => m (c, b)
/-- The same read at the TensorCore's references. -/
abbrev V0 (hR : InRange m) : (c : Dev nD) → (b : Ref sig .tc) → Buf (Elt F) ((c : Thread nD τ).loc b) := fun c b => W0 m hR c b
theorem W0_arg0 (hR : InRange m) (c : Dev nD) : W0 m hR c main_arg0 = m ((c : Thread nD τ).loc main_arg0) := rfl
theorem W0_arg1 (hR : InRange m) (c : Dev nD) : W0 m hR c main_arg1 = m ((c : Thread nD τ).loc main_arg1) := rfl
theorem W0_arg2 (hR : InRange m) (c : Dev nD) : W0 m hR c main_arg2 = m ((c : Thread nD τ).loc main_arg2) := rfl
theorem W0_arg3 (hR : InRange m) (c : Dev nD) : W0 m hR c main_arg3 = m ((c : Thread nD τ).loc main_arg3) := rfl
theorem W0_arg4 (hR : InRange m) (c : Dev nD) : W0 m hR c main_arg4 = m ((c : Thread nD τ).loc main_arg4) := rfl

/-- At the projection call's exit: its five arrays at what the pipeline leaves, every other buffer as entered. -/
def W1 (hR : InRange m) (c : Dev nD) : Valuation τ sig (Elt F) :=
  Pipeline.withArrays spec0 c (W0 m hR c) fun w => (dat0 (V0 m hR) c).arrAt w cfg0.N
theorem W1_arr (hR : InRange m) (c : Dev nD) (w : Fin cfg0.W) :
    W1 m hR c (Proc.devRef .tc (Pipeline.arrRef spec0 w)) = (dat0 (V0 m hR) c).arrAt w cfg0.N := by
  unfold W1; exact Pipeline.withArrays_arr spec0 (launch0 (F := F)).win.arr_inj c _ _ w
theorem W1_of_ne (hR : InRange m) (c : Dev nD) (b : Ref sig .tc) (hb : ∀ w, Pipeline.arrRef spec0 w ≠ b) :
    W1 m hR c (Proc.devRef .tc b) = W0 m hR c (Proc.devRef .tc b) := by
  unfold W1; exact Pipeline.withArrays_of_ne spec0 c _ _ b hb
abbrev V1 (hR : InRange m) : (c : Dev nD) → (b : Ref sig .tc) → Buf (Elt F) ((c : Thread nD τ).loc b) := fun c b => W1 m hR c b
theorem hF0 (hR : InRange m) (c : Dev nD) (w : Fin cfg0.W) : (dat0 (V0 m hR) c).arrAt w cfg0.N = V1 m hR c (Pipeline.arrRef spec0 w) :=
  (W1_arr m hR c w).symm
theorem hrest0 (hR : InRange m) (c : Dev nD) : ∀ b, b ∉ Finset.univ.image (Pipeline.arrRef spec0) → V1 m hR c b = V0 m hR c b :=
  fun b hb => W1_of_ne m hR c b fun w e => hb (Finset.mem_image.mpr ⟨w, Finset.mem_univ _, e⟩)
/-- An input array of the projection call is left as entered. -/
theorem W1_in (hR : InRange m) (c : Dev nD) (w : Fin cfg0.W) (hw : (cfg0.win w).isOut = false) :
    W1 m hR c (Proc.devRef .tc (Pipeline.arrRef spec0 w)) = W0 m hR c (Proc.devRef .tc (Pipeline.arrRef spec0 w)) :=
  (W1_arr m hR c w).trans (((dat0 (V0 m hR) c).arrAt_in w hw _).trans (A_eq0 (V0 m hR) c w))
theorem W1_arg0 (hR : InRange m) (c : Dev nD) : W1 m hR c main_arg0 = m ((c : Thread nD τ).loc main_arg0) := (W1_in m hR c 0 rfl).trans (W0_arg0 m hR c)
theorem W1_arg1 (hR : InRange m) (c : Dev nD) : W1 m hR c main_arg1 = m ((c : Thread nD τ).loc main_arg1) := (W1_of_ne m hR c main_arg1 (by decide)).trans (W0_arg1 m hR c)
theorem W1_arg2 (hR : InRange m) (c : Dev nD) : W1 m hR c main_arg2 = m ((c : Thread nD τ).loc main_arg2) := (W1_of_ne m hR c main_arg2 (by decide)).trans (W0_arg2 m hR c)
theorem W1_arg3 (hR : InRange m) (c : Dev nD) : W1 m hR c main_arg3 = m ((c : Thread nD τ).loc main_arg3) := (W1_in m hR c 1 rfl).trans (W0_arg3 m hR c)
theorem W1_arg4 (hR : InRange m) (c : Dev nD) : W1 m hR c main_arg4 = m ((c : Thread nD τ).loc main_arg4) := (W1_in m hR c 2 rfl).trans (W0_arg4 m hR c)

/-! ## Host stretch 1 and gather call 1 (items 1 and 2) -/

/-- After host stretch 1: gather call 1's entry. -/
abbrev W2 (hR : InRange m) : Dev nD → Valuation τ sig (Elt F) := fun c => StableHlo.after hostOps1 (W1 m hR c)
abbrev V2 (hR : InRange m) : (c : Dev nD) → (b : Ref sig .tc) → Buf (Elt F) ((c : Thread nD τ).loc b) := fun c b => W2 m hR c b
/-- The stretch leaves every buffer it does not write as it was. -/
theorem W2_of (hR : InRange m) (c : Dev nD) (r : Ref sig .tc) (h : r ∉ hostOps1_W) : W2 m hR c r = W1 m hR c r :=
  StableHlo.after_of_writes_sub hostOps1 _ hostOps1_writes h
theorem W2_arg0 (hR : InRange m) (c : Dev nD) : W2 m hR c main_arg0 = m ((c : Thread nD τ).loc main_arg0) := (W2_of m hR c main_arg0 (by decide)).trans (W1_arg0 m hR c)
theorem W2_arg1 (hR : InRange m) (c : Dev nD) : W2 m hR c main_arg1 = m ((c : Thread nD τ).loc main_arg1) := (W2_of m hR c main_arg1 (by decide)).trans (W1_arg1 m hR c)
theorem W2_arg2 (hR : InRange m) (c : Dev nD) : W2 m hR c main_arg2 = m ((c : Thread nD τ).loc main_arg2) := (W2_of m hR c main_arg2 (by decide)).trans (W1_arg2 m hR c)
theorem W2_arg3 (hR : InRange m) (c : Dev nD) : W2 m hR c main_arg3 = m ((c : Thread nD τ).loc main_arg3) := (W2_of m hR c main_arg3 (by decide)).trans (W1_arg3 m hR c)
theorem W2_arg4 (hR : InRange m) (c : Dev nD) : W2 m hR c main_arg4 = m ((c : Thread nD τ).loc main_arg4) := (W2_of m hR c main_arg4 (by decide)).trans (W1_arg4 m hR c)

/-- At gather call 1's exit: its three arrays at what the pipeline leaves, every other buffer as entered. -/
def W3 (hR : InRange m) (c : Dev nD) : Valuation τ sig (Elt F) :=
  Pipeline.withArrays spec1 c (W2 m hR c) fun w => (dat1 (V2 m hR) (a1 m hR) c).arrAt w (cfg1 (a1 m hR)).N
theorem W3_arr (hR : InRange m) (c : Dev nD) (w : Fin (cfg1 (a1 m hR)).W) :
    W3 m hR c (Proc.devRef .tc (Pipeline.arrRef spec1 w)) = (dat1 (V2 m hR) (a1 m hR) c).arrAt w (cfg1 (a1 m hR)).N := by
  unfold W3; exact Pipeline.withArrays_arr spec1 (launch1 (F := F)).win.arr_inj c _ _ w
theorem W3_of_ne (hR : InRange m) (c : Dev nD) (b : Ref sig .tc) (hb : ∀ w, Pipeline.arrRef spec1 w ≠ b) :
    W3 m hR c (Proc.devRef .tc b) = W2 m hR c (Proc.devRef .tc b) := by
  unfold W3; exact Pipeline.withArrays_of_ne spec1 c _ _ b hb
abbrev V3 (hR : InRange m) : (c : Dev nD) → (b : Ref sig .tc) → Buf (Elt F) ((c : Thread nD τ).loc b) := fun c b => W3 m hR c b
theorem hF1 (hR : InRange m) (c : Dev nD) (w : Fin (cfg1 (a1 m hR)).W) :
    (dat1 (V2 m hR) (a1 m hR) c).arrAt w (cfg1 (a1 m hR)).N = V3 m hR c (Pipeline.arrRef spec1 w) :=
  (W3_arr m hR c w).symm
theorem hrest1 (hR : InRange m) (c : Dev nD) : ∀ b, b ∉ Finset.univ.image (Pipeline.arrRef spec1) → V3 m hR c b = V2 m hR c b :=
  fun b hb => W3_of_ne m hR c b fun w e => hb (Finset.mem_image.mpr ⟨w, Finset.mem_univ _, e⟩)
/-- An input array of the gather call (a re-laid projection) is left as entered. -/
theorem W3_in (hR : InRange m) (c : Dev nD) (w : Fin (cfg1 (a1 m hR)).W) (hw : ((cfg1 (a1 m hR)).win w).isOut = false) :
    W3 m hR c (Proc.devRef .tc (Pipeline.arrRef spec1 w)) = W2 m hR c (Proc.devRef .tc (Pipeline.arrRef spec1 w)) :=
  (W3_arr m hR c w).trans (((dat1 (V2 m hR) (a1 m hR) c).arrAt_in w hw _).trans (A_eq1 (V2 m hR) (a1 m hR) c w))
theorem W3_arg0 (hR : InRange m) (c : Dev nD) : W3 m hR c main_arg0 = m ((c : Thread nD τ).loc main_arg0) := (W3_of_ne m hR c main_arg0 (by decide)).trans (W2_arg0 m hR c)
theorem W3_arg1 (hR : InRange m) (c : Dev nD) : W3 m hR c main_arg1 = m ((c : Thread nD τ).loc main_arg1) := (W3_of_ne m hR c main_arg1 (by decide)).trans (W2_arg1 m hR c)
theorem W3_arg2 (hR : InRange m) (c : Dev nD) : W3 m hR c main_arg2 = m ((c : Thread nD τ).loc main_arg2) := (W3_of_ne m hR c main_arg2 (by decide)).trans (W2_arg2 m hR c)
theorem W3_arg3 (hR : InRange m) (c : Dev nD) : W3 m hR c main_arg3 = m ((c : Thread nD τ).loc main_arg3) := (W3_of_ne m hR c main_arg3 (by decide)).trans (W2_arg3 m hR c)
theorem W3_arg4 (hR : InRange m) (c : Dev nD) : W3 m hR c main_arg4 = m ((c : Thread nD τ).loc main_arg4) := (W3_of_ne m hR c main_arg4 (by decide)).trans (W2_arg4 m hR c)

/-! ## Host stretch 2 and gather call 2 (items 3 and 4) -/

/-- After host stretch 2: gather call 2's entry. -/
abbrev W4 (hR : InRange m) : Dev nD → Valuation τ sig (Elt F) := fun c => StableHlo.after hostOps2 (W3 m hR c)
abbrev V4 (hR : InRange m) : (c : Dev nD) → (b : Ref sig .tc) → Buf (Elt F) ((c : Thread nD τ).loc b) := fun c b => W4 m hR c b
/-- The stretch leaves every buffer it does not write as it was. -/
theorem W4_of (hR : InRange m) (c : Dev nD) (r : Ref sig .tc) (h : r ∉ hostOps2_W) : W4 m hR c r = W3 m hR c r :=
  StableHlo.after_of_writes_sub hostOps2 _ hostOps2_writes h
theorem W4_arg0 (hR : InRange m) (c : Dev nD) : W4 m hR c main_arg0 = m ((c : Thread nD τ).loc main_arg0) := (W4_of m hR c main_arg0 (by decide)).trans (W3_arg0 m hR c)
theorem W4_arg1 (hR : InRange m) (c : Dev nD) : W4 m hR c main_arg1 = m ((c : Thread nD τ).loc main_arg1) := (W4_of m hR c main_arg1 (by decide)).trans (W3_arg1 m hR c)
theorem W4_arg2 (hR : InRange m) (c : Dev nD) : W4 m hR c main_arg2 = m ((c : Thread nD τ).loc main_arg2) := (W4_of m hR c main_arg2 (by decide)).trans (W3_arg2 m hR c)
theorem W4_arg3 (hR : InRange m) (c : Dev nD) : W4 m hR c main_arg3 = m ((c : Thread nD τ).loc main_arg3) := (W4_of m hR c main_arg3 (by decide)).trans (W3_arg3 m hR c)
theorem W4_arg4 (hR : InRange m) (c : Dev nD) : W4 m hR c main_arg4 = m ((c : Thread nD τ).loc main_arg4) := (W4_of m hR c main_arg4 (by decide)).trans (W3_arg4 m hR c)

/-- At gather call 2's exit: its three arrays at what the pipeline leaves, every other buffer as entered. -/
def W5 (hR : InRange m) (c : Dev nD) : Valuation τ sig (Elt F) :=
  Pipeline.withArrays spec2 c (W4 m hR c) fun w => (dat2 (V4 m hR) (a2 m hR) c).arrAt w (cfg2 (a2 m hR)).N
theorem W5_arr (hR : InRange m) (c : Dev nD) (w : Fin (cfg2 (a2 m hR)).W) :
    W5 m hR c (Proc.devRef .tc (Pipeline.arrRef spec2 w)) = (dat2 (V4 m hR) (a2 m hR) c).arrAt w (cfg2 (a2 m hR)).N := by
  unfold W5; exact Pipeline.withArrays_arr spec2 (launch2 (F := F)).win.arr_inj c _ _ w
theorem W5_of_ne (hR : InRange m) (c : Dev nD) (b : Ref sig .tc) (hb : ∀ w, Pipeline.arrRef spec2 w ≠ b) :
    W5 m hR c (Proc.devRef .tc b) = W4 m hR c (Proc.devRef .tc b) := by
  unfold W5; exact Pipeline.withArrays_of_ne spec2 c _ _ b hb
abbrev V5 (hR : InRange m) : (c : Dev nD) → (b : Ref sig .tc) → Buf (Elt F) ((c : Thread nD τ).loc b) := fun c b => W5 m hR c b
theorem hF2 (hR : InRange m) (c : Dev nD) (w : Fin (cfg2 (a2 m hR)).W) :
    (dat2 (V4 m hR) (a2 m hR) c).arrAt w (cfg2 (a2 m hR)).N = V5 m hR c (Pipeline.arrRef spec2 w) :=
  (W5_arr m hR c w).symm
theorem hrest2 (hR : InRange m) (c : Dev nD) : ∀ b, b ∉ Finset.univ.image (Pipeline.arrRef spec2) → V5 m hR c b = V4 m hR c b :=
  fun b hb => W5_of_ne m hR c b fun w e => hb (Finset.mem_image.mpr ⟨w, Finset.mem_univ _, e⟩)
/-- An input array of the gather call (a re-laid projection) is left as entered. -/
theorem W5_in (hR : InRange m) (c : Dev nD) (w : Fin (cfg2 (a2 m hR)).W) (hw : ((cfg2 (a2 m hR)).win w).isOut = false) :
    W5 m hR c (Proc.devRef .tc (Pipeline.arrRef spec2 w)) = W4 m hR c (Proc.devRef .tc (Pipeline.arrRef spec2 w)) :=
  (W5_arr m hR c w).trans (((dat2 (V4 m hR) (a2 m hR) c).arrAt_in w hw _).trans (A_eq2 (V4 m hR) (a2 m hR) c w))
theorem W5_arg0 (hR : InRange m) (c : Dev nD) : W5 m hR c main_arg0 = m ((c : Thread nD τ).loc main_arg0) := (W5_of_ne m hR c main_arg0 (by decide)).trans (W4_arg0 m hR c)
theorem W5_arg1 (hR : InRange m) (c : Dev nD) : W5 m hR c main_arg1 = m ((c : Thread nD τ).loc main_arg1) := (W5_of_ne m hR c main_arg1 (by decide)).trans (W4_arg1 m hR c)
theorem W5_arg2 (hR : InRange m) (c : Dev nD) : W5 m hR c main_arg2 = m ((c : Thread nD τ).loc main_arg2) := (W5_of_ne m hR c main_arg2 (by decide)).trans (W4_arg2 m hR c)
theorem W5_arg3 (hR : InRange m) (c : Dev nD) : W5 m hR c main_arg3 = m ((c : Thread nD τ).loc main_arg3) := (W5_of_ne m hR c main_arg3 (by decide)).trans (W4_arg3 m hR c)
theorem W5_arg4 (hR : InRange m) (c : Dev nD) : W5 m hR c main_arg4 = m ((c : Thread nD τ).loc main_arg4) := (W5_of_ne m hR c main_arg4 (by decide)).trans (W4_arg4 m hR c)

/-! ## Host stretch 3 and gather call 3 (items 5 and 6) -/

/-- After host stretch 3: gather call 3's entry. -/
abbrev W6 (hR : InRange m) : Dev nD → Valuation τ sig (Elt F) := fun c => StableHlo.after hostOps3 (W5 m hR c)
abbrev V6 (hR : InRange m) : (c : Dev nD) → (b : Ref sig .tc) → Buf (Elt F) ((c : Thread nD τ).loc b) := fun c b => W6 m hR c b
/-- The stretch leaves every buffer it does not write as it was. -/
theorem W6_of (hR : InRange m) (c : Dev nD) (r : Ref sig .tc) (h : r ∉ hostOps3_W) : W6 m hR c r = W5 m hR c r :=
  StableHlo.after_of_writes_sub hostOps3 _ hostOps3_writes h
theorem W6_arg0 (hR : InRange m) (c : Dev nD) : W6 m hR c main_arg0 = m ((c : Thread nD τ).loc main_arg0) := (W6_of m hR c main_arg0 (by decide)).trans (W5_arg0 m hR c)
theorem W6_arg1 (hR : InRange m) (c : Dev nD) : W6 m hR c main_arg1 = m ((c : Thread nD τ).loc main_arg1) := (W6_of m hR c main_arg1 (by decide)).trans (W5_arg1 m hR c)
theorem W6_arg2 (hR : InRange m) (c : Dev nD) : W6 m hR c main_arg2 = m ((c : Thread nD τ).loc main_arg2) := (W6_of m hR c main_arg2 (by decide)).trans (W5_arg2 m hR c)
theorem W6_arg3 (hR : InRange m) (c : Dev nD) : W6 m hR c main_arg3 = m ((c : Thread nD τ).loc main_arg3) := (W6_of m hR c main_arg3 (by decide)).trans (W5_arg3 m hR c)
theorem W6_arg4 (hR : InRange m) (c : Dev nD) : W6 m hR c main_arg4 = m ((c : Thread nD τ).loc main_arg4) := (W6_of m hR c main_arg4 (by decide)).trans (W5_arg4 m hR c)

/-- At gather call 3's exit: its three arrays at what the pipeline leaves, every other buffer as entered. -/
def W7 (hR : InRange m) (c : Dev nD) : Valuation τ sig (Elt F) :=
  Pipeline.withArrays spec3 c (W6 m hR c) fun w => (dat3 (V6 m hR) (a3 m hR) c).arrAt w (cfg3 (a3 m hR)).N
theorem W7_arr (hR : InRange m) (c : Dev nD) (w : Fin (cfg3 (a3 m hR)).W) :
    W7 m hR c (Proc.devRef .tc (Pipeline.arrRef spec3 w)) = (dat3 (V6 m hR) (a3 m hR) c).arrAt w (cfg3 (a3 m hR)).N := by
  unfold W7; exact Pipeline.withArrays_arr spec3 (launch3 (F := F)).win.arr_inj c _ _ w
theorem W7_of_ne (hR : InRange m) (c : Dev nD) (b : Ref sig .tc) (hb : ∀ w, Pipeline.arrRef spec3 w ≠ b) :
    W7 m hR c (Proc.devRef .tc b) = W6 m hR c (Proc.devRef .tc b) := by
  unfold W7; exact Pipeline.withArrays_of_ne spec3 c _ _ b hb
abbrev V7 (hR : InRange m) : (c : Dev nD) → (b : Ref sig .tc) → Buf (Elt F) ((c : Thread nD τ).loc b) := fun c b => W7 m hR c b
theorem hF3 (hR : InRange m) (c : Dev nD) (w : Fin (cfg3 (a3 m hR)).W) :
    (dat3 (V6 m hR) (a3 m hR) c).arrAt w (cfg3 (a3 m hR)).N = V7 m hR c (Pipeline.arrRef spec3 w) :=
  (W7_arr m hR c w).symm
theorem hrest3 (hR : InRange m) (c : Dev nD) : ∀ b, b ∉ Finset.univ.image (Pipeline.arrRef spec3) → V7 m hR c b = V6 m hR c b :=
  fun b hb => W7_of_ne m hR c b fun w e => hb (Finset.mem_image.mpr ⟨w, Finset.mem_univ _, e⟩)
/-- An input array of the gather call (a re-laid projection) is left as entered. -/
theorem W7_in (hR : InRange m) (c : Dev nD) (w : Fin (cfg3 (a3 m hR)).W) (hw : ((cfg3 (a3 m hR)).win w).isOut = false) :
    W7 m hR c (Proc.devRef .tc (Pipeline.arrRef spec3 w)) = W6 m hR c (Proc.devRef .tc (Pipeline.arrRef spec3 w)) :=
  (W7_arr m hR c w).trans (((dat3 (V6 m hR) (a3 m hR) c).arrAt_in w hw _).trans (A_eq3 (V6 m hR) (a3 m hR) c w))
theorem W7_arg0 (hR : InRange m) (c : Dev nD) : W7 m hR c main_arg0 = m ((c : Thread nD τ).loc main_arg0) := (W7_of_ne m hR c main_arg0 (by decide)).trans (W6_arg0 m hR c)
theorem W7_arg1 (hR : InRange m) (c : Dev nD) : W7 m hR c main_arg1 = m ((c : Thread nD τ).loc main_arg1) := (W7_of_ne m hR c main_arg1 (by decide)).trans (W6_arg1 m hR c)
theorem W7_arg2 (hR : InRange m) (c : Dev nD) : W7 m hR c main_arg2 = m ((c : Thread nD τ).loc main_arg2) := (W7_of_ne m hR c main_arg2 (by decide)).trans (W6_arg2 m hR c)
theorem W7_arg3 (hR : InRange m) (c : Dev nD) : W7 m hR c main_arg3 = m ((c : Thread nD τ).loc main_arg3) := (W7_of_ne m hR c main_arg3 (by decide)).trans (W6_arg3 m hR c)
theorem W7_arg4 (hR : InRange m) (c : Dev nD) : W7 m hR c main_arg4 = m ((c : Thread nD τ).loc main_arg4) := (W7_of_ne m hR c main_arg4 (by decide)).trans (W6_arg4 m hR c)

/-! ## Host stretch 4 and gather call 4 (items 7 and 8) -/

/-- After host stretch 4: gather call 4's entry. -/
abbrev W8 (hR : InRange m) : Dev nD → Valuation τ sig (Elt F) := fun c => StableHlo.after hostOps4 (W7 m hR c)
abbrev V8 (hR : InRange m) : (c : Dev nD) → (b : Ref sig .tc) → Buf (Elt F) ((c : Thread nD τ).loc b) := fun c b => W8 m hR c b
/-- The stretch leaves every buffer it does not write as it was. -/
theorem W8_of (hR : InRange m) (c : Dev nD) (r : Ref sig .tc) (h : r ∉ hostOps4_W) : W8 m hR c r = W7 m hR c r :=
  StableHlo.after_of_writes_sub hostOps4 _ hostOps4_writes h
theorem W8_arg0 (hR : InRange m) (c : Dev nD) : W8 m hR c main_arg0 = m ((c : Thread nD τ).loc main_arg0) := (W8_of m hR c main_arg0 (by decide)).trans (W7_arg0 m hR c)
theorem W8_arg1 (hR : InRange m) (c : Dev nD) : W8 m hR c main_arg1 = m ((c : Thread nD τ).loc main_arg1) := (W8_of m hR c main_arg1 (by decide)).trans (W7_arg1 m hR c)
theorem W8_arg2 (hR : InRange m) (c : Dev nD) : W8 m hR c main_arg2 = m ((c : Thread nD τ).loc main_arg2) := (W8_of m hR c main_arg2 (by decide)).trans (W7_arg2 m hR c)
theorem W8_arg3 (hR : InRange m) (c : Dev nD) : W8 m hR c main_arg3 = m ((c : Thread nD τ).loc main_arg3) := (W8_of m hR c main_arg3 (by decide)).trans (W7_arg3 m hR c)
theorem W8_arg4 (hR : InRange m) (c : Dev nD) : W8 m hR c main_arg4 = m ((c : Thread nD τ).loc main_arg4) := (W8_of m hR c main_arg4 (by decide)).trans (W7_arg4 m hR c)

/-- At gather call 4's exit: its three arrays at what the pipeline leaves, every other buffer as entered. -/
def W9 (hR : InRange m) (c : Dev nD) : Valuation τ sig (Elt F) :=
  Pipeline.withArrays spec4 c (W8 m hR c) fun w => (dat4 (V8 m hR) (a4 m hR) c).arrAt w (cfg4 (a4 m hR)).N
theorem W9_arr (hR : InRange m) (c : Dev nD) (w : Fin (cfg4 (a4 m hR)).W) :
    W9 m hR c (Proc.devRef .tc (Pipeline.arrRef spec4 w)) = (dat4 (V8 m hR) (a4 m hR) c).arrAt w (cfg4 (a4 m hR)).N := by
  unfold W9; exact Pipeline.withArrays_arr spec4 (launch4 (F := F)).win.arr_inj c _ _ w
theorem W9_of_ne (hR : InRange m) (c : Dev nD) (b : Ref sig .tc) (hb : ∀ w, Pipeline.arrRef spec4 w ≠ b) :
    W9 m hR c (Proc.devRef .tc b) = W8 m hR c (Proc.devRef .tc b) := by
  unfold W9; exact Pipeline.withArrays_of_ne spec4 c _ _ b hb
abbrev V9 (hR : InRange m) : (c : Dev nD) → (b : Ref sig .tc) → Buf (Elt F) ((c : Thread nD τ).loc b) := fun c b => W9 m hR c b
theorem hF4 (hR : InRange m) (c : Dev nD) (w : Fin (cfg4 (a4 m hR)).W) :
    (dat4 (V8 m hR) (a4 m hR) c).arrAt w (cfg4 (a4 m hR)).N = V9 m hR c (Pipeline.arrRef spec4 w) :=
  (W9_arr m hR c w).symm
theorem hrest4 (hR : InRange m) (c : Dev nD) : ∀ b, b ∉ Finset.univ.image (Pipeline.arrRef spec4) → V9 m hR c b = V8 m hR c b :=
  fun b hb => W9_of_ne m hR c b fun w e => hb (Finset.mem_image.mpr ⟨w, Finset.mem_univ _, e⟩)
/-- An input array of the gather call (a re-laid projection) is left as entered. -/
theorem W9_in (hR : InRange m) (c : Dev nD) (w : Fin (cfg4 (a4 m hR)).W) (hw : ((cfg4 (a4 m hR)).win w).isOut = false) :
    W9 m hR c (Proc.devRef .tc (Pipeline.arrRef spec4 w)) = W8 m hR c (Proc.devRef .tc (Pipeline.arrRef spec4 w)) :=
  (W9_arr m hR c w).trans (((dat4 (V8 m hR) (a4 m hR) c).arrAt_in w hw _).trans (A_eq4 (V8 m hR) (a4 m hR) c w))
theorem W9_arg0 (hR : InRange m) (c : Dev nD) : W9 m hR c main_arg0 = m ((c : Thread nD τ).loc main_arg0) := (W9_of_ne m hR c main_arg0 (by decide)).trans (W8_arg0 m hR c)
theorem W9_arg1 (hR : InRange m) (c : Dev nD) : W9 m hR c main_arg1 = m ((c : Thread nD τ).loc main_arg1) := (W9_of_ne m hR c main_arg1 (by decide)).trans (W8_arg1 m hR c)
theorem W9_arg2 (hR : InRange m) (c : Dev nD) : W9 m hR c main_arg2 = m ((c : Thread nD τ).loc main_arg2) := (W9_of_ne m hR c main_arg2 (by decide)).trans (W8_arg2 m hR c)
theorem W9_arg3 (hR : InRange m) (c : Dev nD) : W9 m hR c main_arg3 = m ((c : Thread nD τ).loc main_arg3) := (W9_of_ne m hR c main_arg3 (by decide)).trans (W8_arg3 m hR c)
theorem W9_arg4 (hR : InRange m) (c : Dev nD) : W9 m hR c main_arg4 = m ((c : Thread nD τ).loc main_arg4) := (W9_of_ne m hR c main_arg4 (by decide)).trans (W8_arg4 m hR c)

/-! ## Host stretch 5 and gather call 5 (items 9 and 10) -/

/-- After host stretch 5: gather call 5's entry. -/
abbrev W10 (hR : InRange m) : Dev nD → Valuation τ sig (Elt F) := fun c => StableHlo.after hostOps5 (W9 m hR c)
abbrev V10 (hR : InRange m) : (c : Dev nD) → (b : Ref sig .tc) → Buf (Elt F) ((c : Thread nD τ).loc b) := fun c b => W10 m hR c b
/-- The stretch leaves every buffer it does not write as it was. -/
theorem W10_of (hR : InRange m) (c : Dev nD) (r : Ref sig .tc) (h : r ∉ hostOps5_W) : W10 m hR c r = W9 m hR c r :=
  StableHlo.after_of_writes_sub hostOps5 _ hostOps5_writes h
theorem W10_arg0 (hR : InRange m) (c : Dev nD) : W10 m hR c main_arg0 = m ((c : Thread nD τ).loc main_arg0) := (W10_of m hR c main_arg0 (by decide)).trans (W9_arg0 m hR c)
theorem W10_arg1 (hR : InRange m) (c : Dev nD) : W10 m hR c main_arg1 = m ((c : Thread nD τ).loc main_arg1) := (W10_of m hR c main_arg1 (by decide)).trans (W9_arg1 m hR c)
theorem W10_arg2 (hR : InRange m) (c : Dev nD) : W10 m hR c main_arg2 = m ((c : Thread nD τ).loc main_arg2) := (W10_of m hR c main_arg2 (by decide)).trans (W9_arg2 m hR c)
theorem W10_arg3 (hR : InRange m) (c : Dev nD) : W10 m hR c main_arg3 = m ((c : Thread nD τ).loc main_arg3) := (W10_of m hR c main_arg3 (by decide)).trans (W9_arg3 m hR c)
theorem W10_arg4 (hR : InRange m) (c : Dev nD) : W10 m hR c main_arg4 = m ((c : Thread nD τ).loc main_arg4) := (W10_of m hR c main_arg4 (by decide)).trans (W9_arg4 m hR c)

/-- At gather call 5's exit: its three arrays at what the pipeline leaves, every other buffer as entered. -/
def W11 (hR : InRange m) (c : Dev nD) : Valuation τ sig (Elt F) :=
  Pipeline.withArrays spec5 c (W10 m hR c) fun w => (dat5 (V10 m hR) (a5 m hR) c).arrAt w (cfg5 (a5 m hR)).N
theorem W11_arr (hR : InRange m) (c : Dev nD) (w : Fin (cfg5 (a5 m hR)).W) :
    W11 m hR c (Proc.devRef .tc (Pipeline.arrRef spec5 w)) = (dat5 (V10 m hR) (a5 m hR) c).arrAt w (cfg5 (a5 m hR)).N := by
  unfold W11; exact Pipeline.withArrays_arr spec5 (launch5 (F := F)).win.arr_inj c _ _ w
theorem W11_of_ne (hR : InRange m) (c : Dev nD) (b : Ref sig .tc) (hb : ∀ w, Pipeline.arrRef spec5 w ≠ b) :
    W11 m hR c (Proc.devRef .tc b) = W10 m hR c (Proc.devRef .tc b) := by
  unfold W11; exact Pipeline.withArrays_of_ne spec5 c _ _ b hb
abbrev V11 (hR : InRange m) : (c : Dev nD) → (b : Ref sig .tc) → Buf (Elt F) ((c : Thread nD τ).loc b) := fun c b => W11 m hR c b
theorem hF5 (hR : InRange m) (c : Dev nD) (w : Fin (cfg5 (a5 m hR)).W) :
    (dat5 (V10 m hR) (a5 m hR) c).arrAt w (cfg5 (a5 m hR)).N = V11 m hR c (Pipeline.arrRef spec5 w) :=
  (W11_arr m hR c w).symm
theorem hrest5 (hR : InRange m) (c : Dev nD) : ∀ b, b ∉ Finset.univ.image (Pipeline.arrRef spec5) → V11 m hR c b = V10 m hR c b :=
  fun b hb => W11_of_ne m hR c b fun w e => hb (Finset.mem_image.mpr ⟨w, Finset.mem_univ _, e⟩)
/-- An input array of the gather call (a re-laid projection) is left as entered. -/
theorem W11_in (hR : InRange m) (c : Dev nD) (w : Fin (cfg5 (a5 m hR)).W) (hw : ((cfg5 (a5 m hR)).win w).isOut = false) :
    W11 m hR c (Proc.devRef .tc (Pipeline.arrRef spec5 w)) = W10 m hR c (Proc.devRef .tc (Pipeline.arrRef spec5 w)) :=
  (W11_arr m hR c w).trans (((dat5 (V10 m hR) (a5 m hR) c).arrAt_in w hw _).trans (A_eq5 (V10 m hR) (a5 m hR) c w))
theorem W11_arg0 (hR : InRange m) (c : Dev nD) : W11 m hR c main_arg0 = m ((c : Thread nD τ).loc main_arg0) := (W11_of_ne m hR c main_arg0 (by decide)).trans (W10_arg0 m hR c)
theorem W11_arg1 (hR : InRange m) (c : Dev nD) : W11 m hR c main_arg1 = m ((c : Thread nD τ).loc main_arg1) := (W11_of_ne m hR c main_arg1 (by decide)).trans (W10_arg1 m hR c)
theorem W11_arg2 (hR : InRange m) (c : Dev nD) : W11 m hR c main_arg2 = m ((c : Thread nD τ).loc main_arg2) := (W11_of_ne m hR c main_arg2 (by decide)).trans (W10_arg2 m hR c)
theorem W11_arg3 (hR : InRange m) (c : Dev nD) : W11 m hR c main_arg3 = m ((c : Thread nD τ).loc main_arg3) := (W11_of_ne m hR c main_arg3 (by decide)).trans (W10_arg3 m hR c)
theorem W11_arg4 (hR : InRange m) (c : Dev nD) : W11 m hR c main_arg4 = m ((c : Thread nD τ).loc main_arg4) := (W11_of_ne m hR c main_arg4 (by decide)).trans (W10_arg4 m hR c)

/-! ## Host stretch 6 and gather call 6 (items 11 and 12) -/

/-- After host stretch 6: gather call 6's entry. -/
abbrev W12 (hR : InRange m) : Dev nD → Valuation τ sig (Elt F) := fun c => StableHlo.after hostOps6 (W11 m hR c)
abbrev V12 (hR : InRange m) : (c : Dev nD) → (b : Ref sig .tc) → Buf (Elt F) ((c : Thread nD τ).loc b) := fun c b => W12 m hR c b
/-- The stretch leaves every buffer it does not write as it was. -/
theorem W12_of (hR : InRange m) (c : Dev nD) (r : Ref sig .tc) (h : r ∉ hostOps6_W) : W12 m hR c r = W11 m hR c r :=
  StableHlo.after_of_writes_sub hostOps6 _ hostOps6_writes h
theorem W12_arg0 (hR : InRange m) (c : Dev nD) : W12 m hR c main_arg0 = m ((c : Thread nD τ).loc main_arg0) := (W12_of m hR c main_arg0 (by decide)).trans (W11_arg0 m hR c)
theorem W12_arg1 (hR : InRange m) (c : Dev nD) : W12 m hR c main_arg1 = m ((c : Thread nD τ).loc main_arg1) := (W12_of m hR c main_arg1 (by decide)).trans (W11_arg1 m hR c)
theorem W12_arg2 (hR : InRange m) (c : Dev nD) : W12 m hR c main_arg2 = m ((c : Thread nD τ).loc main_arg2) := (W12_of m hR c main_arg2 (by decide)).trans (W11_arg2 m hR c)
theorem W12_arg3 (hR : InRange m) (c : Dev nD) : W12 m hR c main_arg3 = m ((c : Thread nD τ).loc main_arg3) := (W12_of m hR c main_arg3 (by decide)).trans (W11_arg3 m hR c)
theorem W12_arg4 (hR : InRange m) (c : Dev nD) : W12 m hR c main_arg4 = m ((c : Thread nD τ).loc main_arg4) := (W12_of m hR c main_arg4 (by decide)).trans (W11_arg4 m hR c)

/-- At gather call 6's exit: its three arrays at what the pipeline leaves, every other buffer as entered. -/
def W13 (hR : InRange m) (c : Dev nD) : Valuation τ sig (Elt F) :=
  Pipeline.withArrays spec6 c (W12 m hR c) fun w => (dat6 (V12 m hR) (a6 m hR) c).arrAt w (cfg6 (a6 m hR)).N
theorem W13_arr (hR : InRange m) (c : Dev nD) (w : Fin (cfg6 (a6 m hR)).W) :
    W13 m hR c (Proc.devRef .tc (Pipeline.arrRef spec6 w)) = (dat6 (V12 m hR) (a6 m hR) c).arrAt w (cfg6 (a6 m hR)).N := by
  unfold W13; exact Pipeline.withArrays_arr spec6 (launch6 (F := F)).win.arr_inj c _ _ w
theorem W13_of_ne (hR : InRange m) (c : Dev nD) (b : Ref sig .tc) (hb : ∀ w, Pipeline.arrRef spec6 w ≠ b) :
    W13 m hR c (Proc.devRef .tc b) = W12 m hR c (Proc.devRef .tc b) := by
  unfold W13; exact Pipeline.withArrays_of_ne spec6 c _ _ b hb
abbrev V13 (hR : InRange m) : (c : Dev nD) → (b : Ref sig .tc) → Buf (Elt F) ((c : Thread nD τ).loc b) := fun c b => W13 m hR c b
theorem hF6 (hR : InRange m) (c : Dev nD) (w : Fin (cfg6 (a6 m hR)).W) :
    (dat6 (V12 m hR) (a6 m hR) c).arrAt w (cfg6 (a6 m hR)).N = V13 m hR c (Pipeline.arrRef spec6 w) :=
  (W13_arr m hR c w).symm
theorem hrest6 (hR : InRange m) (c : Dev nD) : ∀ b, b ∉ Finset.univ.image (Pipeline.arrRef spec6) → V13 m hR c b = V12 m hR c b :=
  fun b hb => W13_of_ne m hR c b fun w e => hb (Finset.mem_image.mpr ⟨w, Finset.mem_univ _, e⟩)
/-- An input array of the gather call (a re-laid projection) is left as entered. -/
theorem W13_in (hR : InRange m) (c : Dev nD) (w : Fin (cfg6 (a6 m hR)).W) (hw : ((cfg6 (a6 m hR)).win w).isOut = false) :
    W13 m hR c (Proc.devRef .tc (Pipeline.arrRef spec6 w)) = W12 m hR c (Proc.devRef .tc (Pipeline.arrRef spec6 w)) :=
  (W13_arr m hR c w).trans (((dat6 (V12 m hR) (a6 m hR) c).arrAt_in w hw _).trans (A_eq6 (V12 m hR) (a6 m hR) c w))
theorem W13_arg0 (hR : InRange m) (c : Dev nD) : W13 m hR c main_arg0 = m ((c : Thread nD τ).loc main_arg0) := (W13_of_ne m hR c main_arg0 (by decide)).trans (W12_arg0 m hR c)
theorem W13_arg1 (hR : InRange m) (c : Dev nD) : W13 m hR c main_arg1 = m ((c : Thread nD τ).loc main_arg1) := (W13_of_ne m hR c main_arg1 (by decide)).trans (W12_arg1 m hR c)
theorem W13_arg2 (hR : InRange m) (c : Dev nD) : W13 m hR c main_arg2 = m ((c : Thread nD τ).loc main_arg2) := (W13_of_ne m hR c main_arg2 (by decide)).trans (W12_arg2 m hR c)
theorem W13_arg3 (hR : InRange m) (c : Dev nD) : W13 m hR c main_arg3 = m ((c : Thread nD τ).loc main_arg3) := (W13_of_ne m hR c main_arg3 (by decide)).trans (W12_arg3 m hR c)
theorem W13_arg4 (hR : InRange m) (c : Dev nD) : W13 m hR c main_arg4 = m ((c : Thread nD τ).loc main_arg4) := (W13_of_ne m hR c main_arg4 (by decide)).trans (W12_arg4 m hR c)

/-! ## Host stretch 7 and gather call 7 (items 13 and 14) -/

/-- After host stretch 7: gather call 7's entry. -/
abbrev W14 (hR : InRange m) : Dev nD → Valuation τ sig (Elt F) := fun c => StableHlo.after hostOps7 (W13 m hR c)
abbrev V14 (hR : InRange m) : (c : Dev nD) → (b : Ref sig .tc) → Buf (Elt F) ((c : Thread nD τ).loc b) := fun c b => W14 m hR c b
/-- The stretch leaves every buffer it does not write as it was. -/
theorem W14_of (hR : InRange m) (c : Dev nD) (r : Ref sig .tc) (h : r ∉ hostOps7_W) : W14 m hR c r = W13 m hR c r :=
  StableHlo.after_of_writes_sub hostOps7 _ hostOps7_writes h
theorem W14_arg0 (hR : InRange m) (c : Dev nD) : W14 m hR c main_arg0 = m ((c : Thread nD τ).loc main_arg0) := (W14_of m hR c main_arg0 (by decide)).trans (W13_arg0 m hR c)
theorem W14_arg1 (hR : InRange m) (c : Dev nD) : W14 m hR c main_arg1 = m ((c : Thread nD τ).loc main_arg1) := (W14_of m hR c main_arg1 (by decide)).trans (W13_arg1 m hR c)
theorem W14_arg2 (hR : InRange m) (c : Dev nD) : W14 m hR c main_arg2 = m ((c : Thread nD τ).loc main_arg2) := (W14_of m hR c main_arg2 (by decide)).trans (W13_arg2 m hR c)
theorem W14_arg3 (hR : InRange m) (c : Dev nD) : W14 m hR c main_arg3 = m ((c : Thread nD τ).loc main_arg3) := (W14_of m hR c main_arg3 (by decide)).trans (W13_arg3 m hR c)
theorem W14_arg4 (hR : InRange m) (c : Dev nD) : W14 m hR c main_arg4 = m ((c : Thread nD τ).loc main_arg4) := (W14_of m hR c main_arg4 (by decide)).trans (W13_arg4 m hR c)

/-- At gather call 7's exit: its three arrays at what the pipeline leaves, every other buffer as entered. -/
def W15 (hR : InRange m) (c : Dev nD) : Valuation τ sig (Elt F) :=
  Pipeline.withArrays spec7 c (W14 m hR c) fun w => (dat7 (V14 m hR) (a7 m hR) c).arrAt w (cfg7 (a7 m hR)).N
theorem W15_arr (hR : InRange m) (c : Dev nD) (w : Fin (cfg7 (a7 m hR)).W) :
    W15 m hR c (Proc.devRef .tc (Pipeline.arrRef spec7 w)) = (dat7 (V14 m hR) (a7 m hR) c).arrAt w (cfg7 (a7 m hR)).N := by
  unfold W15; exact Pipeline.withArrays_arr spec7 (launch7 (F := F)).win.arr_inj c _ _ w
theorem W15_of_ne (hR : InRange m) (c : Dev nD) (b : Ref sig .tc) (hb : ∀ w, Pipeline.arrRef spec7 w ≠ b) :
    W15 m hR c (Proc.devRef .tc b) = W14 m hR c (Proc.devRef .tc b) := by
  unfold W15; exact Pipeline.withArrays_of_ne spec7 c _ _ b hb
abbrev V15 (hR : InRange m) : (c : Dev nD) → (b : Ref sig .tc) → Buf (Elt F) ((c : Thread nD τ).loc b) := fun c b => W15 m hR c b
theorem hF7 (hR : InRange m) (c : Dev nD) (w : Fin (cfg7 (a7 m hR)).W) :
    (dat7 (V14 m hR) (a7 m hR) c).arrAt w (cfg7 (a7 m hR)).N = V15 m hR c (Pipeline.arrRef spec7 w) :=
  (W15_arr m hR c w).symm
theorem hrest7 (hR : InRange m) (c : Dev nD) : ∀ b, b ∉ Finset.univ.image (Pipeline.arrRef spec7) → V15 m hR c b = V14 m hR c b :=
  fun b hb => W15_of_ne m hR c b fun w e => hb (Finset.mem_image.mpr ⟨w, Finset.mem_univ _, e⟩)
/-- An input array of the gather call (a re-laid projection) is left as entered. -/
theorem W15_in (hR : InRange m) (c : Dev nD) (w : Fin (cfg7 (a7 m hR)).W) (hw : ((cfg7 (a7 m hR)).win w).isOut = false) :
    W15 m hR c (Proc.devRef .tc (Pipeline.arrRef spec7 w)) = W14 m hR c (Proc.devRef .tc (Pipeline.arrRef spec7 w)) :=
  (W15_arr m hR c w).trans (((dat7 (V14 m hR) (a7 m hR) c).arrAt_in w hw _).trans (A_eq7 (V14 m hR) (a7 m hR) c w))
theorem W15_arg0 (hR : InRange m) (c : Dev nD) : W15 m hR c main_arg0 = m ((c : Thread nD τ).loc main_arg0) := (W15_of_ne m hR c main_arg0 (by decide)).trans (W14_arg0 m hR c)
theorem W15_arg1 (hR : InRange m) (c : Dev nD) : W15 m hR c main_arg1 = m ((c : Thread nD τ).loc main_arg1) := (W15_of_ne m hR c main_arg1 (by decide)).trans (W14_arg1 m hR c)
theorem W15_arg2 (hR : InRange m) (c : Dev nD) : W15 m hR c main_arg2 = m ((c : Thread nD τ).loc main_arg2) := (W15_of_ne m hR c main_arg2 (by decide)).trans (W14_arg2 m hR c)
theorem W15_arg3 (hR : InRange m) (c : Dev nD) : W15 m hR c main_arg3 = m ((c : Thread nD τ).loc main_arg3) := (W15_of_ne m hR c main_arg3 (by decide)).trans (W14_arg3 m hR c)
theorem W15_arg4 (hR : InRange m) (c : Dev nD) : W15 m hR c main_arg4 = m ((c : Thread nD τ).loc main_arg4) := (W15_of_ne m hR c main_arg4 (by decide)).trans (W14_arg4 m hR c)

/-! ## Host stretch 8 and gather call 8 (items 15 and 16) -/

/-- After host stretch 8: gather call 8's entry. -/
abbrev W16 (hR : InRange m) : Dev nD → Valuation τ sig (Elt F) := fun c => StableHlo.after hostOps8 (W15 m hR c)
abbrev V16 (hR : InRange m) : (c : Dev nD) → (b : Ref sig .tc) → Buf (Elt F) ((c : Thread nD τ).loc b) := fun c b => W16 m hR c b
/-- The stretch leaves every buffer it does not write as it was. -/
theorem W16_of (hR : InRange m) (c : Dev nD) (r : Ref sig .tc) (h : r ∉ hostOps8_W) : W16 m hR c r = W15 m hR c r :=
  StableHlo.after_of_writes_sub hostOps8 _ hostOps8_writes h
theorem W16_arg0 (hR : InRange m) (c : Dev nD) : W16 m hR c main_arg0 = m ((c : Thread nD τ).loc main_arg0) := (W16_of m hR c main_arg0 (by decide)).trans (W15_arg0 m hR c)
theorem W16_arg1 (hR : InRange m) (c : Dev nD) : W16 m hR c main_arg1 = m ((c : Thread nD τ).loc main_arg1) := (W16_of m hR c main_arg1 (by decide)).trans (W15_arg1 m hR c)
theorem W16_arg2 (hR : InRange m) (c : Dev nD) : W16 m hR c main_arg2 = m ((c : Thread nD τ).loc main_arg2) := (W16_of m hR c main_arg2 (by decide)).trans (W15_arg2 m hR c)
theorem W16_arg3 (hR : InRange m) (c : Dev nD) : W16 m hR c main_arg3 = m ((c : Thread nD τ).loc main_arg3) := (W16_of m hR c main_arg3 (by decide)).trans (W15_arg3 m hR c)
theorem W16_arg4 (hR : InRange m) (c : Dev nD) : W16 m hR c main_arg4 = m ((c : Thread nD τ).loc main_arg4) := (W16_of m hR c main_arg4 (by decide)).trans (W15_arg4 m hR c)

/-- At gather call 8's exit: its three arrays at what the pipeline leaves, every other buffer as entered. -/
def W17 (hR : InRange m) (c : Dev nD) : Valuation τ sig (Elt F) :=
  Pipeline.withArrays spec8 c (W16 m hR c) fun w => (dat8 (V16 m hR) (a8 m hR) c).arrAt w (cfg8 (a8 m hR)).N
theorem W17_arr (hR : InRange m) (c : Dev nD) (w : Fin (cfg8 (a8 m hR)).W) :
    W17 m hR c (Proc.devRef .tc (Pipeline.arrRef spec8 w)) = (dat8 (V16 m hR) (a8 m hR) c).arrAt w (cfg8 (a8 m hR)).N := by
  unfold W17; exact Pipeline.withArrays_arr spec8 (launch8 (F := F)).win.arr_inj c _ _ w
theorem W17_of_ne (hR : InRange m) (c : Dev nD) (b : Ref sig .tc) (hb : ∀ w, Pipeline.arrRef spec8 w ≠ b) :
    W17 m hR c (Proc.devRef .tc b) = W16 m hR c (Proc.devRef .tc b) := by
  unfold W17; exact Pipeline.withArrays_of_ne spec8 c _ _ b hb
abbrev V17 (hR : InRange m) : (c : Dev nD) → (b : Ref sig .tc) → Buf (Elt F) ((c : Thread nD τ).loc b) := fun c b => W17 m hR c b
theorem hF8 (hR : InRange m) (c : Dev nD) (w : Fin (cfg8 (a8 m hR)).W) :
    (dat8 (V16 m hR) (a8 m hR) c).arrAt w (cfg8 (a8 m hR)).N = V17 m hR c (Pipeline.arrRef spec8 w) :=
  (W17_arr m hR c w).symm
theorem hrest8 (hR : InRange m) (c : Dev nD) : ∀ b, b ∉ Finset.univ.image (Pipeline.arrRef spec8) → V17 m hR c b = V16 m hR c b :=
  fun b hb => W17_of_ne m hR c b fun w e => hb (Finset.mem_image.mpr ⟨w, Finset.mem_univ _, e⟩)
/-- An input array of the gather call (a re-laid projection) is left as entered. -/
theorem W17_in (hR : InRange m) (c : Dev nD) (w : Fin (cfg8 (a8 m hR)).W) (hw : ((cfg8 (a8 m hR)).win w).isOut = false) :
    W17 m hR c (Proc.devRef .tc (Pipeline.arrRef spec8 w)) = W16 m hR c (Proc.devRef .tc (Pipeline.arrRef spec8 w)) :=
  (W17_arr m hR c w).trans (((dat8 (V16 m hR) (a8 m hR) c).arrAt_in w hw _).trans (A_eq8 (V16 m hR) (a8 m hR) c w))
theorem W17_arg0 (hR : InRange m) (c : Dev nD) : W17 m hR c main_arg0 = m ((c : Thread nD τ).loc main_arg0) := (W17_of_ne m hR c main_arg0 (by decide)).trans (W16_arg0 m hR c)
theorem W17_arg1 (hR : InRange m) (c : Dev nD) : W17 m hR c main_arg1 = m ((c : Thread nD τ).loc main_arg1) := (W17_of_ne m hR c main_arg1 (by decide)).trans (W16_arg1 m hR c)
theorem W17_arg2 (hR : InRange m) (c : Dev nD) : W17 m hR c main_arg2 = m ((c : Thread nD τ).loc main_arg2) := (W17_of_ne m hR c main_arg2 (by decide)).trans (W16_arg2 m hR c)
theorem W17_arg3 (hR : InRange m) (c : Dev nD) : W17 m hR c main_arg3 = m ((c : Thread nD τ).loc main_arg3) := (W17_of_ne m hR c main_arg3 (by decide)).trans (W16_arg3 m hR c)
theorem W17_arg4 (hR : InRange m) (c : Dev nD) : W17 m hR c main_arg4 = m ((c : Thread nD τ).loc main_arg4) := (W17_of_ne m hR c main_arg4 (by decide)).trans (W16_arg4 m hR c)

/-! ## Host stretch 9 and gather call 9 (items 17 and 18) -/

/-- After host stretch 9: gather call 9's entry. -/
abbrev W18 (hR : InRange m) : Dev nD → Valuation τ sig (Elt F) := fun c => StableHlo.after hostOps9 (W17 m hR c)
abbrev V18 (hR : InRange m) : (c : Dev nD) → (b : Ref sig .tc) → Buf (Elt F) ((c : Thread nD τ).loc b) := fun c b => W18 m hR c b
/-- The stretch leaves every buffer it does not write as it was. -/
theorem W18_of (hR : InRange m) (c : Dev nD) (r : Ref sig .tc) (h : r ∉ hostOps9_W) : W18 m hR c r = W17 m hR c r :=
  StableHlo.after_of_writes_sub hostOps9 _ hostOps9_writes h
theorem W18_arg0 (hR : InRange m) (c : Dev nD) : W18 m hR c main_arg0 = m ((c : Thread nD τ).loc main_arg0) := (W18_of m hR c main_arg0 (by decide)).trans (W17_arg0 m hR c)
theorem W18_arg1 (hR : InRange m) (c : Dev nD) : W18 m hR c main_arg1 = m ((c : Thread nD τ).loc main_arg1) := (W18_of m hR c main_arg1 (by decide)).trans (W17_arg1 m hR c)
theorem W18_arg2 (hR : InRange m) (c : Dev nD) : W18 m hR c main_arg2 = m ((c : Thread nD τ).loc main_arg2) := (W18_of m hR c main_arg2 (by decide)).trans (W17_arg2 m hR c)
theorem W18_arg3 (hR : InRange m) (c : Dev nD) : W18 m hR c main_arg3 = m ((c : Thread nD τ).loc main_arg3) := (W18_of m hR c main_arg3 (by decide)).trans (W17_arg3 m hR c)
theorem W18_arg4 (hR : InRange m) (c : Dev nD) : W18 m hR c main_arg4 = m ((c : Thread nD τ).loc main_arg4) := (W18_of m hR c main_arg4 (by decide)).trans (W17_arg4 m hR c)

/-- At gather call 9's exit: its three arrays at what the pipeline leaves, every other buffer as entered. -/
def W19 (hR : InRange m) (c : Dev nD) : Valuation τ sig (Elt F) :=
  Pipeline.withArrays spec9 c (W18 m hR c) fun w => (dat9 (V18 m hR) (a9 m hR) c).arrAt w (cfg9 (a9 m hR)).N
theorem W19_arr (hR : InRange m) (c : Dev nD) (w : Fin (cfg9 (a9 m hR)).W) :
    W19 m hR c (Proc.devRef .tc (Pipeline.arrRef spec9 w)) = (dat9 (V18 m hR) (a9 m hR) c).arrAt w (cfg9 (a9 m hR)).N := by
  unfold W19; exact Pipeline.withArrays_arr spec9 (launch9 (F := F)).win.arr_inj c _ _ w
theorem W19_of_ne (hR : InRange m) (c : Dev nD) (b : Ref sig .tc) (hb : ∀ w, Pipeline.arrRef spec9 w ≠ b) :
    W19 m hR c (Proc.devRef .tc b) = W18 m hR c (Proc.devRef .tc b) := by
  unfold W19; exact Pipeline.withArrays_of_ne spec9 c _ _ b hb
abbrev V19 (hR : InRange m) : (c : Dev nD) → (b : Ref sig .tc) → Buf (Elt F) ((c : Thread nD τ).loc b) := fun c b => W19 m hR c b
theorem hF9 (hR : InRange m) (c : Dev nD) (w : Fin (cfg9 (a9 m hR)).W) :
    (dat9 (V18 m hR) (a9 m hR) c).arrAt w (cfg9 (a9 m hR)).N = V19 m hR c (Pipeline.arrRef spec9 w) :=
  (W19_arr m hR c w).symm
theorem hrest9 (hR : InRange m) (c : Dev nD) : ∀ b, b ∉ Finset.univ.image (Pipeline.arrRef spec9) → V19 m hR c b = V18 m hR c b :=
  fun b hb => W19_of_ne m hR c b fun w e => hb (Finset.mem_image.mpr ⟨w, Finset.mem_univ _, e⟩)
/-- An input array of the gather call (a re-laid projection) is left as entered. -/
theorem W19_in (hR : InRange m) (c : Dev nD) (w : Fin (cfg9 (a9 m hR)).W) (hw : ((cfg9 (a9 m hR)).win w).isOut = false) :
    W19 m hR c (Proc.devRef .tc (Pipeline.arrRef spec9 w)) = W18 m hR c (Proc.devRef .tc (Pipeline.arrRef spec9 w)) :=
  (W19_arr m hR c w).trans (((dat9 (V18 m hR) (a9 m hR) c).arrAt_in w hw _).trans (A_eq9 (V18 m hR) (a9 m hR) c w))
theorem W19_arg0 (hR : InRange m) (c : Dev nD) : W19 m hR c main_arg0 = m ((c : Thread nD τ).loc main_arg0) := (W19_of_ne m hR c main_arg0 (by decide)).trans (W18_arg0 m hR c)
theorem W19_arg1 (hR : InRange m) (c : Dev nD) : W19 m hR c main_arg1 = m ((c : Thread nD τ).loc main_arg1) := (W19_of_ne m hR c main_arg1 (by decide)).trans (W18_arg1 m hR c)
theorem W19_arg2 (hR : InRange m) (c : Dev nD) : W19 m hR c main_arg2 = m ((c : Thread nD τ).loc main_arg2) := (W19_of_ne m hR c main_arg2 (by decide)).trans (W18_arg2 m hR c)
theorem W19_arg3 (hR : InRange m) (c : Dev nD) : W19 m hR c main_arg3 = m ((c : Thread nD τ).loc main_arg3) := (W19_of_ne m hR c main_arg3 (by decide)).trans (W18_arg3 m hR c)
theorem W19_arg4 (hR : InRange m) (c : Dev nD) : W19 m hR c main_arg4 = m ((c : Thread nD τ).loc main_arg4) := (W19_of_ne m hR c main_arg4 (by decide)).trans (W18_arg4 m hR c)

/-! ## Host stretch 10 and gather call 10 (items 19 and 20) -/

/-- After host stretch 10: gather call 10's entry. -/
abbrev W20 (hR : InRange m) : Dev nD → Valuation τ sig (Elt F) := fun c => StableHlo.after hostOps10 (W19 m hR c)
abbrev V20 (hR : InRange m) : (c : Dev nD) → (b : Ref sig .tc) → Buf (Elt F) ((c : Thread nD τ).loc b) := fun c b => W20 m hR c b
/-- The stretch leaves every buffer it does not write as it was. -/
theorem W20_of (hR : InRange m) (c : Dev nD) (r : Ref sig .tc) (h : r ∉ hostOps10_W) : W20 m hR c r = W19 m hR c r :=
  StableHlo.after_of_writes_sub hostOps10 _ hostOps10_writes h
theorem W20_arg0 (hR : InRange m) (c : Dev nD) : W20 m hR c main_arg0 = m ((c : Thread nD τ).loc main_arg0) := (W20_of m hR c main_arg0 (by decide)).trans (W19_arg0 m hR c)
theorem W20_arg1 (hR : InRange m) (c : Dev nD) : W20 m hR c main_arg1 = m ((c : Thread nD τ).loc main_arg1) := (W20_of m hR c main_arg1 (by decide)).trans (W19_arg1 m hR c)
theorem W20_arg2 (hR : InRange m) (c : Dev nD) : W20 m hR c main_arg2 = m ((c : Thread nD τ).loc main_arg2) := (W20_of m hR c main_arg2 (by decide)).trans (W19_arg2 m hR c)
theorem W20_arg3 (hR : InRange m) (c : Dev nD) : W20 m hR c main_arg3 = m ((c : Thread nD τ).loc main_arg3) := (W20_of m hR c main_arg3 (by decide)).trans (W19_arg3 m hR c)
theorem W20_arg4 (hR : InRange m) (c : Dev nD) : W20 m hR c main_arg4 = m ((c : Thread nD τ).loc main_arg4) := (W20_of m hR c main_arg4 (by decide)).trans (W19_arg4 m hR c)

/-- At gather call 10's exit: its three arrays at what the pipeline leaves, every other buffer as entered. -/
def W21 (hR : InRange m) (c : Dev nD) : Valuation τ sig (Elt F) :=
  Pipeline.withArrays spec10 c (W20 m hR c) fun w => (dat10 (V20 m hR) (a10 m hR) c).arrAt w (cfg10 (a10 m hR)).N
theorem W21_arr (hR : InRange m) (c : Dev nD) (w : Fin (cfg10 (a10 m hR)).W) :
    W21 m hR c (Proc.devRef .tc (Pipeline.arrRef spec10 w)) = (dat10 (V20 m hR) (a10 m hR) c).arrAt w (cfg10 (a10 m hR)).N := by
  unfold W21; exact Pipeline.withArrays_arr spec10 (launch10 (F := F)).win.arr_inj c _ _ w
theorem W21_of_ne (hR : InRange m) (c : Dev nD) (b : Ref sig .tc) (hb : ∀ w, Pipeline.arrRef spec10 w ≠ b) :
    W21 m hR c (Proc.devRef .tc b) = W20 m hR c (Proc.devRef .tc b) := by
  unfold W21; exact Pipeline.withArrays_of_ne spec10 c _ _ b hb
abbrev V21 (hR : InRange m) : (c : Dev nD) → (b : Ref sig .tc) → Buf (Elt F) ((c : Thread nD τ).loc b) := fun c b => W21 m hR c b
theorem hF10 (hR : InRange m) (c : Dev nD) (w : Fin (cfg10 (a10 m hR)).W) :
    (dat10 (V20 m hR) (a10 m hR) c).arrAt w (cfg10 (a10 m hR)).N = V21 m hR c (Pipeline.arrRef spec10 w) :=
  (W21_arr m hR c w).symm
theorem hrest10 (hR : InRange m) (c : Dev nD) : ∀ b, b ∉ Finset.univ.image (Pipeline.arrRef spec10) → V21 m hR c b = V20 m hR c b :=
  fun b hb => W21_of_ne m hR c b fun w e => hb (Finset.mem_image.mpr ⟨w, Finset.mem_univ _, e⟩)
/-- An input array of the gather call (a re-laid projection) is left as entered. -/
theorem W21_in (hR : InRange m) (c : Dev nD) (w : Fin (cfg10 (a10 m hR)).W) (hw : ((cfg10 (a10 m hR)).win w).isOut = false) :
    W21 m hR c (Proc.devRef .tc (Pipeline.arrRef spec10 w)) = W20 m hR c (Proc.devRef .tc (Pipeline.arrRef spec10 w)) :=
  (W21_arr m hR c w).trans (((dat10 (V20 m hR) (a10 m hR) c).arrAt_in w hw _).trans (A_eq10 (V20 m hR) (a10 m hR) c w))
theorem W21_arg0 (hR : InRange m) (c : Dev nD) : W21 m hR c main_arg0 = m ((c : Thread nD τ).loc main_arg0) := (W21_of_ne m hR c main_arg0 (by decide)).trans (W20_arg0 m hR c)
theorem W21_arg1 (hR : InRange m) (c : Dev nD) : W21 m hR c main_arg1 = m ((c : Thread nD τ).loc main_arg1) := (W21_of_ne m hR c main_arg1 (by decide)).trans (W20_arg1 m hR c)
theorem W21_arg2 (hR : InRange m) (c : Dev nD) : W21 m hR c main_arg2 = m ((c : Thread nD τ).loc main_arg2) := (W21_of_ne m hR c main_arg2 (by decide)).trans (W20_arg2 m hR c)
theorem W21_arg3 (hR : InRange m) (c : Dev nD) : W21 m hR c main_arg3 = m ((c : Thread nD τ).loc main_arg3) := (W21_of_ne m hR c main_arg3 (by decide)).trans (W20_arg3 m hR c)
theorem W21_arg4 (hR : InRange m) (c : Dev nD) : W21 m hR c main_arg4 = m ((c : Thread nD τ).loc main_arg4) := (W21_of_ne m hR c main_arg4 (by decide)).trans (W20_arg4 m hR c)

/-! ## Host stretch 11 and gather call 11 (items 21 and 22) -/

/-- After host stretch 11: gather call 11's entry. -/
abbrev W22 (hR : InRange m) : Dev nD → Valuation τ sig (Elt F) := fun c => StableHlo.after hostOps11 (W21 m hR c)
abbrev V22 (hR : InRange m) : (c : Dev nD) → (b : Ref sig .tc) → Buf (Elt F) ((c : Thread nD τ).loc b) := fun c b => W22 m hR c b
/-- The stretch leaves every buffer it does not write as it was. -/
theorem W22_of (hR : InRange m) (c : Dev nD) (r : Ref sig .tc) (h : r ∉ hostOps11_W) : W22 m hR c r = W21 m hR c r :=
  StableHlo.after_of_writes_sub hostOps11 _ hostOps11_writes h
theorem W22_arg0 (hR : InRange m) (c : Dev nD) : W22 m hR c main_arg0 = m ((c : Thread nD τ).loc main_arg0) := (W22_of m hR c main_arg0 (by decide)).trans (W21_arg0 m hR c)
theorem W22_arg1 (hR : InRange m) (c : Dev nD) : W22 m hR c main_arg1 = m ((c : Thread nD τ).loc main_arg1) := (W22_of m hR c main_arg1 (by decide)).trans (W21_arg1 m hR c)
theorem W22_arg2 (hR : InRange m) (c : Dev nD) : W22 m hR c main_arg2 = m ((c : Thread nD τ).loc main_arg2) := (W22_of m hR c main_arg2 (by decide)).trans (W21_arg2 m hR c)
theorem W22_arg3 (hR : InRange m) (c : Dev nD) : W22 m hR c main_arg3 = m ((c : Thread nD τ).loc main_arg3) := (W22_of m hR c main_arg3 (by decide)).trans (W21_arg3 m hR c)
theorem W22_arg4 (hR : InRange m) (c : Dev nD) : W22 m hR c main_arg4 = m ((c : Thread nD τ).loc main_arg4) := (W22_of m hR c main_arg4 (by decide)).trans (W21_arg4 m hR c)

/-- At gather call 11's exit: its three arrays at what the pipeline leaves, every other buffer as entered. -/
def W23 (hR : InRange m) (c : Dev nD) : Valuation τ sig (Elt F) :=
  Pipeline.withArrays spec11 c (W22 m hR c) fun w => (dat11 (V22 m hR) (a11 m hR) c).arrAt w (cfg11 (a11 m hR)).N
theorem W23_arr (hR : InRange m) (c : Dev nD) (w : Fin (cfg11 (a11 m hR)).W) :
    W23 m hR c (Proc.devRef .tc (Pipeline.arrRef spec11 w)) = (dat11 (V22 m hR) (a11 m hR) c).arrAt w (cfg11 (a11 m hR)).N := by
  unfold W23; exact Pipeline.withArrays_arr spec11 (launch11 (F := F)).win.arr_inj c _ _ w
theorem W23_of_ne (hR : InRange m) (c : Dev nD) (b : Ref sig .tc) (hb : ∀ w, Pipeline.arrRef spec11 w ≠ b) :
    W23 m hR c (Proc.devRef .tc b) = W22 m hR c (Proc.devRef .tc b) := by
  unfold W23; exact Pipeline.withArrays_of_ne spec11 c _ _ b hb
abbrev V23 (hR : InRange m) : (c : Dev nD) → (b : Ref sig .tc) → Buf (Elt F) ((c : Thread nD τ).loc b) := fun c b => W23 m hR c b
theorem hF11 (hR : InRange m) (c : Dev nD) (w : Fin (cfg11 (a11 m hR)).W) :
    (dat11 (V22 m hR) (a11 m hR) c).arrAt w (cfg11 (a11 m hR)).N = V23 m hR c (Pipeline.arrRef spec11 w) :=
  (W23_arr m hR c w).symm
theorem hrest11 (hR : InRange m) (c : Dev nD) : ∀ b, b ∉ Finset.univ.image (Pipeline.arrRef spec11) → V23 m hR c b = V22 m hR c b :=
  fun b hb => W23_of_ne m hR c b fun w e => hb (Finset.mem_image.mpr ⟨w, Finset.mem_univ _, e⟩)
/-- An input array of the gather call (a re-laid projection) is left as entered. -/
theorem W23_in (hR : InRange m) (c : Dev nD) (w : Fin (cfg11 (a11 m hR)).W) (hw : ((cfg11 (a11 m hR)).win w).isOut = false) :
    W23 m hR c (Proc.devRef .tc (Pipeline.arrRef spec11 w)) = W22 m hR c (Proc.devRef .tc (Pipeline.arrRef spec11 w)) :=
  (W23_arr m hR c w).trans (((dat11 (V22 m hR) (a11 m hR) c).arrAt_in w hw _).trans (A_eq11 (V22 m hR) (a11 m hR) c w))
theorem W23_arg0 (hR : InRange m) (c : Dev nD) : W23 m hR c main_arg0 = m ((c : Thread nD τ).loc main_arg0) := (W23_of_ne m hR c main_arg0 (by decide)).trans (W22_arg0 m hR c)
theorem W23_arg1 (hR : InRange m) (c : Dev nD) : W23 m hR c main_arg1 = m ((c : Thread nD τ).loc main_arg1) := (W23_of_ne m hR c main_arg1 (by decide)).trans (W22_arg1 m hR c)
theorem W23_arg2 (hR : InRange m) (c : Dev nD) : W23 m hR c main_arg2 = m ((c : Thread nD τ).loc main_arg2) := (W23_of_ne m hR c main_arg2 (by decide)).trans (W22_arg2 m hR c)
theorem W23_arg3 (hR : InRange m) (c : Dev nD) : W23 m hR c main_arg3 = m ((c : Thread nD τ).loc main_arg3) := (W23_of_ne m hR c main_arg3 (by decide)).trans (W22_arg3 m hR c)
theorem W23_arg4 (hR : InRange m) (c : Dev nD) : W23 m hR c main_arg4 = m ((c : Thread nD τ).loc main_arg4) := (W23_of_ne m hR c main_arg4 (by decide)).trans (W22_arg4 m hR c)

/-! ## Host stretch 12 and gather call 12 (items 23 and 24) -/

/-- After host stretch 12: gather call 12's entry. -/
abbrev W24 (hR : InRange m) : Dev nD → Valuation τ sig (Elt F) := fun c => StableHlo.after hostOps12 (W23 m hR c)
abbrev V24 (hR : InRange m) : (c : Dev nD) → (b : Ref sig .tc) → Buf (Elt F) ((c : Thread nD τ).loc b) := fun c b => W24 m hR c b
/-- The stretch leaves every buffer it does not write as it was. -/
theorem W24_of (hR : InRange m) (c : Dev nD) (r : Ref sig .tc) (h : r ∉ hostOps12_W) : W24 m hR c r = W23 m hR c r :=
  StableHlo.after_of_writes_sub hostOps12 _ hostOps12_writes h
theorem W24_arg0 (hR : InRange m) (c : Dev nD) : W24 m hR c main_arg0 = m ((c : Thread nD τ).loc main_arg0) := (W24_of m hR c main_arg0 (by decide)).trans (W23_arg0 m hR c)
theorem W24_arg1 (hR : InRange m) (c : Dev nD) : W24 m hR c main_arg1 = m ((c : Thread nD τ).loc main_arg1) := (W24_of m hR c main_arg1 (by decide)).trans (W23_arg1 m hR c)
theorem W24_arg2 (hR : InRange m) (c : Dev nD) : W24 m hR c main_arg2 = m ((c : Thread nD τ).loc main_arg2) := (W24_of m hR c main_arg2 (by decide)).trans (W23_arg2 m hR c)
theorem W24_arg3 (hR : InRange m) (c : Dev nD) : W24 m hR c main_arg3 = m ((c : Thread nD τ).loc main_arg3) := (W24_of m hR c main_arg3 (by decide)).trans (W23_arg3 m hR c)
theorem W24_arg4 (hR : InRange m) (c : Dev nD) : W24 m hR c main_arg4 = m ((c : Thread nD τ).loc main_arg4) := (W24_of m hR c main_arg4 (by decide)).trans (W23_arg4 m hR c)

/-- At gather call 12's exit: its three arrays at what the pipeline leaves, every other buffer as entered. -/
def W25 (hR : InRange m) (c : Dev nD) : Valuation τ sig (Elt F) :=
  Pipeline.withArrays spec12 c (W24 m hR c) fun w => (dat12 (V24 m hR) (a12 m hR) c).arrAt w (cfg12 (a12 m hR)).N
theorem W25_arr (hR : InRange m) (c : Dev nD) (w : Fin (cfg12 (a12 m hR)).W) :
    W25 m hR c (Proc.devRef .tc (Pipeline.arrRef spec12 w)) = (dat12 (V24 m hR) (a12 m hR) c).arrAt w (cfg12 (a12 m hR)).N := by
  unfold W25; exact Pipeline.withArrays_arr spec12 (launch12 (F := F)).win.arr_inj c _ _ w
theorem W25_of_ne (hR : InRange m) (c : Dev nD) (b : Ref sig .tc) (hb : ∀ w, Pipeline.arrRef spec12 w ≠ b) :
    W25 m hR c (Proc.devRef .tc b) = W24 m hR c (Proc.devRef .tc b) := by
  unfold W25; exact Pipeline.withArrays_of_ne spec12 c _ _ b hb
abbrev V25 (hR : InRange m) : (c : Dev nD) → (b : Ref sig .tc) → Buf (Elt F) ((c : Thread nD τ).loc b) := fun c b => W25 m hR c b
theorem hF12 (hR : InRange m) (c : Dev nD) (w : Fin (cfg12 (a12 m hR)).W) :
    (dat12 (V24 m hR) (a12 m hR) c).arrAt w (cfg12 (a12 m hR)).N = V25 m hR c (Pipeline.arrRef spec12 w) :=
  (W25_arr m hR c w).symm
theorem hrest12 (hR : InRange m) (c : Dev nD) : ∀ b, b ∉ Finset.univ.image (Pipeline.arrRef spec12) → V25 m hR c b = V24 m hR c b :=
  fun b hb => W25_of_ne m hR c b fun w e => hb (Finset.mem_image.mpr ⟨w, Finset.mem_univ _, e⟩)
/-- An input array of the gather call (a re-laid projection) is left as entered. -/
theorem W25_in (hR : InRange m) (c : Dev nD) (w : Fin (cfg12 (a12 m hR)).W) (hw : ((cfg12 (a12 m hR)).win w).isOut = false) :
    W25 m hR c (Proc.devRef .tc (Pipeline.arrRef spec12 w)) = W24 m hR c (Proc.devRef .tc (Pipeline.arrRef spec12 w)) :=
  (W25_arr m hR c w).trans (((dat12 (V24 m hR) (a12 m hR) c).arrAt_in w hw _).trans (A_eq12 (V24 m hR) (a12 m hR) c w))
theorem W25_arg0 (hR : InRange m) (c : Dev nD) : W25 m hR c main_arg0 = m ((c : Thread nD τ).loc main_arg0) := (W25_of_ne m hR c main_arg0 (by decide)).trans (W24_arg0 m hR c)
theorem W25_arg1 (hR : InRange m) (c : Dev nD) : W25 m hR c main_arg1 = m ((c : Thread nD τ).loc main_arg1) := (W25_of_ne m hR c main_arg1 (by decide)).trans (W24_arg1 m hR c)
theorem W25_arg2 (hR : InRange m) (c : Dev nD) : W25 m hR c main_arg2 = m ((c : Thread nD τ).loc main_arg2) := (W25_of_ne m hR c main_arg2 (by decide)).trans (W24_arg2 m hR c)
theorem W25_arg3 (hR : InRange m) (c : Dev nD) : W25 m hR c main_arg3 = m ((c : Thread nD τ).loc main_arg3) := (W25_of_ne m hR c main_arg3 (by decide)).trans (W24_arg3 m hR c)
theorem W25_arg4 (hR : InRange m) (c : Dev nD) : W25 m hR c main_arg4 = m ((c : Thread nD τ).loc main_arg4) := (W25_of_ne m hR c main_arg4 (by decide)).trans (W24_arg4 m hR c)

/-! ## Host stretch 13 and gather call 13 (items 25 and 26) -/

/-- After host stretch 13: gather call 13's entry. -/
abbrev W26 (hR : InRange m) : Dev nD → Valuation τ sig (Elt F) := fun c => StableHlo.after hostOps13 (W25 m hR c)
abbrev V26 (hR : InRange m) : (c : Dev nD) → (b : Ref sig .tc) → Buf (Elt F) ((c : Thread nD τ).loc b) := fun c b => W26 m hR c b
/-- The stretch leaves every buffer it does not write as it was. -/
theorem W26_of (hR : InRange m) (c : Dev nD) (r : Ref sig .tc) (h : r ∉ hostOps13_W) : W26 m hR c r = W25 m hR c r :=
  StableHlo.after_of_writes_sub hostOps13 _ hostOps13_writes h
theorem W26_arg0 (hR : InRange m) (c : Dev nD) : W26 m hR c main_arg0 = m ((c : Thread nD τ).loc main_arg0) := (W26_of m hR c main_arg0 (by decide)).trans (W25_arg0 m hR c)
theorem W26_arg1 (hR : InRange m) (c : Dev nD) : W26 m hR c main_arg1 = m ((c : Thread nD τ).loc main_arg1) := (W26_of m hR c main_arg1 (by decide)).trans (W25_arg1 m hR c)
theorem W26_arg2 (hR : InRange m) (c : Dev nD) : W26 m hR c main_arg2 = m ((c : Thread nD τ).loc main_arg2) := (W26_of m hR c main_arg2 (by decide)).trans (W25_arg2 m hR c)
theorem W26_arg3 (hR : InRange m) (c : Dev nD) : W26 m hR c main_arg3 = m ((c : Thread nD τ).loc main_arg3) := (W26_of m hR c main_arg3 (by decide)).trans (W25_arg3 m hR c)
theorem W26_arg4 (hR : InRange m) (c : Dev nD) : W26 m hR c main_arg4 = m ((c : Thread nD τ).loc main_arg4) := (W26_of m hR c main_arg4 (by decide)).trans (W25_arg4 m hR c)

/-- At gather call 13's exit: its three arrays at what the pipeline leaves, every other buffer as entered. -/
def W27 (hR : InRange m) (c : Dev nD) : Valuation τ sig (Elt F) :=
  Pipeline.withArrays spec13 c (W26 m hR c) fun w => (dat13 (V26 m hR) (a13 m hR) c).arrAt w (cfg13 (a13 m hR)).N
theorem W27_arr (hR : InRange m) (c : Dev nD) (w : Fin (cfg13 (a13 m hR)).W) :
    W27 m hR c (Proc.devRef .tc (Pipeline.arrRef spec13 w)) = (dat13 (V26 m hR) (a13 m hR) c).arrAt w (cfg13 (a13 m hR)).N := by
  unfold W27; exact Pipeline.withArrays_arr spec13 (launch13 (F := F)).win.arr_inj c _ _ w
theorem W27_of_ne (hR : InRange m) (c : Dev nD) (b : Ref sig .tc) (hb : ∀ w, Pipeline.arrRef spec13 w ≠ b) :
    W27 m hR c (Proc.devRef .tc b) = W26 m hR c (Proc.devRef .tc b) := by
  unfold W27; exact Pipeline.withArrays_of_ne spec13 c _ _ b hb
abbrev V27 (hR : InRange m) : (c : Dev nD) → (b : Ref sig .tc) → Buf (Elt F) ((c : Thread nD τ).loc b) := fun c b => W27 m hR c b
theorem hF13 (hR : InRange m) (c : Dev nD) (w : Fin (cfg13 (a13 m hR)).W) :
    (dat13 (V26 m hR) (a13 m hR) c).arrAt w (cfg13 (a13 m hR)).N = V27 m hR c (Pipeline.arrRef spec13 w) :=
  (W27_arr m hR c w).symm
theorem hrest13 (hR : InRange m) (c : Dev nD) : ∀ b, b ∉ Finset.univ.image (Pipeline.arrRef spec13) → V27 m hR c b = V26 m hR c b :=
  fun b hb => W27_of_ne m hR c b fun w e => hb (Finset.mem_image.mpr ⟨w, Finset.mem_univ _, e⟩)
/-- An input array of the gather call (a re-laid projection) is left as entered. -/
theorem W27_in (hR : InRange m) (c : Dev nD) (w : Fin (cfg13 (a13 m hR)).W) (hw : ((cfg13 (a13 m hR)).win w).isOut = false) :
    W27 m hR c (Proc.devRef .tc (Pipeline.arrRef spec13 w)) = W26 m hR c (Proc.devRef .tc (Pipeline.arrRef spec13 w)) :=
  (W27_arr m hR c w).trans (((dat13 (V26 m hR) (a13 m hR) c).arrAt_in w hw _).trans (A_eq13 (V26 m hR) (a13 m hR) c w))
theorem W27_arg0 (hR : InRange m) (c : Dev nD) : W27 m hR c main_arg0 = m ((c : Thread nD τ).loc main_arg0) := (W27_of_ne m hR c main_arg0 (by decide)).trans (W26_arg0 m hR c)
theorem W27_arg1 (hR : InRange m) (c : Dev nD) : W27 m hR c main_arg1 = m ((c : Thread nD τ).loc main_arg1) := (W27_of_ne m hR c main_arg1 (by decide)).trans (W26_arg1 m hR c)
theorem W27_arg2 (hR : InRange m) (c : Dev nD) : W27 m hR c main_arg2 = m ((c : Thread nD τ).loc main_arg2) := (W27_of_ne m hR c main_arg2 (by decide)).trans (W26_arg2 m hR c)
theorem W27_arg3 (hR : InRange m) (c : Dev nD) : W27 m hR c main_arg3 = m ((c : Thread nD τ).loc main_arg3) := (W27_of_ne m hR c main_arg3 (by decide)).trans (W26_arg3 m hR c)
theorem W27_arg4 (hR : InRange m) (c : Dev nD) : W27 m hR c main_arg4 = m ((c : Thread nD τ).loc main_arg4) := (W27_of_ne m hR c main_arg4 (by decide)).trans (W26_arg4 m hR c)

/-! ## Host stretch 14 and gather call 14 (items 27 and 28) -/

/-- After host stretch 14: gather call 14's entry. -/
abbrev W28 (hR : InRange m) : Dev nD → Valuation τ sig (Elt F) := fun c => StableHlo.after hostOps14 (W27 m hR c)
abbrev V28 (hR : InRange m) : (c : Dev nD) → (b : Ref sig .tc) → Buf (Elt F) ((c : Thread nD τ).loc b) := fun c b => W28 m hR c b
/-- The stretch leaves every buffer it does not write as it was. -/
theorem W28_of (hR : InRange m) (c : Dev nD) (r : Ref sig .tc) (h : r ∉ hostOps14_W) : W28 m hR c r = W27 m hR c r :=
  StableHlo.after_of_writes_sub hostOps14 _ hostOps14_writes h
theorem W28_arg0 (hR : InRange m) (c : Dev nD) : W28 m hR c main_arg0 = m ((c : Thread nD τ).loc main_arg0) := (W28_of m hR c main_arg0 (by decide)).trans (W27_arg0 m hR c)
theorem W28_arg1 (hR : InRange m) (c : Dev nD) : W28 m hR c main_arg1 = m ((c : Thread nD τ).loc main_arg1) := (W28_of m hR c main_arg1 (by decide)).trans (W27_arg1 m hR c)
theorem W28_arg2 (hR : InRange m) (c : Dev nD) : W28 m hR c main_arg2 = m ((c : Thread nD τ).loc main_arg2) := (W28_of m hR c main_arg2 (by decide)).trans (W27_arg2 m hR c)
theorem W28_arg3 (hR : InRange m) (c : Dev nD) : W28 m hR c main_arg3 = m ((c : Thread nD τ).loc main_arg3) := (W28_of m hR c main_arg3 (by decide)).trans (W27_arg3 m hR c)
theorem W28_arg4 (hR : InRange m) (c : Dev nD) : W28 m hR c main_arg4 = m ((c : Thread nD τ).loc main_arg4) := (W28_of m hR c main_arg4 (by decide)).trans (W27_arg4 m hR c)

/-- At gather call 14's exit: its three arrays at what the pipeline leaves, every other buffer as entered. -/
def W29 (hR : InRange m) (c : Dev nD) : Valuation τ sig (Elt F) :=
  Pipeline.withArrays spec14 c (W28 m hR c) fun w => (dat14 (V28 m hR) (a14 m hR) c).arrAt w (cfg14 (a14 m hR)).N
theorem W29_arr (hR : InRange m) (c : Dev nD) (w : Fin (cfg14 (a14 m hR)).W) :
    W29 m hR c (Proc.devRef .tc (Pipeline.arrRef spec14 w)) = (dat14 (V28 m hR) (a14 m hR) c).arrAt w (cfg14 (a14 m hR)).N := by
  unfold W29; exact Pipeline.withArrays_arr spec14 (launch14 (F := F)).win.arr_inj c _ _ w
theorem W29_of_ne (hR : InRange m) (c : Dev nD) (b : Ref sig .tc) (hb : ∀ w, Pipeline.arrRef spec14 w ≠ b) :
    W29 m hR c (Proc.devRef .tc b) = W28 m hR c (Proc.devRef .tc b) := by
  unfold W29; exact Pipeline.withArrays_of_ne spec14 c _ _ b hb
abbrev V29 (hR : InRange m) : (c : Dev nD) → (b : Ref sig .tc) → Buf (Elt F) ((c : Thread nD τ).loc b) := fun c b => W29 m hR c b
theorem hF14 (hR : InRange m) (c : Dev nD) (w : Fin (cfg14 (a14 m hR)).W) :
    (dat14 (V28 m hR) (a14 m hR) c).arrAt w (cfg14 (a14 m hR)).N = V29 m hR c (Pipeline.arrRef spec14 w) :=
  (W29_arr m hR c w).symm
theorem hrest14 (hR : InRange m) (c : Dev nD) : ∀ b, b ∉ Finset.univ.image (Pipeline.arrRef spec14) → V29 m hR c b = V28 m hR c b :=
  fun b hb => W29_of_ne m hR c b fun w e => hb (Finset.mem_image.mpr ⟨w, Finset.mem_univ _, e⟩)
/-- An input array of the gather call (a re-laid projection) is left as entered. -/
theorem W29_in (hR : InRange m) (c : Dev nD) (w : Fin (cfg14 (a14 m hR)).W) (hw : ((cfg14 (a14 m hR)).win w).isOut = false) :
    W29 m hR c (Proc.devRef .tc (Pipeline.arrRef spec14 w)) = W28 m hR c (Proc.devRef .tc (Pipeline.arrRef spec14 w)) :=
  (W29_arr m hR c w).trans (((dat14 (V28 m hR) (a14 m hR) c).arrAt_in w hw _).trans (A_eq14 (V28 m hR) (a14 m hR) c w))
theorem W29_arg0 (hR : InRange m) (c : Dev nD) : W29 m hR c main_arg0 = m ((c : Thread nD τ).loc main_arg0) := (W29_of_ne m hR c main_arg0 (by decide)).trans (W28_arg0 m hR c)
theorem W29_arg1 (hR : InRange m) (c : Dev nD) : W29 m hR c main_arg1 = m ((c : Thread nD τ).loc main_arg1) := (W29_of_ne m hR c main_arg1 (by decide)).trans (W28_arg1 m hR c)
theorem W29_arg2 (hR : InRange m) (c : Dev nD) : W29 m hR c main_arg2 = m ((c : Thread nD τ).loc main_arg2) := (W29_of_ne m hR c main_arg2 (by decide)).trans (W28_arg2 m hR c)
theorem W29_arg3 (hR : InRange m) (c : Dev nD) : W29 m hR c main_arg3 = m ((c : Thread nD τ).loc main_arg3) := (W29_of_ne m hR c main_arg3 (by decide)).trans (W28_arg3 m hR c)
theorem W29_arg4 (hR : InRange m) (c : Dev nD) : W29 m hR c main_arg4 = m ((c : Thread nD τ).loc main_arg4) := (W29_of_ne m hR c main_arg4 (by decide)).trans (W28_arg4 m hR c)

/-! ## Host stretch 15 and gather call 15 (items 29 and 30) -/

/-- After host stretch 15: gather call 15's entry. -/
abbrev W30 (hR : InRange m) : Dev nD → Valuation τ sig (Elt F) := fun c => StableHlo.after hostOps15 (W29 m hR c)
abbrev V30 (hR : InRange m) : (c : Dev nD) → (b : Ref sig .tc) → Buf (Elt F) ((c : Thread nD τ).loc b) := fun c b => W30 m hR c b
/-- The stretch leaves every buffer it does not write as it was. -/
theorem W30_of (hR : InRange m) (c : Dev nD) (r : Ref sig .tc) (h : r ∉ hostOps15_W) : W30 m hR c r = W29 m hR c r :=
  StableHlo.after_of_writes_sub hostOps15 _ hostOps15_writes h
theorem W30_arg0 (hR : InRange m) (c : Dev nD) : W30 m hR c main_arg0 = m ((c : Thread nD τ).loc main_arg0) := (W30_of m hR c main_arg0 (by decide)).trans (W29_arg0 m hR c)
theorem W30_arg1 (hR : InRange m) (c : Dev nD) : W30 m hR c main_arg1 = m ((c : Thread nD τ).loc main_arg1) := (W30_of m hR c main_arg1 (by decide)).trans (W29_arg1 m hR c)
theorem W30_arg2 (hR : InRange m) (c : Dev nD) : W30 m hR c main_arg2 = m ((c : Thread nD τ).loc main_arg2) := (W30_of m hR c main_arg2 (by decide)).trans (W29_arg2 m hR c)
theorem W30_arg3 (hR : InRange m) (c : Dev nD) : W30 m hR c main_arg3 = m ((c : Thread nD τ).loc main_arg3) := (W30_of m hR c main_arg3 (by decide)).trans (W29_arg3 m hR c)
theorem W30_arg4 (hR : InRange m) (c : Dev nD) : W30 m hR c main_arg4 = m ((c : Thread nD τ).loc main_arg4) := (W30_of m hR c main_arg4 (by decide)).trans (W29_arg4 m hR c)

/-- At gather call 15's exit: its three arrays at what the pipeline leaves, every other buffer as entered. -/
def W31 (hR : InRange m) (c : Dev nD) : Valuation τ sig (Elt F) :=
  Pipeline.withArrays spec15 c (W30 m hR c) fun w => (dat15 (V30 m hR) (a15 m hR) c).arrAt w (cfg15 (a15 m hR)).N
theorem W31_arr (hR : InRange m) (c : Dev nD) (w : Fin (cfg15 (a15 m hR)).W) :
    W31 m hR c (Proc.devRef .tc (Pipeline.arrRef spec15 w)) = (dat15 (V30 m hR) (a15 m hR) c).arrAt w (cfg15 (a15 m hR)).N := by
  unfold W31; exact Pipeline.withArrays_arr spec15 (launch15 (F := F)).win.arr_inj c _ _ w
theorem W31_of_ne (hR : InRange m) (c : Dev nD) (b : Ref sig .tc) (hb : ∀ w, Pipeline.arrRef spec15 w ≠ b) :
    W31 m hR c (Proc.devRef .tc b) = W30 m hR c (Proc.devRef .tc b) := by
  unfold W31; exact Pipeline.withArrays_of_ne spec15 c _ _ b hb
abbrev V31 (hR : InRange m) : (c : Dev nD) → (b : Ref sig .tc) → Buf (Elt F) ((c : Thread nD τ).loc b) := fun c b => W31 m hR c b
theorem hF15 (hR : InRange m) (c : Dev nD) (w : Fin (cfg15 (a15 m hR)).W) :
    (dat15 (V30 m hR) (a15 m hR) c).arrAt w (cfg15 (a15 m hR)).N = V31 m hR c (Pipeline.arrRef spec15 w) :=
  (W31_arr m hR c w).symm
theorem hrest15 (hR : InRange m) (c : Dev nD) : ∀ b, b ∉ Finset.univ.image (Pipeline.arrRef spec15) → V31 m hR c b = V30 m hR c b :=
  fun b hb => W31_of_ne m hR c b fun w e => hb (Finset.mem_image.mpr ⟨w, Finset.mem_univ _, e⟩)
/-- An input array of the gather call (a re-laid projection) is left as entered. -/
theorem W31_in (hR : InRange m) (c : Dev nD) (w : Fin (cfg15 (a15 m hR)).W) (hw : ((cfg15 (a15 m hR)).win w).isOut = false) :
    W31 m hR c (Proc.devRef .tc (Pipeline.arrRef spec15 w)) = W30 m hR c (Proc.devRef .tc (Pipeline.arrRef spec15 w)) :=
  (W31_arr m hR c w).trans (((dat15 (V30 m hR) (a15 m hR) c).arrAt_in w hw _).trans (A_eq15 (V30 m hR) (a15 m hR) c w))
theorem W31_arg0 (hR : InRange m) (c : Dev nD) : W31 m hR c main_arg0 = m ((c : Thread nD τ).loc main_arg0) := (W31_of_ne m hR c main_arg0 (by decide)).trans (W30_arg0 m hR c)
theorem W31_arg1 (hR : InRange m) (c : Dev nD) : W31 m hR c main_arg1 = m ((c : Thread nD τ).loc main_arg1) := (W31_of_ne m hR c main_arg1 (by decide)).trans (W30_arg1 m hR c)
theorem W31_arg2 (hR : InRange m) (c : Dev nD) : W31 m hR c main_arg2 = m ((c : Thread nD τ).loc main_arg2) := (W31_of_ne m hR c main_arg2 (by decide)).trans (W30_arg2 m hR c)
theorem W31_arg3 (hR : InRange m) (c : Dev nD) : W31 m hR c main_arg3 = m ((c : Thread nD τ).loc main_arg3) := (W31_of_ne m hR c main_arg3 (by decide)).trans (W30_arg3 m hR c)
theorem W31_arg4 (hR : InRange m) (c : Dev nD) : W31 m hR c main_arg4 = m ((c : Thread nD τ).loc main_arg4) := (W31_of_ne m hR c main_arg4 (by decide)).trans (W30_arg4 m hR c)

/-! ## Host stretch 16 and gather call 16 (items 31 and 32) -/

/-- After host stretch 16: gather call 16's entry. -/
abbrev W32 (hR : InRange m) : Dev nD → Valuation τ sig (Elt F) := fun c => StableHlo.after hostOps16 (W31 m hR c)
abbrev V32 (hR : InRange m) : (c : Dev nD) → (b : Ref sig .tc) → Buf (Elt F) ((c : Thread nD τ).loc b) := fun c b => W32 m hR c b
/-- The stretch leaves every buffer it does not write as it was. -/
theorem W32_of (hR : InRange m) (c : Dev nD) (r : Ref sig .tc) (h : r ∉ hostOps16_W) : W32 m hR c r = W31 m hR c r :=
  StableHlo.after_of_writes_sub hostOps16 _ hostOps16_writes h
theorem W32_arg0 (hR : InRange m) (c : Dev nD) : W32 m hR c main_arg0 = m ((c : Thread nD τ).loc main_arg0) := (W32_of m hR c main_arg0 (by decide)).trans (W31_arg0 m hR c)
theorem W32_arg1 (hR : InRange m) (c : Dev nD) : W32 m hR c main_arg1 = m ((c : Thread nD τ).loc main_arg1) := (W32_of m hR c main_arg1 (by decide)).trans (W31_arg1 m hR c)
theorem W32_arg2 (hR : InRange m) (c : Dev nD) : W32 m hR c main_arg2 = m ((c : Thread nD τ).loc main_arg2) := (W32_of m hR c main_arg2 (by decide)).trans (W31_arg2 m hR c)
theorem W32_arg3 (hR : InRange m) (c : Dev nD) : W32 m hR c main_arg3 = m ((c : Thread nD τ).loc main_arg3) := (W32_of m hR c main_arg3 (by decide)).trans (W31_arg3 m hR c)
theorem W32_arg4 (hR : InRange m) (c : Dev nD) : W32 m hR c main_arg4 = m ((c : Thread nD τ).loc main_arg4) := (W32_of m hR c main_arg4 (by decide)).trans (W31_arg4 m hR c)

/-- At gather call 16's exit: its three arrays at what the pipeline leaves, every other buffer as entered. -/
def W33 (hR : InRange m) (c : Dev nD) : Valuation τ sig (Elt F) :=
  Pipeline.withArrays spec16 c (W32 m hR c) fun w => (dat16 (V32 m hR) (a16 m hR) c).arrAt w (cfg16 (a16 m hR)).N
theorem W33_arr (hR : InRange m) (c : Dev nD) (w : Fin (cfg16 (a16 m hR)).W) :
    W33 m hR c (Proc.devRef .tc (Pipeline.arrRef spec16 w)) = (dat16 (V32 m hR) (a16 m hR) c).arrAt w (cfg16 (a16 m hR)).N := by
  unfold W33; exact Pipeline.withArrays_arr spec16 (launch16 (F := F)).win.arr_inj c _ _ w
theorem W33_of_ne (hR : InRange m) (c : Dev nD) (b : Ref sig .tc) (hb : ∀ w, Pipeline.arrRef spec16 w ≠ b) :
    W33 m hR c (Proc.devRef .tc b) = W32 m hR c (Proc.devRef .tc b) := by
  unfold W33; exact Pipeline.withArrays_of_ne spec16 c _ _ b hb
abbrev V33 (hR : InRange m) : (c : Dev nD) → (b : Ref sig .tc) → Buf (Elt F) ((c : Thread nD τ).loc b) := fun c b => W33 m hR c b
theorem hF16 (hR : InRange m) (c : Dev nD) (w : Fin (cfg16 (a16 m hR)).W) :
    (dat16 (V32 m hR) (a16 m hR) c).arrAt w (cfg16 (a16 m hR)).N = V33 m hR c (Pipeline.arrRef spec16 w) :=
  (W33_arr m hR c w).symm
theorem hrest16 (hR : InRange m) (c : Dev nD) : ∀ b, b ∉ Finset.univ.image (Pipeline.arrRef spec16) → V33 m hR c b = V32 m hR c b :=
  fun b hb => W33_of_ne m hR c b fun w e => hb (Finset.mem_image.mpr ⟨w, Finset.mem_univ _, e⟩)
/-- An input array of the gather call (a re-laid projection) is left as entered. -/
theorem W33_in (hR : InRange m) (c : Dev nD) (w : Fin (cfg16 (a16 m hR)).W) (hw : ((cfg16 (a16 m hR)).win w).isOut = false) :
    W33 m hR c (Proc.devRef .tc (Pipeline.arrRef spec16 w)) = W32 m hR c (Proc.devRef .tc (Pipeline.arrRef spec16 w)) :=
  (W33_arr m hR c w).trans (((dat16 (V32 m hR) (a16 m hR) c).arrAt_in w hw _).trans (A_eq16 (V32 m hR) (a16 m hR) c w))
theorem W33_arg0 (hR : InRange m) (c : Dev nD) : W33 m hR c main_arg0 = m ((c : Thread nD τ).loc main_arg0) := (W33_of_ne m hR c main_arg0 (by decide)).trans (W32_arg0 m hR c)
theorem W33_arg1 (hR : InRange m) (c : Dev nD) : W33 m hR c main_arg1 = m ((c : Thread nD τ).loc main_arg1) := (W33_of_ne m hR c main_arg1 (by decide)).trans (W32_arg1 m hR c)
theorem W33_arg2 (hR : InRange m) (c : Dev nD) : W33 m hR c main_arg2 = m ((c : Thread nD τ).loc main_arg2) := (W33_of_ne m hR c main_arg2 (by decide)).trans (W32_arg2 m hR c)
theorem W33_arg3 (hR : InRange m) (c : Dev nD) : W33 m hR c main_arg3 = m ((c : Thread nD τ).loc main_arg3) := (W33_of_ne m hR c main_arg3 (by decide)).trans (W32_arg3 m hR c)
theorem W33_arg4 (hR : InRange m) (c : Dev nD) : W33 m hR c main_arg4 = m ((c : Thread nD τ).loc main_arg4) := (W33_of_ne m hR c main_arg4 (by decide)).trans (W32_arg4 m hR c)

/-! ## Host stretch 17 and gather call 17 (items 33 and 34) -/

/-- After host stretch 17: gather call 17's entry. -/
abbrev W34 (hR : InRange m) : Dev nD → Valuation τ sig (Elt F) := fun c => StableHlo.after hostOps17 (W33 m hR c)
abbrev V34 (hR : InRange m) : (c : Dev nD) → (b : Ref sig .tc) → Buf (Elt F) ((c : Thread nD τ).loc b) := fun c b => W34 m hR c b
/-- The stretch leaves every buffer it does not write as it was. -/
theorem W34_of (hR : InRange m) (c : Dev nD) (r : Ref sig .tc) (h : r ∉ hostOps17_W) : W34 m hR c r = W33 m hR c r :=
  StableHlo.after_of_writes_sub hostOps17 _ hostOps17_writes h
theorem W34_arg0 (hR : InRange m) (c : Dev nD) : W34 m hR c main_arg0 = m ((c : Thread nD τ).loc main_arg0) := (W34_of m hR c main_arg0 (by decide)).trans (W33_arg0 m hR c)
theorem W34_arg1 (hR : InRange m) (c : Dev nD) : W34 m hR c main_arg1 = m ((c : Thread nD τ).loc main_arg1) := (W34_of m hR c main_arg1 (by decide)).trans (W33_arg1 m hR c)
theorem W34_arg2 (hR : InRange m) (c : Dev nD) : W34 m hR c main_arg2 = m ((c : Thread nD τ).loc main_arg2) := (W34_of m hR c main_arg2 (by decide)).trans (W33_arg2 m hR c)
theorem W34_arg3 (hR : InRange m) (c : Dev nD) : W34 m hR c main_arg3 = m ((c : Thread nD τ).loc main_arg3) := (W34_of m hR c main_arg3 (by decide)).trans (W33_arg3 m hR c)
theorem W34_arg4 (hR : InRange m) (c : Dev nD) : W34 m hR c main_arg4 = m ((c : Thread nD τ).loc main_arg4) := (W34_of m hR c main_arg4 (by decide)).trans (W33_arg4 m hR c)

/-- At gather call 17's exit: its three arrays at what the pipeline leaves, every other buffer as entered. -/
def W35 (hR : InRange m) (c : Dev nD) : Valuation τ sig (Elt F) :=
  Pipeline.withArrays spec17 c (W34 m hR c) fun w => (dat17 (V34 m hR) (a17 m hR) c).arrAt w (cfg17 (a17 m hR)).N
theorem W35_arr (hR : InRange m) (c : Dev nD) (w : Fin (cfg17 (a17 m hR)).W) :
    W35 m hR c (Proc.devRef .tc (Pipeline.arrRef spec17 w)) = (dat17 (V34 m hR) (a17 m hR) c).arrAt w (cfg17 (a17 m hR)).N := by
  unfold W35; exact Pipeline.withArrays_arr spec17 (launch17 (F := F)).win.arr_inj c _ _ w
theorem W35_of_ne (hR : InRange m) (c : Dev nD) (b : Ref sig .tc) (hb : ∀ w, Pipeline.arrRef spec17 w ≠ b) :
    W35 m hR c (Proc.devRef .tc b) = W34 m hR c (Proc.devRef .tc b) := by
  unfold W35; exact Pipeline.withArrays_of_ne spec17 c _ _ b hb
abbrev V35 (hR : InRange m) : (c : Dev nD) → (b : Ref sig .tc) → Buf (Elt F) ((c : Thread nD τ).loc b) := fun c b => W35 m hR c b
theorem hF17 (hR : InRange m) (c : Dev nD) (w : Fin (cfg17 (a17 m hR)).W) :
    (dat17 (V34 m hR) (a17 m hR) c).arrAt w (cfg17 (a17 m hR)).N = V35 m hR c (Pipeline.arrRef spec17 w) :=
  (W35_arr m hR c w).symm
theorem hrest17 (hR : InRange m) (c : Dev nD) : ∀ b, b ∉ Finset.univ.image (Pipeline.arrRef spec17) → V35 m hR c b = V34 m hR c b :=
  fun b hb => W35_of_ne m hR c b fun w e => hb (Finset.mem_image.mpr ⟨w, Finset.mem_univ _, e⟩)
/-- An input array of the gather call (a re-laid projection) is left as entered. -/
theorem W35_in (hR : InRange m) (c : Dev nD) (w : Fin (cfg17 (a17 m hR)).W) (hw : ((cfg17 (a17 m hR)).win w).isOut = false) :
    W35 m hR c (Proc.devRef .tc (Pipeline.arrRef spec17 w)) = W34 m hR c (Proc.devRef .tc (Pipeline.arrRef spec17 w)) :=
  (W35_arr m hR c w).trans (((dat17 (V34 m hR) (a17 m hR) c).arrAt_in w hw _).trans (A_eq17 (V34 m hR) (a17 m hR) c w))
theorem W35_arg0 (hR : InRange m) (c : Dev nD) : W35 m hR c main_arg0 = m ((c : Thread nD τ).loc main_arg0) := (W35_of_ne m hR c main_arg0 (by decide)).trans (W34_arg0 m hR c)
theorem W35_arg1 (hR : InRange m) (c : Dev nD) : W35 m hR c main_arg1 = m ((c : Thread nD τ).loc main_arg1) := (W35_of_ne m hR c main_arg1 (by decide)).trans (W34_arg1 m hR c)
theorem W35_arg2 (hR : InRange m) (c : Dev nD) : W35 m hR c main_arg2 = m ((c : Thread nD τ).loc main_arg2) := (W35_of_ne m hR c main_arg2 (by decide)).trans (W34_arg2 m hR c)
theorem W35_arg3 (hR : InRange m) (c : Dev nD) : W35 m hR c main_arg3 = m ((c : Thread nD τ).loc main_arg3) := (W35_of_ne m hR c main_arg3 (by decide)).trans (W34_arg3 m hR c)
theorem W35_arg4 (hR : InRange m) (c : Dev nD) : W35 m hR c main_arg4 = m ((c : Thread nD τ).loc main_arg4) := (W35_of_ne m hR c main_arg4 (by decide)).trans (W34_arg4 m hR c)

/-! ## Host stretch 18 and gather call 18 (items 35 and 36) -/

/-- After host stretch 18: gather call 18's entry. -/
abbrev W36 (hR : InRange m) : Dev nD → Valuation τ sig (Elt F) := fun c => StableHlo.after hostOps18 (W35 m hR c)
abbrev V36 (hR : InRange m) : (c : Dev nD) → (b : Ref sig .tc) → Buf (Elt F) ((c : Thread nD τ).loc b) := fun c b => W36 m hR c b
/-- The stretch leaves every buffer it does not write as it was. -/
theorem W36_of (hR : InRange m) (c : Dev nD) (r : Ref sig .tc) (h : r ∉ hostOps18_W) : W36 m hR c r = W35 m hR c r :=
  StableHlo.after_of_writes_sub hostOps18 _ hostOps18_writes h
theorem W36_arg0 (hR : InRange m) (c : Dev nD) : W36 m hR c main_arg0 = m ((c : Thread nD τ).loc main_arg0) := (W36_of m hR c main_arg0 (by decide)).trans (W35_arg0 m hR c)
theorem W36_arg1 (hR : InRange m) (c : Dev nD) : W36 m hR c main_arg1 = m ((c : Thread nD τ).loc main_arg1) := (W36_of m hR c main_arg1 (by decide)).trans (W35_arg1 m hR c)
theorem W36_arg2 (hR : InRange m) (c : Dev nD) : W36 m hR c main_arg2 = m ((c : Thread nD τ).loc main_arg2) := (W36_of m hR c main_arg2 (by decide)).trans (W35_arg2 m hR c)
theorem W36_arg3 (hR : InRange m) (c : Dev nD) : W36 m hR c main_arg3 = m ((c : Thread nD τ).loc main_arg3) := (W36_of m hR c main_arg3 (by decide)).trans (W35_arg3 m hR c)
theorem W36_arg4 (hR : InRange m) (c : Dev nD) : W36 m hR c main_arg4 = m ((c : Thread nD τ).loc main_arg4) := (W36_of m hR c main_arg4 (by decide)).trans (W35_arg4 m hR c)

/-- At gather call 18's exit: its three arrays at what the pipeline leaves, every other buffer as entered. -/
def W37 (hR : InRange m) (c : Dev nD) : Valuation τ sig (Elt F) :=
  Pipeline.withArrays spec18 c (W36 m hR c) fun w => (dat18 (V36 m hR) (a18 m hR) c).arrAt w (cfg18 (a18 m hR)).N
theorem W37_arr (hR : InRange m) (c : Dev nD) (w : Fin (cfg18 (a18 m hR)).W) :
    W37 m hR c (Proc.devRef .tc (Pipeline.arrRef spec18 w)) = (dat18 (V36 m hR) (a18 m hR) c).arrAt w (cfg18 (a18 m hR)).N := by
  unfold W37; exact Pipeline.withArrays_arr spec18 (launch18 (F := F)).win.arr_inj c _ _ w
theorem W37_of_ne (hR : InRange m) (c : Dev nD) (b : Ref sig .tc) (hb : ∀ w, Pipeline.arrRef spec18 w ≠ b) :
    W37 m hR c (Proc.devRef .tc b) = W36 m hR c (Proc.devRef .tc b) := by
  unfold W37; exact Pipeline.withArrays_of_ne spec18 c _ _ b hb
abbrev V37 (hR : InRange m) : (c : Dev nD) → (b : Ref sig .tc) → Buf (Elt F) ((c : Thread nD τ).loc b) := fun c b => W37 m hR c b
theorem hF18 (hR : InRange m) (c : Dev nD) (w : Fin (cfg18 (a18 m hR)).W) :
    (dat18 (V36 m hR) (a18 m hR) c).arrAt w (cfg18 (a18 m hR)).N = V37 m hR c (Pipeline.arrRef spec18 w) :=
  (W37_arr m hR c w).symm
theorem hrest18 (hR : InRange m) (c : Dev nD) : ∀ b, b ∉ Finset.univ.image (Pipeline.arrRef spec18) → V37 m hR c b = V36 m hR c b :=
  fun b hb => W37_of_ne m hR c b fun w e => hb (Finset.mem_image.mpr ⟨w, Finset.mem_univ _, e⟩)
/-- An input array of the gather call (a re-laid projection) is left as entered. -/
theorem W37_in (hR : InRange m) (c : Dev nD) (w : Fin (cfg18 (a18 m hR)).W) (hw : ((cfg18 (a18 m hR)).win w).isOut = false) :
    W37 m hR c (Proc.devRef .tc (Pipeline.arrRef spec18 w)) = W36 m hR c (Proc.devRef .tc (Pipeline.arrRef spec18 w)) :=
  (W37_arr m hR c w).trans (((dat18 (V36 m hR) (a18 m hR) c).arrAt_in w hw _).trans (A_eq18 (V36 m hR) (a18 m hR) c w))
theorem W37_arg0 (hR : InRange m) (c : Dev nD) : W37 m hR c main_arg0 = m ((c : Thread nD τ).loc main_arg0) := (W37_of_ne m hR c main_arg0 (by decide)).trans (W36_arg0 m hR c)
theorem W37_arg1 (hR : InRange m) (c : Dev nD) : W37 m hR c main_arg1 = m ((c : Thread nD τ).loc main_arg1) := (W37_of_ne m hR c main_arg1 (by decide)).trans (W36_arg1 m hR c)
theorem W37_arg2 (hR : InRange m) (c : Dev nD) : W37 m hR c main_arg2 = m ((c : Thread nD τ).loc main_arg2) := (W37_of_ne m hR c main_arg2 (by decide)).trans (W36_arg2 m hR c)
theorem W37_arg3 (hR : InRange m) (c : Dev nD) : W37 m hR c main_arg3 = m ((c : Thread nD τ).loc main_arg3) := (W37_of_ne m hR c main_arg3 (by decide)).trans (W36_arg3 m hR c)
theorem W37_arg4 (hR : InRange m) (c : Dev nD) : W37 m hR c main_arg4 = m ((c : Thread nD τ).loc main_arg4) := (W37_of_ne m hR c main_arg4 (by decide)).trans (W36_arg4 m hR c)

/-! ## Host stretch 19 and gather call 19 (items 37 and 38) -/

/-- After host stretch 19: gather call 19's entry. -/
abbrev W38 (hR : InRange m) : Dev nD → Valuation τ sig (Elt F) := fun c => StableHlo.after hostOps19 (W37 m hR c)
abbrev V38 (hR : InRange m) : (c : Dev nD) → (b : Ref sig .tc) → Buf (Elt F) ((c : Thread nD τ).loc b) := fun c b => W38 m hR c b
/-- The stretch leaves every buffer it does not write as it was. -/
theorem W38_of (hR : InRange m) (c : Dev nD) (r : Ref sig .tc) (h : r ∉ hostOps19_W) : W38 m hR c r = W37 m hR c r :=
  StableHlo.after_of_writes_sub hostOps19 _ hostOps19_writes h
theorem W38_arg0 (hR : InRange m) (c : Dev nD) : W38 m hR c main_arg0 = m ((c : Thread nD τ).loc main_arg0) := (W38_of m hR c main_arg0 (by decide)).trans (W37_arg0 m hR c)
theorem W38_arg1 (hR : InRange m) (c : Dev nD) : W38 m hR c main_arg1 = m ((c : Thread nD τ).loc main_arg1) := (W38_of m hR c main_arg1 (by decide)).trans (W37_arg1 m hR c)
theorem W38_arg2 (hR : InRange m) (c : Dev nD) : W38 m hR c main_arg2 = m ((c : Thread nD τ).loc main_arg2) := (W38_of m hR c main_arg2 (by decide)).trans (W37_arg2 m hR c)
theorem W38_arg3 (hR : InRange m) (c : Dev nD) : W38 m hR c main_arg3 = m ((c : Thread nD τ).loc main_arg3) := (W38_of m hR c main_arg3 (by decide)).trans (W37_arg3 m hR c)
theorem W38_arg4 (hR : InRange m) (c : Dev nD) : W38 m hR c main_arg4 = m ((c : Thread nD τ).loc main_arg4) := (W38_of m hR c main_arg4 (by decide)).trans (W37_arg4 m hR c)

/-- At gather call 19's exit: its three arrays at what the pipeline leaves, every other buffer as entered. -/
def W39 (hR : InRange m) (c : Dev nD) : Valuation τ sig (Elt F) :=
  Pipeline.withArrays spec19 c (W38 m hR c) fun w => (dat19 (V38 m hR) (a19 m hR) c).arrAt w (cfg19 (a19 m hR)).N
theorem W39_arr (hR : InRange m) (c : Dev nD) (w : Fin (cfg19 (a19 m hR)).W) :
    W39 m hR c (Proc.devRef .tc (Pipeline.arrRef spec19 w)) = (dat19 (V38 m hR) (a19 m hR) c).arrAt w (cfg19 (a19 m hR)).N := by
  unfold W39; exact Pipeline.withArrays_arr spec19 (launch19 (F := F)).win.arr_inj c _ _ w
theorem W39_of_ne (hR : InRange m) (c : Dev nD) (b : Ref sig .tc) (hb : ∀ w, Pipeline.arrRef spec19 w ≠ b) :
    W39 m hR c (Proc.devRef .tc b) = W38 m hR c (Proc.devRef .tc b) := by
  unfold W39; exact Pipeline.withArrays_of_ne spec19 c _ _ b hb
abbrev V39 (hR : InRange m) : (c : Dev nD) → (b : Ref sig .tc) → Buf (Elt F) ((c : Thread nD τ).loc b) := fun c b => W39 m hR c b
theorem hF19 (hR : InRange m) (c : Dev nD) (w : Fin (cfg19 (a19 m hR)).W) :
    (dat19 (V38 m hR) (a19 m hR) c).arrAt w (cfg19 (a19 m hR)).N = V39 m hR c (Pipeline.arrRef spec19 w) :=
  (W39_arr m hR c w).symm
theorem hrest19 (hR : InRange m) (c : Dev nD) : ∀ b, b ∉ Finset.univ.image (Pipeline.arrRef spec19) → V39 m hR c b = V38 m hR c b :=
  fun b hb => W39_of_ne m hR c b fun w e => hb (Finset.mem_image.mpr ⟨w, Finset.mem_univ _, e⟩)
/-- An input array of the gather call (a re-laid projection) is left as entered. -/
theorem W39_in (hR : InRange m) (c : Dev nD) (w : Fin (cfg19 (a19 m hR)).W) (hw : ((cfg19 (a19 m hR)).win w).isOut = false) :
    W39 m hR c (Proc.devRef .tc (Pipeline.arrRef spec19 w)) = W38 m hR c (Proc.devRef .tc (Pipeline.arrRef spec19 w)) :=
  (W39_arr m hR c w).trans (((dat19 (V38 m hR) (a19 m hR) c).arrAt_in w hw _).trans (A_eq19 (V38 m hR) (a19 m hR) c w))
theorem W39_arg0 (hR : InRange m) (c : Dev nD) : W39 m hR c main_arg0 = m ((c : Thread nD τ).loc main_arg0) := (W39_of_ne m hR c main_arg0 (by decide)).trans (W38_arg0 m hR c)
theorem W39_arg1 (hR : InRange m) (c : Dev nD) : W39 m hR c main_arg1 = m ((c : Thread nD τ).loc main_arg1) := (W39_of_ne m hR c main_arg1 (by decide)).trans (W38_arg1 m hR c)
theorem W39_arg2 (hR : InRange m) (c : Dev nD) : W39 m hR c main_arg2 = m ((c : Thread nD τ).loc main_arg2) := (W39_of_ne m hR c main_arg2 (by decide)).trans (W38_arg2 m hR c)
theorem W39_arg3 (hR : InRange m) (c : Dev nD) : W39 m hR c main_arg3 = m ((c : Thread nD τ).loc main_arg3) := (W39_of_ne m hR c main_arg3 (by decide)).trans (W38_arg3 m hR c)
theorem W39_arg4 (hR : InRange m) (c : Dev nD) : W39 m hR c main_arg4 = m ((c : Thread nD τ).loc main_arg4) := (W39_of_ne m hR c main_arg4 (by decide)).trans (W38_arg4 m hR c)

/-! ## Host stretch 20 and gather call 20 (items 39 and 40) -/

/-- After host stretch 20: gather call 20's entry. -/
abbrev W40 (hR : InRange m) : Dev nD → Valuation τ sig (Elt F) := fun c => StableHlo.after hostOps20 (W39 m hR c)
abbrev V40 (hR : InRange m) : (c : Dev nD) → (b : Ref sig .tc) → Buf (Elt F) ((c : Thread nD τ).loc b) := fun c b => W40 m hR c b
/-- The stretch leaves every buffer it does not write as it was. -/
theorem W40_of (hR : InRange m) (c : Dev nD) (r : Ref sig .tc) (h : r ∉ hostOps20_W) : W40 m hR c r = W39 m hR c r :=
  StableHlo.after_of_writes_sub hostOps20 _ hostOps20_writes h
theorem W40_arg0 (hR : InRange m) (c : Dev nD) : W40 m hR c main_arg0 = m ((c : Thread nD τ).loc main_arg0) := (W40_of m hR c main_arg0 (by decide)).trans (W39_arg0 m hR c)
theorem W40_arg1 (hR : InRange m) (c : Dev nD) : W40 m hR c main_arg1 = m ((c : Thread nD τ).loc main_arg1) := (W40_of m hR c main_arg1 (by decide)).trans (W39_arg1 m hR c)
theorem W40_arg2 (hR : InRange m) (c : Dev nD) : W40 m hR c main_arg2 = m ((c : Thread nD τ).loc main_arg2) := (W40_of m hR c main_arg2 (by decide)).trans (W39_arg2 m hR c)
theorem W40_arg3 (hR : InRange m) (c : Dev nD) : W40 m hR c main_arg3 = m ((c : Thread nD τ).loc main_arg3) := (W40_of m hR c main_arg3 (by decide)).trans (W39_arg3 m hR c)
theorem W40_arg4 (hR : InRange m) (c : Dev nD) : W40 m hR c main_arg4 = m ((c : Thread nD τ).loc main_arg4) := (W40_of m hR c main_arg4 (by decide)).trans (W39_arg4 m hR c)

/-- At gather call 20's exit: its three arrays at what the pipeline leaves, every other buffer as entered. -/
def W41 (hR : InRange m) (c : Dev nD) : Valuation τ sig (Elt F) :=
  Pipeline.withArrays spec20 c (W40 m hR c) fun w => (dat20 (V40 m hR) (a20 m hR) c).arrAt w (cfg20 (a20 m hR)).N
theorem W41_arr (hR : InRange m) (c : Dev nD) (w : Fin (cfg20 (a20 m hR)).W) :
    W41 m hR c (Proc.devRef .tc (Pipeline.arrRef spec20 w)) = (dat20 (V40 m hR) (a20 m hR) c).arrAt w (cfg20 (a20 m hR)).N := by
  unfold W41; exact Pipeline.withArrays_arr spec20 (launch20 (F := F)).win.arr_inj c _ _ w
theorem W41_of_ne (hR : InRange m) (c : Dev nD) (b : Ref sig .tc) (hb : ∀ w, Pipeline.arrRef spec20 w ≠ b) :
    W41 m hR c (Proc.devRef .tc b) = W40 m hR c (Proc.devRef .tc b) := by
  unfold W41; exact Pipeline.withArrays_of_ne spec20 c _ _ b hb
abbrev V41 (hR : InRange m) : (c : Dev nD) → (b : Ref sig .tc) → Buf (Elt F) ((c : Thread nD τ).loc b) := fun c b => W41 m hR c b
theorem hF20 (hR : InRange m) (c : Dev nD) (w : Fin (cfg20 (a20 m hR)).W) :
    (dat20 (V40 m hR) (a20 m hR) c).arrAt w (cfg20 (a20 m hR)).N = V41 m hR c (Pipeline.arrRef spec20 w) :=
  (W41_arr m hR c w).symm
theorem hrest20 (hR : InRange m) (c : Dev nD) : ∀ b, b ∉ Finset.univ.image (Pipeline.arrRef spec20) → V41 m hR c b = V40 m hR c b :=
  fun b hb => W41_of_ne m hR c b fun w e => hb (Finset.mem_image.mpr ⟨w, Finset.mem_univ _, e⟩)
/-- An input array of the gather call (a re-laid projection) is left as entered. -/
theorem W41_in (hR : InRange m) (c : Dev nD) (w : Fin (cfg20 (a20 m hR)).W) (hw : ((cfg20 (a20 m hR)).win w).isOut = false) :
    W41 m hR c (Proc.devRef .tc (Pipeline.arrRef spec20 w)) = W40 m hR c (Proc.devRef .tc (Pipeline.arrRef spec20 w)) :=
  (W41_arr m hR c w).trans (((dat20 (V40 m hR) (a20 m hR) c).arrAt_in w hw _).trans (A_eq20 (V40 m hR) (a20 m hR) c w))
theorem W41_arg0 (hR : InRange m) (c : Dev nD) : W41 m hR c main_arg0 = m ((c : Thread nD τ).loc main_arg0) := (W41_of_ne m hR c main_arg0 (by decide)).trans (W40_arg0 m hR c)
theorem W41_arg1 (hR : InRange m) (c : Dev nD) : W41 m hR c main_arg1 = m ((c : Thread nD τ).loc main_arg1) := (W41_of_ne m hR c main_arg1 (by decide)).trans (W40_arg1 m hR c)
theorem W41_arg2 (hR : InRange m) (c : Dev nD) : W41 m hR c main_arg2 = m ((c : Thread nD τ).loc main_arg2) := (W41_of_ne m hR c main_arg2 (by decide)).trans (W40_arg2 m hR c)
theorem W41_arg3 (hR : InRange m) (c : Dev nD) : W41 m hR c main_arg3 = m ((c : Thread nD τ).loc main_arg3) := (W41_of_ne m hR c main_arg3 (by decide)).trans (W40_arg3 m hR c)
theorem W41_arg4 (hR : InRange m) (c : Dev nD) : W41 m hR c main_arg4 = m ((c : Thread nD τ).loc main_arg4) := (W41_of_ne m hR c main_arg4 (by decide)).trans (W40_arg4 m hR c)

/-! ## The last host stretch (item 41) -/

/-- After host stretch 21: the program's end. -/
abbrev W42 (hR : InRange m) : Dev nD → Valuation τ sig (Elt F) := fun c => StableHlo.after hostOps21 (W41 m hR c)
theorem W42_of (hR : InRange m) (c : Dev nD) (r : Ref sig .tc) (h : r ∉ hostOps21_W) : W42 m hR c r = W41 m hR c r :=
  StableHlo.after_of_writes_sub hostOps21 _ hostOps21_writes h
theorem W42_arg0 (hR : InRange m) (c : Dev nD) : W42 m hR c main_arg0 = m ((c : Thread nD τ).loc main_arg0) := (W42_of m hR c main_arg0 (by decide)).trans (W41_arg0 m hR c)
theorem W42_arg1 (hR : InRange m) (c : Dev nD) : W42 m hR c main_arg1 = m ((c : Thread nD τ).loc main_arg1) := (W42_of m hR c main_arg1 (by decide)).trans (W41_arg1 m hR c)
theorem W42_arg2 (hR : InRange m) (c : Dev nD) : W42 m hR c main_arg2 = m ((c : Thread nD τ).loc main_arg2) := (W42_of m hR c main_arg2 (by decide)).trans (W41_arg2 m hR c)
theorem W42_arg3 (hR : InRange m) (c : Dev nD) : W42 m hR c main_arg3 = m ((c : Thread nD τ).loc main_arg3) := (W42_of m hR c main_arg3 (by decide)).trans (W41_arg3 m hR c)
theorem W42_arg4 (hR : InRange m) (c : Dev nD) : W42 m hR c main_arg4 = m ((c : Thread nD τ).loc main_arg4) := (W42_of m hR c main_arg4 (by decide)).trans (W41_arg4 m hR c)

/-! ## The pipelines' admissible tables and proof data, as literal families -/

/-- Every pipeline's admissible table contents: none for the projection call, chunk K's slices for gather call K. -/
def adm (hR : InRange m) : (p : Fin 21) → (pcfgs (F := F) p).Adm
  | ⟨0, _⟩ => cfg0.toPCfg_adm
  | ⟨1, _⟩ => a1 m hR
  | ⟨2, _⟩ => a2 m hR
  | ⟨3, _⟩ => a3 m hR
  | ⟨4, _⟩ => a4 m hR
  | ⟨5, _⟩ => a5 m hR
  | ⟨6, _⟩ => a6 m hR
  | ⟨7, _⟩ => a7 m hR
  | ⟨8, _⟩ => a8 m hR
  | ⟨9, _⟩ => a9 m hR
  | ⟨10, _⟩ => a10 m hR
  | ⟨11, _⟩ => a11 m hR
  | ⟨12, _⟩ => a12 m hR
  | ⟨13, _⟩ => a13 m hR
  | ⟨14, _⟩ => a14 m hR
  | ⟨15, _⟩ => a15 m hR
  | ⟨16, _⟩ => a16 m hR
  | ⟨17, _⟩ => a17 m hR
  | ⟨18, _⟩ => a18 m hR
  | ⟨19, _⟩ => a19 m hR
  | ⟨20, _⟩ => a20 m hR
  | ⟨_ + 21, h⟩ => absurd h (Nat.not_lt.2 (Nat.le_add_left _ _))

/-- Every pipeline's proof data, each at its call's entry contents. -/
def pdats (hR : InRange m) : (p : Fin 21) → (c : Dev nD) → Dat τ (Elt F) Unit ℕ (UR sig nD τ) ℕ (Pipeline.pin (pcfgs (F := F)) (adm m hR) p) c
  | ⟨0, _⟩ => fun c => dat0 (V0 m hR) c
  | ⟨1, _⟩ => fun c => dat1 (V2 m hR) (a1 m hR) c
  | ⟨2, _⟩ => fun c => dat2 (V4 m hR) (a2 m hR) c
  | ⟨3, _⟩ => fun c => dat3 (V6 m hR) (a3 m hR) c
  | ⟨4, _⟩ => fun c => dat4 (V8 m hR) (a4 m hR) c
  | ⟨5, _⟩ => fun c => dat5 (V10 m hR) (a5 m hR) c
  | ⟨6, _⟩ => fun c => dat6 (V12 m hR) (a6 m hR) c
  | ⟨7, _⟩ => fun c => dat7 (V14 m hR) (a7 m hR) c
  | ⟨8, _⟩ => fun c => dat8 (V16 m hR) (a8 m hR) c
  | ⟨9, _⟩ => fun c => dat9 (V18 m hR) (a9 m hR) c
  | ⟨10, _⟩ => fun c => dat10 (V20 m hR) (a10 m hR) c
  | ⟨11, _⟩ => fun c => dat11 (V22 m hR) (a11 m hR) c
  | ⟨12, _⟩ => fun c => dat12 (V24 m hR) (a12 m hR) c
  | ⟨13, _⟩ => fun c => dat13 (V26 m hR) (a13 m hR) c
  | ⟨14, _⟩ => fun c => dat14 (V28 m hR) (a14 m hR) c
  | ⟨15, _⟩ => fun c => dat15 (V30 m hR) (a15 m hR) c
  | ⟨16, _⟩ => fun c => dat16 (V32 m hR) (a16 m hR) c
  | ⟨17, _⟩ => fun c => dat17 (V34 m hR) (a17 m hR) c
  | ⟨18, _⟩ => fun c => dat18 (V36 m hR) (a18 m hR) c
  | ⟨19, _⟩ => fun c => dat19 (V38 m hR) (a19 m hR) c
  | ⟨20, _⟩ => fun c => dat20 (V40 m hR) (a20 m hR) c
  | ⟨_ + 21, h⟩ => absurd h (Nat.not_lt.2 (Nat.le_add_left _ _))

abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the core's generator register at some state and its dues, at nothing. -/
abbrev R (c : Dev nD) : sProp 𝕄 := iprop((∃ r, prngReg c r) ∗ ∃ W, owes (c : Thread nD τ) (0 : CellTallies nD τ sig Unit) W)
/-- A host stretch as a segment over the unscoped references from the contents `W`, `R` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

end Fold

end Cert.Kernel.Hand

end
-- ==== Proof.K.Reg0.lean ====
/-
  The projection call as a segment of @main: entered from every unscoped buffer at the launch contents and the rest
  (generator register, nothing owed), left at the contents after it. At entry the call's five arrays are split out of
  the unscoped buffers; the generator register joins the pipeline's invariant beside the scoped rest and comes back
  out of it at the end; the call reads no prefetched table, so what would hold its tables is empty; at exit the
  arrays, now at what the pipeline's write-backs leave, and the remaining buffers are put back together at the exit
  contents.
-/
import proofs.«413139_j22651657519351_3_alg».proof.Proof.Gen.Kernel.Launch
import proofs.«413139_j22651657519351_3_alg».proof.Proof.Gen.Kernel.Skeleton
import proofs.«413139_j22651657519351_3_alg».proof.Proof.Gen.Kernel.Points
import proofs.«413139_j22651657519351_3_alg».proof.Proof.K.Fold
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Reg

variable (m : (ℓ : Loc nD τ sig) → Buf (Elt F) ℓ) (hR : InRange m)

-- the library's split and join lemmas are stated over the pinned configuration family; they unify with this call's
-- own configuration only when unification may unfold plain definitions in a metavariable's type
set_option backward.isDefEq.respectTransparency.types false in
/-- The projection call over the thread state: entered from every unscoped buffer at the launch contents, left at the
    contents in which its five arrays hold what the pipeline leaves and every other buffer is as launched. Nothing is
    owed between cores and the kernel has no semaphore of its own. -/
def reg0 : Pipeline.RegionSeg (pcfgs (F := F)) (adm m hR) (pdats m hR) () defs₀ 𝒱₀ L lv 0 where
  win := (launch0 (F := F)).win.to₀
  block_pos := (launch0 (F := F)).block_pos
  stage_whole := (launch0 (F := F)).stage_whole
  K := PEmpty
  osem k := k.elim
  ho := Pipeline.OwnSemFacts.none _
  hbody c := (body_obligation0 (V0 m hR) c).loose
  hwaits := Pipeline.hwaits_of_owed_zero _ _ _ _ L lv 0 fun _ _ => rfl
  pre c := iprop(StableHlo.held (c : Thread nD τ) (Pipeline.ucRefs τ sig) (W0 m hR c) ∗ R c)
  post c := iprop(StableHlo.held (c : Thread nD τ) (Pipeline.ucRefs τ sig) (W1 m hR c) ∗ R c)
  X c := iprop(∃ r, prngReg c r)
  Y c := iprop(∃ r, prngReg c r)
  Z c := Pipeline.unscopedRest (Ix := Unit) (Name := ℕ) (U := UR sig nD τ) (Lvl := ℕ) spec0 c (V0 m hR c)
  hentry c := by
    rw [Pipeline.ownSems0_none]
    have hsplit := Pipeline.arrays_of_unscopedBufs (p := 0) (pcfgs (F := F)) (adm m hR) (pdats m hR) (launch0 (F := F)).win (launch0 (F := F)).arr_whole c
      ((pdats m hR 0 c).share_full fun _ => rfl) (V0 m hR c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    -- no table is prefetched: the conjunction over the empty index set is empty
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m hR 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m hR 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) (adm m hR) (Ix := Unit) (Name := ℕ) (U := UR sig nD τ) (Lvl := ℕ)
      (launch0 (F := F)).win (launch0 (F := F)).arr_whole c (pdats m hR) ((pdats m hR 0 c).share_full fun _ => rfl)
      (V0 m hR c) (V1 m hR c) ((pdats m hR 0 c).arrAt · cfg0.N) (hF0 m hR c) (hrest0 m hR c)
    rw [Pipeline.unscopedBufs_held] at hjoin
    iintro ⟨Ha, HO, HY, Hrest⟩
    imodintro
    isplitl [Ha Hrest]
    · iapply hjoin
      isplitl [Ha]; · iexact Ha
      iexact Hrest
    isplitl [HY]; · iexact HY
    unfold Pipeline.Dat.owesAt Pipeline.owesWithin
    icases HO with ⟨%W, -, HO⟩; iexists W; iexact HO

end Reg

end Cert.Kernel.Hand

end
-- ==== Proof.K.Reg1.lean ====
/-
  Gather call 1 as a segment of @main: entered from every unscoped buffer at the fold's contents before it and the
  rest (generator register, nothing owed), left at the contents after it. At entry the call's three arrays and its two
  index tables are split out of the unscoped buffers; the tables — which hold, by the fold, the slices of the
  launch-time endpoint arrays the admissible contents were read from — join the pipeline's invariant beside the
  scoped rest and the generator register, and come back out of it at the end; at exit arrays, tables and the
  remaining buffers are put back together at the exit contents.
-/
import proofs.«413139_j22651657519351_3_alg».proof.Proof.Gen.Kernel.Launch
import proofs.«413139_j22651657519351_3_alg».proof.Proof.Gen.Kernel.Skeleton
import proofs.«413139_j22651657519351_3_alg».proof.Proof.Gen.Kernel.Points
import proofs.«413139_j22651657519351_3_alg».proof.Proof.K.Fold
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Reg

variable (m : (ℓ : Loc nD τ sig) → Buf (Elt F) ℓ) (hR : InRange m)

/-- At the call's entry its two tables hold the slices of the launch-time endpoint arrays: the stretch before it
    wrote them from the argument arrays, which nothing before had changed. -/
theorem tblHeld1 (c : Dev nD) : (fun k => V2 m hR c (pre1.ref k)) = tbl1 m := by
  obtain rfl : c = 0 := Subsingleton.elim _ _
  funext k
  match k with
  | ⟨0, _⟩ =>
    show StableHlo.after hostOps1 (W1 m hR 0) (Proc.devRef .tc main_v5) = _
    after_results
    show extractStridedSlice S40000 ![0] (W1 m hR 0 (Proc.devRef .tc main_arg1)) slices_S800000_S40000_0 = _
    rw [W1_arg1]; rfl
  | ⟨1, _⟩ =>
    show StableHlo.after hostOps1 (W1 m hR 0) (Proc.devRef .tc main_v6) = _
    after_results
    show extractStridedSlice S40000 ![0] (W1 m hR 0 (Proc.devRef .tc main_arg2)) slices_S800000_S40000_0 = _
    rw [W1_arg2]; rfl

/-- The call's unscoped rest is its two tables, held at the slices, beside the buffers that are neither array nor table. -/
theorem restSplit1 (c : Dev nD) :
    (Pipeline.unscopedRest (Ix := Unit) (Name := ℕ) (U := UR sig nD τ) (Lvl := ℕ) (Pipeline.pin (pcfgs (F := F)) (adm m hR) 1).spec c (V2 m hR c) : sProp 𝕄)
      = iprop(Pipeline.prefHeld (Ix := Unit) (Name := ℕ) (U := UR sig nD τ) (Lvl := ℕ) pre1 c (fun _ => fullShare) (tbl1 m)
          ∗ Pipeline.unscopedRestP (Ix := Unit) (Name := ℕ) (U := UR sig nD τ) (Lvl := ℕ) pre1 spec1 c (V2 m hR c)) := by
  show (Pipeline.unscopedRest (Ix := Unit) (Name := ℕ) (U := UR sig nD τ) (Lvl := ℕ) spec1 c (V2 m hR c) : sProp 𝕄) = _
  rw [Pipeline.unscopedRest_split preFacts1 c (V2 m hR c), tblHeld1 m hR c]

set_option backward.isDefEq.respectTransparency.types false in
def reg1 : Pipeline.RegionSeg (pcfgs (F := F)) (adm m hR) (pdats m hR) () defs₀ 𝒱₀ L lv 1 where
  win := (launch1 (F := F)).win.to₀
  block_pos := (launch1 (F := F)).block_pos
  stage_whole := (launch1 (F := F)).stage_whole
  K := PEmpty
  osem k := k.elim
  ho := Pipeline.OwnSemFacts.none _
  hbody c := (body_obligation1 (V2 m hR) (a1 m hR) c).loose
  hwaits := Pipeline.hwaits_of_owed_zero _ _ _ _ L lv 1 fun _ _ => rfl
  pre c := iprop(StableHlo.held (c : Thread nD τ) (Pipeline.ucRefs τ sig) (W2 m hR c) ∗ R c)
  post c := iprop(StableHlo.held (c : Thread nD τ) (Pipeline.ucRefs τ sig) (W3 m hR c) ∗ R c)
  X c := iprop(∃ r, prngReg c r)
  Y c := iprop((∃ r, prngReg c r) ∗ Pipeline.prefHeld (Ix := Unit) (Name := ℕ) (U := UR sig nD τ) (Lvl := ℕ) pre1 c (fun _ => fullShare) (tbl1 m))
  Z c := Pipeline.unscopedRestP (Ix := Unit) (Name := ℕ) (U := UR sig nD τ) (Lvl := ℕ) pre1 spec1 c (V2 m hR c)
  hentry c := by
    rw [Pipeline.ownSems0_none]
    have hsplit := Pipeline.arrays_of_unscopedBufs (p := 1) (pcfgs (F := F)) (adm m hR) (pdats m hR) (launch1 (F := F)).win (launch1 (F := F)).arr_whole c
      ((pdats m hR 1 c).share_full fun _ => rfl) (V2 m hR c) fun _ => rfl
    rw [Pipeline.unscopedBufs_held, restSplit1 m hR c] at hsplit
    iintro ⟨⟨Hub, Hp, HO⟩, -, -⟩
    ihave H := hsplit $$ Hub
    icases H with ⟨Ha, Ht, Hrest⟩
    imodintro
    isplitl [Ha]; · iexact Ha
    isplitl [Ht]; · iexact Ht
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m hR 1 c).Φ 0 = iprop(Pipeline.ΦA spec1 c ∗ Pipeline.prefHeld (Ix := Unit) (Name := ℕ) (U := UR sig nD τ) (Lvl := ℕ) pre1 c (fun _ => fullShare) (tbl1 m)) from rfl]
    unfold Pipeline.ΦA
    iintro ⟨Hp, Ht, Hr⟩
    isplitl [Hr Hp]
    · isplitl [Hr]; · iexact Hr
      iexact Hp
    iexact Ht
  hout c := by
    rw [Pipeline.ownSems0_none, show (pdats m hR 1 c).Φ (Fin.last _) = iprop(Pipeline.ΦA spec1 c ∗ Pipeline.prefHeld (Ix := Unit) (Name := ℕ) (U := UR sig nD τ) (Lvl := ℕ) pre1 c (fun _ => fullShare) (tbl1 m)) from rfl]
    unfold Pipeline.ΦA
    iintro ⟨⟨Hr, Hp⟩, Ht⟩
    isplitl [Hp Ht]
    · isplitl [Hp]; · iexact Hp
      iexact Ht
    isplitr; · iempintro
    iexact Hr
  hexit c := by
    have hjoin := Pipeline.unscopedBufs_of_arrays (p := 1) (pcfgs (F := F)) (adm m hR) (Ix := Unit) (Name := ℕ) (U := UR sig nD τ) (Lvl := ℕ)
      (launch1 (F := F)).win (launch1 (F := F)).arr_whole c (pdats m hR) ((pdats m hR 1 c).share_full fun _ => rfl)
      (V2 m hR c) (V3 m hR c) ((pdats m hR 1 c).arrAt · (cfg1 (a1 m hR)).N) (hF1 m hR c) (hrest1 m hR c)
    rw [Pipeline.unscopedBufs_held, restSplit1 m hR c] at hjoin
    iintro ⟨Ha, HO, ⟨Hp, Ht⟩, Hrest⟩
    imodintro
    isplitl [Ha Ht Hrest]
    · iapply hjoin
      isplitl [Ha]; · iexact Ha
      isplitl [Ht]; · iexact Ht
      iexact Hrest
    isplitl [Hp]; · iexact Hp
    unfold Pipeline.Dat.owesAt Pipeline.owesWithin
    icases HO with ⟨%W, -, HO⟩; iexists W; iexact HO

end Reg

end Cert.Kernel.Hand

end
-- ==== Proof.K.Reg2.lean ====
/-
  Gather call 2 as a segment of @main: entered from every unscoped buffer at the fold's contents before it and the
  rest (generator register, nothing owed), left at the contents after it. At entry the call's three arrays and its two
  index tables are split out of the unscoped buffers; the tables — which hold, by the fold, the slices of the
  launch-time endpoint arrays the admissible contents were read from — join the pipeline's invariant beside the
  scoped rest and the generator register, and come back out of it at the end; at exit arrays, tables and the
  remaining buffers are put back together at the exit contents.
-/
import proofs.«413139_j22651657519351_3_alg».proof.Proof.Gen.Kernel.Launch
import proofs.«413139_j22651657519351_3_alg».proof.Proof.Gen.Kernel.Skeleton
import proofs.«413139_j22651657519351_3_alg».proof.Proof.Gen.Kernel.Points
import proofs.«413139_j22651657519351_3_alg».proof.Proof.K.Fold
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Reg

variable (m : (ℓ : Loc nD τ sig) → Buf (Elt F) ℓ) (hR : InRange m)

/-- At the call's entry its two tables hold the slices of the launch-time endpoint arrays: the stretch before it
    wrote them from the argument arrays, which nothing before had changed. -/
theorem tblHeld2 (c : Dev nD) : (fun k => V4 m hR c (pre2.ref k)) = tbl2 m := by
  obtain rfl : c = 0 := Subsingleton.elim _ _
  funext k
  match k with
  | ⟨0, _⟩ =>
    show StableHlo.after hostOps2 (W3 m hR 0) (Proc.devRef .tc main_v9) = _
    after_results
    show extractStridedSlice S40000 ![40000] (W3 m hR 0 (Proc.devRef .tc main_arg1)) slices_S800000_S40000_40000 = _
    rw [W3_arg1]; rfl
  | ⟨1, _⟩ =>
    show StableHlo.after hostOps2 (W3 m hR 0) (Proc.devRef .tc main_v10) = _
    after_results
    show extractStridedSlice S40000 ![40000] (W3 m hR 0 (Proc.devRef .tc main_arg2)) slices_S800000_S40000_40000 = _
    rw [W3_arg2]; rfl

/-- The call's unscoped rest is its two tables, held at the slices, beside the buffers that are neither array nor table. -/
theorem restSplit2 (c : Dev nD) :
    (Pipeline.unscopedRest (Ix := Unit) (Name := ℕ) (U := UR sig nD τ) (Lvl := ℕ) (Pipeline.pin (pcfgs (F := F)) (adm m hR) 2).spec c (V4 m hR c) : sProp 𝕄)
      = iprop(Pipeline.prefHeld (Ix := Unit) (Name := ℕ) (U := UR sig nD τ) (Lvl := ℕ) pre2 c (fun _ => fullShare) (tbl2 m)
          ∗ Pipeline.unscopedRestP (Ix := Unit) (Name := ℕ) (U := UR sig nD τ) (Lvl := ℕ) pre2 spec2 c (V4 m hR c)) := by
  show (Pipeline.unscopedRest (Ix := Unit) (Name := ℕ) (U := UR sig nD τ) (Lvl := ℕ) spec2 c (V4 m hR c) : sProp 𝕄) = _
  rw [Pipeline.unscopedRest_split preFacts2 c (V4 m hR c), tblHeld2 m hR c]

set_option backward.isDefEq.respectTransparency.types false in
def reg2 : Pipeline.RegionSeg (pcfgs (F := F)) (adm m hR) (pdats m hR) () defs₀ 𝒱₀ L lv 2 where
  win := (launch2 (F := F)).win.to₀
  block_pos := (launch2 (F := F)).block_pos
  stage_whole := (launch2 (F := F)).stage_whole
  K := PEmpty
  osem k := k.elim
  ho := Pipeline.OwnSemFacts.none _
  hbody c := (body_obligation2 (V4 m hR) (a2 m hR) c).loose
  hwaits := Pipeline.hwaits_of_owed_zero _ _ _ _ L lv 2 fun _ _ => rfl
  pre c := iprop(StableHlo.held (c : Thread nD τ) (Pipeline.ucRefs τ sig) (W4 m hR c) ∗ R c)
  post c := iprop(StableHlo.held (c : Thread nD τ) (Pipeline.ucRefs τ sig) (W5 m hR c) ∗ R c)
  X c := iprop(∃ r, prngReg c r)
  Y c := iprop((∃ r, prngReg c r) ∗ Pipeline.prefHeld (Ix := Unit) (Name := ℕ) (U := UR sig nD τ) (Lvl := ℕ) pre2 c (fun _ => fullShare) (tbl2 m))
  Z c := Pipeline.unscopedRestP (Ix := Unit) (Name := ℕ) (U := UR sig nD τ) (Lvl := ℕ) pre2 spec2 c (V4 m hR c)
  hentry c := by
    rw [Pipeline.ownSems0_none]
    have hsplit := Pipeline.arrays_of_unscopedBufs (p := 2) (pcfgs (F := F)) (adm m hR) (pdats m hR) (launch2 (F := F)).win (launch2 (F := F)).arr_whole c
      ((pdats m hR 2 c).share_full fun _ => rfl) (V4 m hR c) fun _ => rfl
    rw [Pipeline.unscopedBufs_held, restSplit2 m hR c] at hsplit
    iintro ⟨⟨Hub, Hp, HO⟩, -, -⟩
    ihave H := hsplit $$ Hub
    icases H with ⟨Ha, Ht, Hrest⟩
    imodintro
    isplitl [Ha]; · iexact Ha
    isplitl [Ht]; · iexact Ht
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m hR 2 c).Φ 0 = iprop(Pipeline.ΦA spec2 c ∗ Pipeline.prefHeld (Ix := Unit) (Name := ℕ) (U := UR sig nD τ) (Lvl := ℕ) pre2 c (fun _ => fullShare) (tbl2 m)) from rfl]
    unfold Pipeline.ΦA
    iintro ⟨Hp, Ht, Hr⟩
    isplitl [Hr Hp]
    · isplitl [Hr]; · iexact Hr
      iexact Hp
    iexact Ht
  hout c := by
    rw [Pipeline.ownSems0_none, show (pdats m hR 2 c).Φ (Fin.last _) = iprop(Pipeline.ΦA spec2 c ∗ Pipeline.prefHeld (Ix := Unit) (Name := ℕ) (U := UR sig nD τ) (Lvl := ℕ) pre2 c (fun _ => fullShare) (tbl2 m)) from rfl]
    unfold Pipeline.ΦA
    iintro ⟨⟨Hr, Hp⟩, Ht⟩
    isplitl [Hp Ht]
    · isplitl [Hp]; · iexact Hp
      iexact Ht
    isplitr; · iempintro
    iexact Hr
  hexit c := by
    have hjoin := Pipeline.unscopedBufs_of_arrays (p := 2) (pcfgs (F := F)) (adm m hR) (Ix := Unit) (Name := ℕ) (U := UR sig nD τ) (Lvl := ℕ)
      (launch2 (F := F)).win (launch2 (F := F)).arr_whole c (pdats m hR) ((pdats m hR 2 c).share_full fun _ => rfl)
      (V4 m hR c) (V5 m hR c) ((pdats m hR 2 c).arrAt · (cfg2 (a2 m hR)).N) (hF2 m hR c) (hrest2 m hR c)
    rw [Pipeline.unscopedBufs_held, restSplit2 m hR c] at hjoin
    iintro ⟨Ha, HO, ⟨Hp, Ht⟩, Hrest⟩
    imodintro
    isplitl [Ha Ht Hrest]
    · iapply hjoin
      isplitl [Ha]; · iexact Ha
      isplitl [Ht]; · iexact Ht
      iexact Hrest
    isplitl [Hp]; · iexact Hp
    unfold Pipeline.Dat.owesAt Pipeline.owesWithin
    icases HO with ⟨%W, -, HO⟩; iexists W; iexact HO

end Reg

end Cert.Kernel.Hand

end
-- ==== Proof.K.Reg3.lean ====
/-
  Gather call 3 as a segment of @main: entered from every unscoped buffer at the fold's contents before it and the
  rest (generator register, nothing owed), left at the contents after it. At entry the call's three arrays and its two
  index tables are split out of the unscoped buffers; the tables — which hold, by the fold, the slices of the
  launch-time endpoint arrays the admissible contents were read from — join the pipeline's invariant beside the
  scoped rest and the generator register, and come back out of it at the end; at exit arrays, tables and the
  remaining buffers are put back together at the exit contents.
-/
import proofs.«413139_j22651657519351_3_alg».proof.Proof.Gen.Kernel.Launch
import proofs.«413139_j22651657519351_3_alg».proof.Proof.Gen.Kernel.Skeleton
import proofs.«413139_j22651657519351_3_alg».proof.Proof.Gen.Kernel.Points
import proofs.«413139_j22651657519351_3_alg».proof.Proof.K.Fold
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Reg

variable (m : (ℓ : Loc nD τ sig) → Buf (Elt F) ℓ) (hR : InRange m)

/-- At the call's entry its two tables hold the slices of the launch-time endpoint arrays: the stretch before it
    wrote them from the argument arrays, which nothing before had changed. -/
theorem tblHeld3 (c : Dev nD) : (fun k => V6 m hR c (pre3.ref k)) = tbl3 m := by
  obtain rfl : c = 0 := Subsingleton.elim _ _
  funext k
  match k with
  | ⟨0, _⟩ =>
    show StableHlo.after hostOps3 (W5 m hR 0) (Proc.devRef .tc main_v13) = _
    after_results
    show extractStridedSlice S40000 ![80000] (W5 m hR 0 (Proc.devRef .tc main_arg1)) slices_S800000_S40000_80000 = _
    rw [W5_arg1]; rfl
  | ⟨1, _⟩ =>
    show StableHlo.after hostOps3 (W5 m hR 0) (Proc.devRef .tc main_v14) = _
    after_results
    show extractStridedSlice S40000 ![80000] (W5 m hR 0 (Proc.devRef .tc main_arg2)) slices_S800000_S40000_80000 = _
    rw [W5_arg2]; rfl

/-- The call's unscoped rest is its two tables, held at the slices, beside the buffers that are neither array nor table. -/
theorem restSplit3 (c : Dev nD) :
    (Pipeline.unscopedRest (Ix := Unit) (Name := ℕ) (U := UR sig nD τ) (Lvl := ℕ) (Pipeline.pin (pcfgs (F := F)) (adm m hR) 3).spec c (V6 m hR c) : sProp 𝕄)
      = iprop(Pipeline.prefHeld (Ix := Unit) (Name := ℕ) (U := UR sig nD τ) (Lvl := ℕ) pre3 c (fun _ => fullShare) (tbl3 m)
          ∗ Pipeline.unscopedRestP (Ix := Unit) (Name := ℕ) (U := UR sig nD τ) (Lvl := ℕ) pre3 spec3 c (V6 m hR c)) := by
  show (Pipeline.unscopedRest (Ix := Unit) (Name := ℕ) (U := UR sig nD τ) (Lvl := ℕ) spec3 c (V6 m hR c) : sProp 𝕄) = _
  rw [Pipeline.unscopedRest_split preFacts3 c (V6 m hR c), tblHeld3 m hR c]

set_option backward.isDefEq.respectTransparency.types false in
def reg3 : Pipeline.RegionSeg (pcfgs (F := F)) (adm m hR) (pdats m hR) () defs₀ 𝒱₀ L lv 3 where
  win := (launch3 (F := F)).win.to₀
  block_pos := (launch3 (F := F)).block_pos
  stage_whole := (launch3 (F := F)).stage_whole
  K := PEmpty
  osem k := k.elim
  ho := Pipeline.OwnSemFacts.none _
  hbody c := (body_obligation3 (V6 m hR) (a3 m hR) c).loose
  hwaits := Pipeline.hwaits_of_owed_zero _ _ _ _ L lv 3 fun _ _ => rfl
  pre c := iprop(StableHlo.held (c : Thread nD τ) (Pipeline.ucRefs τ sig) (W6 m hR c) ∗ R c)
  post c := iprop(StableHlo.held (c : Thread nD τ) (Pipeline.ucRefs τ sig) (W7 m hR c) ∗ R c)
  X c := iprop(∃ r, prngReg c r)
  Y c := iprop((∃ r, prngReg c r) ∗ Pipeline.prefHeld (Ix := Unit) (Name := ℕ) (U := UR sig nD τ) (Lvl := ℕ) pre3 c (fun _ => fullShare) (tbl3 m))
  Z c := Pipeline.unscopedRestP (Ix := Unit) (Name := ℕ) (U := UR sig nD τ) (Lvl := ℕ) pre3 spec3 c (V6 m hR c)
  hentry c := by
    rw [Pipeline.ownSems0_none]
    have hsplit := Pipeline.arrays_of_unscopedBufs (p := 3) (pcfgs (F := F)) (adm m hR) (pdats m hR) (launch3 (F := F)).win (launch3 (F := F)).arr_whole c
      ((pdats m hR 3 c).share_full fun _ => rfl) (V6 m hR c) fun _ => rfl
    rw [Pipeline.unscopedBufs_held, restSplit3 m hR c] at hsplit
    iintro ⟨⟨Hub, Hp, HO⟩, -, -⟩
    ihave H := hsplit $$ Hub
    icases H with ⟨Ha, Ht, Hrest⟩
    imodintro
    isplitl [Ha]; · iexact Ha
    isplitl [Ht]; · iexact Ht
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m hR 3 c).Φ 0 = iprop(Pipeline.ΦA spec3 c ∗ Pipeline.prefHeld (Ix := Unit) (Name := ℕ) (U := UR sig nD τ) (Lvl := ℕ) pre3 c (fun _ => fullShare) (tbl3 m)) from rfl]
    unfold Pipeline.ΦA
    iintro ⟨Hp, Ht, Hr⟩
    isplitl [Hr Hp]
    · isplitl [Hr]; · iexact Hr
      iexact Hp
    iexact Ht
  hout c := by
    rw [Pipeline.ownSems0_none, show (pdats m hR 3 c).Φ (Fin.last _) = iprop(Pipeline.ΦA spec3 c ∗ Pipeline.prefHeld (Ix := Unit) (Name := ℕ) (U := UR sig nD τ) (Lvl := ℕ) pre3 c (fun _ => fullShare) (tbl3 m)) from rfl]
    unfold Pipeline.ΦA
    iintro ⟨⟨Hr, Hp⟩, Ht⟩
    isplitl [Hp Ht]
    · isplitl [Hp]; · iexact Hp
      iexact Ht
    isplitr; · iempintro
    iexact Hr
  hexit c := by
    have hjoin := Pipeline.unscopedBufs_of_arrays (p := 3) (pcfgs (F := F)) (adm m hR) (Ix := Unit) (Name := ℕ) (U := UR sig nD τ) (Lvl := ℕ)
      (launch3 (F := F)).win (launch3 (F := F)).arr_whole c (pdats m hR) ((pdats m hR 3 c).share_full fun _ => rfl)
      (V6 m hR c) (V7 m hR c) ((pdats m hR 3 c).arrAt · (cfg3 (a3 m hR)).N) (hF3 m hR c) (hrest3 m hR c)
    rw [Pipeline.unscopedBufs_held, restSplit3 m hR c] at hjoin
    iintro ⟨Ha, HO, ⟨Hp, Ht⟩, Hrest⟩
    imodintro
    isplitl [Ha Ht Hrest]
    · iapply hjoin
      isplitl [Ha]; · iexact Ha
      isplitl [Ht]; · iexact Ht
      iexact Hrest
    isplitl [Hp]; · iexact Hp
    unfold Pipeline.Dat.owesAt Pipeline.owesWithin
    icases HO with ⟨%W, -, HO⟩; iexists W; iexact HO

end Reg

end Cert.Kernel.Hand

end
-- ==== Proof.K.Reg4.lean ====
/-
  Gather call 4 as a segment of @main: entered from every unscoped buffer at the fold's contents before it and the
  rest (generator register, nothing owed), left at the contents after it. At entry the call's three arrays and its two
  index tables are split out of the unscoped buffers; the tables — which hold, by the fold, the slices of the
  launch-time endpoint arrays the admissible contents were read from — join the pipeline's invariant beside the
  scoped rest and the generator register, and come back out of it at the end; at exit arrays, tables and the
  remaining buffers are put back together at the exit contents.
-/
import proofs.«413139_j22651657519351_3_alg».proof.Proof.Gen.Kernel.Launch
import proofs.«413139_j22651657519351_3_alg».proof.Proof.Gen.Kernel.Skeleton
import proofs.«413139_j22651657519351_3_alg».proof.Proof.Gen.Kernel.Points
import proofs.«413139_j22651657519351_3_alg».proof.Proof.K.Fold
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Reg

variable (m : (ℓ : Loc nD τ sig) → Buf (Elt F) ℓ) (hR : InRange m)

/-- At the call's entry its two tables hold the slices of the launch-time endpoint arrays: the stretch before it
    wrote them from the argument arrays, which nothing before had changed. -/
theorem tblHeld4 (c : Dev nD) : (fun k => V8 m hR c (pre4.ref k)) = tbl4 m := by
  obtain rfl : c = 0 := Subsingleton.elim _ _
  funext k
  match k with
  | ⟨0, _⟩ =>
    show StableHlo.after hostOps4 (W7 m hR 0) (Proc.devRef .tc main_v17) = _
    after_results
    show extractStridedSlice S40000 ![120000] (W7 m hR 0 (Proc.devRef .tc main_arg1)) slices_S800000_S40000_120000 = _
    rw [W7_arg1]; rfl
  | ⟨1, _⟩ =>
    show StableHlo.after hostOps4 (W7 m hR 0) (Proc.devRef .tc main_v18) = _
    after_results
    show extractStridedSlice S40000 ![120000] (W7 m hR 0 (Proc.devRef .tc main_arg2)) slices_S800000_S40000_120000 = _
    rw [W7_arg2]; rfl

/-- The call's unscoped rest is its two tables, held at the slices, beside the buffers that are neither array nor table. -/
theorem restSplit4 (c : Dev nD) :
    (Pipeline.unscopedRest (Ix := Unit) (Name := ℕ) (U := UR sig nD τ) (Lvl := ℕ) (Pipeline.pin (pcfgs (F := F)) (adm m hR) 4).spec c (V8 m hR c) : sProp 𝕄)
      = iprop(Pipeline.prefHeld (Ix := Unit) (Name := ℕ) (U := UR sig nD τ) (Lvl := ℕ) pre4 c (fun _ => fullShare) (tbl4 m)
          ∗ Pipeline.unscopedRestP (Ix := Unit) (Name := ℕ) (U := UR sig nD τ) (Lvl := ℕ) pre4 spec4 c (V8 m hR c)) := by
  show (Pipeline.unscopedRest (Ix := Unit) (Name := ℕ) (U := UR sig nD τ) (Lvl := ℕ) spec4 c (V8 m hR c) : sProp 𝕄) = _
  rw [Pipeline.unscopedRest_split preFacts4 c (V8 m hR c), tblHeld4 m hR c]

set_option backward.isDefEq.respectTransparency.types false in
def reg4 : Pipeline.RegionSeg (pcfgs (F := F)) (adm m hR) (pdats m hR) () defs₀ 𝒱₀ L lv 4 where
  win := (launch4 (F := F)).win.to₀
  block_pos := (launch4 (F := F)).block_pos
  stage_whole := (launch4 (F := F)).stage_whole
  K := PEmpty
  osem k := k.elim
  ho := Pipeline.OwnSemFacts.none _
  hbody c := (body_obligation4 (V8 m hR) (a4 m hR) c).loose
  hwaits := Pipeline.hwaits_of_owed_zero _ _ _ _ L lv 4 fun _ _ => rfl
  pre c := iprop(StableHlo.held (c : Thread nD τ) (Pipeline.ucRefs τ sig) (W8 m hR c) ∗ R c)
  post c := iprop(StableHlo.held (c : Thread nD τ) (Pipeline.ucRefs τ sig) (W9 m hR c) ∗ R c)
  X c := iprop(∃ r, prngReg c r)
  Y c := iprop((∃ r, prngReg c r) ∗ Pipeline.prefHeld (Ix := Unit) (Name := ℕ) (U := UR sig nD τ) (Lvl := ℕ) pre4 c (fun _ => fullShare) (tbl4 m))
  Z c := Pipeline.unscopedRestP (Ix := Unit) (Name := ℕ) (U := UR sig nD τ) (Lvl := ℕ) pre4 spec4 c (V8 m hR c)
  hentry c := by
    rw [Pipeline.ownSems0_none]
    have hsplit := Pipeline.arrays_of_unscopedBufs (p := 4) (pcfgs (F := F)) (adm m hR) (pdats m hR) (launch4 (F := F)).win (launch4 (F := F)).arr_whole c
      ((pdats m hR 4 c).share_full fun _ => rfl) (V8 m hR c) fun _ => rfl
    rw [Pipeline.unscopedBufs_held, restSplit4 m hR c] at hsplit
    iintro ⟨⟨Hub, Hp, HO⟩, -, -⟩
    ihave H := hsplit $$ Hub
    icases H with ⟨Ha, Ht, Hrest⟩
    imodintro
    isplitl [Ha]; · iexact Ha
    isplitl [Ht]; · iexact Ht
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m hR 4 c).Φ 0 = iprop(Pipeline.ΦA spec4 c ∗ Pipeline.prefHeld (Ix := Unit) (Name := ℕ) (U := UR sig nD τ) (Lvl := ℕ) pre4 c (fun _ => fullShare) (tbl4 m)) from rfl]
    unfold Pipeline.ΦA
    iintro ⟨Hp, Ht, Hr⟩
    isplitl [Hr Hp]
    · isplitl [Hr]; · iexact Hr
      iexact Hp
    iexact Ht
  hout c := by
    rw [Pipeline.ownSems0_none, show (pdats m hR 4 c).Φ (Fin.last _) = iprop(Pipeline.ΦA spec4 c ∗ Pipeline.prefHeld (Ix := Unit) (Name := ℕ) (U := UR sig nD τ) (Lvl := ℕ) pre4 c (fun _ => fullShare) (tbl4 m)) from rfl]
    unfold Pipeline.ΦA
    iintro ⟨⟨Hr, Hp⟩, Ht⟩
    isplitl [Hp Ht]
    · isplitl [Hp]; · iexact Hp
      iexact Ht
    isplitr; · iempintro
    iexact Hr
  hexit c := by
    have hjoin := Pipeline.unscopedBufs_of_arrays (p := 4) (pcfgs (F := F)) (adm m hR) (Ix := Unit) (Name := ℕ) (U := UR sig nD τ) (Lvl := ℕ)
      (launch4 (F := F)).win (launch4 (F := F)).arr_whole c (pdats m hR) ((pdats m hR 4 c).share_full fun _ => rfl)
      (V8 m hR c) (V9 m hR c) ((pdats m hR 4 c).arrAt · (cfg4 (a4 m hR)).N) (hF4 m hR c) (hrest4 m hR c)
    rw [Pipeline.unscopedBufs_held, restSplit4 m hR c] at hjoin
    iintro ⟨Ha, HO, ⟨Hp, Ht⟩, Hrest⟩
    imodintro
    isplitl [Ha Ht Hrest]
    · iapply hjoin
      isplitl [Ha]; · iexact Ha
      isplitl [Ht]; · iexact Ht
      iexact Hrest
    isplitl [Hp]; · iexact Hp
    unfold Pipeline.Dat.owesAt Pipeline.owesWithin
    icases HO with ⟨%W, -, HO⟩; iexists W; iexact HO

end Reg

end Cert.Kernel.Hand

end
-- ==== Proof.K.Reg5.lean ====
/-
  Gather call 5 as a segment of @main: entered from every unscoped buffer at the fold's contents before it and the
  rest (generator register, nothing owed), left at the contents after it. At entry the call's three arrays and its two
  index tables are split out of the unscoped buffers; the tables — which hold, by the fold, the slices of the
  launch-time endpoint arrays the admissible contents were read from — join the pipeline's invariant beside the
  scoped rest and the generator register, and come back out of it at the end; at exit arrays, tables and the
  remaining buffers are put back together at the exit contents.
-/
import proofs.«413139_j22651657519351_3_alg».proof.Proof.Gen.Kernel.Launch
import proofs.«413139_j22651657519351_3_alg».proof.Proof.Gen.Kernel.Skeleton
import proofs.«413139_j22651657519351_3_alg».proof.Proof.Gen.Kernel.Points
import proofs.«413139_j22651657519351_3_alg».proof.Proof.K.Fold
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Reg

variable (m : (ℓ : Loc nD τ sig) → Buf (Elt F) ℓ) (hR : InRange m)

/-- At the call's entry its two tables hold the slices of the launch-time endpoint arrays: the stretch before it
    wrote them from the argument arrays, which nothing before had changed. -/
theorem tblHeld5 (c : Dev nD) : (fun k => V10 m hR c (pre5.ref k)) = tbl5 m := by
  obtain rfl : c = 0 := Subsingleton.elim _ _
  funext k
  match k with
  | ⟨0, _⟩ =>
    show StableHlo.after hostOps5 (W9 m hR 0) (Proc.devRef .tc main_v21) = _
    after_results
    show extractStridedSlice S40000 ![160000] (W9 m hR 0 (Proc.devRef .tc main_arg1)) slices_S800000_S40000_160000 = _
    rw [W9_arg1]; rfl
  | ⟨1, _⟩ =>
    show StableHlo.after hostOps5 (W9 m hR 0) (Proc.devRef .tc main_v22) = _
    after_results
    show extractStridedSlice S40000 ![160000] (W9 m hR 0 (Proc.devRef .tc main_arg2)) slices_S800000_S40000_160000 = _
    rw [W9_arg2]; rfl

/-- The call's unscoped rest is its two tables, held at the slices, beside the buffers that are neither array nor table. -/
theorem restSplit5 (c : Dev nD) :
    (Pipeline.unscopedRest (Ix := Unit) (Name := ℕ) (U := UR sig nD τ) (Lvl := ℕ) (Pipeline.pin (pcfgs (F := F)) (adm m hR) 5).spec c (V10 m hR c) : sProp 𝕄)
      = iprop(Pipeline.prefHeld (Ix := Unit) (Name := ℕ) (U := UR sig nD τ) (Lvl := ℕ) pre5 c (fun _ => fullShare) (tbl5 m)
          ∗ Pipeline.unscopedRestP (Ix := Unit) (Name := ℕ) (U := UR sig nD τ) (Lvl := ℕ) pre5 spec5 c (V10 m hR c)) := by
  show (Pipeline.unscopedRest (Ix := Unit) (Name := ℕ) (U := UR sig nD τ) (Lvl := ℕ) spec5 c (V10 m hR c) : sProp 𝕄) = _
  rw [Pipeline.unscopedRest_split preFacts5 c (V10 m hR c), tblHeld5 m hR c]

set_option backward.isDefEq.respectTransparency.types false in
def reg5 : Pipeline.RegionSeg (pcfgs (F := F)) (adm m hR) (pdats m hR) () defs₀ 𝒱₀ L lv 5 where
  win := (launch5 (F := F)).win.to₀
  block_pos := (launch5 (F := F)).block_pos
  stage_whole := (launch5 (F := F)).stage_whole
  K := PEmpty
  osem k := k.elim
  ho := Pipeline.OwnSemFacts.none _
  hbody c := (body_obligation5 (V10 m hR) (a5 m hR) c).loose
  hwaits := Pipeline.hwaits_of_owed_zero _ _ _ _ L lv 5 fun _ _ => rfl
  pre c := iprop(StableHlo.held (c : Thread nD τ) (Pipeline.ucRefs τ sig) (W10 m hR c) ∗ R c)
  post c := iprop(StableHlo.held (c : Thread nD τ) (Pipeline.ucRefs τ sig) (W11 m hR c) ∗ R c)
  X c := iprop(∃ r, prngReg c r)
  Y c := iprop((∃ r, prngReg c r) ∗ Pipeline.prefHeld (Ix := Unit) (Name := ℕ) (U := UR sig nD τ) (Lvl := ℕ) pre5 c (fun _ => fullShare) (tbl5 m))
  Z c := Pipeline.unscopedRestP (Ix := Unit) (Name := ℕ) (U := UR sig nD τ) (Lvl := ℕ) pre5 spec5 c (V10 m hR c)
  hentry c := by
    rw [Pipeline.ownSems0_none]
    have hsplit := Pipeline.arrays_of_unscopedBufs (p := 5) (pcfgs (F := F)) (adm m hR) (pdats m hR) (launch5 (F := F)).win (launch5 (F := F)).arr_whole c
      ((pdats m hR 5 c).share_full fun _ => rfl) (V10 m hR c) fun _ => rfl
    rw [Pipeline.unscopedBufs_held, restSplit5 m hR c] at hsplit
    iintro ⟨⟨Hub, Hp, HO⟩, -, -⟩
    ihave H := hsplit $$ Hub
    icases H with ⟨Ha, Ht, Hrest⟩
    imodintro
    isplitl [Ha]; · iexact Ha
    isplitl [Ht]; · iexact Ht
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m hR 5 c).Φ 0 = iprop(Pipeline.ΦA spec5 c ∗ Pipeline.prefHeld (Ix := Unit) (Name := ℕ) (U := UR sig nD τ) (Lvl := ℕ) pre5 c (fun _ => fullShare) (tbl5 m)) from rfl]
    unfold Pipeline.ΦA
    iintro ⟨Hp, Ht, Hr⟩
    isplitl [Hr Hp]
    · isplitl [Hr]; · iexact Hr
      iexact Hp
    iexact Ht
  hout c := by
    rw [Pipeline.ownSems0_none, show (pdats m hR 5 c).Φ (Fin.last _) = iprop(Pipeline.ΦA spec5 c ∗ Pipeline.prefHeld (Ix := Unit) (Name := ℕ) (U := UR sig nD τ) (Lvl := ℕ) pre5 c (fun _ => fullShare) (tbl5 m)) from rfl]
    unfold Pipeline.ΦA
    iintro ⟨⟨Hr, Hp⟩, Ht⟩
    isplitl [Hp Ht]
    · isplitl [Hp]; · iexact Hp
      iexact Ht
    isplitr; · iempintro
    iexact Hr
  hexit c := by
    have hjoin := Pipeline.unscopedBufs_of_arrays (p := 5) (pcfgs (F := F)) (adm m hR) (Ix := Unit) (Name := ℕ) (U := UR sig nD τ) (Lvl := ℕ)
      (launch5 (F := F)).win (launch5 (F := F)).arr_whole c (pdats m hR) ((pdats m hR 5 c).share_full fun _ => rfl)
      (V10 m hR c) (V11 m hR c) ((pdats m hR 5 c).arrAt · (cfg5 (a5 m hR)).N) (hF5 m hR c) (hrest5 m hR c)
    rw [Pipeline.unscopedBufs_held, restSplit5 m hR c] at hjoin
    iintro ⟨Ha, HO, ⟨Hp, Ht⟩, Hrest⟩
    imodintro
    isplitl [Ha Ht Hrest]
    · iapply hjoin
      isplitl [Ha]; · iexact Ha
      isplitl [Ht]; · iexact Ht
      iexact Hrest
    isplitl [Hp]; · iexact Hp
    unfold Pipeline.Dat.owesAt Pipeline.owesWithin
    icases HO with ⟨%W, -, HO⟩; iexists W; iexact HO

end Reg

end Cert.Kernel.Hand

end
-- ==== Proof.K.Reg6.lean ====
/-
  Gather call 6 as a segment of @main: entered from every unscoped buffer at the fold's contents before it and the
  rest (generator register, nothing owed), left at the contents after it. At entry the call's three arrays and its two
  index tables are split out of the unscoped buffers; the tables — which hold, by the fold, the slices of the
  launch-time endpoint arrays the admissible contents were read from — join the pipeline's invariant beside the
  scoped rest and the generator register, and come back out of it at the end; at exit arrays, tables and the
  remaining buffers are put back together at the exit contents.
-/
import proofs.«413139_j22651657519351_3_alg».proof.Proof.Gen.Kernel.Launch
import proofs.«413139_j22651657519351_3_alg».proof.Proof.Gen.Kernel.Skeleton
import proofs.«413139_j22651657519351_3_alg».proof.Proof.Gen.Kernel.Points
import proofs.«413139_j22651657519351_3_alg».proof.Proof.K.Fold
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Reg

variable (m : (ℓ : Loc nD τ sig) → Buf (Elt F) ℓ) (hR : InRange m)

/-- At the call's entry its two tables hold the slices of the launch-time endpoint arrays: the stretch before it
    wrote them from the argument arrays, which nothing before had changed. -/
theorem tblHeld6 (c : Dev nD) : (fun k => V12 m hR c (pre6.ref k)) = tbl6 m := by
  obtain rfl : c = 0 := Subsingleton.elim _ _
  funext k
  match k with
  | ⟨0, _⟩ =>
    show StableHlo.after hostOps6 (W11 m hR 0) (Proc.devRef .tc main_v25) = _
    after_results
    show extractStridedSlice S40000 ![200000] (W11 m hR 0 (Proc.devRef .tc main_arg1)) slices_S800000_S40000_200000 = _
    rw [W11_arg1]; rfl
  | ⟨1, _⟩ =>
    show StableHlo.after hostOps6 (W11 m hR 0) (Proc.devRef .tc main_v26) = _
    after_results
    show extractStridedSlice S40000 ![200000] (W11 m hR 0 (Proc.devRef .tc main_arg2)) slices_S800000_S40000_200000 = _
    rw [W11_arg2]; rfl

/-- The call's unscoped rest is its two tables, held at the slices, beside the buffers that are neither array nor table. -/
theorem restSplit6 (c : Dev nD) :
    (Pipeline.unscopedRest (Ix := Unit) (Name := ℕ) (U := UR sig nD τ) (Lvl := ℕ) (Pipeline.pin (pcfgs (F := F)) (adm m hR) 6).spec c (V12 m hR c) : sProp 𝕄)
      = iprop(Pipeline.prefHeld (Ix := Unit) (Name := ℕ) (U := UR sig nD τ) (Lvl := ℕ) pre6 c (fun _ => fullShare) (tbl6 m)
          ∗ Pipeline.unscopedRestP (Ix := Unit) (Name := ℕ) (U := UR sig nD τ) (Lvl := ℕ) pre6 spec6 c (V12 m hR c)) := by
  show (Pipeline.unscopedRest (Ix := Unit) (Name := ℕ) (U := UR sig nD τ) (Lvl := ℕ) spec6 c (V12 m hR c) : sProp 𝕄) = _
  rw [Pipeline.unscopedRest_split preFacts6 c (V12 m hR c), tblHeld6 m hR c]

set_option backward.isDefEq.respectTransparency.types false in
def reg6 : Pipeline.RegionSeg (pcfgs (F := F)) (adm m hR) (pdats m hR) () defs₀ 𝒱₀ L lv 6 where
  win := (launch6 (F := F)).win.to₀
  block_pos := (launch6 (F := F)).block_pos
  stage_whole := (launch6 (F := F)).stage_whole
  K := PEmpty
  osem k := k.elim
  ho := Pipeline.OwnSemFacts.none _
  hbody c := (body_obligation6 (V12 m hR) (a6 m hR) c).loose
  hwaits := Pipeline.hwaits_of_owed_zero _ _ _ _ L lv 6 fun _ _ => rfl
  pre c := iprop(StableHlo.held (c : Thread nD τ) (Pipeline.ucRefs τ sig) (W12 m hR c) ∗ R c)
  post c := iprop(StableHlo.held (c : Thread nD τ) (Pipeline.ucRefs τ sig) (W13 m hR c) ∗ R c)
  X c := iprop(∃ r, prngReg c r)
  Y c := iprop((∃ r, prngReg c r) ∗ Pipeline.prefHeld (Ix := Unit) (Name := ℕ) (U := UR sig nD τ) (Lvl := ℕ) pre6 c (fun _ => fullShare) (tbl6 m))
  Z c := Pipeline.unscopedRestP (Ix := Unit) (Name := ℕ) (U := UR sig nD τ) (Lvl := ℕ) pre6 spec6 c (V12 m hR c)
  hentry c := by
    rw [Pipeline.ownSems0_none]
    have hsplit := Pipeline.arrays_of_unscopedBufs (p := 6) (pcfgs (F := F)) (adm m hR) (pdats m hR) (launch6 (F := F)).win (launch6 (F := F)).arr_whole c
      ((pdats m hR 6 c).share_full fun _ => rfl) (V12 m hR c) fun _ => rfl
    rw [Pipeline.unscopedBufs_held, restSplit6 m hR c] at hsplit
    iintro ⟨⟨Hub, Hp, HO⟩, -, -⟩
    ihave H := hsplit $$ Hub
    icases H with ⟨Ha, Ht, Hrest⟩
    imodintro
    isplitl [Ha]; · iexact Ha
    isplitl [Ht]; · iexact Ht
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m hR 6 c).Φ 0 = iprop(Pipeline.ΦA spec6 c ∗ Pipeline.prefHeld (Ix := Unit) (Name := ℕ) (U := UR sig nD τ) (Lvl := ℕ) pre6 c (fun _ => fullShare) (tbl6 m)) from rfl]
    unfold Pipeline.ΦA
    iintro ⟨Hp, Ht, Hr⟩
    isplitl [Hr Hp]
    · isplitl [Hr]; · iexact Hr
      iexact Hp
    iexact Ht
  hout c := by
    rw [Pipeline.ownSems0_none, show (pdats m hR 6 c).Φ (Fin.last _) = iprop(Pipeline.ΦA spec6 c ∗ Pipeline.prefHeld (Ix := Unit) (Name := ℕ) (U := UR sig nD τ) (Lvl := ℕ) pre6 c (fun _ => fullShare) (tbl6 m)) from rfl]
    unfold Pipeline.ΦA
    iintro ⟨⟨Hr, Hp⟩, Ht⟩
    isplitl [Hp Ht]
    · isplitl [Hp]; · iexact Hp
      iexact Ht
    isplitr; · iempintro
    iexact Hr
  hexit c := by
    have hjoin := Pipeline.unscopedBufs_of_arrays (p := 6) (pcfgs (F := F)) (adm m hR) (Ix := Unit) (Name := ℕ) (U := UR sig nD τ) (Lvl := ℕ)
      (launch6 (F := F)).win (launch6 (F := F)).arr_whole c (pdats m hR) ((pdats m hR 6 c).share_full fun _ => rfl)
      (V12 m hR c) (V13 m hR c) ((pdats m hR 6 c).arrAt · (cfg6 (a6 m hR)).N) (hF6 m hR c) (hrest6 m hR c)
    rw [Pipeline.unscopedBufs_held, restSplit6 m hR c] at hjoin
    iintro ⟨Ha, HO, ⟨Hp, Ht⟩, Hrest⟩
    imodintro
    isplitl [Ha Ht Hrest]
    · iapply hjoin
      isplitl [Ha]; · iexact Ha
      isplitl [Ht]; · iexact Ht
      iexact Hrest
    isplitl [Hp]; · iexact Hp
    unfold Pipeline.Dat.owesAt Pipeline.owesWithin
    icases HO with ⟨%W, -, HO⟩; iexists W; iexact HO

end Reg

end Cert.Kernel.Hand

end
-- ==== Proof.K.Reg7.lean ====
/-
  Gather call 7 as a segment of @main: entered from every unscoped buffer at the fold's contents before it and the
  rest (generator register, nothing owed), left at the contents after it. At entry the call's three arrays and its two
  index tables are split out of the unscoped buffers; the tables — which hold, by the fold, the slices of the
  launch-time endpoint arrays the admissible contents were read from — join the pipeline's invariant beside the
  scoped rest and the generator register, and come back out of it at the end; at exit arrays, tables and the
  remaining buffers are put back together at the exit contents.
-/
import proofs.«413139_j22651657519351_3_alg».proof.Proof.Gen.Kernel.Launch
import proofs.«413139_j22651657519351_3_alg».proof.Proof.Gen.Kernel.Skeleton
import proofs.«413139_j22651657519351_3_alg».proof.Proof.Gen.Kernel.Points
import proofs.«413139_j22651657519351_3_alg».proof.Proof.K.Fold
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Reg

variable (m : (ℓ : Loc nD τ sig) → Buf (Elt F) ℓ) (hR : InRange m)

/-- At the call's entry its two tables hold the slices of the launch-time endpoint arrays: the stretch before it
    wrote them from the argument arrays, which nothing before had changed. -/
theorem tblHeld7 (c : Dev nD) : (fun k => V14 m hR c (pre7.ref k)) = tbl7 m := by
  obtain rfl : c = 0 := Subsingleton.elim _ _
  funext k
  match k with
  | ⟨0, _⟩ =>
    show StableHlo.after hostOps7 (W13 m hR 0) (Proc.devRef .tc main_v29) = _
    after_results
    show extractStridedSlice S40000 ![240000] (W13 m hR 0 (Proc.devRef .tc main_arg1)) slices_S800000_S40000_240000 = _
    rw [W13_arg1]; rfl
  | ⟨1, _⟩ =>
    show StableHlo.after hostOps7 (W13 m hR 0) (Proc.devRef .tc main_v30) = _
    after_results
    show extractStridedSlice S40000 ![240000] (W13 m hR 0 (Proc.devRef .tc main_arg2)) slices_S800000_S40000_240000 = _
    rw [W13_arg2]; rfl

/-- The call's unscoped rest is its two tables, held at the slices, beside the buffers that are neither array nor table. -/
theorem restSplit7 (c : Dev nD) :
    (Pipeline.unscopedRest (Ix := Unit) (Name := ℕ) (U := UR sig nD τ) (Lvl := ℕ) (Pipeline.pin (pcfgs (F := F)) (adm m hR) 7).spec c (V14 m hR c) : sProp 𝕄)
      = iprop(Pipeline.prefHeld (Ix := Unit) (Name := ℕ) (U := UR sig nD τ) (Lvl := ℕ) pre7 c (fun _ => fullShare) (tbl7 m)
          ∗ Pipeline.unscopedRestP (Ix := Unit) (Name := ℕ) (U := UR sig nD τ) (Lvl := ℕ) pre7 spec7 c (V14 m hR c)) := by
  show (Pipeline.unscopedRest (Ix := Unit) (Name := ℕ) (U := UR sig nD τ) (Lvl := ℕ) spec7 c (V14 m hR c) : sProp 𝕄) = _
  rw [Pipeline.unscopedRest_split preFacts7 c (V14 m hR c), tblHeld7 m hR c]

set_option backward.isDefEq.respectTransparency.types false in
def reg7 : Pipeline.RegionSeg (pcfgs (F := F)) (adm m hR) (pdats m hR) () defs₀ 𝒱₀ L lv 7 where
  win := (launch7 (F := F)).win.to₀
  block_pos := (launch7 (F := F)).block_pos
  stage_whole := (launch7 (F := F)).stage_whole
  K := PEmpty
  osem k := k.elim
  ho := Pipeline.OwnSemFacts.none _
  hbody c := (body_obligation7 (V14 m hR) (a7 m hR) c).loose
  hwaits := Pipeline.hwaits_of_owed_zero _ _ _ _ L lv 7 fun _ _ => rfl
  pre c := iprop(StableHlo.held (c : Thread nD τ) (Pipeline.ucRefs τ sig) (W14 m hR c) ∗ R c)
  post c := iprop(StableHlo.held (c : Thread nD τ) (Pipeline.ucRefs τ sig) (W15 m hR c) ∗ R c)
  X c := iprop(∃ r, prngReg c r)
  Y c := iprop((∃ r, prngReg c r) ∗ Pipeline.prefHeld (Ix := Unit) (Name := ℕ) (U := UR sig nD τ) (Lvl := ℕ) pre7 c (fun _ => fullShare) (tbl7 m))
  Z c := Pipeline.unscopedRestP (Ix := Unit) (Name := ℕ) (U := UR sig nD τ) (Lvl := ℕ) pre7 spec7 c (V14 m hR c)
  hentry c := by
    rw [Pipeline.ownSems0_none]
    have hsplit := Pipeline.arrays_of_unscopedBufs (p := 7) (pcfgs (F := F)) (adm m hR) (pdats m hR) (launch7 (F := F)).win (launch7 (F := F)).arr_whole c
      ((pdats m hR 7 c).share_full fun _ => rfl) (V14 m hR c) fun _ => rfl
    rw [Pipeline.unscopedBufs_held, restSplit7 m hR c] at hsplit
    iintro ⟨⟨Hub, Hp, HO⟩, -, -⟩
    ihave H := hsplit $$ Hub
    icases H with ⟨Ha, Ht, Hrest⟩
    imodintro
    isplitl [Ha]; · iexact Ha
    isplitl [Ht]; · iexact Ht
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m hR 7 c).Φ 0 = iprop(Pipeline.ΦA spec7 c ∗ Pipeline.prefHeld (Ix := Unit) (Name := ℕ) (U := UR sig nD τ) (Lvl := ℕ) pre7 c (fun _ => fullShare) (tbl7 m)) from rfl]
    unfold Pipeline.ΦA
    iintro ⟨Hp, Ht, Hr⟩
    isplitl [Hr Hp]
    · isplitl [Hr]; · iexact Hr
      iexact Hp
    iexact Ht
  hout c := by
    rw [Pipeline.ownSems0_none, show (pdats m hR 7 c).Φ (Fin.last _) = iprop(Pipeline.ΦA spec7 c ∗ Pipeline.prefHeld (Ix := Unit) (Name := ℕ) (U := UR sig nD τ) (Lvl := ℕ) pre7 c (fun _ => fullShare) (tbl7 m)) from rfl]
    unfold Pipeline.ΦA
    iintro ⟨⟨Hr, Hp⟩, Ht⟩
    isplitl [Hp Ht]
    · isplitl [Hp]; · iexact Hp
      iexact Ht
    isplitr; · iempintro
    iexact Hr
  hexit c := by
    have hjoin := Pipeline.unscopedBufs_of_arrays (p := 7) (pcfgs (F := F)) (adm m hR) (Ix := Unit) (Name := ℕ) (U := UR sig nD τ) (Lvl := ℕ)
      (launch7 (F := F)).win (launch7 (F := F)).arr_whole c (pdats m hR) ((pdats m hR 7 c).share_full fun _ => rfl)
      (V14 m hR c) (V15 m hR c) ((pdats m hR 7 c).arrAt · (cfg7 (a7 m hR)).N) (hF7 m hR c) (hrest7 m hR c)
    rw [Pipeline.unscopedBufs_held, restSplit7 m hR c] at hjoin
    iintro ⟨Ha, HO, ⟨Hp, Ht⟩, Hrest⟩
    imodintro
    isplitl [Ha Ht Hrest]
    · iapply hjoin
      isplitl [Ha]; · iexact Ha
      isplitl [Ht]; · iexact Ht
      iexact Hrest
    isplitl [Hp]; · iexact Hp
    unfold Pipeline.Dat.owesAt Pipeline.owesWithin
    icases HO with ⟨%W, -, HO⟩; iexists W; iexact HO

end Reg

end Cert.Kernel.Hand

end
-- ==== Proof.K.Reg8.lean ====
/-
  Gather call 8 as a segment of @main: entered from every unscoped buffer at the fold's contents before it and the
  rest (generator register, nothing owed), left at the contents after it. At entry the call's three arrays and its two
  index tables are split out of the unscoped buffers; the tables — which hold, by the fold, the slices of the
  launch-time endpoint arrays the admissible contents were read from — join the pipeline's invariant beside the
  scoped rest and the generator register, and come back out of it at the end; at exit arrays, tables and the
  remaining buffers are put back together at the exit contents.
-/
import proofs.«413139_j22651657519351_3_alg».proof.Proof.Gen.Kernel.Launch
import proofs.«413139_j22651657519351_3_alg».proof.Proof.Gen.Kernel.Skeleton
import proofs.«413139_j22651657519351_3_alg».proof.Proof.Gen.Kernel.Points
import proofs.«413139_j22651657519351_3_alg».proof.Proof.K.Fold
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Reg

variable (m : (ℓ : Loc nD τ sig) → Buf (Elt F) ℓ) (hR : InRange m)

/-- At the call's entry its two tables hold the slices of the launch-time endpoint arrays: the stretch before it
    wrote them from the argument arrays, which nothing before had changed. -/
theorem tblHeld8 (c : Dev nD) : (fun k => V16 m hR c (pre8.ref k)) = tbl8 m := by
  obtain rfl : c = 0 := Subsingleton.elim _ _
  funext k
  match k with
  | ⟨0, _⟩ =>
    show StableHlo.after hostOps8 (W15 m hR 0) (Proc.devRef .tc main_v33) = _
    after_results
    show extractStridedSlice S40000 ![280000] (W15 m hR 0 (Proc.devRef .tc main_arg1)) slices_S800000_S40000_280000 = _
    rw [W15_arg1]; rfl
  | ⟨1, _⟩ =>
    show StableHlo.after hostOps8 (W15 m hR 0) (Proc.devRef .tc main_v34) = _
    after_results
    show extractStridedSlice S40000 ![280000] (W15 m hR 0 (Proc.devRef .tc main_arg2)) slices_S800000_S40000_280000 = _
    rw [W15_arg2]; rfl

/-- The call's unscoped rest is its two tables, held at the slices, beside the buffers that are neither array nor table. -/
theorem restSplit8 (c : Dev nD) :
    (Pipeline.unscopedRest (Ix := Unit) (Name := ℕ) (U := UR sig nD τ) (Lvl := ℕ) (Pipeline.pin (pcfgs (F := F)) (adm m hR) 8).spec c (V16 m hR c) : sProp 𝕄)
      = iprop(Pipeline.prefHeld (Ix := Unit) (Name := ℕ) (U := UR sig nD τ) (Lvl := ℕ) pre8 c (fun _ => fullShare) (tbl8 m)
          ∗ Pipeline.unscopedRestP (Ix := Unit) (Name := ℕ) (U := UR sig nD τ) (Lvl := ℕ) pre8 spec8 c (V16 m hR c)) := by
  show (Pipeline.unscopedRest (Ix := Unit) (Name := ℕ) (U := UR sig nD τ) (Lvl := ℕ) spec8 c (V16 m hR c) : sProp 𝕄) = _
  rw [Pipeline.unscopedRest_split preFacts8 c (V16 m hR c), tblHeld8 m hR c]

set_option backward.isDefEq.respectTransparency.types false in
def reg8 : Pipeline.RegionSeg (pcfgs (F := F)) (adm m hR) (pdats m hR) () defs₀ 𝒱₀ L lv 8 where
  win := (launch8 (F := F)).win.to₀
  block_pos := (launch8 (F := F)).block_pos
  stage_whole := (launch8 (F := F)).stage_whole
  K := PEmpty
  osem k := k.elim
  ho := Pipeline.OwnSemFacts.none _
  hbody c := (body_obligation8 (V16 m hR) (a8 m hR) c).loose
  hwaits := Pipeline.hwaits_of_owed_zero _ _ _ _ L lv 8 fun _ _ => rfl
  pre c := iprop(StableHlo.held (c : Thread nD τ) (Pipeline.ucRefs τ sig) (W16 m hR c) ∗ R c)
  post c := iprop(StableHlo.held (c : Thread nD τ) (Pipeline.ucRefs τ sig) (W17 m hR c) ∗ R c)
  X c := iprop(∃ r, prngReg c r)
  Y c := iprop((∃ r, prngReg c r) ∗ Pipeline.prefHeld (Ix := Unit) (Name := ℕ) (U := UR sig nD τ) (Lvl := ℕ) pre8 c (fun _ => fullShare) (tbl8 m))
  Z c := Pipeline.unscopedRestP (Ix := Unit) (Name := ℕ) (U := UR sig nD τ) (Lvl := ℕ) pre8 spec8 c (V16 m hR c)
  hentry c := by
    rw [Pipeline.ownSems0_none]
    have hsplit := Pipeline.arrays_of_unscopedBufs (p := 8) (pcfgs (F := F)) (adm m hR) (pdats m hR) (launch8 (F := F)).win (launch8 (F := F)).arr_whole c
      ((pdats m hR 8 c).share_full fun _ => rfl) (V16 m hR c) fun _ => rfl
    rw [Pipeline.unscopedBufs_held, restSplit8 m hR c] at hsplit
    iintro ⟨⟨Hub, Hp, HO⟩, -, -⟩
    ihave H := hsplit $$ Hub
    icases H with ⟨Ha, Ht, Hrest⟩
    imodintro
    isplitl [Ha]; · iexact Ha
    isplitl [Ht]; · iexact Ht
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m hR 8 c).Φ 0 = iprop(Pipeline.ΦA spec8 c ∗ Pipeline.prefHeld (Ix := Unit) (Name := ℕ) (U := UR sig nD τ) (Lvl := ℕ) pre8 c (fun _ => fullShare) (tbl8 m)) from rfl]
    unfold Pipeline.ΦA
    iintro ⟨Hp, Ht, Hr⟩
    isplitl [Hr Hp]
    · isplitl [Hr]; · iexact Hr
      iexact Hp
    iexact Ht
  hout c := by
    rw [Pipeline.ownSems0_none, show (pdats m hR 8 c).Φ (Fin.last _) = iprop(Pipeline.ΦA spec8 c ∗ Pipeline.prefHeld (Ix := Unit) (Name := ℕ) (U := UR sig nD τ) (Lvl := ℕ) pre8 c (fun _ => fullShare) (tbl8 m)) from rfl]
    unfold Pipeline.ΦA
    iintro ⟨⟨Hr, Hp⟩, Ht⟩
    isplitl [Hp Ht]
    · isplitl [Hp]; · iexact Hp
      iexact Ht
    isplitr; · iempintro
    iexact Hr
  hexit c := by
    have hjoin := Pipeline.unscopedBufs_of_arrays (p := 8) (pcfgs (F := F)) (adm m hR) (Ix := Unit) (Name := ℕ) (U := UR sig nD τ) (Lvl := ℕ)
      (launch8 (F := F)).win (launch8 (F := F)).arr_whole c (pdats m hR) ((pdats m hR 8 c).share_full fun _ => rfl)
      (V16 m hR c) (V17 m hR c) ((pdats m hR 8 c).arrAt · (cfg8 (a8 m hR)).N) (hF8 m hR c) (hrest8 m hR c)
    rw [Pipeline.unscopedBufs_held, restSplit8 m hR c] at hjoin
    iintro ⟨Ha, HO, ⟨Hp, Ht⟩, Hrest⟩
    imodintro
    isplitl [Ha Ht Hrest]
    · iapply hjoin
      isplitl [Ha]; · iexact Ha
      isplitl [Ht]; · iexact Ht
      iexact Hrest
    isplitl [Hp]; · iexact Hp
    unfold Pipeline.Dat.owesAt Pipeline.owesWithin
    icases HO with ⟨%W, -, HO⟩; iexists W; iexact HO

end Reg

end Cert.Kernel.Hand

end
-- ==== Proof.K.Reg9.lean ====
/-
  Gather call 9 as a segment of @main: entered from every unscoped buffer at the fold's contents before it and the
  rest (generator register, nothing owed), left at the contents after it. At entry the call's three arrays and its two
  index tables are split out of the unscoped buffers; the tables — which hold, by the fold, the slices of the
  launch-time endpoint arrays the admissible contents were read from — join the pipeline's invariant beside the
  scoped rest and the generator register, and come back out of it at the end; at exit arrays, tables and the
  remaining buffers are put back together at the exit contents.
-/
import proofs.«413139_j22651657519351_3_alg».proof.Proof.Gen.Kernel.Launch
import proofs.«413139_j22651657519351_3_alg».proof.Proof.Gen.Kernel.Skeleton
import proofs.«413139_j22651657519351_3_alg».proof.Proof.Gen.Kernel.Points
import proofs.«413139_j22651657519351_3_alg».proof.Proof.K.Fold
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Reg

variable (m : (ℓ : Loc nD τ sig) → Buf (Elt F) ℓ) (hR : InRange m)

/-- At the call's entry its two tables hold the slices of the launch-time endpoint arrays: the stretch before it
    wrote them from the argument arrays, which nothing before had changed. -/
theorem tblHeld9 (c : Dev nD) : (fun k => V18 m hR c (pre9.ref k)) = tbl9 m := by
  obtain rfl : c = 0 := Subsingleton.elim _ _
  funext k
  match k with
  | ⟨0, _⟩ =>
    show StableHlo.after hostOps9 (W17 m hR 0) (Proc.devRef .tc main_v37) = _
    after_results
    show extractStridedSlice S40000 ![320000] (W17 m hR 0 (Proc.devRef .tc main_arg1)) slices_S800000_S40000_320000 = _
    rw [W17_arg1]; rfl
  | ⟨1, _⟩ =>
    show StableHlo.after hostOps9 (W17 m hR 0) (Proc.devRef .tc main_v38) = _
    after_results
    show extractStridedSlice S40000 ![320000] (W17 m hR 0 (Proc.devRef .tc main_arg2)) slices_S800000_S40000_320000 = _
    rw [W17_arg2]; rfl

/-- The call's unscoped rest is its two tables, held at the slices, beside the buffers that are neither array nor table. -/
theorem restSplit9 (c : Dev nD) :
    (Pipeline.unscopedRest (Ix := Unit) (Name := ℕ) (U := UR sig nD τ) (Lvl := ℕ) (Pipeline.pin (pcfgs (F := F)) (adm m hR) 9).spec c (V18 m hR c) : sProp 𝕄)
      = iprop(Pipeline.prefHeld (Ix := Unit) (Name := ℕ) (U := UR sig nD τ) (Lvl := ℕ) pre9 c (fun _ => fullShare) (tbl9 m)
          ∗ Pipeline.unscopedRestP (Ix := Unit) (Name := ℕ) (U := UR sig nD τ) (Lvl := ℕ) pre9 spec9 c (V18 m hR c)) := by
  show (Pipeline.unscopedRest (Ix := Unit) (Name := ℕ) (U := UR sig nD τ) (Lvl := ℕ) spec9 c (V18 m hR c) : sProp 𝕄) = _
  rw [Pipeline.unscopedRest_split preFacts9 c (V18 m hR c), tblHeld9 m hR c]

set_option backward.isDefEq.respectTransparency.types false in
def reg9 : Pipeline.RegionSeg (pcfgs (F := F)) (adm m hR) (pdats m hR) () defs₀ 𝒱₀ L lv 9 where
  win := (launch9 (F := F)).win.to₀
  block_pos := (launch9 (F := F)).block_pos
  stage_whole := (launch9 (F := F)).stage_whole
  K := PEmpty
  osem k := k.elim
  ho := Pipeline.OwnSemFacts.none _
  hbody c := (body_obligation9 (V18 m hR) (a9 m hR) c).loose
  hwaits := Pipeline.hwaits_of_owed_zero _ _ _ _ L lv 9 fun _ _ => rfl
  pre c := iprop(StableHlo.held (c : Thread nD τ) (Pipeline.ucRefs τ sig) (W18 m hR c) ∗ R c)
  post c := iprop(StableHlo.held (c : Thread nD τ) (Pipeline.ucRefs τ sig) (W19 m hR c) ∗ R c)
  X c := iprop(∃ r, prngReg c r)
  Y c := iprop((∃ r, prngReg c r) ∗ Pipeline.prefHeld (Ix := Unit) (Name := ℕ) (U := UR sig nD τ) (Lvl := ℕ) pre9 c (fun _ => fullShare) (tbl9 m))
  Z c := Pipeline.unscopedRestP (Ix := Unit) (Name := ℕ) (U := UR sig nD τ) (Lvl := ℕ) pre9 spec9 c (V18 m hR c)
  hentry c := by
    rw [Pipeline.ownSems0_none]
    have hsplit := Pipeline.arrays_of_unscopedBufs (p := 9) (pcfgs (F := F)) (adm m hR) (pdats m hR) (launch9 (F := F)).win (launch9 (F := F)).arr_whole c
      ((pdats m hR 9 c).share_full fun _ => rfl) (V18 m hR c) fun _ => rfl
    rw [Pipeline.unscopedBufs_held, restSplit9 m hR c] at hsplit
    iintro ⟨⟨Hub, Hp, HO⟩, -, -⟩
    ihave H := hsplit $$ Hub
    icases H with ⟨Ha, Ht, Hrest⟩
    imodintro
    isplitl [Ha]; · iexact Ha
    isplitl [Ht]; · iexact Ht
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m hR 9 c).Φ 0 = iprop(Pipeline.ΦA spec9 c ∗ Pipeline.prefHeld (Ix := Unit) (Name := ℕ) (U := UR sig nD τ) (Lvl := ℕ) pre9 c (fun _ => fullShare) (tbl9 m)) from rfl]
    unfold Pipeline.ΦA
    iintro ⟨Hp, Ht, Hr⟩
    isplitl [Hr Hp]
    · isplitl [Hr]; · iexact Hr
      iexact Hp
    iexact Ht
  hout c := by
    rw [Pipeline.ownSems0_none, show (pdats m hR 9 c).Φ (Fin.last _) = iprop(Pipeline.ΦA spec9 c ∗ Pipeline.prefHeld (Ix := Unit) (Name := ℕ) (U := UR sig nD τ) (Lvl := ℕ) pre9 c (fun _ => fullShare) (tbl9 m)) from rfl]
    unfold Pipeline.ΦA
    iintro ⟨⟨Hr, Hp⟩, Ht⟩
    isplitl [Hp Ht]
    · isplitl [Hp]; · iexact Hp
      iexact Ht
    isplitr; · iempintro
    iexact Hr
  hexit c := by
    have hjoin := Pipeline.unscopedBufs_of_arrays (p := 9) (pcfgs (F := F)) (adm m hR) (Ix := Unit) (Name := ℕ) (U := UR sig nD τ) (Lvl := ℕ)
      (launch9 (F := F)).win (launch9 (F := F)).arr_whole c (pdats m hR) ((pdats m hR 9 c).share_full fun _ => rfl)
      (V18 m hR c) (V19 m hR c) ((pdats m hR 9 c).arrAt · (cfg9 (a9 m hR)).N) (hF9 m hR c) (hrest9 m hR c)
    rw [Pipeline.unscopedBufs_held, restSplit9 m hR c] at hjoin
    iintro ⟨Ha, HO, ⟨Hp, Ht⟩, Hrest⟩
    imodintro
    isplitl [Ha Ht Hrest]
    · iapply hjoin
      isplitl [Ha]; · iexact Ha
      isplitl [Ht]; · iexact Ht
      iexact Hrest
    isplitl [Hp]; · iexact Hp
    unfold Pipeline.Dat.owesAt Pipeline.owesWithin
    icases HO with ⟨%W, -, HO⟩; iexists W; iexact HO

end Reg

end Cert.Kernel.Hand

end
-- ==== Proof.K.Reg10.lean ====
/-
  Gather call 10 as a segment of @main: entered from every unscoped buffer at the fold's contents before it and the
  rest (generator register, nothing owed), left at the contents after it. At entry the call's three arrays and its two
  index tables are split out of the unscoped buffers; the tables — which hold, by the fold, the slices of the
  launch-time endpoint arrays the admissible contents were read from — join the pipeline's invariant beside the
  scoped rest and the generator register, and come back out of it at the end; at exit arrays, tables and the
  remaining buffers are put back together at the exit contents.
-/
import proofs.«413139_j22651657519351_3_alg».proof.Proof.Gen.Kernel.Launch
import proofs.«413139_j22651657519351_3_alg».proof.Proof.Gen.Kernel.Skeleton
import proofs.«413139_j22651657519351_3_alg».proof.Proof.Gen.Kernel.Points
import proofs.«413139_j22651657519351_3_alg».proof.Proof.K.Fold
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Reg

variable (m : (ℓ : Loc nD τ sig) → Buf (Elt F) ℓ) (hR : InRange m)

/-- At the call's entry its two tables hold the slices of the launch-time endpoint arrays: the stretch before it
    wrote them from the argument arrays, which nothing before had changed. -/
theorem tblHeld10 (c : Dev nD) : (fun k => V20 m hR c (pre10.ref k)) = tbl10 m := by
  obtain rfl : c = 0 := Subsingleton.elim _ _
  funext k
  match k with
  | ⟨0, _⟩ =>
    show StableHlo.after hostOps10 (W19 m hR 0) (Proc.devRef .tc main_v41) = _
    after_results
    show extractStridedSlice S40000 ![360000] (W19 m hR 0 (Proc.devRef .tc main_arg1)) slices_S800000_S40000_360000 = _
    rw [W19_arg1]; rfl
  | ⟨1, _⟩ =>
    show StableHlo.after hostOps10 (W19 m hR 0) (Proc.devRef .tc main_v42) = _
    after_results
    show extractStridedSlice S40000 ![360000] (W19 m hR 0 (Proc.devRef .tc main_arg2)) slices_S800000_S40000_360000 = _
    rw [W19_arg2]; rfl

/-- The call's unscoped rest is its two tables, held at the slices, beside the buffers that are neither array nor table. -/
theorem restSplit10 (c : Dev nD) :
    (Pipeline.unscopedRest (Ix := Unit) (Name := ℕ) (U := UR sig nD τ) (Lvl := ℕ) (Pipeline.pin (pcfgs (F := F)) (adm m hR) 10).spec c (V20 m hR c) : sProp 𝕄)
      = iprop(Pipeline.prefHeld (Ix := Unit) (Name := ℕ) (U := UR sig nD τ) (Lvl := ℕ) pre10 c (fun _ => fullShare) (tbl10 m)
          ∗ Pipeline.unscopedRestP (Ix := Unit) (Name := ℕ) (U := UR sig nD τ) (Lvl := ℕ) pre10 spec10 c (V20 m hR c)) := by
  show (Pipeline.unscopedRest (Ix := Unit) (Name := ℕ) (U := UR sig nD τ) (Lvl := ℕ) spec10 c (V20 m hR c) : sProp 𝕄) = _
  rw [Pipeline.unscopedRest_split preFacts10 c (V20 m hR c), tblHeld10 m hR c]

set_option backward.isDefEq.respectTransparency.types false in
def reg10 : Pipeline.RegionSeg (pcfgs (F := F)) (adm m hR) (pdats m hR) () defs₀ 𝒱₀ L lv 10 where
  win := (launch10 (F := F)).win.to₀
  block_pos := (launch10 (F := F)).block_pos
  stage_whole := (launch10 (F := F)).stage_whole
  K := PEmpty
  osem k := k.elim
  ho := Pipeline.OwnSemFacts.none _
  hbody c := (body_obligation10 (V20 m hR) (a10 m hR) c).loose
  hwaits := Pipeline.hwaits_of_owed_zero _ _ _ _ L lv 10 fun _ _ => rfl
  pre c := iprop(StableHlo.held (c : Thread nD τ) (Pipeline.ucRefs τ sig) (W20 m hR c) ∗ R c)
  post c := iprop(StableHlo.held (c : Thread nD τ) (Pipeline.ucRefs τ sig) (W21 m hR c) ∗ R c)
  X c := iprop(∃ r, prngReg c r)
  Y c := iprop((∃ r, prngReg c r) ∗ Pipeline.prefHeld (Ix := Unit) (Name := ℕ) (U := UR sig nD τ) (Lvl := ℕ) pre10 c (fun _ => fullShare) (tbl10 m))
  Z c := Pipeline.unscopedRestP (Ix := Unit) (Name := ℕ) (U := UR sig nD τ) (Lvl := ℕ) pre10 spec10 c (V20 m hR c)
  hentry c := by
    rw [Pipeline.ownSems0_none]
    have hsplit := Pipeline.arrays_of_unscopedBufs (p := 10) (pcfgs (F := F)) (adm m hR) (pdats m hR) (launch10 (F := F)).win (launch10 (F := F)).arr_whole c
      ((pdats m hR 10 c).share_full fun _ => rfl) (V20 m hR c) fun _ => rfl
    rw [Pipeline.unscopedBufs_held, restSplit10 m hR c] at hsplit
    iintro ⟨⟨Hub, Hp, HO⟩, -, -⟩
    ihave H := hsplit $$ Hub
    icases H with ⟨Ha, Ht, Hrest⟩
    imodintro
    isplitl [Ha]; · iexact Ha
    isplitl [Ht]; · iexact Ht
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m hR 10 c).Φ 0 = iprop(Pipeline.ΦA spec10 c ∗ Pipeline.prefHeld (Ix := Unit) (Name := ℕ) (U := UR sig nD τ) (Lvl := ℕ) pre10 c (fun _ => fullShare) (tbl10 m)) from rfl]
    unfold Pipeline.ΦA
    iintro ⟨Hp, Ht, Hr⟩
    isplitl [Hr Hp]
    · isplitl [Hr]; · iexact Hr
      iexact Hp
    iexact Ht
  hout c := by
    rw [Pipeline.ownSems0_none, show (pdats m hR 10 c).Φ (Fin.last _) = iprop(Pipeline.ΦA spec10 c ∗ Pipeline.prefHeld (Ix := Unit) (Name := ℕ) (U := UR sig nD τ) (Lvl := ℕ) pre10 c (fun _ => fullShare) (tbl10 m)) from rfl]
    unfold Pipeline.ΦA
    iintro ⟨⟨Hr, Hp⟩, Ht⟩
    isplitl [Hp Ht]
    · isplitl [Hp]; · iexact Hp
      iexact Ht
    isplitr; · iempintro
    iexact Hr
  hexit c := by
    have hjoin := Pipeline.unscopedBufs_of_arrays (p := 10) (pcfgs (F := F)) (adm m hR) (Ix := Unit) (Name := ℕ) (U := UR sig nD τ) (Lvl := ℕ)
      (launch10 (F := F)).win (launch10 (F := F)).arr_whole c (pdats m hR) ((pdats m hR 10 c).share_full fun _ => rfl)
      (V20 m hR c) (V21 m hR c) ((pdats m hR 10 c).arrAt · (cfg10 (a10 m hR)).N) (hF10 m hR c) (hrest10 m hR c)
    rw [Pipeline.unscopedBufs_held, restSplit10 m hR c] at hjoin
    iintro ⟨Ha, HO, ⟨Hp, Ht⟩, Hrest⟩
    imodintro
    isplitl [Ha Ht Hrest]
    · iapply hjoin
      isplitl [Ha]; · iexact Ha
      isplitl [Ht]; · iexact Ht
      iexact Hrest
    isplitl [Hp]; · iexact Hp
    unfold Pipeline.Dat.owesAt Pipeline.owesWithin
    icases HO with ⟨%W, -, HO⟩; iexists W; iexact HO

end Reg

end Cert.Kernel.Hand

end
-- ==== Proof.K.Reg11.lean ====
/-
  Gather call 11 as a segment of @main: entered from every unscoped buffer at the fold's contents before it and the
  rest (generator register, nothing owed), left at the contents after it. At entry the call's three arrays and its two
  index tables are split out of the unscoped buffers; the tables — which hold, by the fold, the slices of the
  launch-time endpoint arrays the admissible contents were read from — join the pipeline's invariant beside the
  scoped rest and the generator register, and come back out of it at the end; at exit arrays, tables and the
  remaining buffers are put back together at the exit contents.
-/
import proofs.«413139_j22651657519351_3_alg».proof.Proof.Gen.Kernel.Launch
import proofs.«413139_j22651657519351_3_alg».proof.Proof.Gen.Kernel.Skeleton
import proofs.«413139_j22651657519351_3_alg».proof.Proof.Gen.Kernel.Points
import proofs.«413139_j22651657519351_3_alg».proof.Proof.K.Fold
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Reg

variable (m : (ℓ : Loc nD τ sig) → Buf (Elt F) ℓ) (hR : InRange m)

/-- At the call's entry its two tables hold the slices of the launch-time endpoint arrays: the stretch before it
    wrote them from the argument arrays, which nothing before had changed. -/
theorem tblHeld11 (c : Dev nD) : (fun k => V22 m hR c (pre11.ref k)) = tbl11 m := by
  obtain rfl : c = 0 := Subsingleton.elim _ _
  funext k
  match k with
  | ⟨0, _⟩ =>
    show StableHlo.after hostOps11 (W21 m hR 0) (Proc.devRef .tc main_v45) = _
    after_results
    show extractStridedSlice S40000 ![400000] (W21 m hR 0 (Proc.devRef .tc main_arg1)) slices_S800000_S40000_400000 = _
    rw [W21_arg1]; rfl
  | ⟨1, _⟩ =>
    show StableHlo.after hostOps11 (W21 m hR 0) (Proc.devRef .tc main_v46) = _
    after_results
    show extractStridedSlice S40000 ![400000] (W21 m hR 0 (Proc.devRef .tc main_arg2)) slices_S800000_S40000_400000 = _
    rw [W21_arg2]; rfl

/-- The call's unscoped rest is its two tables, held at the slices, beside the buffers that are neither array nor table. -/
theorem restSplit11 (c : Dev nD) :
    (Pipeline.unscopedRest (Ix := Unit) (Name := ℕ) (U := UR sig nD τ) (Lvl := ℕ) (Pipeline.pin (pcfgs (F := F)) (adm m hR) 11).spec c (V22 m hR c) : sProp 𝕄)
      = iprop(Pipeline.prefHeld (Ix := Unit) (Name := ℕ) (U := UR sig nD τ) (Lvl := ℕ) pre11 c (fun _ => fullShare) (tbl11 m)
          ∗ Pipeline.unscopedRestP (Ix := Unit) (Name := ℕ) (U := UR sig nD τ) (Lvl := ℕ) pre11 spec11 c (V22 m hR c)) := by
  show (Pipeline.unscopedRest (Ix := Unit) (Name := ℕ) (U := UR sig nD τ) (Lvl := ℕ) spec11 c (V22 m hR c) : sProp 𝕄) = _
  rw [Pipeline.unscopedRest_split preFacts11 c (V22 m hR c), tblHeld11 m hR c]

set_option backward.isDefEq.respectTransparency.types false in
def reg11 : Pipeline.RegionSeg (pcfgs (F := F)) (adm m hR) (pdats m hR) () defs₀ 𝒱₀ L lv 11 where
  win := (launch11 (F := F)).win.to₀
  block_pos := (launch11 (F := F)).block_pos
  stage_whole := (launch11 (F := F)).stage_whole
  K := PEmpty
  osem k := k.elim
  ho := Pipeline.OwnSemFacts.none _
  hbody c := (body_obligation11 (V22 m hR) (a11 m hR) c).loose
  hwaits := Pipeline.hwaits_of_owed_zero _ _ _ _ L lv 11 fun _ _ => rfl
  pre c := iprop(StableHlo.held (c : Thread nD τ) (Pipeline.ucRefs τ sig) (W22 m hR c) ∗ R c)
  post c := iprop(StableHlo.held (c : Thread nD τ) (Pipeline.ucRefs τ sig) (W23 m hR c) ∗ R c)
  X c := iprop(∃ r, prngReg c r)
  Y c := iprop((∃ r, prngReg c r) ∗ Pipeline.prefHeld (Ix := Unit) (Name := ℕ) (U := UR sig nD τ) (Lvl := ℕ) pre11 c (fun _ => fullShare) (tbl11 m))
  Z c := Pipeline.unscopedRestP (Ix := Unit) (Name := ℕ) (U := UR sig nD τ) (Lvl := ℕ) pre11 spec11 c (V22 m hR c)
  hentry c := by
    rw [Pipeline.ownSems0_none]
    have hsplit := Pipeline.arrays_of_unscopedBufs (p := 11) (pcfgs (F := F)) (adm m hR) (pdats m hR) (launch11 (F := F)).win (launch11 (F := F)).arr_whole c
      ((pdats m hR 11 c).share_full fun _ => rfl) (V22 m hR c) fun _ => rfl
    rw [Pipeline.unscopedBufs_held, restSplit11 m hR c] at hsplit
    iintro ⟨⟨Hub, Hp, HO⟩, -, -⟩
    ihave H := hsplit $$ Hub
    icases H with ⟨Ha, Ht, Hrest⟩
    imodintro
    isplitl [Ha]; · iexact Ha
    isplitl [Ht]; · iexact Ht
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m hR 11 c).Φ 0 = iprop(Pipeline.ΦA spec11 c ∗ Pipeline.prefHeld (Ix := Unit) (Name := ℕ) (U := UR sig nD τ) (Lvl := ℕ) pre11 c (fun _ => fullShare) (tbl11 m)) from rfl]
    unfold Pipeline.ΦA
    iintro ⟨Hp, Ht, Hr⟩
    isplitl [Hr Hp]
    · isplitl [Hr]; · iexact Hr
      iexact Hp
    iexact Ht
  hout c := by
    rw [Pipeline.ownSems0_none, show (pdats m hR 11 c).Φ (Fin.last _) = iprop(Pipeline.ΦA spec11 c ∗ Pipeline.prefHeld (Ix := Unit) (Name := ℕ) (U := UR sig nD τ) (Lvl := ℕ) pre11 c (fun _ => fullShare) (tbl11 m)) from rfl]
    unfold Pipeline.ΦA
    iintro ⟨⟨Hr, Hp⟩, Ht⟩
    isplitl [Hp Ht]
    · isplitl [Hp]; · iexact Hp
      iexact Ht
    isplitr; · iempintro
    iexact Hr
  hexit c := by
    have hjoin := Pipeline.unscopedBufs_of_arrays (p := 11) (pcfgs (F := F)) (adm m hR) (Ix := Unit) (Name := ℕ) (U := UR sig nD τ) (Lvl := ℕ)
      (launch11 (F := F)).win (launch11 (F := F)).arr_whole c (pdats m hR) ((pdats m hR 11 c).share_full fun _ => rfl)
      (V22 m hR c) (V23 m hR c) ((pdats m hR 11 c).arrAt · (cfg11 (a11 m hR)).N) (hF11 m hR c) (hrest11 m hR c)
    rw [Pipeline.unscopedBufs_held, restSplit11 m hR c] at hjoin
    iintro ⟨Ha, HO, ⟨Hp, Ht⟩, Hrest⟩
    imodintro
    isplitl [Ha Ht Hrest]
    · iapply hjoin
      isplitl [Ha]; · iexact Ha
      isplitl [Ht]; · iexact Ht
      iexact Hrest
    isplitl [Hp]; · iexact Hp
    unfold Pipeline.Dat.owesAt Pipeline.owesWithin
    icases HO with ⟨%W, -, HO⟩; iexists W; iexact HO

end Reg

end Cert.Kernel.Hand

end
-- ==== Proof.K.Reg12.lean ====
/-
  Gather call 12 as a segment of @main: entered from every unscoped buffer at the fold's contents before it and the
  rest (generator register, nothing owed), left at the contents after it. At entry the call's three arrays and its two
  index tables are split out of the unscoped buffers; the tables — which hold, by the fold, the slices of the
  launch-time endpoint arrays the admissible contents were read from — join the pipeline's invariant beside the
  scoped rest and the generator register, and come back out of it at the end; at exit arrays, tables and the
  remaining buffers are put back together at the exit contents.
-/
import proofs.«413139_j22651657519351_3_alg».proof.Proof.Gen.Kernel.Launch
import proofs.«413139_j22651657519351_3_alg».proof.Proof.Gen.Kernel.Skeleton
import proofs.«413139_j22651657519351_3_alg».proof.Proof.Gen.Kernel.Points
import proofs.«413139_j22651657519351_3_alg».proof.Proof.K.Fold
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Reg

variable (m : (ℓ : Loc nD τ sig) → Buf (Elt F) ℓ) (hR : InRange m)

/-- At the call's entry its two tables hold the slices of the launch-time endpoint arrays: the stretch before it
    wrote them from the argument arrays, which nothing before had changed. -/
theorem tblHeld12 (c : Dev nD) : (fun k => V24 m hR c (pre12.ref k)) = tbl12 m := by
  obtain rfl : c = 0 := Subsingleton.elim _ _
  funext k
  match k with
  | ⟨0, _⟩ =>
    show StableHlo.after hostOps12 (W23 m hR 0) (Proc.devRef .tc main_v49) = _
    after_results
    show extractStridedSlice S40000 ![440000] (W23 m hR 0 (Proc.devRef .tc main_arg1)) slices_S800000_S40000_440000 = _
    rw [W23_arg1]; rfl
  | ⟨1, _⟩ =>
    show StableHlo.after hostOps12 (W23 m hR 0) (Proc.devRef .tc main_v50) = _
    after_results
    show extractStridedSlice S40000 ![440000] (W23 m hR 0 (Proc.devRef .tc main_arg2)) slices_S800000_S40000_440000 = _
    rw [W23_arg2]; rfl

/-- The call's unscoped rest is its two tables, held at the slices, beside the buffers that are neither array nor table. -/
theorem restSplit12 (c : Dev nD) :
    (Pipeline.unscopedRest (Ix := Unit) (Name := ℕ) (U := UR sig nD τ) (Lvl := ℕ) (Pipeline.pin (pcfgs (F := F)) (adm m hR) 12).spec c (V24 m hR c) : sProp 𝕄)
      = iprop(Pipeline.prefHeld (Ix := Unit) (Name := ℕ) (U := UR sig nD τ) (Lvl := ℕ) pre12 c (fun _ => fullShare) (tbl12 m)
          ∗ Pipeline.unscopedRestP (Ix := Unit) (Name := ℕ) (U := UR sig nD τ) (Lvl := ℕ) pre12 spec12 c (V24 m hR c)) := by
  show (Pipeline.unscopedRest (Ix := Unit) (Name := ℕ) (U := UR sig nD τ) (Lvl := ℕ) spec12 c (V24 m hR c) : sProp 𝕄) = _
  rw [Pipeline.unscopedRest_split preFacts12 c (V24 m hR c), tblHeld12 m hR c]

set_option backward.isDefEq.respectTransparency.types false in
def reg12 : Pipeline.RegionSeg (pcfgs (F := F)) (adm m hR) (pdats m hR) () defs₀ 𝒱₀ L lv 12 where
  win := (launch12 (F := F)).win.to₀
  block_pos := (launch12 (F := F)).block_pos
  stage_whole := (launch12 (F := F)).stage_whole
  K := PEmpty
  osem k := k.elim
  ho := Pipeline.OwnSemFacts.none _
  hbody c := (body_obligation12 (V24 m hR) (a12 m hR) c).loose
  hwaits := Pipeline.hwaits_of_owed_zero _ _ _ _ L lv 12 fun _ _ => rfl
  pre c := iprop(StableHlo.held (c : Thread nD τ) (Pipeline.ucRefs τ sig) (W24 m hR c) ∗ R c)
  post c := iprop(StableHlo.held (c : Thread nD τ) (Pipeline.ucRefs τ sig) (W25 m hR c) ∗ R c)
  X c := iprop(∃ r, prngReg c r)
  Y c := iprop((∃ r, prngReg c r) ∗ Pipeline.prefHeld (Ix := Unit) (Name := ℕ) (U := UR sig nD τ) (Lvl := ℕ) pre12 c (fun _ => fullShare) (tbl12 m))
  Z c := Pipeline.unscopedRestP (Ix := Unit) (Name := ℕ) (U := UR sig nD τ) (Lvl := ℕ) pre12 spec12 c (V24 m hR c)
  hentry c := by
    rw [Pipeline.ownSems0_none]
    have hsplit := Pipeline.arrays_of_unscopedBufs (p := 12) (pcfgs (F := F)) (adm m hR) (pdats m hR) (launch12 (F := F)).win (launch12 (F := F)).arr_whole c
      ((pdats m hR 12 c).share_full fun _ => rfl) (V24 m hR c) fun _ => rfl
    rw [Pipeline.unscopedBufs_held, restSplit12 m hR c] at hsplit
    iintro ⟨⟨Hub, Hp, HO⟩, -, -⟩
    ihave H := hsplit $$ Hub
    icases H with ⟨Ha, Ht, Hrest⟩
    imodintro
    isplitl [Ha]; · iexact Ha
    isplitl [Ht]; · iexact Ht
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m hR 12 c).Φ 0 = iprop(Pipeline.ΦA spec12 c ∗ Pipeline.prefHeld (Ix := Unit) (Name := ℕ) (U := UR sig nD τ) (Lvl := ℕ) pre12 c (fun _ => fullShare) (tbl12 m)) from rfl]
    unfold Pipeline.ΦA
    iintro ⟨Hp, Ht, Hr⟩
    isplitl [Hr Hp]
    · isplitl [Hr]; · iexact Hr
      iexact Hp
    iexact Ht
  hout c := by
    rw [Pipeline.ownSems0_none, show (pdats m hR 12 c).Φ (Fin.last _) = iprop(Pipeline.ΦA spec12 c ∗ Pipeline.prefHeld (Ix := Unit) (Name := ℕ) (U := UR sig nD τ) (Lvl := ℕ) pre12 c (fun _ => fullShare) (tbl12 m)) from rfl]
    unfold Pipeline.ΦA
    iintro ⟨⟨Hr, Hp⟩, Ht⟩
    isplitl [Hp Ht]
    · isplitl [Hp]; · iexact Hp
      iexact Ht
    isplitr; · iempintro
    iexact Hr
  hexit c := by
    have hjoin := Pipeline.unscopedBufs_of_arrays (p := 12) (pcfgs (F := F)) (adm m hR) (Ix := Unit) (Name := ℕ) (U := UR sig nD τ) (Lvl := ℕ)
      (launch12 (F := F)).win (launch12 (F := F)).arr_whole c (pdats m hR) ((pdats m hR 12 c).share_full fun _ => rfl)
      (V24 m hR c) (V25 m hR c) ((pdats m hR 12 c).arrAt · (cfg12 (a12 m hR)).N) (hF12 m hR c) (hrest12 m hR c)
    rw [Pipeline.unscopedBufs_held, restSplit12 m hR c] at hjoin
    iintro ⟨Ha, HO, ⟨Hp, Ht⟩, Hrest⟩
    imodintro
    isplitl [Ha Ht Hrest]
    · iapply hjoin
      isplitl [Ha]; · iexact Ha
      isplitl [Ht]; · iexact Ht
      iexact Hrest
    isplitl [Hp]; · iexact Hp
    unfold Pipeline.Dat.owesAt Pipeline.owesWithin
    icases HO with ⟨%W, -, HO⟩; iexists W; iexact HO

end Reg

end Cert.Kernel.Hand

end
-- ==== Proof.K.Reg13.lean ====
/-
  Gather call 13 as a segment of @main: entered from every unscoped buffer at the fold's contents before it and the
  rest (generator register, nothing owed), left at the contents after it. At entry the call's three arrays and its two
  index tables are split out of the unscoped buffers; the tables — which hold, by the fold, the slices of the
  launch-time endpoint arrays the admissible contents were read from — join the pipeline's invariant beside the
  scoped rest and the generator register, and come back out of it at the end; at exit arrays, tables and the
  remaining buffers are put back together at the exit contents.
-/
import proofs.«413139_j22651657519351_3_alg».proof.Proof.Gen.Kernel.Launch
import proofs.«413139_j22651657519351_3_alg».proof.Proof.Gen.Kernel.Skeleton
import proofs.«413139_j22651657519351_3_alg».proof.Proof.Gen.Kernel.Points
import proofs.«413139_j22651657519351_3_alg».proof.Proof.K.Fold
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Reg

variable (m : (ℓ : Loc nD τ sig) → Buf (Elt F) ℓ) (hR : InRange m)

/-- At the call's entry its two tables hold the slices of the launch-time endpoint arrays: the stretch before it
    wrote them from the argument arrays, which nothing before had changed. -/
theorem tblHeld13 (c : Dev nD) : (fun k => V26 m hR c (pre13.ref k)) = tbl13 m := by
  obtain rfl : c = 0 := Subsingleton.elim _ _
  funext k
  match k with
  | ⟨0, _⟩ =>
    show StableHlo.after hostOps13 (W25 m hR 0) (Proc.devRef .tc main_v53) = _
    after_results
    show extractStridedSlice S40000 ![480000] (W25 m hR 0 (Proc.devRef .tc main_arg1)) slices_S800000_S40000_480000 = _
    rw [W25_arg1]; rfl
  | ⟨1, _⟩ =>
    show StableHlo.after hostOps13 (W25 m hR 0) (Proc.devRef .tc main_v54) = _
    after_results
    show extractStridedSlice S40000 ![480000] (W25 m hR 0 (Proc.devRef .tc main_arg2)) slices_S800000_S40000_480000 = _
    rw [W25_arg2]; rfl

/-- The call's unscoped rest is its two tables, held at the slices, beside the buffers that are neither array nor table. -/
theorem restSplit13 (c : Dev nD) :
    (Pipeline.unscopedRest (Ix := Unit) (Name := ℕ) (U := UR sig nD τ) (Lvl := ℕ) (Pipeline.pin (pcfgs (F := F)) (adm m hR) 13).spec c (V26 m hR c) : sProp 𝕄)
      = iprop(Pipeline.prefHeld (Ix := Unit) (Name := ℕ) (U := UR sig nD τ) (Lvl := ℕ) pre13 c (fun _ => fullShare) (tbl13 m)
          ∗ Pipeline.unscopedRestP (Ix := Unit) (Name := ℕ) (U := UR sig nD τ) (Lvl := ℕ) pre13 spec13 c (V26 m hR c)) := by
  show (Pipeline.unscopedRest (Ix := Unit) (Name := ℕ) (U := UR sig nD τ) (Lvl := ℕ) spec13 c (V26 m hR c) : sProp 𝕄) = _
  rw [Pipeline.unscopedRest_split preFacts13 c (V26 m hR c), tblHeld13 m hR c]

set_option backward.isDefEq.respectTransparency.types false in
def reg13 : Pipeline.RegionSeg (pcfgs (F := F)) (adm m hR) (pdats m hR) () defs₀ 𝒱₀ L lv 13 where
  win := (launch13 (F := F)).win.to₀
  block_pos := (launch13 (F := F)).block_pos
  stage_whole := (launch13 (F := F)).stage_whole
  K := PEmpty
  osem k := k.elim
  ho := Pipeline.OwnSemFacts.none _
  hbody c := (body_obligation13 (V26 m hR) (a13 m hR) c).loose
  hwaits := Pipeline.hwaits_of_owed_zero _ _ _ _ L lv 13 fun _ _ => rfl
  pre c := iprop(StableHlo.held (c : Thread nD τ) (Pipeline.ucRefs τ sig) (W26 m hR c) ∗ R c)
  post c := iprop(StableHlo.held (c : Thread nD τ) (Pipeline.ucRefs τ sig) (W27 m hR c) ∗ R c)
  X c := iprop(∃ r, prngReg c r)
  Y c := iprop((∃ r, prngReg c r) ∗ Pipeline.prefHeld (Ix := Unit) (Name := ℕ) (U := UR sig nD τ) (Lvl := ℕ) pre13 c (fun _ => fullShare) (tbl13 m))
  Z c := Pipeline.unscopedRestP (Ix := Unit) (Name := ℕ) (U := UR sig nD τ) (Lvl := ℕ) pre13 spec13 c (V26 m hR c)
  hentry c := by
    rw [Pipeline.ownSems0_none]
    have hsplit := Pipeline.arrays_of_unscopedBufs (p := 13) (pcfgs (F := F)) (adm m hR) (pdats m hR) (launch13 (F := F)).win (launch13 (F := F)).arr_whole c
      ((pdats m hR 13 c).share_full fun _ => rfl) (V26 m hR c) fun _ => rfl
    rw [Pipeline.unscopedBufs_held, restSplit13 m hR c] at hsplit
    iintro ⟨⟨Hub, Hp, HO⟩, -, -⟩
    ihave H := hsplit $$ Hub
    icases H with ⟨Ha, Ht, Hrest⟩
    imodintro
    isplitl [Ha]; · iexact Ha
    isplitl [Ht]; · iexact Ht
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m hR 13 c).Φ 0 = iprop(Pipeline.ΦA spec13 c ∗ Pipeline.prefHeld (Ix := Unit) (Name := ℕ) (U := UR sig nD τ) (Lvl := ℕ) pre13 c (fun _ => fullShare) (tbl13 m)) from rfl]
    unfold Pipeline.ΦA
    iintro ⟨Hp, Ht, Hr⟩
    isplitl [Hr Hp]
    · isplitl [Hr]; · iexact Hr
      iexact Hp
    iexact Ht
  hout c := by
    rw [Pipeline.ownSems0_none, show (pdats m hR 13 c).Φ (Fin.last _) = iprop(Pipeline.ΦA spec13 c ∗ Pipeline.prefHeld (Ix := Unit) (Name := ℕ) (U := UR sig nD τ) (Lvl := ℕ) pre13 c (fun _ => fullShare) (tbl13 m)) from rfl]
    unfold Pipeline.ΦA
    iintro ⟨⟨Hr, Hp⟩, Ht⟩
    isplitl [Hp Ht]
    · isplitl [Hp]; · iexact Hp
      iexact Ht
    isplitr; · iempintro
    iexact Hr
  hexit c := by
    have hjoin := Pipeline.unscopedBufs_of_arrays (p := 13) (pcfgs (F := F)) (adm m hR) (Ix := Unit) (Name := ℕ) (U := UR sig nD τ) (Lvl := ℕ)
      (launch13 (F := F)).win (launch13 (F := F)).arr_whole c (pdats m hR) ((pdats m hR 13 c).share_full fun _ => rfl)
      (V26 m hR c) (V27 m hR c) ((pdats m hR 13 c).arrAt · (cfg13 (a13 m hR)).N) (hF13 m hR c) (hrest13 m hR c)
    rw [Pipeline.unscopedBufs_held, restSplit13 m hR c] at hjoin
    iintro ⟨Ha, HO, ⟨Hp, Ht⟩, Hrest⟩
    imodintro
    isplitl [Ha Ht Hrest]
    · iapply hjoin
      isplitl [Ha]; · iexact Ha
      isplitl [Ht]; · iexact Ht
      iexact Hrest
    isplitl [Hp]; · iexact Hp
    unfold Pipeline.Dat.owesAt Pipeline.owesWithin
    icases HO with ⟨%W, -, HO⟩; iexists W; iexact HO

end Reg

end Cert.Kernel.Hand

end
-- ==== Proof.K.Reg14.lean ====
/-
  Gather call 14 as a segment of @main: entered from every unscoped buffer at the fold's contents before it and the
  rest (generator register, nothing owed), left at the contents after it. At entry the call's three arrays and its two
  index tables are split out of the unscoped buffers; the tables — which hold, by the fold, the slices of the
  launch-time endpoint arrays the admissible contents were read from — join the pipeline's invariant beside the
  scoped rest and the generator register, and come back out of it at the end; at exit arrays, tables and the
  remaining buffers are put back together at the exit contents.
-/
import proofs.«413139_j22651657519351_3_alg».proof.Proof.Gen.Kernel.Launch
import proofs.«413139_j22651657519351_3_alg».proof.Proof.Gen.Kernel.Skeleton
import proofs.«413139_j22651657519351_3_alg».proof.Proof.Gen.Kernel.Points
import proofs.«413139_j22651657519351_3_alg».proof.Proof.K.Fold
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Reg

variable (m : (ℓ : Loc nD τ sig) → Buf (Elt F) ℓ) (hR : InRange m)

/-- At the call's entry its two tables hold the slices of the launch-time endpoint arrays: the stretch before it
    wrote them from the argument arrays, which nothing before had changed. -/
theorem tblHeld14 (c : Dev nD) : (fun k => V28 m hR c (pre14.ref k)) = tbl14 m := by
  obtain rfl : c = 0 := Subsingleton.elim _ _
  funext k
  match k with
  | ⟨0, _⟩ =>
    show StableHlo.after hostOps14 (W27 m hR 0) (Proc.devRef .tc main_v57) = _
    after_results
    show extractStridedSlice S40000 ![520000] (W27 m hR 0 (Proc.devRef .tc main_arg1)) slices_S800000_S40000_520000 = _
    rw [W27_arg1]; rfl
  | ⟨1, _⟩ =>
    show StableHlo.after hostOps14 (W27 m hR 0) (Proc.devRef .tc main_v58) = _
    after_results
    show extractStridedSlice S40000 ![520000] (W27 m hR 0 (Proc.devRef .tc main_arg2)) slices_S800000_S40000_520000 = _
    rw [W27_arg2]; rfl

/-- The call's unscoped rest is its two tables, held at the slices, beside the buffers that are neither array nor table. -/
theorem restSplit14 (c : Dev nD) :
    (Pipeline.unscopedRest (Ix := Unit) (Name := ℕ) (U := UR sig nD τ) (Lvl := ℕ) (Pipeline.pin (pcfgs (F := F)) (adm m hR) 14).spec c (V28 m hR c) : sProp 𝕄)
      = iprop(Pipeline.prefHeld (Ix := Unit) (Name := ℕ) (U := UR sig nD τ) (Lvl := ℕ) pre14 c (fun _ => fullShare) (tbl14 m)
          ∗ Pipeline.unscopedRestP (Ix := Unit) (Name := ℕ) (U := UR sig nD τ) (Lvl := ℕ) pre14 spec14 c (V28 m hR c)) := by
  show (Pipeline.unscopedRest (Ix := Unit) (Name := ℕ) (U := UR sig nD τ) (Lvl := ℕ) spec14 c (V28 m hR c) : sProp 𝕄) = _
  rw [Pipeline.unscopedRest_split preFacts14 c (V28 m hR c), tblHeld14 m hR c]

set_option backward.isDefEq.respectTransparency.types false in
def reg14 : Pipeline.RegionSeg (pcfgs (F := F)) (adm m hR) (pdats m hR) () defs₀ 𝒱₀ L lv 14 where
  win := (launch14 (F := F)).win.to₀
  block_pos := (launch14 (F := F)).block_pos
  stage_whole := (launch14 (F := F)).stage_whole
  K := PEmpty
  osem k := k.elim
  ho := Pipeline.OwnSemFacts.none _
  hbody c := (body_obligation14 (V28 m hR) (a14 m hR) c).loose
  hwaits := Pipeline.hwaits_of_owed_zero _ _ _ _ L lv 14 fun _ _ => rfl
  pre c := iprop(StableHlo.held (c : Thread nD τ) (Pipeline.ucRefs τ sig) (W28 m hR c) ∗ R c)
  post c := iprop(StableHlo.held (c : Thread nD τ) (Pipeline.ucRefs τ sig) (W29 m hR c) ∗ R c)
  X c := iprop(∃ r, prngReg c r)
  Y c := iprop((∃ r, prngReg c r) ∗ Pipeline.prefHeld (Ix := Unit) (Name := ℕ) (U := UR sig nD τ) (Lvl := ℕ) pre14 c (fun _ => fullShare) (tbl14 m))
  Z c := Pipeline.unscopedRestP (Ix := Unit) (Name := ℕ) (U := UR sig nD τ) (Lvl := ℕ) pre14 spec14 c (V28 m hR c)
  hentry c := by
    rw [Pipeline.ownSems0_none]
    have hsplit := Pipeline.arrays_of_unscopedBufs (p := 14) (pcfgs (F := F)) (adm m hR) (pdats m hR) (launch14 (F := F)).win (launch14 (F := F)).arr_whole c
      ((pdats m hR 14 c).share_full fun _ => rfl) (V28 m hR c) fun _ => rfl
    rw [Pipeline.unscopedBufs_held, restSplit14 m hR c] at hsplit
    iintro ⟨⟨Hub, Hp, HO⟩, -, -⟩
    ihave H := hsplit $$ Hub
    icases H with ⟨Ha, Ht, Hrest⟩
    imodintro
    isplitl [Ha]; · iexact Ha
    isplitl [Ht]; · iexact Ht
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m hR 14 c).Φ 0 = iprop(Pipeline.ΦA spec14 c ∗ Pipeline.prefHeld (Ix := Unit) (Name := ℕ) (U := UR sig nD τ) (Lvl := ℕ) pre14 c (fun _ => fullShare) (tbl14 m)) from rfl]
    unfold Pipeline.ΦA
    iintro ⟨Hp, Ht, Hr⟩
    isplitl [Hr Hp]
    · isplitl [Hr]; · iexact Hr
      iexact Hp
    iexact Ht
  hout c := by
    rw [Pipeline.ownSems0_none, show (pdats m hR 14 c).Φ (Fin.last _) = iprop(Pipeline.ΦA spec14 c ∗ Pipeline.prefHeld (Ix := Unit) (Name := ℕ) (U := UR sig nD τ) (Lvl := ℕ) pre14 c (fun _ => fullShare) (tbl14 m)) from rfl]
    unfold Pipeline.ΦA
    iintro ⟨⟨Hr, Hp⟩, Ht⟩
    isplitl [Hp Ht]
    · isplitl [Hp]; · iexact Hp
      iexact Ht
    isplitr; · iempintro
    iexact Hr
  hexit c := by
    have hjoin := Pipeline.unscopedBufs_of_arrays (p := 14) (pcfgs (F := F)) (adm m hR) (Ix := Unit) (Name := ℕ) (U := UR sig nD τ) (Lvl := ℕ)
      (launch14 (F := F)).win (launch14 (F := F)).arr_whole c (pdats m hR) ((pdats m hR 14 c).share_full fun _ => rfl)
      (V28 m hR c) (V29 m hR c) ((pdats m hR 14 c).arrAt · (cfg14 (a14 m hR)).N) (hF14 m hR c) (hrest14 m hR c)
    rw [Pipeline.unscopedBufs_held, restSplit14 m hR c] at hjoin
    iintro ⟨Ha, HO, ⟨Hp, Ht⟩, Hrest⟩
    imodintro
    isplitl [Ha Ht Hrest]
    · iapply hjoin
      isplitl [Ha]; · iexact Ha
      isplitl [Ht]; · iexact Ht
      iexact Hrest
    isplitl [Hp]; · iexact Hp
    unfold Pipeline.Dat.owesAt Pipeline.owesWithin
    icases HO with ⟨%W, -, HO⟩; iexists W; iexact HO

end Reg

end Cert.Kernel.Hand

end
-- ==== Proof.K.Reg15.lean ====
/-
  Gather call 15 as a segment of @main: entered from every unscoped buffer at the fold's contents before it and the
  rest (generator register, nothing owed), left at the contents after it. At entry the call's three arrays and its two
  index tables are split out of the unscoped buffers; the tables — which hold, by the fold, the slices of the
  launch-time endpoint arrays the admissible contents were read from — join the pipeline's invariant beside the
  scoped rest and the generator register, and come back out of it at the end; at exit arrays, tables and the
  remaining buffers are put back together at the exit contents.
-/
import proofs.«413139_j22651657519351_3_alg».proof.Proof.Gen.Kernel.Launch
import proofs.«413139_j22651657519351_3_alg».proof.Proof.Gen.Kernel.Skeleton
import proofs.«413139_j22651657519351_3_alg».proof.Proof.Gen.Kernel.Points
import proofs.«413139_j22651657519351_3_alg».proof.Proof.K.Fold
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Reg

variable (m : (ℓ : Loc nD τ sig) → Buf (Elt F) ℓ) (hR : InRange m)

/-- At the call's entry its two tables hold the slices of the launch-time endpoint arrays: the stretch before it
    wrote them from the argument arrays, which nothing before had changed. -/
theorem tblHeld15 (c : Dev nD) : (fun k => V30 m hR c (pre15.ref k)) = tbl15 m := by
  obtain rfl : c = 0 := Subsingleton.elim _ _
  funext k
  match k with
  | ⟨0, _⟩ =>
    show StableHlo.after hostOps15 (W29 m hR 0) (Proc.devRef .tc main_v61) = _
    after_results
    show extractStridedSlice S40000 ![560000] (W29 m hR 0 (Proc.devRef .tc main_arg1)) slices_S800000_S40000_560000 = _
    rw [W29_arg1]; rfl
  | ⟨1, _⟩ =>
    show StableHlo.after hostOps15 (W29 m hR 0) (Proc.devRef .tc main_v62) = _
    after_results
    show extractStridedSlice S40000 ![560000] (W29 m hR 0 (Proc.devRef .tc main_arg2)) slices_S800000_S40000_560000 = _
    rw [W29_arg2]; rfl

/-- The call's unscoped rest is its two tables, held at the slices, beside the buffers that are neither array nor table. -/
theorem restSplit15 (c : Dev nD) :
    (Pipeline.unscopedRest (Ix := Unit) (Name := ℕ) (U := UR sig nD τ) (Lvl := ℕ) (Pipeline.pin (pcfgs (F := F)) (adm m hR) 15).spec c (V30 m hR c) : sProp 𝕄)
      = iprop(Pipeline.prefHeld (Ix := Unit) (Name := ℕ) (U := UR sig nD τ) (Lvl := ℕ) pre15 c (fun _ => fullShare) (tbl15 m)
          ∗ Pipeline.unscopedRestP (Ix := Unit) (Name := ℕ) (U := UR sig nD τ) (Lvl := ℕ) pre15 spec15 c (V30 m hR c)) := by
  show (Pipeline.unscopedRest (Ix := Unit) (Name := ℕ) (U := UR sig nD τ) (Lvl := ℕ) spec15 c (V30 m hR c) : sProp 𝕄) = _
  rw [Pipeline.unscopedRest_split preFacts15 c (V30 m hR c), tblHeld15 m hR c]

set_option backward.isDefEq.respectTransparency.types false in
def reg15 : Pipeline.RegionSeg (pcfgs (F := F)) (adm m hR) (pdats m hR) () defs₀ 𝒱₀ L lv 15 where
  win := (launch15 (F := F)).win.to₀
  block_pos := (launch15 (F := F)).block_pos
  stage_whole := (launch15 (F := F)).stage_whole
  K := PEmpty
  osem k := k.elim
  ho := Pipeline.OwnSemFacts.none _
  hbody c := (body_obligation15 (V30 m hR) (a15 m hR) c).loose
  hwaits := Pipeline.hwaits_of_owed_zero _ _ _ _ L lv 15 fun _ _ => rfl
  pre c := iprop(StableHlo.held (c : Thread nD τ) (Pipeline.ucRefs τ sig) (W30 m hR c) ∗ R c)
  post c := iprop(StableHlo.held (c : Thread nD τ) (Pipeline.ucRefs τ sig) (W31 m hR c) ∗ R c)
  X c := iprop(∃ r, prngReg c r)
  Y c := iprop((∃ r, prngReg c r) ∗ Pipeline.prefHeld (Ix := Unit) (Name := ℕ) (U := UR sig nD τ) (Lvl := ℕ) pre15 c (fun _ => fullShare) (tbl15 m))
  Z c := Pipeline.unscopedRestP (Ix := Unit) (Name := ℕ) (U := UR sig nD τ) (Lvl := ℕ) pre15 spec15 c (V30 m hR c)
  hentry c := by
    rw [Pipeline.ownSems0_none]
    have hsplit := Pipeline.arrays_of_unscopedBufs (p := 15) (pcfgs (F := F)) (adm m hR) (pdats m hR) (launch15 (F := F)).win (launch15 (F := F)).arr_whole c
      ((pdats m hR 15 c).share_full fun _ => rfl) (V30 m hR c) fun _ => rfl
    rw [Pipeline.unscopedBufs_held, restSplit15 m hR c] at hsplit
    iintro ⟨⟨Hub, Hp, HO⟩, -, -⟩
    ihave H := hsplit $$ Hub
    icases H with ⟨Ha, Ht, Hrest⟩
    imodintro
    isplitl [Ha]; · iexact Ha
    isplitl [Ht]; · iexact Ht
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m hR 15 c).Φ 0 = iprop(Pipeline.ΦA spec15 c ∗ Pipeline.prefHeld (Ix := Unit) (Name := ℕ) (U := UR sig nD τ) (Lvl := ℕ) pre15 c (fun _ => fullShare) (tbl15 m)) from rfl]
    unfold Pipeline.ΦA
    iintro ⟨Hp, Ht, Hr⟩
    isplitl [Hr Hp]
    · isplitl [Hr]; · iexact Hr
      iexact Hp
    iexact Ht
  hout c := by
    rw [Pipeline.ownSems0_none, show (pdats m hR 15 c).Φ (Fin.last _) = iprop(Pipeline.ΦA spec15 c ∗ Pipeline.prefHeld (Ix := Unit) (Name := ℕ) (U := UR sig nD τ) (Lvl := ℕ) pre15 c (fun _ => fullShare) (tbl15 m)) from rfl]
    unfold Pipeline.ΦA
    iintro ⟨⟨Hr, Hp⟩, Ht⟩
    isplitl [Hp Ht]
    · isplitl [Hp]; · iexact Hp
      iexact Ht
    isplitr; · iempintro
    iexact Hr
  hexit c := by
    have hjoin := Pipeline.unscopedBufs_of_arrays (p := 15) (pcfgs (F := F)) (adm m hR) (Ix := Unit) (Name := ℕ) (U := UR sig nD τ) (Lvl := ℕ)
      (launch15 (F := F)).win (launch15 (F := F)).arr_whole c (pdats m hR) ((pdats m hR 15 c).share_full fun _ => rfl)
      (V30 m hR c) (V31 m hR c) ((pdats m hR 15 c).arrAt · (cfg15 (a15 m hR)).N) (hF15 m hR c) (hrest15 m hR c)
    rw [Pipeline.unscopedBufs_held, restSplit15 m hR c] at hjoin
    iintro ⟨Ha, HO, ⟨Hp, Ht⟩, Hrest⟩
    imodintro
    isplitl [Ha Ht Hrest]
    · iapply hjoin
      isplitl [Ha]; · iexact Ha
      isplitl [Ht]; · iexact Ht
      iexact Hrest
    isplitl [Hp]; · iexact Hp
    unfold Pipeline.Dat.owesAt Pipeline.owesWithin
    icases HO with ⟨%W, -, HO⟩; iexists W; iexact HO

end Reg

end Cert.Kernel.Hand

end
-- ==== Proof.K.Reg16.lean ====
/-
  Gather call 16 as a segment of @main: entered from every unscoped buffer at the fold's contents before it and the
  rest (generator register, nothing owed), left at the contents after it. At entry the call's three arrays and its two
  index tables are split out of the unscoped buffers; the tables — which hold, by the fold, the slices of the
  launch-time endpoint arrays the admissible contents were read from — join the pipeline's invariant beside the
  scoped rest and the generator register, and come back out of it at the end; at exit arrays, tables and the
  remaining buffers are put back together at the exit contents.
-/
import proofs.«413139_j22651657519351_3_alg».proof.Proof.Gen.Kernel.Launch
import proofs.«413139_j22651657519351_3_alg».proof.Proof.Gen.Kernel.Skeleton
import proofs.«413139_j22651657519351_3_alg».proof.Proof.Gen.Kernel.Points
import proofs.«413139_j22651657519351_3_alg».proof.Proof.K.Fold
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Reg

variable (m : (ℓ : Loc nD τ sig) → Buf (Elt F) ℓ) (hR : InRange m)

/-- At the call's entry its two tables hold the slices of the launch-time endpoint arrays: the stretch before it
    wrote them from the argument arrays, which nothing before had changed. -/
theorem tblHeld16 (c : Dev nD) : (fun k => V32 m hR c (pre16.ref k)) = tbl16 m := by
  obtain rfl : c = 0 := Subsingleton.elim _ _
  funext k
  match k with
  | ⟨0, _⟩ =>
    show StableHlo.after hostOps16 (W31 m hR 0) (Proc.devRef .tc main_v65) = _
    after_results
    show extractStridedSlice S40000 ![600000] (W31 m hR 0 (Proc.devRef .tc main_arg1)) slices_S800000_S40000_600000 = _
    rw [W31_arg1]; rfl
  | ⟨1, _⟩ =>
    show StableHlo.after hostOps16 (W31 m hR 0) (Proc.devRef .tc main_v66) = _
    after_results
    show extractStridedSlice S40000 ![600000] (W31 m hR 0 (Proc.devRef .tc main_arg2)) slices_S800000_S40000_600000 = _
    rw [W31_arg2]; rfl

/-- The call's unscoped rest is its two tables, held at the slices, beside the buffers that are neither array nor table. -/
theorem restSplit16 (c : Dev nD) :
    (Pipeline.unscopedRest (Ix := Unit) (Name := ℕ) (U := UR sig nD τ) (Lvl := ℕ) (Pipeline.pin (pcfgs (F := F)) (adm m hR) 16).spec c (V32 m hR c) : sProp 𝕄)
      = iprop(Pipeline.prefHeld (Ix := Unit) (Name := ℕ) (U := UR sig nD τ) (Lvl := ℕ) pre16 c (fun _ => fullShare) (tbl16 m)
          ∗ Pipeline.unscopedRestP (Ix := Unit) (Name := ℕ) (U := UR sig nD τ) (Lvl := ℕ) pre16 spec16 c (V32 m hR c)) := by
  show (Pipeline.unscopedRest (Ix := Unit) (Name := ℕ) (U := UR sig nD τ) (Lvl := ℕ) spec16 c (V32 m hR c) : sProp 𝕄) = _
  rw [Pipeline.unscopedRest_split preFacts16 c (V32 m hR c), tblHeld16 m hR c]

set_option backward.isDefEq.respectTransparency.types false in
def reg16 : Pipeline.RegionSeg (pcfgs (F := F)) (adm m hR) (pdats m hR) () defs₀ 𝒱₀ L lv 16 where
  win := (launch16 (F := F)).win.to₀
  block_pos := (launch16 (F := F)).block_pos
  stage_whole := (launch16 (F := F)).stage_whole
  K := PEmpty
  osem k := k.elim
  ho := Pipeline.OwnSemFacts.none _
  hbody c := (body_obligation16 (V32 m hR) (a16 m hR) c).loose
  hwaits := Pipeline.hwaits_of_owed_zero _ _ _ _ L lv 16 fun _ _ => rfl
  pre c := iprop(StableHlo.held (c : Thread nD τ) (Pipeline.ucRefs τ sig) (W32 m hR c) ∗ R c)
  post c := iprop(StableHlo.held (c : Thread nD τ) (Pipeline.ucRefs τ sig) (W33 m hR c) ∗ R c)
  X c := iprop(∃ r, prngReg c r)
  Y c := iprop((∃ r, prngReg c r) ∗ Pipeline.prefHeld (Ix := Unit) (Name := ℕ) (U := UR sig nD τ) (Lvl := ℕ) pre16 c (fun _ => fullShare) (tbl16 m))
  Z c := Pipeline.unscopedRestP (Ix := Unit) (Name := ℕ) (U := UR sig nD τ) (Lvl := ℕ) pre16 spec16 c (V32 m hR c)
  hentry c := by
    rw [Pipeline.ownSems0_none]
    have hsplit := Pipeline.arrays_of_unscopedBufs (p := 16) (pcfgs (F := F)) (adm m hR) (pdats m hR) (launch16 (F := F)).win (launch16 (F := F)).arr_whole c
      ((pdats m hR 16 c).share_full fun _ => rfl) (V32 m hR c) fun _ => rfl
    rw [Pipeline.unscopedBufs_held, restSplit16 m hR c] at hsplit
    iintro ⟨⟨Hub, Hp, HO⟩, -, -⟩
    ihave H := hsplit $$ Hub
    icases H with ⟨Ha, Ht, Hrest⟩
    imodintro
    isplitl [Ha]; · iexact Ha
    isplitl [Ht]; · iexact Ht
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m hR 16 c).Φ 0 = iprop(Pipeline.ΦA spec16 c ∗ Pipeline.prefHeld (Ix := Unit) (Name := ℕ) (U := UR sig nD τ) (Lvl := ℕ) pre16 c (fun _ => fullShare) (tbl16 m)) from rfl]
    unfold Pipeline.ΦA
    iintro ⟨Hp, Ht, Hr⟩
    isplitl [Hr Hp]
    · isplitl [Hr]; · iexact Hr
      iexact Hp
    iexact Ht
  hout c := by
    rw [Pipeline.ownSems0_none, show (pdats m hR 16 c).Φ (Fin.last _) = iprop(Pipeline.ΦA spec16 c ∗ Pipeline.prefHeld (Ix := Unit) (Name := ℕ) (U := UR sig nD τ) (Lvl := ℕ) pre16 c (fun _ => fullShare) (tbl16 m)) from rfl]
    unfold Pipeline.ΦA
    iintro ⟨⟨Hr, Hp⟩, Ht⟩
    isplitl [Hp Ht]
    · isplitl [Hp]; · iexact Hp
      iexact Ht
    isplitr; · iempintro
    iexact Hr
  hexit c := by
    have hjoin := Pipeline.unscopedBufs_of_arrays (p := 16) (pcfgs (F := F)) (adm m hR) (Ix := Unit) (Name := ℕ) (U := UR sig nD τ) (Lvl := ℕ)
      (launch16 (F := F)).win (launch16 (F := F)).arr_whole c (pdats m hR) ((pdats m hR 16 c).share_full fun _ => rfl)
      (V32 m hR c) (V33 m hR c) ((pdats m hR 16 c).arrAt · (cfg16 (a16 m hR)).N) (hF16 m hR c) (hrest16 m hR c)
    rw [Pipeline.unscopedBufs_held, restSplit16 m hR c] at hjoin
    iintro ⟨Ha, HO, ⟨Hp, Ht⟩, Hrest⟩
    imodintro
    isplitl [Ha Ht Hrest]
    · iapply hjoin
      isplitl [Ha]; · iexact Ha
      isplitl [Ht]; · iexact Ht
      iexact Hrest
    isplitl [Hp]; · iexact Hp
    unfold Pipeline.Dat.owesAt Pipeline.owesWithin
    icases HO with ⟨%W, -, HO⟩; iexists W; iexact HO

end Reg

end Cert.Kernel.Hand

end
-- ==== Proof.K.Reg17.lean ====
/-
  Gather call 17 as a segment of @main: entered from every unscoped buffer at the fold's contents before it and the
  rest (generator register, nothing owed), left at the contents after it. At entry the call's three arrays and its two
  index tables are split out of the unscoped buffers; the tables — which hold, by the fold, the slices of the
  launch-time endpoint arrays the admissible contents were read from — join the pipeline's invariant beside the
  scoped rest and the generator register, and come back out of it at the end; at exit arrays, tables and the
  remaining buffers are put back together at the exit contents.
-/
import proofs.«413139_j22651657519351_3_alg».proof.Proof.Gen.Kernel.Launch
import proofs.«413139_j22651657519351_3_alg».proof.Proof.Gen.Kernel.Skeleton
import proofs.«413139_j22651657519351_3_alg».proof.Proof.Gen.Kernel.Points
import proofs.«413139_j22651657519351_3_alg».proof.Proof.K.Fold
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Reg

variable (m : (ℓ : Loc nD τ sig) → Buf (Elt F) ℓ) (hR : InRange m)

/-- At the call's entry its two tables hold the slices of the launch-time endpoint arrays: the stretch before it
    wrote them from the argument arrays, which nothing before had changed. -/
theorem tblHeld17 (c : Dev nD) : (fun k => V34 m hR c (pre17.ref k)) = tbl17 m := by
  obtain rfl : c = 0 := Subsingleton.elim _ _
  funext k
  match k with
  | ⟨0, _⟩ =>
    show StableHlo.after hostOps17 (W33 m hR 0) (Proc.devRef .tc main_v69) = _
    after_results
    show extractStridedSlice S40000 ![640000] (W33 m hR 0 (Proc.devRef .tc main_arg1)) slices_S800000_S40000_640000 = _
    rw [W33_arg1]; rfl
  | ⟨1, _⟩ =>
    show StableHlo.after hostOps17 (W33 m hR 0) (Proc.devRef .tc main_v70) = _
    after_results
    show extractStridedSlice S40000 ![640000] (W33 m hR 0 (Proc.devRef .tc main_arg2)) slices_S800000_S40000_640000 = _
    rw [W33_arg2]; rfl

/-- The call's unscoped rest is its two tables, held at the slices, beside the buffers that are neither array nor table. -/
theorem restSplit17 (c : Dev nD) :
    (Pipeline.unscopedRest (Ix := Unit) (Name := ℕ) (U := UR sig nD τ) (Lvl := ℕ) (Pipeline.pin (pcfgs (F := F)) (adm m hR) 17).spec c (V34 m hR c) : sProp 𝕄)
      = iprop(Pipeline.prefHeld (Ix := Unit) (Name := ℕ) (U := UR sig nD τ) (Lvl := ℕ) pre17 c (fun _ => fullShare) (tbl17 m)
          ∗ Pipeline.unscopedRestP (Ix := Unit) (Name := ℕ) (U := UR sig nD τ) (Lvl := ℕ) pre17 spec17 c (V34 m hR c)) := by
  show (Pipeline.unscopedRest (Ix := Unit) (Name := ℕ) (U := UR sig nD τ) (Lvl := ℕ) spec17 c (V34 m hR c) : sProp 𝕄) = _
  rw [Pipeline.unscopedRest_split preFacts17 c (V34 m hR c), tblHeld17 m hR c]

set_option backward.isDefEq.respectTransparency.types false in
def reg17 : Pipeline.RegionSeg (pcfgs (F := F)) (adm m hR) (pdats m hR) () defs₀ 𝒱₀ L lv 17 where
  win := (launch17 (F := F)).win.to₀
  block_pos := (launch17 (F := F)).block_pos
  stage_whole := (launch17 (F := F)).stage_whole
  K := PEmpty
  osem k := k.elim
  ho := Pipeline.OwnSemFacts.none _
  hbody c := (body_obligation17 (V34 m hR) (a17 m hR) c).loose
  hwaits := Pipeline.hwaits_of_owed_zero _ _ _ _ L lv 17 fun _ _ => rfl
  pre c := iprop(StableHlo.held (c : Thread nD τ) (Pipeline.ucRefs τ sig) (W34 m hR c) ∗ R c)
  post c := iprop(StableHlo.held (c : Thread nD τ) (Pipeline.ucRefs τ sig) (W35 m hR c) ∗ R c)
  X c := iprop(∃ r, prngReg c r)
  Y c := iprop((∃ r, prngReg c r) ∗ Pipeline.prefHeld (Ix := Unit) (Name := ℕ) (U := UR sig nD τ) (Lvl := ℕ) pre17 c (fun _ => fullShare) (tbl17 m))
  Z c := Pipeline.unscopedRestP (Ix := Unit) (Name := ℕ) (U := UR sig nD τ) (Lvl := ℕ) pre17 spec17 c (V34 m hR c)
  hentry c := by
    rw [Pipeline.ownSems0_none]
    have hsplit := Pipeline.arrays_of_unscopedBufs (p := 17) (pcfgs (F := F)) (adm m hR) (pdats m hR) (launch17 (F := F)).win (launch17 (F := F)).arr_whole c
      ((pdats m hR 17 c).share_full fun _ => rfl) (V34 m hR c) fun _ => rfl
    rw [Pipeline.unscopedBufs_held, restSplit17 m hR c] at hsplit
    iintro ⟨⟨Hub, Hp, HO⟩, -, -⟩
    ihave H := hsplit $$ Hub
    icases H with ⟨Ha, Ht, Hrest⟩
    imodintro
    isplitl [Ha]; · iexact Ha
    isplitl [Ht]; · iexact Ht
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m hR 17 c).Φ 0 = iprop(Pipeline.ΦA spec17 c ∗ Pipeline.prefHeld (Ix := Unit) (Name := ℕ) (U := UR sig nD τ) (Lvl := ℕ) pre17 c (fun _ => fullShare) (tbl17 m)) from rfl]
    unfold Pipeline.ΦA
    iintro ⟨Hp, Ht, Hr⟩
    isplitl [Hr Hp]
    · isplitl [Hr]; · iexact Hr
      iexact Hp
    iexact Ht
  hout c := by
    rw [Pipeline.ownSems0_none, show (pdats m hR 17 c).Φ (Fin.last _) = iprop(Pipeline.ΦA spec17 c ∗ Pipeline.prefHeld (Ix := Unit) (Name := ℕ) (U := UR sig nD τ) (Lvl := ℕ) pre17 c (fun _ => fullShare) (tbl17 m)) from rfl]
    unfold Pipeline.ΦA
    iintro ⟨⟨Hr, Hp⟩, Ht⟩
    isplitl [Hp Ht]
    · isplitl [Hp]; · iexact Hp
      iexact Ht
    isplitr; · iempintro
    iexact Hr
  hexit c := by
    have hjoin := Pipeline.unscopedBufs_of_arrays (p := 17) (pcfgs (F := F)) (adm m hR) (Ix := Unit) (Name := ℕ) (U := UR sig nD τ) (Lvl := ℕ)
      (launch17 (F := F)).win (launch17 (F := F)).arr_whole c (pdats m hR) ((pdats m hR 17 c).share_full fun _ => rfl)
      (V34 m hR c) (V35 m hR c) ((pdats m hR 17 c).arrAt · (cfg17 (a17 m hR)).N) (hF17 m hR c) (hrest17 m hR c)
    rw [Pipeline.unscopedBufs_held, restSplit17 m hR c] at hjoin
    iintro ⟨Ha, HO, ⟨Hp, Ht⟩, Hrest⟩
    imodintro
    isplitl [Ha Ht Hrest]
    · iapply hjoin
      isplitl [Ha]; · iexact Ha
      isplitl [Ht]; · iexact Ht
      iexact Hrest
    isplitl [Hp]; · iexact Hp
    unfold Pipeline.Dat.owesAt Pipeline.owesWithin
    icases HO with ⟨%W, -, HO⟩; iexists W; iexact HO

end Reg

end Cert.Kernel.Hand

end
-- ==== Proof.K.Reg18.lean ====
/-
  Gather call 18 as a segment of @main: entered from every unscoped buffer at the fold's contents before it and the
  rest (generator register, nothing owed), left at the contents after it. At entry the call's three arrays and its two
  index tables are split out of the unscoped buffers; the tables — which hold, by the fold, the slices of the
  launch-time endpoint arrays the admissible contents were read from — join the pipeline's invariant beside the
  scoped rest and the generator register, and come back out of it at the end; at exit arrays, tables and the
  remaining buffers are put back together at the exit contents.
-/
import proofs.«413139_j22651657519351_3_alg».proof.Proof.Gen.Kernel.Launch
import proofs.«413139_j22651657519351_3_alg».proof.Proof.Gen.Kernel.Skeleton
import proofs.«413139_j22651657519351_3_alg».proof.Proof.Gen.Kernel.Points
import proofs.«413139_j22651657519351_3_alg».proof.Proof.K.Fold
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Reg

variable (m : (ℓ : Loc nD τ sig) → Buf (Elt F) ℓ) (hR : InRange m)

/-- At the call's entry its two tables hold the slices of the launch-time endpoint arrays: the stretch before it
    wrote them from the argument arrays, which nothing before had changed. -/
theorem tblHeld18 (c : Dev nD) : (fun k => V36 m hR c (pre18.ref k)) = tbl18 m := by
  obtain rfl : c = 0 := Subsingleton.elim _ _
  funext k
  match k with
  | ⟨0, _⟩ =>
    show StableHlo.after hostOps18 (W35 m hR 0) (Proc.devRef .tc main_v73) = _
    after_results
    show extractStridedSlice S40000 ![680000] (W35 m hR 0 (Proc.devRef .tc main_arg1)) slices_S800000_S40000_680000 = _
    rw [W35_arg1]; rfl
  | ⟨1, _⟩ =>
    show StableHlo.after hostOps18 (W35 m hR 0) (Proc.devRef .tc main_v74) = _
    after_results
    show extractStridedSlice S40000 ![680000] (W35 m hR 0 (Proc.devRef .tc main_arg2)) slices_S800000_S40000_680000 = _
    rw [W35_arg2]; rfl

/-- The call's unscoped rest is its two tables, held at the slices, beside the buffers that are neither array nor table. -/
theorem restSplit18 (c : Dev nD) :
    (Pipeline.unscopedRest (Ix := Unit) (Name := ℕ) (U := UR sig nD τ) (Lvl := ℕ) (Pipeline.pin (pcfgs (F := F)) (adm m hR) 18).spec c (V36 m hR c) : sProp 𝕄)
      = iprop(Pipeline.prefHeld (Ix := Unit) (Name := ℕ) (U := UR sig nD τ) (Lvl := ℕ) pre18 c (fun _ => fullShare) (tbl18 m)
          ∗ Pipeline.unscopedRestP (Ix := Unit) (Name := ℕ) (U := UR sig nD τ) (Lvl := ℕ) pre18 spec18 c (V36 m hR c)) := by
  show (Pipeline.unscopedRest (Ix := Unit) (Name := ℕ) (U := UR sig nD τ) (Lvl := ℕ) spec18 c (V36 m hR c) : sProp 𝕄) = _
  rw [Pipeline.unscopedRest_split preFacts18 c (V36 m hR c), tblHeld18 m hR c]

set_option backward.isDefEq.respectTransparency.types false in
def reg18 : Pipeline.RegionSeg (pcfgs (F := F)) (adm m hR) (pdats m hR) () defs₀ 𝒱₀ L lv 18 where
  win := (launch18 (F := F)).win.to₀
  block_pos := (launch18 (F := F)).block_pos
  stage_whole := (launch18 (F := F)).stage_whole
  K := PEmpty
  osem k := k.elim
  ho := Pipeline.OwnSemFacts.none _
  hbody c := (body_obligation18 (V36 m hR) (a18 m hR) c).loose
  hwaits := Pipeline.hwaits_of_owed_zero _ _ _ _ L lv 18 fun _ _ => rfl
  pre c := iprop(StableHlo.held (c : Thread nD τ) (Pipeline.ucRefs τ sig) (W36 m hR c) ∗ R c)
  post c := iprop(StableHlo.held (c : Thread nD τ) (Pipeline.ucRefs τ sig) (W37 m hR c) ∗ R c)
  X c := iprop(∃ r, prngReg c r)
  Y c := iprop((∃ r, prngReg c r) ∗ Pipeline.prefHeld (Ix := Unit) (Name := ℕ) (U := UR sig nD τ) (Lvl := ℕ) pre18 c (fun _ => fullShare) (tbl18 m))
  Z c := Pipeline.unscopedRestP (Ix := Unit) (Name := ℕ) (U := UR sig nD τ) (Lvl := ℕ) pre18 spec18 c (V36 m hR c)
  hentry c := by
    rw [Pipeline.ownSems0_none]
    have hsplit := Pipeline.arrays_of_unscopedBufs (p := 18) (pcfgs (F := F)) (adm m hR) (pdats m hR) (launch18 (F := F)).win (launch18 (F := F)).arr_whole c
      ((pdats m hR 18 c).share_full fun _ => rfl) (V36 m hR c) fun _ => rfl
    rw [Pipeline.unscopedBufs_held, restSplit18 m hR c] at hsplit
    iintro ⟨⟨Hub, Hp, HO⟩, -, -⟩
    ihave H := hsplit $$ Hub
    icases H with ⟨Ha, Ht, Hrest⟩
    imodintro
    isplitl [Ha]; · iexact Ha
    isplitl [Ht]; · iexact Ht
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m hR 18 c).Φ 0 = iprop(Pipeline.ΦA spec18 c ∗ Pipeline.prefHeld (Ix := Unit) (Name := ℕ) (U := UR sig nD τ) (Lvl := ℕ) pre18 c (fun _ => fullShare) (tbl18 m)) from rfl]
    unfold Pipeline.ΦA
    iintro ⟨Hp, Ht, Hr⟩
    isplitl [Hr Hp]
    · isplitl [Hr]; · iexact Hr
      iexact Hp
    iexact Ht
  hout c := by
    rw [Pipeline.ownSems0_none, show (pdats m hR 18 c).Φ (Fin.last _) = iprop(Pipeline.ΦA spec18 c ∗ Pipeline.prefHeld (Ix := Unit) (Name := ℕ) (U := UR sig nD τ) (Lvl := ℕ) pre18 c (fun _ => fullShare) (tbl18 m)) from rfl]
    unfold Pipeline.ΦA
    iintro ⟨⟨Hr, Hp⟩, Ht⟩
    isplitl [Hp Ht]
    · isplitl [Hp]; · iexact Hp
      iexact Ht
    isplitr; · iempintro
    iexact Hr
  hexit c := by
    have hjoin := Pipeline.unscopedBufs_of_arrays (p := 18) (pcfgs (F := F)) (adm m hR) (Ix := Unit) (Name := ℕ) (U := UR sig nD τ) (Lvl := ℕ)
      (launch18 (F := F)).win (launch18 (F := F)).arr_whole c (pdats m hR) ((pdats m hR 18 c).share_full fun _ => rfl)
      (V36 m hR c) (V37 m hR c) ((pdats m hR 18 c).arrAt · (cfg18 (a18 m hR)).N) (hF18 m hR c) (hrest18 m hR c)
    rw [Pipeline.unscopedBufs_held, restSplit18 m hR c] at hjoin
    iintro ⟨Ha, HO, ⟨Hp, Ht⟩, Hrest⟩
    imodintro
    isplitl [Ha Ht Hrest]
    · iapply hjoin
      isplitl [Ha]; · iexact Ha
      isplitl [Ht]; · iexact Ht
      iexact Hrest
    isplitl [Hp]; · iexact Hp
    unfold Pipeline.Dat.owesAt Pipeline.owesWithin
    icases HO with ⟨%W, -, HO⟩; iexists W; iexact HO

end Reg

end Cert.Kernel.Hand

end
-- ==== Proof.K.Reg19.lean ====
/-
  Gather call 19 as a segment of @main: entered from every unscoped buffer at the fold's contents before it and the
  rest (generator register, nothing owed), left at the contents after it. At entry the call's three arrays and its two
  index tables are split out of the unscoped buffers; the tables — which hold, by the fold, the slices of the
  launch-time endpoint arrays the admissible contents were read from — join the pipeline's invariant beside the
  scoped rest and the generator register, and come back out of it at the end; at exit arrays, tables and the
  remaining buffers are put back together at the exit contents.
-/
import proofs.«413139_j22651657519351_3_alg».proof.Proof.Gen.Kernel.Launch
import proofs.«413139_j22651657519351_3_alg».proof.Proof.Gen.Kernel.Skeleton
import proofs.«413139_j22651657519351_3_alg».proof.Proof.Gen.Kernel.Points
import proofs.«413139_j22651657519351_3_alg».proof.Proof.K.Fold
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Reg

variable (m : (ℓ : Loc nD τ sig) → Buf (Elt F) ℓ) (hR : InRange m)

/-- At the call's entry its two tables hold the slices of the launch-time endpoint arrays: the stretch before it
    wrote them from the argument arrays, which nothing before had changed. -/
theorem tblHeld19 (c : Dev nD) : (fun k => V38 m hR c (pre19.ref k)) = tbl19 m := by
  obtain rfl : c = 0 := Subsingleton.elim _ _
  funext k
  match k with
  | ⟨0, _⟩ =>
    show StableHlo.after hostOps19 (W37 m hR 0) (Proc.devRef .tc main_v77) = _
    after_results
    show extractStridedSlice S40000 ![720000] (W37 m hR 0 (Proc.devRef .tc main_arg1)) slices_S800000_S40000_720000 = _
    rw [W37_arg1]; rfl
  | ⟨1, _⟩ =>
    show StableHlo.after hostOps19 (W37 m hR 0) (Proc.devRef .tc main_v78) = _
    after_results
    show extractStridedSlice S40000 ![720000] (W37 m hR 0 (Proc.devRef .tc main_arg2)) slices_S800000_S40000_720000 = _
    rw [W37_arg2]; rfl

/-- The call's unscoped rest is its two tables, held at the slices, beside the buffers that are neither array nor table. -/
theorem restSplit19 (c : Dev nD) :
    (Pipeline.unscopedRest (Ix := Unit) (Name := ℕ) (U := UR sig nD τ) (Lvl := ℕ) (Pipeline.pin (pcfgs (F := F)) (adm m hR) 19).spec c (V38 m hR c) : sProp 𝕄)
      = iprop(Pipeline.prefHeld (Ix := Unit) (Name := ℕ) (U := UR sig nD τ) (Lvl := ℕ) pre19 c (fun _ => fullShare) (tbl19 m)
          ∗ Pipeline.unscopedRestP (Ix := Unit) (Name := ℕ) (U := UR sig nD τ) (Lvl := ℕ) pre19 spec19 c (V38 m hR c)) := by
  show (Pipeline.unscopedRest (Ix := Unit) (Name := ℕ) (U := UR sig nD τ) (Lvl := ℕ) spec19 c (V38 m hR c) : sProp 𝕄) = _
  rw [Pipeline.unscopedRest_split preFacts19 c (V38 m hR c), tblHeld19 m hR c]

set_option backward.isDefEq.respectTransparency.types false in
def reg19 : Pipeline.RegionSeg (pcfgs (F := F)) (adm m hR) (pdats m hR) () defs₀ 𝒱₀ L lv 19 where
  win := (launch19 (F := F)).win.to₀
  block_pos := (launch19 (F := F)).block_pos
  stage_whole := (launch19 (F := F)).stage_whole
  K := PEmpty
  osem k := k.elim
  ho := Pipeline.OwnSemFacts.none _
  hbody c := (body_obligation19 (V38 m hR) (a19 m hR) c).loose
  hwaits := Pipeline.hwaits_of_owed_zero _ _ _ _ L lv 19 fun _ _ => rfl
  pre c := iprop(StableHlo.held (c : Thread nD τ) (Pipeline.ucRefs τ sig) (W38 m hR c) ∗ R c)
  post c := iprop(StableHlo.held (c : Thread nD τ) (Pipeline.ucRefs τ sig) (W39 m hR c) ∗ R c)
  X c := iprop(∃ r, prngReg c r)
  Y c := iprop((∃ r, prngReg c r) ∗ Pipeline.prefHeld (Ix := Unit) (Name := ℕ) (U := UR sig nD τ) (Lvl := ℕ) pre19 c (fun _ => fullShare) (tbl19 m))
  Z c := Pipeline.unscopedRestP (Ix := Unit) (Name := ℕ) (U := UR sig nD τ) (Lvl := ℕ) pre19 spec19 c (V38 m hR c)
  hentry c := by
    rw [Pipeline.ownSems0_none]
    have hsplit := Pipeline.arrays_of_unscopedBufs (p := 19) (pcfgs (F := F)) (adm m hR) (pdats m hR) (launch19 (F := F)).win (launch19 (F := F)).arr_whole c
      ((pdats m hR 19 c).share_full fun _ => rfl) (V38 m hR c) fun _ => rfl
    rw [Pipeline.unscopedBufs_held, restSplit19 m hR c] at hsplit
    iintro ⟨⟨Hub, Hp, HO⟩, -, -⟩
    ihave H := hsplit $$ Hub
    icases H with ⟨Ha, Ht, Hrest⟩
    imodintro
    isplitl [Ha]; · iexact Ha
    isplitl [Ht]; · iexact Ht
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m hR 19 c).Φ 0 = iprop(Pipeline.ΦA spec19 c ∗ Pipeline.prefHeld (Ix := Unit) (Name := ℕ) (U := UR sig nD τ) (Lvl := ℕ) pre19 c (fun _ => fullShare) (tbl19 m)) from rfl]
    unfold Pipeline.ΦA
    iintro ⟨Hp, Ht, Hr⟩
    isplitl [Hr Hp]
    · isplitl [Hr]; · iexact Hr
      iexact Hp
    iexact Ht
  hout c := by
    rw [Pipeline.ownSems0_none, show (pdats m hR 19 c).Φ (Fin.last _) = iprop(Pipeline.ΦA spec19 c ∗ Pipeline.prefHeld (Ix := Unit) (Name := ℕ) (U := UR sig nD τ) (Lvl := ℕ) pre19 c (fun _ => fullShare) (tbl19 m)) from rfl]
    unfold Pipeline.ΦA
    iintro ⟨⟨Hr, Hp⟩, Ht⟩
    isplitl [Hp Ht]
    · isplitl [Hp]; · iexact Hp
      iexact Ht
    isplitr; · iempintro
    iexact Hr
  hexit c := by
    have hjoin := Pipeline.unscopedBufs_of_arrays (p := 19) (pcfgs (F := F)) (adm m hR) (Ix := Unit) (Name := ℕ) (U := UR sig nD τ) (Lvl := ℕ)
      (launch19 (F := F)).win (launch19 (F := F)).arr_whole c (pdats m hR) ((pdats m hR 19 c).share_full fun _ => rfl)
      (V38 m hR c) (V39 m hR c) ((pdats m hR 19 c).arrAt · (cfg19 (a19 m hR)).N) (hF19 m hR c) (hrest19 m hR c)
    rw [Pipeline.unscopedBufs_held, restSplit19 m hR c] at hjoin
    iintro ⟨Ha, HO, ⟨Hp, Ht⟩, Hrest⟩
    imodintro
    isplitl [Ha Ht Hrest]
    · iapply hjoin
      isplitl [Ha]; · iexact Ha
      isplitl [Ht]; · iexact Ht
      iexact Hrest
    isplitl [Hp]; · iexact Hp
    unfold Pipeline.Dat.owesAt Pipeline.owesWithin
    icases HO with ⟨%W, -, HO⟩; iexists W; iexact HO

end Reg

end Cert.Kernel.Hand

end
-- ==== Proof.K.Reg20.lean ====
/-
  Gather call 20 as a segment of @main: entered from every unscoped buffer at the fold's contents before it and the
  rest (generator register, nothing owed), left at the contents after it. At entry the call's three arrays and its two
  index tables are split out of the unscoped buffers; the tables — which hold, by the fold, the slices of the
  launch-time endpoint arrays the admissible contents were read from — join the pipeline's invariant beside the
  scoped rest and the generator register, and come back out of it at the end; at exit arrays, tables and the
  remaining buffers are put back together at the exit contents.
-/
import proofs.«413139_j22651657519351_3_alg».proof.Proof.Gen.Kernel.Launch
import proofs.«413139_j22651657519351_3_alg».proof.Proof.Gen.Kernel.Skeleton
import proofs.«413139_j22651657519351_3_alg».proof.Proof.Gen.Kernel.Points
import proofs.«413139_j22651657519351_3_alg».proof.Proof.K.Fold
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Reg

variable (m : (ℓ : Loc nD τ sig) → Buf (Elt F) ℓ) (hR : InRange m)

/-- At the call's entry its two tables hold the slices of the launch-time endpoint arrays: the stretch before it
    wrote them from the argument arrays, which nothing before had changed. -/
theorem tblHeld20 (c : Dev nD) : (fun k => V40 m hR c (pre20.ref k)) = tbl20 m := by
  obtain rfl : c = 0 := Subsingleton.elim _ _
  funext k
  match k with
  | ⟨0, _⟩ =>
    show StableHlo.after hostOps20 (W39 m hR 0) (Proc.devRef .tc main_v81) = _
    after_results
    show extractStridedSlice S40000 ![760000] (W39 m hR 0 (Proc.devRef .tc main_arg1)) slices_S800000_S40000_760000 = _
    rw [W39_arg1]; rfl
  | ⟨1, _⟩ =>
    show StableHlo.after hostOps20 (W39 m hR 0) (Proc.devRef .tc main_v82) = _
    after_results
    show extractStridedSlice S40000 ![760000] (W39 m hR 0 (Proc.devRef .tc main_arg2)) slices_S800000_S40000_760000 = _
    rw [W39_arg2]; rfl

/-- The call's unscoped rest is its two tables, held at the slices, beside the buffers that are neither array nor table. -/
theorem restSplit20 (c : Dev nD) :
    (Pipeline.unscopedRest (Ix := Unit) (Name := ℕ) (U := UR sig nD τ) (Lvl := ℕ) (Pipeline.pin (pcfgs (F := F)) (adm m hR) 20).spec c (V40 m hR c) : sProp 𝕄)
      = iprop(Pipeline.prefHeld (Ix := Unit) (Name := ℕ) (U := UR sig nD τ) (Lvl := ℕ) pre20 c (fun _ => fullShare) (tbl20 m)
          ∗ Pipeline.unscopedRestP (Ix := Unit) (Name := ℕ) (U := UR sig nD τ) (Lvl := ℕ) pre20 spec20 c (V40 m hR c)) := by
  show (Pipeline.unscopedRest (Ix := Unit) (Name := ℕ) (U := UR sig nD τ) (Lvl := ℕ) spec20 c (V40 m hR c) : sProp 𝕄) = _
  rw [Pipeline.unscopedRest_split preFacts20 c (V40 m hR c), tblHeld20 m hR c]

set_option backward.isDefEq.respectTransparency.types false in
def reg20 : Pipeline.RegionSeg (pcfgs (F := F)) (adm m hR) (pdats m hR) () defs₀ 𝒱₀ L lv 20 where
  win := (launch20 (F := F)).win.to₀
  block_pos := (launch20 (F := F)).block_pos
  stage_whole := (launch20 (F := F)).stage_whole
  K := PEmpty
  osem k := k.elim
  ho := Pipeline.OwnSemFacts.none _
  hbody c := (body_obligation20 (V40 m hR) (a20 m hR) c).loose
  hwaits := Pipeline.hwaits_of_owed_zero _ _ _ _ L lv 20 fun _ _ => rfl
  pre c := iprop(StableHlo.held (c : Thread nD τ) (Pipeline.ucRefs τ sig) (W40 m hR c) ∗ R c)
  post c := iprop(StableHlo.held (c : Thread nD τ) (Pipeline.ucRefs τ sig) (W41 m hR c) ∗ R c)
  X c := iprop(∃ r, prngReg c r)
  Y c := iprop((∃ r, prngReg c r) ∗ Pipeline.prefHeld (Ix := Unit) (Name := ℕ) (U := UR sig nD τ) (Lvl := ℕ) pre20 c (fun _ => fullShare) (tbl20 m))
  Z c := Pipeline.unscopedRestP (Ix := Unit) (Name := ℕ) (U := UR sig nD τ) (Lvl := ℕ) pre20 spec20 c (V40 m hR c)
  hentry c := by
    rw [Pipeline.ownSems0_none]
    have hsplit := Pipeline.arrays_of_unscopedBufs (p := 20) (pcfgs (F := F)) (adm m hR) (pdats m hR) (launch20 (F := F)).win (launch20 (F := F)).arr_whole c
      ((pdats m hR 20 c).share_full fun _ => rfl) (V40 m hR c) fun _ => rfl
    rw [Pipeline.unscopedBufs_held, restSplit20 m hR c] at hsplit
    iintro ⟨⟨Hub, Hp, HO⟩, -, -⟩
    ihave H := hsplit $$ Hub
    icases H with ⟨Ha, Ht, Hrest⟩
    imodintro
    isplitl [Ha]; · iexact Ha
    isplitl [Ht]; · iexact Ht
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m hR 20 c).Φ 0 = iprop(Pipeline.ΦA spec20 c ∗ Pipeline.prefHeld (Ix := Unit) (Name := ℕ) (U := UR sig nD τ) (Lvl := ℕ) pre20 c (fun _ => fullShare) (tbl20 m)) from rfl]
    unfold Pipeline.ΦA
    iintro ⟨Hp, Ht, Hr⟩
    isplitl [Hr Hp]
    · isplitl [Hr]; · iexact Hr
      iexact Hp
    iexact Ht
  hout c := by
    rw [Pipeline.ownSems0_none, show (pdats m hR 20 c).Φ (Fin.last _) = iprop(Pipeline.ΦA spec20 c ∗ Pipeline.prefHeld (Ix := Unit) (Name := ℕ) (U := UR sig nD τ) (Lvl := ℕ) pre20 c (fun _ => fullShare) (tbl20 m)) from rfl]
    unfold Pipeline.ΦA
    iintro ⟨⟨Hr, Hp⟩, Ht⟩
    isplitl [Hp Ht]
    · isplitl [Hp]; · iexact Hp
      iexact Ht
    isplitr; · iempintro
    iexact Hr
  hexit c := by
    have hjoin := Pipeline.unscopedBufs_of_arrays (p := 20) (pcfgs (F := F)) (adm m hR) (Ix := Unit) (Name := ℕ) (U := UR sig nD τ) (Lvl := ℕ)
      (launch20 (F := F)).win (launch20 (F := F)).arr_whole c (pdats m hR) ((pdats m hR 20 c).share_full fun _ => rfl)
      (V40 m hR c) (V41 m hR c) ((pdats m hR 20 c).arrAt · (cfg20 (a20 m hR)).N) (hF20 m hR c) (hrest20 m hR c)
    rw [Pipeline.unscopedBufs_held, restSplit20 m hR c] at hjoin
    iintro ⟨Ha, HO, ⟨Hp, Ht⟩, Hrest⟩
    imodintro
    isplitl [Ha Ht Hrest]
    · iapply hjoin
      isplitl [Ha]; · iexact Ha
      isplitl [Ht]; · iexact Ht
      iexact Hrest
    isplitl [Hp]; · iexact Hp
    unfold Pipeline.Dat.owesAt Pipeline.owesWithin
    icases HO with ⟨%W, -, HO⟩; iexists W; iexact HO

end Reg

end Cert.Kernel.Hand

end
-- ==== Proof.K.Run.lean ====
/-
  The launch of @main. The program is 42 items in order: pallas_call K (K = 0 … 20) followed by host stretch K + 1.
  Each item is a segment between two boundaries of the fold: entered from every unscoped buffer at the contents of the
  boundary before it, left at the contents of the boundary after it, the generator register and the core's dues (none)
  riding along. The segments' thread states chain — each is entered from exactly what the one before it left, a host
  stretch's exit contents being the next boundary's by definition — so the several-region launch theorem runs @main from
  the launch memory to the last boundary, and the final memory is read off the last thread state: every unscoped
  buffer holds the last boundary's contents; in particular the five argument arrays are as launched.
-/
import proofs.«413139_j22651657519351_3_alg».proof.Proof.K.Reg0
import proofs.«413139_j22651657519351_3_alg».proof.Proof.K.Reg1
import proofs.«413139_j22651657519351_3_alg».proof.Proof.K.Reg2
import proofs.«413139_j22651657519351_3_alg».proof.Proof.K.Reg3
import proofs.«413139_j22651657519351_3_alg».proof.Proof.K.Reg4
import proofs.«413139_j22651657519351_3_alg».proof.Proof.K.Reg5
import proofs.«413139_j22651657519351_3_alg».proof.Proof.K.Reg6
import proofs.«413139_j22651657519351_3_alg».proof.Proof.K.Reg7
import proofs.«413139_j22651657519351_3_alg».proof.Proof.K.Reg8
import proofs.«413139_j22651657519351_3_alg».proof.Proof.K.Reg9
import proofs.«413139_j22651657519351_3_alg».proof.Proof.K.Reg10
import proofs.«413139_j22651657519351_3_alg».proof.Proof.K.Reg11
import proofs.«413139_j22651657519351_3_alg».proof.Proof.K.Reg12
import proofs.«413139_j22651657519351_3_alg».proof.Proof.K.Reg13
import proofs.«413139_j22651657519351_3_alg».proof.Proof.K.Reg14
import proofs.«413139_j22651657519351_3_alg».proof.Proof.K.Reg15
import proofs.«413139_j22651657519351_3_alg».proof.Proof.K.Reg16
import proofs.«413139_j22651657519351_3_alg».proof.Proof.K.Reg17
import proofs.«413139_j22651657519351_3_alg».proof.Proof.K.Reg18
import proofs.«413139_j22651657519351_3_alg».proof.Proof.K.Reg19
import proofs.«413139_j22651657519351_3_alg».proof.Proof.K.Reg20
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Run

variable (m : (ℓ : Loc nD τ sig) → Buf (Elt F) ℓ) (hR : InRange m) (ρ : Dev nD → PrngReg)

/-- @main's 42 segments in order: pallas_call K as the region record entered from boundary 2K and left at boundary
    2K + 1, then host stretch K + 1 from boundary 2K + 1's contents. -/
abbrev segs : List (Pipeline.Seg (pcfgs (F := F)) (adm m hR) (pdats m hR) () defs₀ 𝒱₀ L lv) :=
  [ .region (reg0 m hR),
    .host (hseg hostOps1 hostOps1_sub hostOps1_fresh (W1 m hR)),
    .region (reg1 m hR),
    .host (hseg hostOps2 hostOps2_sub hostOps2_fresh (W3 m hR)),
    .region (reg2 m hR),
    .host (hseg hostOps3 hostOps3_sub hostOps3_fresh (W5 m hR)),
    .region (reg3 m hR),
    .host (hseg hostOps4 hostOps4_sub hostOps4_fresh (W7 m hR)),
    .region (reg4 m hR),
    .host (hseg hostOps5 hostOps5_sub hostOps5_fresh (W9 m hR)),
    .region (reg5 m hR),
    .host (hseg hostOps6 hostOps6_sub hostOps6_fresh (W11 m hR)),
    .region (reg6 m hR),
    .host (hseg hostOps7 hostOps7_sub hostOps7_fresh (W13 m hR)),
    .region (reg7 m hR),
    .host (hseg hostOps8 hostOps8_sub hostOps8_fresh (W15 m hR)),
    .region (reg8 m hR),
    .host (hseg hostOps9 hostOps9_sub hostOps9_fresh (W17 m hR)),
    .region (reg9 m hR),
    .host (hseg hostOps10 hostOps10_sub hostOps10_fresh (W19 m hR)),
    .region (reg10 m hR),
    .host (hseg hostOps11 hostOps11_sub hostOps11_fresh (W21 m hR)),
    .region (reg11 m hR),
    .host (hseg hostOps12 hostOps12_sub hostOps12_fresh (W23 m hR)),
    .region (reg12 m hR),
    .host (hseg hostOps13 hostOps13_sub hostOps13_fresh (W25 m hR)),
    .region (reg13 m hR),
    .host (hseg hostOps14 hostOps14_sub hostOps14_fresh (W27 m hR)),
    .region (reg14 m hR),
    .host (hseg hostOps15 hostOps15_sub hostOps15_fresh (W29 m hR)),
    .region (reg15 m hR),
    .host (hseg hostOps16 hostOps16_sub hostOps16_fresh (W31 m hR)),
    .region (reg16 m hR),
    .host (hseg hostOps17 hostOps17_sub hostOps17_fresh (W33 m hR)),
    .region (reg17 m hR),
    .host (hseg hostOps18 hostOps18_sub hostOps18_fresh (W35 m hR)),
    .region (reg18 m hR),
    .host (hseg hostOps19 hostOps19_sub hostOps19_fresh (W37 m hR)),
    .region (reg19 m hR),
    .host (hseg hostOps20 hostOps20_sub hostOps20_fresh (W39 m hR)),
    .region (reg20 m hR),
    .host (hseg hostOps21 hostOps21_sub hostOps21_fresh (W41 m hR)) ]

/-- The last thread state without the dues: every unscoped buffer at the last boundary's contents, the generator
    register at some state. -/
abbrev Tₙ (c : Dev nD) : sProp 𝕄 :=
  iprop(StableHlo.held (c : Thread nD τ) (Pipeline.ucRefs τ sig) (W42 m hR c) ∗ ∃ r, prngReg c r)

/-- The segments' fragments, in order, are the items of @main's chain. -/
theorem segs_progs : (segs m hR).map Pipeline.Seg.prog = [
          Prog.lift (.customCall (Pipeline.entry 0) ()),
          StableHlo.seq hostOps1,
          Prog.lift (.customCall (Pipeline.entry 1) ()),
          StableHlo.seq hostOps2,
          Prog.lift (.customCall (Pipeline.entry 2) ()),
          StableHlo.seq hostOps3,
          Prog.lift (.customCall (Pipeline.entry 3) ()),
          StableHlo.seq hostOps4,
          Prog.lift (.customCall (Pipeline.entry 4) ()),
          StableHlo.seq hostOps5,
          Prog.lift (.customCall (Pipeline.entry 5) ()),
          StableHlo.seq hostOps6,
          Prog.lift (.customCall (Pipeline.entry 6) ()),
          StableHlo.seq hostOps7,
          Prog.lift (.customCall (Pipeline.entry 7) ()),
          StableHlo.seq hostOps8,
          Prog.lift (.customCall (Pipeline.entry 8) ()),
          StableHlo.seq hostOps9,
          Prog.lift (.customCall (Pipeline.entry 9) ()),
          StableHlo.seq hostOps10,
          Prog.lift (.customCall (Pipeline.entry 10) ()),
          StableHlo.seq hostOps11,
          Prog.lift (.customCall (Pipeline.entry 11) ()),
          StableHlo.seq hostOps12,
          Prog.lift (.customCall (Pipeline.entry 12) ()),
          StableHlo.seq hostOps13,
          Prog.lift (.customCall (Pipeline.entry 13) ()),
          StableHlo.seq hostOps14,
          Prog.lift (.customCall (Pipeline.entry 14) ()),
          StableHlo.seq hostOps15,
          Prog.lift (.customCall (Pipeline.entry 15) ()),
          StableHlo.seq hostOps16,
          Prog.lift (.customCall (Pipeline.entry 16) ()),
          StableHlo.seq hostOps17,
          Prog.lift (.customCall (Pipeline.entry 17) ()),
          StableHlo.seq hostOps18,
          Prog.lift (.customCall (Pipeline.entry 18) ()),
          StableHlo.seq hostOps19,
          Prog.lift (.customCall (Pipeline.entry 19) ()),
          StableHlo.seq hostOps20,
          Prog.lift (.customCall (Pipeline.entry 20) ()),
          StableHlo.seq hostOps21 ] := rfl

/-- Running the segments is running @main. -/
theorem main_run (c : Dev nD) : main (F := F) c = Pipeline.Seg.run (segs m hR) := by
  rw [main_chain c, Pipeline.Seg.run_eq_chain, segs_progs m hR]

/-- The 21 regions enter 21 different pipelines. -/
theorem segs_nodup : (Pipeline.Seg.pipes (segs m hR)).Nodup := by
  simp only [segs, Pipeline.Seg.pipes_host, Pipeline.Seg.pipes_region, Pipeline.Seg.pipes_nil]; decide

-- the launch theorem's implicit arguments are found by unifying its conclusion with this one, which takes unfolding
-- plain definitions in a metavariable's type
set_option backward.isDefEq.respectTransparency.types false in
/-- **The run of @main**: at the compiled mesh, from any in-range memory with zero counters, every weakly fair execution
    of @main on the TensorCores terminates, nothing faulting, and in every final state each unscoped buffer holds the
    fold's last contents. The thread states chain boundary by boundary (43 entailments, each an identity but the last,
    which moves the generator register from beside the dues to beside the buffers); the launch makes the first thread
    state out of the launch memory; the last thread state is read against the final memory. -/
theorem run : θ_run defs (onTc (τ := τ) (main (F := F))) ⟨m, fun _ => 0, ρ⟩
    (fun r => ∀ c : Dev nD, ∀ b ∈ Pipeline.ucRefs τ sig, r.2.mem (((c : Thread nD τ)).1, b) = W42 m hR c b) :=
  Pipeline.θ_run_regions_kit (pcfgs (F := F)) (adm m hR) (pdats m hR) () (cellOf_inj (adm m hR)) emb₁ defs₀ 𝒱₀ L lv m ρ main (segs m hR)
    (fun c Q => by rw [main_run m hR c])
    (segs_nodup m hR)
    (O₀ := 0) (hL := fun _ _ => rfl) (G := fun _ => iprop(emp))
    (u₀ := initOf (Pipeline.cells (Pipeline.pin (pcfgs (F := F)) (adm m hR)) (cellOf_inj (adm m hR))) (Pipeline.launchToks (Pipeline.pin (pcfgs (F := F)) (adm m hR)) (cellOf_inj (adm m hR))))
    (hu₀ := by
      iintro Hu; imodintro
      isplitl [Hu]
      · iapply (show (ownU (initOf (Pipeline.cells (Pipeline.pin (pcfgs (F := F)) (adm m hR)) (cellOf_inj (adm m hR))) (Pipeline.launchToks (Pipeline.pin (pcfgs (F := F)) (adm m hR)) (cellOf_inj (adm m hR)))) : sProp 𝕄)
            ⊢ BI.own (emb₁ (initOf (Pipeline.cells (Pipeline.pin (pcfgs (F := F)) (adm m hR)) (cellOf_inj (adm m hR))) (Pipeline.launchToks (Pipeline.pin (pcfgs (F := F)) (adm m hR)) (cellOf_inj (adm m hR))))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m hR c) ∗ R c)) (Tₙ := Tₙ m hR)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl,
      fun c => show (iprop(StableHlo.held (c : Thread nD τ) (Pipeline.ucRefs τ sig) (W42 m hR c) ∗ (∃ r, prngReg c r) ∗ ∃ W, owes (c : Thread nD τ) (0 : CellTallies nD τ sig Unit) W) : sProp 𝕄)
          ⊢ iprop((StableHlo.held (c : Thread nD τ) (Pipeline.ucRefs τ sig) (W42 m hR c) ∗ ∃ r, prngReg c r) ∗ ∃ W, owes (c : Thread nD τ) (0 : CellTallies nD τ sig Unit) W) from by
        iintro ⟨Hh, Hp, HO⟩
        isplitl [Hh Hp]
        · isplitl [Hh]; · iexact Hh
          iexact Hp
        iexact HO⟩)
    (hinit := by
      refine Pipeline.initEach L lv fun c => ?_
      rw [show unscopedBufs c (fun b => m ((c : Thread nD τ).loc b)) = StableHlo.held (c : Thread nD τ) (Pipeline.ucRefs τ sig) (W0 m hR c)
        from Pipeline.unscopedBufs_held c (W0 m hR c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W42 m hR c b)
    (hfin := fun c s' => by
      iintro ⟨⟨Hh, -⟩, HSI⟩
      unfold StableHlo.held
      imodintro
      iapply (pointsTo_read_all (Pipeline.ucRefs τ sig) (fun b => (((c : Thread nD τ)).1, b)) (W42 m hR c) s')
      isplitl [Hh] <;> iassumption)
    (hQ := fun s h => h)

/-- **The run of @main, its arrays by name**: in every final state the result array holds the fold's last contents of
    it, and each of the five argument arrays is as launched (no item writes an argument array). -/
theorem run_args : θ_run defs (onTc (τ := τ) (main (F := F))) ⟨m, fun _ => 0, ρ⟩ (fun r => ∀ c : Dev nD,
      r.2.mem ((c.tc : Thread nD τ).loc main_v89) = W42 m hR c main_v89
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run _ _ _).mono (fun r h c =>
    ⟨h c _ (mem_uc main_v89 (by decide)),
     (h c _ (mem_uc main_arg0 (by decide))).trans (W42_arg0 m hR c),
     (h c _ (mem_uc main_arg1 (by decide))).trans (W42_arg1 m hR c),
     (h c _ (mem_uc main_arg2 (by decide))).trans (W42_arg2 m hR c),
     (h c _ (mem_uc main_arg3 (by decide))).trans (W42_arg3 m hR c),
     (h c _ (mem_uc main_arg4 (by decide))).trans (W42_arg4 m hR c)⟩) (run m hR ρ)

end Run

end Cert.Kernel.Hand

end
-- ==== Proof.KI.Region0.lean ====
/- The first pallas_call of the program (custom_call 0, the projection kernel `cc0__proj_kernel`, on a 2×10 grid over
   five windows): its proof data at the buffer contents `V` found when the region is entered, and its body obligation.

   The kernel reads one [1,5000,64] block of the activations (window 0) and the two whole [64,64] weight matrices
   (windows 1 and 2, whose block index never moves), and overwrites the whole of each of its two output blocks
   (windows 3 and 4) with a product that depends on the three values read alone. So after the body, at every grid
   point: each input's staging buffer still holds its block, and each output's buffer holds one whole-block piece whose
   payload is the skeleton's store value at the blocks read. Generic in the float instance. -/
import proofs.«413139_j22651657519351_3_alg».proof.Proof.Gen.KernelIdeal.Launch
import proofs.«413139_j22651657519351_3_alg».proof.Proof.Gen.KernelIdeal.Skeleton
import proofs.«413139_j22651657519351_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership of an index in a rectangle with a 5000-long axis: the structural look recurses along that axis
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region0
-- the TensorCore's buffer contents when the region is entered
variable (V : (c : Dev nD) → (b : Ref sig .tc) → Buf (Elt F) ((c : Thread nD τ).loc b))

/-! ## The windows' blocks -/

/-- Window `w`'s block at grid point `t`: the rectangle its index map selects there, read off the window's array as
    the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The activations' staging buffer holds the current block at every point. The window is refetched at every point,
    is not cut at the array's edge and is never idle, and the body leaves the block as it found it. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The first weight matrix's staging buffer holds the whole matrix at every point. It is fetched at the first point
    only; afterwards the block index has not moved and the body has left the buffer alone, so what was fetched then
    is still there, and it is this point's block. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- The second weight matrix's staging buffer likewise. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each is the whole of its buffer -/

abbrev r0_x : Rect S1x5000x64 := Rect.unit (s := S1x5000x64) ![0, 0, 0] S1x5000x64.size inb_S1x5000x64_S1x5000x64_0_0_0
abbrev r0_w : Rect S64x64 := Rect.unit (s := S64x64) ![0, 0] S64x64.size inb_S64x64_S64x64_0_0

/-! ## What the body leaves in each output buffer -/

/-- The first output's buffer after the body: one piece, the whole block, holding the first projection of the
    activations block `x0` by the weight matrix `x1`. -/
def out0_3 (x0 : Vec F S1x5000x64 .f32) (x1 : Vec F S64x64 .f32) : Vec F S1x5000x64 .f32 :=
  View.canon [⟨r0_x, k0_pay2 (View.ld x0 r0_x) (View.ld x1 r0_w)⟩]

/-- The second output's buffer after the body: one piece, the whole block, holding the second projection of `x0`, by
    the weight matrix `x2`. -/
def out0_4 (x0 : Vec F S1x5000x64 .f32) (x2 : Vec F S64x64 .f32) : Vec F S1x5000x64 .f32 :=
  View.canon [⟨r0_x, k0_pay3 (View.ld x0 r0_x) (View.ld x2 r0_w)⟩]

/-- A single store of the whole block tiles it (one tile, of the block's own extents), so it covers it. -/
theorem cover0_x (p0 : Vec F S1x5000x64 .f32) (y : S1x5000x64.Idx) :
    ∃ pc ∈ ([⟨r0_x, p0⟩] : List (View.Piece (Elt F) S1x5000x64 .f32)), y ∈ pc.1.set :=
  View.cover_of_tiled [⟨r0_x, p0⟩] S1x5000x64.size (by rfl) y

/-! ## The body's triple -/

set_option maxHeartbeats 1000000 in
/-- The kernel body on whole staging memrefs — the three inputs' reading `x0`, `x1`, `x2`, the two outputs' holding
    anything — runs to a state where the inputs' are unchanged and the outputs' hold `out0_3 x0 x1` and `out0_4 x0 x2`.
    The body reads each output buffer before overwriting it, but no stored value depends on what was read there. -/
theorem sound_kernel0 (c : Dev nD) (E : Set ℕ) (i : grid0.Coords)
    (arg2 : Memref sig .tc .vmem S1x5000x64 .f32) (harg2 : arg2.IsWhole)
    (arg3 : Memref sig .tc .vmem S64x64 .f32) (harg3 : arg3.IsWhole)
    (arg4 : Memref sig .tc .vmem S64x64 .f32) (harg4 : arg4.IsWhole)
    (arg5 : Memref sig .tc .vmem S1x5000x64 .f32) (harg5 : arg5.IsWhole)
    (arg6 : Memref sig .tc .vmem S1x5000x64 .f32) (harg6 : arg6.IsWhole)
    (x0 : Vec F S1x5000x64 .f32) (x1 x2 : Vec F S64x64 .f32) (K : PUnit → sProp 𝕄) :
    iprop(owns (c : Thread nD τ) arg2 fullShare x0 ∗ owns (c : Thread nD τ) arg3 fullShare x1
        ∗ owns (c : Thread nD τ) arg4 fullShare x2
        ∗ (∃ d, owns (c : Thread nD τ) arg5 fullShare d) ∗ (∃ d, owns (c : Thread nD τ) arg6 fullShare d)
        ∗ (iprop(owns (c : Thread nD τ) arg2 fullShare x0 ∗ owns (c : Thread nD τ) arg3 fullShare x1
            ∗ owns (c : Thread nD τ) arg4 fullShare x2
            ∗ owns (c : Thread nD τ) arg5 fullShare (out0_3 x0 x1)
            ∗ owns (c : Thread nD τ) arg6 fullShare (out0_4 x0 x2)) -∗ K ⟨⟩))
      ⊢ wp frame (wpE (defs₀ (F := F)) Variants.none c none) E
          (cc0__proj_kernel i arg2 harg2 arg3 harg3 arg4 harg4 arg5 harg5 arg6 harg6) K := by
  simp only [cc0__proj_kernel_eq_skeleton]; unfold cc0__proj_kernel_skel
  unfold owns
  iintro ⟨⟨%f0, %hf0, H0⟩, ⟨%f1, %hf1, H1⟩, ⟨%f2, %hf2, H2⟩, ⟨%d3, %f3, -, H3⟩, ⟨%d4, %f4, -, H4⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    exact View.read_writes_eq_canon _ _ _ (cover0_x _)
  iexists _; isplitr
  swap; · iexact H4
  ipureintro
  exact View.read_writes_eq_canon _ _ _ (cover0_x _)

/-! ## The pipeline's proof data -/

/-- The proof data of this pipeline on core `c`: the arrays as the region finds them; after the body at point `t`
    each input's buffer at its block and each output's at its whole-block piece over the input blocks; the invariant
    that leaves everything outside the windows untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t)
    | ⟨4, _⟩ => out0_4 (iblk0 V c 0 t) (iblk0 V c 2 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = out0_3 (iblk0 V c 0 t) (iblk0 V c 1 t) := by dsimp only [dat0]
theorem after0_4 (c : Dev nD) (t : Fin cfg0.N) :
    (dat0 V c).after 4 t = out0_4 (iblk0 V c 0 t) (iblk0 V c 2 t) := by dsimp only [dat0]

/-- Each input's current staging buffer holds its block at every point. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation, at a generic point -/

/-- What the body is called with at point `t`: the invariant, the core's debts, and each window's current staging
    buffer at what the pipeline left there. -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d)))

/-- What the body returns: the same invariant and debts, and each buffer at the proof data's `after`. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t))

/-- The body at any point: the inputs' buffers hold their blocks, so the body's triple applies; the invariant and the
    debts pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3, after0_4]
  iintro ⟨HΦ, Ho, ⟨%d0, H0⟩, ⟨%d1, H1⟩, ⟨%d2, H2⟩, ⟨%d3, H3⟩, ⟨%d4, H4⟩⟩
  iapply (sound_kernel0 c Set.univ _ _ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation0 (c : Dev nD) : BodyObligation (dat0 (F := F) V c) (defs₀ (F := F)) Variants.none () Set.univ := fun t => by
  rw [bigSep_W0, bigSep_W0]
  exact sound_body0 V c t

end Region0

end Cert.KernelIdeal.Hand

end
-- ==== Proof.KI.Region1.lean ====
/-
  Edge chunk 1's gather kernel (twenty chunks of 40000 edges): at grid point t the pipeline fetches row src[t] of the
  re-laid projection hs2 and row dst[t] of hd2 (two blocks of 128 lanes, chosen by the prefetched index tables),
  the body stores (row + row) · c into the output block, which is written back as row t of the chunk's output.
  Here: what each window's staging buffer holds before and after the body at every point, for any contents V of the
  buffers at the region's entry and any admissible contents `a` of the two index tables, and the body's run.
  The tables ride through the region untouched: the body never reads them.
-/
import proofs.«413139_j22651657519351_3_alg».proof.Proof.Gen.KernelIdeal.Launch
import proofs.«413139_j22651657519351_3_alg».proof.Proof.Gen.KernelIdeal.Skeleton
import proofs.«413139_j22651657519351_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region

variable (V : (c : Dev nD) → (b : Ref sig .tc) → Buf (Elt F) ((c : Thread nD τ).loc b))
variable (a : (pcfg1 (F := F)).Adm)

/-! ## The body as the pipeline calls it at a point -/

/-- Each window's current staging memref at point `t`, and its wholeness. -/
abbrev ms1_0 (t : Fin (cfg1 a).N) : Memref sig .tc .vmem S1x1x128 .f32 := spec1_0.stage ((cfg1 a).slots t 0)
abbrev hs1_0 (t : Fin (cfg1 a).N) : (ms1_0 a t).IsWhole := hstage1_0 (((cfg1 a).slots t 0).cast nbuf1_0)
abbrev ms1_1 (t : Fin (cfg1 a).N) : Memref sig .tc .vmem S1x1x128 .f32 := spec1_1.stage ((cfg1 a).slots t 1)
abbrev hs1_1 (t : Fin (cfg1 a).N) : (ms1_1 a t).IsWhole := hstage1_1 (((cfg1 a).slots t 1).cast nbuf1_1)
abbrev ms1_2 (t : Fin (cfg1 a).N) : Memref sig .tc .vmem S1x1x128 .f32 := spec1_2.stage ((cfg1 a).slots t 2)
abbrev hs1_2 (t : Fin (cfg1 a).N) : (ms1_2 a t).IsWhole := hstage1_2 (((cfg1 a).slots t 2).cast nbuf1_2)

/-- The kernel body at point `t`, on what the pipeline calls it with. -/
abbrev bodyAt1 (t : Fin (cfg1 a).N) : Prog (TpuEff nD τ sig (Elt F) Λ₀ .tc) PUnit :=
  cc1__gather_kernel (grid1.coords t) (Memref.whole main_v5) (Memref.isWhole_whole _) (Memref.whole main_v6) (Memref.isWhole_whole _)
    (ms1_0 a t) (hs1_0 a t) (ms1_1 a t) (hs1_1 a t) (ms1_2 a t) (hs1_2 a t)

/-! ## The windows' blocks -/

/-- Window `w`'s block at point `t`, read off its array as the region finds it: for the two gathered windows the
    row the tables' word at `t` names. -/
def iblk1 (c : Dev nD) (w : Fin (cfg1 a).W) (t : Fin (cfg1 a).N) :
    (((cfg1 a).win w).xblock ((cfg1 a).grid.coords t)).Idx → Elt F ((cfg1 a).win w).elt :=
  (((cfg1 a).win w).blk t).view.read (Elt F) (V c (Pipeline.arrRef spec1 w))

/-- An input window's current staging buffer holds its block at every point, fetched there or not. -/
theorem before1_0_of {c : Dev nD} (dat : Dat τ (Elt F) Unit ℕ (UR sig nD τ) ℕ (cfg1 a) c) (hA : dat.A 0 = V c (Pipeline.arrRef spec1 0))
    (hafter : ∀ t, dat.after 0 t = iblk1 V a c 0 t) (t : Fin (cfg1 a).N) (d) : dat.before 0 t d = iblk1 V a c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_1_of {c : Dev nD} (dat : Dat τ (Elt F) Unit ℕ (UR sig nD τ) ℕ (cfg1 a) c) (hA : dat.A 1 = V c (Pipeline.arrRef spec1 1))
    (hafter : ∀ t, dat.after 1 t = iblk1 V a c 1 t) (t : Fin (cfg1 a).N) (d) : dat.before 1 t d = iblk1 V a c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-! ## What the body leaves in the output window's buffer -/

/-- The one rectangle the body loads and stores through: the whole 1×1×128 block. -/
abbrev r1 : Rect S1x1x128 := Rect.unit (s := S1x1x128) ![0, 0, 0] S1x1x128.size inb_S1x1x128_S1x1x128_0_0_0

/-- The output block after the body, from the two gathered rows: its one store. -/
def out1_2 (x0 x1 : Vec F S1x1x128 .f32) : Vec F S1x1x128 .f32 :=
  View.canon [⟨r1, k1_pay1 (View.ld x0 r1) (View.ld x1 r1)⟩]

/-- The store covers the block. -/
theorem cover1_2 (p0 : Vec F S1x1x128 .f32) (y : S1x1x128.Idx) :
    ∃ pc ∈ ([⟨r1, p0⟩] : List (View.Piece (Elt F) S1x1x128 .f32)), y ∈ pc.1.set :=
  View.cover_of_tiled [⟨r1, p0⟩] S1x1x128.size (by rfl) y

/-! ## The body's run -/

set_option maxHeartbeats 1000000 in
/-- The body on whole staging memrefs, the two inputs' at contents `x0`, `x1` and the output's at anything, runs to the
    continuation holding the inputs as they were and the output at `out1_2 x0 x1`; the table memrefs are not touched. -/
theorem sound_kernel1 (c : Dev nD) (E : Set ℕ) (i : grid1.Coords)
    (arg1 : Memref sig .tc .smem S40000 .i32) (harg1 : arg1.IsWhole) (arg2 : Memref sig .tc .smem S40000 .i32) (harg2 : arg2.IsWhole)
    (arg3 : Memref sig .tc .vmem S1x1x128 .f32) (harg3 : arg3.IsWhole) (arg4 : Memref sig .tc .vmem S1x1x128 .f32) (harg4 : arg4.IsWhole)
    (arg5 : Memref sig .tc .vmem S1x1x128 .f32) (harg5 : arg5.IsWhole)
    (x0 x1 : Vec F S1x1x128 .f32) (K : PUnit → sProp 𝕄) :
    iprop(owns (c : Thread nD τ) arg3 fullShare x0 ∗ owns (c : Thread nD τ) arg4 fullShare x1 ∗ (∃ d, owns (c : Thread nD τ) arg5 fullShare d)
        ∗ (iprop(owns (c : Thread nD τ) arg3 fullShare x0 ∗ owns (c : Thread nD τ) arg4 fullShare x1
            ∗ owns (c : Thread nD τ) arg5 fullShare (out1_2 x0 x1)) -∗ K ⟨⟩))
      ⊢ wp frame (wpE (defs₀ (F := F)) Variants.none c none) E (cc1__gather_kernel i arg1 harg1 arg2 harg2 arg3 harg3 arg4 harg4 arg5 harg5) K := by
  simp only [cc1__gather_kernel_eq_skeleton]; unfold cc1__gather_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover1_2 _)

/-! ## The pipeline's proof data -/

/-- The proof data of this pipeline on core `c`: the arrays as the region finds them; after the body at point `t` each
    gathered input's buffer at its block and the output's at `out1_2` of the two; the invariant: the scoped rest, the
    generator register, and the two index tables held whole and untouched; nothing owed; full shares. -/
def dat1 (c : Dev nD) : Dat τ (Elt F) Unit ℕ (UR sig nD τ) ℕ (cfg1 a) c where
  A w := V c (Pipeline.arrRef spec1 w)
  after w t := match w with
    | ⟨0, _⟩ => iblk1 V a c 0 t
    | ⟨1, _⟩ => iblk1 V a c 1 t
    | ⟨2, _⟩ => out1_2 (iblk1 V a c 0 t) (iblk1 V a c 1 t)
  Φ _ := iprop(Pipeline.ΦA spec1 c ∗ Pipeline.prefHeld (Ix := Unit) (Name := ℕ) (U := UR sig nD τ) (Lvl := ℕ) pre1 c (fun _ => fullShare) a.1)
  q _ := fullShare
  owed _ := 0

theorem A_eq1 (c : Dev nD) (w : Fin (cfg1 a).W) : (dat1 V a c).A w = V c (Pipeline.arrRef spec1 w) := by
  dsimp only [dat1]

theorem after1_0 (c : Dev nD) (t : Fin (cfg1 a).N) : (dat1 V a c).after 0 t = iblk1 V a c 0 t := by dsimp only [dat1]; try rfl
theorem after1_1 (c : Dev nD) (t : Fin (cfg1 a).N) : (dat1 V a c).after 1 t = iblk1 V a c 1 t := by dsimp only [dat1]; try rfl
theorem after1_2 (c : Dev nD) (t : Fin (cfg1 a).N) : (dat1 V a c).after 2 t = out1_2 (iblk1 V a c 0 t) (iblk1 V a c 1 t) := by dsimp only [dat1]; try rfl

theorem before1_0 (c : Dev nD) (t : Fin (cfg1 a).N) (d) : (dat1 V a c).before 0 t d = iblk1 V a c 0 t :=
  before1_0_of V a (dat1 V a c) (A_eq1 V a c 0) (after1_0 V a c) t d
theorem before1_1 (c : Dev nD) (t : Fin (cfg1 a).N) (d) : (dat1 V a c).before 1 t d = iblk1 V a c 1 t :=
  before1_1_of V a (dat1 V a c) (A_eq1 V a c 1) (after1_1 V a c) t d

/-! ## The body obligation, at a generic point -/

def bodyPre1 (c : Dev nD) (t : Fin (cfg1 a).N) : sProp 𝕄 :=
  iprop((dat1 V a c).Φ t.castSucc ∗ (dat1 V a c).owesAt () t.castSucc
    ∗ (∃ d, owns (c : Thread nD τ) (ms1_0 a t) fullShare ((dat1 V a c).before 0 t d))
    ∗ (∃ d, owns (c : Thread nD τ) (ms1_1 a t) fullShare ((dat1 V a c).before 1 t d))
    ∗ (∃ d, owns (c : Thread nD τ) (ms1_2 a t) fullShare ((dat1 V a c).before 2 t d)))

def bodyPost1 (c : Dev nD) (t : Fin (cfg1 a).N) : sProp 𝕄 :=
  iprop((dat1 V a c).Φ t.succ ∗ (dat1 V a c).owesAt () t.succ
    ∗ owns (c : Thread nD τ) (ms1_0 a t) fullShare ((dat1 V a c).after 0 t)
    ∗ owns (c : Thread nD τ) (ms1_1 a t) fullShare ((dat1 V a c).after 1 t)
    ∗ owns (c : Thread nD τ) (ms1_2 a t) fullShare ((dat1 V a c).after 2 t))

/-- The body at any point: the inputs' memrefs hold their blocks, so the run applies; the invariant and the core's
    dues pass through unread. -/
theorem sound_body1 (c : Dev nD) (t : Fin (cfg1 a).N) :
    bodyPre1 V a c t ⊢ wp frame (wpE (defs₀ (F := F)) Variants.none c none) Set.univ (bodyAt1 a t) (fun _ => bodyPost1 V a c t) := by
  unfold bodyPre1 bodyPost1 bodyAt1
  simp only [before1_0, before1_1]
  rw [show (dat1 V a c).Φ t.succ = (dat1 V a c).Φ t.castSucc from rfl,
    show (dat1 V a c).owesAt () t.succ = (dat1 V a c).owesAt () t.castSucc from rfl,
    after1_0, after1_1, after1_2]
  iintro ⟨HΦ, Ho, ⟨%d0, H0⟩, ⟨%d1, H1⟩, ⟨%d2, H2⟩⟩
  iapply (sound_kernel1 c Set.univ _ _ _ _ _ _ _ _ _ _ _ (iblk1 V a c 0 t) (iblk1 V a c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation1 (c : Dev nD) : BodyObligation (dat1 (F := F) V a c) (defs₀ (F := F)) Variants.none () Set.univ := fun t => by
  rw [bigSep_W1, bigSep_W1]
  exact sound_body1 V a c t

end Region

end Cert.KernelIdeal.Hand

end
-- ==== Proof.KI.Range.lean ====
/-
  The domain the two programs are compared on: every endpoint word (both index arrays, every edge) is a node id,
  that is, below the node count 50000 as an unsigned word.
-/
import proofs.«413139_j22651657519351_3_alg».proof.Proof.Gen.KernelIdeal.Launch
import proofs.«413139_j22651657519351_3_alg».proof.Proof.Gen.KernelIdeal.Skeleton
import proofs.«413139_j22651657519351_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- Every word of the two endpoint arrays in the launch memory is below 50000. -/
def InRange (m : (ℓ : Loc nD τ sig) → Buf (Elt F) ℓ) : Prop :=
  ∀ c : Dev nD,
    (∀ j : S800000.Idx, ((m ((c : Thread nD τ).loc main_arg1) j : Elt F .i32) : BitVec 32).toNat < 50000)
    ∧ (∀ j : S800000.Idx, ((m ((c : Thread nD τ).loc main_arg2) j : Elt F .i32) : BitVec 32).toNat < 50000)

end Cert.KernelIdeal.Hand

end
-- ==== Proof.KI.Tables1.lean ====
/-
  Edge chunk 1's index tables. The host slices 40000 consecutive words, from word 0 on, out of each endpoint
  array (src, then dst) into scalar memory; the chunk's pipeline reads word t of each as the block row of its two
  gathered windows at grid point t. When every endpoint word is a node id (below 50000) each such row lies inside
  the 50000-row arrays: the tables' contents are admissible for the pipeline.
-/
import proofs.«413139_j22651657519351_3_alg».proof.Proof.Gen.KernelIdeal.Launch
import proofs.«413139_j22651657519351_3_alg».proof.Proof.Gen.KernelIdeal.Skeleton
import proofs.«413139_j22651657519351_3_alg».proof.Proof.Gen.KernelIdeal.Points
import proofs.«413139_j22651657519351_3_alg».proof.Proof.KI.Range
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Tables

variable (m : (ℓ : Loc nD τ sig) → Buf (Elt F) ℓ)

/-- The two tables' contents, read off the launch memory: the endpoint arrays' words 0 … 0 + 39999. -/
def tbl1 : pre1.Contents (Elt F) := fun k => match k with
  | ⟨0, _⟩ => (extractStridedSlice S40000 ![0] (m (((0 : Dev nD) : Thread nD τ).loc main_arg1)) slices_S800000_S40000_0 : (⟨S40000, .i32⟩ : BufTy).Contents (Elt F))
  | ⟨1, _⟩ => (extractStridedSlice S40000 ![0] (m (((0 : Dev nD) : Thread nD τ).loc main_arg2)) slices_S800000_S40000_0 : (⟨S40000, .i32⟩ : BufTy).Contents (Elt F))

/-- Tables whose every word is below the node count put every gathered block inside its array: row word + 1 ≤ 50000,
    the two unit axes and the 128 lanes exactly filled; float32 words transfer whole. -/
theorem ok1_of (pf : pre1.Contents (Elt F)) (h0 : ∀ j, ((pf 0 j : Elt F .i32) : BitVec 32).toNat < 50000)
    (h1 : ∀ j, ((pf 1 j : Elt F .i32) : BitVec 32).toNat < 50000) : ok1 pf := by
  refine ⟨fun i => ⟨fun a => ?_, Or.inl rfl⟩, fun i => ⟨fun a => ?_, Or.inl rfl⟩⟩
  · match a with
    | ⟨0, _⟩ =>
      show (BitVec.toNat (pf 0 _) + 1) * 1 ≤ 50000
      exact (Nat.mul_one _).le.trans (Nat.succ_le_of_lt (h0 _))
    | ⟨1, _⟩ => show (BitVec.toNat (0#32) + 1) * 1 ≤ 1; decide
    | ⟨2, _⟩ => show (BitVec.toNat (0#32) + 1) * 128 ≤ 128; decide
  · match a with
    | ⟨0, _⟩ =>
      show (BitVec.toNat (pf 1 _) + 1) * 1 ≤ 50000
      exact (Nat.mul_one _).le.trans (Nat.succ_le_of_lt (h1 _))
    | ⟨1, _⟩ => show (BitVec.toNat (0#32) + 1) * 1 ≤ 1; decide
    | ⟨2, _⟩ => show (BitVec.toNat (0#32) + 1) * 128 ≤ 128; decide

/-- The chunk's tables as admissible contents, when the endpoint words are node ids. -/
def a1 (hR : InRange m) : (pcfg1 (F := F)).Adm :=
  ⟨tbl1 m, ok1_of (tbl1 m) (fun j => (hR 0).1 _) (fun j => (hR 0).2 _)⟩

theorem a1_val (hR : InRange m) : (a1 m hR).1 = tbl1 m := rfl

end Tables

end Cert.KernelIdeal.Hand

end
-- ==== Proof.KI.Region2.lean ====
/-
  Edge chunk 2's gather kernel (twenty chunks of 40000 edges): at grid point t the pipeline fetches row src[t] of the
  re-laid projection hs2 and row dst[t] of hd2 (two blocks of 128 lanes, chosen by the prefetched index tables),
  the body stores (row + row) · c into the output block, which is written back as row t of the chunk's output.
  Here: what each window's staging buffer holds before and after the body at every point, for any contents V of the
  buffers at the region's entry and any admissible contents `a` of the two index tables, and the body's run.
  The tables ride through the region untouched: the body never reads them.
-/
import proofs.«413139_j22651657519351_3_alg».proof.Proof.Gen.KernelIdeal.Launch
import proofs.«413139_j22651657519351_3_alg».proof.Proof.Gen.KernelIdeal.Skeleton
import proofs.«413139_j22651657519351_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region

variable (V : (c : Dev nD) → (b : Ref sig .tc) → Buf (Elt F) ((c : Thread nD τ).loc b))
variable (a : (pcfg2 (F := F)).Adm)

/-! ## The body as the pipeline calls it at a point -/

/-- Each window's current staging memref at point `t`, and its wholeness. -/
abbrev ms2_0 (t : Fin (cfg2 a).N) : Memref sig .tc .vmem S1x1x128 .f32 := spec2_0.stage ((cfg2 a).slots t 0)
abbrev hs2_0 (t : Fin (cfg2 a).N) : (ms2_0 a t).IsWhole := hstage2_0 (((cfg2 a).slots t 0).cast nbuf2_0)
abbrev ms2_1 (t : Fin (cfg2 a).N) : Memref sig .tc .vmem S1x1x128 .f32 := spec2_1.stage ((cfg2 a).slots t 1)
abbrev hs2_1 (t : Fin (cfg2 a).N) : (ms2_1 a t).IsWhole := hstage2_1 (((cfg2 a).slots t 1).cast nbuf2_1)
abbrev ms2_2 (t : Fin (cfg2 a).N) : Memref sig .tc .vmem S1x1x128 .f32 := spec2_2.stage ((cfg2 a).slots t 2)
abbrev hs2_2 (t : Fin (cfg2 a).N) : (ms2_2 a t).IsWhole := hstage2_2 (((cfg2 a).slots t 2).cast nbuf2_2)

/-- The kernel body at point `t`, on what the pipeline calls it with. -/
abbrev bodyAt2 (t : Fin (cfg2 a).N) : Prog (TpuEff nD τ sig (Elt F) Λ₀ .tc) PUnit :=
  cc2__gather_kernel (grid2.coords t) (Memref.whole main_v9) (Memref.isWhole_whole _) (Memref.whole main_v10) (Memref.isWhole_whole _)
    (ms2_0 a t) (hs2_0 a t) (ms2_1 a t) (hs2_1 a t) (ms2_2 a t) (hs2_2 a t)

/-! ## The windows' blocks -/

/-- Window `w`'s block at point `t`, read off its array as the region finds it: for the two gathered windows the
    row the tables' word at `t` names. -/
def iblk2 (c : Dev nD) (w : Fin (cfg2 a).W) (t : Fin (cfg2 a).N) :
    (((cfg2 a).win w).xblock ((cfg2 a).grid.coords t)).Idx → Elt F ((cfg2 a).win w).elt :=
  (((cfg2 a).win w).blk t).view.read (Elt F) (V c (Pipeline.arrRef spec2 w))

/-- An input window's current staging buffer holds its block at every point, fetched there or not. -/
theorem before2_0_of {c : Dev nD} (dat : Dat τ (Elt F) Unit ℕ (UR sig nD τ) ℕ (cfg2 a) c) (hA : dat.A 0 = V c (Pipeline.arrRef spec2 0))
    (hafter : ∀ t, dat.after 0 t = iblk2 V a c 0 t) (t : Fin (cfg2 a).N) (d) : dat.before 0 t d = iblk2 V a c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

theorem before2_1_of {c : Dev nD} (dat : Dat τ (Elt F) Unit ℕ (UR sig nD τ) ℕ (cfg2 a) c) (hA : dat.A 1 = V c (Pipeline.arrRef spec2 1))
    (hafter : ∀ t, dat.after 1 t = iblk2 V a c 1 t) (t : Fin (cfg2 a).N) (d) : dat.before 1 t d = iblk2 V a c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-! ## What the body leaves in the output window's buffer -/

/-- The one rectangle the body loads and stores through: the whole 1×1×128 block. -/
abbrev r2 : Rect S1x1x128 := Rect.unit (s := S1x1x128) ![0, 0, 0] S1x1x128.size inb_S1x1x128_S1x1x128_0_0_0

/-- The output block after the body, from the two gathered rows: its one store. -/
def out2_2 (x0 x1 : Vec F S1x1x128 .f32) : Vec F S1x1x128 .f32 :=
  View.canon [⟨r2, k2_pay1 (View.ld x0 r2) (View.ld x1 r2)⟩]

/-- The store covers the block. -/
theorem cover2_2 (p0 : Vec F S1x1x128 .f32) (y : S1x1x128.Idx) :
    ∃ pc ∈ ([⟨r2, p0⟩] : List (View.Piece (Elt F) S1x1x128 .f32)), y ∈ pc.1.set :=
  View.cover_of_tiled [⟨r2, p0⟩] S1x1x128.size (by rfl) y

/-! ## The body's run -/

set_option maxHeartbeats 1000000 in
/-- The body on whole staging memrefs, the two inputs' at contents `x0`, `x1` and the output's at anything, runs to the
    continuation holding the inputs as they were and the output at `out2_2 x0 x1`; the table memrefs are not touched. -/
theorem sound_kernel2 (c : Dev nD) (E : Set ℕ) (i : grid2.Coords)
    (arg1 : Memref sig .tc .smem S40000 .i32) (harg1 : arg1.IsWhole) (arg2 : Memref sig .tc .smem S40000 .i32) (harg2 : arg2.IsWhole)
    (arg3 : Memref sig .tc .vmem S1x1x128 .f32) (harg3 : arg3.IsWhole) (arg4 : Memref sig .tc .vmem S1x1x128 .f32) (harg4 : arg4.IsWhole)
    (arg5 : Memref sig .tc .vmem S1x1x128 .f32) (harg5 : arg5.IsWhole)
    (x0 x1 : Vec F S1x1x128 .f32) (K : PUnit → sProp 𝕄) :
    iprop(owns (c : Thread nD τ) arg3 fullShare x0 ∗ owns (c : Thread nD τ) arg4 fullShare x1 ∗ (∃ d, owns (c : Thread nD τ) arg5 fullShare d)
        ∗ (iprop(owns (c : Thread nD τ) arg3 fullShare x0 ∗ owns (c : Thread nD τ) arg4 fullShare x1
            ∗ owns (c : Thread nD τ) arg5 fullShare (out2_2 x0 x1)) -∗ K ⟨⟩))
      ⊢ wp frame (wpE (defs₀ (F := F)) Variants.none c none) E (cc2__gather_kernel i arg1 harg1 arg2 harg2 arg3 harg3 arg4 harg4 arg5 harg5) K := by
  simp only [cc2__gather_kernel_eq_skeleton]; unfold cc2__gather_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover2_2 _)

/-! ## The pipeline's proof data -/

/-- The proof data of this pipeline on core `c`: the arrays as the region finds them; after the body at point `t` each
    gathered input's buffer at its block and the output's at `out2_2` of the two; the invariant: the scoped rest, the
    generator register, and the two index tables held whole and untouched; nothing owed; full shares. -/
def dat2 (c : Dev nD) : Dat τ (Elt F) Unit ℕ (UR sig nD τ) ℕ (cfg2 a) c where
  A w := V c (Pipeline.arrRef spec2 w)
  after w t := match w with
    | ⟨0, _⟩ => iblk2 V a c 0 t
    | ⟨1, _⟩ => iblk2 V a c 1 t
    | ⟨2, _⟩ => out2_2 (iblk2 V a c 0 t) (iblk2 V a c 1 t)
  Φ _ := iprop(Pipeline.ΦA spec2 c ∗ Pipeline.prefHeld (Ix := Unit) (Name := ℕ) (U := UR sig nD τ) (Lvl := ℕ) pre2 c (fun _ => fullShare) a.1)
  q _ := fullShare
  owed _ := 0

theorem A_eq2 (c : Dev nD) (w : Fin (cfg2 a).W) : (dat2 V a c).A w = V c (Pipeline.arrRef spec2 w) := by
  dsimp only [dat2]

theorem after2_0 (c : Dev nD) (t : Fin (cfg2 a).N) : (dat2 V a c).after 0 t = iblk2 V a c 0 t := by dsimp only [dat2]; try rfl
theorem after2_1 (c : Dev nD) (t : Fin (cfg2 a).N) : (dat2 V a c).after 1 t = iblk2 V a c 1 t := by dsimp only [dat2]; try rfl
theorem after2_2 (c : Dev nD) (t : Fin (cfg2 a).N) : (dat2 V a c).after 2 t = out2_2 (iblk2 V a c 0 t) (iblk2 V a c 1 t) := by dsimp only [dat2]; try rfl

theorem before2_0 (c : Dev nD) (t : Fin (cfg2 a).N) (d) : (dat2 V a c).before 0 t d = iblk2 V a c 0 t :=
  before2_0_of V a (dat2 V a c) (A_eq2 V a c 0) (after2_0 V a c) t d
theorem before2_1 (c : Dev nD) (t : Fin (cfg2 a).N) (d) : (dat2 V a c).before 1 t d = iblk2 V a c 1 t :=
  before2_1_of V a (dat2 V a c) (A_eq2 V a c 1) (after2_1 V a c) t d

/-! ## The body obligation, at a generic point -/

def bodyPre2 (c : Dev nD) (t : Fin (cfg2 a).N) : sProp 𝕄 :=
  iprop((dat2 V a c).Φ t.castSucc ∗ (dat2 V a c).owesAt () t.castSucc
    ∗ (∃ d, owns (c : Thread nD τ) (ms2_0 a t) fullShare ((dat2 V a c).before 0 t d))
    ∗ (∃ d, owns (c : Thread nD τ) (ms2_1 a t) fullShare ((dat2 V a c).before 1 t d))
    ∗ (∃ d, owns (c : Thread nD τ) (ms2_2 a t) fullShare ((dat2 V a c).before 2 t d)))

def bodyPost2 (c : Dev nD) (t : Fin (cfg2 a).N) : sProp 𝕄 :=
  iprop((dat2 V a c).Φ t.succ ∗ (dat2 V a c).owesAt () t.succ
    ∗ owns (c : Thread nD τ) (ms2_0 a t) fullShare ((dat2 V a c).after 0 t)
    ∗ owns (c : Thread nD τ) (ms2_1 a t) fullShare ((dat2 V a c).after 1 t)
    ∗ owns (c : Thread nD τ) (ms2_2 a t) fullShare ((dat2 V a c).after 2 t))

/-- The body at any point: the inputs' memrefs hold their blocks, so the run applies; the invariant and the core's
    dues pass through unread. -/
theorem sound_body2 (c : Dev nD) (t : Fin (cfg2 a).N) :
    bodyPre2 V a c t ⊢ wp frame (wpE (defs₀ (F := F)) Variants.none c none) Set.univ (bodyAt2 a t) (fun _ => bodyPost2 V a c t) := by
  unfold bodyPre2 bodyPost2 bodyAt2
  simp only [before2_0, before2_1]
  rw [show (dat2 V a c).Φ t.succ = (dat2 V a c).Φ t.castSucc from rfl,
    show (dat2 V a c).owesAt () t.succ = (dat2 V a c).owesAt () t.castSucc from rfl,
    after2_0, after2_1, after2_2]
  iintro ⟨HΦ, Ho, ⟨%d0, H0⟩, ⟨%d1, H1⟩, ⟨%d2, H2⟩⟩
  iapply (sound_kernel2 c Set.univ _ _ _ _ _ _ _ _ _ _ _ (iblk2 V a c 0 t) (iblk2 V a c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation2 (c : Dev nD) : BodyObligation (dat2 (F := F) V a c) (defs₀ (F := F)) Variants.none () Set.univ := fun t => by
  rw [bigSep_W2, bigSep_W2]
  exact sound_body2 V a c t

end Region

end Cert.KernelIdeal.Hand

end
-- ==== Proof.KI.Tables2.lean ====
/-
  Edge chunk 2's index tables. The host slices 40000 consecutive words, from word 40000 on, out of each endpoint
  array (src, then dst) into scalar memory; the chunk's pipeline reads word t of each as the block row of its two
  gathered windows at grid point t. When every endpoint word is a node id (below 50000) each such row lies inside
  the 50000-row arrays: the tables' contents are admissible for the pipeline.
-/
import proofs.«413139_j22651657519351_3_alg».proof.Proof.Gen.KernelIdeal.Launch
import proofs.«413139_j22651657519351_3_alg».proof.Proof.Gen.KernelIdeal.Skeleton
import proofs.«413139_j22651657519351_3_alg».proof.Proof.Gen.KernelIdeal.Points
import proofs.«413139_j22651657519351_3_alg».proof.Proof.KI.Range
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Tables

variable (m : (ℓ : Loc nD τ sig) → Buf (Elt F) ℓ)

/-- The two tables' contents, read off the launch memory: the endpoint arrays' words 40000 … 40000 + 39999. -/
def tbl2 : pre2.Contents (Elt F) := fun k => match k with
  | ⟨0, _⟩ => (extractStridedSlice S40000 ![40000] (m (((0 : Dev nD) : Thread nD τ).loc main_arg1)) slices_S800000_S40000_40000 : (⟨S40000, .i32⟩ : BufTy).Contents (Elt F))
  | ⟨1, _⟩ => (extractStridedSlice S40000 ![40000] (m (((0 : Dev nD) : Thread nD τ).loc main_arg2)) slices_S800000_S40000_40000 : (⟨S40000, .i32⟩ : BufTy).Contents (Elt F))

/-- Tables whose every word is below the node count put every gathered block inside its array: row word + 1 ≤ 50000,
    the two unit axes and the 128 lanes exactly filled; float32 words transfer whole. -/
theorem ok2_of (pf : pre2.Contents (Elt F)) (h0 : ∀ j, ((pf 0 j : Elt F .i32) : BitVec 32).toNat < 50000)
    (h1 : ∀ j, ((pf 1 j : Elt F .i32) : BitVec 32).toNat < 50000) : ok2 pf := by
  refine ⟨fun i => ⟨fun a => ?_, Or.inl rfl⟩, fun i => ⟨fun a => ?_, Or.inl rfl⟩⟩
  · match a with
    | ⟨0, _⟩ =>
      show (BitVec.toNat (pf 0 _) + 1) * 1 ≤ 50000
      exact (Nat.mul_one _).le.trans (Nat.succ_le_of_lt (h0 _))
    | ⟨1, _⟩ => show (BitVec.toNat (0#32) + 1) * 1 ≤ 1; decide
    | ⟨2, _⟩ => show (BitVec.toNat (0#32) + 1) * 128 ≤ 128; decide
  · match a with
    | ⟨0, _⟩ =>
      show (BitVec.toNat (pf 1 _) + 1) * 1 ≤ 50000
      exact (Nat.mul_one _).le.trans (Nat.succ_le_of_lt (h1 _))
    | ⟨1, _⟩ => show (BitVec.toNat (0#32) + 1) * 1 ≤ 1; decide
    | ⟨2, _⟩ => show (BitVec.toNat (0#32) + 1) * 128 ≤ 128; decide

/-- The chunk's tables as admissible contents, when the endpoint words are node ids. -/
def a2 (hR : InRange m) : (pcfg2 (F := F)).Adm :=
  ⟨tbl2 m, ok2_of (tbl2 m) (fun j => (hR 0).1 _) (fun j => (hR 0).2 _)⟩

theorem a2_val (hR : InRange m) : (a2 m hR).1 = tbl2 m := rfl

end Tables

end Cert.KernelIdeal.Hand

end
-- ==== Proof.KI.Region3.lean ====
/-
  Edge chunk 3's gather kernel (twenty chunks of 40000 edges): at grid point t the pipeline fetches row src[t] of the
  re-laid projection hs2 and row dst[t] of hd2 (two blocks of 128 lanes, chosen by the prefetched index tables),
  the body stores (row + row) · c into the output block, which is written back as row t of the chunk's output.
  Here: what each window's staging buffer holds before and after the body at every point, for any contents V of the
  buffers at the region's entry and any admissible contents `a` of the two index tables, and the body's run.
  The tables ride through the region untouched: the body never reads them.
-/
import proofs.«413139_j22651657519351_3_alg».proof.Proof.Gen.KernelIdeal.Launch
import proofs.«413139_j22651657519351_3_alg».proof.Proof.Gen.KernelIdeal.Skeleton
import proofs.«413139_j22651657519351_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region

variable (V : (c : Dev nD) → (b : Ref sig .tc) → Buf (Elt F) ((c : Thread nD τ).loc b))
variable (a : (pcfg3 (F := F)).Adm)

/-! ## The body as the pipeline calls it at a point -/

/-- Each window's current staging memref at point `t`, and its wholeness. -/
abbrev ms3_0 (t : Fin (cfg3 a).N) : Memref sig .tc .vmem S1x1x128 .f32 := spec3_0.stage ((cfg3 a).slots t 0)
abbrev hs3_0 (t : Fin (cfg3 a).N) : (ms3_0 a t).IsWhole := hstage3_0 (((cfg3 a).slots t 0).cast nbuf3_0)
abbrev ms3_1 (t : Fin (cfg3 a).N) : Memref sig .tc .vmem S1x1x128 .f32 := spec3_1.stage ((cfg3 a).slots t 1)
abbrev hs3_1 (t : Fin (cfg3 a).N) : (ms3_1 a t).IsWhole := hstage3_1 (((cfg3 a).slots t 1).cast nbuf3_1)
abbrev ms3_2 (t : Fin (cfg3 a).N) : Memref sig .tc .vmem S1x1x128 .f32 := spec3_2.stage ((cfg3 a).slots t 2)
abbrev hs3_2 (t : Fin (cfg3 a).N) : (ms3_2 a t).IsWhole := hstage3_2 (((cfg3 a).slots t 2).cast nbuf3_2)

/-- The kernel body at point `t`, on what the pipeline calls it with. -/
abbrev bodyAt3 (t : Fin (cfg3 a).N) : Prog (TpuEff nD τ sig (Elt F) Λ₀ .tc) PUnit :=
  cc3__gather_kernel (grid3.coords t) (Memref.whole main_v13) (Memref.isWhole_whole _) (Memref.whole main_v14) (Memref.isWhole_whole _)
    (ms3_0 a t) (hs3_0 a t) (ms3_1 a t) (hs3_1 a t) (ms3_2 a t) (hs3_2 a t)

/-! ## The windows' blocks -/

/-- Window `w`'s block at point `t`, read off its array as the region finds it: for the two gathered windows the
    row the tables' word at `t` names. -/
def iblk3 (c : Dev nD) (w : Fin (cfg3 a).W) (t : Fin (cfg3 a).N) :
    (((cfg3 a).win w).xblock ((cfg3 a).grid.coords t)).Idx → Elt F ((cfg3 a).win w).elt :=
  (((cfg3 a).win w).blk t).view.read (Elt F) (V c (Pipeline.arrRef spec3 w))

/-- An input window's current staging buffer holds its block at every point, fetched there or not. -/
theorem before3_0_of {c : Dev nD} (dat : Dat τ (Elt F) Unit ℕ (UR sig nD τ) ℕ (cfg3 a) c) (hA : dat.A 0 = V c (Pipeline.arrRef spec3 0))
    (hafter : ∀ t, dat.after 0 t = iblk3 V a c 0 t) (t : Fin (cfg3 a).N) (d) : dat.before 0 t d = iblk3 V a c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

theorem before3_1_of {c : Dev nD} (dat : Dat τ (Elt F) Unit ℕ (UR sig nD τ) ℕ (cfg3 a) c) (hA : dat.A 1 = V c (Pipeline.arrRef spec3 1))
    (hafter : ∀ t, dat.after 1 t = iblk3 V a c 1 t) (t : Fin (cfg3 a).N) (d) : dat.before 1 t d = iblk3 V a c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-! ## What the body leaves in the output window's buffer -/

/-- The one rectangle the body loads and stores through: the whole 1×1×128 block. -/
abbrev r3 : Rect S1x1x128 := Rect.unit (s := S1x1x128) ![0, 0, 0] S1x1x128.size inb_S1x1x128_S1x1x128_0_0_0

/-- The output block after the body, from the two gathered rows: its one store. -/
def out3_2 (x0 x1 : Vec F S1x1x128 .f32) : Vec F S1x1x128 .f32 :=
  View.canon [⟨r3, k3_pay1 (View.ld x0 r3) (View.ld x1 r3)⟩]

/-- The store covers the block. -/
theorem cover3_2 (p0 : Vec F S1x1x128 .f32) (y : S1x1x128.Idx) :
    ∃ pc ∈ ([⟨r3, p0⟩] : List (View.Piece (Elt F) S1x1x128 .f32)), y ∈ pc.1.set :=
  View.cover_of_tiled [⟨r3, p0⟩] S1x1x128.size (by rfl) y

/-! ## The body's run -/

set_option maxHeartbeats 1000000 in
/-- The body on whole staging memrefs, the two inputs' at contents `x0`, `x1` and the output's at anything, runs to the
    continuation holding the inputs as they were and the output at `out3_2 x0 x1`; the table memrefs are not touched. -/
theorem sound_kernel3 (c : Dev nD) (E : Set ℕ) (i : grid3.Coords)
    (arg1 : Memref sig .tc .smem S40000 .i32) (harg1 : arg1.IsWhole) (arg2 : Memref sig .tc .smem S40000 .i32) (harg2 : arg2.IsWhole)
    (arg3 : Memref sig .tc .vmem S1x1x128 .f32) (harg3 : arg3.IsWhole) (arg4 : Memref sig .tc .vmem S1x1x128 .f32) (harg4 : arg4.IsWhole)
    (arg5 : Memref sig .tc .vmem S1x1x128 .f32) (harg5 : arg5.IsWhole)
    (x0 x1 : Vec F S1x1x128 .f32) (K : PUnit → sProp 𝕄) :
    iprop(owns (c : Thread nD τ) arg3 fullShare x0 ∗ owns (c : Thread nD τ) arg4 fullShare x1 ∗ (∃ d, owns (c : Thread nD τ) arg5 fullShare d)
        ∗ (iprop(owns (c : Thread nD τ) arg3 fullShare x0 ∗ owns (c : Thread nD τ) arg4 fullShare x1
            ∗ owns (c : Thread nD τ) arg5 fullShare (out3_2 x0 x1)) -∗ K ⟨⟩))
      ⊢ wp frame (wpE (defs₀ (F := F)) Variants.none c none) E (cc3__gather_kernel i arg1 harg1 arg2 harg2 arg3 harg3 arg4 harg4 arg5 harg5) K := by
  simp only [cc3__gather_kernel_eq_skeleton]; unfold cc3__gather_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover3_2 _)

/-! ## The pipeline's proof data -/

/-- The proof data of this pipeline on core `c`: the arrays as the region finds them; after the body at point `t` each
    gathered input's buffer at its block and the output's at `out3_2` of the two; the invariant: the scoped rest, the
    generator register, and the two index tables held whole and untouched; nothing owed; full shares. -/
def dat3 (c : Dev nD) : Dat τ (Elt F) Unit ℕ (UR sig nD τ) ℕ (cfg3 a) c where
  A w := V c (Pipeline.arrRef spec3 w)
  after w t := match w with
    | ⟨0, _⟩ => iblk3 V a c 0 t
    | ⟨1, _⟩ => iblk3 V a c 1 t
    | ⟨2, _⟩ => out3_2 (iblk3 V a c 0 t) (iblk3 V a c 1 t)
  Φ _ := iprop(Pipeline.ΦA spec3 c ∗ Pipeline.prefHeld (Ix := Unit) (Name := ℕ) (U := UR sig nD τ) (Lvl := ℕ) pre3 c (fun _ => fullShare) a.1)
  q _ := fullShare
  owed _ := 0

theorem A_eq3 (c : Dev nD) (w : Fin (cfg3 a).W) : (dat3 V a c).A w = V c (Pipeline.arrRef spec3 w) := by
  dsimp only [dat3]

theorem after3_0 (c : Dev nD) (t : Fin (cfg3 a).N) : (dat3 V a c).after 0 t = iblk3 V a c 0 t := by dsimp only [dat3]; try rfl
theorem after3_1 (c : Dev nD) (t : Fin (cfg3 a).N) : (dat3 V a c).after 1 t = iblk3 V a c 1 t := by dsimp only [dat3]; try rfl
theorem after3_2 (c : Dev nD) (t : Fin (cfg3 a).N) : (dat3 V a c).after 2 t = out3_2 (iblk3 V a c 0 t) (iblk3 V a c 1 t) := by dsimp only [dat3]; try rfl

theorem before3_0 (c : Dev nD) (t : Fin (cfg3 a).N) (d) : (dat3 V a c).before 0 t d = iblk3 V a c 0 t :=
  before3_0_of V a (dat3 V a c) (A_eq3 V a c 0) (after3_0 V a c) t d
theorem before3_1 (c : Dev nD) (t : Fin (cfg3 a).N) (d) : (dat3 V a c).before 1 t d = iblk3 V a c 1 t :=
  before3_1_of V a (dat3 V a c) (A_eq3 V a c 1) (after3_1 V a c) t d

/-! ## The body obligation, at a generic point -/

def bodyPre3 (c : Dev nD) (t : Fin (cfg3 a).N) : sProp 𝕄 :=
  iprop((dat3 V a c).Φ t.castSucc ∗ (dat3 V a c).owesAt () t.castSucc
    ∗ (∃ d, owns (c : Thread nD τ) (ms3_0 a t) fullShare ((dat3 V a c).before 0 t d))
    ∗ (∃ d, owns (c : Thread nD τ) (ms3_1 a t) fullShare ((dat3 V a c).before 1 t d))
    ∗ (∃ d, owns (c : Thread nD τ) (ms3_2 a t) fullShare ((dat3 V a c).before 2 t d)))

def bodyPost3 (c : Dev nD) (t : Fin (cfg3 a).N) : sProp 𝕄 :=
  iprop((dat3 V a c).Φ t.succ ∗ (dat3 V a c).owesAt () t.succ
    ∗ owns (c : Thread nD τ) (ms3_0 a t) fullShare ((dat3 V a c).after 0 t)
    ∗ owns (c : Thread nD τ) (ms3_1 a t) fullShare ((dat3 V a c).after 1 t)
    ∗ owns (c : Thread nD τ) (ms3_2 a t) fullShare ((dat3 V a c).after 2 t))

/-- The body at any point: the inputs' memrefs hold their blocks, so the run applies; the invariant and the core's
    dues pass through unread. -/
theorem sound_body3 (c : Dev nD) (t : Fin (cfg3 a).N) :
    bodyPre3 V a c t ⊢ wp frame (wpE (defs₀ (F := F)) Variants.none c none) Set.univ (bodyAt3 a t) (fun _ => bodyPost3 V a c t) := by
  unfold bodyPre3 bodyPost3 bodyAt3
  simp only [before3_0, before3_1]
  rw [show (dat3 V a c).Φ t.succ = (dat3 V a c).Φ t.castSucc from rfl,
    show (dat3 V a c).owesAt () t.succ = (dat3 V a c).owesAt () t.castSucc from rfl,
    after3_0, after3_1, after3_2]
  iintro ⟨HΦ, Ho, ⟨%d0, H0⟩, ⟨%d1, H1⟩, ⟨%d2, H2⟩⟩
  iapply (sound_kernel3 c Set.univ _ _ _ _ _ _ _ _ _ _ _ (iblk3 V a c 0 t) (iblk3 V a c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation3 (c : Dev nD) : BodyObligation (dat3 (F := F) V a c) (defs₀ (F := F)) Variants.none () Set.univ := fun t => by
  rw [bigSep_W3, bigSep_W3]
  exact sound_body3 V a c t

end Region

end Cert.KernelIdeal.Hand

end
-- ==== Proof.KI.Tables3.lean ====
/-
  Edge chunk 3's index tables. The host slices 40000 consecutive words, from word 80000 on, out of each endpoint
  array (src, then dst) into scalar memory; the chunk's pipeline reads word t of each as the block row of its two
  gathered windows at grid point t. When every endpoint word is a node id (below 50000) each such row lies inside
  the 50000-row arrays: the tables' contents are admissible for the pipeline.
-/
import proofs.«413139_j22651657519351_3_alg».proof.Proof.Gen.KernelIdeal.Launch
import proofs.«413139_j22651657519351_3_alg».proof.Proof.Gen.KernelIdeal.Skeleton
import proofs.«413139_j22651657519351_3_alg».proof.Proof.Gen.KernelIdeal.Points
import proofs.«413139_j22651657519351_3_alg».proof.Proof.KI.Range
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Tables

variable (m : (ℓ : Loc nD τ sig) → Buf (Elt F) ℓ)

/-- The two tables' contents, read off the launch memory: the endpoint arrays' words 80000 … 80000 + 39999. -/
def tbl3 : pre3.Contents (Elt F) := fun k => match k with
  | ⟨0, _⟩ => (extractStridedSlice S40000 ![80000] (m (((0 : Dev nD) : Thread nD τ).loc main_arg1)) slices_S800000_S40000_80000 : (⟨S40000, .i32⟩ : BufTy).Contents (Elt F))
  | ⟨1, _⟩ => (extractStridedSlice S40000 ![80000] (m (((0 : Dev nD) : Thread nD τ).loc main_arg2)) slices_S800000_S40000_80000 : (⟨S40000, .i32⟩ : BufTy).Contents (Elt F))

/-- Tables whose every word is below the node count put every gathered block inside its array: row word + 1 ≤ 50000,
    the two unit axes and the 128 lanes exactly filled; float32 words transfer whole. -/
theorem ok3_of (pf : pre3.Contents (Elt F)) (h0 : ∀ j, ((pf 0 j : Elt F .i32) : BitVec 32).toNat < 50000)
    (h1 : ∀ j, ((pf 1 j : Elt F .i32) : BitVec 32).toNat < 50000) : ok3 pf := by
  refine ⟨fun i => ⟨fun a => ?_, Or.inl rfl⟩, fun i => ⟨fun a => ?_, Or.inl rfl⟩⟩
  · match a with
    | ⟨0, _⟩ =>
      show (BitVec.toNat (pf 0 _) + 1) * 1 ≤ 50000
      exact (Nat.mul_one _).le.trans (Nat.succ_le_of_lt (h0 _))
    | ⟨1, _⟩ => show (BitVec.toNat (0#32) + 1) * 1 ≤ 1; decide
    | ⟨2, _⟩ => show (BitVec.toNat (0#32) + 1) * 128 ≤ 128; decide
  · match a with
    | ⟨0, _⟩ =>
      show (BitVec.toNat (pf 1 _) + 1) * 1 ≤ 50000
      exact (Nat.mul_one _).le.trans (Nat.succ_le_of_lt (h1 _))
    | ⟨1, _⟩ => show (BitVec.toNat (0#32) + 1) * 1 ≤ 1; decide
    | ⟨2, _⟩ => show (BitVec.toNat (0#32) + 1) * 128 ≤ 128; decide

/-- The chunk's tables as admissible contents, when the endpoint words are node ids. -/
def a3 (hR : InRange m) : (pcfg3 (F := F)).Adm :=
  ⟨tbl3 m, ok3_of (tbl3 m) (fun j => (hR 0).1 _) (fun j => (hR 0).2 _)⟩

theorem a3_val (hR : InRange m) : (a3 m hR).1 = tbl3 m := rfl

end Tables

end Cert.KernelIdeal.Hand

end
-- ==== Proof.KI.Region4.lean ====
/-
  Edge chunk 4's gather kernel (twenty chunks of 40000 edges): at grid point t the pipeline fetches row src[t] of the
  re-laid projection hs2 and row dst[t] of hd2 (two blocks of 128 lanes, chosen by the prefetched index tables),
  the body stores (row + row) · c into the output block, which is written back as row t of the chunk's output.
  Here: what each window's staging buffer holds before and after the body at every point, for any contents V of the
  buffers at the region's entry and any admissible contents `a` of the two index tables, and the body's run.
  The tables ride through the region untouched: the body never reads them.
-/
import proofs.«413139_j22651657519351_3_alg».proof.Proof.Gen.KernelIdeal.Launch
import proofs.«413139_j22651657519351_3_alg».proof.Proof.Gen.KernelIdeal.Skeleton
import proofs.«413139_j22651657519351_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region

variable (V : (c : Dev nD) → (b : Ref sig .tc) → Buf (Elt F) ((c : Thread nD τ).loc b))
variable (a : (pcfg4 (F := F)).Adm)

/-! ## The body as the pipeline calls it at a point -/

/-- Each window's current staging memref at point `t`, and its wholeness. -/
abbrev ms4_0 (t : Fin (cfg4 a).N) : Memref sig .tc .vmem S1x1x128 .f32 := spec4_0.stage ((cfg4 a).slots t 0)
abbrev hs4_0 (t : Fin (cfg4 a).N) : (ms4_0 a t).IsWhole := hstage4_0 (((cfg4 a).slots t 0).cast nbuf4_0)
abbrev ms4_1 (t : Fin (cfg4 a).N) : Memref sig .tc .vmem S1x1x128 .f32 := spec4_1.stage ((cfg4 a).slots t 1)
abbrev hs4_1 (t : Fin (cfg4 a).N) : (ms4_1 a t).IsWhole := hstage4_1 (((cfg4 a).slots t 1).cast nbuf4_1)
abbrev ms4_2 (t : Fin (cfg4 a).N) : Memref sig .tc .vmem S1x1x128 .f32 := spec4_2.stage ((cfg4 a).slots t 2)
abbrev hs4_2 (t : Fin (cfg4 a).N) : (ms4_2 a t).IsWhole := hstage4_2 (((cfg4 a).slots t 2).cast nbuf4_2)

/-- The kernel body at point `t`, on what the pipeline calls it with. -/
abbrev bodyAt4 (t : Fin (cfg4 a).N) : Prog (TpuEff nD τ sig (Elt F) Λ₀ .tc) PUnit :=
  cc4__gather_kernel (grid4.coords t) (Memref.whole main_v17) (Memref.isWhole_whole _) (Memref.whole main_v18) (Memref.isWhole_whole _)
    (ms4_0 a t) (hs4_0 a t) (ms4_1 a t) (hs4_1 a t) (ms4_2 a t) (hs4_2 a t)

/-! ## The windows' blocks -/

/-- Window `w`'s block at point `t`, read off its array as the region finds it: for the two gathered windows the
    row the tables' word at `t` names. -/
def iblk4 (c : Dev nD) (w : Fin (cfg4 a).W) (t : Fin (cfg4 a).N) :
    (((cfg4 a).win w).xblock ((cfg4 a).grid.coords t)).Idx → Elt F ((cfg4 a).win w).elt :=
  (((cfg4 a).win w).blk t).view.read (Elt F) (V c (Pipeline.arrRef spec4 w))

/-- An input window's current staging buffer holds its block at every point, fetched there or not. -/
theorem before4_0_of {c : Dev nD} (dat : Dat τ (Elt F) Unit ℕ (UR sig nD τ) ℕ (cfg4 a) c) (hA : dat.A 0 = V c (Pipeline.arrRef spec4 0))
    (hafter : ∀ t, dat.after 0 t = iblk4 V a c 0 t) (t : Fin (cfg4 a).N) (d) : dat.before 0 t d = iblk4 V a c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)

theorem before4_1_of {c : Dev nD} (dat : Dat τ (Elt F) Unit ℕ (UR sig nD τ) ℕ (cfg4 a) c) (hA : dat.A 1 = V c (Pipeline.arrRef spec4 1))
    (hafter : ∀ t, dat.after 1 t = iblk4 V a c 1 t) (t : Fin (cfg4 a).N) (d) : dat.before 1 t d = iblk4 V a c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)

/-! ## What the body leaves in the output window's buffer -/

/-- The one rectangle the body loads and stores through: the whole 1×1×128 block. -/
abbrev r4 : Rect S1x1x128 := Rect.unit (s := S1x1x128) ![0, 0, 0] S1x1x128.size inb_S1x1x128_S1x1x128_0_0_0

/-- The output block after the body, from the two gathered rows: its one store. -/
def out4_2 (x0 x1 : Vec F S1x1x128 .f32) : Vec F S1x1x128 .f32 :=
  View.canon [⟨r4, k4_pay1 (View.ld x0 r4) (View.ld x1 r4)⟩]

/-- The store covers the block. -/
theorem cover4_2 (p0 : Vec F S1x1x128 .f32) (y : S1x1x128.Idx) :
    ∃ pc ∈ ([⟨r4, p0⟩] : List (View.Piece (Elt F) S1x1x128 .f32)), y ∈ pc.1.set :=
  View.cover_of_tiled [⟨r4, p0⟩] S1x1x128.size (by rfl) y

/-! ## The body's run -/

set_option maxHeartbeats 1000000 in
/-- The body on whole staging memrefs, the two inputs' at contents `x0`, `x1` and the output's at anything, runs to the
    continuation holding the inputs as they were and the output at `out4_2 x0 x1`; the table memrefs are not touched. -/
theorem sound_kernel4 (c : Dev nD) (E : Set ℕ) (i : grid4.Coords)
    (arg1 : Memref sig .tc .smem S40000 .i32) (harg1 : arg1.IsWhole) (arg2 : Memref sig .tc .smem S40000 .i32) (harg2 : arg2.IsWhole)
    (arg3 : Memref sig .tc .vmem S1x1x128 .f32) (harg3 : arg3.IsWhole) (arg4 : Memref sig .tc .vmem S1x1x128 .f32) (harg4 : arg4.IsWhole)
    (arg5 : Memref sig .tc .vmem S1x1x128 .f32) (harg5 : arg5.IsWhole)
    (x0 x1 : Vec F S1x1x128 .f32) (K : PUnit → sProp 𝕄) :
    iprop(owns (c : Thread nD τ) arg3 fullShare x0 ∗ owns (c : Thread nD τ) arg4 fullShare x1 ∗ (∃ d, owns (c : Thread nD τ) arg5 fullShare d)
        ∗ (iprop(owns (c : Thread nD τ) arg3 fullShare x0 ∗ owns (c : Thread nD τ) arg4 fullShare x1
            ∗ owns (c : Thread nD τ) arg5 fullShare (out4_2 x0 x1)) -∗ K ⟨⟩))
      ⊢ wp frame (wpE (defs₀ (F := F)) Variants.none c none) E (cc4__gather_kernel i arg1 harg1 arg2 harg2 arg3 harg3 arg4 harg4 arg5 harg5) K := by
  simp only [cc4__gather_kernel_eq_skeleton]; unfold cc4__gather_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover4_2 _)

/-! ## The pipeline's proof data -/

/-- The proof data of this pipeline on core `c`: the arrays as the region finds them; after the body at point `t` each
    gathered input's buffer at its block and the output's at `out4_2` of the two; the invariant: the scoped rest, the
    generator register, and the two index tables held whole and untouched; nothing owed; full shares. -/
def dat4 (c : Dev nD) : Dat τ (Elt F) Unit ℕ (UR sig nD τ) ℕ (cfg4 a) c where
  A w := V c (Pipeline.arrRef spec4 w)
  after w t := match w with
    | ⟨0, _⟩ => iblk4 V a c 0 t
    | ⟨1, _⟩ => iblk4 V a c 1 t
    | ⟨2, _⟩ => out4_2 (iblk4 V a c 0 t) (iblk4 V a c 1 t)
  Φ _ := iprop(Pipeline.ΦA spec4 c ∗ Pipeline.prefHeld (Ix := Unit) (Name := ℕ) (U := UR sig nD τ) (Lvl := ℕ) pre4 c (fun _ => fullShare) a.1)
  q _ := fullShare
  owed _ := 0

theorem A_eq4 (c : Dev nD) (w : Fin (cfg4 a).W) : (dat4 V a c).A w = V c (Pipeline.arrRef spec4 w) := by
  dsimp only [dat4]

theorem after4_0 (c : Dev nD) (t : Fin (cfg4 a).N) : (dat4 V a c).after 0 t = iblk4 V a c 0 t := by dsimp only [dat4]; try rfl
theorem after4_1 (c : Dev nD) (t : Fin (cfg4 a).N) : (dat4 V a c).after 1 t = iblk4 V a c 1 t := by dsimp only [dat4]; try rfl
theorem after4_2 (c : Dev nD) (t : Fin (cfg4 a).N) : (dat4 V a c).after 2 t = out4_2 (iblk4 V a c 0 t) (iblk4 V a c 1 t) := by dsimp only [dat4]; try rfl

theorem before4_0 (c : Dev nD) (t : Fin (cfg4 a).N) (d) : (dat4 V a c).before 0 t d = iblk4 V a c 0 t :=
  before4_0_of V a (dat4 V a c) (A_eq4 V a c 0) (after4_0 V a c) t d
theorem before4_1 (c : Dev nD) (t : Fin (cfg4 a).N) (d) : (dat4 V a c).before 1 t d = iblk4 V a c 1 t :=
  before4_1_of V a (dat4 V a c) (A_eq4 V a c 1) (after4_1 V a c) t d

/-! ## The body obligation, at a generic point -/

def bodyPre4 (c : Dev nD) (t : Fin (cfg4 a).N) : sProp 𝕄 :=
  iprop((dat4 V a c).Φ t.castSucc ∗ (dat4 V a c).owesAt () t.castSucc
    ∗ (∃ d, owns (c : Thread nD τ) (ms4_0 a t) fullShare ((dat4 V a c).before 0 t d))
    ∗ (∃ d, owns (c : Thread nD τ) (ms4_1 a t) fullShare ((dat4 V a c).before 1 t d))
    ∗ (∃ d, owns (c : Thread nD τ) (ms4_2 a t) fullShare ((dat4 V a c).before 2 t d)))

def bodyPost4 (c : Dev nD) (t : Fin (cfg4 a).N) : sProp 𝕄 :=
  iprop((dat4 V a c).Φ t.succ ∗ (dat4 V a c).owesAt () t.succ
    ∗ owns (c : Thread nD τ) (ms4_0 a t) fullShare ((dat4 V a c).after 0 t)
    ∗ owns (c : Thread nD τ) (ms4_1 a t) fullShare ((dat4 V a c).after 1 t)
    ∗ owns (c : Thread nD τ) (ms4_2 a t) fullShare ((dat4 V a c).after 2 t))

/-- The body at any point: the inputs' memrefs hold their blocks, so the run applies; the invariant and the core's
    dues pass through unread. -/
theorem sound_body4 (c : Dev nD) (t : Fin (cfg4 a).N) :
    bodyPre4 V a c t ⊢ wp frame (wpE (defs₀ (F := F)) Variants.none c none) Set.univ (bodyAt4 a t) (fun _ => bodyPost4 V a c t) := by
  unfold bodyPre4 bodyPost4 bodyAt4
  simp only [before4_0, before4_1]
  rw [show (dat4 V a c).Φ t.succ = (dat4 V a c).Φ t.castSucc from rfl,
    show (dat4 V a c).owesAt () t.succ = (dat4 V a c).owesAt () t.castSucc from rfl,
    after4_0, after4_1, after4_2]
  iintro ⟨HΦ, Ho, ⟨%d0, H0⟩, ⟨%d1, H1⟩, ⟨%d2, H2⟩⟩
  iapply (sound_kernel4 c Set.univ _ _ _ _ _ _ _ _ _ _ _ (iblk4 V a c 0 t) (iblk4 V a c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation4 (c : Dev nD) : BodyObligation (dat4 (F := F) V a c) (defs₀ (F := F)) Variants.none () Set.univ := fun t => by
  rw [bigSep_W4, bigSep_W4]
  exact sound_body4 V a c t

end Region

end Cert.KernelIdeal.Hand

end
-- ==== Proof.KI.Tables4.lean ====
/-
  Edge chunk 4's index tables. The host slices 40000 consecutive words, from word 120000 on, out of each endpoint
  array (src, then dst) into scalar memory; the chunk's pipeline reads word t of each as the block row of its two
  gathered windows at grid point t. When every endpoint word is a node id (below 50000) each such row lies inside
  the 50000-row arrays: the tables' contents are admissible for the pipeline.
-/
import proofs.«413139_j22651657519351_3_alg».proof.Proof.Gen.KernelIdeal.Launch
import proofs.«413139_j22651657519351_3_alg».proof.Proof.Gen.KernelIdeal.Skeleton
import proofs.«413139_j22651657519351_3_alg».proof.Proof.Gen.KernelIdeal.Points
import proofs.«413139_j22651657519351_3_alg».proof.Proof.KI.Range
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Tables

variable (m : (ℓ : Loc nD τ sig) → Buf (Elt F) ℓ)

/-- The two tables' contents, read off the launch memory: the endpoint arrays' words 120000 … 120000 + 39999. -/
def tbl4 : pre4.Contents (Elt F) := fun k => match k with
  | ⟨0, _⟩ => (extractStridedSlice S40000 ![120000] (m (((0 : Dev nD) : Thread nD τ).loc main_arg1)) slices_S800000_S40000_120000 : (⟨S40000, .i32⟩ : BufTy).Contents (Elt F))
  | ⟨1, _⟩ => (extractStridedSlice S40000 ![120000] (m (((0 : Dev nD) : Thread nD τ).loc main_arg2)) slices_S800000_S40000_120000 : (⟨S40000, .i32⟩ : BufTy).Contents (Elt F))

/-- Tables whose every word is below the node count put every gathered block inside its array: row word + 1 ≤ 50000,
    the two unit axes and the 128 lanes exactly filled; float32 words transfer whole. -/
theorem ok4_of (pf : pre4.Contents (Elt F)) (h0 : ∀ j, ((pf 0 j : Elt F .i32) : BitVec 32).toNat < 50000)
    (h1 : ∀ j, ((pf 1 j : Elt F .i32) : BitVec 32).toNat < 50000) : ok4 pf := by
  refine ⟨fun i => ⟨fun a => ?_, Or.inl rfl⟩, fun i => ⟨fun a => ?_, Or.inl rfl⟩⟩
  · match a with
    | ⟨0, _⟩ =>
      show (BitVec.toNat (pf 0 _) + 1) * 1 ≤ 50000
      exact (Nat.mul_one _).le.trans (Nat.succ_le_of_lt (h0 _))
    | ⟨1, _⟩ => show (BitVec.toNat (0#32) + 1) * 1 ≤ 1; decide
    | ⟨2, _⟩ => show (BitVec.toNat (0#32) + 1) * 128 ≤ 128; decide
  · match a with
    | ⟨0, _⟩ =>
      show (BitVec.toNat (pf 1 _) + 1) * 1 ≤ 50000
      exact (Nat.mul_one _).le.trans (Nat.succ_le_of_lt (h1 _))
    | ⟨1, _⟩ => show (BitVec.toNat (0#32) + 1) * 1 ≤ 1; decide
    | ⟨2, _⟩ => show (BitVec.toNat (0#32) + 1) * 128 ≤ 128; decide

/-- The chunk's tables as admissible contents, when the endpoint words are node ids. -/
def a4 (hR : InRange m) : (pcfg4 (F := F)).Adm :=
  ⟨tbl4 m, ok4_of (tbl4 m) (fun j => (hR 0).1 _) (fun j => (hR 0).2 _)⟩

theorem a4_val (hR : InRange m) : (a4 m hR).1 = tbl4 m := rfl

end Tables

end Cert.KernelIdeal.Hand

end
-- ==== Proof.KI.Region5.lean ====
/-
  Edge chunk 5's gather kernel (twenty chunks of 40000 edges): at grid point t the pipeline fetches row src[t] of the
  re-laid projection hs2 and row dst[t] of hd2 (two blocks of 128 lanes, chosen by the prefetched index tables),
  the body stores (row + row) · c into the output block, which is written back as row t of the chunk's output.
  Here: what each window's staging buffer holds before and after the body at every point, for any contents V of the
  buffers at the region's entry and any admissible contents `a` of the two index tables, and the body's run.
  The tables ride through the region untouched: the body never reads them.
-/
import proofs.«413139_j22651657519351_3_alg».proof.Proof.Gen.KernelIdeal.Launch
import proofs.«413139_j22651657519351_3_alg».proof.Proof.Gen.KernelIdeal.Skeleton
import proofs.«413139_j22651657519351_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region

variable (V : (c : Dev nD) → (b : Ref sig .tc) → Buf (Elt F) ((c : Thread nD τ).loc b))
variable (a : (pcfg5 (F := F)).Adm)

/-! ## The body as the pipeline calls it at a point -/

/-- Each window's current staging memref at point `t`, and its wholeness. -/
abbrev ms5_0 (t : Fin (cfg5 a).N) : Memref sig .tc .vmem S1x1x128 .f32 := spec5_0.stage ((cfg5 a).slots t 0)
abbrev hs5_0 (t : Fin (cfg5 a).N) : (ms5_0 a t).IsWhole := hstage5_0 (((cfg5 a).slots t 0).cast nbuf5_0)
abbrev ms5_1 (t : Fin (cfg5 a).N) : Memref sig .tc .vmem S1x1x128 .f32 := spec5_1.stage ((cfg5 a).slots t 1)
abbrev hs5_1 (t : Fin (cfg5 a).N) : (ms5_1 a t).IsWhole := hstage5_1 (((cfg5 a).slots t 1).cast nbuf5_1)
abbrev ms5_2 (t : Fin (cfg5 a).N) : Memref sig .tc .vmem S1x1x128 .f32 := spec5_2.stage ((cfg5 a).slots t 2)
abbrev hs5_2 (t : Fin (cfg5 a).N) : (ms5_2 a t).IsWhole := hstage5_2 (((cfg5 a).slots t 2).cast nbuf5_2)

/-- The kernel body at point `t`, on what the pipeline calls it with. -/
abbrev bodyAt5 (t : Fin (cfg5 a).N) : Prog (TpuEff nD τ sig (Elt F) Λ₀ .tc) PUnit :=
  cc5__gather_kernel (grid5.coords t) (Memref.whole main_v21) (Memref.isWhole_whole _) (Memref.whole main_v22) (Memref.isWhole_whole _)
    (ms5_0 a t) (hs5_0 a t) (ms5_1 a t) (hs5_1 a t) (ms5_2 a t) (hs5_2 a t)

/-! ## The windows' blocks -/

/-- Window `w`'s block at point `t`, read off its array as the region finds it: for the two gathered windows the
    row the tables' word at `t` names. -/
def iblk5 (c : Dev nD) (w : Fin (cfg5 a).W) (t : Fin (cfg5 a).N) :
    (((cfg5 a).win w).xblock ((cfg5 a).grid.coords t)).Idx → Elt F ((cfg5 a).win w).elt :=
  (((cfg5 a).win w).blk t).view.read (Elt F) (V c (Pipeline.arrRef spec5 w))

/-- An input window's current staging buffer holds its block at every point, fetched there or not. -/
theorem before5_0_of {c : Dev nD} (dat : Dat τ (Elt F) Unit ℕ (UR sig nD τ) ℕ (cfg5 a) c) (hA : dat.A 0 = V c (Pipeline.arrRef spec5 0))
    (hafter : ∀ t, dat.after 0 t = iblk5 V a c 0 t) (t : Fin (cfg5 a).N) (d) : dat.before 0 t d = iblk5 V a c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)

theorem before5_1_of {c : Dev nD} (dat : Dat τ (Elt F) Unit ℕ (UR sig nD τ) ℕ (cfg5 a) c) (hA : dat.A 1 = V c (Pipeline.arrRef spec5 1))
    (hafter : ∀ t, dat.after 1 t = iblk5 V a c 1 t) (t : Fin (cfg5 a).N) (d) : dat.before 1 t d = iblk5 V a c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)

/-! ## What the body leaves in the output window's buffer -/

/-- The one rectangle the body loads and stores through: the whole 1×1×128 block. -/
abbrev r5 : Rect S1x1x128 := Rect.unit (s := S1x1x128) ![0, 0, 0] S1x1x128.size inb_S1x1x128_S1x1x128_0_0_0

/-- The output block after the body, from the two gathered rows: its one store. -/
def out5_2 (x0 x1 : Vec F S1x1x128 .f32) : Vec F S1x1x128 .f32 :=
  View.canon [⟨r5, k5_pay1 (View.ld x0 r5) (View.ld x1 r5)⟩]

/-- The store covers the block. -/
theorem cover5_2 (p0 : Vec F S1x1x128 .f32) (y : S1x1x128.Idx) :
    ∃ pc ∈ ([⟨r5, p0⟩] : List (View.Piece (Elt F) S1x1x128 .f32)), y ∈ pc.1.set :=
  View.cover_of_tiled [⟨r5, p0⟩] S1x1x128.size (by rfl) y

/-! ## The body's run -/

set_option maxHeartbeats 1000000 in
/-- The body on whole staging memrefs, the two inputs' at contents `x0`, `x1` and the output's at anything, runs to the
    continuation holding the inputs as they were and the output at `out5_2 x0 x1`; the table memrefs are not touched. -/
theorem sound_kernel5 (c : Dev nD) (E : Set ℕ) (i : grid5.Coords)
    (arg1 : Memref sig .tc .smem S40000 .i32) (harg1 : arg1.IsWhole) (arg2 : Memref sig .tc .smem S40000 .i32) (harg2 : arg2.IsWhole)
    (arg3 : Memref sig .tc .vmem S1x1x128 .f32) (harg3 : arg3.IsWhole) (arg4 : Memref sig .tc .vmem S1x1x128 .f32) (harg4 : arg4.IsWhole)
    (arg5 : Memref sig .tc .vmem S1x1x128 .f32) (harg5 : arg5.IsWhole)
    (x0 x1 : Vec F S1x1x128 .f32) (K : PUnit → sProp 𝕄) :
    iprop(owns (c : Thread nD τ) arg3 fullShare x0 ∗ owns (c : Thread nD τ) arg4 fullShare x1 ∗ (∃ d, owns (c : Thread nD τ) arg5 fullShare d)
        ∗ (iprop(owns (c : Thread nD τ) arg3 fullShare x0 ∗ owns (c : Thread nD τ) arg4 fullShare x1
            ∗ owns (c : Thread nD τ) arg5 fullShare (out5_2 x0 x1)) -∗ K ⟨⟩))
      ⊢ wp frame (wpE (defs₀ (F := F)) Variants.none c none) E (cc5__gather_kernel i arg1 harg1 arg2 harg2 arg3 harg3 arg4 harg4 arg5 harg5) K := by
  simp only [cc5__gather_kernel_eq_skeleton]; unfold cc5__gather_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover5_2 _)

/-! ## The pipeline's proof data -/

/-- The proof data of this pipeline on core `c`: the arrays as the region finds them; after the body at point `t` each
    gathered input's buffer at its block and the output's at `out5_2` of the two; the invariant: the scoped rest, the
    generator register, and the two index tables held whole and untouched; nothing owed; full shares. -/
def dat5 (c : Dev nD) : Dat τ (Elt F) Unit ℕ (UR sig nD τ) ℕ (cfg5 a) c where
  A w := V c (Pipeline.arrRef spec5 w)
  after w t := match w with
    | ⟨0, _⟩ => iblk5 V a c 0 t
    | ⟨1, _⟩ => iblk5 V a c 1 t
    | ⟨2, _⟩ => out5_2 (iblk5 V a c 0 t) (iblk5 V a c 1 t)
  Φ _ := iprop(Pipeline.ΦA spec5 c ∗ Pipeline.prefHeld (Ix := Unit) (Name := ℕ) (U := UR sig nD τ) (Lvl := ℕ) pre5 c (fun _ => fullShare) a.1)
  q _ := fullShare
  owed _ := 0

theorem A_eq5 (c : Dev nD) (w : Fin (cfg5 a).W) : (dat5 V a c).A w = V c (Pipeline.arrRef spec5 w) := by
  dsimp only [dat5]

theorem after5_0 (c : Dev nD) (t : Fin (cfg5 a).N) : (dat5 V a c).after 0 t = iblk5 V a c 0 t := by dsimp only [dat5]; try rfl
theorem after5_1 (c : Dev nD) (t : Fin (cfg5 a).N) : (dat5 V a c).after 1 t = iblk5 V a c 1 t := by dsimp only [dat5]; try rfl
theorem after5_2 (c : Dev nD) (t : Fin (cfg5 a).N) : (dat5 V a c).after 2 t = out5_2 (iblk5 V a c 0 t) (iblk5 V a c 1 t) := by dsimp only [dat5]; try rfl

theorem before5_0 (c : Dev nD) (t : Fin (cfg5 a).N) (d) : (dat5 V a c).before 0 t d = iblk5 V a c 0 t :=
  before5_0_of V a (dat5 V a c) (A_eq5 V a c 0) (after5_0 V a c) t d
theorem before5_1 (c : Dev nD) (t : Fin (cfg5 a).N) (d) : (dat5 V a c).before 1 t d = iblk5 V a c 1 t :=
  before5_1_of V a (dat5 V a c) (A_eq5 V a c 1) (after5_1 V a c) t d

/-! ## The body obligation, at a generic point -/

def bodyPre5 (c : Dev nD) (t : Fin (cfg5 a).N) : sProp 𝕄 :=
  iprop((dat5 V a c).Φ t.castSucc ∗ (dat5 V a c).owesAt () t.castSucc
    ∗ (∃ d, owns (c : Thread nD τ) (ms5_0 a t) fullShare ((dat5 V a c).before 0 t d))
    ∗ (∃ d, owns (c : Thread nD τ) (ms5_1 a t) fullShare ((dat5 V a c).before 1 t d))
    ∗ (∃ d, owns (c : Thread nD τ) (ms5_2 a t) fullShare ((dat5 V a c).before 2 t d)))

def bodyPost5 (c : Dev nD) (t : Fin (cfg5 a).N) : sProp 𝕄 :=
  iprop((dat5 V a c).Φ t.succ ∗ (dat5 V a c).owesAt () t.succ
    ∗ owns (c : Thread nD τ) (ms5_0 a t) fullShare ((dat5 V a c).after 0 t)
    ∗ owns (c : Thread nD τ) (ms5_1 a t) fullShare ((dat5 V a c).after 1 t)
    ∗ owns (c : Thread nD τ) (ms5_2 a t) fullShare ((dat5 V a c).after 2 t))

/-- The body at any point: the inputs' memrefs hold their blocks, so the run applies; the invariant and the core's
    dues pass through unread. -/
theorem sound_body5 (c : Dev nD) (t : Fin (cfg5 a).N) :
    bodyPre5 V a c t ⊢ wp frame (wpE (defs₀ (F := F)) Variants.none c none) Set.univ (bodyAt5 a t) (fun _ => bodyPost5 V a c t) := by
  unfold bodyPre5 bodyPost5 bodyAt5
  simp only [before5_0, before5_1]
  rw [show (dat5 V a c).Φ t.succ = (dat5 V a c).Φ t.castSucc from rfl,
    show (dat5 V a c).owesAt () t.succ = (dat5 V a c).owesAt () t.castSucc from rfl,
    after5_0, after5_1, after5_2]
  iintro ⟨HΦ, Ho, ⟨%d0, H0⟩, ⟨%d1, H1⟩, ⟨%d2, H2⟩⟩
  iapply (sound_kernel5 c Set.univ _ _ _ _ _ _ _ _ _ _ _ (iblk5 V a c 0 t) (iblk5 V a c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation5 (c : Dev nD) : BodyObligation (dat5 (F := F) V a c) (defs₀ (F := F)) Variants.none () Set.univ := fun t => by
  rw [bigSep_W5, bigSep_W5]
  exact sound_body5 V a c t

end Region

end Cert.KernelIdeal.Hand

end
-- ==== Proof.KI.Tables5.lean ====
/-
  Edge chunk 5's index tables. The host slices 40000 consecutive words, from word 160000 on, out of each endpoint
  array (src, then dst) into scalar memory; the chunk's pipeline reads word t of each as the block row of its two
  gathered windows at grid point t. When every endpoint word is a node id (below 50000) each such row lies inside
  the 50000-row arrays: the tables' contents are admissible for the pipeline.
-/
import proofs.«413139_j22651657519351_3_alg».proof.Proof.Gen.KernelIdeal.Launch
import proofs.«413139_j22651657519351_3_alg».proof.Proof.Gen.KernelIdeal.Skeleton
import proofs.«413139_j22651657519351_3_alg».proof.Proof.Gen.KernelIdeal.Points
import proofs.«413139_j22651657519351_3_alg».proof.Proof.KI.Range
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Tables

variable (m : (ℓ : Loc nD τ sig) → Buf (Elt F) ℓ)

/-- The two tables' contents, read off the launch memory: the endpoint arrays' words 160000 … 160000 + 39999. -/
def tbl5 : pre5.Contents (Elt F) := fun k => match k with
  | ⟨0, _⟩ => (extractStridedSlice S40000 ![160000] (m (((0 : Dev nD) : Thread nD τ).loc main_arg1)) slices_S800000_S40000_160000 : (⟨S40000, .i32⟩ : BufTy).Contents (Elt F))
  | ⟨1, _⟩ => (extractStridedSlice S40000 ![160000] (m (((0 : Dev nD) : Thread nD τ).loc main_arg2)) slices_S800000_S40000_160000 : (⟨S40000, .i32⟩ : BufTy).Contents (Elt F))

/-- Tables whose every word is below the node count put every gathered block inside its array: row word + 1 ≤ 50000,
    the two unit axes and the 128 lanes exactly filled; float32 words transfer whole. -/
theorem ok5_of (pf : pre5.Contents (Elt F)) (h0 : ∀ j, ((pf 0 j : Elt F .i32) : BitVec 32).toNat < 50000)
    (h1 : ∀ j, ((pf 1 j : Elt F .i32) : BitVec 32).toNat < 50000) : ok5 pf := by
  refine ⟨fun i => ⟨fun a => ?_, Or.inl rfl⟩, fun i => ⟨fun a => ?_, Or.inl rfl⟩⟩
  · match a with
    | ⟨0, _⟩ =>
      show (BitVec.toNat (pf 0 _) + 1) * 1 ≤ 50000
      exact (Nat.mul_one _).le.trans (Nat.succ_le_of_lt (h0 _))
    | ⟨1, _⟩ => show (BitVec.toNat (0#32) + 1) * 1 ≤ 1; decide
    | ⟨2, _⟩ => show (BitVec.toNat (0#32) + 1) * 128 ≤ 128; decide
  · match a with
    | ⟨0, _⟩ =>
      show (BitVec.toNat (pf 1 _) + 1) * 1 ≤ 50000
      exact (Nat.mul_one _).le.trans (Nat.succ_le_of_lt (h1 _))
    | ⟨1, _⟩ => show (BitVec.toNat (0#32) + 1) * 1 ≤ 1; decide
    | ⟨2, _⟩ => show (BitVec.toNat (0#32) + 1) * 128 ≤ 128; decide

/-- The chunk's tables as admissible contents, when the endpoint words are node ids. -/
def a5 (hR : InRange m) : (pcfg5 (F := F)).Adm :=
  ⟨tbl5 m, ok5_of (tbl5 m) (fun j => (hR 0).1 _) (fun j => (hR 0).2 _)⟩

theorem a5_val (hR : InRange m) : (a5 m hR).1 = tbl5 m := rfl

end Tables

end Cert.KernelIdeal.Hand

end
-- ==== Proof.KI.Region6.lean ====
/-
  Edge chunk 6's gather kernel (twenty chunks of 40000 edges): at grid point t the pipeline fetches row src[t] of the
  re-laid projection hs2 and row dst[t] of hd2 (two blocks of 128 lanes, chosen by the prefetched index tables),
  the body stores (row + row) · c into the output block, which is written back as row t of the chunk's output.
  Here: what each window's staging buffer holds before and after the body at every point, for any contents V of the
  buffers at the region's entry and any admissible contents `a` of the two index tables, and the body's run.
  The tables ride through the region untouched: the body never reads them.
-/
import proofs.«413139_j22651657519351_3_alg».proof.Proof.Gen.KernelIdeal.Launch
import proofs.«413139_j22651657519351_3_alg».proof.Proof.Gen.KernelIdeal.Skeleton
import proofs.«413139_j22651657519351_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region

variable (V : (c : Dev nD) → (b : Ref sig .tc) → Buf (Elt F) ((c : Thread nD τ).loc b))
variable (a : (pcfg6 (F := F)).Adm)

/-! ## The body as the pipeline calls it at a point -/

/-- Each window's current staging memref at point `t`, and its wholeness. -/
abbrev ms6_0 (t : Fin (cfg6 a).N) : Memref sig .tc .vmem S1x1x128 .f32 := spec6_0.stage ((cfg6 a).slots t 0)
abbrev hs6_0 (t : Fin (cfg6 a).N) : (ms6_0 a t).IsWhole := hstage6_0 (((cfg6 a).slots t 0).cast nbuf6_0)
abbrev ms6_1 (t : Fin (cfg6 a).N) : Memref sig .tc .vmem S1x1x128 .f32 := spec6_1.stage ((cfg6 a).slots t 1)
abbrev hs6_1 (t : Fin (cfg6 a).N) : (ms6_1 a t).IsWhole := hstage6_1 (((cfg6 a).slots t 1).cast nbuf6_1)
abbrev ms6_2 (t : Fin (cfg6 a).N) : Memref sig .tc .vmem S1x1x128 .f32 := spec6_2.stage ((cfg6 a).slots t 2)
abbrev hs6_2 (t : Fin (cfg6 a).N) : (ms6_2 a t).IsWhole := hstage6_2 (((cfg6 a).slots t 2).cast nbuf6_2)

/-- The kernel body at point `t`, on what the pipeline calls it with. -/
abbrev bodyAt6 (t : Fin (cfg6 a).N) : Prog (TpuEff nD τ sig (Elt F) Λ₀ .tc) PUnit :=
  cc6__gather_kernel (grid6.coords t) (Memref.whole main_v25) (Memref.isWhole_whole _) (Memref.whole main_v26) (Memref.isWhole_whole _)
    (ms6_0 a t) (hs6_0 a t) (ms6_1 a t) (hs6_1 a t) (ms6_2 a t) (hs6_2 a t)

/-! ## The windows' blocks -/

/-- Window `w`'s block at point `t`, read off its array as the region finds it: for the two gathered windows the
    row the tables' word at `t` names. -/
def iblk6 (c : Dev nD) (w : Fin (cfg6 a).W) (t : Fin (cfg6 a).N) :
    (((cfg6 a).win w).xblock ((cfg6 a).grid.coords t)).Idx → Elt F ((cfg6 a).win w).elt :=
  (((cfg6 a).win w).blk t).view.read (Elt F) (V c (Pipeline.arrRef spec6 w))

/-- An input window's current staging buffer holds its block at every point, fetched there or not. -/
theorem before6_0_of {c : Dev nD} (dat : Dat τ (Elt F) Unit ℕ (UR sig nD τ) ℕ (cfg6 a) c) (hA : dat.A 0 = V c (Pipeline.arrRef spec6 0))
    (hafter : ∀ t, dat.after 0 t = iblk6 V a c 0 t) (t : Fin (cfg6 a).N) (d) : dat.before 0 t d = iblk6 V a c 0 t :=
  (dat.before_in_eq_fetched 0 rfl (fun _ => rfl) (fun _ _ _ => rfl) (fun t => by rw [hafter]; unfold Dat.blockOf iblk6; rw [hA]; try rfl) t d).trans
    (by unfold Dat.fetched Dat.blockOf iblk6; rw [hA]; try rfl)

theorem before6_1_of {c : Dev nD} (dat : Dat τ (Elt F) Unit ℕ (UR sig nD τ) ℕ (cfg6 a) c) (hA : dat.A 1 = V c (Pipeline.arrRef spec6 1))
    (hafter : ∀ t, dat.after 1 t = iblk6 V a c 1 t) (t : Fin (cfg6 a).N) (d) : dat.before 1 t d = iblk6 V a c 1 t :=
  (dat.before_in_eq_fetched 1 rfl (fun _ => rfl) (fun _ _ _ => rfl) (fun t => by rw [hafter]; unfold Dat.blockOf iblk6; rw [hA]; try rfl) t d).trans
    (by unfold Dat.fetched Dat.blockOf iblk6; rw [hA]; try rfl)

/-! ## What the body leaves in the output window's buffer -/

/-- The one rectangle the body loads and stores through: the whole 1×1×128 block. -/
abbrev r6 : Rect S1x1x128 := Rect.unit (s := S1x1x128) ![0, 0, 0] S1x1x128.size inb_S1x1x128_S1x1x128_0_0_0

/-- The output block after the body, from the two gathered rows: its one store. -/
def out6_2 (x0 x1 : Vec F S1x1x128 .f32) : Vec F S1x1x128 .f32 :=
  View.canon [⟨r6, k6_pay1 (View.ld x0 r6) (View.ld x1 r6)⟩]

/-- The store covers the block. -/
theorem cover6_2 (p0 : Vec F S1x1x128 .f32) (y : S1x1x128.Idx) :
    ∃ pc ∈ ([⟨r6, p0⟩] : List (View.Piece (Elt F) S1x1x128 .f32)), y ∈ pc.1.set :=
  View.cover_of_tiled [⟨r6, p0⟩] S1x1x128.size (by rfl) y

/-! ## The body's run -/

set_option maxHeartbeats 1000000 in
/-- The body on whole staging memrefs, the two inputs' at contents `x0`, `x1` and the output's at anything, runs to the
    continuation holding the inputs as they were and the output at `out6_2 x0 x1`; the table memrefs are not touched. -/
theorem sound_kernel6 (c : Dev nD) (E : Set ℕ) (i : grid6.Coords)
    (arg1 : Memref sig .tc .smem S40000 .i32) (harg1 : arg1.IsWhole) (arg2 : Memref sig .tc .smem S40000 .i32) (harg2 : arg2.IsWhole)
    (arg3 : Memref sig .tc .vmem S1x1x128 .f32) (harg3 : arg3.IsWhole) (arg4 : Memref sig .tc .vmem S1x1x128 .f32) (harg4 : arg4.IsWhole)
    (arg5 : Memref sig .tc .vmem S1x1x128 .f32) (harg5 : arg5.IsWhole)
    (x0 x1 : Vec F S1x1x128 .f32) (K : PUnit → sProp 𝕄) :
    iprop(owns (c : Thread nD τ) arg3 fullShare x0 ∗ owns (c : Thread nD τ) arg4 fullShare x1 ∗ (∃ d, owns (c : Thread nD τ) arg5 fullShare d)
        ∗ (iprop(owns (c : Thread nD τ) arg3 fullShare x0 ∗ owns (c : Thread nD τ) arg4 fullShare x1
            ∗ owns (c : Thread nD τ) arg5 fullShare (out6_2 x0 x1)) -∗ K ⟨⟩))
      ⊢ wp frame (wpE (defs₀ (F := F)) Variants.none c none) E (cc6__gather_kernel i arg1 harg1 arg2 harg2 arg3 harg3 arg4 harg4 arg5 harg5) K := by
  simp only [cc6__gather_kernel_eq_skeleton]; unfold cc6__gather_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover6_2 _)

/-! ## The pipeline's proof data -/

/-- The proof data of this pipeline on core `c`: the arrays as the region finds them; after the body at point `t` each
    gathered input's buffer at its block and the output's at `out6_2` of the two; the invariant: the scoped rest, the
    generator register, and the two index tables held whole and untouched; nothing owed; full shares. -/
def dat6 (c : Dev nD) : Dat τ (Elt F) Unit ℕ (UR sig nD τ) ℕ (cfg6 a) c where
  A w := V c (Pipeline.arrRef spec6 w)
  after w t := match w with
    | ⟨0, _⟩ => iblk6 V a c 0 t
    | ⟨1, _⟩ => iblk6 V a c 1 t
    | ⟨2, _⟩ => out6_2 (iblk6 V a c 0 t) (iblk6 V a c 1 t)
  Φ _ := iprop(Pipeline.ΦA spec6 c ∗ Pipeline.prefHeld (Ix := Unit) (Name := ℕ) (U := UR sig nD τ) (Lvl := ℕ) pre6 c (fun _ => fullShare) a.1)
  q _ := fullShare
  owed _ := 0

theorem A_eq6 (c : Dev nD) (w : Fin (cfg6 a).W) : (dat6 V a c).A w = V c (Pipeline.arrRef spec6 w) := by
  dsimp only [dat6]

theorem after6_0 (c : Dev nD) (t : Fin (cfg6 a).N) : (dat6 V a c).after 0 t = iblk6 V a c 0 t := by dsimp only [dat6]; try rfl
theorem after6_1 (c : Dev nD) (t : Fin (cfg6 a).N) : (dat6 V a c).after 1 t = iblk6 V a c 1 t := by dsimp only [dat6]; try rfl
theorem after6_2 (c : Dev nD) (t : Fin (cfg6 a).N) : (dat6 V a c).after 2 t = out6_2 (iblk6 V a c 0 t) (iblk6 V a c 1 t) := by dsimp only [dat6]; try rfl

theorem before6_0 (c : Dev nD) (t : Fin (cfg6 a).N) (d) : (dat6 V a c).before 0 t d = iblk6 V a c 0 t :=
  before6_0_of V a (dat6 V a c) (A_eq6 V a c 0) (after6_0 V a c) t d
theorem before6_1 (c : Dev nD) (t : Fin (cfg6 a).N) (d) : (dat6 V a c).before 1 t d = iblk6 V a c 1 t :=
  before6_1_of V a (dat6 V a c) (A_eq6 V a c 1) (after6_1 V a c) t d

/-! ## The body obligation, at a generic point -/

def bodyPre6 (c : Dev nD) (t : Fin (cfg6 a).N) : sProp 𝕄 :=
  iprop((dat6 V a c).Φ t.castSucc ∗ (dat6 V a c).owesAt () t.castSucc
    ∗ (∃ d, owns (c : Thread nD τ) (ms6_0 a t) fullShare ((dat6 V a c).before 0 t d))
    ∗ (∃ d, owns (c : Thread nD τ) (ms6_1 a t) fullShare ((dat6 V a c).before 1 t d))
    ∗ (∃ d, owns (c : Thread nD τ) (ms6_2 a t) fullShare ((dat6 V a c).before 2 t d)))

def bodyPost6 (c : Dev nD) (t : Fin (cfg6 a).N) : sProp 𝕄 :=
  iprop((dat6 V a c).Φ t.succ ∗ (dat6 V a c).owesAt () t.succ
    ∗ owns (c : Thread nD τ) (ms6_0 a t) fullShare ((dat6 V a c).after 0 t)
    ∗ owns (c : Thread nD τ) (ms6_1 a t) fullShare ((dat6 V a c).after 1 t)
    ∗ owns (c : Thread nD τ) (ms6_2 a t) fullShare ((dat6 V a c).after 2 t))

/-- The body at any point: the inputs' memrefs hold their blocks, so the run applies; the invariant and the core's
    dues pass through unread. -/
theorem sound_body6 (c : Dev nD) (t : Fin (cfg6 a).N) :
    bodyPre6 V a c t ⊢ wp frame (wpE (defs₀ (F := F)) Variants.none c none) Set.univ (bodyAt6 a t) (fun _ => bodyPost6 V a c t) := by
  unfold bodyPre6 bodyPost6 bodyAt6
  simp only [before6_0, before6_1]
  rw [show (dat6 V a c).Φ t.succ = (dat6 V a c).Φ t.castSucc from rfl,
    show (dat6 V a c).owesAt () t.succ = (dat6 V a c).owesAt () t.castSucc from rfl,
    after6_0, after6_1, after6_2]
  iintro ⟨HΦ, Ho, ⟨%d0, H0⟩, ⟨%d1, H1⟩, ⟨%d2, H2⟩⟩
  iapply (sound_kernel6 c Set.univ _ _ _ _ _ _ _ _ _ _ _ (iblk6 V a c 0 t) (iblk6 V a c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation6 (c : Dev nD) : BodyObligation (dat6 (F := F) V a c) (defs₀ (F := F)) Variants.none () Set.univ := fun t => by
  rw [bigSep_W6, bigSep_W6]
  exact sound_body6 V a c t

end Region

end Cert.KernelIdeal.Hand

end
-- ==== Proof.KI.Tables6.lean ====
/-
  Edge chunk 6's index tables. The host slices 40000 consecutive words, from word 200000 on, out of each endpoint
  array (src, then dst) into scalar memory; the chunk's pipeline reads word t of each as the block row of its two
  gathered windows at grid point t. When every endpoint word is a node id (below 50000) each such row lies inside
  the 50000-row arrays: the tables' contents are admissible for the pipeline.
-/
import proofs.«413139_j22651657519351_3_alg».proof.Proof.Gen.KernelIdeal.Launch
import proofs.«413139_j22651657519351_3_alg».proof.Proof.Gen.KernelIdeal.Skeleton
import proofs.«413139_j22651657519351_3_alg».proof.Proof.Gen.KernelIdeal.Points
import proofs.«413139_j22651657519351_3_alg».proof.Proof.KI.Range
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Tables

variable (m : (ℓ : Loc nD τ sig) → Buf (Elt F) ℓ)

/-- The two tables' contents, read off the launch memory: the endpoint arrays' words 200000 … 200000 + 39999. -/
def tbl6 : pre6.Contents (Elt F) := fun k => match k with
  | ⟨0, _⟩ => (extractStridedSlice S40000 ![200000] (m (((0 : Dev nD) : Thread nD τ).loc main_arg1)) slices_S800000_S40000_200000 : (⟨S40000, .i32⟩ : BufTy).Contents (Elt F))
  | ⟨1, _⟩ => (extractStridedSlice S40000 ![200000] (m (((0 : Dev nD) : Thread nD τ).loc main_arg2)) slices_S800000_S40000_200000 : (⟨S40000, .i32⟩ : BufTy).Contents (Elt F))

/-- Tables whose every word is below the node count put every gathered block inside its array: row word + 1 ≤ 50000,
    the two unit axes and the 128 lanes exactly filled; float32 words transfer whole. -/
theorem ok6_of (pf : pre6.Contents (Elt F)) (h0 : ∀ j, ((pf 0 j : Elt F .i32) : BitVec 32).toNat < 50000)
    (h1 : ∀ j, ((pf 1 j : Elt F .i32) : BitVec 32).toNat < 50000) : ok6 pf := by
  refine ⟨fun i => ⟨fun a => ?_, Or.inl rfl⟩, fun i => ⟨fun a => ?_, Or.inl rfl⟩⟩
  · match a with
    | ⟨0, _⟩ =>
      show (BitVec.toNat (pf 0 _) + 1) * 1 ≤ 50000
      exact (Nat.mul_one _).le.trans (Nat.succ_le_of_lt (h0 _))
    | ⟨1, _⟩ => show (BitVec.toNat (0#32) + 1) * 1 ≤ 1; decide
    | ⟨2, _⟩ => show (BitVec.toNat (0#32) + 1) * 128 ≤ 128; decide
  · match a with
    | ⟨0, _⟩ =>
      show (BitVec.toNat (pf 1 _) + 1) * 1 ≤ 50000
      exact (Nat.mul_one _).le.trans (Nat.succ_le_of_lt (h1 _))
    | ⟨1, _⟩ => show (BitVec.toNat (0#32) + 1) * 1 ≤ 1; decide
    | ⟨2, _⟩ => show (BitVec.toNat (0#32) + 1) * 128 ≤ 128; decide

/-- The chunk's tables as admissible contents, when the endpoint words are node ids. -/
def a6 (hR : InRange m) : (pcfg6 (F := F)).Adm :=
  ⟨tbl6 m, ok6_of (tbl6 m) (fun j => (hR 0).1 _) (fun j => (hR 0).2 _)⟩

theorem a6_val (hR : InRange m) : (a6 m hR).1 = tbl6 m := rfl

end Tables

end Cert.KernelIdeal.Hand

end
-- ==== Proof.KI.Region7.lean ====
/-
  Edge chunk 7's gather kernel (twenty chunks of 40000 edges): at grid point t the pipeline fetches row src[t] of the
  re-laid projection hs2 and row dst[t] of hd2 (two blocks of 128 lanes, chosen by the prefetched index tables),
  the body stores (row + row) · c into the output block, which is written back as row t of the chunk's output.
  Here: what each window's staging buffer holds before and after the body at every point, for any contents V of the
  buffers at the region's entry and any admissible contents `a` of the two index tables, and the body's run.
  The tables ride through the region untouched: the body never reads them.
-/
import proofs.«413139_j22651657519351_3_alg».proof.Proof.Gen.KernelIdeal.Launch
import proofs.«413139_j22651657519351_3_alg».proof.Proof.Gen.KernelIdeal.Skeleton
import proofs.«413139_j22651657519351_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region

variable (V : (c : Dev nD) → (b : Ref sig .tc) → Buf (Elt F) ((c : Thread nD τ).loc b))
variable (a : (pcfg7 (F := F)).Adm)

/-! ## The body as the pipeline calls it at a point -/

/-- Each window's current staging memref at point `t`, and its wholeness. -/
abbrev ms7_0 (t : Fin (cfg7 a).N) : Memref sig .tc .vmem S1x1x128 .f32 := spec7_0.stage ((cfg7 a).slots t 0)
abbrev hs7_0 (t : Fin (cfg7 a).N) : (ms7_0 a t).IsWhole := hstage7_0 (((cfg7 a).slots t 0).cast nbuf7_0)
abbrev ms7_1 (t : Fin (cfg7 a).N) : Memref sig .tc .vmem S1x1x128 .f32 := spec7_1.stage ((cfg7 a).slots t 1)
abbrev hs7_1 (t : Fin (cfg7 a).N) : (ms7_1 a t).IsWhole := hstage7_1 (((cfg7 a).slots t 1).cast nbuf7_1)
abbrev ms7_2 (t : Fin (cfg7 a).N) : Memref sig .tc .vmem S1x1x128 .f32 := spec7_2.stage ((cfg7 a).slots t 2)
abbrev hs7_2 (t : Fin (cfg7 a).N) : (ms7_2 a t).IsWhole := hstage7_2 (((cfg7 a).slots t 2).cast nbuf7_2)

/-- The kernel body at point `t`, on what the pipeline calls it with. -/
abbrev bodyAt7 (t : Fin (cfg7 a).N) : Prog (TpuEff nD τ sig (Elt F) Λ₀ .tc) PUnit :=
  cc7__gather_kernel (grid7.coords t) (Memref.whole main_v29) (Memref.isWhole_whole _) (Memref.whole main_v30) (Memref.isWhole_whole _)
    (ms7_0 a t) (hs7_0 a t) (ms7_1 a t) (hs7_1 a t) (ms7_2 a t) (hs7_2 a t)

/-! ## The windows' blocks -/

/-- Window `w`'s block at point `t`, read off its array as the region finds it: for the two gathered windows the
    row the tables' word at `t` names. -/
def iblk7 (c : Dev nD) (w : Fin (cfg7 a).W) (t : Fin (cfg7 a).N) :
    (((cfg7 a).win w).xblock ((cfg7 a).grid.coords t)).Idx → Elt F ((cfg7 a).win w).elt :=
  (((cfg7 a).win w).blk t).view.read (Elt F) (V c (Pipeline.arrRef spec7 w))

/-- An input window's current staging buffer holds its block at every point, fetched there or not. -/
theorem before7_0_of {c : Dev nD} (dat : Dat τ (Elt F) Unit ℕ (UR sig nD τ) ℕ (cfg7 a) c) (hA : dat.A 0 = V c (Pipeline.arrRef spec7 0))
    (hafter : ∀ t, dat.after 0 t = iblk7 V a c 0 t) (t : Fin (cfg7 a).N) (d) : dat.before 0 t d = iblk7 V a c 0 t :=
  (dat.before_in_eq_fetched 0 rfl (fun _ => rfl) (fun _ _ _ => rfl) (fun t => by rw [hafter]; unfold Dat.blockOf iblk7; rw [hA]; try rfl) t d).trans
    (by unfold Dat.fetched Dat.blockOf iblk7; rw [hA]; try rfl)

theorem before7_1_of {c : Dev nD} (dat : Dat τ (Elt F) Unit ℕ (UR sig nD τ) ℕ (cfg7 a) c) (hA : dat.A 1 = V c (Pipeline.arrRef spec7 1))
    (hafter : ∀ t, dat.after 1 t = iblk7 V a c 1 t) (t : Fin (cfg7 a).N) (d) : dat.before 1 t d = iblk7 V a c 1 t :=
  (dat.before_in_eq_fetched 1 rfl (fun _ => rfl) (fun _ _ _ => rfl) (fun t => by rw [hafter]; unfold Dat.blockOf iblk7; rw [hA]; try rfl) t d).trans
    (by unfold Dat.fetched Dat.blockOf iblk7; rw [hA]; try rfl)

/-! ## What the body leaves in the output window's buffer -/

/-- The one rectangle the body loads and stores through: the whole 1×1×128 block. -/
abbrev r7 : Rect S1x1x128 := Rect.unit (s := S1x1x128) ![0, 0, 0] S1x1x128.size inb_S1x1x128_S1x1x128_0_0_0

/-- The output block after the body, from the two gathered rows: its one store. -/
def out7_2 (x0 x1 : Vec F S1x1x128 .f32) : Vec F S1x1x128 .f32 :=
  View.canon [⟨r7, k7_pay1 (View.ld x0 r7) (View.ld x1 r7)⟩]

/-- The store covers the block. -/
theorem cover7_2 (p0 : Vec F S1x1x128 .f32) (y : S1x1x128.Idx) :
    ∃ pc ∈ ([⟨r7, p0⟩] : List (View.Piece (Elt F) S1x1x128 .f32)), y ∈ pc.1.set :=
  View.cover_of_tiled [⟨r7, p0⟩] S1x1x128.size (by rfl) y

/-! ## The body's run -/

set_option maxHeartbeats 1000000 in
/-- The body on whole staging memrefs, the two inputs' at contents `x0`, `x1` and the output's at anything, runs to the
    continuation holding the inputs as they were and the output at `out7_2 x0 x1`; the table memrefs are not touched. -/
theorem sound_kernel7 (c : Dev nD) (E : Set ℕ) (i : grid7.Coords)
    (arg1 : Memref sig .tc .smem S40000 .i32) (harg1 : arg1.IsWhole) (arg2 : Memref sig .tc .smem S40000 .i32) (harg2 : arg2.IsWhole)
    (arg3 : Memref sig .tc .vmem S1x1x128 .f32) (harg3 : arg3.IsWhole) (arg4 : Memref sig .tc .vmem S1x1x128 .f32) (harg4 : arg4.IsWhole)
    (arg5 : Memref sig .tc .vmem S1x1x128 .f32) (harg5 : arg5.IsWhole)
    (x0 x1 : Vec F S1x1x128 .f32) (K : PUnit → sProp 𝕄) :
    iprop(owns (c : Thread nD τ) arg3 fullShare x0 ∗ owns (c : Thread nD τ) arg4 fullShare x1 ∗ (∃ d, owns (c : Thread nD τ) arg5 fullShare d)
        ∗ (iprop(owns (c : Thread nD τ) arg3 fullShare x0 ∗ owns (c : Thread nD τ) arg4 fullShare x1
            ∗ owns (c : Thread nD τ) arg5 fullShare (out7_2 x0 x1)) -∗ K ⟨⟩))
      ⊢ wp frame (wpE (defs₀ (F := F)) Variants.none c none) E (cc7__gather_kernel i arg1 harg1 arg2 harg2 arg3 harg3 arg4 harg4 arg5 harg5) K := by
  simp only [cc7__gather_kernel_eq_skeleton]; unfold cc7__gather_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover7_2 _)

/-! ## The pipeline's proof data -/

/-- The proof data of this pipeline on core `c`: the arrays as the region finds them; after the body at point `t` each
    gathered input's buffer at its block and the output's at `out7_2` of the two; the invariant: the scoped rest, the
    generator register, and the two index tables held whole and untouched; nothing owed; full shares. -/
def dat7 (c : Dev nD) : Dat τ (Elt F) Unit ℕ (UR sig nD τ) ℕ (cfg7 a) c where
  A w := V c (Pipeline.arrRef spec7 w)
  after w t := match w with
    | ⟨0, _⟩ => iblk7 V a c 0 t
    | ⟨1, _⟩ => iblk7 V a c 1 t
    | ⟨2, _⟩ => out7_2 (iblk7 V a c 0 t) (iblk7 V a c 1 t)
  Φ _ := iprop(Pipeline.ΦA spec7 c ∗ Pipeline.prefHeld (Ix := Unit) (Name := ℕ) (U := UR sig nD τ) (Lvl := ℕ) pre7 c (fun _ => fullShare) a.1)
  q _ := fullShare
  owed _ := 0

theorem A_eq7 (c : Dev nD) (w : Fin (cfg7 a).W) : (dat7 V a c).A w = V c (Pipeline.arrRef spec7 w) := by
  dsimp only [dat7]

theorem after7_0 (c : Dev nD) (t : Fin (cfg7 a).N) : (dat7 V a c).after 0 t = iblk7 V a c 0 t := by dsimp only [dat7]; try rfl
theorem after7_1 (c : Dev nD) (t : Fin (cfg7 a).N) : (dat7 V a c).after 1 t = iblk7 V a c 1 t := by dsimp only [dat7]; try rfl
theorem after7_2 (c : Dev nD) (t : Fin (cfg7 a).N) : (dat7 V a c).after 2 t = out7_2 (iblk7 V a c 0 t) (iblk7 V a c 1 t) := by dsimp only [dat7]; try rfl

theorem before7_0 (c : Dev nD) (t : Fin (cfg7 a).N) (d) : (dat7 V a c).before 0 t d = iblk7 V a c 0 t :=
  before7_0_of V a (dat7 V a c) (A_eq7 V a c 0) (after7_0 V a c) t d
theorem before7_1 (c : Dev nD) (t : Fin (cfg7 a).N) (d) : (dat7 V a c).before 1 t d = iblk7 V a c 1 t :=
  before7_1_of V a (dat7 V a c) (A_eq7 V a c 1) (after7_1 V a c) t d

/-! ## The body obligation, at a generic point -/

def bodyPre7 (c : Dev nD) (t : Fin (cfg7 a).N) : sProp 𝕄 :=
  iprop((dat7 V a c).Φ t.castSucc ∗ (dat7 V a c).owesAt () t.castSucc
    ∗ (∃ d, owns (c : Thread nD τ) (ms7_0 a t) fullShare ((dat7 V a c).before 0 t d))
    ∗ (∃ d, owns (c : Thread nD τ) (ms7_1 a t) fullShare ((dat7 V a c).before 1 t d))
    ∗ (∃ d, owns (c : Thread nD τ) (ms7_2 a t) fullShare ((dat7 V a c).before 2 t d)))

def bodyPost7 (c : Dev nD) (t : Fin (cfg7 a).N) : sProp 𝕄 :=
  iprop((dat7 V a c).Φ t.succ ∗ (dat7 V a c).owesAt () t.succ
    ∗ owns (c : Thread nD τ) (ms7_0 a t) fullShare ((dat7 V a c).after 0 t)
    ∗ owns (c : Thread nD τ) (ms7_1 a t) fullShare ((dat7 V a c).after 1 t)
    ∗ owns (c : Thread nD τ) (ms7_2 a t) fullShare ((dat7 V a c).after 2 t))

/-- The body at any point: the inputs' memrefs hold their blocks, so the run applies; the invariant and the core's
    dues pass through unread. -/
theorem sound_body7 (c : Dev nD) (t : Fin (cfg7 a).N) :
    bodyPre7 V a c t ⊢ wp frame (wpE (defs₀ (F := F)) Variants.none c none) Set.univ (bodyAt7 a t) (fun _ => bodyPost7 V a c t) := by
  unfold bodyPre7 bodyPost7 bodyAt7
  simp only [before7_0, before7_1]
  rw [show (dat7 V a c).Φ t.succ = (dat7 V a c).Φ t.castSucc from rfl,
    show (dat7 V a c).owesAt () t.succ = (dat7 V a c).owesAt () t.castSucc from rfl,
    after7_0, after7_1, after7_2]
  iintro ⟨HΦ, Ho, ⟨%d0, H0⟩, ⟨%d1, H1⟩, ⟨%d2, H2⟩⟩
  iapply (sound_kernel7 c Set.univ _ _ _ _ _ _ _ _ _ _ _ (iblk7 V a c 0 t) (iblk7 V a c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation7 (c : Dev nD) : BodyObligation (dat7 (F := F) V a c) (defs₀ (F := F)) Variants.none () Set.univ := fun t => by
  rw [bigSep_W7, bigSep_W7]
  exact sound_body7 V a c t

end Region

end Cert.KernelIdeal.Hand

end
-- ==== Proof.KI.Tables7.lean ====
/-
  Edge chunk 7's index tables. The host slices 40000 consecutive words, from word 240000 on, out of each endpoint
  array (src, then dst) into scalar memory; the chunk's pipeline reads word t of each as the block row of its two
  gathered windows at grid point t. When every endpoint word is a node id (below 50000) each such row lies inside
  the 50000-row arrays: the tables' contents are admissible for the pipeline.
-/
import proofs.«413139_j22651657519351_3_alg».proof.Proof.Gen.KernelIdeal.Launch
import proofs.«413139_j22651657519351_3_alg».proof.Proof.Gen.KernelIdeal.Skeleton
import proofs.«413139_j22651657519351_3_alg».proof.Proof.Gen.KernelIdeal.Points
import proofs.«413139_j22651657519351_3_alg».proof.Proof.KI.Range
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Tables

variable (m : (ℓ : Loc nD τ sig) → Buf (Elt F) ℓ)

/-- The two tables' contents, read off the launch memory: the endpoint arrays' words 240000 … 240000 + 39999. -/
def tbl7 : pre7.Contents (Elt F) := fun k => match k with
  | ⟨0, _⟩ => (extractStridedSlice S40000 ![240000] (m (((0 : Dev nD) : Thread nD τ).loc main_arg1)) slices_S800000_S40000_240000 : (⟨S40000, .i32⟩ : BufTy).Contents (Elt F))
  | ⟨1, _⟩ => (extractStridedSlice S40000 ![240000] (m (((0 : Dev nD) : Thread nD τ).loc main_arg2)) slices_S800000_S40000_240000 : (⟨S40000, .i32⟩ : BufTy).Contents (Elt F))

/-- Tables whose every word is below the node count put every gathered block inside its array: row word + 1 ≤ 50000,
    the two unit axes and the 128 lanes exactly filled; float32 words transfer whole. -/
theorem ok7_of (pf : pre7.Contents (Elt F)) (h0 : ∀ j, ((pf 0 j : Elt F .i32) : BitVec 32).toNat < 50000)
    (h1 : ∀ j, ((pf 1 j : Elt F .i32) : BitVec 32).toNat < 50000) : ok7 pf := by
  refine ⟨fun i => ⟨fun a => ?_, Or.inl rfl⟩, fun i => ⟨fun a => ?_, Or.inl rfl⟩⟩
  · match a with
    | ⟨0, _⟩ =>
      show (BitVec.toNat (pf 0 _) + 1) * 1 ≤ 50000
      exact (Nat.mul_one _).le.trans (Nat.succ_le_of_lt (h0 _))
    | ⟨1, _⟩ => show (BitVec.toNat (0#32) + 1) * 1 ≤ 1; decide
    | ⟨2, _⟩ => show (BitVec.toNat (0#32) + 1) * 128 ≤ 128; decide
  · match a with
    | ⟨0, _⟩ =>
      show (BitVec.toNat (pf 1 _) + 1) * 1 ≤ 50000
      exact (Nat.mul_one _).le.trans (Nat.succ_le_of_lt (h1 _))
    | ⟨1, _⟩ => show (BitVec.toNat (0#32) + 1) * 1 ≤ 1; decide
    | ⟨2, _⟩ => show (BitVec.toNat (0#32) + 1) * 128 ≤ 128; decide

/-- The chunk's tables as admissible contents, when the endpoint words are node ids. -/
def a7 (hR : InRange m) : (pcfg7 (F := F)).Adm :=
  ⟨tbl7 m, ok7_of (tbl7 m) (fun j => (hR 0).1 _) (fun j => (hR 0).2 _)⟩

theorem a7_val (hR : InRange m) : (a7 m hR).1 = tbl7 m := rfl

end Tables

end Cert.KernelIdeal.Hand

end
-- ==== Proof.KI.Region8.lean ====
/-
  Edge chunk 8's gather kernel (twenty chunks of 40000 edges): at grid point t the pipeline fetches row src[t] of the
  re-laid projection hs2 and row dst[t] of hd2 (two blocks of 128 lanes, chosen by the prefetched index tables),
  the body stores (row + row) · c into the output block, which is written back as row t of the chunk's output.
  Here: what each window's staging buffer holds before and after the body at every point, for any contents V of the
  buffers at the region's entry and any admissible contents `a` of the two index tables, and the body's run.
  The tables ride through the region untouched: the body never reads them.
-/
import proofs.«413139_j22651657519351_3_alg».proof.Proof.Gen.KernelIdeal.Launch
import proofs.«413139_j22651657519351_3_alg».proof.Proof.Gen.KernelIdeal.Skeleton
import proofs.«413139_j22651657519351_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region

variable (V : (c : Dev nD) → (b : Ref sig .tc) → Buf (Elt F) ((c : Thread nD τ).loc b))
variable (a : (pcfg8 (F := F)).Adm)

/-! ## The body as the pipeline calls it at a point -/

/-- Each window's current staging memref at point `t`, and its wholeness. -/
abbrev ms8_0 (t : Fin (cfg8 a).N) : Memref sig .tc .vmem S1x1x128 .f32 := spec8_0.stage ((cfg8 a).slots t 0)
abbrev hs8_0 (t : Fin (cfg8 a).N) : (ms8_0 a t).IsWhole := hstage8_0 (((cfg8 a).slots t 0).cast nbuf8_0)
abbrev ms8_1 (t : Fin (cfg8 a).N) : Memref sig .tc .vmem S1x1x128 .f32 := spec8_1.stage ((cfg8 a).slots t 1)
abbrev hs8_1 (t : Fin (cfg8 a).N) : (ms8_1 a t).IsWhole := hstage8_1 (((cfg8 a).slots t 1).cast nbuf8_1)
abbrev ms8_2 (t : Fin (cfg8 a).N) : Memref sig .tc .vmem S1x1x128 .f32 := spec8_2.stage ((cfg8 a).slots t 2)
abbrev hs8_2 (t : Fin (cfg8 a).N) : (ms8_2 a t).IsWhole := hstage8_2 (((cfg8 a).slots t 2).cast nbuf8_2)

/-- The kernel body at point `t`, on what the pipeline calls it with. -/
abbrev bodyAt8 (t : Fin (cfg8 a).N) : Prog (TpuEff nD τ sig (Elt F) Λ₀ .tc) PUnit :=
  cc8__gather_kernel (grid8.coords t) (Memref.whole main_v33) (Memref.isWhole_whole _) (Memref.whole main_v34) (Memref.isWhole_whole _)
    (ms8_0 a t) (hs8_0 a t) (ms8_1 a t) (hs8_1 a t) (ms8_2 a t) (hs8_2 a t)

/-! ## The windows' blocks -/

/-- Window `w`'s block at point `t`, read off its array as the region finds it: for the two gathered windows the
    row the tables' word at `t` names. -/
def iblk8 (c : Dev nD) (w : Fin (cfg8 a).W) (t : Fin (cfg8 a).N) :
    (((cfg8 a).win w).xblock ((cfg8 a).grid.coords t)).Idx → Elt F ((cfg8 a).win w).elt :=
  (((cfg8 a).win w).blk t).view.read (Elt F) (V c (Pipeline.arrRef spec8 w))

/-- An input window's current staging buffer holds its block at every point, fetched there or not. -/
theorem before8_0_of {c : Dev nD} (dat : Dat τ (Elt F) Unit ℕ (UR sig nD τ) ℕ (cfg8 a) c) (hA : dat.A 0 = V c (Pipeline.arrRef spec8 0))
    (hafter : ∀ t, dat.after 0 t = iblk8 V a c 0 t) (t : Fin (cfg8 a).N) (d) : dat.before 0 t d = iblk8 V a c 0 t :=
  (dat.before_in_eq_fetched 0 rfl (fun _ => rfl) (fun _ _ _ => rfl) (fun t => by rw [hafter]; unfold Dat.blockOf iblk8; rw [hA]; try rfl) t d).trans
    (by unfold Dat.fetched Dat.blockOf iblk8; rw [hA]; try rfl)

theorem before8_1_of {c : Dev nD} (dat : Dat τ (Elt F) Unit ℕ (UR sig nD τ) ℕ (cfg8 a) c) (hA : dat.A 1 = V c (Pipeline.arrRef spec8 1))
    (hafter : ∀ t, dat.after 1 t = iblk8 V a c 1 t) (t : Fin (cfg8 a).N) (d) : dat.before 1 t d = iblk8 V a c 1 t :=
  (dat.before_in_eq_fetched 1 rfl (fun _ => rfl) (fun _ _ _ => rfl) (fun t => by rw [hafter]; unfold Dat.blockOf iblk8; rw [hA]; try rfl) t d).trans
    (by unfold Dat.fetched Dat.blockOf iblk8; rw [hA]; try rfl)

/-! ## What the body leaves in the output window's buffer -/

/-- The one rectangle the body loads and stores through: the whole 1×1×128 block. -/
abbrev r8 : Rect S1x1x128 := Rect.unit (s := S1x1x128) ![0, 0, 0] S1x1x128.size inb_S1x1x128_S1x1x128_0_0_0

/-- The output block after the body, from the two gathered rows: its one store. -/
def out8_2 (x0 x1 : Vec F S1x1x128 .f32) : Vec F S1x1x128 .f32 :=
  View.canon [⟨r8, k8_pay1 (View.ld x0 r8) (View.ld x1 r8)⟩]

/-- The store covers the block. -/
theorem cover8_2 (p0 : Vec F S1x1x128 .f32) (y : S1x1x128.Idx) :
    ∃ pc ∈ ([⟨r8, p0⟩] : List (View.Piece (Elt F) S1x1x128 .f32)), y ∈ pc.1.set :=
  View.cover_of_tiled [⟨r8, p0⟩] S1x1x128.size (by rfl) y

/-! ## The body's run -/

set_option maxHeartbeats 1000000 in
/-- The body on whole staging memrefs, the two inputs' at contents `x0`, `x1` and the output's at anything, runs to the
    continuation holding the inputs as they were and the output at `out8_2 x0 x1`; the table memrefs are not touched. -/
theorem sound_kernel8 (c : Dev nD) (E : Set ℕ) (i : grid8.Coords)
    (arg1 : Memref sig .tc .smem S40000 .i32) (harg1 : arg1.IsWhole) (arg2 : Memref sig .tc .smem S40000 .i32) (harg2 : arg2.IsWhole)
    (arg3 : Memref sig .tc .vmem S1x1x128 .f32) (harg3 : arg3.IsWhole) (arg4 : Memref sig .tc .vmem S1x1x128 .f32) (harg4 : arg4.IsWhole)
    (arg5 : Memref sig .tc .vmem S1x1x128 .f32) (harg5 : arg5.IsWhole)
    (x0 x1 : Vec F S1x1x128 .f32) (K : PUnit → sProp 𝕄) :
    iprop(owns (c : Thread nD τ) arg3 fullShare x0 ∗ owns (c : Thread nD τ) arg4 fullShare x1 ∗ (∃ d, owns (c : Thread nD τ) arg5 fullShare d)
        ∗ (iprop(owns (c : Thread nD τ) arg3 fullShare x0 ∗ owns (c : Thread nD τ) arg4 fullShare x1
            ∗ owns (c : Thread nD τ) arg5 fullShare (out8_2 x0 x1)) -∗ K ⟨⟩))
      ⊢ wp frame (wpE (defs₀ (F := F)) Variants.none c none) E (cc8__gather_kernel i arg1 harg1 arg2 harg2 arg3 harg3 arg4 harg4 arg5 harg5) K := by
  simp only [cc8__gather_kernel_eq_skeleton]; unfold cc8__gather_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover8_2 _)

/-! ## The pipeline's proof data -/

/-- The proof data of this pipeline on core `c`: the arrays as the region finds them; after the body at point `t` each
    gathered input's buffer at its block and the output's at `out8_2` of the two; the invariant: the scoped rest, the
    generator register, and the two index tables held whole and untouched; nothing owed; full shares. -/
def dat8 (c : Dev nD) : Dat τ (Elt F) Unit ℕ (UR sig nD τ) ℕ (cfg8 a) c where
  A w := V c (Pipeline.arrRef spec8 w)
  after w t := match w with
    | ⟨0, _⟩ => iblk8 V a c 0 t
    | ⟨1, _⟩ => iblk8 V a c 1 t
    | ⟨2, _⟩ => out8_2 (iblk8 V a c 0 t) (iblk8 V a c 1 t)
  Φ _ := iprop(Pipeline.ΦA spec8 c ∗ Pipeline.prefHeld (Ix := Unit) (Name := ℕ) (U := UR sig nD τ) (Lvl := ℕ) pre8 c (fun _ => fullShare) a.1)
  q _ := fullShare
  owed _ := 0

theorem A_eq8 (c : Dev nD) (w : Fin (cfg8 a).W) : (dat8 V a c).A w = V c (Pipeline.arrRef spec8 w) := by
  dsimp only [dat8]

theorem after8_0 (c : Dev nD) (t : Fin (cfg8 a).N) : (dat8 V a c).after 0 t = iblk8 V a c 0 t := by dsimp only [dat8]; try rfl
theorem after8_1 (c : Dev nD) (t : Fin (cfg8 a).N) : (dat8 V a c).after 1 t = iblk8 V a c 1 t := by dsimp only [dat8]; try rfl
theorem after8_2 (c : Dev nD) (t : Fin (cfg8 a).N) : (dat8 V a c).after 2 t = out8_2 (iblk8 V a c 0 t) (iblk8 V a c 1 t) := by dsimp only [dat8]; try rfl

theorem before8_0 (c : Dev nD) (t : Fin (cfg8 a).N) (d) : (dat8 V a c).before 0 t d = iblk8 V a c 0 t :=
  before8_0_of V a (dat8 V a c) (A_eq8 V a c 0) (after8_0 V a c) t d
theorem before8_1 (c : Dev nD) (t : Fin (cfg8 a).N) (d) : (dat8 V a c).before 1 t d = iblk8 V a c 1 t :=
  before8_1_of V a (dat8 V a c) (A_eq8 V a c 1) (after8_1 V a c) t d

/-! ## The body obligation, at a generic point -/

def bodyPre8 (c : Dev nD) (t : Fin (cfg8 a).N) : sProp 𝕄 :=
  iprop((dat8 V a c).Φ t.castSucc ∗ (dat8 V a c).owesAt () t.castSucc
    ∗ (∃ d, owns (c : Thread nD τ) (ms8_0 a t) fullShare ((dat8 V a c).before 0 t d))
    ∗ (∃ d, owns (c : Thread nD τ) (ms8_1 a t) fullShare ((dat8 V a c).before 1 t d))
    ∗ (∃ d, owns (c : Thread nD τ) (ms8_2 a t) fullShare ((dat8 V a c).before 2 t d)))

def bodyPost8 (c : Dev nD) (t : Fin (cfg8 a).N) : sProp 𝕄 :=
  iprop((dat8 V a c).Φ t.succ ∗ (dat8 V a c).owesAt () t.succ
    ∗ owns (c : Thread nD τ) (ms8_0 a t) fullShare ((dat8 V a c).after 0 t)
    ∗ owns (c : Thread nD τ) (ms8_1 a t) fullShare ((dat8 V a c).after 1 t)
    ∗ owns (c : Thread nD τ) (ms8_2 a t) fullShare ((dat8 V a c).after 2 t))

/-- The body at any point: the inputs' memrefs hold their blocks, so the run applies; the invariant and the core's
    dues pass through unread. -/
theorem sound_body8 (c : Dev nD) (t : Fin (cfg8 a).N) :
    bodyPre8 V a c t ⊢ wp frame (wpE (defs₀ (F := F)) Variants.none c none) Set.univ (bodyAt8 a t) (fun _ => bodyPost8 V a c t) := by
  unfold bodyPre8 bodyPost8 bodyAt8
  simp only [before8_0, before8_1]
  rw [show (dat8 V a c).Φ t.succ = (dat8 V a c).Φ t.castSucc from rfl,
    show (dat8 V a c).owesAt () t.succ = (dat8 V a c).owesAt () t.castSucc from rfl,
    after8_0, after8_1, after8_2]
  iintro ⟨HΦ, Ho, ⟨%d0, H0⟩, ⟨%d1, H1⟩, ⟨%d2, H2⟩⟩
  iapply (sound_kernel8 c Set.univ _ _ _ _ _ _ _ _ _ _ _ (iblk8 V a c 0 t) (iblk8 V a c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation8 (c : Dev nD) : BodyObligation (dat8 (F := F) V a c) (defs₀ (F := F)) Variants.none () Set.univ := fun t => by
  rw [bigSep_W8, bigSep_W8]
  exact sound_body8 V a c t

end Region

end Cert.KernelIdeal.Hand

end
-- ==== Proof.KI.Tables8.lean ====
/-
  Edge chunk 8's index tables. The host slices 40000 consecutive words, from word 280000 on, out of each endpoint
  array (src, then dst) into scalar memory; the chunk's pipeline reads word t of each as the block row of its two
  gathered windows at grid point t. When every endpoint word is a node id (below 50000) each such row lies inside
  the 50000-row arrays: the tables' contents are admissible for the pipeline.
-/
import proofs.«413139_j22651657519351_3_alg».proof.Proof.Gen.KernelIdeal.Launch
import proofs.«413139_j22651657519351_3_alg».proof.Proof.Gen.KernelIdeal.Skeleton
import proofs.«413139_j22651657519351_3_alg».proof.Proof.Gen.KernelIdeal.Points
import proofs.«413139_j22651657519351_3_alg».proof.Proof.KI.Range
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Tables

variable (m : (ℓ : Loc nD τ sig) → Buf (Elt F) ℓ)

/-- The two tables' contents, read off the launch memory: the endpoint arrays' words 280000 … 280000 + 39999. -/
def tbl8 : pre8.Contents (Elt F) := fun k => match k with
  | ⟨0, _⟩ => (extractStridedSlice S40000 ![280000] (m (((0 : Dev nD) : Thread nD τ).loc main_arg1)) slices_S800000_S40000_280000 : (⟨S40000, .i32⟩ : BufTy).Contents (Elt F))
  | ⟨1, _⟩ => (extractStridedSlice S40000 ![280000] (m (((0 : Dev nD) : Thread nD τ).loc main_arg2)) slices_S800000_S40000_280000 : (⟨S40000, .i32⟩ : BufTy).Contents (Elt F))

/-- Tables whose every word is below the node count put every gathered block inside its array: row word + 1 ≤ 50000,
    the two unit axes and the 128 lanes exactly filled; float32 words transfer whole. -/
theorem ok8_of (pf : pre8.Contents (Elt F)) (h0 : ∀ j, ((pf 0 j : Elt F .i32) : BitVec 32).toNat < 50000)
    (h1 : ∀ j, ((pf 1 j : Elt F .i32) : BitVec 32).toNat < 50000) : ok8 pf := by
  refine ⟨fun i => ⟨fun a => ?_, Or.inl rfl⟩, fun i => ⟨fun a => ?_, Or.inl rfl⟩⟩
  · match a with
    | ⟨0, _⟩ =>
      show (BitVec.toNat (pf 0 _) + 1) * 1 ≤ 50000
      exact (Nat.mul_one _).le.trans (Nat.succ_le_of_lt (h0 _))
    | ⟨1, _⟩ => show (BitVec.toNat (0#32) + 1) * 1 ≤ 1; decide
    | ⟨2, _⟩ => show (BitVec.toNat (0#32) + 1) * 128 ≤ 128; decide
  · match a with
    | ⟨0, _⟩ =>
      show (BitVec.toNat (pf 1 _) + 1) * 1 ≤ 50000
      exact (Nat.mul_one _).le.trans (Nat.succ_le_of_lt (h1 _))
    | ⟨1, _⟩ => show (BitVec.toNat (0#32) + 1) * 1 ≤ 1; decide
    | ⟨2, _⟩ => show (BitVec.toNat (0#32) + 1) * 128 ≤ 128; decide

/-- The chunk's tables as admissible contents, when the endpoint words are node ids. -/
def a8 (hR : InRange m) : (pcfg8 (F := F)).Adm :=
  ⟨tbl8 m, ok8_of (tbl8 m) (fun j => (hR 0).1 _) (fun j => (hR 0).2 _)⟩

theorem a8_val (hR : InRange m) : (a8 m hR).1 = tbl8 m := rfl

end Tables

end Cert.KernelIdeal.Hand

end
-- ==== Proof.KI.Region9.lean ====
/-
  Edge chunk 9's gather kernel (twenty chunks of 40000 edges): at grid point t the pipeline fetches row src[t] of the
  re-laid projection hs2 and row dst[t] of hd2 (two blocks of 128 lanes, chosen by the prefetched index tables),
  the body stores (row + row) · c into the output block, which is written back as row t of the chunk's output.
  Here: what each window's staging buffer holds before and after the body at every point, for any contents V of the
  buffers at the region's entry and any admissible contents `a` of the two index tables, and the body's run.
  The tables ride through the region untouched: the body never reads them.
-/
import proofs.«413139_j22651657519351_3_alg».proof.Proof.Gen.KernelIdeal.Launch
import proofs.«413139_j22651657519351_3_alg».proof.Proof.Gen.KernelIdeal.Skeleton
import proofs.«413139_j22651657519351_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region

variable (V : (c : Dev nD) → (b : Ref sig .tc) → Buf (Elt F) ((c : Thread nD τ).loc b))
variable (a : (pcfg9 (F := F)).Adm)

/-! ## The body as the pipeline calls it at a point -/

/-- Each window's current staging memref at point `t`, and its wholeness. -/
abbrev ms9_0 (t : Fin (cfg9 a).N) : Memref sig .tc .vmem S1x1x128 .f32 := spec9_0.stage ((cfg9 a).slots t 0)
abbrev hs9_0 (t : Fin (cfg9 a).N) : (ms9_0 a t).IsWhole := hstage9_0 (((cfg9 a).slots t 0).cast nbuf9_0)
abbrev ms9_1 (t : Fin (cfg9 a).N) : Memref sig .tc .vmem S1x1x128 .f32 := spec9_1.stage ((cfg9 a).slots t 1)
abbrev hs9_1 (t : Fin (cfg9 a).N) : (ms9_1 a t).IsWhole := hstage9_1 (((cfg9 a).slots t 1).cast nbuf9_1)
abbrev ms9_2 (t : Fin (cfg9 a).N) : Memref sig .tc .vmem S1x1x128 .f32 := spec9_2.stage ((cfg9 a).slots t 2)
abbrev hs9_2 (t : Fin (cfg9 a).N) : (ms9_2 a t).IsWhole := hstage9_2 (((cfg9 a).slots t 2).cast nbuf9_2)

/-- The kernel body at point `t`, on what the pipeline calls it with. -/
abbrev bodyAt9 (t : Fin (cfg9 a).N) : Prog (TpuEff nD τ sig (Elt F) Λ₀ .tc) PUnit :=
  cc9__gather_kernel (grid9.coords t) (Memref.whole main_v37) (Memref.isWhole_whole _) (Memref.whole main_v38) (Memref.isWhole_whole _)
    (ms9_0 a t) (hs9_0 a t) (ms9_1 a t) (hs9_1 a t) (ms9_2 a t) (hs9_2 a t)

/-! ## The windows' blocks -/

/-- Window `w`'s block at point `t`, read off its array as the region finds it: for the two gathered windows the
    row the tables' word at `t` names. -/
def iblk9 (c : Dev nD) (w : Fin (cfg9 a).W) (t : Fin (cfg9 a).N) :
    (((cfg9 a).win w).xblock ((cfg9 a).grid.coords t)).Idx → Elt F ((cfg9 a).win w).elt :=
  (((cfg9 a).win w).blk t).view.read (Elt F) (V c (Pipeline.arrRef spec9 w))

/-- An input window's current staging buffer holds its block at every point, fetched there or not. -/
theorem before9_0_of {c : Dev nD} (dat : Dat τ (Elt F) Unit ℕ (UR sig nD τ) ℕ (cfg9 a) c) (hA : dat.A 0 = V c (Pipeline.arrRef spec9 0))
    (hafter : ∀ t, dat.after 0 t = iblk9 V a c 0 t) (t : Fin (cfg9 a).N) (d) : dat.before 0 t d = iblk9 V a c 0 t :=
  (dat.before_in_eq_fetched 0 rfl (fun _ => rfl) (fun _ _ _ => rfl) (fun t => by rw [hafter]; unfold Dat.blockOf iblk9; rw [hA]; try rfl) t d).trans
    (by unfold Dat.fetched Dat.blockOf iblk9; rw [hA]; try rfl)

theorem before9_1_of {c : Dev nD} (dat : Dat τ (Elt F) Unit ℕ (UR sig nD τ) ℕ (cfg9 a) c) (hA : dat.A 1 = V c (Pipeline.arrRef spec9 1))
    (hafter : ∀ t, dat.after 1 t = iblk9 V a c 1 t) (t : Fin (cfg9 a).N) (d) : dat.before 1 t d = iblk9 V a c 1 t :=
  (dat.before_in_eq_fetched 1 rfl (fun _ => rfl) (fun _ _ _ => rfl) (fun t => by rw [hafter]; unfold Dat.blockOf iblk9; rw [hA]; try rfl) t d).trans
    (by unfold Dat.fetched Dat.blockOf iblk9; rw [hA]; try rfl)

/-! ## What the body leaves in the output window's buffer -/

/-- The one rectangle the body loads and stores through: the whole 1×1×128 block. -/
abbrev r9 : Rect S1x1x128 := Rect.unit (s := S1x1x128) ![0, 0, 0] S1x1x128.size inb_S1x1x128_S1x1x128_0_0_0

/-- The output block after the body, from the two gathered rows: its one store. -/
def out9_2 (x0 x1 : Vec F S1x1x128 .f32) : Vec F S1x1x128 .f32 :=
  View.canon [⟨r9, k9_pay1 (View.ld x0 r9) (View.ld x1 r9)⟩]

/-- The store covers the block. -/
theorem cover9_2 (p0 : Vec F S1x1x128 .f32) (y : S1x1x128.Idx) :
    ∃ pc ∈ ([⟨r9, p0⟩] : List (View.Piece (Elt F) S1x1x128 .f32)), y ∈ pc.1.set :=
  View.cover_of_tiled [⟨r9, p0⟩] S1x1x128.size (by rfl) y

/-! ## The body's run -/

set_option maxHeartbeats 1000000 in
/-- The body on whole staging memrefs, the two inputs' at contents `x0`, `x1` and the output's at anything, runs to the
    continuation holding the inputs as they were and the output at `out9_2 x0 x1`; the table memrefs are not touched. -/
theorem sound_kernel9 (c : Dev nD) (E : Set ℕ) (i : grid9.Coords)
    (arg1 : Memref sig .tc .smem S40000 .i32) (harg1 : arg1.IsWhole) (arg2 : Memref sig .tc .smem S40000 .i32) (harg2 : arg2.IsWhole)
    (arg3 : Memref sig .tc .vmem S1x1x128 .f32) (harg3 : arg3.IsWhole) (arg4 : Memref sig .tc .vmem S1x1x128 .f32) (harg4 : arg4.IsWhole)
    (arg5 : Memref sig .tc .vmem S1x1x128 .f32) (harg5 : arg5.IsWhole)
    (x0 x1 : Vec F S1x1x128 .f32) (K : PUnit → sProp 𝕄) :
    iprop(owns (c : Thread nD τ) arg3 fullShare x0 ∗ owns (c : Thread nD τ) arg4 fullShare x1 ∗ (∃ d, owns (c : Thread nD τ) arg5 fullShare d)
        ∗ (iprop(owns (c : Thread nD τ) arg3 fullShare x0 ∗ owns (c : Thread nD τ) arg4 fullShare x1
            ∗ owns (c : Thread nD τ) arg5 fullShare (out9_2 x0 x1)) -∗ K ⟨⟩))
      ⊢ wp frame (wpE (defs₀ (F := F)) Variants.none c none) E (cc9__gather_kernel i arg1 harg1 arg2 harg2 arg3 harg3 arg4 harg4 arg5 harg5) K := by
  simp only [cc9__gather_kernel_eq_skeleton]; unfold cc9__gather_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover9_2 _)

/-! ## The pipeline's proof data -/

/-- The proof data of this pipeline on core `c`: the arrays as the region finds them; after the body at point `t` each
    gathered input's buffer at its block and the output's at `out9_2` of the two; the invariant: the scoped rest, the
    generator register, and the two index tables held whole and untouched; nothing owed; full shares. -/
def dat9 (c : Dev nD) : Dat τ (Elt F) Unit ℕ (UR sig nD τ) ℕ (cfg9 a) c where
  A w := V c (Pipeline.arrRef spec9 w)
  after w t := match w with
    | ⟨0, _⟩ => iblk9 V a c 0 t
    | ⟨1, _⟩ => iblk9 V a c 1 t
    | ⟨2, _⟩ => out9_2 (iblk9 V a c 0 t) (iblk9 V a c 1 t)
  Φ _ := iprop(Pipeline.ΦA spec9 c ∗ Pipeline.prefHeld (Ix := Unit) (Name := ℕ) (U := UR sig nD τ) (Lvl := ℕ) pre9 c (fun _ => fullShare) a.1)
  q _ := fullShare
  owed _ := 0

theorem A_eq9 (c : Dev nD) (w : Fin (cfg9 a).W) : (dat9 V a c).A w = V c (Pipeline.arrRef spec9 w) := by
  dsimp only [dat9]

theorem after9_0 (c : Dev nD) (t : Fin (cfg9 a).N) : (dat9 V a c).after 0 t = iblk9 V a c 0 t := by dsimp only [dat9]; try rfl
theorem after9_1 (c : Dev nD) (t : Fin (cfg9 a).N) : (dat9 V a c).after 1 t = iblk9 V a c 1 t := by dsimp only [dat9]; try rfl
theorem after9_2 (c : Dev nD) (t : Fin (cfg9 a).N) : (dat9 V a c).after 2 t = out9_2 (iblk9 V a c 0 t) (iblk9 V a c 1 t) := by dsimp only [dat9]; try rfl

theorem before9_0 (c : Dev nD) (t : Fin (cfg9 a).N) (d) : (dat9 V a c).before 0 t d = iblk9 V a c 0 t :=
  before9_0_of V a (dat9 V a c) (A_eq9 V a c 0) (after9_0 V a c) t d
theorem before9_1 (c : Dev nD) (t : Fin (cfg9 a).N) (d) : (dat9 V a c).before 1 t d = iblk9 V a c 1 t :=
  before9_1_of V a (dat9 V a c) (A_eq9 V a c 1) (after9_1 V a c) t d

/-! ## The body obligation, at a generic point -/

def bodyPre9 (c : Dev nD) (t : Fin (cfg9 a).N) : sProp 𝕄 :=
  iprop((dat9 V a c).Φ t.castSucc ∗ (dat9 V a c).owesAt () t.castSucc
    ∗ (∃ d, owns (c : Thread nD τ) (ms9_0 a t) fullShare ((dat9 V a c).before 0 t d))
    ∗ (∃ d, owns (c : Thread nD τ) (ms9_1 a t) fullShare ((dat9 V a c).before 1 t d))
    ∗ (∃ d, owns (c : Thread nD τ) (ms9_2 a t) fullShare ((dat9 V a c).before 2 t d)))

def bodyPost9 (c : Dev nD) (t : Fin (cfg9 a).N) : sProp 𝕄 :=
  iprop((dat9 V a c).Φ t.succ ∗ (dat9 V a c).owesAt () t.succ
    ∗ owns (c : Thread nD τ) (ms9_0 a t) fullShare ((dat9 V a c).after 0 t)
    ∗ owns (c : Thread nD τ) (ms9_1 a t) fullShare ((dat9 V a c).after 1 t)
    ∗ owns (c : Thread nD τ) (ms9_2 a t) fullShare ((dat9 V a c).after 2 t))

/-- The body at any point: the inputs' memrefs hold their blocks, so the run applies; the invariant and the core's
    dues pass through unread. -/
theorem sound_body9 (c : Dev nD) (t : Fin (cfg9 a).N) :
    bodyPre9 V a c t ⊢ wp frame (wpE (defs₀ (F := F)) Variants.none c none) Set.univ (bodyAt9 a t) (fun _ => bodyPost9 V a c t) := by
  unfold bodyPre9 bodyPost9 bodyAt9
  simp only [before9_0, before9_1]
  rw [show (dat9 V a c).Φ t.succ = (dat9 V a c).Φ t.castSucc from rfl,
    show (dat9 V a c).owesAt () t.succ = (dat9 V a c).owesAt () t.castSucc from rfl,
    after9_0, after9_1, after9_2]
  iintro ⟨HΦ, Ho, ⟨%d0, H0⟩, ⟨%d1, H1⟩, ⟨%d2, H2⟩⟩
  iapply (sound_kernel9 c Set.univ _ _ _ _ _ _ _ _ _ _ _ (iblk9 V a c 0 t) (iblk9 V a c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation9 (c : Dev nD) : BodyObligation (dat9 (F := F) V a c) (defs₀ (F := F)) Variants.none () Set.univ := fun t => by
  rw [bigSep_W9, bigSep_W9]
  exact sound_body9 V a c t

end Region

end Cert.KernelIdeal.Hand

end
-- ==== Proof.KI.Tables9.lean ====
/-
  Edge chunk 9's index tables. The host slices 40000 consecutive words, from word 320000 on, out of each endpoint
  array (src, then dst) into scalar memory; the chunk's pipeline reads word t of each as the block row of its two
  gathered windows at grid point t. When every endpoint word is a node id (below 50000) each such row lies inside
  the 50000-row arrays: the tables' contents are admissible for the pipeline.
-/
import proofs.«413139_j22651657519351_3_alg».proof.Proof.Gen.KernelIdeal.Launch
import proofs.«413139_j22651657519351_3_alg».proof.Proof.Gen.KernelIdeal.Skeleton
import proofs.«413139_j22651657519351_3_alg».proof.Proof.Gen.KernelIdeal.Points
import proofs.«413139_j22651657519351_3_alg».proof.Proof.KI.Range
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Tables

variable (m : (ℓ : Loc nD τ sig) → Buf (Elt F) ℓ)

/-- The two tables' contents, read off the launch memory: the endpoint arrays' words 320000 … 320000 + 39999. -/
def tbl9 : pre9.Contents (Elt F) := fun k => match k with
  | ⟨0, _⟩ => (extractStridedSlice S40000 ![320000] (m (((0 : Dev nD) : Thread nD τ).loc main_arg1)) slices_S800000_S40000_320000 : (⟨S40000, .i32⟩ : BufTy).Contents (Elt F))
  | ⟨1, _⟩ => (extractStridedSlice S40000 ![320000] (m (((0 : Dev nD) : Thread nD τ).loc main_arg2)) slices_S800000_S40000_320000 : (⟨S40000, .i32⟩ : BufTy).Contents (Elt F))

/-- Tables whose every word is below the node count put every gathered block inside its array: row word + 1 ≤ 50000,
    the two unit axes and the 128 lanes exactly filled; float32 words transfer whole. -/
theorem ok9_of (pf : pre9.Contents (Elt F)) (h0 : ∀ j, ((pf 0 j : Elt F .i32) : BitVec 32).toNat < 50000)
    (h1 : ∀ j, ((pf 1 j : Elt F .i32) : BitVec 32).toNat < 50000) : ok9 pf := by
  refine ⟨fun i => ⟨fun a => ?_, Or.inl rfl⟩, fun i => ⟨fun a => ?_, Or.inl rfl⟩⟩
  · match a with
    | ⟨0, _⟩ =>
      show (BitVec.toNat (pf 0 _) + 1) * 1 ≤ 50000
      exact (Nat.mul_one _).le.trans (Nat.succ_le_of_lt (h0 _))
    | ⟨1, _⟩ => show (BitVec.toNat (0#32) + 1) * 1 ≤ 1; decide
    | ⟨2, _⟩ => show (BitVec.toNat (0#32) + 1) * 128 ≤ 128; decide
  · match a with
    | ⟨0, _⟩ =>
      show (BitVec.toNat (pf 1 _) + 1) * 1 ≤ 50000
      exact (Nat.mul_one _).le.trans (Nat.succ_le_of_lt (h1 _))
    | ⟨1, _⟩ => show (BitVec.toNat (0#32) + 1) * 1 ≤ 1; decide
    | ⟨2, _⟩ => show (BitVec.toNat (0#32) + 1) * 128 ≤ 128; decide

/-- The chunk's tables as admissible contents, when the endpoint words are node ids. -/
def a9 (hR : InRange m) : (pcfg9 (F := F)).Adm :=
  ⟨tbl9 m, ok9_of (tbl9 m) (fun j => (hR 0).1 _) (fun j => (hR 0).2 _)⟩

theorem a9_val (hR : InRange m) : (a9 m hR).1 = tbl9 m := rfl

end Tables

end Cert.KernelIdeal.Hand

end
-- ==== Proof.KI.Region10.lean ====
/-
  Edge chunk 10's gather kernel (twenty chunks of 40000 edges): at grid point t the pipeline fetches row src[t] of the
  re-laid projection hs2 and row dst[t] of hd2 (two blocks of 128 lanes, chosen by the prefetched index tables),
  the body stores (row + row) · c into the output block, which is written back as row t of the chunk's output.
  Here: what each window's staging buffer holds before and after the body at every point, for any contents V of the
  buffers at the region's entry and any admissible contents `a` of the two index tables, and the body's run.
  The tables ride through the region untouched: the body never reads them.
-/
import proofs.«413139_j22651657519351_3_alg».proof.Proof.Gen.KernelIdeal.Launch
import proofs.«413139_j22651657519351_3_alg».proof.Proof.Gen.KernelIdeal.Skeleton
import proofs.«413139_j22651657519351_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region

variable (V : (c : Dev nD) → (b : Ref sig .tc) → Buf (Elt F) ((c : Thread nD τ).loc b))
variable (a : (pcfg10 (F := F)).Adm)

/-! ## The body as the pipeline calls it at a point -/

/-- Each window's current staging memref at point `t`, and its wholeness. -/
abbrev ms10_0 (t : Fin (cfg10 a).N) : Memref sig .tc .vmem S1x1x128 .f32 := spec10_0.stage ((cfg10 a).slots t 0)
abbrev hs10_0 (t : Fin (cfg10 a).N) : (ms10_0 a t).IsWhole := hstage10_0 (((cfg10 a).slots t 0).cast nbuf10_0)
abbrev ms10_1 (t : Fin (cfg10 a).N) : Memref sig .tc .vmem S1x1x128 .f32 := spec10_1.stage ((cfg10 a).slots t 1)
abbrev hs10_1 (t : Fin (cfg10 a).N) : (ms10_1 a t).IsWhole := hstage10_1 (((cfg10 a).slots t 1).cast nbuf10_1)
abbrev ms10_2 (t : Fin (cfg10 a).N) : Memref sig .tc .vmem S1x1x128 .f32 := spec10_2.stage ((cfg10 a).slots t 2)
abbrev hs10_2 (t : Fin (cfg10 a).N) : (ms10_2 a t).IsWhole := hstage10_2 (((cfg10 a).slots t 2).cast nbuf10_2)

/-- The kernel body at point `t`, on what the pipeline calls it with. -/
abbrev bodyAt10 (t : Fin (cfg10 a).N) : Prog (TpuEff nD τ sig (Elt F) Λ₀ .tc) PUnit :=
  cc10__gather_kernel (grid10.coords t) (Memref.whole main_v41) (Memref.isWhole_whole _) (Memref.whole main_v42) (Memref.isWhole_whole _)
    (ms10_0 a t) (hs10_0 a t) (ms10_1 a t) (hs10_1 a t) (ms10_2 a t) (hs10_2 a t)

/-! ## The windows' blocks -/

/-- Window `w`'s block at point `t`, read off its array as the region finds it: for the two gathered windows the
    row the tables' word at `t` names. -/
def iblk10 (c : Dev nD) (w : Fin (cfg10 a).W) (t : Fin (cfg10 a).N) :
    (((cfg10 a).win w).xblock ((cfg10 a).grid.coords t)).Idx → Elt F ((cfg10 a).win w).elt :=
  (((cfg10 a).win w).blk t).view.read (Elt F) (V c (Pipeline.arrRef spec10 w))

/-- An input window's current staging buffer holds its block at every point, fetched there or not. -/
theorem before10_0_of {c : Dev nD} (dat : Dat τ (Elt F) Unit ℕ (UR sig nD τ) ℕ (cfg10 a) c) (hA : dat.A 0 = V c (Pipeline.arrRef spec10 0))
    (hafter : ∀ t, dat.after 0 t = iblk10 V a c 0 t) (t : Fin (cfg10 a).N) (d) : dat.before 0 t d = iblk10 V a c 0 t :=
  (dat.before_in_eq_fetched 0 rfl (fun _ => rfl) (fun _ _ _ => rfl) (fun t => by rw [hafter]; unfold Dat.blockOf iblk10; rw [hA]; try rfl) t d).trans
    (by unfold Dat.fetched Dat.blockOf iblk10; rw [hA]; try rfl)

theorem before10_1_of {c : Dev nD} (dat : Dat τ (Elt F) Unit ℕ (UR sig nD τ) ℕ (cfg10 a) c) (hA : dat.A 1 = V c (Pipeline.arrRef spec10 1))
    (hafter : ∀ t, dat.after 1 t = iblk10 V a c 1 t) (t : Fin (cfg10 a).N) (d) : dat.before 1 t d = iblk10 V a c 1 t :=
  (dat.before_in_eq_fetched 1 rfl (fun _ => rfl) (fun _ _ _ => rfl) (fun t => by rw [hafter]; unfold Dat.blockOf iblk10; rw [hA]; try rfl) t d).trans
    (by unfold Dat.fetched Dat.blockOf iblk10; rw [hA]; try rfl)

/-! ## What the body leaves in the output window's buffer -/

/-- The one rectangle the body loads and stores through: the whole 1×1×128 block. -/
abbrev r10 : Rect S1x1x128 := Rect.unit (s := S1x1x128) ![0, 0, 0] S1x1x128.size inb_S1x1x128_S1x1x128_0_0_0

/-- The output block after the body, from the two gathered rows: its one store. -/
def out10_2 (x0 x1 : Vec F S1x1x128 .f32) : Vec F S1x1x128 .f32 :=
  View.canon [⟨r10, k10_pay1 (View.ld x0 r10) (View.ld x1 r10)⟩]

/-- The store covers the block. -/
theorem cover10_2 (p0 : Vec F S1x1x128 .f32) (y : S1x1x128.Idx) :
    ∃ pc ∈ ([⟨r10, p0⟩] : List (View.Piece (Elt F) S1x1x128 .f32)), y ∈ pc.1.set :=
  View.cover_of_tiled [⟨r10, p0⟩] S1x1x128.size (by rfl) y

/-! ## The body's run -/

set_option maxHeartbeats 1000000 in
/-- The body on whole staging memrefs, the two inputs' at contents `x0`, `x1` and the output's at anything, runs to the
    continuation holding the inputs as they were and the output at `out10_2 x0 x1`; the table memrefs are not touched. -/
theorem sound_kernel10 (c : Dev nD) (E : Set ℕ) (i : grid10.Coords)
    (arg1 : Memref sig .tc .smem S40000 .i32) (harg1 : arg1.IsWhole) (arg2 : Memref sig .tc .smem S40000 .i32) (harg2 : arg2.IsWhole)
    (arg3 : Memref sig .tc .vmem S1x1x128 .f32) (harg3 : arg3.IsWhole) (arg4 : Memref sig .tc .vmem S1x1x128 .f32) (harg4 : arg4.IsWhole)
    (arg5 : Memref sig .tc .vmem S1x1x128 .f32) (harg5 : arg5.IsWhole)
    (x0 x1 : Vec F S1x1x128 .f32) (K : PUnit → sProp 𝕄) :
    iprop(owns (c : Thread nD τ) arg3 fullShare x0 ∗ owns (c : Thread nD τ) arg4 fullShare x1 ∗ (∃ d, owns (c : Thread nD τ) arg5 fullShare d)
        ∗ (iprop(owns (c : Thread nD τ) arg3 fullShare x0 ∗ owns (c : Thread nD τ) arg4 fullShare x1
            ∗ owns (c : Thread nD τ) arg5 fullShare (out10_2 x0 x1)) -∗ K ⟨⟩))
      ⊢ wp frame (wpE (defs₀ (F := F)) Variants.none c none) E (cc10__gather_kernel i arg1 harg1 arg2 harg2 arg3 harg3 arg4 harg4 arg5 harg5) K := by
  simp only [cc10__gather_kernel_eq_skeleton]; unfold cc10__gather_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover10_2 _)

/-! ## The pipeline's proof data -/

/-- The proof data of this pipeline on core `c`: the arrays as the region finds them; after the body at point `t` each
    gathered input's buffer at its block and the output's at `out10_2` of the two; the invariant: the scoped rest, the
    generator register, and the two index tables held whole and untouched; nothing owed; full shares. -/
def dat10 (c : Dev nD) : Dat τ (Elt F) Unit ℕ (UR sig nD τ) ℕ (cfg10 a) c where
  A w := V c (Pipeline.arrRef spec10 w)
  after w t := match w with
    | ⟨0, _⟩ => iblk10 V a c 0 t
    | ⟨1, _⟩ => iblk10 V a c 1 t
    | ⟨2, _⟩ => out10_2 (iblk10 V a c 0 t) (iblk10 V a c 1 t)
  Φ _ := iprop(Pipeline.ΦA spec10 c ∗ Pipeline.prefHeld (Ix := Unit) (Name := ℕ) (U := UR sig nD τ) (Lvl := ℕ) pre10 c (fun _ => fullShare) a.1)
  q _ := fullShare
  owed _ := 0

theorem A_eq10 (c : Dev nD) (w : Fin (cfg10 a).W) : (dat10 V a c).A w = V c (Pipeline.arrRef spec10 w) := by
  dsimp only [dat10]

theorem after10_0 (c : Dev nD) (t : Fin (cfg10 a).N) : (dat10 V a c).after 0 t = iblk10 V a c 0 t := by dsimp only [dat10]; try rfl
theorem after10_1 (c : Dev nD) (t : Fin (cfg10 a).N) : (dat10 V a c).after 1 t = iblk10 V a c 1 t := by dsimp only [dat10]; try rfl
theorem after10_2 (c : Dev nD) (t : Fin (cfg10 a).N) : (dat10 V a c).after 2 t = out10_2 (iblk10 V a c 0 t) (iblk10 V a c 1 t) := by dsimp only [dat10]; try rfl

theorem before10_0 (c : Dev nD) (t : Fin (cfg10 a).N) (d) : (dat10 V a c).before 0 t d = iblk10 V a c 0 t :=
  before10_0_of V a (dat10 V a c) (A_eq10 V a c 0) (after10_0 V a c) t d
theorem before10_1 (c : Dev nD) (t : Fin (cfg10 a).N) (d) : (dat10 V a c).before 1 t d = iblk10 V a c 1 t :=
  before10_1_of V a (dat10 V a c) (A_eq10 V a c 1) (after10_1 V a c) t d

/-! ## The body obligation, at a generic point -/

def bodyPre10 (c : Dev nD) (t : Fin (cfg10 a).N) : sProp 𝕄 :=
  iprop((dat10 V a c).Φ t.castSucc ∗ (dat10 V a c).owesAt () t.castSucc
    ∗ (∃ d, owns (c : Thread nD τ) (ms10_0 a t) fullShare ((dat10 V a c).before 0 t d))
    ∗ (∃ d, owns (c : Thread nD τ) (ms10_1 a t) fullShare ((dat10 V a c).before 1 t d))
    ∗ (∃ d, owns (c : Thread nD τ) (ms10_2 a t) fullShare ((dat10 V a c).before 2 t d)))

def bodyPost10 (c : Dev nD) (t : Fin (cfg10 a).N) : sProp 𝕄 :=
  iprop((dat10 V a c).Φ t.succ ∗ (dat10 V a c).owesAt () t.succ
    ∗ owns (c : Thread nD τ) (ms10_0 a t) fullShare ((dat10 V a c).after 0 t)
    ∗ owns (c : Thread nD τ) (ms10_1 a t) fullShare ((dat10 V a c).after 1 t)
    ∗ owns (c : Thread nD τ) (ms10_2 a t) fullShare ((dat10 V a c).after 2 t))

/-- The body at any point: the inputs' memrefs hold their blocks, so the run applies; the invariant and the core's
    dues pass through unread. -/
theorem sound_body10 (c : Dev nD) (t : Fin (cfg10 a).N) :
    bodyPre10 V a c t ⊢ wp frame (wpE (defs₀ (F := F)) Variants.none c none) Set.univ (bodyAt10 a t) (fun _ => bodyPost10 V a c t) := by
  unfold bodyPre10 bodyPost10 bodyAt10
  simp only [before10_0, before10_1]
  rw [show (dat10 V a c).Φ t.succ = (dat10 V a c).Φ t.castSucc from rfl,
    show (dat10 V a c).owesAt () t.succ = (dat10 V a c).owesAt () t.castSucc from rfl,
    after10_0, after10_1, after10_2]
  iintro ⟨HΦ, Ho, ⟨%d0, H0⟩, ⟨%d1, H1⟩, ⟨%d2, H2⟩⟩
  iapply (sound_kernel10 c Set.univ _ _ _ _ _ _ _ _ _ _ _ (iblk10 V a c 0 t) (iblk10 V a c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation10 (c : Dev nD) : BodyObligation (dat10 (F := F) V a c) (defs₀ (F := F)) Variants.none () Set.univ := fun t => by
  rw [bigSep_W10, bigSep_W10]
  exact sound_body10 V a c t

end Region

end Cert.KernelIdeal.Hand

end
-- ==== Proof.KI.Tables10.lean ====
/-
  Edge chunk 10's index tables. The host slices 40000 consecutive words, from word 360000 on, out of each endpoint
  array (src, then dst) into scalar memory; the chunk's pipeline reads word t of each as the block row of its two
  gathered windows at grid point t. When every endpoint word is a node id (below 50000) each such row lies inside
  the 50000-row arrays: the tables' contents are admissible for the pipeline.
-/
import proofs.«413139_j22651657519351_3_alg».proof.Proof.Gen.KernelIdeal.Launch
import proofs.«413139_j22651657519351_3_alg».proof.Proof.Gen.KernelIdeal.Skeleton
import proofs.«413139_j22651657519351_3_alg».proof.Proof.Gen.KernelIdeal.Points
import proofs.«413139_j22651657519351_3_alg».proof.Proof.KI.Range
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Tables

variable (m : (ℓ : Loc nD τ sig) → Buf (Elt F) ℓ)

/-- The two tables' contents, read off the launch memory: the endpoint arrays' words 360000 … 360000 + 39999. -/
def tbl10 : pre10.Contents (Elt F) := fun k => match k with
  | ⟨0, _⟩ => (extractStridedSlice S40000 ![360000] (m (((0 : Dev nD) : Thread nD τ).loc main_arg1)) slices_S800000_S40000_360000 : (⟨S40000, .i32⟩ : BufTy).Contents (Elt F))
  | ⟨1, _⟩ => (extractStridedSlice S40000 ![360000] (m (((0 : Dev nD) : Thread nD τ).loc main_arg2)) slices_S800000_S40000_360000 : (⟨S40000, .i32⟩ : BufTy).Contents (Elt F))

/-- Tables whose every word is below the node count put every gathered block inside its array: row word + 1 ≤ 50000,
    the two unit axes and the 128 lanes exactly filled; float32 words transfer whole. -/
theorem ok10_of (pf : pre10.Contents (Elt F)) (h0 : ∀ j, ((pf 0 j : Elt F .i32) : BitVec 32).toNat < 50000)
    (h1 : ∀ j, ((pf 1 j : Elt F .i32) : BitVec 32).toNat < 50000) : ok10 pf := by
  refine ⟨fun i => ⟨fun a => ?_, Or.inl rfl⟩, fun i => ⟨fun a => ?_, Or.inl rfl⟩⟩
  · match a with
    | ⟨0, _⟩ =>
      show (BitVec.toNat (pf 0 _) + 1) * 1 ≤ 50000
      exact (Nat.mul_one _).le.trans (Nat.succ_le_of_lt (h0 _))
    | ⟨1, _⟩ => show (BitVec.toNat (0#32) + 1) * 1 ≤ 1; decide
    | ⟨2, _⟩ => show (BitVec.toNat (0#32) + 1) * 128 ≤ 128; decide
  · match a with
    | ⟨0, _⟩ =>
      show (BitVec.toNat (pf 1 _) + 1) * 1 ≤ 50000
      exact (Nat.mul_one _).le.trans (Nat.succ_le_of_lt (h1 _))
    | ⟨1, _⟩ => show (BitVec.toNat (0#32) + 1) * 1 ≤ 1; decide
    | ⟨2, _⟩ => show (BitVec.toNat (0#32) + 1) * 128 ≤ 128; decide

/-- The chunk's tables as admissible contents, when the endpoint words are node ids. -/
def a10 (hR : InRange m) : (pcfg10 (F := F)).Adm :=
  ⟨tbl10 m, ok10_of (tbl10 m) (fun j => (hR 0).1 _) (fun j => (hR 0).2 _)⟩

theorem a10_val (hR : InRange m) : (a10 m hR).1 = tbl10 m := rfl

end Tables

end Cert.KernelIdeal.Hand

end
-- ==== Proof.KI.Region11.lean ====
/-
  Edge chunk 11's gather kernel (twenty chunks of 40000 edges): at grid point t the pipeline fetches row src[t] of the
  re-laid projection hs2 and row dst[t] of hd2 (two blocks of 128 lanes, chosen by the prefetched index tables),
  the body stores (row + row) · c into the output block, which is written back as row t of the chunk's output.
  Here: what each window's staging buffer holds before and after the body at every point, for any contents V of the
  buffers at the region's entry and any admissible contents `a` of the two index tables, and the body's run.
  The tables ride through the region untouched: the body never reads them.
-/
import proofs.«413139_j22651657519351_3_alg».proof.Proof.Gen.KernelIdeal.Launch
import proofs.«413139_j22651657519351_3_alg».proof.Proof.Gen.KernelIdeal.Skeleton
import proofs.«413139_j22651657519351_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region

variable (V : (c : Dev nD) → (b : Ref sig .tc) → Buf (Elt F) ((c : Thread nD τ).loc b))
variable (a : (pcfg11 (F := F)).Adm)

/-! ## The body as the pipeline calls it at a point -/

/-- Each window's current staging memref at point `t`, and its wholeness. -/
abbrev ms11_0 (t : Fin (cfg11 a).N) : Memref sig .tc .vmem S1x1x128 .f32 := spec11_0.stage ((cfg11 a).slots t 0)
abbrev hs11_0 (t : Fin (cfg11 a).N) : (ms11_0 a t).IsWhole := hstage11_0 (((cfg11 a).slots t 0).cast nbuf11_0)
abbrev ms11_1 (t : Fin (cfg11 a).N) : Memref sig .tc .vmem S1x1x128 .f32 := spec11_1.stage ((cfg11 a).slots t 1)
abbrev hs11_1 (t : Fin (cfg11 a).N) : (ms11_1 a t).IsWhole := hstage11_1 (((cfg11 a).slots t 1).cast nbuf11_1)
abbrev ms11_2 (t : Fin (cfg11 a).N) : Memref sig .tc .vmem S1x1x128 .f32 := spec11_2.stage ((cfg11 a).slots t 2)
abbrev hs11_2 (t : Fin (cfg11 a).N) : (ms11_2 a t).IsWhole := hstage11_2 (((cfg11 a).slots t 2).cast nbuf11_2)

/-- The kernel body at point `t`, on what the pipeline calls it with. -/
abbrev bodyAt11 (t : Fin (cfg11 a).N) : Prog (TpuEff nD τ sig (Elt F) Λ₀ .tc) PUnit :=
  cc11__gather_kernel (grid11.coords t) (Memref.whole main_v45) (Memref.isWhole_whole _) (Memref.whole main_v46) (Memref.isWhole_whole _)
    (ms11_0 a t) (hs11_0 a t) (ms11_1 a t) (hs11_1 a t) (ms11_2 a t) (hs11_2 a t)

/-! ## The windows' blocks -/

/-- Window `w`'s block at point `t`, read off its array as the region finds it: for the two gathered windows the
    row the tables' word at `t` names. -/
def iblk11 (c : Dev nD) (w : Fin (cfg11 a).W) (t : Fin (cfg11 a).N) :
    (((cfg11 a).win w).xblock ((cfg11 a).grid.coords t)).Idx → Elt F ((cfg11 a).win w).elt :=
  (((cfg11 a).win w).blk t).view.read (Elt F) (V c (Pipeline.arrRef spec11 w))

/-- An input window's current staging buffer holds its block at every point, fetched there or not. -/
theorem before11_0_of {c : Dev nD} (dat : Dat τ (Elt F) Unit ℕ (UR sig nD τ) ℕ (cfg11 a) c) (hA : dat.A 0 = V c (Pipeline.arrRef spec11 0))
    (hafter : ∀ t, dat.after 0 t = iblk11 V a c 0 t) (t : Fin (cfg11 a).N) (d) : dat.before 0 t d = iblk11 V a c 0 t :=
  (dat.before_in_eq_fetched 0 rfl (fun _ => rfl) (fun _ _ _ => rfl) (fun t => by rw [hafter]; unfold Dat.blockOf iblk11; rw [hA]; try rfl) t d).trans
    (by unfold Dat.fetched Dat.blockOf iblk11; rw [hA]; try rfl)

theorem before11_1_of {c : Dev nD} (dat : Dat τ (Elt F) Unit ℕ (UR sig nD τ) ℕ (cfg11 a) c) (hA : dat.A 1 = V c (Pipeline.arrRef spec11 1))
    (hafter : ∀ t, dat.after 1 t = iblk11 V a c 1 t) (t : Fin (cfg11 a).N) (d) : dat.before 1 t d = iblk11 V a c 1 t :=
  (dat.before_in_eq_fetched 1 rfl (fun _ => rfl) (fun _ _ _ => rfl) (fun t => by rw [hafter]; unfold Dat.blockOf iblk11; rw [hA]; try rfl) t d).trans
    (by unfold Dat.fetched Dat.blockOf iblk11; rw [hA]; try rfl)

/-! ## What the body leaves in the output window's buffer -/

/-- The one rectangle the body loads and stores through: the whole 1×1×128 block. -/
abbrev r11 : Rect S1x1x128 := Rect.unit (s := S1x1x128) ![0, 0, 0] S1x1x128.size inb_S1x1x128_S1x1x128_0_0_0

/-- The output block after the body, from the two gathered rows: its one store. -/
def out11_2 (x0 x1 : Vec F S1x1x128 .f32) : Vec F S1x1x128 .f32 :=
  View.canon [⟨r11, k11_pay1 (View.ld x0 r11) (View.ld x1 r11)⟩]

/-- The store covers the block. -/
theorem cover11_2 (p0 : Vec F S1x1x128 .f32) (y : S1x1x128.Idx) :
    ∃ pc ∈ ([⟨r11, p0⟩] : List (View.Piece (Elt F) S1x1x128 .f32)), y ∈ pc.1.set :=
  View.cover_of_tiled [⟨r11, p0⟩] S1x1x128.size (by rfl) y

/-! ## The body's run -/

set_option maxHeartbeats 1000000 in
/-- The body on whole staging memrefs, the two inputs' at contents `x0`, `x1` and the output's at anything, runs to the
    continuation holding the inputs as they were and the output at `out11_2 x0 x1`; the table memrefs are not touched. -/
theorem sound_kernel11 (c : Dev nD) (E : Set ℕ) (i : grid11.Coords)
    (arg1 : Memref sig .tc .smem S40000 .i32) (harg1 : arg1.IsWhole) (arg2 : Memref sig .tc .smem S40000 .i32) (harg2 : arg2.IsWhole)
    (arg3 : Memref sig .tc .vmem S1x1x128 .f32) (harg3 : arg3.IsWhole) (arg4 : Memref sig .tc .vmem S1x1x128 .f32) (harg4 : arg4.IsWhole)
    (arg5 : Memref sig .tc .vmem S1x1x128 .f32) (harg5 : arg5.IsWhole)
    (x0 x1 : Vec F S1x1x128 .f32) (K : PUnit → sProp 𝕄) :
    iprop(owns (c : Thread nD τ) arg3 fullShare x0 ∗ owns (c : Thread nD τ) arg4 fullShare x1 ∗ (∃ d, owns (c : Thread nD τ) arg5 fullShare d)
        ∗ (iprop(owns (c : Thread nD τ) arg3 fullShare x0 ∗ owns (c : Thread nD τ) arg4 fullShare x1
            ∗ owns (c : Thread nD τ) arg5 fullShare (out11_2 x0 x1)) -∗ K ⟨⟩))
      ⊢ wp frame (wpE (defs₀ (F := F)) Variants.none c none) E (cc11__gather_kernel i arg1 harg1 arg2 harg2 arg3 harg3 arg4 harg4 arg5 harg5) K := by
  simp only [cc11__gather_kernel_eq_skeleton]; unfold cc11__gather_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover11_2 _)

/-! ## The pipeline's proof data -/

/-- The proof data of this pipeline on core `c`: the arrays as the region finds them; after the body at point `t` each
    gathered input's buffer at its block and the output's at `out11_2` of the two; the invariant: the scoped rest, the
    generator register, and the two index tables held whole and untouched; nothing owed; full shares. -/
def dat11 (c : Dev nD) : Dat τ (Elt F) Unit ℕ (UR sig nD τ) ℕ (cfg11 a) c where
  A w := V c (Pipeline.arrRef spec11 w)
  after w t := match w with
    | ⟨0, _⟩ => iblk11 V a c 0 t
    | ⟨1, _⟩ => iblk11 V a c 1 t
    | ⟨2, _⟩ => out11_2 (iblk11 V a c 0 t) (iblk11 V a c 1 t)
  Φ _ := iprop(Pipeline.ΦA spec11 c ∗ Pipeline.prefHeld (Ix := Unit) (Name := ℕ) (U := UR sig nD τ) (Lvl := ℕ) pre11 c (fun _ => fullShare) a.1)
  q _ := fullShare
  owed _ := 0

theorem A_eq11 (c : Dev nD) (w : Fin (cfg11 a).W) : (dat11 V a c).A w = V c (Pipeline.arrRef spec11 w) := by
  dsimp only [dat11]

theorem after11_0 (c : Dev nD) (t : Fin (cfg11 a).N) : (dat11 V a c).after 0 t = iblk11 V a c 0 t := by dsimp only [dat11]; try rfl
theorem after11_1 (c : Dev nD) (t : Fin (cfg11 a).N) : (dat11 V a c).after 1 t = iblk11 V a c 1 t := by dsimp only [dat11]; try rfl
theorem after11_2 (c : Dev nD) (t : Fin (cfg11 a).N) : (dat11 V a c).after 2 t = out11_2 (iblk11 V a c 0 t) (iblk11 V a c 1 t) := by dsimp only [dat11]; try rfl

theorem before11_0 (c : Dev nD) (t : Fin (cfg11 a).N) (d) : (dat11 V a c).before 0 t d = iblk11 V a c 0 t :=
  before11_0_of V a (dat11 V a c) (A_eq11 V a c 0) (after11_0 V a c) t d
theorem before11_1 (c : Dev nD) (t : Fin (cfg11 a).N) (d) : (dat11 V a c).before 1 t d = iblk11 V a c 1 t :=
  before11_1_of V a (dat11 V a c) (A_eq11 V a c 1) (after11_1 V a c) t d

/-! ## The body obligation, at a generic point -/

def bodyPre11 (c : Dev nD) (t : Fin (cfg11 a).N) : sProp 𝕄 :=
  iprop((dat11 V a c).Φ t.castSucc ∗ (dat11 V a c).owesAt () t.castSucc
    ∗ (∃ d, owns (c : Thread nD τ) (ms11_0 a t) fullShare ((dat11 V a c).before 0 t d))
    ∗ (∃ d, owns (c : Thread nD τ) (ms11_1 a t) fullShare ((dat11 V a c).before 1 t d))
    ∗ (∃ d, owns (c : Thread nD τ) (ms11_2 a t) fullShare ((dat11 V a c).before 2 t d)))

def bodyPost11 (c : Dev nD) (t : Fin (cfg11 a).N) : sProp 𝕄 :=
  iprop((dat11 V a c).Φ t.succ ∗ (dat11 V a c).owesAt () t.succ
    ∗ owns (c : Thread nD τ) (ms11_0 a t) fullShare ((dat11 V a c).after 0 t)
    ∗ owns (c : Thread nD τ) (ms11_1 a t) fullShare ((dat11 V a c).after 1 t)
    ∗ owns (c : Thread nD τ) (ms11_2 a t) fullShare ((dat11 V a c).after 2 t))

/-- The body at any point: the inputs' memrefs hold their blocks, so the run applies; the invariant and the core's
    dues pass through unread. -/
theorem sound_body11 (c : Dev nD) (t : Fin (cfg11 a).N) :
    bodyPre11 V a c t ⊢ wp frame (wpE (defs₀ (F := F)) Variants.none c none) Set.univ (bodyAt11 a t) (fun _ => bodyPost11 V a c t) := by
  unfold bodyPre11 bodyPost11 bodyAt11
  simp only [before11_0, before11_1]
  rw [show (dat11 V a c).Φ t.succ = (dat11 V a c).Φ t.castSucc from rfl,
    show (dat11 V a c).owesAt () t.succ = (dat11 V a c).owesAt () t.castSucc from rfl,
    after11_0, after11_1, after11_2]
  iintro ⟨HΦ, Ho, ⟨%d0, H0⟩, ⟨%d1, H1⟩, ⟨%d2, H2⟩⟩
  iapply (sound_kernel11 c Set.univ _ _ _ _ _ _ _ _ _ _ _ (iblk11 V a c 0 t) (iblk11 V a c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation11 (c : Dev nD) : BodyObligation (dat11 (F := F) V a c) (defs₀ (F := F)) Variants.none () Set.univ := fun t => by
  rw [bigSep_W11, bigSep_W11]
  exact sound_body11 V a c t

end Region

end Cert.KernelIdeal.Hand

end
-- ==== Proof.KI.Tables11.lean ====
/-
  Edge chunk 11's index tables. The host slices 40000 consecutive words, from word 400000 on, out of each endpoint
  array (src, then dst) into scalar memory; the chunk's pipeline reads word t of each as the block row of its two
  gathered windows at grid point t. When every endpoint word is a node id (below 50000) each such row lies inside
  the 50000-row arrays: the tables' contents are admissible for the pipeline.
-/
import proofs.«413139_j22651657519351_3_alg».proof.Proof.Gen.KernelIdeal.Launch
import proofs.«413139_j22651657519351_3_alg».proof.Proof.Gen.KernelIdeal.Skeleton
import proofs.«413139_j22651657519351_3_alg».proof.Proof.Gen.KernelIdeal.Points
import proofs.«413139_j22651657519351_3_alg».proof.Proof.KI.Range
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Tables

variable (m : (ℓ : Loc nD τ sig) → Buf (Elt F) ℓ)

/-- The two tables' contents, read off the launch memory: the endpoint arrays' words 400000 … 400000 + 39999. -/
def tbl11 : pre11.Contents (Elt F) := fun k => match k with
  | ⟨0, _⟩ => (extractStridedSlice S40000 ![400000] (m (((0 : Dev nD) : Thread nD τ).loc main_arg1)) slices_S800000_S40000_400000 : (⟨S40000, .i32⟩ : BufTy).Contents (Elt F))
  | ⟨1, _⟩ => (extractStridedSlice S40000 ![400000] (m (((0 : Dev nD) : Thread nD τ).loc main_arg2)) slices_S800000_S40000_400000 : (⟨S40000, .i32⟩ : BufTy).Contents (Elt F))

/-- Tables whose every word is below the node count put every gathered block inside its array: row word + 1 ≤ 50000,
    the two unit axes and the 128 lanes exactly filled; float32 words transfer whole. -/
theorem ok11_of (pf : pre11.Contents (Elt F)) (h0 : ∀ j, ((pf 0 j : Elt F .i32) : BitVec 32).toNat < 50000)
    (h1 : ∀ j, ((pf 1 j : Elt F .i32) : BitVec 32).toNat < 50000) : ok11 pf := by
  refine ⟨fun i => ⟨fun a => ?_, Or.inl rfl⟩, fun i => ⟨fun a => ?_, Or.inl rfl⟩⟩
  · match a with
    | ⟨0, _⟩ =>
      show (BitVec.toNat (pf 0 _) + 1) * 1 ≤ 50000
      exact (Nat.mul_one _).le.trans (Nat.succ_le_of_lt (h0 _))
    | ⟨1, _⟩ => show (BitVec.toNat (0#32) + 1) * 1 ≤ 1; decide
    | ⟨2, _⟩ => show (BitVec.toNat (0#32) + 1) * 128 ≤ 128; decide
  · match a with
    | ⟨0, _⟩ =>
      show (BitVec.toNat (pf 1 _) + 1) * 1 ≤ 50000
      exact (Nat.mul_one _).le.trans (Nat.succ_le_of_lt (h1 _))
    | ⟨1, _⟩ => show (BitVec.toNat (0#32) + 1) * 1 ≤ 1; decide
    | ⟨2, _⟩ => show (BitVec.toNat (0#32) + 1) * 128 ≤ 128; decide

/-- The chunk's tables as admissible contents, when the endpoint words are node ids. -/
def a11 (hR : InRange m) : (pcfg11 (F := F)).Adm :=
  ⟨tbl11 m, ok11_of (tbl11 m) (fun j => (hR 0).1 _) (fun j => (hR 0).2 _)⟩

theorem a11_val (hR : InRange m) : (a11 m hR).1 = tbl11 m := rfl

end Tables

end Cert.KernelIdeal.Hand

end
-- ==== Proof.KI.Region12.lean ====
/-
  Edge chunk 12's gather kernel (twenty chunks of 40000 edges): at grid point t the pipeline fetches row src[t] of the
  re-laid projection hs2 and row dst[t] of hd2 (two blocks of 128 lanes, chosen by the prefetched index tables),
  the body stores (row + row) · c into the output block, which is written back as row t of the chunk's output.
  Here: what each window's staging buffer holds before and after the body at every point, for any contents V of the
  buffers at the region's entry and any admissible contents `a` of the two index tables, and the body's run.
  The tables ride through the region untouched: the body never reads them.
-/
import proofs.«413139_j22651657519351_3_alg».proof.Proof.Gen.KernelIdeal.Launch
import proofs.«413139_j22651657519351_3_alg».proof.Proof.Gen.KernelIdeal.Skeleton
import proofs.«413139_j22651657519351_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region

variable (V : (c : Dev nD) → (b : Ref sig .tc) → Buf (Elt F) ((c : Thread nD τ).loc b))
variable (a : (pcfg12 (F := F)).Adm)

/-! ## The body as the pipeline calls it at a point -/

/-- Each window's current staging memref at point `t`, and its wholeness. -/
abbrev ms12_0 (t : Fin (cfg12 a).N) : Memref sig .tc .vmem S1x1x128 .f32 := spec12_0.stage ((cfg12 a).slots t 0)
abbrev hs12_0 (t : Fin (cfg12 a).N) : (ms12_0 a t).IsWhole := hstage12_0 (((cfg12 a).slots t 0).cast nbuf12_0)
abbrev ms12_1 (t : Fin (cfg12 a).N) : Memref sig .tc .vmem S1x1x128 .f32 := spec12_1.stage ((cfg12 a).slots t 1)
abbrev hs12_1 (t : Fin (cfg12 a).N) : (ms12_1 a t).IsWhole := hstage12_1 (((cfg12 a).slots t 1).cast nbuf12_1)
abbrev ms12_2 (t : Fin (cfg12 a).N) : Memref sig .tc .vmem S1x1x128 .f32 := spec12_2.stage ((cfg12 a).slots t 2)
abbrev hs12_2 (t : Fin (cfg12 a).N) : (ms12_2 a t).IsWhole := hstage12_2 (((cfg12 a).slots t 2).cast nbuf12_2)

/-- The kernel body at point `t`, on what the pipeline calls it with. -/
abbrev bodyAt12 (t : Fin (cfg12 a).N) : Prog (TpuEff nD τ sig (Elt F) Λ₀ .tc) PUnit :=
  cc12__gather_kernel (grid12.coords t) (Memref.whole main_v49) (Memref.isWhole_whole _) (Memref.whole main_v50) (Memref.isWhole_whole _)
    (ms12_0 a t) (hs12_0 a t) (ms12_1 a t) (hs12_1 a t) (ms12_2 a t) (hs12_2 a t)

/-! ## The windows' blocks -/

/-- Window `w`'s block at point `t`, read off its array as the region finds it: for the two gathered windows the
    row the tables' word at `t` names. -/
def iblk12 (c : Dev nD) (w : Fin (cfg12 a).W) (t : Fin (cfg12 a).N) :
    (((cfg12 a).win w).xblock ((cfg12 a).grid.coords t)).Idx → Elt F ((cfg12 a).win w).elt :=
  (((cfg12 a).win w).blk t).view.read (Elt F) (V c (Pipeline.arrRef spec12 w))

/-- An input window's current staging buffer holds its block at every point, fetched there or not. -/
theorem before12_0_of {c : Dev nD} (dat : Dat τ (Elt F) Unit ℕ (UR sig nD τ) ℕ (cfg12 a) c) (hA : dat.A 0 = V c (Pipeline.arrRef spec12 0))
    (hafter : ∀ t, dat.after 0 t = iblk12 V a c 0 t) (t : Fin (cfg12 a).N) (d) : dat.before 0 t d = iblk12 V a c 0 t :=
  (dat.before_in_eq_fetched 0 rfl (fun _ => rfl) (fun _ _ _ => rfl) (fun t => by rw [hafter]; unfold Dat.blockOf iblk12; rw [hA]; try rfl) t d).trans
    (by unfold Dat.fetched Dat.blockOf iblk12; rw [hA]; try rfl)

theorem before12_1_of {c : Dev nD} (dat : Dat τ (Elt F) Unit ℕ (UR sig nD τ) ℕ (cfg12 a) c) (hA : dat.A 1 = V c (Pipeline.arrRef spec12 1))
    (hafter : ∀ t, dat.after 1 t = iblk12 V a c 1 t) (t : Fin (cfg12 a).N) (d) : dat.before 1 t d = iblk12 V a c 1 t :=
  (dat.before_in_eq_fetched 1 rfl (fun _ => rfl) (fun _ _ _ => rfl) (fun t => by rw [hafter]; unfold Dat.blockOf iblk12; rw [hA]; try rfl) t d).trans
    (by unfold Dat.fetched Dat.blockOf iblk12; rw [hA]; try rfl)

/-! ## What the body leaves in the output window's buffer -/

/-- The one rectangle the body loads and stores through: the whole 1×1×128 block. -/
abbrev r12 : Rect S1x1x128 := Rect.unit (s := S1x1x128) ![0, 0, 0] S1x1x128.size inb_S1x1x128_S1x1x128_0_0_0

/-- The output block after the body, from the two gathered rows: its one store. -/
def out12_2 (x0 x1 : Vec F S1x1x128 .f32) : Vec F S1x1x128 .f32 :=
  View.canon [⟨r12, k12_pay1 (View.ld x0 r12) (View.ld x1 r12)⟩]

/-- The store covers the block. -/
theorem cover12_2 (p0 : Vec F S1x1x128 .f32) (y : S1x1x128.Idx) :
    ∃ pc ∈ ([⟨r12, p0⟩] : List (View.Piece (Elt F) S1x1x128 .f32)), y ∈ pc.1.set :=
  View.cover_of_tiled [⟨r12, p0⟩] S1x1x128.size (by rfl) y

/-! ## The body's run -/

set_option maxHeartbeats 1000000 in
/-- The body on whole staging memrefs, the two inputs' at contents `x0`, `x1` and the output's at anything, runs to the
    continuation holding the inputs as they were and the output at `out12_2 x0 x1`; the table memrefs are not touched. -/
theorem sound_kernel12 (c : Dev nD) (E : Set ℕ) (i : grid12.Coords)
    (arg1 : Memref sig .tc .smem S40000 .i32) (harg1 : arg1.IsWhole) (arg2 : Memref sig .tc .smem S40000 .i32) (harg2 : arg2.IsWhole)
    (arg3 : Memref sig .tc .vmem S1x1x128 .f32) (harg3 : arg3.IsWhole) (arg4 : Memref sig .tc .vmem S1x1x128 .f32) (harg4 : arg4.IsWhole)
    (arg5 : Memref sig .tc .vmem S1x1x128 .f32) (harg5 : arg5.IsWhole)
    (x0 x1 : Vec F S1x1x128 .f32) (K : PUnit → sProp 𝕄) :
    iprop(owns (c : Thread nD τ) arg3 fullShare x0 ∗ owns (c : Thread nD τ) arg4 fullShare x1 ∗ (∃ d, owns (c : Thread nD τ) arg5 fullShare d)
        ∗ (iprop(owns (c : Thread nD τ) arg3 fullShare x0 ∗ owns (c : Thread nD τ) arg4 fullShare x1
            ∗ owns (c : Thread nD τ) arg5 fullShare (out12_2 x0 x1)) -∗ K ⟨⟩))
      ⊢ wp frame (wpE (defs₀ (F := F)) Variants.none c none) E (cc12__gather_kernel i arg1 harg1 arg2 harg2 arg3 harg3 arg4 harg4 arg5 harg5) K := by
  simp only [cc12__gather_kernel_eq_skeleton]; unfold cc12__gather_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover12_2 _)

/-! ## The pipeline's proof data -/

/-- The proof data of this pipeline on core `c`: the arrays as the region finds them; after the body at point `t` each
    gathered input's buffer at its block and the output's at `out12_2` of the two; the invariant: the scoped rest, the
    generator register, and the two index tables held whole and untouched; nothing owed; full shares. -/
def dat12 (c : Dev nD) : Dat τ (Elt F) Unit ℕ (UR sig nD τ) ℕ (cfg12 a) c where
  A w := V c (Pipeline.arrRef spec12 w)
  after w t := match w with
    | ⟨0, _⟩ => iblk12 V a c 0 t
    | ⟨1, _⟩ => iblk12 V a c 1 t
    | ⟨2, _⟩ => out12_2 (iblk12 V a c 0 t) (iblk12 V a c 1 t)
  Φ _ := iprop(Pipeline.ΦA spec12 c ∗ Pipeline.prefHeld (Ix := Unit) (Name := ℕ) (U := UR sig nD τ) (Lvl := ℕ) pre12 c (fun _ => fullShare) a.1)
  q _ := fullShare
  owed _ := 0

theorem A_eq12 (c : Dev nD) (w : Fin (cfg12 a).W) : (dat12 V a c).A w = V c (Pipeline.arrRef spec12 w) := by
  dsimp only [dat12]

theorem after12_0 (c : Dev nD) (t : Fin (cfg12 a).N) : (dat12 V a c).after 0 t = iblk12 V a c 0 t := by dsimp only [dat12]; try rfl
theorem after12_1 (c : Dev nD) (t : Fin (cfg12 a).N) : (dat12 V a c).after 1 t = iblk12 V a c 1 t := by dsimp only [dat12]; try rfl
theorem after12_2 (c : Dev nD) (t : Fin (cfg12 a).N) : (dat12 V a c).after 2 t = out12_2 (iblk12 V a c 0 t) (iblk12 V a c 1 t) := by dsimp only [dat12]; try rfl

theorem before12_0 (c : Dev nD) (t : Fin (cfg12 a).N) (d) : (dat12 V a c).before 0 t d = iblk12 V a c 0 t :=
  before12_0_of V a (dat12 V a c) (A_eq12 V a c 0) (after12_0 V a c) t d
theorem before12_1 (c : Dev nD) (t : Fin (cfg12 a).N) (d) : (dat12 V a c).before 1 t d = iblk12 V a c 1 t :=
  before12_1_of V a (dat12 V a c) (A_eq12 V a c 1) (after12_1 V a c) t d

/-! ## The body obligation, at a generic point -/

def bodyPre12 (c : Dev nD) (t : Fin (cfg12 a).N) : sProp 𝕄 :=
  iprop((dat12 V a c).Φ t.castSucc ∗ (dat12 V a c).owesAt () t.castSucc
    ∗ (∃ d, owns (c : Thread nD τ) (ms12_0 a t) fullShare ((dat12 V a c).before 0 t d))
    ∗ (∃ d, owns (c : Thread nD τ) (ms12_1 a t) fullShare ((dat12 V a c).before 1 t d))
    ∗ (∃ d, owns (c : Thread nD τ) (ms12_2 a t) fullShare ((dat12 V a c).before 2 t d)))

def bodyPost12 (c : Dev nD) (t : Fin (cfg12 a).N) : sProp 𝕄 :=
  iprop((dat12 V a c).Φ t.succ ∗ (dat12 V a c).owesAt () t.succ
    ∗ owns (c : Thread nD τ) (ms12_0 a t) fullShare ((dat12 V a c).after 0 t)
    ∗ owns (c : Thread nD τ) (ms12_1 a t) fullShare ((dat12 V a c).after 1 t)
    ∗ owns (c : Thread nD τ) (ms12_2 a t) fullShare ((dat12 V a c).after 2 t))

/-- The body at any point: the inputs' memrefs hold their blocks, so the run applies; the invariant and the core's
    dues pass through unread. -/
theorem sound_body12 (c : Dev nD) (t : Fin (cfg12 a).N) :
    bodyPre12 V a c t ⊢ wp frame (wpE (defs₀ (F := F)) Variants.none c none) Set.univ (bodyAt12 a t) (fun _ => bodyPost12 V a c t) := by
  unfold bodyPre12 bodyPost12 bodyAt12
  simp only [before12_0, before12_1]
  rw [show (dat12 V a c).Φ t.succ = (dat12 V a c).Φ t.castSucc from rfl,
    show (dat12 V a c).owesAt () t.succ = (dat12 V a c).owesAt () t.castSucc from rfl,
    after12_0, after12_1, after12_2]
  iintro ⟨HΦ, Ho, ⟨%d0, H0⟩, ⟨%d1, H1⟩, ⟨%d2, H2⟩⟩
  iapply (sound_kernel12 c Set.univ _ _ _ _ _ _ _ _ _ _ _ (iblk12 V a c 0 t) (iblk12 V a c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation12 (c : Dev nD) : BodyObligation (dat12 (F := F) V a c) (defs₀ (F := F)) Variants.none () Set.univ := fun t => by
  rw [bigSep_W12, bigSep_W12]
  exact sound_body12 V a c t

end Region

end Cert.KernelIdeal.Hand

end
-- ==== Proof.KI.Tables12.lean ====
/-
  Edge chunk 12's index tables. The host slices 40000 consecutive words, from word 440000 on, out of each endpoint
  array (src, then dst) into scalar memory; the chunk's pipeline reads word t of each as the block row of its two
  gathered windows at grid point t. When every endpoint word is a node id (below 50000) each such row lies inside
  the 50000-row arrays: the tables' contents are admissible for the pipeline.
-/
import proofs.«413139_j22651657519351_3_alg».proof.Proof.Gen.KernelIdeal.Launch
import proofs.«413139_j22651657519351_3_alg».proof.Proof.Gen.KernelIdeal.Skeleton
import proofs.«413139_j22651657519351_3_alg».proof.Proof.Gen.KernelIdeal.Points
import proofs.«413139_j22651657519351_3_alg».proof.Proof.KI.Range
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Tables

variable (m : (ℓ : Loc nD τ sig) → Buf (Elt F) ℓ)

/-- The two tables' contents, read off the launch memory: the endpoint arrays' words 440000 … 440000 + 39999. -/
def tbl12 : pre12.Contents (Elt F) := fun k => match k with
  | ⟨0, _⟩ => (extractStridedSlice S40000 ![440000] (m (((0 : Dev nD) : Thread nD τ).loc main_arg1)) slices_S800000_S40000_440000 : (⟨S40000, .i32⟩ : BufTy).Contents (Elt F))
  | ⟨1, _⟩ => (extractStridedSlice S40000 ![440000] (m (((0 : Dev nD) : Thread nD τ).loc main_arg2)) slices_S800000_S40000_440000 : (⟨S40000, .i32⟩ : BufTy).Contents (Elt F))

/-- Tables whose every word is below the node count put every gathered block inside its array: row word + 1 ≤ 50000,
    the two unit axes and the 128 lanes exactly filled; float32 words transfer whole. -/
theorem ok12_of (pf : pre12.Contents (Elt F)) (h0 : ∀ j, ((pf 0 j : Elt F .i32) : BitVec 32).toNat < 50000)
    (h1 : ∀ j, ((pf 1 j : Elt F .i32) : BitVec 32).toNat < 50000) : ok12 pf := by
  refine ⟨fun i => ⟨fun a => ?_, Or.inl rfl⟩, fun i => ⟨fun a => ?_, Or.inl rfl⟩⟩
  · match a with
    | ⟨0, _⟩ =>
      show (BitVec.toNat (pf 0 _) + 1) * 1 ≤ 50000
      exact (Nat.mul_one _).le.trans (Nat.succ_le_of_lt (h0 _))
    | ⟨1, _⟩ => show (BitVec.toNat (0#32) + 1) * 1 ≤ 1; decide
    | ⟨2, _⟩ => show (BitVec.toNat (0#32) + 1) * 128 ≤ 128; decide
  · match a with
    | ⟨0, _⟩ =>
      show (BitVec.toNat (pf 1 _) + 1) * 1 ≤ 50000
      exact (Nat.mul_one _).le.trans (Nat.succ_le_of_lt (h1 _))
    | ⟨1, _⟩ => show (BitVec.toNat (0#32) + 1) * 1 ≤ 1; decide
    | ⟨2, _⟩ => show (BitVec.toNat (0#32) + 1) * 128 ≤ 128; decide

/-- The chunk's tables as admissible contents, when the endpoint words are node ids. -/
def a12 (hR : InRange m) : (pcfg12 (F := F)).Adm :=
  ⟨tbl12 m, ok12_of (tbl12 m) (fun j => (hR 0).1 _) (fun j => (hR 0).2 _)⟩

theorem a12_val (hR : InRange m) : (a12 m hR).1 = tbl12 m := rfl

end Tables

end Cert.KernelIdeal.Hand

end
-- ==== Proof.KI.Region13.lean ====
/-
  Edge chunk 13's gather kernel (twenty chunks of 40000 edges): at grid point t the pipeline fetches row src[t] of the
  re-laid projection hs2 and row dst[t] of hd2 (two blocks of 128 lanes, chosen by the prefetched index tables),
  the body stores (row + row) · c into the output block, which is written back as row t of the chunk's output.
  Here: what each window's staging buffer holds before and after the body at every point, for any contents V of the
  buffers at the region's entry and any admissible contents `a` of the two index tables, and the body's run.
  The tables ride through the region untouched: the body never reads them.
-/
import proofs.«413139_j22651657519351_3_alg».proof.Proof.Gen.KernelIdeal.Launch
import proofs.«413139_j22651657519351_3_alg».proof.Proof.Gen.KernelIdeal.Skeleton
import proofs.«413139_j22651657519351_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region

variable (V : (c : Dev nD) → (b : Ref sig .tc) → Buf (Elt F) ((c : Thread nD τ).loc b))
variable (a : (pcfg13 (F := F)).Adm)

/-! ## The body as the pipeline calls it at a point -/

/-- Each window's current staging memref at point `t`, and its wholeness. -/
abbrev ms13_0 (t : Fin (cfg13 a).N) : Memref sig .tc .vmem S1x1x128 .f32 := spec13_0.stage ((cfg13 a).slots t 0)
abbrev hs13_0 (t : Fin (cfg13 a).N) : (ms13_0 a t).IsWhole := hstage13_0 (((cfg13 a).slots t 0).cast nbuf13_0)
abbrev ms13_1 (t : Fin (cfg13 a).N) : Memref sig .tc .vmem S1x1x128 .f32 := spec13_1.stage ((cfg13 a).slots t 1)
abbrev hs13_1 (t : Fin (cfg13 a).N) : (ms13_1 a t).IsWhole := hstage13_1 (((cfg13 a).slots t 1).cast nbuf13_1)
abbrev ms13_2 (t : Fin (cfg13 a).N) : Memref sig .tc .vmem S1x1x128 .f32 := spec13_2.stage ((cfg13 a).slots t 2)
abbrev hs13_2 (t : Fin (cfg13 a).N) : (ms13_2 a t).IsWhole := hstage13_2 (((cfg13 a).slots t 2).cast nbuf13_2)

/-- The kernel body at point `t`, on what the pipeline calls it with. -/
abbrev bodyAt13 (t : Fin (cfg13 a).N) : Prog (TpuEff nD τ sig (Elt F) Λ₀ .tc) PUnit :=
  cc13__gather_kernel (grid13.coords t) (Memref.whole main_v53) (Memref.isWhole_whole _) (Memref.whole main_v54) (Memref.isWhole_whole _)
    (ms13_0 a t) (hs13_0 a t) (ms13_1 a t) (hs13_1 a t) (ms13_2 a t) (hs13_2 a t)

/-! ## The windows' blocks -/

/-- Window `w`'s block at point `t`, read off its array as the region finds it: for the two gathered windows the
    row the tables' word at `t` names. -/
def iblk13 (c : Dev nD) (w : Fin (cfg13 a).W) (t : Fin (cfg13 a).N) :
    (((cfg13 a).win w).xblock ((cfg13 a).grid.coords t)).Idx → Elt F ((cfg13 a).win w).elt :=
  (((cfg13 a).win w).blk t).view.read (Elt F) (V c (Pipeline.arrRef spec13 w))

/-- An input window's current staging buffer holds its block at every point, fetched there or not. -/
theorem before13_0_of {c : Dev nD} (dat : Dat τ (Elt F) Unit ℕ (UR sig nD τ) ℕ (cfg13 a) c) (hA : dat.A 0 = V c (Pipeline.arrRef spec13 0))
    (hafter : ∀ t, dat.after 0 t = iblk13 V a c 0 t) (t : Fin (cfg13 a).N) (d) : dat.before 0 t d = iblk13 V a c 0 t :=
  (dat.before_in_eq_fetched 0 rfl (fun _ => rfl) (fun _ _ _ => rfl) (fun t => by rw [hafter]; unfold Dat.blockOf iblk13; rw [hA]; try rfl) t d).trans
    (by unfold Dat.fetched Dat.blockOf iblk13; rw [hA]; try rfl)

theorem before13_1_of {c : Dev nD} (dat : Dat τ (Elt F) Unit ℕ (UR sig nD τ) ℕ (cfg13 a) c) (hA : dat.A 1 = V c (Pipeline.arrRef spec13 1))
    (hafter : ∀ t, dat.after 1 t = iblk13 V a c 1 t) (t : Fin (cfg13 a).N) (d) : dat.before 1 t d = iblk13 V a c 1 t :=
  (dat.before_in_eq_fetched 1 rfl (fun _ => rfl) (fun _ _ _ => rfl) (fun t => by rw [hafter]; unfold Dat.blockOf iblk13; rw [hA]; try rfl) t d).trans
    (by unfold Dat.fetched Dat.blockOf iblk13; rw [hA]; try rfl)

/-! ## What the body leaves in the output window's buffer -/

/-- The one rectangle the body loads and stores through: the whole 1×1×128 block. -/
abbrev r13 : Rect S1x1x128 := Rect.unit (s := S1x1x128) ![0, 0, 0] S1x1x128.size inb_S1x1x128_S1x1x128_0_0_0

/-- The output block after the body, from the two gathered rows: its one store. -/
def out13_2 (x0 x1 : Vec F S1x1x128 .f32) : Vec F S1x1x128 .f32 :=
  View.canon [⟨r13, k13_pay1 (View.ld x0 r13) (View.ld x1 r13)⟩]

/-- The store covers the block. -/
theorem cover13_2 (p0 : Vec F S1x1x128 .f32) (y : S1x1x128.Idx) :
    ∃ pc ∈ ([⟨r13, p0⟩] : List (View.Piece (Elt F) S1x1x128 .f32)), y ∈ pc.1.set :=
  View.cover_of_tiled [⟨r13, p0⟩] S1x1x128.size (by rfl) y

/-! ## The body's run -/

set_option maxHeartbeats 1000000 in
/-- The body on whole staging memrefs, the two inputs' at contents `x0`, `x1` and the output's at anything, runs to the
    continuation holding the inputs as they were and the output at `out13_2 x0 x1`; the table memrefs are not touched. -/
theorem sound_kernel13 (c : Dev nD) (E : Set ℕ) (i : grid13.Coords)
    (arg1 : Memref sig .tc .smem S40000 .i32) (harg1 : arg1.IsWhole) (arg2 : Memref sig .tc .smem S40000 .i32) (harg2 : arg2.IsWhole)
    (arg3 : Memref sig .tc .vmem S1x1x128 .f32) (harg3 : arg3.IsWhole) (arg4 : Memref sig .tc .vmem S1x1x128 .f32) (harg4 : arg4.IsWhole)
    (arg5 : Memref sig .tc .vmem S1x1x128 .f32) (harg5 : arg5.IsWhole)
    (x0 x1 : Vec F S1x1x128 .f32) (K : PUnit → sProp 𝕄) :
    iprop(owns (c : Thread nD τ) arg3 fullShare x0 ∗ owns (c : Thread nD τ) arg4 fullShare x1 ∗ (∃ d, owns (c : Thread nD τ) arg5 fullShare d)
        ∗ (iprop(owns (c : Thread nD τ) arg3 fullShare x0 ∗ owns (c : Thread nD τ) arg4 fullShare x1
            ∗ owns (c : Thread nD τ) arg5 fullShare (out13_2 x0 x1)) -∗ K ⟨⟩))
      ⊢ wp frame (wpE (defs₀ (F := F)) Variants.none c none) E (cc13__gather_kernel i arg1 harg1 arg2 harg2 arg3 harg3 arg4 harg4 arg5 harg5) K := by
  simp only [cc13__gather_kernel_eq_skeleton]; unfold cc13__gather_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover13_2 _)

/-! ## The pipeline's proof data -/

/-- The proof data of this pipeline on core `c`: the arrays as the region finds them; after the body at point `t` each
    gathered input's buffer at its block and the output's at `out13_2` of the two; the invariant: the scoped rest, the
    generator register, and the two index tables held whole and untouched; nothing owed; full shares. -/
def dat13 (c : Dev nD) : Dat τ (Elt F) Unit ℕ (UR sig nD τ) ℕ (cfg13 a) c where
  A w := V c (Pipeline.arrRef spec13 w)
  after w t := match w with
    | ⟨0, _⟩ => iblk13 V a c 0 t
    | ⟨1, _⟩ => iblk13 V a c 1 t
    | ⟨2, _⟩ => out13_2 (iblk13 V a c 0 t) (iblk13 V a c 1 t)
  Φ _ := iprop(Pipeline.ΦA spec13 c ∗ Pipeline.prefHeld (Ix := Unit) (Name := ℕ) (U := UR sig nD τ) (Lvl := ℕ) pre13 c (fun _ => fullShare) a.1)
  q _ := fullShare
  owed _ := 0

theorem A_eq13 (c : Dev nD) (w : Fin (cfg13 a).W) : (dat13 V a c).A w = V c (Pipeline.arrRef spec13 w) := by
  dsimp only [dat13]

theorem after13_0 (c : Dev nD) (t : Fin (cfg13 a).N) : (dat13 V a c).after 0 t = iblk13 V a c 0 t := by dsimp only [dat13]; try rfl
theorem after13_1 (c : Dev nD) (t : Fin (cfg13 a).N) : (dat13 V a c).after 1 t = iblk13 V a c 1 t := by dsimp only [dat13]; try rfl
theorem after13_2 (c : Dev nD) (t : Fin (cfg13 a).N) : (dat13 V a c).after 2 t = out13_2 (iblk13 V a c 0 t) (iblk13 V a c 1 t) := by dsimp only [dat13]; try rfl

theorem before13_0 (c : Dev nD) (t : Fin (cfg13 a).N) (d) : (dat13 V a c).before 0 t d = iblk13 V a c 0 t :=
  before13_0_of V a (dat13 V a c) (A_eq13 V a c 0) (after13_0 V a c) t d
theorem before13_1 (c : Dev nD) (t : Fin (cfg13 a).N) (d) : (dat13 V a c).before 1 t d = iblk13 V a c 1 t :=
  before13_1_of V a (dat13 V a c) (A_eq13 V a c 1) (after13_1 V a c) t d

/-! ## The body obligation, at a generic point -/

def bodyPre13 (c : Dev nD) (t : Fin (cfg13 a).N) : sProp 𝕄 :=
  iprop((dat13 V a c).Φ t.castSucc ∗ (dat13 V a c).owesAt () t.castSucc
    ∗ (∃ d, owns (c : Thread nD τ) (ms13_0 a t) fullShare ((dat13 V a c).before 0 t d))
    ∗ (∃ d, owns (c : Thread nD τ) (ms13_1 a t) fullShare ((dat13 V a c).before 1 t d))
    ∗ (∃ d, owns (c : Thread nD τ) (ms13_2 a t) fullShare ((dat13 V a c).before 2 t d)))

def bodyPost13 (c : Dev nD) (t : Fin (cfg13 a).N) : sProp 𝕄 :=
  iprop((dat13 V a c).Φ t.succ ∗ (dat13 V a c).owesAt () t.succ
    ∗ owns (c : Thread nD τ) (ms13_0 a t) fullShare ((dat13 V a c).after 0 t)
    ∗ owns (c : Thread nD τ) (ms13_1 a t) fullShare ((dat13 V a c).after 1 t)
    ∗ owns (c : Thread nD τ) (ms13_2 a t) fullShare ((dat13 V a c).after 2 t))

/-- The body at any point: the inputs' memrefs hold their blocks, so the run applies; the invariant and the core's
    dues pass through unread. -/
theorem sound_body13 (c : Dev nD) (t : Fin (cfg13 a).N) :
    bodyPre13 V a c t ⊢ wp frame (wpE (defs₀ (F := F)) Variants.none c none) Set.univ (bodyAt13 a t) (fun _ => bodyPost13 V a c t) := by
  unfold bodyPre13 bodyPost13 bodyAt13
  simp only [before13_0, before13_1]
  rw [show (dat13 V a c).Φ t.succ = (dat13 V a c).Φ t.castSucc from rfl,
    show (dat13 V a c).owesAt () t.succ = (dat13 V a c).owesAt () t.castSucc from rfl,
    after13_0, after13_1, after13_2]
  iintro ⟨HΦ, Ho, ⟨%d0, H0⟩, ⟨%d1, H1⟩, ⟨%d2, H2⟩⟩
  iapply (sound_kernel13 c Set.univ _ _ _ _ _ _ _ _ _ _ _ (iblk13 V a c 0 t) (iblk13 V a c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation13 (c : Dev nD) : BodyObligation (dat13 (F := F) V a c) (defs₀ (F := F)) Variants.none () Set.univ := fun t => by
  rw [bigSep_W13, bigSep_W13]
  exact sound_body13 V a c t

end Region

end Cert.KernelIdeal.Hand

end
-- ==== Proof.KI.Tables13.lean ====
/-
  Edge chunk 13's index tables. The host slices 40000 consecutive words, from word 480000 on, out of each endpoint
  array (src, then dst) into scalar memory; the chunk's pipeline reads word t of each as the block row of its two
  gathered windows at grid point t. When every endpoint word is a node id (below 50000) each such row lies inside
  the 50000-row arrays: the tables' contents are admissible for the pipeline.
-/
import proofs.«413139_j22651657519351_3_alg».proof.Proof.Gen.KernelIdeal.Launch
import proofs.«413139_j22651657519351_3_alg».proof.Proof.Gen.KernelIdeal.Skeleton
import proofs.«413139_j22651657519351_3_alg».proof.Proof.Gen.KernelIdeal.Points
import proofs.«413139_j22651657519351_3_alg».proof.Proof.KI.Range
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Tables

variable (m : (ℓ : Loc nD τ sig) → Buf (Elt F) ℓ)

/-- The two tables' contents, read off the launch memory: the endpoint arrays' words 480000 … 480000 + 39999. -/
def tbl13 : pre13.Contents (Elt F) := fun k => match k with
  | ⟨0, _⟩ => (extractStridedSlice S40000 ![480000] (m (((0 : Dev nD) : Thread nD τ).loc main_arg1)) slices_S800000_S40000_480000 : (⟨S40000, .i32⟩ : BufTy).Contents (Elt F))
  | ⟨1, _⟩ => (extractStridedSlice S40000 ![480000] (m (((0 : Dev nD) : Thread nD τ).loc main_arg2)) slices_S800000_S40000_480000 : (⟨S40000, .i32⟩ : BufTy).Contents (Elt F))

/-- Tables whose every word is below the node count put every gathered block inside its array: row word + 1 ≤ 50000,
    the two unit axes and the 128 lanes exactly filled; float32 words transfer whole. -/
theorem ok13_of (pf : pre13.Contents (Elt F)) (h0 : ∀ j, ((pf 0 j : Elt F .i32) : BitVec 32).toNat < 50000)
    (h1 : ∀ j, ((pf 1 j : Elt F .i32) : BitVec 32).toNat < 50000) : ok13 pf := by
  refine ⟨fun i => ⟨fun a => ?_, Or.inl rfl⟩, fun i => ⟨fun a => ?_, Or.inl rfl⟩⟩
  · match a with
    | ⟨0, _⟩ =>
      show (BitVec.toNat (pf 0 _) + 1) * 1 ≤ 50000
      exact (Nat.mul_one _).le.trans (Nat.succ_le_of_lt (h0 _))
    | ⟨1, _⟩ => show (BitVec.toNat (0#32) + 1) * 1 ≤ 1; decide
    | ⟨2, _⟩ => show (BitVec.toNat (0#32) + 1) * 128 ≤ 128; decide
  · match a with
    | ⟨0, _⟩ =>
      show (BitVec.toNat (pf 1 _) + 1) * 1 ≤ 50000
      exact (Nat.mul_one _).le.trans (Nat.succ_le_of_lt (h1 _))
    | ⟨1, _⟩ => show (BitVec.toNat (0#32) + 1) * 1 ≤ 1; decide
    | ⟨2, _⟩ => show (BitVec.toNat (0#32) + 1) * 128 ≤ 128; decide

/-- The chunk's tables as admissible contents, when the endpoint words are node ids. -/
def a13 (hR : InRange m) : (pcfg13 (F := F)).Adm :=
  ⟨tbl13 m, ok13_of (tbl13 m) (fun j => (hR 0).1 _) (fun j => (hR 0).2 _)⟩

theorem a13_val (hR : InRange m) : (a13 m hR).1 = tbl13 m := rfl

end Tables

end Cert.KernelIdeal.Hand

end
-- ==== Proof.KI.Region14.lean ====
/-
  Edge chunk 14's gather kernel (twenty chunks of 40000 edges): at grid point t the pipeline fetches row src[t] of the
  re-laid projection hs2 and row dst[t] of hd2 (two blocks of 128 lanes, chosen by the prefetched index tables),
  the body stores (row + row) · c into the output block, which is written back as row t of the chunk's output.
  Here: what each window's staging buffer holds before and after the body at every point, for any contents V of the
  buffers at the region's entry and any admissible contents `a` of the two index tables, and the body's run.
  The tables ride through the region untouched: the body never reads them.
-/
import proofs.«413139_j22651657519351_3_alg».proof.Proof.Gen.KernelIdeal.Launch
import proofs.«413139_j22651657519351_3_alg».proof.Proof.Gen.KernelIdeal.Skeleton
import proofs.«413139_j22651657519351_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region

variable (V : (c : Dev nD) → (b : Ref sig .tc) → Buf (Elt F) ((c : Thread nD τ).loc b))
variable (a : (pcfg14 (F := F)).Adm)

/-! ## The body as the pipeline calls it at a point -/

/-- Each window's current staging memref at point `t`, and its wholeness. -/
abbrev ms14_0 (t : Fin (cfg14 a).N) : Memref sig .tc .vmem S1x1x128 .f32 := spec14_0.stage ((cfg14 a).slots t 0)
abbrev hs14_0 (t : Fin (cfg14 a).N) : (ms14_0 a t).IsWhole := hstage14_0 (((cfg14 a).slots t 0).cast nbuf14_0)
abbrev ms14_1 (t : Fin (cfg14 a).N) : Memref sig .tc .vmem S1x1x128 .f32 := spec14_1.stage ((cfg14 a).slots t 1)
abbrev hs14_1 (t : Fin (cfg14 a).N) : (ms14_1 a t).IsWhole := hstage14_1 (((cfg14 a).slots t 1).cast nbuf14_1)
abbrev ms14_2 (t : Fin (cfg14 a).N) : Memref sig .tc .vmem S1x1x128 .f32 := spec14_2.stage ((cfg14 a).slots t 2)
abbrev hs14_2 (t : Fin (cfg14 a).N) : (ms14_2 a t).IsWhole := hstage14_2 (((cfg14 a).slots t 2).cast nbuf14_2)

/-- The kernel body at point `t`, on what the pipeline calls it with. -/
abbrev bodyAt14 (t : Fin (cfg14 a).N) : Prog (TpuEff nD τ sig (Elt F) Λ₀ .tc) PUnit :=
  cc14__gather_kernel (grid14.coords t) (Memref.whole main_v57) (Memref.isWhole_whole _) (Memref.whole main_v58) (Memref.isWhole_whole _)
    (ms14_0 a t) (hs14_0 a t) (ms14_1 a t) (hs14_1 a t) (ms14_2 a t) (hs14_2 a t)

/-! ## The windows' blocks -/

/-- Window `w`'s block at point `t`, read off its array as the region finds it: for the two gathered windows the
    row the tables' word at `t` names. -/
def iblk14 (c : Dev nD) (w : Fin (cfg14 a).W) (t : Fin (cfg14 a).N) :
    (((cfg14 a).win w).xblock ((cfg14 a).grid.coords t)).Idx → Elt F ((cfg14 a).win w).elt :=
  (((cfg14 a).win w).blk t).view.read (Elt F) (V c (Pipeline.arrRef spec14 w))

/-- An input window's current staging buffer holds its block at every point, fetched there or not. -/
theorem before14_0_of {c : Dev nD} (dat : Dat τ (Elt F) Unit ℕ (UR sig nD τ) ℕ (cfg14 a) c) (hA : dat.A 0 = V c (Pipeline.arrRef spec14 0))
    (hafter : ∀ t, dat.after 0 t = iblk14 V a c 0 t) (t : Fin (cfg14 a).N) (d) : dat.before 0 t d = iblk14 V a c 0 t :=
  (dat.before_in_eq_fetched 0 rfl (fun _ => rfl) (fun _ _ _ => rfl) (fun t => by rw [hafter]; unfold Dat.blockOf iblk14; rw [hA]; try rfl) t d).trans
    (by unfold Dat.fetched Dat.blockOf iblk14; rw [hA]; try rfl)

theorem before14_1_of {c : Dev nD} (dat : Dat τ (Elt F) Unit ℕ (UR sig nD τ) ℕ (cfg14 a) c) (hA : dat.A 1 = V c (Pipeline.arrRef spec14 1))
    (hafter : ∀ t, dat.after 1 t = iblk14 V a c 1 t) (t : Fin (cfg14 a).N) (d) : dat.before 1 t d = iblk14 V a c 1 t :=
  (dat.before_in_eq_fetched 1 rfl (fun _ => rfl) (fun _ _ _ => rfl) (fun t => by rw [hafter]; unfold Dat.blockOf iblk14; rw [hA]; try rfl) t d).trans
    (by unfold Dat.fetched Dat.blockOf iblk14; rw [hA]; try rfl)

/-! ## What the body leaves in the output window's buffer -/

/-- The one rectangle the body loads and stores through: the whole 1×1×128 block. -/
abbrev r14 : Rect S1x1x128 := Rect.unit (s := S1x1x128) ![0, 0, 0] S1x1x128.size inb_S1x1x128_S1x1x128_0_0_0

/-- The output block after the body, from the two gathered rows: its one store. -/
def out14_2 (x0 x1 : Vec F S1x1x128 .f32) : Vec F S1x1x128 .f32 :=
  View.canon [⟨r14, k14_pay1 (View.ld x0 r14) (View.ld x1 r14)⟩]

/-- The store covers the block. -/
theorem cover14_2 (p0 : Vec F S1x1x128 .f32) (y : S1x1x128.Idx) :
    ∃ pc ∈ ([⟨r14, p0⟩] : List (View.Piece (Elt F) S1x1x128 .f32)), y ∈ pc.1.set :=
  View.cover_of_tiled [⟨r14, p0⟩] S1x1x128.size (by rfl) y

/-! ## The body's run -/

set_option maxHeartbeats 1000000 in
/-- The body on whole staging memrefs, the two inputs' at contents `x0`, `x1` and the output's at anything, runs to the
    continuation holding the inputs as they were and the output at `out14_2 x0 x1`; the table memrefs are not touched. -/
theorem sound_kernel14 (c : Dev nD) (E : Set ℕ) (i : grid14.Coords)
    (arg1 : Memref sig .tc .smem S40000 .i32) (harg1 : arg1.IsWhole) (arg2 : Memref sig .tc .smem S40000 .i32) (harg2 : arg2.IsWhole)
    (arg3 : Memref sig .tc .vmem S1x1x128 .f32) (harg3 : arg3.IsWhole) (arg4 : Memref sig .tc .vmem S1x1x128 .f32) (harg4 : arg4.IsWhole)
    (arg5 : Memref sig .tc .vmem S1x1x128 .f32) (harg5 : arg5.IsWhole)
    (x0 x1 : Vec F S1x1x128 .f32) (K : PUnit → sProp 𝕄) :
    iprop(owns (c : Thread nD τ) arg3 fullShare x0 ∗ owns (c : Thread nD τ) arg4 fullShare x1 ∗ (∃ d, owns (c : Thread nD τ) arg5 fullShare d)
        ∗ (iprop(owns (c : Thread nD τ) arg3 fullShare x0 ∗ owns (c : Thread nD τ) arg4 fullShare x1
            ∗ owns (c : Thread nD τ) arg5 fullShare (out14_2 x0 x1)) -∗ K ⟨⟩))
      ⊢ wp frame (wpE (defs₀ (F := F)) Variants.none c none) E (cc14__gather_kernel i arg1 harg1 arg2 harg2 arg3 harg3 arg4 harg4 arg5 harg5) K := by
  simp only [cc14__gather_kernel_eq_skeleton]; unfold cc14__gather_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover14_2 _)

/-! ## The pipeline's proof data -/

/-- The proof data of this pipeline on core `c`: the arrays as the region finds them; after the body at point `t` each
    gathered input's buffer at its block and the output's at `out14_2` of the two; the invariant: the scoped rest, the
    generator register, and the two index tables held whole and untouched; nothing owed; full shares. -/
def dat14 (c : Dev nD) : Dat τ (Elt F) Unit ℕ (UR sig nD τ) ℕ (cfg14 a) c where
  A w := V c (Pipeline.arrRef spec14 w)
  after w t := match w with
    | ⟨0, _⟩ => iblk14 V a c 0 t
    | ⟨1, _⟩ => iblk14 V a c 1 t
    | ⟨2, _⟩ => out14_2 (iblk14 V a c 0 t) (iblk14 V a c 1 t)
  Φ _ := iprop(Pipeline.ΦA spec14 c ∗ Pipeline.prefHeld (Ix := Unit) (Name := ℕ) (U := UR sig nD τ) (Lvl := ℕ) pre14 c (fun _ => fullShare) a.1)
  q _ := fullShare
  owed _ := 0

theorem A_eq14 (c : Dev nD) (w : Fin (cfg14 a).W) : (dat14 V a c).A w = V c (Pipeline.arrRef spec14 w) := by
  dsimp only [dat14]

theorem after14_0 (c : Dev nD) (t : Fin (cfg14 a).N) : (dat14 V a c).after 0 t = iblk14 V a c 0 t := by dsimp only [dat14]; try rfl
theorem after14_1 (c : Dev nD) (t : Fin (cfg14 a).N) : (dat14 V a c).after 1 t = iblk14 V a c 1 t := by dsimp only [dat14]; try rfl
theorem after14_2 (c : Dev nD) (t : Fin (cfg14 a).N) : (dat14 V a c).after 2 t = out14_2 (iblk14 V a c 0 t) (iblk14 V a c 1 t) := by dsimp only [dat14]; try rfl

theorem before14_0 (c : Dev nD) (t : Fin (cfg14 a).N) (d) : (dat14 V a c).before 0 t d = iblk14 V a c 0 t :=
  before14_0_of V a (dat14 V a c) (A_eq14 V a c 0) (after14_0 V a c) t d
theorem before14_1 (c : Dev nD) (t : Fin (cfg14 a).N) (d) : (dat14 V a c).before 1 t d = iblk14 V a c 1 t :=
  before14_1_of V a (dat14 V a c) (A_eq14 V a c 1) (after14_1 V a c) t d

/-! ## The body obligation, at a generic point -/

def bodyPre14 (c : Dev nD) (t : Fin (cfg14 a).N) : sProp 𝕄 :=
  iprop((dat14 V a c).Φ t.castSucc ∗ (dat14 V a c).owesAt () t.castSucc
    ∗ (∃ d, owns (c : Thread nD τ) (ms14_0 a t) fullShare ((dat14 V a c).before 0 t d))
    ∗ (∃ d, owns (c : Thread nD τ) (ms14_1 a t) fullShare ((dat14 V a c).before 1 t d))
    ∗ (∃ d, owns (c : Thread nD τ) (ms14_2 a t) fullShare ((dat14 V a c).before 2 t d)))

def bodyPost14 (c : Dev nD) (t : Fin (cfg14 a).N) : sProp 𝕄 :=
  iprop((dat14 V a c).Φ t.succ ∗ (dat14 V a c).owesAt () t.succ
    ∗ owns (c : Thread nD τ) (ms14_0 a t) fullShare ((dat14 V a c).after 0 t)
    ∗ owns (c : Thread nD τ) (ms14_1 a t) fullShare ((dat14 V a c).after 1 t)
    ∗ owns (c : Thread nD τ) (ms14_2 a t) fullShare ((dat14 V a c).after 2 t))

/-- The body at any point: the inputs' memrefs hold their blocks, so the run applies; the invariant and the core's
    dues pass through unread. -/
theorem sound_body14 (c : Dev nD) (t : Fin (cfg14 a).N) :
    bodyPre14 V a c t ⊢ wp frame (wpE (defs₀ (F := F)) Variants.none c none) Set.univ (bodyAt14 a t) (fun _ => bodyPost14 V a c t) := by
  unfold bodyPre14 bodyPost14 bodyAt14
  simp only [before14_0, before14_1]
  rw [show (dat14 V a c).Φ t.succ = (dat14 V a c).Φ t.castSucc from rfl,
    show (dat14 V a c).owesAt () t.succ = (dat14 V a c).owesAt () t.castSucc from rfl,
    after14_0, after14_1, after14_2]
  iintro ⟨HΦ, Ho, ⟨%d0, H0⟩, ⟨%d1, H1⟩, ⟨%d2, H2⟩⟩
  iapply (sound_kernel14 c Set.univ _ _ _ _ _ _ _ _ _ _ _ (iblk14 V a c 0 t) (iblk14 V a c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation14 (c : Dev nD) : BodyObligation (dat14 (F := F) V a c) (defs₀ (F := F)) Variants.none () Set.univ := fun t => by
  rw [bigSep_W14, bigSep_W14]
  exact sound_body14 V a c t

end Region

end Cert.KernelIdeal.Hand

end
-- ==== Proof.KI.Tables14.lean ====
/-
  Edge chunk 14's index tables. The host slices 40000 consecutive words, from word 520000 on, out of each endpoint
  array (src, then dst) into scalar memory; the chunk's pipeline reads word t of each as the block row of its two
  gathered windows at grid point t. When every endpoint word is a node id (below 50000) each such row lies inside
  the 50000-row arrays: the tables' contents are admissible for the pipeline.
-/
import proofs.«413139_j22651657519351_3_alg».proof.Proof.Gen.KernelIdeal.Launch
import proofs.«413139_j22651657519351_3_alg».proof.Proof.Gen.KernelIdeal.Skeleton
import proofs.«413139_j22651657519351_3_alg».proof.Proof.Gen.KernelIdeal.Points
import proofs.«413139_j22651657519351_3_alg».proof.Proof.KI.Range
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Tables

variable (m : (ℓ : Loc nD τ sig) → Buf (Elt F) ℓ)

/-- The two tables' contents, read off the launch memory: the endpoint arrays' words 520000 … 520000 + 39999. -/
def tbl14 : pre14.Contents (Elt F) := fun k => match k with
  | ⟨0, _⟩ => (extractStridedSlice S40000 ![520000] (m (((0 : Dev nD) : Thread nD τ).loc main_arg1)) slices_S800000_S40000_520000 : (⟨S40000, .i32⟩ : BufTy).Contents (Elt F))
  | ⟨1, _⟩ => (extractStridedSlice S40000 ![520000] (m (((0 : Dev nD) : Thread nD τ).loc main_arg2)) slices_S800000_S40000_520000 : (⟨S40000, .i32⟩ : BufTy).Contents (Elt F))

/-- Tables whose every word is below the node count put every gathered block inside its array: row word + 1 ≤ 50000,
    the two unit axes and the 128 lanes exactly filled; float32 words transfer whole. -/
theorem ok14_of (pf : pre14.Contents (Elt F)) (h0 : ∀ j, ((pf 0 j : Elt F .i32) : BitVec 32).toNat < 50000)
    (h1 : ∀ j, ((pf 1 j : Elt F .i32) : BitVec 32).toNat < 50000) : ok14 pf := by
  refine ⟨fun i => ⟨fun a => ?_, Or.inl rfl⟩, fun i => ⟨fun a => ?_, Or.inl rfl⟩⟩
  · match a with
    | ⟨0, _⟩ =>
      show (BitVec.toNat (pf 0 _) + 1) * 1 ≤ 50000
      exact (Nat.mul_one _).le.trans (Nat.succ_le_of_lt (h0 _))
    | ⟨1, _⟩ => show (BitVec.toNat (0#32) + 1) * 1 ≤ 1; decide
    | ⟨2, _⟩ => show (BitVec.toNat (0#32) + 1) * 128 ≤ 128; decide
  · match a with
    | ⟨0, _⟩ =>
      show (BitVec.toNat (pf 1 _) + 1) * 1 ≤ 50000
      exact (Nat.mul_one _).le.trans (Nat.succ_le_of_lt (h1 _))
    | ⟨1, _⟩ => show (BitVec.toNat (0#32) + 1) * 1 ≤ 1; decide
    | ⟨2, _⟩ => show (BitVec.toNat (0#32) + 1) * 128 ≤ 128; decide

/-- The chunk's tables as admissible contents, when the endpoint words are node ids. -/
def a14 (hR : InRange m) : (pcfg14 (F := F)).Adm :=
  ⟨tbl14 m, ok14_of (tbl14 m) (fun j => (hR 0).1 _) (fun j => (hR 0).2 _)⟩

theorem a14_val (hR : InRange m) : (a14 m hR).1 = tbl14 m := rfl

end Tables

end Cert.KernelIdeal.Hand

end
-- ==== Proof.KI.Region15.lean ====
/-
  Edge chunk 15's gather kernel (twenty chunks of 40000 edges): at grid point t the pipeline fetches row src[t] of the
  re-laid projection hs2 and row dst[t] of hd2 (two blocks of 128 lanes, chosen by the prefetched index tables),
  the body stores (row + row) · c into the output block, which is written back as row t of the chunk's output.
  Here: what each window's staging buffer holds before and after the body at every point, for any contents V of the
  buffers at the region's entry and any admissible contents `a` of the two index tables, and the body's run.
  The tables ride through the region untouched: the body never reads them.
-/
import proofs.«413139_j22651657519351_3_alg».proof.Proof.Gen.KernelIdeal.Launch
import proofs.«413139_j22651657519351_3_alg».proof.Proof.Gen.KernelIdeal.Skeleton
import proofs.«413139_j22651657519351_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region

variable (V : (c : Dev nD) → (b : Ref sig .tc) → Buf (Elt F) ((c : Thread nD τ).loc b))
variable (a : (pcfg15 (F := F)).Adm)

/-! ## The body as the pipeline calls it at a point -/

/-- Each window's current staging memref at point `t`, and its wholeness. -/
abbrev ms15_0 (t : Fin (cfg15 a).N) : Memref sig .tc .vmem S1x1x128 .f32 := spec15_0.stage ((cfg15 a).slots t 0)
abbrev hs15_0 (t : Fin (cfg15 a).N) : (ms15_0 a t).IsWhole := hstage15_0 (((cfg15 a).slots t 0).cast nbuf15_0)
abbrev ms15_1 (t : Fin (cfg15 a).N) : Memref sig .tc .vmem S1x1x128 .f32 := spec15_1.stage ((cfg15 a).slots t 1)
abbrev hs15_1 (t : Fin (cfg15 a).N) : (ms15_1 a t).IsWhole := hstage15_1 (((cfg15 a).slots t 1).cast nbuf15_1)
abbrev ms15_2 (t : Fin (cfg15 a).N) : Memref sig .tc .vmem S1x1x128 .f32 := spec15_2.stage ((cfg15 a).slots t 2)
abbrev hs15_2 (t : Fin (cfg15 a).N) : (ms15_2 a t).IsWhole := hstage15_2 (((cfg15 a).slots t 2).cast nbuf15_2)

/-- The kernel body at point `t`, on what the pipeline calls it with. -/
abbrev bodyAt15 (t : Fin (cfg15 a).N) : Prog (TpuEff nD τ sig (Elt F) Λ₀ .tc) PUnit :=
  cc15__gather_kernel (grid15.coords t) (Memref.whole main_v61) (Memref.isWhole_whole _) (Memref.whole main_v62) (Memref.isWhole_whole _)
    (ms15_0 a t) (hs15_0 a t) (ms15_1 a t) (hs15_1 a t) (ms15_2 a t) (hs15_2 a t)

/-! ## The windows' blocks -/

/-- Window `w`'s block at point `t`, read off its array as the region finds it: for the two gathered windows the
    row the tables' word at `t` names. -/
def iblk15 (c : Dev nD) (w : Fin (cfg15 a).W) (t : Fin (cfg15 a).N) :
    (((cfg15 a).win w).xblock ((cfg15 a).grid.coords t)).Idx → Elt F ((cfg15 a).win w).elt :=
  (((cfg15 a).win w).blk t).view.read (Elt F) (V c (Pipeline.arrRef spec15 w))

/-- An input window's current staging buffer holds its block at every point, fetched there or not. -/
theorem before15_0_of {c : Dev nD} (dat : Dat τ (Elt F) Unit ℕ (UR sig nD τ) ℕ (cfg15 a) c) (hA : dat.A 0 = V c (Pipeline.arrRef spec15 0))
    (hafter : ∀ t, dat.after 0 t = iblk15 V a c 0 t) (t : Fin (cfg15 a).N) (d) : dat.before 0 t d = iblk15 V a c 0 t :=
  (dat.before_in_eq_fetched 0 rfl (fun _ => rfl) (fun _ _ _ => rfl) (fun t => by rw [hafter]; unfold Dat.blockOf iblk15; rw [hA]; try rfl) t d).trans
    (by unfold Dat.fetched Dat.blockOf iblk15; rw [hA]; try rfl)

theorem before15_1_of {c : Dev nD} (dat : Dat τ (Elt F) Unit ℕ (UR sig nD τ) ℕ (cfg15 a) c) (hA : dat.A 1 = V c (Pipeline.arrRef spec15 1))
    (hafter : ∀ t, dat.after 1 t = iblk15 V a c 1 t) (t : Fin (cfg15 a).N) (d) : dat.before 1 t d = iblk15 V a c 1 t :=
  (dat.before_in_eq_fetched 1 rfl (fun _ => rfl) (fun _ _ _ => rfl) (fun t => by rw [hafter]; unfold Dat.blockOf iblk15; rw [hA]; try rfl) t d).trans
    (by unfold Dat.fetched Dat.blockOf iblk15; rw [hA]; try rfl)

/-! ## What the body leaves in the output window's buffer -/

/-- The one rectangle the body loads and stores through: the whole 1×1×128 block. -/
abbrev r15 : Rect S1x1x128 := Rect.unit (s := S1x1x128) ![0, 0, 0] S1x1x128.size inb_S1x1x128_S1x1x128_0_0_0

/-- The output block after the body, from the two gathered rows: its one store. -/
def out15_2 (x0 x1 : Vec F S1x1x128 .f32) : Vec F S1x1x128 .f32 :=
  View.canon [⟨r15, k15_pay1 (View.ld x0 r15) (View.ld x1 r15)⟩]

/-- The store covers the block. -/
theorem cover15_2 (p0 : Vec F S1x1x128 .f32) (y : S1x1x128.Idx) :
    ∃ pc ∈ ([⟨r15, p0⟩] : List (View.Piece (Elt F) S1x1x128 .f32)), y ∈ pc.1.set :=
  View.cover_of_tiled [⟨r15, p0⟩] S1x1x128.size (by rfl) y

/-! ## The body's run -/

set_option maxHeartbeats 1000000 in
/-- The body on whole staging memrefs, the two inputs' at contents `x0`, `x1` and the output's at anything, runs to the
    continuation holding the inputs as they were and the output at `out15_2 x0 x1`; the table memrefs are not touched. -/
theorem sound_kernel15 (c : Dev nD) (E : Set ℕ) (i : grid15.Coords)
    (arg1 : Memref sig .tc .smem S40000 .i32) (harg1 : arg1.IsWhole) (arg2 : Memref sig .tc .smem S40000 .i32) (harg2 : arg2.IsWhole)
    (arg3 : Memref sig .tc .vmem S1x1x128 .f32) (harg3 : arg3.IsWhole) (arg4 : Memref sig .tc .vmem S1x1x128 .f32) (harg4 : arg4.IsWhole)
    (arg5 : Memref sig .tc .vmem S1x1x128 .f32) (harg5 : arg5.IsWhole)
    (x0 x1 : Vec F S1x1x128 .f32) (K : PUnit → sProp 𝕄) :
    iprop(owns (c : Thread nD τ) arg3 fullShare x0 ∗ owns (c : Thread nD τ) arg4 fullShare x1 ∗ (∃ d, owns (c : Thread nD τ) arg5 fullShare d)
        ∗ (iprop(owns (c : Thread nD τ) arg3 fullShare x0 ∗ owns (c : Thread nD τ) arg4 fullShare x1
            ∗ owns (c : Thread nD τ) arg5 fullShare (out15_2 x0 x1)) -∗ K ⟨⟩))
      ⊢ wp frame (wpE (defs₀ (F := F)) Variants.none c none) E (cc15__gather_kernel i arg1 harg1 arg2 harg2 arg3 harg3 arg4 harg4 arg5 harg5) K := by
  simp only [cc15__gather_kernel_eq_skeleton]; unfold cc15__gather_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover15_2 _)

/-! ## The pipeline's proof data -/

/-- The proof data of this pipeline on core `c`: the arrays as the region finds them; after the body at point `t` each
    gathered input's buffer at its block and the output's at `out15_2` of the two; the invariant: the scoped rest, the
    generator register, and the two index tables held whole and untouched; nothing owed; full shares. -/
def dat15 (c : Dev nD) : Dat τ (Elt F) Unit ℕ (UR sig nD τ) ℕ (cfg15 a) c where
  A w := V c (Pipeline.arrRef spec15 w)
  after w t := match w with
    | ⟨0, _⟩ => iblk15 V a c 0 t
    | ⟨1, _⟩ => iblk15 V a c 1 t
    | ⟨2, _⟩ => out15_2 (iblk15 V a c 0 t) (iblk15 V a c 1 t)
  Φ _ := iprop(Pipeline.ΦA spec15 c ∗ Pipeline.prefHeld (Ix := Unit) (Name := ℕ) (U := UR sig nD τ) (Lvl := ℕ) pre15 c (fun _ => fullShare) a.1)
  q _ := fullShare
  owed _ := 0

theorem A_eq15 (c : Dev nD) (w : Fin (cfg15 a).W) : (dat15 V a c).A w = V c (Pipeline.arrRef spec15 w) := by
  dsimp only [dat15]

theorem after15_0 (c : Dev nD) (t : Fin (cfg15 a).N) : (dat15 V a c).after 0 t = iblk15 V a c 0 t := by dsimp only [dat15]; try rfl
theorem after15_1 (c : Dev nD) (t : Fin (cfg15 a).N) : (dat15 V a c).after 1 t = iblk15 V a c 1 t := by dsimp only [dat15]; try rfl
theorem after15_2 (c : Dev nD) (t : Fin (cfg15 a).N) : (dat15 V a c).after 2 t = out15_2 (iblk15 V a c 0 t) (iblk15 V a c 1 t) := by dsimp only [dat15]; try rfl

theorem before15_0 (c : Dev nD) (t : Fin (cfg15 a).N) (d) : (dat15 V a c).before 0 t d = iblk15 V a c 0 t :=
  before15_0_of V a (dat15 V a c) (A_eq15 V a c 0) (after15_0 V a c) t d
theorem before15_1 (c : Dev nD) (t : Fin (cfg15 a).N) (d) : (dat15 V a c).before 1 t d = iblk15 V a c 1 t :=
  before15_1_of V a (dat15 V a c) (A_eq15 V a c 1) (after15_1 V a c) t d

/-! ## The body obligation, at a generic point -/

def bodyPre15 (c : Dev nD) (t : Fin (cfg15 a).N) : sProp 𝕄 :=
  iprop((dat15 V a c).Φ t.castSucc ∗ (dat15 V a c).owesAt () t.castSucc
    ∗ (∃ d, owns (c : Thread nD τ) (ms15_0 a t) fullShare ((dat15 V a c).before 0 t d))
    ∗ (∃ d, owns (c : Thread nD τ) (ms15_1 a t) fullShare ((dat15 V a c).before 1 t d))
    ∗ (∃ d, owns (c : Thread nD τ) (ms15_2 a t) fullShare ((dat15 V a c).before 2 t d)))

def bodyPost15 (c : Dev nD) (t : Fin (cfg15 a).N) : sProp 𝕄 :=
  iprop((dat15 V a c).Φ t.succ ∗ (dat15 V a c).owesAt () t.succ
    ∗ owns (c : Thread nD τ) (ms15_0 a t) fullShare ((dat15 V a c).after 0 t)
    ∗ owns (c : Thread nD τ) (ms15_1 a t) fullShare ((dat15 V a c).after 1 t)
    ∗ owns (c : Thread nD τ) (ms15_2 a t) fullShare ((dat15 V a c).after 2 t))

/-- The body at any point: the inputs' memrefs hold their blocks, so the run applies; the invariant and the core's
    dues pass through unread. -/
theorem sound_body15 (c : Dev nD) (t : Fin (cfg15 a).N) :
    bodyPre15 V a c t ⊢ wp frame (wpE (defs₀ (F := F)) Variants.none c none) Set.univ (bodyAt15 a t) (fun _ => bodyPost15 V a c t) := by
  unfold bodyPre15 bodyPost15 bodyAt15
  simp only [before15_0, before15_1]
  rw [show (dat15 V a c).Φ t.succ = (dat15 V a c).Φ t.castSucc from rfl,
    show (dat15 V a c).owesAt () t.succ = (dat15 V a c).owesAt () t.castSucc from rfl,
    after15_0, after15_1, after15_2]
  iintro ⟨HΦ, Ho, ⟨%d0, H0⟩, ⟨%d1, H1⟩, ⟨%d2, H2⟩⟩
  iapply (sound_kernel15 c Set.univ _ _ _ _ _ _ _ _ _ _ _ (iblk15 V a c 0 t) (iblk15 V a c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation15 (c : Dev nD) : BodyObligation (dat15 (F := F) V a c) (defs₀ (F := F)) Variants.none () Set.univ := fun t => by
  rw [bigSep_W15, bigSep_W15]
  exact sound_body15 V a c t

end Region

end Cert.KernelIdeal.Hand

end
-- ==== Proof.KI.Tables15.lean ====
/-
  Edge chunk 15's index tables. The host slices 40000 consecutive words, from word 560000 on, out of each endpoint
  array (src, then dst) into scalar memory; the chunk's pipeline reads word t of each as the block row of its two
  gathered windows at grid point t. When every endpoint word is a node id (below 50000) each such row lies inside
  the 50000-row arrays: the tables' contents are admissible for the pipeline.
-/
import proofs.«413139_j22651657519351_3_alg».proof.Proof.Gen.KernelIdeal.Launch
import proofs.«413139_j22651657519351_3_alg».proof.Proof.Gen.KernelIdeal.Skeleton
import proofs.«413139_j22651657519351_3_alg».proof.Proof.Gen.KernelIdeal.Points
import proofs.«413139_j22651657519351_3_alg».proof.Proof.KI.Range
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Tables

variable (m : (ℓ : Loc nD τ sig) → Buf (Elt F) ℓ)

/-- The two tables' contents, read off the launch memory: the endpoint arrays' words 560000 … 560000 + 39999. -/
def tbl15 : pre15.Contents (Elt F) := fun k => match k with
  | ⟨0, _⟩ => (extractStridedSlice S40000 ![560000] (m (((0 : Dev nD) : Thread nD τ).loc main_arg1)) slices_S800000_S40000_560000 : (⟨S40000, .i32⟩ : BufTy).Contents (Elt F))
  | ⟨1, _⟩ => (extractStridedSlice S40000 ![560000] (m (((0 : Dev nD) : Thread nD τ).loc main_arg2)) slices_S800000_S40000_560000 : (⟨S40000, .i32⟩ : BufTy).Contents (Elt F))

/-- Tables whose every word is below the node count put every gathered block inside its array: row word + 1 ≤ 50000,
    the two unit axes and the 128 lanes exactly filled; float32 words transfer whole. -/
theorem ok15_of (pf : pre15.Contents (Elt F)) (h0 : ∀ j, ((pf 0 j : Elt F .i32) : BitVec 32).toNat < 50000)
    (h1 : ∀ j, ((pf 1 j : Elt F .i32) : BitVec 32).toNat < 50000) : ok15 pf := by
  refine ⟨fun i => ⟨fun a => ?_, Or.inl rfl⟩, fun i => ⟨fun a => ?_, Or.inl rfl⟩⟩
  · match a with
    | ⟨0, _⟩ =>
      show (BitVec.toNat (pf 0 _) + 1) * 1 ≤ 50000
      exact (Nat.mul_one _).le.trans (Nat.succ_le_of_lt (h0 _))
    | ⟨1, _⟩ => show (BitVec.toNat (0#32) + 1) * 1 ≤ 1; decide
    | ⟨2, _⟩ => show (BitVec.toNat (0#32) + 1) * 128 ≤ 128; decide
  · match a with
    | ⟨0, _⟩ =>
      show (BitVec.toNat (pf 1 _) + 1) * 1 ≤ 50000
      exact (Nat.mul_one _).le.trans (Nat.succ_le_of_lt (h1 _))
    | ⟨1, _⟩ => show (BitVec.toNat (0#32) + 1) * 1 ≤ 1; decide
    | ⟨2, _⟩ => show (BitVec.toNat (0#32) + 1) * 128 ≤ 128; decide

/-- The chunk's tables as admissible contents, when the endpoint words are node ids. -/
def a15 (hR : InRange m) : (pcfg15 (F := F)).Adm :=
  ⟨tbl15 m, ok15_of (tbl15 m) (fun j => (hR 0).1 _) (fun j => (hR 0).2 _)⟩

theorem a15_val (hR : InRange m) : (a15 m hR).1 = tbl15 m := rfl

end Tables

end Cert.KernelIdeal.Hand

end
-- ==== Proof.KI.Region16.lean ====
/-
  Edge chunk 16's gather kernel (twenty chunks of 40000 edges): at grid point t the pipeline fetches row src[t] of the
  re-laid projection hs2 and row dst[t] of hd2 (two blocks of 128 lanes, chosen by the prefetched index tables),
  the body stores (row + row) · c into the output block, which is written back as row t of the chunk's output.
  Here: what each window's staging buffer holds before and after the body at every point, for any contents V of the
  buffers at the region's entry and any admissible contents `a` of the two index tables, and the body's run.
  The tables ride through the region untouched: the body never reads them.
-/
import proofs.«413139_j22651657519351_3_alg».proof.Proof.Gen.KernelIdeal.Launch
import proofs.«413139_j22651657519351_3_alg».proof.Proof.Gen.KernelIdeal.Skeleton
import proofs.«413139_j22651657519351_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region

variable (V : (c : Dev nD) → (b : Ref sig .tc) → Buf (Elt F) ((c : Thread nD τ).loc b))
variable (a : (pcfg16 (F := F)).Adm)

/-! ## The body as the pipeline calls it at a point -/

/-- Each window's current staging memref at point `t`, and its wholeness. -/
abbrev ms16_0 (t : Fin (cfg16 a).N) : Memref sig .tc .vmem S1x1x128 .f32 := spec16_0.stage ((cfg16 a).slots t 0)
abbrev hs16_0 (t : Fin (cfg16 a).N) : (ms16_0 a t).IsWhole := hstage16_0 (((cfg16 a).slots t 0).cast nbuf16_0)
abbrev ms16_1 (t : Fin (cfg16 a).N) : Memref sig .tc .vmem S1x1x128 .f32 := spec16_1.stage ((cfg16 a).slots t 1)
abbrev hs16_1 (t : Fin (cfg16 a).N) : (ms16_1 a t).IsWhole := hstage16_1 (((cfg16 a).slots t 1).cast nbuf16_1)
abbrev ms16_2 (t : Fin (cfg16 a).N) : Memref sig .tc .vmem S1x1x128 .f32 := spec16_2.stage ((cfg16 a).slots t 2)
abbrev hs16_2 (t : Fin (cfg16 a).N) : (ms16_2 a t).IsWhole := hstage16_2 (((cfg16 a).slots t 2).cast nbuf16_2)

/-- The kernel body at point `t`, on what the pipeline calls it with. -/
abbrev bodyAt16 (t : Fin (cfg16 a).N) : Prog (TpuEff nD τ sig (Elt F) Λ₀ .tc) PUnit :=
  cc16__gather_kernel (grid16.coords t) (Memref.whole main_v65) (Memref.isWhole_whole _) (Memref.whole main_v66) (Memref.isWhole_whole _)
    (ms16_0 a t) (hs16_0 a t) (ms16_1 a t) (hs16_1 a t) (ms16_2 a t) (hs16_2 a t)

/-! ## The windows' blocks -/

/-- Window `w`'s block at point `t`, read off its array as the region finds it: for the two gathered windows the
    row the tables' word at `t` names. -/
def iblk16 (c : Dev nD) (w : Fin (cfg16 a).W) (t : Fin (cfg16 a).N) :
    (((cfg16 a).win w).xblock ((cfg16 a).grid.coords t)).Idx → Elt F ((cfg16 a).win w).elt :=
  (((cfg16 a).win w).blk t).view.read (Elt F) (V c (Pipeline.arrRef spec16 w))

/-- An input window's current staging buffer holds its block at every point, fetched there or not. -/
theorem before16_0_of {c : Dev nD} (dat : Dat τ (Elt F) Unit ℕ (UR sig nD τ) ℕ (cfg16 a) c) (hA : dat.A 0 = V c (Pipeline.arrRef spec16 0))
    (hafter : ∀ t, dat.after 0 t = iblk16 V a c 0 t) (t : Fin (cfg16 a).N) (d) : dat.before 0 t d = iblk16 V a c 0 t :=
  (dat.before_in_eq_fetched 0 rfl (fun _ => rfl) (fun _ _ _ => rfl) (fun t => by rw [hafter]; unfold Dat.blockOf iblk16; rw [hA]; try rfl) t d).trans
    (by unfold Dat.fetched Dat.blockOf iblk16; rw [hA]; try rfl)

theorem before16_1_of {c : Dev nD} (dat : Dat τ (Elt F) Unit ℕ (UR sig nD τ) ℕ (cfg16 a) c) (hA : dat.A 1 = V c (Pipeline.arrRef spec16 1))
    (hafter : ∀ t, dat.after 1 t = iblk16 V a c 1 t) (t : Fin (cfg16 a).N) (d) : dat.before 1 t d = iblk16 V a c 1 t :=
  (dat.before_in_eq_fetched 1 rfl (fun _ => rfl) (fun _ _ _ => rfl) (fun t => by rw [hafter]; unfold Dat.blockOf iblk16; rw [hA]; try rfl) t d).trans
    (by unfold Dat.fetched Dat.blockOf iblk16; rw [hA]; try rfl)

/-! ## What the body leaves in the output window's buffer -/

/-- The one rectangle the body loads and stores through: the whole 1×1×128 block. -/
abbrev r16 : Rect S1x1x128 := Rect.unit (s := S1x1x128) ![0, 0, 0] S1x1x128.size inb_S1x1x128_S1x1x128_0_0_0

/-- The output block after the body, from the two gathered rows: its one store. -/
def out16_2 (x0 x1 : Vec F S1x1x128 .f32) : Vec F S1x1x128 .f32 :=
  View.canon [⟨r16, k16_pay1 (View.ld x0 r16) (View.ld x1 r16)⟩]

/-- The store covers the block. -/
theorem cover16_2 (p0 : Vec F S1x1x128 .f32) (y : S1x1x128.Idx) :
    ∃ pc ∈ ([⟨r16, p0⟩] : List (View.Piece (Elt F) S1x1x128 .f32)), y ∈ pc.1.set :=
  View.cover_of_tiled [⟨r16, p0⟩] S1x1x128.size (by rfl) y

/-! ## The body's run -/

set_option maxHeartbeats 1000000 in
/-- The body on whole staging memrefs, the two inputs' at contents `x0`, `x1` and the output's at anything, runs to the
    continuation holding the inputs as they were and the output at `out16_2 x0 x1`; the table memrefs are not touched. -/
theorem sound_kernel16 (c : Dev nD) (E : Set ℕ) (i : grid16.Coords)
    (arg1 : Memref sig .tc .smem S40000 .i32) (harg1 : arg1.IsWhole) (arg2 : Memref sig .tc .smem S40000 .i32) (harg2 : arg2.IsWhole)
    (arg3 : Memref sig .tc .vmem S1x1x128 .f32) (harg3 : arg3.IsWhole) (arg4 : Memref sig .tc .vmem S1x1x128 .f32) (harg4 : arg4.IsWhole)
    (arg5 : Memref sig .tc .vmem S1x1x128 .f32) (harg5 : arg5.IsWhole)
    (x0 x1 : Vec F S1x1x128 .f32) (K : PUnit → sProp 𝕄) :
    iprop(owns (c : Thread nD τ) arg3 fullShare x0 ∗ owns (c : Thread nD τ) arg4 fullShare x1 ∗ (∃ d, owns (c : Thread nD τ) arg5 fullShare d)
        ∗ (iprop(owns (c : Thread nD τ) arg3 fullShare x0 ∗ owns (c : Thread nD τ) arg4 fullShare x1
            ∗ owns (c : Thread nD τ) arg5 fullShare (out16_2 x0 x1)) -∗ K ⟨⟩))
      ⊢ wp frame (wpE (defs₀ (F := F)) Variants.none c none) E (cc16__gather_kernel i arg1 harg1 arg2 harg2 arg3 harg3 arg4 harg4 arg5 harg5) K := by
  simp only [cc16__gather_kernel_eq_skeleton]; unfold cc16__gather_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover16_2 _)

/-! ## The pipeline's proof data -/

/-- The proof data of this pipeline on core `c`: the arrays as the region finds them; after the body at point `t` each
    gathered input's buffer at its block and the output's at `out16_2` of the two; the invariant: the scoped rest, the
    generator register, and the two index tables held whole and untouched; nothing owed; full shares. -/
def dat16 (c : Dev nD) : Dat τ (Elt F) Unit ℕ (UR sig nD τ) ℕ (cfg16 a) c where
  A w := V c (Pipeline.arrRef spec16 w)
  after w t := match w with
    | ⟨0, _⟩ => iblk16 V a c 0 t
    | ⟨1, _⟩ => iblk16 V a c 1 t
    | ⟨2, _⟩ => out16_2 (iblk16 V a c 0 t) (iblk16 V a c 1 t)
  Φ _ := iprop(Pipeline.ΦA spec16 c ∗ Pipeline.prefHeld (Ix := Unit) (Name := ℕ) (U := UR sig nD τ) (Lvl := ℕ) pre16 c (fun _ => fullShare) a.1)
  q _ := fullShare
  owed _ := 0

theorem A_eq16 (c : Dev nD) (w : Fin (cfg16 a).W) : (dat16 V a c).A w = V c (Pipeline.arrRef spec16 w) := by
  dsimp only [dat16]

theorem after16_0 (c : Dev nD) (t : Fin (cfg16 a).N) : (dat16 V a c).after 0 t = iblk16 V a c 0 t := by dsimp only [dat16]; try rfl
theorem after16_1 (c : Dev nD) (t : Fin (cfg16 a).N) : (dat16 V a c).after 1 t = iblk16 V a c 1 t := by dsimp only [dat16]; try rfl
theorem after16_2 (c : Dev nD) (t : Fin (cfg16 a).N) : (dat16 V a c).after 2 t = out16_2 (iblk16 V a c 0 t) (iblk16 V a c 1 t) := by dsimp only [dat16]; try rfl

theorem before16_0 (c : Dev nD) (t : Fin (cfg16 a).N) (d) : (dat16 V a c).before 0 t d = iblk16 V a c 0 t :=
  before16_0_of V a (dat16 V a c) (A_eq16 V a c 0) (after16_0 V a c) t d
theorem before16_1 (c : Dev nD) (t : Fin (cfg16 a).N) (d) : (dat16 V a c).before 1 t d = iblk16 V a c 1 t :=
  before16_1_of V a (dat16 V a c) (A_eq16 V a c 1) (after16_1 V a c) t d

/-! ## The body obligation, at a generic point -/

def bodyPre16 (c : Dev nD) (t : Fin (cfg16 a).N) : sProp 𝕄 :=
  iprop((dat16 V a c).Φ t.castSucc ∗ (dat16 V a c).owesAt () t.castSucc
    ∗ (∃ d, owns (c : Thread nD τ) (ms16_0 a t) fullShare ((dat16 V a c).before 0 t d))
    ∗ (∃ d, owns (c : Thread nD τ) (ms16_1 a t) fullShare ((dat16 V a c).before 1 t d))
    ∗ (∃ d, owns (c : Thread nD τ) (ms16_2 a t) fullShare ((dat16 V a c).before 2 t d)))

def bodyPost16 (c : Dev nD) (t : Fin (cfg16 a).N) : sProp 𝕄 :=
  iprop((dat16 V a c).Φ t.succ ∗ (dat16 V a c).owesAt () t.succ
    ∗ owns (c : Thread nD τ) (ms16_0 a t) fullShare ((dat16 V a c).after 0 t)
    ∗ owns (c : Thread nD τ) (ms16_1 a t) fullShare ((dat16 V a c).after 1 t)
    ∗ owns (c : Thread nD τ) (ms16_2 a t) fullShare ((dat16 V a c).after 2 t))

/-- The body at any point: the inputs' memrefs hold their blocks, so the run applies; the invariant and the core's
    dues pass through unread. -/
theorem sound_body16 (c : Dev nD) (t : Fin (cfg16 a).N) :
    bodyPre16 V a c t ⊢ wp frame (wpE (defs₀ (F := F)) Variants.none c none) Set.univ (bodyAt16 a t) (fun _ => bodyPost16 V a c t) := by
  unfold bodyPre16 bodyPost16 bodyAt16
  simp only [before16_0, before16_1]
  rw [show (dat16 V a c).Φ t.succ = (dat16 V a c).Φ t.castSucc from rfl,
    show (dat16 V a c).owesAt () t.succ = (dat16 V a c).owesAt () t.castSucc from rfl,
    after16_0, after16_1, after16_2]
  iintro ⟨HΦ, Ho, ⟨%d0, H0⟩, ⟨%d1, H1⟩, ⟨%d2, H2⟩⟩
  iapply (sound_kernel16 c Set.univ _ _ _ _ _ _ _ _ _ _ _ (iblk16 V a c 0 t) (iblk16 V a c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation16 (c : Dev nD) : BodyObligation (dat16 (F := F) V a c) (defs₀ (F := F)) Variants.none () Set.univ := fun t => by
  rw [bigSep_W16, bigSep_W16]
  exact sound_body16 V a c t

end Region

end Cert.KernelIdeal.Hand

end
-- ==== Proof.KI.Tables16.lean ====
/-
  Edge chunk 16's index tables. The host slices 40000 consecutive words, from word 600000 on, out of each endpoint
  array (src, then dst) into scalar memory; the chunk's pipeline reads word t of each as the block row of its two
  gathered windows at grid point t. When every endpoint word is a node id (below 50000) each such row lies inside
  the 50000-row arrays: the tables' contents are admissible for the pipeline.
-/
import proofs.«413139_j22651657519351_3_alg».proof.Proof.Gen.KernelIdeal.Launch
import proofs.«413139_j22651657519351_3_alg».proof.Proof.Gen.KernelIdeal.Skeleton
import proofs.«413139_j22651657519351_3_alg».proof.Proof.Gen.KernelIdeal.Points
import proofs.«413139_j22651657519351_3_alg».proof.Proof.KI.Range
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Tables

variable (m : (ℓ : Loc nD τ sig) → Buf (Elt F) ℓ)

/-- The two tables' contents, read off the launch memory: the endpoint arrays' words 600000 … 600000 + 39999. -/
def tbl16 : pre16.Contents (Elt F) := fun k => match k with
  | ⟨0, _⟩ => (extractStridedSlice S40000 ![600000] (m (((0 : Dev nD) : Thread nD τ).loc main_arg1)) slices_S800000_S40000_600000 : (⟨S40000, .i32⟩ : BufTy).Contents (Elt F))
  | ⟨1, _⟩ => (extractStridedSlice S40000 ![600000] (m (((0 : Dev nD) : Thread nD τ).loc main_arg2)) slices_S800000_S40000_600000 : (⟨S40000, .i32⟩ : BufTy).Contents (Elt F))

/-- Tables whose every word is below the node count put every gathered block inside its array: row word + 1 ≤ 50000,
    the two unit axes and the 128 lanes exactly filled; float32 words transfer whole. -/
theorem ok16_of (pf : pre16.Contents (Elt F)) (h0 : ∀ j, ((pf 0 j : Elt F .i32) : BitVec 32).toNat < 50000)
    (h1 : ∀ j, ((pf 1 j : Elt F .i32) : BitVec 32).toNat < 50000) : ok16 pf := by
  refine ⟨fun i => ⟨fun a => ?_, Or.inl rfl⟩, fun i => ⟨fun a => ?_, Or.inl rfl⟩⟩
  · match a with
    | ⟨0, _⟩ =>
      show (BitVec.toNat (pf 0 _) + 1) * 1 ≤ 50000
      exact (Nat.mul_one _).le.trans (Nat.succ_le_of_lt (h0 _))
    | ⟨1, _⟩ => show (BitVec.toNat (0#32) + 1) * 1 ≤ 1; decide
    | ⟨2, _⟩ => show (BitVec.toNat (0#32) + 1) * 128 ≤ 128; decide
  · match a with
    | ⟨0, _⟩ =>
      show (BitVec.toNat (pf 1 _) + 1) * 1 ≤ 50000
      exact (Nat.mul_one _).le.trans (Nat.succ_le_of_lt (h1 _))
    | ⟨1, _⟩ => show (BitVec.toNat (0#32) + 1) * 1 ≤ 1; decide
    | ⟨2, _⟩ => show (BitVec.toNat (0#32) + 1) * 128 ≤ 128; decide

/-- The chunk's tables as admissible contents, when the endpoint words are node ids. -/
def a16 (hR : InRange m) : (pcfg16 (F := F)).Adm :=
  ⟨tbl16 m, ok16_of (tbl16 m) (fun j => (hR 0).1 _) (fun j => (hR 0).2 _)⟩

theorem a16_val (hR : InRange m) : (a16 m hR).1 = tbl16 m := rfl

end Tables

end Cert.KernelIdeal.Hand

end
-- ==== Proof.KI.Region17.lean ====
/-
  Edge chunk 17's gather kernel (twenty chunks of 40000 edges): at grid point t the pipeline fetches row src[t] of the
  re-laid projection hs2 and row dst[t] of hd2 (two blocks of 128 lanes, chosen by the prefetched index tables),
  the body stores (row + row) · c into the output block, which is written back as row t of the chunk's output.
  Here: what each window's staging buffer holds before and after the body at every point, for any contents V of the
  buffers at the region's entry and any admissible contents `a` of the two index tables, and the body's run.
  The tables ride through the region untouched: the body never reads them.
-/
import proofs.«413139_j22651657519351_3_alg».proof.Proof.Gen.KernelIdeal.Launch
import proofs.«413139_j22651657519351_3_alg».proof.Proof.Gen.KernelIdeal.Skeleton
import proofs.«413139_j22651657519351_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region

variable (V : (c : Dev nD) → (b : Ref sig .tc) → Buf (Elt F) ((c : Thread nD τ).loc b))
variable (a : (pcfg17 (F := F)).Adm)

/-! ## The body as the pipeline calls it at a point -/

/-- Each window's current staging memref at point `t`, and its wholeness. -/
abbrev ms17_0 (t : Fin (cfg17 a).N) : Memref sig .tc .vmem S1x1x128 .f32 := spec17_0.stage ((cfg17 a).slots t 0)
abbrev hs17_0 (t : Fin (cfg17 a).N) : (ms17_0 a t).IsWhole := hstage17_0 (((cfg17 a).slots t 0).cast nbuf17_0)
abbrev ms17_1 (t : Fin (cfg17 a).N) : Memref sig .tc .vmem S1x1x128 .f32 := spec17_1.stage ((cfg17 a).slots t 1)
abbrev hs17_1 (t : Fin (cfg17 a).N) : (ms17_1 a t).IsWhole := hstage17_1 (((cfg17 a).slots t 1).cast nbuf17_1)
abbrev ms17_2 (t : Fin (cfg17 a).N) : Memref sig .tc .vmem S1x1x128 .f32 := spec17_2.stage ((cfg17 a).slots t 2)
abbrev hs17_2 (t : Fin (cfg17 a).N) : (ms17_2 a t).IsWhole := hstage17_2 (((cfg17 a).slots t 2).cast nbuf17_2)

/-- The kernel body at point `t`, on what the pipeline calls it with. -/
abbrev bodyAt17 (t : Fin (cfg17 a).N) : Prog (TpuEff nD τ sig (Elt F) Λ₀ .tc) PUnit :=
  cc17__gather_kernel (grid17.coords t) (Memref.whole main_v69) (Memref.isWhole_whole _) (Memref.whole main_v70) (Memref.isWhole_whole _)
    (ms17_0 a t) (hs17_0 a t) (ms17_1 a t) (hs17_1 a t) (ms17_2 a t) (hs17_2 a t)

/-! ## The windows' blocks -/

/-- Window `w`'s block at point `t`, read off its array as the region finds it: for the two gathered windows the
    row the tables' word at `t` names. -/
def iblk17 (c : Dev nD) (w : Fin (cfg17 a).W) (t : Fin (cfg17 a).N) :
    (((cfg17 a).win w).xblock ((cfg17 a).grid.coords t)).Idx → Elt F ((cfg17 a).win w).elt :=
  (((cfg17 a).win w).blk t).view.read (Elt F) (V c (Pipeline.arrRef spec17 w))

/-- An input window's current staging buffer holds its block at every point, fetched there or not. -/
theorem before17_0_of {c : Dev nD} (dat : Dat τ (Elt F) Unit ℕ (UR sig nD τ) ℕ (cfg17 a) c) (hA : dat.A 0 = V c (Pipeline.arrRef spec17 0))
    (hafter : ∀ t, dat.after 0 t = iblk17 V a c 0 t) (t : Fin (cfg17 a).N) (d) : dat.before 0 t d = iblk17 V a c 0 t :=
  (dat.before_in_eq_fetched 0 rfl (fun _ => rfl) (fun _ _ _ => rfl) (fun t => by rw [hafter]; unfold Dat.blockOf iblk17; rw [hA]; try rfl) t d).trans
    (by unfold Dat.fetched Dat.blockOf iblk17; rw [hA]; try rfl)

theorem before17_1_of {c : Dev nD} (dat : Dat τ (Elt F) Unit ℕ (UR sig nD τ) ℕ (cfg17 a) c) (hA : dat.A 1 = V c (Pipeline.arrRef spec17 1))
    (hafter : ∀ t, dat.after 1 t = iblk17 V a c 1 t) (t : Fin (cfg17 a).N) (d) : dat.before 1 t d = iblk17 V a c 1 t :=
  (dat.before_in_eq_fetched 1 rfl (fun _ => rfl) (fun _ _ _ => rfl) (fun t => by rw [hafter]; unfold Dat.blockOf iblk17; rw [hA]; try rfl) t d).trans
    (by unfold Dat.fetched Dat.blockOf iblk17; rw [hA]; try rfl)

/-! ## What the body leaves in the output window's buffer -/

/-- The one rectangle the body loads and stores through: the whole 1×1×128 block. -/
abbrev r17 : Rect S1x1x128 := Rect.unit (s := S1x1x128) ![0, 0, 0] S1x1x128.size inb_S1x1x128_S1x1x128_0_0_0

/-- The output block after the body, from the two gathered rows: its one store. -/
def out17_2 (x0 x1 : Vec F S1x1x128 .f32) : Vec F S1x1x128 .f32 :=
  View.canon [⟨r17, k17_pay1 (View.ld x0 r17) (View.ld x1 r17)⟩]

/-- The store covers the block. -/
theorem cover17_2 (p0 : Vec F S1x1x128 .f32) (y : S1x1x128.Idx) :
    ∃ pc ∈ ([⟨r17, p0⟩] : List (View.Piece (Elt F) S1x1x128 .f32)), y ∈ pc.1.set :=
  View.cover_of_tiled [⟨r17, p0⟩] S1x1x128.size (by rfl) y

/-! ## The body's run -/

set_option maxHeartbeats 1000000 in
/-- The body on whole staging memrefs, the two inputs' at contents `x0`, `x1` and the output's at anything, runs to the
    continuation holding the inputs as they were and the output at `out17_2 x0 x1`; the table memrefs are not touched. -/
theorem sound_kernel17 (c : Dev nD) (E : Set ℕ) (i : grid17.Coords)
    (arg1 : Memref sig .tc .smem S40000 .i32) (harg1 : arg1.IsWhole) (arg2 : Memref sig .tc .smem S40000 .i32) (harg2 : arg2.IsWhole)
    (arg3 : Memref sig .tc .vmem S1x1x128 .f32) (harg3 : arg3.IsWhole) (arg4 : Memref sig .tc .vmem S1x1x128 .f32) (harg4 : arg4.IsWhole)
    (arg5 : Memref sig .tc .vmem S1x1x128 .f32) (harg5 : arg5.IsWhole)
    (x0 x1 : Vec F S1x1x128 .f32) (K : PUnit → sProp 𝕄) :
    iprop(owns (c : Thread nD τ) arg3 fullShare x0 ∗ owns (c : Thread nD τ) arg4 fullShare x1 ∗ (∃ d, owns (c : Thread nD τ) arg5 fullShare d)
        ∗ (iprop(owns (c : Thread nD τ) arg3 fullShare x0 ∗ owns (c : Thread nD τ) arg4 fullShare x1
            ∗ owns (c : Thread nD τ) arg5 fullShare (out17_2 x0 x1)) -∗ K ⟨⟩))
      ⊢ wp frame (wpE (defs₀ (F := F)) Variants.none c none) E (cc17__gather_kernel i arg1 harg1 arg2 harg2 arg3 harg3 arg4 harg4 arg5 harg5) K := by
  simp only [cc17__gather_kernel_eq_skeleton]; unfold cc17__gather_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover17_2 _)

/-! ## The pipeline's proof data -/

/-- The proof data of this pipeline on core `c`: the arrays as the region finds them; after the body at point `t` each
    gathered input's buffer at its block and the output's at `out17_2` of the two; the invariant: the scoped rest, the
    generator register, and the two index tables held whole and untouched; nothing owed; full shares. -/
def dat17 (c : Dev nD) : Dat τ (Elt F) Unit ℕ (UR sig nD τ) ℕ (cfg17 a) c where
  A w := V c (Pipeline.arrRef spec17 w)
  after w t := match w with
    | ⟨0, _⟩ => iblk17 V a c 0 t
    | ⟨1, _⟩ => iblk17 V a c 1 t
    | ⟨2, _⟩ => out17_2 (iblk17 V a c 0 t) (iblk17 V a c 1 t)
  Φ _ := iprop(Pipeline.ΦA spec17 c ∗ Pipeline.prefHeld (Ix := Unit) (Name := ℕ) (U := UR sig nD τ) (Lvl := ℕ) pre17 c (fun _ => fullShare) a.1)
  q _ := fullShare
  owed _ := 0

theorem A_eq17 (c : Dev nD) (w : Fin (cfg17 a).W) : (dat17 V a c).A w = V c (Pipeline.arrRef spec17 w) := by
  dsimp only [dat17]

theorem after17_0 (c : Dev nD) (t : Fin (cfg17 a).N) : (dat17 V a c).after 0 t = iblk17 V a c 0 t := by dsimp only [dat17]; try rfl
theorem after17_1 (c : Dev nD) (t : Fin (cfg17 a).N) : (dat17 V a c).after 1 t = iblk17 V a c 1 t := by dsimp only [dat17]; try rfl
theorem after17_2 (c : Dev nD) (t : Fin (cfg17 a).N) : (dat17 V a c).after 2 t = out17_2 (iblk17 V a c 0 t) (iblk17 V a c 1 t) := by dsimp only [dat17]; try rfl

theorem before17_0 (c : Dev nD) (t : Fin (cfg17 a).N) (d) : (dat17 V a c).before 0 t d = iblk17 V a c 0 t :=
  before17_0_of V a (dat17 V a c) (A_eq17 V a c 0) (after17_0 V a c) t d
theorem before17_1 (c : Dev nD) (t : Fin (cfg17 a).N) (d) : (dat17 V a c).before 1 t d = iblk17 V a c 1 t :=
  before17_1_of V a (dat17 V a c) (A_eq17 V a c 1) (after17_1 V a c) t d

/-! ## The body obligation, at a generic point -/

def bodyPre17 (c : Dev nD) (t : Fin (cfg17 a).N) : sProp 𝕄 :=
  iprop((dat17 V a c).Φ t.castSucc ∗ (dat17 V a c).owesAt () t.castSucc
    ∗ (∃ d, owns (c : Thread nD τ) (ms17_0 a t) fullShare ((dat17 V a c).before 0 t d))
    ∗ (∃ d, owns (c : Thread nD τ) (ms17_1 a t) fullShare ((dat17 V a c).before 1 t d))
    ∗ (∃ d, owns (c : Thread nD τ) (ms17_2 a t) fullShare ((dat17 V a c).before 2 t d)))

def bodyPost17 (c : Dev nD) (t : Fin (cfg17 a).N) : sProp 𝕄 :=
  iprop((dat17 V a c).Φ t.succ ∗ (dat17 V a c).owesAt () t.succ
    ∗ owns (c : Thread nD τ) (ms17_0 a t) fullShare ((dat17 V a c).after 0 t)
    ∗ owns (c : Thread nD τ) (ms17_1 a t) fullShare ((dat17 V a c).after 1 t)
    ∗ owns (c : Thread nD τ) (ms17_2 a t) fullShare ((dat17 V a c).after 2 t))

/-- The body at any point: the inputs' memrefs hold their blocks, so the run applies; the invariant and the core's
    dues pass through unread. -/
theorem sound_body17 (c : Dev nD) (t : Fin (cfg17 a).N) :
    bodyPre17 V a c t ⊢ wp frame (wpE (defs₀ (F := F)) Variants.none c none) Set.univ (bodyAt17 a t) (fun _ => bodyPost17 V a c t) := by
  unfold bodyPre17 bodyPost17 bodyAt17
  simp only [before17_0, before17_1]
  rw [show (dat17 V a c).Φ t.succ = (dat17 V a c).Φ t.castSucc from rfl,
    show (dat17 V a c).owesAt () t.succ = (dat17 V a c).owesAt () t.castSucc from rfl,
    after17_0, after17_1, after17_2]
  iintro ⟨HΦ, Ho, ⟨%d0, H0⟩, ⟨%d1, H1⟩, ⟨%d2, H2⟩⟩
  iapply (sound_kernel17 c Set.univ _ _ _ _ _ _ _ _ _ _ _ (iblk17 V a c 0 t) (iblk17 V a c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation17 (c : Dev nD) : BodyObligation (dat17 (F := F) V a c) (defs₀ (F := F)) Variants.none () Set.univ := fun t => by
  rw [bigSep_W17, bigSep_W17]
  exact sound_body17 V a c t

end Region

end Cert.KernelIdeal.Hand

end
-- ==== Proof.KI.Tables17.lean ====
/-
  Edge chunk 17's index tables. The host slices 40000 consecutive words, from word 640000 on, out of each endpoint
  array (src, then dst) into scalar memory; the chunk's pipeline reads word t of each as the block row of its two
  gathered windows at grid point t. When every endpoint word is a node id (below 50000) each such row lies inside
  the 50000-row arrays: the tables' contents are admissible for the pipeline.
-/
import proofs.«413139_j22651657519351_3_alg».proof.Proof.Gen.KernelIdeal.Launch
import proofs.«413139_j22651657519351_3_alg».proof.Proof.Gen.KernelIdeal.Skeleton
import proofs.«413139_j22651657519351_3_alg».proof.Proof.Gen.KernelIdeal.Points
import proofs.«413139_j22651657519351_3_alg».proof.Proof.KI.Range
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Tables

variable (m : (ℓ : Loc nD τ sig) → Buf (Elt F) ℓ)

/-- The two tables' contents, read off the launch memory: the endpoint arrays' words 640000 … 640000 + 39999. -/
def tbl17 : pre17.Contents (Elt F) := fun k => match k with
  | ⟨0, _⟩ => (extractStridedSlice S40000 ![640000] (m (((0 : Dev nD) : Thread nD τ).loc main_arg1)) slices_S800000_S40000_640000 : (⟨S40000, .i32⟩ : BufTy).Contents (Elt F))
  | ⟨1, _⟩ => (extractStridedSlice S40000 ![640000] (m (((0 : Dev nD) : Thread nD τ).loc main_arg2)) slices_S800000_S40000_640000 : (⟨S40000, .i32⟩ : BufTy).Contents (Elt F))

/-- Tables whose every word is below the node count put every gathered block inside its array: row word + 1 ≤ 50000,
    the two unit axes and the 128 lanes exactly filled; float32 words transfer whole. -/
theorem ok17_of (pf : pre17.Contents (Elt F)) (h0 : ∀ j, ((pf 0 j : Elt F .i32) : BitVec 32).toNat < 50000)
    (h1 : ∀ j, ((pf 1 j : Elt F .i32) : BitVec 32).toNat < 50000) : ok17 pf := by
  refine ⟨fun i => ⟨fun a => ?_, Or.inl rfl⟩, fun i => ⟨fun a => ?_, Or.inl rfl⟩⟩
  · match a with
    | ⟨0, _⟩ =>
      show (BitVec.toNat (pf 0 _) + 1) * 1 ≤ 50000
      exact (Nat.mul_one _).le.trans (Nat.succ_le_of_lt (h0 _))
    | ⟨1, _⟩ => show (BitVec.toNat (0#32) + 1) * 1 ≤ 1; decide
    | ⟨2, _⟩ => show (BitVec.toNat (0#32) + 1) * 128 ≤ 128; decide
  · match a with
    | ⟨0, _⟩ =>
      show (BitVec.toNat (pf 1 _) + 1) * 1 ≤ 50000
      exact (Nat.mul_one _).le.trans (Nat.succ_le_of_lt (h1 _))
    | ⟨1, _⟩ => show (BitVec.toNat (0#32) + 1) * 1 ≤ 1; decide
    | ⟨2, _⟩ => show (BitVec.toNat (0#32) + 1) * 128 ≤ 128; decide

/-- The chunk's tables as admissible contents, when the endpoint words are node ids. -/
def a17 (hR : InRange m) : (pcfg17 (F := F)).Adm :=
  ⟨tbl17 m, ok17_of (tbl17 m) (fun j => (hR 0).1 _) (fun j => (hR 0).2 _)⟩

theorem a17_val (hR : InRange m) : (a17 m hR).1 = tbl17 m := rfl

end Tables

end Cert.KernelIdeal.Hand

end
-- ==== Proof.KI.Region18.lean ====
/-
  Edge chunk 18's gather kernel (twenty chunks of 40000 edges): at grid point t the pipeline fetches row src[t] of the
  re-laid projection hs2 and row dst[t] of hd2 (two blocks of 128 lanes, chosen by the prefetched index tables),
  the body stores (row + row) · c into the output block, which is written back as row t of the chunk's output.
  Here: what each window's staging buffer holds before and after the body at every point, for any contents V of the
  buffers at the region's entry and any admissible contents `a` of the two index tables, and the body's run.
  The tables ride through the region untouched: the body never reads them.
-/
import proofs.«413139_j22651657519351_3_alg».proof.Proof.Gen.KernelIdeal.Launch
import proofs.«413139_j22651657519351_3_alg».proof.Proof.Gen.KernelIdeal.Skeleton
import proofs.«413139_j22651657519351_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region

variable (V : (c : Dev nD) → (b : Ref sig .tc) → Buf (Elt F) ((c : Thread nD τ).loc b))
variable (a : (pcfg18 (F := F)).Adm)

/-! ## The body as the pipeline calls it at a point -/

/-- Each window's current staging memref at point `t`, and its wholeness. -/
abbrev ms18_0 (t : Fin (cfg18 a).N) : Memref sig .tc .vmem S1x1x128 .f32 := spec18_0.stage ((cfg18 a).slots t 0)
abbrev hs18_0 (t : Fin (cfg18 a).N) : (ms18_0 a t).IsWhole := hstage18_0 (((cfg18 a).slots t 0).cast nbuf18_0)
abbrev ms18_1 (t : Fin (cfg18 a).N) : Memref sig .tc .vmem S1x1x128 .f32 := spec18_1.stage ((cfg18 a).slots t 1)
abbrev hs18_1 (t : Fin (cfg18 a).N) : (ms18_1 a t).IsWhole := hstage18_1 (((cfg18 a).slots t 1).cast nbuf18_1)
abbrev ms18_2 (t : Fin (cfg18 a).N) : Memref sig .tc .vmem S1x1x128 .f32 := spec18_2.stage ((cfg18 a).slots t 2)
abbrev hs18_2 (t : Fin (cfg18 a).N) : (ms18_2 a t).IsWhole := hstage18_2 (((cfg18 a).slots t 2).cast nbuf18_2)

/-- The kernel body at point `t`, on what the pipeline calls it with. -/
abbrev bodyAt18 (t : Fin (cfg18 a).N) : Prog (TpuEff nD τ sig (Elt F) Λ₀ .tc) PUnit :=
  cc18__gather_kernel (grid18.coords t) (Memref.whole main_v73) (Memref.isWhole_whole _) (Memref.whole main_v74) (Memref.isWhole_whole _)
    (ms18_0 a t) (hs18_0 a t) (ms18_1 a t) (hs18_1 a t) (ms18_2 a t) (hs18_2 a t)

/-! ## The windows' blocks -/

/-- Window `w`'s block at point `t`, read off its array as the region finds it: for the two gathered windows the
    row the tables' word at `t` names. -/
def iblk18 (c : Dev nD) (w : Fin (cfg18 a).W) (t : Fin (cfg18 a).N) :
    (((cfg18 a).win w).xblock ((cfg18 a).grid.coords t)).Idx → Elt F ((cfg18 a).win w).elt :=
  (((cfg18 a).win w).blk t).view.read (Elt F) (V c (Pipeline.arrRef spec18 w))

/-- An input window's current staging buffer holds its block at every point, fetched there or not. -/
theorem before18_0_of {c : Dev nD} (dat : Dat τ (Elt F) Unit ℕ (UR sig nD τ) ℕ (cfg18 a) c) (hA : dat.A 0 = V c (Pipeline.arrRef spec18 0))
    (hafter : ∀ t, dat.after 0 t = iblk18 V a c 0 t) (t : Fin (cfg18 a).N) (d) : dat.before 0 t d = iblk18 V a c 0 t :=
  (dat.before_in_eq_fetched 0 rfl (fun _ => rfl) (fun _ _ _ => rfl) (fun t => by rw [hafter]; unfold Dat.blockOf iblk18; rw [hA]; try rfl) t d).trans
    (by unfold Dat.fetched Dat.blockOf iblk18; rw [hA]; try rfl)

theorem before18_1_of {c : Dev nD} (dat : Dat τ (Elt F) Unit ℕ (UR sig nD τ) ℕ (cfg18 a) c) (hA : dat.A 1 = V c (Pipeline.arrRef spec18 1))
    (hafter : ∀ t, dat.after 1 t = iblk18 V a c 1 t) (t : Fin (cfg18 a).N) (d) : dat.before 1 t d = iblk18 V a c 1 t :=
  (dat.before_in_eq_fetched 1 rfl (fun _ => rfl) (fun _ _ _ => rfl) (fun t => by rw [hafter]; unfold Dat.blockOf iblk18; rw [hA]; try rfl) t d).trans
    (by unfold Dat.fetched Dat.blockOf iblk18; rw [hA]; try rfl)

/-! ## What the body leaves in the output window's buffer -/

/-- The one rectangle the body loads and stores through: the whole 1×1×128 block. -/
abbrev r18 : Rect S1x1x128 := Rect.unit (s := S1x1x128) ![0, 0, 0] S1x1x128.size inb_S1x1x128_S1x1x128_0_0_0

/-- The output block after the body, from the two gathered rows: its one store. -/
def out18_2 (x0 x1 : Vec F S1x1x128 .f32) : Vec F S1x1x128 .f32 :=
  View.canon [⟨r18, k18_pay1 (View.ld x0 r18) (View.ld x1 r18)⟩]

/-- The store covers the block. -/
theorem cover18_2 (p0 : Vec F S1x1x128 .f32) (y : S1x1x128.Idx) :
    ∃ pc ∈ ([⟨r18, p0⟩] : List (View.Piece (Elt F) S1x1x128 .f32)), y ∈ pc.1.set :=
  View.cover_of_tiled [⟨r18, p0⟩] S1x1x128.size (by rfl) y

/-! ## The body's run -/

set_option maxHeartbeats 1000000 in
/-- The body on whole staging memrefs, the two inputs' at contents `x0`, `x1` and the output's at anything, runs to the
    continuation holding the inputs as they were and the output at `out18_2 x0 x1`; the table memrefs are not touched. -/
theorem sound_kernel18 (c : Dev nD) (E : Set ℕ) (i : grid18.Coords)
    (arg1 : Memref sig .tc .smem S40000 .i32) (harg1 : arg1.IsWhole) (arg2 : Memref sig .tc .smem S40000 .i32) (harg2 : arg2.IsWhole)
    (arg3 : Memref sig .tc .vmem S1x1x128 .f32) (harg3 : arg3.IsWhole) (arg4 : Memref sig .tc .vmem S1x1x128 .f32) (harg4 : arg4.IsWhole)
    (arg5 : Memref sig .tc .vmem S1x1x128 .f32) (harg5 : arg5.IsWhole)
    (x0 x1 : Vec F S1x1x128 .f32) (K : PUnit → sProp 𝕄) :
    iprop(owns (c : Thread nD τ) arg3 fullShare x0 ∗ owns (c : Thread nD τ) arg4 fullShare x1 ∗ (∃ d, owns (c : Thread nD τ) arg5 fullShare d)
        ∗ (iprop(owns (c : Thread nD τ) arg3 fullShare x0 ∗ owns (c : Thread nD τ) arg4 fullShare x1
            ∗ owns (c : Thread nD τ) arg5 fullShare (out18_2 x0 x1)) -∗ K ⟨⟩))
      ⊢ wp frame (wpE (defs₀ (F := F)) Variants.none c none) E (cc18__gather_kernel i arg1 harg1 arg2 harg2 arg3 harg3 arg4 harg4 arg5 harg5) K := by
  simp only [cc18__gather_kernel_eq_skeleton]; unfold cc18__gather_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover18_2 _)

/-! ## The pipeline's proof data -/

/-- The proof data of this pipeline on core `c`: the arrays as the region finds them; after the body at point `t` each
    gathered input's buffer at its block and the output's at `out18_2` of the two; the invariant: the scoped rest, the
    generator register, and the two index tables held whole and untouched; nothing owed; full shares. -/
def dat18 (c : Dev nD) : Dat τ (Elt F) Unit ℕ (UR sig nD τ) ℕ (cfg18 a) c where
  A w := V c (Pipeline.arrRef spec18 w)
  after w t := match w with
    | ⟨0, _⟩ => iblk18 V a c 0 t
    | ⟨1, _⟩ => iblk18 V a c 1 t
    | ⟨2, _⟩ => out18_2 (iblk18 V a c 0 t) (iblk18 V a c 1 t)
  Φ _ := iprop(Pipeline.ΦA spec18 c ∗ Pipeline.prefHeld (Ix := Unit) (Name := ℕ) (U := UR sig nD τ) (Lvl := ℕ) pre18 c (fun _ => fullShare) a.1)
  q _ := fullShare
  owed _ := 0

theorem A_eq18 (c : Dev nD) (w : Fin (cfg18 a).W) : (dat18 V a c).A w = V c (Pipeline.arrRef spec18 w) := by
  dsimp only [dat18]

theorem after18_0 (c : Dev nD) (t : Fin (cfg18 a).N) : (dat18 V a c).after 0 t = iblk18 V a c 0 t := by dsimp only [dat18]; try rfl
theorem after18_1 (c : Dev nD) (t : Fin (cfg18 a).N) : (dat18 V a c).after 1 t = iblk18 V a c 1 t := by dsimp only [dat18]; try rfl
theorem after18_2 (c : Dev nD) (t : Fin (cfg18 a).N) : (dat18 V a c).after 2 t = out18_2 (iblk18 V a c 0 t) (iblk18 V a c 1 t) := by dsimp only [dat18]; try rfl

theorem before18_0 (c : Dev nD) (t : Fin (cfg18 a).N) (d) : (dat18 V a c).before 0 t d = iblk18 V a c 0 t :=
  before18_0_of V a (dat18 V a c) (A_eq18 V a c 0) (after18_0 V a c) t d
theorem before18_1 (c : Dev nD) (t : Fin (cfg18 a).N) (d) : (dat18 V a c).before 1 t d = iblk18 V a c 1 t :=
  before18_1_of V a (dat18 V a c) (A_eq18 V a c 1) (after18_1 V a c) t d

/-! ## The body obligation, at a generic point -/

def bodyPre18 (c : Dev nD) (t : Fin (cfg18 a).N) : sProp 𝕄 :=
  iprop((dat18 V a c).Φ t.castSucc ∗ (dat18 V a c).owesAt () t.castSucc
    ∗ (∃ d, owns (c : Thread nD τ) (ms18_0 a t) fullShare ((dat18 V a c).before 0 t d))
    ∗ (∃ d, owns (c : Thread nD τ) (ms18_1 a t) fullShare ((dat18 V a c).before 1 t d))
    ∗ (∃ d, owns (c : Thread nD τ) (ms18_2 a t) fullShare ((dat18 V a c).before 2 t d)))

def bodyPost18 (c : Dev nD) (t : Fin (cfg18 a).N) : sProp 𝕄 :=
  iprop((dat18 V a c).Φ t.succ ∗ (dat18 V a c).owesAt () t.succ
    ∗ owns (c : Thread nD τ) (ms18_0 a t) fullShare ((dat18 V a c).after 0 t)
    ∗ owns (c : Thread nD τ) (ms18_1 a t) fullShare ((dat18 V a c).after 1 t)
    ∗ owns (c : Thread nD τ) (ms18_2 a t) fullShare ((dat18 V a c).after 2 t))

/-- The body at any point: the inputs' memrefs hold their blocks, so the run applies; the invariant and the core's
    dues pass through unread. -/
theorem sound_body18 (c : Dev nD) (t : Fin (cfg18 a).N) :
    bodyPre18 V a c t ⊢ wp frame (wpE (defs₀ (F := F)) Variants.none c none) Set.univ (bodyAt18 a t) (fun _ => bodyPost18 V a c t) := by
  unfold bodyPre18 bodyPost18 bodyAt18
  simp only [before18_0, before18_1]
  rw [show (dat18 V a c).Φ t.succ = (dat18 V a c).Φ t.castSucc from rfl,
    show (dat18 V a c).owesAt () t.succ = (dat18 V a c).owesAt () t.castSucc from rfl,
    after18_0, after18_1, after18_2]
  iintro ⟨HΦ, Ho, ⟨%d0, H0⟩, ⟨%d1, H1⟩, ⟨%d2, H2⟩⟩
  iapply (sound_kernel18 c Set.univ _ _ _ _ _ _ _ _ _ _ _ (iblk18 V a c 0 t) (iblk18 V a c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation18 (c : Dev nD) : BodyObligation (dat18 (F := F) V a c) (defs₀ (F := F)) Variants.none () Set.univ := fun t => by
  rw [bigSep_W18, bigSep_W18]
  exact sound_body18 V a c t

end Region

end Cert.KernelIdeal.Hand

end
-- ==== Proof.KI.Tables18.lean ====
/-
  Edge chunk 18's index tables. The host slices 40000 consecutive words, from word 680000 on, out of each endpoint
  array (src, then dst) into scalar memory; the chunk's pipeline reads word t of each as the block row of its two
  gathered windows at grid point t. When every endpoint word is a node id (below 50000) each such row lies inside
  the 50000-row arrays: the tables' contents are admissible for the pipeline.
-/
import proofs.«413139_j22651657519351_3_alg».proof.Proof.Gen.KernelIdeal.Launch
import proofs.«413139_j22651657519351_3_alg».proof.Proof.Gen.KernelIdeal.Skeleton
import proofs.«413139_j22651657519351_3_alg».proof.Proof.Gen.KernelIdeal.Points
import proofs.«413139_j22651657519351_3_alg».proof.Proof.KI.Range
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Tables

variable (m : (ℓ : Loc nD τ sig) → Buf (Elt F) ℓ)

/-- The two tables' contents, read off the launch memory: the endpoint arrays' words 680000 … 680000 + 39999. -/
def tbl18 : pre18.Contents (Elt F) := fun k => match k with
  | ⟨0, _⟩ => (extractStridedSlice S40000 ![680000] (m (((0 : Dev nD) : Thread nD τ).loc main_arg1)) slices_S800000_S40000_680000 : (⟨S40000, .i32⟩ : BufTy).Contents (Elt F))
  | ⟨1, _⟩ => (extractStridedSlice S40000 ![680000] (m (((0 : Dev nD) : Thread nD τ).loc main_arg2)) slices_S800000_S40000_680000 : (⟨S40000, .i32⟩ : BufTy).Contents (Elt F))

/-- Tables whose every word is below the node count put every gathered block inside its array: row word + 1 ≤ 50000,
    the two unit axes and the 128 lanes exactly filled; float32 words transfer whole. -/
theorem ok18_of (pf : pre18.Contents (Elt F)) (h0 : ∀ j, ((pf 0 j : Elt F .i32) : BitVec 32).toNat < 50000)
    (h1 : ∀ j, ((pf 1 j : Elt F .i32) : BitVec 32).toNat < 50000) : ok18 pf := by
  refine ⟨fun i => ⟨fun a => ?_, Or.inl rfl⟩, fun i => ⟨fun a => ?_, Or.inl rfl⟩⟩
  · match a with
    | ⟨0, _⟩ =>
      show (BitVec.toNat (pf 0 _) + 1) * 1 ≤ 50000
      exact (Nat.mul_one _).le.trans (Nat.succ_le_of_lt (h0 _))
    | ⟨1, _⟩ => show (BitVec.toNat (0#32) + 1) * 1 ≤ 1; decide
    | ⟨2, _⟩ => show (BitVec.toNat (0#32) + 1) * 128 ≤ 128; decide
  · match a with
    | ⟨0, _⟩ =>
      show (BitVec.toNat (pf 1 _) + 1) * 1 ≤ 50000
      exact (Nat.mul_one _).le.trans (Nat.succ_le_of_lt (h1 _))
    | ⟨1, _⟩ => show (BitVec.toNat (0#32) + 1) * 1 ≤ 1; decide
    | ⟨2, _⟩ => show (BitVec.toNat (0#32) + 1) * 128 ≤ 128; decide

/-- The chunk's tables as admissible contents, when the endpoint words are node ids. -/
def a18 (hR : InRange m) : (pcfg18 (F := F)).Adm :=
  ⟨tbl18 m, ok18_of (tbl18 m) (fun j => (hR 0).1 _) (fun j => (hR 0).2 _)⟩

theorem a18_val (hR : InRange m) : (a18 m hR).1 = tbl18 m := rfl

end Tables

end Cert.KernelIdeal.Hand

end
-- ==== Proof.KI.Region19.lean ====
/-
  Edge chunk 19's gather kernel (twenty chunks of 40000 edges): at grid point t the pipeline fetches row src[t] of the
  re-laid projection hs2 and row dst[t] of hd2 (two blocks of 128 lanes, chosen by the prefetched index tables),
  the body stores (row + row) · c into the output block, which is written back as row t of the chunk's output.
  Here: what each window's staging buffer holds before and after the body at every point, for any contents V of the
  buffers at the region's entry and any admissible contents `a` of the two index tables, and the body's run.
  The tables ride through the region untouched: the body never reads them.
-/
import proofs.«413139_j22651657519351_3_alg».proof.Proof.Gen.KernelIdeal.Launch
import proofs.«413139_j22651657519351_3_alg».proof.Proof.Gen.KernelIdeal.Skeleton
import proofs.«413139_j22651657519351_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region

variable (V : (c : Dev nD) → (b : Ref sig .tc) → Buf (Elt F) ((c : Thread nD τ).loc b))
variable (a : (pcfg19 (F := F)).Adm)

/-! ## The body as the pipeline calls it at a point -/

/-- Each window's current staging memref at point `t`, and its wholeness. -/
abbrev ms19_0 (t : Fin (cfg19 a).N) : Memref sig .tc .vmem S1x1x128 .f32 := spec19_0.stage ((cfg19 a).slots t 0)
abbrev hs19_0 (t : Fin (cfg19 a).N) : (ms19_0 a t).IsWhole := hstage19_0 (((cfg19 a).slots t 0).cast nbuf19_0)
abbrev ms19_1 (t : Fin (cfg19 a).N) : Memref sig .tc .vmem S1x1x128 .f32 := spec19_1.stage ((cfg19 a).slots t 1)
abbrev hs19_1 (t : Fin (cfg19 a).N) : (ms19_1 a t).IsWhole := hstage19_1 (((cfg19 a).slots t 1).cast nbuf19_1)
abbrev ms19_2 (t : Fin (cfg19 a).N) : Memref sig .tc .vmem S1x1x128 .f32 := spec19_2.stage ((cfg19 a).slots t 2)
abbrev hs19_2 (t : Fin (cfg19 a).N) : (ms19_2 a t).IsWhole := hstage19_2 (((cfg19 a).slots t 2).cast nbuf19_2)

/-- The kernel body at point `t`, on what the pipeline calls it with. -/
abbrev bodyAt19 (t : Fin (cfg19 a).N) : Prog (TpuEff nD τ sig (Elt F) Λ₀ .tc) PUnit :=
  cc19__gather_kernel (grid19.coords t) (Memref.whole main_v77) (Memref.isWhole_whole _) (Memref.whole main_v78) (Memref.isWhole_whole _)
    (ms19_0 a t) (hs19_0 a t) (ms19_1 a t) (hs19_1 a t) (ms19_2 a t) (hs19_2 a t)

/-! ## The windows' blocks -/

/-- Window `w`'s block at point `t`, read off its array as the region finds it: for the two gathered windows the
    row the tables' word at `t` names. -/
def iblk19 (c : Dev nD) (w : Fin (cfg19 a).W) (t : Fin (cfg19 a).N) :
    (((cfg19 a).win w).xblock ((cfg19 a).grid.coords t)).Idx → Elt F ((cfg19 a).win w).elt :=
  (((cfg19 a).win w).blk t).view.read (Elt F) (V c (Pipeline.arrRef spec19 w))

/-- An input window's current staging buffer holds its block at every point, fetched there or not. -/
theorem before19_0_of {c : Dev nD} (dat : Dat τ (Elt F) Unit ℕ (UR sig nD τ) ℕ (cfg19 a) c) (hA : dat.A 0 = V c (Pipeline.arrRef spec19 0))
    (hafter : ∀ t, dat.after 0 t = iblk19 V a c 0 t) (t : Fin (cfg19 a).N) (d) : dat.before 0 t d = iblk19 V a c 0 t :=
  (dat.before_in_eq_fetched 0 rfl (fun _ => rfl) (fun _ _ _ => rfl) (fun t => by rw [hafter]; unfold Dat.blockOf iblk19; rw [hA]; try rfl) t d).trans
    (by unfold Dat.fetched Dat.blockOf iblk19; rw [hA]; try rfl)

theorem before19_1_of {c : Dev nD} (dat : Dat τ (Elt F) Unit ℕ (UR sig nD τ) ℕ (cfg19 a) c) (hA : dat.A 1 = V c (Pipeline.arrRef spec19 1))
    (hafter : ∀ t, dat.after 1 t = iblk19 V a c 1 t) (t : Fin (cfg19 a).N) (d) : dat.before 1 t d = iblk19 V a c 1 t :=
  (dat.before_in_eq_fetched 1 rfl (fun _ => rfl) (fun _ _ _ => rfl) (fun t => by rw [hafter]; unfold Dat.blockOf iblk19; rw [hA]; try rfl) t d).trans
    (by unfold Dat.fetched Dat.blockOf iblk19; rw [hA]; try rfl)

/-! ## What the body leaves in the output window's buffer -/

/-- The one rectangle the body loads and stores through: the whole 1×1×128 block. -/
abbrev r19 : Rect S1x1x128 := Rect.unit (s := S1x1x128) ![0, 0, 0] S1x1x128.size inb_S1x1x128_S1x1x128_0_0_0

/-- The output block after the body, from the two gathered rows: its one store. -/
def out19_2 (x0 x1 : Vec F S1x1x128 .f32) : Vec F S1x1x128 .f32 :=
  View.canon [⟨r19, k19_pay1 (View.ld x0 r19) (View.ld x1 r19)⟩]

/-- The store covers the block. -/
theorem cover19_2 (p0 : Vec F S1x1x128 .f32) (y : S1x1x128.Idx) :
    ∃ pc ∈ ([⟨r19, p0⟩] : List (View.Piece (Elt F) S1x1x128 .f32)), y ∈ pc.1.set :=
  View.cover_of_tiled [⟨r19, p0⟩] S1x1x128.size (by rfl) y

/-! ## The body's run -/

set_option maxHeartbeats 1000000 in
/-- The body on whole staging memrefs, the two inputs' at contents `x0`, `x1` and the output's at anything, runs to the
    continuation holding the inputs as they were and the output at `out19_2 x0 x1`; the table memrefs are not touched. -/
theorem sound_kernel19 (c : Dev nD) (E : Set ℕ) (i : grid19.Coords)
    (arg1 : Memref sig .tc .smem S40000 .i32) (harg1 : arg1.IsWhole) (arg2 : Memref sig .tc .smem S40000 .i32) (harg2 : arg2.IsWhole)
    (arg3 : Memref sig .tc .vmem S1x1x128 .f32) (harg3 : arg3.IsWhole) (arg4 : Memref sig .tc .vmem S1x1x128 .f32) (harg4 : arg4.IsWhole)
    (arg5 : Memref sig .tc .vmem S1x1x128 .f32) (harg5 : arg5.IsWhole)
    (x0 x1 : Vec F S1x1x128 .f32) (K : PUnit → sProp 𝕄) :
    iprop(owns (c : Thread nD τ) arg3 fullShare x0 ∗ owns (c : Thread nD τ) arg4 fullShare x1 ∗ (∃ d, owns (c : Thread nD τ) arg5 fullShare d)
        ∗ (iprop(owns (c : Thread nD τ) arg3 fullShare x0 ∗ owns (c : Thread nD τ) arg4 fullShare x1
            ∗ owns (c : Thread nD τ) arg5 fullShare (out19_2 x0 x1)) -∗ K ⟨⟩))
      ⊢ wp frame (wpE (defs₀ (F := F)) Variants.none c none) E (cc19__gather_kernel i arg1 harg1 arg2 harg2 arg3 harg3 arg4 harg4 arg5 harg5) K := by
  simp only [cc19__gather_kernel_eq_skeleton]; unfold cc19__gather_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover19_2 _)

/-! ## The pipeline's proof data -/

/-- The proof data of this pipeline on core `c`: the arrays as the region finds them; after the body at point `t` each
    gathered input's buffer at its block and the output's at `out19_2` of the two; the invariant: the scoped rest, the
    generator register, and the two index tables held whole and untouched; nothing owed; full shares. -/
def dat19 (c : Dev nD) : Dat τ (Elt F) Unit ℕ (UR sig nD τ) ℕ (cfg19 a) c where
  A w := V c (Pipeline.arrRef spec19 w)
  after w t := match w with
    | ⟨0, _⟩ => iblk19 V a c 0 t
    | ⟨1, _⟩ => iblk19 V a c 1 t
    | ⟨2, _⟩ => out19_2 (iblk19 V a c 0 t) (iblk19 V a c 1 t)
  Φ _ := iprop(Pipeline.ΦA spec19 c ∗ Pipeline.prefHeld (Ix := Unit) (Name := ℕ) (U := UR sig nD τ) (Lvl := ℕ) pre19 c (fun _ => fullShare) a.1)
  q _ := fullShare
  owed _ := 0

theorem A_eq19 (c : Dev nD) (w : Fin (cfg19 a).W) : (dat19 V a c).A w = V c (Pipeline.arrRef spec19 w) := by
  dsimp only [dat19]

theorem after19_0 (c : Dev nD) (t : Fin (cfg19 a).N) : (dat19 V a c).after 0 t = iblk19 V a c 0 t := by dsimp only [dat19]; try rfl
theorem after19_1 (c : Dev nD) (t : Fin (cfg19 a).N) : (dat19 V a c).after 1 t = iblk19 V a c 1 t := by dsimp only [dat19]; try rfl
theorem after19_2 (c : Dev nD) (t : Fin (cfg19 a).N) : (dat19 V a c).after 2 t = out19_2 (iblk19 V a c 0 t) (iblk19 V a c 1 t) := by dsimp only [dat19]; try rfl

theorem before19_0 (c : Dev nD) (t : Fin (cfg19 a).N) (d) : (dat19 V a c).before 0 t d = iblk19 V a c 0 t :=
  before19_0_of V a (dat19 V a c) (A_eq19 V a c 0) (after19_0 V a c) t d
theorem before19_1 (c : Dev nD) (t : Fin (cfg19 a).N) (d) : (dat19 V a c).before 1 t d = iblk19 V a c 1 t :=
  before19_1_of V a (dat19 V a c) (A_eq19 V a c 1) (after19_1 V a c) t d

/-! ## The body obligation, at a generic point -/

def bodyPre19 (c : Dev nD) (t : Fin (cfg19 a).N) : sProp 𝕄 :=
  iprop((dat19 V a c).Φ t.castSucc ∗ (dat19 V a c).owesAt () t.castSucc
    ∗ (∃ d, owns (c : Thread nD τ) (ms19_0 a t) fullShare ((dat19 V a c).before 0 t d))
    ∗ (∃ d, owns (c : Thread nD τ) (ms19_1 a t) fullShare ((dat19 V a c).before 1 t d))
    ∗ (∃ d, owns (c : Thread nD τ) (ms19_2 a t) fullShare ((dat19 V a c).before 2 t d)))

def bodyPost19 (c : Dev nD) (t : Fin (cfg19 a).N) : sProp 𝕄 :=
  iprop((dat19 V a c).Φ t.succ ∗ (dat19 V a c).owesAt () t.succ
    ∗ owns (c : Thread nD τ) (ms19_0 a t) fullShare ((dat19 V a c).after 0 t)
    ∗ owns (c : Thread nD τ) (ms19_1 a t) fullShare ((dat19 V a c).after 1 t)
    ∗ owns (c : Thread nD τ) (ms19_2 a t) fullShare ((dat19 V a c).after 2 t))

/-- The body at any point: the inputs' memrefs hold their blocks, so the run applies; the invariant and the core's
    dues pass through unread. -/
theorem sound_body19 (c : Dev nD) (t : Fin (cfg19 a).N) :
    bodyPre19 V a c t ⊢ wp frame (wpE (defs₀ (F := F)) Variants.none c none) Set.univ (bodyAt19 a t) (fun _ => bodyPost19 V a c t) := by
  unfold bodyPre19 bodyPost19 bodyAt19
  simp only [before19_0, before19_1]
  rw [show (dat19 V a c).Φ t.succ = (dat19 V a c).Φ t.castSucc from rfl,
    show (dat19 V a c).owesAt () t.succ = (dat19 V a c).owesAt () t.castSucc from rfl,
    after19_0, after19_1, after19_2]
  iintro ⟨HΦ, Ho, ⟨%d0, H0⟩, ⟨%d1, H1⟩, ⟨%d2, H2⟩⟩
  iapply (sound_kernel19 c Set.univ _ _ _ _ _ _ _ _ _ _ _ (iblk19 V a c 0 t) (iblk19 V a c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation19 (c : Dev nD) : BodyObligation (dat19 (F := F) V a c) (defs₀ (F := F)) Variants.none () Set.univ := fun t => by
  rw [bigSep_W19, bigSep_W19]
  exact sound_body19 V a c t

end Region

end Cert.KernelIdeal.Hand

end
-- ==== Proof.KI.Tables19.lean ====
/-
  Edge chunk 19's index tables. The host slices 40000 consecutive words, from word 720000 on, out of each endpoint
  array (src, then dst) into scalar memory; the chunk's pipeline reads word t of each as the block row of its two
  gathered windows at grid point t. When every endpoint word is a node id (below 50000) each such row lies inside
  the 50000-row arrays: the tables' contents are admissible for the pipeline.
-/
import proofs.«413139_j22651657519351_3_alg».proof.Proof.Gen.KernelIdeal.Launch
import proofs.«413139_j22651657519351_3_alg».proof.Proof.Gen.KernelIdeal.Skeleton
import proofs.«413139_j22651657519351_3_alg».proof.Proof.Gen.KernelIdeal.Points
import proofs.«413139_j22651657519351_3_alg».proof.Proof.KI.Range
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Tables

variable (m : (ℓ : Loc nD τ sig) → Buf (Elt F) ℓ)

/-- The two tables' contents, read off the launch memory: the endpoint arrays' words 720000 … 720000 + 39999. -/
def tbl19 : pre19.Contents (Elt F) := fun k => match k with
  | ⟨0, _⟩ => (extractStridedSlice S40000 ![720000] (m (((0 : Dev nD) : Thread nD τ).loc main_arg1)) slices_S800000_S40000_720000 : (⟨S40000, .i32⟩ : BufTy).Contents (Elt F))
  | ⟨1, _⟩ => (extractStridedSlice S40000 ![720000] (m (((0 : Dev nD) : Thread nD τ).loc main_arg2)) slices_S800000_S40000_720000 : (⟨S40000, .i32⟩ : BufTy).Contents (Elt F))

/-- Tables whose every word is below the node count put every gathered block inside its array: row word + 1 ≤ 50000,
    the two unit axes and the 128 lanes exactly filled; float32 words transfer whole. -/
theorem ok19_of (pf : pre19.Contents (Elt F)) (h0 : ∀ j, ((pf 0 j : Elt F .i32) : BitVec 32).toNat < 50000)
    (h1 : ∀ j, ((pf 1 j : Elt F .i32) : BitVec 32).toNat < 50000) : ok19 pf := by
  refine ⟨fun i => ⟨fun a => ?_, Or.inl rfl⟩, fun i => ⟨fun a => ?_, Or.inl rfl⟩⟩
  · match a with
    | ⟨0, _⟩ =>
      show (BitVec.toNat (pf 0 _) + 1) * 1 ≤ 50000
      exact (Nat.mul_one _).le.trans (Nat.succ_le_of_lt (h0 _))
    | ⟨1, _⟩ => show (BitVec.toNat (0#32) + 1) * 1 ≤ 1; decide
    | ⟨2, _⟩ => show (BitVec.toNat (0#32) + 1) * 128 ≤ 128; decide
  · match a with
    | ⟨0, _⟩ =>
      show (BitVec.toNat (pf 1 _) + 1) * 1 ≤ 50000
      exact (Nat.mul_one _).le.trans (Nat.succ_le_of_lt (h1 _))
    | ⟨1, _⟩ => show (BitVec.toNat (0#32) + 1) * 1 ≤ 1; decide
    | ⟨2, _⟩ => show (BitVec.toNat (0#32) + 1) * 128 ≤ 128; decide

/-- The chunk's tables as admissible contents, when the endpoint words are node ids. -/
def a19 (hR : InRange m) : (pcfg19 (F := F)).Adm :=
  ⟨tbl19 m, ok19_of (tbl19 m) (fun j => (hR 0).1 _) (fun j => (hR 0).2 _)⟩

theorem a19_val (hR : InRange m) : (a19 m hR).1 = tbl19 m := rfl

end Tables

end Cert.KernelIdeal.Hand

end
-- ==== Proof.KI.Region20.lean ====
/-
  Edge chunk 20's gather kernel (twenty chunks of 40000 edges): at grid point t the pipeline fetches row src[t] of the
  re-laid projection hs2 and row dst[t] of hd2 (two blocks of 128 lanes, chosen by the prefetched index tables),
  the body stores (row + row) · c into the output block, which is written back as row t of the chunk's output.
  Here: what each window's staging buffer holds before and after the body at every point, for any contents V of the
  buffers at the region's entry and any admissible contents `a` of the two index tables, and the body's run.
  The tables ride through the region untouched: the body never reads them.
-/
import proofs.«413139_j22651657519351_3_alg».proof.Proof.Gen.KernelIdeal.Launch
import proofs.«413139_j22651657519351_3_alg».proof.Proof.Gen.KernelIdeal.Skeleton
import proofs.«413139_j22651657519351_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region

variable (V : (c : Dev nD) → (b : Ref sig .tc) → Buf (Elt F) ((c : Thread nD τ).loc b))
variable (a : (pcfg20 (F := F)).Adm)

/-! ## The body as the pipeline calls it at a point -/

/-- Each window's current staging memref at point `t`, and its wholeness. -/
abbrev ms20_0 (t : Fin (cfg20 a).N) : Memref sig .tc .vmem S1x1x128 .f32 := spec20_0.stage ((cfg20 a).slots t 0)
abbrev hs20_0 (t : Fin (cfg20 a).N) : (ms20_0 a t).IsWhole := hstage20_0 (((cfg20 a).slots t 0).cast nbuf20_0)
abbrev ms20_1 (t : Fin (cfg20 a).N) : Memref sig .tc .vmem S1x1x128 .f32 := spec20_1.stage ((cfg20 a).slots t 1)
abbrev hs20_1 (t : Fin (cfg20 a).N) : (ms20_1 a t).IsWhole := hstage20_1 (((cfg20 a).slots t 1).cast nbuf20_1)
abbrev ms20_2 (t : Fin (cfg20 a).N) : Memref sig .tc .vmem S1x1x128 .f32 := spec20_2.stage ((cfg20 a).slots t 2)
abbrev hs20_2 (t : Fin (cfg20 a).N) : (ms20_2 a t).IsWhole := hstage20_2 (((cfg20 a).slots t 2).cast nbuf20_2)

/-- The kernel body at point `t`, on what the pipeline calls it with. -/
abbrev bodyAt20 (t : Fin (cfg20 a).N) : Prog (TpuEff nD τ sig (Elt F) Λ₀ .tc) PUnit :=
  cc20__gather_kernel (grid20.coords t) (Memref.whole main_v81) (Memref.isWhole_whole _) (Memref.whole main_v82) (Memref.isWhole_whole _)
    (ms20_0 a t) (hs20_0 a t) (ms20_1 a t) (hs20_1 a t) (ms20_2 a t) (hs20_2 a t)

/-! ## The windows' blocks -/

/-- Window `w`'s block at point `t`, read off its array as the region finds it: for the two gathered windows the
    row the tables' word at `t` names. -/
def iblk20 (c : Dev nD) (w : Fin (cfg20 a).W) (t : Fin (cfg20 a).N) :
    (((cfg20 a).win w).xblock ((cfg20 a).grid.coords t)).Idx → Elt F ((cfg20 a).win w).elt :=
  (((cfg20 a).win w).blk t).view.read (Elt F) (V c (Pipeline.arrRef spec20 w))

/-- An input window's current staging buffer holds its block at every point, fetched there or not. -/
theorem before20_0_of {c : Dev nD} (dat : Dat τ (Elt F) Unit ℕ (UR sig nD τ) ℕ (cfg20 a) c) (hA : dat.A 0 = V c (Pipeline.arrRef spec20 0))
    (hafter : ∀ t, dat.after 0 t = iblk20 V a c 0 t) (t : Fin (cfg20 a).N) (d) : dat.before 0 t d = iblk20 V a c 0 t :=
  (dat.before_in_eq_fetched 0 rfl (fun _ => rfl) (fun _ _ _ => rfl) (fun t => by rw [hafter]; unfold Dat.blockOf iblk20; rw [hA]; try rfl) t d).trans
    (by unfold Dat.fetched Dat.blockOf iblk20; rw [hA]; try rfl)

theorem before20_1_of {c : Dev nD} (dat : Dat τ (Elt F) Unit ℕ (UR sig nD τ) ℕ (cfg20 a) c) (hA : dat.A 1 = V c (Pipeline.arrRef spec20 1))
    (hafter : ∀ t, dat.after 1 t = iblk20 V a c 1 t) (t : Fin (cfg20 a).N) (d) : dat.before 1 t d = iblk20 V a c 1 t :=
  (dat.before_in_eq_fetched 1 rfl (fun _ => rfl) (fun _ _ _ => rfl) (fun t => by rw [hafter]; unfold Dat.blockOf iblk20; rw [hA]; try rfl) t d).trans
    (by unfold Dat.fetched Dat.blockOf iblk20; rw [hA]; try rfl)

/-! ## What the body leaves in the output window's buffer -/

/-- The one rectangle the body loads and stores through: the whole 1×1×128 block. -/
abbrev r20 : Rect S1x1x128 := Rect.unit (s := S1x1x128) ![0, 0, 0] S1x1x128.size inb_S1x1x128_S1x1x128_0_0_0

/-- The output block after the body, from the two gathered rows: its one store. -/
def out20_2 (x0 x1 : Vec F S1x1x128 .f32) : Vec F S1x1x128 .f32 :=
  View.canon [⟨r20, k20_pay1 (View.ld x0 r20) (View.ld x1 r20)⟩]

/-- The store covers the block. -/
theorem cover20_2 (p0 : Vec F S1x1x128 .f32) (y : S1x1x128.Idx) :
    ∃ pc ∈ ([⟨r20, p0⟩] : List (View.Piece (Elt F) S1x1x128 .f32)), y ∈ pc.1.set :=
  View.cover_of_tiled [⟨r20, p0⟩] S1x1x128.size (by rfl) y

/-! ## The body's run -/

set_option maxHeartbeats 1000000 in
/-- The body on whole staging memrefs, the two inputs' at contents `x0`, `x1` and the output's at anything, runs to the
    continuation holding the inputs as they were and the output at `out20_2 x0 x1`; the table memrefs are not touched. -/
theorem sound_kernel20 (c : Dev nD) (E : Set ℕ) (i : grid20.Coords)
    (arg1 : Memref sig .tc .smem S40000 .i32) (harg1 : arg1.IsWhole) (arg2 : Memref sig .tc .smem S40000 .i32) (harg2 : arg2.IsWhole)
    (arg3 : Memref sig .tc .vmem S1x1x128 .f32) (harg3 : arg3.IsWhole) (arg4 : Memref sig .tc .vmem S1x1x128 .f32) (harg4 : arg4.IsWhole)
    (arg5 : Memref sig .tc .vmem S1x1x128 .f32) (harg5 : arg5.IsWhole)
    (x0 x1 : Vec F S1x1x128 .f32) (K : PUnit → sProp 𝕄) :
    iprop(owns (c : Thread nD τ) arg3 fullShare x0 ∗ owns (c : Thread nD τ) arg4 fullShare x1 ∗ (∃ d, owns (c : Thread nD τ) arg5 fullShare d)
        ∗ (iprop(owns (c : Thread nD τ) arg3 fullShare x0 ∗ owns (c : Thread nD τ) arg4 fullShare x1
            ∗ owns (c : Thread nD τ) arg5 fullShare (out20_2 x0 x1)) -∗ K ⟨⟩))
      ⊢ wp frame (wpE (defs₀ (F := F)) Variants.none c none) E (cc20__gather_kernel i arg1 harg1 arg2 harg2 arg3 harg3 arg4 harg4 arg5 harg5) K := by
  simp only [cc20__gather_kernel_eq_skeleton]; unfold cc20__gather_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover20_2 _)

/-! ## The pipeline's proof data -/

/-- The proof data of this pipeline on core `c`: the arrays as the region finds them; after the body at point `t` each
    gathered input's buffer at its block and the output's at `out20_2` of the two; the invariant: the scoped rest, the
    generator register, and the two index tables held whole and untouched; nothing owed; full shares. -/
def dat20 (c : Dev nD) : Dat τ (Elt F) Unit ℕ (UR sig nD τ) ℕ (cfg20 a) c where
  A w := V c (Pipeline.arrRef spec20 w)
  after w t := match w with
    | ⟨0, _⟩ => iblk20 V a c 0 t
    | ⟨1, _⟩ => iblk20 V a c 1 t
    | ⟨2, _⟩ => out20_2 (iblk20 V a c 0 t) (iblk20 V a c 1 t)
  Φ _ := iprop(Pipeline.ΦA spec20 c ∗ Pipeline.prefHeld (Ix := Unit) (Name := ℕ) (U := UR sig nD τ) (Lvl := ℕ) pre20 c (fun _ => fullShare) a.1)
  q _ := fullShare
  owed _ := 0

theorem A_eq20 (c : Dev nD) (w : Fin (cfg20 a).W) : (dat20 V a c).A w = V c (Pipeline.arrRef spec20 w) := by
  dsimp only [dat20]

theorem after20_0 (c : Dev nD) (t : Fin (cfg20 a).N) : (dat20 V a c).after 0 t = iblk20 V a c 0 t := by dsimp only [dat20]; try rfl
theorem after20_1 (c : Dev nD) (t : Fin (cfg20 a).N) : (dat20 V a c).after 1 t = iblk20 V a c 1 t := by dsimp only [dat20]; try rfl
theorem after20_2 (c : Dev nD) (t : Fin (cfg20 a).N) : (dat20 V a c).after 2 t = out20_2 (iblk20 V a c 0 t) (iblk20 V a c 1 t) := by dsimp only [dat20]; try rfl

theorem before20_0 (c : Dev nD) (t : Fin (cfg20 a).N) (d) : (dat20 V a c).before 0 t d = iblk20 V a c 0 t :=
  before20_0_of V a (dat20 V a c) (A_eq20 V a c 0) (after20_0 V a c) t d
theorem before20_1 (c : Dev nD) (t : Fin (cfg20 a).N) (d) : (dat20 V a c).before 1 t d = iblk20 V a c 1 t :=
  before20_1_of V a (dat20 V a c) (A_eq20 V a c 1) (after20_1 V a c) t d

/-! ## The body obligation, at a generic point -/

def bodyPre20 (c : Dev nD) (t : Fin (cfg20 a).N) : sProp 𝕄 :=
  iprop((dat20 V a c).Φ t.castSucc ∗ (dat20 V a c).owesAt () t.castSucc
    ∗ (∃ d, owns (c : Thread nD τ) (ms20_0 a t) fullShare ((dat20 V a c).before 0 t d))
    ∗ (∃ d, owns (c : Thread nD τ) (ms20_1 a t) fullShare ((dat20 V a c).before 1 t d))
    ∗ (∃ d, owns (c : Thread nD τ) (ms20_2 a t) fullShare ((dat20 V a c).before 2 t d)))

def bodyPost20 (c : Dev nD) (t : Fin (cfg20 a).N) : sProp 𝕄 :=
  iprop((dat20 V a c).Φ t.succ ∗ (dat20 V a c).owesAt () t.succ
    ∗ owns (c : Thread nD τ) (ms20_0 a t) fullShare ((dat20 V a c).after 0 t)
    ∗ owns (c : Thread nD τ) (ms20_1 a t) fullShare ((dat20 V a c).after 1 t)
    ∗ owns (c : Thread nD τ) (ms20_2 a t) fullShare ((dat20 V a c).after 2 t))

/-- The body at any point: the inputs' memrefs hold their blocks, so the run applies; the invariant and the core's
    dues pass through unread. -/
theorem sound_body20 (c : Dev nD) (t : Fin (cfg20 a).N) :
    bodyPre20 V a c t ⊢ wp frame (wpE (defs₀ (F := F)) Variants.none c none) Set.univ (bodyAt20 a t) (fun _ => bodyPost20 V a c t) := by
  unfold bodyPre20 bodyPost20 bodyAt20
  simp only [before20_0, before20_1]
  rw [show (dat20 V a c).Φ t.succ = (dat20 V a c).Φ t.castSucc from rfl,
    show (dat20 V a c).owesAt () t.succ = (dat20 V a c).owesAt () t.castSucc from rfl,
    after20_0, after20_1, after20_2]
  iintro ⟨HΦ, Ho, ⟨%d0, H0⟩, ⟨%d1, H1⟩, ⟨%d2, H2⟩⟩
  iapply (sound_kernel20 c Set.univ _ _ _ _ _ _ _ _ _ _ _ (iblk20 V a c 0 t) (iblk20 V a c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation20 (c : Dev nD) : BodyObligation (dat20 (F := F) V a c) (defs₀ (F := F)) Variants.none () Set.univ := fun t => by
  rw [bigSep_W20, bigSep_W20]
  exact sound_body20 V a c t

end Region

end Cert.KernelIdeal.Hand

end
-- ==== Proof.KI.Tables20.lean ====
/-
  Edge chunk 20's index tables. The host slices 40000 consecutive words, from word 760000 on, out of each endpoint
  array (src, then dst) into scalar memory; the chunk's pipeline reads word t of each as the block row of its two
  gathered windows at grid point t. When every endpoint word is a node id (below 50000) each such row lies inside
  the 50000-row arrays: the tables' contents are admissible for the pipeline.
-/
import proofs.«413139_j22651657519351_3_alg».proof.Proof.Gen.KernelIdeal.Launch
import proofs.«413139_j22651657519351_3_alg».proof.Proof.Gen.KernelIdeal.Skeleton
import proofs.«413139_j22651657519351_3_alg».proof.Proof.Gen.KernelIdeal.Points
import proofs.«413139_j22651657519351_3_alg».proof.Proof.KI.Range
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Tables

variable (m : (ℓ : Loc nD τ sig) → Buf (Elt F) ℓ)

/-- The two tables' contents, read off the launch memory: the endpoint arrays' words 760000 … 760000 + 39999. -/
def tbl20 : pre20.Contents (Elt F) := fun k => match k with
  | ⟨0, _⟩ => (extractStridedSlice S40000 ![760000] (m (((0 : Dev nD) : Thread nD τ).loc main_arg1)) slices_S800000_S40000_760000 : (⟨S40000, .i32⟩ : BufTy).Contents (Elt F))
  | ⟨1, _⟩ => (extractStridedSlice S40000 ![760000] (m (((0 : Dev nD) : Thread nD τ).loc main_arg2)) slices_S800000_S40000_760000 : (⟨S40000, .i32⟩ : BufTy).Contents (Elt F))

/-- Tables whose every word is below the node count put every gathered block inside its array: row word + 1 ≤ 50000,
    the two unit axes and the 128 lanes exactly filled; float32 words transfer whole. -/
theorem ok20_of (pf : pre20.Contents (Elt F)) (h0 : ∀ j, ((pf 0 j : Elt F .i32) : BitVec 32).toNat < 50000)
    (h1 : ∀ j, ((pf 1 j : Elt F .i32) : BitVec 32).toNat < 50000) : ok20 pf := by
  refine ⟨fun i => ⟨fun a => ?_, Or.inl rfl⟩, fun i => ⟨fun a => ?_, Or.inl rfl⟩⟩
  · match a with
    | ⟨0, _⟩ =>
      show (BitVec.toNat (pf 0 _) + 1) * 1 ≤ 50000
      exact (Nat.mul_one _).le.trans (Nat.succ_le_of_lt (h0 _))
    | ⟨1, _⟩ => show (BitVec.toNat (0#32) + 1) * 1 ≤ 1; decide
    | ⟨2, _⟩ => show (BitVec.toNat (0#32) + 1) * 128 ≤ 128; decide
  · match a with
    | ⟨0, _⟩ =>
      show (BitVec.toNat (pf 1 _) + 1) * 1 ≤ 50000
      exact (Nat.mul_one _).le.trans (Nat.succ_le_of_lt (h1 _))
    | ⟨1, _⟩ => show (BitVec.toNat (0#32) + 1) * 1 ≤ 1; decide
    | ⟨2, _⟩ => show (BitVec.toNat (0#32) + 1) * 128 ≤ 128; decide

/-- The chunk's tables as admissible contents, when the endpoint words are node ids. -/
def a20 (hR : InRange m) : (pcfg20 (F := F)).Adm :=
  ⟨tbl20 m, ok20_of (tbl20 m) (fun j => (hR 0).1 _) (fun j => (hR 0).2 _)⟩

theorem a20_val (hR : InRange m) : (a20 m hR).1 = tbl20 m := rfl

end Tables

end Cert.KernelIdeal.Hand

end
-- ==== Proof.KI.Fold.lean ====
/-
  The fold through @main: what the TensorCore's buffers hold at each of the 43 boundaries between the program's 42
  items (21 pallas_calls alternating with 21 stretches of host operations), from the launch memory on.
  A host stretch maps the valuation before it to `StableHlo.after` of its operations; a pallas_call replaces the
  arrays of its windows by what its pipeline's write-backs leave (the inputs as entered, the output folded block by
  block) and leaves every other buffer as entered. Each item leaves the buffers it does not write alone; in
  particular the five argument arrays reach every boundary as launched, and each chunk's two index tables, sliced
  out of the endpoint arrays by the stretch before its pallas_call, are at that call's entry the slices of the LAUNCH
  contents. Last: the twenty-one pipelines' admissible table contents and proof data as literal families.
-/
import proofs.«413139_j22651657519351_3_alg».proof.Proof.Gen.KernelIdeal.Launch
import proofs.«413139_j22651657519351_3_alg».proof.Proof.Gen.KernelIdeal.Skeleton
import proofs.«413139_j22651657519351_3_alg».proof.Proof.Gen.KernelIdeal.Points
import proofs.«413139_j22651657519351_3_alg».proof.Proof.KI.RegionsP
import proofs.«413139_j22651657519351_3_alg».proof.Proof.KI.Region0
import proofs.«413139_j22651657519351_3_alg».proof.Proof.KI.Region1
import proofs.«413139_j22651657519351_3_alg».proof.Proof.KI.Tables1
import proofs.«413139_j22651657519351_3_alg».proof.Proof.KI.Region2
import proofs.«413139_j22651657519351_3_alg».proof.Proof.KI.Tables2
import proofs.«413139_j22651657519351_3_alg».proof.Proof.KI.Region3
import proofs.«413139_j22651657519351_3_alg».proof.Proof.KI.Tables3
import proofs.«413139_j22651657519351_3_alg».proof.Proof.KI.Region4
import proofs.«413139_j22651657519351_3_alg».proof.Proof.KI.Tables4
import proofs.«413139_j22651657519351_3_alg».proof.Proof.KI.Region5
import proofs.«413139_j22651657519351_3_alg».proof.Proof.KI.Tables5
import proofs.«413139_j22651657519351_3_alg».proof.Proof.KI.Region6
import proofs.«413139_j22651657519351_3_alg».proof.Proof.KI.Tables6
import proofs.«413139_j22651657519351_3_alg».proof.Proof.KI.Region7
import proofs.«413139_j22651657519351_3_alg».proof.Proof.KI.Tables7
import proofs.«413139_j22651657519351_3_alg».proof.Proof.KI.Region8
import proofs.«413139_j22651657519351_3_alg».proof.Proof.KI.Tables8
import proofs.«413139_j22651657519351_3_alg».proof.Proof.KI.Region9
import proofs.«413139_j22651657519351_3_alg».proof.Proof.KI.Tables9
import proofs.«413139_j22651657519351_3_alg».proof.Proof.KI.Region10
import proofs.«413139_j22651657519351_3_alg».proof.Proof.KI.Tables10
import proofs.«413139_j22651657519351_3_alg».proof.Proof.KI.Region11
import proofs.«413139_j22651657519351_3_alg».proof.Proof.KI.Tables11
import proofs.«413139_j22651657519351_3_alg».proof.Proof.KI.Region12
import proofs.«413139_j22651657519351_3_alg».proof.Proof.KI.Tables12
import proofs.«413139_j22651657519351_3_alg».proof.Proof.KI.Region13
import proofs.«413139_j22651657519351_3_alg».proof.Proof.KI.Tables13
import proofs.«413139_j22651657519351_3_alg».proof.Proof.KI.Region14
import proofs.«413139_j22651657519351_3_alg».proof.Proof.KI.Tables14
import proofs.«413139_j22651657519351_3_alg».proof.Proof.KI.Region15
import proofs.«413139_j22651657519351_3_alg».proof.Proof.KI.Tables15
import proofs.«413139_j22651657519351_3_alg».proof.Proof.KI.Region16
import proofs.«413139_j22651657519351_3_alg».proof.Proof.KI.Tables16
import proofs.«413139_j22651657519351_3_alg».proof.Proof.KI.Region17
import proofs.«413139_j22651657519351_3_alg».proof.Proof.KI.Tables17
import proofs.«413139_j22651657519351_3_alg».proof.Proof.KI.Region18
import proofs.«413139_j22651657519351_3_alg».proof.Proof.KI.Tables18
import proofs.«413139_j22651657519351_3_alg».proof.Proof.KI.Region19
import proofs.«413139_j22651657519351_3_alg».proof.Proof.KI.Tables19
import proofs.«413139_j22651657519351_3_alg».proof.Proof.KI.Region20
import proofs.«413139_j22651657519351_3_alg».proof.Proof.KI.Tables20
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Fold

variable (m : (ℓ : Loc nD τ sig) → Buf (Elt F) ℓ)

/-! ## The launch, and the projection call (item 0) -/

/-- Core `c`'s buffers at launch. -/
abbrev W0 (hR : InRange m) : Dev nD → Valuation τ sig (Elt F) := fun c b => m (c, b)
/-- The same read at the TensorCore's references. -/
abbrev V0 (hR : InRange m) : (c : Dev nD) → (b : Ref sig .tc) → Buf (Elt F) ((c : Thread nD τ).loc b) := fun c b => W0 m hR c b
theorem W0_arg0 (hR : InRange m) (c : Dev nD) : W0 m hR c main_arg0 = m ((c : Thread nD τ).loc main_arg0) := rfl
theorem W0_arg1 (hR : InRange m) (c : Dev nD) : W0 m hR c main_arg1 = m ((c : Thread nD τ).loc main_arg1) := rfl
theorem W0_arg2 (hR : InRange m) (c : Dev nD) : W0 m hR c main_arg2 = m ((c : Thread nD τ).loc main_arg2) := rfl
theorem W0_arg3 (hR : InRange m) (c : Dev nD) : W0 m hR c main_arg3 = m ((c : Thread nD τ).loc main_arg3) := rfl
theorem W0_arg4 (hR : InRange m) (c : Dev nD) : W0 m hR c main_arg4 = m ((c : Thread nD τ).loc main_arg4) := rfl

/-- At the projection call's exit: its five arrays at what the pipeline leaves, every other buffer as entered. -/
def W1 (hR : InRange m) (c : Dev nD) : Valuation τ sig (Elt F) :=
  Pipeline.withArrays spec0 c (W0 m hR c) fun w => (dat0 (V0 m hR) c).arrAt w cfg0.N
theorem W1_arr (hR : InRange m) (c : Dev nD) (w : Fin cfg0.W) :
    W1 m hR c (Proc.devRef .tc (Pipeline.arrRef spec0 w)) = (dat0 (V0 m hR) c).arrAt w cfg0.N := by
  unfold W1; exact Pipeline.withArrays_arr spec0 (launch0 (F := F)).win.arr_inj c _ _ w
theorem W1_of_ne (hR : InRange m) (c : Dev nD) (b : Ref sig .tc) (hb : ∀ w, Pipeline.arrRef spec0 w ≠ b) :
    W1 m hR c (Proc.devRef .tc b) = W0 m hR c (Proc.devRef .tc b) := by
  unfold W1; exact Pipeline.withArrays_of_ne spec0 c _ _ b hb
abbrev V1 (hR : InRange m) : (c : Dev nD) → (b : Ref sig .tc) → Buf (Elt F) ((c : Thread nD τ).loc b) := fun c b => W1 m hR c b
theorem hF0 (hR : InRange m) (c : Dev nD) (w : Fin cfg0.W) : (dat0 (V0 m hR) c).arrAt w cfg0.N = V1 m hR c (Pipeline.arrRef spec0 w) :=
  (W1_arr m hR c w).symm
theorem hrest0 (hR : InRange m) (c : Dev nD) : ∀ b, b ∉ Finset.univ.image (Pipeline.arrRef spec0) → V1 m hR c b = V0 m hR c b :=
  fun b hb => W1_of_ne m hR c b fun w e => hb (Finset.mem_image.mpr ⟨w, Finset.mem_univ _, e⟩)
/-- An input array of the projection call is left as entered. -/
theorem W1_in (hR : InRange m) (c : Dev nD) (w : Fin cfg0.W) (hw : (cfg0.win w).isOut = false) :
    W1 m hR c (Proc.devRef .tc (Pipeline.arrRef spec0 w)) = W0 m hR c (Proc.devRef .tc (Pipeline.arrRef spec0 w)) :=
  (W1_arr m hR c w).trans (((dat0 (V0 m hR) c).arrAt_in w hw _).trans (A_eq0 (V0 m hR) c w))
theorem W1_arg0 (hR : InRange m) (c : Dev nD) : W1 m hR c main_arg0 = m ((c : Thread nD τ).loc main_arg0) := (W1_in m hR c 0 rfl).trans (W0_arg0 m hR c)
theorem W1_arg1 (hR : InRange m) (c : Dev nD) : W1 m hR c main_arg1 = m ((c : Thread nD τ).loc main_arg1) := (W1_of_ne m hR c main_arg1 (by decide)).trans (W0_arg1 m hR c)
theorem W1_arg2 (hR : InRange m) (c : Dev nD) : W1 m hR c main_arg2 = m ((c : Thread nD τ).loc main_arg2) := (W1_of_ne m hR c main_arg2 (by decide)).trans (W0_arg2 m hR c)
theorem W1_arg3 (hR : InRange m) (c : Dev nD) : W1 m hR c main_arg3 = m ((c : Thread nD τ).loc main_arg3) := (W1_in m hR c 1 rfl).trans (W0_arg3 m hR c)
theorem W1_arg4 (hR : InRange m) (c : Dev nD) : W1 m hR c main_arg4 = m ((c : Thread nD τ).loc main_arg4) := (W1_in m hR c 2 rfl).trans (W0_arg4 m hR c)

/-! ## Host stretch 1 and gather call 1 (items 1 and 2) -/

/-- After host stretch 1: gather call 1's entry. -/
abbrev W2 (hR : InRange m) : Dev nD → Valuation τ sig (Elt F) := fun c => StableHlo.after hostOps1 (W1 m hR c)
abbrev V2 (hR : InRange m) : (c : Dev nD) → (b : Ref sig .tc) → Buf (Elt F) ((c : Thread nD τ).loc b) := fun c b => W2 m hR c b
/-- The stretch leaves every buffer it does not write as it was. -/
theorem W2_of (hR : InRange m) (c : Dev nD) (r : Ref sig .tc) (h : r ∉ hostOps1_W) : W2 m hR c r = W1 m hR c r :=
  StableHlo.after_of_writes_sub hostOps1 _ hostOps1_writes h
theorem W2_arg0 (hR : InRange m) (c : Dev nD) : W2 m hR c main_arg0 = m ((c : Thread nD τ).loc main_arg0) := (W2_of m hR c main_arg0 (by decide)).trans (W1_arg0 m hR c)
theorem W2_arg1 (hR : InRange m) (c : Dev nD) : W2 m hR c main_arg1 = m ((c : Thread nD τ).loc main_arg1) := (W2_of m hR c main_arg1 (by decide)).trans (W1_arg1 m hR c)
theorem W2_arg2 (hR : InRange m) (c : Dev nD) : W2 m hR c main_arg2 = m ((c : Thread nD τ).loc main_arg2) := (W2_of m hR c main_arg2 (by decide)).trans (W1_arg2 m hR c)
theorem W2_arg3 (hR : InRange m) (c : Dev nD) : W2 m hR c main_arg3 = m ((c : Thread nD τ).loc main_arg3) := (W2_of m hR c main_arg3 (by decide)).trans (W1_arg3 m hR c)
theorem W2_arg4 (hR : InRange m) (c : Dev nD) : W2 m hR c main_arg4 = m ((c : Thread nD τ).loc main_arg4) := (W2_of m hR c main_arg4 (by decide)).trans (W1_arg4 m hR c)

/-- At gather call 1's exit: its three arrays at what the pipeline leaves, every other buffer as entered. -/
def W3 (hR : InRange m) (c : Dev nD) : Valuation τ sig (Elt F) :=
  Pipeline.withArrays spec1 c (W2 m hR c) fun w => (dat1 (V2 m hR) (a1 m hR) c).arrAt w (cfg1 (a1 m hR)).N
theorem W3_arr (hR : InRange m) (c : Dev nD) (w : Fin (cfg1 (a1 m hR)).W) :
    W3 m hR c (Proc.devRef .tc (Pipeline.arrRef spec1 w)) = (dat1 (V2 m hR) (a1 m hR) c).arrAt w (cfg1 (a1 m hR)).N := by
  unfold W3; exact Pipeline.withArrays_arr spec1 (launch1 (F := F)).win.arr_inj c _ _ w
theorem W3_of_ne (hR : InRange m) (c : Dev nD) (b : Ref sig .tc) (hb : ∀ w, Pipeline.arrRef spec1 w ≠ b) :
    W3 m hR c (Proc.devRef .tc b) = W2 m hR c (Proc.devRef .tc b) := by
  unfold W3; exact Pipeline.withArrays_of_ne spec1 c _ _ b hb
abbrev V3 (hR : InRange m) : (c : Dev nD) → (b : Ref sig .tc) → Buf (Elt F) ((c : Thread nD τ).loc b) := fun c b => W3 m hR c b
theorem hF1 (hR : InRange m) (c : Dev nD) (w : Fin (cfg1 (a1 m hR)).W) :
    (dat1 (V2 m hR) (a1 m hR) c).arrAt w (cfg1 (a1 m hR)).N = V3 m hR c (Pipeline.arrRef spec1 w) :=
  (W3_arr m hR c w).symm
theorem hrest1 (hR : InRange m) (c : Dev nD) : ∀ b, b ∉ Finset.univ.image (Pipeline.arrRef spec1) → V3 m hR c b = V2 m hR c b :=
  fun b hb => W3_of_ne m hR c b fun w e => hb (Finset.mem_image.mpr ⟨w, Finset.mem_univ _, e⟩)
/-- An input array of the gather call (a re-laid projection) is left as entered. -/
theorem W3_in (hR : InRange m) (c : Dev nD) (w : Fin (cfg1 (a1 m hR)).W) (hw : ((cfg1 (a1 m hR)).win w).isOut = false) :
    W3 m hR c (Proc.devRef .tc (Pipeline.arrRef spec1 w)) = W2 m hR c (Proc.devRef .tc (Pipeline.arrRef spec1 w)) :=
  (W3_arr m hR c w).trans (((dat1 (V2 m hR) (a1 m hR) c).arrAt_in w hw _).trans (A_eq1 (V2 m hR) (a1 m hR) c w))
theorem W3_arg0 (hR : InRange m) (c : Dev nD) : W3 m hR c main_arg0 = m ((c : Thread nD τ).loc main_arg0) := (W3_of_ne m hR c main_arg0 (by decide)).trans (W2_arg0 m hR c)
theorem W3_arg1 (hR : InRange m) (c : Dev nD) : W3 m hR c main_arg1 = m ((c : Thread nD τ).loc main_arg1) := (W3_of_ne m hR c main_arg1 (by decide)).trans (W2_arg1 m hR c)
theorem W3_arg2 (hR : InRange m) (c : Dev nD) : W3 m hR c main_arg2 = m ((c : Thread nD τ).loc main_arg2) := (W3_of_ne m hR c main_arg2 (by decide)).trans (W2_arg2 m hR c)
theorem W3_arg3 (hR : InRange m) (c : Dev nD) : W3 m hR c main_arg3 = m ((c : Thread nD τ).loc main_arg3) := (W3_of_ne m hR c main_arg3 (by decide)).trans (W2_arg3 m hR c)
theorem W3_arg4 (hR : InRange m) (c : Dev nD) : W3 m hR c main_arg4 = m ((c : Thread nD τ).loc main_arg4) := (W3_of_ne m hR c main_arg4 (by decide)).trans (W2_arg4 m hR c)

/-! ## Host stretch 2 and gather call 2 (items 3 and 4) -/

/-- After host stretch 2: gather call 2's entry. -/
abbrev W4 (hR : InRange m) : Dev nD → Valuation τ sig (Elt F) := fun c => StableHlo.after hostOps2 (W3 m hR c)
abbrev V4 (hR : InRange m) : (c : Dev nD) → (b : Ref sig .tc) → Buf (Elt F) ((c : Thread nD τ).loc b) := fun c b => W4 m hR c b
/-- The stretch leaves every buffer it does not write as it was. -/
theorem W4_of (hR : InRange m) (c : Dev nD) (r : Ref sig .tc) (h : r ∉ hostOps2_W) : W4 m hR c r = W3 m hR c r :=
  StableHlo.after_of_writes_sub hostOps2 _ hostOps2_writes h
theorem W4_arg0 (hR : InRange m) (c : Dev nD) : W4 m hR c main_arg0 = m ((c : Thread nD τ).loc main_arg0) := (W4_of m hR c main_arg0 (by decide)).trans (W3_arg0 m hR c)
theorem W4_arg1 (hR : InRange m) (c : Dev nD) : W4 m hR c main_arg1 = m ((c : Thread nD τ).loc main_arg1) := (W4_of m hR c main_arg1 (by decide)).trans (W3_arg1 m hR c)
theorem W4_arg2 (hR : InRange m) (c : Dev nD) : W4 m hR c main_arg2 = m ((c : Thread nD τ).loc main_arg2) := (W4_of m hR c main_arg2 (by decide)).trans (W3_arg2 m hR c)
theorem W4_arg3 (hR : InRange m) (c : Dev nD) : W4 m hR c main_arg3 = m ((c : Thread nD τ).loc main_arg3) := (W4_of m hR c main_arg3 (by decide)).trans (W3_arg3 m hR c)
theorem W4_arg4 (hR : InRange m) (c : Dev nD) : W4 m hR c main_arg4 = m ((c : Thread nD τ).loc main_arg4) := (W4_of m hR c main_arg4 (by decide)).trans (W3_arg4 m hR c)

/-- At gather call 2's exit: its three arrays at what the pipeline leaves, every other buffer as entered. -/
def W5 (hR : InRange m) (c : Dev nD) : Valuation τ sig (Elt F) :=
  Pipeline.withArrays spec2 c (W4 m hR c) fun w => (dat2 (V4 m hR) (a2 m hR) c).arrAt w (cfg2 (a2 m hR)).N
theorem W5_arr (hR : InRange m) (c : Dev nD) (w : Fin (cfg2 (a2 m hR)).W) :
    W5 m hR c (Proc.devRef .tc (Pipeline.arrRef spec2 w)) = (dat2 (V4 m hR) (a2 m hR) c).arrAt w (cfg2 (a2 m hR)).N := by
  unfold W5; exact Pipeline.withArrays_arr spec2 (launch2 (F := F)).win.arr_inj c _ _ w
theorem W5_of_ne (hR : InRange m) (c : Dev nD) (b : Ref sig .tc) (hb : ∀ w, Pipeline.arrRef spec2 w ≠ b) :
    W5 m hR c (Proc.devRef .tc b) = W4 m hR c (Proc.devRef .tc b) := by
  unfold W5; exact Pipeline.withArrays_of_ne spec2 c _ _ b hb
abbrev V5 (hR : InRange m) : (c : Dev nD) → (b : Ref sig .tc) → Buf (Elt F) ((c : Thread nD τ).loc b) := fun c b => W5 m hR c b
theorem hF2 (hR : InRange m) (c : Dev nD) (w : Fin (cfg2 (a2 m hR)).W) :
    (dat2 (V4 m hR) (a2 m hR) c).arrAt w (cfg2 (a2 m hR)).N = V5 m hR c (Pipeline.arrRef spec2 w) :=
  (W5_arr m hR c w).symm
theorem hrest2 (hR : InRange m) (c : Dev nD) : ∀ b, b ∉ Finset.univ.image (Pipeline.arrRef spec2) → V5 m hR c b = V4 m hR c b :=
  fun b hb => W5_of_ne m hR c b fun w e => hb (Finset.mem_image.mpr ⟨w, Finset.mem_univ _, e⟩)
/-- An input array of the gather call (a re-laid projection) is left as entered. -/
theorem W5_in (hR : InRange m) (c : Dev nD) (w : Fin (cfg2 (a2 m hR)).W) (hw : ((cfg2 (a2 m hR)).win w).isOut = false) :
    W5 m hR c (Proc.devRef .tc (Pipeline.arrRef spec2 w)) = W4 m hR c (Proc.devRef .tc (Pipeline.arrRef spec2 w)) :=
  (W5_arr m hR c w).trans (((dat2 (V4 m hR) (a2 m hR) c).arrAt_in w hw _).trans (A_eq2 (V4 m hR) (a2 m hR) c w))
theorem W5_arg0 (hR : InRange m) (c : Dev nD) : W5 m hR c main_arg0 = m ((c : Thread nD τ).loc main_arg0) := (W5_of_ne m hR c main_arg0 (by decide)).trans (W4_arg0 m hR c)
theorem W5_arg1 (hR : InRange m) (c : Dev nD) : W5 m hR c main_arg1 = m ((c : Thread nD τ).loc main_arg1) := (W5_of_ne m hR c main_arg1 (by decide)).trans (W4_arg1 m hR c)
theorem W5_arg2 (hR : InRange m) (c : Dev nD) : W5 m hR c main_arg2 = m ((c : Thread nD τ).loc main_arg2) := (W5_of_ne m hR c main_arg2 (by decide)).trans (W4_arg2 m hR c)
theorem W5_arg3 (hR : InRange m) (c : Dev nD) : W5 m hR c main_arg3 = m ((c : Thread nD τ).loc main_arg3) := (W5_of_ne m hR c main_arg3 (by decide)).trans (W4_arg3 m hR c)
theorem W5_arg4 (hR : InRange m) (c : Dev nD) : W5 m hR c main_arg4 = m ((c : Thread nD τ).loc main_arg4) := (W5_of_ne m hR c main_arg4 (by decide)).trans (W4_arg4 m hR c)

/-! ## Host stretch 3 and gather call 3 (items 5 and 6) -/

/-- After host stretch 3: gather call 3's entry. -/
abbrev W6 (hR : InRange m) : Dev nD → Valuation τ sig (Elt F) := fun c => StableHlo.after hostOps3 (W5 m hR c)
abbrev V6 (hR : InRange m) : (c : Dev nD) → (b : Ref sig .tc) → Buf (Elt F) ((c : Thread nD τ).loc b) := fun c b => W6 m hR c b
/-- The stretch leaves every buffer it does not write as it was. -/
theorem W6_of (hR : InRange m) (c : Dev nD) (r : Ref sig .tc) (h : r ∉ hostOps3_W) : W6 m hR c r = W5 m hR c r :=
  StableHlo.after_of_writes_sub hostOps3 _ hostOps3_writes h
theorem W6_arg0 (hR : InRange m) (c : Dev nD) : W6 m hR c main_arg0 = m ((c : Thread nD τ).loc main_arg0) := (W6_of m hR c main_arg0 (by decide)).trans (W5_arg0 m hR c)
theorem W6_arg1 (hR : InRange m) (c : Dev nD) : W6 m hR c main_arg1 = m ((c : Thread nD τ).loc main_arg1) := (W6_of m hR c main_arg1 (by decide)).trans (W5_arg1 m hR c)
theorem W6_arg2 (hR : InRange m) (c : Dev nD) : W6 m hR c main_arg2 = m ((c : Thread nD τ).loc main_arg2) := (W6_of m hR c main_arg2 (by decide)).trans (W5_arg2 m hR c)
theorem W6_arg3 (hR : InRange m) (c : Dev nD) : W6 m hR c main_arg3 = m ((c : Thread nD τ).loc main_arg3) := (W6_of m hR c main_arg3 (by decide)).trans (W5_arg3 m hR c)
theorem W6_arg4 (hR : InRange m) (c : Dev nD) : W6 m hR c main_arg4 = m ((c : Thread nD τ).loc main_arg4) := (W6_of m hR c main_arg4 (by decide)).trans (W5_arg4 m hR c)

/-- At gather call 3's exit: its three arrays at what the pipeline leaves, every other buffer as entered. -/
def W7 (hR : InRange m) (c : Dev nD) : Valuation τ sig (Elt F) :=
  Pipeline.withArrays spec3 c (W6 m hR c) fun w => (dat3 (V6 m hR) (a3 m hR) c).arrAt w (cfg3 (a3 m hR)).N
theorem W7_arr (hR : InRange m) (c : Dev nD) (w : Fin (cfg3 (a3 m hR)).W) :
    W7 m hR c (Proc.devRef .tc (Pipeline.arrRef spec3 w)) = (dat3 (V6 m hR) (a3 m hR) c).arrAt w (cfg3 (a3 m hR)).N := by
  unfold W7; exact Pipeline.withArrays_arr spec3 (launch3 (F := F)).win.arr_inj c _ _ w
theorem W7_of_ne (hR : InRange m) (c : Dev nD) (b : Ref sig .tc) (hb : ∀ w, Pipeline.arrRef spec3 w ≠ b) :
    W7 m hR c (Proc.devRef .tc b) = W6 m hR c (Proc.devRef .tc b) := by
  unfold W7; exact Pipeline.withArrays_of_ne spec3 c _ _ b hb
abbrev V7 (hR : InRange m) : (c : Dev nD) → (b : Ref sig .tc) → Buf (Elt F) ((c : Thread nD τ).loc b) := fun c b => W7 m hR c b
theorem hF3 (hR : InRange m) (c : Dev nD) (w : Fin (cfg3 (a3 m hR)).W) :
    (dat3 (V6 m hR) (a3 m hR) c).arrAt w (cfg3 (a3 m hR)).N = V7 m hR c (Pipeline.arrRef spec3 w) :=
  (W7_arr m hR c w).symm
theorem hrest3 (hR : InRange m) (c : Dev nD) : ∀ b, b ∉ Finset.univ.image (Pipeline.arrRef spec3) → V7 m hR c b = V6 m hR c b :=
  fun b hb => W7_of_ne m hR c b fun w e => hb (Finset.mem_image.mpr ⟨w, Finset.mem_univ _, e⟩)
/-- An input array of the gather call (a re-laid projection) is left as entered. -/
theorem W7_in (hR : InRange m) (c : Dev nD) (w : Fin (cfg3 (a3 m hR)).W) (hw : ((cfg3 (a3 m hR)).win w).isOut = false) :
    W7 m hR c (Proc.devRef .tc (Pipeline.arrRef spec3 w)) = W6 m hR c (Proc.devRef .tc (Pipeline.arrRef spec3 w)) :=
  (W7_arr m hR c w).trans (((dat3 (V6 m hR) (a3 m hR) c).arrAt_in w hw _).trans (A_eq3 (V6 m hR) (a3 m hR) c w))
theorem W7_arg0 (hR : InRange m) (c : Dev nD) : W7 m hR c main_arg0 = m ((c : Thread nD τ).loc main_arg0) := (W7_of_ne m hR c main_arg0 (by decide)).trans (W6_arg0 m hR c)
theorem W7_arg1 (hR : InRange m) (c : Dev nD) : W7 m hR c main_arg1 = m ((c : Thread nD τ).loc main_arg1) := (W7_of_ne m hR c main_arg1 (by decide)).trans (W6_arg1 m hR c)
theorem W7_arg2 (hR : InRange m) (c : Dev nD) : W7 m hR c main_arg2 = m ((c : Thread nD τ).loc main_arg2) := (W7_of_ne m hR c main_arg2 (by decide)).trans (W6_arg2 m hR c)
theorem W7_arg3 (hR : InRange m) (c : Dev nD) : W7 m hR c main_arg3 = m ((c : Thread nD τ).loc main_arg3) := (W7_of_ne m hR c main_arg3 (by decide)).trans (W6_arg3 m hR c)
theorem W7_arg4 (hR : InRange m) (c : Dev nD) : W7 m hR c main_arg4 = m ((c : Thread nD τ).loc main_arg4) := (W7_of_ne m hR c main_arg4 (by decide)).trans (W6_arg4 m hR c)

/-! ## Host stretch 4 and gather call 4 (items 7 and 8) -/

/-- After host stretch 4: gather call 4's entry. -/
abbrev W8 (hR : InRange m) : Dev nD → Valuation τ sig (Elt F) := fun c => StableHlo.after hostOps4 (W7 m hR c)
abbrev V8 (hR : InRange m) : (c : Dev nD) → (b : Ref sig .tc) → Buf (Elt F) ((c : Thread nD τ).loc b) := fun c b => W8 m hR c b
/-- The stretch leaves every buffer it does not write as it was. -/
theorem W8_of (hR : InRange m) (c : Dev nD) (r : Ref sig .tc) (h : r ∉ hostOps4_W) : W8 m hR c r = W7 m hR c r :=
  StableHlo.after_of_writes_sub hostOps4 _ hostOps4_writes h
theorem W8_arg0 (hR : InRange m) (c : Dev nD) : W8 m hR c main_arg0 = m ((c : Thread nD τ).loc main_arg0) := (W8_of m hR c main_arg0 (by decide)).trans (W7_arg0 m hR c)
theorem W8_arg1 (hR : InRange m) (c : Dev nD) : W8 m hR c main_arg1 = m ((c : Thread nD τ).loc main_arg1) := (W8_of m hR c main_arg1 (by decide)).trans (W7_arg1 m hR c)
theorem W8_arg2 (hR : InRange m) (c : Dev nD) : W8 m hR c main_arg2 = m ((c : Thread nD τ).loc main_arg2) := (W8_of m hR c main_arg2 (by decide)).trans (W7_arg2 m hR c)
theorem W8_arg3 (hR : InRange m) (c : Dev nD) : W8 m hR c main_arg3 = m ((c : Thread nD τ).loc main_arg3) := (W8_of m hR c main_arg3 (by decide)).trans (W7_arg3 m hR c)
theorem W8_arg4 (hR : InRange m) (c : Dev nD) : W8 m hR c main_arg4 = m ((c : Thread nD τ).loc main_arg4) := (W8_of m hR c main_arg4 (by decide)).trans (W7_arg4 m hR c)

/-- At gather call 4's exit: its three arrays at what the pipeline leaves, every other buffer as entered. -/
def W9 (hR : InRange m) (c : Dev nD) : Valuation τ sig (Elt F) :=
  Pipeline.withArrays spec4 c (W8 m hR c) fun w => (dat4 (V8 m hR) (a4 m hR) c).arrAt w (cfg4 (a4 m hR)).N
theorem W9_arr (hR : InRange m) (c : Dev nD) (w : Fin (cfg4 (a4 m hR)).W) :
    W9 m hR c (Proc.devRef .tc (Pipeline.arrRef spec4 w)) = (dat4 (V8 m hR) (a4 m hR) c).arrAt w (cfg4 (a4 m hR)).N := by
  unfold W9; exact Pipeline.withArrays_arr spec4 (launch4 (F := F)).win.arr_inj c _ _ w
theorem W9_of_ne (hR : InRange m) (c : Dev nD) (b : Ref sig .tc) (hb : ∀ w, Pipeline.arrRef spec4 w ≠ b) :
    W9 m hR c (Proc.devRef .tc b) = W8 m hR c (Proc.devRef .tc b) := by
  unfold W9; exact Pipeline.withArrays_of_ne spec4 c _ _ b hb
abbrev V9 (hR : InRange m) : (c : Dev nD) → (b : Ref sig .tc) → Buf (Elt F) ((c : Thread nD τ).loc b) := fun c b => W9 m hR c b
theorem hF4 (hR : InRange m) (c : Dev nD) (w : Fin (cfg4 (a4 m hR)).W) :
    (dat4 (V8 m hR) (a4 m hR) c).arrAt w (cfg4 (a4 m hR)).N = V9 m hR c (Pipeline.arrRef spec4 w) :=
  (W9_arr m hR c w).symm
theorem hrest4 (hR : InRange m) (c : Dev nD) : ∀ b, b ∉ Finset.univ.image (Pipeline.arrRef spec4) → V9 m hR c b = V8 m hR c b :=
  fun b hb => W9_of_ne m hR c b fun w e => hb (Finset.mem_image.mpr ⟨w, Finset.mem_univ _, e⟩)
/-- An input array of the gather call (a re-laid projection) is left as entered. -/
theorem W9_in (hR : InRange m) (c : Dev nD) (w : Fin (cfg4 (a4 m hR)).W) (hw : ((cfg4 (a4 m hR)).win w).isOut = false) :
    W9 m hR c (Proc.devRef .tc (Pipeline.arrRef spec4 w)) = W8 m hR c (Proc.devRef .tc (Pipeline.arrRef spec4 w)) :=
  (W9_arr m hR c w).trans (((dat4 (V8 m hR) (a4 m hR) c).arrAt_in w hw _).trans (A_eq4 (V8 m hR) (a4 m hR) c w))
theorem W9_arg0 (hR : InRange m) (c : Dev nD) : W9 m hR c main_arg0 = m ((c : Thread nD τ).loc main_arg0) := (W9_of_ne m hR c main_arg0 (by decide)).trans (W8_arg0 m hR c)
theorem W9_arg1 (hR : InRange m) (c : Dev nD) : W9 m hR c main_arg1 = m ((c : Thread nD τ).loc main_arg1) := (W9_of_ne m hR c main_arg1 (by decide)).trans (W8_arg1 m hR c)
theorem W9_arg2 (hR : InRange m) (c : Dev nD) : W9 m hR c main_arg2 = m ((c : Thread nD τ).loc main_arg2) := (W9_of_ne m hR c main_arg2 (by decide)).trans (W8_arg2 m hR c)
theorem W9_arg3 (hR : InRange m) (c : Dev nD) : W9 m hR c main_arg3 = m ((c : Thread nD τ).loc main_arg3) := (W9_of_ne m hR c main_arg3 (by decide)).trans (W8_arg3 m hR c)
theorem W9_arg4 (hR : InRange m) (c : Dev nD) : W9 m hR c main_arg4 = m ((c : Thread nD τ).loc main_arg4) := (W9_of_ne m hR c main_arg4 (by decide)).trans (W8_arg4 m hR c)

/-! ## Host stretch 5 and gather call 5 (items 9 and 10) -/

/-- After host stretch 5: gather call 5's entry. -/
abbrev W10 (hR : InRange m) : Dev nD → Valuation τ sig (Elt F) := fun c => StableHlo.after hostOps5 (W9 m hR c)
abbrev V10 (hR : InRange m) : (c : Dev nD) → (b : Ref sig .tc) → Buf (Elt F) ((c : Thread nD τ).loc b) := fun c b => W10 m hR c b
/-- The stretch leaves every buffer it does not write as it was. -/
theorem W10_of (hR : InRange m) (c : Dev nD) (r : Ref sig .tc) (h : r ∉ hostOps5_W) : W10 m hR c r = W9 m hR c r :=
  StableHlo.after_of_writes_sub hostOps5 _ hostOps5_writes h
theorem W10_arg0 (hR : InRange m) (c : Dev nD) : W10 m hR c main_arg0 = m ((c : Thread nD τ).loc main_arg0) := (W10_of m hR c main_arg0 (by decide)).trans (W9_arg0 m hR c)
theorem W10_arg1 (hR : InRange m) (c : Dev nD) : W10 m hR c main_arg1 = m ((c : Thread nD τ).loc main_arg1) := (W10_of m hR c main_arg1 (by decide)).trans (W9_arg1 m hR c)
theorem W10_arg2 (hR : InRange m) (c : Dev nD) : W10 m hR c main_arg2 = m ((c : Thread nD τ).loc main_arg2) := (W10_of m hR c main_arg2 (by decide)).trans (W9_arg2 m hR c)
theorem W10_arg3 (hR : InRange m) (c : Dev nD) : W10 m hR c main_arg3 = m ((c : Thread nD τ).loc main_arg3) := (W10_of m hR c main_arg3 (by decide)).trans (W9_arg3 m hR c)
theorem W10_arg4 (hR : InRange m) (c : Dev nD) : W10 m hR c main_arg4 = m ((c : Thread nD τ).loc main_arg4) := (W10_of m hR c main_arg4 (by decide)).trans (W9_arg4 m hR c)

/-- At gather call 5's exit: its three arrays at what the pipeline leaves, every other buffer as entered. -/
def W11 (hR : InRange m) (c : Dev nD) : Valuation τ sig (Elt F) :=
  Pipeline.withArrays spec5 c (W10 m hR c) fun w => (dat5 (V10 m hR) (a5 m hR) c).arrAt w (cfg5 (a5 m hR)).N
theorem W11_arr (hR : InRange m) (c : Dev nD) (w : Fin (cfg5 (a5 m hR)).W) :
    W11 m hR c (Proc.devRef .tc (Pipeline.arrRef spec5 w)) = (dat5 (V10 m hR) (a5 m hR) c).arrAt w (cfg5 (a5 m hR)).N := by
  unfold W11; exact Pipeline.withArrays_arr spec5 (launch5 (F := F)).win.arr_inj c _ _ w
theorem W11_of_ne (hR : InRange m) (c : Dev nD) (b : Ref sig .tc) (hb : ∀ w, Pipeline.arrRef spec5 w ≠ b) :
    W11 m hR c (Proc.devRef .tc b) = W10 m hR c (Proc.devRef .tc b) := by
  unfold W11; exact Pipeline.withArrays_of_ne spec5 c _ _ b hb
abbrev V11 (hR : InRange m) : (c : Dev nD) → (b : Ref sig .tc) → Buf (Elt F) ((c : Thread nD τ).loc b) := fun c b => W11 m hR c b
theorem hF5 (hR : InRange m) (c : Dev nD) (w : Fin (cfg5 (a5 m hR)).W) :
    (dat5 (V10 m hR) (a5 m hR) c).arrAt w (cfg5 (a5 m hR)).N = V11 m hR c (Pipeline.arrRef spec5 w) :=
  (W11_arr m hR c w).symm
theorem hrest5 (hR : InRange m) (c : Dev nD) : ∀ b, b ∉ Finset.univ.image (Pipeline.arrRef spec5) → V11 m hR c b = V10 m hR c b :=
  fun b hb => W11_of_ne m hR c b fun w e => hb (Finset.mem_image.mpr ⟨w, Finset.mem_univ _, e⟩)
/-- An input array of the gather call (a re-laid projection) is left as entered. -/
theorem W11_in (hR : InRange m) (c : Dev nD) (w : Fin (cfg5 (a5 m hR)).W) (hw : ((cfg5 (a5 m hR)).win w).isOut = false) :
    W11 m hR c (Proc.devRef .tc (Pipeline.arrRef spec5 w)) = W10 m hR c (Proc.devRef .tc (Pipeline.arrRef spec5 w)) :=
  (W11_arr m hR c w).trans (((dat5 (V10 m hR) (a5 m hR) c).arrAt_in w hw _).trans (A_eq5 (V10 m hR) (a5 m hR) c w))
theorem W11_arg0 (hR : InRange m) (c : Dev nD) : W11 m hR c main_arg0 = m ((c : Thread nD τ).loc main_arg0) := (W11_of_ne m hR c main_arg0 (by decide)).trans (W10_arg0 m hR c)
theorem W11_arg1 (hR : InRange m) (c : Dev nD) : W11 m hR c main_arg1 = m ((c : Thread nD τ).loc main_arg1) := (W11_of_ne m hR c main_arg1 (by decide)).trans (W10_arg1 m hR c)
theorem W11_arg2 (hR : InRange m) (c : Dev nD) : W11 m hR c main_arg2 = m ((c : Thread nD τ).loc main_arg2) := (W11_of_ne m hR c main_arg2 (by decide)).trans (W10_arg2 m hR c)
theorem W11_arg3 (hR : InRange m) (c : Dev nD) : W11 m hR c main_arg3 = m ((c : Thread nD τ).loc main_arg3) := (W11_of_ne m hR c main_arg3 (by decide)).trans (W10_arg3 m hR c)
theorem W11_arg4 (hR : InRange m) (c : Dev nD) : W11 m hR c main_arg4 = m ((c : Thread nD τ).loc main_arg4) := (W11_of_ne m hR c main_arg4 (by decide)).trans (W10_arg4 m hR c)

/-! ## Host stretch 6 and gather call 6 (items 11 and 12) -/

/-- After host stretch 6: gather call 6's entry. -/
abbrev W12 (hR : InRange m) : Dev nD → Valuation τ sig (Elt F) := fun c => StableHlo.after hostOps6 (W11 m hR c)
abbrev V12 (hR : InRange m) : (c : Dev nD) → (b : Ref sig .tc) → Buf (Elt F) ((c : Thread nD τ).loc b) := fun c b => W12 m hR c b
/-- The stretch leaves every buffer it does not write as it was. -/
theorem W12_of (hR : InRange m) (c : Dev nD) (r : Ref sig .tc) (h : r ∉ hostOps6_W) : W12 m hR c r = W11 m hR c r :=
  StableHlo.after_of_writes_sub hostOps6 _ hostOps6_writes h
theorem W12_arg0 (hR : InRange m) (c : Dev nD) : W12 m hR c main_arg0 = m ((c : Thread nD τ).loc main_arg0) := (W12_of m hR c main_arg0 (by decide)).trans (W11_arg0 m hR c)
theorem W12_arg1 (hR : InRange m) (c : Dev nD) : W12 m hR c main_arg1 = m ((c : Thread nD τ).loc main_arg1) := (W12_of m hR c main_arg1 (by decide)).trans (W11_arg1 m hR c)
theorem W12_arg2 (hR : InRange m) (c : Dev nD) : W12 m hR c main_arg2 = m ((c : Thread nD τ).loc main_arg2) := (W12_of m hR c main_arg2 (by decide)).trans (W11_arg2 m hR c)
theorem W12_arg3 (hR : InRange m) (c : Dev nD) : W12 m hR c main_arg3 = m ((c : Thread nD τ).loc main_arg3) := (W12_of m hR c main_arg3 (by decide)).trans (W11_arg3 m hR c)
theorem W12_arg4 (hR : InRange m) (c : Dev nD) : W12 m hR c main_arg4 = m ((c : Thread nD τ).loc main_arg4) := (W12_of m hR c main_arg4 (by decide)).trans (W11_arg4 m hR c)

/-- At gather call 6's exit: its three arrays at what the pipeline leaves, every other buffer as entered. -/
def W13 (hR : InRange m) (c : Dev nD) : Valuation τ sig (Elt F) :=
  Pipeline.withArrays spec6 c (W12 m hR c) fun w => (dat6 (V12 m hR) (a6 m hR) c).arrAt w (cfg6 (a6 m hR)).N
theorem W13_arr (hR : InRange m) (c : Dev nD) (w : Fin (cfg6 (a6 m hR)).W) :
    W13 m hR c (Proc.devRef .tc (Pipeline.arrRef spec6 w)) = (dat6 (V12 m hR) (a6 m hR) c).arrAt w (cfg6 (a6 m hR)).N := by
  unfold W13; exact Pipeline.withArrays_arr spec6 (launch6 (F := F)).win.arr_inj c _ _ w
theorem W13_of_ne (hR : InRange m) (c : Dev nD) (b : Ref sig .tc) (hb : ∀ w, Pipeline.arrRef spec6 w ≠ b) :
    W13 m hR c (Proc.devRef .tc b) = W12 m hR c (Proc.devRef .tc b) := by
  unfold W13; exact Pipeline.withArrays_of_ne spec6 c _ _ b hb
abbrev V13 (hR : InRange m) : (c : Dev nD) → (b : Ref sig .tc) → Buf (Elt F) ((c : Thread nD τ).loc b) := fun c b => W13 m hR c b
theorem hF6 (hR : InRange m) (c : Dev nD) (w : Fin (cfg6 (a6 m hR)).W) :
    (dat6 (V12 m hR) (a6 m hR) c).arrAt w (cfg6 (a6 m hR)).N = V13 m hR c (Pipeline.arrRef spec6 w) :=
  (W13_arr m hR c w).symm
theorem hrest6 (hR : InRange m) (c : Dev nD) : ∀ b, b ∉ Finset.univ.image (Pipeline.arrRef spec6) → V13 m hR c b = V12 m hR c b :=
  fun b hb => W13_of_ne m hR c b fun w e => hb (Finset.mem_image.mpr ⟨w, Finset.mem_univ _, e⟩)
/-- An input array of the gather call (a re-laid projection) is left as entered. -/
theorem W13_in (hR : InRange m) (c : Dev nD) (w : Fin (cfg6 (a6 m hR)).W) (hw : ((cfg6 (a6 m hR)).win w).isOut = false) :
    W13 m hR c (Proc.devRef .tc (Pipeline.arrRef spec6 w)) = W12 m hR c (Proc.devRef .tc (Pipeline.arrRef spec6 w)) :=
  (W13_arr m hR c w).trans (((dat6 (V12 m hR) (a6 m hR) c).arrAt_in w hw _).trans (A_eq6 (V12 m hR) (a6 m hR) c w))
theorem W13_arg0 (hR : InRange m) (c : Dev nD) : W13 m hR c main_arg0 = m ((c : Thread nD τ).loc main_arg0) := (W13_of_ne m hR c main_arg0 (by decide)).trans (W12_arg0 m hR c)
theorem W13_arg1 (hR : InRange m) (c : Dev nD) : W13 m hR c main_arg1 = m ((c : Thread nD τ).loc main_arg1) := (W13_of_ne m hR c main_arg1 (by decide)).trans (W12_arg1 m hR c)
theorem W13_arg2 (hR : InRange m) (c : Dev nD) : W13 m hR c main_arg2 = m ((c : Thread nD τ).loc main_arg2) := (W13_of_ne m hR c main_arg2 (by decide)).trans (W12_arg2 m hR c)
theorem W13_arg3 (hR : InRange m) (c : Dev nD) : W13 m hR c main_arg3 = m ((c : Thread nD τ).loc main_arg3) := (W13_of_ne m hR c main_arg3 (by decide)).trans (W12_arg3 m hR c)
theorem W13_arg4 (hR : InRange m) (c : Dev nD) : W13 m hR c main_arg4 = m ((c : Thread nD τ).loc main_arg4) := (W13_of_ne m hR c main_arg4 (by decide)).trans (W12_arg4 m hR c)

/-! ## Host stretch 7 and gather call 7 (items 13 and 14) -/

/-- After host stretch 7: gather call 7's entry. -/
abbrev W14 (hR : InRange m) : Dev nD → Valuation τ sig (Elt F) := fun c => StableHlo.after hostOps7 (W13 m hR c)
abbrev V14 (hR : InRange m) : (c : Dev nD) → (b : Ref sig .tc) → Buf (Elt F) ((c : Thread nD τ).loc b) := fun c b => W14 m hR c b
/-- The stretch leaves every buffer it does not write as it was. -/
theorem W14_of (hR : InRange m) (c : Dev nD) (r : Ref sig .tc) (h : r ∉ hostOps7_W) : W14 m hR c r = W13 m hR c r :=
  StableHlo.after_of_writes_sub hostOps7 _ hostOps7_writes h
theorem W14_arg0 (hR : InRange m) (c : Dev nD) : W14 m hR c main_arg0 = m ((c : Thread nD τ).loc main_arg0) := (W14_of m hR c main_arg0 (by decide)).trans (W13_arg0 m hR c)
theorem W14_arg1 (hR : InRange m) (c : Dev nD) : W14 m hR c main_arg1 = m ((c : Thread nD τ).loc main_arg1) := (W14_of m hR c main_arg1 (by decide)).trans (W13_arg1 m hR c)
theorem W14_arg2 (hR : InRange m) (c : Dev nD) : W14 m hR c main_arg2 = m ((c : Thread nD τ).loc main_arg2) := (W14_of m hR c main_arg2 (by decide)).trans (W13_arg2 m hR c)
theorem W14_arg3 (hR : InRange m) (c : Dev nD) : W14 m hR c main_arg3 = m ((c : Thread nD τ).loc main_arg3) := (W14_of m hR c main_arg3 (by decide)).trans (W13_arg3 m hR c)
theorem W14_arg4 (hR : InRange m) (c : Dev nD) : W14 m hR c main_arg4 = m ((c : Thread nD τ).loc main_arg4) := (W14_of m hR c main_arg4 (by decide)).trans (W13_arg4 m hR c)

/-- At gather call 7's exit: its three arrays at what the pipeline leaves, every other buffer as entered. -/
def W15 (hR : InRange m) (c : Dev nD) : Valuation τ sig (Elt F) :=
  Pipeline.withArrays spec7 c (W14 m hR c) fun w => (dat7 (V14 m hR) (a7 m hR) c).arrAt w (cfg7 (a7 m hR)).N
theorem W15_arr (hR : InRange m) (c : Dev nD) (w : Fin (cfg7 (a7 m hR)).W) :
    W15 m hR c (Proc.devRef .tc (Pipeline.arrRef spec7 w)) = (dat7 (V14 m hR) (a7 m hR) c).arrAt w (cfg7 (a7 m hR)).N := by
  unfold W15; exact Pipeline.withArrays_arr spec7 (launch7 (F := F)).win.arr_inj c _ _ w
theorem W15_of_ne (hR : InRange m) (c : Dev nD) (b : Ref sig .tc) (hb : ∀ w, Pipeline.arrRef spec7 w ≠ b) :
    W15 m hR c (Proc.devRef .tc b) = W14 m hR c (Proc.devRef .tc b) := by
  unfold W15; exact Pipeline.withArrays_of_ne spec7 c _ _ b hb
abbrev V15 (hR : InRange m) : (c : Dev nD) → (b : Ref sig .tc) → Buf (Elt F) ((c : Thread nD τ).loc b) := fun c b => W15 m hR c b
theorem hF7 (hR : InRange m) (c : Dev nD) (w : Fin (cfg7 (a7 m hR)).W) :
    (dat7 (V14 m hR) (a7 m hR) c).arrAt w (cfg7 (a7 m hR)).N = V15 m hR c (Pipeline.arrRef spec7 w) :=
  (W15_arr m hR c w).symm
theorem hrest7 (hR : InRange m) (c : Dev nD) : ∀ b, b ∉ Finset.univ.image (Pipeline.arrRef spec7) → V15 m hR c b = V14 m hR c b :=
  fun b hb => W15_of_ne m hR c b fun w e => hb (Finset.mem_image.mpr ⟨w, Finset.mem_univ _, e⟩)
/-- An input array of the gather call (a re-laid projection) is left as entered. -/
theorem W15_in (hR : InRange m) (c : Dev nD) (w : Fin (cfg7 (a7 m hR)).W) (hw : ((cfg7 (a7 m hR)).win w).isOut = false) :
    W15 m hR c (Proc.devRef .tc (Pipeline.arrRef spec7 w)) = W14 m hR c (Proc.devRef .tc (Pipeline.arrRef spec7 w)) :=
  (W15_arr m hR c w).trans (((dat7 (V14 m hR) (a7 m hR) c).arrAt_in w hw _).trans (A_eq7 (V14 m hR) (a7 m hR) c w))
theorem W15_arg0 (hR : InRange m) (c : Dev nD) : W15 m hR c main_arg0 = m ((c : Thread nD τ).loc main_arg0) := (W15_of_ne m hR c main_arg0 (by decide)).trans (W14_arg0 m hR c)
theorem W15_arg1 (hR : InRange m) (c : Dev nD) : W15 m hR c main_arg1 = m ((c : Thread nD τ).loc main_arg1) := (W15_of_ne m hR c main_arg1 (by decide)).trans (W14_arg1 m hR c)
theorem W15_arg2 (hR : InRange m) (c : Dev nD) : W15 m hR c main_arg2 = m ((c : Thread nD τ).loc main_arg2) := (W15_of_ne m hR c main_arg2 (by decide)).trans (W14_arg2 m hR c)
theorem W15_arg3 (hR : InRange m) (c : Dev nD) : W15 m hR c main_arg3 = m ((c : Thread nD τ).loc main_arg3) := (W15_of_ne m hR c main_arg3 (by decide)).trans (W14_arg3 m hR c)
theorem W15_arg4 (hR : InRange m) (c : Dev nD) : W15 m hR c main_arg4 = m ((c : Thread nD τ).loc main_arg4) := (W15_of_ne m hR c main_arg4 (by decide)).trans (W14_arg4 m hR c)

/-! ## Host stretch 8 and gather call 8 (items 15 and 16) -/

/-- After host stretch 8: gather call 8's entry. -/
abbrev W16 (hR : InRange m) : Dev nD → Valuation τ sig (Elt F) := fun c => StableHlo.after hostOps8 (W15 m hR c)
abbrev V16 (hR : InRange m) : (c : Dev nD) → (b : Ref sig .tc) → Buf (Elt F) ((c : Thread nD τ).loc b) := fun c b => W16 m hR c b
/-- The stretch leaves every buffer it does not write as it was. -/
theorem W16_of (hR : InRange m) (c : Dev nD) (r : Ref sig .tc) (h : r ∉ hostOps8_W) : W16 m hR c r = W15 m hR c r :=
  StableHlo.after_of_writes_sub hostOps8 _ hostOps8_writes h
theorem W16_arg0 (hR : InRange m) (c : Dev nD) : W16 m hR c main_arg0 = m ((c : Thread nD τ).loc main_arg0) := (W16_of m hR c main_arg0 (by decide)).trans (W15_arg0 m hR c)
theorem W16_arg1 (hR : InRange m) (c : Dev nD) : W16 m hR c main_arg1 = m ((c : Thread nD τ).loc main_arg1) := (W16_of m hR c main_arg1 (by decide)).trans (W15_arg1 m hR c)
theorem W16_arg2 (hR : InRange m) (c : Dev nD) : W16 m hR c main_arg2 = m ((c : Thread nD τ).loc main_arg2) := (W16_of m hR c main_arg2 (by decide)).trans (W15_arg2 m hR c)
theorem W16_arg3 (hR : InRange m) (c : Dev nD) : W16 m hR c main_arg3 = m ((c : Thread nD τ).loc main_arg3) := (W16_of m hR c main_arg3 (by decide)).trans (W15_arg3 m hR c)
theorem W16_arg4 (hR : InRange m) (c : Dev nD) : W16 m hR c main_arg4 = m ((c : Thread nD τ).loc main_arg4) := (W16_of m hR c main_arg4 (by decide)).trans (W15_arg4 m hR c)

/-- At gather call 8's exit: its three arrays at what the pipeline leaves, every other buffer as entered. -/
def W17 (hR : InRange m) (c : Dev nD) : Valuation τ sig (Elt F) :=
  Pipeline.withArrays spec8 c (W16 m hR c) fun w => (dat8 (V16 m hR) (a8 m hR) c).arrAt w (cfg8 (a8 m hR)).N
theorem W17_arr (hR : InRange m) (c : Dev nD) (w : Fin (cfg8 (a8 m hR)).W) :
    W17 m hR c (Proc.devRef .tc (Pipeline.arrRef spec8 w)) = (dat8 (V16 m hR) (a8 m hR) c).arrAt w (cfg8 (a8 m hR)).N := by
  unfold W17; exact Pipeline.withArrays_arr spec8 (launch8 (F := F)).win.arr_inj c _ _ w
theorem W17_of_ne (hR : InRange m) (c : Dev nD) (b : Ref sig .tc) (hb : ∀ w, Pipeline.arrRef spec8 w ≠ b) :
    W17 m hR c (Proc.devRef .tc b) = W16 m hR c (Proc.devRef .tc b) := by
  unfold W17; exact Pipeline.withArrays_of_ne spec8 c _ _ b hb
abbrev V17 (hR : InRange m) : (c : Dev nD) → (b : Ref sig .tc) → Buf (Elt F) ((c : Thread nD τ).loc b) := fun c b => W17 m hR c b
theorem hF8 (hR : InRange m) (c : Dev nD) (w : Fin (cfg8 (a8 m hR)).W) :
    (dat8 (V16 m hR) (a8 m hR) c).arrAt w (cfg8 (a8 m hR)).N = V17 m hR c (Pipeline.arrRef spec8 w) :=
  (W17_arr m hR c w).symm
theorem hrest8 (hR : InRange m) (c : Dev nD) : ∀ b, b ∉ Finset.univ.image (Pipeline.arrRef spec8) → V17 m hR c b = V16 m hR c b :=
  fun b hb => W17_of_ne m hR c b fun w e => hb (Finset.mem_image.mpr ⟨w, Finset.mem_univ _, e⟩)
/-- An input array of the gather call (a re-laid projection) is left as entered. -/
theorem W17_in (hR : InRange m) (c : Dev nD) (w : Fin (cfg8 (a8 m hR)).W) (hw : ((cfg8 (a8 m hR)).win w).isOut = false) :
    W17 m hR c (Proc.devRef .tc (Pipeline.arrRef spec8 w)) = W16 m hR c (Proc.devRef .tc (Pipeline.arrRef spec8 w)) :=
  (W17_arr m hR c w).trans (((dat8 (V16 m hR) (a8 m hR) c).arrAt_in w hw _).trans (A_eq8 (V16 m hR) (a8 m hR) c w))
theorem W17_arg0 (hR : InRange m) (c : Dev nD) : W17 m hR c main_arg0 = m ((c : Thread nD τ).loc main_arg0) := (W17_of_ne m hR c main_arg0 (by decide)).trans (W16_arg0 m hR c)
theorem W17_arg1 (hR : InRange m) (c : Dev nD) : W17 m hR c main_arg1 = m ((c : Thread nD τ).loc main_arg1) := (W17_of_ne m hR c main_arg1 (by decide)).trans (W16_arg1 m hR c)
theorem W17_arg2 (hR : InRange m) (c : Dev nD) : W17 m hR c main_arg2 = m ((c : Thread nD τ).loc main_arg2) := (W17_of_ne m hR c main_arg2 (by decide)).trans (W16_arg2 m hR c)
theorem W17_arg3 (hR : InRange m) (c : Dev nD) : W17 m hR c main_arg3 = m ((c : Thread nD τ).loc main_arg3) := (W17_of_ne m hR c main_arg3 (by decide)).trans (W16_arg3 m hR c)
theorem W17_arg4 (hR : InRange m) (c : Dev nD) : W17 m hR c main_arg4 = m ((c : Thread nD τ).loc main_arg4) := (W17_of_ne m hR c main_arg4 (by decide)).trans (W16_arg4 m hR c)

/-! ## Host stretch 9 and gather call 9 (items 17 and 18) -/

/-- After host stretch 9: gather call 9's entry. -/
abbrev W18 (hR : InRange m) : Dev nD → Valuation τ sig (Elt F) := fun c => StableHlo.after hostOps9 (W17 m hR c)
abbrev V18 (hR : InRange m) : (c : Dev nD) → (b : Ref sig .tc) → Buf (Elt F) ((c : Thread nD τ).loc b) := fun c b => W18 m hR c b
/-- The stretch leaves every buffer it does not write as it was. -/
theorem W18_of (hR : InRange m) (c : Dev nD) (r : Ref sig .tc) (h : r ∉ hostOps9_W) : W18 m hR c r = W17 m hR c r :=
  StableHlo.after_of_writes_sub hostOps9 _ hostOps9_writes h
theorem W18_arg0 (hR : InRange m) (c : Dev nD) : W18 m hR c main_arg0 = m ((c : Thread nD τ).loc main_arg0) := (W18_of m hR c main_arg0 (by decide)).trans (W17_arg0 m hR c)
theorem W18_arg1 (hR : InRange m) (c : Dev nD) : W18 m hR c main_arg1 = m ((c : Thread nD τ).loc main_arg1) := (W18_of m hR c main_arg1 (by decide)).trans (W17_arg1 m hR c)
theorem W18_arg2 (hR : InRange m) (c : Dev nD) : W18 m hR c main_arg2 = m ((c : Thread nD τ).loc main_arg2) := (W18_of m hR c main_arg2 (by decide)).trans (W17_arg2 m hR c)
theorem W18_arg3 (hR : InRange m) (c : Dev nD) : W18 m hR c main_arg3 = m ((c : Thread nD τ).loc main_arg3) := (W18_of m hR c main_arg3 (by decide)).trans (W17_arg3 m hR c)
theorem W18_arg4 (hR : InRange m) (c : Dev nD) : W18 m hR c main_arg4 = m ((c : Thread nD τ).loc main_arg4) := (W18_of m hR c main_arg4 (by decide)).trans (W17_arg4 m hR c)

/-- At gather call 9's exit: its three arrays at what the pipeline leaves, every other buffer as entered. -/
def W19 (hR : InRange m) (c : Dev nD) : Valuation τ sig (Elt F) :=
  Pipeline.withArrays spec9 c (W18 m hR c) fun w => (dat9 (V18 m hR) (a9 m hR) c).arrAt w (cfg9 (a9 m hR)).N
theorem W19_arr (hR : InRange m) (c : Dev nD) (w : Fin (cfg9 (a9 m hR)).W) :
    W19 m hR c (Proc.devRef .tc (Pipeline.arrRef spec9 w)) = (dat9 (V18 m hR) (a9 m hR) c).arrAt w (cfg9 (a9 m hR)).N := by
  unfold W19; exact Pipeline.withArrays_arr spec9 (launch9 (F := F)).win.arr_inj c _ _ w
theorem W19_of_ne (hR : InRange m) (c : Dev nD) (b : Ref sig .tc) (hb : ∀ w, Pipeline.arrRef spec9 w ≠ b) :
    W19 m hR c (Proc.devRef .tc b) = W18 m hR c (Proc.devRef .tc b) := by
  unfold W19; exact Pipeline.withArrays_of_ne spec9 c _ _ b hb
abbrev V19 (hR : InRange m) : (c : Dev nD) → (b : Ref sig .tc) → Buf (Elt F) ((c : Thread nD τ).loc b) := fun c b => W19 m hR c b
theorem hF9 (hR : InRange m) (c : Dev nD) (w : Fin (cfg9 (a9 m hR)).W) :
    (dat9 (V18 m hR) (a9 m hR) c).arrAt w (cfg9 (a9 m hR)).N = V19 m hR c (Pipeline.arrRef spec9 w) :=
  (W19_arr m hR c w).symm
theorem hrest9 (hR : InRange m) (c : Dev nD) : ∀ b, b ∉ Finset.univ.image (Pipeline.arrRef spec9) → V19 m hR c b = V18 m hR c b :=
  fun b hb => W19_of_ne m hR c b fun w e => hb (Finset.mem_image.mpr ⟨w, Finset.mem_univ _, e⟩)
/-- An input array of the gather call (a re-laid projection) is left as entered. -/
theorem W19_in (hR : InRange m) (c : Dev nD) (w : Fin (cfg9 (a9 m hR)).W) (hw : ((cfg9 (a9 m hR)).win w).isOut = false) :
    W19 m hR c (Proc.devRef .tc (Pipeline.arrRef spec9 w)) = W18 m hR c (Proc.devRef .tc (Pipeline.arrRef spec9 w)) :=
  (W19_arr m hR c w).trans (((dat9 (V18 m hR) (a9 m hR) c).arrAt_in w hw _).trans (A_eq9 (V18 m hR) (a9 m hR) c w))
theorem W19_arg0 (hR : InRange m) (c : Dev nD) : W19 m hR c main_arg0 = m ((c : Thread nD τ).loc main_arg0) := (W19_of_ne m hR c main_arg0 (by decide)).trans (W18_arg0 m hR c)
theorem W19_arg1 (hR : InRange m) (c : Dev nD) : W19 m hR c main_arg1 = m ((c : Thread nD τ).loc main_arg1) := (W19_of_ne m hR c main_arg1 (by decide)).trans (W18_arg1 m hR c)
theorem W19_arg2 (hR : InRange m) (c : Dev nD) : W19 m hR c main_arg2 = m ((c : Thread nD τ).loc main_arg2) := (W19_of_ne m hR c main_arg2 (by decide)).trans (W18_arg2 m hR c)
theorem W19_arg3 (hR : InRange m) (c : Dev nD) : W19 m hR c main_arg3 = m ((c : Thread nD τ).loc main_arg3) := (W19_of_ne m hR c main_arg3 (by decide)).trans (W18_arg3 m hR c)
theorem W19_arg4 (hR : InRange m) (c : Dev nD) : W19 m hR c main_arg4 = m ((c : Thread nD τ).loc main_arg4) := (W19_of_ne m hR c main_arg4 (by decide)).trans (W18_arg4 m hR c)

/-! ## Host stretch 10 and gather call 10 (items 19 and 20) -/

/-- After host stretch 10: gather call 10's entry. -/
abbrev W20 (hR : InRange m) : Dev nD → Valuation τ sig (Elt F) := fun c => StableHlo.after hostOps10 (W19 m hR c)
abbrev V20 (hR : InRange m) : (c : Dev nD) → (b : Ref sig .tc) → Buf (Elt F) ((c : Thread nD τ).loc b) := fun c b => W20 m hR c b
/-- The stretch leaves every buffer it does not write as it was. -/
theorem W20_of (hR : InRange m) (c : Dev nD) (r : Ref sig .tc) (h : r ∉ hostOps10_W) : W20 m hR c r = W19 m hR c r :=
  StableHlo.after_of_writes_sub hostOps10 _ hostOps10_writes h
theorem W20_arg0 (hR : InRange m) (c : Dev nD) : W20 m hR c main_arg0 = m ((c : Thread nD τ).loc main_arg0) := (W20_of m hR c main_arg0 (by decide)).trans (W19_arg0 m hR c)
theorem W20_arg1 (hR : InRange m) (c : Dev nD) : W20 m hR c main_arg1 = m ((c : Thread nD τ).loc main_arg1) := (W20_of m hR c main_arg1 (by decide)).trans (W19_arg1 m hR c)
theorem W20_arg2 (hR : InRange m) (c : Dev nD) : W20 m hR c main_arg2 = m ((c : Thread nD τ).loc main_arg2) := (W20_of m hR c main_arg2 (by decide)).trans (W19_arg2 m hR c)
theorem W20_arg3 (hR : InRange m) (c : Dev nD) : W20 m hR c main_arg3 = m ((c : Thread nD τ).loc main_arg3) := (W20_of m hR c main_arg3 (by decide)).trans (W19_arg3 m hR c)
theorem W20_arg4 (hR : InRange m) (c : Dev nD) : W20 m hR c main_arg4 = m ((c : Thread nD τ).loc main_arg4) := (W20_of m hR c main_arg4 (by decide)).trans (W19_arg4 m hR c)

/-- At gather call 10's exit: its three arrays at what the pipeline leaves, every other buffer as entered. -/
def W21 (hR : InRange m) (c : Dev nD) : Valuation τ sig (Elt F) :=
  Pipeline.withArrays spec10 c (W20 m hR c) fun w => (dat10 (V20 m hR) (a10 m hR) c).arrAt w (cfg10 (a10 m hR)).N
theorem W21_arr (hR : InRange m) (c : Dev nD) (w : Fin (cfg10 (a10 m hR)).W) :
    W21 m hR c (Proc.devRef .tc (Pipeline.arrRef spec10 w)) = (dat10 (V20 m hR) (a10 m hR) c).arrAt w (cfg10 (a10 m hR)).N := by
  unfold W21; exact Pipeline.withArrays_arr spec10 (launch10 (F := F)).win.arr_inj c _ _ w
theorem W21_of_ne (hR : InRange m) (c : Dev nD) (b : Ref sig .tc) (hb : ∀ w, Pipeline.arrRef spec10 w ≠ b) :
    W21 m hR c (Proc.devRef .tc b) = W20 m hR c (Proc.devRef .tc b) := by
  unfold W21; exact Pipeline.withArrays_of_ne spec10 c _ _ b hb
abbrev V21 (hR : InRange m) : (c : Dev nD) → (b : Ref sig .tc) → Buf (Elt F) ((c : Thread nD τ).loc b) := fun c b => W21 m hR c b
theorem hF10 (hR : InRange m) (c : Dev nD) (w : Fin (cfg10 (a10 m hR)).W) :
    (dat10 (V20 m hR) (a10 m hR) c).arrAt w (cfg10 (a10 m hR)).N = V21 m hR c (Pipeline.arrRef spec10 w) :=
  (W21_arr m hR c w).symm
theorem hrest10 (hR : InRange m) (c : Dev nD) : ∀ b, b ∉ Finset.univ.image (Pipeline.arrRef spec10) → V21 m hR c b = V20 m hR c b :=
  fun b hb => W21_of_ne m hR c b fun w e => hb (Finset.mem_image.mpr ⟨w, Finset.mem_univ _, e⟩)
/-- An input array of the gather call (a re-laid projection) is left as entered. -/
theorem W21_in (hR : InRange m) (c : Dev nD) (w : Fin (cfg10 (a10 m hR)).W) (hw : ((cfg10 (a10 m hR)).win w).isOut = false) :
    W21 m hR c (Proc.devRef .tc (Pipeline.arrRef spec10 w)) = W20 m hR c (Proc.devRef .tc (Pipeline.arrRef spec10 w)) :=
  (W21_arr m hR c w).trans (((dat10 (V20 m hR) (a10 m hR) c).arrAt_in w hw _).trans (A_eq10 (V20 m hR) (a10 m hR) c w))
theorem W21_arg0 (hR : InRange m) (c : Dev nD) : W21 m hR c main_arg0 = m ((c : Thread nD τ).loc main_arg0) := (W21_of_ne m hR c main_arg0 (by decide)).trans (W20_arg0 m hR c)
theorem W21_arg1 (hR : InRange m) (c : Dev nD) : W21 m hR c main_arg1 = m ((c : Thread nD τ).loc main_arg1) := (W21_of_ne m hR c main_arg1 (by decide)).trans (W20_arg1 m hR c)
theorem W21_arg2 (hR : InRange m) (c : Dev nD) : W21 m hR c main_arg2 = m ((c : Thread nD τ).loc main_arg2) := (W21_of_ne m hR c main_arg2 (by decide)).trans (W20_arg2 m hR c)
theorem W21_arg3 (hR : InRange m) (c : Dev nD) : W21 m hR c main_arg3 = m ((c : Thread nD τ).loc main_arg3) := (W21_of_ne m hR c main_arg3 (by decide)).trans (W20_arg3 m hR c)
theorem W21_arg4 (hR : InRange m) (c : Dev nD) : W21 m hR c main_arg4 = m ((c : Thread nD τ).loc main_arg4) := (W21_of_ne m hR c main_arg4 (by decide)).trans (W20_arg4 m hR c)

/-! ## Host stretch 11 and gather call 11 (items 21 and 22) -/

/-- After host stretch 11: gather call 11's entry. -/
abbrev W22 (hR : InRange m) : Dev nD → Valuation τ sig (Elt F) := fun c => StableHlo.after hostOps11 (W21 m hR c)
abbrev V22 (hR : InRange m) : (c : Dev nD) → (b : Ref sig .tc) → Buf (Elt F) ((c : Thread nD τ).loc b) := fun c b => W22 m hR c b
/-- The stretch leaves every buffer it does not write as it was. -/
theorem W22_of (hR : InRange m) (c : Dev nD) (r : Ref sig .tc) (h : r ∉ hostOps11_W) : W22 m hR c r = W21 m hR c r :=
  StableHlo.after_of_writes_sub hostOps11 _ hostOps11_writes h
theorem W22_arg0 (hR : InRange m) (c : Dev nD) : W22 m hR c main_arg0 = m ((c : Thread nD τ).loc main_arg0) := (W22_of m hR c main_arg0 (by decide)).trans (W21_arg0 m hR c)
theorem W22_arg1 (hR : InRange m) (c : Dev nD) : W22 m hR c main_arg1 = m ((c : Thread nD τ).loc main_arg1) := (W22_of m hR c main_arg1 (by decide)).trans (W21_arg1 m hR c)
theorem W22_arg2 (hR : InRange m) (c : Dev nD) : W22 m hR c main_arg2 = m ((c : Thread nD τ).loc main_arg2) := (W22_of m hR c main_arg2 (by decide)).trans (W21_arg2 m hR c)
theorem W22_arg3 (hR : InRange m) (c : Dev nD) : W22 m hR c main_arg3 = m ((c : Thread nD τ).loc main_arg3) := (W22_of m hR c main_arg3 (by decide)).trans (W21_arg3 m hR c)
theorem W22_arg4 (hR : InRange m) (c : Dev nD) : W22 m hR c main_arg4 = m ((c : Thread nD τ).loc main_arg4) := (W22_of m hR c main_arg4 (by decide)).trans (W21_arg4 m hR c)

/-- At gather call 11's exit: its three arrays at what the pipeline leaves, every other buffer as entered. -/
def W23 (hR : InRange m) (c : Dev nD) : Valuation τ sig (Elt F) :=
  Pipeline.withArrays spec11 c (W22 m hR c) fun w => (dat11 (V22 m hR) (a11 m hR) c).arrAt w (cfg11 (a11 m hR)).N
theorem W23_arr (hR : InRange m) (c : Dev nD) (w : Fin (cfg11 (a11 m hR)).W) :
    W23 m hR c (Proc.devRef .tc (Pipeline.arrRef spec11 w)) = (dat11 (V22 m hR) (a11 m hR) c).arrAt w (cfg11 (a11 m hR)).N := by
  unfold W23; exact Pipeline.withArrays_arr spec11 (launch11 (F := F)).win.arr_inj c _ _ w
theorem W23_of_ne (hR : InRange m) (c : Dev nD) (b : Ref sig .tc) (hb : ∀ w, Pipeline.arrRef spec11 w ≠ b) :
    W23 m hR c (Proc.devRef .tc b) = W22 m hR c (Proc.devRef .tc b) := by
  unfold W23; exact Pipeline.withArrays_of_ne spec11 c _ _ b hb
abbrev V23 (hR : InRange m) : (c : Dev nD) → (b : Ref sig .tc) → Buf (Elt F) ((c : Thread nD τ).loc b) := fun c b => W23 m hR c b
theorem hF11 (hR : InRange m) (c : Dev nD) (w : Fin (cfg11 (a11 m hR)).W) :
    (dat11 (V22 m hR) (a11 m hR) c).arrAt w (cfg11 (a11 m hR)).N = V23 m hR c (Pipeline.arrRef spec11 w) :=
  (W23_arr m hR c w).symm
theorem hrest11 (hR : InRange m) (c : Dev nD) : ∀ b, b ∉ Finset.univ.image (Pipeline.arrRef spec11) → V23 m hR c b = V22 m hR c b :=
  fun b hb => W23_of_ne m hR c b fun w e => hb (Finset.mem_image.mpr ⟨w, Finset.mem_univ _, e⟩)
/-- An input array of the gather call (a re-laid projection) is left as entered. -/
theorem W23_in (hR : InRange m) (c : Dev nD) (w : Fin (cfg11 (a11 m hR)).W) (hw : ((cfg11 (a11 m hR)).win w).isOut = false) :
    W23 m hR c (Proc.devRef .tc (Pipeline.arrRef spec11 w)) = W22 m hR c (Proc.devRef .tc (Pipeline.arrRef spec11 w)) :=
  (W23_arr m hR c w).trans (((dat11 (V22 m hR) (a11 m hR) c).arrAt_in w hw _).trans (A_eq11 (V22 m hR) (a11 m hR) c w))
theorem W23_arg0 (hR : InRange m) (c : Dev nD) : W23 m hR c main_arg0 = m ((c : Thread nD τ).loc main_arg0) := (W23_of_ne m hR c main_arg0 (by decide)).trans (W22_arg0 m hR c)
theorem W23_arg1 (hR : InRange m) (c : Dev nD) : W23 m hR c main_arg1 = m ((c : Thread nD τ).loc main_arg1) := (W23_of_ne m hR c main_arg1 (by decide)).trans (W22_arg1 m hR c)
theorem W23_arg2 (hR : InRange m) (c : Dev nD) : W23 m hR c main_arg2 = m ((c : Thread nD τ).loc main_arg2) := (W23_of_ne m hR c main_arg2 (by decide)).trans (W22_arg2 m hR c)
theorem W23_arg3 (hR : InRange m) (c : Dev nD) : W23 m hR c main_arg3 = m ((c : Thread nD τ).loc main_arg3) := (W23_of_ne m hR c main_arg3 (by decide)).trans (W22_arg3 m hR c)
theorem W23_arg4 (hR : InRange m) (c : Dev nD) : W23 m hR c main_arg4 = m ((c : Thread nD τ).loc main_arg4) := (W23_of_ne m hR c main_arg4 (by decide)).trans (W22_arg4 m hR c)

/-! ## Host stretch 12 and gather call 12 (items 23 and 24) -/

/-- After host stretch 12: gather call 12's entry. -/
abbrev W24 (hR : InRange m) : Dev nD → Valuation τ sig (Elt F) := fun c => StableHlo.after hostOps12 (W23 m hR c)
abbrev V24 (hR : InRange m) : (c : Dev nD) → (b : Ref sig .tc) → Buf (Elt F) ((c : Thread nD τ).loc b) := fun c b => W24 m hR c b
/-- The stretch leaves every buffer it does not write as it was. -/
theorem W24_of (hR : InRange m) (c : Dev nD) (r : Ref sig .tc) (h : r ∉ hostOps12_W) : W24 m hR c r = W23 m hR c r :=
  StableHlo.after_of_writes_sub hostOps12 _ hostOps12_writes h
theorem W24_arg0 (hR : InRange m) (c : Dev nD) : W24 m hR c main_arg0 = m ((c : Thread nD τ).loc main_arg0) := (W24_of m hR c main_arg0 (by decide)).trans (W23_arg0 m hR c)
theorem W24_arg1 (hR : InRange m) (c : Dev nD) : W24 m hR c main_arg1 = m ((c : Thread nD τ).loc main_arg1) := (W24_of m hR c main_arg1 (by decide)).trans (W23_arg1 m hR c)
theorem W24_arg2 (hR : InRange m) (c : Dev nD) : W24 m hR c main_arg2 = m ((c : Thread nD τ).loc main_arg2) := (W24_of m hR c main_arg2 (by decide)).trans (W23_arg2 m hR c)
theorem W24_arg3 (hR : InRange m) (c : Dev nD) : W24 m hR c main_arg3 = m ((c : Thread nD τ).loc main_arg3) := (W24_of m hR c main_arg3 (by decide)).trans (W23_arg3 m hR c)
theorem W24_arg4 (hR : InRange m) (c : Dev nD) : W24 m hR c main_arg4 = m ((c : Thread nD τ).loc main_arg4) := (W24_of m hR c main_arg4 (by decide)).trans (W23_arg4 m hR c)

/-- At gather call 12's exit: its three arrays at what the pipeline leaves, every other buffer as entered. -/
def W25 (hR : InRange m) (c : Dev nD) : Valuation τ sig (Elt F) :=
  Pipeline.withArrays spec12 c (W24 m hR c) fun w => (dat12 (V24 m hR) (a12 m hR) c).arrAt w (cfg12 (a12 m hR)).N
theorem W25_arr (hR : InRange m) (c : Dev nD) (w : Fin (cfg12 (a12 m hR)).W) :
    W25 m hR c (Proc.devRef .tc (Pipeline.arrRef spec12 w)) = (dat12 (V24 m hR) (a12 m hR) c).arrAt w (cfg12 (a12 m hR)).N := by
  unfold W25; exact Pipeline.withArrays_arr spec12 (launch12 (F := F)).win.arr_inj c _ _ w
theorem W25_of_ne (hR : InRange m) (c : Dev nD) (b : Ref sig .tc) (hb : ∀ w, Pipeline.arrRef spec12 w ≠ b) :
    W25 m hR c (Proc.devRef .tc b) = W24 m hR c (Proc.devRef .tc b) := by
  unfold W25; exact Pipeline.withArrays_of_ne spec12 c _ _ b hb
abbrev V25 (hR : InRange m) : (c : Dev nD) → (b : Ref sig .tc) → Buf (Elt F) ((c : Thread nD τ).loc b) := fun c b => W25 m hR c b
theorem hF12 (hR : InRange m) (c : Dev nD) (w : Fin (cfg12 (a12 m hR)).W) :
    (dat12 (V24 m hR) (a12 m hR) c).arrAt w (cfg12 (a12 m hR)).N = V25 m hR c (Pipeline.arrRef spec12 w) :=
  (W25_arr m hR c w).symm
theorem hrest12 (hR : InRange m) (c : Dev nD) : ∀ b, b ∉ Finset.univ.image (Pipeline.arrRef spec12) → V25 m hR c b = V24 m hR c b :=
  fun b hb => W25_of_ne m hR c b fun w e => hb (Finset.mem_image.mpr ⟨w, Finset.mem_univ _, e⟩)
/-- An input array of the gather call (a re-laid projection) is left as entered. -/
theorem W25_in (hR : InRange m) (c : Dev nD) (w : Fin (cfg12 (a12 m hR)).W) (hw : ((cfg12 (a12 m hR)).win w).isOut = false) :
    W25 m hR c (Proc.devRef .tc (Pipeline.arrRef spec12 w)) = W24 m hR c (Proc.devRef .tc (Pipeline.arrRef spec12 w)) :=
  (W25_arr m hR c w).trans (((dat12 (V24 m hR) (a12 m hR) c).arrAt_in w hw _).trans (A_eq12 (V24 m hR) (a12 m hR) c w))
theorem W25_arg0 (hR : InRange m) (c : Dev nD) : W25 m hR c main_arg0 = m ((c : Thread nD τ).loc main_arg0) := (W25_of_ne m hR c main_arg0 (by decide)).trans (W24_arg0 m hR c)
theorem W25_arg1 (hR : InRange m) (c : Dev nD) : W25 m hR c main_arg1 = m ((c : Thread nD τ).loc main_arg1) := (W25_of_ne m hR c main_arg1 (by decide)).trans (W24_arg1 m hR c)
theorem W25_arg2 (hR : InRange m) (c : Dev nD) : W25 m hR c main_arg2 = m ((c : Thread nD τ).loc main_arg2) := (W25_of_ne m hR c main_arg2 (by decide)).trans (W24_arg2 m hR c)
theorem W25_arg3 (hR : InRange m) (c : Dev nD) : W25 m hR c main_arg3 = m ((c : Thread nD τ).loc main_arg3) := (W25_of_ne m hR c main_arg3 (by decide)).trans (W24_arg3 m hR c)
theorem W25_arg4 (hR : InRange m) (c : Dev nD) : W25 m hR c main_arg4 = m ((c : Thread nD τ).loc main_arg4) := (W25_of_ne m hR c main_arg4 (by decide)).trans (W24_arg4 m hR c)

/-! ## Host stretch 13 and gather call 13 (items 25 and 26) -/

/-- After host stretch 13: gather call 13's entry. -/
abbrev W26 (hR : InRange m) : Dev nD → Valuation τ sig (Elt F) := fun c => StableHlo.after hostOps13 (W25 m hR c)
abbrev V26 (hR : InRange m) : (c : Dev nD) → (b : Ref sig .tc) → Buf (Elt F) ((c : Thread nD τ).loc b) := fun c b => W26 m hR c b
/-- The stretch leaves every buffer it does not write as it was. -/
theorem W26_of (hR : InRange m) (c : Dev nD) (r : Ref sig .tc) (h : r ∉ hostOps13_W) : W26 m hR c r = W25 m hR c r :=
  StableHlo.after_of_writes_sub hostOps13 _ hostOps13_writes h
theorem W26_arg0 (hR : InRange m) (c : Dev nD) : W26 m hR c main_arg0 = m ((c : Thread nD τ).loc main_arg0) := (W26_of m hR c main_arg0 (by decide)).trans (W25_arg0 m hR c)
theorem W26_arg1 (hR : InRange m) (c : Dev nD) : W26 m hR c main_arg1 = m ((c : Thread nD τ).loc main_arg1) := (W26_of m hR c main_arg1 (by decide)).trans (W25_arg1 m hR c)
theorem W26_arg2 (hR : InRange m) (c : Dev nD) : W26 m hR c main_arg2 = m ((c : Thread nD τ).loc main_arg2) := (W26_of m hR c main_arg2 (by decide)).trans (W25_arg2 m hR c)
theorem W26_arg3 (hR : InRange m) (c : Dev nD) : W26 m hR c main_arg3 = m ((c : Thread nD τ).loc main_arg3) := (W26_of m hR c main_arg3 (by decide)).trans (W25_arg3 m hR c)
theorem W26_arg4 (hR : InRange m) (c : Dev nD) : W26 m hR c main_arg4 = m ((c : Thread nD τ).loc main_arg4) := (W26_of m hR c main_arg4 (by decide)).trans (W25_arg4 m hR c)

/-- At gather call 13's exit: its three arrays at what the pipeline leaves, every other buffer as entered. -/
def W27 (hR : InRange m) (c : Dev nD) : Valuation τ sig (Elt F) :=
  Pipeline.withArrays spec13 c (W26 m hR c) fun w => (dat13 (V26 m hR) (a13 m hR) c).arrAt w (cfg13 (a13 m hR)).N
theorem W27_arr (hR : InRange m) (c : Dev nD) (w : Fin (cfg13 (a13 m hR)).W) :
    W27 m hR c (Proc.devRef .tc (Pipeline.arrRef spec13 w)) = (dat13 (V26 m hR) (a13 m hR) c).arrAt w (cfg13 (a13 m hR)).N := by
  unfold W27; exact Pipeline.withArrays_arr spec13 (launch13 (F := F)).win.arr_inj c _ _ w
theorem W27_of_ne (hR : InRange m) (c : Dev nD) (b : Ref sig .tc) (hb : ∀ w, Pipeline.arrRef spec13 w ≠ b) :
    W27 m hR c (Proc.devRef .tc b) = W26 m hR c (Proc.devRef .tc b) := by
  unfold W27; exact Pipeline.withArrays_of_ne spec13 c _ _ b hb
abbrev V27 (hR : InRange m) : (c : Dev nD) → (b : Ref sig .tc) → Buf (Elt F) ((c : Thread nD τ).loc b) := fun c b => W27 m hR c b
theorem hF13 (hR : InRange m) (c : Dev nD) (w : Fin (cfg13 (a13 m hR)).W) :
    (dat13 (V26 m hR) (a13 m hR) c).arrAt w (cfg13 (a13 m hR)).N = V27 m hR c (Pipeline.arrRef spec13 w) :=
  (W27_arr m hR c w).symm
theorem hrest13 (hR : InRange m) (c : Dev nD) : ∀ b, b ∉ Finset.univ.image (Pipeline.arrRef spec13) → V27 m hR c b = V26 m hR c b :=
  fun b hb => W27_of_ne m hR c b fun w e => hb (Finset.mem_image.mpr ⟨w, Finset.mem_univ _, e⟩)
/-- An input array of the gather call (a re-laid projection) is left as entered. -/
theorem W27_in (hR : InRange m) (c : Dev nD) (w : Fin (cfg13 (a13 m hR)).W) (hw : ((cfg13 (a13 m hR)).win w).isOut = false) :
    W27 m hR c (Proc.devRef .tc (Pipeline.arrRef spec13 w)) = W26 m hR c (Proc.devRef .tc (Pipeline.arrRef spec13 w)) :=
  (W27_arr m hR c w).trans (((dat13 (V26 m hR) (a13 m hR) c).arrAt_in w hw _).trans (A_eq13 (V26 m hR) (a13 m hR) c w))
theorem W27_arg0 (hR : InRange m) (c : Dev nD) : W27 m hR c main_arg0 = m ((c : Thread nD τ).loc main_arg0) := (W27_of_ne m hR c main_arg0 (by decide)).trans (W26_arg0 m hR c)
theorem W27_arg1 (hR : InRange m) (c : Dev nD) : W27 m hR c main_arg1 = m ((c : Thread nD τ).loc main_arg1) := (W27_of_ne m hR c main_arg1 (by decide)).trans (W26_arg1 m hR c)
theorem W27_arg2 (hR : InRange m) (c : Dev nD) : W27 m hR c main_arg2 = m ((c : Thread nD τ).loc main_arg2) := (W27_of_ne m hR c main_arg2 (by decide)).trans (W26_arg2 m hR c)
theorem W27_arg3 (hR : InRange m) (c : Dev nD) : W27 m hR c main_arg3 = m ((c : Thread nD τ).loc main_arg3) := (W27_of_ne m hR c main_arg3 (by decide)).trans (W26_arg3 m hR c)
theorem W27_arg4 (hR : InRange m) (c : Dev nD) : W27 m hR c main_arg4 = m ((c : Thread nD τ).loc main_arg4) := (W27_of_ne m hR c main_arg4 (by decide)).trans (W26_arg4 m hR c)

/-! ## Host stretch 14 and gather call 14 (items 27 and 28) -/

/-- After host stretch 14: gather call 14's entry. -/
abbrev W28 (hR : InRange m) : Dev nD → Valuation τ sig (Elt F) := fun c => StableHlo.after hostOps14 (W27 m hR c)
abbrev V28 (hR : InRange m) : (c : Dev nD) → (b : Ref sig .tc) → Buf (Elt F) ((c : Thread nD τ).loc b) := fun c b => W28 m hR c b
/-- The stretch leaves every buffer it does not write as it was. -/
theorem W28_of (hR : InRange m) (c : Dev nD) (r : Ref sig .tc) (h : r ∉ hostOps14_W) : W28 m hR c r = W27 m hR c r :=
  StableHlo.after_of_writes_sub hostOps14 _ hostOps14_writes h
theorem W28_arg0 (hR : InRange m) (c : Dev nD) : W28 m hR c main_arg0 = m ((c : Thread nD τ).loc main_arg0) := (W28_of m hR c main_arg0 (by decide)).trans (W27_arg0 m hR c)
theorem W28_arg1 (hR : InRange m) (c : Dev nD) : W28 m hR c main_arg1 = m ((c : Thread nD τ).loc main_arg1) := (W28_of m hR c main_arg1 (by decide)).trans (W27_arg1 m hR c)
theorem W28_arg2 (hR : InRange m) (c : Dev nD) : W28 m hR c main_arg2 = m ((c : Thread nD τ).loc main_arg2) := (W28_of m hR c main_arg2 (by decide)).trans (W27_arg2 m hR c)
theorem W28_arg3 (hR : InRange m) (c : Dev nD) : W28 m hR c main_arg3 = m ((c : Thread nD τ).loc main_arg3) := (W28_of m hR c main_arg3 (by decide)).trans (W27_arg3 m hR c)
theorem W28_arg4 (hR : InRange m) (c : Dev nD) : W28 m hR c main_arg4 = m ((c : Thread nD τ).loc main_arg4) := (W28_of m hR c main_arg4 (by decide)).trans (W27_arg4 m hR c)

/-- At gather call 14's exit: its three arrays at what the pipeline leaves, every other buffer as entered. -/
def W29 (hR : InRange m) (c : Dev nD) : Valuation τ sig (Elt F) :=
  Pipeline.withArrays spec14 c (W28 m hR c) fun w => (dat14 (V28 m hR) (a14 m hR) c).arrAt w (cfg14 (a14 m hR)).N
theorem W29_arr (hR : InRange m) (c : Dev nD) (w : Fin (cfg14 (a14 m hR)).W) :
    W29 m hR c (Proc.devRef .tc (Pipeline.arrRef spec14 w)) = (dat14 (V28 m hR) (a14 m hR) c).arrAt w (cfg14 (a14 m hR)).N := by
  unfold W29; exact Pipeline.withArrays_arr spec14 (launch14 (F := F)).win.arr_inj c _ _ w
theorem W29_of_ne (hR : InRange m) (c : Dev nD) (b : Ref sig .tc) (hb : ∀ w, Pipeline.arrRef spec14 w ≠ b) :
    W29 m hR c (Proc.devRef .tc b) = W28 m hR c (Proc.devRef .tc b) := by
  unfold W29; exact Pipeline.withArrays_of_ne spec14 c _ _ b hb
abbrev V29 (hR : InRange m) : (c : Dev nD) → (b : Ref sig .tc) → Buf (Elt F) ((c : Thread nD τ).loc b) := fun c b => W29 m hR c b
theorem hF14 (hR : InRange m) (c : Dev nD) (w : Fin (cfg14 (a14 m hR)).W) :
    (dat14 (V28 m hR) (a14 m hR) c).arrAt w (cfg14 (a14 m hR)).N = V29 m hR c (Pipeline.arrRef spec14 w) :=
  (W29_arr m hR c w).symm
theorem hrest14 (hR : InRange m) (c : Dev nD) : ∀ b, b ∉ Finset.univ.image (Pipeline.arrRef spec14) → V29 m hR c b = V28 m hR c b :=
  fun b hb => W29_of_ne m hR c b fun w e => hb (Finset.mem_image.mpr ⟨w, Finset.mem_univ _, e⟩)
/-- An input array of the gather call (a re-laid projection) is left as entered. -/
theorem W29_in (hR : InRange m) (c : Dev nD) (w : Fin (cfg14 (a14 m hR)).W) (hw : ((cfg14 (a14 m hR)).win w).isOut = false) :
    W29 m hR c (Proc.devRef .tc (Pipeline.arrRef spec14 w)) = W28 m hR c (Proc.devRef .tc (Pipeline.arrRef spec14 w)) :=
  (W29_arr m hR c w).trans (((dat14 (V28 m hR) (a14 m hR) c).arrAt_in w hw _).trans (A_eq14 (V28 m hR) (a14 m hR) c w))
theorem W29_arg0 (hR : InRange m) (c : Dev nD) : W29 m hR c main_arg0 = m ((c : Thread nD τ).loc main_arg0) := (W29_of_ne m hR c main_arg0 (by decide)).trans (W28_arg0 m hR c)
theorem W29_arg1 (hR : InRange m) (c : Dev nD) : W29 m hR c main_arg1 = m ((c : Thread nD τ).loc main_arg1) := (W29_of_ne m hR c main_arg1 (by decide)).trans (W28_arg1 m hR c)
theorem W29_arg2 (hR : InRange m) (c : Dev nD) : W29 m hR c main_arg2 = m ((c : Thread nD τ).loc main_arg2) := (W29_of_ne m hR c main_arg2 (by decide)).trans (W28_arg2 m hR c)
theorem W29_arg3 (hR : InRange m) (c : Dev nD) : W29 m hR c main_arg3 = m ((c : Thread nD τ).loc main_arg3) := (W29_of_ne m hR c main_arg3 (by decide)).trans (W28_arg3 m hR c)
theorem W29_arg4 (hR : InRange m) (c : Dev nD) : W29 m hR c main_arg4 = m ((c : Thread nD τ).loc main_arg4) := (W29_of_ne m hR c main_arg4 (by decide)).trans (W28_arg4 m hR c)

/-! ## Host stretch 15 and gather call 15 (items 29 and 30) -/

/-- After host stretch 15: gather call 15's entry. -/
abbrev W30 (hR : InRange m) : Dev nD → Valuation τ sig (Elt F) := fun c => StableHlo.after hostOps15 (W29 m hR c)
abbrev V30 (hR : InRange m) : (c : Dev nD) → (b : Ref sig .tc) → Buf (Elt F) ((c : Thread nD τ).loc b) := fun c b => W30 m hR c b
/-- The stretch leaves every buffer it does not write as it was. -/
theorem W30_of (hR : InRange m) (c : Dev nD) (r : Ref sig .tc) (h : r ∉ hostOps15_W) : W30 m hR c r = W29 m hR c r :=
  StableHlo.after_of_writes_sub hostOps15 _ hostOps15_writes h
theorem W30_arg0 (hR : InRange m) (c : Dev nD) : W30 m hR c main_arg0 = m ((c : Thread nD τ).loc main_arg0) := (W30_of m hR c main_arg0 (by decide)).trans (W29_arg0 m hR c)
theorem W30_arg1 (hR : InRange m) (c : Dev nD) : W30 m hR c main_arg1 = m ((c : Thread nD τ).loc main_arg1) := (W30_of m hR c main_arg1 (by decide)).trans (W29_arg1 m hR c)
theorem W30_arg2 (hR : InRange m) (c : Dev nD) : W30 m hR c main_arg2 = m ((c : Thread nD τ).loc main_arg2) := (W30_of m hR c main_arg2 (by decide)).trans (W29_arg2 m hR c)
theorem W30_arg3 (hR : InRange m) (c : Dev nD) : W30 m hR c main_arg3 = m ((c : Thread nD τ).loc main_arg3) := (W30_of m hR c main_arg3 (by decide)).trans (W29_arg3 m hR c)
theorem W30_arg4 (hR : InRange m) (c : Dev nD) : W30 m hR c main_arg4 = m ((c : Thread nD τ).loc main_arg4) := (W30_of m hR c main_arg4 (by decide)).trans (W29_arg4 m hR c)

/-- At gather call 15's exit: its three arrays at what the pipeline leaves, every other buffer as entered. -/
def W31 (hR : InRange m) (c : Dev nD) : Valuation τ sig (Elt F) :=
  Pipeline.withArrays spec15 c (W30 m hR c) fun w => (dat15 (V30 m hR) (a15 m hR) c).arrAt w (cfg15 (a15 m hR)).N
theorem W31_arr (hR : InRange m) (c : Dev nD) (w : Fin (cfg15 (a15 m hR)).W) :
    W31 m hR c (Proc.devRef .tc (Pipeline.arrRef spec15 w)) = (dat15 (V30 m hR) (a15 m hR) c).arrAt w (cfg15 (a15 m hR)).N := by
  unfold W31; exact Pipeline.withArrays_arr spec15 (launch15 (F := F)).win.arr_inj c _ _ w
theorem W31_of_ne (hR : InRange m) (c : Dev nD) (b : Ref sig .tc) (hb : ∀ w, Pipeline.arrRef spec15 w ≠ b) :
    W31 m hR c (Proc.devRef .tc b) = W30 m hR c (Proc.devRef .tc b) := by
  unfold W31; exact Pipeline.withArrays_of_ne spec15 c _ _ b hb
abbrev V31 (hR : InRange m) : (c : Dev nD) → (b : Ref sig .tc) → Buf (Elt F) ((c : Thread nD τ).loc b) := fun c b => W31 m hR c b
theorem hF15 (hR : InRange m) (c : Dev nD) (w : Fin (cfg15 (a15 m hR)).W) :
    (dat15 (V30 m hR) (a15 m hR) c).arrAt w (cfg15 (a15 m hR)).N = V31 m hR c (Pipeline.arrRef spec15 w) :=
  (W31_arr m hR c w).symm
theorem hrest15 (hR : InRange m) (c : Dev nD) : ∀ b, b ∉ Finset.univ.image (Pipeline.arrRef spec15) → V31 m hR c b = V30 m hR c b :=
  fun b hb => W31_of_ne m hR c b fun w e => hb (Finset.mem_image.mpr ⟨w, Finset.mem_univ _, e⟩)
/-- An input array of the gather call (a re-laid projection) is left as entered. -/
theorem W31_in (hR : InRange m) (c : Dev nD) (w : Fin (cfg15 (a15 m hR)).W) (hw : ((cfg15 (a15 m hR)).win w).isOut = false) :
    W31 m hR c (Proc.devRef .tc (Pipeline.arrRef spec15 w)) = W30 m hR c (Proc.devRef .tc (Pipeline.arrRef spec15 w)) :=
  (W31_arr m hR c w).trans (((dat15 (V30 m hR) (a15 m hR) c).arrAt_in w hw _).trans (A_eq15 (V30 m hR) (a15 m hR) c w))
theorem W31_arg0 (hR : InRange m) (c : Dev nD) : W31 m hR c main_arg0 = m ((c : Thread nD τ).loc main_arg0) := (W31_of_ne m hR c main_arg0 (by decide)).trans (W30_arg0 m hR c)
theorem W31_arg1 (hR : InRange m) (c : Dev nD) : W31 m hR c main_arg1 = m ((c : Thread nD τ).loc main_arg1) := (W31_of_ne m hR c main_arg1 (by decide)).trans (W30_arg1 m hR c)
theorem W31_arg2 (hR : InRange m) (c : Dev nD) : W31 m hR c main_arg2 = m ((c : Thread nD τ).loc main_arg2) := (W31_of_ne m hR c main_arg2 (by decide)).trans (W30_arg2 m hR c)
theorem W31_arg3 (hR : InRange m) (c : Dev nD) : W31 m hR c main_arg3 = m ((c : Thread nD τ).loc main_arg3) := (W31_of_ne m hR c main_arg3 (by decide)).trans (W30_arg3 m hR c)
theorem W31_arg4 (hR : InRange m) (c : Dev nD) : W31 m hR c main_arg4 = m ((c : Thread nD τ).loc main_arg4) := (W31_of_ne m hR c main_arg4 (by decide)).trans (W30_arg4 m hR c)

/-! ## Host stretch 16 and gather call 16 (items 31 and 32) -/

/-- After host stretch 16: gather call 16's entry. -/
abbrev W32 (hR : InRange m) : Dev nD → Valuation τ sig (Elt F) := fun c => StableHlo.after hostOps16 (W31 m hR c)
abbrev V32 (hR : InRange m) : (c : Dev nD) → (b : Ref sig .tc) → Buf (Elt F) ((c : Thread nD τ).loc b) := fun c b => W32 m hR c b
/-- The stretch leaves every buffer it does not write as it was. -/
theorem W32_of (hR : InRange m) (c : Dev nD) (r : Ref sig .tc) (h : r ∉ hostOps16_W) : W32 m hR c r = W31 m hR c r :=
  StableHlo.after_of_writes_sub hostOps16 _ hostOps16_writes h
theorem W32_arg0 (hR : InRange m) (c : Dev nD) : W32 m hR c main_arg0 = m ((c : Thread nD τ).loc main_arg0) := (W32_of m hR c main_arg0 (by decide)).trans (W31_arg0 m hR c)
theorem W32_arg1 (hR : InRange m) (c : Dev nD) : W32 m hR c main_arg1 = m ((c : Thread nD τ).loc main_arg1) := (W32_of m hR c main_arg1 (by decide)).trans (W31_arg1 m hR c)
theorem W32_arg2 (hR : InRange m) (c : Dev nD) : W32 m hR c main_arg2 = m ((c : Thread nD τ).loc main_arg2) := (W32_of m hR c main_arg2 (by decide)).trans (W31_arg2 m hR c)
theorem W32_arg3 (hR : InRange m) (c : Dev nD) : W32 m hR c main_arg3 = m ((c : Thread nD τ).loc main_arg3) := (W32_of m hR c main_arg3 (by decide)).trans (W31_arg3 m hR c)
theorem W32_arg4 (hR : InRange m) (c : Dev nD) : W32 m hR c main_arg4 = m ((c : Thread nD τ).loc main_arg4) := (W32_of m hR c main_arg4 (by decide)).trans (W31_arg4 m hR c)

/-- At gather call 16's exit: its three arrays at what the pipeline leaves, every other buffer as entered. -/
def W33 (hR : InRange m) (c : Dev nD) : Valuation τ sig (Elt F) :=
  Pipeline.withArrays spec16 c (W32 m hR c) fun w => (dat16 (V32 m hR) (a16 m hR) c).arrAt w (cfg16 (a16 m hR)).N
theorem W33_arr (hR : InRange m) (c : Dev nD) (w : Fin (cfg16 (a16 m hR)).W) :
    W33 m hR c (Proc.devRef .tc (Pipeline.arrRef spec16 w)) = (dat16 (V32 m hR) (a16 m hR) c).arrAt w (cfg16 (a16 m hR)).N := by
  unfold W33; exact Pipeline.withArrays_arr spec16 (launch16 (F := F)).win.arr_inj c _ _ w
theorem W33_of_ne (hR : InRange m) (c : Dev nD) (b : Ref sig .tc) (hb : ∀ w, Pipeline.arrRef spec16 w ≠ b) :
    W33 m hR c (Proc.devRef .tc b) = W32 m hR c (Proc.devRef .tc b) := by
  unfold W33; exact Pipeline.withArrays_of_ne spec16 c _ _ b hb
abbrev V33 (hR : InRange m) : (c : Dev nD) → (b : Ref sig .tc) → Buf (Elt F) ((c : Thread nD τ).loc b) := fun c b => W33 m hR c b
theorem hF16 (hR : InRange m) (c : Dev nD) (w : Fin (cfg16 (a16 m hR)).W) :
    (dat16 (V32 m hR) (a16 m hR) c).arrAt w (cfg16 (a16 m hR)).N = V33 m hR c (Pipeline.arrRef spec16 w) :=
  (W33_arr m hR c w).symm
theorem hrest16 (hR : InRange m) (c : Dev nD) : ∀ b, b ∉ Finset.univ.image (Pipeline.arrRef spec16) → V33 m hR c b = V32 m hR c b :=
  fun b hb => W33_of_ne m hR c b fun w e => hb (Finset.mem_image.mpr ⟨w, Finset.mem_univ _, e⟩)
/-- An input array of the gather call (a re-laid projection) is left as entered. -/
theorem W33_in (hR : InRange m) (c : Dev nD) (w : Fin (cfg16 (a16 m hR)).W) (hw : ((cfg16 (a16 m hR)).win w).isOut = false) :
    W33 m hR c (Proc.devRef .tc (Pipeline.arrRef spec16 w)) = W32 m hR c (Proc.devRef .tc (Pipeline.arrRef spec16 w)) :=
  (W33_arr m hR c w).trans (((dat16 (V32 m hR) (a16 m hR) c).arrAt_in w hw _).trans (A_eq16 (V32 m hR) (a16 m hR) c w))
theorem W33_arg0 (hR : InRange m) (c : Dev nD) : W33 m hR c main_arg0 = m ((c : Thread nD τ).loc main_arg0) := (W33_of_ne m hR c main_arg0 (by decide)).trans (W32_arg0 m hR c)
theorem W33_arg1 (hR : InRange m) (c : Dev nD) : W33 m hR c main_arg1 = m ((c : Thread nD τ).loc main_arg1) := (W33_of_ne m hR c main_arg1 (by decide)).trans (W32_arg1 m hR c)
theorem W33_arg2 (hR : InRange m) (c : Dev nD) : W33 m hR c main_arg2 = m ((c : Thread nD τ).loc main_arg2) := (W33_of_ne m hR c main_arg2 (by decide)).trans (W32_arg2 m hR c)
theorem W33_arg3 (hR : InRange m) (c : Dev nD) : W33 m hR c main_arg3 = m ((c : Thread nD τ).loc main_arg3) := (W33_of_ne m hR c main_arg3 (by decide)).trans (W32_arg3 m hR c)
theorem W33_arg4 (hR : InRange m) (c : Dev nD) : W33 m hR c main_arg4 = m ((c : Thread nD τ).loc main_arg4) := (W33_of_ne m hR c main_arg4 (by decide)).trans (W32_arg4 m hR c)

/-! ## Host stretch 17 and gather call 17 (items 33 and 34) -/

/-- After host stretch 17: gather call 17's entry. -/
abbrev W34 (hR : InRange m) : Dev nD → Valuation τ sig (Elt F) := fun c => StableHlo.after hostOps17 (W33 m hR c)
abbrev V34 (hR : InRange m) : (c : Dev nD) → (b : Ref sig .tc) → Buf (Elt F) ((c : Thread nD τ).loc b) := fun c b => W34 m hR c b
/-- The stretch leaves every buffer it does not write as it was. -/
theorem W34_of (hR : InRange m) (c : Dev nD) (r : Ref sig .tc) (h : r ∉ hostOps17_W) : W34 m hR c r = W33 m hR c r :=
  StableHlo.after_of_writes_sub hostOps17 _ hostOps17_writes h
theorem W34_arg0 (hR : InRange m) (c : Dev nD) : W34 m hR c main_arg0 = m ((c : Thread nD τ).loc main_arg0) := (W34_of m hR c main_arg0 (by decide)).trans (W33_arg0 m hR c)
theorem W34_arg1 (hR : InRange m) (c : Dev nD) : W34 m hR c main_arg1 = m ((c : Thread nD τ).loc main_arg1) := (W34_of m hR c main_arg1 (by decide)).trans (W33_arg1 m hR c)
theorem W34_arg2 (hR : InRange m) (c : Dev nD) : W34 m hR c main_arg2 = m ((c : Thread nD τ).loc main_arg2) := (W34_of m hR c main_arg2 (by decide)).trans (W33_arg2 m hR c)
theorem W34_arg3 (hR : InRange m) (c : Dev nD) : W34 m hR c main_arg3 = m ((c : Thread nD τ).loc main_arg3) := (W34_of m hR c main_arg3 (by decide)).trans (W33_arg3 m hR c)
theorem W34_arg4 (hR : InRange m) (c : Dev nD) : W34 m hR c main_arg4 = m ((c : Thread nD τ).loc main_arg4) := (W34_of m hR c main_arg4 (by decide)).trans (W33_arg4 m hR c)

/-- At gather call 17's exit: its three arrays at what the pipeline leaves, every other buffer as entered. -/
def W35 (hR : InRange m) (c : Dev nD) : Valuation τ sig (Elt F) :=
  Pipeline.withArrays spec17 c (W34 m hR c) fun w => (dat17 (V34 m hR) (a17 m hR) c).arrAt w (cfg17 (a17 m hR)).N
theorem W35_arr (hR : InRange m) (c : Dev nD) (w : Fin (cfg17 (a17 m hR)).W) :
    W35 m hR c (Proc.devRef .tc (Pipeline.arrRef spec17 w)) = (dat17 (V34 m hR) (a17 m hR) c).arrAt w (cfg17 (a17 m hR)).N := by
  unfold W35; exact Pipeline.withArrays_arr spec17 (launch17 (F := F)).win.arr_inj c _ _ w
theorem W35_of_ne (hR : InRange m) (c : Dev nD) (b : Ref sig .tc) (hb : ∀ w, Pipeline.arrRef spec17 w ≠ b) :
    W35 m hR c (Proc.devRef .tc b) = W34 m hR c (Proc.devRef .tc b) := by
  unfold W35; exact Pipeline.withArrays_of_ne spec17 c _ _ b hb
abbrev V35 (hR : InRange m) : (c : Dev nD) → (b : Ref sig .tc) → Buf (Elt F) ((c : Thread nD τ).loc b) := fun c b => W35 m hR c b
theorem hF17 (hR : InRange m) (c : Dev nD) (w : Fin (cfg17 (a17 m hR)).W) :
    (dat17 (V34 m hR) (a17 m hR) c).arrAt w (cfg17 (a17 m hR)).N = V35 m hR c (Pipeline.arrRef spec17 w) :=
  (W35_arr m hR c w).symm
theorem hrest17 (hR : InRange m) (c : Dev nD) : ∀ b, b ∉ Finset.univ.image (Pipeline.arrRef spec17) → V35 m hR c b = V34 m hR c b :=
  fun b hb => W35_of_ne m hR c b fun w e => hb (Finset.mem_image.mpr ⟨w, Finset.mem_univ _, e⟩)
/-- An input array of the gather call (a re-laid projection) is left as entered. -/
theorem W35_in (hR : InRange m) (c : Dev nD) (w : Fin (cfg17 (a17 m hR)).W) (hw : ((cfg17 (a17 m hR)).win w).isOut = false) :
    W35 m hR c (Proc.devRef .tc (Pipeline.arrRef spec17 w)) = W34 m hR c (Proc.devRef .tc (Pipeline.arrRef spec17 w)) :=
  (W35_arr m hR c w).trans (((dat17 (V34 m hR) (a17 m hR) c).arrAt_in w hw _).trans (A_eq17 (V34 m hR) (a17 m hR) c w))
theorem W35_arg0 (hR : InRange m) (c : Dev nD) : W35 m hR c main_arg0 = m ((c : Thread nD τ).loc main_arg0) := (W35_of_ne m hR c main_arg0 (by decide)).trans (W34_arg0 m hR c)
theorem W35_arg1 (hR : InRange m) (c : Dev nD) : W35 m hR c main_arg1 = m ((c : Thread nD τ).loc main_arg1) := (W35_of_ne m hR c main_arg1 (by decide)).trans (W34_arg1 m hR c)
theorem W35_arg2 (hR : InRange m) (c : Dev nD) : W35 m hR c main_arg2 = m ((c : Thread nD τ).loc main_arg2) := (W35_of_ne m hR c main_arg2 (by decide)).trans (W34_arg2 m hR c)
theorem W35_arg3 (hR : InRange m) (c : Dev nD) : W35 m hR c main_arg3 = m ((c : Thread nD τ).loc main_arg3) := (W35_of_ne m hR c main_arg3 (by decide)).trans (W34_arg3 m hR c)
theorem W35_arg4 (hR : InRange m) (c : Dev nD) : W35 m hR c main_arg4 = m ((c : Thread nD τ).loc main_arg4) := (W35_of_ne m hR c main_arg4 (by decide)).trans (W34_arg4 m hR c)

/-! ## Host stretch 18 and gather call 18 (items 35 and 36) -/

/-- After host stretch 18: gather call 18's entry. -/
abbrev W36 (hR : InRange m) : Dev nD → Valuation τ sig (Elt F) := fun c => StableHlo.after hostOps18 (W35 m hR c)
abbrev V36 (hR : InRange m) : (c : Dev nD) → (b : Ref sig .tc) → Buf (Elt F) ((c : Thread nD τ).loc b) := fun c b => W36 m hR c b
/-- The stretch leaves every buffer it does not write as it was. -/
theorem W36_of (hR : InRange m) (c : Dev nD) (r : Ref sig .tc) (h : r ∉ hostOps18_W) : W36 m hR c r = W35 m hR c r :=
  StableHlo.after_of_writes_sub hostOps18 _ hostOps18_writes h
theorem W36_arg0 (hR : InRange m) (c : Dev nD) : W36 m hR c main_arg0 = m ((c : Thread nD τ).loc main_arg0) := (W36_of m hR c main_arg0 (by decide)).trans (W35_arg0 m hR c)
theorem W36_arg1 (hR : InRange m) (c : Dev nD) : W36 m hR c main_arg1 = m ((c : Thread nD τ).loc main_arg1) := (W36_of m hR c main_arg1 (by decide)).trans (W35_arg1 m hR c)
theorem W36_arg2 (hR : InRange m) (c : Dev nD) : W36 m hR c main_arg2 = m ((c : Thread nD τ).loc main_arg2) := (W36_of m hR c main_arg2 (by decide)).trans (W35_arg2 m hR c)
theorem W36_arg3 (hR : InRange m) (c : Dev nD) : W36 m hR c main_arg3 = m ((c : Thread nD τ).loc main_arg3) := (W36_of m hR c main_arg3 (by decide)).trans (W35_arg3 m hR c)
theorem W36_arg4 (hR : InRange m) (c : Dev nD) : W36 m hR c main_arg4 = m ((c : Thread nD τ).loc main_arg4) := (W36_of m hR c main_arg4 (by decide)).trans (W35_arg4 m hR c)

/-- At gather call 18's exit: its three arrays at what the pipeline leaves, every other buffer as entered. -/
def W37 (hR : InRange m) (c : Dev nD) : Valuation τ sig (Elt F) :=
  Pipeline.withArrays spec18 c (W36 m hR c) fun w => (dat18 (V36 m hR) (a18 m hR) c).arrAt w (cfg18 (a18 m hR)).N
theorem W37_arr (hR : InRange m) (c : Dev nD) (w : Fin (cfg18 (a18 m hR)).W) :
    W37 m hR c (Proc.devRef .tc (Pipeline.arrRef spec18 w)) = (dat18 (V36 m hR) (a18 m hR) c).arrAt w (cfg18 (a18 m hR)).N := by
  unfold W37; exact Pipeline.withArrays_arr spec18 (launch18 (F := F)).win.arr_inj c _ _ w
theorem W37_of_ne (hR : InRange m) (c : Dev nD) (b : Ref sig .tc) (hb : ∀ w, Pipeline.arrRef spec18 w ≠ b) :
    W37 m hR c (Proc.devRef .tc b) = W36 m hR c (Proc.devRef .tc b) := by
  unfold W37; exact Pipeline.withArrays_of_ne spec18 c _ _ b hb
abbrev V37 (hR : InRange m) : (c : Dev nD) → (b : Ref sig .tc) → Buf (Elt F) ((c : Thread nD τ).loc b) := fun c b => W37 m hR c b
theorem hF18 (hR : InRange m) (c : Dev nD) (w : Fin (cfg18 (a18 m hR)).W) :
    (dat18 (V36 m hR) (a18 m hR) c).arrAt w (cfg18 (a18 m hR)).N = V37 m hR c (Pipeline.arrRef spec18 w) :=
  (W37_arr m hR c w).symm
theorem hrest18 (hR : InRange m) (c : Dev nD) : ∀ b, b ∉ Finset.univ.image (Pipeline.arrRef spec18) → V37 m hR c b = V36 m hR c b :=
  fun b hb => W37_of_ne m hR c b fun w e => hb (Finset.mem_image.mpr ⟨w, Finset.mem_univ _, e⟩)
/-- An input array of the gather call (a re-laid projection) is left as entered. -/
theorem W37_in (hR : InRange m) (c : Dev nD) (w : Fin (cfg18 (a18 m hR)).W) (hw : ((cfg18 (a18 m hR)).win w).isOut = false) :
    W37 m hR c (Proc.devRef .tc (Pipeline.arrRef spec18 w)) = W36 m hR c (Proc.devRef .tc (Pipeline.arrRef spec18 w)) :=
  (W37_arr m hR c w).trans (((dat18 (V36 m hR) (a18 m hR) c).arrAt_in w hw _).trans (A_eq18 (V36 m hR) (a18 m hR) c w))
theorem W37_arg0 (hR : InRange m) (c : Dev nD) : W37 m hR c main_arg0 = m ((c : Thread nD τ).loc main_arg0) := (W37_of_ne m hR c main_arg0 (by decide)).trans (W36_arg0 m hR c)
theorem W37_arg1 (hR : InRange m) (c : Dev nD) : W37 m hR c main_arg1 = m ((c : Thread nD τ).loc main_arg1) := (W37_of_ne m hR c main_arg1 (by decide)).trans (W36_arg1 m hR c)
theorem W37_arg2 (hR : InRange m) (c : Dev nD) : W37 m hR c main_arg2 = m ((c : Thread nD τ).loc main_arg2) := (W37_of_ne m hR c main_arg2 (by decide)).trans (W36_arg2 m hR c)
theorem W37_arg3 (hR : InRange m) (c : Dev nD) : W37 m hR c main_arg3 = m ((c : Thread nD τ).loc main_arg3) := (W37_of_ne m hR c main_arg3 (by decide)).trans (W36_arg3 m hR c)
theorem W37_arg4 (hR : InRange m) (c : Dev nD) : W37 m hR c main_arg4 = m ((c : Thread nD τ).loc main_arg4) := (W37_of_ne m hR c main_arg4 (by decide)).trans (W36_arg4 m hR c)

/-! ## Host stretch 19 and gather call 19 (items 37 and 38) -/

/-- After host stretch 19: gather call 19's entry. -/
abbrev W38 (hR : InRange m) : Dev nD → Valuation τ sig (Elt F) := fun c => StableHlo.after hostOps19 (W37 m hR c)
abbrev V38 (hR : InRange m) : (c : Dev nD) → (b : Ref sig .tc) → Buf (Elt F) ((c : Thread nD τ).loc b) := fun c b => W38 m hR c b
/-- The stretch leaves every buffer it does not write as it was. -/
theorem W38_of (hR : InRange m) (c : Dev nD) (r : Ref sig .tc) (h : r ∉ hostOps19_W) : W38 m hR c r = W37 m hR c r :=
  StableHlo.after_of_writes_sub hostOps19 _ hostOps19_writes h
theorem W38_arg0 (hR : InRange m) (c : Dev nD) : W38 m hR c main_arg0 = m ((c : Thread nD τ).loc main_arg0) := (W38_of m hR c main_arg0 (by decide)).trans (W37_arg0 m hR c)
theorem W38_arg1 (hR : InRange m) (c : Dev nD) : W38 m hR c main_arg1 = m ((c : Thread nD τ).loc main_arg1) := (W38_of m hR c main_arg1 (by decide)).trans (W37_arg1 m hR c)
theorem W38_arg2 (hR : InRange m) (c : Dev nD) : W38 m hR c main_arg2 = m ((c : Thread nD τ).loc main_arg2) := (W38_of m hR c main_arg2 (by decide)).trans (W37_arg2 m hR c)
theorem W38_arg3 (hR : InRange m) (c : Dev nD) : W38 m hR c main_arg3 = m ((c : Thread nD τ).loc main_arg3) := (W38_of m hR c main_arg3 (by decide)).trans (W37_arg3 m hR c)
theorem W38_arg4 (hR : InRange m) (c : Dev nD) : W38 m hR c main_arg4 = m ((c : Thread nD τ).loc main_arg4) := (W38_of m hR c main_arg4 (by decide)).trans (W37_arg4 m hR c)

/-- At gather call 19's exit: its three arrays at what the pipeline leaves, every other buffer as entered. -/
def W39 (hR : InRange m) (c : Dev nD) : Valuation τ sig (Elt F) :=
  Pipeline.withArrays spec19 c (W38 m hR c) fun w => (dat19 (V38 m hR) (a19 m hR) c).arrAt w (cfg19 (a19 m hR)).N
theorem W39_arr (hR : InRange m) (c : Dev nD) (w : Fin (cfg19 (a19 m hR)).W) :
    W39 m hR c (Proc.devRef .tc (Pipeline.arrRef spec19 w)) = (dat19 (V38 m hR) (a19 m hR) c).arrAt w (cfg19 (a19 m hR)).N := by
  unfold W39; exact Pipeline.withArrays_arr spec19 (launch19 (F := F)).win.arr_inj c _ _ w
theorem W39_of_ne (hR : InRange m) (c : Dev nD) (b : Ref sig .tc) (hb : ∀ w, Pipeline.arrRef spec19 w ≠ b) :
    W39 m hR c (Proc.devRef .tc b) = W38 m hR c (Proc.devRef .tc b) := by
  unfold W39; exact Pipeline.withArrays_of_ne spec19 c _ _ b hb
abbrev V39 (hR : InRange m) : (c : Dev nD) → (b : Ref sig .tc) → Buf (Elt F) ((c : Thread nD τ).loc b) := fun c b => W39 m hR c b
theorem hF19 (hR : InRange m) (c : Dev nD) (w : Fin (cfg19 (a19 m hR)).W) :
    (dat19 (V38 m hR) (a19 m hR) c).arrAt w (cfg19 (a19 m hR)).N = V39 m hR c (Pipeline.arrRef spec19 w) :=
  (W39_arr m hR c w).symm
theorem hrest19 (hR : InRange m) (c : Dev nD) : ∀ b, b ∉ Finset.univ.image (Pipeline.arrRef spec19) → V39 m hR c b = V38 m hR c b :=
  fun b hb => W39_of_ne m hR c b fun w e => hb (Finset.mem_image.mpr ⟨w, Finset.mem_univ _, e⟩)
/-- An input array of the gather call (a re-laid projection) is left as entered. -/
theorem W39_in (hR : InRange m) (c : Dev nD) (w : Fin (cfg19 (a19 m hR)).W) (hw : ((cfg19 (a19 m hR)).win w).isOut = false) :
    W39 m hR c (Proc.devRef .tc (Pipeline.arrRef spec19 w)) = W38 m hR c (Proc.devRef .tc (Pipeline.arrRef spec19 w)) :=
  (W39_arr m hR c w).trans (((dat19 (V38 m hR) (a19 m hR) c).arrAt_in w hw _).trans (A_eq19 (V38 m hR) (a19 m hR) c w))
theorem W39_arg0 (hR : InRange m) (c : Dev nD) : W39 m hR c main_arg0 = m ((c : Thread nD τ).loc main_arg0) := (W39_of_ne m hR c main_arg0 (by decide)).trans (W38_arg0 m hR c)
theorem W39_arg1 (hR : InRange m) (c : Dev nD) : W39 m hR c main_arg1 = m ((c : Thread nD τ).loc main_arg1) := (W39_of_ne m hR c main_arg1 (by decide)).trans (W38_arg1 m hR c)
theorem W39_arg2 (hR : InRange m) (c : Dev nD) : W39 m hR c main_arg2 = m ((c : Thread nD τ).loc main_arg2) := (W39_of_ne m hR c main_arg2 (by decide)).trans (W38_arg2 m hR c)
theorem W39_arg3 (hR : InRange m) (c : Dev nD) : W39 m hR c main_arg3 = m ((c : Thread nD τ).loc main_arg3) := (W39_of_ne m hR c main_arg3 (by decide)).trans (W38_arg3 m hR c)
theorem W39_arg4 (hR : InRange m) (c : Dev nD) : W39 m hR c main_arg4 = m ((c : Thread nD τ).loc main_arg4) := (W39_of_ne m hR c main_arg4 (by decide)).trans (W38_arg4 m hR c)

/-! ## Host stretch 20 and gather call 20 (items 39 and 40) -/

/-- After host stretch 20: gather call 20's entry. -/
abbrev W40 (hR : InRange m) : Dev nD → Valuation τ sig (Elt F) := fun c => StableHlo.after hostOps20 (W39 m hR c)
abbrev V40 (hR : InRange m) : (c : Dev nD) → (b : Ref sig .tc) → Buf (Elt F) ((c : Thread nD τ).loc b) := fun c b => W40 m hR c b
/-- The stretch leaves every buffer it does not write as it was. -/
theorem W40_of (hR : InRange m) (c : Dev nD) (r : Ref sig .tc) (h : r ∉ hostOps20_W) : W40 m hR c r = W39 m hR c r :=
  StableHlo.after_of_writes_sub hostOps20 _ hostOps20_writes h
theorem W40_arg0 (hR : InRange m) (c : Dev nD) : W40 m hR c main_arg0 = m ((c : Thread nD τ).loc main_arg0) := (W40_of m hR c main_arg0 (by decide)).trans (W39_arg0 m hR c)
theorem W40_arg1 (hR : InRange m) (c : Dev nD) : W40 m hR c main_arg1 = m ((c : Thread nD τ).loc main_arg1) := (W40_of m hR c main_arg1 (by decide)).trans (W39_arg1 m hR c)
theorem W40_arg2 (hR : InRange m) (c : Dev nD) : W40 m hR c main_arg2 = m ((c : Thread nD τ).loc main_arg2) := (W40_of m hR c main_arg2 (by decide)).trans (W39_arg2 m hR c)
theorem W40_arg3 (hR : InRange m) (c : Dev nD) : W40 m hR c main_arg3 = m ((c : Thread nD τ).loc main_arg3) := (W40_of m hR c main_arg3 (by decide)).trans (W39_arg3 m hR c)
theorem W40_arg4 (hR : InRange m) (c : Dev nD) : W40 m hR c main_arg4 = m ((c : Thread nD τ).loc main_arg4) := (W40_of m hR c main_arg4 (by decide)).trans (W39_arg4 m hR c)

/-- At gather call 20's exit: its three arrays at what the pipeline leaves, every other buffer as entered. -/
def W41 (hR : InRange m) (c : Dev nD) : Valuation τ sig (Elt F) :=
  Pipeline.withArrays spec20 c (W40 m hR c) fun w => (dat20 (V40 m hR) (a20 m hR) c).arrAt w (cfg20 (a20 m hR)).N
theorem W41_arr (hR : InRange m) (c : Dev nD) (w : Fin (cfg20 (a20 m hR)).W) :
    W41 m hR c (Proc.devRef .tc (Pipeline.arrRef spec20 w)) = (dat20 (V40 m hR) (a20 m hR) c).arrAt w (cfg20 (a20 m hR)).N := by
  unfold W41; exact Pipeline.withArrays_arr spec20 (launch20 (F := F)).win.arr_inj c _ _ w
theorem W41_of_ne (hR : InRange m) (c : Dev nD) (b : Ref sig .tc) (hb : ∀ w, Pipeline.arrRef spec20 w ≠ b) :
    W41 m hR c (Proc.devRef .tc b) = W40 m hR c (Proc.devRef .tc b) := by
  unfold W41; exact Pipeline.withArrays_of_ne spec20 c _ _ b hb
abbrev V41 (hR : InRange m) : (c : Dev nD) → (b : Ref sig .tc) → Buf (Elt F) ((c : Thread nD τ).loc b) := fun c b => W41 m hR c b
theorem hF20 (hR : InRange m) (c : Dev nD) (w : Fin (cfg20 (a20 m hR)).W) :
    (dat20 (V40 m hR) (a20 m hR) c).arrAt w (cfg20 (a20 m hR)).N = V41 m hR c (Pipeline.arrRef spec20 w) :=
  (W41_arr m hR c w).symm
theorem hrest20 (hR : InRange m) (c : Dev nD) : ∀ b, b ∉ Finset.univ.image (Pipeline.arrRef spec20) → V41 m hR c b = V40 m hR c b :=
  fun b hb => W41_of_ne m hR c b fun w e => hb (Finset.mem_image.mpr ⟨w, Finset.mem_univ _, e⟩)
/-- An input array of the gather call (a re-laid projection) is left as entered. -/
theorem W41_in (hR : InRange m) (c : Dev nD) (w : Fin (cfg20 (a20 m hR)).W) (hw : ((cfg20 (a20 m hR)).win w).isOut = false) :
    W41 m hR c (Proc.devRef .tc (Pipeline.arrRef spec20 w)) = W40 m hR c (Proc.devRef .tc (Pipeline.arrRef spec20 w)) :=
  (W41_arr m hR c w).trans (((dat20 (V40 m hR) (a20 m hR) c).arrAt_in w hw _).trans (A_eq20 (V40 m hR) (a20 m hR) c w))
theorem W41_arg0 (hR : InRange m) (c : Dev nD) : W41 m hR c main_arg0 = m ((c : Thread nD τ).loc main_arg0) := (W41_of_ne m hR c main_arg0 (by decide)).trans (W40_arg0 m hR c)
theorem W41_arg1 (hR : InRange m) (c : Dev nD) : W41 m hR c main_arg1 = m ((c : Thread nD τ).loc main_arg1) := (W41_of_ne m hR c main_arg1 (by decide)).trans (W40_arg1 m hR c)
theorem W41_arg2 (hR : InRange m) (c : Dev nD) : W41 m hR c main_arg2 = m ((c : Thread nD τ).loc main_arg2) := (W41_of_ne m hR c main_arg2 (by decide)).trans (W40_arg2 m hR c)
theorem W41_arg3 (hR : InRange m) (c : Dev nD) : W41 m hR c main_arg3 = m ((c : Thread nD τ).loc main_arg3) := (W41_of_ne m hR c main_arg3 (by decide)).trans (W40_arg3 m hR c)
theorem W41_arg4 (hR : InRange m) (c : Dev nD) : W41 m hR c main_arg4 = m ((c : Thread nD τ).loc main_arg4) := (W41_of_ne m hR c main_arg4 (by decide)).trans (W40_arg4 m hR c)

/-! ## The last host stretch (item 41) -/

/-- After host stretch 21: the program's end. -/
abbrev W42 (hR : InRange m) : Dev nD → Valuation τ sig (Elt F) := fun c => StableHlo.after hostOps21 (W41 m hR c)
theorem W42_of (hR : InRange m) (c : Dev nD) (r : Ref sig .tc) (h : r ∉ hostOps21_W) : W42 m hR c r = W41 m hR c r :=
  StableHlo.after_of_writes_sub hostOps21 _ hostOps21_writes h
theorem W42_arg0 (hR : InRange m) (c : Dev nD) : W42 m hR c main_arg0 = m ((c : Thread nD τ).loc main_arg0) := (W42_of m hR c main_arg0 (by decide)).trans (W41_arg0 m hR c)
theorem W42_arg1 (hR : InRange m) (c : Dev nD) : W42 m hR c main_arg1 = m ((c : Thread nD τ).loc main_arg1) := (W42_of m hR c main_arg1 (by decide)).trans (W41_arg1 m hR c)
theorem W42_arg2 (hR : InRange m) (c : Dev nD) : W42 m hR c main_arg2 = m ((c : Thread nD τ).loc main_arg2) := (W42_of m hR c main_arg2 (by decide)).trans (W41_arg2 m hR c)
theorem W42_arg3 (hR : InRange m) (c : Dev nD) : W42 m hR c main_arg3 = m ((c : Thread nD τ).loc main_arg3) := (W42_of m hR c main_arg3 (by decide)).trans (W41_arg3 m hR c)
theorem W42_arg4 (hR : InRange m) (c : Dev nD) : W42 m hR c main_arg4 = m ((c : Thread nD τ).loc main_arg4) := (W42_of m hR c main_arg4 (by decide)).trans (W41_arg4 m hR c)

/-! ## The pipelines' admissible tables and proof data, as literal families -/

/-- Every pipeline's admissible table contents: none for the projection call, chunk K's slices for gather call K. -/
def adm (hR : InRange m) : (p : Fin 21) → (pcfgs (F := F) p).Adm
  | ⟨0, _⟩ => cfg0.toPCfg_adm
  | ⟨1, _⟩ => a1 m hR
  | ⟨2, _⟩ => a2 m hR
  | ⟨3, _⟩ => a3 m hR
  | ⟨4, _⟩ => a4 m hR
  | ⟨5, _⟩ => a5 m hR
  | ⟨6, _⟩ => a6 m hR
  | ⟨7, _⟩ => a7 m hR
  | ⟨8, _⟩ => a8 m hR
  | ⟨9, _⟩ => a9 m hR
  | ⟨10, _⟩ => a10 m hR
  | ⟨11, _⟩ => a11 m hR
  | ⟨12, _⟩ => a12 m hR
  | ⟨13, _⟩ => a13 m hR
  | ⟨14, _⟩ => a14 m hR
  | ⟨15, _⟩ => a15 m hR
  | ⟨16, _⟩ => a16 m hR
  | ⟨17, _⟩ => a17 m hR
  | ⟨18, _⟩ => a18 m hR
  | ⟨19, _⟩ => a19 m hR
  | ⟨20, _⟩ => a20 m hR
  | ⟨_ + 21, h⟩ => absurd h (Nat.not_lt.2 (Nat.le_add_left _ _))

/-- Every pipeline's proof data, each at its call's entry contents. -/
def pdats (hR : InRange m) : (p : Fin 21) → (c : Dev nD) → Dat τ (Elt F) Unit ℕ (UR sig nD τ) ℕ (Pipeline.pin (pcfgs (F := F)) (adm m hR) p) c
  | ⟨0, _⟩ => fun c => dat0 (V0 m hR) c
  | ⟨1, _⟩ => fun c => dat1 (V2 m hR) (a1 m hR) c
  | ⟨2, _⟩ => fun c => dat2 (V4 m hR) (a2 m hR) c
  | ⟨3, _⟩ => fun c => dat3 (V6 m hR) (a3 m hR) c
  | ⟨4, _⟩ => fun c => dat4 (V8 m hR) (a4 m hR) c
  | ⟨5, _⟩ => fun c => dat5 (V10 m hR) (a5 m hR) c
  | ⟨6, _⟩ => fun c => dat6 (V12 m hR) (a6 m hR) c
  | ⟨7, _⟩ => fun c => dat7 (V14 m hR) (a7 m hR) c
  | ⟨8, _⟩ => fun c => dat8 (V16 m hR) (a8 m hR) c
  | ⟨9, _⟩ => fun c => dat9 (V18 m hR) (a9 m hR) c
  | ⟨10, _⟩ => fun c => dat10 (V20 m hR) (a10 m hR) c
  | ⟨11, _⟩ => fun c => dat11 (V22 m hR) (a11 m hR) c
  | ⟨12, _⟩ => fun c => dat12 (V24 m hR) (a12 m hR) c
  | ⟨13, _⟩ => fun c => dat13 (V26 m hR) (a13 m hR) c
  | ⟨14, _⟩ => fun c => dat14 (V28 m hR) (a14 m hR) c
  | ⟨15, _⟩ => fun c => dat15 (V30 m hR) (a15 m hR) c
  | ⟨16, _⟩ => fun c => dat16 (V32 m hR) (a16 m hR) c
  | ⟨17, _⟩ => fun c => dat17 (V34 m hR) (a17 m hR) c
  | ⟨18, _⟩ => fun c => dat18 (V36 m hR) (a18 m hR) c
  | ⟨19, _⟩ => fun c => dat19 (V38 m hR) (a19 m hR) c
  | ⟨20, _⟩ => fun c => dat20 (V40 m hR) (a20 m hR) c
  | ⟨_ + 21, h⟩ => absurd h (Nat.not_lt.2 (Nat.le_add_left _ _))

abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the core's generator register at some state and its dues, at nothing. -/
abbrev R (c : Dev nD) : sProp 𝕄 := iprop((∃ r, prngReg c r) ∗ ∃ W, owes (c : Thread nD τ) (0 : CellTallies nD τ sig Unit) W)
/-- A host stretch as a segment over the unscoped references from the contents `W`, `R` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

end Fold

end Cert.KernelIdeal.Hand

end
-- ==== Proof.KI.Reg0.lean ====
/-
  The projection call as a segment of @main: entered from every unscoped buffer at the launch contents and the rest
  (generator register, nothing owed), left at the contents after it. At entry the call's five arrays are split out of
  the unscoped buffers; the generator register joins the pipeline's invariant beside the scoped rest and comes back
  out of it at the end; the call reads no prefetched table, so what would hold its tables is empty; at exit the
  arrays, now at what the pipeline's write-backs leave, and the remaining buffers are put back together at the exit
  contents.
-/
import proofs.«413139_j22651657519351_3_alg».proof.Proof.Gen.KernelIdeal.Launch
import proofs.«413139_j22651657519351_3_alg».proof.Proof.Gen.KernelIdeal.Skeleton
import proofs.«413139_j22651657519351_3_alg».proof.Proof.Gen.KernelIdeal.Points
import proofs.«413139_j22651657519351_3_alg».proof.Proof.KI.Fold
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Reg

variable (m : (ℓ : Loc nD τ sig) → Buf (Elt F) ℓ) (hR : InRange m)

-- the library's split and join lemmas are stated over the pinned configuration family; they unify with this call's
-- own configuration only when unification may unfold plain definitions in a metavariable's type
set_option backward.isDefEq.respectTransparency.types false in
/-- The projection call over the thread state: entered from every unscoped buffer at the launch contents, left at the
    contents in which its five arrays hold what the pipeline leaves and every other buffer is as launched. Nothing is
    owed between cores and the kernel has no semaphore of its own. -/
def reg0 : Pipeline.RegionSeg (pcfgs (F := F)) (adm m hR) (pdats m hR) () defs₀ 𝒱₀ L lv 0 where
  win := (launch0 (F := F)).win.to₀
  block_pos := (launch0 (F := F)).block_pos
  stage_whole := (launch0 (F := F)).stage_whole
  K := PEmpty
  osem k := k.elim
  ho := Pipeline.OwnSemFacts.none _
  hbody c := (body_obligation0 (V0 m hR) c).loose
  hwaits := Pipeline.hwaits_of_owed_zero _ _ _ _ L lv 0 fun _ _ => rfl
  pre c := iprop(StableHlo.held (c : Thread nD τ) (Pipeline.ucRefs τ sig) (W0 m hR c) ∗ R c)
  post c := iprop(StableHlo.held (c : Thread nD τ) (Pipeline.ucRefs τ sig) (W1 m hR c) ∗ R c)
  X c := iprop(∃ r, prngReg c r)
  Y c := iprop(∃ r, prngReg c r)
  Z c := Pipeline.unscopedRest (Ix := Unit) (Name := ℕ) (U := UR sig nD τ) (Lvl := ℕ) spec0 c (V0 m hR c)
  hentry c := by
    rw [Pipeline.ownSems0_none]
    have hsplit := Pipeline.arrays_of_unscopedBufs (p := 0) (pcfgs (F := F)) (adm m hR) (pdats m hR) (launch0 (F := F)).win (launch0 (F := F)).arr_whole c
      ((pdats m hR 0 c).share_full fun _ => rfl) (V0 m hR c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    -- no table is prefetched: the conjunction over the empty index set is empty
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m hR 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m hR 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) (adm m hR) (Ix := Unit) (Name := ℕ) (U := UR sig nD τ) (Lvl := ℕ)
      (launch0 (F := F)).win (launch0 (F := F)).arr_whole c (pdats m hR) ((pdats m hR 0 c).share_full fun _ => rfl)
      (V0 m hR c) (V1 m hR c) ((pdats m hR 0 c).arrAt · cfg0.N) (hF0 m hR c) (hrest0 m hR c)
    rw [Pipeline.unscopedBufs_held] at hjoin
    iintro ⟨Ha, HO, HY, Hrest⟩
    imodintro
    isplitl [Ha Hrest]
    · iapply hjoin
      isplitl [Ha]; · iexact Ha
      iexact Hrest
    isplitl [HY]; · iexact HY
    unfold Pipeline.Dat.owesAt Pipeline.owesWithin
    icases HO with ⟨%W, -, HO⟩; iexists W; iexact HO

end Reg

end Cert.KernelIdeal.Hand

end
-- ==== Proof.KI.Reg1.lean ====
/-
  Gather call 1 as a segment of @main: entered from every unscoped buffer at the fold's contents before it and the
  rest (generator register, nothing owed), left at the contents after it. At entry the call's three arrays and its two
  index tables are split out of the unscoped buffers; the tables — which hold, by the fold, the slices of the
  launch-time endpoint arrays the admissible contents were read from — join the pipeline's invariant beside the
  scoped rest and the generator register, and come back out of it at the end; at exit arrays, tables and the
  remaining buffers are put back together at the exit contents.
-/
import proofs.«413139_j22651657519351_3_alg».proof.Proof.Gen.KernelIdeal.Launch
import proofs.«413139_j22651657519351_3_alg».proof.Proof.Gen.KernelIdeal.Skeleton
import proofs.«413139_j22651657519351_3_alg».proof.Proof.Gen.KernelIdeal.Points
import proofs.«413139_j22651657519351_3_alg».proof.Proof.KI.Fold
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Reg

variable (m : (ℓ : Loc nD τ sig) → Buf (Elt F) ℓ) (hR : InRange m)

/-- At the call's entry its two tables hold the slices of the launch-time endpoint arrays: the stretch before it
    wrote them from the argument arrays, which nothing before had changed. -/
theorem tblHeld1 (c : Dev nD) : (fun k => V2 m hR c (pre1.ref k)) = tbl1 m := by
  obtain rfl : c = 0 := Subsingleton.elim _ _
  funext k
  match k with
  | ⟨0, _⟩ =>
    show StableHlo.after hostOps1 (W1 m hR 0) (Proc.devRef .tc main_v5) = _
    after_results
    show extractStridedSlice S40000 ![0] (W1 m hR 0 (Proc.devRef .tc main_arg1)) slices_S800000_S40000_0 = _
    rw [W1_arg1]; rfl
  | ⟨1, _⟩ =>
    show StableHlo.after hostOps1 (W1 m hR 0) (Proc.devRef .tc main_v6) = _
    after_results
    show extractStridedSlice S40000 ![0] (W1 m hR 0 (Proc.devRef .tc main_arg2)) slices_S800000_S40000_0 = _
    rw [W1_arg2]; rfl

/-- The call's unscoped rest is its two tables, held at the slices, beside the buffers that are neither array nor table. -/
theorem restSplit1 (c : Dev nD) :
    (Pipeline.unscopedRest (Ix := Unit) (Name := ℕ) (U := UR sig nD τ) (Lvl := ℕ) (Pipeline.pin (pcfgs (F := F)) (adm m hR) 1).spec c (V2 m hR c) : sProp 𝕄)
      = iprop(Pipeline.prefHeld (Ix := Unit) (Name := ℕ) (U := UR sig nD τ) (Lvl := ℕ) pre1 c (fun _ => fullShare) (tbl1 m)
          ∗ Pipeline.unscopedRestP (Ix := Unit) (Name := ℕ) (U := UR sig nD τ) (Lvl := ℕ) pre1 spec1 c (V2 m hR c)) := by
  show (Pipeline.unscopedRest (Ix := Unit) (Name := ℕ) (U := UR sig nD τ) (Lvl := ℕ) spec1 c (V2 m hR c) : sProp 𝕄) = _
  rw [Pipeline.unscopedRest_split preFacts1 c (V2 m hR c), tblHeld1 m hR c]

set_option backward.isDefEq.respectTransparency.types false in
def reg1 : Pipeline.RegionSeg (pcfgs (F := F)) (adm m hR) (pdats m hR) () defs₀ 𝒱₀ L lv 1 where
  win := (launch1 (F := F)).win.to₀
  block_pos := (launch1 (F := F)).block_pos
  stage_whole := (launch1 (F := F)).stage_whole
  K := PEmpty
  osem k := k.elim
  ho := Pipeline.OwnSemFacts.none _
  hbody c := (body_obligation1 (V2 m hR) (a1 m hR) c).loose
  hwaits := Pipeline.hwaits_of_owed_zero _ _ _ _ L lv 1 fun _ _ => rfl
  pre c := iprop(StableHlo.held (c : Thread nD τ) (Pipeline.ucRefs τ sig) (W2 m hR c) ∗ R c)
  post c := iprop(StableHlo.held (c : Thread nD τ) (Pipeline.ucRefs τ sig) (W3 m hR c) ∗ R c)
  X c := iprop(∃ r, prngReg c r)
  Y c := iprop((∃ r, prngReg c r) ∗ Pipeline.prefHeld (Ix := Unit) (Name := ℕ) (U := UR sig nD τ) (Lvl := ℕ) pre1 c (fun _ => fullShare) (tbl1 m))
  Z c := Pipeline.unscopedRestP (Ix := Unit) (Name := ℕ) (U := UR sig nD τ) (Lvl := ℕ) pre1 spec1 c (V2 m hR c)
  hentry c := by
    rw [Pipeline.ownSems0_none]
    have hsplit := Pipeline.arrays_of_unscopedBufs (p := 1) (pcfgs (F := F)) (adm m hR) (pdats m hR) (launch1 (F := F)).win (launch1 (F := F)).arr_whole c
      ((pdats m hR 1 c).share_full fun _ => rfl) (V2 m hR c) fun _ => rfl
    rw [Pipeline.unscopedBufs_held, restSplit1 m hR c] at hsplit
    iintro ⟨⟨Hub, Hp, HO⟩, -, -⟩
    ihave H := hsplit $$ Hub
    icases H with ⟨Ha, Ht, Hrest⟩
    imodintro
    isplitl [Ha]; · iexact Ha
    isplitl [Ht]; · iexact Ht
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m hR 1 c).Φ 0 = iprop(Pipeline.ΦA spec1 c ∗ Pipeline.prefHeld (Ix := Unit) (Name := ℕ) (U := UR sig nD τ) (Lvl := ℕ) pre1 c (fun _ => fullShare) (tbl1 m)) from rfl]
    unfold Pipeline.ΦA
    iintro ⟨Hp, Ht, Hr⟩
    isplitl [Hr Hp]
    · isplitl [Hr]; · iexact Hr
      iexact Hp
    iexact Ht
  hout c := by
    rw [Pipeline.ownSems0_none, show (pdats m hR 1 c).Φ (Fin.last _) = iprop(Pipeline.ΦA spec1 c ∗ Pipeline.prefHeld (Ix := Unit) (Name := ℕ) (U := UR sig nD τ) (Lvl := ℕ) pre1 c (fun _ => fullShare) (tbl1 m)) from rfl]
    unfold Pipeline.ΦA
    iintro ⟨⟨Hr, Hp⟩, Ht⟩
    isplitl [Hp Ht]
    · isplitl [Hp]; · iexact Hp
      iexact Ht
    isplitr; · iempintro
    iexact Hr
  hexit c := by
    have hjoin := Pipeline.unscopedBufs_of_arrays (p := 1) (pcfgs (F := F)) (adm m hR) (Ix := Unit) (Name := ℕ) (U := UR sig nD τ) (Lvl := ℕ)
      (launch1 (F := F)).win (launch1 (F := F)).arr_whole c (pdats m hR) ((pdats m hR 1 c).share_full fun _ => rfl)
      (V2 m hR c) (V3 m hR c) ((pdats m hR 1 c).arrAt · (cfg1 (a1 m hR)).N) (hF1 m hR c) (hrest1 m hR c)
    rw [Pipeline.unscopedBufs_held, restSplit1 m hR c] at hjoin
    iintro ⟨Ha, HO, ⟨Hp, Ht⟩, Hrest⟩
    imodintro
    isplitl [Ha Ht Hrest]
    · iapply hjoin
      isplitl [Ha]; · iexact Ha
      isplitl [Ht]; · iexact Ht
      iexact Hrest
    isplitl [Hp]; · iexact Hp
    unfold Pipeline.Dat.owesAt Pipeline.owesWithin
    icases HO with ⟨%W, -, HO⟩; iexists W; iexact HO

end Reg

end Cert.KernelIdeal.Hand

end
-- ==== Proof.KI.Reg2.lean ====
/-
  Gather call 2 as a segment of @main: entered from every unscoped buffer at the fold's contents before it and the
  rest (generator register, nothing owed), left at the contents after it. At entry the call's three arrays and its two
  index tables are split out of the unscoped buffers; the tables — which hold, by the fold, the slices of the
  launch-time endpoint arrays the admissible contents were read from — join the pipeline's invariant beside the
  scoped rest and the generator register, and come back out of it at the end; at exit arrays, tables and the
  remaining buffers are put back together at the exit contents.
-/
import proofs.«413139_j22651657519351_3_alg».proof.Proof.Gen.KernelIdeal.Launch
import proofs.«413139_j22651657519351_3_alg».proof.Proof.Gen.KernelIdeal.Skeleton
import proofs.«413139_j22651657519351_3_alg».proof.Proof.Gen.KernelIdeal.Points
import proofs.«413139_j22651657519351_3_alg».proof.Proof.KI.Fold
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Reg

variable (m : (ℓ : Loc nD τ sig) → Buf (Elt F) ℓ) (hR : InRange m)

/-- At the call's entry its two tables hold the slices of the launch-time endpoint arrays: the stretch before it
    wrote them from the argument arrays, which nothing before had changed. -/
theorem tblHeld2 (c : Dev nD) : (fun k => V4 m hR c (pre2.ref k)) = tbl2 m := by
  obtain rfl : c = 0 := Subsingleton.elim _ _
  funext k
  match k with
  | ⟨0, _⟩ =>
    show StableHlo.after hostOps2 (W3 m hR 0) (Proc.devRef .tc main_v9) = _
    after_results
    show extractStridedSlice S40000 ![40000] (W3 m hR 0 (Proc.devRef .tc main_arg1)) slices_S800000_S40000_40000 = _
    rw [W3_arg1]; rfl
  | ⟨1, _⟩ =>
    show StableHlo.after hostOps2 (W3 m hR 0) (Proc.devRef .tc main_v10) = _
    after_results
    show extractStridedSlice S40000 ![40000] (W3 m hR 0 (Proc.devRef .tc main_arg2)) slices_S800000_S40000_40000 = _
    rw [W3_arg2]; rfl

/-- The call's unscoped rest is its two tables, held at the slices, beside the buffers that are neither array nor table. -/
theorem restSplit2 (c : Dev nD) :
    (Pipeline.unscopedRest (Ix := Unit) (Name := ℕ) (U := UR sig nD τ) (Lvl := ℕ) (Pipeline.pin (pcfgs (F := F)) (adm m hR) 2).spec c (V4 m hR c) : sProp 𝕄)
      = iprop(Pipeline.prefHeld (Ix := Unit) (Name := ℕ) (U := UR sig nD τ) (Lvl := ℕ) pre2 c (fun _ => fullShare) (tbl2 m)
          ∗ Pipeline.unscopedRestP (Ix := Unit) (Name := ℕ) (U := UR sig nD τ) (Lvl := ℕ) pre2 spec2 c (V4 m hR c)) := by
  show (Pipeline.unscopedRest (Ix := Unit) (Name := ℕ) (U := UR sig nD τ) (Lvl := ℕ) spec2 c (V4 m hR c) : sProp 𝕄) = _
  rw [Pipeline.unscopedRest_split preFacts2 c (V4 m hR c), tblHeld2 m hR c]

set_option backward.isDefEq.respectTransparency.types false in
def reg2 : Pipeline.RegionSeg (pcfgs (F := F)) (adm m hR) (pdats m hR) () defs₀ 𝒱₀ L lv 2 where
  win := (launch2 (F := F)).win.to₀
  block_pos := (launch2 (F := F)).block_pos
  stage_whole := (launch2 (F := F)).stage_whole
  K := PEmpty
  osem k := k.elim
  ho := Pipeline.OwnSemFacts.none _
  hbody c := (body_obligation2 (V4 m hR) (a2 m hR) c).loose
  hwaits := Pipeline.hwaits_of_owed_zero _ _ _ _ L lv 2 fun _ _ => rfl
  pre c := iprop(StableHlo.held (c : Thread nD τ) (Pipeline.ucRefs τ sig) (W4 m hR c) ∗ R c)
  post c := iprop(StableHlo.held (c : Thread nD τ) (Pipeline.ucRefs τ sig) (W5 m hR c) ∗ R c)
  X c := iprop(∃ r, prngReg c r)
  Y c := iprop((∃ r, prngReg c r) ∗ Pipeline.prefHeld (Ix := Unit) (Name := ℕ) (U := UR sig nD τ) (Lvl := ℕ) pre2 c (fun _ => fullShare) (tbl2 m))
  Z c := Pipeline.unscopedRestP (Ix := Unit) (Name := ℕ) (U := UR sig nD τ) (Lvl := ℕ) pre2 spec2 c (V4 m hR c)
  hentry c := by
    rw [Pipeline.ownSems0_none]
    have hsplit := Pipeline.arrays_of_unscopedBufs (p := 2) (pcfgs (F := F)) (adm m hR) (pdats m hR) (launch2 (F := F)).win (launch2 (F := F)).arr_whole c
      ((pdats m hR 2 c).share_full fun _ => rfl) (V4 m hR c) fun _ => rfl
    rw [Pipeline.unscopedBufs_held, restSplit2 m hR c] at hsplit
    iintro ⟨⟨Hub, Hp, HO⟩, -, -⟩
    ihave H := hsplit $$ Hub
    icases H with ⟨Ha, Ht, Hrest⟩
    imodintro
    isplitl [Ha]; · iexact Ha
    isplitl [Ht]; · iexact Ht
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m hR 2 c).Φ 0 = iprop(Pipeline.ΦA spec2 c ∗ Pipeline.prefHeld (Ix := Unit) (Name := ℕ) (U := UR sig nD τ) (Lvl := ℕ) pre2 c (fun _ => fullShare) (tbl2 m)) from rfl]
    unfold Pipeline.ΦA
    iintro ⟨Hp, Ht, Hr⟩
    isplitl [Hr Hp]
    · isplitl [Hr]; · iexact Hr
      iexact Hp
    iexact Ht
  hout c := by
    rw [Pipeline.ownSems0_none, show (pdats m hR 2 c).Φ (Fin.last _) = iprop(Pipeline.ΦA spec2 c ∗ Pipeline.prefHeld (Ix := Unit) (Name := ℕ) (U := UR sig nD τ) (Lvl := ℕ) pre2 c (fun _ => fullShare) (tbl2 m)) from rfl]
    unfold Pipeline.ΦA
    iintro ⟨⟨Hr, Hp⟩, Ht⟩
    isplitl [Hp Ht]
    · isplitl [Hp]; · iexact Hp
      iexact Ht
    isplitr; · iempintro
    iexact Hr
  hexit c := by
    have hjoin := Pipeline.unscopedBufs_of_arrays (p := 2) (pcfgs (F := F)) (adm m hR) (Ix := Unit) (Name := ℕ) (U := UR sig nD τ) (Lvl := ℕ)
      (launch2 (F := F)).win (launch2 (F := F)).arr_whole c (pdats m hR) ((pdats m hR 2 c).share_full fun _ => rfl)
      (V4 m hR c) (V5 m hR c) ((pdats m hR 2 c).arrAt · (cfg2 (a2 m hR)).N) (hF2 m hR c) (hrest2 m hR c)
    rw [Pipeline.unscopedBufs_held, restSplit2 m hR c] at hjoin
    iintro ⟨Ha, HO, ⟨Hp, Ht⟩, Hrest⟩
    imodintro
    isplitl [Ha Ht Hrest]
    · iapply hjoin
      isplitl [Ha]; · iexact Ha
      isplitl [Ht]; · iexact Ht
      iexact Hrest
    isplitl [Hp]; · iexact Hp
    unfold Pipeline.Dat.owesAt Pipeline.owesWithin
    icases HO with ⟨%W, -, HO⟩; iexists W; iexact HO

end Reg

end Cert.KernelIdeal.Hand

end
-- ==== Proof.KI.Reg3.lean ====
/-
  Gather call 3 as a segment of @main: entered from every unscoped buffer at the fold's contents before it and the
  rest (generator register, nothing owed), left at the contents after it. At entry the call's three arrays and its two
  index tables are split out of the unscoped buffers; the tables — which hold, by the fold, the slices of the
  launch-time endpoint arrays the admissible contents were read from — join the pipeline's invariant beside the
  scoped rest and the generator register, and come back out of it at the end; at exit arrays, tables and the
  remaining buffers are put back together at the exit contents.
-/
import proofs.«413139_j22651657519351_3_alg».proof.Proof.Gen.KernelIdeal.Launch
import proofs.«413139_j22651657519351_3_alg».proof.Proof.Gen.KernelIdeal.Skeleton
import proofs.«413139_j22651657519351_3_alg».proof.Proof.Gen.KernelIdeal.Points
import proofs.«413139_j22651657519351_3_alg».proof.Proof.KI.Fold
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Reg

variable (m : (ℓ : Loc nD τ sig) → Buf (Elt F) ℓ) (hR : InRange m)

/-- At the call's entry its two tables hold the slices of the launch-time endpoint arrays: the stretch before it
    wrote them from the argument arrays, which nothing before had changed. -/
theorem tblHeld3 (c : Dev nD) : (fun k => V6 m hR c (pre3.ref k)) = tbl3 m := by
  obtain rfl : c = 0 := Subsingleton.elim _ _
  funext k
  match k with
  | ⟨0, _⟩ =>
    show StableHlo.after hostOps3 (W5 m hR 0) (Proc.devRef .tc main_v13) = _
    after_results
    show extractStridedSlice S40000 ![80000] (W5 m hR 0 (Proc.devRef .tc main_arg1)) slices_S800000_S40000_80000 = _
    rw [W5_arg1]; rfl
  | ⟨1, _⟩ =>
    show StableHlo.after hostOps3 (W5 m hR 0) (Proc.devRef .tc main_v14) = _
    after_results
    show extractStridedSlice S40000 ![80000] (W5 m hR 0 (Proc.devRef .tc main_arg2)) slices_S800000_S40000_80000 = _
    rw [W5_arg2]; rfl

/-- The call's unscoped rest is its two tables, held at the slices, beside the buffers that are neither array nor table. -/
theorem restSplit3 (c : Dev nD) :
    (Pipeline.unscopedRest (Ix := Unit) (Name := ℕ) (U := UR sig nD τ) (Lvl := ℕ) (Pipeline.pin (pcfgs (F := F)) (adm m hR) 3).spec c (V6 m hR c) : sProp 𝕄)
      = iprop(Pipeline.prefHeld (Ix := Unit) (Name := ℕ) (U := UR sig nD τ) (Lvl := ℕ) pre3 c (fun _ => fullShare) (tbl3 m)
          ∗ Pipeline.unscopedRestP (Ix := Unit) (Name := ℕ) (U := UR sig nD τ) (Lvl := ℕ) pre3 spec3 c (V6 m hR c)) := by
  show (Pipeline.unscopedRest (Ix := Unit) (Name := ℕ) (U := UR sig nD τ) (Lvl := ℕ) spec3 c (V6 m hR c) : sProp 𝕄) = _
  rw [Pipeline.unscopedRest_split preFacts3 c (V6 m hR c), tblHeld3 m hR c]

set_option backward.isDefEq.respectTransparency.types false in
def reg3 : Pipeline.RegionSeg (pcfgs (F := F)) (adm m hR) (pdats m hR) () defs₀ 𝒱₀ L lv 3 where
  win := (launch3 (F := F)).win.to₀
  block_pos := (launch3 (F := F)).block_pos
  stage_whole := (launch3 (F := F)).stage_whole
  K := PEmpty
  osem k := k.elim
  ho := Pipeline.OwnSemFacts.none _
  hbody c := (body_obligation3 (V6 m hR) (a3 m hR) c).loose
  hwaits := Pipeline.hwaits_of_owed_zero _ _ _ _ L lv 3 fun _ _ => rfl
  pre c := iprop(StableHlo.held (c : Thread nD τ) (Pipeline.ucRefs τ sig) (W6 m hR c) ∗ R c)
  post c := iprop(StableHlo.held (c : Thread nD τ) (Pipeline.ucRefs τ sig) (W7 m hR c) ∗ R c)
  X c := iprop(∃ r, prngReg c r)
  Y c := iprop((∃ r, prngReg c r) ∗ Pipeline.prefHeld (Ix := Unit) (Name := ℕ) (U := UR sig nD τ) (Lvl := ℕ) pre3 c (fun _ => fullShare) (tbl3 m))
  Z c := Pipeline.unscopedRestP (Ix := Unit) (Name := ℕ) (U := UR sig nD τ) (Lvl := ℕ) pre3 spec3 c (V6 m hR c)
  hentry c := by
    rw [Pipeline.ownSems0_none]
    have hsplit := Pipeline.arrays_of_unscopedBufs (p := 3) (pcfgs (F := F)) (adm m hR) (pdats m hR) (launch3 (F := F)).win (launch3 (F := F)).arr_whole c
      ((pdats m hR 3 c).share_full fun _ => rfl) (V6 m hR c) fun _ => rfl
    rw [Pipeline.unscopedBufs_held, restSplit3 m hR c] at hsplit
    iintro ⟨⟨Hub, Hp, HO⟩, -, -⟩
    ihave H := hsplit $$ Hub
    icases H with ⟨Ha, Ht, Hrest⟩
    imodintro
    isplitl [Ha]; · iexact Ha
    isplitl [Ht]; · iexact Ht
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m hR 3 c).Φ 0 = iprop(Pipeline.ΦA spec3 c ∗ Pipeline.prefHeld (Ix := Unit) (Name := ℕ) (U := UR sig nD τ) (Lvl := ℕ) pre3 c (fun _ => fullShare) (tbl3 m)) from rfl]
    unfold Pipeline.ΦA
    iintro ⟨Hp, Ht, Hr⟩
    isplitl [Hr Hp]
    · isplitl [Hr]; · iexact Hr
      iexact Hp
    iexact Ht
  hout c := by
    rw [Pipeline.ownSems0_none, show (pdats m hR 3 c).Φ (Fin.last _) = iprop(Pipeline.ΦA spec3 c ∗ Pipeline.prefHeld (Ix := Unit) (Name := ℕ) (U := UR sig nD τ) (Lvl := ℕ) pre3 c (fun _ => fullShare) (tbl3 m)) from rfl]
    unfold Pipeline.ΦA
    iintro ⟨⟨Hr, Hp⟩, Ht⟩
    isplitl [Hp Ht]
    · isplitl [Hp]; · iexact Hp
      iexact Ht
    isplitr; · iempintro
    iexact Hr
  hexit c := by
    have hjoin := Pipeline.unscopedBufs_of_arrays (p := 3) (pcfgs (F := F)) (adm m hR) (Ix := Unit) (Name := ℕ) (U := UR sig nD τ) (Lvl := ℕ)
      (launch3 (F := F)).win (launch3 (F := F)).arr_whole c (pdats m hR) ((pdats m hR 3 c).share_full fun _ => rfl)
      (V6 m hR c) (V7 m hR c) ((pdats m hR 3 c).arrAt · (cfg3 (a3 m hR)).N) (hF3 m hR c) (hrest3 m hR c)
    rw [Pipeline.unscopedBufs_held, restSplit3 m hR c] at hjoin
    iintro ⟨Ha, HO, ⟨Hp, Ht⟩, Hrest⟩
    imodintro
    isplitl [Ha Ht Hrest]
    · iapply hjoin
      isplitl [Ha]; · iexact Ha
      isplitl [Ht]; · iexact Ht
      iexact Hrest
    isplitl [Hp]; · iexact Hp
    unfold Pipeline.Dat.owesAt Pipeline.owesWithin
    icases HO with ⟨%W, -, HO⟩; iexists W; iexact HO

end Reg

end Cert.KernelIdeal.Hand

end
-- ==== Proof.KI.Reg4.lean ====
/-
  Gather call 4 as a segment of @main: entered from every unscoped buffer at the fold's contents before it and the
  rest (generator register, nothing owed), left at the contents after it. At entry the call's three arrays and its two
  index tables are split out of the unscoped buffers; the tables — which hold, by the fold, the slices of the
  launch-time endpoint arrays the admissible contents were read from — join the pipeline's invariant beside the
  scoped rest and the generator register, and come back out of it at the end; at exit arrays, tables and the
  remaining buffers are put back together at the exit contents.
-/
import proofs.«413139_j22651657519351_3_alg».proof.Proof.Gen.KernelIdeal.Launch
import proofs.«413139_j22651657519351_3_alg».proof.Proof.Gen.KernelIdeal.Skeleton
import proofs.«413139_j22651657519351_3_alg».proof.Proof.Gen.KernelIdeal.Points
import proofs.«413139_j22651657519351_3_alg».proof.Proof.KI.Fold
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Reg

variable (m : (ℓ : Loc nD τ sig) → Buf (Elt F) ℓ) (hR : InRange m)

/-- At the call's entry its two tables hold the slices of the launch-time endpoint arrays: the stretch before it
    wrote them from the argument arrays, which nothing before had changed. -/
theorem tblHeld4 (c : Dev nD) : (fun k => V8 m hR c (pre4.ref k)) = tbl4 m := by
  obtain rfl : c = 0 := Subsingleton.elim _ _
  funext k
  match k with
  | ⟨0, _⟩ =>
    show StableHlo.after hostOps4 (W7 m hR 0) (Proc.devRef .tc main_v17) = _
    after_results
    show extractStridedSlice S40000 ![120000] (W7 m hR 0 (Proc.devRef .tc main_arg1)) slices_S800000_S40000_120000 = _
    rw [W7_arg1]; rfl
  | ⟨1, _⟩ =>
    show StableHlo.after hostOps4 (W7 m hR 0) (Proc.devRef .tc main_v18) = _
    after_results
    show extractStridedSlice S40000 ![120000] (W7 m hR 0 (Proc.devRef .tc main_arg2)) slices_S800000_S40000_120000 = _
    rw [W7_arg2]; rfl

/-- The call's unscoped rest is its two tables, held at the slices, beside the buffers that are neither array nor table. -/
theorem restSplit4 (c : Dev nD) :
    (Pipeline.unscopedRest (Ix := Unit) (Name := ℕ) (U := UR sig nD τ) (Lvl := ℕ) (Pipeline.pin (pcfgs (F := F)) (adm m hR) 4).spec c (V8 m hR c) : sProp 𝕄)
      = iprop(Pipeline.prefHeld (Ix := Unit) (Name := ℕ) (U := UR sig nD τ) (Lvl := ℕ) pre4 c (fun _ => fullShare) (tbl4 m)
          ∗ Pipeline.unscopedRestP (Ix := Unit) (Name := ℕ) (U := UR sig nD τ) (Lvl := ℕ) pre4 spec4 c (V8 m hR c)) := by
  show (Pipeline.unscopedRest (Ix := Unit) (Name := ℕ) (U := UR sig nD τ) (Lvl := ℕ) spec4 c (V8 m hR c) : sProp 𝕄) = _
  rw [Pipeline.unscopedRest_split preFacts4 c (V8 m hR c), tblHeld4 m hR c]

set_option backward.isDefEq.respectTransparency.types false in
def reg4 : Pipeline.RegionSeg (pcfgs (F := F)) (adm m hR) (pdats m hR) () defs₀ 𝒱₀ L lv 4 where
  win := (launch4 (F := F)).win.to₀
  block_pos := (launch4 (F := F)).block_pos
  stage_whole := (launch4 (F := F)).stage_whole
  K := PEmpty
  osem k := k.elim
  ho := Pipeline.OwnSemFacts.none _
  hbody c := (body_obligation4 (V8 m hR) (a4 m hR) c).loose
  hwaits := Pipeline.hwaits_of_owed_zero _ _ _ _ L lv 4 fun _ _ => rfl
  pre c := iprop(StableHlo.held (c : Thread nD τ) (Pipeline.ucRefs τ sig) (W8 m hR c) ∗ R c)
  post c := iprop(StableHlo.held (c : Thread nD τ) (Pipeline.ucRefs τ sig) (W9 m hR c) ∗ R c)
  X c := iprop(∃ r, prngReg c r)
  Y c := iprop((∃ r, prngReg c r) ∗ Pipeline.prefHeld (Ix := Unit) (Name := ℕ) (U := UR sig nD τ) (Lvl := ℕ) pre4 c (fun _ => fullShare) (tbl4 m))
  Z c := Pipeline.unscopedRestP (Ix := Unit) (Name := ℕ) (U := UR sig nD τ) (Lvl := ℕ) pre4 spec4 c (V8 m hR c)
  hentry c := by
    rw [Pipeline.ownSems0_none]
    have hsplit := Pipeline.arrays_of_unscopedBufs (p := 4) (pcfgs (F := F)) (adm m hR) (pdats m hR) (launch4 (F := F)).win (launch4 (F := F)).arr_whole c
      ((pdats m hR 4 c).share_full fun _ => rfl) (V8 m hR c) fun _ => rfl
    rw [Pipeline.unscopedBufs_held, restSplit4 m hR c] at hsplit
    iintro ⟨⟨Hub, Hp, HO⟩, -, -⟩
    ihave H := hsplit $$ Hub
    icases H with ⟨Ha, Ht, Hrest⟩
    imodintro
    isplitl [Ha]; · iexact Ha
    isplitl [Ht]; · iexact Ht
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m hR 4 c).Φ 0 = iprop(Pipeline.ΦA spec4 c ∗ Pipeline.prefHeld (Ix := Unit) (Name := ℕ) (U := UR sig nD τ) (Lvl := ℕ) pre4 c (fun _ => fullShare) (tbl4 m)) from rfl]
    unfold Pipeline.ΦA
    iintro ⟨Hp, Ht, Hr⟩
    isplitl [Hr Hp]
    · isplitl [Hr]; · iexact Hr
      iexact Hp
    iexact Ht
  hout c := by
    rw [Pipeline.ownSems0_none, show (pdats m hR 4 c).Φ (Fin.last _) = iprop(Pipeline.ΦA spec4 c ∗ Pipeline.prefHeld (Ix := Unit) (Name := ℕ) (U := UR sig nD τ) (Lvl := ℕ) pre4 c (fun _ => fullShare) (tbl4 m)) from rfl]
    unfold Pipeline.ΦA
    iintro ⟨⟨Hr, Hp⟩, Ht⟩
    isplitl [Hp Ht]
    · isplitl [Hp]; · iexact Hp
      iexact Ht
    isplitr; · iempintro
    iexact Hr
  hexit c := by
    have hjoin := Pipeline.unscopedBufs_of_arrays (p := 4) (pcfgs (F := F)) (adm m hR) (Ix := Unit) (Name := ℕ) (U := UR sig nD τ) (Lvl := ℕ)
      (launch4 (F := F)).win (launch4 (F := F)).arr_whole c (pdats m hR) ((pdats m hR 4 c).share_full fun _ => rfl)
      (V8 m hR c) (V9 m hR c) ((pdats m hR 4 c).arrAt · (cfg4 (a4 m hR)).N) (hF4 m hR c) (hrest4 m hR c)
    rw [Pipeline.unscopedBufs_held, restSplit4 m hR c] at hjoin
    iintro ⟨Ha, HO, ⟨Hp, Ht⟩, Hrest⟩
    imodintro
    isplitl [Ha Ht Hrest]
    · iapply hjoin
      isplitl [Ha]; · iexact Ha
      isplitl [Ht]; · iexact Ht
      iexact Hrest
    isplitl [Hp]; · iexact Hp
    unfold Pipeline.Dat.owesAt Pipeline.owesWithin
    icases HO with ⟨%W, -, HO⟩; iexists W; iexact HO

end Reg

end Cert.KernelIdeal.Hand

end
-- ==== Proof.KI.Reg5.lean ====
/-
  Gather call 5 as a segment of @main: entered from every unscoped buffer at the fold's contents before it and the
  rest (generator register, nothing owed), left at the contents after it. At entry the call's three arrays and its two
  index tables are split out of the unscoped buffers; the tables — which hold, by the fold, the slices of the
  launch-time endpoint arrays the admissible contents were read from — join the pipeline's invariant beside the
  scoped rest and the generator register, and come back out of it at the end; at exit arrays, tables and the
  remaining buffers are put back together at the exit contents.
-/
import proofs.«413139_j22651657519351_3_alg».proof.Proof.Gen.KernelIdeal.Launch
import proofs.«413139_j22651657519351_3_alg».proof.Proof.Gen.KernelIdeal.Skeleton
import proofs.«413139_j22651657519351_3_alg».proof.Proof.Gen.KernelIdeal.Points
import proofs.«413139_j22651657519351_3_alg».proof.Proof.KI.Fold
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Reg

variable (m : (ℓ : Loc nD τ sig) → Buf (Elt F) ℓ) (hR : InRange m)

/-- At the call's entry its two tables hold the slices of the launch-time endpoint arrays: the stretch before it
    wrote them from the argument arrays, which nothing before had changed. -/
theorem tblHeld5 (c : Dev nD) : (fun k => V10 m hR c (pre5.ref k)) = tbl5 m := by
  obtain rfl : c = 0 := Subsingleton.elim _ _
  funext k
  match k with
  | ⟨0, _⟩ =>
    show StableHlo.after hostOps5 (W9 m hR 0) (Proc.devRef .tc main_v21) = _
    after_results
    show extractStridedSlice S40000 ![160000] (W9 m hR 0 (Proc.devRef .tc main_arg1)) slices_S800000_S40000_160000 = _
    rw [W9_arg1]; rfl
  | ⟨1, _⟩ =>
    show StableHlo.after hostOps5 (W9 m hR 0) (Proc.devRef .tc main_v22) = _
    after_results
    show extractStridedSlice S40000 ![160000] (W9 m hR 0 (Proc.devRef .tc main_arg2)) slices_S800000_S40000_160000 = _
    rw [W9_arg2]; rfl

/-- The call's unscoped rest is its two tables, held at the slices, beside the buffers that are neither array nor table. -/
theorem restSplit5 (c : Dev nD) :
    (Pipeline.unscopedRest (Ix := Unit) (Name := ℕ) (U := UR sig nD τ) (Lvl := ℕ) (Pipeline.pin (pcfgs (F := F)) (adm m hR) 5).spec c (V10 m hR c) : sProp 𝕄)
      = iprop(Pipeline.prefHeld (Ix := Unit) (Name := ℕ) (U := UR sig nD τ) (Lvl := ℕ) pre5 c (fun _ => fullShare) (tbl5 m)
          ∗ Pipeline.unscopedRestP (Ix := Unit) (Name := ℕ) (U := UR sig nD τ) (Lvl := ℕ) pre5 spec5 c (V10 m hR c)) := by
  show (Pipeline.unscopedRest (Ix := Unit) (Name := ℕ) (U := UR sig nD τ) (Lvl := ℕ) spec5 c (V10 m hR c) : sProp 𝕄) = _
  rw [Pipeline.unscopedRest_split preFacts5 c (V10 m hR c), tblHeld5 m hR c]

set_option backward.isDefEq.respectTransparency.types false in
def reg5 : Pipeline.RegionSeg (pcfgs (F := F)) (adm m hR) (pdats m hR) () defs₀ 𝒱₀ L lv 5 where
  win := (launch5 (F := F)).win.to₀
  block_pos := (launch5 (F := F)).block_pos
  stage_whole := (launch5 (F := F)).stage_whole
  K := PEmpty
  osem k := k.elim
  ho := Pipeline.OwnSemFacts.none _
  hbody c := (body_obligation5 (V10 m hR) (a5 m hR) c).loose
  hwaits := Pipeline.hwaits_of_owed_zero _ _ _ _ L lv 5 fun _ _ => rfl
  pre c := iprop(StableHlo.held (c : Thread nD τ) (Pipeline.ucRefs τ sig) (W10 m hR c) ∗ R c)
  post c := iprop(StableHlo.held (c : Thread nD τ) (Pipeline.ucRefs τ sig) (W11 m hR c) ∗ R c)
  X c := iprop(∃ r, prngReg c r)
  Y c := iprop((∃ r, prngReg c r) ∗ Pipeline.prefHeld (Ix := Unit) (Name := ℕ) (U := UR sig nD τ) (Lvl := ℕ) pre5 c (fun _ => fullShare) (tbl5 m))
  Z c := Pipeline.unscopedRestP (Ix := Unit) (Name := ℕ) (U := UR sig nD τ) (Lvl := ℕ) pre5 spec5 c (V10 m hR c)
  hentry c := by
    rw [Pipeline.ownSems0_none]
    have hsplit := Pipeline.arrays_of_unscopedBufs (p := 5) (pcfgs (F := F)) (adm m hR) (pdats m hR) (launch5 (F := F)).win (launch5 (F := F)).arr_whole c
      ((pdats m hR 5 c).share_full fun _ => rfl) (V10 m hR c) fun _ => rfl
    rw [Pipeline.unscopedBufs_held, restSplit5 m hR c] at hsplit
    iintro ⟨⟨Hub, Hp, HO⟩, -, -⟩
    ihave H := hsplit $$ Hub
    icases H with ⟨Ha, Ht, Hrest⟩
    imodintro
    isplitl [Ha]; · iexact Ha
    isplitl [Ht]; · iexact Ht
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m hR 5 c).Φ 0 = iprop(Pipeline.ΦA spec5 c ∗ Pipeline.prefHeld (Ix := Unit) (Name := ℕ) (U := UR sig nD τ) (Lvl := ℕ) pre5 c (fun _ => fullShare) (tbl5 m)) from rfl]
    unfold Pipeline.ΦA
    iintro ⟨Hp, Ht, Hr⟩
    isplitl [Hr Hp]
    · isplitl [Hr]; · iexact Hr
      iexact Hp
    iexact Ht
  hout c := by
    rw [Pipeline.ownSems0_none, show (pdats m hR 5 c).Φ (Fin.last _) = iprop(Pipeline.ΦA spec5 c ∗ Pipeline.prefHeld (Ix := Unit) (Name := ℕ) (U := UR sig nD τ) (Lvl := ℕ) pre5 c (fun _ => fullShare) (tbl5 m)) from rfl]
    unfold Pipeline.ΦA
    iintro ⟨⟨Hr, Hp⟩, Ht⟩
    isplitl [Hp Ht]
    · isplitl [Hp]; · iexact Hp
      iexact Ht
    isplitr; · iempintro
    iexact Hr
  hexit c := by
    have hjoin := Pipeline.unscopedBufs_of_arrays (p := 5) (pcfgs (F := F)) (adm m hR) (Ix := Unit) (Name := ℕ) (U := UR sig nD τ) (Lvl := ℕ)
      (launch5 (F := F)).win (launch5 (F := F)).arr_whole c (pdats m hR) ((pdats m hR 5 c).share_full fun _ => rfl)
      (V10 m hR c) (V11 m hR c) ((pdats m hR 5 c).arrAt · (cfg5 (a5 m hR)).N) (hF5 m hR c) (hrest5 m hR c)
    rw [Pipeline.unscopedBufs_held, restSplit5 m hR c] at hjoin
    iintro ⟨Ha, HO, ⟨Hp, Ht⟩, Hrest⟩
    imodintro
    isplitl [Ha Ht Hrest]
    · iapply hjoin
      isplitl [Ha]; · iexact Ha
      isplitl [Ht]; · iexact Ht
      iexact Hrest
    isplitl [Hp]; · iexact Hp
    unfold Pipeline.Dat.owesAt Pipeline.owesWithin
    icases HO with ⟨%W, -, HO⟩; iexists W; iexact HO

end Reg

end Cert.KernelIdeal.Hand

end
-- ==== Proof.KI.Reg6.lean ====
/-
  Gather call 6 as a segment of @main: entered from every unscoped buffer at the fold's contents before it and the
  rest (generator register, nothing owed), left at the contents after it. At entry the call's three arrays and its two
  index tables are split out of the unscoped buffers; the tables — which hold, by the fold, the slices of the
  launch-time endpoint arrays the admissible contents were read from — join the pipeline's invariant beside the
  scoped rest and the generator register, and come back out of it at the end; at exit arrays, tables and the
  remaining buffers are put back together at the exit contents.
-/
import proofs.«413139_j22651657519351_3_alg».proof.Proof.Gen.KernelIdeal.Launch
import proofs.«413139_j22651657519351_3_alg».proof.Proof.Gen.KernelIdeal.Skeleton
import proofs.«413139_j22651657519351_3_alg».proof.Proof.Gen.KernelIdeal.Points
import proofs.«413139_j22651657519351_3_alg».proof.Proof.KI.Fold
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Reg

variable (m : (ℓ : Loc nD τ sig) → Buf (Elt F) ℓ) (hR : InRange m)

/-- At the call's entry its two tables hold the slices of the launch-time endpoint arrays: the stretch before it
    wrote them from the argument arrays, which nothing before had changed. -/
theorem tblHeld6 (c : Dev nD) : (fun k => V12 m hR c (pre6.ref k)) = tbl6 m := by
  obtain rfl : c = 0 := Subsingleton.elim _ _
  funext k
  match k with
  | ⟨0, _⟩ =>
    show StableHlo.after hostOps6 (W11 m hR 0) (Proc.devRef .tc main_v25) = _
    after_results
    show extractStridedSlice S40000 ![200000] (W11 m hR 0 (Proc.devRef .tc main_arg1)) slices_S800000_S40000_200000 = _
    rw [W11_arg1]; rfl
  | ⟨1, _⟩ =>
    show StableHlo.after hostOps6 (W11 m hR 0) (Proc.devRef .tc main_v26) = _
    after_results
    show extractStridedSlice S40000 ![200000] (W11 m hR 0 (Proc.devRef .tc main_arg2)) slices_S800000_S40000_200000 = _
    rw [W11_arg2]; rfl

/-- The call's unscoped rest is its two tables, held at the slices, beside the buffers that are neither array nor table. -/
theorem restSplit6 (c : Dev nD) :
    (Pipeline.unscopedRest (Ix := Unit) (Name := ℕ) (U := UR sig nD τ) (Lvl := ℕ) (Pipeline.pin (pcfgs (F := F)) (adm m hR) 6).spec c (V12 m hR c) : sProp 𝕄)
      = iprop(Pipeline.prefHeld (Ix := Unit) (Name := ℕ) (U := UR sig nD τ) (Lvl := ℕ) pre6 c (fun _ => fullShare) (tbl6 m)
          ∗ Pipeline.unscopedRestP (Ix := Unit) (Name := ℕ) (U := UR sig nD τ) (Lvl := ℕ) pre6 spec6 c (V12 m hR c)) := by
  show (Pipeline.unscopedRest (Ix := Unit) (Name := ℕ) (U := UR sig nD τ) (Lvl := ℕ) spec6 c (V12 m hR c) : sProp 𝕄) = _
  rw [Pipeline.unscopedRest_split preFacts6 c (V12 m hR c), tblHeld6 m hR c]

set_option backward.isDefEq.respectTransparency.types false in
def reg6 : Pipeline.RegionSeg (pcfgs (F := F)) (adm m hR) (pdats m hR) () defs₀ 𝒱₀ L lv 6 where
  win := (launch6 (F := F)).win.to₀
  block_pos := (launch6 (F := F)).block_pos
  stage_whole := (launch6 (F := F)).stage_whole
  K := PEmpty
  osem k := k.elim
  ho := Pipeline.OwnSemFacts.none _
  hbody c := (body_obligation6 (V12 m hR) (a6 m hR) c).loose
  hwaits := Pipeline.hwaits_of_owed_zero _ _ _ _ L lv 6 fun _ _ => rfl
  pre c := iprop(StableHlo.held (c : Thread nD τ) (Pipeline.ucRefs τ sig) (W12 m hR c) ∗ R c)
  post c := iprop(StableHlo.held (c : Thread nD τ) (Pipeline.ucRefs τ sig) (W13 m hR c) ∗ R c)
  X c := iprop(∃ r, prngReg c r)
  Y c := iprop((∃ r, prngReg c r) ∗ Pipeline.prefHeld (Ix := Unit) (Name := ℕ) (U := UR sig nD τ) (Lvl := ℕ) pre6 c (fun _ => fullShare) (tbl6 m))
  Z c := Pipeline.unscopedRestP (Ix := Unit) (Name := ℕ) (U := UR sig nD τ) (Lvl := ℕ) pre6 spec6 c (V12 m hR c)
  hentry c := by
    rw [Pipeline.ownSems0_none]
    have hsplit := Pipeline.arrays_of_unscopedBufs (p := 6) (pcfgs (F := F)) (adm m hR) (pdats m hR) (launch6 (F := F)).win (launch6 (F := F)).arr_whole c
      ((pdats m hR 6 c).share_full fun _ => rfl) (V12 m hR c) fun _ => rfl
    rw [Pipeline.unscopedBufs_held, restSplit6 m hR c] at hsplit
    iintro ⟨⟨Hub, Hp, HO⟩, -, -⟩
    ihave H := hsplit $$ Hub
    icases H with ⟨Ha, Ht, Hrest⟩
    imodintro
    isplitl [Ha]; · iexact Ha
    isplitl [Ht]; · iexact Ht
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m hR 6 c).Φ 0 = iprop(Pipeline.ΦA spec6 c ∗ Pipeline.prefHeld (Ix := Unit) (Name := ℕ) (U := UR sig nD τ) (Lvl := ℕ) pre6 c (fun _ => fullShare) (tbl6 m)) from rfl]
    unfold Pipeline.ΦA
    iintro ⟨Hp, Ht, Hr⟩
    isplitl [Hr Hp]
    · isplitl [Hr]; · iexact Hr
      iexact Hp
    iexact Ht
  hout c := by
    rw [Pipeline.ownSems0_none, show (pdats m hR 6 c).Φ (Fin.last _) = iprop(Pipeline.ΦA spec6 c ∗ Pipeline.prefHeld (Ix := Unit) (Name := ℕ) (U := UR sig nD τ) (Lvl := ℕ) pre6 c (fun _ => fullShare) (tbl6 m)) from rfl]
    unfold Pipeline.ΦA
    iintro ⟨⟨Hr, Hp⟩, Ht⟩
    isplitl [Hp Ht]
    · isplitl [Hp]; · iexact Hp
      iexact Ht
    isplitr; · iempintro
    iexact Hr
  hexit c := by
    have hjoin := Pipeline.unscopedBufs_of_arrays (p := 6) (pcfgs (F := F)) (adm m hR) (Ix := Unit) (Name := ℕ) (U := UR sig nD τ) (Lvl := ℕ)
      (launch6 (F := F)).win (launch6 (F := F)).arr_whole c (pdats m hR) ((pdats m hR 6 c).share_full fun _ => rfl)
      (V12 m hR c) (V13 m hR c) ((pdats m hR 6 c).arrAt · (cfg6 (a6 m hR)).N) (hF6 m hR c) (hrest6 m hR c)
    rw [Pipeline.unscopedBufs_held, restSplit6 m hR c] at hjoin
    iintro ⟨Ha, HO, ⟨Hp, Ht⟩, Hrest⟩
    imodintro
    isplitl [Ha Ht Hrest]
    · iapply hjoin
      isplitl [Ha]; · iexact Ha
      isplitl [Ht]; · iexact Ht
      iexact Hrest
    isplitl [Hp]; · iexact Hp
    unfold Pipeline.Dat.owesAt Pipeline.owesWithin
    icases HO with ⟨%W, -, HO⟩; iexists W; iexact HO

end Reg

end Cert.KernelIdeal.Hand

end
-- ==== Proof.KI.Reg7.lean ====
/-
  Gather call 7 as a segment of @main: entered from every unscoped buffer at the fold's contents before it and the
  rest (generator register, nothing owed), left at the contents after it. At entry the call's three arrays and its two
  index tables are split out of the unscoped buffers; the tables — which hold, by the fold, the slices of the
  launch-time endpoint arrays the admissible contents were read from — join the pipeline's invariant beside the
  scoped rest and the generator register, and come back out of it at the end; at exit arrays, tables and the
  remaining buffers are put back together at the exit contents.
-/
import proofs.«413139_j22651657519351_3_alg».proof.Proof.Gen.KernelIdeal.Launch
import proofs.«413139_j22651657519351_3_alg».proof.Proof.Gen.KernelIdeal.Skeleton
import proofs.«413139_j22651657519351_3_alg».proof.Proof.Gen.KernelIdeal.Points
import proofs.«413139_j22651657519351_3_alg».proof.Proof.KI.Fold
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Reg

variable (m : (ℓ : Loc nD τ sig) → Buf (Elt F) ℓ) (hR : InRange m)

/-- At the call's entry its two tables hold the slices of the launch-time endpoint arrays: the stretch before it
    wrote them from the argument arrays, which nothing before had changed. -/
theorem tblHeld7 (c : Dev nD) : (fun k => V14 m hR c (pre7.ref k)) = tbl7 m := by
  obtain rfl : c = 0 := Subsingleton.elim _ _
  funext k
  match k with
  | ⟨0, _⟩ =>
    show StableHlo.after hostOps7 (W13 m hR 0) (Proc.devRef .tc main_v29) = _
    after_results
    show extractStridedSlice S40000 ![240000] (W13 m hR 0 (Proc.devRef .tc main_arg1)) slices_S800000_S40000_240000 = _
    rw [W13_arg1]; rfl
  | ⟨1, _⟩ =>
    show StableHlo.after hostOps7 (W13 m hR 0) (Proc.devRef .tc main_v30) = _
    after_results
    show extractStridedSlice S40000 ![240000] (W13 m hR 0 (Proc.devRef .tc main_arg2)) slices_S800000_S40000_240000 = _
    rw [W13_arg2]; rfl

/-- The call's unscoped rest is its two tables, held at the slices, beside the buffers that are neither array nor table. -/
theorem restSplit7 (c : Dev nD) :
    (Pipeline.unscopedRest (Ix := Unit) (Name := ℕ) (U := UR sig nD τ) (Lvl := ℕ) (Pipeline.pin (pcfgs (F := F)) (adm m hR) 7).spec c (V14 m hR c) : sProp 𝕄)
      = iprop(Pipeline.prefHeld (Ix := Unit) (Name := ℕ) (U := UR sig nD τ) (Lvl := ℕ) pre7 c (fun _ => fullShare) (tbl7 m)
          ∗ Pipeline.unscopedRestP (Ix := Unit) (Name := ℕ) (U := UR sig nD τ) (Lvl := ℕ) pre7 spec7 c (V14 m hR c)) := by
  show (Pipeline.unscopedRest (Ix := Unit) (Name := ℕ) (U := UR sig nD τ) (Lvl := ℕ) spec7 c (V14 m hR c) : sProp 𝕄) = _
  rw [Pipeline.unscopedRest_split preFacts7 c (V14 m hR c), tblHeld7 m hR c]

set_option backward.isDefEq.respectTransparency.types false in
def reg7 : Pipeline.RegionSeg (pcfgs (F := F)) (adm m hR) (pdats m hR) () defs₀ 𝒱₀ L lv 7 where
  win := (launch7 (F := F)).win.to₀
  block_pos := (launch7 (F := F)).block_pos
  stage_whole := (launch7 (F := F)).stage_whole
  K := PEmpty
  osem k := k.elim
  ho := Pipeline.OwnSemFacts.none _
  hbody c := (body_obligation7 (V14 m hR) (a7 m hR) c).loose
  hwaits := Pipeline.hwaits_of_owed_zero _ _ _ _ L lv 7 fun _ _ => rfl
  pre c := iprop(StableHlo.held (c : Thread nD τ) (Pipeline.ucRefs τ sig) (W14 m hR c) ∗ R c)
  post c := iprop(StableHlo.held (c : Thread nD τ) (Pipeline.ucRefs τ sig) (W15 m hR c) ∗ R c)
  X c := iprop(∃ r, prngReg c r)
  Y c := iprop((∃ r, prngReg c r) ∗ Pipeline.prefHeld (Ix := Unit) (Name := ℕ) (U := UR sig nD τ) (Lvl := ℕ) pre7 c (fun _ => fullShare) (tbl7 m))
  Z c := Pipeline.unscopedRestP (Ix := Unit) (Name := ℕ) (U := UR sig nD τ) (Lvl := ℕ) pre7 spec7 c (V14 m hR c)
  hentry c := by
    rw [Pipeline.ownSems0_none]
    have hsplit := Pipeline.arrays_of_unscopedBufs (p := 7) (pcfgs (F := F)) (adm m hR) (pdats m hR) (launch7 (F := F)).win (launch7 (F := F)).arr_whole c
      ((pdats m hR 7 c).share_full fun _ => rfl) (V14 m hR c) fun _ => rfl
    rw [Pipeline.unscopedBufs_held, restSplit7 m hR c] at hsplit
    iintro ⟨⟨Hub, Hp, HO⟩, -, -⟩
    ihave H := hsplit $$ Hub
    icases H with ⟨Ha, Ht, Hrest⟩
    imodintro
    isplitl [Ha]; · iexact Ha
    isplitl [Ht]; · iexact Ht
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m hR 7 c).Φ 0 = iprop(Pipeline.ΦA spec7 c ∗ Pipeline.prefHeld (Ix := Unit) (Name := ℕ) (U := UR sig nD τ) (Lvl := ℕ) pre7 c (fun _ => fullShare) (tbl7 m)) from rfl]
    unfold Pipeline.ΦA
    iintro ⟨Hp, Ht, Hr⟩
    isplitl [Hr Hp]
    · isplitl [Hr]; · iexact Hr
      iexact Hp
    iexact Ht
  hout c := by
    rw [Pipeline.ownSems0_none, show (pdats m hR 7 c).Φ (Fin.last _) = iprop(Pipeline.ΦA spec7 c ∗ Pipeline.prefHeld (Ix := Unit) (Name := ℕ) (U := UR sig nD τ) (Lvl := ℕ) pre7 c (fun _ => fullShare) (tbl7 m)) from rfl]
    unfold Pipeline.ΦA
    iintro ⟨⟨Hr, Hp⟩, Ht⟩
    isplitl [Hp Ht]
    · isplitl [Hp]; · iexact Hp
      iexact Ht
    isplitr; · iempintro
    iexact Hr
  hexit c := by
    have hjoin := Pipeline.unscopedBufs_of_arrays (p := 7) (pcfgs (F := F)) (adm m hR) (Ix := Unit) (Name := ℕ) (U := UR sig nD τ) (Lvl := ℕ)
      (launch7 (F := F)).win (launch7 (F := F)).arr_whole c (pdats m hR) ((pdats m hR 7 c).share_full fun _ => rfl)
      (V14 m hR c) (V15 m hR c) ((pdats m hR 7 c).arrAt · (cfg7 (a7 m hR)).N) (hF7 m hR c) (hrest7 m hR c)
    rw [Pipeline.unscopedBufs_held, restSplit7 m hR c] at hjoin
    iintro ⟨Ha, HO, ⟨Hp, Ht⟩, Hrest⟩
    imodintro
    isplitl [Ha Ht Hrest]
    · iapply hjoin
      isplitl [Ha]; · iexact Ha
      isplitl [Ht]; · iexact Ht
      iexact Hrest
    isplitl [Hp]; · iexact Hp
    unfold Pipeline.Dat.owesAt Pipeline.owesWithin
    icases HO with ⟨%W, -, HO⟩; iexists W; iexact HO

end Reg

end Cert.KernelIdeal.Hand

end
-- ==== Proof.KI.Reg8.lean ====
/-
  Gather call 8 as a segment of @main: entered from every unscoped buffer at the fold's contents before it and the
  rest (generator register, nothing owed), left at the contents after it. At entry the call's three arrays and its two
  index tables are split out of the unscoped buffers; the tables — which hold, by the fold, the slices of the
  launch-time endpoint arrays the admissible contents were read from — join the pipeline's invariant beside the
  scoped rest and the generator register, and come back out of it at the end; at exit arrays, tables and the
  remaining buffers are put back together at the exit contents.
-/
import proofs.«413139_j22651657519351_3_alg».proof.Proof.Gen.KernelIdeal.Launch
import proofs.«413139_j22651657519351_3_alg».proof.Proof.Gen.KernelIdeal.Skeleton
import proofs.«413139_j22651657519351_3_alg».proof.Proof.Gen.KernelIdeal.Points
import proofs.«413139_j22651657519351_3_alg».proof.Proof.KI.Fold
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Reg

variable (m : (ℓ : Loc nD τ sig) → Buf (Elt F) ℓ) (hR : InRange m)

/-- At the call's entry its two tables hold the slices of the launch-time endpoint arrays: the stretch before it
    wrote them from the argument arrays, which nothing before had changed. -/
theorem tblHeld8 (c : Dev nD) : (fun k => V16 m hR c (pre8.ref k)) = tbl8 m := by
  obtain rfl : c = 0 := Subsingleton.elim _ _
  funext k
  match k with
  | ⟨0, _⟩ =>
    show StableHlo.after hostOps8 (W15 m hR 0) (Proc.devRef .tc main_v33) = _
    after_results
    show extractStridedSlice S40000 ![280000] (W15 m hR 0 (Proc.devRef .tc main_arg1)) slices_S800000_S40000_280000 = _
    rw [W15_arg1]; rfl
  | ⟨1, _⟩ =>
    show StableHlo.after hostOps8 (W15 m hR 0) (Proc.devRef .tc main_v34) = _
    after_results
    show extractStridedSlice S40000 ![280000] (W15 m hR 0 (Proc.devRef .tc main_arg2)) slices_S800000_S40000_280000 = _
    rw [W15_arg2]; rfl

/-- The call's unscoped rest is its two tables, held at the slices, beside the buffers that are neither array nor table. -/
theorem restSplit8 (c : Dev nD) :
    (Pipeline.unscopedRest (Ix := Unit) (Name := ℕ) (U := UR sig nD τ) (Lvl := ℕ) (Pipeline.pin (pcfgs (F := F)) (adm m hR) 8).spec c (V16 m hR c) : sProp 𝕄)
      = iprop(Pipeline.prefHeld (Ix := Unit) (Name := ℕ) (U := UR sig nD τ) (Lvl := ℕ) pre8 c (fun _ => fullShare) (tbl8 m)
          ∗ Pipeline.unscopedRestP (Ix := Unit) (Name := ℕ) (U := UR sig nD τ) (Lvl := ℕ) pre8 spec8 c (V16 m hR c)) := by
  show (Pipeline.unscopedRest (Ix := Unit) (Name := ℕ) (U := UR sig nD τ) (Lvl := ℕ) spec8 c (V16 m hR c) : sProp 𝕄) = _
  rw [Pipeline.unscopedRest_split preFacts8 c (V16 m hR c), tblHeld8 m hR c]

set_option backward.isDefEq.respectTransparency.types false in
def reg8 : Pipeline.RegionSeg (pcfgs (F := F)) (adm m hR) (pdats m hR) () defs₀ 𝒱₀ L lv 8 where
  win := (launch8 (F := F)).win.to₀
  block_pos := (launch8 (F := F)).block_pos
  stage_whole := (launch8 (F := F)).stage_whole
  K := PEmpty
  osem k := k.elim
  ho := Pipeline.OwnSemFacts.none _
  hbody c := (body_obligation8 (V16 m hR) (a8 m hR) c).loose
  hwaits := Pipeline.hwaits_of_owed_zero _ _ _ _ L lv 8 fun _ _ => rfl
  pre c := iprop(StableHlo.held (c : Thread nD τ) (Pipeline.ucRefs τ sig) (W16 m hR c) ∗ R c)
  post c := iprop(StableHlo.held (c : Thread nD τ) (Pipeline.ucRefs τ sig) (W17 m hR c) ∗ R c)
  X c := iprop(∃ r, prngReg c r)
  Y c := iprop((∃ r, prngReg c r) ∗ Pipeline.prefHeld (Ix := Unit) (Name := ℕ) (U := UR sig nD τ) (Lvl := ℕ) pre8 c (fun _ => fullShare) (tbl8 m))
  Z c := Pipeline.unscopedRestP (Ix := Unit) (Name := ℕ) (U := UR sig nD τ) (Lvl := ℕ) pre8 spec8 c (V16 m hR c)
  hentry c := by
    rw [Pipeline.ownSems0_none]
    have hsplit := Pipeline.arrays_of_unscopedBufs (p := 8) (pcfgs (F := F)) (adm m hR) (pdats m hR) (launch8 (F := F)).win (launch8 (F := F)).arr_whole c
      ((pdats m hR 8 c).share_full fun _ => rfl) (V16 m hR c) fun _ => rfl
    rw [Pipeline.unscopedBufs_held, restSplit8 m hR c] at hsplit
    iintro ⟨⟨Hub, Hp, HO⟩, -, -⟩
    ihave H := hsplit $$ Hub
    icases H with ⟨Ha, Ht, Hrest⟩
    imodintro
    isplitl [Ha]; · iexact Ha
    isplitl [Ht]; · iexact Ht
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m hR 8 c).Φ 0 = iprop(Pipeline.ΦA spec8 c ∗ Pipeline.prefHeld (Ix := Unit) (Name := ℕ) (U := UR sig nD τ) (Lvl := ℕ) pre8 c (fun _ => fullShare) (tbl8 m)) from rfl]
    unfold Pipeline.ΦA
    iintro ⟨Hp, Ht, Hr⟩
    isplitl [Hr Hp]
    · isplitl [Hr]; · iexact Hr
      iexact Hp
    iexact Ht
  hout c := by
    rw [Pipeline.ownSems0_none, show (pdats m hR 8 c).Φ (Fin.last _) = iprop(Pipeline.ΦA spec8 c ∗ Pipeline.prefHeld (Ix := Unit) (Name := ℕ) (U := UR sig nD τ) (Lvl := ℕ) pre8 c (fun _ => fullShare) (tbl8 m)) from rfl]
    unfold Pipeline.ΦA
    iintro ⟨⟨Hr, Hp⟩, Ht⟩
    isplitl [Hp Ht]
    · isplitl [Hp]; · iexact Hp
      iexact Ht
    isplitr; · iempintro
    iexact Hr
  hexit c := by
    have hjoin := Pipeline.unscopedBufs_of_arrays (p := 8) (pcfgs (F := F)) (adm m hR) (Ix := Unit) (Name := ℕ) (U := UR sig nD τ) (Lvl := ℕ)
      (launch8 (F := F)).win (launch8 (F := F)).arr_whole c (pdats m hR) ((pdats m hR 8 c).share_full fun _ => rfl)
      (V16 m hR c) (V17 m hR c) ((pdats m hR 8 c).arrAt · (cfg8 (a8 m hR)).N) (hF8 m hR c) (hrest8 m hR c)
    rw [Pipeline.unscopedBufs_held, restSplit8 m hR c] at hjoin
    iintro ⟨Ha, HO, ⟨Hp, Ht⟩, Hrest⟩
    imodintro
    isplitl [Ha Ht Hrest]
    · iapply hjoin
      isplitl [Ha]; · iexact Ha
      isplitl [Ht]; · iexact Ht
      iexact Hrest
    isplitl [Hp]; · iexact Hp
    unfold Pipeline.Dat.owesAt Pipeline.owesWithin
    icases HO with ⟨%W, -, HO⟩; iexists W; iexact HO

end Reg

end Cert.KernelIdeal.Hand

end
-- ==== Proof.KI.Reg9.lean ====
/-
  Gather call 9 as a segment of @main: entered from every unscoped buffer at the fold's contents before it and the
  rest (generator register, nothing owed), left at the contents after it. At entry the call's three arrays and its two
  index tables are split out of the unscoped buffers; the tables — which hold, by the fold, the slices of the
  launch-time endpoint arrays the admissible contents were read from — join the pipeline's invariant beside the
  scoped rest and the generator register, and come back out of it at the end; at exit arrays, tables and the
  remaining buffers are put back together at the exit contents.
-/
import proofs.«413139_j22651657519351_3_alg».proof.Proof.Gen.KernelIdeal.Launch
import proofs.«413139_j22651657519351_3_alg».proof.Proof.Gen.KernelIdeal.Skeleton
import proofs.«413139_j22651657519351_3_alg».proof.Proof.Gen.KernelIdeal.Points
import proofs.«413139_j22651657519351_3_alg».proof.Proof.KI.Fold
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Reg

variable (m : (ℓ : Loc nD τ sig) → Buf (Elt F) ℓ) (hR : InRange m)

/-- At the call's entry its two tables hold the slices of the launch-time endpoint arrays: the stretch before it
    wrote them from the argument arrays, which nothing before had changed. -/
theorem tblHeld9 (c : Dev nD) : (fun k => V18 m hR c (pre9.ref k)) = tbl9 m := by
  obtain rfl : c = 0 := Subsingleton.elim _ _
  funext k
  match k with
  | ⟨0, _⟩ =>
    show StableHlo.after hostOps9 (W17 m hR 0) (Proc.devRef .tc main_v37) = _
    after_results
    show extractStridedSlice S40000 ![320000] (W17 m hR 0 (Proc.devRef .tc main_arg1)) slices_S800000_S40000_320000 = _
    rw [W17_arg1]; rfl
  | ⟨1, _⟩ =>
    show StableHlo.after hostOps9 (W17 m hR 0) (Proc.devRef .tc main_v38) = _
    after_results
    show extractStridedSlice S40000 ![320000] (W17 m hR 0 (Proc.devRef .tc main_arg2)) slices_S800000_S40000_320000 = _
    rw [W17_arg2]; rfl

/-- The call's unscoped rest is its two tables, held at the slices, beside the buffers that are neither array nor table. -/
theorem restSplit9 (c : Dev nD) :
    (Pipeline.unscopedRest (Ix := Unit) (Name := ℕ) (U := UR sig nD τ) (Lvl := ℕ) (Pipeline.pin (pcfgs (F := F)) (adm m hR) 9).spec c (V18 m hR c) : sProp 𝕄)
      = iprop(Pipeline.prefHeld (Ix := Unit) (Name := ℕ) (U := UR sig nD τ) (Lvl := ℕ) pre9 c (fun _ => fullShare) (tbl9 m)
          ∗ Pipeline.unscopedRestP (Ix := Unit) (Name := ℕ) (U := UR sig nD τ) (Lvl := ℕ) pre9 spec9 c (V18 m hR c)) := by
  show (Pipeline.unscopedRest (Ix := Unit) (Name := ℕ) (U := UR sig nD τ) (Lvl := ℕ) spec9 c (V18 m hR c) : sProp 𝕄) = _
  rw [Pipeline.unscopedRest_split preFacts9 c (V18 m hR c), tblHeld9 m hR c]

set_option backward.isDefEq.respectTransparency.types false in
def reg9 : Pipeline.RegionSeg (pcfgs (F := F)) (adm m hR) (pdats m hR) () defs₀ 𝒱₀ L lv 9 where
  win := (launch9 (F := F)).win.to₀
  block_pos := (launch9 (F := F)).block_pos
  stage_whole := (launch9 (F := F)).stage_whole
  K := PEmpty
  osem k := k.elim
  ho := Pipeline.OwnSemFacts.none _
  hbody c := (body_obligation9 (V18 m hR) (a9 m hR) c).loose
  hwaits := Pipeline.hwaits_of_owed_zero _ _ _ _ L lv 9 fun _ _ => rfl
  pre c := iprop(StableHlo.held (c : Thread nD τ) (Pipeline.ucRefs τ sig) (W18 m hR c) ∗ R c)
  post c := iprop(StableHlo.held (c : Thread nD τ) (Pipeline.ucRefs τ sig) (W19 m hR c) ∗ R c)
  X c := iprop(∃ r, prngReg c r)
  Y c := iprop((∃ r, prngReg c r) ∗ Pipeline.prefHeld (Ix := Unit) (Name := ℕ) (U := UR sig nD τ) (Lvl := ℕ) pre9 c (fun _ => fullShare) (tbl9 m))
  Z c := Pipeline.unscopedRestP (Ix := Unit) (Name := ℕ) (U := UR sig nD τ) (Lvl := ℕ) pre9 spec9 c (V18 m hR c)
  hentry c := by
    rw [Pipeline.ownSems0_none]
    have hsplit := Pipeline.arrays_of_unscopedBufs (p := 9) (pcfgs (F := F)) (adm m hR) (pdats m hR) (launch9 (F := F)).win (launch9 (F := F)).arr_whole c
      ((pdats m hR 9 c).share_full fun _ => rfl) (V18 m hR c) fun _ => rfl
    rw [Pipeline.unscopedBufs_held, restSplit9 m hR c] at hsplit
    iintro ⟨⟨Hub, Hp, HO⟩, -, -⟩
    ihave H := hsplit $$ Hub
    icases H with ⟨Ha, Ht, Hrest⟩
    imodintro
    isplitl [Ha]; · iexact Ha
    isplitl [Ht]; · iexact Ht
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m hR 9 c).Φ 0 = iprop(Pipeline.ΦA spec9 c ∗ Pipeline.prefHeld (Ix := Unit) (Name := ℕ) (U := UR sig nD τ) (Lvl := ℕ) pre9 c (fun _ => fullShare) (tbl9 m)) from rfl]
    unfold Pipeline.ΦA
    iintro ⟨Hp, Ht, Hr⟩
    isplitl [Hr Hp]
    · isplitl [Hr]; · iexact Hr
      iexact Hp
    iexact Ht
  hout c := by
    rw [Pipeline.ownSems0_none, show (pdats m hR 9 c).Φ (Fin.last _) = iprop(Pipeline.ΦA spec9 c ∗ Pipeline.prefHeld (Ix := Unit) (Name := ℕ) (U := UR sig nD τ) (Lvl := ℕ) pre9 c (fun _ => fullShare) (tbl9 m)) from rfl]
    unfold Pipeline.ΦA
    iintro ⟨⟨Hr, Hp⟩, Ht⟩
    isplitl [Hp Ht]
    · isplitl [Hp]; · iexact Hp
      iexact Ht
    isplitr; · iempintro
    iexact Hr
  hexit c := by
    have hjoin := Pipeline.unscopedBufs_of_arrays (p := 9) (pcfgs (F := F)) (adm m hR) (Ix := Unit) (Name := ℕ) (U := UR sig nD τ) (Lvl := ℕ)
      (launch9 (F := F)).win (launch9 (F := F)).arr_whole c (pdats m hR) ((pdats m hR 9 c).share_full fun _ => rfl)
      (V18 m hR c) (V19 m hR c) ((pdats m hR 9 c).arrAt · (cfg9 (a9 m hR)).N) (hF9 m hR c) (hrest9 m hR c)
    rw [Pipeline.unscopedBufs_held, restSplit9 m hR c] at hjoin
    iintro ⟨Ha, HO, ⟨Hp, Ht⟩, Hrest⟩
    imodintro
    isplitl [Ha Ht Hrest]
    · iapply hjoin
      isplitl [Ha]; · iexact Ha
      isplitl [Ht]; · iexact Ht
      iexact Hrest
    isplitl [Hp]; · iexact Hp
    unfold Pipeline.Dat.owesAt Pipeline.owesWithin
    icases HO with ⟨%W, -, HO⟩; iexists W; iexact HO

end Reg

end Cert.KernelIdeal.Hand

end
-- ==== Proof.KI.Reg10.lean ====
/-
  Gather call 10 as a segment of @main: entered from every unscoped buffer at the fold's contents before it and the
  rest (generator register, nothing owed), left at the contents after it. At entry the call's three arrays and its two
  index tables are split out of the unscoped buffers; the tables — which hold, by the fold, the slices of the
  launch-time endpoint arrays the admissible contents were read from — join the pipeline's invariant beside the
  scoped rest and the generator register, and come back out of it at the end; at exit arrays, tables and the
  remaining buffers are put back together at the exit contents.
-/
import proofs.«413139_j22651657519351_3_alg».proof.Proof.Gen.KernelIdeal.Launch
import proofs.«413139_j22651657519351_3_alg».proof.Proof.Gen.KernelIdeal.Skeleton
import proofs.«413139_j22651657519351_3_alg».proof.Proof.Gen.KernelIdeal.Points
import proofs.«413139_j22651657519351_3_alg».proof.Proof.KI.Fold
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Reg

variable (m : (ℓ : Loc nD τ sig) → Buf (Elt F) ℓ) (hR : InRange m)

/-- At the call's entry its two tables hold the slices of the launch-time endpoint arrays: the stretch before it
    wrote them from the argument arrays, which nothing before had changed. -/
theorem tblHeld10 (c : Dev nD) : (fun k => V20 m hR c (pre10.ref k)) = tbl10 m := by
  obtain rfl : c = 0 := Subsingleton.elim _ _
  funext k
  match k with
  | ⟨0, _⟩ =>
    show StableHlo.after hostOps10 (W19 m hR 0) (Proc.devRef .tc main_v41) = _
    after_results
    show extractStridedSlice S40000 ![360000] (W19 m hR 0 (Proc.devRef .tc main_arg1)) slices_S800000_S40000_360000 = _
    rw [W19_arg1]; rfl
  | ⟨1, _⟩ =>
    show StableHlo.after hostOps10 (W19 m hR 0) (Proc.devRef .tc main_v42) = _
    after_results
    show extractStridedSlice S40000 ![360000] (W19 m hR 0 (Proc.devRef .tc main_arg2)) slices_S800000_S40000_360000 = _
    rw [W19_arg2]; rfl

/-- The call's unscoped rest is its two tables, held at the slices, beside the buffers that are neither array nor table. -/
theorem restSplit10 (c : Dev nD) :
    (Pipeline.unscopedRest (Ix := Unit) (Name := ℕ) (U := UR sig nD τ) (Lvl := ℕ) (Pipeline.pin (pcfgs (F := F)) (adm m hR) 10).spec c (V20 m hR c) : sProp 𝕄)
      = iprop(Pipeline.prefHeld (Ix := Unit) (Name := ℕ) (U := UR sig nD τ) (Lvl := ℕ) pre10 c (fun _ => fullShare) (tbl10 m)
          ∗ Pipeline.unscopedRestP (Ix := Unit) (Name := ℕ) (U := UR sig nD τ) (Lvl := ℕ) pre10 spec10 c (V20 m hR c)) := by
  show (Pipeline.unscopedRest (Ix := Unit) (Name := ℕ) (U := UR sig nD τ) (Lvl := ℕ) spec10 c (V20 m hR c) : sProp 𝕄) = _
  rw [Pipeline.unscopedRest_split preFacts10 c (V20 m hR c), tblHeld10 m hR c]

set_option backward.isDefEq.respectTransparency.types false in
def reg10 : Pipeline.RegionSeg (pcfgs (F := F)) (adm m hR) (pdats m hR) () defs₀ 𝒱₀ L lv 10 where
  win := (launch10 (F := F)).win.to₀
  block_pos := (launch10 (F := F)).block_pos
  stage_whole := (launch10 (F := F)).stage_whole
  K := PEmpty
  osem k := k.elim
  ho := Pipeline.OwnSemFacts.none _
  hbody c := (body_obligation10 (V20 m hR) (a10 m hR) c).loose
  hwaits := Pipeline.hwaits_of_owed_zero _ _ _ _ L lv 10 fun _ _ => rfl
  pre c := iprop(StableHlo.held (c : Thread nD τ) (Pipeline.ucRefs τ sig) (W20 m hR c) ∗ R c)
  post c := iprop(StableHlo.held (c : Thread nD τ) (Pipeline.ucRefs τ sig) (W21 m hR c) ∗ R c)
  X c := iprop(∃ r, prngReg c r)
  Y c := iprop((∃ r, prngReg c r) ∗ Pipeline.prefHeld (Ix := Unit) (Name := ℕ) (U := UR sig nD τ) (Lvl := ℕ) pre10 c (fun _ => fullShare) (tbl10 m))
  Z c := Pipeline.unscopedRestP (Ix := Unit) (Name := ℕ) (U := UR sig nD τ) (Lvl := ℕ) pre10 spec10 c (V20 m hR c)
  hentry c := by
    rw [Pipeline.ownSems0_none]
    have hsplit := Pipeline.arrays_of_unscopedBufs (p := 10) (pcfgs (F := F)) (adm m hR) (pdats m hR) (launch10 (F := F)).win (launch10 (F := F)).arr_whole c
      ((pdats m hR 10 c).share_full fun _ => rfl) (V20 m hR c) fun _ => rfl
    rw [Pipeline.unscopedBufs_held, restSplit10 m hR c] at hsplit
    iintro ⟨⟨Hub, Hp, HO⟩, -, -⟩
    ihave H := hsplit $$ Hub
    icases H with ⟨Ha, Ht, Hrest⟩
    imodintro
    isplitl [Ha]; · iexact Ha
    isplitl [Ht]; · iexact Ht
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m hR 10 c).Φ 0 = iprop(Pipeline.ΦA spec10 c ∗ Pipeline.prefHeld (Ix := Unit) (Name := ℕ) (U := UR sig nD τ) (Lvl := ℕ) pre10 c (fun _ => fullShare) (tbl10 m)) from rfl]
    unfold Pipeline.ΦA
    iintro ⟨Hp, Ht, Hr⟩
    isplitl [Hr Hp]
    · isplitl [Hr]; · iexact Hr
      iexact Hp
    iexact Ht
  hout c := by
    rw [Pipeline.ownSems0_none, show (pdats m hR 10 c).Φ (Fin.last _) = iprop(Pipeline.ΦA spec10 c ∗ Pipeline.prefHeld (Ix := Unit) (Name := ℕ) (U := UR sig nD τ) (Lvl := ℕ) pre10 c (fun _ => fullShare) (tbl10 m)) from rfl]
    unfold Pipeline.ΦA
    iintro ⟨⟨Hr, Hp⟩, Ht⟩
    isplitl [Hp Ht]
    · isplitl [Hp]; · iexact Hp
      iexact Ht
    isplitr; · iempintro
    iexact Hr
  hexit c := by
    have hjoin := Pipeline.unscopedBufs_of_arrays (p := 10) (pcfgs (F := F)) (adm m hR) (Ix := Unit) (Name := ℕ) (U := UR sig nD τ) (Lvl := ℕ)
      (launch10 (F := F)).win (launch10 (F := F)).arr_whole c (pdats m hR) ((pdats m hR 10 c).share_full fun _ => rfl)
      (V20 m hR c) (V21 m hR c) ((pdats m hR 10 c).arrAt · (cfg10 (a10 m hR)).N) (hF10 m hR c) (hrest10 m hR c)
    rw [Pipeline.unscopedBufs_held, restSplit10 m hR c] at hjoin
    iintro ⟨Ha, HO, ⟨Hp, Ht⟩, Hrest⟩
    imodintro
    isplitl [Ha Ht Hrest]
    · iapply hjoin
      isplitl [Ha]; · iexact Ha
      isplitl [Ht]; · iexact Ht
      iexact Hrest
    isplitl [Hp]; · iexact Hp
    unfold Pipeline.Dat.owesAt Pipeline.owesWithin
    icases HO with ⟨%W, -, HO⟩; iexists W; iexact HO

end Reg

end Cert.KernelIdeal.Hand

end
-- ==== Proof.KI.Reg11.lean ====
/-
  Gather call 11 as a segment of @main: entered from every unscoped buffer at the fold's contents before it and the
  rest (generator register, nothing owed), left at the contents after it. At entry the call's three arrays and its two
  index tables are split out of the unscoped buffers; the tables — which hold, by the fold, the slices of the
  launch-time endpoint arrays the admissible contents were read from — join the pipeline's invariant beside the
  scoped rest and the generator register, and come back out of it at the end; at exit arrays, tables and the
  remaining buffers are put back together at the exit contents.
-/
import proofs.«413139_j22651657519351_3_alg».proof.Proof.Gen.KernelIdeal.Launch
import proofs.«413139_j22651657519351_3_alg».proof.Proof.Gen.KernelIdeal.Skeleton
import proofs.«413139_j22651657519351_3_alg».proof.Proof.Gen.KernelIdeal.Points
import proofs.«413139_j22651657519351_3_alg».proof.Proof.KI.Fold
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Reg

variable (m : (ℓ : Loc nD τ sig) → Buf (Elt F) ℓ) (hR : InRange m)

/-- At the call's entry its two tables hold the slices of the launch-time endpoint arrays: the stretch before it
    wrote them from the argument arrays, which nothing before had changed. -/
theorem tblHeld11 (c : Dev nD) : (fun k => V22 m hR c (pre11.ref k)) = tbl11 m := by
  obtain rfl : c = 0 := Subsingleton.elim _ _
  funext k
  match k with
  | ⟨0, _⟩ =>
    show StableHlo.after hostOps11 (W21 m hR 0) (Proc.devRef .tc main_v45) = _
    after_results
    show extractStridedSlice S40000 ![400000] (W21 m hR 0 (Proc.devRef .tc main_arg1)) slices_S800000_S40000_400000 = _
    rw [W21_arg1]; rfl
  | ⟨1, _⟩ =>
    show StableHlo.after hostOps11 (W21 m hR 0) (Proc.devRef .tc main_v46) = _
    after_results
    show extractStridedSlice S40000 ![400000] (W21 m hR 0 (Proc.devRef .tc main_arg2)) slices_S800000_S40000_400000 = _
    rw [W21_arg2]; rfl

/-- The call's unscoped rest is its two tables, held at the slices, beside the buffers that are neither array nor table. -/
theorem restSplit11 (c : Dev nD) :
    (Pipeline.unscopedRest (Ix := Unit) (Name := ℕ) (U := UR sig nD τ) (Lvl := ℕ) (Pipeline.pin (pcfgs (F := F)) (adm m hR) 11).spec c (V22 m hR c) : sProp 𝕄)
      = iprop(Pipeline.prefHeld (Ix := Unit) (Name := ℕ) (U := UR sig nD τ) (Lvl := ℕ) pre11 c (fun _ => fullShare) (tbl11 m)
          ∗ Pipeline.unscopedRestP (Ix := Unit) (Name := ℕ) (U := UR sig nD τ) (Lvl := ℕ) pre11 spec11 c (V22 m hR c)) := by
  show (Pipeline.unscopedRest (Ix := Unit) (Name := ℕ) (U := UR sig nD τ) (Lvl := ℕ) spec11 c (V22 m hR c) : sProp 𝕄) = _
  rw [Pipeline.unscopedRest_split preFacts11 c (V22 m hR c), tblHeld11 m hR c]

set_option backward.isDefEq.respectTransparency.types false in
def reg11 : Pipeline.RegionSeg (pcfgs (F := F)) (adm m hR) (pdats m hR) () defs₀ 𝒱₀ L lv 11 where
  win := (launch11 (F := F)).win.to₀
  block_pos := (launch11 (F := F)).block_pos
  stage_whole := (launch11 (F := F)).stage_whole
  K := PEmpty
  osem k := k.elim
  ho := Pipeline.OwnSemFacts.none _
  hbody c := (body_obligation11 (V22 m hR) (a11 m hR) c).loose
  hwaits := Pipeline.hwaits_of_owed_zero _ _ _ _ L lv 11 fun _ _ => rfl
  pre c := iprop(StableHlo.held (c : Thread nD τ) (Pipeline.ucRefs τ sig) (W22 m hR c) ∗ R c)
  post c := iprop(StableHlo.held (c : Thread nD τ) (Pipeline.ucRefs τ sig) (W23 m hR c) ∗ R c)
  X c := iprop(∃ r, prngReg c r)
  Y c := iprop((∃ r, prngReg c r) ∗ Pipeline.prefHeld (Ix := Unit) (Name := ℕ) (U := UR sig nD τ) (Lvl := ℕ) pre11 c (fun _ => fullShare) (tbl11 m))
  Z c := Pipeline.unscopedRestP (Ix := Unit) (Name := ℕ) (U := UR sig nD τ) (Lvl := ℕ) pre11 spec11 c (V22 m hR c)
  hentry c := by
    rw [Pipeline.ownSems0_none]
    have hsplit := Pipeline.arrays_of_unscopedBufs (p := 11) (pcfgs (F := F)) (adm m hR) (pdats m hR) (launch11 (F := F)).win (launch11 (F := F)).arr_whole c
      ((pdats m hR 11 c).share_full fun _ => rfl) (V22 m hR c) fun _ => rfl
    rw [Pipeline.unscopedBufs_held, restSplit11 m hR c] at hsplit
    iintro ⟨⟨Hub, Hp, HO⟩, -, -⟩
    ihave H := hsplit $$ Hub
    icases H with ⟨Ha, Ht, Hrest⟩
    imodintro
    isplitl [Ha]; · iexact Ha
    isplitl [Ht]; · iexact Ht
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m hR 11 c).Φ 0 = iprop(Pipeline.ΦA spec11 c ∗ Pipeline.prefHeld (Ix := Unit) (Name := ℕ) (U := UR sig nD τ) (Lvl := ℕ) pre11 c (fun _ => fullShare) (tbl11 m)) from rfl]
    unfold Pipeline.ΦA
    iintro ⟨Hp, Ht, Hr⟩
    isplitl [Hr Hp]
    · isplitl [Hr]; · iexact Hr
      iexact Hp
    iexact Ht
  hout c := by
    rw [Pipeline.ownSems0_none, show (pdats m hR 11 c).Φ (Fin.last _) = iprop(Pipeline.ΦA spec11 c ∗ Pipeline.prefHeld (Ix := Unit) (Name := ℕ) (U := UR sig nD τ) (Lvl := ℕ) pre11 c (fun _ => fullShare) (tbl11 m)) from rfl]
    unfold Pipeline.ΦA
    iintro ⟨⟨Hr, Hp⟩, Ht⟩
    isplitl [Hp Ht]
    · isplitl [Hp]; · iexact Hp
      iexact Ht
    isplitr; · iempintro
    iexact Hr
  hexit c := by
    have hjoin := Pipeline.unscopedBufs_of_arrays (p := 11) (pcfgs (F := F)) (adm m hR) (Ix := Unit) (Name := ℕ) (U := UR sig nD τ) (Lvl := ℕ)
      (launch11 (F := F)).win (launch11 (F := F)).arr_whole c (pdats m hR) ((pdats m hR 11 c).share_full fun _ => rfl)
      (V22 m hR c) (V23 m hR c) ((pdats m hR 11 c).arrAt · (cfg11 (a11 m hR)).N) (hF11 m hR c) (hrest11 m hR c)
    rw [Pipeline.unscopedBufs_held, restSplit11 m hR c] at hjoin
    iintro ⟨Ha, HO, ⟨Hp, Ht⟩, Hrest⟩
    imodintro
    isplitl [Ha Ht Hrest]
    · iapply hjoin
      isplitl [Ha]; · iexact Ha
      isplitl [Ht]; · iexact Ht
      iexact Hrest
    isplitl [Hp]; · iexact Hp
    unfold Pipeline.Dat.owesAt Pipeline.owesWithin
    icases HO with ⟨%W, -, HO⟩; iexists W; iexact HO

end Reg

end Cert.KernelIdeal.Hand

end
-- ==== Proof.KI.Reg12.lean ====
/-
  Gather call 12 as a segment of @main: entered from every unscoped buffer at the fold's contents before it and the
  rest (generator register, nothing owed), left at the contents after it. At entry the call's three arrays and its two
  index tables are split out of the unscoped buffers; the tables — which hold, by the fold, the slices of the
  launch-time endpoint arrays the admissible contents were read from — join the pipeline's invariant beside the
  scoped rest and the generator register, and come back out of it at the end; at exit arrays, tables and the
  remaining buffers are put back together at the exit contents.
-/
import proofs.«413139_j22651657519351_3_alg».proof.Proof.Gen.KernelIdeal.Launch
import proofs.«413139_j22651657519351_3_alg».proof.Proof.Gen.KernelIdeal.Skeleton
import proofs.«413139_j22651657519351_3_alg».proof.Proof.Gen.KernelIdeal.Points
import proofs.«413139_j22651657519351_3_alg».proof.Proof.KI.Fold
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Reg

variable (m : (ℓ : Loc nD τ sig) → Buf (Elt F) ℓ) (hR : InRange m)

/-- At the call's entry its two tables hold the slices of the launch-time endpoint arrays: the stretch before it
    wrote them from the argument arrays, which nothing before had changed. -/
theorem tblHeld12 (c : Dev nD) : (fun k => V24 m hR c (pre12.ref k)) = tbl12 m := by
  obtain rfl : c = 0 := Subsingleton.elim _ _
  funext k
  match k with
  | ⟨0, _⟩ =>
    show StableHlo.after hostOps12 (W23 m hR 0) (Proc.devRef .tc main_v49) = _
    after_results
    show extractStridedSlice S40000 ![440000] (W23 m hR 0 (Proc.devRef .tc main_arg1)) slices_S800000_S40000_440000 = _
    rw [W23_arg1]; rfl
  | ⟨1, _⟩ =>
    show StableHlo.after hostOps12 (W23 m hR 0) (Proc.devRef .tc main_v50) = _
    after_results
    show extractStridedSlice S40000 ![440000] (W23 m hR 0 (Proc.devRef .tc main_arg2)) slices_S800000_S40000_440000 = _
    rw [W23_arg2]; rfl

/-- The call's unscoped rest is its two tables, held at the slices, beside the buffers that are neither array nor table. -/
theorem restSplit12 (c : Dev nD) :
    (Pipeline.unscopedRest (Ix := Unit) (Name := ℕ) (U := UR sig nD τ) (Lvl := ℕ) (Pipeline.pin (pcfgs (F := F)) (adm m hR) 12).spec c (V24 m hR c) : sProp 𝕄)
      = iprop(Pipeline.prefHeld (Ix := Unit) (Name := ℕ) (U := UR sig nD τ) (Lvl := ℕ) pre12 c (fun _ => fullShare) (tbl12 m)
          ∗ Pipeline.unscopedRestP (Ix := Unit) (Name := ℕ) (U := UR sig nD τ) (Lvl := ℕ) pre12 spec12 c (V24 m hR c)) := by
  show (Pipeline.unscopedRest (Ix := Unit) (Name := ℕ) (U := UR sig nD τ) (Lvl := ℕ) spec12 c (V24 m hR c) : sProp 𝕄) = _
  rw [Pipeline.unscopedRest_split preFacts12 c (V24 m hR c), tblHeld12 m hR c]

set_option backward.isDefEq.respectTransparency.types false in
def reg12 : Pipeline.RegionSeg (pcfgs (F := F)) (adm m hR) (pdats m hR) () defs₀ 𝒱₀ L lv 12 where
  win := (launch12 (F := F)).win.to₀
  block_pos := (launch12 (F := F)).block_pos
  stage_whole := (launch12 (F := F)).stage_whole
  K := PEmpty
  osem k := k.elim
  ho := Pipeline.OwnSemFacts.none _
  hbody c := (body_obligation12 (V24 m hR) (a12 m hR) c).loose
  hwaits := Pipeline.hwaits_of_owed_zero _ _ _ _ L lv 12 fun _ _ => rfl
  pre c := iprop(StableHlo.held (c : Thread nD τ) (Pipeline.ucRefs τ sig) (W24 m hR c) ∗ R c)
  post c := iprop(StableHlo.held (c : Thread nD τ) (Pipeline.ucRefs τ sig) (W25 m hR c) ∗ R c)
  X c := iprop(∃ r, prngReg c r)
  Y c := iprop((∃ r, prngReg c r) ∗ Pipeline.prefHeld (Ix := Unit) (Name := ℕ) (U := UR sig nD τ) (Lvl := ℕ) pre12 c (fun _ => fullShare) (tbl12 m))
  Z c := Pipeline.unscopedRestP (Ix := Unit) (Name := ℕ) (U := UR sig nD τ) (Lvl := ℕ) pre12 spec12 c (V24 m hR c)
  hentry c := by
    rw [Pipeline.ownSems0_none]
    have hsplit := Pipeline.arrays_of_unscopedBufs (p := 12) (pcfgs (F := F)) (adm m hR) (pdats m hR) (launch12 (F := F)).win (launch12 (F := F)).arr_whole c
      ((pdats m hR 12 c).share_full fun _ => rfl) (V24 m hR c) fun _ => rfl
    rw [Pipeline.unscopedBufs_held, restSplit12 m hR c] at hsplit
    iintro ⟨⟨Hub, Hp, HO⟩, -, -⟩
    ihave H := hsplit $$ Hub
    icases H with ⟨Ha, Ht, Hrest⟩
    imodintro
    isplitl [Ha]; · iexact Ha
    isplitl [Ht]; · iexact Ht
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m hR 12 c).Φ 0 = iprop(Pipeline.ΦA spec12 c ∗ Pipeline.prefHeld (Ix := Unit) (Name := ℕ) (U := UR sig nD τ) (Lvl := ℕ) pre12 c (fun _ => fullShare) (tbl12 m)) from rfl]
    unfold Pipeline.ΦA
    iintro ⟨Hp, Ht, Hr⟩
    isplitl [Hr Hp]
    · isplitl [Hr]; · iexact Hr
      iexact Hp
    iexact Ht
  hout c := by
    rw [Pipeline.ownSems0_none, show (pdats m hR 12 c).Φ (Fin.last _) = iprop(Pipeline.ΦA spec12 c ∗ Pipeline.prefHeld (Ix := Unit) (Name := ℕ) (U := UR sig nD τ) (Lvl := ℕ) pre12 c (fun _ => fullShare) (tbl12 m)) from rfl]
    unfold Pipeline.ΦA
    iintro ⟨⟨Hr, Hp⟩, Ht⟩
    isplitl [Hp Ht]
    · isplitl [Hp]; · iexact Hp
      iexact Ht
    isplitr; · iempintro
    iexact Hr
  hexit c := by
    have hjoin := Pipeline.unscopedBufs_of_arrays (p := 12) (pcfgs (F := F)) (adm m hR) (Ix := Unit) (Name := ℕ) (U := UR sig nD τ) (Lvl := ℕ)
      (launch12 (F := F)).win (launch12 (F := F)).arr_whole c (pdats m hR) ((pdats m hR 12 c).share_full fun _ => rfl)
      (V24 m hR c) (V25 m hR c) ((pdats m hR 12 c).arrAt · (cfg12 (a12 m hR)).N) (hF12 m hR c) (hrest12 m hR c)
    rw [Pipeline.unscopedBufs_held, restSplit12 m hR c] at hjoin
    iintro ⟨Ha, HO, ⟨Hp, Ht⟩, Hrest⟩
    imodintro
    isplitl [Ha Ht Hrest]
    · iapply hjoin
      isplitl [Ha]; · iexact Ha
      isplitl [Ht]; · iexact Ht
      iexact Hrest
    isplitl [Hp]; · iexact Hp
    unfold Pipeline.Dat.owesAt Pipeline.owesWithin
    icases HO with ⟨%W, -, HO⟩; iexists W; iexact HO

end Reg

end Cert.KernelIdeal.Hand

end
-- ==== Proof.KI.Reg13.lean ====
/-
  Gather call 13 as a segment of @main: entered from every unscoped buffer at the fold's contents before it and the
  rest (generator register, nothing owed), left at the contents after it. At entry the call's three arrays and its two
  index tables are split out of the unscoped buffers; the tables — which hold, by the fold, the slices of the
  launch-time endpoint arrays the admissible contents were read from — join the pipeline's invariant beside the
  scoped rest and the generator register, and come back out of it at the end; at exit arrays, tables and the
  remaining buffers are put back together at the exit contents.
-/
import proofs.«413139_j22651657519351_3_alg».proof.Proof.Gen.KernelIdeal.Launch
import proofs.«413139_j22651657519351_3_alg».proof.Proof.Gen.KernelIdeal.Skeleton
import proofs.«413139_j22651657519351_3_alg».proof.Proof.Gen.KernelIdeal.Points
import proofs.«413139_j22651657519351_3_alg».proof.Proof.KI.Fold
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Reg

variable (m : (ℓ : Loc nD τ sig) → Buf (Elt F) ℓ) (hR : InRange m)

/-- At the call's entry its two tables hold the slices of the launch-time endpoint arrays: the stretch before it
    wrote them from the argument arrays, which nothing before had changed. -/
theorem tblHeld13 (c : Dev nD) : (fun k => V26 m hR c (pre13.ref k)) = tbl13 m := by
  obtain rfl : c = 0 := Subsingleton.elim _ _
  funext k
  match k with
  | ⟨0, _⟩ =>
    show StableHlo.after hostOps13 (W25 m hR 0) (Proc.devRef .tc main_v53) = _
    after_results
    show extractStridedSlice S40000 ![480000] (W25 m hR 0 (Proc.devRef .tc main_arg1)) slices_S800000_S40000_480000 = _
    rw [W25_arg1]; rfl
  | ⟨1, _⟩ =>
    show StableHlo.after hostOps13 (W25 m hR 0) (Proc.devRef .tc main_v54) = _
    after_results
    show extractStridedSlice S40000 ![480000] (W25 m hR 0 (Proc.devRef .tc main_arg2)) slices_S800000_S40000_480000 = _
    rw [W25_arg2]; rfl

/-- The call's unscoped rest is its two tables, held at the slices, beside the buffers that are neither array nor table. -/
theorem restSplit13 (c : Dev nD) :
    (Pipeline.unscopedRest (Ix := Unit) (Name := ℕ) (U := UR sig nD τ) (Lvl := ℕ) (Pipeline.pin (pcfgs (F := F)) (adm m hR) 13).spec c (V26 m hR c) : sProp 𝕄)
      = iprop(Pipeline.prefHeld (Ix := Unit) (Name := ℕ) (U := UR sig nD τ) (Lvl := ℕ) pre13 c (fun _ => fullShare) (tbl13 m)
          ∗ Pipeline.unscopedRestP (Ix := Unit) (Name := ℕ) (U := UR sig nD τ) (Lvl := ℕ) pre13 spec13 c (V26 m hR c)) := by
  show (Pipeline.unscopedRest (Ix := Unit) (Name := ℕ) (U := UR sig nD τ) (Lvl := ℕ) spec13 c (V26 m hR c) : sProp 𝕄) = _
  rw [Pipeline.unscopedRest_split preFacts13 c (V26 m hR c), tblHeld13 m hR c]

set_option backward.isDefEq.respectTransparency.types false in
def reg13 : Pipeline.RegionSeg (pcfgs (F := F)) (adm m hR) (pdats m hR) () defs₀ 𝒱₀ L lv 13 where
  win := (launch13 (F := F)).win.to₀
  block_pos := (launch13 (F := F)).block_pos
  stage_whole := (launch13 (F := F)).stage_whole
  K := PEmpty
  osem k := k.elim
  ho := Pipeline.OwnSemFacts.none _
  hbody c := (body_obligation13 (V26 m hR) (a13 m hR) c).loose
  hwaits := Pipeline.hwaits_of_owed_zero _ _ _ _ L lv 13 fun _ _ => rfl
  pre c := iprop(StableHlo.held (c : Thread nD τ) (Pipeline.ucRefs τ sig) (W26 m hR c) ∗ R c)
  post c := iprop(StableHlo.held (c : Thread nD τ) (Pipeline.ucRefs τ sig) (W27 m hR c) ∗ R c)
  X c := iprop(∃ r, prngReg c r)
  Y c := iprop((∃ r, prngReg c r) ∗ Pipeline.prefHeld (Ix := Unit) (Name := ℕ) (U := UR sig nD τ) (Lvl := ℕ) pre13 c (fun _ => fullShare) (tbl13 m))
  Z c := Pipeline.unscopedRestP (Ix := Unit) (Name := ℕ) (U := UR sig nD τ) (Lvl := ℕ) pre13 spec13 c (V26 m hR c)
  hentry c := by
    rw [Pipeline.ownSems0_none]
    have hsplit := Pipeline.arrays_of_unscopedBufs (p := 13) (pcfgs (F := F)) (adm m hR) (pdats m hR) (launch13 (F := F)).win (launch13 (F := F)).arr_whole c
      ((pdats m hR 13 c).share_full fun _ => rfl) (V26 m hR c) fun _ => rfl
    rw [Pipeline.unscopedBufs_held, restSplit13 m hR c] at hsplit
    iintro ⟨⟨Hub, Hp, HO⟩, -, -⟩
    ihave H := hsplit $$ Hub
    icases H with ⟨Ha, Ht, Hrest⟩
    imodintro
    isplitl [Ha]; · iexact Ha
    isplitl [Ht]; · iexact Ht
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m hR 13 c).Φ 0 = iprop(Pipeline.ΦA spec13 c ∗ Pipeline.prefHeld (Ix := Unit) (Name := ℕ) (U := UR sig nD τ) (Lvl := ℕ) pre13 c (fun _ => fullShare) (tbl13 m)) from rfl]
    unfold Pipeline.ΦA
    iintro ⟨Hp, Ht, Hr⟩
    isplitl [Hr Hp]
    · isplitl [Hr]; · iexact Hr
      iexact Hp
    iexact Ht
  hout c := by
    rw [Pipeline.ownSems0_none, show (pdats m hR 13 c).Φ (Fin.last _) = iprop(Pipeline.ΦA spec13 c ∗ Pipeline.prefHeld (Ix := Unit) (Name := ℕ) (U := UR sig nD τ) (Lvl := ℕ) pre13 c (fun _ => fullShare) (tbl13 m)) from rfl]
    unfold Pipeline.ΦA
    iintro ⟨⟨Hr, Hp⟩, Ht⟩
    isplitl [Hp Ht]
    · isplitl [Hp]; · iexact Hp
      iexact Ht
    isplitr; · iempintro
    iexact Hr
  hexit c := by
    have hjoin := Pipeline.unscopedBufs_of_arrays (p := 13) (pcfgs (F := F)) (adm m hR) (Ix := Unit) (Name := ℕ) (U := UR sig nD τ) (Lvl := ℕ)
      (launch13 (F := F)).win (launch13 (F := F)).arr_whole c (pdats m hR) ((pdats m hR 13 c).share_full fun _ => rfl)
      (V26 m hR c) (V27 m hR c) ((pdats m hR 13 c).arrAt · (cfg13 (a13 m hR)).N) (hF13 m hR c) (hrest13 m hR c)
    rw [Pipeline.unscopedBufs_held, restSplit13 m hR c] at hjoin
    iintro ⟨Ha, HO, ⟨Hp, Ht⟩, Hrest⟩
    imodintro
    isplitl [Ha Ht Hrest]
    · iapply hjoin
      isplitl [Ha]; · iexact Ha
      isplitl [Ht]; · iexact Ht
      iexact Hrest
    isplitl [Hp]; · iexact Hp
    unfold Pipeline.Dat.owesAt Pipeline.owesWithin
    icases HO with ⟨%W, -, HO⟩; iexists W; iexact HO

end Reg

end Cert.KernelIdeal.Hand

end
-- ==== Proof.KI.Reg14.lean ====
/-
  Gather call 14 as a segment of @main: entered from every unscoped buffer at the fold's contents before it and the
  rest (generator register, nothing owed), left at the contents after it. At entry the call's three arrays and its two
  index tables are split out of the unscoped buffers; the tables — which hold, by the fold, the slices of the
  launch-time endpoint arrays the admissible contents were read from — join the pipeline's invariant beside the
  scoped rest and the generator register, and come back out of it at the end; at exit arrays, tables and the
  remaining buffers are put back together at the exit contents.
-/
import proofs.«413139_j22651657519351_3_alg».proof.Proof.Gen.KernelIdeal.Launch
import proofs.«413139_j22651657519351_3_alg».proof.Proof.Gen.KernelIdeal.Skeleton
import proofs.«413139_j22651657519351_3_alg».proof.Proof.Gen.KernelIdeal.Points
import proofs.«413139_j22651657519351_3_alg».proof.Proof.KI.Fold
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Reg

variable (m : (ℓ : Loc nD τ sig) → Buf (Elt F) ℓ) (hR : InRange m)

/-- At the call's entry its two tables hold the slices of the launch-time endpoint arrays: the stretch before it
    wrote them from the argument arrays, which nothing before had changed. -/
theorem tblHeld14 (c : Dev nD) : (fun k => V28 m hR c (pre14.ref k)) = tbl14 m := by
  obtain rfl : c = 0 := Subsingleton.elim _ _
  funext k
  match k with
  | ⟨0, _⟩ =>
    show StableHlo.after hostOps14 (W27 m hR 0) (Proc.devRef .tc main_v57) = _
    after_results
    show extractStridedSlice S40000 ![520000] (W27 m hR 0 (Proc.devRef .tc main_arg1)) slices_S800000_S40000_520000 = _
    rw [W27_arg1]; rfl
  | ⟨1, _⟩ =>
    show StableHlo.after hostOps14 (W27 m hR 0) (Proc.devRef .tc main_v58) = _
    after_results
    show extractStridedSlice S40000 ![520000] (W27 m hR 0 (Proc.devRef .tc main_arg2)) slices_S800000_S40000_520000 = _
    rw [W27_arg2]; rfl

/-- The call's unscoped rest is its two tables, held at the slices, beside the buffers that are neither array nor table. -/
theorem restSplit14 (c : Dev nD) :
    (Pipeline.unscopedRest (Ix := Unit) (Name := ℕ) (U := UR sig nD τ) (Lvl := ℕ) (Pipeline.pin (pcfgs (F := F)) (adm m hR) 14).spec c (V28 m hR c) : sProp 𝕄)
      = iprop(Pipeline.prefHeld (Ix := Unit) (Name := ℕ) (U := UR sig nD τ) (Lvl := ℕ) pre14 c (fun _ => fullShare) (tbl14 m)
          ∗ Pipeline.unscopedRestP (Ix := Unit) (Name := ℕ) (U := UR sig nD τ) (Lvl := ℕ) pre14 spec14 c (V28 m hR c)) := by
  show (Pipeline.unscopedRest (Ix := Unit) (Name := ℕ) (U := UR sig nD τ) (Lvl := ℕ) spec14 c (V28 m hR c) : sProp 𝕄) = _
  rw [Pipeline.unscopedRest_split preFacts14 c (V28 m hR c), tblHeld14 m hR c]

set_option backward.isDefEq.respectTransparency.types false in
def reg14 : Pipeline.RegionSeg (pcfgs (F := F)) (adm m hR) (pdats m hR) () defs₀ 𝒱₀ L lv 14 where
  win := (launch14 (F := F)).win.to₀
  block_pos := (launch14 (F := F)).block_pos
  stage_whole := (launch14 (F := F)).stage_whole
  K := PEmpty
  osem k := k.elim
  ho := Pipeline.OwnSemFacts.none _
  hbody c := (body_obligation14 (V28 m hR) (a14 m hR) c).loose
  hwaits := Pipeline.hwaits_of_owed_zero _ _ _ _ L lv 14 fun _ _ => rfl
  pre c := iprop(StableHlo.held (c : Thread nD τ) (Pipeline.ucRefs τ sig) (W28 m hR c) ∗ R c)
  post c := iprop(StableHlo.held (c : Thread nD τ) (Pipeline.ucRefs τ sig) (W29 m hR c) ∗ R c)
  X c := iprop(∃ r, prngReg c r)
  Y c := iprop((∃ r, prngReg c r) ∗ Pipeline.prefHeld (Ix := Unit) (Name := ℕ) (U := UR sig nD τ) (Lvl := ℕ) pre14 c (fun _ => fullShare) (tbl14 m))
  Z c := Pipeline.unscopedRestP (Ix := Unit) (Name := ℕ) (U := UR sig nD τ) (Lvl := ℕ) pre14 spec14 c (V28 m hR c)
  hentry c := by
    rw [Pipeline.ownSems0_none]
    have hsplit := Pipeline.arrays_of_unscopedBufs (p := 14) (pcfgs (F := F)) (adm m hR) (pdats m hR) (launch14 (F := F)).win (launch14 (F := F)).arr_whole c
      ((pdats m hR 14 c).share_full fun _ => rfl) (V28 m hR c) fun _ => rfl
    rw [Pipeline.unscopedBufs_held, restSplit14 m hR c] at hsplit
    iintro ⟨⟨Hub, Hp, HO⟩, -, -⟩
    ihave H := hsplit $$ Hub
    icases H with ⟨Ha, Ht, Hrest⟩
    imodintro
    isplitl [Ha]; · iexact Ha
    isplitl [Ht]; · iexact Ht
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m hR 14 c).Φ 0 = iprop(Pipeline.ΦA spec14 c ∗ Pipeline.prefHeld (Ix := Unit) (Name := ℕ) (U := UR sig nD τ) (Lvl := ℕ) pre14 c (fun _ => fullShare) (tbl14 m)) from rfl]
    unfold Pipeline.ΦA
    iintro ⟨Hp, Ht, Hr⟩
    isplitl [Hr Hp]
    · isplitl [Hr]; · iexact Hr
      iexact Hp
    iexact Ht
  hout c := by
    rw [Pipeline.ownSems0_none, show (pdats m hR 14 c).Φ (Fin.last _) = iprop(Pipeline.ΦA spec14 c ∗ Pipeline.prefHeld (Ix := Unit) (Name := ℕ) (U := UR sig nD τ) (Lvl := ℕ) pre14 c (fun _ => fullShare) (tbl14 m)) from rfl]
    unfold Pipeline.ΦA
    iintro ⟨⟨Hr, Hp⟩, Ht⟩
    isplitl [Hp Ht]
    · isplitl [Hp]; · iexact Hp
      iexact Ht
    isplitr; · iempintro
    iexact Hr
  hexit c := by
    have hjoin := Pipeline.unscopedBufs_of_arrays (p := 14) (pcfgs (F := F)) (adm m hR) (Ix := Unit) (Name := ℕ) (U := UR sig nD τ) (Lvl := ℕ)
      (launch14 (F := F)).win (launch14 (F := F)).arr_whole c (pdats m hR) ((pdats m hR 14 c).share_full fun _ => rfl)
      (V28 m hR c) (V29 m hR c) ((pdats m hR 14 c).arrAt · (cfg14 (a14 m hR)).N) (hF14 m hR c) (hrest14 m hR c)
    rw [Pipeline.unscopedBufs_held, restSplit14 m hR c] at hjoin
    iintro ⟨Ha, HO, ⟨Hp, Ht⟩, Hrest⟩
    imodintro
    isplitl [Ha Ht Hrest]
    · iapply hjoin
      isplitl [Ha]; · iexact Ha
      isplitl [Ht]; · iexact Ht
      iexact Hrest
    isplitl [Hp]; · iexact Hp
    unfold Pipeline.Dat.owesAt Pipeline.owesWithin
    icases HO with ⟨%W, -, HO⟩; iexists W; iexact HO

end Reg

end Cert.KernelIdeal.Hand

end
-- ==== Proof.KI.Reg15.lean ====
/-
  Gather call 15 as a segment of @main: entered from every unscoped buffer at the fold's contents before it and the
  rest (generator register, nothing owed), left at the contents after it. At entry the call's three arrays and its two
  index tables are split out of the unscoped buffers; the tables — which hold, by the fold, the slices of the
  launch-time endpoint arrays the admissible contents were read from — join the pipeline's invariant beside the
  scoped rest and the generator register, and come back out of it at the end; at exit arrays, tables and the
  remaining buffers are put back together at the exit contents.
-/
import proofs.«413139_j22651657519351_3_alg».proof.Proof.Gen.KernelIdeal.Launch
import proofs.«413139_j22651657519351_3_alg».proof.Proof.Gen.KernelIdeal.Skeleton
import proofs.«413139_j22651657519351_3_alg».proof.Proof.Gen.KernelIdeal.Points
import proofs.«413139_j22651657519351_3_alg».proof.Proof.KI.Fold
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Reg

variable (m : (ℓ : Loc nD τ sig) → Buf (Elt F) ℓ) (hR : InRange m)

/-- At the call's entry its two tables hold the slices of the launch-time endpoint arrays: the stretch before it
    wrote them from the argument arrays, which nothing before had changed. -/
theorem tblHeld15 (c : Dev nD) : (fun k => V30 m hR c (pre15.ref k)) = tbl15 m := by
  obtain rfl : c = 0 := Subsingleton.elim _ _
  funext k
  match k with
  | ⟨0, _⟩ =>
    show StableHlo.after hostOps15 (W29 m hR 0) (Proc.devRef .tc main_v61) = _
    after_results
    show extractStridedSlice S40000 ![560000] (W29 m hR 0 (Proc.devRef .tc main_arg1)) slices_S800000_S40000_560000 = _
    rw [W29_arg1]; rfl
  | ⟨1, _⟩ =>
    show StableHlo.after hostOps15 (W29 m hR 0) (Proc.devRef .tc main_v62) = _
    after_results
    show extractStridedSlice S40000 ![560000] (W29 m hR 0 (Proc.devRef .tc main_arg2)) slices_S800000_S40000_560000 = _
    rw [W29_arg2]; rfl

/-- The call's unscoped rest is its two tables, held at the slices, beside the buffers that are neither array nor table. -/
theorem restSplit15 (c : Dev nD) :
    (Pipeline.unscopedRest (Ix := Unit) (Name := ℕ) (U := UR sig nD τ) (Lvl := ℕ) (Pipeline.pin (pcfgs (F := F)) (adm m hR) 15).spec c (V30 m hR c) : sProp 𝕄)
      = iprop(Pipeline.prefHeld (Ix := Unit) (Name := ℕ) (U := UR sig nD τ) (Lvl := ℕ) pre15 c (fun _ => fullShare) (tbl15 m)
          ∗ Pipeline.unscopedRestP (Ix := Unit) (Name := ℕ) (U := UR sig nD τ) (Lvl := ℕ) pre15 spec15 c (V30 m hR c)) := by
  show (Pipeline.unscopedRest (Ix := Unit) (Name := ℕ) (U := UR sig nD τ) (Lvl := ℕ) spec15 c (V30 m hR c) : sProp 𝕄) = _
  rw [Pipeline.unscopedRest_split preFacts15 c (V30 m hR c), tblHeld15 m hR c]

set_option backward.isDefEq.respectTransparency.types false in
def reg15 : Pipeline.RegionSeg (pcfgs (F := F)) (adm m hR) (pdats m hR) () defs₀ 𝒱₀ L lv 15 where
  win := (launch15 (F := F)).win.to₀
  block_pos := (launch15 (F := F)).block_pos
  stage_whole := (launch15 (F := F)).stage_whole
  K := PEmpty
  osem k := k.elim
  ho := Pipeline.OwnSemFacts.none _
  hbody c := (body_obligation15 (V30 m hR) (a15 m hR) c).loose
  hwaits := Pipeline.hwaits_of_owed_zero _ _ _ _ L lv 15 fun _ _ => rfl
  pre c := iprop(StableHlo.held (c : Thread nD τ) (Pipeline.ucRefs τ sig) (W30 m hR c) ∗ R c)
  post c := iprop(StableHlo.held (c : Thread nD τ) (Pipeline.ucRefs τ sig) (W31 m hR c) ∗ R c)
  X c := iprop(∃ r, prngReg c r)
  Y c := iprop((∃ r, prngReg c r) ∗ Pipeline.prefHeld (Ix := Unit) (Name := ℕ) (U := UR sig nD τ) (Lvl := ℕ) pre15 c (fun _ => fullShare) (tbl15 m))
  Z c := Pipeline.unscopedRestP (Ix := Unit) (Name := ℕ) (U := UR sig nD τ) (Lvl := ℕ) pre15 spec15 c (V30 m hR c)
  hentry c := by
    rw [Pipeline.ownSems0_none]
    have hsplit := Pipeline.arrays_of_unscopedBufs (p := 15) (pcfgs (F := F)) (adm m hR) (pdats m hR) (launch15 (F := F)).win (launch15 (F := F)).arr_whole c
      ((pdats m hR 15 c).share_full fun _ => rfl) (V30 m hR c) fun _ => rfl
    rw [Pipeline.unscopedBufs_held, restSplit15 m hR c] at hsplit
    iintro ⟨⟨Hub, Hp, HO⟩, -, -⟩
    ihave H := hsplit $$ Hub
    icases H with ⟨Ha, Ht, Hrest⟩
    imodintro
    isplitl [Ha]; · iexact Ha
    isplitl [Ht]; · iexact Ht
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m hR 15 c).Φ 0 = iprop(Pipeline.ΦA spec15 c ∗ Pipeline.prefHeld (Ix := Unit) (Name := ℕ) (U := UR sig nD τ) (Lvl := ℕ) pre15 c (fun _ => fullShare) (tbl15 m)) from rfl]
    unfold Pipeline.ΦA
    iintro ⟨Hp, Ht, Hr⟩
    isplitl [Hr Hp]
    · isplitl [Hr]; · iexact Hr
      iexact Hp
    iexact Ht
  hout c := by
    rw [Pipeline.ownSems0_none, show (pdats m hR 15 c).Φ (Fin.last _) = iprop(Pipeline.ΦA spec15 c ∗ Pipeline.prefHeld (Ix := Unit) (Name := ℕ) (U := UR sig nD τ) (Lvl := ℕ) pre15 c (fun _ => fullShare) (tbl15 m)) from rfl]
    unfold Pipeline.ΦA
    iintro ⟨⟨Hr, Hp⟩, Ht⟩
    isplitl [Hp Ht]
    · isplitl [Hp]; · iexact Hp
      iexact Ht
    isplitr; · iempintro
    iexact Hr
  hexit c := by
    have hjoin := Pipeline.unscopedBufs_of_arrays (p := 15) (pcfgs (F := F)) (adm m hR) (Ix := Unit) (Name := ℕ) (U := UR sig nD τ) (Lvl := ℕ)
      (launch15 (F := F)).win (launch15 (F := F)).arr_whole c (pdats m hR) ((pdats m hR 15 c).share_full fun _ => rfl)
      (V30 m hR c) (V31 m hR c) ((pdats m hR 15 c).arrAt · (cfg15 (a15 m hR)).N) (hF15 m hR c) (hrest15 m hR c)
    rw [Pipeline.unscopedBufs_held, restSplit15 m hR c] at hjoin
    iintro ⟨Ha, HO, ⟨Hp, Ht⟩, Hrest⟩
    imodintro
    isplitl [Ha Ht Hrest]
    · iapply hjoin
      isplitl [Ha]; · iexact Ha
      isplitl [Ht]; · iexact Ht
      iexact Hrest
    isplitl [Hp]; · iexact Hp
    unfold Pipeline.Dat.owesAt Pipeline.owesWithin
    icases HO with ⟨%W, -, HO⟩; iexists W; iexact HO

end Reg

end Cert.KernelIdeal.Hand

end
-- ==== Proof.KI.Reg16.lean ====
/-
  Gather call 16 as a segment of @main: entered from every unscoped buffer at the fold's contents before it and the
  rest (generator register, nothing owed), left at the contents after it. At entry the call's three arrays and its two
  index tables are split out of the unscoped buffers; the tables — which hold, by the fold, the slices of the
  launch-time endpoint arrays the admissible contents were read from — join the pipeline's invariant beside the
  scoped rest and the generator register, and come back out of it at the end; at exit arrays, tables and the
  remaining buffers are put back together at the exit contents.
-/
import proofs.«413139_j22651657519351_3_alg».proof.Proof.Gen.KernelIdeal.Launch
import proofs.«413139_j22651657519351_3_alg».proof.Proof.Gen.KernelIdeal.Skeleton
import proofs.«413139_j22651657519351_3_alg».proof.Proof.Gen.KernelIdeal.Points
import proofs.«413139_j22651657519351_3_alg».proof.Proof.KI.Fold
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Reg

variable (m : (ℓ : Loc nD τ sig) → Buf (Elt F) ℓ) (hR : InRange m)

/-- At the call's entry its two tables hold the slices of the launch-time endpoint arrays: the stretch before it
    wrote them from the argument arrays, which nothing before had changed. -/
theorem tblHeld16 (c : Dev nD) : (fun k => V32 m hR c (pre16.ref k)) = tbl16 m := by
  obtain rfl : c = 0 := Subsingleton.elim _ _
  funext k
  match k with
  | ⟨0, _⟩ =>
    show StableHlo.after hostOps16 (W31 m hR 0) (Proc.devRef .tc main_v65) = _
    after_results
    show extractStridedSlice S40000 ![600000] (W31 m hR 0 (Proc.devRef .tc main_arg1)) slices_S800000_S40000_600000 = _
    rw [W31_arg1]; rfl
  | ⟨1, _⟩ =>
    show StableHlo.after hostOps16 (W31 m hR 0) (Proc.devRef .tc main_v66) = _
    after_results
    show extractStridedSlice S40000 ![600000] (W31 m hR 0 (Proc.devRef .tc main_arg2)) slices_S800000_S40000_600000 = _
    rw [W31_arg2]; rfl

/-- The call's unscoped rest is its two tables, held at the slices, beside the buffers that are neither array nor table. -/
theorem restSplit16 (c : Dev nD) :
    (Pipeline.unscopedRest (Ix := Unit) (Name := ℕ) (U := UR sig nD τ) (Lvl := ℕ) (Pipeline.pin (pcfgs (F := F)) (adm m hR) 16).spec c (V32 m hR c) : sProp 𝕄)
      = iprop(Pipeline.prefHeld (Ix := Unit) (Name := ℕ) (U := UR sig nD τ) (Lvl := ℕ) pre16 c (fun _ => fullShare) (tbl16 m)
          ∗ Pipeline.unscopedRestP (Ix := Unit) (Name := ℕ) (U := UR sig nD τ) (Lvl := ℕ) pre16 spec16 c (V32 m hR c)) := by
  show (Pipeline.unscopedRest (Ix := Unit) (Name := ℕ) (U := UR sig nD τ) (Lvl := ℕ) spec16 c (V32 m hR c) : sProp 𝕄) = _
  rw [Pipeline.unscopedRest_split preFacts16 c (V32 m hR c), tblHeld16 m hR c]

set_option backward.isDefEq.respectTransparency.types false in
def reg16 : Pipeline.RegionSeg (pcfgs (F := F)) (adm m hR) (pdats m hR) () defs₀ 𝒱₀ L lv 16 where
  win := (launch16 (F := F)).win.to₀
  block_pos := (launch16 (F := F)).block_pos
  stage_whole := (launch16 (F := F)).stage_whole
  K := PEmpty
  osem k := k.elim
  ho := Pipeline.OwnSemFacts.none _
  hbody c := (body_obligation16 (V32 m hR) (a16 m hR) c).loose
  hwaits := Pipeline.hwaits_of_owed_zero _ _ _ _ L lv 16 fun _ _ => rfl
  pre c := iprop(StableHlo.held (c : Thread nD τ) (Pipeline.ucRefs τ sig) (W32 m hR c) ∗ R c)
  post c := iprop(StableHlo.held (c : Thread nD τ) (Pipeline.ucRefs τ sig) (W33 m hR c) ∗ R c)
  X c := iprop(∃ r, prngReg c r)
  Y c := iprop((∃ r, prngReg c r) ∗ Pipeline.prefHeld (Ix := Unit) (Name := ℕ) (U := UR sig nD τ) (Lvl := ℕ) pre16 c (fun _ => fullShare) (tbl16 m))
  Z c := Pipeline.unscopedRestP (Ix := Unit) (Name := ℕ) (U := UR sig nD τ) (Lvl := ℕ) pre16 spec16 c (V32 m hR c)
  hentry c := by
    rw [Pipeline.ownSems0_none]
    have hsplit := Pipeline.arrays_of_unscopedBufs (p := 16) (pcfgs (F := F)) (adm m hR) (pdats m hR) (launch16 (F := F)).win (launch16 (F := F)).arr_whole c
      ((pdats m hR 16 c).share_full fun _ => rfl) (V32 m hR c) fun _ => rfl
    rw [Pipeline.unscopedBufs_held, restSplit16 m hR c] at hsplit
    iintro ⟨⟨Hub, Hp, HO⟩, -, -⟩
    ihave H := hsplit $$ Hub
    icases H with ⟨Ha, Ht, Hrest⟩
    imodintro
    isplitl [Ha]; · iexact Ha
    isplitl [Ht]; · iexact Ht
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m hR 16 c).Φ 0 = iprop(Pipeline.ΦA spec16 c ∗ Pipeline.prefHeld (Ix := Unit) (Name := ℕ) (U := UR sig nD τ) (Lvl := ℕ) pre16 c (fun _ => fullShare) (tbl16 m)) from rfl]
    unfold Pipeline.ΦA
    iintro ⟨Hp, Ht, Hr⟩
    isplitl [Hr Hp]
    · isplitl [Hr]; · iexact Hr
      iexact Hp
    iexact Ht
  hout c := by
    rw [Pipeline.ownSems0_none, show (pdats m hR 16 c).Φ (Fin.last _) = iprop(Pipeline.ΦA spec16 c ∗ Pipeline.prefHeld (Ix := Unit) (Name := ℕ) (U := UR sig nD τ) (Lvl := ℕ) pre16 c (fun _ => fullShare) (tbl16 m)) from rfl]
    unfold Pipeline.ΦA
    iintro ⟨⟨Hr, Hp⟩, Ht⟩
    isplitl [Hp Ht]
    · isplitl [Hp]; · iexact Hp
      iexact Ht
    isplitr; · iempintro
    iexact Hr
  hexit c := by
    have hjoin := Pipeline.unscopedBufs_of_arrays (p := 16) (pcfgs (F := F)) (adm m hR) (Ix := Unit) (Name := ℕ) (U := UR sig nD τ) (Lvl := ℕ)
      (launch16 (F := F)).win (launch16 (F := F)).arr_whole c (pdats m hR) ((pdats m hR 16 c).share_full fun _ => rfl)
      (V32 m hR c) (V33 m hR c) ((pdats m hR 16 c).arrAt · (cfg16 (a16 m hR)).N) (hF16 m hR c) (hrest16 m hR c)
    rw [Pipeline.unscopedBufs_held, restSplit16 m hR c] at hjoin
    iintro ⟨Ha, HO, ⟨Hp, Ht⟩, Hrest⟩
    imodintro
    isplitl [Ha Ht Hrest]
    · iapply hjoin
      isplitl [Ha]; · iexact Ha
      isplitl [Ht]; · iexact Ht
      iexact Hrest
    isplitl [Hp]; · iexact Hp
    unfold Pipeline.Dat.owesAt Pipeline.owesWithin
    icases HO with ⟨%W, -, HO⟩; iexists W; iexact HO

end Reg

end Cert.KernelIdeal.Hand

end
-- ==== Proof.KI.Reg17.lean ====
/-
  Gather call 17 as a segment of @main: entered from every unscoped buffer at the fold's contents before it and the
  rest (generator register, nothing owed), left at the contents after it. At entry the call's three arrays and its two
  index tables are split out of the unscoped buffers; the tables — which hold, by the fold, the slices of the
  launch-time endpoint arrays the admissible contents were read from — join the pipeline's invariant beside the
  scoped rest and the generator register, and come back out of it at the end; at exit arrays, tables and the
  remaining buffers are put back together at the exit contents.
-/
import proofs.«413139_j22651657519351_3_alg».proof.Proof.Gen.KernelIdeal.Launch
import proofs.«413139_j22651657519351_3_alg».proof.Proof.Gen.KernelIdeal.Skeleton
import proofs.«413139_j22651657519351_3_alg».proof.Proof.Gen.KernelIdeal.Points
import proofs.«413139_j22651657519351_3_alg».proof.Proof.KI.Fold
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Reg

variable (m : (ℓ : Loc nD τ sig) → Buf (Elt F) ℓ) (hR : InRange m)

/-- At the call's entry its two tables hold the slices of the launch-time endpoint arrays: the stretch before it
    wrote them from the argument arrays, which nothing before had changed. -/
theorem tblHeld17 (c : Dev nD) : (fun k => V34 m hR c (pre17.ref k)) = tbl17 m := by
  obtain rfl : c = 0 := Subsingleton.elim _ _
  funext k
  match k with
  | ⟨0, _⟩ =>
    show StableHlo.after hostOps17 (W33 m hR 0) (Proc.devRef .tc main_v69) = _
    after_results
    show extractStridedSlice S40000 ![640000] (W33 m hR 0 (Proc.devRef .tc main_arg1)) slices_S800000_S40000_640000 = _
    rw [W33_arg1]; rfl
  | ⟨1, _⟩ =>
    show StableHlo.after hostOps17 (W33 m hR 0) (Proc.devRef .tc main_v70) = _
    after_results
    show extractStridedSlice S40000 ![640000] (W33 m hR 0 (Proc.devRef .tc main_arg2)) slices_S800000_S40000_640000 = _
    rw [W33_arg2]; rfl

/-- The call's unscoped rest is its two tables, held at the slices, beside the buffers that are neither array nor table. -/
theorem restSplit17 (c : Dev nD) :
    (Pipeline.unscopedRest (Ix := Unit) (Name := ℕ) (U := UR sig nD τ) (Lvl := ℕ) (Pipeline.pin (pcfgs (F := F)) (adm m hR) 17).spec c (V34 m hR c) : sProp 𝕄)
      = iprop(Pipeline.prefHeld (Ix := Unit) (Name := ℕ) (U := UR sig nD τ) (Lvl := ℕ) pre17 c (fun _ => fullShare) (tbl17 m)
          ∗ Pipeline.unscopedRestP (Ix := Unit) (Name := ℕ) (U := UR sig nD τ) (Lvl := ℕ) pre17 spec17 c (V34 m hR c)) := by
  show (Pipeline.unscopedRest (Ix := Unit) (Name := ℕ) (U := UR sig nD τ) (Lvl := ℕ) spec17 c (V34 m hR c) : sProp 𝕄) = _
  rw [Pipeline.unscopedRest_split preFacts17 c (V34 m hR c), tblHeld17 m hR c]

set_option backward.isDefEq.respectTransparency.types false in
def reg17 : Pipeline.RegionSeg (pcfgs (F := F)) (adm m hR) (pdats m hR) () defs₀ 𝒱₀ L lv 17 where
  win := (launch17 (F := F)).win.to₀
  block_pos := (launch17 (F := F)).block_pos
  stage_whole := (launch17 (F := F)).stage_whole
  K := PEmpty
  osem k := k.elim
  ho := Pipeline.OwnSemFacts.none _
  hbody c := (body_obligation17 (V34 m hR) (a17 m hR) c).loose
  hwaits := Pipeline.hwaits_of_owed_zero _ _ _ _ L lv 17 fun _ _ => rfl
  pre c := iprop(StableHlo.held (c : Thread nD τ) (Pipeline.ucRefs τ sig) (W34 m hR c) ∗ R c)
  post c := iprop(StableHlo.held (c : Thread nD τ) (Pipeline.ucRefs τ sig) (W35 m hR c) ∗ R c)
  X c := iprop(∃ r, prngReg c r)
  Y c := iprop((∃ r, prngReg c r) ∗ Pipeline.prefHeld (Ix := Unit) (Name := ℕ) (U := UR sig nD τ) (Lvl := ℕ) pre17 c (fun _ => fullShare) (tbl17 m))
  Z c := Pipeline.unscopedRestP (Ix := Unit) (Name := ℕ) (U := UR sig nD τ) (Lvl := ℕ) pre17 spec17 c (V34 m hR c)
  hentry c := by
    rw [Pipeline.ownSems0_none]
    have hsplit := Pipeline.arrays_of_unscopedBufs (p := 17) (pcfgs (F := F)) (adm m hR) (pdats m hR) (launch17 (F := F)).win (launch17 (F := F)).arr_whole c
      ((pdats m hR 17 c).share_full fun _ => rfl) (V34 m hR c) fun _ => rfl
    rw [Pipeline.unscopedBufs_held, restSplit17 m hR c] at hsplit
    iintro ⟨⟨Hub, Hp, HO⟩, -, -⟩
    ihave H := hsplit $$ Hub
    icases H with ⟨Ha, Ht, Hrest⟩
    imodintro
    isplitl [Ha]; · iexact Ha
    isplitl [Ht]; · iexact Ht
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m hR 17 c).Φ 0 = iprop(Pipeline.ΦA spec17 c ∗ Pipeline.prefHeld (Ix := Unit) (Name := ℕ) (U := UR sig nD τ) (Lvl := ℕ) pre17 c (fun _ => fullShare) (tbl17 m)) from rfl]
    unfold Pipeline.ΦA
    iintro ⟨Hp, Ht, Hr⟩
    isplitl [Hr Hp]
    · isplitl [Hr]; · iexact Hr
      iexact Hp
    iexact Ht
  hout c := by
    rw [Pipeline.ownSems0_none, show (pdats m hR 17 c).Φ (Fin.last _) = iprop(Pipeline.ΦA spec17 c ∗ Pipeline.prefHeld (Ix := Unit) (Name := ℕ) (U := UR sig nD τ) (Lvl := ℕ) pre17 c (fun _ => fullShare) (tbl17 m)) from rfl]
    unfold Pipeline.ΦA
    iintro ⟨⟨Hr, Hp⟩, Ht⟩
    isplitl [Hp Ht]
    · isplitl [Hp]; · iexact Hp
      iexact Ht
    isplitr; · iempintro
    iexact Hr
  hexit c := by
    have hjoin := Pipeline.unscopedBufs_of_arrays (p := 17) (pcfgs (F := F)) (adm m hR) (Ix := Unit) (Name := ℕ) (U := UR sig nD τ) (Lvl := ℕ)
      (launch17 (F := F)).win (launch17 (F := F)).arr_whole c (pdats m hR) ((pdats m hR 17 c).share_full fun _ => rfl)
      (V34 m hR c) (V35 m hR c) ((pdats m hR 17 c).arrAt · (cfg17 (a17 m hR)).N) (hF17 m hR c) (hrest17 m hR c)
    rw [Pipeline.unscopedBufs_held, restSplit17 m hR c] at hjoin
    iintro ⟨Ha, HO, ⟨Hp, Ht⟩, Hrest⟩
    imodintro
    isplitl [Ha Ht Hrest]
    · iapply hjoin
      isplitl [Ha]; · iexact Ha
      isplitl [Ht]; · iexact Ht
      iexact Hrest
    isplitl [Hp]; · iexact Hp
    unfold Pipeline.Dat.owesAt Pipeline.owesWithin
    icases HO with ⟨%W, -, HO⟩; iexists W; iexact HO

end Reg

end Cert.KernelIdeal.Hand

end
-- ==== Proof.KI.Reg18.lean ====
/-
  Gather call 18 as a segment of @main: entered from every unscoped buffer at the fold's contents before it and the
  rest (generator register, nothing owed), left at the contents after it. At entry the call's three arrays and its two
  index tables are split out of the unscoped buffers; the tables — which hold, by the fold, the slices of the
  launch-time endpoint arrays the admissible contents were read from — join the pipeline's invariant beside the
  scoped rest and the generator register, and come back out of it at the end; at exit arrays, tables and the
  remaining buffers are put back together at the exit contents.
-/
import proofs.«413139_j22651657519351_3_alg».proof.Proof.Gen.KernelIdeal.Launch
import proofs.«413139_j22651657519351_3_alg».proof.Proof.Gen.KernelIdeal.Skeleton
import proofs.«413139_j22651657519351_3_alg».proof.Proof.Gen.KernelIdeal.Points
import proofs.«413139_j22651657519351_3_alg».proof.Proof.KI.Fold
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Reg

variable (m : (ℓ : Loc nD τ sig) → Buf (Elt F) ℓ) (hR : InRange m)

/-- At the call's entry its two tables hold the slices of the launch-time endpoint arrays: the stretch before it
    wrote them from the argument arrays, which nothing before had changed. -/
theorem tblHeld18 (c : Dev nD) : (fun k => V36 m hR c (pre18.ref k)) = tbl18 m := by
  obtain rfl : c = 0 := Subsingleton.elim _ _
  funext k
  match k with
  | ⟨0, _⟩ =>
    show StableHlo.after hostOps18 (W35 m hR 0) (Proc.devRef .tc main_v73) = _
    after_results
    show extractStridedSlice S40000 ![680000] (W35 m hR 0 (Proc.devRef .tc main_arg1)) slices_S800000_S40000_680000 = _
    rw [W35_arg1]; rfl
  | ⟨1, _⟩ =>
    show StableHlo.after hostOps18 (W35 m hR 0) (Proc.devRef .tc main_v74) = _
    after_results
    show extractStridedSlice S40000 ![680000] (W35 m hR 0 (Proc.devRef .tc main_arg2)) slices_S800000_S40000_680000 = _
    rw [W35_arg2]; rfl

/-- The call's unscoped rest is its two tables, held at the slices, beside the buffers that are neither array nor table. -/
theorem restSplit18 (c : Dev nD) :
    (Pipeline.unscopedRest (Ix := Unit) (Name := ℕ) (U := UR sig nD τ) (Lvl := ℕ) (Pipeline.pin (pcfgs (F := F)) (adm m hR) 18).spec c (V36 m hR c) : sProp 𝕄)
      = iprop(Pipeline.prefHeld (Ix := Unit) (Name := ℕ) (U := UR sig nD τ) (Lvl := ℕ) pre18 c (fun _ => fullShare) (tbl18 m)
          ∗ Pipeline.unscopedRestP (Ix := Unit) (Name := ℕ) (U := UR sig nD τ) (Lvl := ℕ) pre18 spec18 c (V36 m hR c)) := by
  show (Pipeline.unscopedRest (Ix := Unit) (Name := ℕ) (U := UR sig nD τ) (Lvl := ℕ) spec18 c (V36 m hR c) : sProp 𝕄) = _
  rw [Pipeline.unscopedRest_split preFacts18 c (V36 m hR c), tblHeld18 m hR c]

set_option backward.isDefEq.respectTransparency.types false in
def reg18 : Pipeline.RegionSeg (pcfgs (F := F)) (adm m hR) (pdats m hR) () defs₀ 𝒱₀ L lv 18 where
  win := (launch18 (F := F)).win.to₀
  block_pos := (launch18 (F := F)).block_pos
  stage_whole := (launch18 (F := F)).stage_whole
  K := PEmpty
  osem k := k.elim
  ho := Pipeline.OwnSemFacts.none _
  hbody c := (body_obligation18 (V36 m hR) (a18 m hR) c).loose
  hwaits := Pipeline.hwaits_of_owed_zero _ _ _ _ L lv 18 fun _ _ => rfl
  pre c := iprop(StableHlo.held (c : Thread nD τ) (Pipeline.ucRefs τ sig) (W36 m hR c) ∗ R c)
  post c := iprop(StableHlo.held (c : Thread nD τ) (Pipeline.ucRefs τ sig) (W37 m hR c) ∗ R c)
  X c := iprop(∃ r, prngReg c r)
  Y c := iprop((∃ r, prngReg c r) ∗ Pipeline.prefHeld (Ix := Unit) (Name := ℕ) (U := UR sig nD τ) (Lvl := ℕ) pre18 c (fun _ => fullShare) (tbl18 m))
  Z c := Pipeline.unscopedRestP (Ix := Unit) (Name := ℕ) (U := UR sig nD τ) (Lvl := ℕ) pre18 spec18 c (V36 m hR c)
  hentry c := by
    rw [Pipeline.ownSems0_none]
    have hsplit := Pipeline.arrays_of_unscopedBufs (p := 18) (pcfgs (F := F)) (adm m hR) (pdats m hR) (launch18 (F := F)).win (launch18 (F := F)).arr_whole c
      ((pdats m hR 18 c).share_full fun _ => rfl) (V36 m hR c) fun _ => rfl
    rw [Pipeline.unscopedBufs_held, restSplit18 m hR c] at hsplit
    iintro ⟨⟨Hub, Hp, HO⟩, -, -⟩
    ihave H := hsplit $$ Hub
    icases H with ⟨Ha, Ht, Hrest⟩
    imodintro
    isplitl [Ha]; · iexact Ha
    isplitl [Ht]; · iexact Ht
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m hR 18 c).Φ 0 = iprop(Pipeline.ΦA spec18 c ∗ Pipeline.prefHeld (Ix := Unit) (Name := ℕ) (U := UR sig nD τ) (Lvl := ℕ) pre18 c (fun _ => fullShare) (tbl18 m)) from rfl]
    unfold Pipeline.ΦA
    iintro ⟨Hp, Ht, Hr⟩
    isplitl [Hr Hp]
    · isplitl [Hr]; · iexact Hr
      iexact Hp
    iexact Ht
  hout c := by
    rw [Pipeline.ownSems0_none, show (pdats m hR 18 c).Φ (Fin.last _) = iprop(Pipeline.ΦA spec18 c ∗ Pipeline.prefHeld (Ix := Unit) (Name := ℕ) (U := UR sig nD τ) (Lvl := ℕ) pre18 c (fun _ => fullShare) (tbl18 m)) from rfl]
    unfold Pipeline.ΦA
    iintro ⟨⟨Hr, Hp⟩, Ht⟩
    isplitl [Hp Ht]
    · isplitl [Hp]; · iexact Hp
      iexact Ht
    isplitr; · iempintro
    iexact Hr
  hexit c := by
    have hjoin := Pipeline.unscopedBufs_of_arrays (p := 18) (pcfgs (F := F)) (adm m hR) (Ix := Unit) (Name := ℕ) (U := UR sig nD τ) (Lvl := ℕ)
      (launch18 (F := F)).win (launch18 (F := F)).arr_whole c (pdats m hR) ((pdats m hR 18 c).share_full fun _ => rfl)
      (V36 m hR c) (V37 m hR c) ((pdats m hR 18 c).arrAt · (cfg18 (a18 m hR)).N) (hF18 m hR c) (hrest18 m hR c)
    rw [Pipeline.unscopedBufs_held, restSplit18 m hR c] at hjoin
    iintro ⟨Ha, HO, ⟨Hp, Ht⟩, Hrest⟩
    imodintro
    isplitl [Ha Ht Hrest]
    · iapply hjoin
      isplitl [Ha]; · iexact Ha
      isplitl [Ht]; · iexact Ht
      iexact Hrest
    isplitl [Hp]; · iexact Hp
    unfold Pipeline.Dat.owesAt Pipeline.owesWithin
    icases HO with ⟨%W, -, HO⟩; iexists W; iexact HO

end Reg

end Cert.KernelIdeal.Hand

end
-- ==== Proof.KI.Reg19.lean ====
/-
  Gather call 19 as a segment of @main: entered from every unscoped buffer at the fold's contents before it and the
  rest (generator register, nothing owed), left at the contents after it. At entry the call's three arrays and its two
  index tables are split out of the unscoped buffers; the tables — which hold, by the fold, the slices of the
  launch-time endpoint arrays the admissible contents were read from — join the pipeline's invariant beside the
  scoped rest and the generator register, and come back out of it at the end; at exit arrays, tables and the
  remaining buffers are put back together at the exit contents.
-/
import proofs.«413139_j22651657519351_3_alg».proof.Proof.Gen.KernelIdeal.Launch
import proofs.«413139_j22651657519351_3_alg».proof.Proof.Gen.KernelIdeal.Skeleton
import proofs.«413139_j22651657519351_3_alg».proof.Proof.Gen.KernelIdeal.Points
import proofs.«413139_j22651657519351_3_alg».proof.Proof.KI.Fold
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Reg

variable (m : (ℓ : Loc nD τ sig) → Buf (Elt F) ℓ) (hR : InRange m)

/-- At the call's entry its two tables hold the slices of the launch-time endpoint arrays: the stretch before it
    wrote them from the argument arrays, which nothing before had changed. -/
theorem tblHeld19 (c : Dev nD) : (fun k => V38 m hR c (pre19.ref k)) = tbl19 m := by
  obtain rfl : c = 0 := Subsingleton.elim _ _
  funext k
  match k with
  | ⟨0, _⟩ =>
    show StableHlo.after hostOps19 (W37 m hR 0) (Proc.devRef .tc main_v77) = _
    after_results
    show extractStridedSlice S40000 ![720000] (W37 m hR 0 (Proc.devRef .tc main_arg1)) slices_S800000_S40000_720000 = _
    rw [W37_arg1]; rfl
  | ⟨1, _⟩ =>
    show StableHlo.after hostOps19 (W37 m hR 0) (Proc.devRef .tc main_v78) = _
    after_results
    show extractStridedSlice S40000 ![720000] (W37 m hR 0 (Proc.devRef .tc main_arg2)) slices_S800000_S40000_720000 = _
    rw [W37_arg2]; rfl

/-- The call's unscoped rest is its two tables, held at the slices, beside the buffers that are neither array nor table. -/
theorem restSplit19 (c : Dev nD) :
    (Pipeline.unscopedRest (Ix := Unit) (Name := ℕ) (U := UR sig nD τ) (Lvl := ℕ) (Pipeline.pin (pcfgs (F := F)) (adm m hR) 19).spec c (V38 m hR c) : sProp 𝕄)
      = iprop(Pipeline.prefHeld (Ix := Unit) (Name := ℕ) (U := UR sig nD τ) (Lvl := ℕ) pre19 c (fun _ => fullShare) (tbl19 m)
          ∗ Pipeline.unscopedRestP (Ix := Unit) (Name := ℕ) (U := UR sig nD τ) (Lvl := ℕ) pre19 spec19 c (V38 m hR c)) := by
  show (Pipeline.unscopedRest (Ix := Unit) (Name := ℕ) (U := UR sig nD τ) (Lvl := ℕ) spec19 c (V38 m hR c) : sProp 𝕄) = _
  rw [Pipeline.unscopedRest_split preFacts19 c (V38 m hR c), tblHeld19 m hR c]

set_option backward.isDefEq.respectTransparency.types false in
def reg19 : Pipeline.RegionSeg (pcfgs (F := F)) (adm m hR) (pdats m hR) () defs₀ 𝒱₀ L lv 19 where
  win := (launch19 (F := F)).win.to₀
  block_pos := (launch19 (F := F)).block_pos
  stage_whole := (launch19 (F := F)).stage_whole
  K := PEmpty
  osem k := k.elim
  ho := Pipeline.OwnSemFacts.none _
  hbody c := (body_obligation19 (V38 m hR) (a19 m hR) c).loose
  hwaits := Pipeline.hwaits_of_owed_zero _ _ _ _ L lv 19 fun _ _ => rfl
  pre c := iprop(StableHlo.held (c : Thread nD τ) (Pipeline.ucRefs τ sig) (W38 m hR c) ∗ R c)
  post c := iprop(StableHlo.held (c : Thread nD τ) (Pipeline.ucRefs τ sig) (W39 m hR c) ∗ R c)
  X c := iprop(∃ r, prngReg c r)
  Y c := iprop((∃ r, prngReg c r) ∗ Pipeline.prefHeld (Ix := Unit) (Name := ℕ) (U := UR sig nD τ) (Lvl := ℕ) pre19 c (fun _ => fullShare) (tbl19 m))
  Z c := Pipeline.unscopedRestP (Ix := Unit) (Name := ℕ) (U := UR sig nD τ) (Lvl := ℕ) pre19 spec19 c (V38 m hR c)
  hentry c := by
    rw [Pipeline.ownSems0_none]
    have hsplit := Pipeline.arrays_of_unscopedBufs (p := 19) (pcfgs (F := F)) (adm m hR) (pdats m hR) (launch19 (F := F)).win (launch19 (F := F)).arr_whole c
      ((pdats m hR 19 c).share_full fun _ => rfl) (V38 m hR c) fun _ => rfl
    rw [Pipeline.unscopedBufs_held, restSplit19 m hR c] at hsplit
    iintro ⟨⟨Hub, Hp, HO⟩, -, -⟩
    ihave H := hsplit $$ Hub
    icases H with ⟨Ha, Ht, Hrest⟩
    imodintro
    isplitl [Ha]; · iexact Ha
    isplitl [Ht]; · iexact Ht
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m hR 19 c).Φ 0 = iprop(Pipeline.ΦA spec19 c ∗ Pipeline.prefHeld (Ix := Unit) (Name := ℕ) (U := UR sig nD τ) (Lvl := ℕ) pre19 c (fun _ => fullShare) (tbl19 m)) from rfl]
    unfold Pipeline.ΦA
    iintro ⟨Hp, Ht, Hr⟩
    isplitl [Hr Hp]
    · isplitl [Hr]; · iexact Hr
      iexact Hp
    iexact Ht
  hout c := by
    rw [Pipeline.ownSems0_none, show (pdats m hR 19 c).Φ (Fin.last _) = iprop(Pipeline.ΦA spec19 c ∗ Pipeline.prefHeld (Ix := Unit) (Name := ℕ) (U := UR sig nD τ) (Lvl := ℕ) pre19 c (fun _ => fullShare) (tbl19 m)) from rfl]
    unfold Pipeline.ΦA
    iintro ⟨⟨Hr, Hp⟩, Ht⟩
    isplitl [Hp Ht]
    · isplitl [Hp]; · iexact Hp
      iexact Ht
    isplitr; · iempintro
    iexact Hr
  hexit c := by
    have hjoin := Pipeline.unscopedBufs_of_arrays (p := 19) (pcfgs (F := F)) (adm m hR) (Ix := Unit) (Name := ℕ) (U := UR sig nD τ) (Lvl := ℕ)
      (launch19 (F := F)).win (launch19 (F := F)).arr_whole c (pdats m hR) ((pdats m hR 19 c).share_full fun _ => rfl)
      (V38 m hR c) (V39 m hR c) ((pdats m hR 19 c).arrAt · (cfg19 (a19 m hR)).N) (hF19 m hR c) (hrest19 m hR c)
    rw [Pipeline.unscopedBufs_held, restSplit19 m hR c] at hjoin
    iintro ⟨Ha, HO, ⟨Hp, Ht⟩, Hrest⟩
    imodintro
    isplitl [Ha Ht Hrest]
    · iapply hjoin
      isplitl [Ha]; · iexact Ha
      isplitl [Ht]; · iexact Ht
      iexact Hrest
    isplitl [Hp]; · iexact Hp
    unfold Pipeline.Dat.owesAt Pipeline.owesWithin
    icases HO with ⟨%W, -, HO⟩; iexists W; iexact HO

end Reg

end Cert.KernelIdeal.Hand

end
-- ==== Proof.KI.Reg20.lean ====
/-
  Gather call 20 as a segment of @main: entered from every unscoped buffer at the fold's contents before it and the
  rest (generator register, nothing owed), left at the contents after it. At entry the call's three arrays and its two
  index tables are split out of the unscoped buffers; the tables — which hold, by the fold, the slices of the
  launch-time endpoint arrays the admissible contents were read from — join the pipeline's invariant beside the
  scoped rest and the generator register, and come back out of it at the end; at exit arrays, tables and the
  remaining buffers are put back together at the exit contents.
-/
import proofs.«413139_j22651657519351_3_alg».proof.Proof.Gen.KernelIdeal.Launch
import proofs.«413139_j22651657519351_3_alg».proof.Proof.Gen.KernelIdeal.Skeleton
import proofs.«413139_j22651657519351_3_alg».proof.Proof.Gen.KernelIdeal.Points
import proofs.«413139_j22651657519351_3_alg».proof.Proof.KI.Fold
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Reg

variable (m : (ℓ : Loc nD τ sig) → Buf (Elt F) ℓ) (hR : InRange m)

/-- At the call's entry its two tables hold the slices of the launch-time endpoint arrays: the stretch before it
    wrote them from the argument arrays, which nothing before had changed. -/
theorem tblHeld20 (c : Dev nD) : (fun k => V40 m hR c (pre20.ref k)) = tbl20 m := by
  obtain rfl : c = 0 := Subsingleton.elim _ _
  funext k
  match k with
  | ⟨0, _⟩ =>
    show StableHlo.after hostOps20 (W39 m hR 0) (Proc.devRef .tc main_v81) = _
    after_results
    show extractStridedSlice S40000 ![760000] (W39 m hR 0 (Proc.devRef .tc main_arg1)) slices_S800000_S40000_760000 = _
    rw [W39_arg1]; rfl
  | ⟨1, _⟩ =>
    show StableHlo.after hostOps20 (W39 m hR 0) (Proc.devRef .tc main_v82) = _
    after_results
    show extractStridedSlice S40000 ![760000] (W39 m hR 0 (Proc.devRef .tc main_arg2)) slices_S800000_S40000_760000 = _
    rw [W39_arg2]; rfl

/-- The call's unscoped rest is its two tables, held at the slices, beside the buffers that are neither array nor table. -/
theorem restSplit20 (c : Dev nD) :
    (Pipeline.unscopedRest (Ix := Unit) (Name := ℕ) (U := UR sig nD τ) (Lvl := ℕ) (Pipeline.pin (pcfgs (F := F)) (adm m hR) 20).spec c (V40 m hR c) : sProp 𝕄)
      = iprop(Pipeline.prefHeld (Ix := Unit) (Name := ℕ) (U := UR sig nD τ) (Lvl := ℕ) pre20 c (fun _ => fullShare) (tbl20 m)
          ∗ Pipeline.unscopedRestP (Ix := Unit) (Name := ℕ) (U := UR sig nD τ) (Lvl := ℕ) pre20 spec20 c (V40 m hR c)) := by
  show (Pipeline.unscopedRest (Ix := Unit) (Name := ℕ) (U := UR sig nD τ) (Lvl := ℕ) spec20 c (V40 m hR c) : sProp 𝕄) = _
  rw [Pipeline.unscopedRest_split preFacts20 c (V40 m hR c), tblHeld20 m hR c]

set_option backward.isDefEq.respectTransparency.types false in
def reg20 : Pipeline.RegionSeg (pcfgs (F := F)) (adm m hR) (pdats m hR) () defs₀ 𝒱₀ L lv 20 where
  win := (launch20 (F := F)).win.to₀
  block_pos := (launch20 (F := F)).block_pos
  stage_whole := (launch20 (F := F)).stage_whole
  K := PEmpty
  osem k := k.elim
  ho := Pipeline.OwnSemFacts.none _
  hbody c := (body_obligation20 (V40 m hR) (a20 m hR) c).loose
  hwaits := Pipeline.hwaits_of_owed_zero _ _ _ _ L lv 20 fun _ _ => rfl
  pre c := iprop(StableHlo.held (c : Thread nD τ) (Pipeline.ucRefs τ sig) (W40 m hR c) ∗ R c)
  post c := iprop(StableHlo.held (c : Thread nD τ) (Pipeline.ucRefs τ sig) (W41 m hR c) ∗ R c)
  X c := iprop(∃ r, prngReg c r)
  Y c := iprop((∃ r, prngReg c r) ∗ Pipeline.prefHeld (Ix := Unit) (Name := ℕ) (U := UR sig nD τ) (Lvl := ℕ) pre20 c (fun _ => fullShare) (tbl20 m))
  Z c := Pipeline.unscopedRestP (Ix := Unit) (Name := ℕ) (U := UR sig nD τ) (Lvl := ℕ) pre20 spec20 c (V40 m hR c)
  hentry c := by
    rw [Pipeline.ownSems0_none]
    have hsplit := Pipeline.arrays_of_unscopedBufs (p := 20) (pcfgs (F := F)) (adm m hR) (pdats m hR) (launch20 (F := F)).win (launch20 (F := F)).arr_whole c
      ((pdats m hR 20 c).share_full fun _ => rfl) (V40 m hR c) fun _ => rfl
    rw [Pipeline.unscopedBufs_held, restSplit20 m hR c] at hsplit
    iintro ⟨⟨Hub, Hp, HO⟩, -, -⟩
    ihave H := hsplit $$ Hub
    icases H with ⟨Ha, Ht, Hrest⟩
    imodintro
    isplitl [Ha]; · iexact Ha
    isplitl [Ht]; · iexact Ht
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m hR 20 c).Φ 0 = iprop(Pipeline.ΦA spec20 c ∗ Pipeline.prefHeld (Ix := Unit) (Name := ℕ) (U := UR sig nD τ) (Lvl := ℕ) pre20 c (fun _ => fullShare) (tbl20 m)) from rfl]
    unfold Pipeline.ΦA
    iintro ⟨Hp, Ht, Hr⟩
    isplitl [Hr Hp]
    · isplitl [Hr]; · iexact Hr
      iexact Hp
    iexact Ht
  hout c := by
    rw [Pipeline.ownSems0_none, show (pdats m hR 20 c).Φ (Fin.last _) = iprop(Pipeline.ΦA spec20 c ∗ Pipeline.prefHeld (Ix := Unit) (Name := ℕ) (U := UR sig nD τ) (Lvl := ℕ) pre20 c (fun _ => fullShare) (tbl20 m)) from rfl]
    unfold Pipeline.ΦA
    iintro ⟨⟨Hr, Hp⟩, Ht⟩
    isplitl [Hp Ht]
    · isplitl [Hp]; · iexact Hp
      iexact Ht
    isplitr; · iempintro
    iexact Hr
  hexit c := by
    have hjoin := Pipeline.unscopedBufs_of_arrays (p := 20) (pcfgs (F := F)) (adm m hR) (Ix := Unit) (Name := ℕ) (U := UR sig nD τ) (Lvl := ℕ)
      (launch20 (F := F)).win (launch20 (F := F)).arr_whole c (pdats m hR) ((pdats m hR 20 c).share_full fun _ => rfl)
      (V40 m hR c) (V41 m hR c) ((pdats m hR 20 c).arrAt · (cfg20 (a20 m hR)).N) (hF20 m hR c) (hrest20 m hR c)
    rw [Pipeline.unscopedBufs_held, restSplit20 m hR c] at hjoin
    iintro ⟨Ha, HO, ⟨Hp, Ht⟩, Hrest⟩
    imodintro
    isplitl [Ha Ht Hrest]
    · iapply hjoin
      isplitl [Ha]; · iexact Ha
      isplitl [Ht]; · iexact Ht
      iexact Hrest
    isplitl [Hp]; · iexact Hp
    unfold Pipeline.Dat.owesAt Pipeline.owesWithin
    icases HO with ⟨%W, -, HO⟩; iexists W; iexact HO

end Reg

end Cert.KernelIdeal.Hand

end
-- ==== Proof.KI.Run.lean ====
/-
  The launch of @main. The program is 42 items in order: pallas_call K (K = 0 … 20) followed by host stretch K + 1.
  Each item is a segment between two boundaries of the fold: entered from every unscoped buffer at the contents of the
  boundary before it, left at the contents of the boundary after it, the generator register and the core's dues (none)
  riding along. The segments' thread states chain — each is entered from exactly what the one before it left, a host
  stretch's exit contents being the next boundary's by definition — so the several-region launch theorem runs @main from
  the launch memory to the last boundary, and the final memory is read off the last thread state: every unscoped
  buffer holds the last boundary's contents; in particular the five argument arrays are as launched.
-/
import proofs.«413139_j22651657519351_3_alg».proof.Proof.KI.Reg0
import proofs.«413139_j22651657519351_3_alg».proof.Proof.KI.Reg1
import proofs.«413139_j22651657519351_3_alg».proof.Proof.KI.Reg2
import proofs.«413139_j22651657519351_3_alg».proof.Proof.KI.Reg3
import proofs.«413139_j22651657519351_3_alg».proof.Proof.KI.Reg4
import proofs.«413139_j22651657519351_3_alg».proof.Proof.KI.Reg5
import proofs.«413139_j22651657519351_3_alg».proof.Proof.KI.Reg6
import proofs.«413139_j22651657519351_3_alg».proof.Proof.KI.Reg7
import proofs.«413139_j22651657519351_3_alg».proof.Proof.KI.Reg8
import proofs.«413139_j22651657519351_3_alg».proof.Proof.KI.Reg9
import proofs.«413139_j22651657519351_3_alg».proof.Proof.KI.Reg10
import proofs.«413139_j22651657519351_3_alg».proof.Proof.KI.Reg11
import proofs.«413139_j22651657519351_3_alg».proof.Proof.KI.Reg12
import proofs.«413139_j22651657519351_3_alg».proof.Proof.KI.Reg13
import proofs.«413139_j22651657519351_3_alg».proof.Proof.KI.Reg14
import proofs.«413139_j22651657519351_3_alg».proof.Proof.KI.Reg15
import proofs.«413139_j22651657519351_3_alg».proof.Proof.KI.Reg16
import proofs.«413139_j22651657519351_3_alg».proof.Proof.KI.Reg17
import proofs.«413139_j22651657519351_3_alg».proof.Proof.KI.Reg18
import proofs.«413139_j22651657519351_3_alg».proof.Proof.KI.Reg19
import proofs.«413139_j22651657519351_3_alg».proof.Proof.KI.Reg20
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Run

variable (m : (ℓ : Loc nD τ sig) → Buf (Elt F) ℓ) (hR : InRange m) (ρ : Dev nD → PrngReg)

/-- @main's 42 segments in order: pallas_call K as the region record entered from boundary 2K and left at boundary
    2K + 1, then host stretch K + 1 from boundary 2K + 1's contents. -/
abbrev segs : List (Pipeline.Seg (pcfgs (F := F)) (adm m hR) (pdats m hR) () defs₀ 𝒱₀ L lv) :=
  [ .region (reg0 m hR),
    .host (hseg hostOps1 hostOps1_sub hostOps1_fresh (W1 m hR)),
    .region (reg1 m hR),
    .host (hseg hostOps2 hostOps2_sub hostOps2_fresh (W3 m hR)),
    .region (reg2 m hR),
    .host (hseg hostOps3 hostOps3_sub hostOps3_fresh (W5 m hR)),
    .region (reg3 m hR),
    .host (hseg hostOps4 hostOps4_sub hostOps4_fresh (W7 m hR)),
    .region (reg4 m hR),
    .host (hseg hostOps5 hostOps5_sub hostOps5_fresh (W9 m hR)),
    .region (reg5 m hR),
    .host (hseg hostOps6 hostOps6_sub hostOps6_fresh (W11 m hR)),
    .region (reg6 m hR),
    .host (hseg hostOps7 hostOps7_sub hostOps7_fresh (W13 m hR)),
    .region (reg7 m hR),
    .host (hseg hostOps8 hostOps8_sub hostOps8_fresh (W15 m hR)),
    .region (reg8 m hR),
    .host (hseg hostOps9 hostOps9_sub hostOps9_fresh (W17 m hR)),
    .region (reg9 m hR),
    .host (hseg hostOps10 hostOps10_sub hostOps10_fresh (W19 m hR)),
    .region (reg10 m hR),
    .host (hseg hostOps11 hostOps11_sub hostOps11_fresh (W21 m hR)),
    .region (reg11 m hR),
    .host (hseg hostOps12 hostOps12_sub hostOps12_fresh (W23 m hR)),
    .region (reg12 m hR),
    .host (hseg hostOps13 hostOps13_sub hostOps13_fresh (W25 m hR)),
    .region (reg13 m hR),
    .host (hseg hostOps14 hostOps14_sub hostOps14_fresh (W27 m hR)),
    .region (reg14 m hR),
    .host (hseg hostOps15 hostOps15_sub hostOps15_fresh (W29 m hR)),
    .region (reg15 m hR),
    .host (hseg hostOps16 hostOps16_sub hostOps16_fresh (W31 m hR)),
    .region (reg16 m hR),
    .host (hseg hostOps17 hostOps17_sub hostOps17_fresh (W33 m hR)),
    .region (reg17 m hR),
    .host (hseg hostOps18 hostOps18_sub hostOps18_fresh (W35 m hR)),
    .region (reg18 m hR),
    .host (hseg hostOps19 hostOps19_sub hostOps19_fresh (W37 m hR)),
    .region (reg19 m hR),
    .host (hseg hostOps20 hostOps20_sub hostOps20_fresh (W39 m hR)),
    .region (reg20 m hR),
    .host (hseg hostOps21 hostOps21_sub hostOps21_fresh (W41 m hR)) ]

/-- The last thread state without the dues: every unscoped buffer at the last boundary's contents, the generator
    register at some state. -/
abbrev Tₙ (c : Dev nD) : sProp 𝕄 :=
  iprop(StableHlo.held (c : Thread nD τ) (Pipeline.ucRefs τ sig) (W42 m hR c) ∗ ∃ r, prngReg c r)

/-- The segments' fragments, in order, are the items of @main's chain. -/
theorem segs_progs : (segs m hR).map Pipeline.Seg.prog = [
          Prog.lift (.customCall (Pipeline.entry 0) ()),
          StableHlo.seq hostOps1,
          Prog.lift (.customCall (Pipeline.entry 1) ()),
          StableHlo.seq hostOps2,
          Prog.lift (.customCall (Pipeline.entry 2) ()),
          StableHlo.seq hostOps3,
          Prog.lift (.customCall (Pipeline.entry 3) ()),
          StableHlo.seq hostOps4,
          Prog.lift (.customCall (Pipeline.entry 4) ()),
          StableHlo.seq hostOps5,
          Prog.lift (.customCall (Pipeline.entry 5) ()),
          StableHlo.seq hostOps6,
          Prog.lift (.customCall (Pipeline.entry 6) ()),
          StableHlo.seq hostOps7,
          Prog.lift (.customCall (Pipeline.entry 7) ()),
          StableHlo.seq hostOps8,
          Prog.lift (.customCall (Pipeline.entry 8) ()),
          StableHlo.seq hostOps9,
          Prog.lift (.customCall (Pipeline.entry 9) ()),
          StableHlo.seq hostOps10,
          Prog.lift (.customCall (Pipeline.entry 10) ()),
          StableHlo.seq hostOps11,
          Prog.lift (.customCall (Pipeline.entry 11) ()),
          StableHlo.seq hostOps12,
          Prog.lift (.customCall (Pipeline.entry 12) ()),
          StableHlo.seq hostOps13,
          Prog.lift (.customCall (Pipeline.entry 13) ()),
          StableHlo.seq hostOps14,
          Prog.lift (.customCall (Pipeline.entry 14) ()),
          StableHlo.seq hostOps15,
          Prog.lift (.customCall (Pipeline.entry 15) ()),
          StableHlo.seq hostOps16,
          Prog.lift (.customCall (Pipeline.entry 16) ()),
          StableHlo.seq hostOps17,
          Prog.lift (.customCall (Pipeline.entry 17) ()),
          StableHlo.seq hostOps18,
          Prog.lift (.customCall (Pipeline.entry 18) ()),
          StableHlo.seq hostOps19,
          Prog.lift (.customCall (Pipeline.entry 19) ()),
          StableHlo.seq hostOps20,
          Prog.lift (.customCall (Pipeline.entry 20) ()),
          StableHlo.seq hostOps21 ] := rfl

/-- Running the segments is running @main. -/
theorem main_run (c : Dev nD) : main (F := F) c = Pipeline.Seg.run (segs m hR) := by
  rw [main_chain c, Pipeline.Seg.run_eq_chain, segs_progs m hR]

/-- The 21 regions enter 21 different pipelines. -/
theorem segs_nodup : (Pipeline.Seg.pipes (segs m hR)).Nodup := by
  simp only [segs, Pipeline.Seg.pipes_host, Pipeline.Seg.pipes_region, Pipeline.Seg.pipes_nil]; decide

-- the launch theorem's implicit arguments are found by unifying its conclusion with this one, which takes unfolding
-- plain definitions in a metavariable's type
set_option backward.isDefEq.respectTransparency.types false in
/-- **The run of @main**: at the compiled mesh, from any in-range memory with zero counters, every weakly fair execution
    of @main on the TensorCores terminates, nothing faulting, and in every final state each unscoped buffer holds the
    fold's last contents. The thread states chain boundary by boundary (43 entailments, each an identity but the last,
    which moves the generator register from beside the dues to beside the buffers); the launch makes the first thread
    state out of the launch memory; the last thread state is read against the final memory. -/
theorem run : θ_run defs (onTc (τ := τ) (main (F := F))) ⟨m, fun _ => 0, ρ⟩
    (fun r => ∀ c : Dev nD, ∀ b ∈ Pipeline.ucRefs τ sig, r.2.mem (((c : Thread nD τ)).1, b) = W42 m hR c b) :=
  Pipeline.θ_run_regions_kit (pcfgs (F := F)) (adm m hR) (pdats m hR) () (cellOf_inj (adm m hR)) emb₁ defs₀ 𝒱₀ L lv m ρ main (segs m hR)
    (fun c Q => by rw [main_run m hR c])
    (segs_nodup m hR)
    (O₀ := 0) (hL := fun _ _ => rfl) (G := fun _ => iprop(emp))
    (u₀ := initOf (Pipeline.cells (Pipeline.pin (pcfgs (F := F)) (adm m hR)) (cellOf_inj (adm m hR))) (Pipeline.launchToks (Pipeline.pin (pcfgs (F := F)) (adm m hR)) (cellOf_inj (adm m hR))))
    (hu₀ := by
      iintro Hu; imodintro
      isplitl [Hu]
      · iapply (show (ownU (initOf (Pipeline.cells (Pipeline.pin (pcfgs (F := F)) (adm m hR)) (cellOf_inj (adm m hR))) (Pipeline.launchToks (Pipeline.pin (pcfgs (F := F)) (adm m hR)) (cellOf_inj (adm m hR)))) : sProp 𝕄)
            ⊢ BI.own (emb₁ (initOf (Pipeline.cells (Pipeline.pin (pcfgs (F := F)) (adm m hR)) (cellOf_inj (adm m hR))) (Pipeline.launchToks (Pipeline.pin (pcfgs (F := F)) (adm m hR)) (cellOf_inj (adm m hR))))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m hR c) ∗ R c)) (Tₙ := Tₙ m hR)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl,
      fun c => show (iprop(StableHlo.held (c : Thread nD τ) (Pipeline.ucRefs τ sig) (W42 m hR c) ∗ (∃ r, prngReg c r) ∗ ∃ W, owes (c : Thread nD τ) (0 : CellTallies nD τ sig Unit) W) : sProp 𝕄)
          ⊢ iprop((StableHlo.held (c : Thread nD τ) (Pipeline.ucRefs τ sig) (W42 m hR c) ∗ ∃ r, prngReg c r) ∗ ∃ W, owes (c : Thread nD τ) (0 : CellTallies nD τ sig Unit) W) from by
        iintro ⟨Hh, Hp, HO⟩
        isplitl [Hh Hp]
        · isplitl [Hh]; · iexact Hh
          iexact Hp
        iexact HO⟩)
    (hinit := by
      refine Pipeline.initEach L lv fun c => ?_
      rw [show unscopedBufs c (fun b => m ((c : Thread nD τ).loc b)) = StableHlo.held (c : Thread nD τ) (Pipeline.ucRefs τ sig) (W0 m hR c)
        from Pipeline.unscopedBufs_held c (W0 m hR c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W42 m hR c b)
    (hfin := fun c s' => by
      iintro ⟨⟨Hh, -⟩, HSI⟩
      unfold StableHlo.held
      imodintro
      iapply (pointsTo_read_all (Pipeline.ucRefs τ sig) (fun b => (((c : Thread nD τ)).1, b)) (W42 m hR c) s')
      isplitl [Hh] <;> iassumption)
    (hQ := fun s h => h)

/-- **The run of @main, its arrays by name**: in every final state the result array holds the fold's last contents of
    it, and each of the five argument arrays is as launched (no item writes an argument array). -/
theorem run_args : θ_run defs (onTc (τ := τ) (main (F := F))) ⟨m, fun _ => 0, ρ⟩ (fun r => ∀ c : Dev nD,
      r.2.mem ((c.tc : Thread nD τ).loc main_v89) = W42 m hR c main_v89
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run _ _ _).mono (fun r h c =>
    ⟨h c _ (mem_uc main_v89 (by decide)),
     (h c _ (mem_uc main_arg0 (by decide))).trans (W42_arg0 m hR c),
     (h c _ (mem_uc main_arg1 (by decide))).trans (W42_arg1 m hR c),
     (h c _ (mem_uc main_arg2 (by decide))).trans (W42_arg2 m hR c),
     (h c _ (mem_uc main_arg3 (by decide))).trans (W42_arg3 m hR c),
     (h c _ (mem_uc main_arg4 (by decide))).trans (W42_arg4 m hR c)⟩) (run m hR ρ)

end Run

end Cert.KernelIdeal.Hand

end
-- ==== Proof.KI.Walk.lean ====
/-
  Survival through the fold: a buffer that one item writes and no later item touches holds, at every later boundary,
  what it held when written. Two families of facts, one line each, by one step (a host stretch that does not write
  the buffer; a gather call for which it is an input array, or no array at all) and the fact at the boundary before.
-/
import proofs.«413139_j22651657519351_3_alg».proof.Proof.Gen.KernelIdeal.Launch
import proofs.«413139_j22651657519351_3_alg».proof.Proof.Gen.KernelIdeal.Skeleton
import proofs.«413139_j22651657519351_3_alg».proof.Proof.Gen.KernelIdeal.Points
import proofs.«413139_j22651657519351_3_alg».proof.Proof.KI.Fold
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Walk

variable (m : (ℓ : Loc nD τ sig) → Buf (Elt F) ℓ)

theorem W2_v2 (hR : InRange m) (c : Dev nD) : W2 m hR c main_v2 = W2 m hR c main_v2 := rfl
theorem W3_v2 (hR : InRange m) (c : Dev nD) : W3 m hR c main_v2 = W2 m hR c main_v2 := (W3_in m hR c 0 rfl).trans (W2_v2 m hR c)
theorem W4_v2 (hR : InRange m) (c : Dev nD) : W4 m hR c main_v2 = W2 m hR c main_v2 := (W4_of m hR c main_v2 (by decide)).trans (W3_v2 m hR c)
theorem W5_v2 (hR : InRange m) (c : Dev nD) : W5 m hR c main_v2 = W2 m hR c main_v2 := (W5_in m hR c 0 rfl).trans (W4_v2 m hR c)
theorem W6_v2 (hR : InRange m) (c : Dev nD) : W6 m hR c main_v2 = W2 m hR c main_v2 := (W6_of m hR c main_v2 (by decide)).trans (W5_v2 m hR c)
theorem W7_v2 (hR : InRange m) (c : Dev nD) : W7 m hR c main_v2 = W2 m hR c main_v2 := (W7_in m hR c 0 rfl).trans (W6_v2 m hR c)
theorem W8_v2 (hR : InRange m) (c : Dev nD) : W8 m hR c main_v2 = W2 m hR c main_v2 := (W8_of m hR c main_v2 (by decide)).trans (W7_v2 m hR c)
theorem W9_v2 (hR : InRange m) (c : Dev nD) : W9 m hR c main_v2 = W2 m hR c main_v2 := (W9_in m hR c 0 rfl).trans (W8_v2 m hR c)
theorem W10_v2 (hR : InRange m) (c : Dev nD) : W10 m hR c main_v2 = W2 m hR c main_v2 := (W10_of m hR c main_v2 (by decide)).trans (W9_v2 m hR c)
theorem W11_v2 (hR : InRange m) (c : Dev nD) : W11 m hR c main_v2 = W2 m hR c main_v2 := (W11_in m hR c 0 rfl).trans (W10_v2 m hR c)
theorem W12_v2 (hR : InRange m) (c : Dev nD) : W12 m hR c main_v2 = W2 m hR c main_v2 := (W12_of m hR c main_v2 (by decide)).trans (W11_v2 m hR c)
theorem W13_v2 (hR : InRange m) (c : Dev nD) : W13 m hR c main_v2 = W2 m hR c main_v2 := (W13_in m hR c 0 rfl).trans (W12_v2 m hR c)
theorem W14_v2 (hR : InRange m) (c : Dev nD) : W14 m hR c main_v2 = W2 m hR c main_v2 := (W14_of m hR c main_v2 (by decide)).trans (W13_v2 m hR c)
theorem W15_v2 (hR : InRange m) (c : Dev nD) : W15 m hR c main_v2 = W2 m hR c main_v2 := (W15_in m hR c 0 rfl).trans (W14_v2 m hR c)
theorem W16_v2 (hR : InRange m) (c : Dev nD) : W16 m hR c main_v2 = W2 m hR c main_v2 := (W16_of m hR c main_v2 (by decide)).trans (W15_v2 m hR c)
theorem W17_v2 (hR : InRange m) (c : Dev nD) : W17 m hR c main_v2 = W2 m hR c main_v2 := (W17_in m hR c 0 rfl).trans (W16_v2 m hR c)
theorem W18_v2 (hR : InRange m) (c : Dev nD) : W18 m hR c main_v2 = W2 m hR c main_v2 := (W18_of m hR c main_v2 (by decide)).trans (W17_v2 m hR c)
theorem W19_v2 (hR : InRange m) (c : Dev nD) : W19 m hR c main_v2 = W2 m hR c main_v2 := (W19_in m hR c 0 rfl).trans (W18_v2 m hR c)
theorem W20_v2 (hR : InRange m) (c : Dev nD) : W20 m hR c main_v2 = W2 m hR c main_v2 := (W20_of m hR c main_v2 (by decide)).trans (W19_v2 m hR c)
theorem W21_v2 (hR : InRange m) (c : Dev nD) : W21 m hR c main_v2 = W2 m hR c main_v2 := (W21_in m hR c 0 rfl).trans (W20_v2 m hR c)
theorem W22_v2 (hR : InRange m) (c : Dev nD) : W22 m hR c main_v2 = W2 m hR c main_v2 := (W22_of m hR c main_v2 (by decide)).trans (W21_v2 m hR c)
theorem W23_v2 (hR : InRange m) (c : Dev nD) : W23 m hR c main_v2 = W2 m hR c main_v2 := (W23_in m hR c 0 rfl).trans (W22_v2 m hR c)
theorem W24_v2 (hR : InRange m) (c : Dev nD) : W24 m hR c main_v2 = W2 m hR c main_v2 := (W24_of m hR c main_v2 (by decide)).trans (W23_v2 m hR c)
theorem W25_v2 (hR : InRange m) (c : Dev nD) : W25 m hR c main_v2 = W2 m hR c main_v2 := (W25_in m hR c 0 rfl).trans (W24_v2 m hR c)
theorem W26_v2 (hR : InRange m) (c : Dev nD) : W26 m hR c main_v2 = W2 m hR c main_v2 := (W26_of m hR c main_v2 (by decide)).trans (W25_v2 m hR c)
theorem W27_v2 (hR : InRange m) (c : Dev nD) : W27 m hR c main_v2 = W2 m hR c main_v2 := (W27_in m hR c 0 rfl).trans (W26_v2 m hR c)
theorem W28_v2 (hR : InRange m) (c : Dev nD) : W28 m hR c main_v2 = W2 m hR c main_v2 := (W28_of m hR c main_v2 (by decide)).trans (W27_v2 m hR c)
theorem W29_v2 (hR : InRange m) (c : Dev nD) : W29 m hR c main_v2 = W2 m hR c main_v2 := (W29_in m hR c 0 rfl).trans (W28_v2 m hR c)
theorem W30_v2 (hR : InRange m) (c : Dev nD) : W30 m hR c main_v2 = W2 m hR c main_v2 := (W30_of m hR c main_v2 (by decide)).trans (W29_v2 m hR c)
theorem W31_v2 (hR : InRange m) (c : Dev nD) : W31 m hR c main_v2 = W2 m hR c main_v2 := (W31_in m hR c 0 rfl).trans (W30_v2 m hR c)
theorem W32_v2 (hR : InRange m) (c : Dev nD) : W32 m hR c main_v2 = W2 m hR c main_v2 := (W32_of m hR c main_v2 (by decide)).trans (W31_v2 m hR c)
theorem W33_v2 (hR : InRange m) (c : Dev nD) : W33 m hR c main_v2 = W2 m hR c main_v2 := (W33_in m hR c 0 rfl).trans (W32_v2 m hR c)
theorem W34_v2 (hR : InRange m) (c : Dev nD) : W34 m hR c main_v2 = W2 m hR c main_v2 := (W34_of m hR c main_v2 (by decide)).trans (W33_v2 m hR c)
theorem W35_v2 (hR : InRange m) (c : Dev nD) : W35 m hR c main_v2 = W2 m hR c main_v2 := (W35_in m hR c 0 rfl).trans (W34_v2 m hR c)
theorem W36_v2 (hR : InRange m) (c : Dev nD) : W36 m hR c main_v2 = W2 m hR c main_v2 := (W36_of m hR c main_v2 (by decide)).trans (W35_v2 m hR c)
theorem W37_v2 (hR : InRange m) (c : Dev nD) : W37 m hR c main_v2 = W2 m hR c main_v2 := (W37_in m hR c 0 rfl).trans (W36_v2 m hR c)
theorem W38_v2 (hR : InRange m) (c : Dev nD) : W38 m hR c main_v2 = W2 m hR c main_v2 := (W38_of m hR c main_v2 (by decide)).trans (W37_v2 m hR c)
theorem W39_v2 (hR : InRange m) (c : Dev nD) : W39 m hR c main_v2 = W2 m hR c main_v2 := (W39_in m hR c 0 rfl).trans (W38_v2 m hR c)
theorem W40_v2 (hR : InRange m) (c : Dev nD) : W40 m hR c main_v2 = W2 m hR c main_v2 := (W40_of m hR c main_v2 (by decide)).trans (W39_v2 m hR c)
theorem W2_v4 (hR : InRange m) (c : Dev nD) : W2 m hR c main_v4 = W2 m hR c main_v4 := rfl
theorem W3_v4 (hR : InRange m) (c : Dev nD) : W3 m hR c main_v4 = W2 m hR c main_v4 := (W3_in m hR c 1 rfl).trans (W2_v4 m hR c)
theorem W4_v4 (hR : InRange m) (c : Dev nD) : W4 m hR c main_v4 = W2 m hR c main_v4 := (W4_of m hR c main_v4 (by decide)).trans (W3_v4 m hR c)
theorem W5_v4 (hR : InRange m) (c : Dev nD) : W5 m hR c main_v4 = W2 m hR c main_v4 := (W5_in m hR c 1 rfl).trans (W4_v4 m hR c)
theorem W6_v4 (hR : InRange m) (c : Dev nD) : W6 m hR c main_v4 = W2 m hR c main_v4 := (W6_of m hR c main_v4 (by decide)).trans (W5_v4 m hR c)
theorem W7_v4 (hR : InRange m) (c : Dev nD) : W7 m hR c main_v4 = W2 m hR c main_v4 := (W7_in m hR c 1 rfl).trans (W6_v4 m hR c)
theorem W8_v4 (hR : InRange m) (c : Dev nD) : W8 m hR c main_v4 = W2 m hR c main_v4 := (W8_of m hR c main_v4 (by decide)).trans (W7_v4 m hR c)
theorem W9_v4 (hR : InRange m) (c : Dev nD) : W9 m hR c main_v4 = W2 m hR c main_v4 := (W9_in m hR c 1 rfl).trans (W8_v4 m hR c)
theorem W10_v4 (hR : InRange m) (c : Dev nD) : W10 m hR c main_v4 = W2 m hR c main_v4 := (W10_of m hR c main_v4 (by decide)).trans (W9_v4 m hR c)
theorem W11_v4 (hR : InRange m) (c : Dev nD) : W11 m hR c main_v4 = W2 m hR c main_v4 := (W11_in m hR c 1 rfl).trans (W10_v4 m hR c)
theorem W12_v4 (hR : InRange m) (c : Dev nD) : W12 m hR c main_v4 = W2 m hR c main_v4 := (W12_of m hR c main_v4 (by decide)).trans (W11_v4 m hR c)
theorem W13_v4 (hR : InRange m) (c : Dev nD) : W13 m hR c main_v4 = W2 m hR c main_v4 := (W13_in m hR c 1 rfl).trans (W12_v4 m hR c)
theorem W14_v4 (hR : InRange m) (c : Dev nD) : W14 m hR c main_v4 = W2 m hR c main_v4 := (W14_of m hR c main_v4 (by decide)).trans (W13_v4 m hR c)
theorem W15_v4 (hR : InRange m) (c : Dev nD) : W15 m hR c main_v4 = W2 m hR c main_v4 := (W15_in m hR c 1 rfl).trans (W14_v4 m hR c)
theorem W16_v4 (hR : InRange m) (c : Dev nD) : W16 m hR c main_v4 = W2 m hR c main_v4 := (W16_of m hR c main_v4 (by decide)).trans (W15_v4 m hR c)
theorem W17_v4 (hR : InRange m) (c : Dev nD) : W17 m hR c main_v4 = W2 m hR c main_v4 := (W17_in m hR c 1 rfl).trans (W16_v4 m hR c)
theorem W18_v4 (hR : InRange m) (c : Dev nD) : W18 m hR c main_v4 = W2 m hR c main_v4 := (W18_of m hR c main_v4 (by decide)).trans (W17_v4 m hR c)
theorem W19_v4 (hR : InRange m) (c : Dev nD) : W19 m hR c main_v4 = W2 m hR c main_v4 := (W19_in m hR c 1 rfl).trans (W18_v4 m hR c)
theorem W20_v4 (hR : InRange m) (c : Dev nD) : W20 m hR c main_v4 = W2 m hR c main_v4 := (W20_of m hR c main_v4 (by decide)).trans (W19_v4 m hR c)
theorem W21_v4 (hR : InRange m) (c : Dev nD) : W21 m hR c main_v4 = W2 m hR c main_v4 := (W21_in m hR c 1 rfl).trans (W20_v4 m hR c)
theorem W22_v4 (hR : InRange m) (c : Dev nD) : W22 m hR c main_v4 = W2 m hR c main_v4 := (W22_of m hR c main_v4 (by decide)).trans (W21_v4 m hR c)
theorem W23_v4 (hR : InRange m) (c : Dev nD) : W23 m hR c main_v4 = W2 m hR c main_v4 := (W23_in m hR c 1 rfl).trans (W22_v4 m hR c)
theorem W24_v4 (hR : InRange m) (c : Dev nD) : W24 m hR c main_v4 = W2 m hR c main_v4 := (W24_of m hR c main_v4 (by decide)).trans (W23_v4 m hR c)
theorem W25_v4 (hR : InRange m) (c : Dev nD) : W25 m hR c main_v4 = W2 m hR c main_v4 := (W25_in m hR c 1 rfl).trans (W24_v4 m hR c)
theorem W26_v4 (hR : InRange m) (c : Dev nD) : W26 m hR c main_v4 = W2 m hR c main_v4 := (W26_of m hR c main_v4 (by decide)).trans (W25_v4 m hR c)
theorem W27_v4 (hR : InRange m) (c : Dev nD) : W27 m hR c main_v4 = W2 m hR c main_v4 := (W27_in m hR c 1 rfl).trans (W26_v4 m hR c)
theorem W28_v4 (hR : InRange m) (c : Dev nD) : W28 m hR c main_v4 = W2 m hR c main_v4 := (W28_of m hR c main_v4 (by decide)).trans (W27_v4 m hR c)
theorem W29_v4 (hR : InRange m) (c : Dev nD) : W29 m hR c main_v4 = W2 m hR c main_v4 := (W29_in m hR c 1 rfl).trans (W28_v4 m hR c)
theorem W30_v4 (hR : InRange m) (c : Dev nD) : W30 m hR c main_v4 = W2 m hR c main_v4 := (W30_of m hR c main_v4 (by decide)).trans (W29_v4 m hR c)
theorem W31_v4 (hR : InRange m) (c : Dev nD) : W31 m hR c main_v4 = W2 m hR c main_v4 := (W31_in m hR c 1 rfl).trans (W30_v4 m hR c)
theorem W32_v4 (hR : InRange m) (c : Dev nD) : W32 m hR c main_v4 = W2 m hR c main_v4 := (W32_of m hR c main_v4 (by decide)).trans (W31_v4 m hR c)
theorem W33_v4 (hR : InRange m) (c : Dev nD) : W33 m hR c main_v4 = W2 m hR c main_v4 := (W33_in m hR c 1 rfl).trans (W32_v4 m hR c)
theorem W34_v4 (hR : InRange m) (c : Dev nD) : W34 m hR c main_v4 = W2 m hR c main_v4 := (W34_of m hR c main_v4 (by decide)).trans (W33_v4 m hR c)
theorem W35_v4 (hR : InRange m) (c : Dev nD) : W35 m hR c main_v4 = W2 m hR c main_v4 := (W35_in m hR c 1 rfl).trans (W34_v4 m hR c)
theorem W36_v4 (hR : InRange m) (c : Dev nD) : W36 m hR c main_v4 = W2 m hR c main_v4 := (W36_of m hR c main_v4 (by decide)).trans (W35_v4 m hR c)
theorem W37_v4 (hR : InRange m) (c : Dev nD) : W37 m hR c main_v4 = W2 m hR c main_v4 := (W37_in m hR c 1 rfl).trans (W36_v4 m hR c)
theorem W38_v4 (hR : InRange m) (c : Dev nD) : W38 m hR c main_v4 = W2 m hR c main_v4 := (W38_of m hR c main_v4 (by decide)).trans (W37_v4 m hR c)
theorem W39_v4 (hR : InRange m) (c : Dev nD) : W39 m hR c main_v4 = W2 m hR c main_v4 := (W39_in m hR c 1 rfl).trans (W38_v4 m hR c)
theorem W40_v4 (hR : InRange m) (c : Dev nD) : W40 m hR c main_v4 = W2 m hR c main_v4 := (W40_of m hR c main_v4 (by decide)).trans (W39_v4 m hR c)
theorem W4_p1 (hR : InRange m) (c : Dev nD) : W4 m hR c main_v8 = W4 m hR c main_v8 := rfl
theorem W5_p1 (hR : InRange m) (c : Dev nD) : W5 m hR c main_v8 = W4 m hR c main_v8 := (W5_of_ne m hR c main_v8 (by decide)).trans (W4_p1 m hR c)
theorem W6_p1 (hR : InRange m) (c : Dev nD) : W6 m hR c main_v8 = W4 m hR c main_v8 := (W6_of m hR c main_v8 (by decide)).trans (W5_p1 m hR c)
theorem W7_p1 (hR : InRange m) (c : Dev nD) : W7 m hR c main_v8 = W4 m hR c main_v8 := (W7_of_ne m hR c main_v8 (by decide)).trans (W6_p1 m hR c)
theorem W8_p1 (hR : InRange m) (c : Dev nD) : W8 m hR c main_v8 = W4 m hR c main_v8 := (W8_of m hR c main_v8 (by decide)).trans (W7_p1 m hR c)
theorem W9_p1 (hR : InRange m) (c : Dev nD) : W9 m hR c main_v8 = W4 m hR c main_v8 := (W9_of_ne m hR c main_v8 (by decide)).trans (W8_p1 m hR c)
theorem W10_p1 (hR : InRange m) (c : Dev nD) : W10 m hR c main_v8 = W4 m hR c main_v8 := (W10_of m hR c main_v8 (by decide)).trans (W9_p1 m hR c)
theorem W11_p1 (hR : InRange m) (c : Dev nD) : W11 m hR c main_v8 = W4 m hR c main_v8 := (W11_of_ne m hR c main_v8 (by decide)).trans (W10_p1 m hR c)
theorem W12_p1 (hR : InRange m) (c : Dev nD) : W12 m hR c main_v8 = W4 m hR c main_v8 := (W12_of m hR c main_v8 (by decide)).trans (W11_p1 m hR c)
theorem W13_p1 (hR : InRange m) (c : Dev nD) : W13 m hR c main_v8 = W4 m hR c main_v8 := (W13_of_ne m hR c main_v8 (by decide)).trans (W12_p1 m hR c)
theorem W14_p1 (hR : InRange m) (c : Dev nD) : W14 m hR c main_v8 = W4 m hR c main_v8 := (W14_of m hR c main_v8 (by decide)).trans (W13_p1 m hR c)
theorem W15_p1 (hR : InRange m) (c : Dev nD) : W15 m hR c main_v8 = W4 m hR c main_v8 := (W15_of_ne m hR c main_v8 (by decide)).trans (W14_p1 m hR c)
theorem W16_p1 (hR : InRange m) (c : Dev nD) : W16 m hR c main_v8 = W4 m hR c main_v8 := (W16_of m hR c main_v8 (by decide)).trans (W15_p1 m hR c)
theorem W17_p1 (hR : InRange m) (c : Dev nD) : W17 m hR c main_v8 = W4 m hR c main_v8 := (W17_of_ne m hR c main_v8 (by decide)).trans (W16_p1 m hR c)
theorem W18_p1 (hR : InRange m) (c : Dev nD) : W18 m hR c main_v8 = W4 m hR c main_v8 := (W18_of m hR c main_v8 (by decide)).trans (W17_p1 m hR c)
theorem W19_p1 (hR : InRange m) (c : Dev nD) : W19 m hR c main_v8 = W4 m hR c main_v8 := (W19_of_ne m hR c main_v8 (by decide)).trans (W18_p1 m hR c)
theorem W20_p1 (hR : InRange m) (c : Dev nD) : W20 m hR c main_v8 = W4 m hR c main_v8 := (W20_of m hR c main_v8 (by decide)).trans (W19_p1 m hR c)
theorem W21_p1 (hR : InRange m) (c : Dev nD) : W21 m hR c main_v8 = W4 m hR c main_v8 := (W21_of_ne m hR c main_v8 (by decide)).trans (W20_p1 m hR c)
theorem W22_p1 (hR : InRange m) (c : Dev nD) : W22 m hR c main_v8 = W4 m hR c main_v8 := (W22_of m hR c main_v8 (by decide)).trans (W21_p1 m hR c)
theorem W23_p1 (hR : InRange m) (c : Dev nD) : W23 m hR c main_v8 = W4 m hR c main_v8 := (W23_of_ne m hR c main_v8 (by decide)).trans (W22_p1 m hR c)
theorem W24_p1 (hR : InRange m) (c : Dev nD) : W24 m hR c main_v8 = W4 m hR c main_v8 := (W24_of m hR c main_v8 (by decide)).trans (W23_p1 m hR c)
theorem W25_p1 (hR : InRange m) (c : Dev nD) : W25 m hR c main_v8 = W4 m hR c main_v8 := (W25_of_ne m hR c main_v8 (by decide)).trans (W24_p1 m hR c)
theorem W26_p1 (hR : InRange m) (c : Dev nD) : W26 m hR c main_v8 = W4 m hR c main_v8 := (W26_of m hR c main_v8 (by decide)).trans (W25_p1 m hR c)
theorem W27_p1 (hR : InRange m) (c : Dev nD) : W27 m hR c main_v8 = W4 m hR c main_v8 := (W27_of_ne m hR c main_v8 (by decide)).trans (W26_p1 m hR c)
theorem W28_p1 (hR : InRange m) (c : Dev nD) : W28 m hR c main_v8 = W4 m hR c main_v8 := (W28_of m hR c main_v8 (by decide)).trans (W27_p1 m hR c)
theorem W29_p1 (hR : InRange m) (c : Dev nD) : W29 m hR c main_v8 = W4 m hR c main_v8 := (W29_of_ne m hR c main_v8 (by decide)).trans (W28_p1 m hR c)
theorem W30_p1 (hR : InRange m) (c : Dev nD) : W30 m hR c main_v8 = W4 m hR c main_v8 := (W30_of m hR c main_v8 (by decide)).trans (W29_p1 m hR c)
theorem W31_p1 (hR : InRange m) (c : Dev nD) : W31 m hR c main_v8 = W4 m hR c main_v8 := (W31_of_ne m hR c main_v8 (by decide)).trans (W30_p1 m hR c)
theorem W32_p1 (hR : InRange m) (c : Dev nD) : W32 m hR c main_v8 = W4 m hR c main_v8 := (W32_of m hR c main_v8 (by decide)).trans (W31_p1 m hR c)
theorem W33_p1 (hR : InRange m) (c : Dev nD) : W33 m hR c main_v8 = W4 m hR c main_v8 := (W33_of_ne m hR c main_v8 (by decide)).trans (W32_p1 m hR c)
theorem W34_p1 (hR : InRange m) (c : Dev nD) : W34 m hR c main_v8 = W4 m hR c main_v8 := (W34_of m hR c main_v8 (by decide)).trans (W33_p1 m hR c)
theorem W35_p1 (hR : InRange m) (c : Dev nD) : W35 m hR c main_v8 = W4 m hR c main_v8 := (W35_of_ne m hR c main_v8 (by decide)).trans (W34_p1 m hR c)
theorem W36_p1 (hR : InRange m) (c : Dev nD) : W36 m hR c main_v8 = W4 m hR c main_v8 := (W36_of m hR c main_v8 (by decide)).trans (W35_p1 m hR c)
theorem W37_p1 (hR : InRange m) (c : Dev nD) : W37 m hR c main_v8 = W4 m hR c main_v8 := (W37_of_ne m hR c main_v8 (by decide)).trans (W36_p1 m hR c)
theorem W38_p1 (hR : InRange m) (c : Dev nD) : W38 m hR c main_v8 = W4 m hR c main_v8 := (W38_of m hR c main_v8 (by decide)).trans (W37_p1 m hR c)
theorem W39_p1 (hR : InRange m) (c : Dev nD) : W39 m hR c main_v8 = W4 m hR c main_v8 := (W39_of_ne m hR c main_v8 (by decide)).trans (W38_p1 m hR c)
theorem W40_p1 (hR : InRange m) (c : Dev nD) : W40 m hR c main_v8 = W4 m hR c main_v8 := (W40_of m hR c main_v8 (by decide)).trans (W39_p1 m hR c)
theorem W41_p1 (hR : InRange m) (c : Dev nD) : W41 m hR c main_v8 = W4 m hR c main_v8 := (W41_of_ne m hR c main_v8 (by decide)).trans (W40_p1 m hR c)
theorem W6_p2 (hR : InRange m) (c : Dev nD) : W6 m hR c main_v12 = W6 m hR c main_v12 := rfl
theorem W7_p2 (hR : InRange m) (c : Dev nD) : W7 m hR c main_v12 = W6 m hR c main_v12 := (W7_of_ne m hR c main_v12 (by decide)).trans (W6_p2 m hR c)
theorem W8_p2 (hR : InRange m) (c : Dev nD) : W8 m hR c main_v12 = W6 m hR c main_v12 := (W8_of m hR c main_v12 (by decide)).trans (W7_p2 m hR c)
theorem W9_p2 (hR : InRange m) (c : Dev nD) : W9 m hR c main_v12 = W6 m hR c main_v12 := (W9_of_ne m hR c main_v12 (by decide)).trans (W8_p2 m hR c)
theorem W10_p2 (hR : InRange m) (c : Dev nD) : W10 m hR c main_v12 = W6 m hR c main_v12 := (W10_of m hR c main_v12 (by decide)).trans (W9_p2 m hR c)
theorem W11_p2 (hR : InRange m) (c : Dev nD) : W11 m hR c main_v12 = W6 m hR c main_v12 := (W11_of_ne m hR c main_v12 (by decide)).trans (W10_p2 m hR c)
theorem W12_p2 (hR : InRange m) (c : Dev nD) : W12 m hR c main_v12 = W6 m hR c main_v12 := (W12_of m hR c main_v12 (by decide)).trans (W11_p2 m hR c)
theorem W13_p2 (hR : InRange m) (c : Dev nD) : W13 m hR c main_v12 = W6 m hR c main_v12 := (W13_of_ne m hR c main_v12 (by decide)).trans (W12_p2 m hR c)
theorem W14_p2 (hR : InRange m) (c : Dev nD) : W14 m hR c main_v12 = W6 m hR c main_v12 := (W14_of m hR c main_v12 (by decide)).trans (W13_p2 m hR c)
theorem W15_p2 (hR : InRange m) (c : Dev nD) : W15 m hR c main_v12 = W6 m hR c main_v12 := (W15_of_ne m hR c main_v12 (by decide)).trans (W14_p2 m hR c)
theorem W16_p2 (hR : InRange m) (c : Dev nD) : W16 m hR c main_v12 = W6 m hR c main_v12 := (W16_of m hR c main_v12 (by decide)).trans (W15_p2 m hR c)
theorem W17_p2 (hR : InRange m) (c : Dev nD) : W17 m hR c main_v12 = W6 m hR c main_v12 := (W17_of_ne m hR c main_v12 (by decide)).trans (W16_p2 m hR c)
theorem W18_p2 (hR : InRange m) (c : Dev nD) : W18 m hR c main_v12 = W6 m hR c main_v12 := (W18_of m hR c main_v12 (by decide)).trans (W17_p2 m hR c)
theorem W19_p2 (hR : InRange m) (c : Dev nD) : W19 m hR c main_v12 = W6 m hR c main_v12 := (W19_of_ne m hR c main_v12 (by decide)).trans (W18_p2 m hR c)
theorem W20_p2 (hR : InRange m) (c : Dev nD) : W20 m hR c main_v12 = W6 m hR c main_v12 := (W20_of m hR c main_v12 (by decide)).trans (W19_p2 m hR c)
theorem W21_p2 (hR : InRange m) (c : Dev nD) : W21 m hR c main_v12 = W6 m hR c main_v12 := (W21_of_ne m hR c main_v12 (by decide)).trans (W20_p2 m hR c)
theorem W22_p2 (hR : InRange m) (c : Dev nD) : W22 m hR c main_v12 = W6 m hR c main_v12 := (W22_of m hR c main_v12 (by decide)).trans (W21_p2 m hR c)
theorem W23_p2 (hR : InRange m) (c : Dev nD) : W23 m hR c main_v12 = W6 m hR c main_v12 := (W23_of_ne m hR c main_v12 (by decide)).trans (W22_p2 m hR c)
theorem W24_p2 (hR : InRange m) (c : Dev nD) : W24 m hR c main_v12 = W6 m hR c main_v12 := (W24_of m hR c main_v12 (by decide)).trans (W23_p2 m hR c)
theorem W25_p2 (hR : InRange m) (c : Dev nD) : W25 m hR c main_v12 = W6 m hR c main_v12 := (W25_of_ne m hR c main_v12 (by decide)).trans (W24_p2 m hR c)
theorem W26_p2 (hR : InRange m) (c : Dev nD) : W26 m hR c main_v12 = W6 m hR c main_v12 := (W26_of m hR c main_v12 (by decide)).trans (W25_p2 m hR c)
theorem W27_p2 (hR : InRange m) (c : Dev nD) : W27 m hR c main_v12 = W6 m hR c main_v12 := (W27_of_ne m hR c main_v12 (by decide)).trans (W26_p2 m hR c)
theorem W28_p2 (hR : InRange m) (c : Dev nD) : W28 m hR c main_v12 = W6 m hR c main_v12 := (W28_of m hR c main_v12 (by decide)).trans (W27_p2 m hR c)
theorem W29_p2 (hR : InRange m) (c : Dev nD) : W29 m hR c main_v12 = W6 m hR c main_v12 := (W29_of_ne m hR c main_v12 (by decide)).trans (W28_p2 m hR c)
theorem W30_p2 (hR : InRange m) (c : Dev nD) : W30 m hR c main_v12 = W6 m hR c main_v12 := (W30_of m hR c main_v12 (by decide)).trans (W29_p2 m hR c)
theorem W31_p2 (hR : InRange m) (c : Dev nD) : W31 m hR c main_v12 = W6 m hR c main_v12 := (W31_of_ne m hR c main_v12 (by decide)).trans (W30_p2 m hR c)
theorem W32_p2 (hR : InRange m) (c : Dev nD) : W32 m hR c main_v12 = W6 m hR c main_v12 := (W32_of m hR c main_v12 (by decide)).trans (W31_p2 m hR c)
theorem W33_p2 (hR : InRange m) (c : Dev nD) : W33 m hR c main_v12 = W6 m hR c main_v12 := (W33_of_ne m hR c main_v12 (by decide)).trans (W32_p2 m hR c)
theorem W34_p2 (hR : InRange m) (c : Dev nD) : W34 m hR c main_v12 = W6 m hR c main_v12 := (W34_of m hR c main_v12 (by decide)).trans (W33_p2 m hR c)
theorem W35_p2 (hR : InRange m) (c : Dev nD) : W35 m hR c main_v12 = W6 m hR c main_v12 := (W35_of_ne m hR c main_v12 (by decide)).trans (W34_p2 m hR c)
theorem W36_p2 (hR : InRange m) (c : Dev nD) : W36 m hR c main_v12 = W6 m hR c main_v12 := (W36_of m hR c main_v12 (by decide)).trans (W35_p2 m hR c)
theorem W37_p2 (hR : InRange m) (c : Dev nD) : W37 m hR c main_v12 = W6 m hR c main_v12 := (W37_of_ne m hR c main_v12 (by decide)).trans (W36_p2 m hR c)
theorem W38_p2 (hR : InRange m) (c : Dev nD) : W38 m hR c main_v12 = W6 m hR c main_v12 := (W38_of m hR c main_v12 (by decide)).trans (W37_p2 m hR c)
theorem W39_p2 (hR : InRange m) (c : Dev nD) : W39 m hR c main_v12 = W6 m hR c main_v12 := (W39_of_ne m hR c main_v12 (by decide)).trans (W38_p2 m hR c)
theorem W40_p2 (hR : InRange m) (c : Dev nD) : W40 m hR c main_v12 = W6 m hR c main_v12 := (W40_of m hR c main_v12 (by decide)).trans (W39_p2 m hR c)
theorem W41_p2 (hR : InRange m) (c : Dev nD) : W41 m hR c main_v12 = W6 m hR c main_v12 := (W41_of_ne m hR c main_v12 (by decide)).trans (W40_p2 m hR c)
theorem W8_p3 (hR : InRange m) (c : Dev nD) : W8 m hR c main_v16 = W8 m hR c main_v16 := rfl
theorem W9_p3 (hR : InRange m) (c : Dev nD) : W9 m hR c main_v16 = W8 m hR c main_v16 := (W9_of_ne m hR c main_v16 (by decide)).trans (W8_p3 m hR c)
theorem W10_p3 (hR : InRange m) (c : Dev nD) : W10 m hR c main_v16 = W8 m hR c main_v16 := (W10_of m hR c main_v16 (by decide)).trans (W9_p3 m hR c)
theorem W11_p3 (hR : InRange m) (c : Dev nD) : W11 m hR c main_v16 = W8 m hR c main_v16 := (W11_of_ne m hR c main_v16 (by decide)).trans (W10_p3 m hR c)
theorem W12_p3 (hR : InRange m) (c : Dev nD) : W12 m hR c main_v16 = W8 m hR c main_v16 := (W12_of m hR c main_v16 (by decide)).trans (W11_p3 m hR c)
theorem W13_p3 (hR : InRange m) (c : Dev nD) : W13 m hR c main_v16 = W8 m hR c main_v16 := (W13_of_ne m hR c main_v16 (by decide)).trans (W12_p3 m hR c)
theorem W14_p3 (hR : InRange m) (c : Dev nD) : W14 m hR c main_v16 = W8 m hR c main_v16 := (W14_of m hR c main_v16 (by decide)).trans (W13_p3 m hR c)
theorem W15_p3 (hR : InRange m) (c : Dev nD) : W15 m hR c main_v16 = W8 m hR c main_v16 := (W15_of_ne m hR c main_v16 (by decide)).trans (W14_p3 m hR c)
theorem W16_p3 (hR : InRange m) (c : Dev nD) : W16 m hR c main_v16 = W8 m hR c main_v16 := (W16_of m hR c main_v16 (by decide)).trans (W15_p3 m hR c)
theorem W17_p3 (hR : InRange m) (c : Dev nD) : W17 m hR c main_v16 = W8 m hR c main_v16 := (W17_of_ne m hR c main_v16 (by decide)).trans (W16_p3 m hR c)
theorem W18_p3 (hR : InRange m) (c : Dev nD) : W18 m hR c main_v16 = W8 m hR c main_v16 := (W18_of m hR c main_v16 (by decide)).trans (W17_p3 m hR c)
theorem W19_p3 (hR : InRange m) (c : Dev nD) : W19 m hR c main_v16 = W8 m hR c main_v16 := (W19_of_ne m hR c main_v16 (by decide)).trans (W18_p3 m hR c)
theorem W20_p3 (hR : InRange m) (c : Dev nD) : W20 m hR c main_v16 = W8 m hR c main_v16 := (W20_of m hR c main_v16 (by decide)).trans (W19_p3 m hR c)
theorem W21_p3 (hR : InRange m) (c : Dev nD) : W21 m hR c main_v16 = W8 m hR c main_v16 := (W21_of_ne m hR c main_v16 (by decide)).trans (W20_p3 m hR c)
theorem W22_p3 (hR : InRange m) (c : Dev nD) : W22 m hR c main_v16 = W8 m hR c main_v16 := (W22_of m hR c main_v16 (by decide)).trans (W21_p3 m hR c)
theorem W23_p3 (hR : InRange m) (c : Dev nD) : W23 m hR c main_v16 = W8 m hR c main_v16 := (W23_of_ne m hR c main_v16 (by decide)).trans (W22_p3 m hR c)
theorem W24_p3 (hR : InRange m) (c : Dev nD) : W24 m hR c main_v16 = W8 m hR c main_v16 := (W24_of m hR c main_v16 (by decide)).trans (W23_p3 m hR c)
theorem W25_p3 (hR : InRange m) (c : Dev nD) : W25 m hR c main_v16 = W8 m hR c main_v16 := (W25_of_ne m hR c main_v16 (by decide)).trans (W24_p3 m hR c)
theorem W26_p3 (hR : InRange m) (c : Dev nD) : W26 m hR c main_v16 = W8 m hR c main_v16 := (W26_of m hR c main_v16 (by decide)).trans (W25_p3 m hR c)
theorem W27_p3 (hR : InRange m) (c : Dev nD) : W27 m hR c main_v16 = W8 m hR c main_v16 := (W27_of_ne m hR c main_v16 (by decide)).trans (W26_p3 m hR c)
theorem W28_p3 (hR : InRange m) (c : Dev nD) : W28 m hR c main_v16 = W8 m hR c main_v16 := (W28_of m hR c main_v16 (by decide)).trans (W27_p3 m hR c)
theorem W29_p3 (hR : InRange m) (c : Dev nD) : W29 m hR c main_v16 = W8 m hR c main_v16 := (W29_of_ne m hR c main_v16 (by decide)).trans (W28_p3 m hR c)
theorem W30_p3 (hR : InRange m) (c : Dev nD) : W30 m hR c main_v16 = W8 m hR c main_v16 := (W30_of m hR c main_v16 (by decide)).trans (W29_p3 m hR c)
theorem W31_p3 (hR : InRange m) (c : Dev nD) : W31 m hR c main_v16 = W8 m hR c main_v16 := (W31_of_ne m hR c main_v16 (by decide)).trans (W30_p3 m hR c)
theorem W32_p3 (hR : InRange m) (c : Dev nD) : W32 m hR c main_v16 = W8 m hR c main_v16 := (W32_of m hR c main_v16 (by decide)).trans (W31_p3 m hR c)
theorem W33_p3 (hR : InRange m) (c : Dev nD) : W33 m hR c main_v16 = W8 m hR c main_v16 := (W33_of_ne m hR c main_v16 (by decide)).trans (W32_p3 m hR c)
theorem W34_p3 (hR : InRange m) (c : Dev nD) : W34 m hR c main_v16 = W8 m hR c main_v16 := (W34_of m hR c main_v16 (by decide)).trans (W33_p3 m hR c)
theorem W35_p3 (hR : InRange m) (c : Dev nD) : W35 m hR c main_v16 = W8 m hR c main_v16 := (W35_of_ne m hR c main_v16 (by decide)).trans (W34_p3 m hR c)
theorem W36_p3 (hR : InRange m) (c : Dev nD) : W36 m hR c main_v16 = W8 m hR c main_v16 := (W36_of m hR c main_v16 (by decide)).trans (W35_p3 m hR c)
theorem W37_p3 (hR : InRange m) (c : Dev nD) : W37 m hR c main_v16 = W8 m hR c main_v16 := (W37_of_ne m hR c main_v16 (by decide)).trans (W36_p3 m hR c)
theorem W38_p3 (hR : InRange m) (c : Dev nD) : W38 m hR c main_v16 = W8 m hR c main_v16 := (W38_of m hR c main_v16 (by decide)).trans (W37_p3 m hR c)
theorem W39_p3 (hR : InRange m) (c : Dev nD) : W39 m hR c main_v16 = W8 m hR c main_v16 := (W39_of_ne m hR c main_v16 (by decide)).trans (W38_p3 m hR c)
theorem W40_p3 (hR : InRange m) (c : Dev nD) : W40 m hR c main_v16 = W8 m hR c main_v16 := (W40_of m hR c main_v16 (by decide)).trans (W39_p3 m hR c)
theorem W41_p3 (hR : InRange m) (c : Dev nD) : W41 m hR c main_v16 = W8 m hR c main_v16 := (W41_of_ne m hR c main_v16 (by decide)).trans (W40_p3 m hR c)
theorem W10_p4 (hR : InRange m) (c : Dev nD) : W10 m hR c main_v20 = W10 m hR c main_v20 := rfl
theorem W11_p4 (hR : InRange m) (c : Dev nD) : W11 m hR c main_v20 = W10 m hR c main_v20 := (W11_of_ne m hR c main_v20 (by decide)).trans (W10_p4 m hR c)
theorem W12_p4 (hR : InRange m) (c : Dev nD) : W12 m hR c main_v20 = W10 m hR c main_v20 := (W12_of m hR c main_v20 (by decide)).trans (W11_p4 m hR c)
theorem W13_p4 (hR : InRange m) (c : Dev nD) : W13 m hR c main_v20 = W10 m hR c main_v20 := (W13_of_ne m hR c main_v20 (by decide)).trans (W12_p4 m hR c)
theorem W14_p4 (hR : InRange m) (c : Dev nD) : W14 m hR c main_v20 = W10 m hR c main_v20 := (W14_of m hR c main_v20 (by decide)).trans (W13_p4 m hR c)
theorem W15_p4 (hR : InRange m) (c : Dev nD) : W15 m hR c main_v20 = W10 m hR c main_v20 := (W15_of_ne m hR c main_v20 (by decide)).trans (W14_p4 m hR c)
theorem W16_p4 (hR : InRange m) (c : Dev nD) : W16 m hR c main_v20 = W10 m hR c main_v20 := (W16_of m hR c main_v20 (by decide)).trans (W15_p4 m hR c)
theorem W17_p4 (hR : InRange m) (c : Dev nD) : W17 m hR c main_v20 = W10 m hR c main_v20 := (W17_of_ne m hR c main_v20 (by decide)).trans (W16_p4 m hR c)
theorem W18_p4 (hR : InRange m) (c : Dev nD) : W18 m hR c main_v20 = W10 m hR c main_v20 := (W18_of m hR c main_v20 (by decide)).trans (W17_p4 m hR c)
theorem W19_p4 (hR : InRange m) (c : Dev nD) : W19 m hR c main_v20 = W10 m hR c main_v20 := (W19_of_ne m hR c main_v20 (by decide)).trans (W18_p4 m hR c)
theorem W20_p4 (hR : InRange m) (c : Dev nD) : W20 m hR c main_v20 = W10 m hR c main_v20 := (W20_of m hR c main_v20 (by decide)).trans (W19_p4 m hR c)
theorem W21_p4 (hR : InRange m) (c : Dev nD) : W21 m hR c main_v20 = W10 m hR c main_v20 := (W21_of_ne m hR c main_v20 (by decide)).trans (W20_p4 m hR c)
theorem W22_p4 (hR : InRange m) (c : Dev nD) : W22 m hR c main_v20 = W10 m hR c main_v20 := (W22_of m hR c main_v20 (by decide)).trans (W21_p4 m hR c)
theorem W23_p4 (hR : InRange m) (c : Dev nD) : W23 m hR c main_v20 = W10 m hR c main_v20 := (W23_of_ne m hR c main_v20 (by decide)).trans (W22_p4 m hR c)
theorem W24_p4 (hR : InRange m) (c : Dev nD) : W24 m hR c main_v20 = W10 m hR c main_v20 := (W24_of m hR c main_v20 (by decide)).trans (W23_p4 m hR c)
theorem W25_p4 (hR : InRange m) (c : Dev nD) : W25 m hR c main_v20 = W10 m hR c main_v20 := (W25_of_ne m hR c main_v20 (by decide)).trans (W24_p4 m hR c)
theorem W26_p4 (hR : InRange m) (c : Dev nD) : W26 m hR c main_v20 = W10 m hR c main_v20 := (W26_of m hR c main_v20 (by decide)).trans (W25_p4 m hR c)
theorem W27_p4 (hR : InRange m) (c : Dev nD) : W27 m hR c main_v20 = W10 m hR c main_v20 := (W27_of_ne m hR c main_v20 (by decide)).trans (W26_p4 m hR c)
theorem W28_p4 (hR : InRange m) (c : Dev nD) : W28 m hR c main_v20 = W10 m hR c main_v20 := (W28_of m hR c main_v20 (by decide)).trans (W27_p4 m hR c)
theorem W29_p4 (hR : InRange m) (c : Dev nD) : W29 m hR c main_v20 = W10 m hR c main_v20 := (W29_of_ne m hR c main_v20 (by decide)).trans (W28_p4 m hR c)
theorem W30_p4 (hR : InRange m) (c : Dev nD) : W30 m hR c main_v20 = W10 m hR c main_v20 := (W30_of m hR c main_v20 (by decide)).trans (W29_p4 m hR c)
theorem W31_p4 (hR : InRange m) (c : Dev nD) : W31 m hR c main_v20 = W10 m hR c main_v20 := (W31_of_ne m hR c main_v20 (by decide)).trans (W30_p4 m hR c)
theorem W32_p4 (hR : InRange m) (c : Dev nD) : W32 m hR c main_v20 = W10 m hR c main_v20 := (W32_of m hR c main_v20 (by decide)).trans (W31_p4 m hR c)
theorem W33_p4 (hR : InRange m) (c : Dev nD) : W33 m hR c main_v20 = W10 m hR c main_v20 := (W33_of_ne m hR c main_v20 (by decide)).trans (W32_p4 m hR c)
theorem W34_p4 (hR : InRange m) (c : Dev nD) : W34 m hR c main_v20 = W10 m hR c main_v20 := (W34_of m hR c main_v20 (by decide)).trans (W33_p4 m hR c)
theorem W35_p4 (hR : InRange m) (c : Dev nD) : W35 m hR c main_v20 = W10 m hR c main_v20 := (W35_of_ne m hR c main_v20 (by decide)).trans (W34_p4 m hR c)
theorem W36_p4 (hR : InRange m) (c : Dev nD) : W36 m hR c main_v20 = W10 m hR c main_v20 := (W36_of m hR c main_v20 (by decide)).trans (W35_p4 m hR c)
theorem W37_p4 (hR : InRange m) (c : Dev nD) : W37 m hR c main_v20 = W10 m hR c main_v20 := (W37_of_ne m hR c main_v20 (by decide)).trans (W36_p4 m hR c)
theorem W38_p4 (hR : InRange m) (c : Dev nD) : W38 m hR c main_v20 = W10 m hR c main_v20 := (W38_of m hR c main_v20 (by decide)).trans (W37_p4 m hR c)
theorem W39_p4 (hR : InRange m) (c : Dev nD) : W39 m hR c main_v20 = W10 m hR c main_v20 := (W39_of_ne m hR c main_v20 (by decide)).trans (W38_p4 m hR c)
theorem W40_p4 (hR : InRange m) (c : Dev nD) : W40 m hR c main_v20 = W10 m hR c main_v20 := (W40_of m hR c main_v20 (by decide)).trans (W39_p4 m hR c)
theorem W41_p4 (hR : InRange m) (c : Dev nD) : W41 m hR c main_v20 = W10 m hR c main_v20 := (W41_of_ne m hR c main_v20 (by decide)).trans (W40_p4 m hR c)
theorem W12_p5 (hR : InRange m) (c : Dev nD) : W12 m hR c main_v24 = W12 m hR c main_v24 := rfl
theorem W13_p5 (hR : InRange m) (c : Dev nD) : W13 m hR c main_v24 = W12 m hR c main_v24 := (W13_of_ne m hR c main_v24 (by decide)).trans (W12_p5 m hR c)
theorem W14_p5 (hR : InRange m) (c : Dev nD) : W14 m hR c main_v24 = W12 m hR c main_v24 := (W14_of m hR c main_v24 (by decide)).trans (W13_p5 m hR c)
theorem W15_p5 (hR : InRange m) (c : Dev nD) : W15 m hR c main_v24 = W12 m hR c main_v24 := (W15_of_ne m hR c main_v24 (by decide)).trans (W14_p5 m hR c)
theorem W16_p5 (hR : InRange m) (c : Dev nD) : W16 m hR c main_v24 = W12 m hR c main_v24 := (W16_of m hR c main_v24 (by decide)).trans (W15_p5 m hR c)
theorem W17_p5 (hR : InRange m) (c : Dev nD) : W17 m hR c main_v24 = W12 m hR c main_v24 := (W17_of_ne m hR c main_v24 (by decide)).trans (W16_p5 m hR c)
theorem W18_p5 (hR : InRange m) (c : Dev nD) : W18 m hR c main_v24 = W12 m hR c main_v24 := (W18_of m hR c main_v24 (by decide)).trans (W17_p5 m hR c)
theorem W19_p5 (hR : InRange m) (c : Dev nD) : W19 m hR c main_v24 = W12 m hR c main_v24 := (W19_of_ne m hR c main_v24 (by decide)).trans (W18_p5 m hR c)
theorem W20_p5 (hR : InRange m) (c : Dev nD) : W20 m hR c main_v24 = W12 m hR c main_v24 := (W20_of m hR c main_v24 (by decide)).trans (W19_p5 m hR c)
theorem W21_p5 (hR : InRange m) (c : Dev nD) : W21 m hR c main_v24 = W12 m hR c main_v24 := (W21_of_ne m hR c main_v24 (by decide)).trans (W20_p5 m hR c)
theorem W22_p5 (hR : InRange m) (c : Dev nD) : W22 m hR c main_v24 = W12 m hR c main_v24 := (W22_of m hR c main_v24 (by decide)).trans (W21_p5 m hR c)
theorem W23_p5 (hR : InRange m) (c : Dev nD) : W23 m hR c main_v24 = W12 m hR c main_v24 := (W23_of_ne m hR c main_v24 (by decide)).trans (W22_p5 m hR c)
theorem W24_p5 (hR : InRange m) (c : Dev nD) : W24 m hR c main_v24 = W12 m hR c main_v24 := (W24_of m hR c main_v24 (by decide)).trans (W23_p5 m hR c)
theorem W25_p5 (hR : InRange m) (c : Dev nD) : W25 m hR c main_v24 = W12 m hR c main_v24 := (W25_of_ne m hR c main_v24 (by decide)).trans (W24_p5 m hR c)
theorem W26_p5 (hR : InRange m) (c : Dev nD) : W26 m hR c main_v24 = W12 m hR c main_v24 := (W26_of m hR c main_v24 (by decide)).trans (W25_p5 m hR c)
theorem W27_p5 (hR : InRange m) (c : Dev nD) : W27 m hR c main_v24 = W12 m hR c main_v24 := (W27_of_ne m hR c main_v24 (by decide)).trans (W26_p5 m hR c)
theorem W28_p5 (hR : InRange m) (c : Dev nD) : W28 m hR c main_v24 = W12 m hR c main_v24 := (W28_of m hR c main_v24 (by decide)).trans (W27_p5 m hR c)
theorem W29_p5 (hR : InRange m) (c : Dev nD) : W29 m hR c main_v24 = W12 m hR c main_v24 := (W29_of_ne m hR c main_v24 (by decide)).trans (W28_p5 m hR c)
theorem W30_p5 (hR : InRange m) (c : Dev nD) : W30 m hR c main_v24 = W12 m hR c main_v24 := (W30_of m hR c main_v24 (by decide)).trans (W29_p5 m hR c)
theorem W31_p5 (hR : InRange m) (c : Dev nD) : W31 m hR c main_v24 = W12 m hR c main_v24 := (W31_of_ne m hR c main_v24 (by decide)).trans (W30_p5 m hR c)
theorem W32_p5 (hR : InRange m) (c : Dev nD) : W32 m hR c main_v24 = W12 m hR c main_v24 := (W32_of m hR c main_v24 (by decide)).trans (W31_p5 m hR c)
theorem W33_p5 (hR : InRange m) (c : Dev nD) : W33 m hR c main_v24 = W12 m hR c main_v24 := (W33_of_ne m hR c main_v24 (by decide)).trans (W32_p5 m hR c)
theorem W34_p5 (hR : InRange m) (c : Dev nD) : W34 m hR c main_v24 = W12 m hR c main_v24 := (W34_of m hR c main_v24 (by decide)).trans (W33_p5 m hR c)
theorem W35_p5 (hR : InRange m) (c : Dev nD) : W35 m hR c main_v24 = W12 m hR c main_v24 := (W35_of_ne m hR c main_v24 (by decide)).trans (W34_p5 m hR c)
theorem W36_p5 (hR : InRange m) (c : Dev nD) : W36 m hR c main_v24 = W12 m hR c main_v24 := (W36_of m hR c main_v24 (by decide)).trans (W35_p5 m hR c)
theorem W37_p5 (hR : InRange m) (c : Dev nD) : W37 m hR c main_v24 = W12 m hR c main_v24 := (W37_of_ne m hR c main_v24 (by decide)).trans (W36_p5 m hR c)
theorem W38_p5 (hR : InRange m) (c : Dev nD) : W38 m hR c main_v24 = W12 m hR c main_v24 := (W38_of m hR c main_v24 (by decide)).trans (W37_p5 m hR c)
theorem W39_p5 (hR : InRange m) (c : Dev nD) : W39 m hR c main_v24 = W12 m hR c main_v24 := (W39_of_ne m hR c main_v24 (by decide)).trans (W38_p5 m hR c)
theorem W40_p5 (hR : InRange m) (c : Dev nD) : W40 m hR c main_v24 = W12 m hR c main_v24 := (W40_of m hR c main_v24 (by decide)).trans (W39_p5 m hR c)
theorem W41_p5 (hR : InRange m) (c : Dev nD) : W41 m hR c main_v24 = W12 m hR c main_v24 := (W41_of_ne m hR c main_v24 (by decide)).trans (W40_p5 m hR c)
theorem W14_p6 (hR : InRange m) (c : Dev nD) : W14 m hR c main_v28 = W14 m hR c main_v28 := rfl
theorem W15_p6 (hR : InRange m) (c : Dev nD) : W15 m hR c main_v28 = W14 m hR c main_v28 := (W15_of_ne m hR c main_v28 (by decide)).trans (W14_p6 m hR c)
theorem W16_p6 (hR : InRange m) (c : Dev nD) : W16 m hR c main_v28 = W14 m hR c main_v28 := (W16_of m hR c main_v28 (by decide)).trans (W15_p6 m hR c)
theorem W17_p6 (hR : InRange m) (c : Dev nD) : W17 m hR c main_v28 = W14 m hR c main_v28 := (W17_of_ne m hR c main_v28 (by decide)).trans (W16_p6 m hR c)
theorem W18_p6 (hR : InRange m) (c : Dev nD) : W18 m hR c main_v28 = W14 m hR c main_v28 := (W18_of m hR c main_v28 (by decide)).trans (W17_p6 m hR c)
theorem W19_p6 (hR : InRange m) (c : Dev nD) : W19 m hR c main_v28 = W14 m hR c main_v28 := (W19_of_ne m hR c main_v28 (by decide)).trans (W18_p6 m hR c)
theorem W20_p6 (hR : InRange m) (c : Dev nD) : W20 m hR c main_v28 = W14 m hR c main_v28 := (W20_of m hR c main_v28 (by decide)).trans (W19_p6 m hR c)
theorem W21_p6 (hR : InRange m) (c : Dev nD) : W21 m hR c main_v28 = W14 m hR c main_v28 := (W21_of_ne m hR c main_v28 (by decide)).trans (W20_p6 m hR c)
theorem W22_p6 (hR : InRange m) (c : Dev nD) : W22 m hR c main_v28 = W14 m hR c main_v28 := (W22_of m hR c main_v28 (by decide)).trans (W21_p6 m hR c)
theorem W23_p6 (hR : InRange m) (c : Dev nD) : W23 m hR c main_v28 = W14 m hR c main_v28 := (W23_of_ne m hR c main_v28 (by decide)).trans (W22_p6 m hR c)
theorem W24_p6 (hR : InRange m) (c : Dev nD) : W24 m hR c main_v28 = W14 m hR c main_v28 := (W24_of m hR c main_v28 (by decide)).trans (W23_p6 m hR c)
theorem W25_p6 (hR : InRange m) (c : Dev nD) : W25 m hR c main_v28 = W14 m hR c main_v28 := (W25_of_ne m hR c main_v28 (by decide)).trans (W24_p6 m hR c)
theorem W26_p6 (hR : InRange m) (c : Dev nD) : W26 m hR c main_v28 = W14 m hR c main_v28 := (W26_of m hR c main_v28 (by decide)).trans (W25_p6 m hR c)
theorem W27_p6 (hR : InRange m) (c : Dev nD) : W27 m hR c main_v28 = W14 m hR c main_v28 := (W27_of_ne m hR c main_v28 (by decide)).trans (W26_p6 m hR c)
theorem W28_p6 (hR : InRange m) (c : Dev nD) : W28 m hR c main_v28 = W14 m hR c main_v28 := (W28_of m hR c main_v28 (by decide)).trans (W27_p6 m hR c)
theorem W29_p6 (hR : InRange m) (c : Dev nD) : W29 m hR c main_v28 = W14 m hR c main_v28 := (W29_of_ne m hR c main_v28 (by decide)).trans (W28_p6 m hR c)
theorem W30_p6 (hR : InRange m) (c : Dev nD) : W30 m hR c main_v28 = W14 m hR c main_v28 := (W30_of m hR c main_v28 (by decide)).trans (W29_p6 m hR c)
theorem W31_p6 (hR : InRange m) (c : Dev nD) : W31 m hR c main_v28 = W14 m hR c main_v28 := (W31_of_ne m hR c main_v28 (by decide)).trans (W30_p6 m hR c)
theorem W32_p6 (hR : InRange m) (c : Dev nD) : W32 m hR c main_v28 = W14 m hR c main_v28 := (W32_of m hR c main_v28 (by decide)).trans (W31_p6 m hR c)
theorem W33_p6 (hR : InRange m) (c : Dev nD) : W33 m hR c main_v28 = W14 m hR c main_v28 := (W33_of_ne m hR c main_v28 (by decide)).trans (W32_p6 m hR c)
theorem W34_p6 (hR : InRange m) (c : Dev nD) : W34 m hR c main_v28 = W14 m hR c main_v28 := (W34_of m hR c main_v28 (by decide)).trans (W33_p6 m hR c)
theorem W35_p6 (hR : InRange m) (c : Dev nD) : W35 m hR c main_v28 = W14 m hR c main_v28 := (W35_of_ne m hR c main_v28 (by decide)).trans (W34_p6 m hR c)
theorem W36_p6 (hR : InRange m) (c : Dev nD) : W36 m hR c main_v28 = W14 m hR c main_v28 := (W36_of m hR c main_v28 (by decide)).trans (W35_p6 m hR c)
theorem W37_p6 (hR : InRange m) (c : Dev nD) : W37 m hR c main_v28 = W14 m hR c main_v28 := (W37_of_ne m hR c main_v28 (by decide)).trans (W36_p6 m hR c)
theorem W38_p6 (hR : InRange m) (c : Dev nD) : W38 m hR c main_v28 = W14 m hR c main_v28 := (W38_of m hR c main_v28 (by decide)).trans (W37_p6 m hR c)
theorem W39_p6 (hR : InRange m) (c : Dev nD) : W39 m hR c main_v28 = W14 m hR c main_v28 := (W39_of_ne m hR c main_v28 (by decide)).trans (W38_p6 m hR c)
theorem W40_p6 (hR : InRange m) (c : Dev nD) : W40 m hR c main_v28 = W14 m hR c main_v28 := (W40_of m hR c main_v28 (by decide)).trans (W39_p6 m hR c)
theorem W41_p6 (hR : InRange m) (c : Dev nD) : W41 m hR c main_v28 = W14 m hR c main_v28 := (W41_of_ne m hR c main_v28 (by decide)).trans (W40_p6 m hR c)
theorem W16_p7 (hR : InRange m) (c : Dev nD) : W16 m hR c main_v32 = W16 m hR c main_v32 := rfl
theorem W17_p7 (hR : InRange m) (c : Dev nD) : W17 m hR c main_v32 = W16 m hR c main_v32 := (W17_of_ne m hR c main_v32 (by decide)).trans (W16_p7 m hR c)
theorem W18_p7 (hR : InRange m) (c : Dev nD) : W18 m hR c main_v32 = W16 m hR c main_v32 := (W18_of m hR c main_v32 (by decide)).trans (W17_p7 m hR c)
theorem W19_p7 (hR : InRange m) (c : Dev nD) : W19 m hR c main_v32 = W16 m hR c main_v32 := (W19_of_ne m hR c main_v32 (by decide)).trans (W18_p7 m hR c)
theorem W20_p7 (hR : InRange m) (c : Dev nD) : W20 m hR c main_v32 = W16 m hR c main_v32 := (W20_of m hR c main_v32 (by decide)).trans (W19_p7 m hR c)
theorem W21_p7 (hR : InRange m) (c : Dev nD) : W21 m hR c main_v32 = W16 m hR c main_v32 := (W21_of_ne m hR c main_v32 (by decide)).trans (W20_p7 m hR c)
theorem W22_p7 (hR : InRange m) (c : Dev nD) : W22 m hR c main_v32 = W16 m hR c main_v32 := (W22_of m hR c main_v32 (by decide)).trans (W21_p7 m hR c)
theorem W23_p7 (hR : InRange m) (c : Dev nD) : W23 m hR c main_v32 = W16 m hR c main_v32 := (W23_of_ne m hR c main_v32 (by decide)).trans (W22_p7 m hR c)
theorem W24_p7 (hR : InRange m) (c : Dev nD) : W24 m hR c main_v32 = W16 m hR c main_v32 := (W24_of m hR c main_v32 (by decide)).trans (W23_p7 m hR c)
theorem W25_p7 (hR : InRange m) (c : Dev nD) : W25 m hR c main_v32 = W16 m hR c main_v32 := (W25_of_ne m hR c main_v32 (by decide)).trans (W24_p7 m hR c)
theorem W26_p7 (hR : InRange m) (c : Dev nD) : W26 m hR c main_v32 = W16 m hR c main_v32 := (W26_of m hR c main_v32 (by decide)).trans (W25_p7 m hR c)
theorem W27_p7 (hR : InRange m) (c : Dev nD) : W27 m hR c main_v32 = W16 m hR c main_v32 := (W27_of_ne m hR c main_v32 (by decide)).trans (W26_p7 m hR c)
theorem W28_p7 (hR : InRange m) (c : Dev nD) : W28 m hR c main_v32 = W16 m hR c main_v32 := (W28_of m hR c main_v32 (by decide)).trans (W27_p7 m hR c)
theorem W29_p7 (hR : InRange m) (c : Dev nD) : W29 m hR c main_v32 = W16 m hR c main_v32 := (W29_of_ne m hR c main_v32 (by decide)).trans (W28_p7 m hR c)
theorem W30_p7 (hR : InRange m) (c : Dev nD) : W30 m hR c main_v32 = W16 m hR c main_v32 := (W30_of m hR c main_v32 (by decide)).trans (W29_p7 m hR c)
theorem W31_p7 (hR : InRange m) (c : Dev nD) : W31 m hR c main_v32 = W16 m hR c main_v32 := (W31_of_ne m hR c main_v32 (by decide)).trans (W30_p7 m hR c)
theorem W32_p7 (hR : InRange m) (c : Dev nD) : W32 m hR c main_v32 = W16 m hR c main_v32 := (W32_of m hR c main_v32 (by decide)).trans (W31_p7 m hR c)
theorem W33_p7 (hR : InRange m) (c : Dev nD) : W33 m hR c main_v32 = W16 m hR c main_v32 := (W33_of_ne m hR c main_v32 (by decide)).trans (W32_p7 m hR c)
theorem W34_p7 (hR : InRange m) (c : Dev nD) : W34 m hR c main_v32 = W16 m hR c main_v32 := (W34_of m hR c main_v32 (by decide)).trans (W33_p7 m hR c)
theorem W35_p7 (hR : InRange m) (c : Dev nD) : W35 m hR c main_v32 = W16 m hR c main_v32 := (W35_of_ne m hR c main_v32 (by decide)).trans (W34_p7 m hR c)
theorem W36_p7 (hR : InRange m) (c : Dev nD) : W36 m hR c main_v32 = W16 m hR c main_v32 := (W36_of m hR c main_v32 (by decide)).trans (W35_p7 m hR c)
theorem W37_p7 (hR : InRange m) (c : Dev nD) : W37 m hR c main_v32 = W16 m hR c main_v32 := (W37_of_ne m hR c main_v32 (by decide)).trans (W36_p7 m hR c)
theorem W38_p7 (hR : InRange m) (c : Dev nD) : W38 m hR c main_v32 = W16 m hR c main_v32 := (W38_of m hR c main_v32 (by decide)).trans (W37_p7 m hR c)
theorem W39_p7 (hR : InRange m) (c : Dev nD) : W39 m hR c main_v32 = W16 m hR c main_v32 := (W39_of_ne m hR c main_v32 (by decide)).trans (W38_p7 m hR c)
theorem W40_p7 (hR : InRange m) (c : Dev nD) : W40 m hR c main_v32 = W16 m hR c main_v32 := (W40_of m hR c main_v32 (by decide)).trans (W39_p7 m hR c)
theorem W41_p7 (hR : InRange m) (c : Dev nD) : W41 m hR c main_v32 = W16 m hR c main_v32 := (W41_of_ne m hR c main_v32 (by decide)).trans (W40_p7 m hR c)
theorem W18_p8 (hR : InRange m) (c : Dev nD) : W18 m hR c main_v36 = W18 m hR c main_v36 := rfl
theorem W19_p8 (hR : InRange m) (c : Dev nD) : W19 m hR c main_v36 = W18 m hR c main_v36 := (W19_of_ne m hR c main_v36 (by decide)).trans (W18_p8 m hR c)
theorem W20_p8 (hR : InRange m) (c : Dev nD) : W20 m hR c main_v36 = W18 m hR c main_v36 := (W20_of m hR c main_v36 (by decide)).trans (W19_p8 m hR c)
theorem W21_p8 (hR : InRange m) (c : Dev nD) : W21 m hR c main_v36 = W18 m hR c main_v36 := (W21_of_ne m hR c main_v36 (by decide)).trans (W20_p8 m hR c)
theorem W22_p8 (hR : InRange m) (c : Dev nD) : W22 m hR c main_v36 = W18 m hR c main_v36 := (W22_of m hR c main_v36 (by decide)).trans (W21_p8 m hR c)
theorem W23_p8 (hR : InRange m) (c : Dev nD) : W23 m hR c main_v36 = W18 m hR c main_v36 := (W23_of_ne m hR c main_v36 (by decide)).trans (W22_p8 m hR c)
theorem W24_p8 (hR : InRange m) (c : Dev nD) : W24 m hR c main_v36 = W18 m hR c main_v36 := (W24_of m hR c main_v36 (by decide)).trans (W23_p8 m hR c)
theorem W25_p8 (hR : InRange m) (c : Dev nD) : W25 m hR c main_v36 = W18 m hR c main_v36 := (W25_of_ne m hR c main_v36 (by decide)).trans (W24_p8 m hR c)
theorem W26_p8 (hR : InRange m) (c : Dev nD) : W26 m hR c main_v36 = W18 m hR c main_v36 := (W26_of m hR c main_v36 (by decide)).trans (W25_p8 m hR c)
theorem W27_p8 (hR : InRange m) (c : Dev nD) : W27 m hR c main_v36 = W18 m hR c main_v36 := (W27_of_ne m hR c main_v36 (by decide)).trans (W26_p8 m hR c)
theorem W28_p8 (hR : InRange m) (c : Dev nD) : W28 m hR c main_v36 = W18 m hR c main_v36 := (W28_of m hR c main_v36 (by decide)).trans (W27_p8 m hR c)
theorem W29_p8 (hR : InRange m) (c : Dev nD) : W29 m hR c main_v36 = W18 m hR c main_v36 := (W29_of_ne m hR c main_v36 (by decide)).trans (W28_p8 m hR c)
theorem W30_p8 (hR : InRange m) (c : Dev nD) : W30 m hR c main_v36 = W18 m hR c main_v36 := (W30_of m hR c main_v36 (by decide)).trans (W29_p8 m hR c)
theorem W31_p8 (hR : InRange m) (c : Dev nD) : W31 m hR c main_v36 = W18 m hR c main_v36 := (W31_of_ne m hR c main_v36 (by decide)).trans (W30_p8 m hR c)
theorem W32_p8 (hR : InRange m) (c : Dev nD) : W32 m hR c main_v36 = W18 m hR c main_v36 := (W32_of m hR c main_v36 (by decide)).trans (W31_p8 m hR c)
theorem W33_p8 (hR : InRange m) (c : Dev nD) : W33 m hR c main_v36 = W18 m hR c main_v36 := (W33_of_ne m hR c main_v36 (by decide)).trans (W32_p8 m hR c)
theorem W34_p8 (hR : InRange m) (c : Dev nD) : W34 m hR c main_v36 = W18 m hR c main_v36 := (W34_of m hR c main_v36 (by decide)).trans (W33_p8 m hR c)
theorem W35_p8 (hR : InRange m) (c : Dev nD) : W35 m hR c main_v36 = W18 m hR c main_v36 := (W35_of_ne m hR c main_v36 (by decide)).trans (W34_p8 m hR c)
theorem W36_p8 (hR : InRange m) (c : Dev nD) : W36 m hR c main_v36 = W18 m hR c main_v36 := (W36_of m hR c main_v36 (by decide)).trans (W35_p8 m hR c)
theorem W37_p8 (hR : InRange m) (c : Dev nD) : W37 m hR c main_v36 = W18 m hR c main_v36 := (W37_of_ne m hR c main_v36 (by decide)).trans (W36_p8 m hR c)
theorem W38_p8 (hR : InRange m) (c : Dev nD) : W38 m hR c main_v36 = W18 m hR c main_v36 := (W38_of m hR c main_v36 (by decide)).trans (W37_p8 m hR c)
theorem W39_p8 (hR : InRange m) (c : Dev nD) : W39 m hR c main_v36 = W18 m hR c main_v36 := (W39_of_ne m hR c main_v36 (by decide)).trans (W38_p8 m hR c)
theorem W40_p8 (hR : InRange m) (c : Dev nD) : W40 m hR c main_v36 = W18 m hR c main_v36 := (W40_of m hR c main_v36 (by decide)).trans (W39_p8 m hR c)
theorem W41_p8 (hR : InRange m) (c : Dev nD) : W41 m hR c main_v36 = W18 m hR c main_v36 := (W41_of_ne m hR c main_v36 (by decide)).trans (W40_p8 m hR c)
theorem W20_p9 (hR : InRange m) (c : Dev nD) : W20 m hR c main_v40 = W20 m hR c main_v40 := rfl
theorem W21_p9 (hR : InRange m) (c : Dev nD) : W21 m hR c main_v40 = W20 m hR c main_v40 := (W21_of_ne m hR c main_v40 (by decide)).trans (W20_p9 m hR c)
theorem W22_p9 (hR : InRange m) (c : Dev nD) : W22 m hR c main_v40 = W20 m hR c main_v40 := (W22_of m hR c main_v40 (by decide)).trans (W21_p9 m hR c)
theorem W23_p9 (hR : InRange m) (c : Dev nD) : W23 m hR c main_v40 = W20 m hR c main_v40 := (W23_of_ne m hR c main_v40 (by decide)).trans (W22_p9 m hR c)
theorem W24_p9 (hR : InRange m) (c : Dev nD) : W24 m hR c main_v40 = W20 m hR c main_v40 := (W24_of m hR c main_v40 (by decide)).trans (W23_p9 m hR c)
theorem W25_p9 (hR : InRange m) (c : Dev nD) : W25 m hR c main_v40 = W20 m hR c main_v40 := (W25_of_ne m hR c main_v40 (by decide)).trans (W24_p9 m hR c)
theorem W26_p9 (hR : InRange m) (c : Dev nD) : W26 m hR c main_v40 = W20 m hR c main_v40 := (W26_of m hR c main_v40 (by decide)).trans (W25_p9 m hR c)
theorem W27_p9 (hR : InRange m) (c : Dev nD) : W27 m hR c main_v40 = W20 m hR c main_v40 := (W27_of_ne m hR c main_v40 (by decide)).trans (W26_p9 m hR c)
theorem W28_p9 (hR : InRange m) (c : Dev nD) : W28 m hR c main_v40 = W20 m hR c main_v40 := (W28_of m hR c main_v40 (by decide)).trans (W27_p9 m hR c)
theorem W29_p9 (hR : InRange m) (c : Dev nD) : W29 m hR c main_v40 = W20 m hR c main_v40 := (W29_of_ne m hR c main_v40 (by decide)).trans (W28_p9 m hR c)
theorem W30_p9 (hR : InRange m) (c : Dev nD) : W30 m hR c main_v40 = W20 m hR c main_v40 := (W30_of m hR c main_v40 (by decide)).trans (W29_p9 m hR c)
theorem W31_p9 (hR : InRange m) (c : Dev nD) : W31 m hR c main_v40 = W20 m hR c main_v40 := (W31_of_ne m hR c main_v40 (by decide)).trans (W30_p9 m hR c)
theorem W32_p9 (hR : InRange m) (c : Dev nD) : W32 m hR c main_v40 = W20 m hR c main_v40 := (W32_of m hR c main_v40 (by decide)).trans (W31_p9 m hR c)
theorem W33_p9 (hR : InRange m) (c : Dev nD) : W33 m hR c main_v40 = W20 m hR c main_v40 := (W33_of_ne m hR c main_v40 (by decide)).trans (W32_p9 m hR c)
theorem W34_p9 (hR : InRange m) (c : Dev nD) : W34 m hR c main_v40 = W20 m hR c main_v40 := (W34_of m hR c main_v40 (by decide)).trans (W33_p9 m hR c)
theorem W35_p9 (hR : InRange m) (c : Dev nD) : W35 m hR c main_v40 = W20 m hR c main_v40 := (W35_of_ne m hR c main_v40 (by decide)).trans (W34_p9 m hR c)
theorem W36_p9 (hR : InRange m) (c : Dev nD) : W36 m hR c main_v40 = W20 m hR c main_v40 := (W36_of m hR c main_v40 (by decide)).trans (W35_p9 m hR c)
theorem W37_p9 (hR : InRange m) (c : Dev nD) : W37 m hR c main_v40 = W20 m hR c main_v40 := (W37_of_ne m hR c main_v40 (by decide)).trans (W36_p9 m hR c)
theorem W38_p9 (hR : InRange m) (c : Dev nD) : W38 m hR c main_v40 = W20 m hR c main_v40 := (W38_of m hR c main_v40 (by decide)).trans (W37_p9 m hR c)
theorem W39_p9 (hR : InRange m) (c : Dev nD) : W39 m hR c main_v40 = W20 m hR c main_v40 := (W39_of_ne m hR c main_v40 (by decide)).trans (W38_p9 m hR c)
theorem W40_p9 (hR : InRange m) (c : Dev nD) : W40 m hR c main_v40 = W20 m hR c main_v40 := (W40_of m hR c main_v40 (by decide)).trans (W39_p9 m hR c)
theorem W41_p9 (hR : InRange m) (c : Dev nD) : W41 m hR c main_v40 = W20 m hR c main_v40 := (W41_of_ne m hR c main_v40 (by decide)).trans (W40_p9 m hR c)
theorem W22_p10 (hR : InRange m) (c : Dev nD) : W22 m hR c main_v44 = W22 m hR c main_v44 := rfl
theorem W23_p10 (hR : InRange m) (c : Dev nD) : W23 m hR c main_v44 = W22 m hR c main_v44 := (W23_of_ne m hR c main_v44 (by decide)).trans (W22_p10 m hR c)
theorem W24_p10 (hR : InRange m) (c : Dev nD) : W24 m hR c main_v44 = W22 m hR c main_v44 := (W24_of m hR c main_v44 (by decide)).trans (W23_p10 m hR c)
theorem W25_p10 (hR : InRange m) (c : Dev nD) : W25 m hR c main_v44 = W22 m hR c main_v44 := (W25_of_ne m hR c main_v44 (by decide)).trans (W24_p10 m hR c)
theorem W26_p10 (hR : InRange m) (c : Dev nD) : W26 m hR c main_v44 = W22 m hR c main_v44 := (W26_of m hR c main_v44 (by decide)).trans (W25_p10 m hR c)
theorem W27_p10 (hR : InRange m) (c : Dev nD) : W27 m hR c main_v44 = W22 m hR c main_v44 := (W27_of_ne m hR c main_v44 (by decide)).trans (W26_p10 m hR c)
theorem W28_p10 (hR : InRange m) (c : Dev nD) : W28 m hR c main_v44 = W22 m hR c main_v44 := (W28_of m hR c main_v44 (by decide)).trans (W27_p10 m hR c)
theorem W29_p10 (hR : InRange m) (c : Dev nD) : W29 m hR c main_v44 = W22 m hR c main_v44 := (W29_of_ne m hR c main_v44 (by decide)).trans (W28_p10 m hR c)
theorem W30_p10 (hR : InRange m) (c : Dev nD) : W30 m hR c main_v44 = W22 m hR c main_v44 := (W30_of m hR c main_v44 (by decide)).trans (W29_p10 m hR c)
theorem W31_p10 (hR : InRange m) (c : Dev nD) : W31 m hR c main_v44 = W22 m hR c main_v44 := (W31_of_ne m hR c main_v44 (by decide)).trans (W30_p10 m hR c)
theorem W32_p10 (hR : InRange m) (c : Dev nD) : W32 m hR c main_v44 = W22 m hR c main_v44 := (W32_of m hR c main_v44 (by decide)).trans (W31_p10 m hR c)
theorem W33_p10 (hR : InRange m) (c : Dev nD) : W33 m hR c main_v44 = W22 m hR c main_v44 := (W33_of_ne m hR c main_v44 (by decide)).trans (W32_p10 m hR c)
theorem W34_p10 (hR : InRange m) (c : Dev nD) : W34 m hR c main_v44 = W22 m hR c main_v44 := (W34_of m hR c main_v44 (by decide)).trans (W33_p10 m hR c)
theorem W35_p10 (hR : InRange m) (c : Dev nD) : W35 m hR c main_v44 = W22 m hR c main_v44 := (W35_of_ne m hR c main_v44 (by decide)).trans (W34_p10 m hR c)
theorem W36_p10 (hR : InRange m) (c : Dev nD) : W36 m hR c main_v44 = W22 m hR c main_v44 := (W36_of m hR c main_v44 (by decide)).trans (W35_p10 m hR c)
theorem W37_p10 (hR : InRange m) (c : Dev nD) : W37 m hR c main_v44 = W22 m hR c main_v44 := (W37_of_ne m hR c main_v44 (by decide)).trans (W36_p10 m hR c)
theorem W38_p10 (hR : InRange m) (c : Dev nD) : W38 m hR c main_v44 = W22 m hR c main_v44 := (W38_of m hR c main_v44 (by decide)).trans (W37_p10 m hR c)
theorem W39_p10 (hR : InRange m) (c : Dev nD) : W39 m hR c main_v44 = W22 m hR c main_v44 := (W39_of_ne m hR c main_v44 (by decide)).trans (W38_p10 m hR c)
theorem W40_p10 (hR : InRange m) (c : Dev nD) : W40 m hR c main_v44 = W22 m hR c main_v44 := (W40_of m hR c main_v44 (by decide)).trans (W39_p10 m hR c)
theorem W41_p10 (hR : InRange m) (c : Dev nD) : W41 m hR c main_v44 = W22 m hR c main_v44 := (W41_of_ne m hR c main_v44 (by decide)).trans (W40_p10 m hR c)
theorem W24_p11 (hR : InRange m) (c : Dev nD) : W24 m hR c main_v48 = W24 m hR c main_v48 := rfl
theorem W25_p11 (hR : InRange m) (c : Dev nD) : W25 m hR c main_v48 = W24 m hR c main_v48 := (W25_of_ne m hR c main_v48 (by decide)).trans (W24_p11 m hR c)
theorem W26_p11 (hR : InRange m) (c : Dev nD) : W26 m hR c main_v48 = W24 m hR c main_v48 := (W26_of m hR c main_v48 (by decide)).trans (W25_p11 m hR c)
theorem W27_p11 (hR : InRange m) (c : Dev nD) : W27 m hR c main_v48 = W24 m hR c main_v48 := (W27_of_ne m hR c main_v48 (by decide)).trans (W26_p11 m hR c)
theorem W28_p11 (hR : InRange m) (c : Dev nD) : W28 m hR c main_v48 = W24 m hR c main_v48 := (W28_of m hR c main_v48 (by decide)).trans (W27_p11 m hR c)
theorem W29_p11 (hR : InRange m) (c : Dev nD) : W29 m hR c main_v48 = W24 m hR c main_v48 := (W29_of_ne m hR c main_v48 (by decide)).trans (W28_p11 m hR c)
theorem W30_p11 (hR : InRange m) (c : Dev nD) : W30 m hR c main_v48 = W24 m hR c main_v48 := (W30_of m hR c main_v48 (by decide)).trans (W29_p11 m hR c)
theorem W31_p11 (hR : InRange m) (c : Dev nD) : W31 m hR c main_v48 = W24 m hR c main_v48 := (W31_of_ne m hR c main_v48 (by decide)).trans (W30_p11 m hR c)
theorem W32_p11 (hR : InRange m) (c : Dev nD) : W32 m hR c main_v48 = W24 m hR c main_v48 := (W32_of m hR c main_v48 (by decide)).trans (W31_p11 m hR c)
theorem W33_p11 (hR : InRange m) (c : Dev nD) : W33 m hR c main_v48 = W24 m hR c main_v48 := (W33_of_ne m hR c main_v48 (by decide)).trans (W32_p11 m hR c)
theorem W34_p11 (hR : InRange m) (c : Dev nD) : W34 m hR c main_v48 = W24 m hR c main_v48 := (W34_of m hR c main_v48 (by decide)).trans (W33_p11 m hR c)
theorem W35_p11 (hR : InRange m) (c : Dev nD) : W35 m hR c main_v48 = W24 m hR c main_v48 := (W35_of_ne m hR c main_v48 (by decide)).trans (W34_p11 m hR c)
theorem W36_p11 (hR : InRange m) (c : Dev nD) : W36 m hR c main_v48 = W24 m hR c main_v48 := (W36_of m hR c main_v48 (by decide)).trans (W35_p11 m hR c)
theorem W37_p11 (hR : InRange m) (c : Dev nD) : W37 m hR c main_v48 = W24 m hR c main_v48 := (W37_of_ne m hR c main_v48 (by decide)).trans (W36_p11 m hR c)
theorem W38_p11 (hR : InRange m) (c : Dev nD) : W38 m hR c main_v48 = W24 m hR c main_v48 := (W38_of m hR c main_v48 (by decide)).trans (W37_p11 m hR c)
theorem W39_p11 (hR : InRange m) (c : Dev nD) : W39 m hR c main_v48 = W24 m hR c main_v48 := (W39_of_ne m hR c main_v48 (by decide)).trans (W38_p11 m hR c)
theorem W40_p11 (hR : InRange m) (c : Dev nD) : W40 m hR c main_v48 = W24 m hR c main_v48 := (W40_of m hR c main_v48 (by decide)).trans (W39_p11 m hR c)
theorem W41_p11 (hR : InRange m) (c : Dev nD) : W41 m hR c main_v48 = W24 m hR c main_v48 := (W41_of_ne m hR c main_v48 (by decide)).trans (W40_p11 m hR c)
theorem W26_p12 (hR : InRange m) (c : Dev nD) : W26 m hR c main_v52 = W26 m hR c main_v52 := rfl
theorem W27_p12 (hR : InRange m) (c : Dev nD) : W27 m hR c main_v52 = W26 m hR c main_v52 := (W27_of_ne m hR c main_v52 (by decide)).trans (W26_p12 m hR c)
theorem W28_p12 (hR : InRange m) (c : Dev nD) : W28 m hR c main_v52 = W26 m hR c main_v52 := (W28_of m hR c main_v52 (by decide)).trans (W27_p12 m hR c)
theorem W29_p12 (hR : InRange m) (c : Dev nD) : W29 m hR c main_v52 = W26 m hR c main_v52 := (W29_of_ne m hR c main_v52 (by decide)).trans (W28_p12 m hR c)
theorem W30_p12 (hR : InRange m) (c : Dev nD) : W30 m hR c main_v52 = W26 m hR c main_v52 := (W30_of m hR c main_v52 (by decide)).trans (W29_p12 m hR c)
theorem W31_p12 (hR : InRange m) (c : Dev nD) : W31 m hR c main_v52 = W26 m hR c main_v52 := (W31_of_ne m hR c main_v52 (by decide)).trans (W30_p12 m hR c)
theorem W32_p12 (hR : InRange m) (c : Dev nD) : W32 m hR c main_v52 = W26 m hR c main_v52 := (W32_of m hR c main_v52 (by decide)).trans (W31_p12 m hR c)
theorem W33_p12 (hR : InRange m) (c : Dev nD) : W33 m hR c main_v52 = W26 m hR c main_v52 := (W33_of_ne m hR c main_v52 (by decide)).trans (W32_p12 m hR c)
theorem W34_p12 (hR : InRange m) (c : Dev nD) : W34 m hR c main_v52 = W26 m hR c main_v52 := (W34_of m hR c main_v52 (by decide)).trans (W33_p12 m hR c)
theorem W35_p12 (hR : InRange m) (c : Dev nD) : W35 m hR c main_v52 = W26 m hR c main_v52 := (W35_of_ne m hR c main_v52 (by decide)).trans (W34_p12 m hR c)
theorem W36_p12 (hR : InRange m) (c : Dev nD) : W36 m hR c main_v52 = W26 m hR c main_v52 := (W36_of m hR c main_v52 (by decide)).trans (W35_p12 m hR c)
theorem W37_p12 (hR : InRange m) (c : Dev nD) : W37 m hR c main_v52 = W26 m hR c main_v52 := (W37_of_ne m hR c main_v52 (by decide)).trans (W36_p12 m hR c)
theorem W38_p12 (hR : InRange m) (c : Dev nD) : W38 m hR c main_v52 = W26 m hR c main_v52 := (W38_of m hR c main_v52 (by decide)).trans (W37_p12 m hR c)
theorem W39_p12 (hR : InRange m) (c : Dev nD) : W39 m hR c main_v52 = W26 m hR c main_v52 := (W39_of_ne m hR c main_v52 (by decide)).trans (W38_p12 m hR c)
theorem W40_p12 (hR : InRange m) (c : Dev nD) : W40 m hR c main_v52 = W26 m hR c main_v52 := (W40_of m hR c main_v52 (by decide)).trans (W39_p12 m hR c)
theorem W41_p12 (hR : InRange m) (c : Dev nD) : W41 m hR c main_v52 = W26 m hR c main_v52 := (W41_of_ne m hR c main_v52 (by decide)).trans (W40_p12 m hR c)
theorem W28_p13 (hR : InRange m) (c : Dev nD) : W28 m hR c main_v56 = W28 m hR c main_v56 := rfl
theorem W29_p13 (hR : InRange m) (c : Dev nD) : W29 m hR c main_v56 = W28 m hR c main_v56 := (W29_of_ne m hR c main_v56 (by decide)).trans (W28_p13 m hR c)
theorem W30_p13 (hR : InRange m) (c : Dev nD) : W30 m hR c main_v56 = W28 m hR c main_v56 := (W30_of m hR c main_v56 (by decide)).trans (W29_p13 m hR c)
theorem W31_p13 (hR : InRange m) (c : Dev nD) : W31 m hR c main_v56 = W28 m hR c main_v56 := (W31_of_ne m hR c main_v56 (by decide)).trans (W30_p13 m hR c)
theorem W32_p13 (hR : InRange m) (c : Dev nD) : W32 m hR c main_v56 = W28 m hR c main_v56 := (W32_of m hR c main_v56 (by decide)).trans (W31_p13 m hR c)
theorem W33_p13 (hR : InRange m) (c : Dev nD) : W33 m hR c main_v56 = W28 m hR c main_v56 := (W33_of_ne m hR c main_v56 (by decide)).trans (W32_p13 m hR c)
theorem W34_p13 (hR : InRange m) (c : Dev nD) : W34 m hR c main_v56 = W28 m hR c main_v56 := (W34_of m hR c main_v56 (by decide)).trans (W33_p13 m hR c)
theorem W35_p13 (hR : InRange m) (c : Dev nD) : W35 m hR c main_v56 = W28 m hR c main_v56 := (W35_of_ne m hR c main_v56 (by decide)).trans (W34_p13 m hR c)
theorem W36_p13 (hR : InRange m) (c : Dev nD) : W36 m hR c main_v56 = W28 m hR c main_v56 := (W36_of m hR c main_v56 (by decide)).trans (W35_p13 m hR c)
theorem W37_p13 (hR : InRange m) (c : Dev nD) : W37 m hR c main_v56 = W28 m hR c main_v56 := (W37_of_ne m hR c main_v56 (by decide)).trans (W36_p13 m hR c)
theorem W38_p13 (hR : InRange m) (c : Dev nD) : W38 m hR c main_v56 = W28 m hR c main_v56 := (W38_of m hR c main_v56 (by decide)).trans (W37_p13 m hR c)
theorem W39_p13 (hR : InRange m) (c : Dev nD) : W39 m hR c main_v56 = W28 m hR c main_v56 := (W39_of_ne m hR c main_v56 (by decide)).trans (W38_p13 m hR c)
theorem W40_p13 (hR : InRange m) (c : Dev nD) : W40 m hR c main_v56 = W28 m hR c main_v56 := (W40_of m hR c main_v56 (by decide)).trans (W39_p13 m hR c)
theorem W41_p13 (hR : InRange m) (c : Dev nD) : W41 m hR c main_v56 = W28 m hR c main_v56 := (W41_of_ne m hR c main_v56 (by decide)).trans (W40_p13 m hR c)
theorem W30_p14 (hR : InRange m) (c : Dev nD) : W30 m hR c main_v60 = W30 m hR c main_v60 := rfl
theorem W31_p14 (hR : InRange m) (c : Dev nD) : W31 m hR c main_v60 = W30 m hR c main_v60 := (W31_of_ne m hR c main_v60 (by decide)).trans (W30_p14 m hR c)
theorem W32_p14 (hR : InRange m) (c : Dev nD) : W32 m hR c main_v60 = W30 m hR c main_v60 := (W32_of m hR c main_v60 (by decide)).trans (W31_p14 m hR c)
theorem W33_p14 (hR : InRange m) (c : Dev nD) : W33 m hR c main_v60 = W30 m hR c main_v60 := (W33_of_ne m hR c main_v60 (by decide)).trans (W32_p14 m hR c)
theorem W34_p14 (hR : InRange m) (c : Dev nD) : W34 m hR c main_v60 = W30 m hR c main_v60 := (W34_of m hR c main_v60 (by decide)).trans (W33_p14 m hR c)
theorem W35_p14 (hR : InRange m) (c : Dev nD) : W35 m hR c main_v60 = W30 m hR c main_v60 := (W35_of_ne m hR c main_v60 (by decide)).trans (W34_p14 m hR c)
theorem W36_p14 (hR : InRange m) (c : Dev nD) : W36 m hR c main_v60 = W30 m hR c main_v60 := (W36_of m hR c main_v60 (by decide)).trans (W35_p14 m hR c)
theorem W37_p14 (hR : InRange m) (c : Dev nD) : W37 m hR c main_v60 = W30 m hR c main_v60 := (W37_of_ne m hR c main_v60 (by decide)).trans (W36_p14 m hR c)
theorem W38_p14 (hR : InRange m) (c : Dev nD) : W38 m hR c main_v60 = W30 m hR c main_v60 := (W38_of m hR c main_v60 (by decide)).trans (W37_p14 m hR c)
theorem W39_p14 (hR : InRange m) (c : Dev nD) : W39 m hR c main_v60 = W30 m hR c main_v60 := (W39_of_ne m hR c main_v60 (by decide)).trans (W38_p14 m hR c)
theorem W40_p14 (hR : InRange m) (c : Dev nD) : W40 m hR c main_v60 = W30 m hR c main_v60 := (W40_of m hR c main_v60 (by decide)).trans (W39_p14 m hR c)
theorem W41_p14 (hR : InRange m) (c : Dev nD) : W41 m hR c main_v60 = W30 m hR c main_v60 := (W41_of_ne m hR c main_v60 (by decide)).trans (W40_p14 m hR c)
theorem W32_p15 (hR : InRange m) (c : Dev nD) : W32 m hR c main_v64 = W32 m hR c main_v64 := rfl
theorem W33_p15 (hR : InRange m) (c : Dev nD) : W33 m hR c main_v64 = W32 m hR c main_v64 := (W33_of_ne m hR c main_v64 (by decide)).trans (W32_p15 m hR c)
theorem W34_p15 (hR : InRange m) (c : Dev nD) : W34 m hR c main_v64 = W32 m hR c main_v64 := (W34_of m hR c main_v64 (by decide)).trans (W33_p15 m hR c)
theorem W35_p15 (hR : InRange m) (c : Dev nD) : W35 m hR c main_v64 = W32 m hR c main_v64 := (W35_of_ne m hR c main_v64 (by decide)).trans (W34_p15 m hR c)
theorem W36_p15 (hR : InRange m) (c : Dev nD) : W36 m hR c main_v64 = W32 m hR c main_v64 := (W36_of m hR c main_v64 (by decide)).trans (W35_p15 m hR c)
theorem W37_p15 (hR : InRange m) (c : Dev nD) : W37 m hR c main_v64 = W32 m hR c main_v64 := (W37_of_ne m hR c main_v64 (by decide)).trans (W36_p15 m hR c)
theorem W38_p15 (hR : InRange m) (c : Dev nD) : W38 m hR c main_v64 = W32 m hR c main_v64 := (W38_of m hR c main_v64 (by decide)).trans (W37_p15 m hR c)
theorem W39_p15 (hR : InRange m) (c : Dev nD) : W39 m hR c main_v64 = W32 m hR c main_v64 := (W39_of_ne m hR c main_v64 (by decide)).trans (W38_p15 m hR c)
theorem W40_p15 (hR : InRange m) (c : Dev nD) : W40 m hR c main_v64 = W32 m hR c main_v64 := (W40_of m hR c main_v64 (by decide)).trans (W39_p15 m hR c)
theorem W41_p15 (hR : InRange m) (c : Dev nD) : W41 m hR c main_v64 = W32 m hR c main_v64 := (W41_of_ne m hR c main_v64 (by decide)).trans (W40_p15 m hR c)
theorem W34_p16 (hR : InRange m) (c : Dev nD) : W34 m hR c main_v68 = W34 m hR c main_v68 := rfl
theorem W35_p16 (hR : InRange m) (c : Dev nD) : W35 m hR c main_v68 = W34 m hR c main_v68 := (W35_of_ne m hR c main_v68 (by decide)).trans (W34_p16 m hR c)
theorem W36_p16 (hR : InRange m) (c : Dev nD) : W36 m hR c main_v68 = W34 m hR c main_v68 := (W36_of m hR c main_v68 (by decide)).trans (W35_p16 m hR c)
theorem W37_p16 (hR : InRange m) (c : Dev nD) : W37 m hR c main_v68 = W34 m hR c main_v68 := (W37_of_ne m hR c main_v68 (by decide)).trans (W36_p16 m hR c)
theorem W38_p16 (hR : InRange m) (c : Dev nD) : W38 m hR c main_v68 = W34 m hR c main_v68 := (W38_of m hR c main_v68 (by decide)).trans (W37_p16 m hR c)
theorem W39_p16 (hR : InRange m) (c : Dev nD) : W39 m hR c main_v68 = W34 m hR c main_v68 := (W39_of_ne m hR c main_v68 (by decide)).trans (W38_p16 m hR c)
theorem W40_p16 (hR : InRange m) (c : Dev nD) : W40 m hR c main_v68 = W34 m hR c main_v68 := (W40_of m hR c main_v68 (by decide)).trans (W39_p16 m hR c)
theorem W41_p16 (hR : InRange m) (c : Dev nD) : W41 m hR c main_v68 = W34 m hR c main_v68 := (W41_of_ne m hR c main_v68 (by decide)).trans (W40_p16 m hR c)
theorem W36_p17 (hR : InRange m) (c : Dev nD) : W36 m hR c main_v72 = W36 m hR c main_v72 := rfl
theorem W37_p17 (hR : InRange m) (c : Dev nD) : W37 m hR c main_v72 = W36 m hR c main_v72 := (W37_of_ne m hR c main_v72 (by decide)).trans (W36_p17 m hR c)
theorem W38_p17 (hR : InRange m) (c : Dev nD) : W38 m hR c main_v72 = W36 m hR c main_v72 := (W38_of m hR c main_v72 (by decide)).trans (W37_p17 m hR c)
theorem W39_p17 (hR : InRange m) (c : Dev nD) : W39 m hR c main_v72 = W36 m hR c main_v72 := (W39_of_ne m hR c main_v72 (by decide)).trans (W38_p17 m hR c)
theorem W40_p17 (hR : InRange m) (c : Dev nD) : W40 m hR c main_v72 = W36 m hR c main_v72 := (W40_of m hR c main_v72 (by decide)).trans (W39_p17 m hR c)
theorem W41_p17 (hR : InRange m) (c : Dev nD) : W41 m hR c main_v72 = W36 m hR c main_v72 := (W41_of_ne m hR c main_v72 (by decide)).trans (W40_p17 m hR c)
theorem W38_p18 (hR : InRange m) (c : Dev nD) : W38 m hR c main_v76 = W38 m hR c main_v76 := rfl
theorem W39_p18 (hR : InRange m) (c : Dev nD) : W39 m hR c main_v76 = W38 m hR c main_v76 := (W39_of_ne m hR c main_v76 (by decide)).trans (W38_p18 m hR c)
theorem W40_p18 (hR : InRange m) (c : Dev nD) : W40 m hR c main_v76 = W38 m hR c main_v76 := (W40_of m hR c main_v76 (by decide)).trans (W39_p18 m hR c)
theorem W41_p18 (hR : InRange m) (c : Dev nD) : W41 m hR c main_v76 = W38 m hR c main_v76 := (W41_of_ne m hR c main_v76 (by decide)).trans (W40_p18 m hR c)
theorem W40_p19 (hR : InRange m) (c : Dev nD) : W40 m hR c main_v80 = W40 m hR c main_v80 := rfl
theorem W41_p19 (hR : InRange m) (c : Dev nD) : W41 m hR c main_v80 = W40 m hR c main_v80 := (W41_of_ne m hR c main_v80 (by decide)).trans (W40_p19 m hR c)

end Walk

end Cert.KernelIdeal.Hand

end
-- ==== Proof.LibMatmulPlain.lean ====
/-
  A plain matrix product on the extended reals, read at an entry.

  The dimension record of an M×K by K×N product (contract the left operand's axis 1 with the right operand's
  axis 0, no batch axis) is, whatever its well-formedness proof, the library's `DotDims.plain M K N`. At the ideal
  instance such a product into a zero accumulator is, at entry (i, j), the finite sum over q of l[i, q] · r[q, j]; with
  the right operand given as the transpose of an N×K matrix w, the sum over q of l[i, q] · w[j, q].
  The contraction index of the record is re-indexed to `Fin K` through the library's one-axis equivalence, and each
  operand index is identified coordinate by coordinate.
-/
import Idealize.ShloMosaic.PureOps.Ideal.Laws
import Idealize.ShloMosaic.Lib.ValueIdx
import Idealize.ShloMosaic.Lib.ValueLayout

namespace Cert.LibMatmulPlain

open Idealize.ShloMosaic Idealize.ShloMosaic.ValueIdx
open scoped BigOperators

variable {M K N : ℕ}

/-- The left operand's row coordinate is the result's row coordinate. -/
theorem lhs_plain_0 (i : (⟨2, ![M, N]⟩ : Shape).Idx) (q : (DotDims.plain M K N).contr.Idx) :
    ((DotDims.plain M K N).lhsIdx i q 0).val = (i 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton_self _)]
  rfl

/-- The left operand's column coordinate is the contraction index. -/
theorem lhs_plain_1 (i : (⟨2, ![M, N]⟩ : Shape).Idx) (q : (DotDims.plain M K N).contr.Idx) :
    ((DotDims.plain M K N).lhsIdx i q 1).val = (q ⟨0, Nat.one_pos⟩).val :=
  (DotDims.plain M K N).lhsIdx_val_of_single rfl i q

/-- The right operand's row coordinate is the contraction index. -/
theorem rhs_plain_0 (i : (⟨2, ![M, N]⟩ : Shape).Idx) (q : (DotDims.plain M K N).contr.Idx) :
    ((DotDims.plain M K N).rhsIdx i q 0).val = (q ⟨0, Nat.one_pos⟩).val :=
  (DotDims.plain M K N).rhsIdx_val_of_single rfl i q

/-- The right operand's column coordinate is the result's column coordinate. -/
theorem rhs_plain_1 (i : (⟨2, ![M, N]⟩ : Shape).Idx) (q : (DotDims.plain M K N).contr.Idx) :
    ((DotDims.plain M K N).rhsIdx i q 1).val = (i 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton_self _)]
  rfl

/-- Entry (i, j) of l·r, accumulated into zero: the sum over q of l[i, q] · r[q, j]. -/
theorem matmul_plain_apply {φ₁ φ₂ : FTy} (l : FVec Ideal ⟨2, ![M, K]⟩ φ₁) (r : FVec Ideal ⟨2, ![K, N]⟩ φ₂) (i : Fin M) (j : Fin N) :
    matmul (DotDims.plain M K N) none l r (constant ⟨2, ![M, N]⟩ .f32 0x00000000#32) (ix2 i j)
      = ∑ q : Fin K, l (ix2 i q) * r (ix2 q j) := by
  simp only [matmul]
  rw [Ideal.matmul_constant_zero_apply, ← Equiv.sum_comp (contrEquiv1 (DotDims.plain M K N) K rfl rfl).symm]
  refine Finset.sum_congr rfl fun q _ => ?_
  have hq := contrEquiv1_symm_val (DotDims.plain M K N) K rfl rfl q
  have el : (DotDims.plain M K N).lhsIdx (ix2 i j) ((contrEquiv1 (DotDims.plain M K N) K rfl rfl).symm q) = ix2 i q :=
    funext fun a => Fin.ext (by
      match a with
      | ⟨0, _⟩ => exact lhs_plain_0 _ _
      | ⟨1, _⟩ => exact (lhs_plain_1 _ _).trans hq)
  have er : (DotDims.plain M K N).rhsIdx (ix2 i j) ((contrEquiv1 (DotDims.plain M K N) K rfl rfl).symm q) = ix2 q j :=
    funext fun a => Fin.ext (by
      match a with
      | ⟨0, _⟩ => exact (rhs_plain_0 _ _).trans hq
      | ⟨1, _⟩ => exact rhs_plain_1 _ _)
  rw [el, er]

/-- Entry (i, j) of l·wᵀ for an N×K matrix w: the sum over q of l[i, q] · w[j, q]. -/
theorem matmul_plain_transpose_apply {φ₁ φ₂ : FTy} (l : FVec Ideal ⟨2, ![M, K]⟩ φ₁) (w : FVec Ideal ⟨2, ![N, K]⟩ φ₂)
    (h : (⟨2, ![N, K]⟩ : Shape).Transposes [1, 0] ⟨2, ![K, N]⟩) (i : Fin M) (j : Fin N) :
    matmul (DotDims.plain M K N) none l (transpose ⟨2, ![K, N]⟩ [1, 0] w h) (constant ⟨2, ![M, N]⟩ .f32 0x00000000#32) (ix2 i j)
      = ∑ q : Fin K, l (ix2 i q) * w (ix2 j q) := by
  rw [matmul_plain_apply]
  exact Finset.sum_congr rfl fun q _ => by rw [transpose_ix2_apply]

end Cert.LibMatmulPlain
-- ==== Proof.KI.ProjValue.lean ====
/-
  What the projection call leaves in its two output arrays, entry by entry.

  The call walks a 2×10 grid. At point (b, q) it reads the [1, 5000, 64] block of the activations x at block index
  (b, q, 0) and the two whole 64×64 weight matrices, and writes to block (b, q, 0) of each output the product of the
  block's 5000×64 matrix with the transpose of a weight matrix, summed exactly: entry (0, r, e) of the stored block is
  Σ_d x[b, 5000·q + r, d] · W[e, d]. Every point writes its blocks back, and the blocks tile the outputs: entry
  (b, n, e) lies in the block of the point with block index (b, n / 5000, 0), at row n mod 5000. So after the last point
  output entry (b, n, e) is Σ_d x[b, n, d] · W[e, d], the specification's projected feature, for W the first weight
  matrix in the first output and the second in the second.
  The steps: a stored block read at an entry (the unit axis dropped and restored, the narrowing the identity on the
  extended reals, the product into a zero accumulator the finite sum); each input block read where the output's
  rectangle says; the relations between the index maps decided once over the twenty points; block membership and the
  cover by arithmetic; the whole array from its covering blocks.
-/
import proofs.«413139_j22651657519351_3_alg».proof.Proof.KI.Region0
import proofs.«413139_j22651657519351_3_alg».proof.Proof.Spec
import proofs.«413139_j22651657519351_3_alg».proof.Proof.LibMatmulPlain
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.Hand

open Cert.KernelIdeal Cert.KernelIdeal.Gen
open Idealize.ShloMosaic Idealize.ShloMosaic.TcCoe Idealize.SL.Sem
open Idealize.ShloMosaic.Pipeline (Dat)

namespace Proj

/-! ## A stored block at an entry -/

/-- The printed dimension record of the block product is the plain 5000×64 by 64×64 one. -/
theorem dot_eq_plain : dot_S5000x64_S64x64_S5000x64_1_0_0_1_n_n = DotDims.plain 5000 64 64 := rfl

/-- Entry (0, r, e) of the first stored block: row r of the activations block against row e of the weight matrix. -/
theorem pay2_apply (x0 : Vec Ideal S1x5000x64 .f32) (x1 : Vec Ideal S64x64 .f32) (r : Fin 5000) (e : Fin 64) :
    k0_pay2 (F := Ideal) x0 x1 (ValueIdx.ix3 (0 : Fin 1) r e)
      = ∑ d : Fin 64, x0 (ValueIdx.ix3 (0 : Fin 1) r d) * x1 (ValueIdx.ix2 e d) := by
  unfold k0_pay2 k0_pay1
  refine (ValueIdx.shapeCast_ab_1ab_apply _ _ (0 : Fin 1) r e).trans ?_
  refine (Cert.LibMatmulPlain.matmul_plain_transpose_apply (M := 5000) (K := 64) (N := 64) _ _ _ r e).trans ?_
  refine Finset.sum_congr rfl fun d _ => ?_
  exact congrArg (· * x1 (ValueIdx.ix2 e d)) (ValueIdx.shapeCast_1ab_ab_apply x0 _ r d)

/-- Entry (0, r, e) of the second stored block. -/
theorem pay3_apply (x0 : Vec Ideal S1x5000x64 .f32) (x2 : Vec Ideal S64x64 .f32) (r : Fin 5000) (e : Fin 64) :
    k0_pay3 (F := Ideal) x0 x2 (ValueIdx.ix3 (0 : Fin 1) r e)
      = ∑ d : Fin 64, x0 (ValueIdx.ix3 (0 : Fin 1) r d) * x2 (ValueIdx.ix2 e d) := by
  unfold k0_pay3 k0_pay1
  refine (ValueIdx.shapeCast_ab_1ab_apply _ _ (0 : Fin 1) r e).trans ?_
  refine (Cert.LibMatmulPlain.matmul_plain_transpose_apply (M := 5000) (K := 64) (N := 64) _ _ _ r e).trans ?_
  refine Finset.sum_congr rfl fun d _ => ?_
  exact congrArg (· * x2 (ValueIdx.ix2 e d)) (ValueIdx.shapeCast_1ab_ab_apply x0 _ r d)

/-- The projected array as one function of the argument arrays. -/
abbrev projArr (x : FVec Ideal S2x50000x64 .f32) (w : FVec Ideal S64x64 .f32) : FVec Ideal S2x50000x64 .f32 :=
  fun i => Cert.Spec.proj x w (i 0) (i 1) (i 2)

/-- A row-block sum is a projected feature. The activations block x0 is the array X read through f, which sends block
    entry (0, r, d) to array entry (o0, 5000·o1 + r, d); the weight block x1 is the matrix W read through g, which moves
    nothing. Then the sum at block entry y is the projected feature at the array entry i that y lands on. -/
theorem block_sum_proj (X : FVec Ideal S2x50000x64 .f32) (W : FVec Ideal S64x64 .f32)
    (x0 : Vec Ideal S1x5000x64 .f32) (x1 : Vec Ideal S64x64 .f32)
    (f : S1x5000x64.Idx → S2x50000x64.Idx) (g : S64x64.Idx → S64x64.Idx)
    (hx0 : ∀ y', x0 y' = X (f y')) (hx1 : ∀ z, x1 z = W (g z)) (o0 o1 : Nat)
    (hf0 : ∀ y', (f y' 0).val = o0) (hf1 : ∀ y', (f y' 1).val = o1 * 5000 + (y' 1).val) (hf2 : ∀ y', (f y' 2).val = (y' 2).val)
    (hg0 : ∀ z, (g z 0).val = (z 0).val) (hg1 : ∀ z, (g z 1).val = (z 1).val)
    (y : S1x5000x64.Idx) (i : S2x50000x64.Idx)
    (hi0 : (i 0).val = o0) (hi1 : (i 1).val = o1 * 5000 + (y 1).val) (hi2 : (i 2).val = (y 2).val) :
    (∑ d : Fin 64, x0 (ValueIdx.ix3 (0 : Fin 1) (y 1) d) * x1 (ValueIdx.ix2 (y 2) d)) = projArr X W i := by
  obtain ⟨b, n, e', rfl⟩ : ∃ (b : Fin 2) (n : Fin 50000) (e' : Fin 64), i = ValueIdx.ix3 b n e' := ⟨i 0, i 1, i 2, ValueIdx.eq_ix3 i⟩
  obtain ⟨u, r, e, rfl⟩ : ∃ (u : Fin 1) (r : Fin 5000) (e : Fin 64), y = ValueIdx.ix3 u r e := ⟨y 0, y 1, y 2, ValueIdx.eq_ix3 y⟩
  show (∑ d : Fin 64, x0 (ValueIdx.ix3 (0 : Fin 1) r d) * x1 (ValueIdx.ix2 e d)) = Cert.Spec.proj X W b n e'
  unfold Cert.Spec.proj
  refine Finset.sum_congr rfl fun d _ => ?_
  rw [hx0, hx1]
  have e0 : f (ValueIdx.ix3 (0 : Fin 1) r d) = ValueIdx.ix3 b n d := funext fun a => Fin.ext (by
    match a with
    | ⟨0, _⟩ => exact (hf0 _).trans hi0.symm
    | ⟨1, _⟩ => exact (hf1 _).trans hi1.symm
    | ⟨2, _⟩ => exact hf2 _)
  have e1 : g (ValueIdx.ix2 e d) = ValueIdx.ix2 e' d := funext fun a => Fin.ext (by
    match a with
    | ⟨0, _⟩ => exact (hg0 _).trans hi2.symm
    | ⟨1, _⟩ => exact hg1 _)
  rw [e0, e1]

/-- The first stored block at entry y is that sum. -/
theorem pay2_at (x0 : Vec Ideal S1x5000x64 .f32) (x1 : Vec Ideal S64x64 .f32) (y : S1x5000x64.Idx) :
    k0_pay2 (F := Ideal) x0 x1 y = ∑ d : Fin 64, x0 (ValueIdx.ix3 (0 : Fin 1) (y 1) d) * x1 (ValueIdx.ix2 (y 2) d) := by
  obtain ⟨u, r, e, rfl⟩ : ∃ (u : Fin 1) (r : Fin 5000) (e : Fin 64), y = ValueIdx.ix3 u r e := ⟨y 0, y 1, y 2, ValueIdx.eq_ix3 y⟩
  obtain rfl : u = 0 := Subsingleton.elim _ _
  exact pay2_apply x0 x1 r e

/-- The second stored block at entry y likewise. -/
theorem pay3_at (x0 : Vec Ideal S1x5000x64 .f32) (x2 : Vec Ideal S64x64 .f32) (y : S1x5000x64.Idx) :
    k0_pay3 (F := Ideal) x0 x2 y = ∑ d : Fin 64, x0 (ValueIdx.ix3 (0 : Fin 1) (y 1) d) * x2 (ValueIdx.ix2 (y 2) d) := by
  obtain ⟨u, r, e, rfl⟩ : ∃ (u : Fin 1) (r : Fin 5000) (e : Fin 64), y = ValueIdx.ix3 u r e := ⟨y 0, y 1, y 2, ValueIdx.eq_ix3 y⟩
  obtain rfl : u = 0 := Subsingleton.elim _ _
  exact pay3_apply x0 x2 r e

/-! ## The grid's index maps -/

variable (V : (c : Dev nD) → (b : Ref sig .tc) → Buf (Elt Ideal) ((c : Thread nD τ).loc b))

theorem hz3 : (![0, 0, 0] : Fin 3 → Nat) = fun _ => 0 := funext fun a => by fin_cases a <;> rfl
theorem hz2 : (![0, 0] : Fin 2 → Nat) = fun _ => 0 := funext fun a => by fin_cases a <;> rfl

/-- The printed index maps, decided once over the 2×10 grid: the activations window and both output windows move
    together over the batch and row-block axes and stay at 0 on the feature axis; the weight windows never move; the
    output's block indices stay in their ranges. -/
theorem idx_facts : ∀ t : Fin cfg0.N,
    win0_0.index t (0 : Fin 3) = win0_3.index t (0 : Fin 3) ∧ win0_0.index t (1 : Fin 3) = win0_3.index t (1 : Fin 3)
    ∧ win0_0.index t (2 : Fin 3) = 0 ∧ win0_3.index t (2 : Fin 3) = 0
    ∧ win0_1.index t (0 : Fin 2) = 0 ∧ win0_1.index t (1 : Fin 2) = 0
    ∧ win0_2.index t (0 : Fin 2) = 0 ∧ win0_2.index t (1 : Fin 2) = 0
    ∧ win0_4.index t (0 : Fin 3) = win0_3.index t (0 : Fin 3) ∧ win0_4.index t (1 : Fin 3) = win0_3.index t (1 : Fin 3)
    ∧ win0_4.index t (2 : Fin 3) = 0
    ∧ win0_3.index t (0 : Fin 3) ≤ 1 ∧ win0_3.index t (1 : Fin 3) ≤ 9 :=
  (by decide +kernel : ∀ t : Fin grid0.N, _)

/-- Every (batch, row block) pair is some grid point's block index. -/
theorem idx_onto : ∀ (q0 : Fin 2) (q1 : Fin 10), ∃ t : Fin cfg0.N, win0_3.index t = ![q0.val, q1.val, 0] :=
  (by decide +kernel : ∀ (q0 : Fin 2) (q1 : Fin 10), ∃ t : Fin grid0.N, win0_3.index t = ![q0.val, q1.val, 0])

/-! ## What each point writes back -/

/-- WHAT POINT t WRITES BACK to the first output is block t of the projected array of the arguments. -/
theorem flushed3_eq (c : Dev nD) (t : Fin cfg0.N) :
    (dat0 (F := Ideal) V c).flushed 3 t
      = ((cfg0.win 3).blk t).view.read (Elt Ideal) (projArr (V c main_arg0) (V c main_arg3)) := by
  show (cfg0.win 3).cut (grid0.coords t) ((dat0 (F := Ideal) V c).after 3 t) = _
  rw [after0_3]
  unfold out0_3
  rw [View.canon_unit_zero hz3]
  simp only [View.ld_unit_zero (S := S1x5000x64) hz3, View.ld_unit_zero (S := S64x64) hz2]
  funext y
  show k0_pay2 (F := Ideal) (iblk0 V c 0 t) (iblk0 V c 1 t) y
    = projArr (V c main_arg0) (V c main_arg3) (((cfg0.win 3).blk t).view.emb y)
  obtain ⟨e0, e1, e2, e3, e4, e5, -⟩ := idx_facts t
  have hy0 : (y 0).val < 1 := (y 0).isLt
  refine (pay2_at (iblk0 V c 0 t) (iblk0 V c 1 t) y).trans ?_
  refine block_sum_proj (V c main_arg0) (V c main_arg3) (iblk0 V c 0 t) (iblk0 V c 1 t)
    (fun y' => ((cfg0.win 0).blk t).view.emb y') (fun z => ((cfg0.win 1).blk t).view.emb z)
    (fun _ => rfl) (fun _ => rfl) (win0_3.index t (0 : Fin 3)) (win0_3.index t (1 : Fin 3))
    ?_ ?_ ?_ ?_ ?_ y (((cfg0.win 3).blk t).view.emb y) ?_ ?_ ?_
  · intro y'
    have h0 : (y' 0).val < 1 := (y' 0).isLt
    show win0_0.index t (0 : Fin 3) * 1 + 1 * (y' 0).val = win0_3.index t (0 : Fin 3)
    omega
  · intro y'
    show win0_0.index t (1 : Fin 3) * 5000 + 1 * (y' 1).val = win0_3.index t (1 : Fin 3) * 5000 + (y' 1).val
    omega
  · intro y'
    show win0_0.index t (2 : Fin 3) * 64 + 1 * (y' 2).val = (y' 2).val
    omega
  · intro z
    show win0_1.index t (0 : Fin 2) * 64 + 1 * (z 0).val = (z 0).val
    omega
  · intro z
    show win0_1.index t (1 : Fin 2) * 64 + 1 * (z 1).val = (z 1).val
    omega
  · show win0_3.index t (0 : Fin 3) * 1 + 1 * (y 0).val = win0_3.index t (0 : Fin 3)
    omega
  · show win0_3.index t (1 : Fin 3) * 5000 + 1 * (y 1).val = win0_3.index t (1 : Fin 3) * 5000 + (y 1).val
    omega
  · show win0_3.index t (2 : Fin 3) * 64 + 1 * (y 2).val = (y 2).val
    omega

/-- WHAT POINT t WRITES BACK to the second output is block t of the second projected array. -/
theorem flushed4_eq (c : Dev nD) (t : Fin cfg0.N) :
    (dat0 (F := Ideal) V c).flushed 4 t
      = ((cfg0.win 4).blk t).view.read (Elt Ideal) (projArr (V c main_arg0) (V c main_arg4)) := by
  show (cfg0.win 4).cut (grid0.coords t) ((dat0 (F := Ideal) V c).after 4 t) = _
  rw [after0_4]
  unfold out0_4
  rw [View.canon_unit_zero hz3]
  simp only [View.ld_unit_zero (S := S1x5000x64) hz3, View.ld_unit_zero (S := S64x64) hz2]
  funext y
  show k0_pay3 (F := Ideal) (iblk0 V c 0 t) (iblk0 V c 2 t) y
    = projArr (V c main_arg0) (V c main_arg4) (((cfg0.win 4).blk t).view.emb y)
  obtain ⟨e0, e1, e2, e3, -, -, e6, e7, e8, e9, e10, -⟩ := idx_facts t
  have hy0 : (y 0).val < 1 := (y 0).isLt
  refine (pay3_at (iblk0 V c 0 t) (iblk0 V c 2 t) y).trans ?_
  refine block_sum_proj (V c main_arg0) (V c main_arg4) (iblk0 V c 0 t) (iblk0 V c 2 t)
    (fun y' => ((cfg0.win 0).blk t).view.emb y') (fun z => ((cfg0.win 2).blk t).view.emb z)
    (fun _ => rfl) (fun _ => rfl) (win0_3.index t (0 : Fin 3)) (win0_3.index t (1 : Fin 3))
    ?_ ?_ ?_ ?_ ?_ y (((cfg0.win 4).blk t).view.emb y) ?_ ?_ ?_
  · intro y'
    have h0 : (y' 0).val < 1 := (y' 0).isLt
    show win0_0.index t (0 : Fin 3) * 1 + 1 * (y' 0).val = win0_3.index t (0 : Fin 3)
    omega
  · intro y'
    show win0_0.index t (1 : Fin 3) * 5000 + 1 * (y' 1).val = win0_3.index t (1 : Fin 3) * 5000 + (y' 1).val
    omega
  · intro y'
    show win0_0.index t (2 : Fin 3) * 64 + 1 * (y' 2).val = (y' 2).val
    omega
  · intro z
    show win0_2.index t (0 : Fin 2) * 64 + 1 * (z 0).val = (z 0).val
    omega
  · intro z
    show win0_2.index t (1 : Fin 2) * 64 + 1 * (z 1).val = (z 1).val
    omega
  · show win0_4.index t (0 : Fin 3) * 1 + 1 * (y 0).val = win0_3.index t (0 : Fin 3)
    omega
  · show win0_4.index t (1 : Fin 3) * 5000 + 1 * (y 1).val = win0_3.index t (1 : Fin 3) * 5000 + (y 1).val
    omega
  · show win0_4.index t (2 : Fin 3) * 64 + 1 * (y 2).val = (y 2).val
    omega

/-! ## From the blocks to the arrays -/

/-- An entry of the first output array is in point t's block iff each coordinate is in the block's range on its axis. -/
theorem mem_blk3 (t : Fin cfg0.N) (i : S2x50000x64.Idx) :
    i ∈ ((cfg0.win 3).blk t).view.set ↔ ∀ a : Fin 3, win0_3.index t a * S1x5000x64.size a ≤ (i a).val
      ∧ (i a).val < win0_3.index t a * S1x5000x64.size a + S1x5000x64.size a := by
  show i ∈ ((View.whole main_v0_0).slice (win0_3.rect t)).set ↔ _
  rw [View.set_slice_whole, Rect.mem_set_unit]
  exact Iff.rfl

/-- The same for the second output array. -/
theorem mem_blk4 (t : Fin cfg0.N) (i : S2x50000x64.Idx) :
    i ∈ ((cfg0.win 4).blk t).view.set ↔ ∀ a : Fin 3, win0_4.index t a * S1x5000x64.size a ≤ (i a).val
      ∧ (i a).val < win0_4.index t a * S1x5000x64.size a + S1x5000x64.size a := by
  show i ∈ ((View.whole main_v0_1).slice (win0_4.rect t)).set ↔ _
  rw [View.set_slice_whole, Rect.mem_set_unit]
  exact Iff.rfl

/-- THE BLOCKS COVER the first output: entry (b, n, e) is in the block of the point with block index (b, n / 5000, 0). -/
theorem cover3 (i : S2x50000x64.Idx) :
    ∃ t : Fin cfg0.N, (cfg0.win 3).flush t = true ∧ i ∈ ((cfg0.win 3).blk t).view.set := by
  have hi0 : (i 0).val < 2 := (i 0).isLt
  have hi1 : (i 1).val < 50000 := (i 1).isLt
  have hi2 : (i 2).val < 64 := (i 2).isLt
  obtain ⟨t, ht⟩ := idx_onto ⟨(i 0).val, hi0⟩ ⟨(i 1).val / 5000, by omega⟩
  have q0 : win0_3.index t (0 : Fin 3) = (i 0).val := congrFun ht 0
  have q1 : win0_3.index t (1 : Fin 3) = (i 1).val / 5000 := congrFun ht 1
  have q2 : win0_3.index t (2 : Fin 3) = 0 := congrFun ht 2
  refine ⟨t, flush0_3 t, ?_⟩
  rw [mem_blk3]
  intro a
  match a with
  | ⟨0, _⟩ =>
    show win0_3.index t (0 : Fin 3) * 1 ≤ (i 0).val ∧ (i 0).val < win0_3.index t (0 : Fin 3) * 1 + 1
    omega
  | ⟨1, _⟩ =>
    show win0_3.index t (1 : Fin 3) * 5000 ≤ (i 1).val ∧ (i 1).val < win0_3.index t (1 : Fin 3) * 5000 + 5000
    omega
  | ⟨2, _⟩ =>
    show win0_3.index t (2 : Fin 3) * 64 ≤ (i 2).val ∧ (i 2).val < win0_3.index t (2 : Fin 3) * 64 + 64
    omega

/-- THE BLOCKS COVER the second output: its window moves with the first's. -/
theorem cover4 (i : S2x50000x64.Idx) :
    ∃ t : Fin cfg0.N, (cfg0.win 4).flush t = true ∧ i ∈ ((cfg0.win 4).blk t).view.set := by
  have hi0 : (i 0).val < 2 := (i 0).isLt
  have hi1 : (i 1).val < 50000 := (i 1).isLt
  have hi2 : (i 2).val < 64 := (i 2).isLt
  obtain ⟨t, ht⟩ := idx_onto ⟨(i 0).val, hi0⟩ ⟨(i 1).val / 5000, by omega⟩
  have q0 : win0_3.index t (0 : Fin 3) = (i 0).val := congrFun ht 0
  have q1 : win0_3.index t (1 : Fin 3) = (i 1).val / 5000 := congrFun ht 1
  obtain ⟨-, -, -, -, -, -, -, -, e8, e9, e10, -⟩ := idx_facts t
  refine ⟨t, flush0_4 t, ?_⟩
  rw [mem_blk4]
  intro a
  match a with
  | ⟨0, _⟩ =>
    show win0_4.index t (0 : Fin 3) * 1 ≤ (i 0).val ∧ (i 0).val < win0_4.index t (0 : Fin 3) * 1 + 1
    omega
  | ⟨1, _⟩ =>
    show win0_4.index t (1 : Fin 3) * 5000 ≤ (i 1).val ∧ (i 1).val < win0_4.index t (1 : Fin 3) * 5000 + 5000
    omega
  | ⟨2, _⟩ =>
    show win0_4.index t (2 : Fin 3) * 64 ≤ (i 2).val ∧ (i 2).val < win0_4.index t (2 : Fin 3) * 64 + 64
    omega

/-- THE FIRST OUTPUT ARRAY after the last point: the projection of the activations by the first weight matrix. -/
theorem final3 (c : Dev nD) :
    (dat0 (F := Ideal) V c).arrAt 3 cfg0.N = projArr (V c main_arg0) (V c main_arg3) :=
  (dat0 (F := Ideal) V c).arrAt_eq_of_cover 3 (projArr (V c main_arg0) (V c main_arg3)) (fun t _ => flushed3_eq V c t) cover3

/-- THE SECOND OUTPUT ARRAY after the last point: the projection by the second weight matrix. -/
theorem final4 (c : Dev nD) :
    (dat0 (F := Ideal) V c).arrAt 4 cfg0.N = projArr (V c main_arg0) (V c main_arg4) :=
  (dat0 (F := Ideal) V c).arrAt_eq_of_cover 4 (projArr (V c main_arg0) (V c main_arg4)) (fun t _ => flushed4_eq V c t) cover4

end Proj

/-! ## The two output arrays, entry by entry -/

section
variable (V : (c : Dev nD) → (b : Ref sig .tc) → Buf (Elt Ideal) ((c : Thread nD τ).loc b))

/-- Entry (b, n, e) of the first output array after the call: row (b, n) of the activations against row e of the first
    weight matrix. -/
theorem proj_hs (c : Dev nD) (b : Fin 2) (n : Fin 50000) (e : Fin 64) :
    ((dat0 (F := Ideal) V c).arrAt 3 cfg0.N : FVec Ideal S2x50000x64 .f32) (ValueIdx.ix3 b n e)
      = Cert.Spec.proj (V c main_arg0) (V c main_arg3) b n e :=
  congrFun (Proj.final3 V c) (ValueIdx.ix3 b n e)

/-- Entry (b, n, e) of the second output array after the call: the same row against row e of the second weight matrix. -/
theorem proj_hd (c : Dev nD) (b : Fin 2) (n : Fin 50000) (e : Fin 64) :
    ((dat0 (F := Ideal) V c).arrAt 4 cfg0.N : FVec Ideal S2x50000x64 .f32) (ValueIdx.ix3 b n e)
      = Cert.Spec.proj (V c main_arg0) (V c main_arg4) b n e :=
  congrFun (Proj.final4 V c) (ValueIdx.ix3 b n e)

end

end Cert.KernelIdeal.Hand

end
-- ==== Proof.Layout.lean ====
/-
  The host re-layouts of the program read at an index.

  The program's host code moves no arithmetic: it only re-lays arrays. At the head, an array of shape [2, 50000, 64] has
  its two leading axes swapped and is then read as [50000, 1, 128]: the two 64-wide halves of a row lie side by side in a
  128-wide row. At the tail, twenty arrays of shape [40000, 1, 128] lose their unit axis, are stacked along the rows
  (sixteen, then four, then the two stacks) into [800000, 128]; every 128-wide row is split into two 64-wide halves,
  [800000, 2, 64], and the two leading axes are swapped, [2, 800000, 64].

  Each theorem below says what such a re-layout holds AT ONE INDEX, in terms of its operand at one index:
    • swapping the two leading axes of a rank-3 array: (j, i, k) reads (i, j, k);
    • a row-major re-reading keeps the row-major position, so the coordinates on both sides are tied by one linear
      equation with division and remainder by the literal widths (64 and 128);
    • a stack of N pieces of K rows each, read at row r, is piece r / K read at row r % K.
  The side conditions of the operations (that the shapes fit) are hypotheses of every statement, so a statement applies
  to the operation whatever proof of its side condition it carries.
-/
import Idealize.ShloMosaic.Lib.ValueLayout

namespace Cert.Layout

open Idealize.ShloMosaic Idealize.ShloMosaic.ValueIdx

variable {α : Type}

/-! ## Swapping the two leading axes -/

/-- A rank-3 array with its two leading axes swapped (permutation `[1, 0, 2]`) reads, at `(j, i, k)`, the operand at
    `(i, j, k)`. -/
theorem transpose_ix3_102_apply {a b c : ℕ} (x : (⟨3, ![a, b, c]⟩ : Shape).Idx → α)
    (h : (⟨3, ![a, b, c]⟩ : Shape).Transposes [1, 0, 2] ⟨3, ![b, a, c]⟩) (j : Fin b) (i : Fin a) (k : Fin c) :
    transpose ⟨3, ![b, a, c]⟩ [1, 0, 2] x h (ix3 j i k) = x (ix3 i j k) :=
  transpose_apply _ x h _ _ fun d => match d with | ⟨0, _⟩ => rfl | ⟨1, _⟩ => rfl | ⟨2, _⟩ => rfl

/-! ## The head: [2, 50000, 64] → [50000, 2, 64] → [50000, 1, 128] -/

/-- Two 64-wide half rows read as one 128-wide row: position `l` of the wide row is position `l % 64` of half
    `l / 64`. Row-major positions: `(n * 2 + l / 64) * 64 + l % 64 = (n * 1 + 0) * 128 + l`. -/
theorem shapeCast_halves_join_apply {N : ℕ} (x : (⟨3, ![N, 2, 64]⟩ : Shape).Idx → α)
    (h : (⟨3, ![N, 2, 64]⟩ : Shape).ShapeCasts ⟨3, ![N, 1, 128]⟩) (n : Fin N) (u : Fin 1) (l : Fin 128) :
    shapeCast ⟨3, ![N, 1, 128]⟩ x h (ix3 n u l)
      = x (ix3 n (⟨l.val / 64, by omega⟩ : Fin 2) (⟨l.val % 64, by omega⟩ : Fin 64)) :=
  shapeCast_apply x h _ _ (by
    rw [Shape.rowMajor_val_three, Shape.rowMajor_val_three]
    show (n.val * 2 + l.val / 64) * 64 + l.val % 64 = (n.val * 1 + u.val) * 128 + l.val
    omega)

/-- **The head re-layout at an index**: row `n`, position `l` of the [50000, 1, 128] array is the source's plane
    `l / 64`, row `n`, position `l % 64`. -/
theorem head_apply (hs : (⟨3, ![2, 50000, 64]⟩ : Shape).Idx → α)
    (ht : (⟨3, ![2, 50000, 64]⟩ : Shape).Transposes [1, 0, 2] ⟨3, ![50000, 2, 64]⟩)
    (hc : (⟨3, ![50000, 2, 64]⟩ : Shape).ShapeCasts ⟨3, ![50000, 1, 128]⟩) (n : Fin 50000) (l : Fin 128) :
    shapeCast ⟨3, ![50000, 1, 128]⟩ (transpose ⟨3, ![50000, 2, 64]⟩ [1, 0, 2] hs ht) hc (ix3 n (0 : Fin 1) l)
      = hs (ix3 (⟨l.val / 64, by omega⟩ : Fin 2) n (⟨l.val % 64, by omega⟩ : Fin 64)) :=
  (shapeCast_halves_join_apply _ hc n 0 l).trans (transpose_ix3_102_apply hs ht n _ _)

/-! ## One piece of the tail: [40000, 1, 128] → [40000, 128] -/

/-- A middle unit axis dropped: `(i, l)` reads `(i, 0, l)`. Row-major positions: `i * 128 + l = (i * 1 + 0) * 128 + l`. -/
theorem shapeCast_dropMid_apply {N W : ℕ} (o : (⟨3, ![N, 1, W]⟩ : Shape).Idx → α)
    (hc : (⟨3, ![N, 1, W]⟩ : Shape).ShapeCasts ⟨2, ![N, W]⟩) (i : Fin N) (l : Fin W) :
    shapeCast ⟨2, ![N, W]⟩ o hc (ix2 i l) = o (ix3 i (0 : Fin 1) l) :=
  shapeCast_apply o hc _ _ (by
    rw [Shape.rowMajor_val_three, Shape.rowMajor_val_two]
    show (i.val * 1 + 0) * W + l.val = i.val * W + l.val
    rw [Nat.mul_one, Nat.add_zero])

/-- **One piece's re-layout at an index.** -/
theorem piece_apply (o : (⟨3, ![40000, 1, 128]⟩ : Shape).Idx → α)
    (hc : (⟨3, ![40000, 1, 128]⟩ : Shape).ShapeCasts ⟨2, ![40000, 128]⟩) (i : Fin 40000) (l : Fin 128) :
    shapeCast ⟨2, ![40000, 128]⟩ o hc (ix2 i l) = o (ix3 i (0 : Fin 1) l) :=
  shapeCast_dropMid_apply o hc i l

/-! ## Stacks of equal-height pieces -/

/-- A stack along the rows of `N` matrices of `K` rows each, read at row `r`: piece `r / K` at row `r % K`. -/
theorem concatenate_rows_ofFn_apply {N K W T : ℕ} (f : Fin N → ((⟨2, ![K, W]⟩ : Shape).Idx → α))
    (h : Shape.Concatenates ((List.ofFn fun n : Fin N => (⟨⟨2, ![K, W]⟩, f n⟩ : (s : Shape) × (s.Idx → α))).map (·.1))
      ⟨2, ![T, W]⟩ 0)
    (r : Fin T) (l : Fin W) (k : Fin N) (q : Fin K) (hk : r.val / K = k.val) (hq : q.val = r.val % K) :
    concatenate ⟨2, ![T, W]⟩ 0 (List.ofFn fun n : Fin N => (⟨⟨2, ![K, W]⟩, f n⟩ : (s : Shape) × (s.Idx → α))) h (ix2 r l)
      = f k (ix2 q l) :=
  concatenate_ofFn_apply 0 f h rfl K rfl (ix2 r l) k hk (ix2 q l) hq
    (fun b hb => match b, hb with
      | ⟨0, _⟩, hb => absurd rfl hb
      | ⟨1, _⟩, _ => rfl)

/-- Sixteen pieces of 40000 rows stacked: row `r` is row `r % 40000` of piece `r / 40000`. -/
theorem concat16_apply (p0 p1 p2 p3 p4 p5 p6 p7 p8 p9 p10 p11 p12 p13 p14 p15 : (⟨2, ![40000, 128]⟩ : Shape).Idx → α)
    (h : Shape.Concatenates [⟨2, ![40000, 128]⟩, ⟨2, ![40000, 128]⟩, ⟨2, ![40000, 128]⟩, ⟨2, ![40000, 128]⟩, ⟨2, ![40000, 128]⟩, ⟨2, ![40000, 128]⟩, ⟨2, ![40000, 128]⟩, ⟨2, ![40000, 128]⟩, ⟨2, ![40000, 128]⟩, ⟨2, ![40000, 128]⟩, ⟨2, ![40000, 128]⟩, ⟨2, ![40000, 128]⟩, ⟨2, ![40000, 128]⟩, ⟨2, ![40000, 128]⟩, ⟨2, ![40000, 128]⟩, ⟨2, ![40000, 128]⟩] ⟨2, ![640000, 128]⟩ 0) (r : Fin 640000) (l : Fin 128) :
    concatenate ⟨2, ![640000, 128]⟩ 0 [⟨⟨2, ![40000, 128]⟩, p0⟩, ⟨⟨2, ![40000, 128]⟩, p1⟩, ⟨⟨2, ![40000, 128]⟩, p2⟩, ⟨⟨2, ![40000, 128]⟩, p3⟩, ⟨⟨2, ![40000, 128]⟩, p4⟩, ⟨⟨2, ![40000, 128]⟩, p5⟩, ⟨⟨2, ![40000, 128]⟩, p6⟩, ⟨⟨2, ![40000, 128]⟩, p7⟩, ⟨⟨2, ![40000, 128]⟩, p8⟩, ⟨⟨2, ![40000, 128]⟩, p9⟩, ⟨⟨2, ![40000, 128]⟩, p10⟩, ⟨⟨2, ![40000, 128]⟩, p11⟩, ⟨⟨2, ![40000, 128]⟩, p12⟩, ⟨⟨2, ![40000, 128]⟩, p13⟩, ⟨⟨2, ![40000, 128]⟩, p14⟩, ⟨⟨2, ![40000, 128]⟩, p15⟩] h (ix2 r l)
      = (![p0, p1, p2, p3, p4, p5, p6, p7, p8, p9, p10, p11, p12, p13, p14, p15] : Fin 16 → _) (⟨r.val / 40000, by omega⟩ : Fin 16) (ix2 (⟨r.val % 40000, by omega⟩ : Fin 40000) l) :=
  concatenate_rows_ofFn_apply (![p0, p1, p2, p3, p4, p5, p6, p7, p8, p9, p10, p11, p12, p13, p14, p15] : Fin 16 → _) h r l _ _ rfl rfl

/-- Four pieces of 40000 rows stacked. -/
theorem concat4_apply (p0 p1 p2 p3 : (⟨2, ![40000, 128]⟩ : Shape).Idx → α)
    (h : Shape.Concatenates [⟨2, ![40000, 128]⟩, ⟨2, ![40000, 128]⟩, ⟨2, ![40000, 128]⟩, ⟨2, ![40000, 128]⟩] ⟨2, ![160000, 128]⟩ 0) (r : Fin 160000) (l : Fin 128) :
    concatenate ⟨2, ![160000, 128]⟩ 0 [⟨⟨2, ![40000, 128]⟩, p0⟩, ⟨⟨2, ![40000, 128]⟩, p1⟩, ⟨⟨2, ![40000, 128]⟩, p2⟩, ⟨⟨2, ![40000, 128]⟩, p3⟩] h (ix2 r l)
      = (![p0, p1, p2, p3] : Fin 4 → _) (⟨r.val / 40000, by omega⟩ : Fin 4) (ix2 (⟨r.val % 40000, by omega⟩ : Fin 40000) l) :=
  concatenate_rows_ofFn_apply (![p0, p1, p2, p3] : Fin 4 → _) h r l _ _ rfl rfl

/-! ## A stack of two matrices -/

/-- Two matrices stacked along the rows, read at a row above the first one's height: the first, at that row. -/
theorem concatenate_rows_pair_left {A B T W : ℕ} (x₁ : (⟨2, ![A, W]⟩ : Shape).Idx → α)
    (x₂ : (⟨2, ![B, W]⟩ : Shape).Idx → α) (h : Shape.Concatenates [⟨2, ![A, W]⟩, ⟨2, ![B, W]⟩] ⟨2, ![T, W]⟩ 0)
    (j : Fin T) (l : Fin W) (hj : j.val < A) :
    concatenate ⟨2, ![T, W]⟩ 0 [⟨⟨2, ![A, W]⟩, x₁⟩, ⟨⟨2, ![B, W]⟩, x₂⟩] h (ix2 j l) = x₁ (ix2 (⟨j.val, hj⟩ : Fin A) l) :=
  concatenate_pair_apply_left 0 x₁ x₂ h (ix2 j l) rfl (ix2 (⟨j.val, hj⟩ : Fin A) l)
    (fun b => match b with | ⟨0, _⟩ => rfl | ⟨1, _⟩ => rfl)

/-- Two matrices stacked along the rows, read at a row from the first one's height on: the second, at that row less the
    first one's height. -/
theorem concatenate_rows_pair_right {A B T W : ℕ} (x₁ : (⟨2, ![A, W]⟩ : Shape).Idx → α)
    (x₂ : (⟨2, ![B, W]⟩ : Shape).Idx → α) (h : Shape.Concatenates [⟨2, ![A, W]⟩, ⟨2, ![B, W]⟩] ⟨2, ![T, W]⟩ 0)
    (j : Fin T) (l : Fin W) (hj : A ≤ j.val) (hj' : j.val - A < B) :
    concatenate ⟨2, ![T, W]⟩ 0 [⟨⟨2, ![A, W]⟩, x₁⟩, ⟨⟨2, ![B, W]⟩, x₂⟩] h (ix2 j l)
      = x₂ (ix2 (⟨j.val - A, hj'⟩ : Fin B) l) :=
  concatenate_pair_apply_right 0 x₁ x₂ h (ix2 j l) rfl rfl (ix2 (⟨j.val - A, hj'⟩ : Fin B) l)
    (fun b hb => match b, hb with
      | ⟨0, _⟩, hb => absurd rfl hb
      | ⟨1, _⟩, _ => rfl)
    (Nat.sub_add_cancel hj)

/-! ## The twenty pieces as one family -/

/-- The twenty pieces, by piece number. -/
def pieces (p0 p1 p2 p3 p4 p5 p6 p7 p8 p9 p10 p11 p12 p13 p14 p15 p16 p17 p18 p19 : (⟨2, ![40000, 128]⟩ : Shape).Idx → α) : Fin 20 → ((⟨2, ![40000, 128]⟩ : Shape).Idx → α) :=
  ![p0, p1, p2, p3, p4, p5, p6, p7, p8, p9, p10, p11, p12, p13, p14, p15, p16, p17, p18, p19]

/-- A family read off piece by piece is the family. -/
theorem pieces_eq_fn (g : Fin 20 → ((⟨2, ![40000, 128]⟩ : Shape).Idx → α)) :
    pieces (g 0) (g 1) (g 2) (g 3) (g 4) (g 5) (g 6) (g 7) (g 8) (g 9) (g 10) (g 11) (g 12) (g 13) (g 14) (g 15) (g 16) (g 17) (g 18) (g 19) = g := by
  funext k
  match k with
  | ⟨0, _⟩ => rfl
  | ⟨1, _⟩ => rfl
  | ⟨2, _⟩ => rfl
  | ⟨3, _⟩ => rfl
  | ⟨4, _⟩ => rfl
  | ⟨5, _⟩ => rfl
  | ⟨6, _⟩ => rfl
  | ⟨7, _⟩ => rfl
  | ⟨8, _⟩ => rfl
  | ⟨9, _⟩ => rfl
  | ⟨10, _⟩ => rfl
  | ⟨11, _⟩ => rfl
  | ⟨12, _⟩ => rfl
  | ⟨13, _⟩ => rfl
  | ⟨14, _⟩ => rfl
  | ⟨15, _⟩ => rfl
  | ⟨16, _⟩ => rfl
  | ⟨17, _⟩ => rfl
  | ⟨18, _⟩ => rfl
  | ⟨19, _⟩ => rfl
  | ⟨n + 20, h⟩ => exact absurd h (by omega)

/-- Among the first sixteen, the family of twenty is the family of sixteen. -/
theorem pieces_lo (p0 p1 p2 p3 p4 p5 p6 p7 p8 p9 p10 p11 p12 p13 p14 p15 p16 p17 p18 p19 : (⟨2, ![40000, 128]⟩ : Shape).Idx → α) (k : Fin 16) (k' : Fin 20) (hk : k'.val = k.val) :
    (![p0, p1, p2, p3, p4, p5, p6, p7, p8, p9, p10, p11, p12, p13, p14, p15] : Fin 16 → _) k = pieces p0 p1 p2 p3 p4 p5 p6 p7 p8 p9 p10 p11 p12 p13 p14 p15 p16 p17 p18 p19 k' := by
  obtain rfl : k' = Fin.castLE (by decide) k := Fin.ext hk
  match k with
  | ⟨0, _⟩ => rfl
  | ⟨1, _⟩ => rfl
  | ⟨2, _⟩ => rfl
  | ⟨3, _⟩ => rfl
  | ⟨4, _⟩ => rfl
  | ⟨5, _⟩ => rfl
  | ⟨6, _⟩ => rfl
  | ⟨7, _⟩ => rfl
  | ⟨8, _⟩ => rfl
  | ⟨9, _⟩ => rfl
  | ⟨10, _⟩ => rfl
  | ⟨11, _⟩ => rfl
  | ⟨12, _⟩ => rfl
  | ⟨13, _⟩ => rfl
  | ⟨14, _⟩ => rfl
  | ⟨15, _⟩ => rfl
  | ⟨n + 16, h⟩ => exact absurd h (by omega)

/-- Past the first sixteen, the family of twenty is the family of the last four. -/
theorem pieces_hi (p0 p1 p2 p3 p4 p5 p6 p7 p8 p9 p10 p11 p12 p13 p14 p15 p16 p17 p18 p19 : (⟨2, ![40000, 128]⟩ : Shape).Idx → α) (k : Fin 4) (k' : Fin 20) (hk : k'.val = 16 + k.val) :
    (![p16, p17, p18, p19] : Fin 4 → _) k = pieces p0 p1 p2 p3 p4 p5 p6 p7 p8 p9 p10 p11 p12 p13 p14 p15 p16 p17 p18 p19 k' := by
  obtain rfl : k' = Fin.natAdd 16 k := Fin.ext hk
  match k with
  | ⟨0, _⟩ => rfl
  | ⟨1, _⟩ => rfl
  | ⟨2, _⟩ => rfl
  | ⟨3, _⟩ => rfl
  | ⟨n + 4, h⟩ => exact absurd h (by omega)

/-! ## The stack of stacks: [640000, 128] over [160000, 128] -/

/-- **The whole stack at a row**: the sixteen pieces stacked, over the last four stacked, read at row `j`, is piece
    `j / 40000` at row `j % 40000`. Below row 640000 the row lies in the first stack, whose piece `j / 40000` is the
    family's; from row 640000 on it lies in the second stack at row `j - 640000`, whose piece
    `(j - 640000) / 40000 = j / 40000 - 16` is the family's piece `j / 40000`, and `(j - 640000) % 40000 = j % 40000`
    since `640000 = 16 * 40000`. -/
theorem stack_apply (p0 p1 p2 p3 p4 p5 p6 p7 p8 p9 p10 p11 p12 p13 p14 p15 p16 p17 p18 p19 : (⟨2, ![40000, 128]⟩ : Shape).Idx → α)
    (h16 : Shape.Concatenates [⟨2, ![40000, 128]⟩, ⟨2, ![40000, 128]⟩, ⟨2, ![40000, 128]⟩, ⟨2, ![40000, 128]⟩, ⟨2, ![40000, 128]⟩, ⟨2, ![40000, 128]⟩, ⟨2, ![40000, 128]⟩, ⟨2, ![40000, 128]⟩, ⟨2, ![40000, 128]⟩, ⟨2, ![40000, 128]⟩, ⟨2, ![40000, 128]⟩, ⟨2, ![40000, 128]⟩, ⟨2, ![40000, 128]⟩, ⟨2, ![40000, 128]⟩, ⟨2, ![40000, 128]⟩, ⟨2, ![40000, 128]⟩] ⟨2, ![640000, 128]⟩ 0)
    (h4 : Shape.Concatenates [⟨2, ![40000, 128]⟩, ⟨2, ![40000, 128]⟩, ⟨2, ![40000, 128]⟩, ⟨2, ![40000, 128]⟩] ⟨2, ![160000, 128]⟩ 0)
    (h2 : Shape.Concatenates [⟨2, ![640000, 128]⟩, ⟨2, ![160000, 128]⟩] ⟨2, ![800000, 128]⟩ 0)
    (j : Fin 800000) (l : Fin 128) :
    concatenate ⟨2, ![800000, 128]⟩ 0
      [⟨⟨2, ![640000, 128]⟩, concatenate ⟨2, ![640000, 128]⟩ 0 [⟨⟨2, ![40000, 128]⟩, p0⟩, ⟨⟨2, ![40000, 128]⟩, p1⟩, ⟨⟨2, ![40000, 128]⟩, p2⟩, ⟨⟨2, ![40000, 128]⟩, p3⟩, ⟨⟨2, ![40000, 128]⟩, p4⟩, ⟨⟨2, ![40000, 128]⟩, p5⟩, ⟨⟨2, ![40000, 128]⟩, p6⟩, ⟨⟨2, ![40000, 128]⟩, p7⟩, ⟨⟨2, ![40000, 128]⟩, p8⟩, ⟨⟨2, ![40000, 128]⟩, p9⟩, ⟨⟨2, ![40000, 128]⟩, p10⟩, ⟨⟨2, ![40000, 128]⟩, p11⟩, ⟨⟨2, ![40000, 128]⟩, p12⟩, ⟨⟨2, ![40000, 128]⟩, p13⟩, ⟨⟨2, ![40000, 128]⟩, p14⟩, ⟨⟨2, ![40000, 128]⟩, p15⟩] h16⟩,
       ⟨⟨2, ![160000, 128]⟩, concatenate ⟨2, ![160000, 128]⟩ 0 [⟨⟨2, ![40000, 128]⟩, p16⟩, ⟨⟨2, ![40000, 128]⟩, p17⟩, ⟨⟨2, ![40000, 128]⟩, p18⟩, ⟨⟨2, ![40000, 128]⟩, p19⟩] h4⟩] h2 (ix2 j l)
      = pieces p0 p1 p2 p3 p4 p5 p6 p7 p8 p9 p10 p11 p12 p13 p14 p15 p16 p17 p18 p19 (⟨j.val / 40000, by omega⟩ : Fin 20) (ix2 (⟨j.val % 40000, by omega⟩ : Fin 40000) l) := by
  by_cases hj : j.val < 640000
  · refine (concatenate_pair_apply_left 0 _ _ h2 (ix2 j l) rfl (ix2 (⟨j.val, hj⟩ : Fin 640000) l)
      (fun b => match b with | ⟨0, _⟩ => rfl | ⟨1, _⟩ => rfl)).trans ?_
    refine (concat16_apply p0 p1 p2 p3 p4 p5 p6 p7 p8 p9 p10 p11 p12 p13 p14 p15 h16 ⟨j.val, hj⟩ l).trans ?_
    exact congrFun (pieces_lo p0 p1 p2 p3 p4 p5 p6 p7 p8 p9 p10 p11 p12 p13 p14 p15 p16 p17 p18 p19 _ _ rfl) _
  · have hj' : j.val - 640000 < 160000 := by omega
    refine (concatenate_rows_pair_right _ _ h2 j l (by omega) hj').trans ?_
    refine (concat4_apply p16 p17 p18 p19 h4 ⟨j.val - 640000, hj'⟩ l).trans ?_
    have e1 : (j.val - 640000) / 40000 + 16 = j.val / 40000 := by omega
    have e2 : (j.val - 640000) % 40000 = j.val % 40000 := by omega
    refine (congrFun (pieces_hi p0 p1 p2 p3 p4 p5 p6 p7 p8 p9 p10 p11 p12 p13 p14 p15 p16 p17 p18 p19 _ (⟨j.val / 40000, by omega⟩ : Fin 20) (by show j.val / 40000 = 16 + (j.val - 640000) / 40000; omega)) _).trans ?_
    exact congrArg _ (congrArg (fun q => ix2 q l) (Fin.ext e2))

/-! ## The tail: [800000, 128] → [800000, 2, 64] → [2, 800000, 64] -/

/-- A 128-wide row read as two 64-wide halves: position `e` of half `b` is position `b * 64 + e` of the wide row.
    Row-major positions: `j * 128 + (b * 64 + e) = (j * 2 + b) * 64 + e`. -/
theorem shapeCast_halves_split_apply {N : ℕ} (x : (⟨2, ![N, 128]⟩ : Shape).Idx → α)
    (h : (⟨2, ![N, 128]⟩ : Shape).ShapeCasts ⟨3, ![N, 2, 64]⟩) (j : Fin N) (b : Fin 2) (e : Fin 64) :
    shapeCast ⟨3, ![N, 2, 64]⟩ x h (ix3 j b e) = x (ix2 j (⟨b.val * 64 + e.val, by omega⟩ : Fin 128)) :=
  shapeCast_apply x h _ _ (by
    rw [Shape.rowMajor_val_three, Shape.rowMajor_val_two]
    show j.val * 128 + (b.val * 64 + e.val) = (j.val * 2 + b.val) * 64 + e.val
    omega)

/-- The split rows with the two leading axes swapped: `(b, j, e)` reads row `j`, position `b * 64 + e`. -/
theorem split_swap_apply {N : ℕ} (x : (⟨2, ![N, 128]⟩ : Shape).Idx → α)
    (hc : (⟨2, ![N, 128]⟩ : Shape).ShapeCasts ⟨3, ![N, 2, 64]⟩)
    (ht : (⟨3, ![N, 2, 64]⟩ : Shape).Transposes [1, 0, 2] ⟨3, ![2, N, 64]⟩) (b : Fin 2) (j : Fin N) (e : Fin 64) :
    transpose ⟨3, ![2, N, 64]⟩ [1, 0, 2] (shapeCast ⟨3, ![N, 2, 64]⟩ x hc) ht (ix3 b j e)
      = x (ix2 j (⟨b.val * 64 + e.val, by omega⟩ : Fin 128)) :=
  (transpose_ix3_102_apply _ ht b j e).trans (shapeCast_halves_split_apply x hc j b e)

/-- **The tail re-layout at an index**: plane `b`, row `j`, position `e` of the [2, 800000, 64] array is piece
    `j / 40000` at row `j % 40000`, position `b * 64 + e`. -/
theorem tail_apply (p0 p1 p2 p3 p4 p5 p6 p7 p8 p9 p10 p11 p12 p13 p14 p15 p16 p17 p18 p19 : (⟨2, ![40000, 128]⟩ : Shape).Idx → α)
    (h16 : Shape.Concatenates [⟨2, ![40000, 128]⟩, ⟨2, ![40000, 128]⟩, ⟨2, ![40000, 128]⟩, ⟨2, ![40000, 128]⟩, ⟨2, ![40000, 128]⟩, ⟨2, ![40000, 128]⟩, ⟨2, ![40000, 128]⟩, ⟨2, ![40000, 128]⟩, ⟨2, ![40000, 128]⟩, ⟨2, ![40000, 128]⟩, ⟨2, ![40000, 128]⟩, ⟨2, ![40000, 128]⟩, ⟨2, ![40000, 128]⟩, ⟨2, ![40000, 128]⟩, ⟨2, ![40000, 128]⟩, ⟨2, ![40000, 128]⟩] ⟨2, ![640000, 128]⟩ 0)
    (h4 : Shape.Concatenates [⟨2, ![40000, 128]⟩, ⟨2, ![40000, 128]⟩, ⟨2, ![40000, 128]⟩, ⟨2, ![40000, 128]⟩] ⟨2, ![160000, 128]⟩ 0)
    (h2 : Shape.Concatenates [⟨2, ![640000, 128]⟩, ⟨2, ![160000, 128]⟩] ⟨2, ![800000, 128]⟩ 0)
    (hc : (⟨2, ![800000, 128]⟩ : Shape).ShapeCasts ⟨3, ![800000, 2, 64]⟩)
    (ht : (⟨3, ![800000, 2, 64]⟩ : Shape).Transposes [1, 0, 2] ⟨3, ![2, 800000, 64]⟩)
    (b : Fin 2) (j : Fin 800000) (e : Fin 64) :
    transpose ⟨3, ![2, 800000, 64]⟩ [1, 0, 2] (shapeCast ⟨3, ![800000, 2, 64]⟩
      (concatenate ⟨2, ![800000, 128]⟩ 0
      [⟨⟨2, ![640000, 128]⟩, concatenate ⟨2, ![640000, 128]⟩ 0 [⟨⟨2, ![40000, 128]⟩, p0⟩, ⟨⟨2, ![40000, 128]⟩, p1⟩, ⟨⟨2, ![40000, 128]⟩, p2⟩, ⟨⟨2, ![40000, 128]⟩, p3⟩, ⟨⟨2, ![40000, 128]⟩, p4⟩, ⟨⟨2, ![40000, 128]⟩, p5⟩, ⟨⟨2, ![40000, 128]⟩, p6⟩, ⟨⟨2, ![40000, 128]⟩, p7⟩, ⟨⟨2, ![40000, 128]⟩, p8⟩, ⟨⟨2, ![40000, 128]⟩, p9⟩, ⟨⟨2, ![40000, 128]⟩, p10⟩, ⟨⟨2, ![40000, 128]⟩, p11⟩, ⟨⟨2, ![40000, 128]⟩, p12⟩, ⟨⟨2, ![40000, 128]⟩, p13⟩, ⟨⟨2, ![40000, 128]⟩, p14⟩, ⟨⟨2, ![40000, 128]⟩, p15⟩] h16⟩,
       ⟨⟨2, ![160000, 128]⟩, concatenate ⟨2, ![160000, 128]⟩ 0 [⟨⟨2, ![40000, 128]⟩, p16⟩, ⟨⟨2, ![40000, 128]⟩, p17⟩, ⟨⟨2, ![40000, 128]⟩, p18⟩, ⟨⟨2, ![40000, 128]⟩, p19⟩] h4⟩] h2) hc) ht (ix3 b j e)
      = pieces p0 p1 p2 p3 p4 p5 p6 p7 p8 p9 p10 p11 p12 p13 p14 p15 p16 p17 p18 p19 (⟨j.val / 40000, by omega⟩ : Fin 20)
          (ix2 (⟨j.val % 40000, by omega⟩ : Fin 40000) (⟨b.val * 64 + e.val, by omega⟩ : Fin 128)) :=
  (split_swap_apply _ hc ht b j e).trans (stack_apply p0 p1 p2 p3 p4 p5 p6 p7 p8 p9 p10 p11 p12 p13 p14 p15 p16 p17 p18 p19 h16 h4 h2 j _)

end Cert.Layout
-- ==== Proof.SpecRows.lean ====
/-
  The specification read row by row, in the layout the kernel assembles it in. The kernel produces the result as an
  [800000, 128] array (edge j, lane l = batch · 64 + feature) cut into twenty chunks of 40000 edges:
      edgeRow j l = (hs[l / 64, src[j], l % 64] + hd[l / 64, dst[j], l % 64]) · c,
  chunk k holding rows 40000·k … 40000·k + 39999. Entry (b, j, e) of the specification is edgeRow j (64·b + e).
-/
import proofs.«413139_j22651657519351_3_alg».proof.Proof.Spec

noncomputable section

open scoped BigOperators

namespace Cert.Spec

open Idealize.ShloMosaic Idealize.ShloMosaic.ValueIdx

theorem lane_div (l : Fin 128) : l.val / 64 < 2 := by have := l.isLt; omega
theorem lane_mod (l : Fin 128) : l.val % 64 < 64 := Nat.mod_lt _ (by norm_num)

/-- Lane l of edge j's row. -/
def edgeRow (x : FVec Ideal ⟨3, ![2, 50000, 64]⟩ .f32) (src dst : IVec ⟨1, ![800000]⟩ 32) (ws wd : FVec Ideal ⟨2, ![64, 64]⟩ .f32)
    (j : Fin 800000) (l : Fin 128) : EReal :=
  (proj x ws ⟨l.val / 64, lane_div l⟩ (node (src (ix1 j))) ⟨l.val % 64, lane_mod l⟩
    + proj x wd ⟨l.val / 64, lane_div l⟩ (node (dst (ix1 j))) ⟨l.val % 64, lane_mod l⟩) * scale

theorem chunk_lt (k : Fin 20) (t : Fin 40000) : 40000 * k.val + t.val < 800000 := by
  have := k.isLt; have := t.isLt; omega

/-- Chunk k of the rows: a [40000, 128] array. -/
def chunk (x : FVec Ideal ⟨3, ![2, 50000, 64]⟩ .f32) (src dst : IVec ⟨1, ![800000]⟩ 32) (ws wd : FVec Ideal ⟨2, ![64, 64]⟩ .f32)
    (k : Fin 20) : FVec Ideal ⟨2, ![40000, 128]⟩ .f32 :=
  fun i => edgeRow x src dst ws wd ⟨40000 * k.val + (i 0).val, chunk_lt k (i 0)⟩ (i 1)

theorem chunk_apply (x : FVec Ideal ⟨3, ![2, 50000, 64]⟩ .f32) (src dst : IVec ⟨1, ![800000]⟩ 32) (ws wd : FVec Ideal ⟨2, ![64, 64]⟩ .f32)
    (k : Fin 20) (t : Fin 40000) (l : Fin 128) :
    chunk x src dst ws wd k (ix2 t l) = edgeRow x src dst ws wd ⟨40000 * k.val + t.val, chunk_lt k t⟩ l := rfl

/-- The chunk that holds edge j, read at j's place in it, is j's row. -/
theorem chunk_div_mod (x : FVec Ideal ⟨3, ![2, 50000, 64]⟩ .f32) (src dst : IVec ⟨1, ![800000]⟩ 32) (ws wd : FVec Ideal ⟨2, ![64, 64]⟩ .f32)
    (j : Fin 800000) (l : Fin 128) (h1 : j.val / 40000 < 20) (h2 : j.val % 40000 < 40000) :
    chunk x src dst ws wd ⟨j.val / 40000, h1⟩ (ix2 ⟨j.val % 40000, h2⟩ l) = edgeRow x src dst ws wd j l := by
  rw [chunk_apply]
  congr 1
  exact Fin.ext (Nat.div_add_mod j.val 40000)

/-- Entry (b, j, e) of the specification is lane 64·b + e of edge j's row. -/
theorem G_eq_edgeRow (x : FVec Ideal ⟨3, ![2, 50000, 64]⟩ .f32) (src dst : IVec ⟨1, ![800000]⟩ 32) (ws wd : FVec Ideal ⟨2, ![64, 64]⟩ .f32)
    (b : Fin 2) (j : Fin 800000) (e : Fin 64) (h : b.val * 64 + e.val < 128) :
    G x src dst ws wd (ix3 b j e) = edgeRow x src dst ws wd j ⟨b.val * 64 + e.val, h⟩ := by
  rw [G_apply]
  unfold edgeRow
  have hb : (⟨(b.val * 64 + e.val) / 64, lane_div ⟨b.val * 64 + e.val, h⟩⟩ : Fin 2) = b := Fin.ext (by
    show (b.val * 64 + e.val) / 64 = b.val
    have := e.isLt; omega)
  have he : (⟨(b.val * 64 + e.val) % 64, lane_mod ⟨b.val * 64 + e.val, h⟩⟩ : Fin 64) = e := Fin.ext (by
    show (b.val * 64 + e.val) % 64 = e.val
    have := e.isLt; omega)
  simp only [hb, he]

end Cert.Spec

end
-- ==== Proof.KI.Hs2.lean ====
/-
  The re-laid projections at the first gather call's entry.

  Host stretch 1 swaps the two leading axes of each projection output hs[b, n, e] (shape [2, 50000, 64]), giving
  [50000, 2, 64], and reads the result as [50000, 1, 128]: the two 64-wide halves of a row side by side, so row n,
  lane l holds hs[l / 64, n, l % 64]. The projection call's outputs are, entry by entry, the specification's projected
  features of the launch-time arrays (the call leaves its argument arrays as launched). So lane l of row n of a re-laid
  array is the projected feature (batch l / 64, node n, feature l % 64) of x against the weight matrix: the first
  weight matrix for the first array, the second for the second.
-/
import proofs.«413139_j22651657519351_3_alg».proof.Proof.KI.Fold
import proofs.«413139_j22651657519351_3_alg».proof.Proof.KI.ProjValue
import proofs.«413139_j22651657519351_3_alg».proof.Proof.Layout
import proofs.«413139_j22651657519351_3_alg».proof.Proof.SpecRows
import Idealize.ShloMosaic.Lib.StableHlo.Run
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL.Sem

section Hs2

/-! ## Host stretch 1 at an entry, from any valuation -/

/-- Host stretch 1 leaves in the first re-laid array, at row n and lane l, the first projection output's entry
    (l / 64, n, l % 64): the two leading axes swapped, then two 64-wide halves read as one 128-wide row. -/
theorem after1_v2 (Wv : Valuation τ sig (Elt Ideal)) (n : Fin 50000) (l : Fin 128) :
    (StableHlo.after (hostOps1 (F := Ideal)) Wv (Proc.devRef .tc main_v2) : FVec Ideal S50000x1x128 .f32) (ValueIdx.ix3 n (0 : Fin 1) l)
      = (Wv (Proc.devRef .tc main_v0_0) : FVec Ideal S2x50000x64 .f32) (ValueIdx.ix3 (⟨l.val / 64, by omega⟩ : Fin 2) n (⟨l.val % 64, by omega⟩ : Fin 64)) := by
  after_results
  exact Cert.Layout.head_apply _ _ _ n l

/-- The same for the second re-laid array and the second projection output. -/
theorem after1_v4 (Wv : Valuation τ sig (Elt Ideal)) (n : Fin 50000) (l : Fin 128) :
    (StableHlo.after (hostOps1 (F := Ideal)) Wv (Proc.devRef .tc main_v4) : FVec Ideal S50000x1x128 .f32) (ValueIdx.ix3 n (0 : Fin 1) l)
      = (Wv (Proc.devRef .tc main_v0_1) : FVec Ideal S2x50000x64 .f32) (ValueIdx.ix3 (⟨l.val / 64, by omega⟩ : Fin 2) n (⟨l.val % 64, by omega⟩ : Fin 64)) := by
  after_results
  exact Cert.Layout.head_apply _ _ _ n l

/-! ## At the first gather call's entry -/

variable (m : (ℓ : Loc nD τ sig) → Buf (Elt Ideal) ℓ) (hR : InRange m)

/-- Row n, lane l of the re-laid source projection. -/
theorem hs2_apply (c : Dev nD) (n : Fin 50000) (l : Fin 128) :
    (W2 (F := Ideal) m hR c main_v2 : FVec Ideal S50000x1x128 .f32) (ValueIdx.ix3 n (0 : Fin 1) l)
      = Cert.Spec.proj (m ((c : Thread nD τ).loc main_arg0)) (m ((c : Thread nD τ).loc main_arg3))
          ⟨l.val / 64, Cert.Spec.lane_div l⟩ n ⟨l.val % 64, Cert.Spec.lane_mod l⟩ := by
  refine (after1_v2 (W1 (F := Ideal) m hR c) n l).trans ?_
  refine (congrFun (W1_arr (F := Ideal) m hR c 3) _).trans ?_
  exact proj_hs (V0 (F := Ideal) m hR) c ⟨l.val / 64, Cert.Spec.lane_div l⟩ n ⟨l.val % 64, Cert.Spec.lane_mod l⟩

/-- Row n, lane l of the re-laid destination projection. -/
theorem hd2_apply (c : Dev nD) (n : Fin 50000) (l : Fin 128) :
    (W2 (F := Ideal) m hR c main_v4 : FVec Ideal S50000x1x128 .f32) (ValueIdx.ix3 n (0 : Fin 1) l)
      = Cert.Spec.proj (m ((c : Thread nD τ).loc main_arg0)) (m ((c : Thread nD τ).loc main_arg4))
          ⟨l.val / 64, Cert.Spec.lane_div l⟩ n ⟨l.val % 64, Cert.Spec.lane_mod l⟩ := by
  refine (after1_v4 (W1 (F := Ideal) m hR c) n l).trans ?_
  refine (congrFun (W1_arr (F := Ideal) m hR c 4) _).trans ?_
  exact proj_hd (V0 (F := Ideal) m hR) c ⟨l.val / 64, Cert.Spec.lane_div l⟩ n ⟨l.val % 64, Cert.Spec.lane_mod l⟩

end Hs2

end Cert.KernelIdeal.Hand

end
-- ==== Proof.KI.GatherValue1.lean ====
/-
  Edge chunk 1's gather kernel: what it leaves in its output array, entry by entry, at the ideal (extended-real)
  instance, for any contents V of the buffers at the region's entry and any admissible contents of the two index tables.

  At grid point t the two gathered windows hold row (word t of table 0) of the first source array and row (word t of
  table 1) of the second: the block index of a gathered window is (that word read unsigned, 0, 0), the block is one
  row of 128 lanes, and admissibility of the tables says the word is below the 50000 rows. The body stores
  (row + row) · c into the output block, and the output window's block index is (t, 0, 0): block t is row t of the
  output array, every point writes its block back, and the blocks of the 40000 points cover the array. So the array
  ends holding, at (t, 0, l), the sum of the two named rows' entries at lane l, times c.
-/
import proofs.«413139_j22651657519351_3_alg».proof.Proof.KI.Region1
import proofs.«413139_j22651657519351_3_alg».proof.Proof.Spec
import Idealize.ShloMosaic.Lib.Pipeline.Value
import Idealize.ShloMosaic.Lib.ValueIdx
import Idealize.ShloMosaic.Lib.ValueLayout

set_option maxRecDepth 16384

noncomputable section

namespace Cert.KernelIdeal.Hand

open Cert.KernelIdeal Cert.KernelIdeal.Gen
open Idealize.ShloMosaic Idealize.ShloMosaic.TcCoe
open Idealize.SL.Sem
open Idealize.ShloMosaic.Pipeline (Dat Cfg Window)

section GatherValue
variable (V : (c : Dev nD) → (b : Ref sig .tc) → Buf (Elt Ideal) ((c : Thread nD τ).loc b))
variable (a : (pcfg1 (F := Ideal)).Adm)

/-- The grid has 40000 points, one axis. -/
theorem npts1 : (cfg1 a).N = 40000 := N_1

/-- The one coordinate of point t is t. -/
theorem coord1 (t : Fin (cfg1 a).N) : (((cfg1 a).grid.coords t) 0).val = t.val := by
  show t.val / (cfg1 a).grid.stride 0 % 40000 = t.val
  have hs : (cfg1 a).grid.stride 0 = 1 := rfl
  rw [hs]
  have := t.isLt
  have e : (cfg1 a).N = 40000 := rfl
  omega

/-- A grid coordinate, as the 32-bit word the index maps receive and back, is itself. -/
theorem wordCoord1 (n : Nat) (h : n < 40000) : (Scalar.indexCast (BitVec.ofNat 32 n)).toNat = n := by
  show (BitVec.ofNat 32 n).toNat = n
  rw [BitVec.toNat_ofNat]
  exact Nat.mod_eq_of_lt (by omega)

set_option maxHeartbeats 100000 in
/-- Output window: the block index at point t is (t, 0, 0). -/
theorem index1_2 (t : Fin (cfg1 a).N) : ((cfg1 a).win 2).index t = ![t.val, 0, 0] := by
  show cc1_transform_2 ((cfg1 a).grid.coords t) = _
  unfold cc1_transform_2
  dsimp only
  have h := coord1 a t
  have hl : t.val < 40000 := t.isLt
  funext d
  match d with
  | ⟨0, _⟩ => show (BitVec.ofNat 32 (((cfg1 a).grid.coords t) 0).val).toNat = t.val; rw [h]; exact wordCoord1 _ hl
  | ⟨1, _⟩ => rfl
  | ⟨2, _⟩ => rfl

set_option maxHeartbeats 100000 in
/-- Gathered window 0: the block index at point t is (word t of table 0, 0, 0). -/
theorem index1_0 (t : Fin (cfg1 a).N) :
    ((cfg1 a).win 0).index t = ![((a.1 0 (ValueIdx.ix1 (n := 40000) ⟨t.val, t.isLt⟩) : BitVec 32)).toNat, 0, 0] := by
  show cc1_transform_0 k1_off1_inb numel1_S1 a.1 ((cfg1 a).grid.coords t) = _
  unfold cc1_transform_0
  dsimp only
  have h := coord1 a t
  have hl : t.val < 40000 := t.isLt
  funext d
  match d with
  | ⟨0, _⟩ =>
    show ((a.1 0 _ : BitVec 32)).toNat = ((a.1 0 _ : BitVec 32)).toNat
    refine congrArg (fun j => ((a.1 0 j : BitVec 32)).toNat) ?_
    funext k
    match k with
    | ⟨0, _⟩ =>
      apply Fin.ext
      show (Scalar.indexCast (BitVec.ofNat 32 (((cfg1 a).grid.coords t) 0).val)).toNat + 1 * 0 = t.val
      rw [h, wordCoord1 _ hl]; omega
  | ⟨1, _⟩ => rfl
  | ⟨2, _⟩ => rfl

set_option maxHeartbeats 100000 in
/-- Gathered window 1: the block index at point t is (word t of table 1, 0, 0). -/
theorem index1_1 (t : Fin (cfg1 a).N) :
    ((cfg1 a).win 1).index t = ![((a.1 1 (ValueIdx.ix1 (n := 40000) ⟨t.val, t.isLt⟩) : BitVec 32)).toNat, 0, 0] := by
  show cc1_transform_1 k1_off1_inb numel1_S1 a.1 ((cfg1 a).grid.coords t) = _
  unfold cc1_transform_1
  dsimp only
  have h := coord1 a t
  have hl : t.val < 40000 := t.isLt
  funext d
  match d with
  | ⟨0, _⟩ =>
    show ((a.1 1 _ : BitVec 32)).toNat = ((a.1 1 _ : BitVec 32)).toNat
    refine congrArg (fun j => ((a.1 1 j : BitVec 32)).toNat) ?_
    funext k
    match k with
    | ⟨0, _⟩ =>
      apply Fin.ext
      show (Scalar.indexCast (BitVec.ofNat 32 (((cfg1 a).grid.coords t) 0).val)).toNat + 1 * 0 = t.val
      rw [h, wordCoord1 _ hl]; omega
  | ⟨1, _⟩ => rfl
  | ⟨2, _⟩ => rfl

theorem zeros1 : (![0, 0, 0] : Fin 3 → Nat) = fun _ => 0 := funext fun d => by fin_cases d <;> rfl

/-- The arithmetic of one entry: add, then scale. -/
abbrev comb1 (u v : EReal) : EReal := (u + v) * Cert.Spec.scale

/-- The body's payload at an index: the sum of the two loaded rows' entries there, times the scale. -/
theorem pay1_apply (x0 x2 : S1x1x128.Idx → EReal) (y : S1x1x128.Idx) :
    (k1_pay1 (F := Ideal) x0 x2 : S1x1x128.Idx → EReal) y = (x0 y + x2 y) * Cert.Spec.scale := by
  unfold k1_pay1
  rw [shapeCast_self, shapeCast_self]
  rfl

/-- The same with the two rows loaded through the whole-block rectangle. -/
theorem pay1_ld_apply (x0 x2 : Vec Ideal S1x1x128 .f32) (y : S1x1x128.Idx) :
    (k1_pay1 (F := Ideal) (View.ld x0 r1) (View.ld x2 r1) : S1x1x128.Idx → EReal) y = comb1 (x0 y) (x2 y) := by
  have hA : View.ld x0 r1 = x0 := View.ld_unit_zero (Val := Elt Ideal) (S := S1x1x128) (e := .f32) zeros1 _ x0
  have hB : View.ld x2 r1 = x2 := View.ld_unit_zero (Val := Elt Ideal) (S := S1x1x128) (e := .f32) zeros1 _ x2
  rw [hA, hB]
  exact pay1_apply x0 x2 y

/-- The word of table 0 at point t is a row of the 50000-row array. -/
theorem word1_0_lt (t : Fin (cfg1 a).N) : ((a.1 0 (ValueIdx.ix1 (n := 40000) ⟨t.val, t.isLt⟩) : BitVec 32)).toNat < 50000 := by
  obtain ⟨h, -⟩ := a.2.1 ((cfg1 a).grid.coords t)
  have h0 : (((cfg1 a).win 0).index t (0 : Fin 3) + 1) * 1 ≤ 50000 := h 0
  have e0 : ((cfg1 a).win 0).index t (0 : Fin 3) = ((a.1 0 (ValueIdx.ix1 (n := 40000) ⟨t.val, t.isLt⟩) : BitVec 32)).toNat := congrFun (index1_0 a t) (0 : Fin 3)
  rw [e0] at h0
  omega

/-- The word of table 1 at point t is a row of the 50000-row array. -/
theorem word1_1_lt (t : Fin (cfg1 a).N) : ((a.1 1 (ValueIdx.ix1 (n := 40000) ⟨t.val, t.isLt⟩) : BitVec 32)).toNat < 50000 := by
  obtain ⟨h, -⟩ := a.2.2 ((cfg1 a).grid.coords t)
  have h0 : (((cfg1 a).win 1).index t (0 : Fin 3) + 1) * 1 ≤ 50000 := h 0
  have e0 : ((cfg1 a).win 1).index t (0 : Fin 3) = ((a.1 1 (ValueIdx.ix1 (n := 40000) ⟨t.val, t.isLt⟩) : BitVec 32)).toNat := congrFun (index1_1 a t) (0 : Fin 3)
  rw [e0] at h0
  omega

/-- The two source arrays, as functions to the extended reals. -/
abbrev srcRows1 (c : Dev nD) : S50000x1x128.Idx → EReal := V c main_v2
abbrev dstRows1 (c : Dev nD) : S50000x1x128.Idx → EReal := V c main_v4

set_option maxHeartbeats 100000 in
/-- Window 0's block at point t is the row of the first source array that table 0's word t names. -/
theorem iblk1_0_apply (c : Dev nD) (t : Fin (cfg1 a).N) (y : (((cfg1 a).win 0).xblock ((cfg1 a).grid.coords t)).Idx)
    (l : Fin 128) (hl : (y (2 : Fin 3)).val = l.val) :
    (iblk1 V a c 0 t y : EReal)
      = srcRows1 V c (ValueIdx.ix3 (Cert.Spec.node (a.1 0 (ValueIdx.ix1 (n := 40000) ⟨t.val, t.isLt⟩))) (0 : Fin 1) l) := by
  have hw := word1_0_lt a t
  have e0 : ((cfg1 a).win 0).index t (0 : Fin 3) = ((a.1 0 (ValueIdx.ix1 (n := 40000) ⟨t.val, t.isLt⟩) : BitVec 32)).toNat := congrFun (index1_0 a t) (0 : Fin 3)
  have eM : ((cfg1 a).win 0).index t (1 : Fin 3) = 0 := congrFun (index1_0 a t) (1 : Fin 3)
  have e2 : ((cfg1 a).win 0).index t (2 : Fin 3) = 0 := congrFun (index1_0 a t) (2 : Fin 3)
  show V c main_v2 ((((cfg1 a).win 0).blk t).view.emb y) = V c main_v2 _
  refine congrArg (V c main_v2) ?_
  funext d
  apply Fin.ext
  match d with
  | ⟨0, _⟩ =>
    show ((cfg1 a).win 0).index t (0 : Fin 3) * 1 + 1 * (y (0 : Fin 3)).val = (Cert.Spec.node _).val
    have hy : (y (0 : Fin 3)).val < 1 := (y (0 : Fin 3)).isLt
    rw [e0, Cert.Spec.node_val hw]; omega
  | ⟨1, _⟩ =>
    show ((cfg1 a).win 0).index t (1 : Fin 3) * 1 + 1 * (y (1 : Fin 3)).val = 0
    have hy : (y (1 : Fin 3)).val < 1 := (y (1 : Fin 3)).isLt
    rw [eM]; omega
  | ⟨2, _⟩ =>
    show ((cfg1 a).win 0).index t (2 : Fin 3) * 128 + 1 * (y (2 : Fin 3)).val = l.val
    rw [e2, hl]; omega

set_option maxHeartbeats 100000 in
/-- Window 1's block at point t is the row of the second source array that table 1's word t names. -/
theorem iblk1_1_apply (c : Dev nD) (t : Fin (cfg1 a).N) (y : (((cfg1 a).win 1).xblock ((cfg1 a).grid.coords t)).Idx)
    (l : Fin 128) (hl : (y (2 : Fin 3)).val = l.val) :
    (iblk1 V a c 1 t y : EReal)
      = dstRows1 V c (ValueIdx.ix3 (Cert.Spec.node (a.1 1 (ValueIdx.ix1 (n := 40000) ⟨t.val, t.isLt⟩))) (0 : Fin 1) l) := by
  have hw := word1_1_lt a t
  have e0 : ((cfg1 a).win 1).index t (0 : Fin 3) = ((a.1 1 (ValueIdx.ix1 (n := 40000) ⟨t.val, t.isLt⟩) : BitVec 32)).toNat := congrFun (index1_1 a t) (0 : Fin 3)
  have eM : ((cfg1 a).win 1).index t (1 : Fin 3) = 0 := congrFun (index1_1 a t) (1 : Fin 3)
  have e2 : ((cfg1 a).win 1).index t (2 : Fin 3) = 0 := congrFun (index1_1 a t) (2 : Fin 3)
  show V c main_v4 ((((cfg1 a).win 1).blk t).view.emb y) = V c main_v4 _
  refine congrArg (V c main_v4) ?_
  funext d
  apply Fin.ext
  match d with
  | ⟨0, _⟩ =>
    show ((cfg1 a).win 1).index t (0 : Fin 3) * 1 + 1 * (y (0 : Fin 3)).val = (Cert.Spec.node _).val
    have hy : (y (0 : Fin 3)).val < 1 := (y (0 : Fin 3)).isLt
    rw [e0, Cert.Spec.node_val hw]; omega
  | ⟨1, _⟩ =>
    show ((cfg1 a).win 1).index t (1 : Fin 3) * 1 + 1 * (y (1 : Fin 3)).val = 0
    have hy : (y (1 : Fin 3)).val < 1 := (y (1 : Fin 3)).isLt
    rw [eM]; omega
  | ⟨2, _⟩ =>
    show ((cfg1 a).win 1).index t (2 : Fin 3) * 128 + 1 * (y (2 : Fin 3)).val = l.val
    rw [e2, hl]; omega

/-- Entry (t, l) of what the call leaves: the two gathered rows' entries at lane l, added and scaled. -/
def row1 (c : Dev nD) (t : Fin 40000) (l : Fin 128) : EReal :=
  comb1 (srcRows1 V c (ValueIdx.ix3 (Cert.Spec.node (a.1 0 (ValueIdx.ix1 t))) (0 : Fin 1) l))
    (dstRows1 V c (ValueIdx.ix3 (Cert.Spec.node (a.1 1 (ValueIdx.ix1 t))) (0 : Fin 1) l))

/-- The whole output array as one function of its index. -/
def gath1 (c : Dev nD) : S40000x1x128.Idx → EReal :=
  fun i => row1 V a c ⟨(i (0 : Fin 3)).val, (i (0 : Fin 3)).isLt⟩ ⟨(i (2 : Fin 3)).val, (i (2 : Fin 3)).isLt⟩

set_option maxHeartbeats 200000 in
/-- What point t writes back is block t of that function. -/
theorem flushed1_eq (c : Dev nD) (t : Fin (cfg1 a).N) :
    (dat1 (F := Ideal) V a c).flushed 2 t = (((cfg1 a).win 2).blk t).view.read (Elt Ideal) (gath1 V a c) := by
  show ((cfg1 a).win 2).cut ((cfg1 a).grid.coords t) ((dat1 V a c).after 2 t) = _
  rw [after1_2]
  unfold out1_2
  rw [View.canon_unit_zero zeros1]
  funext j
  have e0 : ((cfg1 a).win 2).index t (0 : Fin 3) = t.val := congrFun (index1_2 a t) (0 : Fin 3)
  have e2 : ((cfg1 a).win 2).index t (2 : Fin 3) = 0 := congrFun (index1_2 a t) (2 : Fin 3)
  have hj0 : (j (0 : Fin 3)).val < 1 := (j (0 : Fin 3)).isLt
  show (k1_pay1 (F := Ideal) (View.ld (iblk1 V a c 0 t) r1) (View.ld (iblk1 V a c 1 t) r1) : S1x1x128.Idx → EReal) (((cfg1 a).win 2).xinj ((cfg1 a).grid.coords t) j)
      = gath1 V a c ((((cfg1 a).win 2).blk t).view.emb j)
  refine (pay1_ld_apply (iblk1 V a c 0 t) (iblk1 V a c 1 t) (((cfg1 a).win 2).xinj ((cfg1 a).grid.coords t) j)).trans ?_
  have hT : (⟨t.val, t.isLt⟩ : Fin 40000) = ⟨((((cfg1 a).win 2).blk t).view.emb j (0 : Fin 3)).val, ((((cfg1 a).win 2).blk t).view.emb j (0 : Fin 3)).isLt⟩ :=
    Fin.ext (by
      show t.val = ((cfg1 a).win 2).index t (0 : Fin 3) * 1 + 1 * (j (0 : Fin 3)).val
      rw [e0]; omega)
  have hL : (⟨(j (2 : Fin 3)).val, (j (2 : Fin 3)).isLt⟩ : Fin 128) = ⟨((((cfg1 a).win 2).blk t).view.emb j (2 : Fin 3)).val, ((((cfg1 a).win 2).blk t).view.emb j (2 : Fin 3)).isLt⟩ :=
    Fin.ext (by
      show (j (2 : Fin 3)).val = ((cfg1 a).win 2).index t (2 : Fin 3) * 128 + 1 * (j (2 : Fin 3)).val
      rw [e2]; omega)
  refine Eq.trans ?_ (congrArg₂ (row1 V a c) hT hL)
  unfold row1
  exact congrArg₂ comb1 (iblk1_0_apply V a c t _ _ rfl) (iblk1_1_apply V a c t _ _ rfl)

set_option maxHeartbeats 100000 in
/-- The output window is written back at every point: the next point's block is another row. -/
theorem flush1_2 (t : Fin (cfg1 a).N) : ((cfg1 a).win 2).flush t = true := by
  unfold Window.flush
  rw [Bool.and_eq_true, Bool.or_eq_true, decide_eq_true_eq, decide_eq_true_eq]
  refine ⟨rfl, ?_⟩
  by_cases h : t.val + 1 < (cfg1 a).grid.N
  · refine Or.inr ⟨h, fun e => ?_⟩
    have e0 := congrFun e (0 : Fin 3)
    have eA : ((cfg1 a).win 2).index ⟨t.val + 1, h⟩ (0 : Fin 3) = t.val + 1 := congrFun (index1_2 a ⟨t.val + 1, h⟩) (0 : Fin 3)
    have eB : ((cfg1 a).win 2).index t (0 : Fin 3) = t.val := congrFun (index1_2 a t) (0 : Fin 3)
    rw [eA, eB] at e0
    omega
  · refine Or.inl ?_
    have hlt : t.val < (cfg1 a).grid.N := t.isLt
    omega

set_option maxHeartbeats 100000 in
/-- Every entry of the output array lies in the block of the point its row names. -/
theorem cover1 (i : S40000x1x128.Idx) :
    ∃ t : Fin (cfg1 a).N, ((cfg1 a).win 2).flush t = true ∧ i ∈ (((cfg1 a).win 2).blk t).view.set := by
  have hlt : (i (0 : Fin 3)).val < (cfg1 a).N := by rw [npts1]; exact (i (0 : Fin 3)).isLt
  obtain ⟨t, ht⟩ : ∃ t : Fin (cfg1 a).N, t.val = (i (0 : Fin 3)).val := ⟨⟨_, hlt⟩, rfl⟩
  refine ⟨t, flush1_2 a t, ?_⟩
  have hset := View.set_slice_whole main_v7 (((cfg1 a).win 2).rect t)
  refine (Eq.mpr (congrArg (fun S => i ∈ S) hset) ?_ : i ∈ ((View.whole main_v7).slice (((cfg1 a).win 2).rect t)).set)
  refine Rect.mem_set_unit.mpr (fun d => ?_)
  have e0 : ((cfg1 a).win 2).index t (0 : Fin 3) = t.val := congrFun (index1_2 a t) (0 : Fin 3)
  have eB : ((cfg1 a).win 2).index t (1 : Fin 3) = 0 := congrFun (index1_2 a t) (1 : Fin 3)
  have e2 : ((cfg1 a).win 2).index t (2 : Fin 3) = 0 := congrFun (index1_2 a t) (2 : Fin 3)
  match d with
  | ⟨0, _⟩ =>
    show ((cfg1 a).win 2).index t (0 : Fin 3) * 1 ≤ (i (0 : Fin 3)).val
      ∧ (i (0 : Fin 3)).val < ((cfg1 a).win 2).index t (0 : Fin 3) * 1 + 1
    rw [e0]; omega
  | ⟨1, _⟩ =>
    have hi : (i (1 : Fin 3)).val < 1 := (i (1 : Fin 3)).isLt
    show ((cfg1 a).win 2).index t (1 : Fin 3) * 1 ≤ (i (1 : Fin 3)).val
      ∧ (i (1 : Fin 3)).val < ((cfg1 a).win 2).index t (1 : Fin 3) * 1 + 1
    rw [eB]; omega
  | ⟨2, _⟩ =>
    have hi : (i (2 : Fin 3)).val < 128 := (i (2 : Fin 3)).isLt
    show ((cfg1 a).win 2).index t (2 : Fin 3) * 128 ≤ (i (2 : Fin 3)).val
      ∧ (i (2 : Fin 3)).val < ((cfg1 a).win 2).index t (2 : Fin 3) * 128 + 128
    rw [e2]; omega

/-- So the output array ends holding that function. -/
theorem final1 (c : Dev nD) : (dat1 (F := Ideal) V a c).arrAt 2 (cfg1 a).N = gath1 V a c :=
  (dat1 (F := Ideal) V a c).arrAt_eq_of_cover 2 (gath1 V a c) (fun t _ => flushed1_eq V a c t) (cover1 a)

/-- What gather call 1 leaves in its output array, entry by entry: the two rows its tables name, added and scaled. -/
theorem gather_out1 (c : Dev nD) (t : Fin 40000) (l : Fin 128) :
    ((dat1 (F := Ideal) V a c).arrAt 2 (cfg1 a).N : FVec Ideal S40000x1x128 .f32) (ValueIdx.ix3 t (0 : Fin 1) l)
      = (srcRows1 V c (ValueIdx.ix3 (Cert.Spec.node (a.1 0 (ValueIdx.ix1 t))) (0 : Fin 1) l)
        + dstRows1 V c (ValueIdx.ix3 (Cert.Spec.node (a.1 1 (ValueIdx.ix1 t))) (0 : Fin 1) l)) * Cert.Spec.scale :=
  congrFun (final1 V a c) (ValueIdx.ix3 t (0 : Fin 1) l)
end GatherValue

end Cert.KernelIdeal.Hand

end
-- ==== Proof.KI.Piece1.lean ====
/-
  Gather call 1's output array in terms of the launch arrays.

  Gather call 1 walks its 40000 grid points; at point t it reads row (word t of its source table) of the re-laid source
  projection and row (word t of its destination table) of the re-laid destination projection, adds them lane by lane and
  multiplies by the constant, into row t of its output. Its tables are the slices of the launch endpoint arrays from
  word 0 on, so word t of a table is the endpoint array's word 40000 · 0 + t, and a re-laid projection's row n, lane l
  is the projected feature (batch l / 64, node n, feature l % 64). So row t, lane l of the output is lane l of the
  specification's row for edge 40000 · 0 + t.
-/
import proofs.«413139_j22651657519351_3_alg».proof.Proof.KI.Fold
import proofs.«413139_j22651657519351_3_alg».proof.Proof.KI.Walk
import proofs.«413139_j22651657519351_3_alg».proof.Proof.KI.Hs2
import proofs.«413139_j22651657519351_3_alg».proof.Proof.KI.GatherValue1
import proofs.«413139_j22651657519351_3_alg».proof.Proof.SpecRows
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe
open Idealize.SL.Sem

section Piece1

variable (m : (ℓ : Loc nD τ sig) → Buf (Elt Ideal) ℓ) (hR : InRange m)

/-- Word t of chunk 1's source table is the launch source array's word 40000 · 0 + t: the table is the slice of the
    array from word 0 on. -/
theorem tbl1_src (t : Fin 40000) :
    (tbl1 (F := Ideal) m 0 : IVec S40000 32) (ValueIdx.ix1 t)
      = (m (((0 : Dev nD) : Thread nD τ).loc main_arg1) : IVec S800000 32) (ValueIdx.ix1 ⟨40000 * 0 + t.val, Cert.Spec.chunk_lt ⟨0, by norm_num⟩ t⟩) := by
  show extractStridedSlice S40000 ![0] (m (((0 : Dev nD) : Thread nD τ).loc main_arg1) : IVec S800000 32) slices_S800000_S40000_0 (ValueIdx.ix1 t) = _
  exact extractStridedSlice_apply (s := S800000) (t := S40000) ![0] _ slices_S800000_S40000_0 (ValueIdx.ix1 t) (ValueIdx.ix1 ⟨40000 * 0 + t.val, Cert.Spec.chunk_lt ⟨0, by norm_num⟩ t⟩)
    (fun a => match a with | ⟨0, _⟩ => by show 40000 * 0 + t.val = 0 + t.val; omega)

/-- Word t of chunk 1's destination table is the launch destination array's word 40000 · 0 + t. -/
theorem tbl1_dst (t : Fin 40000) :
    (tbl1 (F := Ideal) m 1 : IVec S40000 32) (ValueIdx.ix1 t)
      = (m (((0 : Dev nD) : Thread nD τ).loc main_arg2) : IVec S800000 32) (ValueIdx.ix1 ⟨40000 * 0 + t.val, Cert.Spec.chunk_lt ⟨0, by norm_num⟩ t⟩) := by
  show extractStridedSlice S40000 ![0] (m (((0 : Dev nD) : Thread nD τ).loc main_arg2) : IVec S800000 32) slices_S800000_S40000_0 (ValueIdx.ix1 t) = _
  exact extractStridedSlice_apply (s := S800000) (t := S40000) ![0] _ slices_S800000_S40000_0 (ValueIdx.ix1 t) (ValueIdx.ix1 ⟨40000 * 0 + t.val, Cert.Spec.chunk_lt ⟨0, by norm_num⟩ t⟩)
    (fun a => match a with | ⟨0, _⟩ => by show 40000 * 0 + t.val = 0 + t.val; omega)

/-- Gather call 1's output array in terms of the launch arrays: row t, lane l is lane l of edge 40000 · 0 + t's row.
    The call adds, at row t, the rows of the two re-laid projections that the tables' words t name, and scales the sum;
    the re-laid projections, untouched since host stretch 1 wrote them, hold at each row the projected features of that
    node, and the tables' words t are the endpoint arrays' words 40000 · 0 + t. -/
theorem piece1 (c : Dev nD) (t : Fin 40000) (l : Fin 128) :
    (W3 (F := Ideal) m hR c main_v7 : FVec Ideal S40000x1x128 .f32) (ValueIdx.ix3 t (0 : Fin 1) l)
      = Cert.Spec.edgeRow (m ((c : Thread nD τ).loc main_arg0)) (m ((c : Thread nD τ).loc main_arg1)) (m ((c : Thread nD τ).loc main_arg2))
          (m ((c : Thread nD τ).loc main_arg3)) (m ((c : Thread nD τ).loc main_arg4))
          ⟨40000 * 0 + t.val, Cert.Spec.chunk_lt ⟨0, by norm_num⟩ t⟩ l := by
  obtain rfl : c = 0 := Subsingleton.elim _ _
  refine (congrFun (W3_arr (F := Ideal) m hR 0 2) _).trans ?_
  refine (gather_out1 (V2 (F := Ideal) m hR) (a1 (F := Ideal) m hR) 0 t l).trans ?_
  have e1 : (W2 (F := Ideal) m hR 0 main_v2 : FVec Ideal S50000x1x128 .f32)
        (ValueIdx.ix3 (Cert.Spec.node ((tbl1 (F := Ideal) m 0 : IVec S40000 32) (ValueIdx.ix1 t))) (0 : Fin 1) l)
      = Cert.Spec.proj (m (((0 : Dev nD) : Thread nD τ).loc main_arg0)) (m (((0 : Dev nD) : Thread nD τ).loc main_arg3))
          ⟨l.val / 64, Cert.Spec.lane_div l⟩
          (Cert.Spec.node ((m (((0 : Dev nD) : Thread nD τ).loc main_arg1) : IVec S800000 32) (ValueIdx.ix1 ⟨40000 * 0 + t.val, Cert.Spec.chunk_lt ⟨0, by norm_num⟩ t⟩)))
          ⟨l.val % 64, Cert.Spec.lane_mod l⟩ := by
    rw [tbl1_src m t]
    exact (congrFun (W2_v2 (F := Ideal) m hR 0) _).trans (hs2_apply m hR 0 _ l)
  have e2 : (W2 (F := Ideal) m hR 0 main_v4 : FVec Ideal S50000x1x128 .f32)
        (ValueIdx.ix3 (Cert.Spec.node ((tbl1 (F := Ideal) m 1 : IVec S40000 32) (ValueIdx.ix1 t))) (0 : Fin 1) l)
      = Cert.Spec.proj (m (((0 : Dev nD) : Thread nD τ).loc main_arg0)) (m (((0 : Dev nD) : Thread nD τ).loc main_arg4))
          ⟨l.val / 64, Cert.Spec.lane_div l⟩
          (Cert.Spec.node ((m (((0 : Dev nD) : Thread nD τ).loc main_arg2) : IVec S800000 32) (ValueIdx.ix1 ⟨40000 * 0 + t.val, Cert.Spec.chunk_lt ⟨0, by norm_num⟩ t⟩)))
          ⟨l.val % 64, Cert.Spec.lane_mod l⟩ := by
    rw [tbl1_dst m t]
    exact (congrFun (W2_v4 (F := Ideal) m hR 0) _).trans (hd2_apply m hR 0 _ l)
  exact congrArg₂ (fun a b : EReal => (a + b) * Cert.Spec.scale) e1 e2

end Piece1

end Cert.KernelIdeal.Hand

end
-- ==== Proof.KI.FPiece1.lean ====
/-
  Chunk 1's rows as the last host stretch finds them. Host stretch 2 reshapes gather call 1's output
  [40000, 1, 128] to [40000, 128]; nothing touches that buffer until the last stretch concatenates the twenty pieces.
  With the call's output read as the rows of the specification, the piece is the specification's chunk number 0.
-/
import proofs.«413139_j22651657519351_3_alg».proof.Proof.Gen.KernelIdeal.Launch
import proofs.«413139_j22651657519351_3_alg».proof.Proof.Gen.KernelIdeal.Skeleton
import proofs.«413139_j22651657519351_3_alg».proof.Proof.Gen.KernelIdeal.Points
import proofs.«413139_j22651657519351_3_alg».proof.Proof.KI.Walk
import proofs.«413139_j22651657519351_3_alg».proof.Proof.KI.Piece1
import proofs.«413139_j22651657519351_3_alg».proof.Proof.Layout
import proofs.«413139_j22651657519351_3_alg».proof.Proof.SpecRows
import Idealize.ShloMosaic.Lib.StableHlo.Run
import Idealize.ShloMosaic.Lib.ValueIdx
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section FPiece

variable (m : (ℓ : Loc nD τ sig) → Buf (Elt Ideal) ℓ) (hR : InRange m)

theorem fpiece1 (c : Dev nD) :
    (W41 (F := Ideal) m hR c main_v8 : FVec Ideal S40000x128 .f32)
      = Cert.Spec.chunk (m ((c : Thread nD τ).loc main_arg0)) (m ((c : Thread nD τ).loc main_arg1)) (m ((c : Thread nD τ).loc main_arg2))
          (m ((c : Thread nD τ).loc main_arg3)) (m ((c : Thread nD τ).loc main_arg4)) (0 : Fin 20) := by
  funext i
  obtain ⟨t, l, rfl⟩ : ∃ (t : Fin 40000) (l : Fin 128), i = ValueIdx.ix2 t l := ⟨i 0, i 1, ValueIdx.eq_ix2 i⟩
  rw [W41_p1 m hR c]
  show StableHlo.after hostOps2 (W3 (F := Ideal) m hR c) (Proc.devRef .tc main_v8) (ValueIdx.ix2 t l) = _
  after_results
  refine (Cert.Layout.piece_apply _ _ t l).trans ?_
  exact piece1 m hR c t l

end FPiece

end Cert.KernelIdeal.Hand

end
-- ==== Proof.KI.GatherValue2.lean ====
/-
  Edge chunk 1's gather kernel: what it leaves in its output array, entry by entry, at the ideal (extended-real)
  instance, for any contents V of the buffers at the region's entry and any admissible contents of the two index tables.

  At grid point t the two gathered windows hold row (word t of table 0) of the first source array and row (word t of
  table 1) of the second: the block index of a gathered window is (that word read unsigned, 0, 0), the block is one
  row of 128 lanes, and admissibility of the tables says the word is below the 50000 rows. The body stores
  (row + row) · c into the output block, and the output window's block index is (t, 0, 0): block t is row t of the
  output array, every point writes its block back, and the blocks of the 40000 points cover the array. So the array
  ends holding, at (t, 0, l), the sum of the two named rows' entries at lane l, times c.
-/
import proofs.«413139_j22651657519351_3_alg».proof.Proof.KI.Region2
import proofs.«413139_j22651657519351_3_alg».proof.Proof.Spec
import Idealize.ShloMosaic.Lib.Pipeline.Value
import Idealize.ShloMosaic.Lib.ValueIdx
import Idealize.ShloMosaic.Lib.ValueLayout

set_option maxRecDepth 16384

noncomputable section

namespace Cert.KernelIdeal.Hand

open Cert.KernelIdeal Cert.KernelIdeal.Gen
open Idealize.ShloMosaic Idealize.ShloMosaic.TcCoe
open Idealize.SL.Sem
open Idealize.ShloMosaic.Pipeline (Dat Cfg Window)

section GatherValue
variable (V : (c : Dev nD) → (b : Ref sig .tc) → Buf (Elt Ideal) ((c : Thread nD τ).loc b))
variable (a : (pcfg2 (F := Ideal)).Adm)

/-- The grid has 40000 points, one axis. -/
theorem npts2 : (cfg2 a).N = 40000 := N_2

/-- The one coordinate of point t is t. -/
theorem coord2 (t : Fin (cfg2 a).N) : (((cfg2 a).grid.coords t) 0).val = t.val := by
  show t.val / (cfg2 a).grid.stride 0 % 40000 = t.val
  have hs : (cfg2 a).grid.stride 0 = 1 := rfl
  rw [hs]
  have := t.isLt
  have e : (cfg2 a).N = 40000 := rfl
  omega

/-- A grid coordinate, as the 32-bit word the index maps receive and back, is itself. -/
theorem wordCoord2 (n : Nat) (h : n < 40000) : (Scalar.indexCast (BitVec.ofNat 32 n)).toNat = n := by
  show (BitVec.ofNat 32 n).toNat = n
  rw [BitVec.toNat_ofNat]
  exact Nat.mod_eq_of_lt (by omega)

set_option maxHeartbeats 100000 in
/-- Output window: the block index at point t is (t, 0, 0). -/
theorem index2_2 (t : Fin (cfg2 a).N) : ((cfg2 a).win 2).index t = ![t.val, 0, 0] := by
  show cc2_transform_2 ((cfg2 a).grid.coords t) = _
  unfold cc2_transform_2
  dsimp only
  have h := coord2 a t
  have hl : t.val < 40000 := t.isLt
  funext d
  match d with
  | ⟨0, _⟩ => show (BitVec.ofNat 32 (((cfg2 a).grid.coords t) 0).val).toNat = t.val; rw [h]; exact wordCoord2 _ hl
  | ⟨1, _⟩ => rfl
  | ⟨2, _⟩ => rfl

set_option maxHeartbeats 100000 in
/-- Gathered window 0: the block index at point t is (word t of table 0, 0, 0). -/
theorem index2_0 (t : Fin (cfg2 a).N) :
    ((cfg2 a).win 0).index t = ![((a.1 0 (ValueIdx.ix1 (n := 40000) ⟨t.val, t.isLt⟩) : BitVec 32)).toNat, 0, 0] := by
  show cc2_transform_0 k2_off1_inb numel1_S1 a.1 ((cfg2 a).grid.coords t) = _
  unfold cc2_transform_0
  dsimp only
  have h := coord2 a t
  have hl : t.val < 40000 := t.isLt
  funext d
  match d with
  | ⟨0, _⟩ =>
    show ((a.1 0 _ : BitVec 32)).toNat = ((a.1 0 _ : BitVec 32)).toNat
    refine congrArg (fun j => ((a.1 0 j : BitVec 32)).toNat) ?_
    funext k
    match k with
    | ⟨0, _⟩ =>
      apply Fin.ext
      show (Scalar.indexCast (BitVec.ofNat 32 (((cfg2 a).grid.coords t) 0).val)).toNat + 1 * 0 = t.val
      rw [h, wordCoord2 _ hl]; omega
  | ⟨1, _⟩ => rfl
  | ⟨2, _⟩ => rfl

set_option maxHeartbeats 100000 in
/-- Gathered window 1: the block index at point t is (word t of table 1, 0, 0). -/
theorem index2_1 (t : Fin (cfg2 a).N) :
    ((cfg2 a).win 1).index t = ![((a.1 1 (ValueIdx.ix1 (n := 40000) ⟨t.val, t.isLt⟩) : BitVec 32)).toNat, 0, 0] := by
  show cc2_transform_1 k2_off1_inb numel1_S1 a.1 ((cfg2 a).grid.coords t) = _
  unfold cc2_transform_1
  dsimp only
  have h := coord2 a t
  have hl : t.val < 40000 := t.isLt
  funext d
  match d with
  | ⟨0, _⟩ =>
    show ((a.1 1 _ : BitVec 32)).toNat = ((a.1 1 _ : BitVec 32)).toNat
    refine congrArg (fun j => ((a.1 1 j : BitVec 32)).toNat) ?_
    funext k
    match k with
    | ⟨0, _⟩ =>
      apply Fin.ext
      show (Scalar.indexCast (BitVec.ofNat 32 (((cfg2 a).grid.coords t) 0).val)).toNat + 1 * 0 = t.val
      rw [h, wordCoord2 _ hl]; omega
  | ⟨1, _⟩ => rfl
  | ⟨2, _⟩ => rfl

theorem zeros2 : (![0, 0, 0] : Fin 3 → Nat) = fun _ => 0 := funext fun d => by fin_cases d <;> rfl

/-- The arithmetic of one entry: add, then scale. -/
abbrev comb2 (u v : EReal) : EReal := (u + v) * Cert.Spec.scale

/-- The body's payload at an index: the sum of the two loaded rows' entries there, times the scale. -/
theorem pay2_apply (x0 x2 : S1x1x128.Idx → EReal) (y : S1x1x128.Idx) :
    (k2_pay1 (F := Ideal) x0 x2 : S1x1x128.Idx → EReal) y = (x0 y + x2 y) * Cert.Spec.scale := by
  unfold k2_pay1
  rw [shapeCast_self, shapeCast_self]
  rfl

/-- The same with the two rows loaded through the whole-block rectangle. -/
theorem pay2_ld_apply (x0 x2 : Vec Ideal S1x1x128 .f32) (y : S1x1x128.Idx) :
    (k2_pay1 (F := Ideal) (View.ld x0 r2) (View.ld x2 r2) : S1x1x128.Idx → EReal) y = comb2 (x0 y) (x2 y) := by
  have hA : View.ld x0 r2 = x0 := View.ld_unit_zero (Val := Elt Ideal) (S := S1x1x128) (e := .f32) zeros2 _ x0
  have hB : View.ld x2 r2 = x2 := View.ld_unit_zero (Val := Elt Ideal) (S := S1x1x128) (e := .f32) zeros2 _ x2
  rw [hA, hB]
  exact pay2_apply x0 x2 y

/-- The word of table 0 at point t is a row of the 50000-row array. -/
theorem word2_0_lt (t : Fin (cfg2 a).N) : ((a.1 0 (ValueIdx.ix1 (n := 40000) ⟨t.val, t.isLt⟩) : BitVec 32)).toNat < 50000 := by
  obtain ⟨h, -⟩ := a.2.1 ((cfg2 a).grid.coords t)
  have h0 : (((cfg2 a).win 0).index t (0 : Fin 3) + 1) * 1 ≤ 50000 := h 0
  have e0 : ((cfg2 a).win 0).index t (0 : Fin 3) = ((a.1 0 (ValueIdx.ix1 (n := 40000) ⟨t.val, t.isLt⟩) : BitVec 32)).toNat := congrFun (index2_0 a t) (0 : Fin 3)
  rw [e0] at h0
  omega

/-- The word of table 1 at point t is a row of the 50000-row array. -/
theorem word2_1_lt (t : Fin (cfg2 a).N) : ((a.1 1 (ValueIdx.ix1 (n := 40000) ⟨t.val, t.isLt⟩) : BitVec 32)).toNat < 50000 := by
  obtain ⟨h, -⟩ := a.2.2 ((cfg2 a).grid.coords t)
  have h0 : (((cfg2 a).win 1).index t (0 : Fin 3) + 1) * 1 ≤ 50000 := h 0
  have e0 : ((cfg2 a).win 1).index t (0 : Fin 3) = ((a.1 1 (ValueIdx.ix1 (n := 40000) ⟨t.val, t.isLt⟩) : BitVec 32)).toNat := congrFun (index2_1 a t) (0 : Fin 3)
  rw [e0] at h0
  omega

/-- The two source arrays, as functions to the extended reals. -/
abbrev srcRows2 (c : Dev nD) : S50000x1x128.Idx → EReal := V c main_v2
abbrev dstRows2 (c : Dev nD) : S50000x1x128.Idx → EReal := V c main_v4

set_option maxHeartbeats 100000 in
/-- Window 0's block at point t is the row of the first source array that table 0's word t names. -/
theorem iblk2_0_apply (c : Dev nD) (t : Fin (cfg2 a).N) (y : (((cfg2 a).win 0).xblock ((cfg2 a).grid.coords t)).Idx)
    (l : Fin 128) (hl : (y (2 : Fin 3)).val = l.val) :
    (iblk2 V a c 0 t y : EReal)
      = srcRows2 V c (ValueIdx.ix3 (Cert.Spec.node (a.1 0 (ValueIdx.ix1 (n := 40000) ⟨t.val, t.isLt⟩))) (0 : Fin 1) l) := by
  have hw := word2_0_lt a t
  have e0 : ((cfg2 a).win 0).index t (0 : Fin 3) = ((a.1 0 (ValueIdx.ix1 (n := 40000) ⟨t.val, t.isLt⟩) : BitVec 32)).toNat := congrFun (index2_0 a t) (0 : Fin 3)
  have eM : ((cfg2 a).win 0).index t (1 : Fin 3) = 0 := congrFun (index2_0 a t) (1 : Fin 3)
  have e2 : ((cfg2 a).win 0).index t (2 : Fin 3) = 0 := congrFun (index2_0 a t) (2 : Fin 3)
  show V c main_v2 ((((cfg2 a).win 0).blk t).view.emb y) = V c main_v2 _
  refine congrArg (V c main_v2) ?_
  funext d
  apply Fin.ext
  match d with
  | ⟨0, _⟩ =>
    show ((cfg2 a).win 0).index t (0 : Fin 3) * 1 + 1 * (y (0 : Fin 3)).val = (Cert.Spec.node _).val
    have hy : (y (0 : Fin 3)).val < 1 := (y (0 : Fin 3)).isLt
    rw [e0, Cert.Spec.node_val hw]; omega
  | ⟨1, _⟩ =>
    show ((cfg2 a).win 0).index t (1 : Fin 3) * 1 + 1 * (y (1 : Fin 3)).val = 0
    have hy : (y (1 : Fin 3)).val < 1 := (y (1 : Fin 3)).isLt
    rw [eM]; omega
  | ⟨2, _⟩ =>
    show ((cfg2 a).win 0).index t (2 : Fin 3) * 128 + 1 * (y (2 : Fin 3)).val = l.val
    rw [e2, hl]; omega

set_option maxHeartbeats 100000 in
/-- Window 1's block at point t is the row of the second source array that table 1's word t names. -/
theorem iblk2_1_apply (c : Dev nD) (t : Fin (cfg2 a).N) (y : (((cfg2 a).win 1).xblock ((cfg2 a).grid.coords t)).Idx)
    (l : Fin 128) (hl : (y (2 : Fin 3)).val = l.val) :
    (iblk2 V a c 1 t y : EReal)
      = dstRows2 V c (ValueIdx.ix3 (Cert.Spec.node (a.1 1 (ValueIdx.ix1 (n := 40000) ⟨t.val, t.isLt⟩))) (0 : Fin 1) l) := by
  have hw := word2_1_lt a t
  have e0 : ((cfg2 a).win 1).index t (0 : Fin 3) = ((a.1 1 (ValueIdx.ix1 (n := 40000) ⟨t.val, t.isLt⟩) : BitVec 32)).toNat := congrFun (index2_1 a t) (0 : Fin 3)
  have eM : ((cfg2 a).win 1).index t (1 : Fin 3) = 0 := congrFun (index2_1 a t) (1 : Fin 3)
  have e2 : ((cfg2 a).win 1).index t (2 : Fin 3) = 0 := congrFun (index2_1 a t) (2 : Fin 3)
  show V c main_v4 ((((cfg2 a).win 1).blk t).view.emb y) = V c main_v4 _
  refine congrArg (V c main_v4) ?_
  funext d
  apply Fin.ext
  match d with
  | ⟨0, _⟩ =>
    show ((cfg2 a).win 1).index t (0 : Fin 3) * 1 + 1 * (y (0 : Fin 3)).val = (Cert.Spec.node _).val
    have hy : (y (0 : Fin 3)).val < 1 := (y (0 : Fin 3)).isLt
    rw [e0, Cert.Spec.node_val hw]; omega
  | ⟨1, _⟩ =>
    show ((cfg2 a).win 1).index t (1 : Fin 3) * 1 + 1 * (y (1 : Fin 3)).val = 0
    have hy : (y (1 : Fin 3)).val < 1 := (y (1 : Fin 3)).isLt
    rw [eM]; omega
  | ⟨2, _⟩ =>
    show ((cfg2 a).win 1).index t (2 : Fin 3) * 128 + 1 * (y (2 : Fin 3)).val = l.val
    rw [e2, hl]; omega

/-- Entry (t, l) of what the call leaves: the two gathered rows' entries at lane l, added and scaled. -/
def row2 (c : Dev nD) (t : Fin 40000) (l : Fin 128) : EReal :=
  comb2 (srcRows2 V c (ValueIdx.ix3 (Cert.Spec.node (a.1 0 (ValueIdx.ix1 t))) (0 : Fin 1) l))
    (dstRows2 V c (ValueIdx.ix3 (Cert.Spec.node (a.1 1 (ValueIdx.ix1 t))) (0 : Fin 1) l))

/-- The whole output array as one function of its index. -/
def gath2 (c : Dev nD) : S40000x1x128.Idx → EReal :=
  fun i => row2 V a c ⟨(i (0 : Fin 3)).val, (i (0 : Fin 3)).isLt⟩ ⟨(i (2 : Fin 3)).val, (i (2 : Fin 3)).isLt⟩

set_option maxHeartbeats 200000 in
/-- What point t writes back is block t of that function. -/
theorem flushed2_eq (c : Dev nD) (t : Fin (cfg2 a).N) :
    (dat2 (F := Ideal) V a c).flushed 2 t = (((cfg2 a).win 2).blk t).view.read (Elt Ideal) (gath2 V a c) := by
  show ((cfg2 a).win 2).cut ((cfg2 a).grid.coords t) ((dat2 V a c).after 2 t) = _
  rw [after2_2]
  unfold out2_2
  rw [View.canon_unit_zero zeros2]
  funext j
  have e0 : ((cfg2 a).win 2).index t (0 : Fin 3) = t.val := congrFun (index2_2 a t) (0 : Fin 3)
  have e2 : ((cfg2 a).win 2).index t (2 : Fin 3) = 0 := congrFun (index2_2 a t) (2 : Fin 3)
  have hj0 : (j (0 : Fin 3)).val < 1 := (j (0 : Fin 3)).isLt
  show (k2_pay1 (F := Ideal) (View.ld (iblk2 V a c 0 t) r2) (View.ld (iblk2 V a c 1 t) r2) : S1x1x128.Idx → EReal) (((cfg2 a).win 2).xinj ((cfg2 a).grid.coords t) j)
      = gath2 V a c ((((cfg2 a).win 2).blk t).view.emb j)
  refine (pay2_ld_apply (iblk2 V a c 0 t) (iblk2 V a c 1 t) (((cfg2 a).win 2).xinj ((cfg2 a).grid.coords t) j)).trans ?_
  have hT : (⟨t.val, t.isLt⟩ : Fin 40000) = ⟨((((cfg2 a).win 2).blk t).view.emb j (0 : Fin 3)).val, ((((cfg2 a).win 2).blk t).view.emb j (0 : Fin 3)).isLt⟩ :=
    Fin.ext (by
      show t.val = ((cfg2 a).win 2).index t (0 : Fin 3) * 1 + 1 * (j (0 : Fin 3)).val
      rw [e0]; omega)
  have hL : (⟨(j (2 : Fin 3)).val, (j (2 : Fin 3)).isLt⟩ : Fin 128) = ⟨((((cfg2 a).win 2).blk t).view.emb j (2 : Fin 3)).val, ((((cfg2 a).win 2).blk t).view.emb j (2 : Fin 3)).isLt⟩ :=
    Fin.ext (by
      show (j (2 : Fin 3)).val = ((cfg2 a).win 2).index t (2 : Fin 3) * 128 + 1 * (j (2 : Fin 3)).val
      rw [e2]; omega)
  refine Eq.trans ?_ (congrArg₂ (row2 V a c) hT hL)
  unfold row2
  exact congrArg₂ comb2 (iblk2_0_apply V a c t _ _ rfl) (iblk2_1_apply V a c t _ _ rfl)

set_option maxHeartbeats 100000 in
/-- The output window is written back at every point: the next point's block is another row. -/
theorem flush2_2 (t : Fin (cfg2 a).N) : ((cfg2 a).win 2).flush t = true := by
  unfold Window.flush
  rw [Bool.and_eq_true, Bool.or_eq_true, decide_eq_true_eq, decide_eq_true_eq]
  refine ⟨rfl, ?_⟩
  by_cases h : t.val + 1 < (cfg2 a).grid.N
  · refine Or.inr ⟨h, fun e => ?_⟩
    have e0 := congrFun e (0 : Fin 3)
    have eA : ((cfg2 a).win 2).index ⟨t.val + 1, h⟩ (0 : Fin 3) = t.val + 1 := congrFun (index2_2 a ⟨t.val + 1, h⟩) (0 : Fin 3)
    have eB : ((cfg2 a).win 2).index t (0 : Fin 3) = t.val := congrFun (index2_2 a t) (0 : Fin 3)
    rw [eA, eB] at e0
    omega
  · refine Or.inl ?_
    have hlt : t.val < (cfg2 a).grid.N := t.isLt
    omega

set_option maxHeartbeats 100000 in
/-- Every entry of the output array lies in the block of the point its row names. -/
theorem cover2 (i : S40000x1x128.Idx) :
    ∃ t : Fin (cfg2 a).N, ((cfg2 a).win 2).flush t = true ∧ i ∈ (((cfg2 a).win 2).blk t).view.set := by
  have hlt : (i (0 : Fin 3)).val < (cfg2 a).N := by rw [npts2]; exact (i (0 : Fin 3)).isLt
  obtain ⟨t, ht⟩ : ∃ t : Fin (cfg2 a).N, t.val = (i (0 : Fin 3)).val := ⟨⟨_, hlt⟩, rfl⟩
  refine ⟨t, flush2_2 a t, ?_⟩
  have hset := View.set_slice_whole main_v11 (((cfg2 a).win 2).rect t)
  refine (Eq.mpr (congrArg (fun S => i ∈ S) hset) ?_ : i ∈ ((View.whole main_v11).slice (((cfg2 a).win 2).rect t)).set)
  refine Rect.mem_set_unit.mpr (fun d => ?_)
  have e0 : ((cfg2 a).win 2).index t (0 : Fin 3) = t.val := congrFun (index2_2 a t) (0 : Fin 3)
  have eB : ((cfg2 a).win 2).index t (1 : Fin 3) = 0 := congrFun (index2_2 a t) (1 : Fin 3)
  have e2 : ((cfg2 a).win 2).index t (2 : Fin 3) = 0 := congrFun (index2_2 a t) (2 : Fin 3)
  match d with
  | ⟨0, _⟩ =>
    show ((cfg2 a).win 2).index t (0 : Fin 3) * 1 ≤ (i (0 : Fin 3)).val
      ∧ (i (0 : Fin 3)).val < ((cfg2 a).win 2).index t (0 : Fin 3) * 1 + 1
    rw [e0]; omega
  | ⟨1, _⟩ =>
    have hi : (i (1 : Fin 3)).val < 1 := (i (1 : Fin 3)).isLt
    show ((cfg2 a).win 2).index t (1 : Fin 3) * 1 ≤ (i (1 : Fin 3)).val
      ∧ (i (1 : Fin 3)).val < ((cfg2 a).win 2).index t (1 : Fin 3) * 1 + 1
    rw [eB]; omega
  | ⟨2, _⟩ =>
    have hi : (i (2 : Fin 3)).val < 128 := (i (2 : Fin 3)).isLt
    show ((cfg2 a).win 2).index t (2 : Fin 3) * 128 ≤ (i (2 : Fin 3)).val
      ∧ (i (2 : Fin 3)).val < ((cfg2 a).win 2).index t (2 : Fin 3) * 128 + 128
    rw [e2]; omega

/-- So the output array ends holding that function. -/
theorem final2 (c : Dev nD) : (dat2 (F := Ideal) V a c).arrAt 2 (cfg2 a).N = gath2 V a c :=
  (dat2 (F := Ideal) V a c).arrAt_eq_of_cover 2 (gath2 V a c) (fun t _ => flushed2_eq V a c t) (cover2 a)

/-- What gather call 1 leaves in its output array, entry by entry: the two rows its tables name, added and scaled. -/
theorem gather_out2 (c : Dev nD) (t : Fin 40000) (l : Fin 128) :
    ((dat2 (F := Ideal) V a c).arrAt 2 (cfg2 a).N : FVec Ideal S40000x1x128 .f32) (ValueIdx.ix3 t (0 : Fin 1) l)
      = (srcRows2 V c (ValueIdx.ix3 (Cert.Spec.node (a.1 0 (ValueIdx.ix1 t))) (0 : Fin 1) l)
        + dstRows2 V c (ValueIdx.ix3 (Cert.Spec.node (a.1 1 (ValueIdx.ix1 t))) (0 : Fin 1) l)) * Cert.Spec.scale :=
  congrFun (final2 V a c) (ValueIdx.ix3 t (0 : Fin 1) l)
end GatherValue

end Cert.KernelIdeal.Hand

end
-- ==== Proof.KI.Piece2.lean ====
/-
  Gather call 2's output array in terms of the launch arrays.

  Gather call 2 walks its 40000 grid points; at point t it reads row (word t of its source table) of the re-laid source
  projection and row (word t of its destination table) of the re-laid destination projection, adds them lane by lane and
  multiplies by the constant, into row t of its output. Its tables are the slices of the launch endpoint arrays from
  word 40000 on, so word t of a table is the endpoint array's word 40000 · 1 + t, and a re-laid projection's row n, lane l
  is the projected feature (batch l / 64, node n, feature l % 64). So row t, lane l of the output is lane l of the
  specification's row for edge 40000 · 1 + t.
-/
import proofs.«413139_j22651657519351_3_alg».proof.Proof.KI.Fold
import proofs.«413139_j22651657519351_3_alg».proof.Proof.KI.Walk
import proofs.«413139_j22651657519351_3_alg».proof.Proof.KI.Hs2
import proofs.«413139_j22651657519351_3_alg».proof.Proof.KI.GatherValue2
import proofs.«413139_j22651657519351_3_alg».proof.Proof.SpecRows
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe
open Idealize.SL.Sem

section Piece2

variable (m : (ℓ : Loc nD τ sig) → Buf (Elt Ideal) ℓ) (hR : InRange m)

/-- Word t of chunk 2's source table is the launch source array's word 40000 · 1 + t: the table is the slice of the
    array from word 40000 on. -/
theorem tbl2_src (t : Fin 40000) :
    (tbl2 (F := Ideal) m 0 : IVec S40000 32) (ValueIdx.ix1 t)
      = (m (((0 : Dev nD) : Thread nD τ).loc main_arg1) : IVec S800000 32) (ValueIdx.ix1 ⟨40000 * 1 + t.val, Cert.Spec.chunk_lt ⟨1, by norm_num⟩ t⟩) := by
  show extractStridedSlice S40000 ![40000] (m (((0 : Dev nD) : Thread nD τ).loc main_arg1) : IVec S800000 32) slices_S800000_S40000_40000 (ValueIdx.ix1 t) = _
  exact extractStridedSlice_apply (s := S800000) (t := S40000) ![40000] _ slices_S800000_S40000_40000 (ValueIdx.ix1 t) (ValueIdx.ix1 ⟨40000 * 1 + t.val, Cert.Spec.chunk_lt ⟨1, by norm_num⟩ t⟩)
    (fun a => match a with | ⟨0, _⟩ => by show 40000 * 1 + t.val = 40000 + t.val; omega)

/-- Word t of chunk 2's destination table is the launch destination array's word 40000 · 1 + t. -/
theorem tbl2_dst (t : Fin 40000) :
    (tbl2 (F := Ideal) m 1 : IVec S40000 32) (ValueIdx.ix1 t)
      = (m (((0 : Dev nD) : Thread nD τ).loc main_arg2) : IVec S800000 32) (ValueIdx.ix1 ⟨40000 * 1 + t.val, Cert.Spec.chunk_lt ⟨1, by norm_num⟩ t⟩) := by
  show extractStridedSlice S40000 ![40000] (m (((0 : Dev nD) : Thread nD τ).loc main_arg2) : IVec S800000 32) slices_S800000_S40000_40000 (ValueIdx.ix1 t) = _
  exact extractStridedSlice_apply (s := S800000) (t := S40000) ![40000] _ slices_S800000_S40000_40000 (ValueIdx.ix1 t) (ValueIdx.ix1 ⟨40000 * 1 + t.val, Cert.Spec.chunk_lt ⟨1, by norm_num⟩ t⟩)
    (fun a => match a with | ⟨0, _⟩ => by show 40000 * 1 + t.val = 40000 + t.val; omega)

/-- Gather call 2's output array in terms of the launch arrays: row t, lane l is lane l of edge 40000 · 1 + t's row.
    The call adds, at row t, the rows of the two re-laid projections that the tables' words t name, and scales the sum;
    the re-laid projections, untouched since host stretch 1 wrote them, hold at each row the projected features of that
    node, and the tables' words t are the endpoint arrays' words 40000 · 1 + t. -/
theorem piece2 (c : Dev nD) (t : Fin 40000) (l : Fin 128) :
    (W5 (F := Ideal) m hR c main_v11 : FVec Ideal S40000x1x128 .f32) (ValueIdx.ix3 t (0 : Fin 1) l)
      = Cert.Spec.edgeRow (m ((c : Thread nD τ).loc main_arg0)) (m ((c : Thread nD τ).loc main_arg1)) (m ((c : Thread nD τ).loc main_arg2))
          (m ((c : Thread nD τ).loc main_arg3)) (m ((c : Thread nD τ).loc main_arg4))
          ⟨40000 * 1 + t.val, Cert.Spec.chunk_lt ⟨1, by norm_num⟩ t⟩ l := by
  obtain rfl : c = 0 := Subsingleton.elim _ _
  refine (congrFun (W5_arr (F := Ideal) m hR 0 2) _).trans ?_
  refine (gather_out2 (V4 (F := Ideal) m hR) (a2 (F := Ideal) m hR) 0 t l).trans ?_
  have e1 : (W4 (F := Ideal) m hR 0 main_v2 : FVec Ideal S50000x1x128 .f32)
        (ValueIdx.ix3 (Cert.Spec.node ((tbl2 (F := Ideal) m 0 : IVec S40000 32) (ValueIdx.ix1 t))) (0 : Fin 1) l)
      = Cert.Spec.proj (m (((0 : Dev nD) : Thread nD τ).loc main_arg0)) (m (((0 : Dev nD) : Thread nD τ).loc main_arg3))
          ⟨l.val / 64, Cert.Spec.lane_div l⟩
          (Cert.Spec.node ((m (((0 : Dev nD) : Thread nD τ).loc main_arg1) : IVec S800000 32) (ValueIdx.ix1 ⟨40000 * 1 + t.val, Cert.Spec.chunk_lt ⟨1, by norm_num⟩ t⟩)))
          ⟨l.val % 64, Cert.Spec.lane_mod l⟩ := by
    rw [tbl2_src m t]
    exact (congrFun (W4_v2 (F := Ideal) m hR 0) _).trans (hs2_apply m hR 0 _ l)
  have e2 : (W4 (F := Ideal) m hR 0 main_v4 : FVec Ideal S50000x1x128 .f32)
        (ValueIdx.ix3 (Cert.Spec.node ((tbl2 (F := Ideal) m 1 : IVec S40000 32) (ValueIdx.ix1 t))) (0 : Fin 1) l)
      = Cert.Spec.proj (m (((0 : Dev nD) : Thread nD τ).loc main_arg0)) (m (((0 : Dev nD) : Thread nD τ).loc main_arg4))
          ⟨l.val / 64, Cert.Spec.lane_div l⟩
          (Cert.Spec.node ((m (((0 : Dev nD) : Thread nD τ).loc main_arg2) : IVec S800000 32) (ValueIdx.ix1 ⟨40000 * 1 + t.val, Cert.Spec.chunk_lt ⟨1, by norm_num⟩ t⟩)))
          ⟨l.val % 64, Cert.Spec.lane_mod l⟩ := by
    rw [tbl2_dst m t]
    exact (congrFun (W4_v4 (F := Ideal) m hR 0) _).trans (hd2_apply m hR 0 _ l)
  exact congrArg₂ (fun a b : EReal => (a + b) * Cert.Spec.scale) e1 e2

end Piece2

end Cert.KernelIdeal.Hand

end
-- ==== Proof.KI.FPiece2.lean ====
/-
  Chunk 2's rows as the last host stretch finds them. Host stretch 3 reshapes gather call 2's output
  [40000, 1, 128] to [40000, 128]; nothing touches that buffer until the last stretch concatenates the twenty pieces.
  With the call's output read as the rows of the specification, the piece is the specification's chunk number 1.
-/
import proofs.«413139_j22651657519351_3_alg».proof.Proof.Gen.KernelIdeal.Launch
import proofs.«413139_j22651657519351_3_alg».proof.Proof.Gen.KernelIdeal.Skeleton
import proofs.«413139_j22651657519351_3_alg».proof.Proof.Gen.KernelIdeal.Points
import proofs.«413139_j22651657519351_3_alg».proof.Proof.KI.Walk
import proofs.«413139_j22651657519351_3_alg».proof.Proof.KI.Piece2
import proofs.«413139_j22651657519351_3_alg».proof.Proof.Layout
import proofs.«413139_j22651657519351_3_alg».proof.Proof.SpecRows
import Idealize.ShloMosaic.Lib.StableHlo.Run
import Idealize.ShloMosaic.Lib.ValueIdx
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section FPiece

variable (m : (ℓ : Loc nD τ sig) → Buf (Elt Ideal) ℓ) (hR : InRange m)

theorem fpiece2 (c : Dev nD) :
    (W41 (F := Ideal) m hR c main_v12 : FVec Ideal S40000x128 .f32)
      = Cert.Spec.chunk (m ((c : Thread nD τ).loc main_arg0)) (m ((c : Thread nD τ).loc main_arg1)) (m ((c : Thread nD τ).loc main_arg2))
          (m ((c : Thread nD τ).loc main_arg3)) (m ((c : Thread nD τ).loc main_arg4)) (1 : Fin 20) := by
  funext i
  obtain ⟨t, l, rfl⟩ : ∃ (t : Fin 40000) (l : Fin 128), i = ValueIdx.ix2 t l := ⟨i 0, i 1, ValueIdx.eq_ix2 i⟩
  rw [W41_p2 m hR c]
  show StableHlo.after hostOps3 (W5 (F := Ideal) m hR c) (Proc.devRef .tc main_v12) (ValueIdx.ix2 t l) = _
  after_results
  refine (Cert.Layout.piece_apply _ _ t l).trans ?_
  exact piece2 m hR c t l

end FPiece

end Cert.KernelIdeal.Hand

end
-- ==== Proof.KI.GatherValue3.lean ====
/-
  Edge chunk 1's gather kernel: what it leaves in its output array, entry by entry, at the ideal (extended-real)
  instance, for any contents V of the buffers at the region's entry and any admissible contents of the two index tables.

  At grid point t the two gathered windows hold row (word t of table 0) of the first source array and row (word t of
  table 1) of the second: the block index of a gathered window is (that word read unsigned, 0, 0), the block is one
  row of 128 lanes, and admissibility of the tables says the word is below the 50000 rows. The body stores
  (row + row) · c into the output block, and the output window's block index is (t, 0, 0): block t is row t of the
  output array, every point writes its block back, and the blocks of the 40000 points cover the array. So the array
  ends holding, at (t, 0, l), the sum of the two named rows' entries at lane l, times c.
-/
import proofs.«413139_j22651657519351_3_alg».proof.Proof.KI.Region3
import proofs.«413139_j22651657519351_3_alg».proof.Proof.Spec
import Idealize.ShloMosaic.Lib.Pipeline.Value
import Idealize.ShloMosaic.Lib.ValueIdx
import Idealize.ShloMosaic.Lib.ValueLayout

set_option maxRecDepth 16384

noncomputable section

namespace Cert.KernelIdeal.Hand

open Cert.KernelIdeal Cert.KernelIdeal.Gen
open Idealize.ShloMosaic Idealize.ShloMosaic.TcCoe
open Idealize.SL.Sem
open Idealize.ShloMosaic.Pipeline (Dat Cfg Window)

section GatherValue
variable (V : (c : Dev nD) → (b : Ref sig .tc) → Buf (Elt Ideal) ((c : Thread nD τ).loc b))
variable (a : (pcfg3 (F := Ideal)).Adm)

/-- The grid has 40000 points, one axis. -/
theorem npts3 : (cfg3 a).N = 40000 := N_3

/-- The one coordinate of point t is t. -/
theorem coord3 (t : Fin (cfg3 a).N) : (((cfg3 a).grid.coords t) 0).val = t.val := by
  show t.val / (cfg3 a).grid.stride 0 % 40000 = t.val
  have hs : (cfg3 a).grid.stride 0 = 1 := rfl
  rw [hs]
  have := t.isLt
  have e : (cfg3 a).N = 40000 := rfl
  omega

/-- A grid coordinate, as the 32-bit word the index maps receive and back, is itself. -/
theorem wordCoord3 (n : Nat) (h : n < 40000) : (Scalar.indexCast (BitVec.ofNat 32 n)).toNat = n := by
  show (BitVec.ofNat 32 n).toNat = n
  rw [BitVec.toNat_ofNat]
  exact Nat.mod_eq_of_lt (by omega)

set_option maxHeartbeats 100000 in
/-- Output window: the block index at point t is (t, 0, 0). -/
theorem index3_2 (t : Fin (cfg3 a).N) : ((cfg3 a).win 2).index t = ![t.val, 0, 0] := by
  show cc3_transform_2 ((cfg3 a).grid.coords t) = _
  unfold cc3_transform_2
  dsimp only
  have h := coord3 a t
  have hl : t.val < 40000 := t.isLt
  funext d
  match d with
  | ⟨0, _⟩ => show (BitVec.ofNat 32 (((cfg3 a).grid.coords t) 0).val).toNat = t.val; rw [h]; exact wordCoord3 _ hl
  | ⟨1, _⟩ => rfl
  | ⟨2, _⟩ => rfl

set_option maxHeartbeats 100000 in
/-- Gathered window 0: the block index at point t is (word t of table 0, 0, 0). -/
theorem index3_0 (t : Fin (cfg3 a).N) :
    ((cfg3 a).win 0).index t = ![((a.1 0 (ValueIdx.ix1 (n := 40000) ⟨t.val, t.isLt⟩) : BitVec 32)).toNat, 0, 0] := by
  show cc3_transform_0 k3_off1_inb numel1_S1 a.1 ((cfg3 a).grid.coords t) = _
  unfold cc3_transform_0
  dsimp only
  have h := coord3 a t
  have hl : t.val < 40000 := t.isLt
  funext d
  match d with
  | ⟨0, _⟩ =>
    show ((a.1 0 _ : BitVec 32)).toNat = ((a.1 0 _ : BitVec 32)).toNat
    refine congrArg (fun j => ((a.1 0 j : BitVec 32)).toNat) ?_
    funext k
    match k with
    | ⟨0, _⟩ =>
      apply Fin.ext
      show (Scalar.indexCast (BitVec.ofNat 32 (((cfg3 a).grid.coords t) 0).val)).toNat + 1 * 0 = t.val
      rw [h, wordCoord3 _ hl]; omega
  | ⟨1, _⟩ => rfl
  | ⟨2, _⟩ => rfl

set_option maxHeartbeats 100000 in
/-- Gathered window 1: the block index at point t is (word t of table 1, 0, 0). -/
theorem index3_1 (t : Fin (cfg3 a).N) :
    ((cfg3 a).win 1).index t = ![((a.1 1 (ValueIdx.ix1 (n := 40000) ⟨t.val, t.isLt⟩) : BitVec 32)).toNat, 0, 0] := by
  show cc3_transform_1 k3_off1_inb numel1_S1 a.1 ((cfg3 a).grid.coords t) = _
  unfold cc3_transform_1
  dsimp only
  have h := coord3 a t
  have hl : t.val < 40000 := t.isLt
  funext d
  match d with
  | ⟨0, _⟩ =>
    show ((a.1 1 _ : BitVec 32)).toNat = ((a.1 1 _ : BitVec 32)).toNat
    refine congrArg (fun j => ((a.1 1 j : BitVec 32)).toNat) ?_
    funext k
    match k with
    | ⟨0, _⟩ =>
      apply Fin.ext
      show (Scalar.indexCast (BitVec.ofNat 32 (((cfg3 a).grid.coords t) 0).val)).toNat + 1 * 0 = t.val
      rw [h, wordCoord3 _ hl]; omega
  | ⟨1, _⟩ => rfl
  | ⟨2, _⟩ => rfl

theorem zeros3 : (![0, 0, 0] : Fin 3 → Nat) = fun _ => 0 := funext fun d => by fin_cases d <;> rfl

/-- The arithmetic of one entry: add, then scale. -/
abbrev comb3 (u v : EReal) : EReal := (u + v) * Cert.Spec.scale

/-- The body's payload at an index: the sum of the two loaded rows' entries there, times the scale. -/
theorem pay3_apply (x0 x2 : S1x1x128.Idx → EReal) (y : S1x1x128.Idx) :
    (k3_pay1 (F := Ideal) x0 x2 : S1x1x128.Idx → EReal) y = (x0 y + x2 y) * Cert.Spec.scale := by
  unfold k3_pay1
  rw [shapeCast_self, shapeCast_self]
  rfl

/-- The same with the two rows loaded through the whole-block rectangle. -/
theorem pay3_ld_apply (x0 x2 : Vec Ideal S1x1x128 .f32) (y : S1x1x128.Idx) :
    (k3_pay1 (F := Ideal) (View.ld x0 r3) (View.ld x2 r3) : S1x1x128.Idx → EReal) y = comb3 (x0 y) (x2 y) := by
  have hA : View.ld x0 r3 = x0 := View.ld_unit_zero (Val := Elt Ideal) (S := S1x1x128) (e := .f32) zeros3 _ x0
  have hB : View.ld x2 r3 = x2 := View.ld_unit_zero (Val := Elt Ideal) (S := S1x1x128) (e := .f32) zeros3 _ x2
  rw [hA, hB]
  exact pay3_apply x0 x2 y

/-- The word of table 0 at point t is a row of the 50000-row array. -/
theorem word3_0_lt (t : Fin (cfg3 a).N) : ((a.1 0 (ValueIdx.ix1 (n := 40000) ⟨t.val, t.isLt⟩) : BitVec 32)).toNat < 50000 := by
  obtain ⟨h, -⟩ := a.2.1 ((cfg3 a).grid.coords t)
  have h0 : (((cfg3 a).win 0).index t (0 : Fin 3) + 1) * 1 ≤ 50000 := h 0
  have e0 : ((cfg3 a).win 0).index t (0 : Fin 3) = ((a.1 0 (ValueIdx.ix1 (n := 40000) ⟨t.val, t.isLt⟩) : BitVec 32)).toNat := congrFun (index3_0 a t) (0 : Fin 3)
  rw [e0] at h0
  omega

/-- The word of table 1 at point t is a row of the 50000-row array. -/
theorem word3_1_lt (t : Fin (cfg3 a).N) : ((a.1 1 (ValueIdx.ix1 (n := 40000) ⟨t.val, t.isLt⟩) : BitVec 32)).toNat < 50000 := by
  obtain ⟨h, -⟩ := a.2.2 ((cfg3 a).grid.coords t)
  have h0 : (((cfg3 a).win 1).index t (0 : Fin 3) + 1) * 1 ≤ 50000 := h 0
  have e0 : ((cfg3 a).win 1).index t (0 : Fin 3) = ((a.1 1 (ValueIdx.ix1 (n := 40000) ⟨t.val, t.isLt⟩) : BitVec 32)).toNat := congrFun (index3_1 a t) (0 : Fin 3)
  rw [e0] at h0
  omega

/-- The two source arrays, as functions to the extended reals. -/
abbrev srcRows3 (c : Dev nD) : S50000x1x128.Idx → EReal := V c main_v2
abbrev dstRows3 (c : Dev nD) : S50000x1x128.Idx → EReal := V c main_v4

set_option maxHeartbeats 100000 in
/-- Window 0's block at point t is the row of the first source array that table 0's word t names. -/
theorem iblk3_0_apply (c : Dev nD) (t : Fin (cfg3 a).N) (y : (((cfg3 a).win 0).xblock ((cfg3 a).grid.coords t)).Idx)
    (l : Fin 128) (hl : (y (2 : Fin 3)).val = l.val) :
    (iblk3 V a c 0 t y : EReal)
      = srcRows3 V c (ValueIdx.ix3 (Cert.Spec.node (a.1 0 (ValueIdx.ix1 (n := 40000) ⟨t.val, t.isLt⟩))) (0 : Fin 1) l) := by
  have hw := word3_0_lt a t
  have e0 : ((cfg3 a).win 0).index t (0 : Fin 3) = ((a.1 0 (ValueIdx.ix1 (n := 40000) ⟨t.val, t.isLt⟩) : BitVec 32)).toNat := congrFun (index3_0 a t) (0 : Fin 3)
  have eM : ((cfg3 a).win 0).index t (1 : Fin 3) = 0 := congrFun (index3_0 a t) (1 : Fin 3)
  have e2 : ((cfg3 a).win 0).index t (2 : Fin 3) = 0 := congrFun (index3_0 a t) (2 : Fin 3)
  show V c main_v2 ((((cfg3 a).win 0).blk t).view.emb y) = V c main_v2 _
  refine congrArg (V c main_v2) ?_
  funext d
  apply Fin.ext
  match d with
  | ⟨0, _⟩ =>
    show ((cfg3 a).win 0).index t (0 : Fin 3) * 1 + 1 * (y (0 : Fin 3)).val = (Cert.Spec.node _).val
    have hy : (y (0 : Fin 3)).val < 1 := (y (0 : Fin 3)).isLt
    rw [e0, Cert.Spec.node_val hw]; omega
  | ⟨1, _⟩ =>
    show ((cfg3 a).win 0).index t (1 : Fin 3) * 1 + 1 * (y (1 : Fin 3)).val = 0
    have hy : (y (1 : Fin 3)).val < 1 := (y (1 : Fin 3)).isLt
    rw [eM]; omega
  | ⟨2, _⟩ =>
    show ((cfg3 a).win 0).index t (2 : Fin 3) * 128 + 1 * (y (2 : Fin 3)).val = l.val
    rw [e2, hl]; omega

set_option maxHeartbeats 100000 in
/-- Window 1's block at point t is the row of the second source array that table 1's word t names. -/
theorem iblk3_1_apply (c : Dev nD) (t : Fin (cfg3 a).N) (y : (((cfg3 a).win 1).xblock ((cfg3 a).grid.coords t)).Idx)
    (l : Fin 128) (hl : (y (2 : Fin 3)).val = l.val) :
    (iblk3 V a c 1 t y : EReal)
      = dstRows3 V c (ValueIdx.ix3 (Cert.Spec.node (a.1 1 (ValueIdx.ix1 (n := 40000) ⟨t.val, t.isLt⟩))) (0 : Fin 1) l) := by
  have hw := word3_1_lt a t
  have e0 : ((cfg3 a).win 1).index t (0 : Fin 3) = ((a.1 1 (ValueIdx.ix1 (n := 40000) ⟨t.val, t.isLt⟩) : BitVec 32)).toNat := congrFun (index3_1 a t) (0 : Fin 3)
  have eM : ((cfg3 a).win 1).index t (1 : Fin 3) = 0 := congrFun (index3_1 a t) (1 : Fin 3)
  have e2 : ((cfg3 a).win 1).index t (2 : Fin 3) = 0 := congrFun (index3_1 a t) (2 : Fin 3)
  show V c main_v4 ((((cfg3 a).win 1).blk t).view.emb y) = V c main_v4 _
  refine congrArg (V c main_v4) ?_
  funext d
  apply Fin.ext
  match d with
  | ⟨0, _⟩ =>
    show ((cfg3 a).win 1).index t (0 : Fin 3) * 1 + 1 * (y (0 : Fin 3)).val = (Cert.Spec.node _).val
    have hy : (y (0 : Fin 3)).val < 1 := (y (0 : Fin 3)).isLt
    rw [e0, Cert.Spec.node_val hw]; omega
  | ⟨1, _⟩ =>
    show ((cfg3 a).win 1).index t (1 : Fin 3) * 1 + 1 * (y (1 : Fin 3)).val = 0
    have hy : (y (1 : Fin 3)).val < 1 := (y (1 : Fin 3)).isLt
    rw [eM]; omega
  | ⟨2, _⟩ =>
    show ((cfg3 a).win 1).index t (2 : Fin 3) * 128 + 1 * (y (2 : Fin 3)).val = l.val
    rw [e2, hl]; omega

/-- Entry (t, l) of what the call leaves: the two gathered rows' entries at lane l, added and scaled. -/
def row3 (c : Dev nD) (t : Fin 40000) (l : Fin 128) : EReal :=
  comb3 (srcRows3 V c (ValueIdx.ix3 (Cert.Spec.node (a.1 0 (ValueIdx.ix1 t))) (0 : Fin 1) l))
    (dstRows3 V c (ValueIdx.ix3 (Cert.Spec.node (a.1 1 (ValueIdx.ix1 t))) (0 : Fin 1) l))

/-- The whole output array as one function of its index. -/
def gath3 (c : Dev nD) : S40000x1x128.Idx → EReal :=
  fun i => row3 V a c ⟨(i (0 : Fin 3)).val, (i (0 : Fin 3)).isLt⟩ ⟨(i (2 : Fin 3)).val, (i (2 : Fin 3)).isLt⟩

set_option maxHeartbeats 200000 in
/-- What point t writes back is block t of that function. -/
theorem flushed3_eq (c : Dev nD) (t : Fin (cfg3 a).N) :
    (dat3 (F := Ideal) V a c).flushed 2 t = (((cfg3 a).win 2).blk t).view.read (Elt Ideal) (gath3 V a c) := by
  show ((cfg3 a).win 2).cut ((cfg3 a).grid.coords t) ((dat3 V a c).after 2 t) = _
  rw [after3_2]
  unfold out3_2
  rw [View.canon_unit_zero zeros3]
  funext j
  have e0 : ((cfg3 a).win 2).index t (0 : Fin 3) = t.val := congrFun (index3_2 a t) (0 : Fin 3)
  have e2 : ((cfg3 a).win 2).index t (2 : Fin 3) = 0 := congrFun (index3_2 a t) (2 : Fin 3)
  have hj0 : (j (0 : Fin 3)).val < 1 := (j (0 : Fin 3)).isLt
  show (k3_pay1 (F := Ideal) (View.ld (iblk3 V a c 0 t) r3) (View.ld (iblk3 V a c 1 t) r3) : S1x1x128.Idx → EReal) (((cfg3 a).win 2).xinj ((cfg3 a).grid.coords t) j)
      = gath3 V a c ((((cfg3 a).win 2).blk t).view.emb j)
  refine (pay3_ld_apply (iblk3 V a c 0 t) (iblk3 V a c 1 t) (((cfg3 a).win 2).xinj ((cfg3 a).grid.coords t) j)).trans ?_
  have hT : (⟨t.val, t.isLt⟩ : Fin 40000) = ⟨((((cfg3 a).win 2).blk t).view.emb j (0 : Fin 3)).val, ((((cfg3 a).win 2).blk t).view.emb j (0 : Fin 3)).isLt⟩ :=
    Fin.ext (by
      show t.val = ((cfg3 a).win 2).index t (0 : Fin 3) * 1 + 1 * (j (0 : Fin 3)).val
      rw [e0]; omega)
  have hL : (⟨(j (2 : Fin 3)).val, (j (2 : Fin 3)).isLt⟩ : Fin 128) = ⟨((((cfg3 a).win 2).blk t).view.emb j (2 : Fin 3)).val, ((((cfg3 a).win 2).blk t).view.emb j (2 : Fin 3)).isLt⟩ :=
    Fin.ext (by
      show (j (2 : Fin 3)).val = ((cfg3 a).win 2).index t (2 : Fin 3) * 128 + 1 * (j (2 : Fin 3)).val
      rw [e2]; omega)
  refine Eq.trans ?_ (congrArg₂ (row3 V a c) hT hL)
  unfold row3
  exact congrArg₂ comb3 (iblk3_0_apply V a c t _ _ rfl) (iblk3_1_apply V a c t _ _ rfl)

set_option maxHeartbeats 100000 in
/-- The output window is written back at every point: the next point's block is another row. -/
theorem flush3_2 (t : Fin (cfg3 a).N) : ((cfg3 a).win 2).flush t = true := by
  unfold Window.flush
  rw [Bool.and_eq_true, Bool.or_eq_true, decide_eq_true_eq, decide_eq_true_eq]
  refine ⟨rfl, ?_⟩
  by_cases h : t.val + 1 < (cfg3 a).grid.N
  · refine Or.inr ⟨h, fun e => ?_⟩
    have e0 := congrFun e (0 : Fin 3)
    have eA : ((cfg3 a).win 2).index ⟨t.val + 1, h⟩ (0 : Fin 3) = t.val + 1 := congrFun (index3_2 a ⟨t.val + 1, h⟩) (0 : Fin 3)
    have eB : ((cfg3 a).win 2).index t (0 : Fin 3) = t.val := congrFun (index3_2 a t) (0 : Fin 3)
    rw [eA, eB] at e0
    omega
  · refine Or.inl ?_
    have hlt : t.val < (cfg3 a).grid.N := t.isLt
    omega

set_option maxHeartbeats 100000 in
/-- Every entry of the output array lies in the block of the point its row names. -/
theorem cover3 (i : S40000x1x128.Idx) :
    ∃ t : Fin (cfg3 a).N, ((cfg3 a).win 2).flush t = true ∧ i ∈ (((cfg3 a).win 2).blk t).view.set := by
  have hlt : (i (0 : Fin 3)).val < (cfg3 a).N := by rw [npts3]; exact (i (0 : Fin 3)).isLt
  obtain ⟨t, ht⟩ : ∃ t : Fin (cfg3 a).N, t.val = (i (0 : Fin 3)).val := ⟨⟨_, hlt⟩, rfl⟩
  refine ⟨t, flush3_2 a t, ?_⟩
  have hset := View.set_slice_whole main_v15 (((cfg3 a).win 2).rect t)
  refine (Eq.mpr (congrArg (fun S => i ∈ S) hset) ?_ : i ∈ ((View.whole main_v15).slice (((cfg3 a).win 2).rect t)).set)
  refine Rect.mem_set_unit.mpr (fun d => ?_)
  have e0 : ((cfg3 a).win 2).index t (0 : Fin 3) = t.val := congrFun (index3_2 a t) (0 : Fin 3)
  have eB : ((cfg3 a).win 2).index t (1 : Fin 3) = 0 := congrFun (index3_2 a t) (1 : Fin 3)
  have e2 : ((cfg3 a).win 2).index t (2 : Fin 3) = 0 := congrFun (index3_2 a t) (2 : Fin 3)
  match d with
  | ⟨0, _⟩ =>
    show ((cfg3 a).win 2).index t (0 : Fin 3) * 1 ≤ (i (0 : Fin 3)).val
      ∧ (i (0 : Fin 3)).val < ((cfg3 a).win 2).index t (0 : Fin 3) * 1 + 1
    rw [e0]; omega
  | ⟨1, _⟩ =>
    have hi : (i (1 : Fin 3)).val < 1 := (i (1 : Fin 3)).isLt
    show ((cfg3 a).win 2).index t (1 : Fin 3) * 1 ≤ (i (1 : Fin 3)).val
      ∧ (i (1 : Fin 3)).val < ((cfg3 a).win 2).index t (1 : Fin 3) * 1 + 1
    rw [eB]; omega
  | ⟨2, _⟩ =>
    have hi : (i (2 : Fin 3)).val < 128 := (i (2 : Fin 3)).isLt
    show ((cfg3 a).win 2).index t (2 : Fin 3) * 128 ≤ (i (2 : Fin 3)).val
      ∧ (i (2 : Fin 3)).val < ((cfg3 a).win 2).index t (2 : Fin 3) * 128 + 128
    rw [e2]; omega

/-- So the output array ends holding that function. -/
theorem final3 (c : Dev nD) : (dat3 (F := Ideal) V a c).arrAt 2 (cfg3 a).N = gath3 V a c :=
  (dat3 (F := Ideal) V a c).arrAt_eq_of_cover 2 (gath3 V a c) (fun t _ => flushed3_eq V a c t) (cover3 a)

/-- What gather call 1 leaves in its output array, entry by entry: the two rows its tables name, added and scaled. -/
theorem gather_out3 (c : Dev nD) (t : Fin 40000) (l : Fin 128) :
    ((dat3 (F := Ideal) V a c).arrAt 2 (cfg3 a).N : FVec Ideal S40000x1x128 .f32) (ValueIdx.ix3 t (0 : Fin 1) l)
      = (srcRows3 V c (ValueIdx.ix3 (Cert.Spec.node (a.1 0 (ValueIdx.ix1 t))) (0 : Fin 1) l)
        + dstRows3 V c (ValueIdx.ix3 (Cert.Spec.node (a.1 1 (ValueIdx.ix1 t))) (0 : Fin 1) l)) * Cert.Spec.scale :=
  congrFun (final3 V a c) (ValueIdx.ix3 t (0 : Fin 1) l)
end GatherValue

end Cert.KernelIdeal.Hand

end
-- ==== Proof.KI.Piece3.lean ====
/-
  Gather call 3's output array in terms of the launch arrays.

  Gather call 3 walks its 40000 grid points; at point t it reads row (word t of its source table) of the re-laid source
  projection and row (word t of its destination table) of the re-laid destination projection, adds them lane by lane and
  multiplies by the constant, into row t of its output. Its tables are the slices of the launch endpoint arrays from
  word 80000 on, so word t of a table is the endpoint array's word 40000 · 2 + t, and a re-laid projection's row n, lane l
  is the projected feature (batch l / 64, node n, feature l % 64). So row t, lane l of the output is lane l of the
  specification's row for edge 40000 · 2 + t.
-/
import proofs.«413139_j22651657519351_3_alg».proof.Proof.KI.Fold
import proofs.«413139_j22651657519351_3_alg».proof.Proof.KI.Walk
import proofs.«413139_j22651657519351_3_alg».proof.Proof.KI.Hs2
import proofs.«413139_j22651657519351_3_alg».proof.Proof.KI.GatherValue3
import proofs.«413139_j22651657519351_3_alg».proof.Proof.SpecRows
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe
open Idealize.SL.Sem

section Piece3

variable (m : (ℓ : Loc nD τ sig) → Buf (Elt Ideal) ℓ) (hR : InRange m)

/-- Word t of chunk 3's source table is the launch source array's word 40000 · 2 + t: the table is the slice of the
    array from word 80000 on. -/
theorem tbl3_src (t : Fin 40000) :
    (tbl3 (F := Ideal) m 0 : IVec S40000 32) (ValueIdx.ix1 t)
      = (m (((0 : Dev nD) : Thread nD τ).loc main_arg1) : IVec S800000 32) (ValueIdx.ix1 ⟨40000 * 2 + t.val, Cert.Spec.chunk_lt ⟨2, by norm_num⟩ t⟩) := by
  show extractStridedSlice S40000 ![80000] (m (((0 : Dev nD) : Thread nD τ).loc main_arg1) : IVec S800000 32) slices_S800000_S40000_80000 (ValueIdx.ix1 t) = _
  exact extractStridedSlice_apply (s := S800000) (t := S40000) ![80000] _ slices_S800000_S40000_80000 (ValueIdx.ix1 t) (ValueIdx.ix1 ⟨40000 * 2 + t.val, Cert.Spec.chunk_lt ⟨2, by norm_num⟩ t⟩)
    (fun a => match a with | ⟨0, _⟩ => by show 40000 * 2 + t.val = 80000 + t.val; omega)

/-- Word t of chunk 3's destination table is the launch destination array's word 40000 · 2 + t. -/
theorem tbl3_dst (t : Fin 40000) :
    (tbl3 (F := Ideal) m 1 : IVec S40000 32) (ValueIdx.ix1 t)
      = (m (((0 : Dev nD) : Thread nD τ).loc main_arg2) : IVec S800000 32) (ValueIdx.ix1 ⟨40000 * 2 + t.val, Cert.Spec.chunk_lt ⟨2, by norm_num⟩ t⟩) := by
  show extractStridedSlice S40000 ![80000] (m (((0 : Dev nD) : Thread nD τ).loc main_arg2) : IVec S800000 32) slices_S800000_S40000_80000 (ValueIdx.ix1 t) = _
  exact extractStridedSlice_apply (s := S800000) (t := S40000) ![80000] _ slices_S800000_S40000_80000 (ValueIdx.ix1 t) (ValueIdx.ix1 ⟨40000 * 2 + t.val, Cert.Spec.chunk_lt ⟨2, by norm_num⟩ t⟩)
    (fun a => match a with | ⟨0, _⟩ => by show 40000 * 2 + t.val = 80000 + t.val; omega)

/-- Gather call 3's output array in terms of the launch arrays: row t, lane l is lane l of edge 40000 · 2 + t's row.
    The call adds, at row t, the rows of the two re-laid projections that the tables' words t name, and scales the sum;
    the re-laid projections, untouched since host stretch 1 wrote them, hold at each row the projected features of that
    node, and the tables' words t are the endpoint arrays' words 40000 · 2 + t. -/
theorem piece3 (c : Dev nD) (t : Fin 40000) (l : Fin 128) :
    (W7 (F := Ideal) m hR c main_v15 : FVec Ideal S40000x1x128 .f32) (ValueIdx.ix3 t (0 : Fin 1) l)
      = Cert.Spec.edgeRow (m ((c : Thread nD τ).loc main_arg0)) (m ((c : Thread nD τ).loc main_arg1)) (m ((c : Thread nD τ).loc main_arg2))
          (m ((c : Thread nD τ).loc main_arg3)) (m ((c : Thread nD τ).loc main_arg4))
          ⟨40000 * 2 + t.val, Cert.Spec.chunk_lt ⟨2, by norm_num⟩ t⟩ l := by
  obtain rfl : c = 0 := Subsingleton.elim _ _
  refine (congrFun (W7_arr (F := Ideal) m hR 0 2) _).trans ?_
  refine (gather_out3 (V6 (F := Ideal) m hR) (a3 (F := Ideal) m hR) 0 t l).trans ?_
  have e1 : (W6 (F := Ideal) m hR 0 main_v2 : FVec Ideal S50000x1x128 .f32)
        (ValueIdx.ix3 (Cert.Spec.node ((tbl3 (F := Ideal) m 0 : IVec S40000 32) (ValueIdx.ix1 t))) (0 : Fin 1) l)
      = Cert.Spec.proj (m (((0 : Dev nD) : Thread nD τ).loc main_arg0)) (m (((0 : Dev nD) : Thread nD τ).loc main_arg3))
          ⟨l.val / 64, Cert.Spec.lane_div l⟩
          (Cert.Spec.node ((m (((0 : Dev nD) : Thread nD τ).loc main_arg1) : IVec S800000 32) (ValueIdx.ix1 ⟨40000 * 2 + t.val, Cert.Spec.chunk_lt ⟨2, by norm_num⟩ t⟩)))
          ⟨l.val % 64, Cert.Spec.lane_mod l⟩ := by
    rw [tbl3_src m t]
    exact (congrFun (W6_v2 (F := Ideal) m hR 0) _).trans (hs2_apply m hR 0 _ l)
  have e2 : (W6 (F := Ideal) m hR 0 main_v4 : FVec Ideal S50000x1x128 .f32)
        (ValueIdx.ix3 (Cert.Spec.node ((tbl3 (F := Ideal) m 1 : IVec S40000 32) (ValueIdx.ix1 t))) (0 : Fin 1) l)
      = Cert.Spec.proj (m (((0 : Dev nD) : Thread nD τ).loc main_arg0)) (m (((0 : Dev nD) : Thread nD τ).loc main_arg4))
          ⟨l.val / 64, Cert.Spec.lane_div l⟩
          (Cert.Spec.node ((m (((0 : Dev nD) : Thread nD τ).loc main_arg2) : IVec S800000 32) (ValueIdx.ix1 ⟨40000 * 2 + t.val, Cert.Spec.chunk_lt ⟨2, by norm_num⟩ t⟩)))
          ⟨l.val % 64, Cert.Spec.lane_mod l⟩ := by
    rw [tbl3_dst m t]
    exact (congrFun (W6_v4 (F := Ideal) m hR 0) _).trans (hd2_apply m hR 0 _ l)
  exact congrArg₂ (fun a b : EReal => (a + b) * Cert.Spec.scale) e1 e2

end Piece3

end Cert.KernelIdeal.Hand

end
-- ==== Proof.KI.FPiece3.lean ====
/-
  Chunk 3's rows as the last host stretch finds them. Host stretch 4 reshapes gather call 3's output
  [40000, 1, 128] to [40000, 128]; nothing touches that buffer until the last stretch concatenates the twenty pieces.
  With the call's output read as the rows of the specification, the piece is the specification's chunk number 2.
-/
import proofs.«413139_j22651657519351_3_alg».proof.Proof.Gen.KernelIdeal.Launch
import proofs.«413139_j22651657519351_3_alg».proof.Proof.Gen.KernelIdeal.Skeleton
import proofs.«413139_j22651657519351_3_alg».proof.Proof.Gen.KernelIdeal.Points
import proofs.«413139_j22651657519351_3_alg».proof.Proof.KI.Walk
import proofs.«413139_j22651657519351_3_alg».proof.Proof.KI.Piece3
import proofs.«413139_j22651657519351_3_alg».proof.Proof.Layout
import proofs.«413139_j22651657519351_3_alg».proof.Proof.SpecRows
import Idealize.ShloMosaic.Lib.StableHlo.Run
import Idealize.ShloMosaic.Lib.ValueIdx
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section FPiece

variable (m : (ℓ : Loc nD τ sig) → Buf (Elt Ideal) ℓ) (hR : InRange m)

theorem fpiece3 (c : Dev nD) :
    (W41 (F := Ideal) m hR c main_v16 : FVec Ideal S40000x128 .f32)
      = Cert.Spec.chunk (m ((c : Thread nD τ).loc main_arg0)) (m ((c : Thread nD τ).loc main_arg1)) (m ((c : Thread nD τ).loc main_arg2))
          (m ((c : Thread nD τ).loc main_arg3)) (m ((c : Thread nD τ).loc main_arg4)) (2 : Fin 20) := by
  funext i
  obtain ⟨t, l, rfl⟩ : ∃ (t : Fin 40000) (l : Fin 128), i = ValueIdx.ix2 t l := ⟨i 0, i 1, ValueIdx.eq_ix2 i⟩
  rw [W41_p3 m hR c]
  show StableHlo.after hostOps4 (W7 (F := Ideal) m hR c) (Proc.devRef .tc main_v16) (ValueIdx.ix2 t l) = _
  after_results
  refine (Cert.Layout.piece_apply _ _ t l).trans ?_
  exact piece3 m hR c t l

end FPiece

end Cert.KernelIdeal.Hand

end
-- ==== Proof.KI.GatherValue4.lean ====
/-
  Edge chunk 1's gather kernel: what it leaves in its output array, entry by entry, at the ideal (extended-real)
  instance, for any contents V of the buffers at the region's entry and any admissible contents of the two index tables.

  At grid point t the two gathered windows hold row (word t of table 0) of the first source array and row (word t of
  table 1) of the second: the block index of a gathered window is (that word read unsigned, 0, 0), the block is one
  row of 128 lanes, and admissibility of the tables says the word is below the 50000 rows. The body stores
  (row + row) · c into the output block, and the output window's block index is (t, 0, 0): block t is row t of the
  output array, every point writes its block back, and the blocks of the 40000 points cover the array. So the array
  ends holding, at (t, 0, l), the sum of the two named rows' entries at lane l, times c.
-/
import proofs.«413139_j22651657519351_3_alg».proof.Proof.KI.Region4
import proofs.«413139_j22651657519351_3_alg».proof.Proof.Spec
import Idealize.ShloMosaic.Lib.Pipeline.Value
import Idealize.ShloMosaic.Lib.ValueIdx
import Idealize.ShloMosaic.Lib.ValueLayout

set_option maxRecDepth 16384

noncomputable section

namespace Cert.KernelIdeal.Hand

open Cert.KernelIdeal Cert.KernelIdeal.Gen
open Idealize.ShloMosaic Idealize.ShloMosaic.TcCoe
open Idealize.SL.Sem
open Idealize.ShloMosaic.Pipeline (Dat Cfg Window)

section GatherValue
variable (V : (c : Dev nD) → (b : Ref sig .tc) → Buf (Elt Ideal) ((c : Thread nD τ).loc b))
variable (a : (pcfg4 (F := Ideal)).Adm)

/-- The grid has 40000 points, one axis. -/
theorem npts4 : (cfg4 a).N = 40000 := N_4

/-- The one coordinate of point t is t. -/
theorem coord4 (t : Fin (cfg4 a).N) : (((cfg4 a).grid.coords t) 0).val = t.val := by
  show t.val / (cfg4 a).grid.stride 0 % 40000 = t.val
  have hs : (cfg4 a).grid.stride 0 = 1 := rfl
  rw [hs]
  have := t.isLt
  have e : (cfg4 a).N = 40000 := rfl
  omega

/-- A grid coordinate, as the 32-bit word the index maps receive and back, is itself. -/
theorem wordCoord4 (n : Nat) (h : n < 40000) : (Scalar.indexCast (BitVec.ofNat 32 n)).toNat = n := by
  show (BitVec.ofNat 32 n).toNat = n
  rw [BitVec.toNat_ofNat]
  exact Nat.mod_eq_of_lt (by omega)

set_option maxHeartbeats 100000 in
/-- Output window: the block index at point t is (t, 0, 0). -/
theorem index4_2 (t : Fin (cfg4 a).N) : ((cfg4 a).win 2).index t = ![t.val, 0, 0] := by
  show cc4_transform_2 ((cfg4 a).grid.coords t) = _
  unfold cc4_transform_2
  dsimp only
  have h := coord4 a t
  have hl : t.val < 40000 := t.isLt
  funext d
  match d with
  | ⟨0, _⟩ => show (BitVec.ofNat 32 (((cfg4 a).grid.coords t) 0).val).toNat = t.val; rw [h]; exact wordCoord4 _ hl
  | ⟨1, _⟩ => rfl
  | ⟨2, _⟩ => rfl

set_option maxHeartbeats 100000 in
/-- Gathered window 0: the block index at point t is (word t of table 0, 0, 0). -/
theorem index4_0 (t : Fin (cfg4 a).N) :
    ((cfg4 a).win 0).index t = ![((a.1 0 (ValueIdx.ix1 (n := 40000) ⟨t.val, t.isLt⟩) : BitVec 32)).toNat, 0, 0] := by
  show cc4_transform_0 k4_off1_inb numel1_S1 a.1 ((cfg4 a).grid.coords t) = _
  unfold cc4_transform_0
  dsimp only
  have h := coord4 a t
  have hl : t.val < 40000 := t.isLt
  funext d
  match d with
  | ⟨0, _⟩ =>
    show ((a.1 0 _ : BitVec 32)).toNat = ((a.1 0 _ : BitVec 32)).toNat
    refine congrArg (fun j => ((a.1 0 j : BitVec 32)).toNat) ?_
    funext k
    match k with
    | ⟨0, _⟩ =>
      apply Fin.ext
      show (Scalar.indexCast (BitVec.ofNat 32 (((cfg4 a).grid.coords t) 0).val)).toNat + 1 * 0 = t.val
      rw [h, wordCoord4 _ hl]; omega
  | ⟨1, _⟩ => rfl
  | ⟨2, _⟩ => rfl

set_option maxHeartbeats 100000 in
/-- Gathered window 1: the block index at point t is (word t of table 1, 0, 0). -/
theorem index4_1 (t : Fin (cfg4 a).N) :
    ((cfg4 a).win 1).index t = ![((a.1 1 (ValueIdx.ix1 (n := 40000) ⟨t.val, t.isLt⟩) : BitVec 32)).toNat, 0, 0] := by
  show cc4_transform_1 k4_off1_inb numel1_S1 a.1 ((cfg4 a).grid.coords t) = _
  unfold cc4_transform_1
  dsimp only
  have h := coord4 a t
  have hl : t.val < 40000 := t.isLt
  funext d
  match d with
  | ⟨0, _⟩ =>
    show ((a.1 1 _ : BitVec 32)).toNat = ((a.1 1 _ : BitVec 32)).toNat
    refine congrArg (fun j => ((a.1 1 j : BitVec 32)).toNat) ?_
    funext k
    match k with
    | ⟨0, _⟩ =>
      apply Fin.ext
      show (Scalar.indexCast (BitVec.ofNat 32 (((cfg4 a).grid.coords t) 0).val)).toNat + 1 * 0 = t.val
      rw [h, wordCoord4 _ hl]; omega
  | ⟨1, _⟩ => rfl
  | ⟨2, _⟩ => rfl

theorem zeros4 : (![0, 0, 0] : Fin 3 → Nat) = fun _ => 0 := funext fun d => by fin_cases d <;> rfl

/-- The arithmetic of one entry: add, then scale. -/
abbrev comb4 (u v : EReal) : EReal := (u + v) * Cert.Spec.scale

/-- The body's payload at an index: the sum of the two loaded rows' entries there, times the scale. -/
theorem pay4_apply (x0 x2 : S1x1x128.Idx → EReal) (y : S1x1x128.Idx) :
    (k4_pay1 (F := Ideal) x0 x2 : S1x1x128.Idx → EReal) y = (x0 y + x2 y) * Cert.Spec.scale := by
  unfold k4_pay1
  rw [shapeCast_self, shapeCast_self]
  rfl

/-- The same with the two rows loaded through the whole-block rectangle. -/
theorem pay4_ld_apply (x0 x2 : Vec Ideal S1x1x128 .f32) (y : S1x1x128.Idx) :
    (k4_pay1 (F := Ideal) (View.ld x0 r4) (View.ld x2 r4) : S1x1x128.Idx → EReal) y = comb4 (x0 y) (x2 y) := by
  have hA : View.ld x0 r4 = x0 := View.ld_unit_zero (Val := Elt Ideal) (S := S1x1x128) (e := .f32) zeros4 _ x0
  have hB : View.ld x2 r4 = x2 := View.ld_unit_zero (Val := Elt Ideal) (S := S1x1x128) (e := .f32) zeros4 _ x2
  rw [hA, hB]
  exact pay4_apply x0 x2 y

/-- The word of table 0 at point t is a row of the 50000-row array. -/
theorem word4_0_lt (t : Fin (cfg4 a).N) : ((a.1 0 (ValueIdx.ix1 (n := 40000) ⟨t.val, t.isLt⟩) : BitVec 32)).toNat < 50000 := by
  obtain ⟨h, -⟩ := a.2.1 ((cfg4 a).grid.coords t)
  have h0 : (((cfg4 a).win 0).index t (0 : Fin 3) + 1) * 1 ≤ 50000 := h 0
  have e0 : ((cfg4 a).win 0).index t (0 : Fin 3) = ((a.1 0 (ValueIdx.ix1 (n := 40000) ⟨t.val, t.isLt⟩) : BitVec 32)).toNat := congrFun (index4_0 a t) (0 : Fin 3)
  rw [e0] at h0
  omega

/-- The word of table 1 at point t is a row of the 50000-row array. -/
theorem word4_1_lt (t : Fin (cfg4 a).N) : ((a.1 1 (ValueIdx.ix1 (n := 40000) ⟨t.val, t.isLt⟩) : BitVec 32)).toNat < 50000 := by
  obtain ⟨h, -⟩ := a.2.2 ((cfg4 a).grid.coords t)
  have h0 : (((cfg4 a).win 1).index t (0 : Fin 3) + 1) * 1 ≤ 50000 := h 0
  have e0 : ((cfg4 a).win 1).index t (0 : Fin 3) = ((a.1 1 (ValueIdx.ix1 (n := 40000) ⟨t.val, t.isLt⟩) : BitVec 32)).toNat := congrFun (index4_1 a t) (0 : Fin 3)
  rw [e0] at h0
  omega

/-- The two source arrays, as functions to the extended reals. -/
abbrev srcRows4 (c : Dev nD) : S50000x1x128.Idx → EReal := V c main_v2
abbrev dstRows4 (c : Dev nD) : S50000x1x128.Idx → EReal := V c main_v4

set_option maxHeartbeats 100000 in
/-- Window 0's block at point t is the row of the first source array that table 0's word t names. -/
theorem iblk4_0_apply (c : Dev nD) (t : Fin (cfg4 a).N) (y : (((cfg4 a).win 0).xblock ((cfg4 a).grid.coords t)).Idx)
    (l : Fin 128) (hl : (y (2 : Fin 3)).val = l.val) :
    (iblk4 V a c 0 t y : EReal)
      = srcRows4 V c (ValueIdx.ix3 (Cert.Spec.node (a.1 0 (ValueIdx.ix1 (n := 40000) ⟨t.val, t.isLt⟩))) (0 : Fin 1) l) := by
  have hw := word4_0_lt a t
  have e0 : ((cfg4 a).win 0).index t (0 : Fin 3) = ((a.1 0 (ValueIdx.ix1 (n := 40000) ⟨t.val, t.isLt⟩) : BitVec 32)).toNat := congrFun (index4_0 a t) (0 : Fin 3)
  have eM : ((cfg4 a).win 0).index t (1 : Fin 3) = 0 := congrFun (index4_0 a t) (1 : Fin 3)
  have e2 : ((cfg4 a).win 0).index t (2 : Fin 3) = 0 := congrFun (index4_0 a t) (2 : Fin 3)
  show V c main_v2 ((((cfg4 a).win 0).blk t).view.emb y) = V c main_v2 _
  refine congrArg (V c main_v2) ?_
  funext d
  apply Fin.ext
  match d with
  | ⟨0, _⟩ =>
    show ((cfg4 a).win 0).index t (0 : Fin 3) * 1 + 1 * (y (0 : Fin 3)).val = (Cert.Spec.node _).val
    have hy : (y (0 : Fin 3)).val < 1 := (y (0 : Fin 3)).isLt
    rw [e0, Cert.Spec.node_val hw]; omega
  | ⟨1, _⟩ =>
    show ((cfg4 a).win 0).index t (1 : Fin 3) * 1 + 1 * (y (1 : Fin 3)).val = 0
    have hy : (y (1 : Fin 3)).val < 1 := (y (1 : Fin 3)).isLt
    rw [eM]; omega
  | ⟨2, _⟩ =>
    show ((cfg4 a).win 0).index t (2 : Fin 3) * 128 + 1 * (y (2 : Fin 3)).val = l.val
    rw [e2, hl]; omega

set_option maxHeartbeats 100000 in
/-- Window 1's block at point t is the row of the second source array that table 1's word t names. -/
theorem iblk4_1_apply (c : Dev nD) (t : Fin (cfg4 a).N) (y : (((cfg4 a).win 1).xblock ((cfg4 a).grid.coords t)).Idx)
    (l : Fin 128) (hl : (y (2 : Fin 3)).val = l.val) :
    (iblk4 V a c 1 t y : EReal)
      = dstRows4 V c (ValueIdx.ix3 (Cert.Spec.node (a.1 1 (ValueIdx.ix1 (n := 40000) ⟨t.val, t.isLt⟩))) (0 : Fin 1) l) := by
  have hw := word4_1_lt a t
  have e0 : ((cfg4 a).win 1).index t (0 : Fin 3) = ((a.1 1 (ValueIdx.ix1 (n := 40000) ⟨t.val, t.isLt⟩) : BitVec 32)).toNat := congrFun (index4_1 a t) (0 : Fin 3)
  have eM : ((cfg4 a).win 1).index t (1 : Fin 3) = 0 := congrFun (index4_1 a t) (1 : Fin 3)
  have e2 : ((cfg4 a).win 1).index t (2 : Fin 3) = 0 := congrFun (index4_1 a t) (2 : Fin 3)
  show V c main_v4 ((((cfg4 a).win 1).blk t).view.emb y) = V c main_v4 _
  refine congrArg (V c main_v4) ?_
  funext d
  apply Fin.ext
  match d with
  | ⟨0, _⟩ =>
    show ((cfg4 a).win 1).index t (0 : Fin 3) * 1 + 1 * (y (0 : Fin 3)).val = (Cert.Spec.node _).val
    have hy : (y (0 : Fin 3)).val < 1 := (y (0 : Fin 3)).isLt
    rw [e0, Cert.Spec.node_val hw]; omega
  | ⟨1, _⟩ =>
    show ((cfg4 a).win 1).index t (1 : Fin 3) * 1 + 1 * (y (1 : Fin 3)).val = 0
    have hy : (y (1 : Fin 3)).val < 1 := (y (1 : Fin 3)).isLt
    rw [eM]; omega
  | ⟨2, _⟩ =>
    show ((cfg4 a).win 1).index t (2 : Fin 3) * 128 + 1 * (y (2 : Fin 3)).val = l.val
    rw [e2, hl]; omega

/-- Entry (t, l) of what the call leaves: the two gathered rows' entries at lane l, added and scaled. -/
def row4 (c : Dev nD) (t : Fin 40000) (l : Fin 128) : EReal :=
  comb4 (srcRows4 V c (ValueIdx.ix3 (Cert.Spec.node (a.1 0 (ValueIdx.ix1 t))) (0 : Fin 1) l))
    (dstRows4 V c (ValueIdx.ix3 (Cert.Spec.node (a.1 1 (ValueIdx.ix1 t))) (0 : Fin 1) l))

/-- The whole output array as one function of its index. -/
def gath4 (c : Dev nD) : S40000x1x128.Idx → EReal :=
  fun i => row4 V a c ⟨(i (0 : Fin 3)).val, (i (0 : Fin 3)).isLt⟩ ⟨(i (2 : Fin 3)).val, (i (2 : Fin 3)).isLt⟩

set_option maxHeartbeats 200000 in
/-- What point t writes back is block t of that function. -/
theorem flushed4_eq (c : Dev nD) (t : Fin (cfg4 a).N) :
    (dat4 (F := Ideal) V a c).flushed 2 t = (((cfg4 a).win 2).blk t).view.read (Elt Ideal) (gath4 V a c) := by
  show ((cfg4 a).win 2).cut ((cfg4 a).grid.coords t) ((dat4 V a c).after 2 t) = _
  rw [after4_2]
  unfold out4_2
  rw [View.canon_unit_zero zeros4]
  funext j
  have e0 : ((cfg4 a).win 2).index t (0 : Fin 3) = t.val := congrFun (index4_2 a t) (0 : Fin 3)
  have e2 : ((cfg4 a).win 2).index t (2 : Fin 3) = 0 := congrFun (index4_2 a t) (2 : Fin 3)
  have hj0 : (j (0 : Fin 3)).val < 1 := (j (0 : Fin 3)).isLt
  show (k4_pay1 (F := Ideal) (View.ld (iblk4 V a c 0 t) r4) (View.ld (iblk4 V a c 1 t) r4) : S1x1x128.Idx → EReal) (((cfg4 a).win 2).xinj ((cfg4 a).grid.coords t) j)
      = gath4 V a c ((((cfg4 a).win 2).blk t).view.emb j)
  refine (pay4_ld_apply (iblk4 V a c 0 t) (iblk4 V a c 1 t) (((cfg4 a).win 2).xinj ((cfg4 a).grid.coords t) j)).trans ?_
  have hT : (⟨t.val, t.isLt⟩ : Fin 40000) = ⟨((((cfg4 a).win 2).blk t).view.emb j (0 : Fin 3)).val, ((((cfg4 a).win 2).blk t).view.emb j (0 : Fin 3)).isLt⟩ :=
    Fin.ext (by
      show t.val = ((cfg4 a).win 2).index t (0 : Fin 3) * 1 + 1 * (j (0 : Fin 3)).val
      rw [e0]; omega)
  have hL : (⟨(j (2 : Fin 3)).val, (j (2 : Fin 3)).isLt⟩ : Fin 128) = ⟨((((cfg4 a).win 2).blk t).view.emb j (2 : Fin 3)).val, ((((cfg4 a).win 2).blk t).view.emb j (2 : Fin 3)).isLt⟩ :=
    Fin.ext (by
      show (j (2 : Fin 3)).val = ((cfg4 a).win 2).index t (2 : Fin 3) * 128 + 1 * (j (2 : Fin 3)).val
      rw [e2]; omega)
  refine Eq.trans ?_ (congrArg₂ (row4 V a c) hT hL)
  unfold row4
  exact congrArg₂ comb4 (iblk4_0_apply V a c t _ _ rfl) (iblk4_1_apply V a c t _ _ rfl)

set_option maxHeartbeats 100000 in
/-- The output window is written back at every point: the next point's block is another row. -/
theorem flush4_2 (t : Fin (cfg4 a).N) : ((cfg4 a).win 2).flush t = true := by
  unfold Window.flush
  rw [Bool.and_eq_true, Bool.or_eq_true, decide_eq_true_eq, decide_eq_true_eq]
  refine ⟨rfl, ?_⟩
  by_cases h : t.val + 1 < (cfg4 a).grid.N
  · refine Or.inr ⟨h, fun e => ?_⟩
    have e0 := congrFun e (0 : Fin 3)
    have eA : ((cfg4 a).win 2).index ⟨t.val + 1, h⟩ (0 : Fin 3) = t.val + 1 := congrFun (index4_2 a ⟨t.val + 1, h⟩) (0 : Fin 3)
    have eB : ((cfg4 a).win 2).index t (0 : Fin 3) = t.val := congrFun (index4_2 a t) (0 : Fin 3)
    rw [eA, eB] at e0
    omega
  · refine Or.inl ?_
    have hlt : t.val < (cfg4 a).grid.N := t.isLt
    omega

set_option maxHeartbeats 100000 in
/-- Every entry of the output array lies in the block of the point its row names. -/
theorem cover4 (i : S40000x1x128.Idx) :
    ∃ t : Fin (cfg4 a).N, ((cfg4 a).win 2).flush t = true ∧ i ∈ (((cfg4 a).win 2).blk t).view.set := by
  have hlt : (i (0 : Fin 3)).val < (cfg4 a).N := by rw [npts4]; exact (i (0 : Fin 3)).isLt
  obtain ⟨t, ht⟩ : ∃ t : Fin (cfg4 a).N, t.val = (i (0 : Fin 3)).val := ⟨⟨_, hlt⟩, rfl⟩
  refine ⟨t, flush4_2 a t, ?_⟩
  have hset := View.set_slice_whole main_v19 (((cfg4 a).win 2).rect t)
  refine (Eq.mpr (congrArg (fun S => i ∈ S) hset) ?_ : i ∈ ((View.whole main_v19).slice (((cfg4 a).win 2).rect t)).set)
  refine Rect.mem_set_unit.mpr (fun d => ?_)
  have e0 : ((cfg4 a).win 2).index t (0 : Fin 3) = t.val := congrFun (index4_2 a t) (0 : Fin 3)
  have eB : ((cfg4 a).win 2).index t (1 : Fin 3) = 0 := congrFun (index4_2 a t) (1 : Fin 3)
  have e2 : ((cfg4 a).win 2).index t (2 : Fin 3) = 0 := congrFun (index4_2 a t) (2 : Fin 3)
  match d with
  | ⟨0, _⟩ =>
    show ((cfg4 a).win 2).index t (0 : Fin 3) * 1 ≤ (i (0 : Fin 3)).val
      ∧ (i (0 : Fin 3)).val < ((cfg4 a).win 2).index t (0 : Fin 3) * 1 + 1
    rw [e0]; omega
  | ⟨1, _⟩ =>
    have hi : (i (1 : Fin 3)).val < 1 := (i (1 : Fin 3)).isLt
    show ((cfg4 a).win 2).index t (1 : Fin 3) * 1 ≤ (i (1 : Fin 3)).val
      ∧ (i (1 : Fin 3)).val < ((cfg4 a).win 2).index t (1 : Fin 3) * 1 + 1
    rw [eB]; omega
  | ⟨2, _⟩ =>
    have hi : (i (2 : Fin 3)).val < 128 := (i (2 : Fin 3)).isLt
    show ((cfg4 a).win 2).index t (2 : Fin 3) * 128 ≤ (i (2 : Fin 3)).val
      ∧ (i (2 : Fin 3)).val < ((cfg4 a).win 2).index t (2 : Fin 3) * 128 + 128
    rw [e2]; omega

/-- So the output array ends holding that function. -/
theorem final4 (c : Dev nD) : (dat4 (F := Ideal) V a c).arrAt 2 (cfg4 a).N = gath4 V a c :=
  (dat4 (F := Ideal) V a c).arrAt_eq_of_cover 2 (gath4 V a c) (fun t _ => flushed4_eq V a c t) (cover4 a)

/-- What gather call 1 leaves in its output array, entry by entry: the two rows its tables name, added and scaled. -/
theorem gather_out4 (c : Dev nD) (t : Fin 40000) (l : Fin 128) :
    ((dat4 (F := Ideal) V a c).arrAt 2 (cfg4 a).N : FVec Ideal S40000x1x128 .f32) (ValueIdx.ix3 t (0 : Fin 1) l)
      = (srcRows4 V c (ValueIdx.ix3 (Cert.Spec.node (a.1 0 (ValueIdx.ix1 t))) (0 : Fin 1) l)
        + dstRows4 V c (ValueIdx.ix3 (Cert.Spec.node (a.1 1 (ValueIdx.ix1 t))) (0 : Fin 1) l)) * Cert.Spec.scale :=
  congrFun (final4 V a c) (ValueIdx.ix3 t (0 : Fin 1) l)
end GatherValue

end Cert.KernelIdeal.Hand

end
-- ==== Proof.KI.Piece4.lean ====
/-
  Gather call 4's output array in terms of the launch arrays.

  Gather call 4 walks its 40000 grid points; at point t it reads row (word t of its source table) of the re-laid source
  projection and row (word t of its destination table) of the re-laid destination projection, adds them lane by lane and
  multiplies by the constant, into row t of its output. Its tables are the slices of the launch endpoint arrays from
  word 120000 on, so word t of a table is the endpoint array's word 40000 · 3 + t, and a re-laid projection's row n, lane l
  is the projected feature (batch l / 64, node n, feature l % 64). So row t, lane l of the output is lane l of the
  specification's row for edge 40000 · 3 + t.
-/
import proofs.«413139_j22651657519351_3_alg».proof.Proof.KI.Fold
import proofs.«413139_j22651657519351_3_alg».proof.Proof.KI.Walk
import proofs.«413139_j22651657519351_3_alg».proof.Proof.KI.Hs2
import proofs.«413139_j22651657519351_3_alg».proof.Proof.KI.GatherValue4
import proofs.«413139_j22651657519351_3_alg».proof.Proof.SpecRows
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe
open Idealize.SL.Sem

section Piece4

variable (m : (ℓ : Loc nD τ sig) → Buf (Elt Ideal) ℓ) (hR : InRange m)

/-- Word t of chunk 4's source table is the launch source array's word 40000 · 3 + t: the table is the slice of the
    array from word 120000 on. -/
theorem tbl4_src (t : Fin 40000) :
    (tbl4 (F := Ideal) m 0 : IVec S40000 32) (ValueIdx.ix1 t)
      = (m (((0 : Dev nD) : Thread nD τ).loc main_arg1) : IVec S800000 32) (ValueIdx.ix1 ⟨40000 * 3 + t.val, Cert.Spec.chunk_lt ⟨3, by norm_num⟩ t⟩) := by
  show extractStridedSlice S40000 ![120000] (m (((0 : Dev nD) : Thread nD τ).loc main_arg1) : IVec S800000 32) slices_S800000_S40000_120000 (ValueIdx.ix1 t) = _
  exact extractStridedSlice_apply (s := S800000) (t := S40000) ![120000] _ slices_S800000_S40000_120000 (ValueIdx.ix1 t) (ValueIdx.ix1 ⟨40000 * 3 + t.val, Cert.Spec.chunk_lt ⟨3, by norm_num⟩ t⟩)
    (fun a => match a with | ⟨0, _⟩ => by show 40000 * 3 + t.val = 120000 + t.val; omega)

/-- Word t of chunk 4's destination table is the launch destination array's word 40000 · 3 + t. -/
theorem tbl4_dst (t : Fin 40000) :
    (tbl4 (F := Ideal) m 1 : IVec S40000 32) (ValueIdx.ix1 t)
      = (m (((0 : Dev nD) : Thread nD τ).loc main_arg2) : IVec S800000 32) (ValueIdx.ix1 ⟨40000 * 3 + t.val, Cert.Spec.chunk_lt ⟨3, by norm_num⟩ t⟩) := by
  show extractStridedSlice S40000 ![120000] (m (((0 : Dev nD) : Thread nD τ).loc main_arg2) : IVec S800000 32) slices_S800000_S40000_120000 (ValueIdx.ix1 t) = _
  exact extractStridedSlice_apply (s := S800000) (t := S40000) ![120000] _ slices_S800000_S40000_120000 (ValueIdx.ix1 t) (ValueIdx.ix1 ⟨40000 * 3 + t.val, Cert.Spec.chunk_lt ⟨3, by norm_num⟩ t⟩)
    (fun a => match a with | ⟨0, _⟩ => by show 40000 * 3 + t.val = 120000 + t.val; omega)

/-- Gather call 4's output array in terms of the launch arrays: row t, lane l is lane l of edge 40000 · 3 + t's row.
    The call adds, at row t, the rows of the two re-laid projections that the tables' words t name, and scales the sum;
    the re-laid projections, untouched since host stretch 1 wrote them, hold at each row the projected features of that
    node, and the tables' words t are the endpoint arrays' words 40000 · 3 + t. -/
theorem piece4 (c : Dev nD) (t : Fin 40000) (l : Fin 128) :
    (W9 (F := Ideal) m hR c main_v19 : FVec Ideal S40000x1x128 .f32) (ValueIdx.ix3 t (0 : Fin 1) l)
      = Cert.Spec.edgeRow (m ((c : Thread nD τ).loc main_arg0)) (m ((c : Thread nD τ).loc main_arg1)) (m ((c : Thread nD τ).loc main_arg2))
          (m ((c : Thread nD τ).loc main_arg3)) (m ((c : Thread nD τ).loc main_arg4))
          ⟨40000 * 3 + t.val, Cert.Spec.chunk_lt ⟨3, by norm_num⟩ t⟩ l := by
  obtain rfl : c = 0 := Subsingleton.elim _ _
  refine (congrFun (W9_arr (F := Ideal) m hR 0 2) _).trans ?_
  refine (gather_out4 (V8 (F := Ideal) m hR) (a4 (F := Ideal) m hR) 0 t l).trans ?_
  have e1 : (W8 (F := Ideal) m hR 0 main_v2 : FVec Ideal S50000x1x128 .f32)
        (ValueIdx.ix3 (Cert.Spec.node ((tbl4 (F := Ideal) m 0 : IVec S40000 32) (ValueIdx.ix1 t))) (0 : Fin 1) l)
      = Cert.Spec.proj (m (((0 : Dev nD) : Thread nD τ).loc main_arg0)) (m (((0 : Dev nD) : Thread nD τ).loc main_arg3))
          ⟨l.val / 64, Cert.Spec.lane_div l⟩
          (Cert.Spec.node ((m (((0 : Dev nD) : Thread nD τ).loc main_arg1) : IVec S800000 32) (ValueIdx.ix1 ⟨40000 * 3 + t.val, Cert.Spec.chunk_lt ⟨3, by norm_num⟩ t⟩)))
          ⟨l.val % 64, Cert.Spec.lane_mod l⟩ := by
    rw [tbl4_src m t]
    exact (congrFun (W8_v2 (F := Ideal) m hR 0) _).trans (hs2_apply m hR 0 _ l)
  have e2 : (W8 (F := Ideal) m hR 0 main_v4 : FVec Ideal S50000x1x128 .f32)
        (ValueIdx.ix3 (Cert.Spec.node ((tbl4 (F := Ideal) m 1 : IVec S40000 32) (ValueIdx.ix1 t))) (0 : Fin 1) l)
      = Cert.Spec.proj (m (((0 : Dev nD) : Thread nD τ).loc main_arg0)) (m (((0 : Dev nD) : Thread nD τ).loc main_arg4))
          ⟨l.val / 64, Cert.Spec.lane_div l⟩
          (Cert.Spec.node ((m (((0 : Dev nD) : Thread nD τ).loc main_arg2) : IVec S800000 32) (ValueIdx.ix1 ⟨40000 * 3 + t.val, Cert.Spec.chunk_lt ⟨3, by norm_num⟩ t⟩)))
          ⟨l.val % 64, Cert.Spec.lane_mod l⟩ := by
    rw [tbl4_dst m t]
    exact (congrFun (W8_v4 (F := Ideal) m hR 0) _).trans (hd2_apply m hR 0 _ l)
  exact congrArg₂ (fun a b : EReal => (a + b) * Cert.Spec.scale) e1 e2

end Piece4

end Cert.KernelIdeal.Hand

end
-- ==== Proof.KI.FPiece4.lean ====
/-
  Chunk 4's rows as the last host stretch finds them. Host stretch 5 reshapes gather call 4's output
  [40000, 1, 128] to [40000, 128]; nothing touches that buffer until the last stretch concatenates the twenty pieces.
  With the call's output read as the rows of the specification, the piece is the specification's chunk number 3.
-/
import proofs.«413139_j22651657519351_3_alg».proof.Proof.Gen.KernelIdeal.Launch
import proofs.«413139_j22651657519351_3_alg».proof.Proof.Gen.KernelIdeal.Skeleton
import proofs.«413139_j22651657519351_3_alg».proof.Proof.Gen.KernelIdeal.Points
import proofs.«413139_j22651657519351_3_alg».proof.Proof.KI.Walk
import proofs.«413139_j22651657519351_3_alg».proof.Proof.KI.Piece4
import proofs.«413139_j22651657519351_3_alg».proof.Proof.Layout
import proofs.«413139_j22651657519351_3_alg».proof.Proof.SpecRows
import Idealize.ShloMosaic.Lib.StableHlo.Run
import Idealize.ShloMosaic.Lib.ValueIdx
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section FPiece

variable (m : (ℓ : Loc nD τ sig) → Buf (Elt Ideal) ℓ) (hR : InRange m)

theorem fpiece4 (c : Dev nD) :
    (W41 (F := Ideal) m hR c main_v20 : FVec Ideal S40000x128 .f32)
      = Cert.Spec.chunk (m ((c : Thread nD τ).loc main_arg0)) (m ((c : Thread nD τ).loc main_arg1)) (m ((c : Thread nD τ).loc main_arg2))
          (m ((c : Thread nD τ).loc main_arg3)) (m ((c : Thread nD τ).loc main_arg4)) (3 : Fin 20) := by
  funext i
  obtain ⟨t, l, rfl⟩ : ∃ (t : Fin 40000) (l : Fin 128), i = ValueIdx.ix2 t l := ⟨i 0, i 1, ValueIdx.eq_ix2 i⟩
  rw [W41_p4 m hR c]
  show StableHlo.after hostOps5 (W9 (F := Ideal) m hR c) (Proc.devRef .tc main_v20) (ValueIdx.ix2 t l) = _
  after_results
  refine (Cert.Layout.piece_apply _ _ t l).trans ?_
  exact piece4 m hR c t l

end FPiece

end Cert.KernelIdeal.Hand

end
-- ==== Proof.KI.GatherValue5.lean ====
/-
  Edge chunk 1's gather kernel: what it leaves in its output array, entry by entry, at the ideal (extended-real)
  instance, for any contents V of the buffers at the region's entry and any admissible contents of the two index tables.

  At grid point t the two gathered windows hold row (word t of table 0) of the first source array and row (word t of
  table 1) of the second: the block index of a gathered window is (that word read unsigned, 0, 0), the block is one
  row of 128 lanes, and admissibility of the tables says the word is below the 50000 rows. The body stores
  (row + row) · c into the output block, and the output window's block index is (t, 0, 0): block t is row t of the
  output array, every point writes its block back, and the blocks of the 40000 points cover the array. So the array
  ends holding, at (t, 0, l), the sum of the two named rows' entries at lane l, times c.
-/
import proofs.«413139_j22651657519351_3_alg».proof.Proof.KI.Region5
import proofs.«413139_j22651657519351_3_alg».proof.Proof.Spec
import Idealize.ShloMosaic.Lib.Pipeline.Value
import Idealize.ShloMosaic.Lib.ValueIdx
import Idealize.ShloMosaic.Lib.ValueLayout

set_option maxRecDepth 16384

noncomputable section

namespace Cert.KernelIdeal.Hand

open Cert.KernelIdeal Cert.KernelIdeal.Gen
open Idealize.ShloMosaic Idealize.ShloMosaic.TcCoe
open Idealize.SL.Sem
open Idealize.ShloMosaic.Pipeline (Dat Cfg Window)

section GatherValue
variable (V : (c : Dev nD) → (b : Ref sig .tc) → Buf (Elt Ideal) ((c : Thread nD τ).loc b))
variable (a : (pcfg5 (F := Ideal)).Adm)

/-- The grid has 40000 points, one axis. -/
theorem npts5 : (cfg5 a).N = 40000 := N_5

/-- The one coordinate of point t is t. -/
theorem coord5 (t : Fin (cfg5 a).N) : (((cfg5 a).grid.coords t) 0).val = t.val := by
  show t.val / (cfg5 a).grid.stride 0 % 40000 = t.val
  have hs : (cfg5 a).grid.stride 0 = 1 := rfl
  rw [hs]
  have := t.isLt
  have e : (cfg5 a).N = 40000 := rfl
  omega

/-- A grid coordinate, as the 32-bit word the index maps receive and back, is itself. -/
theorem wordCoord5 (n : Nat) (h : n < 40000) : (Scalar.indexCast (BitVec.ofNat 32 n)).toNat = n := by
  show (BitVec.ofNat 32 n).toNat = n
  rw [BitVec.toNat_ofNat]
  exact Nat.mod_eq_of_lt (by omega)

set_option maxHeartbeats 100000 in
/-- Output window: the block index at point t is (t, 0, 0). -/
theorem index5_2 (t : Fin (cfg5 a).N) : ((cfg5 a).win 2).index t = ![t.val, 0, 0] := by
  show cc5_transform_2 ((cfg5 a).grid.coords t) = _
  unfold cc5_transform_2
  dsimp only
  have h := coord5 a t
  have hl : t.val < 40000 := t.isLt
  funext d
  match d with
  | ⟨0, _⟩ => show (BitVec.ofNat 32 (((cfg5 a).grid.coords t) 0).val).toNat = t.val; rw [h]; exact wordCoord5 _ hl
  | ⟨1, _⟩ => rfl
  | ⟨2, _⟩ => rfl

set_option maxHeartbeats 100000 in
/-- Gathered window 0: the block index at point t is (word t of table 0, 0, 0). -/
theorem index5_0 (t : Fin (cfg5 a).N) :
    ((cfg5 a).win 0).index t = ![((a.1 0 (ValueIdx.ix1 (n := 40000) ⟨t.val, t.isLt⟩) : BitVec 32)).toNat, 0, 0] := by
  show cc5_transform_0 k5_off1_inb numel1_S1 a.1 ((cfg5 a).grid.coords t) = _
  unfold cc5_transform_0
  dsimp only
  have h := coord5 a t
  have hl : t.val < 40000 := t.isLt
  funext d
  match d with
  | ⟨0, _⟩ =>
    show ((a.1 0 _ : BitVec 32)).toNat = ((a.1 0 _ : BitVec 32)).toNat
    refine congrArg (fun j => ((a.1 0 j : BitVec 32)).toNat) ?_
    funext k
    match k with
    | ⟨0, _⟩ =>
      apply Fin.ext
      show (Scalar.indexCast (BitVec.ofNat 32 (((cfg5 a).grid.coords t) 0).val)).toNat + 1 * 0 = t.val
      rw [h, wordCoord5 _ hl]; omega
  | ⟨1, _⟩ => rfl
  | ⟨2, _⟩ => rfl

set_option maxHeartbeats 100000 in
/-- Gathered window 1: the block index at point t is (word t of table 1, 0, 0). -/
theorem index5_1 (t : Fin (cfg5 a).N) :
    ((cfg5 a).win 1).index t = ![((a.1 1 (ValueIdx.ix1 (n := 40000) ⟨t.val, t.isLt⟩) : BitVec 32)).toNat, 0, 0] := by
  show cc5_transform_1 k5_off1_inb numel1_S1 a.1 ((cfg5 a).grid.coords t) = _
  unfold cc5_transform_1
  dsimp only
  have h := coord5 a t
  have hl : t.val < 40000 := t.isLt
  funext d
  match d with
  | ⟨0, _⟩ =>
    show ((a.1 1 _ : BitVec 32)).toNat = ((a.1 1 _ : BitVec 32)).toNat
    refine congrArg (fun j => ((a.1 1 j : BitVec 32)).toNat) ?_
    funext k
    match k with
    | ⟨0, _⟩ =>
      apply Fin.ext
      show (Scalar.indexCast (BitVec.ofNat 32 (((cfg5 a).grid.coords t) 0).val)).toNat + 1 * 0 = t.val
      rw [h, wordCoord5 _ hl]; omega
  | ⟨1, _⟩ => rfl
  | ⟨2, _⟩ => rfl

theorem zeros5 : (![0, 0, 0] : Fin 3 → Nat) = fun _ => 0 := funext fun d => by fin_cases d <;> rfl

/-- The arithmetic of one entry: add, then scale. -/
abbrev comb5 (u v : EReal) : EReal := (u + v) * Cert.Spec.scale

/-- The body's payload at an index: the sum of the two loaded rows' entries there, times the scale. -/
theorem pay5_apply (x0 x2 : S1x1x128.Idx → EReal) (y : S1x1x128.Idx) :
    (k5_pay1 (F := Ideal) x0 x2 : S1x1x128.Idx → EReal) y = (x0 y + x2 y) * Cert.Spec.scale := by
  unfold k5_pay1
  rw [shapeCast_self, shapeCast_self]
  rfl

/-- The same with the two rows loaded through the whole-block rectangle. -/
theorem pay5_ld_apply (x0 x2 : Vec Ideal S1x1x128 .f32) (y : S1x1x128.Idx) :
    (k5_pay1 (F := Ideal) (View.ld x0 r5) (View.ld x2 r5) : S1x1x128.Idx → EReal) y = comb5 (x0 y) (x2 y) := by
  have hA : View.ld x0 r5 = x0 := View.ld_unit_zero (Val := Elt Ideal) (S := S1x1x128) (e := .f32) zeros5 _ x0
  have hB : View.ld x2 r5 = x2 := View.ld_unit_zero (Val := Elt Ideal) (S := S1x1x128) (e := .f32) zeros5 _ x2
  rw [hA, hB]
  exact pay5_apply x0 x2 y

/-- The word of table 0 at point t is a row of the 50000-row array. -/
theorem word5_0_lt (t : Fin (cfg5 a).N) : ((a.1 0 (ValueIdx.ix1 (n := 40000) ⟨t.val, t.isLt⟩) : BitVec 32)).toNat < 50000 := by
  obtain ⟨h, -⟩ := a.2.1 ((cfg5 a).grid.coords t)
  have h0 : (((cfg5 a).win 0).index t (0 : Fin 3) + 1) * 1 ≤ 50000 := h 0
  have e0 : ((cfg5 a).win 0).index t (0 : Fin 3) = ((a.1 0 (ValueIdx.ix1 (n := 40000) ⟨t.val, t.isLt⟩) : BitVec 32)).toNat := congrFun (index5_0 a t) (0 : Fin 3)
  rw [e0] at h0
  omega

/-- The word of table 1 at point t is a row of the 50000-row array. -/
theorem word5_1_lt (t : Fin (cfg5 a).N) : ((a.1 1 (ValueIdx.ix1 (n := 40000) ⟨t.val, t.isLt⟩) : BitVec 32)).toNat < 50000 := by
  obtain ⟨h, -⟩ := a.2.2 ((cfg5 a).grid.coords t)
  have h0 : (((cfg5 a).win 1).index t (0 : Fin 3) + 1) * 1 ≤ 50000 := h 0
  have e0 : ((cfg5 a).win 1).index t (0 : Fin 3) = ((a.1 1 (ValueIdx.ix1 (n := 40000) ⟨t.val, t.isLt⟩) : BitVec 32)).toNat := congrFun (index5_1 a t) (0 : Fin 3)
  rw [e0] at h0
  omega

/-- The two source arrays, as functions to the extended reals. -/
abbrev srcRows5 (c : Dev nD) : S50000x1x128.Idx → EReal := V c main_v2
abbrev dstRows5 (c : Dev nD) : S50000x1x128.Idx → EReal := V c main_v4

set_option maxHeartbeats 100000 in
/-- Window 0's block at point t is the row of the first source array that table 0's word t names. -/
theorem iblk5_0_apply (c : Dev nD) (t : Fin (cfg5 a).N) (y : (((cfg5 a).win 0).xblock ((cfg5 a).grid.coords t)).Idx)
    (l : Fin 128) (hl : (y (2 : Fin 3)).val = l.val) :
    (iblk5 V a c 0 t y : EReal)
      = srcRows5 V c (ValueIdx.ix3 (Cert.Spec.node (a.1 0 (ValueIdx.ix1 (n := 40000) ⟨t.val, t.isLt⟩))) (0 : Fin 1) l) := by
  have hw := word5_0_lt a t
  have e0 : ((cfg5 a).win 0).index t (0 : Fin 3) = ((a.1 0 (ValueIdx.ix1 (n := 40000) ⟨t.val, t.isLt⟩) : BitVec 32)).toNat := congrFun (index5_0 a t) (0 : Fin 3)
  have eM : ((cfg5 a).win 0).index t (1 : Fin 3) = 0 := congrFun (index5_0 a t) (1 : Fin 3)
  have e2 : ((cfg5 a).win 0).index t (2 : Fin 3) = 0 := congrFun (index5_0 a t) (2 : Fin 3)
  show V c main_v2 ((((cfg5 a).win 0).blk t).view.emb y) = V c main_v2 _
  refine congrArg (V c main_v2) ?_
  funext d
  apply Fin.ext
  match d with
  | ⟨0, _⟩ =>
    show ((cfg5 a).win 0).index t (0 : Fin 3) * 1 + 1 * (y (0 : Fin 3)).val = (Cert.Spec.node _).val
    have hy : (y (0 : Fin 3)).val < 1 := (y (0 : Fin 3)).isLt
    rw [e0, Cert.Spec.node_val hw]; omega
  | ⟨1, _⟩ =>
    show ((cfg5 a).win 0).index t (1 : Fin 3) * 1 + 1 * (y (1 : Fin 3)).val = 0
    have hy : (y (1 : Fin 3)).val < 1 := (y (1 : Fin 3)).isLt
    rw [eM]; omega
  | ⟨2, _⟩ =>
    show ((cfg5 a).win 0).index t (2 : Fin 3) * 128 + 1 * (y (2 : Fin 3)).val = l.val
    rw [e2, hl]; omega

set_option maxHeartbeats 100000 in
/-- Window 1's block at point t is the row of the second source array that table 1's word t names. -/
theorem iblk5_1_apply (c : Dev nD) (t : Fin (cfg5 a).N) (y : (((cfg5 a).win 1).xblock ((cfg5 a).grid.coords t)).Idx)
    (l : Fin 128) (hl : (y (2 : Fin 3)).val = l.val) :
    (iblk5 V a c 1 t y : EReal)
      = dstRows5 V c (ValueIdx.ix3 (Cert.Spec.node (a.1 1 (ValueIdx.ix1 (n := 40000) ⟨t.val, t.isLt⟩))) (0 : Fin 1) l) := by
  have hw := word5_1_lt a t
  have e0 : ((cfg5 a).win 1).index t (0 : Fin 3) = ((a.1 1 (ValueIdx.ix1 (n := 40000) ⟨t.val, t.isLt⟩) : BitVec 32)).toNat := congrFun (index5_1 a t) (0 : Fin 3)
  have eM : ((cfg5 a).win 1).index t (1 : Fin 3) = 0 := congrFun (index5_1 a t) (1 : Fin 3)
  have e2 : ((cfg5 a).win 1).index t (2 : Fin 3) = 0 := congrFun (index5_1 a t) (2 : Fin 3)
  show V c main_v4 ((((cfg5 a).win 1).blk t).view.emb y) = V c main_v4 _
  refine congrArg (V c main_v4) ?_
  funext d
  apply Fin.ext
  match d with
  | ⟨0, _⟩ =>
    show ((cfg5 a).win 1).index t (0 : Fin 3) * 1 + 1 * (y (0 : Fin 3)).val = (Cert.Spec.node _).val
    have hy : (y (0 : Fin 3)).val < 1 := (y (0 : Fin 3)).isLt
    rw [e0, Cert.Spec.node_val hw]; omega
  | ⟨1, _⟩ =>
    show ((cfg5 a).win 1).index t (1 : Fin 3) * 1 + 1 * (y (1 : Fin 3)).val = 0
    have hy : (y (1 : Fin 3)).val < 1 := (y (1 : Fin 3)).isLt
    rw [eM]; omega
  | ⟨2, _⟩ =>
    show ((cfg5 a).win 1).index t (2 : Fin 3) * 128 + 1 * (y (2 : Fin 3)).val = l.val
    rw [e2, hl]; omega

/-- Entry (t, l) of what the call leaves: the two gathered rows' entries at lane l, added and scaled. -/
def row5 (c : Dev nD) (t : Fin 40000) (l : Fin 128) : EReal :=
  comb5 (srcRows5 V c (ValueIdx.ix3 (Cert.Spec.node (a.1 0 (ValueIdx.ix1 t))) (0 : Fin 1) l))
    (dstRows5 V c (ValueIdx.ix3 (Cert.Spec.node (a.1 1 (ValueIdx.ix1 t))) (0 : Fin 1) l))

/-- The whole output array as one function of its index. -/
def gath5 (c : Dev nD) : S40000x1x128.Idx → EReal :=
  fun i => row5 V a c ⟨(i (0 : Fin 3)).val, (i (0 : Fin 3)).isLt⟩ ⟨(i (2 : Fin 3)).val, (i (2 : Fin 3)).isLt⟩

set_option maxHeartbeats 200000 in
/-- What point t writes back is block t of that function. -/
theorem flushed5_eq (c : Dev nD) (t : Fin (cfg5 a).N) :
    (dat5 (F := Ideal) V a c).flushed 2 t = (((cfg5 a).win 2).blk t).view.read (Elt Ideal) (gath5 V a c) := by
  show ((cfg5 a).win 2).cut ((cfg5 a).grid.coords t) ((dat5 V a c).after 2 t) = _
  rw [after5_2]
  unfold out5_2
  rw [View.canon_unit_zero zeros5]
  funext j
  have e0 : ((cfg5 a).win 2).index t (0 : Fin 3) = t.val := congrFun (index5_2 a t) (0 : Fin 3)
  have e2 : ((cfg5 a).win 2).index t (2 : Fin 3) = 0 := congrFun (index5_2 a t) (2 : Fin 3)
  have hj0 : (j (0 : Fin 3)).val < 1 := (j (0 : Fin 3)).isLt
  show (k5_pay1 (F := Ideal) (View.ld (iblk5 V a c 0 t) r5) (View.ld (iblk5 V a c 1 t) r5) : S1x1x128.Idx → EReal) (((cfg5 a).win 2).xinj ((cfg5 a).grid.coords t) j)
      = gath5 V a c ((((cfg5 a).win 2).blk t).view.emb j)
  refine (pay5_ld_apply (iblk5 V a c 0 t) (iblk5 V a c 1 t) (((cfg5 a).win 2).xinj ((cfg5 a).grid.coords t) j)).trans ?_
  have hT : (⟨t.val, t.isLt⟩ : Fin 40000) = ⟨((((cfg5 a).win 2).blk t).view.emb j (0 : Fin 3)).val, ((((cfg5 a).win 2).blk t).view.emb j (0 : Fin 3)).isLt⟩ :=
    Fin.ext (by
      show t.val = ((cfg5 a).win 2).index t (0 : Fin 3) * 1 + 1 * (j (0 : Fin 3)).val
      rw [e0]; omega)
  have hL : (⟨(j (2 : Fin 3)).val, (j (2 : Fin 3)).isLt⟩ : Fin 128) = ⟨((((cfg5 a).win 2).blk t).view.emb j (2 : Fin 3)).val, ((((cfg5 a).win 2).blk t).view.emb j (2 : Fin 3)).isLt⟩ :=
    Fin.ext (by
      show (j (2 : Fin 3)).val = ((cfg5 a).win 2).index t (2 : Fin 3) * 128 + 1 * (j (2 : Fin 3)).val
      rw [e2]; omega)
  refine Eq.trans ?_ (congrArg₂ (row5 V a c) hT hL)
  unfold row5
  exact congrArg₂ comb5 (iblk5_0_apply V a c t _ _ rfl) (iblk5_1_apply V a c t _ _ rfl)

set_option maxHeartbeats 100000 in
/-- The output window is written back at every point: the next point's block is another row. -/
theorem flush5_2 (t : Fin (cfg5 a).N) : ((cfg5 a).win 2).flush t = true := by
  unfold Window.flush
  rw [Bool.and_eq_true, Bool.or_eq_true, decide_eq_true_eq, decide_eq_true_eq]
  refine ⟨rfl, ?_⟩
  by_cases h : t.val + 1 < (cfg5 a).grid.N
  · refine Or.inr ⟨h, fun e => ?_⟩
    have e0 := congrFun e (0 : Fin 3)
    have eA : ((cfg5 a).win 2).index ⟨t.val + 1, h⟩ (0 : Fin 3) = t.val + 1 := congrFun (index5_2 a ⟨t.val + 1, h⟩) (0 : Fin 3)
    have eB : ((cfg5 a).win 2).index t (0 : Fin 3) = t.val := congrFun (index5_2 a t) (0 : Fin 3)
    rw [eA, eB] at e0
    omega
  · refine Or.inl ?_
    have hlt : t.val < (cfg5 a).grid.N := t.isLt
    omega

set_option maxHeartbeats 100000 in
/-- Every entry of the output array lies in the block of the point its row names. -/
theorem cover5 (i : S40000x1x128.Idx) :
    ∃ t : Fin (cfg5 a).N, ((cfg5 a).win 2).flush t = true ∧ i ∈ (((cfg5 a).win 2).blk t).view.set := by
  have hlt : (i (0 : Fin 3)).val < (cfg5 a).N := by rw [npts5]; exact (i (0 : Fin 3)).isLt
  obtain ⟨t, ht⟩ : ∃ t : Fin (cfg5 a).N, t.val = (i (0 : Fin 3)).val := ⟨⟨_, hlt⟩, rfl⟩
  refine ⟨t, flush5_2 a t, ?_⟩
  have hset := View.set_slice_whole main_v23 (((cfg5 a).win 2).rect t)
  refine (Eq.mpr (congrArg (fun S => i ∈ S) hset) ?_ : i ∈ ((View.whole main_v23).slice (((cfg5 a).win 2).rect t)).set)
  refine Rect.mem_set_unit.mpr (fun d => ?_)
  have e0 : ((cfg5 a).win 2).index t (0 : Fin 3) = t.val := congrFun (index5_2 a t) (0 : Fin 3)
  have eB : ((cfg5 a).win 2).index t (1 : Fin 3) = 0 := congrFun (index5_2 a t) (1 : Fin 3)
  have e2 : ((cfg5 a).win 2).index t (2 : Fin 3) = 0 := congrFun (index5_2 a t) (2 : Fin 3)
  match d with
  | ⟨0, _⟩ =>
    show ((cfg5 a).win 2).index t (0 : Fin 3) * 1 ≤ (i (0 : Fin 3)).val
      ∧ (i (0 : Fin 3)).val < ((cfg5 a).win 2).index t (0 : Fin 3) * 1 + 1
    rw [e0]; omega
  | ⟨1, _⟩ =>
    have hi : (i (1 : Fin 3)).val < 1 := (i (1 : Fin 3)).isLt
    show ((cfg5 a).win 2).index t (1 : Fin 3) * 1 ≤ (i (1 : Fin 3)).val
      ∧ (i (1 : Fin 3)).val < ((cfg5 a).win 2).index t (1 : Fin 3) * 1 + 1
    rw [eB]; omega
  | ⟨2, _⟩ =>
    have hi : (i (2 : Fin 3)).val < 128 := (i (2 : Fin 3)).isLt
    show ((cfg5 a).win 2).index t (2 : Fin 3) * 128 ≤ (i (2 : Fin 3)).val
      ∧ (i (2 : Fin 3)).val < ((cfg5 a).win 2).index t (2 : Fin 3) * 128 + 128
    rw [e2]; omega

/-- So the output array ends holding that function. -/
theorem final5 (c : Dev nD) : (dat5 (F := Ideal) V a c).arrAt 2 (cfg5 a).N = gath5 V a c :=
  (dat5 (F := Ideal) V a c).arrAt_eq_of_cover 2 (gath5 V a c) (fun t _ => flushed5_eq V a c t) (cover5 a)

/-- What gather call 1 leaves in its output array, entry by entry: the two rows its tables name, added and scaled. -/
theorem gather_out5 (c : Dev nD) (t : Fin 40000) (l : Fin 128) :
    ((dat5 (F := Ideal) V a c).arrAt 2 (cfg5 a).N : FVec Ideal S40000x1x128 .f32) (ValueIdx.ix3 t (0 : Fin 1) l)
      = (srcRows5 V c (ValueIdx.ix3 (Cert.Spec.node (a.1 0 (ValueIdx.ix1 t))) (0 : Fin 1) l)
        + dstRows5 V c (ValueIdx.ix3 (Cert.Spec.node (a.1 1 (ValueIdx.ix1 t))) (0 : Fin 1) l)) * Cert.Spec.scale :=
  congrFun (final5 V a c) (ValueIdx.ix3 t (0 : Fin 1) l)
end GatherValue

end Cert.KernelIdeal.Hand

end
-- ==== Proof.KI.Piece5.lean ====
/-
  Gather call 5's output array in terms of the launch arrays.

  Gather call 5 walks its 40000 grid points; at point t it reads row (word t of its source table) of the re-laid source
  projection and row (word t of its destination table) of the re-laid destination projection, adds them lane by lane and
  multiplies by the constant, into row t of its output. Its tables are the slices of the launch endpoint arrays from
  word 160000 on, so word t of a table is the endpoint array's word 40000 · 4 + t, and a re-laid projection's row n, lane l
  is the projected feature (batch l / 64, node n, feature l % 64). So row t, lane l of the output is lane l of the
  specification's row for edge 40000 · 4 + t.
-/
import proofs.«413139_j22651657519351_3_alg».proof.Proof.KI.Fold
import proofs.«413139_j22651657519351_3_alg».proof.Proof.KI.Walk
import proofs.«413139_j22651657519351_3_alg».proof.Proof.KI.Hs2
import proofs.«413139_j22651657519351_3_alg».proof.Proof.KI.GatherValue5
import proofs.«413139_j22651657519351_3_alg».proof.Proof.SpecRows
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe
open Idealize.SL.Sem

section Piece5

variable (m : (ℓ : Loc nD τ sig) → Buf (Elt Ideal) ℓ) (hR : InRange m)

/-- Word t of chunk 5's source table is the launch source array's word 40000 · 4 + t: the table is the slice of the
    array from word 160000 on. -/
theorem tbl5_src (t : Fin 40000) :
    (tbl5 (F := Ideal) m 0 : IVec S40000 32) (ValueIdx.ix1 t)
      = (m (((0 : Dev nD) : Thread nD τ).loc main_arg1) : IVec S800000 32) (ValueIdx.ix1 ⟨40000 * 4 + t.val, Cert.Spec.chunk_lt ⟨4, by norm_num⟩ t⟩) := by
  show extractStridedSlice S40000 ![160000] (m (((0 : Dev nD) : Thread nD τ).loc main_arg1) : IVec S800000 32) slices_S800000_S40000_160000 (ValueIdx.ix1 t) = _
  exact extractStridedSlice_apply (s := S800000) (t := S40000) ![160000] _ slices_S800000_S40000_160000 (ValueIdx.ix1 t) (ValueIdx.ix1 ⟨40000 * 4 + t.val, Cert.Spec.chunk_lt ⟨4, by norm_num⟩ t⟩)
    (fun a => match a with | ⟨0, _⟩ => by show 40000 * 4 + t.val = 160000 + t.val; omega)

/-- Word t of chunk 5's destination table is the launch destination array's word 40000 · 4 + t. -/
theorem tbl5_dst (t : Fin 40000) :
    (tbl5 (F := Ideal) m 1 : IVec S40000 32) (ValueIdx.ix1 t)
      = (m (((0 : Dev nD) : Thread nD τ).loc main_arg2) : IVec S800000 32) (ValueIdx.ix1 ⟨40000 * 4 + t.val, Cert.Spec.chunk_lt ⟨4, by norm_num⟩ t⟩) := by
  show extractStridedSlice S40000 ![160000] (m (((0 : Dev nD) : Thread nD τ).loc main_arg2) : IVec S800000 32) slices_S800000_S40000_160000 (ValueIdx.ix1 t) = _
  exact extractStridedSlice_apply (s := S800000) (t := S40000) ![160000] _ slices_S800000_S40000_160000 (ValueIdx.ix1 t) (ValueIdx.ix1 ⟨40000 * 4 + t.val, Cert.Spec.chunk_lt ⟨4, by norm_num⟩ t⟩)
    (fun a => match a with | ⟨0, _⟩ => by show 40000 * 4 + t.val = 160000 + t.val; omega)

/-- Gather call 5's output array in terms of the launch arrays: row t, lane l is lane l of edge 40000 · 4 + t's row.
    The call adds, at row t, the rows of the two re-laid projections that the tables' words t name, and scales the sum;
    the re-laid projections, untouched since host stretch 1 wrote them, hold at each row the projected features of that
    node, and the tables' words t are the endpoint arrays' words 40000 · 4 + t. -/
theorem piece5 (c : Dev nD) (t : Fin 40000) (l : Fin 128) :
    (W11 (F := Ideal) m hR c main_v23 : FVec Ideal S40000x1x128 .f32) (ValueIdx.ix3 t (0 : Fin 1) l)
      = Cert.Spec.edgeRow (m ((c : Thread nD τ).loc main_arg0)) (m ((c : Thread nD τ).loc main_arg1)) (m ((c : Thread nD τ).loc main_arg2))
          (m ((c : Thread nD τ).loc main_arg3)) (m ((c : Thread nD τ).loc main_arg4))
          ⟨40000 * 4 + t.val, Cert.Spec.chunk_lt ⟨4, by norm_num⟩ t⟩ l := by
  obtain rfl : c = 0 := Subsingleton.elim _ _
  refine (congrFun (W11_arr (F := Ideal) m hR 0 2) _).trans ?_
  refine (gather_out5 (V10 (F := Ideal) m hR) (a5 (F := Ideal) m hR) 0 t l).trans ?_
  have e1 : (W10 (F := Ideal) m hR 0 main_v2 : FVec Ideal S50000x1x128 .f32)
        (ValueIdx.ix3 (Cert.Spec.node ((tbl5 (F := Ideal) m 0 : IVec S40000 32) (ValueIdx.ix1 t))) (0 : Fin 1) l)
      = Cert.Spec.proj (m (((0 : Dev nD) : Thread nD τ).loc main_arg0)) (m (((0 : Dev nD) : Thread nD τ).loc main_arg3))
          ⟨l.val / 64, Cert.Spec.lane_div l⟩
          (Cert.Spec.node ((m (((0 : Dev nD) : Thread nD τ).loc main_arg1) : IVec S800000 32) (ValueIdx.ix1 ⟨40000 * 4 + t.val, Cert.Spec.chunk_lt ⟨4, by norm_num⟩ t⟩)))
          ⟨l.val % 64, Cert.Spec.lane_mod l⟩ := by
    rw [tbl5_src m t]
    exact (congrFun (W10_v2 (F := Ideal) m hR 0) _).trans (hs2_apply m hR 0 _ l)
  have e2 : (W10 (F := Ideal) m hR 0 main_v4 : FVec Ideal S50000x1x128 .f32)
        (ValueIdx.ix3 (Cert.Spec.node ((tbl5 (F := Ideal) m 1 : IVec S40000 32) (ValueIdx.ix1 t))) (0 : Fin 1) l)
      = Cert.Spec.proj (m (((0 : Dev nD) : Thread nD τ).loc main_arg0)) (m (((0 : Dev nD) : Thread nD τ).loc main_arg4))
          ⟨l.val / 64, Cert.Spec.lane_div l⟩
          (Cert.Spec.node ((m (((0 : Dev nD) : Thread nD τ).loc main_arg2) : IVec S800000 32) (ValueIdx.ix1 ⟨40000 * 4 + t.val, Cert.Spec.chunk_lt ⟨4, by norm_num⟩ t⟩)))
          ⟨l.val % 64, Cert.Spec.lane_mod l⟩ := by
    rw [tbl5_dst m t]
    exact (congrFun (W10_v4 (F := Ideal) m hR 0) _).trans (hd2_apply m hR 0 _ l)
  exact congrArg₂ (fun a b : EReal => (a + b) * Cert.Spec.scale) e1 e2

end Piece5

end Cert.KernelIdeal.Hand

end
-- ==== Proof.KI.FPiece5.lean ====
/-
  Chunk 5's rows as the last host stretch finds them. Host stretch 6 reshapes gather call 5's output
  [40000, 1, 128] to [40000, 128]; nothing touches that buffer until the last stretch concatenates the twenty pieces.
  With the call's output read as the rows of the specification, the piece is the specification's chunk number 4.
-/
import proofs.«413139_j22651657519351_3_alg».proof.Proof.Gen.KernelIdeal.Launch
import proofs.«413139_j22651657519351_3_alg».proof.Proof.Gen.KernelIdeal.Skeleton
import proofs.«413139_j22651657519351_3_alg».proof.Proof.Gen.KernelIdeal.Points
import proofs.«413139_j22651657519351_3_alg».proof.Proof.KI.Walk
import proofs.«413139_j22651657519351_3_alg».proof.Proof.KI.Piece5
import proofs.«413139_j22651657519351_3_alg».proof.Proof.Layout
import proofs.«413139_j22651657519351_3_alg».proof.Proof.SpecRows
import Idealize.ShloMosaic.Lib.StableHlo.Run
import Idealize.ShloMosaic.Lib.ValueIdx
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section FPiece

variable (m : (ℓ : Loc nD τ sig) → Buf (Elt Ideal) ℓ) (hR : InRange m)

theorem fpiece5 (c : Dev nD) :
    (W41 (F := Ideal) m hR c main_v24 : FVec Ideal S40000x128 .f32)
      = Cert.Spec.chunk (m ((c : Thread nD τ).loc main_arg0)) (m ((c : Thread nD τ).loc main_arg1)) (m ((c : Thread nD τ).loc main_arg2))
          (m ((c : Thread nD τ).loc main_arg3)) (m ((c : Thread nD τ).loc main_arg4)) (4 : Fin 20) := by
  funext i
  obtain ⟨t, l, rfl⟩ : ∃ (t : Fin 40000) (l : Fin 128), i = ValueIdx.ix2 t l := ⟨i 0, i 1, ValueIdx.eq_ix2 i⟩
  rw [W41_p5 m hR c]
  show StableHlo.after hostOps6 (W11 (F := Ideal) m hR c) (Proc.devRef .tc main_v24) (ValueIdx.ix2 t l) = _
  after_results
  refine (Cert.Layout.piece_apply _ _ t l).trans ?_
  exact piece5 m hR c t l

end FPiece

end Cert.KernelIdeal.Hand

end
-- ==== Proof.KI.GatherValue6.lean ====
/-
  Edge chunk 1's gather kernel: what it leaves in its output array, entry by entry, at the ideal (extended-real)
  instance, for any contents V of the buffers at the region's entry and any admissible contents of the two index tables.

  At grid point t the two gathered windows hold row (word t of table 0) of the first source array and row (word t of
  table 1) of the second: the block index of a gathered window is (that word read unsigned, 0, 0), the block is one
  row of 128 lanes, and admissibility of the tables says the word is below the 50000 rows. The body stores
  (row + row) · c into the output block, and the output window's block index is (t, 0, 0): block t is row t of the
  output array, every point writes its block back, and the blocks of the 40000 points cover the array. So the array
  ends holding, at (t, 0, l), the sum of the two named rows' entries at lane l, times c.
-/
import proofs.«413139_j22651657519351_3_alg».proof.Proof.KI.Region6
import proofs.«413139_j22651657519351_3_alg».proof.Proof.Spec
import Idealize.ShloMosaic.Lib.Pipeline.Value
import Idealize.ShloMosaic.Lib.ValueIdx
import Idealize.ShloMosaic.Lib.ValueLayout

set_option maxRecDepth 16384

noncomputable section

namespace Cert.KernelIdeal.Hand

open Cert.KernelIdeal Cert.KernelIdeal.Gen
open Idealize.ShloMosaic Idealize.ShloMosaic.TcCoe
open Idealize.SL.Sem
open Idealize.ShloMosaic.Pipeline (Dat Cfg Window)

section GatherValue
variable (V : (c : Dev nD) → (b : Ref sig .tc) → Buf (Elt Ideal) ((c : Thread nD τ).loc b))
variable (a : (pcfg6 (F := Ideal)).Adm)

/-- The grid has 40000 points, one axis. -/
theorem npts6 : (cfg6 a).N = 40000 := N_6

/-- The one coordinate of point t is t. -/
theorem coord6 (t : Fin (cfg6 a).N) : (((cfg6 a).grid.coords t) 0).val = t.val := by
  show t.val / (cfg6 a).grid.stride 0 % 40000 = t.val
  have hs : (cfg6 a).grid.stride 0 = 1 := rfl
  rw [hs]
  have := t.isLt
  have e : (cfg6 a).N = 40000 := rfl
  omega

/-- A grid coordinate, as the 32-bit word the index maps receive and back, is itself. -/
theorem wordCoord6 (n : Nat) (h : n < 40000) : (Scalar.indexCast (BitVec.ofNat 32 n)).toNat = n := by
  show (BitVec.ofNat 32 n).toNat = n
  rw [BitVec.toNat_ofNat]
  exact Nat.mod_eq_of_lt (by omega)

set_option maxHeartbeats 100000 in
/-- Output window: the block index at point t is (t, 0, 0). -/
theorem index6_2 (t : Fin (cfg6 a).N) : ((cfg6 a).win 2).index t = ![t.val, 0, 0] := by
  show cc6_transform_2 ((cfg6 a).grid.coords t) = _
  unfold cc6_transform_2
  dsimp only
  have h := coord6 a t
  have hl : t.val < 40000 := t.isLt
  funext d
  match d with
  | ⟨0, _⟩ => show (BitVec.ofNat 32 (((cfg6 a).grid.coords t) 0).val).toNat = t.val; rw [h]; exact wordCoord6 _ hl
  | ⟨1, _⟩ => rfl
  | ⟨2, _⟩ => rfl

set_option maxHeartbeats 100000 in
/-- Gathered window 0: the block index at point t is (word t of table 0, 0, 0). -/
theorem index6_0 (t : Fin (cfg6 a).N) :
    ((cfg6 a).win 0).index t = ![((a.1 0 (ValueIdx.ix1 (n := 40000) ⟨t.val, t.isLt⟩) : BitVec 32)).toNat, 0, 0] := by
  show cc6_transform_0 k6_off1_inb numel1_S1 a.1 ((cfg6 a).grid.coords t) = _
  unfold cc6_transform_0
  dsimp only
  have h := coord6 a t
  have hl : t.val < 40000 := t.isLt
  funext d
  match d with
  | ⟨0, _⟩ =>
    show ((a.1 0 _ : BitVec 32)).toNat = ((a.1 0 _ : BitVec 32)).toNat
    refine congrArg (fun j => ((a.1 0 j : BitVec 32)).toNat) ?_
    funext k
    match k with
    | ⟨0, _⟩ =>
      apply Fin.ext
      show (Scalar.indexCast (BitVec.ofNat 32 (((cfg6 a).grid.coords t) 0).val)).toNat + 1 * 0 = t.val
      rw [h, wordCoord6 _ hl]; omega
  | ⟨1, _⟩ => rfl
  | ⟨2, _⟩ => rfl

set_option maxHeartbeats 100000 in
/-- Gathered window 1: the block index at point t is (word t of table 1, 0, 0). -/
theorem index6_1 (t : Fin (cfg6 a).N) :
    ((cfg6 a).win 1).index t = ![((a.1 1 (ValueIdx.ix1 (n := 40000) ⟨t.val, t.isLt⟩) : BitVec 32)).toNat, 0, 0] := by
  show cc6_transform_1 k6_off1_inb numel1_S1 a.1 ((cfg6 a).grid.coords t) = _
  unfold cc6_transform_1
  dsimp only
  have h := coord6 a t
  have hl : t.val < 40000 := t.isLt
  funext d
  match d with
  | ⟨0, _⟩ =>
    show ((a.1 1 _ : BitVec 32)).toNat = ((a.1 1 _ : BitVec 32)).toNat
    refine congrArg (fun j => ((a.1 1 j : BitVec 32)).toNat) ?_
    funext k
    match k with
    | ⟨0, _⟩ =>
      apply Fin.ext
      show (Scalar.indexCast (BitVec.ofNat 32 (((cfg6 a).grid.coords t) 0).val)).toNat + 1 * 0 = t.val
      rw [h, wordCoord6 _ hl]; omega
  | ⟨1, _⟩ => rfl
  | ⟨2, _⟩ => rfl

theorem zeros6 : (![0, 0, 0] : Fin 3 → Nat) = fun _ => 0 := funext fun d => by fin_cases d <;> rfl

/-- The arithmetic of one entry: add, then scale. -/
abbrev comb6 (u v : EReal) : EReal := (u + v) * Cert.Spec.scale

/-- The body's payload at an index: the sum of the two loaded rows' entries there, times the scale. -/
theorem pay6_apply (x0 x2 : S1x1x128.Idx → EReal) (y : S1x1x128.Idx) :
    (k6_pay1 (F := Ideal) x0 x2 : S1x1x128.Idx → EReal) y = (x0 y + x2 y) * Cert.Spec.scale := by
  unfold k6_pay1
  rw [shapeCast_self, shapeCast_self]
  rfl

/-- The same with the two rows loaded through the whole-block rectangle. -/
theorem pay6_ld_apply (x0 x2 : Vec Ideal S1x1x128 .f32) (y : S1x1x128.Idx) :
    (k6_pay1 (F := Ideal) (View.ld x0 r6) (View.ld x2 r6) : S1x1x128.Idx → EReal) y = comb6 (x0 y) (x2 y) := by
  have hA : View.ld x0 r6 = x0 := View.ld_unit_zero (Val := Elt Ideal) (S := S1x1x128) (e := .f32) zeros6 _ x0
  have hB : View.ld x2 r6 = x2 := View.ld_unit_zero (Val := Elt Ideal) (S := S1x1x128) (e := .f32) zeros6 _ x2
  rw [hA, hB]
  exact pay6_apply x0 x2 y

/-- The word of table 0 at point t is a row of the 50000-row array. -/
theorem word6_0_lt (t : Fin (cfg6 a).N) : ((a.1 0 (ValueIdx.ix1 (n := 40000) ⟨t.val, t.isLt⟩) : BitVec 32)).toNat < 50000 := by
  obtain ⟨h, -⟩ := a.2.1 ((cfg6 a).grid.coords t)
  have h0 : (((cfg6 a).win 0).index t (0 : Fin 3) + 1) * 1 ≤ 50000 := h 0
  have e0 : ((cfg6 a).win 0).index t (0 : Fin 3) = ((a.1 0 (ValueIdx.ix1 (n := 40000) ⟨t.val, t.isLt⟩) : BitVec 32)).toNat := congrFun (index6_0 a t) (0 : Fin 3)
  rw [e0] at h0
  omega

/-- The word of table 1 at point t is a row of the 50000-row array. -/
theorem word6_1_lt (t : Fin (cfg6 a).N) : ((a.1 1 (ValueIdx.ix1 (n := 40000) ⟨t.val, t.isLt⟩) : BitVec 32)).toNat < 50000 := by
  obtain ⟨h, -⟩ := a.2.2 ((cfg6 a).grid.coords t)
  have h0 : (((cfg6 a).win 1).index t (0 : Fin 3) + 1) * 1 ≤ 50000 := h 0
  have e0 : ((cfg6 a).win 1).index t (0 : Fin 3) = ((a.1 1 (ValueIdx.ix1 (n := 40000) ⟨t.val, t.isLt⟩) : BitVec 32)).toNat := congrFun (index6_1 a t) (0 : Fin 3)
  rw [e0] at h0
  omega

/-- The two source arrays, as functions to the extended reals. -/
abbrev srcRows6 (c : Dev nD) : S50000x1x128.Idx → EReal := V c main_v2
abbrev dstRows6 (c : Dev nD) : S50000x1x128.Idx → EReal := V c main_v4

set_option maxHeartbeats 100000 in
/-- Window 0's block at point t is the row of the first source array that table 0's word t names. -/
theorem iblk6_0_apply (c : Dev nD) (t : Fin (cfg6 a).N) (y : (((cfg6 a).win 0).xblock ((cfg6 a).grid.coords t)).Idx)
    (l : Fin 128) (hl : (y (2 : Fin 3)).val = l.val) :
    (iblk6 V a c 0 t y : EReal)
      = srcRows6 V c (ValueIdx.ix3 (Cert.Spec.node (a.1 0 (ValueIdx.ix1 (n := 40000) ⟨t.val, t.isLt⟩))) (0 : Fin 1) l) := by
  have hw := word6_0_lt a t
  have e0 : ((cfg6 a).win 0).index t (0 : Fin 3) = ((a.1 0 (ValueIdx.ix1 (n := 40000) ⟨t.val, t.isLt⟩) : BitVec 32)).toNat := congrFun (index6_0 a t) (0 : Fin 3)
  have eM : ((cfg6 a).win 0).index t (1 : Fin 3) = 0 := congrFun (index6_0 a t) (1 : Fin 3)
  have e2 : ((cfg6 a).win 0).index t (2 : Fin 3) = 0 := congrFun (index6_0 a t) (2 : Fin 3)
  show V c main_v2 ((((cfg6 a).win 0).blk t).view.emb y) = V c main_v2 _
  refine congrArg (V c main_v2) ?_
  funext d
  apply Fin.ext
  match d with
  | ⟨0, _⟩ =>
    show ((cfg6 a).win 0).index t (0 : Fin 3) * 1 + 1 * (y (0 : Fin 3)).val = (Cert.Spec.node _).val
    have hy : (y (0 : Fin 3)).val < 1 := (y (0 : Fin 3)).isLt
    rw [e0, Cert.Spec.node_val hw]; omega
  | ⟨1, _⟩ =>
    show ((cfg6 a).win 0).index t (1 : Fin 3) * 1 + 1 * (y (1 : Fin 3)).val = 0
    have hy : (y (1 : Fin 3)).val < 1 := (y (1 : Fin 3)).isLt
    rw [eM]; omega
  | ⟨2, _⟩ =>
    show ((cfg6 a).win 0).index t (2 : Fin 3) * 128 + 1 * (y (2 : Fin 3)).val = l.val
    rw [e2, hl]; omega

set_option maxHeartbeats 100000 in
/-- Window 1's block at point t is the row of the second source array that table 1's word t names. -/
theorem iblk6_1_apply (c : Dev nD) (t : Fin (cfg6 a).N) (y : (((cfg6 a).win 1).xblock ((cfg6 a).grid.coords t)).Idx)
    (l : Fin 128) (hl : (y (2 : Fin 3)).val = l.val) :
    (iblk6 V a c 1 t y : EReal)
      = dstRows6 V c (ValueIdx.ix3 (Cert.Spec.node (a.1 1 (ValueIdx.ix1 (n := 40000) ⟨t.val, t.isLt⟩))) (0 : Fin 1) l) := by
  have hw := word6_1_lt a t
  have e0 : ((cfg6 a).win 1).index t (0 : Fin 3) = ((a.1 1 (ValueIdx.ix1 (n := 40000) ⟨t.val, t.isLt⟩) : BitVec 32)).toNat := congrFun (index6_1 a t) (0 : Fin 3)
  have eM : ((cfg6 a).win 1).index t (1 : Fin 3) = 0 := congrFun (index6_1 a t) (1 : Fin 3)
  have e2 : ((cfg6 a).win 1).index t (2 : Fin 3) = 0 := congrFun (index6_1 a t) (2 : Fin 3)
  show V c main_v4 ((((cfg6 a).win 1).blk t).view.emb y) = V c main_v4 _
  refine congrArg (V c main_v4) ?_
  funext d
  apply Fin.ext
  match d with
  | ⟨0, _⟩ =>
    show ((cfg6 a).win 1).index t (0 : Fin 3) * 1 + 1 * (y (0 : Fin 3)).val = (Cert.Spec.node _).val
    have hy : (y (0 : Fin 3)).val < 1 := (y (0 : Fin 3)).isLt
    rw [e0, Cert.Spec.node_val hw]; omega
  | ⟨1, _⟩ =>
    show ((cfg6 a).win 1).index t (1 : Fin 3) * 1 + 1 * (y (1 : Fin 3)).val = 0
    have hy : (y (1 : Fin 3)).val < 1 := (y (1 : Fin 3)).isLt
    rw [eM]; omega
  | ⟨2, _⟩ =>
    show ((cfg6 a).win 1).index t (2 : Fin 3) * 128 + 1 * (y (2 : Fin 3)).val = l.val
    rw [e2, hl]; omega

/-- Entry (t, l) of what the call leaves: the two gathered rows' entries at lane l, added and scaled. -/
def row6 (c : Dev nD) (t : Fin 40000) (l : Fin 128) : EReal :=
  comb6 (srcRows6 V c (ValueIdx.ix3 (Cert.Spec.node (a.1 0 (ValueIdx.ix1 t))) (0 : Fin 1) l))
    (dstRows6 V c (ValueIdx.ix3 (Cert.Spec.node (a.1 1 (ValueIdx.ix1 t))) (0 : Fin 1) l))

/-- The whole output array as one function of its index. -/
def gath6 (c : Dev nD) : S40000x1x128.Idx → EReal :=
  fun i => row6 V a c ⟨(i (0 : Fin 3)).val, (i (0 : Fin 3)).isLt⟩ ⟨(i (2 : Fin 3)).val, (i (2 : Fin 3)).isLt⟩

set_option maxHeartbeats 200000 in
/-- What point t writes back is block t of that function. -/
theorem flushed6_eq (c : Dev nD) (t : Fin (cfg6 a).N) :
    (dat6 (F := Ideal) V a c).flushed 2 t = (((cfg6 a).win 2).blk t).view.read (Elt Ideal) (gath6 V a c) := by
  show ((cfg6 a).win 2).cut ((cfg6 a).grid.coords t) ((dat6 V a c).after 2 t) = _
  rw [after6_2]
  unfold out6_2
  rw [View.canon_unit_zero zeros6]
  funext j
  have e0 : ((cfg6 a).win 2).index t (0 : Fin 3) = t.val := congrFun (index6_2 a t) (0 : Fin 3)
  have e2 : ((cfg6 a).win 2).index t (2 : Fin 3) = 0 := congrFun (index6_2 a t) (2 : Fin 3)
  have hj0 : (j (0 : Fin 3)).val < 1 := (j (0 : Fin 3)).isLt
  show (k6_pay1 (F := Ideal) (View.ld (iblk6 V a c 0 t) r6) (View.ld (iblk6 V a c 1 t) r6) : S1x1x128.Idx → EReal) (((cfg6 a).win 2).xinj ((cfg6 a).grid.coords t) j)
      = gath6 V a c ((((cfg6 a).win 2).blk t).view.emb j)
  refine (pay6_ld_apply (iblk6 V a c 0 t) (iblk6 V a c 1 t) (((cfg6 a).win 2).xinj ((cfg6 a).grid.coords t) j)).trans ?_
  have hT : (⟨t.val, t.isLt⟩ : Fin 40000) = ⟨((((cfg6 a).win 2).blk t).view.emb j (0 : Fin 3)).val, ((((cfg6 a).win 2).blk t).view.emb j (0 : Fin 3)).isLt⟩ :=
    Fin.ext (by
      show t.val = ((cfg6 a).win 2).index t (0 : Fin 3) * 1 + 1 * (j (0 : Fin 3)).val
      rw [e0]; omega)
  have hL : (⟨(j (2 : Fin 3)).val, (j (2 : Fin 3)).isLt⟩ : Fin 128) = ⟨((((cfg6 a).win 2).blk t).view.emb j (2 : Fin 3)).val, ((((cfg6 a).win 2).blk t).view.emb j (2 : Fin 3)).isLt⟩ :=
    Fin.ext (by
      show (j (2 : Fin 3)).val = ((cfg6 a).win 2).index t (2 : Fin 3) * 128 + 1 * (j (2 : Fin 3)).val
      rw [e2]; omega)
  refine Eq.trans ?_ (congrArg₂ (row6 V a c) hT hL)
  unfold row6
  exact congrArg₂ comb6 (iblk6_0_apply V a c t _ _ rfl) (iblk6_1_apply V a c t _ _ rfl)

set_option maxHeartbeats 100000 in
/-- The output window is written back at every point: the next point's block is another row. -/
theorem flush6_2 (t : Fin (cfg6 a).N) : ((cfg6 a).win 2).flush t = true := by
  unfold Window.flush
  rw [Bool.and_eq_true, Bool.or_eq_true, decide_eq_true_eq, decide_eq_true_eq]
  refine ⟨rfl, ?_⟩
  by_cases h : t.val + 1 < (cfg6 a).grid.N
  · refine Or.inr ⟨h, fun e => ?_⟩
    have e0 := congrFun e (0 : Fin 3)
    have eA : ((cfg6 a).win 2).index ⟨t.val + 1, h⟩ (0 : Fin 3) = t.val + 1 := congrFun (index6_2 a ⟨t.val + 1, h⟩) (0 : Fin 3)
    have eB : ((cfg6 a).win 2).index t (0 : Fin 3) = t.val := congrFun (index6_2 a t) (0 : Fin 3)
    rw [eA, eB] at e0
    omega
  · refine Or.inl ?_
    have hlt : t.val < (cfg6 a).grid.N := t.isLt
    omega

set_option maxHeartbeats 100000 in
/-- Every entry of the output array lies in the block of the point its row names. -/
theorem cover6 (i : S40000x1x128.Idx) :
    ∃ t : Fin (cfg6 a).N, ((cfg6 a).win 2).flush t = true ∧ i ∈ (((cfg6 a).win 2).blk t).view.set := by
  have hlt : (i (0 : Fin 3)).val < (cfg6 a).N := by rw [npts6]; exact (i (0 : Fin 3)).isLt
  obtain ⟨t, ht⟩ : ∃ t : Fin (cfg6 a).N, t.val = (i (0 : Fin 3)).val := ⟨⟨_, hlt⟩, rfl⟩
  refine ⟨t, flush6_2 a t, ?_⟩
  have hset := View.set_slice_whole main_v27 (((cfg6 a).win 2).rect t)
  refine (Eq.mpr (congrArg (fun S => i ∈ S) hset) ?_ : i ∈ ((View.whole main_v27).slice (((cfg6 a).win 2).rect t)).set)
  refine Rect.mem_set_unit.mpr (fun d => ?_)
  have e0 : ((cfg6 a).win 2).index t (0 : Fin 3) = t.val := congrFun (index6_2 a t) (0 : Fin 3)
  have eB : ((cfg6 a).win 2).index t (1 : Fin 3) = 0 := congrFun (index6_2 a t) (1 : Fin 3)
  have e2 : ((cfg6 a).win 2).index t (2 : Fin 3) = 0 := congrFun (index6_2 a t) (2 : Fin 3)
  match d with
  | ⟨0, _⟩ =>
    show ((cfg6 a).win 2).index t (0 : Fin 3) * 1 ≤ (i (0 : Fin 3)).val
      ∧ (i (0 : Fin 3)).val < ((cfg6 a).win 2).index t (0 : Fin 3) * 1 + 1
    rw [e0]; omega
  | ⟨1, _⟩ =>
    have hi : (i (1 : Fin 3)).val < 1 := (i (1 : Fin 3)).isLt
    show ((cfg6 a).win 2).index t (1 : Fin 3) * 1 ≤ (i (1 : Fin 3)).val
      ∧ (i (1 : Fin 3)).val < ((cfg6 a).win 2).index t (1 : Fin 3) * 1 + 1
    rw [eB]; omega
  | ⟨2, _⟩ =>
    have hi : (i (2 : Fin 3)).val < 128 := (i (2 : Fin 3)).isLt
    show ((cfg6 a).win 2).index t (2 : Fin 3) * 128 ≤ (i (2 : Fin 3)).val
      ∧ (i (2 : Fin 3)).val < ((cfg6 a).win 2).index t (2 : Fin 3) * 128 + 128
    rw [e2]; omega

/-- So the output array ends holding that function. -/
theorem final6 (c : Dev nD) : (dat6 (F := Ideal) V a c).arrAt 2 (cfg6 a).N = gath6 V a c :=
  (dat6 (F := Ideal) V a c).arrAt_eq_of_cover 2 (gath6 V a c) (fun t _ => flushed6_eq V a c t) (cover6 a)

/-- What gather call 1 leaves in its output array, entry by entry: the two rows its tables name, added and scaled. -/
theorem gather_out6 (c : Dev nD) (t : Fin 40000) (l : Fin 128) :
    ((dat6 (F := Ideal) V a c).arrAt 2 (cfg6 a).N : FVec Ideal S40000x1x128 .f32) (ValueIdx.ix3 t (0 : Fin 1) l)
      = (srcRows6 V c (ValueIdx.ix3 (Cert.Spec.node (a.1 0 (ValueIdx.ix1 t))) (0 : Fin 1) l)
        + dstRows6 V c (ValueIdx.ix3 (Cert.Spec.node (a.1 1 (ValueIdx.ix1 t))) (0 : Fin 1) l)) * Cert.Spec.scale :=
  congrFun (final6 V a c) (ValueIdx.ix3 t (0 : Fin 1) l)
end GatherValue

end Cert.KernelIdeal.Hand

end
-- ==== Proof.KI.Piece6.lean ====
/-
  Gather call 6's output array in terms of the launch arrays.

  Gather call 6 walks its 40000 grid points; at point t it reads row (word t of its source table) of the re-laid source
  projection and row (word t of its destination table) of the re-laid destination projection, adds them lane by lane and
  multiplies by the constant, into row t of its output. Its tables are the slices of the launch endpoint arrays from
  word 200000 on, so word t of a table is the endpoint array's word 40000 · 5 + t, and a re-laid projection's row n, lane l
  is the projected feature (batch l / 64, node n, feature l % 64). So row t, lane l of the output is lane l of the
  specification's row for edge 40000 · 5 + t.
-/
import proofs.«413139_j22651657519351_3_alg».proof.Proof.KI.Fold
import proofs.«413139_j22651657519351_3_alg».proof.Proof.KI.Walk
import proofs.«413139_j22651657519351_3_alg».proof.Proof.KI.Hs2
import proofs.«413139_j22651657519351_3_alg».proof.Proof.KI.GatherValue6
import proofs.«413139_j22651657519351_3_alg».proof.Proof.SpecRows
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe
open Idealize.SL.Sem

section Piece6

variable (m : (ℓ : Loc nD τ sig) → Buf (Elt Ideal) ℓ) (hR : InRange m)

/-- Word t of chunk 6's source table is the launch source array's word 40000 · 5 + t: the table is the slice of the
    array from word 200000 on. -/
theorem tbl6_src (t : Fin 40000) :
    (tbl6 (F := Ideal) m 0 : IVec S40000 32) (ValueIdx.ix1 t)
      = (m (((0 : Dev nD) : Thread nD τ).loc main_arg1) : IVec S800000 32) (ValueIdx.ix1 ⟨40000 * 5 + t.val, Cert.Spec.chunk_lt ⟨5, by norm_num⟩ t⟩) := by
  show extractStridedSlice S40000 ![200000] (m (((0 : Dev nD) : Thread nD τ).loc main_arg1) : IVec S800000 32) slices_S800000_S40000_200000 (ValueIdx.ix1 t) = _
  exact extractStridedSlice_apply (s := S800000) (t := S40000) ![200000] _ slices_S800000_S40000_200000 (ValueIdx.ix1 t) (ValueIdx.ix1 ⟨40000 * 5 + t.val, Cert.Spec.chunk_lt ⟨5, by norm_num⟩ t⟩)
    (fun a => match a with | ⟨0, _⟩ => by show 40000 * 5 + t.val = 200000 + t.val; omega)

/-- Word t of chunk 6's destination table is the launch destination array's word 40000 · 5 + t. -/
theorem tbl6_dst (t : Fin 40000) :
    (tbl6 (F := Ideal) m 1 : IVec S40000 32) (ValueIdx.ix1 t)
      = (m (((0 : Dev nD) : Thread nD τ).loc main_arg2) : IVec S800000 32) (ValueIdx.ix1 ⟨40000 * 5 + t.val, Cert.Spec.chunk_lt ⟨5, by norm_num⟩ t⟩) := by
  show extractStridedSlice S40000 ![200000] (m (((0 : Dev nD) : Thread nD τ).loc main_arg2) : IVec S800000 32) slices_S800000_S40000_200000 (ValueIdx.ix1 t) = _
  exact extractStridedSlice_apply (s := S800000) (t := S40000) ![200000] _ slices_S800000_S40000_200000 (ValueIdx.ix1 t) (ValueIdx.ix1 ⟨40000 * 5 + t.val, Cert.Spec.chunk_lt ⟨5, by norm_num⟩ t⟩)
    (fun a => match a with | ⟨0, _⟩ => by show 40000 * 5 + t.val = 200000 + t.val; omega)

/-- Gather call 6's output array in terms of the launch arrays: row t, lane l is lane l of edge 40000 · 5 + t's row.
    The call adds, at row t, the rows of the two re-laid projections that the tables' words t name, and scales the sum;
    the re-laid projections, untouched since host stretch 1 wrote them, hold at each row the projected features of that
    node, and the tables' words t are the endpoint arrays' words 40000 · 5 + t. -/
theorem piece6 (c : Dev nD) (t : Fin 40000) (l : Fin 128) :
    (W13 (F := Ideal) m hR c main_v27 : FVec Ideal S40000x1x128 .f32) (ValueIdx.ix3 t (0 : Fin 1) l)
      = Cert.Spec.edgeRow (m ((c : Thread nD τ).loc main_arg0)) (m ((c : Thread nD τ).loc main_arg1)) (m ((c : Thread nD τ).loc main_arg2))
          (m ((c : Thread nD τ).loc main_arg3)) (m ((c : Thread nD τ).loc main_arg4))
          ⟨40000 * 5 + t.val, Cert.Spec.chunk_lt ⟨5, by norm_num⟩ t⟩ l := by
  obtain rfl : c = 0 := Subsingleton.elim _ _
  refine (congrFun (W13_arr (F := Ideal) m hR 0 2) _).trans ?_
  refine (gather_out6 (V12 (F := Ideal) m hR) (a6 (F := Ideal) m hR) 0 t l).trans ?_
  have e1 : (W12 (F := Ideal) m hR 0 main_v2 : FVec Ideal S50000x1x128 .f32)
        (ValueIdx.ix3 (Cert.Spec.node ((tbl6 (F := Ideal) m 0 : IVec S40000 32) (ValueIdx.ix1 t))) (0 : Fin 1) l)
      = Cert.Spec.proj (m (((0 : Dev nD) : Thread nD τ).loc main_arg0)) (m (((0 : Dev nD) : Thread nD τ).loc main_arg3))
          ⟨l.val / 64, Cert.Spec.lane_div l⟩
          (Cert.Spec.node ((m (((0 : Dev nD) : Thread nD τ).loc main_arg1) : IVec S800000 32) (ValueIdx.ix1 ⟨40000 * 5 + t.val, Cert.Spec.chunk_lt ⟨5, by norm_num⟩ t⟩)))
          ⟨l.val % 64, Cert.Spec.lane_mod l⟩ := by
    rw [tbl6_src m t]
    exact (congrFun (W12_v2 (F := Ideal) m hR 0) _).trans (hs2_apply m hR 0 _ l)
  have e2 : (W12 (F := Ideal) m hR 0 main_v4 : FVec Ideal S50000x1x128 .f32)
        (ValueIdx.ix3 (Cert.Spec.node ((tbl6 (F := Ideal) m 1 : IVec S40000 32) (ValueIdx.ix1 t))) (0 : Fin 1) l)
      = Cert.Spec.proj (m (((0 : Dev nD) : Thread nD τ).loc main_arg0)) (m (((0 : Dev nD) : Thread nD τ).loc main_arg4))
          ⟨l.val / 64, Cert.Spec.lane_div l⟩
          (Cert.Spec.node ((m (((0 : Dev nD) : Thread nD τ).loc main_arg2) : IVec S800000 32) (ValueIdx.ix1 ⟨40000 * 5 + t.val, Cert.Spec.chunk_lt ⟨5, by norm_num⟩ t⟩)))
          ⟨l.val % 64, Cert.Spec.lane_mod l⟩ := by
    rw [tbl6_dst m t]
    exact (congrFun (W12_v4 (F := Ideal) m hR 0) _).trans (hd2_apply m hR 0 _ l)
  exact congrArg₂ (fun a b : EReal => (a + b) * Cert.Spec.scale) e1 e2

end Piece6

end Cert.KernelIdeal.Hand

end
-- ==== Proof.KI.FPiece6.lean ====
/-
  Chunk 6's rows as the last host stretch finds them. Host stretch 7 reshapes gather call 6's output
  [40000, 1, 128] to [40000, 128]; nothing touches that buffer until the last stretch concatenates the twenty pieces.
  With the call's output read as the rows of the specification, the piece is the specification's chunk number 5.
-/
import proofs.«413139_j22651657519351_3_alg».proof.Proof.Gen.KernelIdeal.Launch
import proofs.«413139_j22651657519351_3_alg».proof.Proof.Gen.KernelIdeal.Skeleton
import proofs.«413139_j22651657519351_3_alg».proof.Proof.Gen.KernelIdeal.Points
import proofs.«413139_j22651657519351_3_alg».proof.Proof.KI.Walk
import proofs.«413139_j22651657519351_3_alg».proof.Proof.KI.Piece6
import proofs.«413139_j22651657519351_3_alg».proof.Proof.Layout
import proofs.«413139_j22651657519351_3_alg».proof.Proof.SpecRows
import Idealize.ShloMosaic.Lib.StableHlo.Run
import Idealize.ShloMosaic.Lib.ValueIdx
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section FPiece

variable (m : (ℓ : Loc nD τ sig) → Buf (Elt Ideal) ℓ) (hR : InRange m)

theorem fpiece6 (c : Dev nD) :
    (W41 (F := Ideal) m hR c main_v28 : FVec Ideal S40000x128 .f32)
      = Cert.Spec.chunk (m ((c : Thread nD τ).loc main_arg0)) (m ((c : Thread nD τ).loc main_arg1)) (m ((c : Thread nD τ).loc main_arg2))
          (m ((c : Thread nD τ).loc main_arg3)) (m ((c : Thread nD τ).loc main_arg4)) (5 : Fin 20) := by
  funext i
  obtain ⟨t, l, rfl⟩ : ∃ (t : Fin 40000) (l : Fin 128), i = ValueIdx.ix2 t l := ⟨i 0, i 1, ValueIdx.eq_ix2 i⟩
  rw [W41_p6 m hR c]
  show StableHlo.after hostOps7 (W13 (F := Ideal) m hR c) (Proc.devRef .tc main_v28) (ValueIdx.ix2 t l) = _
  after_results
  refine (Cert.Layout.piece_apply _ _ t l).trans ?_
  exact piece6 m hR c t l

end FPiece

end Cert.KernelIdeal.Hand

end
-- ==== Proof.KI.GatherValue7.lean ====
/-
  Edge chunk 1's gather kernel: what it leaves in its output array, entry by entry, at the ideal (extended-real)
  instance, for any contents V of the buffers at the region's entry and any admissible contents of the two index tables.

  At grid point t the two gathered windows hold row (word t of table 0) of the first source array and row (word t of
  table 1) of the second: the block index of a gathered window is (that word read unsigned, 0, 0), the block is one
  row of 128 lanes, and admissibility of the tables says the word is below the 50000 rows. The body stores
  (row + row) · c into the output block, and the output window's block index is (t, 0, 0): block t is row t of the
  output array, every point writes its block back, and the blocks of the 40000 points cover the array. So the array
  ends holding, at (t, 0, l), the sum of the two named rows' entries at lane l, times c.
-/
import proofs.«413139_j22651657519351_3_alg».proof.Proof.KI.Region7
import proofs.«413139_j22651657519351_3_alg».proof.Proof.Spec
import Idealize.ShloMosaic.Lib.Pipeline.Value
import Idealize.ShloMosaic.Lib.ValueIdx
import Idealize.ShloMosaic.Lib.ValueLayout

set_option maxRecDepth 16384

noncomputable section

namespace Cert.KernelIdeal.Hand

open Cert.KernelIdeal Cert.KernelIdeal.Gen
open Idealize.ShloMosaic Idealize.ShloMosaic.TcCoe
open Idealize.SL.Sem
open Idealize.ShloMosaic.Pipeline (Dat Cfg Window)

section GatherValue
variable (V : (c : Dev nD) → (b : Ref sig .tc) → Buf (Elt Ideal) ((c : Thread nD τ).loc b))
variable (a : (pcfg7 (F := Ideal)).Adm)

/-- The grid has 40000 points, one axis. -/
theorem npts7 : (cfg7 a).N = 40000 := N_7

/-- The one coordinate of point t is t. -/
theorem coord7 (t : Fin (cfg7 a).N) : (((cfg7 a).grid.coords t) 0).val = t.val := by
  show t.val / (cfg7 a).grid.stride 0 % 40000 = t.val
  have hs : (cfg7 a).grid.stride 0 = 1 := rfl
  rw [hs]
  have := t.isLt
  have e : (cfg7 a).N = 40000 := rfl
  omega

/-- A grid coordinate, as the 32-bit word the index maps receive and back, is itself. -/
theorem wordCoord7 (n : Nat) (h : n < 40000) : (Scalar.indexCast (BitVec.ofNat 32 n)).toNat = n := by
  show (BitVec.ofNat 32 n).toNat = n
  rw [BitVec.toNat_ofNat]
  exact Nat.mod_eq_of_lt (by omega)

set_option maxHeartbeats 100000 in
/-- Output window: the block index at point t is (t, 0, 0). -/
theorem index7_2 (t : Fin (cfg7 a).N) : ((cfg7 a).win 2).index t = ![t.val, 0, 0] := by
  show cc7_transform_2 ((cfg7 a).grid.coords t) = _
  unfold cc7_transform_2
  dsimp only
  have h := coord7 a t
  have hl : t.val < 40000 := t.isLt
  funext d
  match d with
  | ⟨0, _⟩ => show (BitVec.ofNat 32 (((cfg7 a).grid.coords t) 0).val).toNat = t.val; rw [h]; exact wordCoord7 _ hl
  | ⟨1, _⟩ => rfl
  | ⟨2, _⟩ => rfl

set_option maxHeartbeats 100000 in
/-- Gathered window 0: the block index at point t is (word t of table 0, 0, 0). -/
theorem index7_0 (t : Fin (cfg7 a).N) :
    ((cfg7 a).win 0).index t = ![((a.1 0 (ValueIdx.ix1 (n := 40000) ⟨t.val, t.isLt⟩) : BitVec 32)).toNat, 0, 0] := by
  show cc7_transform_0 k7_off1_inb numel1_S1 a.1 ((cfg7 a).grid.coords t) = _
  unfold cc7_transform_0
  dsimp only
  have h := coord7 a t
  have hl : t.val < 40000 := t.isLt
  funext d
  match d with
  | ⟨0, _⟩ =>
    show ((a.1 0 _ : BitVec 32)).toNat = ((a.1 0 _ : BitVec 32)).toNat
    refine congrArg (fun j => ((a.1 0 j : BitVec 32)).toNat) ?_
    funext k
    match k with
    | ⟨0, _⟩ =>
      apply Fin.ext
      show (Scalar.indexCast (BitVec.ofNat 32 (((cfg7 a).grid.coords t) 0).val)).toNat + 1 * 0 = t.val
      rw [h, wordCoord7 _ hl]; omega
  | ⟨1, _⟩ => rfl
  | ⟨2, _⟩ => rfl

set_option maxHeartbeats 100000 in
/-- Gathered window 1: the block index at point t is (word t of table 1, 0, 0). -/
theorem index7_1 (t : Fin (cfg7 a).N) :
    ((cfg7 a).win 1).index t = ![((a.1 1 (ValueIdx.ix1 (n := 40000) ⟨t.val, t.isLt⟩) : BitVec 32)).toNat, 0, 0] := by
  show cc7_transform_1 k7_off1_inb numel1_S1 a.1 ((cfg7 a).grid.coords t) = _
  unfold cc7_transform_1
  dsimp only
  have h := coord7 a t
  have hl : t.val < 40000 := t.isLt
  funext d
  match d with
  | ⟨0, _⟩ =>
    show ((a.1 1 _ : BitVec 32)).toNat = ((a.1 1 _ : BitVec 32)).toNat
    refine congrArg (fun j => ((a.1 1 j : BitVec 32)).toNat) ?_
    funext k
    match k with
    | ⟨0, _⟩ =>
      apply Fin.ext
      show (Scalar.indexCast (BitVec.ofNat 32 (((cfg7 a).grid.coords t) 0).val)).toNat + 1 * 0 = t.val
      rw [h, wordCoord7 _ hl]; omega
  | ⟨1, _⟩ => rfl
  | ⟨2, _⟩ => rfl

theorem zeros7 : (![0, 0, 0] : Fin 3 → Nat) = fun _ => 0 := funext fun d => by fin_cases d <;> rfl

/-- The arithmetic of one entry: add, then scale. -/
abbrev comb7 (u v : EReal) : EReal := (u + v) * Cert.Spec.scale

/-- The body's payload at an index: the sum of the two loaded rows' entries there, times the scale. -/
theorem pay7_apply (x0 x2 : S1x1x128.Idx → EReal) (y : S1x1x128.Idx) :
    (k7_pay1 (F := Ideal) x0 x2 : S1x1x128.Idx → EReal) y = (x0 y + x2 y) * Cert.Spec.scale := by
  unfold k7_pay1
  rw [shapeCast_self, shapeCast_self]
  rfl

/-- The same with the two rows loaded through the whole-block rectangle. -/
theorem pay7_ld_apply (x0 x2 : Vec Ideal S1x1x128 .f32) (y : S1x1x128.Idx) :
    (k7_pay1 (F := Ideal) (View.ld x0 r7) (View.ld x2 r7) : S1x1x128.Idx → EReal) y = comb7 (x0 y) (x2 y) := by
  have hA : View.ld x0 r7 = x0 := View.ld_unit_zero (Val := Elt Ideal) (S := S1x1x128) (e := .f32) zeros7 _ x0
  have hB : View.ld x2 r7 = x2 := View.ld_unit_zero (Val := Elt Ideal) (S := S1x1x128) (e := .f32) zeros7 _ x2
  rw [hA, hB]
  exact pay7_apply x0 x2 y

/-- The word of table 0 at point t is a row of the 50000-row array. -/
theorem word7_0_lt (t : Fin (cfg7 a).N) : ((a.1 0 (ValueIdx.ix1 (n := 40000) ⟨t.val, t.isLt⟩) : BitVec 32)).toNat < 50000 := by
  obtain ⟨h, -⟩ := a.2.1 ((cfg7 a).grid.coords t)
  have h0 : (((cfg7 a).win 0).index t (0 : Fin 3) + 1) * 1 ≤ 50000 := h 0
  have e0 : ((cfg7 a).win 0).index t (0 : Fin 3) = ((a.1 0 (ValueIdx.ix1 (n := 40000) ⟨t.val, t.isLt⟩) : BitVec 32)).toNat := congrFun (index7_0 a t) (0 : Fin 3)
  rw [e0] at h0
  omega

/-- The word of table 1 at point t is a row of the 50000-row array. -/
theorem word7_1_lt (t : Fin (cfg7 a).N) : ((a.1 1 (ValueIdx.ix1 (n := 40000) ⟨t.val, t.isLt⟩) : BitVec 32)).toNat < 50000 := by
  obtain ⟨h, -⟩ := a.2.2 ((cfg7 a).grid.coords t)
  have h0 : (((cfg7 a).win 1).index t (0 : Fin 3) + 1) * 1 ≤ 50000 := h 0
  have e0 : ((cfg7 a).win 1).index t (0 : Fin 3) = ((a.1 1 (ValueIdx.ix1 (n := 40000) ⟨t.val, t.isLt⟩) : BitVec 32)).toNat := congrFun (index7_1 a t) (0 : Fin 3)
  rw [e0] at h0
  omega

/-- The two source arrays, as functions to the extended reals. -/
abbrev srcRows7 (c : Dev nD) : S50000x1x128.Idx → EReal := V c main_v2
abbrev dstRows7 (c : Dev nD) : S50000x1x128.Idx → EReal := V c main_v4

set_option maxHeartbeats 100000 in
/-- Window 0's block at point t is the row of the first source array that table 0's word t names. -/
theorem iblk7_0_apply (c : Dev nD) (t : Fin (cfg7 a).N) (y : (((cfg7 a).win 0).xblock ((cfg7 a).grid.coords t)).Idx)
    (l : Fin 128) (hl : (y (2 : Fin 3)).val = l.val) :
    (iblk7 V a c 0 t y : EReal)
      = srcRows7 V c (ValueIdx.ix3 (Cert.Spec.node (a.1 0 (ValueIdx.ix1 (n := 40000) ⟨t.val, t.isLt⟩))) (0 : Fin 1) l) := by
  have hw := word7_0_lt a t
  have e0 : ((cfg7 a).win 0).index t (0 : Fin 3) = ((a.1 0 (ValueIdx.ix1 (n := 40000) ⟨t.val, t.isLt⟩) : BitVec 32)).toNat := congrFun (index7_0 a t) (0 : Fin 3)
  have eM : ((cfg7 a).win 0).index t (1 : Fin 3) = 0 := congrFun (index7_0 a t) (1 : Fin 3)
  have e2 : ((cfg7 a).win 0).index t (2 : Fin 3) = 0 := congrFun (index7_0 a t) (2 : Fin 3)
  show V c main_v2 ((((cfg7 a).win 0).blk t).view.emb y) = V c main_v2 _
  refine congrArg (V c main_v2) ?_
  funext d
  apply Fin.ext
  match d with
  | ⟨0, _⟩ =>
    show ((cfg7 a).win 0).index t (0 : Fin 3) * 1 + 1 * (y (0 : Fin 3)).val = (Cert.Spec.node _).val
    have hy : (y (0 : Fin 3)).val < 1 := (y (0 : Fin 3)).isLt
    rw [e0, Cert.Spec.node_val hw]; omega
  | ⟨1, _⟩ =>
    show ((cfg7 a).win 0).index t (1 : Fin 3) * 1 + 1 * (y (1 : Fin 3)).val = 0
    have hy : (y (1 : Fin 3)).val < 1 := (y (1 : Fin 3)).isLt
    rw [eM]; omega
  | ⟨2, _⟩ =>
    show ((cfg7 a).win 0).index t (2 : Fin 3) * 128 + 1 * (y (2 : Fin 3)).val = l.val
    rw [e2, hl]; omega

set_option maxHeartbeats 100000 in
/-- Window 1's block at point t is the row of the second source array that table 1's word t names. -/
theorem iblk7_1_apply (c : Dev nD) (t : Fin (cfg7 a).N) (y : (((cfg7 a).win 1).xblock ((cfg7 a).grid.coords t)).Idx)
    (l : Fin 128) (hl : (y (2 : Fin 3)).val = l.val) :
    (iblk7 V a c 1 t y : EReal)
      = dstRows7 V c (ValueIdx.ix3 (Cert.Spec.node (a.1 1 (ValueIdx.ix1 (n := 40000) ⟨t.val, t.isLt⟩))) (0 : Fin 1) l) := by
  have hw := word7_1_lt a t
  have e0 : ((cfg7 a).win 1).index t (0 : Fin 3) = ((a.1 1 (ValueIdx.ix1 (n := 40000) ⟨t.val, t.isLt⟩) : BitVec 32)).toNat := congrFun (index7_1 a t) (0 : Fin 3)
  have eM : ((cfg7 a).win 1).index t (1 : Fin 3) = 0 := congrFun (index7_1 a t) (1 : Fin 3)
  have e2 : ((cfg7 a).win 1).index t (2 : Fin 3) = 0 := congrFun (index7_1 a t) (2 : Fin 3)
  show V c main_v4 ((((cfg7 a).win 1).blk t).view.emb y) = V c main_v4 _
  refine congrArg (V c main_v4) ?_
  funext d
  apply Fin.ext
  match d with
  | ⟨0, _⟩ =>
    show ((cfg7 a).win 1).index t (0 : Fin 3) * 1 + 1 * (y (0 : Fin 3)).val = (Cert.Spec.node _).val
    have hy : (y (0 : Fin 3)).val < 1 := (y (0 : Fin 3)).isLt
    rw [e0, Cert.Spec.node_val hw]; omega
  | ⟨1, _⟩ =>
    show ((cfg7 a).win 1).index t (1 : Fin 3) * 1 + 1 * (y (1 : Fin 3)).val = 0
    have hy : (y (1 : Fin 3)).val < 1 := (y (1 : Fin 3)).isLt
    rw [eM]; omega
  | ⟨2, _⟩ =>
    show ((cfg7 a).win 1).index t (2 : Fin 3) * 128 + 1 * (y (2 : Fin 3)).val = l.val
    rw [e2, hl]; omega

/-- Entry (t, l) of what the call leaves: the two gathered rows' entries at lane l, added and scaled. -/
def row7 (c : Dev nD) (t : Fin 40000) (l : Fin 128) : EReal :=
  comb7 (srcRows7 V c (ValueIdx.ix3 (Cert.Spec.node (a.1 0 (ValueIdx.ix1 t))) (0 : Fin 1) l))
    (dstRows7 V c (ValueIdx.ix3 (Cert.Spec.node (a.1 1 (ValueIdx.ix1 t))) (0 : Fin 1) l))

/-- The whole output array as one function of its index. -/
def gath7 (c : Dev nD) : S40000x1x128.Idx → EReal :=
  fun i => row7 V a c ⟨(i (0 : Fin 3)).val, (i (0 : Fin 3)).isLt⟩ ⟨(i (2 : Fin 3)).val, (i (2 : Fin 3)).isLt⟩

set_option maxHeartbeats 200000 in
/-- What point t writes back is block t of that function. -/
theorem flushed7_eq (c : Dev nD) (t : Fin (cfg7 a).N) :
    (dat7 (F := Ideal) V a c).flushed 2 t = (((cfg7 a).win 2).blk t).view.read (Elt Ideal) (gath7 V a c) := by
  show ((cfg7 a).win 2).cut ((cfg7 a).grid.coords t) ((dat7 V a c).after 2 t) = _
  rw [after7_2]
  unfold out7_2
  rw [View.canon_unit_zero zeros7]
  funext j
  have e0 : ((cfg7 a).win 2).index t (0 : Fin 3) = t.val := congrFun (index7_2 a t) (0 : Fin 3)
  have e2 : ((cfg7 a).win 2).index t (2 : Fin 3) = 0 := congrFun (index7_2 a t) (2 : Fin 3)
  have hj0 : (j (0 : Fin 3)).val < 1 := (j (0 : Fin 3)).isLt
  show (k7_pay1 (F := Ideal) (View.ld (iblk7 V a c 0 t) r7) (View.ld (iblk7 V a c 1 t) r7) : S1x1x128.Idx → EReal) (((cfg7 a).win 2).xinj ((cfg7 a).grid.coords t) j)
      = gath7 V a c ((((cfg7 a).win 2).blk t).view.emb j)
  refine (pay7_ld_apply (iblk7 V a c 0 t) (iblk7 V a c 1 t) (((cfg7 a).win 2).xinj ((cfg7 a).grid.coords t) j)).trans ?_
  have hT : (⟨t.val, t.isLt⟩ : Fin 40000) = ⟨((((cfg7 a).win 2).blk t).view.emb j (0 : Fin 3)).val, ((((cfg7 a).win 2).blk t).view.emb j (0 : Fin 3)).isLt⟩ :=
    Fin.ext (by
      show t.val = ((cfg7 a).win 2).index t (0 : Fin 3) * 1 + 1 * (j (0 : Fin 3)).val
      rw [e0]; omega)
  have hL : (⟨(j (2 : Fin 3)).val, (j (2 : Fin 3)).isLt⟩ : Fin 128) = ⟨((((cfg7 a).win 2).blk t).view.emb j (2 : Fin 3)).val, ((((cfg7 a).win 2).blk t).view.emb j (2 : Fin 3)).isLt⟩ :=
    Fin.ext (by
      show (j (2 : Fin 3)).val = ((cfg7 a).win 2).index t (2 : Fin 3) * 128 + 1 * (j (2 : Fin 3)).val
      rw [e2]; omega)
  refine Eq.trans ?_ (congrArg₂ (row7 V a c) hT hL)
  unfold row7
  exact congrArg₂ comb7 (iblk7_0_apply V a c t _ _ rfl) (iblk7_1_apply V a c t _ _ rfl)

set_option maxHeartbeats 100000 in
/-- The output window is written back at every point: the next point's block is another row. -/
theorem flush7_2 (t : Fin (cfg7 a).N) : ((cfg7 a).win 2).flush t = true := by
  unfold Window.flush
  rw [Bool.and_eq_true, Bool.or_eq_true, decide_eq_true_eq, decide_eq_true_eq]
  refine ⟨rfl, ?_⟩
  by_cases h : t.val + 1 < (cfg7 a).grid.N
  · refine Or.inr ⟨h, fun e => ?_⟩
    have e0 := congrFun e (0 : Fin 3)
    have eA : ((cfg7 a).win 2).index ⟨t.val + 1, h⟩ (0 : Fin 3) = t.val + 1 := congrFun (index7_2 a ⟨t.val + 1, h⟩) (0 : Fin 3)
    have eB : ((cfg7 a).win 2).index t (0 : Fin 3) = t.val := congrFun (index7_2 a t) (0 : Fin 3)
    rw [eA, eB] at e0
    omega
  · refine Or.inl ?_
    have hlt : t.val < (cfg7 a).grid.N := t.isLt
    omega

set_option maxHeartbeats 100000 in
/-- Every entry of the output array lies in the block of the point its row names. -/
theorem cover7 (i : S40000x1x128.Idx) :
    ∃ t : Fin (cfg7 a).N, ((cfg7 a).win 2).flush t = true ∧ i ∈ (((cfg7 a).win 2).blk t).view.set := by
  have hlt : (i (0 : Fin 3)).val < (cfg7 a).N := by rw [npts7]; exact (i (0 : Fin 3)).isLt
  obtain ⟨t, ht⟩ : ∃ t : Fin (cfg7 a).N, t.val = (i (0 : Fin 3)).val := ⟨⟨_, hlt⟩, rfl⟩
  refine ⟨t, flush7_2 a t, ?_⟩
  have hset := View.set_slice_whole main_v31 (((cfg7 a).win 2).rect t)
  refine (Eq.mpr (congrArg (fun S => i ∈ S) hset) ?_ : i ∈ ((View.whole main_v31).slice (((cfg7 a).win 2).rect t)).set)
  refine Rect.mem_set_unit.mpr (fun d => ?_)
  have e0 : ((cfg7 a).win 2).index t (0 : Fin 3) = t.val := congrFun (index7_2 a t) (0 : Fin 3)
  have eB : ((cfg7 a).win 2).index t (1 : Fin 3) = 0 := congrFun (index7_2 a t) (1 : Fin 3)
  have e2 : ((cfg7 a).win 2).index t (2 : Fin 3) = 0 := congrFun (index7_2 a t) (2 : Fin 3)
  match d with
  | ⟨0, _⟩ =>
    show ((cfg7 a).win 2).index t (0 : Fin 3) * 1 ≤ (i (0 : Fin 3)).val
      ∧ (i (0 : Fin 3)).val < ((cfg7 a).win 2).index t (0 : Fin 3) * 1 + 1
    rw [e0]; omega
  | ⟨1, _⟩ =>
    have hi : (i (1 : Fin 3)).val < 1 := (i (1 : Fin 3)).isLt
    show ((cfg7 a).win 2).index t (1 : Fin 3) * 1 ≤ (i (1 : Fin 3)).val
      ∧ (i (1 : Fin 3)).val < ((cfg7 a).win 2).index t (1 : Fin 3) * 1 + 1
    rw [eB]; omega
  | ⟨2, _⟩ =>
    have hi : (i (2 : Fin 3)).val < 128 := (i (2 : Fin 3)).isLt
    show ((cfg7 a).win 2).index t (2 : Fin 3) * 128 ≤ (i (2 : Fin 3)).val
      ∧ (i (2 : Fin 3)).val < ((cfg7 a).win 2).index t (2 : Fin 3) * 128 + 128
    rw [e2]; omega

/-- So the output array ends holding that function. -/
theorem final7 (c : Dev nD) : (dat7 (F := Ideal) V a c).arrAt 2 (cfg7 a).N = gath7 V a c :=
  (dat7 (F := Ideal) V a c).arrAt_eq_of_cover 2 (gath7 V a c) (fun t _ => flushed7_eq V a c t) (cover7 a)

/-- What gather call 1 leaves in its output array, entry by entry: the two rows its tables name, added and scaled. -/
theorem gather_out7 (c : Dev nD) (t : Fin 40000) (l : Fin 128) :
    ((dat7 (F := Ideal) V a c).arrAt 2 (cfg7 a).N : FVec Ideal S40000x1x128 .f32) (ValueIdx.ix3 t (0 : Fin 1) l)
      = (srcRows7 V c (ValueIdx.ix3 (Cert.Spec.node (a.1 0 (ValueIdx.ix1 t))) (0 : Fin 1) l)
        + dstRows7 V c (ValueIdx.ix3 (Cert.Spec.node (a.1 1 (ValueIdx.ix1 t))) (0 : Fin 1) l)) * Cert.Spec.scale :=
  congrFun (final7 V a c) (ValueIdx.ix3 t (0 : Fin 1) l)
end GatherValue

end Cert.KernelIdeal.Hand

end
-- ==== Proof.KI.Piece7.lean ====
/-
  Gather call 7's output array in terms of the launch arrays.

  Gather call 7 walks its 40000 grid points; at point t it reads row (word t of its source table) of the re-laid source
  projection and row (word t of its destination table) of the re-laid destination projection, adds them lane by lane and
  multiplies by the constant, into row t of its output. Its tables are the slices of the launch endpoint arrays from
  word 240000 on, so word t of a table is the endpoint array's word 40000 · 6 + t, and a re-laid projection's row n, lane l
  is the projected feature (batch l / 64, node n, feature l % 64). So row t, lane l of the output is lane l of the
  specification's row for edge 40000 · 6 + t.
-/
import proofs.«413139_j22651657519351_3_alg».proof.Proof.KI.Fold
import proofs.«413139_j22651657519351_3_alg».proof.Proof.KI.Walk
import proofs.«413139_j22651657519351_3_alg».proof.Proof.KI.Hs2
import proofs.«413139_j22651657519351_3_alg».proof.Proof.KI.GatherValue7
import proofs.«413139_j22651657519351_3_alg».proof.Proof.SpecRows
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe
open Idealize.SL.Sem

section Piece7

variable (m : (ℓ : Loc nD τ sig) → Buf (Elt Ideal) ℓ) (hR : InRange m)

/-- Word t of chunk 7's source table is the launch source array's word 40000 · 6 + t: the table is the slice of the
    array from word 240000 on. -/
theorem tbl7_src (t : Fin 40000) :
    (tbl7 (F := Ideal) m 0 : IVec S40000 32) (ValueIdx.ix1 t)
      = (m (((0 : Dev nD) : Thread nD τ).loc main_arg1) : IVec S800000 32) (ValueIdx.ix1 ⟨40000 * 6 + t.val, Cert.Spec.chunk_lt ⟨6, by norm_num⟩ t⟩) := by
  show extractStridedSlice S40000 ![240000] (m (((0 : Dev nD) : Thread nD τ).loc main_arg1) : IVec S800000 32) slices_S800000_S40000_240000 (ValueIdx.ix1 t) = _
  exact extractStridedSlice_apply (s := S800000) (t := S40000) ![240000] _ slices_S800000_S40000_240000 (ValueIdx.ix1 t) (ValueIdx.ix1 ⟨40000 * 6 + t.val, Cert.Spec.chunk_lt ⟨6, by norm_num⟩ t⟩)
    (fun a => match a with | ⟨0, _⟩ => by show 40000 * 6 + t.val = 240000 + t.val; omega)

/-- Word t of chunk 7's destination table is the launch destination array's word 40000 · 6 + t. -/
theorem tbl7_dst (t : Fin 40000) :
    (tbl7 (F := Ideal) m 1 : IVec S40000 32) (ValueIdx.ix1 t)
      = (m (((0 : Dev nD) : Thread nD τ).loc main_arg2) : IVec S800000 32) (ValueIdx.ix1 ⟨40000 * 6 + t.val, Cert.Spec.chunk_lt ⟨6, by norm_num⟩ t⟩) := by
  show extractStridedSlice S40000 ![240000] (m (((0 : Dev nD) : Thread nD τ).loc main_arg2) : IVec S800000 32) slices_S800000_S40000_240000 (ValueIdx.ix1 t) = _
  exact extractStridedSlice_apply (s := S800000) (t := S40000) ![240000] _ slices_S800000_S40000_240000 (ValueIdx.ix1 t) (ValueIdx.ix1 ⟨40000 * 6 + t.val, Cert.Spec.chunk_lt ⟨6, by norm_num⟩ t⟩)
    (fun a => match a with | ⟨0, _⟩ => by show 40000 * 6 + t.val = 240000 + t.val; omega)

/-- Gather call 7's output array in terms of the launch arrays: row t, lane l is lane l of edge 40000 · 6 + t's row.
    The call adds, at row t, the rows of the two re-laid projections that the tables' words t name, and scales the sum;
    the re-laid projections, untouched since host stretch 1 wrote them, hold at each row the projected features of that
    node, and the tables' words t are the endpoint arrays' words 40000 · 6 + t. -/
theorem piece7 (c : Dev nD) (t : Fin 40000) (l : Fin 128) :
    (W15 (F := Ideal) m hR c main_v31 : FVec Ideal S40000x1x128 .f32) (ValueIdx.ix3 t (0 : Fin 1) l)
      = Cert.Spec.edgeRow (m ((c : Thread nD τ).loc main_arg0)) (m ((c : Thread nD τ).loc main_arg1)) (m ((c : Thread nD τ).loc main_arg2))
          (m ((c : Thread nD τ).loc main_arg3)) (m ((c : Thread nD τ).loc main_arg4))
          ⟨40000 * 6 + t.val, Cert.Spec.chunk_lt ⟨6, by norm_num⟩ t⟩ l := by
  obtain rfl : c = 0 := Subsingleton.elim _ _
  refine (congrFun (W15_arr (F := Ideal) m hR 0 2) _).trans ?_
  refine (gather_out7 (V14 (F := Ideal) m hR) (a7 (F := Ideal) m hR) 0 t l).trans ?_
  have e1 : (W14 (F := Ideal) m hR 0 main_v2 : FVec Ideal S50000x1x128 .f32)
        (ValueIdx.ix3 (Cert.Spec.node ((tbl7 (F := Ideal) m 0 : IVec S40000 32) (ValueIdx.ix1 t))) (0 : Fin 1) l)
      = Cert.Spec.proj (m (((0 : Dev nD) : Thread nD τ).loc main_arg0)) (m (((0 : Dev nD) : Thread nD τ).loc main_arg3))
          ⟨l.val / 64, Cert.Spec.lane_div l⟩
          (Cert.Spec.node ((m (((0 : Dev nD) : Thread nD τ).loc main_arg1) : IVec S800000 32) (ValueIdx.ix1 ⟨40000 * 6 + t.val, Cert.Spec.chunk_lt ⟨6, by norm_num⟩ t⟩)))
          ⟨l.val % 64, Cert.Spec.lane_mod l⟩ := by
    rw [tbl7_src m t]
    exact (congrFun (W14_v2 (F := Ideal) m hR 0) _).trans (hs2_apply m hR 0 _ l)
  have e2 : (W14 (F := Ideal) m hR 0 main_v4 : FVec Ideal S50000x1x128 .f32)
        (ValueIdx.ix3 (Cert.Spec.node ((tbl7 (F := Ideal) m 1 : IVec S40000 32) (ValueIdx.ix1 t))) (0 : Fin 1) l)
      = Cert.Spec.proj (m (((0 : Dev nD) : Thread nD τ).loc main_arg0)) (m (((0 : Dev nD) : Thread nD τ).loc main_arg4))
          ⟨l.val / 64, Cert.Spec.lane_div l⟩
          (Cert.Spec.node ((m (((0 : Dev nD) : Thread nD τ).loc main_arg2) : IVec S800000 32) (ValueIdx.ix1 ⟨40000 * 6 + t.val, Cert.Spec.chunk_lt ⟨6, by norm_num⟩ t⟩)))
          ⟨l.val % 64, Cert.Spec.lane_mod l⟩ := by
    rw [tbl7_dst m t]
    exact (congrFun (W14_v4 (F := Ideal) m hR 0) _).trans (hd2_apply m hR 0 _ l)
  exact congrArg₂ (fun a b : EReal => (a + b) * Cert.Spec.scale) e1 e2

end Piece7

end Cert.KernelIdeal.Hand

end
-- ==== Proof.KI.FPiece7.lean ====
/-
  Chunk 7's rows as the last host stretch finds them. Host stretch 8 reshapes gather call 7's output
  [40000, 1, 128] to [40000, 128]; nothing touches that buffer until the last stretch concatenates the twenty pieces.
  With the call's output read as the rows of the specification, the piece is the specification's chunk number 6.
-/
import proofs.«413139_j22651657519351_3_alg».proof.Proof.Gen.KernelIdeal.Launch
import proofs.«413139_j22651657519351_3_alg».proof.Proof.Gen.KernelIdeal.Skeleton
import proofs.«413139_j22651657519351_3_alg».proof.Proof.Gen.KernelIdeal.Points
import proofs.«413139_j22651657519351_3_alg».proof.Proof.KI.Walk
import proofs.«413139_j22651657519351_3_alg».proof.Proof.KI.Piece7
import proofs.«413139_j22651657519351_3_alg».proof.Proof.Layout
import proofs.«413139_j22651657519351_3_alg».proof.Proof.SpecRows
import Idealize.ShloMosaic.Lib.StableHlo.Run
import Idealize.ShloMosaic.Lib.ValueIdx
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section FPiece

variable (m : (ℓ : Loc nD τ sig) → Buf (Elt Ideal) ℓ) (hR : InRange m)

theorem fpiece7 (c : Dev nD) :
    (W41 (F := Ideal) m hR c main_v32 : FVec Ideal S40000x128 .f32)
      = Cert.Spec.chunk (m ((c : Thread nD τ).loc main_arg0)) (m ((c : Thread nD τ).loc main_arg1)) (m ((c : Thread nD τ).loc main_arg2))
          (m ((c : Thread nD τ).loc main_arg3)) (m ((c : Thread nD τ).loc main_arg4)) (6 : Fin 20) := by
  funext i
  obtain ⟨t, l, rfl⟩ : ∃ (t : Fin 40000) (l : Fin 128), i = ValueIdx.ix2 t l := ⟨i 0, i 1, ValueIdx.eq_ix2 i⟩
  rw [W41_p7 m hR c]
  show StableHlo.after hostOps8 (W15 (F := Ideal) m hR c) (Proc.devRef .tc main_v32) (ValueIdx.ix2 t l) = _
  after_results
  refine (Cert.Layout.piece_apply _ _ t l).trans ?_
  exact piece7 m hR c t l

end FPiece

end Cert.KernelIdeal.Hand

end
-- ==== Proof.KI.GatherValue8.lean ====
/-
  Edge chunk 1's gather kernel: what it leaves in its output array, entry by entry, at the ideal (extended-real)
  instance, for any contents V of the buffers at the region's entry and any admissible contents of the two index tables.

  At grid point t the two gathered windows hold row (word t of table 0) of the first source array and row (word t of
  table 1) of the second: the block index of a gathered window is (that word read unsigned, 0, 0), the block is one
  row of 128 lanes, and admissibility of the tables says the word is below the 50000 rows. The body stores
  (row + row) · c into the output block, and the output window's block index is (t, 0, 0): block t is row t of the
  output array, every point writes its block back, and the blocks of the 40000 points cover the array. So the array
  ends holding, at (t, 0, l), the sum of the two named rows' entries at lane l, times c.
-/
import proofs.«413139_j22651657519351_3_alg».proof.Proof.KI.Region8
import proofs.«413139_j22651657519351_3_alg».proof.Proof.Spec
import Idealize.ShloMosaic.Lib.Pipeline.Value
import Idealize.ShloMosaic.Lib.ValueIdx
import Idealize.ShloMosaic.Lib.ValueLayout

set_option maxRecDepth 16384

noncomputable section

namespace Cert.KernelIdeal.Hand

open Cert.KernelIdeal Cert.KernelIdeal.Gen
open Idealize.ShloMosaic Idealize.ShloMosaic.TcCoe
open Idealize.SL.Sem
open Idealize.ShloMosaic.Pipeline (Dat Cfg Window)

section GatherValue
variable (V : (c : Dev nD) → (b : Ref sig .tc) → Buf (Elt Ideal) ((c : Thread nD τ).loc b))
variable (a : (pcfg8 (F := Ideal)).Adm)

/-- The grid has 40000 points, one axis. -/
theorem npts8 : (cfg8 a).N = 40000 := N_8

/-- The one coordinate of point t is t. -/
theorem coord8 (t : Fin (cfg8 a).N) : (((cfg8 a).grid.coords t) 0).val = t.val := by
  show t.val / (cfg8 a).grid.stride 0 % 40000 = t.val
  have hs : (cfg8 a).grid.stride 0 = 1 := rfl
  rw [hs]
  have := t.isLt
  have e : (cfg8 a).N = 40000 := rfl
  omega

/-- A grid coordinate, as the 32-bit word the index maps receive and back, is itself. -/
theorem wordCoord8 (n : Nat) (h : n < 40000) : (Scalar.indexCast (BitVec.ofNat 32 n)).toNat = n := by
  show (BitVec.ofNat 32 n).toNat = n
  rw [BitVec.toNat_ofNat]
  exact Nat.mod_eq_of_lt (by omega)

set_option maxHeartbeats 100000 in
/-- Output window: the block index at point t is (t, 0, 0). -/
theorem index8_2 (t : Fin (cfg8 a).N) : ((cfg8 a).win 2).index t = ![t.val, 0, 0] := by
  show cc8_transform_2 ((cfg8 a).grid.coords t) = _
  unfold cc8_transform_2
  dsimp only
  have h := coord8 a t
  have hl : t.val < 40000 := t.isLt
  funext d
  match d with
  | ⟨0, _⟩ => show (BitVec.ofNat 32 (((cfg8 a).grid.coords t) 0).val).toNat = t.val; rw [h]; exact wordCoord8 _ hl
  | ⟨1, _⟩ => rfl
  | ⟨2, _⟩ => rfl

set_option maxHeartbeats 100000 in
/-- Gathered window 0: the block index at point t is (word t of table 0, 0, 0). -/
theorem index8_0 (t : Fin (cfg8 a).N) :
    ((cfg8 a).win 0).index t = ![((a.1 0 (ValueIdx.ix1 (n := 40000) ⟨t.val, t.isLt⟩) : BitVec 32)).toNat, 0, 0] := by
  show cc8_transform_0 k8_off1_inb numel1_S1 a.1 ((cfg8 a).grid.coords t) = _
  unfold cc8_transform_0
  dsimp only
  have h := coord8 a t
  have hl : t.val < 40000 := t.isLt
  funext d
  match d with
  | ⟨0, _⟩ =>
    show ((a.1 0 _ : BitVec 32)).toNat = ((a.1 0 _ : BitVec 32)).toNat
    refine congrArg (fun j => ((a.1 0 j : BitVec 32)).toNat) ?_
    funext k
    match k with
    | ⟨0, _⟩ =>
      apply Fin.ext
      show (Scalar.indexCast (BitVec.ofNat 32 (((cfg8 a).grid.coords t) 0).val)).toNat + 1 * 0 = t.val
      rw [h, wordCoord8 _ hl]; omega
  | ⟨1, _⟩ => rfl
  | ⟨2, _⟩ => rfl

set_option maxHeartbeats 100000 in
/-- Gathered window 1: the block index at point t is (word t of table 1, 0, 0). -/
theorem index8_1 (t : Fin (cfg8 a).N) :
    ((cfg8 a).win 1).index t = ![((a.1 1 (ValueIdx.ix1 (n := 40000) ⟨t.val, t.isLt⟩) : BitVec 32)).toNat, 0, 0] := by
  show cc8_transform_1 k8_off1_inb numel1_S1 a.1 ((cfg8 a).grid.coords t) = _
  unfold cc8_transform_1
  dsimp only
  have h := coord8 a t
  have hl : t.val < 40000 := t.isLt
  funext d
  match d with
  | ⟨0, _⟩ =>
    show ((a.1 1 _ : BitVec 32)).toNat = ((a.1 1 _ : BitVec 32)).toNat
    refine congrArg (fun j => ((a.1 1 j : BitVec 32)).toNat) ?_
    funext k
    match k with
    | ⟨0, _⟩ =>
      apply Fin.ext
      show (Scalar.indexCast (BitVec.ofNat 32 (((cfg8 a).grid.coords t) 0).val)).toNat + 1 * 0 = t.val
      rw [h, wordCoord8 _ hl]; omega
  | ⟨1, _⟩ => rfl
  | ⟨2, _⟩ => rfl

theorem zeros8 : (![0, 0, 0] : Fin 3 → Nat) = fun _ => 0 := funext fun d => by fin_cases d <;> rfl

/-- The arithmetic of one entry: add, then scale. -/
abbrev comb8 (u v : EReal) : EReal := (u + v) * Cert.Spec.scale

/-- The body's payload at an index: the sum of the two loaded rows' entries there, times the scale. -/
theorem pay8_apply (x0 x2 : S1x1x128.Idx → EReal) (y : S1x1x128.Idx) :
    (k8_pay1 (F := Ideal) x0 x2 : S1x1x128.Idx → EReal) y = (x0 y + x2 y) * Cert.Spec.scale := by
  unfold k8_pay1
  rw [shapeCast_self, shapeCast_self]
  rfl

/-- The same with the two rows loaded through the whole-block rectangle. -/
theorem pay8_ld_apply (x0 x2 : Vec Ideal S1x1x128 .f32) (y : S1x1x128.Idx) :
    (k8_pay1 (F := Ideal) (View.ld x0 r8) (View.ld x2 r8) : S1x1x128.Idx → EReal) y = comb8 (x0 y) (x2 y) := by
  have hA : View.ld x0 r8 = x0 := View.ld_unit_zero (Val := Elt Ideal) (S := S1x1x128) (e := .f32) zeros8 _ x0
  have hB : View.ld x2 r8 = x2 := View.ld_unit_zero (Val := Elt Ideal) (S := S1x1x128) (e := .f32) zeros8 _ x2
  rw [hA, hB]
  exact pay8_apply x0 x2 y

/-- The word of table 0 at point t is a row of the 50000-row array. -/
theorem word8_0_lt (t : Fin (cfg8 a).N) : ((a.1 0 (ValueIdx.ix1 (n := 40000) ⟨t.val, t.isLt⟩) : BitVec 32)).toNat < 50000 := by
  obtain ⟨h, -⟩ := a.2.1 ((cfg8 a).grid.coords t)
  have h0 : (((cfg8 a).win 0).index t (0 : Fin 3) + 1) * 1 ≤ 50000 := h 0
  have e0 : ((cfg8 a).win 0).index t (0 : Fin 3) = ((a.1 0 (ValueIdx.ix1 (n := 40000) ⟨t.val, t.isLt⟩) : BitVec 32)).toNat := congrFun (index8_0 a t) (0 : Fin 3)
  rw [e0] at h0
  omega

/-- The word of table 1 at point t is a row of the 50000-row array. -/
theorem word8_1_lt (t : Fin (cfg8 a).N) : ((a.1 1 (ValueIdx.ix1 (n := 40000) ⟨t.val, t.isLt⟩) : BitVec 32)).toNat < 50000 := by
  obtain ⟨h, -⟩ := a.2.2 ((cfg8 a).grid.coords t)
  have h0 : (((cfg8 a).win 1).index t (0 : Fin 3) + 1) * 1 ≤ 50000 := h 0
  have e0 : ((cfg8 a).win 1).index t (0 : Fin 3) = ((a.1 1 (ValueIdx.ix1 (n := 40000) ⟨t.val, t.isLt⟩) : BitVec 32)).toNat := congrFun (index8_1 a t) (0 : Fin 3)
  rw [e0] at h0
  omega

/-- The two source arrays, as functions to the extended reals. -/
abbrev srcRows8 (c : Dev nD) : S50000x1x128.Idx → EReal := V c main_v2
abbrev dstRows8 (c : Dev nD) : S50000x1x128.Idx → EReal := V c main_v4

set_option maxHeartbeats 100000 in
/-- Window 0's block at point t is the row of the first source array that table 0's word t names. -/
theorem iblk8_0_apply (c : Dev nD) (t : Fin (cfg8 a).N) (y : (((cfg8 a).win 0).xblock ((cfg8 a).grid.coords t)).Idx)
    (l : Fin 128) (hl : (y (2 : Fin 3)).val = l.val) :
    (iblk8 V a c 0 t y : EReal)
      = srcRows8 V c (ValueIdx.ix3 (Cert.Spec.node (a.1 0 (ValueIdx.ix1 (n := 40000) ⟨t.val, t.isLt⟩))) (0 : Fin 1) l) := by
  have hw := word8_0_lt a t
  have e0 : ((cfg8 a).win 0).index t (0 : Fin 3) = ((a.1 0 (ValueIdx.ix1 (n := 40000) ⟨t.val, t.isLt⟩) : BitVec 32)).toNat := congrFun (index8_0 a t) (0 : Fin 3)
  have eM : ((cfg8 a).win 0).index t (1 : Fin 3) = 0 := congrFun (index8_0 a t) (1 : Fin 3)
  have e2 : ((cfg8 a).win 0).index t (2 : Fin 3) = 0 := congrFun (index8_0 a t) (2 : Fin 3)
  show V c main_v2 ((((cfg8 a).win 0).blk t).view.emb y) = V c main_v2 _
  refine congrArg (V c main_v2) ?_
  funext d
  apply Fin.ext
  match d with
  | ⟨0, _⟩ =>
    show ((cfg8 a).win 0).index t (0 : Fin 3) * 1 + 1 * (y (0 : Fin 3)).val = (Cert.Spec.node _).val
    have hy : (y (0 : Fin 3)).val < 1 := (y (0 : Fin 3)).isLt
    rw [e0, Cert.Spec.node_val hw]; omega
  | ⟨1, _⟩ =>
    show ((cfg8 a).win 0).index t (1 : Fin 3) * 1 + 1 * (y (1 : Fin 3)).val = 0
    have hy : (y (1 : Fin 3)).val < 1 := (y (1 : Fin 3)).isLt
    rw [eM]; omega
  | ⟨2, _⟩ =>
    show ((cfg8 a).win 0).index t (2 : Fin 3) * 128 + 1 * (y (2 : Fin 3)).val = l.val
    rw [e2, hl]; omega

set_option maxHeartbeats 100000 in
/-- Window 1's block at point t is the row of the second source array that table 1's word t names. -/
theorem iblk8_1_apply (c : Dev nD) (t : Fin (cfg8 a).N) (y : (((cfg8 a).win 1).xblock ((cfg8 a).grid.coords t)).Idx)
    (l : Fin 128) (hl : (y (2 : Fin 3)).val = l.val) :
    (iblk8 V a c 1 t y : EReal)
      = dstRows8 V c (ValueIdx.ix3 (Cert.Spec.node (a.1 1 (ValueIdx.ix1 (n := 40000) ⟨t.val, t.isLt⟩))) (0 : Fin 1) l) := by
  have hw := word8_1_lt a t
  have e0 : ((cfg8 a).win 1).index t (0 : Fin 3) = ((a.1 1 (ValueIdx.ix1 (n := 40000) ⟨t.val, t.isLt⟩) : BitVec 32)).toNat := congrFun (index8_1 a t) (0 : Fin 3)
  have eM : ((cfg8 a).win 1).index t (1 : Fin 3) = 0 := congrFun (index8_1 a t) (1 : Fin 3)
  have e2 : ((cfg8 a).win 1).index t (2 : Fin 3) = 0 := congrFun (index8_1 a t) (2 : Fin 3)
  show V c main_v4 ((((cfg8 a).win 1).blk t).view.emb y) = V c main_v4 _
  refine congrArg (V c main_v4) ?_
  funext d
  apply Fin.ext
  match d with
  | ⟨0, _⟩ =>
    show ((cfg8 a).win 1).index t (0 : Fin 3) * 1 + 1 * (y (0 : Fin 3)).val = (Cert.Spec.node _).val
    have hy : (y (0 : Fin 3)).val < 1 := (y (0 : Fin 3)).isLt
    rw [e0, Cert.Spec.node_val hw]; omega
  | ⟨1, _⟩ =>
    show ((cfg8 a).win 1).index t (1 : Fin 3) * 1 + 1 * (y (1 : Fin 3)).val = 0
    have hy : (y (1 : Fin 3)).val < 1 := (y (1 : Fin 3)).isLt
    rw [eM]; omega
  | ⟨2, _⟩ =>
    show ((cfg8 a).win 1).index t (2 : Fin 3) * 128 + 1 * (y (2 : Fin 3)).val = l.val
    rw [e2, hl]; omega

/-- Entry (t, l) of what the call leaves: the two gathered rows' entries at lane l, added and scaled. -/
def row8 (c : Dev nD) (t : Fin 40000) (l : Fin 128) : EReal :=
  comb8 (srcRows8 V c (ValueIdx.ix3 (Cert.Spec.node (a.1 0 (ValueIdx.ix1 t))) (0 : Fin 1) l))
    (dstRows8 V c (ValueIdx.ix3 (Cert.Spec.node (a.1 1 (ValueIdx.ix1 t))) (0 : Fin 1) l))

/-- The whole output array as one function of its index. -/
def gath8 (c : Dev nD) : S40000x1x128.Idx → EReal :=
  fun i => row8 V a c ⟨(i (0 : Fin 3)).val, (i (0 : Fin 3)).isLt⟩ ⟨(i (2 : Fin 3)).val, (i (2 : Fin 3)).isLt⟩

set_option maxHeartbeats 200000 in
/-- What point t writes back is block t of that function. -/
theorem flushed8_eq (c : Dev nD) (t : Fin (cfg8 a).N) :
    (dat8 (F := Ideal) V a c).flushed 2 t = (((cfg8 a).win 2).blk t).view.read (Elt Ideal) (gath8 V a c) := by
  show ((cfg8 a).win 2).cut ((cfg8 a).grid.coords t) ((dat8 V a c).after 2 t) = _
  rw [after8_2]
  unfold out8_2
  rw [View.canon_unit_zero zeros8]
  funext j
  have e0 : ((cfg8 a).win 2).index t (0 : Fin 3) = t.val := congrFun (index8_2 a t) (0 : Fin 3)
  have e2 : ((cfg8 a).win 2).index t (2 : Fin 3) = 0 := congrFun (index8_2 a t) (2 : Fin 3)
  have hj0 : (j (0 : Fin 3)).val < 1 := (j (0 : Fin 3)).isLt
  show (k8_pay1 (F := Ideal) (View.ld (iblk8 V a c 0 t) r8) (View.ld (iblk8 V a c 1 t) r8) : S1x1x128.Idx → EReal) (((cfg8 a).win 2).xinj ((cfg8 a).grid.coords t) j)
      = gath8 V a c ((((cfg8 a).win 2).blk t).view.emb j)
  refine (pay8_ld_apply (iblk8 V a c 0 t) (iblk8 V a c 1 t) (((cfg8 a).win 2).xinj ((cfg8 a).grid.coords t) j)).trans ?_
  have hT : (⟨t.val, t.isLt⟩ : Fin 40000) = ⟨((((cfg8 a).win 2).blk t).view.emb j (0 : Fin 3)).val, ((((cfg8 a).win 2).blk t).view.emb j (0 : Fin 3)).isLt⟩ :=
    Fin.ext (by
      show t.val = ((cfg8 a).win 2).index t (0 : Fin 3) * 1 + 1 * (j (0 : Fin 3)).val
      rw [e0]; omega)
  have hL : (⟨(j (2 : Fin 3)).val, (j (2 : Fin 3)).isLt⟩ : Fin 128) = ⟨((((cfg8 a).win 2).blk t).view.emb j (2 : Fin 3)).val, ((((cfg8 a).win 2).blk t).view.emb j (2 : Fin 3)).isLt⟩ :=
    Fin.ext (by
      show (j (2 : Fin 3)).val = ((cfg8 a).win 2).index t (2 : Fin 3) * 128 + 1 * (j (2 : Fin 3)).val
      rw [e2]; omega)
  refine Eq.trans ?_ (congrArg₂ (row8 V a c) hT hL)
  unfold row8
  exact congrArg₂ comb8 (iblk8_0_apply V a c t _ _ rfl) (iblk8_1_apply V a c t _ _ rfl)

set_option maxHeartbeats 100000 in
/-- The output window is written back at every point: the next point's block is another row. -/
theorem flush8_2 (t : Fin (cfg8 a).N) : ((cfg8 a).win 2).flush t = true := by
  unfold Window.flush
  rw [Bool.and_eq_true, Bool.or_eq_true, decide_eq_true_eq, decide_eq_true_eq]
  refine ⟨rfl, ?_⟩
  by_cases h : t.val + 1 < (cfg8 a).grid.N
  · refine Or.inr ⟨h, fun e => ?_⟩
    have e0 := congrFun e (0 : Fin 3)
    have eA : ((cfg8 a).win 2).index ⟨t.val + 1, h⟩ (0 : Fin 3) = t.val + 1 := congrFun (index8_2 a ⟨t.val + 1, h⟩) (0 : Fin 3)
    have eB : ((cfg8 a).win 2).index t (0 : Fin 3) = t.val := congrFun (index8_2 a t) (0 : Fin 3)
    rw [eA, eB] at e0
    omega
  · refine Or.inl ?_
    have hlt : t.val < (cfg8 a).grid.N := t.isLt
    omega

set_option maxHeartbeats 100000 in
/-- Every entry of the output array lies in the block of the point its row names. -/
theorem cover8 (i : S40000x1x128.Idx) :
    ∃ t : Fin (cfg8 a).N, ((cfg8 a).win 2).flush t = true ∧ i ∈ (((cfg8 a).win 2).blk t).view.set := by
  have hlt : (i (0 : Fin 3)).val < (cfg8 a).N := by rw [npts8]; exact (i (0 : Fin 3)).isLt
  obtain ⟨t, ht⟩ : ∃ t : Fin (cfg8 a).N, t.val = (i (0 : Fin 3)).val := ⟨⟨_, hlt⟩, rfl⟩
  refine ⟨t, flush8_2 a t, ?_⟩
  have hset := View.set_slice_whole main_v35 (((cfg8 a).win 2).rect t)
  refine (Eq.mpr (congrArg (fun S => i ∈ S) hset) ?_ : i ∈ ((View.whole main_v35).slice (((cfg8 a).win 2).rect t)).set)
  refine Rect.mem_set_unit.mpr (fun d => ?_)
  have e0 : ((cfg8 a).win 2).index t (0 : Fin 3) = t.val := congrFun (index8_2 a t) (0 : Fin 3)
  have eB : ((cfg8 a).win 2).index t (1 : Fin 3) = 0 := congrFun (index8_2 a t) (1 : Fin 3)
  have e2 : ((cfg8 a).win 2).index t (2 : Fin 3) = 0 := congrFun (index8_2 a t) (2 : Fin 3)
  match d with
  | ⟨0, _⟩ =>
    show ((cfg8 a).win 2).index t (0 : Fin 3) * 1 ≤ (i (0 : Fin 3)).val
      ∧ (i (0 : Fin 3)).val < ((cfg8 a).win 2).index t (0 : Fin 3) * 1 + 1
    rw [e0]; omega
  | ⟨1, _⟩ =>
    have hi : (i (1 : Fin 3)).val < 1 := (i (1 : Fin 3)).isLt
    show ((cfg8 a).win 2).index t (1 : Fin 3) * 1 ≤ (i (1 : Fin 3)).val
      ∧ (i (1 : Fin 3)).val < ((cfg8 a).win 2).index t (1 : Fin 3) * 1 + 1
    rw [eB]; omega
  | ⟨2, _⟩ =>
    have hi : (i (2 : Fin 3)).val < 128 := (i (2 : Fin 3)).isLt
    show ((cfg8 a).win 2).index t (2 : Fin 3) * 128 ≤ (i (2 : Fin 3)).val
      ∧ (i (2 : Fin 3)).val < ((cfg8 a).win 2).index t (2 : Fin 3) * 128 + 128
    rw [e2]; omega

/-- So the output array ends holding that function. -/
theorem final8 (c : Dev nD) : (dat8 (F := Ideal) V a c).arrAt 2 (cfg8 a).N = gath8 V a c :=
  (dat8 (F := Ideal) V a c).arrAt_eq_of_cover 2 (gath8 V a c) (fun t _ => flushed8_eq V a c t) (cover8 a)

/-- What gather call 1 leaves in its output array, entry by entry: the two rows its tables name, added and scaled. -/
theorem gather_out8 (c : Dev nD) (t : Fin 40000) (l : Fin 128) :
    ((dat8 (F := Ideal) V a c).arrAt 2 (cfg8 a).N : FVec Ideal S40000x1x128 .f32) (ValueIdx.ix3 t (0 : Fin 1) l)
      = (srcRows8 V c (ValueIdx.ix3 (Cert.Spec.node (a.1 0 (ValueIdx.ix1 t))) (0 : Fin 1) l)
        + dstRows8 V c (ValueIdx.ix3 (Cert.Spec.node (a.1 1 (ValueIdx.ix1 t))) (0 : Fin 1) l)) * Cert.Spec.scale :=
  congrFun (final8 V a c) (ValueIdx.ix3 t (0 : Fin 1) l)
end GatherValue

end Cert.KernelIdeal.Hand

end
-- ==== Proof.KI.Piece8.lean ====
/-
  Gather call 8's output array in terms of the launch arrays.

  Gather call 8 walks its 40000 grid points; at point t it reads row (word t of its source table) of the re-laid source
  projection and row (word t of its destination table) of the re-laid destination projection, adds them lane by lane and
  multiplies by the constant, into row t of its output. Its tables are the slices of the launch endpoint arrays from
  word 280000 on, so word t of a table is the endpoint array's word 40000 · 7 + t, and a re-laid projection's row n, lane l
  is the projected feature (batch l / 64, node n, feature l % 64). So row t, lane l of the output is lane l of the
  specification's row for edge 40000 · 7 + t.
-/
import proofs.«413139_j22651657519351_3_alg».proof.Proof.KI.Fold
import proofs.«413139_j22651657519351_3_alg».proof.Proof.KI.Walk
import proofs.«413139_j22651657519351_3_alg».proof.Proof.KI.Hs2
import proofs.«413139_j22651657519351_3_alg».proof.Proof.KI.GatherValue8
import proofs.«413139_j22651657519351_3_alg».proof.Proof.SpecRows
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe
open Idealize.SL.Sem

section Piece8

variable (m : (ℓ : Loc nD τ sig) → Buf (Elt Ideal) ℓ) (hR : InRange m)

/-- Word t of chunk 8's source table is the launch source array's word 40000 · 7 + t: the table is the slice of the
    array from word 280000 on. -/
theorem tbl8_src (t : Fin 40000) :
    (tbl8 (F := Ideal) m 0 : IVec S40000 32) (ValueIdx.ix1 t)
      = (m (((0 : Dev nD) : Thread nD τ).loc main_arg1) : IVec S800000 32) (ValueIdx.ix1 ⟨40000 * 7 + t.val, Cert.Spec.chunk_lt ⟨7, by norm_num⟩ t⟩) := by
  show extractStridedSlice S40000 ![280000] (m (((0 : Dev nD) : Thread nD τ).loc main_arg1) : IVec S800000 32) slices_S800000_S40000_280000 (ValueIdx.ix1 t) = _
  exact extractStridedSlice_apply (s := S800000) (t := S40000) ![280000] _ slices_S800000_S40000_280000 (ValueIdx.ix1 t) (ValueIdx.ix1 ⟨40000 * 7 + t.val, Cert.Spec.chunk_lt ⟨7, by norm_num⟩ t⟩)
    (fun a => match a with | ⟨0, _⟩ => by show 40000 * 7 + t.val = 280000 + t.val; omega)

/-- Word t of chunk 8's destination table is the launch destination array's word 40000 · 7 + t. -/
theorem tbl8_dst (t : Fin 40000) :
    (tbl8 (F := Ideal) m 1 : IVec S40000 32) (ValueIdx.ix1 t)
      = (m (((0 : Dev nD) : Thread nD τ).loc main_arg2) : IVec S800000 32) (ValueIdx.ix1 ⟨40000 * 7 + t.val, Cert.Spec.chunk_lt ⟨7, by norm_num⟩ t⟩) := by
  show extractStridedSlice S40000 ![280000] (m (((0 : Dev nD) : Thread nD τ).loc main_arg2) : IVec S800000 32) slices_S800000_S40000_280000 (ValueIdx.ix1 t) = _
  exact extractStridedSlice_apply (s := S800000) (t := S40000) ![280000] _ slices_S800000_S40000_280000 (ValueIdx.ix1 t) (ValueIdx.ix1 ⟨40000 * 7 + t.val, Cert.Spec.chunk_lt ⟨7, by norm_num⟩ t⟩)
    (fun a => match a with | ⟨0, _⟩ => by show 40000 * 7 + t.val = 280000 + t.val; omega)

/-- Gather call 8's output array in terms of the launch arrays: row t, lane l is lane l of edge 40000 · 7 + t's row.
    The call adds, at row t, the rows of the two re-laid projections that the tables' words t name, and scales the sum;
    the re-laid projections, untouched since host stretch 1 wrote them, hold at each row the projected features of that
    node, and the tables' words t are the endpoint arrays' words 40000 · 7 + t. -/
theorem piece8 (c : Dev nD) (t : Fin 40000) (l : Fin 128) :
    (W17 (F := Ideal) m hR c main_v35 : FVec Ideal S40000x1x128 .f32) (ValueIdx.ix3 t (0 : Fin 1) l)
      = Cert.Spec.edgeRow (m ((c : Thread nD τ).loc main_arg0)) (m ((c : Thread nD τ).loc main_arg1)) (m ((c : Thread nD τ).loc main_arg2))
          (m ((c : Thread nD τ).loc main_arg3)) (m ((c : Thread nD τ).loc main_arg4))
          ⟨40000 * 7 + t.val, Cert.Spec.chunk_lt ⟨7, by norm_num⟩ t⟩ l := by
  obtain rfl : c = 0 := Subsingleton.elim _ _
  refine (congrFun (W17_arr (F := Ideal) m hR 0 2) _).trans ?_
  refine (gather_out8 (V16 (F := Ideal) m hR) (a8 (F := Ideal) m hR) 0 t l).trans ?_
  have e1 : (W16 (F := Ideal) m hR 0 main_v2 : FVec Ideal S50000x1x128 .f32)
        (ValueIdx.ix3 (Cert.Spec.node ((tbl8 (F := Ideal) m 0 : IVec S40000 32) (ValueIdx.ix1 t))) (0 : Fin 1) l)
      = Cert.Spec.proj (m (((0 : Dev nD) : Thread nD τ).loc main_arg0)) (m (((0 : Dev nD) : Thread nD τ).loc main_arg3))
          ⟨l.val / 64, Cert.Spec.lane_div l⟩
          (Cert.Spec.node ((m (((0 : Dev nD) : Thread nD τ).loc main_arg1) : IVec S800000 32) (ValueIdx.ix1 ⟨40000 * 7 + t.val, Cert.Spec.chunk_lt ⟨7, by norm_num⟩ t⟩)))
          ⟨l.val % 64, Cert.Spec.lane_mod l⟩ := by
    rw [tbl8_src m t]
    exact (congrFun (W16_v2 (F := Ideal) m hR 0) _).trans (hs2_apply m hR 0 _ l)
  have e2 : (W16 (F := Ideal) m hR 0 main_v4 : FVec Ideal S50000x1x128 .f32)
        (ValueIdx.ix3 (Cert.Spec.node ((tbl8 (F := Ideal) m 1 : IVec S40000 32) (ValueIdx.ix1 t))) (0 : Fin 1) l)
      = Cert.Spec.proj (m (((0 : Dev nD) : Thread nD τ).loc main_arg0)) (m (((0 : Dev nD) : Thread nD τ).loc main_arg4))
          ⟨l.val / 64, Cert.Spec.lane_div l⟩
          (Cert.Spec.node ((m (((0 : Dev nD) : Thread nD τ).loc main_arg2) : IVec S800000 32) (ValueIdx.ix1 ⟨40000 * 7 + t.val, Cert.Spec.chunk_lt ⟨7, by norm_num⟩ t⟩)))
          ⟨l.val % 64, Cert.Spec.lane_mod l⟩ := by
    rw [tbl8_dst m t]
    exact (congrFun (W16_v4 (F := Ideal) m hR 0) _).trans (hd2_apply m hR 0 _ l)
  exact congrArg₂ (fun a b : EReal => (a + b) * Cert.Spec.scale) e1 e2

end Piece8

end Cert.KernelIdeal.Hand

end
-- ==== Proof.KI.FPiece8.lean ====
/-
  Chunk 8's rows as the last host stretch finds them. Host stretch 9 reshapes gather call 8's output
  [40000, 1, 128] to [40000, 128]; nothing touches that buffer until the last stretch concatenates the twenty pieces.
  With the call's output read as the rows of the specification, the piece is the specification's chunk number 7.
-/
import proofs.«413139_j22651657519351_3_alg».proof.Proof.Gen.KernelIdeal.Launch
import proofs.«413139_j22651657519351_3_alg».proof.Proof.Gen.KernelIdeal.Skeleton
import proofs.«413139_j22651657519351_3_alg».proof.Proof.Gen.KernelIdeal.Points
import proofs.«413139_j22651657519351_3_alg».proof.Proof.KI.Walk
import proofs.«413139_j22651657519351_3_alg».proof.Proof.KI.Piece8
import proofs.«413139_j22651657519351_3_alg».proof.Proof.Layout
import proofs.«413139_j22651657519351_3_alg».proof.Proof.SpecRows
import Idealize.ShloMosaic.Lib.StableHlo.Run
import Idealize.ShloMosaic.Lib.ValueIdx
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section FPiece

variable (m : (ℓ : Loc nD τ sig) → Buf (Elt Ideal) ℓ) (hR : InRange m)

theorem fpiece8 (c : Dev nD) :
    (W41 (F := Ideal) m hR c main_v36 : FVec Ideal S40000x128 .f32)
      = Cert.Spec.chunk (m ((c : Thread nD τ).loc main_arg0)) (m ((c : Thread nD τ).loc main_arg1)) (m ((c : Thread nD τ).loc main_arg2))
          (m ((c : Thread nD τ).loc main_arg3)) (m ((c : Thread nD τ).loc main_arg4)) (7 : Fin 20) := by
  funext i
  obtain ⟨t, l, rfl⟩ : ∃ (t : Fin 40000) (l : Fin 128), i = ValueIdx.ix2 t l := ⟨i 0, i 1, ValueIdx.eq_ix2 i⟩
  rw [W41_p8 m hR c]
  show StableHlo.after hostOps9 (W17 (F := Ideal) m hR c) (Proc.devRef .tc main_v36) (ValueIdx.ix2 t l) = _
  after_results
  refine (Cert.Layout.piece_apply _ _ t l).trans ?_
  exact piece8 m hR c t l

end FPiece

end Cert.KernelIdeal.Hand

end
-- ==== Proof.KI.GatherValue9.lean ====
/-
  Edge chunk 1's gather kernel: what it leaves in its output array, entry by entry, at the ideal (extended-real)
  instance, for any contents V of the buffers at the region's entry and any admissible contents of the two index tables.

  At grid point t the two gathered windows hold row (word t of table 0) of the first source array and row (word t of
  table 1) of the second: the block index of a gathered window is (that word read unsigned, 0, 0), the block is one
  row of 128 lanes, and admissibility of the tables says the word is below the 50000 rows. The body stores
  (row + row) · c into the output block, and the output window's block index is (t, 0, 0): block t is row t of the
  output array, every point writes its block back, and the blocks of the 40000 points cover the array. So the array
  ends holding, at (t, 0, l), the sum of the two named rows' entries at lane l, times c.
-/
import proofs.«413139_j22651657519351_3_alg».proof.Proof.KI.Region9
import proofs.«413139_j22651657519351_3_alg».proof.Proof.Spec
import Idealize.ShloMosaic.Lib.Pipeline.Value
import Idealize.ShloMosaic.Lib.ValueIdx
import Idealize.ShloMosaic.Lib.ValueLayout

set_option maxRecDepth 16384

noncomputable section

namespace Cert.KernelIdeal.Hand

open Cert.KernelIdeal Cert.KernelIdeal.Gen
open Idealize.ShloMosaic Idealize.ShloMosaic.TcCoe
open Idealize.SL.Sem
open Idealize.ShloMosaic.Pipeline (Dat Cfg Window)

section GatherValue
variable (V : (c : Dev nD) → (b : Ref sig .tc) → Buf (Elt Ideal) ((c : Thread nD τ).loc b))
variable (a : (pcfg9 (F := Ideal)).Adm)

/-- The grid has 40000 points, one axis. -/
theorem npts9 : (cfg9 a).N = 40000 := N_9

/-- The one coordinate of point t is t. -/
theorem coord9 (t : Fin (cfg9 a).N) : (((cfg9 a).grid.coords t) 0).val = t.val := by
  show t.val / (cfg9 a).grid.stride 0 % 40000 = t.val
  have hs : (cfg9 a).grid.stride 0 = 1 := rfl
  rw [hs]
  have := t.isLt
  have e : (cfg9 a).N = 40000 := rfl
  omega

/-- A grid coordinate, as the 32-bit word the index maps receive and back, is itself. -/
theorem wordCoord9 (n : Nat) (h : n < 40000) : (Scalar.indexCast (BitVec.ofNat 32 n)).toNat = n := by
  show (BitVec.ofNat 32 n).toNat = n
  rw [BitVec.toNat_ofNat]
  exact Nat.mod_eq_of_lt (by omega)

set_option maxHeartbeats 100000 in
/-- Output window: the block index at point t is (t, 0, 0). -/
theorem index9_2 (t : Fin (cfg9 a).N) : ((cfg9 a).win 2).index t = ![t.val, 0, 0] := by
  show cc9_transform_2 ((cfg9 a).grid.coords t) = _
  unfold cc9_transform_2
  dsimp only
  have h := coord9 a t
  have hl : t.val < 40000 := t.isLt
  funext d
  match d with
  | ⟨0, _⟩ => show (BitVec.ofNat 32 (((cfg9 a).grid.coords t) 0).val).toNat = t.val; rw [h]; exact wordCoord9 _ hl
  | ⟨1, _⟩ => rfl
  | ⟨2, _⟩ => rfl

set_option maxHeartbeats 100000 in
/-- Gathered window 0: the block index at point t is (word t of table 0, 0, 0). -/
theorem index9_0 (t : Fin (cfg9 a).N) :
    ((cfg9 a).win 0).index t = ![((a.1 0 (ValueIdx.ix1 (n := 40000) ⟨t.val, t.isLt⟩) : BitVec 32)).toNat, 0, 0] := by
  show cc9_transform_0 k9_off1_inb numel1_S1 a.1 ((cfg9 a).grid.coords t) = _
  unfold cc9_transform_0
  dsimp only
  have h := coord9 a t
  have hl : t.val < 40000 := t.isLt
  funext d
  match d with
  | ⟨0, _⟩ =>
    show ((a.1 0 _ : BitVec 32)).toNat = ((a.1 0 _ : BitVec 32)).toNat
    refine congrArg (fun j => ((a.1 0 j : BitVec 32)).toNat) ?_
    funext k
    match k with
    | ⟨0, _⟩ =>
      apply Fin.ext
      show (Scalar.indexCast (BitVec.ofNat 32 (((cfg9 a).grid.coords t) 0).val)).toNat + 1 * 0 = t.val
      rw [h, wordCoord9 _ hl]; omega
  | ⟨1, _⟩ => rfl
  | ⟨2, _⟩ => rfl

set_option maxHeartbeats 100000 in
/-- Gathered window 1: the block index at point t is (word t of table 1, 0, 0). -/
theorem index9_1 (t : Fin (cfg9 a).N) :
    ((cfg9 a).win 1).index t = ![((a.1 1 (ValueIdx.ix1 (n := 40000) ⟨t.val, t.isLt⟩) : BitVec 32)).toNat, 0, 0] := by
  show cc9_transform_1 k9_off1_inb numel1_S1 a.1 ((cfg9 a).grid.coords t) = _
  unfold cc9_transform_1
  dsimp only
  have h := coord9 a t
  have hl : t.val < 40000 := t.isLt
  funext d
  match d with
  | ⟨0, _⟩ =>
    show ((a.1 1 _ : BitVec 32)).toNat = ((a.1 1 _ : BitVec 32)).toNat
    refine congrArg (fun j => ((a.1 1 j : BitVec 32)).toNat) ?_
    funext k
    match k with
    | ⟨0, _⟩ =>
      apply Fin.ext
      show (Scalar.indexCast (BitVec.ofNat 32 (((cfg9 a).grid.coords t) 0).val)).toNat + 1 * 0 = t.val
      rw [h, wordCoord9 _ hl]; omega
  | ⟨1, _⟩ => rfl
  | ⟨2, _⟩ => rfl

theorem zeros9 : (![0, 0, 0] : Fin 3 → Nat) = fun _ => 0 := funext fun d => by fin_cases d <;> rfl

/-- The arithmetic of one entry: add, then scale. -/
abbrev comb9 (u v : EReal) : EReal := (u + v) * Cert.Spec.scale

/-- The body's payload at an index: the sum of the two loaded rows' entries there, times the scale. -/
theorem pay9_apply (x0 x2 : S1x1x128.Idx → EReal) (y : S1x1x128.Idx) :
    (k9_pay1 (F := Ideal) x0 x2 : S1x1x128.Idx → EReal) y = (x0 y + x2 y) * Cert.Spec.scale := by
  unfold k9_pay1
  rw [shapeCast_self, shapeCast_self]
  rfl

/-- The same with the two rows loaded through the whole-block rectangle. -/
theorem pay9_ld_apply (x0 x2 : Vec Ideal S1x1x128 .f32) (y : S1x1x128.Idx) :
    (k9_pay1 (F := Ideal) (View.ld x0 r9) (View.ld x2 r9) : S1x1x128.Idx → EReal) y = comb9 (x0 y) (x2 y) := by
  have hA : View.ld x0 r9 = x0 := View.ld_unit_zero (Val := Elt Ideal) (S := S1x1x128) (e := .f32) zeros9 _ x0
  have hB : View.ld x2 r9 = x2 := View.ld_unit_zero (Val := Elt Ideal) (S := S1x1x128) (e := .f32) zeros9 _ x2
  rw [hA, hB]
  exact pay9_apply x0 x2 y

/-- The word of table 0 at point t is a row of the 50000-row array. -/
theorem word9_0_lt (t : Fin (cfg9 a).N) : ((a.1 0 (ValueIdx.ix1 (n := 40000) ⟨t.val, t.isLt⟩) : BitVec 32)).toNat < 50000 := by
  obtain ⟨h, -⟩ := a.2.1 ((cfg9 a).grid.coords t)
  have h0 : (((cfg9 a).win 0).index t (0 : Fin 3) + 1) * 1 ≤ 50000 := h 0
  have e0 : ((cfg9 a).win 0).index t (0 : Fin 3) = ((a.1 0 (ValueIdx.ix1 (n := 40000) ⟨t.val, t.isLt⟩) : BitVec 32)).toNat := congrFun (index9_0 a t) (0 : Fin 3)
  rw [e0] at h0
  omega

/-- The word of table 1 at point t is a row of the 50000-row array. -/
theorem word9_1_lt (t : Fin (cfg9 a).N) : ((a.1 1 (ValueIdx.ix1 (n := 40000) ⟨t.val, t.isLt⟩) : BitVec 32)).toNat < 50000 := by
  obtain ⟨h, -⟩ := a.2.2 ((cfg9 a).grid.coords t)
  have h0 : (((cfg9 a).win 1).index t (0 : Fin 3) + 1) * 1 ≤ 50000 := h 0
  have e0 : ((cfg9 a).win 1).index t (0 : Fin 3) = ((a.1 1 (ValueIdx.ix1 (n := 40000) ⟨t.val, t.isLt⟩) : BitVec 32)).toNat := congrFun (index9_1 a t) (0 : Fin 3)
  rw [e0] at h0
  omega

/-- The two source arrays, as functions to the extended reals. -/
abbrev srcRows9 (c : Dev nD) : S50000x1x128.Idx → EReal := V c main_v2
abbrev dstRows9 (c : Dev nD) : S50000x1x128.Idx → EReal := V c main_v4

set_option maxHeartbeats 100000 in
/-- Window 0's block at point t is the row of the first source array that table 0's word t names. -/
theorem iblk9_0_apply (c : Dev nD) (t : Fin (cfg9 a).N) (y : (((cfg9 a).win 0).xblock ((cfg9 a).grid.coords t)).Idx)
    (l : Fin 128) (hl : (y (2 : Fin 3)).val = l.val) :
    (iblk9 V a c 0 t y : EReal)
      = srcRows9 V c (ValueIdx.ix3 (Cert.Spec.node (a.1 0 (ValueIdx.ix1 (n := 40000) ⟨t.val, t.isLt⟩))) (0 : Fin 1) l) := by
  have hw := word9_0_lt a t
  have e0 : ((cfg9 a).win 0).index t (0 : Fin 3) = ((a.1 0 (ValueIdx.ix1 (n := 40000) ⟨t.val, t.isLt⟩) : BitVec 32)).toNat := congrFun (index9_0 a t) (0 : Fin 3)
  have eM : ((cfg9 a).win 0).index t (1 : Fin 3) = 0 := congrFun (index9_0 a t) (1 : Fin 3)
  have e2 : ((cfg9 a).win 0).index t (2 : Fin 3) = 0 := congrFun (index9_0 a t) (2 : Fin 3)
  show V c main_v2 ((((cfg9 a).win 0).blk t).view.emb y) = V c main_v2 _
  refine congrArg (V c main_v2) ?_
  funext d
  apply Fin.ext
  match d with
  | ⟨0, _⟩ =>
    show ((cfg9 a).win 0).index t (0 : Fin 3) * 1 + 1 * (y (0 : Fin 3)).val = (Cert.Spec.node _).val
    have hy : (y (0 : Fin 3)).val < 1 := (y (0 : Fin 3)).isLt
    rw [e0, Cert.Spec.node_val hw]; omega
  | ⟨1, _⟩ =>
    show ((cfg9 a).win 0).index t (1 : Fin 3) * 1 + 1 * (y (1 : Fin 3)).val = 0
    have hy : (y (1 : Fin 3)).val < 1 := (y (1 : Fin 3)).isLt
    rw [eM]; omega
  | ⟨2, _⟩ =>
    show ((cfg9 a).win 0).index t (2 : Fin 3) * 128 + 1 * (y (2 : Fin 3)).val = l.val
    rw [e2, hl]; omega

set_option maxHeartbeats 100000 in
/-- Window 1's block at point t is the row of the second source array that table 1's word t names. -/
theorem iblk9_1_apply (c : Dev nD) (t : Fin (cfg9 a).N) (y : (((cfg9 a).win 1).xblock ((cfg9 a).grid.coords t)).Idx)
    (l : Fin 128) (hl : (y (2 : Fin 3)).val = l.val) :
    (iblk9 V a c 1 t y : EReal)
      = dstRows9 V c (ValueIdx.ix3 (Cert.Spec.node (a.1 1 (ValueIdx.ix1 (n := 40000) ⟨t.val, t.isLt⟩))) (0 : Fin 1) l) := by
  have hw := word9_1_lt a t
  have e0 : ((cfg9 a).win 1).index t (0 : Fin 3) = ((a.1 1 (ValueIdx.ix1 (n := 40000) ⟨t.val, t.isLt⟩) : BitVec 32)).toNat := congrFun (index9_1 a t) (0 : Fin 3)
  have eM : ((cfg9 a).win 1).index t (1 : Fin 3) = 0 := congrFun (index9_1 a t) (1 : Fin 3)
  have e2 : ((cfg9 a).win 1).index t (2 : Fin 3) = 0 := congrFun (index9_1 a t) (2 : Fin 3)
  show V c main_v4 ((((cfg9 a).win 1).blk t).view.emb y) = V c main_v4 _
  refine congrArg (V c main_v4) ?_
  funext d
  apply Fin.ext
  match d with
  | ⟨0, _⟩ =>
    show ((cfg9 a).win 1).index t (0 : Fin 3) * 1 + 1 * (y (0 : Fin 3)).val = (Cert.Spec.node _).val
    have hy : (y (0 : Fin 3)).val < 1 := (y (0 : Fin 3)).isLt
    rw [e0, Cert.Spec.node_val hw]; omega
  | ⟨1, _⟩ =>
    show ((cfg9 a).win 1).index t (1 : Fin 3) * 1 + 1 * (y (1 : Fin 3)).val = 0
    have hy : (y (1 : Fin 3)).val < 1 := (y (1 : Fin 3)).isLt
    rw [eM]; omega
  | ⟨2, _⟩ =>
    show ((cfg9 a).win 1).index t (2 : Fin 3) * 128 + 1 * (y (2 : Fin 3)).val = l.val
    rw [e2, hl]; omega

/-- Entry (t, l) of what the call leaves: the two gathered rows' entries at lane l, added and scaled. -/
def row9 (c : Dev nD) (t : Fin 40000) (l : Fin 128) : EReal :=
  comb9 (srcRows9 V c (ValueIdx.ix3 (Cert.Spec.node (a.1 0 (ValueIdx.ix1 t))) (0 : Fin 1) l))
    (dstRows9 V c (ValueIdx.ix3 (Cert.Spec.node (a.1 1 (ValueIdx.ix1 t))) (0 : Fin 1) l))

/-- The whole output array as one function of its index. -/
def gath9 (c : Dev nD) : S40000x1x128.Idx → EReal :=
  fun i => row9 V a c ⟨(i (0 : Fin 3)).val, (i (0 : Fin 3)).isLt⟩ ⟨(i (2 : Fin 3)).val, (i (2 : Fin 3)).isLt⟩

set_option maxHeartbeats 200000 in
/-- What point t writes back is block t of that function. -/
theorem flushed9_eq (c : Dev nD) (t : Fin (cfg9 a).N) :
    (dat9 (F := Ideal) V a c).flushed 2 t = (((cfg9 a).win 2).blk t).view.read (Elt Ideal) (gath9 V a c) := by
  show ((cfg9 a).win 2).cut ((cfg9 a).grid.coords t) ((dat9 V a c).after 2 t) = _
  rw [after9_2]
  unfold out9_2
  rw [View.canon_unit_zero zeros9]
  funext j
  have e0 : ((cfg9 a).win 2).index t (0 : Fin 3) = t.val := congrFun (index9_2 a t) (0 : Fin 3)
  have e2 : ((cfg9 a).win 2).index t (2 : Fin 3) = 0 := congrFun (index9_2 a t) (2 : Fin 3)
  have hj0 : (j (0 : Fin 3)).val < 1 := (j (0 : Fin 3)).isLt
  show (k9_pay1 (F := Ideal) (View.ld (iblk9 V a c 0 t) r9) (View.ld (iblk9 V a c 1 t) r9) : S1x1x128.Idx → EReal) (((cfg9 a).win 2).xinj ((cfg9 a).grid.coords t) j)
      = gath9 V a c ((((cfg9 a).win 2).blk t).view.emb j)
  refine (pay9_ld_apply (iblk9 V a c 0 t) (iblk9 V a c 1 t) (((cfg9 a).win 2).xinj ((cfg9 a).grid.coords t) j)).trans ?_
  have hT : (⟨t.val, t.isLt⟩ : Fin 40000) = ⟨((((cfg9 a).win 2).blk t).view.emb j (0 : Fin 3)).val, ((((cfg9 a).win 2).blk t).view.emb j (0 : Fin 3)).isLt⟩ :=
    Fin.ext (by
      show t.val = ((cfg9 a).win 2).index t (0 : Fin 3) * 1 + 1 * (j (0 : Fin 3)).val
      rw [e0]; omega)
  have hL : (⟨(j (2 : Fin 3)).val, (j (2 : Fin 3)).isLt⟩ : Fin 128) = ⟨((((cfg9 a).win 2).blk t).view.emb j (2 : Fin 3)).val, ((((cfg9 a).win 2).blk t).view.emb j (2 : Fin 3)).isLt⟩ :=
    Fin.ext (by
      show (j (2 : Fin 3)).val = ((cfg9 a).win 2).index t (2 : Fin 3) * 128 + 1 * (j (2 : Fin 3)).val
      rw [e2]; omega)
  refine Eq.trans ?_ (congrArg₂ (row9 V a c) hT hL)
  unfold row9
  exact congrArg₂ comb9 (iblk9_0_apply V a c t _ _ rfl) (iblk9_1_apply V a c t _ _ rfl)

set_option maxHeartbeats 100000 in
/-- The output window is written back at every point: the next point's block is another row. -/
theorem flush9_2 (t : Fin (cfg9 a).N) : ((cfg9 a).win 2).flush t = true := by
  unfold Window.flush
  rw [Bool.and_eq_true, Bool.or_eq_true, decide_eq_true_eq, decide_eq_true_eq]
  refine ⟨rfl, ?_⟩
  by_cases h : t.val + 1 < (cfg9 a).grid.N
  · refine Or.inr ⟨h, fun e => ?_⟩
    have e0 := congrFun e (0 : Fin 3)
    have eA : ((cfg9 a).win 2).index ⟨t.val + 1, h⟩ (0 : Fin 3) = t.val + 1 := congrFun (index9_2 a ⟨t.val + 1, h⟩) (0 : Fin 3)
    have eB : ((cfg9 a).win 2).index t (0 : Fin 3) = t.val := congrFun (index9_2 a t) (0 : Fin 3)
    rw [eA, eB] at e0
    omega
  · refine Or.inl ?_
    have hlt : t.val < (cfg9 a).grid.N := t.isLt
    omega

set_option maxHeartbeats 100000 in
/-- Every entry of the output array lies in the block of the point its row names. -/
theorem cover9 (i : S40000x1x128.Idx) :
    ∃ t : Fin (cfg9 a).N, ((cfg9 a).win 2).flush t = true ∧ i ∈ (((cfg9 a).win 2).blk t).view.set := by
  have hlt : (i (0 : Fin 3)).val < (cfg9 a).N := by rw [npts9]; exact (i (0 : Fin 3)).isLt
  obtain ⟨t, ht⟩ : ∃ t : Fin (cfg9 a).N, t.val = (i (0 : Fin 3)).val := ⟨⟨_, hlt⟩, rfl⟩
  refine ⟨t, flush9_2 a t, ?_⟩
  have hset := View.set_slice_whole main_v39 (((cfg9 a).win 2).rect t)
  refine (Eq.mpr (congrArg (fun S => i ∈ S) hset) ?_ : i ∈ ((View.whole main_v39).slice (((cfg9 a).win 2).rect t)).set)
  refine Rect.mem_set_unit.mpr (fun d => ?_)
  have e0 : ((cfg9 a).win 2).index t (0 : Fin 3) = t.val := congrFun (index9_2 a t) (0 : Fin 3)
  have eB : ((cfg9 a).win 2).index t (1 : Fin 3) = 0 := congrFun (index9_2 a t) (1 : Fin 3)
  have e2 : ((cfg9 a).win 2).index t (2 : Fin 3) = 0 := congrFun (index9_2 a t) (2 : Fin 3)
  match d with
  | ⟨0, _⟩ =>
    show ((cfg9 a).win 2).index t (0 : Fin 3) * 1 ≤ (i (0 : Fin 3)).val
      ∧ (i (0 : Fin 3)).val < ((cfg9 a).win 2).index t (0 : Fin 3) * 1 + 1
    rw [e0]; omega
  | ⟨1, _⟩ =>
    have hi : (i (1 : Fin 3)).val < 1 := (i (1 : Fin 3)).isLt
    show ((cfg9 a).win 2).index t (1 : Fin 3) * 1 ≤ (i (1 : Fin 3)).val
      ∧ (i (1 : Fin 3)).val < ((cfg9 a).win 2).index t (1 : Fin 3) * 1 + 1
    rw [eB]; omega
  | ⟨2, _⟩ =>
    have hi : (i (2 : Fin 3)).val < 128 := (i (2 : Fin 3)).isLt
    show ((cfg9 a).win 2).index t (2 : Fin 3) * 128 ≤ (i (2 : Fin 3)).val
      ∧ (i (2 : Fin 3)).val < ((cfg9 a).win 2).index t (2 : Fin 3) * 128 + 128
    rw [e2]; omega

/-- So the output array ends holding that function. -/
theorem final9 (c : Dev nD) : (dat9 (F := Ideal) V a c).arrAt 2 (cfg9 a).N = gath9 V a c :=
  (dat9 (F := Ideal) V a c).arrAt_eq_of_cover 2 (gath9 V a c) (fun t _ => flushed9_eq V a c t) (cover9 a)

/-- What gather call 1 leaves in its output array, entry by entry: the two rows its tables name, added and scaled. -/
theorem gather_out9 (c : Dev nD) (t : Fin 40000) (l : Fin 128) :
    ((dat9 (F := Ideal) V a c).arrAt 2 (cfg9 a).N : FVec Ideal S40000x1x128 .f32) (ValueIdx.ix3 t (0 : Fin 1) l)
      = (srcRows9 V c (ValueIdx.ix3 (Cert.Spec.node (a.1 0 (ValueIdx.ix1 t))) (0 : Fin 1) l)
        + dstRows9 V c (ValueIdx.ix3 (Cert.Spec.node (a.1 1 (ValueIdx.ix1 t))) (0 : Fin 1) l)) * Cert.Spec.scale :=
  congrFun (final9 V a c) (ValueIdx.ix3 t (0 : Fin 1) l)
end GatherValue

end Cert.KernelIdeal.Hand

end
-- ==== Proof.KI.Piece9.lean ====
/-
  Gather call 9's output array in terms of the launch arrays.

  Gather call 9 walks its 40000 grid points; at point t it reads row (word t of its source table) of the re-laid source
  projection and row (word t of its destination table) of the re-laid destination projection, adds them lane by lane and
  multiplies by the constant, into row t of its output. Its tables are the slices of the launch endpoint arrays from
  word 320000 on, so word t of a table is the endpoint array's word 40000 · 8 + t, and a re-laid projection's row n, lane l
  is the projected feature (batch l / 64, node n, feature l % 64). So row t, lane l of the output is lane l of the
  specification's row for edge 40000 · 8 + t.
-/
import proofs.«413139_j22651657519351_3_alg».proof.Proof.KI.Fold
import proofs.«413139_j22651657519351_3_alg».proof.Proof.KI.Walk
import proofs.«413139_j22651657519351_3_alg».proof.Proof.KI.Hs2
import proofs.«413139_j22651657519351_3_alg».proof.Proof.KI.GatherValue9
import proofs.«413139_j22651657519351_3_alg».proof.Proof.SpecRows
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe
open Idealize.SL.Sem

section Piece9

variable (m : (ℓ : Loc nD τ sig) → Buf (Elt Ideal) ℓ) (hR : InRange m)

/-- Word t of chunk 9's source table is the launch source array's word 40000 · 8 + t: the table is the slice of the
    array from word 320000 on. -/
theorem tbl9_src (t : Fin 40000) :
    (tbl9 (F := Ideal) m 0 : IVec S40000 32) (ValueIdx.ix1 t)
      = (m (((0 : Dev nD) : Thread nD τ).loc main_arg1) : IVec S800000 32) (ValueIdx.ix1 ⟨40000 * 8 + t.val, Cert.Spec.chunk_lt ⟨8, by norm_num⟩ t⟩) := by
  show extractStridedSlice S40000 ![320000] (m (((0 : Dev nD) : Thread nD τ).loc main_arg1) : IVec S800000 32) slices_S800000_S40000_320000 (ValueIdx.ix1 t) = _
  exact extractStridedSlice_apply (s := S800000) (t := S40000) ![320000] _ slices_S800000_S40000_320000 (ValueIdx.ix1 t) (ValueIdx.ix1 ⟨40000 * 8 + t.val, Cert.Spec.chunk_lt ⟨8, by norm_num⟩ t⟩)
    (fun a => match a with | ⟨0, _⟩ => by show 40000 * 8 + t.val = 320000 + t.val; omega)

/-- Word t of chunk 9's destination table is the launch destination array's word 40000 · 8 + t. -/
theorem tbl9_dst (t : Fin 40000) :
    (tbl9 (F := Ideal) m 1 : IVec S40000 32) (ValueIdx.ix1 t)
      = (m (((0 : Dev nD) : Thread nD τ).loc main_arg2) : IVec S800000 32) (ValueIdx.ix1 ⟨40000 * 8 + t.val, Cert.Spec.chunk_lt ⟨8, by norm_num⟩ t⟩) := by
  show extractStridedSlice S40000 ![320000] (m (((0 : Dev nD) : Thread nD τ).loc main_arg2) : IVec S800000 32) slices_S800000_S40000_320000 (ValueIdx.ix1 t) = _
  exact extractStridedSlice_apply (s := S800000) (t := S40000) ![320000] _ slices_S800000_S40000_320000 (ValueIdx.ix1 t) (ValueIdx.ix1 ⟨40000 * 8 + t.val, Cert.Spec.chunk_lt ⟨8, by norm_num⟩ t⟩)
    (fun a => match a with | ⟨0, _⟩ => by show 40000 * 8 + t.val = 320000 + t.val; omega)

/-- Gather call 9's output array in terms of the launch arrays: row t, lane l is lane l of edge 40000 · 8 + t's row.
    The call adds, at row t, the rows of the two re-laid projections that the tables' words t name, and scales the sum;
    the re-laid projections, untouched since host stretch 1 wrote them, hold at each row the projected features of that
    node, and the tables' words t are the endpoint arrays' words 40000 · 8 + t. -/
theorem piece9 (c : Dev nD) (t : Fin 40000) (l : Fin 128) :
    (W19 (F := Ideal) m hR c main_v39 : FVec Ideal S40000x1x128 .f32) (ValueIdx.ix3 t (0 : Fin 1) l)
      = Cert.Spec.edgeRow (m ((c : Thread nD τ).loc main_arg0)) (m ((c : Thread nD τ).loc main_arg1)) (m ((c : Thread nD τ).loc main_arg2))
          (m ((c : Thread nD τ).loc main_arg3)) (m ((c : Thread nD τ).loc main_arg4))
          ⟨40000 * 8 + t.val, Cert.Spec.chunk_lt ⟨8, by norm_num⟩ t⟩ l := by
  obtain rfl : c = 0 := Subsingleton.elim _ _
  refine (congrFun (W19_arr (F := Ideal) m hR 0 2) _).trans ?_
  refine (gather_out9 (V18 (F := Ideal) m hR) (a9 (F := Ideal) m hR) 0 t l).trans ?_
  have e1 : (W18 (F := Ideal) m hR 0 main_v2 : FVec Ideal S50000x1x128 .f32)
        (ValueIdx.ix3 (Cert.Spec.node ((tbl9 (F := Ideal) m 0 : IVec S40000 32) (ValueIdx.ix1 t))) (0 : Fin 1) l)
      = Cert.Spec.proj (m (((0 : Dev nD) : Thread nD τ).loc main_arg0)) (m (((0 : Dev nD) : Thread nD τ).loc main_arg3))
          ⟨l.val / 64, Cert.Spec.lane_div l⟩
          (Cert.Spec.node ((m (((0 : Dev nD) : Thread nD τ).loc main_arg1) : IVec S800000 32) (ValueIdx.ix1 ⟨40000 * 8 + t.val, Cert.Spec.chunk_lt ⟨8, by norm_num⟩ t⟩)))
          ⟨l.val % 64, Cert.Spec.lane_mod l⟩ := by
    rw [tbl9_src m t]
    exact (congrFun (W18_v2 (F := Ideal) m hR 0) _).trans (hs2_apply m hR 0 _ l)
  have e2 : (W18 (F := Ideal) m hR 0 main_v4 : FVec Ideal S50000x1x128 .f32)
        (ValueIdx.ix3 (Cert.Spec.node ((tbl9 (F := Ideal) m 1 : IVec S40000 32) (ValueIdx.ix1 t))) (0 : Fin 1) l)
      = Cert.Spec.proj (m (((0 : Dev nD) : Thread nD τ).loc main_arg0)) (m (((0 : Dev nD) : Thread nD τ).loc main_arg4))
          ⟨l.val / 64, Cert.Spec.lane_div l⟩
          (Cert.Spec.node ((m (((0 : Dev nD) : Thread nD τ).loc main_arg2) : IVec S800000 32) (ValueIdx.ix1 ⟨40000 * 8 + t.val, Cert.Spec.chunk_lt ⟨8, by norm_num⟩ t⟩)))
          ⟨l.val % 64, Cert.Spec.lane_mod l⟩ := by
    rw [tbl9_dst m t]
    exact (congrFun (W18_v4 (F := Ideal) m hR 0) _).trans (hd2_apply m hR 0 _ l)
  exact congrArg₂ (fun a b : EReal => (a + b) * Cert.Spec.scale) e1 e2

end Piece9

end Cert.KernelIdeal.Hand

end
-- ==== Proof.KI.FPiece9.lean ====
/-
  Chunk 9's rows as the last host stretch finds them. Host stretch 10 reshapes gather call 9's output
  [40000, 1, 128] to [40000, 128]; nothing touches that buffer until the last stretch concatenates the twenty pieces.
  With the call's output read as the rows of the specification, the piece is the specification's chunk number 8.
-/
import proofs.«413139_j22651657519351_3_alg».proof.Proof.Gen.KernelIdeal.Launch
import proofs.«413139_j22651657519351_3_alg».proof.Proof.Gen.KernelIdeal.Skeleton
import proofs.«413139_j22651657519351_3_alg».proof.Proof.Gen.KernelIdeal.Points
import proofs.«413139_j22651657519351_3_alg».proof.Proof.KI.Walk
import proofs.«413139_j22651657519351_3_alg».proof.Proof.KI.Piece9
import proofs.«413139_j22651657519351_3_alg».proof.Proof.Layout
import proofs.«413139_j22651657519351_3_alg».proof.Proof.SpecRows
import Idealize.ShloMosaic.Lib.StableHlo.Run
import Idealize.ShloMosaic.Lib.ValueIdx
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section FPiece

variable (m : (ℓ : Loc nD τ sig) → Buf (Elt Ideal) ℓ) (hR : InRange m)

theorem fpiece9 (c : Dev nD) :
    (W41 (F := Ideal) m hR c main_v40 : FVec Ideal S40000x128 .f32)
      = Cert.Spec.chunk (m ((c : Thread nD τ).loc main_arg0)) (m ((c : Thread nD τ).loc main_arg1)) (m ((c : Thread nD τ).loc main_arg2))
          (m ((c : Thread nD τ).loc main_arg3)) (m ((c : Thread nD τ).loc main_arg4)) (8 : Fin 20) := by
  funext i
  obtain ⟨t, l, rfl⟩ : ∃ (t : Fin 40000) (l : Fin 128), i = ValueIdx.ix2 t l := ⟨i 0, i 1, ValueIdx.eq_ix2 i⟩
  rw [W41_p9 m hR c]
  show StableHlo.after hostOps10 (W19 (F := Ideal) m hR c) (Proc.devRef .tc main_v40) (ValueIdx.ix2 t l) = _
  after_results
  refine (Cert.Layout.piece_apply _ _ t l).trans ?_
  exact piece9 m hR c t l

end FPiece

end Cert.KernelIdeal.Hand

end
-- ==== Proof.KI.GatherValue10.lean ====
/-
  Edge chunk 1's gather kernel: what it leaves in its output array, entry by entry, at the ideal (extended-real)
  instance, for any contents V of the buffers at the region's entry and any admissible contents of the two index tables.

  At grid point t the two gathered windows hold row (word t of table 0) of the first source array and row (word t of
  table 1) of the second: the block index of a gathered window is (that word read unsigned, 0, 0), the block is one
  row of 128 lanes, and admissibility of the tables says the word is below the 50000 rows. The body stores
  (row + row) · c into the output block, and the output window's block index is (t, 0, 0): block t is row t of the
  output array, every point writes its block back, and the blocks of the 40000 points cover the array. So the array
  ends holding, at (t, 0, l), the sum of the two named rows' entries at lane l, times c.
-/
import proofs.«413139_j22651657519351_3_alg».proof.Proof.KI.Region10
import proofs.«413139_j22651657519351_3_alg».proof.Proof.Spec
import Idealize.ShloMosaic.Lib.Pipeline.Value
import Idealize.ShloMosaic.Lib.ValueIdx
import Idealize.ShloMosaic.Lib.ValueLayout

set_option maxRecDepth 16384

noncomputable section

namespace Cert.KernelIdeal.Hand

open Cert.KernelIdeal Cert.KernelIdeal.Gen
open Idealize.ShloMosaic Idealize.ShloMosaic.TcCoe
open Idealize.SL.Sem
open Idealize.ShloMosaic.Pipeline (Dat Cfg Window)

section GatherValue
variable (V : (c : Dev nD) → (b : Ref sig .tc) → Buf (Elt Ideal) ((c : Thread nD τ).loc b))
variable (a : (pcfg10 (F := Ideal)).Adm)

/-- The grid has 40000 points, one axis. -/
theorem npts10 : (cfg10 a).N = 40000 := N_10

/-- The one coordinate of point t is t. -/
theorem coord10 (t : Fin (cfg10 a).N) : (((cfg10 a).grid.coords t) 0).val = t.val := by
  show t.val / (cfg10 a).grid.stride 0 % 40000 = t.val
  have hs : (cfg10 a).grid.stride 0 = 1 := rfl
  rw [hs]
  have := t.isLt
  have e : (cfg10 a).N = 40000 := rfl
  omega

/-- A grid coordinate, as the 32-bit word the index maps receive and back, is itself. -/
theorem wordCoord10 (n : Nat) (h : n < 40000) : (Scalar.indexCast (BitVec.ofNat 32 n)).toNat = n := by
  show (BitVec.ofNat 32 n).toNat = n
  rw [BitVec.toNat_ofNat]
  exact Nat.mod_eq_of_lt (by omega)

set_option maxHeartbeats 100000 in
/-- Output window: the block index at point t is (t, 0, 0). -/
theorem index10_2 (t : Fin (cfg10 a).N) : ((cfg10 a).win 2).index t = ![t.val, 0, 0] := by
  show cc10_transform_2 ((cfg10 a).grid.coords t) = _
  unfold cc10_transform_2
  dsimp only
  have h := coord10 a t
  have hl : t.val < 40000 := t.isLt
  funext d
  match d with
  | ⟨0, _⟩ => show (BitVec.ofNat 32 (((cfg10 a).grid.coords t) 0).val).toNat = t.val; rw [h]; exact wordCoord10 _ hl
  | ⟨1, _⟩ => rfl
  | ⟨2, _⟩ => rfl

set_option maxHeartbeats 100000 in
/-- Gathered window 0: the block index at point t is (word t of table 0, 0, 0). -/
theorem index10_0 (t : Fin (cfg10 a).N) :
    ((cfg10 a).win 0).index t = ![((a.1 0 (ValueIdx.ix1 (n := 40000) ⟨t.val, t.isLt⟩) : BitVec 32)).toNat, 0, 0] := by
  show cc10_transform_0 k10_off1_inb numel1_S1 a.1 ((cfg10 a).grid.coords t) = _
  unfold cc10_transform_0
  dsimp only
  have h := coord10 a t
  have hl : t.val < 40000 := t.isLt
  funext d
  match d with
  | ⟨0, _⟩ =>
    show ((a.1 0 _ : BitVec 32)).toNat = ((a.1 0 _ : BitVec 32)).toNat
    refine congrArg (fun j => ((a.1 0 j : BitVec 32)).toNat) ?_
    funext k
    match k with
    | ⟨0, _⟩ =>
      apply Fin.ext
      show (Scalar.indexCast (BitVec.ofNat 32 (((cfg10 a).grid.coords t) 0).val)).toNat + 1 * 0 = t.val
      rw [h, wordCoord10 _ hl]; omega
  | ⟨1, _⟩ => rfl
  | ⟨2, _⟩ => rfl

set_option maxHeartbeats 100000 in
/-- Gathered window 1: the block index at point t is (word t of table 1, 0, 0). -/
theorem index10_1 (t : Fin (cfg10 a).N) :
    ((cfg10 a).win 1).index t = ![((a.1 1 (ValueIdx.ix1 (n := 40000) ⟨t.val, t.isLt⟩) : BitVec 32)).toNat, 0, 0] := by
  show cc10_transform_1 k10_off1_inb numel1_S1 a.1 ((cfg10 a).grid.coords t) = _
  unfold cc10_transform_1
  dsimp only
  have h := coord10 a t
  have hl : t.val < 40000 := t.isLt
  funext d
  match d with
  | ⟨0, _⟩ =>
    show ((a.1 1 _ : BitVec 32)).toNat = ((a.1 1 _ : BitVec 32)).toNat
    refine congrArg (fun j => ((a.1 1 j : BitVec 32)).toNat) ?_
    funext k
    match k with
    | ⟨0, _⟩ =>
      apply Fin.ext
      show (Scalar.indexCast (BitVec.ofNat 32 (((cfg10 a).grid.coords t) 0).val)).toNat + 1 * 0 = t.val
      rw [h, wordCoord10 _ hl]; omega
  | ⟨1, _⟩ => rfl
  | ⟨2, _⟩ => rfl

theorem zeros10 : (![0, 0, 0] : Fin 3 → Nat) = fun _ => 0 := funext fun d => by fin_cases d <;> rfl

/-- The arithmetic of one entry: add, then scale. -/
abbrev comb10 (u v : EReal) : EReal := (u + v) * Cert.Spec.scale

/-- The body's payload at an index: the sum of the two loaded rows' entries there, times the scale. -/
theorem pay10_apply (x0 x2 : S1x1x128.Idx → EReal) (y : S1x1x128.Idx) :
    (k10_pay1 (F := Ideal) x0 x2 : S1x1x128.Idx → EReal) y = (x0 y + x2 y) * Cert.Spec.scale := by
  unfold k10_pay1
  rw [shapeCast_self, shapeCast_self]
  rfl

/-- The same with the two rows loaded through the whole-block rectangle. -/
theorem pay10_ld_apply (x0 x2 : Vec Ideal S1x1x128 .f32) (y : S1x1x128.Idx) :
    (k10_pay1 (F := Ideal) (View.ld x0 r10) (View.ld x2 r10) : S1x1x128.Idx → EReal) y = comb10 (x0 y) (x2 y) := by
  have hA : View.ld x0 r10 = x0 := View.ld_unit_zero (Val := Elt Ideal) (S := S1x1x128) (e := .f32) zeros10 _ x0
  have hB : View.ld x2 r10 = x2 := View.ld_unit_zero (Val := Elt Ideal) (S := S1x1x128) (e := .f32) zeros10 _ x2
  rw [hA, hB]
  exact pay10_apply x0 x2 y

/-- The word of table 0 at point t is a row of the 50000-row array. -/
theorem word10_0_lt (t : Fin (cfg10 a).N) : ((a.1 0 (ValueIdx.ix1 (n := 40000) ⟨t.val, t.isLt⟩) : BitVec 32)).toNat < 50000 := by
  obtain ⟨h, -⟩ := a.2.1 ((cfg10 a).grid.coords t)
  have h0 : (((cfg10 a).win 0).index t (0 : Fin 3) + 1) * 1 ≤ 50000 := h 0
  have e0 : ((cfg10 a).win 0).index t (0 : Fin 3) = ((a.1 0 (ValueIdx.ix1 (n := 40000) ⟨t.val, t.isLt⟩) : BitVec 32)).toNat := congrFun (index10_0 a t) (0 : Fin 3)
  rw [e0] at h0
  omega

/-- The word of table 1 at point t is a row of the 50000-row array. -/
theorem word10_1_lt (t : Fin (cfg10 a).N) : ((a.1 1 (ValueIdx.ix1 (n := 40000) ⟨t.val, t.isLt⟩) : BitVec 32)).toNat < 50000 := by
  obtain ⟨h, -⟩ := a.2.2 ((cfg10 a).grid.coords t)
  have h0 : (((cfg10 a).win 1).index t (0 : Fin 3) + 1) * 1 ≤ 50000 := h 0
  have e0 : ((cfg10 a).win 1).index t (0 : Fin 3) = ((a.1 1 (ValueIdx.ix1 (n := 40000) ⟨t.val, t.isLt⟩) : BitVec 32)).toNat := congrFun (index10_1 a t) (0 : Fin 3)
  rw [e0] at h0
  omega

/-- The two source arrays, as functions to the extended reals. -/
abbrev srcRows10 (c : Dev nD) : S50000x1x128.Idx → EReal := V c main_v2
abbrev dstRows10 (c : Dev nD) : S50000x1x128.Idx → EReal := V c main_v4

set_option maxHeartbeats 100000 in
/-- Window 0's block at point t is the row of the first source array that table 0's word t names. -/
theorem iblk10_0_apply (c : Dev nD) (t : Fin (cfg10 a).N) (y : (((cfg10 a).win 0).xblock ((cfg10 a).grid.coords t)).Idx)
    (l : Fin 128) (hl : (y (2 : Fin 3)).val = l.val) :
    (iblk10 V a c 0 t y : EReal)
      = srcRows10 V c (ValueIdx.ix3 (Cert.Spec.node (a.1 0 (ValueIdx.ix1 (n := 40000) ⟨t.val, t.isLt⟩))) (0 : Fin 1) l) := by
  have hw := word10_0_lt a t
  have e0 : ((cfg10 a).win 0).index t (0 : Fin 3) = ((a.1 0 (ValueIdx.ix1 (n := 40000) ⟨t.val, t.isLt⟩) : BitVec 32)).toNat := congrFun (index10_0 a t) (0 : Fin 3)
  have eM : ((cfg10 a).win 0).index t (1 : Fin 3) = 0 := congrFun (index10_0 a t) (1 : Fin 3)
  have e2 : ((cfg10 a).win 0).index t (2 : Fin 3) = 0 := congrFun (index10_0 a t) (2 : Fin 3)
  show V c main_v2 ((((cfg10 a).win 0).blk t).view.emb y) = V c main_v2 _
  refine congrArg (V c main_v2) ?_
  funext d
  apply Fin.ext
  match d with
  | ⟨0, _⟩ =>
    show ((cfg10 a).win 0).index t (0 : Fin 3) * 1 + 1 * (y (0 : Fin 3)).val = (Cert.Spec.node _).val
    have hy : (y (0 : Fin 3)).val < 1 := (y (0 : Fin 3)).isLt
    rw [e0, Cert.Spec.node_val hw]; omega
  | ⟨1, _⟩ =>
    show ((cfg10 a).win 0).index t (1 : Fin 3) * 1 + 1 * (y (1 : Fin 3)).val = 0
    have hy : (y (1 : Fin 3)).val < 1 := (y (1 : Fin 3)).isLt
    rw [eM]; omega
  | ⟨2, _⟩ =>
    show ((cfg10 a).win 0).index t (2 : Fin 3) * 128 + 1 * (y (2 : Fin 3)).val = l.val
    rw [e2, hl]; omega

set_option maxHeartbeats 100000 in
/-- Window 1's block at point t is the row of the second source array that table 1's word t names. -/
theorem iblk10_1_apply (c : Dev nD) (t : Fin (cfg10 a).N) (y : (((cfg10 a).win 1).xblock ((cfg10 a).grid.coords t)).Idx)
    (l : Fin 128) (hl : (y (2 : Fin 3)).val = l.val) :
    (iblk10 V a c 1 t y : EReal)
      = dstRows10 V c (ValueIdx.ix3 (Cert.Spec.node (a.1 1 (ValueIdx.ix1 (n := 40000) ⟨t.val, t.isLt⟩))) (0 : Fin 1) l) := by
  have hw := word10_1_lt a t
  have e0 : ((cfg10 a).win 1).index t (0 : Fin 3) = ((a.1 1 (ValueIdx.ix1 (n := 40000) ⟨t.val, t.isLt⟩) : BitVec 32)).toNat := congrFun (index10_1 a t) (0 : Fin 3)
  have eM : ((cfg10 a).win 1).index t (1 : Fin 3) = 0 := congrFun (index10_1 a t) (1 : Fin 3)
  have e2 : ((cfg10 a).win 1).index t (2 : Fin 3) = 0 := congrFun (index10_1 a t) (2 : Fin 3)
  show V c main_v4 ((((cfg10 a).win 1).blk t).view.emb y) = V c main_v4 _
  refine congrArg (V c main_v4) ?_
  funext d
  apply Fin.ext
  match d with
  | ⟨0, _⟩ =>
    show ((cfg10 a).win 1).index t (0 : Fin 3) * 1 + 1 * (y (0 : Fin 3)).val = (Cert.Spec.node _).val
    have hy : (y (0 : Fin 3)).val < 1 := (y (0 : Fin 3)).isLt
    rw [e0, Cert.Spec.node_val hw]; omega
  | ⟨1, _⟩ =>
    show ((cfg10 a).win 1).index t (1 : Fin 3) * 1 + 1 * (y (1 : Fin 3)).val = 0
    have hy : (y (1 : Fin 3)).val < 1 := (y (1 : Fin 3)).isLt
    rw [eM]; omega
  | ⟨2, _⟩ =>
    show ((cfg10 a).win 1).index t (2 : Fin 3) * 128 + 1 * (y (2 : Fin 3)).val = l.val
    rw [e2, hl]; omega

/-- Entry (t, l) of what the call leaves: the two gathered rows' entries at lane l, added and scaled. -/
def row10 (c : Dev nD) (t : Fin 40000) (l : Fin 128) : EReal :=
  comb10 (srcRows10 V c (ValueIdx.ix3 (Cert.Spec.node (a.1 0 (ValueIdx.ix1 t))) (0 : Fin 1) l))
    (dstRows10 V c (ValueIdx.ix3 (Cert.Spec.node (a.1 1 (ValueIdx.ix1 t))) (0 : Fin 1) l))

/-- The whole output array as one function of its index. -/
def gath10 (c : Dev nD) : S40000x1x128.Idx → EReal :=
  fun i => row10 V a c ⟨(i (0 : Fin 3)).val, (i (0 : Fin 3)).isLt⟩ ⟨(i (2 : Fin 3)).val, (i (2 : Fin 3)).isLt⟩

set_option maxHeartbeats 200000 in
/-- What point t writes back is block t of that function. -/
theorem flushed10_eq (c : Dev nD) (t : Fin (cfg10 a).N) :
    (dat10 (F := Ideal) V a c).flushed 2 t = (((cfg10 a).win 2).blk t).view.read (Elt Ideal) (gath10 V a c) := by
  show ((cfg10 a).win 2).cut ((cfg10 a).grid.coords t) ((dat10 V a c).after 2 t) = _
  rw [after10_2]
  unfold out10_2
  rw [View.canon_unit_zero zeros10]
  funext j
  have e0 : ((cfg10 a).win 2).index t (0 : Fin 3) = t.val := congrFun (index10_2 a t) (0 : Fin 3)
  have e2 : ((cfg10 a).win 2).index t (2 : Fin 3) = 0 := congrFun (index10_2 a t) (2 : Fin 3)
  have hj0 : (j (0 : Fin 3)).val < 1 := (j (0 : Fin 3)).isLt
  show (k10_pay1 (F := Ideal) (View.ld (iblk10 V a c 0 t) r10) (View.ld (iblk10 V a c 1 t) r10) : S1x1x128.Idx → EReal) (((cfg10 a).win 2).xinj ((cfg10 a).grid.coords t) j)
      = gath10 V a c ((((cfg10 a).win 2).blk t).view.emb j)
  refine (pay10_ld_apply (iblk10 V a c 0 t) (iblk10 V a c 1 t) (((cfg10 a).win 2).xinj ((cfg10 a).grid.coords t) j)).trans ?_
  have hT : (⟨t.val, t.isLt⟩ : Fin 40000) = ⟨((((cfg10 a).win 2).blk t).view.emb j (0 : Fin 3)).val, ((((cfg10 a).win 2).blk t).view.emb j (0 : Fin 3)).isLt⟩ :=
    Fin.ext (by
      show t.val = ((cfg10 a).win 2).index t (0 : Fin 3) * 1 + 1 * (j (0 : Fin 3)).val
      rw [e0]; omega)
  have hL : (⟨(j (2 : Fin 3)).val, (j (2 : Fin 3)).isLt⟩ : Fin 128) = ⟨((((cfg10 a).win 2).blk t).view.emb j (2 : Fin 3)).val, ((((cfg10 a).win 2).blk t).view.emb j (2 : Fin 3)).isLt⟩ :=
    Fin.ext (by
      show (j (2 : Fin 3)).val = ((cfg10 a).win 2).index t (2 : Fin 3) * 128 + 1 * (j (2 : Fin 3)).val
      rw [e2]; omega)
  refine Eq.trans ?_ (congrArg₂ (row10 V a c) hT hL)
  unfold row10
  exact congrArg₂ comb10 (iblk10_0_apply V a c t _ _ rfl) (iblk10_1_apply V a c t _ _ rfl)

set_option maxHeartbeats 100000 in
/-- The output window is written back at every point: the next point's block is another row. -/
theorem flush10_2 (t : Fin (cfg10 a).N) : ((cfg10 a).win 2).flush t = true := by
  unfold Window.flush
  rw [Bool.and_eq_true, Bool.or_eq_true, decide_eq_true_eq, decide_eq_true_eq]
  refine ⟨rfl, ?_⟩
  by_cases h : t.val + 1 < (cfg10 a).grid.N
  · refine Or.inr ⟨h, fun e => ?_⟩
    have e0 := congrFun e (0 : Fin 3)
    have eA : ((cfg10 a).win 2).index ⟨t.val + 1, h⟩ (0 : Fin 3) = t.val + 1 := congrFun (index10_2 a ⟨t.val + 1, h⟩) (0 : Fin 3)
    have eB : ((cfg10 a).win 2).index t (0 : Fin 3) = t.val := congrFun (index10_2 a t) (0 : Fin 3)
    rw [eA, eB] at e0
    omega
  · refine Or.inl ?_
    have hlt : t.val < (cfg10 a).grid.N := t.isLt
    omega

set_option maxHeartbeats 100000 in
/-- Every entry of the output array lies in the block of the point its row names. -/
theorem cover10 (i : S40000x1x128.Idx) :
    ∃ t : Fin (cfg10 a).N, ((cfg10 a).win 2).flush t = true ∧ i ∈ (((cfg10 a).win 2).blk t).view.set := by
  have hlt : (i (0 : Fin 3)).val < (cfg10 a).N := by rw [npts10]; exact (i (0 : Fin 3)).isLt
  obtain ⟨t, ht⟩ : ∃ t : Fin (cfg10 a).N, t.val = (i (0 : Fin 3)).val := ⟨⟨_, hlt⟩, rfl⟩
  refine ⟨t, flush10_2 a t, ?_⟩
  have hset := View.set_slice_whole main_v43 (((cfg10 a).win 2).rect t)
  refine (Eq.mpr (congrArg (fun S => i ∈ S) hset) ?_ : i ∈ ((View.whole main_v43).slice (((cfg10 a).win 2).rect t)).set)
  refine Rect.mem_set_unit.mpr (fun d => ?_)
  have e0 : ((cfg10 a).win 2).index t (0 : Fin 3) = t.val := congrFun (index10_2 a t) (0 : Fin 3)
  have eB : ((cfg10 a).win 2).index t (1 : Fin 3) = 0 := congrFun (index10_2 a t) (1 : Fin 3)
  have e2 : ((cfg10 a).win 2).index t (2 : Fin 3) = 0 := congrFun (index10_2 a t) (2 : Fin 3)
  match d with
  | ⟨0, _⟩ =>
    show ((cfg10 a).win 2).index t (0 : Fin 3) * 1 ≤ (i (0 : Fin 3)).val
      ∧ (i (0 : Fin 3)).val < ((cfg10 a).win 2).index t (0 : Fin 3) * 1 + 1
    rw [e0]; omega
  | ⟨1, _⟩ =>
    have hi : (i (1 : Fin 3)).val < 1 := (i (1 : Fin 3)).isLt
    show ((cfg10 a).win 2).index t (1 : Fin 3) * 1 ≤ (i (1 : Fin 3)).val
      ∧ (i (1 : Fin 3)).val < ((cfg10 a).win 2).index t (1 : Fin 3) * 1 + 1
    rw [eB]; omega
  | ⟨2, _⟩ =>
    have hi : (i (2 : Fin 3)).val < 128 := (i (2 : Fin 3)).isLt
    show ((cfg10 a).win 2).index t (2 : Fin 3) * 128 ≤ (i (2 : Fin 3)).val
      ∧ (i (2 : Fin 3)).val < ((cfg10 a).win 2).index t (2 : Fin 3) * 128 + 128
    rw [e2]; omega

/-- So the output array ends holding that function. -/
theorem final10 (c : Dev nD) : (dat10 (F := Ideal) V a c).arrAt 2 (cfg10 a).N = gath10 V a c :=
  (dat10 (F := Ideal) V a c).arrAt_eq_of_cover 2 (gath10 V a c) (fun t _ => flushed10_eq V a c t) (cover10 a)

/-- What gather call 1 leaves in its output array, entry by entry: the two rows its tables name, added and scaled. -/
theorem gather_out10 (c : Dev nD) (t : Fin 40000) (l : Fin 128) :
    ((dat10 (F := Ideal) V a c).arrAt 2 (cfg10 a).N : FVec Ideal S40000x1x128 .f32) (ValueIdx.ix3 t (0 : Fin 1) l)
      = (srcRows10 V c (ValueIdx.ix3 (Cert.Spec.node (a.1 0 (ValueIdx.ix1 t))) (0 : Fin 1) l)
        + dstRows10 V c (ValueIdx.ix3 (Cert.Spec.node (a.1 1 (ValueIdx.ix1 t))) (0 : Fin 1) l)) * Cert.Spec.scale :=
  congrFun (final10 V a c) (ValueIdx.ix3 t (0 : Fin 1) l)
end GatherValue

end Cert.KernelIdeal.Hand

end
-- ==== Proof.KI.Piece10.lean ====
/-
  Gather call 10's output array in terms of the launch arrays.

  Gather call 10 walks its 40000 grid points; at point t it reads row (word t of its source table) of the re-laid source
  projection and row (word t of its destination table) of the re-laid destination projection, adds them lane by lane and
  multiplies by the constant, into row t of its output. Its tables are the slices of the launch endpoint arrays from
  word 360000 on, so word t of a table is the endpoint array's word 40000 · 9 + t, and a re-laid projection's row n, lane l
  is the projected feature (batch l / 64, node n, feature l % 64). So row t, lane l of the output is lane l of the
  specification's row for edge 40000 · 9 + t.
-/
import proofs.«413139_j22651657519351_3_alg».proof.Proof.KI.Fold
import proofs.«413139_j22651657519351_3_alg».proof.Proof.KI.Walk
import proofs.«413139_j22651657519351_3_alg».proof.Proof.KI.Hs2
import proofs.«413139_j22651657519351_3_alg».proof.Proof.KI.GatherValue10
import proofs.«413139_j22651657519351_3_alg».proof.Proof.SpecRows
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe
open Idealize.SL.Sem

section Piece10

variable (m : (ℓ : Loc nD τ sig) → Buf (Elt Ideal) ℓ) (hR : InRange m)

/-- Word t of chunk 10's source table is the launch source array's word 40000 · 9 + t: the table is the slice of the
    array from word 360000 on. -/
theorem tbl10_src (t : Fin 40000) :
    (tbl10 (F := Ideal) m 0 : IVec S40000 32) (ValueIdx.ix1 t)
      = (m (((0 : Dev nD) : Thread nD τ).loc main_arg1) : IVec S800000 32) (ValueIdx.ix1 ⟨40000 * 9 + t.val, Cert.Spec.chunk_lt ⟨9, by norm_num⟩ t⟩) := by
  show extractStridedSlice S40000 ![360000] (m (((0 : Dev nD) : Thread nD τ).loc main_arg1) : IVec S800000 32) slices_S800000_S40000_360000 (ValueIdx.ix1 t) = _
  exact extractStridedSlice_apply (s := S800000) (t := S40000) ![360000] _ slices_S800000_S40000_360000 (ValueIdx.ix1 t) (ValueIdx.ix1 ⟨40000 * 9 + t.val, Cert.Spec.chunk_lt ⟨9, by norm_num⟩ t⟩)
    (fun a => match a with | ⟨0, _⟩ => by show 40000 * 9 + t.val = 360000 + t.val; omega)

/-- Word t of chunk 10's destination table is the launch destination array's word 40000 · 9 + t. -/
theorem tbl10_dst (t : Fin 40000) :
    (tbl10 (F := Ideal) m 1 : IVec S40000 32) (ValueIdx.ix1 t)
      = (m (((0 : Dev nD) : Thread nD τ).loc main_arg2) : IVec S800000 32) (ValueIdx.ix1 ⟨40000 * 9 + t.val, Cert.Spec.chunk_lt ⟨9, by norm_num⟩ t⟩) := by
  show extractStridedSlice S40000 ![360000] (m (((0 : Dev nD) : Thread nD τ).loc main_arg2) : IVec S800000 32) slices_S800000_S40000_360000 (ValueIdx.ix1 t) = _
  exact extractStridedSlice_apply (s := S800000) (t := S40000) ![360000] _ slices_S800000_S40000_360000 (ValueIdx.ix1 t) (ValueIdx.ix1 ⟨40000 * 9 + t.val, Cert.Spec.chunk_lt ⟨9, by norm_num⟩ t⟩)
    (fun a => match a with | ⟨0, _⟩ => by show 40000 * 9 + t.val = 360000 + t.val; omega)

/-- Gather call 10's output array in terms of the launch arrays: row t, lane l is lane l of edge 40000 · 9 + t's row.
    The call adds, at row t, the rows of the two re-laid projections that the tables' words t name, and scales the sum;
    the re-laid projections, untouched since host stretch 1 wrote them, hold at each row the projected features of that
    node, and the tables' words t are the endpoint arrays' words 40000 · 9 + t. -/
theorem piece10 (c : Dev nD) (t : Fin 40000) (l : Fin 128) :
    (W21 (F := Ideal) m hR c main_v43 : FVec Ideal S40000x1x128 .f32) (ValueIdx.ix3 t (0 : Fin 1) l)
      = Cert.Spec.edgeRow (m ((c : Thread nD τ).loc main_arg0)) (m ((c : Thread nD τ).loc main_arg1)) (m ((c : Thread nD τ).loc main_arg2))
          (m ((c : Thread nD τ).loc main_arg3)) (m ((c : Thread nD τ).loc main_arg4))
          ⟨40000 * 9 + t.val, Cert.Spec.chunk_lt ⟨9, by norm_num⟩ t⟩ l := by
  obtain rfl : c = 0 := Subsingleton.elim _ _
  refine (congrFun (W21_arr (F := Ideal) m hR 0 2) _).trans ?_
  refine (gather_out10 (V20 (F := Ideal) m hR) (a10 (F := Ideal) m hR) 0 t l).trans ?_
  have e1 : (W20 (F := Ideal) m hR 0 main_v2 : FVec Ideal S50000x1x128 .f32)
        (ValueIdx.ix3 (Cert.Spec.node ((tbl10 (F := Ideal) m 0 : IVec S40000 32) (ValueIdx.ix1 t))) (0 : Fin 1) l)
      = Cert.Spec.proj (m (((0 : Dev nD) : Thread nD τ).loc main_arg0)) (m (((0 : Dev nD) : Thread nD τ).loc main_arg3))
          ⟨l.val / 64, Cert.Spec.lane_div l⟩
          (Cert.Spec.node ((m (((0 : Dev nD) : Thread nD τ).loc main_arg1) : IVec S800000 32) (ValueIdx.ix1 ⟨40000 * 9 + t.val, Cert.Spec.chunk_lt ⟨9, by norm_num⟩ t⟩)))
          ⟨l.val % 64, Cert.Spec.lane_mod l⟩ := by
    rw [tbl10_src m t]
    exact (congrFun (W20_v2 (F := Ideal) m hR 0) _).trans (hs2_apply m hR 0 _ l)
  have e2 : (W20 (F := Ideal) m hR 0 main_v4 : FVec Ideal S50000x1x128 .f32)
        (ValueIdx.ix3 (Cert.Spec.node ((tbl10 (F := Ideal) m 1 : IVec S40000 32) (ValueIdx.ix1 t))) (0 : Fin 1) l)
      = Cert.Spec.proj (m (((0 : Dev nD) : Thread nD τ).loc main_arg0)) (m (((0 : Dev nD) : Thread nD τ).loc main_arg4))
          ⟨l.val / 64, Cert.Spec.lane_div l⟩
          (Cert.Spec.node ((m (((0 : Dev nD) : Thread nD τ).loc main_arg2) : IVec S800000 32) (ValueIdx.ix1 ⟨40000 * 9 + t.val, Cert.Spec.chunk_lt ⟨9, by norm_num⟩ t⟩)))
          ⟨l.val % 64, Cert.Spec.lane_mod l⟩ := by
    rw [tbl10_dst m t]
    exact (congrFun (W20_v4 (F := Ideal) m hR 0) _).trans (hd2_apply m hR 0 _ l)
  exact congrArg₂ (fun a b : EReal => (a + b) * Cert.Spec.scale) e1 e2

end Piece10

end Cert.KernelIdeal.Hand

end
-- ==== Proof.KI.FPiece10.lean ====
/-
  Chunk 10's rows as the last host stretch finds them. Host stretch 11 reshapes gather call 10's output
  [40000, 1, 128] to [40000, 128]; nothing touches that buffer until the last stretch concatenates the twenty pieces.
  With the call's output read as the rows of the specification, the piece is the specification's chunk number 9.
-/
import proofs.«413139_j22651657519351_3_alg».proof.Proof.Gen.KernelIdeal.Launch
import proofs.«413139_j22651657519351_3_alg».proof.Proof.Gen.KernelIdeal.Skeleton
import proofs.«413139_j22651657519351_3_alg».proof.Proof.Gen.KernelIdeal.Points
import proofs.«413139_j22651657519351_3_alg».proof.Proof.KI.Walk
import proofs.«413139_j22651657519351_3_alg».proof.Proof.KI.Piece10
import proofs.«413139_j22651657519351_3_alg».proof.Proof.Layout
import proofs.«413139_j22651657519351_3_alg».proof.Proof.SpecRows
import Idealize.ShloMosaic.Lib.StableHlo.Run
import Idealize.ShloMosaic.Lib.ValueIdx
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section FPiece

variable (m : (ℓ : Loc nD τ sig) → Buf (Elt Ideal) ℓ) (hR : InRange m)

theorem fpiece10 (c : Dev nD) :
    (W41 (F := Ideal) m hR c main_v44 : FVec Ideal S40000x128 .f32)
      = Cert.Spec.chunk (m ((c : Thread nD τ).loc main_arg0)) (m ((c : Thread nD τ).loc main_arg1)) (m ((c : Thread nD τ).loc main_arg2))
          (m ((c : Thread nD τ).loc main_arg3)) (m ((c : Thread nD τ).loc main_arg4)) (9 : Fin 20) := by
  funext i
  obtain ⟨t, l, rfl⟩ : ∃ (t : Fin 40000) (l : Fin 128), i = ValueIdx.ix2 t l := ⟨i 0, i 1, ValueIdx.eq_ix2 i⟩
  rw [W41_p10 m hR c]
  show StableHlo.after hostOps11 (W21 (F := Ideal) m hR c) (Proc.devRef .tc main_v44) (ValueIdx.ix2 t l) = _
  after_results
  refine (Cert.Layout.piece_apply _ _ t l).trans ?_
  exact piece10 m hR c t l

end FPiece

end Cert.KernelIdeal.Hand

end
-- ==== Proof.KI.GatherValue11.lean ====
/-
  Edge chunk 1's gather kernel: what it leaves in its output array, entry by entry, at the ideal (extended-real)
  instance, for any contents V of the buffers at the region's entry and any admissible contents of the two index tables.

  At grid point t the two gathered windows hold row (word t of table 0) of the first source array and row (word t of
  table 1) of the second: the block index of a gathered window is (that word read unsigned, 0, 0), the block is one
  row of 128 lanes, and admissibility of the tables says the word is below the 50000 rows. The body stores
  (row + row) · c into the output block, and the output window's block index is (t, 0, 0): block t is row t of the
  output array, every point writes its block back, and the blocks of the 40000 points cover the array. So the array
  ends holding, at (t, 0, l), the sum of the two named rows' entries at lane l, times c.
-/
import proofs.«413139_j22651657519351_3_alg».proof.Proof.KI.Region11
import proofs.«413139_j22651657519351_3_alg».proof.Proof.Spec
import Idealize.ShloMosaic.Lib.Pipeline.Value
import Idealize.ShloMosaic.Lib.ValueIdx
import Idealize.ShloMosaic.Lib.ValueLayout

set_option maxRecDepth 16384

noncomputable section

namespace Cert.KernelIdeal.Hand

open Cert.KernelIdeal Cert.KernelIdeal.Gen
open Idealize.ShloMosaic Idealize.ShloMosaic.TcCoe
open Idealize.SL.Sem
open Idealize.ShloMosaic.Pipeline (Dat Cfg Window)

section GatherValue
variable (V : (c : Dev nD) → (b : Ref sig .tc) → Buf (Elt Ideal) ((c : Thread nD τ).loc b))
variable (a : (pcfg11 (F := Ideal)).Adm)

/-- The grid has 40000 points, one axis. -/
theorem npts11 : (cfg11 a).N = 40000 := N_11

/-- The one coordinate of point t is t. -/
theorem coord11 (t : Fin (cfg11 a).N) : (((cfg11 a).grid.coords t) 0).val = t.val := by
  show t.val / (cfg11 a).grid.stride 0 % 40000 = t.val
  have hs : (cfg11 a).grid.stride 0 = 1 := rfl
  rw [hs]
  have := t.isLt
  have e : (cfg11 a).N = 40000 := rfl
  omega

/-- A grid coordinate, as the 32-bit word the index maps receive and back, is itself. -/
theorem wordCoord11 (n : Nat) (h : n < 40000) : (Scalar.indexCast (BitVec.ofNat 32 n)).toNat = n := by
  show (BitVec.ofNat 32 n).toNat = n
  rw [BitVec.toNat_ofNat]
  exact Nat.mod_eq_of_lt (by omega)

set_option maxHeartbeats 100000 in
/-- Output window: the block index at point t is (t, 0, 0). -/
theorem index11_2 (t : Fin (cfg11 a).N) : ((cfg11 a).win 2).index t = ![t.val, 0, 0] := by
  show cc11_transform_2 ((cfg11 a).grid.coords t) = _
  unfold cc11_transform_2
  dsimp only
  have h := coord11 a t
  have hl : t.val < 40000 := t.isLt
  funext d
  match d with
  | ⟨0, _⟩ => show (BitVec.ofNat 32 (((cfg11 a).grid.coords t) 0).val).toNat = t.val; rw [h]; exact wordCoord11 _ hl
  | ⟨1, _⟩ => rfl
  | ⟨2, _⟩ => rfl

set_option maxHeartbeats 100000 in
/-- Gathered window 0: the block index at point t is (word t of table 0, 0, 0). -/
theorem index11_0 (t : Fin (cfg11 a).N) :
    ((cfg11 a).win 0).index t = ![((a.1 0 (ValueIdx.ix1 (n := 40000) ⟨t.val, t.isLt⟩) : BitVec 32)).toNat, 0, 0] := by
  show cc11_transform_0 k11_off1_inb numel1_S1 a.1 ((cfg11 a).grid.coords t) = _
  unfold cc11_transform_0
  dsimp only
  have h := coord11 a t
  have hl : t.val < 40000 := t.isLt
  funext d
  match d with
  | ⟨0, _⟩ =>
    show ((a.1 0 _ : BitVec 32)).toNat = ((a.1 0 _ : BitVec 32)).toNat
    refine congrArg (fun j => ((a.1 0 j : BitVec 32)).toNat) ?_
    funext k
    match k with
    | ⟨0, _⟩ =>
      apply Fin.ext
      show (Scalar.indexCast (BitVec.ofNat 32 (((cfg11 a).grid.coords t) 0).val)).toNat + 1 * 0 = t.val
      rw [h, wordCoord11 _ hl]; omega
  | ⟨1, _⟩ => rfl
  | ⟨2, _⟩ => rfl

set_option maxHeartbeats 100000 in
/-- Gathered window 1: the block index at point t is (word t of table 1, 0, 0). -/
theorem index11_1 (t : Fin (cfg11 a).N) :
    ((cfg11 a).win 1).index t = ![((a.1 1 (ValueIdx.ix1 (n := 40000) ⟨t.val, t.isLt⟩) : BitVec 32)).toNat, 0, 0] := by
  show cc11_transform_1 k11_off1_inb numel1_S1 a.1 ((cfg11 a).grid.coords t) = _
  unfold cc11_transform_1
  dsimp only
  have h := coord11 a t
  have hl : t.val < 40000 := t.isLt
  funext d
  match d with
  | ⟨0, _⟩ =>
    show ((a.1 1 _ : BitVec 32)).toNat = ((a.1 1 _ : BitVec 32)).toNat
    refine congrArg (fun j => ((a.1 1 j : BitVec 32)).toNat) ?_
    funext k
    match k with
    | ⟨0, _⟩ =>
      apply Fin.ext
      show (Scalar.indexCast (BitVec.ofNat 32 (((cfg11 a).grid.coords t) 0).val)).toNat + 1 * 0 = t.val
      rw [h, wordCoord11 _ hl]; omega
  | ⟨1, _⟩ => rfl
  | ⟨2, _⟩ => rfl

theorem zeros11 : (![0, 0, 0] : Fin 3 → Nat) = fun _ => 0 := funext fun d => by fin_cases d <;> rfl

/-- The arithmetic of one entry: add, then scale. -/
abbrev comb11 (u v : EReal) : EReal := (u + v) * Cert.Spec.scale

/-- The body's payload at an index: the sum of the two loaded rows' entries there, times the scale. -/
theorem pay11_apply (x0 x2 : S1x1x128.Idx → EReal) (y : S1x1x128.Idx) :
    (k11_pay1 (F := Ideal) x0 x2 : S1x1x128.Idx → EReal) y = (x0 y + x2 y) * Cert.Spec.scale := by
  unfold k11_pay1
  rw [shapeCast_self, shapeCast_self]
  rfl

/-- The same with the two rows loaded through the whole-block rectangle. -/
theorem pay11_ld_apply (x0 x2 : Vec Ideal S1x1x128 .f32) (y : S1x1x128.Idx) :
    (k11_pay1 (F := Ideal) (View.ld x0 r11) (View.ld x2 r11) : S1x1x128.Idx → EReal) y = comb11 (x0 y) (x2 y) := by
  have hA : View.ld x0 r11 = x0 := View.ld_unit_zero (Val := Elt Ideal) (S := S1x1x128) (e := .f32) zeros11 _ x0
  have hB : View.ld x2 r11 = x2 := View.ld_unit_zero (Val := Elt Ideal) (S := S1x1x128) (e := .f32) zeros11 _ x2
  rw [hA, hB]
  exact pay11_apply x0 x2 y

/-- The word of table 0 at point t is a row of the 50000-row array. -/
theorem word11_0_lt (t : Fin (cfg11 a).N) : ((a.1 0 (ValueIdx.ix1 (n := 40000) ⟨t.val, t.isLt⟩) : BitVec 32)).toNat < 50000 := by
  obtain ⟨h, -⟩ := a.2.1 ((cfg11 a).grid.coords t)
  have h0 : (((cfg11 a).win 0).index t (0 : Fin 3) + 1) * 1 ≤ 50000 := h 0
  have e0 : ((cfg11 a).win 0).index t (0 : Fin 3) = ((a.1 0 (ValueIdx.ix1 (n := 40000) ⟨t.val, t.isLt⟩) : BitVec 32)).toNat := congrFun (index11_0 a t) (0 : Fin 3)
  rw [e0] at h0
  omega

/-- The word of table 1 at point t is a row of the 50000-row array. -/
theorem word11_1_lt (t : Fin (cfg11 a).N) : ((a.1 1 (ValueIdx.ix1 (n := 40000) ⟨t.val, t.isLt⟩) : BitVec 32)).toNat < 50000 := by
  obtain ⟨h, -⟩ := a.2.2 ((cfg11 a).grid.coords t)
  have h0 : (((cfg11 a).win 1).index t (0 : Fin 3) + 1) * 1 ≤ 50000 := h 0
  have e0 : ((cfg11 a).win 1).index t (0 : Fin 3) = ((a.1 1 (ValueIdx.ix1 (n := 40000) ⟨t.val, t.isLt⟩) : BitVec 32)).toNat := congrFun (index11_1 a t) (0 : Fin 3)
  rw [e0] at h0
  omega

/-- The two source arrays, as functions to the extended reals. -/
abbrev srcRows11 (c : Dev nD) : S50000x1x128.Idx → EReal := V c main_v2
abbrev dstRows11 (c : Dev nD) : S50000x1x128.Idx → EReal := V c main_v4

set_option maxHeartbeats 100000 in
/-- Window 0's block at point t is the row of the first source array that table 0's word t names. -/
theorem iblk11_0_apply (c : Dev nD) (t : Fin (cfg11 a).N) (y : (((cfg11 a).win 0).xblock ((cfg11 a).grid.coords t)).Idx)
    (l : Fin 128) (hl : (y (2 : Fin 3)).val = l.val) :
    (iblk11 V a c 0 t y : EReal)
      = srcRows11 V c (ValueIdx.ix3 (Cert.Spec.node (a.1 0 (ValueIdx.ix1 (n := 40000) ⟨t.val, t.isLt⟩))) (0 : Fin 1) l) := by
  have hw := word11_0_lt a t
  have e0 : ((cfg11 a).win 0).index t (0 : Fin 3) = ((a.1 0 (ValueIdx.ix1 (n := 40000) ⟨t.val, t.isLt⟩) : BitVec 32)).toNat := congrFun (index11_0 a t) (0 : Fin 3)
  have eM : ((cfg11 a).win 0).index t (1 : Fin 3) = 0 := congrFun (index11_0 a t) (1 : Fin 3)
  have e2 : ((cfg11 a).win 0).index t (2 : Fin 3) = 0 := congrFun (index11_0 a t) (2 : Fin 3)
  show V c main_v2 ((((cfg11 a).win 0).blk t).view.emb y) = V c main_v2 _
  refine congrArg (V c main_v2) ?_
  funext d
  apply Fin.ext
  match d with
  | ⟨0, _⟩ =>
    show ((cfg11 a).win 0).index t (0 : Fin 3) * 1 + 1 * (y (0 : Fin 3)).val = (Cert.Spec.node _).val
    have hy : (y (0 : Fin 3)).val < 1 := (y (0 : Fin 3)).isLt
    rw [e0, Cert.Spec.node_val hw]; omega
  | ⟨1, _⟩ =>
    show ((cfg11 a).win 0).index t (1 : Fin 3) * 1 + 1 * (y (1 : Fin 3)).val = 0
    have hy : (y (1 : Fin 3)).val < 1 := (y (1 : Fin 3)).isLt
    rw [eM]; omega
  | ⟨2, _⟩ =>
    show ((cfg11 a).win 0).index t (2 : Fin 3) * 128 + 1 * (y (2 : Fin 3)).val = l.val
    rw [e2, hl]; omega

set_option maxHeartbeats 100000 in
/-- Window 1's block at point t is the row of the second source array that table 1's word t names. -/
theorem iblk11_1_apply (c : Dev nD) (t : Fin (cfg11 a).N) (y : (((cfg11 a).win 1).xblock ((cfg11 a).grid.coords t)).Idx)
    (l : Fin 128) (hl : (y (2 : Fin 3)).val = l.val) :
    (iblk11 V a c 1 t y : EReal)
      = dstRows11 V c (ValueIdx.ix3 (Cert.Spec.node (a.1 1 (ValueIdx.ix1 (n := 40000) ⟨t.val, t.isLt⟩))) (0 : Fin 1) l) := by
  have hw := word11_1_lt a t
  have e0 : ((cfg11 a).win 1).index t (0 : Fin 3) = ((a.1 1 (ValueIdx.ix1 (n := 40000) ⟨t.val, t.isLt⟩) : BitVec 32)).toNat := congrFun (index11_1 a t) (0 : Fin 3)
  have eM : ((cfg11 a).win 1).index t (1 : Fin 3) = 0 := congrFun (index11_1 a t) (1 : Fin 3)
  have e2 : ((cfg11 a).win 1).index t (2 : Fin 3) = 0 := congrFun (index11_1 a t) (2 : Fin 3)
  show V c main_v4 ((((cfg11 a).win 1).blk t).view.emb y) = V c main_v4 _
  refine congrArg (V c main_v4) ?_
  funext d
  apply Fin.ext
  match d with
  | ⟨0, _⟩ =>
    show ((cfg11 a).win 1).index t (0 : Fin 3) * 1 + 1 * (y (0 : Fin 3)).val = (Cert.Spec.node _).val
    have hy : (y (0 : Fin 3)).val < 1 := (y (0 : Fin 3)).isLt
    rw [e0, Cert.Spec.node_val hw]; omega
  | ⟨1, _⟩ =>
    show ((cfg11 a).win 1).index t (1 : Fin 3) * 1 + 1 * (y (1 : Fin 3)).val = 0
    have hy : (y (1 : Fin 3)).val < 1 := (y (1 : Fin 3)).isLt
    rw [eM]; omega
  | ⟨2, _⟩ =>
    show ((cfg11 a).win 1).index t (2 : Fin 3) * 128 + 1 * (y (2 : Fin 3)).val = l.val
    rw [e2, hl]; omega

/-- Entry (t, l) of what the call leaves: the two gathered rows' entries at lane l, added and scaled. -/
def row11 (c : Dev nD) (t : Fin 40000) (l : Fin 128) : EReal :=
  comb11 (srcRows11 V c (ValueIdx.ix3 (Cert.Spec.node (a.1 0 (ValueIdx.ix1 t))) (0 : Fin 1) l))
    (dstRows11 V c (ValueIdx.ix3 (Cert.Spec.node (a.1 1 (ValueIdx.ix1 t))) (0 : Fin 1) l))

/-- The whole output array as one function of its index. -/
def gath11 (c : Dev nD) : S40000x1x128.Idx → EReal :=
  fun i => row11 V a c ⟨(i (0 : Fin 3)).val, (i (0 : Fin 3)).isLt⟩ ⟨(i (2 : Fin 3)).val, (i (2 : Fin 3)).isLt⟩

set_option maxHeartbeats 200000 in
/-- What point t writes back is block t of that function. -/
theorem flushed11_eq (c : Dev nD) (t : Fin (cfg11 a).N) :
    (dat11 (F := Ideal) V a c).flushed 2 t = (((cfg11 a).win 2).blk t).view.read (Elt Ideal) (gath11 V a c) := by
  show ((cfg11 a).win 2).cut ((cfg11 a).grid.coords t) ((dat11 V a c).after 2 t) = _
  rw [after11_2]
  unfold out11_2
  rw [View.canon_unit_zero zeros11]
  funext j
  have e0 : ((cfg11 a).win 2).index t (0 : Fin 3) = t.val := congrFun (index11_2 a t) (0 : Fin 3)
  have e2 : ((cfg11 a).win 2).index t (2 : Fin 3) = 0 := congrFun (index11_2 a t) (2 : Fin 3)
  have hj0 : (j (0 : Fin 3)).val < 1 := (j (0 : Fin 3)).isLt
  show (k11_pay1 (F := Ideal) (View.ld (iblk11 V a c 0 t) r11) (View.ld (iblk11 V a c 1 t) r11) : S1x1x128.Idx → EReal) (((cfg11 a).win 2).xinj ((cfg11 a).grid.coords t) j)
      = gath11 V a c ((((cfg11 a).win 2).blk t).view.emb j)
  refine (pay11_ld_apply (iblk11 V a c 0 t) (iblk11 V a c 1 t) (((cfg11 a).win 2).xinj ((cfg11 a).grid.coords t) j)).trans ?_
  have hT : (⟨t.val, t.isLt⟩ : Fin 40000) = ⟨((((cfg11 a).win 2).blk t).view.emb j (0 : Fin 3)).val, ((((cfg11 a).win 2).blk t).view.emb j (0 : Fin 3)).isLt⟩ :=
    Fin.ext (by
      show t.val = ((cfg11 a).win 2).index t (0 : Fin 3) * 1 + 1 * (j (0 : Fin 3)).val
      rw [e0]; omega)
  have hL : (⟨(j (2 : Fin 3)).val, (j (2 : Fin 3)).isLt⟩ : Fin 128) = ⟨((((cfg11 a).win 2).blk t).view.emb j (2 : Fin 3)).val, ((((cfg11 a).win 2).blk t).view.emb j (2 : Fin 3)).isLt⟩ :=
    Fin.ext (by
      show (j (2 : Fin 3)).val = ((cfg11 a).win 2).index t (2 : Fin 3) * 128 + 1 * (j (2 : Fin 3)).val
      rw [e2]; omega)
  refine Eq.trans ?_ (congrArg₂ (row11 V a c) hT hL)
  unfold row11
  exact congrArg₂ comb11 (iblk11_0_apply V a c t _ _ rfl) (iblk11_1_apply V a c t _ _ rfl)

set_option maxHeartbeats 100000 in
/-- The output window is written back at every point: the next point's block is another row. -/
theorem flush11_2 (t : Fin (cfg11 a).N) : ((cfg11 a).win 2).flush t = true := by
  unfold Window.flush
  rw [Bool.and_eq_true, Bool.or_eq_true, decide_eq_true_eq, decide_eq_true_eq]
  refine ⟨rfl, ?_⟩
  by_cases h : t.val + 1 < (cfg11 a).grid.N
  · refine Or.inr ⟨h, fun e => ?_⟩
    have e0 := congrFun e (0 : Fin 3)
    have eA : ((cfg11 a).win 2).index ⟨t.val + 1, h⟩ (0 : Fin 3) = t.val + 1 := congrFun (index11_2 a ⟨t.val + 1, h⟩) (0 : Fin 3)
    have eB : ((cfg11 a).win 2).index t (0 : Fin 3) = t.val := congrFun (index11_2 a t) (0 : Fin 3)
    rw [eA, eB] at e0
    omega
  · refine Or.inl ?_
    have hlt : t.val < (cfg11 a).grid.N := t.isLt
    omega

set_option maxHeartbeats 100000 in
/-- Every entry of the output array lies in the block of the point its row names. -/
theorem cover11 (i : S40000x1x128.Idx) :
    ∃ t : Fin (cfg11 a).N, ((cfg11 a).win 2).flush t = true ∧ i ∈ (((cfg11 a).win 2).blk t).view.set := by
  have hlt : (i (0 : Fin 3)).val < (cfg11 a).N := by rw [npts11]; exact (i (0 : Fin 3)).isLt
  obtain ⟨t, ht⟩ : ∃ t : Fin (cfg11 a).N, t.val = (i (0 : Fin 3)).val := ⟨⟨_, hlt⟩, rfl⟩
  refine ⟨t, flush11_2 a t, ?_⟩
  have hset := View.set_slice_whole main_v47 (((cfg11 a).win 2).rect t)
  refine (Eq.mpr (congrArg (fun S => i ∈ S) hset) ?_ : i ∈ ((View.whole main_v47).slice (((cfg11 a).win 2).rect t)).set)
  refine Rect.mem_set_unit.mpr (fun d => ?_)
  have e0 : ((cfg11 a).win 2).index t (0 : Fin 3) = t.val := congrFun (index11_2 a t) (0 : Fin 3)
  have eB : ((cfg11 a).win 2).index t (1 : Fin 3) = 0 := congrFun (index11_2 a t) (1 : Fin 3)
  have e2 : ((cfg11 a).win 2).index t (2 : Fin 3) = 0 := congrFun (index11_2 a t) (2 : Fin 3)
  match d with
  | ⟨0, _⟩ =>
    show ((cfg11 a).win 2).index t (0 : Fin 3) * 1 ≤ (i (0 : Fin 3)).val
      ∧ (i (0 : Fin 3)).val < ((cfg11 a).win 2).index t (0 : Fin 3) * 1 + 1
    rw [e0]; omega
  | ⟨1, _⟩ =>
    have hi : (i (1 : Fin 3)).val < 1 := (i (1 : Fin 3)).isLt
    show ((cfg11 a).win 2).index t (1 : Fin 3) * 1 ≤ (i (1 : Fin 3)).val
      ∧ (i (1 : Fin 3)).val < ((cfg11 a).win 2).index t (1 : Fin 3) * 1 + 1
    rw [eB]; omega
  | ⟨2, _⟩ =>
    have hi : (i (2 : Fin 3)).val < 128 := (i (2 : Fin 3)).isLt
    show ((cfg11 a).win 2).index t (2 : Fin 3) * 128 ≤ (i (2 : Fin 3)).val
      ∧ (i (2 : Fin 3)).val < ((cfg11 a).win 2).index t (2 : Fin 3) * 128 + 128
    rw [e2]; omega

/-- So the output array ends holding that function. -/
theorem final11 (c : Dev nD) : (dat11 (F := Ideal) V a c).arrAt 2 (cfg11 a).N = gath11 V a c :=
  (dat11 (F := Ideal) V a c).arrAt_eq_of_cover 2 (gath11 V a c) (fun t _ => flushed11_eq V a c t) (cover11 a)

/-- What gather call 1 leaves in its output array, entry by entry: the two rows its tables name, added and scaled. -/
theorem gather_out11 (c : Dev nD) (t : Fin 40000) (l : Fin 128) :
    ((dat11 (F := Ideal) V a c).arrAt 2 (cfg11 a).N : FVec Ideal S40000x1x128 .f32) (ValueIdx.ix3 t (0 : Fin 1) l)
      = (srcRows11 V c (ValueIdx.ix3 (Cert.Spec.node (a.1 0 (ValueIdx.ix1 t))) (0 : Fin 1) l)
        + dstRows11 V c (ValueIdx.ix3 (Cert.Spec.node (a.1 1 (ValueIdx.ix1 t))) (0 : Fin 1) l)) * Cert.Spec.scale :=
  congrFun (final11 V a c) (ValueIdx.ix3 t (0 : Fin 1) l)
end GatherValue

end Cert.KernelIdeal.Hand

end
-- ==== Proof.KI.Piece11.lean ====
/-
  Gather call 11's output array in terms of the launch arrays.

  Gather call 11 walks its 40000 grid points; at point t it reads row (word t of its source table) of the re-laid source
  projection and row (word t of its destination table) of the re-laid destination projection, adds them lane by lane and
  multiplies by the constant, into row t of its output. Its tables are the slices of the launch endpoint arrays from
  word 400000 on, so word t of a table is the endpoint array's word 40000 · 10 + t, and a re-laid projection's row n, lane l
  is the projected feature (batch l / 64, node n, feature l % 64). So row t, lane l of the output is lane l of the
  specification's row for edge 40000 · 10 + t.
-/
import proofs.«413139_j22651657519351_3_alg».proof.Proof.KI.Fold
import proofs.«413139_j22651657519351_3_alg».proof.Proof.KI.Walk
import proofs.«413139_j22651657519351_3_alg».proof.Proof.KI.Hs2
import proofs.«413139_j22651657519351_3_alg».proof.Proof.KI.GatherValue11
import proofs.«413139_j22651657519351_3_alg».proof.Proof.SpecRows
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe
open Idealize.SL.Sem

section Piece11

variable (m : (ℓ : Loc nD τ sig) → Buf (Elt Ideal) ℓ) (hR : InRange m)

/-- Word t of chunk 11's source table is the launch source array's word 40000 · 10 + t: the table is the slice of the
    array from word 400000 on. -/
theorem tbl11_src (t : Fin 40000) :
    (tbl11 (F := Ideal) m 0 : IVec S40000 32) (ValueIdx.ix1 t)
      = (m (((0 : Dev nD) : Thread nD τ).loc main_arg1) : IVec S800000 32) (ValueIdx.ix1 ⟨40000 * 10 + t.val, Cert.Spec.chunk_lt ⟨10, by norm_num⟩ t⟩) := by
  show extractStridedSlice S40000 ![400000] (m (((0 : Dev nD) : Thread nD τ).loc main_arg1) : IVec S800000 32) slices_S800000_S40000_400000 (ValueIdx.ix1 t) = _
  exact extractStridedSlice_apply (s := S800000) (t := S40000) ![400000] _ slices_S800000_S40000_400000 (ValueIdx.ix1 t) (ValueIdx.ix1 ⟨40000 * 10 + t.val, Cert.Spec.chunk_lt ⟨10, by norm_num⟩ t⟩)
    (fun a => match a with | ⟨0, _⟩ => by show 40000 * 10 + t.val = 400000 + t.val; omega)

/-- Word t of chunk 11's destination table is the launch destination array's word 40000 · 10 + t. -/
theorem tbl11_dst (t : Fin 40000) :
    (tbl11 (F := Ideal) m 1 : IVec S40000 32) (ValueIdx.ix1 t)
      = (m (((0 : Dev nD) : Thread nD τ).loc main_arg2) : IVec S800000 32) (ValueIdx.ix1 ⟨40000 * 10 + t.val, Cert.Spec.chunk_lt ⟨10, by norm_num⟩ t⟩) := by
  show extractStridedSlice S40000 ![400000] (m (((0 : Dev nD) : Thread nD τ).loc main_arg2) : IVec S800000 32) slices_S800000_S40000_400000 (ValueIdx.ix1 t) = _
  exact extractStridedSlice_apply (s := S800000) (t := S40000) ![400000] _ slices_S800000_S40000_400000 (ValueIdx.ix1 t) (ValueIdx.ix1 ⟨40000 * 10 + t.val, Cert.Spec.chunk_lt ⟨10, by norm_num⟩ t⟩)
    (fun a => match a with | ⟨0, _⟩ => by show 40000 * 10 + t.val = 400000 + t.val; omega)

/-- Gather call 11's output array in terms of the launch arrays: row t, lane l is lane l of edge 40000 · 10 + t's row.
    The call adds, at row t, the rows of the two re-laid projections that the tables' words t name, and scales the sum;
    the re-laid projections, untouched since host stretch 1 wrote them, hold at each row the projected features of that
    node, and the tables' words t are the endpoint arrays' words 40000 · 10 + t. -/
theorem piece11 (c : Dev nD) (t : Fin 40000) (l : Fin 128) :
    (W23 (F := Ideal) m hR c main_v47 : FVec Ideal S40000x1x128 .f32) (ValueIdx.ix3 t (0 : Fin 1) l)
      = Cert.Spec.edgeRow (m ((c : Thread nD τ).loc main_arg0)) (m ((c : Thread nD τ).loc main_arg1)) (m ((c : Thread nD τ).loc main_arg2))
          (m ((c : Thread nD τ).loc main_arg3)) (m ((c : Thread nD τ).loc main_arg4))
          ⟨40000 * 10 + t.val, Cert.Spec.chunk_lt ⟨10, by norm_num⟩ t⟩ l := by
  obtain rfl : c = 0 := Subsingleton.elim _ _
  refine (congrFun (W23_arr (F := Ideal) m hR 0 2) _).trans ?_
  refine (gather_out11 (V22 (F := Ideal) m hR) (a11 (F := Ideal) m hR) 0 t l).trans ?_
  have e1 : (W22 (F := Ideal) m hR 0 main_v2 : FVec Ideal S50000x1x128 .f32)
        (ValueIdx.ix3 (Cert.Spec.node ((tbl11 (F := Ideal) m 0 : IVec S40000 32) (ValueIdx.ix1 t))) (0 : Fin 1) l)
      = Cert.Spec.proj (m (((0 : Dev nD) : Thread nD τ).loc main_arg0)) (m (((0 : Dev nD) : Thread nD τ).loc main_arg3))
          ⟨l.val / 64, Cert.Spec.lane_div l⟩
          (Cert.Spec.node ((m (((0 : Dev nD) : Thread nD τ).loc main_arg1) : IVec S800000 32) (ValueIdx.ix1 ⟨40000 * 10 + t.val, Cert.Spec.chunk_lt ⟨10, by norm_num⟩ t⟩)))
          ⟨l.val % 64, Cert.Spec.lane_mod l⟩ := by
    rw [tbl11_src m t]
    exact (congrFun (W22_v2 (F := Ideal) m hR 0) _).trans (hs2_apply m hR 0 _ l)
  have e2 : (W22 (F := Ideal) m hR 0 main_v4 : FVec Ideal S50000x1x128 .f32)
        (ValueIdx.ix3 (Cert.Spec.node ((tbl11 (F := Ideal) m 1 : IVec S40000 32) (ValueIdx.ix1 t))) (0 : Fin 1) l)
      = Cert.Spec.proj (m (((0 : Dev nD) : Thread nD τ).loc main_arg0)) (m (((0 : Dev nD) : Thread nD τ).loc main_arg4))
          ⟨l.val / 64, Cert.Spec.lane_div l⟩
          (Cert.Spec.node ((m (((0 : Dev nD) : Thread nD τ).loc main_arg2) : IVec S800000 32) (ValueIdx.ix1 ⟨40000 * 10 + t.val, Cert.Spec.chunk_lt ⟨10, by norm_num⟩ t⟩)))
          ⟨l.val % 64, Cert.Spec.lane_mod l⟩ := by
    rw [tbl11_dst m t]
    exact (congrFun (W22_v4 (F := Ideal) m hR 0) _).trans (hd2_apply m hR 0 _ l)
  exact congrArg₂ (fun a b : EReal => (a + b) * Cert.Spec.scale) e1 e2

end Piece11

end Cert.KernelIdeal.Hand

end
-- ==== Proof.KI.FPiece11.lean ====
/-
  Chunk 11's rows as the last host stretch finds them. Host stretch 12 reshapes gather call 11's output
  [40000, 1, 128] to [40000, 128]; nothing touches that buffer until the last stretch concatenates the twenty pieces.
  With the call's output read as the rows of the specification, the piece is the specification's chunk number 10.
-/
import proofs.«413139_j22651657519351_3_alg».proof.Proof.Gen.KernelIdeal.Launch
import proofs.«413139_j22651657519351_3_alg».proof.Proof.Gen.KernelIdeal.Skeleton
import proofs.«413139_j22651657519351_3_alg».proof.Proof.Gen.KernelIdeal.Points
import proofs.«413139_j22651657519351_3_alg».proof.Proof.KI.Walk
import proofs.«413139_j22651657519351_3_alg».proof.Proof.KI.Piece11
import proofs.«413139_j22651657519351_3_alg».proof.Proof.Layout
import proofs.«413139_j22651657519351_3_alg».proof.Proof.SpecRows
import Idealize.ShloMosaic.Lib.StableHlo.Run
import Idealize.ShloMosaic.Lib.ValueIdx
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section FPiece

variable (m : (ℓ : Loc nD τ sig) → Buf (Elt Ideal) ℓ) (hR : InRange m)

theorem fpiece11 (c : Dev nD) :
    (W41 (F := Ideal) m hR c main_v48 : FVec Ideal S40000x128 .f32)
      = Cert.Spec.chunk (m ((c : Thread nD τ).loc main_arg0)) (m ((c : Thread nD τ).loc main_arg1)) (m ((c : Thread nD τ).loc main_arg2))
          (m ((c : Thread nD τ).loc main_arg3)) (m ((c : Thread nD τ).loc main_arg4)) (10 : Fin 20) := by
  funext i
  obtain ⟨t, l, rfl⟩ : ∃ (t : Fin 40000) (l : Fin 128), i = ValueIdx.ix2 t l := ⟨i 0, i 1, ValueIdx.eq_ix2 i⟩
  rw [W41_p11 m hR c]
  show StableHlo.after hostOps12 (W23 (F := Ideal) m hR c) (Proc.devRef .tc main_v48) (ValueIdx.ix2 t l) = _
  after_results
  refine (Cert.Layout.piece_apply _ _ t l).trans ?_
  exact piece11 m hR c t l

end FPiece

end Cert.KernelIdeal.Hand

end
-- ==== Proof.KI.GatherValue12.lean ====
/-
  Edge chunk 1's gather kernel: what it leaves in its output array, entry by entry, at the ideal (extended-real)
  instance, for any contents V of the buffers at the region's entry and any admissible contents of the two index tables.

  At grid point t the two gathered windows hold row (word t of table 0) of the first source array and row (word t of
  table 1) of the second: the block index of a gathered window is (that word read unsigned, 0, 0), the block is one
  row of 128 lanes, and admissibility of the tables says the word is below the 50000 rows. The body stores
  (row + row) · c into the output block, and the output window's block index is (t, 0, 0): block t is row t of the
  output array, every point writes its block back, and the blocks of the 40000 points cover the array. So the array
  ends holding, at (t, 0, l), the sum of the two named rows' entries at lane l, times c.
-/
import proofs.«413139_j22651657519351_3_alg».proof.Proof.KI.Region12
import proofs.«413139_j22651657519351_3_alg».proof.Proof.Spec
import Idealize.ShloMosaic.Lib.Pipeline.Value
import Idealize.ShloMosaic.Lib.ValueIdx
import Idealize.ShloMosaic.Lib.ValueLayout

set_option maxRecDepth 16384

noncomputable section

namespace Cert.KernelIdeal.Hand

open Cert.KernelIdeal Cert.KernelIdeal.Gen
open Idealize.ShloMosaic Idealize.ShloMosaic.TcCoe
open Idealize.SL.Sem
open Idealize.ShloMosaic.Pipeline (Dat Cfg Window)

section GatherValue
variable (V : (c : Dev nD) → (b : Ref sig .tc) → Buf (Elt Ideal) ((c : Thread nD τ).loc b))
variable (a : (pcfg12 (F := Ideal)).Adm)

/-- The grid has 40000 points, one axis. -/
theorem npts12 : (cfg12 a).N = 40000 := N_12

/-- The one coordinate of point t is t. -/
theorem coord12 (t : Fin (cfg12 a).N) : (((cfg12 a).grid.coords t) 0).val = t.val := by
  show t.val / (cfg12 a).grid.stride 0 % 40000 = t.val
  have hs : (cfg12 a).grid.stride 0 = 1 := rfl
  rw [hs]
  have := t.isLt
  have e : (cfg12 a).N = 40000 := rfl
  omega

/-- A grid coordinate, as the 32-bit word the index maps receive and back, is itself. -/
theorem wordCoord12 (n : Nat) (h : n < 40000) : (Scalar.indexCast (BitVec.ofNat 32 n)).toNat = n := by
  show (BitVec.ofNat 32 n).toNat = n
  rw [BitVec.toNat_ofNat]
  exact Nat.mod_eq_of_lt (by omega)

set_option maxHeartbeats 100000 in
/-- Output window: the block index at point t is (t, 0, 0). -/
theorem index12_2 (t : Fin (cfg12 a).N) : ((cfg12 a).win 2).index t = ![t.val, 0, 0] := by
  show cc12_transform_2 ((cfg12 a).grid.coords t) = _
  unfold cc12_transform_2
  dsimp only
  have h := coord12 a t
  have hl : t.val < 40000 := t.isLt
  funext d
  match d with
  | ⟨0, _⟩ => show (BitVec.ofNat 32 (((cfg12 a).grid.coords t) 0).val).toNat = t.val; rw [h]; exact wordCoord12 _ hl
  | ⟨1, _⟩ => rfl
  | ⟨2, _⟩ => rfl

set_option maxHeartbeats 100000 in
/-- Gathered window 0: the block index at point t is (word t of table 0, 0, 0). -/
theorem index12_0 (t : Fin (cfg12 a).N) :
    ((cfg12 a).win 0).index t = ![((a.1 0 (ValueIdx.ix1 (n := 40000) ⟨t.val, t.isLt⟩) : BitVec 32)).toNat, 0, 0] := by
  show cc12_transform_0 k12_off1_inb numel1_S1 a.1 ((cfg12 a).grid.coords t) = _
  unfold cc12_transform_0
  dsimp only
  have h := coord12 a t
  have hl : t.val < 40000 := t.isLt
  funext d
  match d with
  | ⟨0, _⟩ =>
    show ((a.1 0 _ : BitVec 32)).toNat = ((a.1 0 _ : BitVec 32)).toNat
    refine congrArg (fun j => ((a.1 0 j : BitVec 32)).toNat) ?_
    funext k
    match k with
    | ⟨0, _⟩ =>
      apply Fin.ext
      show (Scalar.indexCast (BitVec.ofNat 32 (((cfg12 a).grid.coords t) 0).val)).toNat + 1 * 0 = t.val
      rw [h, wordCoord12 _ hl]; omega
  | ⟨1, _⟩ => rfl
  | ⟨2, _⟩ => rfl

set_option maxHeartbeats 100000 in
/-- Gathered window 1: the block index at point t is (word t of table 1, 0, 0). -/
theorem index12_1 (t : Fin (cfg12 a).N) :
    ((cfg12 a).win 1).index t = ![((a.1 1 (ValueIdx.ix1 (n := 40000) ⟨t.val, t.isLt⟩) : BitVec 32)).toNat, 0, 0] := by
  show cc12_transform_1 k12_off1_inb numel1_S1 a.1 ((cfg12 a).grid.coords t) = _
  unfold cc12_transform_1
  dsimp only
  have h := coord12 a t
  have hl : t.val < 40000 := t.isLt
  funext d
  match d with
  | ⟨0, _⟩ =>
    show ((a.1 1 _ : BitVec 32)).toNat = ((a.1 1 _ : BitVec 32)).toNat
    refine congrArg (fun j => ((a.1 1 j : BitVec 32)).toNat) ?_
    funext k
    match k with
    | ⟨0, _⟩ =>
      apply Fin.ext
      show (Scalar.indexCast (BitVec.ofNat 32 (((cfg12 a).grid.coords t) 0).val)).toNat + 1 * 0 = t.val
      rw [h, wordCoord12 _ hl]; omega
  | ⟨1, _⟩ => rfl
  | ⟨2, _⟩ => rfl

theorem zeros12 : (![0, 0, 0] : Fin 3 → Nat) = fun _ => 0 := funext fun d => by fin_cases d <;> rfl

/-- The arithmetic of one entry: add, then scale. -/
abbrev comb12 (u v : EReal) : EReal := (u + v) * Cert.Spec.scale

/-- The body's payload at an index: the sum of the two loaded rows' entries there, times the scale. -/
theorem pay12_apply (x0 x2 : S1x1x128.Idx → EReal) (y : S1x1x128.Idx) :
    (k12_pay1 (F := Ideal) x0 x2 : S1x1x128.Idx → EReal) y = (x0 y + x2 y) * Cert.Spec.scale := by
  unfold k12_pay1
  rw [shapeCast_self, shapeCast_self]
  rfl

/-- The same with the two rows loaded through the whole-block rectangle. -/
theorem pay12_ld_apply (x0 x2 : Vec Ideal S1x1x128 .f32) (y : S1x1x128.Idx) :
    (k12_pay1 (F := Ideal) (View.ld x0 r12) (View.ld x2 r12) : S1x1x128.Idx → EReal) y = comb12 (x0 y) (x2 y) := by
  have hA : View.ld x0 r12 = x0 := View.ld_unit_zero (Val := Elt Ideal) (S := S1x1x128) (e := .f32) zeros12 _ x0
  have hB : View.ld x2 r12 = x2 := View.ld_unit_zero (Val := Elt Ideal) (S := S1x1x128) (e := .f32) zeros12 _ x2
  rw [hA, hB]
  exact pay12_apply x0 x2 y

/-- The word of table 0 at point t is a row of the 50000-row array. -/
theorem word12_0_lt (t : Fin (cfg12 a).N) : ((a.1 0 (ValueIdx.ix1 (n := 40000) ⟨t.val, t.isLt⟩) : BitVec 32)).toNat < 50000 := by
  obtain ⟨h, -⟩ := a.2.1 ((cfg12 a).grid.coords t)
  have h0 : (((cfg12 a).win 0).index t (0 : Fin 3) + 1) * 1 ≤ 50000 := h 0
  have e0 : ((cfg12 a).win 0).index t (0 : Fin 3) = ((a.1 0 (ValueIdx.ix1 (n := 40000) ⟨t.val, t.isLt⟩) : BitVec 32)).toNat := congrFun (index12_0 a t) (0 : Fin 3)
  rw [e0] at h0
  omega

/-- The word of table 1 at point t is a row of the 50000-row array. -/
theorem word12_1_lt (t : Fin (cfg12 a).N) : ((a.1 1 (ValueIdx.ix1 (n := 40000) ⟨t.val, t.isLt⟩) : BitVec 32)).toNat < 50000 := by
  obtain ⟨h, -⟩ := a.2.2 ((cfg12 a).grid.coords t)
  have h0 : (((cfg12 a).win 1).index t (0 : Fin 3) + 1) * 1 ≤ 50000 := h 0
  have e0 : ((cfg12 a).win 1).index t (0 : Fin 3) = ((a.1 1 (ValueIdx.ix1 (n := 40000) ⟨t.val, t.isLt⟩) : BitVec 32)).toNat := congrFun (index12_1 a t) (0 : Fin 3)
  rw [e0] at h0
  omega

/-- The two source arrays, as functions to the extended reals. -/
abbrev srcRows12 (c : Dev nD) : S50000x1x128.Idx → EReal := V c main_v2
abbrev dstRows12 (c : Dev nD) : S50000x1x128.Idx → EReal := V c main_v4

set_option maxHeartbeats 100000 in
/-- Window 0's block at point t is the row of the first source array that table 0's word t names. -/
theorem iblk12_0_apply (c : Dev nD) (t : Fin (cfg12 a).N) (y : (((cfg12 a).win 0).xblock ((cfg12 a).grid.coords t)).Idx)
    (l : Fin 128) (hl : (y (2 : Fin 3)).val = l.val) :
    (iblk12 V a c 0 t y : EReal)
      = srcRows12 V c (ValueIdx.ix3 (Cert.Spec.node (a.1 0 (ValueIdx.ix1 (n := 40000) ⟨t.val, t.isLt⟩))) (0 : Fin 1) l) := by
  have hw := word12_0_lt a t
  have e0 : ((cfg12 a).win 0).index t (0 : Fin 3) = ((a.1 0 (ValueIdx.ix1 (n := 40000) ⟨t.val, t.isLt⟩) : BitVec 32)).toNat := congrFun (index12_0 a t) (0 : Fin 3)
  have eM : ((cfg12 a).win 0).index t (1 : Fin 3) = 0 := congrFun (index12_0 a t) (1 : Fin 3)
  have e2 : ((cfg12 a).win 0).index t (2 : Fin 3) = 0 := congrFun (index12_0 a t) (2 : Fin 3)
  show V c main_v2 ((((cfg12 a).win 0).blk t).view.emb y) = V c main_v2 _
  refine congrArg (V c main_v2) ?_
  funext d
  apply Fin.ext
  match d with
  | ⟨0, _⟩ =>
    show ((cfg12 a).win 0).index t (0 : Fin 3) * 1 + 1 * (y (0 : Fin 3)).val = (Cert.Spec.node _).val
    have hy : (y (0 : Fin 3)).val < 1 := (y (0 : Fin 3)).isLt
    rw [e0, Cert.Spec.node_val hw]; omega
  | ⟨1, _⟩ =>
    show ((cfg12 a).win 0).index t (1 : Fin 3) * 1 + 1 * (y (1 : Fin 3)).val = 0
    have hy : (y (1 : Fin 3)).val < 1 := (y (1 : Fin 3)).isLt
    rw [eM]; omega
  | ⟨2, _⟩ =>
    show ((cfg12 a).win 0).index t (2 : Fin 3) * 128 + 1 * (y (2 : Fin 3)).val = l.val
    rw [e2, hl]; omega

set_option maxHeartbeats 100000 in
/-- Window 1's block at point t is the row of the second source array that table 1's word t names. -/
theorem iblk12_1_apply (c : Dev nD) (t : Fin (cfg12 a).N) (y : (((cfg12 a).win 1).xblock ((cfg12 a).grid.coords t)).Idx)
    (l : Fin 128) (hl : (y (2 : Fin 3)).val = l.val) :
    (iblk12 V a c 1 t y : EReal)
      = dstRows12 V c (ValueIdx.ix3 (Cert.Spec.node (a.1 1 (ValueIdx.ix1 (n := 40000) ⟨t.val, t.isLt⟩))) (0 : Fin 1) l) := by
  have hw := word12_1_lt a t
  have e0 : ((cfg12 a).win 1).index t (0 : Fin 3) = ((a.1 1 (ValueIdx.ix1 (n := 40000) ⟨t.val, t.isLt⟩) : BitVec 32)).toNat := congrFun (index12_1 a t) (0 : Fin 3)
  have eM : ((cfg12 a).win 1).index t (1 : Fin 3) = 0 := congrFun (index12_1 a t) (1 : Fin 3)
  have e2 : ((cfg12 a).win 1).index t (2 : Fin 3) = 0 := congrFun (index12_1 a t) (2 : Fin 3)
  show V c main_v4 ((((cfg12 a).win 1).blk t).view.emb y) = V c main_v4 _
  refine congrArg (V c main_v4) ?_
  funext d
  apply Fin.ext
  match d with
  | ⟨0, _⟩ =>
    show ((cfg12 a).win 1).index t (0 : Fin 3) * 1 + 1 * (y (0 : Fin 3)).val = (Cert.Spec.node _).val
    have hy : (y (0 : Fin 3)).val < 1 := (y (0 : Fin 3)).isLt
    rw [e0, Cert.Spec.node_val hw]; omega
  | ⟨1, _⟩ =>
    show ((cfg12 a).win 1).index t (1 : Fin 3) * 1 + 1 * (y (1 : Fin 3)).val = 0
    have hy : (y (1 : Fin 3)).val < 1 := (y (1 : Fin 3)).isLt
    rw [eM]; omega
  | ⟨2, _⟩ =>
    show ((cfg12 a).win 1).index t (2 : Fin 3) * 128 + 1 * (y (2 : Fin 3)).val = l.val
    rw [e2, hl]; omega

/-- Entry (t, l) of what the call leaves: the two gathered rows' entries at lane l, added and scaled. -/
def row12 (c : Dev nD) (t : Fin 40000) (l : Fin 128) : EReal :=
  comb12 (srcRows12 V c (ValueIdx.ix3 (Cert.Spec.node (a.1 0 (ValueIdx.ix1 t))) (0 : Fin 1) l))
    (dstRows12 V c (ValueIdx.ix3 (Cert.Spec.node (a.1 1 (ValueIdx.ix1 t))) (0 : Fin 1) l))

/-- The whole output array as one function of its index. -/
def gath12 (c : Dev nD) : S40000x1x128.Idx → EReal :=
  fun i => row12 V a c ⟨(i (0 : Fin 3)).val, (i (0 : Fin 3)).isLt⟩ ⟨(i (2 : Fin 3)).val, (i (2 : Fin 3)).isLt⟩

set_option maxHeartbeats 200000 in
/-- What point t writes back is block t of that function. -/
theorem flushed12_eq (c : Dev nD) (t : Fin (cfg12 a).N) :
    (dat12 (F := Ideal) V a c).flushed 2 t = (((cfg12 a).win 2).blk t).view.read (Elt Ideal) (gath12 V a c) := by
  show ((cfg12 a).win 2).cut ((cfg12 a).grid.coords t) ((dat12 V a c).after 2 t) = _
  rw [after12_2]
  unfold out12_2
  rw [View.canon_unit_zero zeros12]
  funext j
  have e0 : ((cfg12 a).win 2).index t (0 : Fin 3) = t.val := congrFun (index12_2 a t) (0 : Fin 3)
  have e2 : ((cfg12 a).win 2).index t (2 : Fin 3) = 0 := congrFun (index12_2 a t) (2 : Fin 3)
  have hj0 : (j (0 : Fin 3)).val < 1 := (j (0 : Fin 3)).isLt
  show (k12_pay1 (F := Ideal) (View.ld (iblk12 V a c 0 t) r12) (View.ld (iblk12 V a c 1 t) r12) : S1x1x128.Idx → EReal) (((cfg12 a).win 2).xinj ((cfg12 a).grid.coords t) j)
      = gath12 V a c ((((cfg12 a).win 2).blk t).view.emb j)
  refine (pay12_ld_apply (iblk12 V a c 0 t) (iblk12 V a c 1 t) (((cfg12 a).win 2).xinj ((cfg12 a).grid.coords t) j)).trans ?_
  have hT : (⟨t.val, t.isLt⟩ : Fin 40000) = ⟨((((cfg12 a).win 2).blk t).view.emb j (0 : Fin 3)).val, ((((cfg12 a).win 2).blk t).view.emb j (0 : Fin 3)).isLt⟩ :=
    Fin.ext (by
      show t.val = ((cfg12 a).win 2).index t (0 : Fin 3) * 1 + 1 * (j (0 : Fin 3)).val
      rw [e0]; omega)
  have hL : (⟨(j (2 : Fin 3)).val, (j (2 : Fin 3)).isLt⟩ : Fin 128) = ⟨((((cfg12 a).win 2).blk t).view.emb j (2 : Fin 3)).val, ((((cfg12 a).win 2).blk t).view.emb j (2 : Fin 3)).isLt⟩ :=
    Fin.ext (by
      show (j (2 : Fin 3)).val = ((cfg12 a).win 2).index t (2 : Fin 3) * 128 + 1 * (j (2 : Fin 3)).val
      rw [e2]; omega)
  refine Eq.trans ?_ (congrArg₂ (row12 V a c) hT hL)
  unfold row12
  exact congrArg₂ comb12 (iblk12_0_apply V a c t _ _ rfl) (iblk12_1_apply V a c t _ _ rfl)

set_option maxHeartbeats 100000 in
/-- The output window is written back at every point: the next point's block is another row. -/
theorem flush12_2 (t : Fin (cfg12 a).N) : ((cfg12 a).win 2).flush t = true := by
  unfold Window.flush
  rw [Bool.and_eq_true, Bool.or_eq_true, decide_eq_true_eq, decide_eq_true_eq]
  refine ⟨rfl, ?_⟩
  by_cases h : t.val + 1 < (cfg12 a).grid.N
  · refine Or.inr ⟨h, fun e => ?_⟩
    have e0 := congrFun e (0 : Fin 3)
    have eA : ((cfg12 a).win 2).index ⟨t.val + 1, h⟩ (0 : Fin 3) = t.val + 1 := congrFun (index12_2 a ⟨t.val + 1, h⟩) (0 : Fin 3)
    have eB : ((cfg12 a).win 2).index t (0 : Fin 3) = t.val := congrFun (index12_2 a t) (0 : Fin 3)
    rw [eA, eB] at e0
    omega
  · refine Or.inl ?_
    have hlt : t.val < (cfg12 a).grid.N := t.isLt
    omega

set_option maxHeartbeats 100000 in
/-- Every entry of the output array lies in the block of the point its row names. -/
theorem cover12 (i : S40000x1x128.Idx) :
    ∃ t : Fin (cfg12 a).N, ((cfg12 a).win 2).flush t = true ∧ i ∈ (((cfg12 a).win 2).blk t).view.set := by
  have hlt : (i (0 : Fin 3)).val < (cfg12 a).N := by rw [npts12]; exact (i (0 : Fin 3)).isLt
  obtain ⟨t, ht⟩ : ∃ t : Fin (cfg12 a).N, t.val = (i (0 : Fin 3)).val := ⟨⟨_, hlt⟩, rfl⟩
  refine ⟨t, flush12_2 a t, ?_⟩
  have hset := View.set_slice_whole main_v51 (((cfg12 a).win 2).rect t)
  refine (Eq.mpr (congrArg (fun S => i ∈ S) hset) ?_ : i ∈ ((View.whole main_v51).slice (((cfg12 a).win 2).rect t)).set)
  refine Rect.mem_set_unit.mpr (fun d => ?_)
  have e0 : ((cfg12 a).win 2).index t (0 : Fin 3) = t.val := congrFun (index12_2 a t) (0 : Fin 3)
  have eB : ((cfg12 a).win 2).index t (1 : Fin 3) = 0 := congrFun (index12_2 a t) (1 : Fin 3)
  have e2 : ((cfg12 a).win 2).index t (2 : Fin 3) = 0 := congrFun (index12_2 a t) (2 : Fin 3)
  match d with
  | ⟨0, _⟩ =>
    show ((cfg12 a).win 2).index t (0 : Fin 3) * 1 ≤ (i (0 : Fin 3)).val
      ∧ (i (0 : Fin 3)).val < ((cfg12 a).win 2).index t (0 : Fin 3) * 1 + 1
    rw [e0]; omega
  | ⟨1, _⟩ =>
    have hi : (i (1 : Fin 3)).val < 1 := (i (1 : Fin 3)).isLt
    show ((cfg12 a).win 2).index t (1 : Fin 3) * 1 ≤ (i (1 : Fin 3)).val
      ∧ (i (1 : Fin 3)).val < ((cfg12 a).win 2).index t (1 : Fin 3) * 1 + 1
    rw [eB]; omega
  | ⟨2, _⟩ =>
    have hi : (i (2 : Fin 3)).val < 128 := (i (2 : Fin 3)).isLt
    show ((cfg12 a).win 2).index t (2 : Fin 3) * 128 ≤ (i (2 : Fin 3)).val
      ∧ (i (2 : Fin 3)).val < ((cfg12 a).win 2).index t (2 : Fin 3) * 128 + 128
    rw [e2]; omega

/-- So the output array ends holding that function. -/
theorem final12 (c : Dev nD) : (dat12 (F := Ideal) V a c).arrAt 2 (cfg12 a).N = gath12 V a c :=
  (dat12 (F := Ideal) V a c).arrAt_eq_of_cover 2 (gath12 V a c) (fun t _ => flushed12_eq V a c t) (cover12 a)

/-- What gather call 1 leaves in its output array, entry by entry: the two rows its tables name, added and scaled. -/
theorem gather_out12 (c : Dev nD) (t : Fin 40000) (l : Fin 128) :
    ((dat12 (F := Ideal) V a c).arrAt 2 (cfg12 a).N : FVec Ideal S40000x1x128 .f32) (ValueIdx.ix3 t (0 : Fin 1) l)
      = (srcRows12 V c (ValueIdx.ix3 (Cert.Spec.node (a.1 0 (ValueIdx.ix1 t))) (0 : Fin 1) l)
        + dstRows12 V c (ValueIdx.ix3 (Cert.Spec.node (a.1 1 (ValueIdx.ix1 t))) (0 : Fin 1) l)) * Cert.Spec.scale :=
  congrFun (final12 V a c) (ValueIdx.ix3 t (0 : Fin 1) l)
end GatherValue

end Cert.KernelIdeal.Hand

end
-- ==== Proof.KI.Piece12.lean ====
/-
  Gather call 12's output array in terms of the launch arrays.

  Gather call 12 walks its 40000 grid points; at point t it reads row (word t of its source table) of the re-laid source
  projection and row (word t of its destination table) of the re-laid destination projection, adds them lane by lane and
  multiplies by the constant, into row t of its output. Its tables are the slices of the launch endpoint arrays from
  word 440000 on, so word t of a table is the endpoint array's word 40000 · 11 + t, and a re-laid projection's row n, lane l
  is the projected feature (batch l / 64, node n, feature l % 64). So row t, lane l of the output is lane l of the
  specification's row for edge 40000 · 11 + t.
-/
import proofs.«413139_j22651657519351_3_alg».proof.Proof.KI.Fold
import proofs.«413139_j22651657519351_3_alg».proof.Proof.KI.Walk
import proofs.«413139_j22651657519351_3_alg».proof.Proof.KI.Hs2
import proofs.«413139_j22651657519351_3_alg».proof.Proof.KI.GatherValue12
import proofs.«413139_j22651657519351_3_alg».proof.Proof.SpecRows
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe
open Idealize.SL.Sem

section Piece12

variable (m : (ℓ : Loc nD τ sig) → Buf (Elt Ideal) ℓ) (hR : InRange m)

/-- Word t of chunk 12's source table is the launch source array's word 40000 · 11 + t: the table is the slice of the
    array from word 440000 on. -/
theorem tbl12_src (t : Fin 40000) :
    (tbl12 (F := Ideal) m 0 : IVec S40000 32) (ValueIdx.ix1 t)
      = (m (((0 : Dev nD) : Thread nD τ).loc main_arg1) : IVec S800000 32) (ValueIdx.ix1 ⟨40000 * 11 + t.val, Cert.Spec.chunk_lt ⟨11, by norm_num⟩ t⟩) := by
  show extractStridedSlice S40000 ![440000] (m (((0 : Dev nD) : Thread nD τ).loc main_arg1) : IVec S800000 32) slices_S800000_S40000_440000 (ValueIdx.ix1 t) = _
  exact extractStridedSlice_apply (s := S800000) (t := S40000) ![440000] _ slices_S800000_S40000_440000 (ValueIdx.ix1 t) (ValueIdx.ix1 ⟨40000 * 11 + t.val, Cert.Spec.chunk_lt ⟨11, by norm_num⟩ t⟩)
    (fun a => match a with | ⟨0, _⟩ => by show 40000 * 11 + t.val = 440000 + t.val; omega)

/-- Word t of chunk 12's destination table is the launch destination array's word 40000 · 11 + t. -/
theorem tbl12_dst (t : Fin 40000) :
    (tbl12 (F := Ideal) m 1 : IVec S40000 32) (ValueIdx.ix1 t)
      = (m (((0 : Dev nD) : Thread nD τ).loc main_arg2) : IVec S800000 32) (ValueIdx.ix1 ⟨40000 * 11 + t.val, Cert.Spec.chunk_lt ⟨11, by norm_num⟩ t⟩) := by
  show extractStridedSlice S40000 ![440000] (m (((0 : Dev nD) : Thread nD τ).loc main_arg2) : IVec S800000 32) slices_S800000_S40000_440000 (ValueIdx.ix1 t) = _
  exact extractStridedSlice_apply (s := S800000) (t := S40000) ![440000] _ slices_S800000_S40000_440000 (ValueIdx.ix1 t) (ValueIdx.ix1 ⟨40000 * 11 + t.val, Cert.Spec.chunk_lt ⟨11, by norm_num⟩ t⟩)
    (fun a => match a with | ⟨0, _⟩ => by show 40000 * 11 + t.val = 440000 + t.val; omega)

/-- Gather call 12's output array in terms of the launch arrays: row t, lane l is lane l of edge 40000 · 11 + t's row.
    The call adds, at row t, the rows of the two re-laid projections that the tables' words t name, and scales the sum;
    the re-laid projections, untouched since host stretch 1 wrote them, hold at each row the projected features of that
    node, and the tables' words t are the endpoint arrays' words 40000 · 11 + t. -/
theorem piece12 (c : Dev nD) (t : Fin 40000) (l : Fin 128) :
    (W25 (F := Ideal) m hR c main_v51 : FVec Ideal S40000x1x128 .f32) (ValueIdx.ix3 t (0 : Fin 1) l)
      = Cert.Spec.edgeRow (m ((c : Thread nD τ).loc main_arg0)) (m ((c : Thread nD τ).loc main_arg1)) (m ((c : Thread nD τ).loc main_arg2))
          (m ((c : Thread nD τ).loc main_arg3)) (m ((c : Thread nD τ).loc main_arg4))
          ⟨40000 * 11 + t.val, Cert.Spec.chunk_lt ⟨11, by norm_num⟩ t⟩ l := by
  obtain rfl : c = 0 := Subsingleton.elim _ _
  refine (congrFun (W25_arr (F := Ideal) m hR 0 2) _).trans ?_
  refine (gather_out12 (V24 (F := Ideal) m hR) (a12 (F := Ideal) m hR) 0 t l).trans ?_
  have e1 : (W24 (F := Ideal) m hR 0 main_v2 : FVec Ideal S50000x1x128 .f32)
        (ValueIdx.ix3 (Cert.Spec.node ((tbl12 (F := Ideal) m 0 : IVec S40000 32) (ValueIdx.ix1 t))) (0 : Fin 1) l)
      = Cert.Spec.proj (m (((0 : Dev nD) : Thread nD τ).loc main_arg0)) (m (((0 : Dev nD) : Thread nD τ).loc main_arg3))
          ⟨l.val / 64, Cert.Spec.lane_div l⟩
          (Cert.Spec.node ((m (((0 : Dev nD) : Thread nD τ).loc main_arg1) : IVec S800000 32) (ValueIdx.ix1 ⟨40000 * 11 + t.val, Cert.Spec.chunk_lt ⟨11, by norm_num⟩ t⟩)))
          ⟨l.val % 64, Cert.Spec.lane_mod l⟩ := by
    rw [tbl12_src m t]
    exact (congrFun (W24_v2 (F := Ideal) m hR 0) _).trans (hs2_apply m hR 0 _ l)
  have e2 : (W24 (F := Ideal) m hR 0 main_v4 : FVec Ideal S50000x1x128 .f32)
        (ValueIdx.ix3 (Cert.Spec.node ((tbl12 (F := Ideal) m 1 : IVec S40000 32) (ValueIdx.ix1 t))) (0 : Fin 1) l)
      = Cert.Spec.proj (m (((0 : Dev nD) : Thread nD τ).loc main_arg0)) (m (((0 : Dev nD) : Thread nD τ).loc main_arg4))
          ⟨l.val / 64, Cert.Spec.lane_div l⟩
          (Cert.Spec.node ((m (((0 : Dev nD) : Thread nD τ).loc main_arg2) : IVec S800000 32) (ValueIdx.ix1 ⟨40000 * 11 + t.val, Cert.Spec.chunk_lt ⟨11, by norm_num⟩ t⟩)))
          ⟨l.val % 64, Cert.Spec.lane_mod l⟩ := by
    rw [tbl12_dst m t]
    exact (congrFun (W24_v4 (F := Ideal) m hR 0) _).trans (hd2_apply m hR 0 _ l)
  exact congrArg₂ (fun a b : EReal => (a + b) * Cert.Spec.scale) e1 e2

end Piece12

end Cert.KernelIdeal.Hand

end
-- ==== Proof.KI.FPiece12.lean ====
/-
  Chunk 12's rows as the last host stretch finds them. Host stretch 13 reshapes gather call 12's output
  [40000, 1, 128] to [40000, 128]; nothing touches that buffer until the last stretch concatenates the twenty pieces.
  With the call's output read as the rows of the specification, the piece is the specification's chunk number 11.
-/
import proofs.«413139_j22651657519351_3_alg».proof.Proof.Gen.KernelIdeal.Launch
import proofs.«413139_j22651657519351_3_alg».proof.Proof.Gen.KernelIdeal.Skeleton
import proofs.«413139_j22651657519351_3_alg».proof.Proof.Gen.KernelIdeal.Points
import proofs.«413139_j22651657519351_3_alg».proof.Proof.KI.Walk
import proofs.«413139_j22651657519351_3_alg».proof.Proof.KI.Piece12
import proofs.«413139_j22651657519351_3_alg».proof.Proof.Layout
import proofs.«413139_j22651657519351_3_alg».proof.Proof.SpecRows
import Idealize.ShloMosaic.Lib.StableHlo.Run
import Idealize.ShloMosaic.Lib.ValueIdx
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section FPiece

variable (m : (ℓ : Loc nD τ sig) → Buf (Elt Ideal) ℓ) (hR : InRange m)

theorem fpiece12 (c : Dev nD) :
    (W41 (F := Ideal) m hR c main_v52 : FVec Ideal S40000x128 .f32)
      = Cert.Spec.chunk (m ((c : Thread nD τ).loc main_arg0)) (m ((c : Thread nD τ).loc main_arg1)) (m ((c : Thread nD τ).loc main_arg2))
          (m ((c : Thread nD τ).loc main_arg3)) (m ((c : Thread nD τ).loc main_arg4)) (11 : Fin 20) := by
  funext i
  obtain ⟨t, l, rfl⟩ : ∃ (t : Fin 40000) (l : Fin 128), i = ValueIdx.ix2 t l := ⟨i 0, i 1, ValueIdx.eq_ix2 i⟩
  rw [W41_p12 m hR c]
  show StableHlo.after hostOps13 (W25 (F := Ideal) m hR c) (Proc.devRef .tc main_v52) (ValueIdx.ix2 t l) = _
  after_results
  refine (Cert.Layout.piece_apply _ _ t l).trans ?_
  exact piece12 m hR c t l

end FPiece

end Cert.KernelIdeal.Hand

end
-- ==== Proof.KI.GatherValue13.lean ====
/-
  Edge chunk 1's gather kernel: what it leaves in its output array, entry by entry, at the ideal (extended-real)
  instance, for any contents V of the buffers at the region's entry and any admissible contents of the two index tables.

  At grid point t the two gathered windows hold row (word t of table 0) of the first source array and row (word t of
  table 1) of the second: the block index of a gathered window is (that word read unsigned, 0, 0), the block is one
  row of 128 lanes, and admissibility of the tables says the word is below the 50000 rows. The body stores
  (row + row) · c into the output block, and the output window's block index is (t, 0, 0): block t is row t of the
  output array, every point writes its block back, and the blocks of the 40000 points cover the array. So the array
  ends holding, at (t, 0, l), the sum of the two named rows' entries at lane l, times c.
-/
import proofs.«413139_j22651657519351_3_alg».proof.Proof.KI.Region13
import proofs.«413139_j22651657519351_3_alg».proof.Proof.Spec
import Idealize.ShloMosaic.Lib.Pipeline.Value
import Idealize.ShloMosaic.Lib.ValueIdx
import Idealize.ShloMosaic.Lib.ValueLayout

set_option maxRecDepth 16384

noncomputable section

namespace Cert.KernelIdeal.Hand

open Cert.KernelIdeal Cert.KernelIdeal.Gen
open Idealize.ShloMosaic Idealize.ShloMosaic.TcCoe
open Idealize.SL.Sem
open Idealize.ShloMosaic.Pipeline (Dat Cfg Window)

section GatherValue
variable (V : (c : Dev nD) → (b : Ref sig .tc) → Buf (Elt Ideal) ((c : Thread nD τ).loc b))
variable (a : (pcfg13 (F := Ideal)).Adm)

/-- The grid has 40000 points, one axis. -/
theorem npts13 : (cfg13 a).N = 40000 := N_13

/-- The one coordinate of point t is t. -/
theorem coord13 (t : Fin (cfg13 a).N) : (((cfg13 a).grid.coords t) 0).val = t.val := by
  show t.val / (cfg13 a).grid.stride 0 % 40000 = t.val
  have hs : (cfg13 a).grid.stride 0 = 1 := rfl
  rw [hs]
  have := t.isLt
  have e : (cfg13 a).N = 40000 := rfl
  omega

/-- A grid coordinate, as the 32-bit word the index maps receive and back, is itself. -/
theorem wordCoord13 (n : Nat) (h : n < 40000) : (Scalar.indexCast (BitVec.ofNat 32 n)).toNat = n := by
  show (BitVec.ofNat 32 n).toNat = n
  rw [BitVec.toNat_ofNat]
  exact Nat.mod_eq_of_lt (by omega)

set_option maxHeartbeats 100000 in
/-- Output window: the block index at point t is (t, 0, 0). -/
theorem index13_2 (t : Fin (cfg13 a).N) : ((cfg13 a).win 2).index t = ![t.val, 0, 0] := by
  show cc13_transform_2 ((cfg13 a).grid.coords t) = _
  unfold cc13_transform_2
  dsimp only
  have h := coord13 a t
  have hl : t.val < 40000 := t.isLt
  funext d
  match d with
  | ⟨0, _⟩ => show (BitVec.ofNat 32 (((cfg13 a).grid.coords t) 0).val).toNat = t.val; rw [h]; exact wordCoord13 _ hl
  | ⟨1, _⟩ => rfl
  | ⟨2, _⟩ => rfl

set_option maxHeartbeats 100000 in
/-- Gathered window 0: the block index at point t is (word t of table 0, 0, 0). -/
theorem index13_0 (t : Fin (cfg13 a).N) :
    ((cfg13 a).win 0).index t = ![((a.1 0 (ValueIdx.ix1 (n := 40000) ⟨t.val, t.isLt⟩) : BitVec 32)).toNat, 0, 0] := by
  show cc13_transform_0 k13_off1_inb numel1_S1 a.1 ((cfg13 a).grid.coords t) = _
  unfold cc13_transform_0
  dsimp only
  have h := coord13 a t
  have hl : t.val < 40000 := t.isLt
  funext d
  match d with
  | ⟨0, _⟩ =>
    show ((a.1 0 _ : BitVec 32)).toNat = ((a.1 0 _ : BitVec 32)).toNat
    refine congrArg (fun j => ((a.1 0 j : BitVec 32)).toNat) ?_
    funext k
    match k with
    | ⟨0, _⟩ =>
      apply Fin.ext
      show (Scalar.indexCast (BitVec.ofNat 32 (((cfg13 a).grid.coords t) 0).val)).toNat + 1 * 0 = t.val
      rw [h, wordCoord13 _ hl]; omega
  | ⟨1, _⟩ => rfl
  | ⟨2, _⟩ => rfl

set_option maxHeartbeats 100000 in
/-- Gathered window 1: the block index at point t is (word t of table 1, 0, 0). -/
theorem index13_1 (t : Fin (cfg13 a).N) :
    ((cfg13 a).win 1).index t = ![((a.1 1 (ValueIdx.ix1 (n := 40000) ⟨t.val, t.isLt⟩) : BitVec 32)).toNat, 0, 0] := by
  show cc13_transform_1 k13_off1_inb numel1_S1 a.1 ((cfg13 a).grid.coords t) = _
  unfold cc13_transform_1
  dsimp only
  have h := coord13 a t
  have hl : t.val < 40000 := t.isLt
  funext d
  match d with
  | ⟨0, _⟩ =>
    show ((a.1 1 _ : BitVec 32)).toNat = ((a.1 1 _ : BitVec 32)).toNat
    refine congrArg (fun j => ((a.1 1 j : BitVec 32)).toNat) ?_
    funext k
    match k with
    | ⟨0, _⟩ =>
      apply Fin.ext
      show (Scalar.indexCast (BitVec.ofNat 32 (((cfg13 a).grid.coords t) 0).val)).toNat + 1 * 0 = t.val
      rw [h, wordCoord13 _ hl]; omega
  | ⟨1, _⟩ => rfl
  | ⟨2, _⟩ => rfl

theorem zeros13 : (![0, 0, 0] : Fin 3 → Nat) = fun _ => 0 := funext fun d => by fin_cases d <;> rfl

/-- The arithmetic of one entry: add, then scale. -/
abbrev comb13 (u v : EReal) : EReal := (u + v) * Cert.Spec.scale

/-- The body's payload at an index: the sum of the two loaded rows' entries there, times the scale. -/
theorem pay13_apply (x0 x2 : S1x1x128.Idx → EReal) (y : S1x1x128.Idx) :
    (k13_pay1 (F := Ideal) x0 x2 : S1x1x128.Idx → EReal) y = (x0 y + x2 y) * Cert.Spec.scale := by
  unfold k13_pay1
  rw [shapeCast_self, shapeCast_self]
  rfl

/-- The same with the two rows loaded through the whole-block rectangle. -/
theorem pay13_ld_apply (x0 x2 : Vec Ideal S1x1x128 .f32) (y : S1x1x128.Idx) :
    (k13_pay1 (F := Ideal) (View.ld x0 r13) (View.ld x2 r13) : S1x1x128.Idx → EReal) y = comb13 (x0 y) (x2 y) := by
  have hA : View.ld x0 r13 = x0 := View.ld_unit_zero (Val := Elt Ideal) (S := S1x1x128) (e := .f32) zeros13 _ x0
  have hB : View.ld x2 r13 = x2 := View.ld_unit_zero (Val := Elt Ideal) (S := S1x1x128) (e := .f32) zeros13 _ x2
  rw [hA, hB]
  exact pay13_apply x0 x2 y

/-- The word of table 0 at point t is a row of the 50000-row array. -/
theorem word13_0_lt (t : Fin (cfg13 a).N) : ((a.1 0 (ValueIdx.ix1 (n := 40000) ⟨t.val, t.isLt⟩) : BitVec 32)).toNat < 50000 := by
  obtain ⟨h, -⟩ := a.2.1 ((cfg13 a).grid.coords t)
  have h0 : (((cfg13 a).win 0).index t (0 : Fin 3) + 1) * 1 ≤ 50000 := h 0
  have e0 : ((cfg13 a).win 0).index t (0 : Fin 3) = ((a.1 0 (ValueIdx.ix1 (n := 40000) ⟨t.val, t.isLt⟩) : BitVec 32)).toNat := congrFun (index13_0 a t) (0 : Fin 3)
  rw [e0] at h0
  omega

/-- The word of table 1 at point t is a row of the 50000-row array. -/
theorem word13_1_lt (t : Fin (cfg13 a).N) : ((a.1 1 (ValueIdx.ix1 (n := 40000) ⟨t.val, t.isLt⟩) : BitVec 32)).toNat < 50000 := by
  obtain ⟨h, -⟩ := a.2.2 ((cfg13 a).grid.coords t)
  have h0 : (((cfg13 a).win 1).index t (0 : Fin 3) + 1) * 1 ≤ 50000 := h 0
  have e0 : ((cfg13 a).win 1).index t (0 : Fin 3) = ((a.1 1 (ValueIdx.ix1 (n := 40000) ⟨t.val, t.isLt⟩) : BitVec 32)).toNat := congrFun (index13_1 a t) (0 : Fin 3)
  rw [e0] at h0
  omega

/-- The two source arrays, as functions to the extended reals. -/
abbrev srcRows13 (c : Dev nD) : S50000x1x128.Idx → EReal := V c main_v2
abbrev dstRows13 (c : Dev nD) : S50000x1x128.Idx → EReal := V c main_v4

set_option maxHeartbeats 100000 in
/-- Window 0's block at point t is the row of the first source array that table 0's word t names. -/
theorem iblk13_0_apply (c : Dev nD) (t : Fin (cfg13 a).N) (y : (((cfg13 a).win 0).xblock ((cfg13 a).grid.coords t)).Idx)
    (l : Fin 128) (hl : (y (2 : Fin 3)).val = l.val) :
    (iblk13 V a c 0 t y : EReal)
      = srcRows13 V c (ValueIdx.ix3 (Cert.Spec.node (a.1 0 (ValueIdx.ix1 (n := 40000) ⟨t.val, t.isLt⟩))) (0 : Fin 1) l) := by
  have hw := word13_0_lt a t
  have e0 : ((cfg13 a).win 0).index t (0 : Fin 3) = ((a.1 0 (ValueIdx.ix1 (n := 40000) ⟨t.val, t.isLt⟩) : BitVec 32)).toNat := congrFun (index13_0 a t) (0 : Fin 3)
  have eM : ((cfg13 a).win 0).index t (1 : Fin 3) = 0 := congrFun (index13_0 a t) (1 : Fin 3)
  have e2 : ((cfg13 a).win 0).index t (2 : Fin 3) = 0 := congrFun (index13_0 a t) (2 : Fin 3)
  show V c main_v2 ((((cfg13 a).win 0).blk t).view.emb y) = V c main_v2 _
  refine congrArg (V c main_v2) ?_
  funext d
  apply Fin.ext
  match d with
  | ⟨0, _⟩ =>
    show ((cfg13 a).win 0).index t (0 : Fin 3) * 1 + 1 * (y (0 : Fin 3)).val = (Cert.Spec.node _).val
    have hy : (y (0 : Fin 3)).val < 1 := (y (0 : Fin 3)).isLt
    rw [e0, Cert.Spec.node_val hw]; omega
  | ⟨1, _⟩ =>
    show ((cfg13 a).win 0).index t (1 : Fin 3) * 1 + 1 * (y (1 : Fin 3)).val = 0
    have hy : (y (1 : Fin 3)).val < 1 := (y (1 : Fin 3)).isLt
    rw [eM]; omega
  | ⟨2, _⟩ =>
    show ((cfg13 a).win 0).index t (2 : Fin 3) * 128 + 1 * (y (2 : Fin 3)).val = l.val
    rw [e2, hl]; omega

set_option maxHeartbeats 100000 in
/-- Window 1's block at point t is the row of the second source array that table 1's word t names. -/
theorem iblk13_1_apply (c : Dev nD) (t : Fin (cfg13 a).N) (y : (((cfg13 a).win 1).xblock ((cfg13 a).grid.coords t)).Idx)
    (l : Fin 128) (hl : (y (2 : Fin 3)).val = l.val) :
    (iblk13 V a c 1 t y : EReal)
      = dstRows13 V c (ValueIdx.ix3 (Cert.Spec.node (a.1 1 (ValueIdx.ix1 (n := 40000) ⟨t.val, t.isLt⟩))) (0 : Fin 1) l) := by
  have hw := word13_1_lt a t
  have e0 : ((cfg13 a).win 1).index t (0 : Fin 3) = ((a.1 1 (ValueIdx.ix1 (n := 40000) ⟨t.val, t.isLt⟩) : BitVec 32)).toNat := congrFun (index13_1 a t) (0 : Fin 3)
  have eM : ((cfg13 a).win 1).index t (1 : Fin 3) = 0 := congrFun (index13_1 a t) (1 : Fin 3)
  have e2 : ((cfg13 a).win 1).index t (2 : Fin 3) = 0 := congrFun (index13_1 a t) (2 : Fin 3)
  show V c main_v4 ((((cfg13 a).win 1).blk t).view.emb y) = V c main_v4 _
  refine congrArg (V c main_v4) ?_
  funext d
  apply Fin.ext
  match d with
  | ⟨0, _⟩ =>
    show ((cfg13 a).win 1).index t (0 : Fin 3) * 1 + 1 * (y (0 : Fin 3)).val = (Cert.Spec.node _).val
    have hy : (y (0 : Fin 3)).val < 1 := (y (0 : Fin 3)).isLt
    rw [e0, Cert.Spec.node_val hw]; omega
  | ⟨1, _⟩ =>
    show ((cfg13 a).win 1).index t (1 : Fin 3) * 1 + 1 * (y (1 : Fin 3)).val = 0
    have hy : (y (1 : Fin 3)).val < 1 := (y (1 : Fin 3)).isLt
    rw [eM]; omega
  | ⟨2, _⟩ =>
    show ((cfg13 a).win 1).index t (2 : Fin 3) * 128 + 1 * (y (2 : Fin 3)).val = l.val
    rw [e2, hl]; omega

/-- Entry (t, l) of what the call leaves: the two gathered rows' entries at lane l, added and scaled. -/
def row13 (c : Dev nD) (t : Fin 40000) (l : Fin 128) : EReal :=
  comb13 (srcRows13 V c (ValueIdx.ix3 (Cert.Spec.node (a.1 0 (ValueIdx.ix1 t))) (0 : Fin 1) l))
    (dstRows13 V c (ValueIdx.ix3 (Cert.Spec.node (a.1 1 (ValueIdx.ix1 t))) (0 : Fin 1) l))

/-- The whole output array as one function of its index. -/
def gath13 (c : Dev nD) : S40000x1x128.Idx → EReal :=
  fun i => row13 V a c ⟨(i (0 : Fin 3)).val, (i (0 : Fin 3)).isLt⟩ ⟨(i (2 : Fin 3)).val, (i (2 : Fin 3)).isLt⟩

set_option maxHeartbeats 200000 in
/-- What point t writes back is block t of that function. -/
theorem flushed13_eq (c : Dev nD) (t : Fin (cfg13 a).N) :
    (dat13 (F := Ideal) V a c).flushed 2 t = (((cfg13 a).win 2).blk t).view.read (Elt Ideal) (gath13 V a c) := by
  show ((cfg13 a).win 2).cut ((cfg13 a).grid.coords t) ((dat13 V a c).after 2 t) = _
  rw [after13_2]
  unfold out13_2
  rw [View.canon_unit_zero zeros13]
  funext j
  have e0 : ((cfg13 a).win 2).index t (0 : Fin 3) = t.val := congrFun (index13_2 a t) (0 : Fin 3)
  have e2 : ((cfg13 a).win 2).index t (2 : Fin 3) = 0 := congrFun (index13_2 a t) (2 : Fin 3)
  have hj0 : (j (0 : Fin 3)).val < 1 := (j (0 : Fin 3)).isLt
  show (k13_pay1 (F := Ideal) (View.ld (iblk13 V a c 0 t) r13) (View.ld (iblk13 V a c 1 t) r13) : S1x1x128.Idx → EReal) (((cfg13 a).win 2).xinj ((cfg13 a).grid.coords t) j)
      = gath13 V a c ((((cfg13 a).win 2).blk t).view.emb j)
  refine (pay13_ld_apply (iblk13 V a c 0 t) (iblk13 V a c 1 t) (((cfg13 a).win 2).xinj ((cfg13 a).grid.coords t) j)).trans ?_
  have hT : (⟨t.val, t.isLt⟩ : Fin 40000) = ⟨((((cfg13 a).win 2).blk t).view.emb j (0 : Fin 3)).val, ((((cfg13 a).win 2).blk t).view.emb j (0 : Fin 3)).isLt⟩ :=
    Fin.ext (by
      show t.val = ((cfg13 a).win 2).index t (0 : Fin 3) * 1 + 1 * (j (0 : Fin 3)).val
      rw [e0]; omega)
  have hL : (⟨(j (2 : Fin 3)).val, (j (2 : Fin 3)).isLt⟩ : Fin 128) = ⟨((((cfg13 a).win 2).blk t).view.emb j (2 : Fin 3)).val, ((((cfg13 a).win 2).blk t).view.emb j (2 : Fin 3)).isLt⟩ :=
    Fin.ext (by
      show (j (2 : Fin 3)).val = ((cfg13 a).win 2).index t (2 : Fin 3) * 128 + 1 * (j (2 : Fin 3)).val
      rw [e2]; omega)
  refine Eq.trans ?_ (congrArg₂ (row13 V a c) hT hL)
  unfold row13
  exact congrArg₂ comb13 (iblk13_0_apply V a c t _ _ rfl) (iblk13_1_apply V a c t _ _ rfl)

set_option maxHeartbeats 100000 in
/-- The output window is written back at every point: the next point's block is another row. -/
theorem flush13_2 (t : Fin (cfg13 a).N) : ((cfg13 a).win 2).flush t = true := by
  unfold Window.flush
  rw [Bool.and_eq_true, Bool.or_eq_true, decide_eq_true_eq, decide_eq_true_eq]
  refine ⟨rfl, ?_⟩
  by_cases h : t.val + 1 < (cfg13 a).grid.N
  · refine Or.inr ⟨h, fun e => ?_⟩
    have e0 := congrFun e (0 : Fin 3)
    have eA : ((cfg13 a).win 2).index ⟨t.val + 1, h⟩ (0 : Fin 3) = t.val + 1 := congrFun (index13_2 a ⟨t.val + 1, h⟩) (0 : Fin 3)
    have eB : ((cfg13 a).win 2).index t (0 : Fin 3) = t.val := congrFun (index13_2 a t) (0 : Fin 3)
    rw [eA, eB] at e0
    omega
  · refine Or.inl ?_
    have hlt : t.val < (cfg13 a).grid.N := t.isLt
    omega

set_option maxHeartbeats 100000 in
/-- Every entry of the output array lies in the block of the point its row names. -/
theorem cover13 (i : S40000x1x128.Idx) :
    ∃ t : Fin (cfg13 a).N, ((cfg13 a).win 2).flush t = true ∧ i ∈ (((cfg13 a).win 2).blk t).view.set := by
  have hlt : (i (0 : Fin 3)).val < (cfg13 a).N := by rw [npts13]; exact (i (0 : Fin 3)).isLt
  obtain ⟨t, ht⟩ : ∃ t : Fin (cfg13 a).N, t.val = (i (0 : Fin 3)).val := ⟨⟨_, hlt⟩, rfl⟩
  refine ⟨t, flush13_2 a t, ?_⟩
  have hset := View.set_slice_whole main_v55 (((cfg13 a).win 2).rect t)
  refine (Eq.mpr (congrArg (fun S => i ∈ S) hset) ?_ : i ∈ ((View.whole main_v55).slice (((cfg13 a).win 2).rect t)).set)
  refine Rect.mem_set_unit.mpr (fun d => ?_)
  have e0 : ((cfg13 a).win 2).index t (0 : Fin 3) = t.val := congrFun (index13_2 a t) (0 : Fin 3)
  have eB : ((cfg13 a).win 2).index t (1 : Fin 3) = 0 := congrFun (index13_2 a t) (1 : Fin 3)
  have e2 : ((cfg13 a).win 2).index t (2 : Fin 3) = 0 := congrFun (index13_2 a t) (2 : Fin 3)
  match d with
  | ⟨0, _⟩ =>
    show ((cfg13 a).win 2).index t (0 : Fin 3) * 1 ≤ (i (0 : Fin 3)).val
      ∧ (i (0 : Fin 3)).val < ((cfg13 a).win 2).index t (0 : Fin 3) * 1 + 1
    rw [e0]; omega
  | ⟨1, _⟩ =>
    have hi : (i (1 : Fin 3)).val < 1 := (i (1 : Fin 3)).isLt
    show ((cfg13 a).win 2).index t (1 : Fin 3) * 1 ≤ (i (1 : Fin 3)).val
      ∧ (i (1 : Fin 3)).val < ((cfg13 a).win 2).index t (1 : Fin 3) * 1 + 1
    rw [eB]; omega
  | ⟨2, _⟩ =>
    have hi : (i (2 : Fin 3)).val < 128 := (i (2 : Fin 3)).isLt
    show ((cfg13 a).win 2).index t (2 : Fin 3) * 128 ≤ (i (2 : Fin 3)).val
      ∧ (i (2 : Fin 3)).val < ((cfg13 a).win 2).index t (2 : Fin 3) * 128 + 128
    rw [e2]; omega

/-- So the output array ends holding that function. -/
theorem final13 (c : Dev nD) : (dat13 (F := Ideal) V a c).arrAt 2 (cfg13 a).N = gath13 V a c :=
  (dat13 (F := Ideal) V a c).arrAt_eq_of_cover 2 (gath13 V a c) (fun t _ => flushed13_eq V a c t) (cover13 a)

/-- What gather call 1 leaves in its output array, entry by entry: the two rows its tables name, added and scaled. -/
theorem gather_out13 (c : Dev nD) (t : Fin 40000) (l : Fin 128) :
    ((dat13 (F := Ideal) V a c).arrAt 2 (cfg13 a).N : FVec Ideal S40000x1x128 .f32) (ValueIdx.ix3 t (0 : Fin 1) l)
      = (srcRows13 V c (ValueIdx.ix3 (Cert.Spec.node (a.1 0 (ValueIdx.ix1 t))) (0 : Fin 1) l)
        + dstRows13 V c (ValueIdx.ix3 (Cert.Spec.node (a.1 1 (ValueIdx.ix1 t))) (0 : Fin 1) l)) * Cert.Spec.scale :=
  congrFun (final13 V a c) (ValueIdx.ix3 t (0 : Fin 1) l)
end GatherValue

end Cert.KernelIdeal.Hand

end
-- ==== Proof.KI.Piece13.lean ====
/-
  Gather call 13's output array in terms of the launch arrays.

  Gather call 13 walks its 40000 grid points; at point t it reads row (word t of its source table) of the re-laid source
  projection and row (word t of its destination table) of the re-laid destination projection, adds them lane by lane and
  multiplies by the constant, into row t of its output. Its tables are the slices of the launch endpoint arrays from
  word 480000 on, so word t of a table is the endpoint array's word 40000 · 12 + t, and a re-laid projection's row n, lane l
  is the projected feature (batch l / 64, node n, feature l % 64). So row t, lane l of the output is lane l of the
  specification's row for edge 40000 · 12 + t.
-/
import proofs.«413139_j22651657519351_3_alg».proof.Proof.KI.Fold
import proofs.«413139_j22651657519351_3_alg».proof.Proof.KI.Walk
import proofs.«413139_j22651657519351_3_alg».proof.Proof.KI.Hs2
import proofs.«413139_j22651657519351_3_alg».proof.Proof.KI.GatherValue13
import proofs.«413139_j22651657519351_3_alg».proof.Proof.SpecRows
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe
open Idealize.SL.Sem

section Piece13

variable (m : (ℓ : Loc nD τ sig) → Buf (Elt Ideal) ℓ) (hR : InRange m)

/-- Word t of chunk 13's source table is the launch source array's word 40000 · 12 + t: the table is the slice of the
    array from word 480000 on. -/
theorem tbl13_src (t : Fin 40000) :
    (tbl13 (F := Ideal) m 0 : IVec S40000 32) (ValueIdx.ix1 t)
      = (m (((0 : Dev nD) : Thread nD τ).loc main_arg1) : IVec S800000 32) (ValueIdx.ix1 ⟨40000 * 12 + t.val, Cert.Spec.chunk_lt ⟨12, by norm_num⟩ t⟩) := by
  show extractStridedSlice S40000 ![480000] (m (((0 : Dev nD) : Thread nD τ).loc main_arg1) : IVec S800000 32) slices_S800000_S40000_480000 (ValueIdx.ix1 t) = _
  exact extractStridedSlice_apply (s := S800000) (t := S40000) ![480000] _ slices_S800000_S40000_480000 (ValueIdx.ix1 t) (ValueIdx.ix1 ⟨40000 * 12 + t.val, Cert.Spec.chunk_lt ⟨12, by norm_num⟩ t⟩)
    (fun a => match a with | ⟨0, _⟩ => by show 40000 * 12 + t.val = 480000 + t.val; omega)

/-- Word t of chunk 13's destination table is the launch destination array's word 40000 · 12 + t. -/
theorem tbl13_dst (t : Fin 40000) :
    (tbl13 (F := Ideal) m 1 : IVec S40000 32) (ValueIdx.ix1 t)
      = (m (((0 : Dev nD) : Thread nD τ).loc main_arg2) : IVec S800000 32) (ValueIdx.ix1 ⟨40000 * 12 + t.val, Cert.Spec.chunk_lt ⟨12, by norm_num⟩ t⟩) := by
  show extractStridedSlice S40000 ![480000] (m (((0 : Dev nD) : Thread nD τ).loc main_arg2) : IVec S800000 32) slices_S800000_S40000_480000 (ValueIdx.ix1 t) = _
  exact extractStridedSlice_apply (s := S800000) (t := S40000) ![480000] _ slices_S800000_S40000_480000 (ValueIdx.ix1 t) (ValueIdx.ix1 ⟨40000 * 12 + t.val, Cert.Spec.chunk_lt ⟨12, by norm_num⟩ t⟩)
    (fun a => match a with | ⟨0, _⟩ => by show 40000 * 12 + t.val = 480000 + t.val; omega)

/-- Gather call 13's output array in terms of the launch arrays: row t, lane l is lane l of edge 40000 · 12 + t's row.
    The call adds, at row t, the rows of the two re-laid projections that the tables' words t name, and scales the sum;
    the re-laid projections, untouched since host stretch 1 wrote them, hold at each row the projected features of that
    node, and the tables' words t are the endpoint arrays' words 40000 · 12 + t. -/
theorem piece13 (c : Dev nD) (t : Fin 40000) (l : Fin 128) :
    (W27 (F := Ideal) m hR c main_v55 : FVec Ideal S40000x1x128 .f32) (ValueIdx.ix3 t (0 : Fin 1) l)
      = Cert.Spec.edgeRow (m ((c : Thread nD τ).loc main_arg0)) (m ((c : Thread nD τ).loc main_arg1)) (m ((c : Thread nD τ).loc main_arg2))
          (m ((c : Thread nD τ).loc main_arg3)) (m ((c : Thread nD τ).loc main_arg4))
          ⟨40000 * 12 + t.val, Cert.Spec.chunk_lt ⟨12, by norm_num⟩ t⟩ l := by
  obtain rfl : c = 0 := Subsingleton.elim _ _
  refine (congrFun (W27_arr (F := Ideal) m hR 0 2) _).trans ?_
  refine (gather_out13 (V26 (F := Ideal) m hR) (a13 (F := Ideal) m hR) 0 t l).trans ?_
  have e1 : (W26 (F := Ideal) m hR 0 main_v2 : FVec Ideal S50000x1x128 .f32)
        (ValueIdx.ix3 (Cert.Spec.node ((tbl13 (F := Ideal) m 0 : IVec S40000 32) (ValueIdx.ix1 t))) (0 : Fin 1) l)
      = Cert.Spec.proj (m (((0 : Dev nD) : Thread nD τ).loc main_arg0)) (m (((0 : Dev nD) : Thread nD τ).loc main_arg3))
          ⟨l.val / 64, Cert.Spec.lane_div l⟩
          (Cert.Spec.node ((m (((0 : Dev nD) : Thread nD τ).loc main_arg1) : IVec S800000 32) (ValueIdx.ix1 ⟨40000 * 12 + t.val, Cert.Spec.chunk_lt ⟨12, by norm_num⟩ t⟩)))
          ⟨l.val % 64, Cert.Spec.lane_mod l⟩ := by
    rw [tbl13_src m t]
    exact (congrFun (W26_v2 (F := Ideal) m hR 0) _).trans (hs2_apply m hR 0 _ l)
  have e2 : (W26 (F := Ideal) m hR 0 main_v4 : FVec Ideal S50000x1x128 .f32)
        (ValueIdx.ix3 (Cert.Spec.node ((tbl13 (F := Ideal) m 1 : IVec S40000 32) (ValueIdx.ix1 t))) (0 : Fin 1) l)
      = Cert.Spec.proj (m (((0 : Dev nD) : Thread nD τ).loc main_arg0)) (m (((0 : Dev nD) : Thread nD τ).loc main_arg4))
          ⟨l.val / 64, Cert.Spec.lane_div l⟩
          (Cert.Spec.node ((m (((0 : Dev nD) : Thread nD τ).loc main_arg2) : IVec S800000 32) (ValueIdx.ix1 ⟨40000 * 12 + t.val, Cert.Spec.chunk_lt ⟨12, by norm_num⟩ t⟩)))
          ⟨l.val % 64, Cert.Spec.lane_mod l⟩ := by
    rw [tbl13_dst m t]
    exact (congrFun (W26_v4 (F := Ideal) m hR 0) _).trans (hd2_apply m hR 0 _ l)
  exact congrArg₂ (fun a b : EReal => (a + b) * Cert.Spec.scale) e1 e2

end Piece13

end Cert.KernelIdeal.Hand

end
-- ==== Proof.KI.FPiece13.lean ====
/-
  Chunk 13's rows as the last host stretch finds them. Host stretch 14 reshapes gather call 13's output
  [40000, 1, 128] to [40000, 128]; nothing touches that buffer until the last stretch concatenates the twenty pieces.
  With the call's output read as the rows of the specification, the piece is the specification's chunk number 12.
-/
import proofs.«413139_j22651657519351_3_alg».proof.Proof.Gen.KernelIdeal.Launch
import proofs.«413139_j22651657519351_3_alg».proof.Proof.Gen.KernelIdeal.Skeleton
import proofs.«413139_j22651657519351_3_alg».proof.Proof.Gen.KernelIdeal.Points
import proofs.«413139_j22651657519351_3_alg».proof.Proof.KI.Walk
import proofs.«413139_j22651657519351_3_alg».proof.Proof.KI.Piece13
import proofs.«413139_j22651657519351_3_alg».proof.Proof.Layout
import proofs.«413139_j22651657519351_3_alg».proof.Proof.SpecRows
import Idealize.ShloMosaic.Lib.StableHlo.Run
import Idealize.ShloMosaic.Lib.ValueIdx
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section FPiece

variable (m : (ℓ : Loc nD τ sig) → Buf (Elt Ideal) ℓ) (hR : InRange m)

theorem fpiece13 (c : Dev nD) :
    (W41 (F := Ideal) m hR c main_v56 : FVec Ideal S40000x128 .f32)
      = Cert.Spec.chunk (m ((c : Thread nD τ).loc main_arg0)) (m ((c : Thread nD τ).loc main_arg1)) (m ((c : Thread nD τ).loc main_arg2))
          (m ((c : Thread nD τ).loc main_arg3)) (m ((c : Thread nD τ).loc main_arg4)) (12 : Fin 20) := by
  funext i
  obtain ⟨t, l, rfl⟩ : ∃ (t : Fin 40000) (l : Fin 128), i = ValueIdx.ix2 t l := ⟨i 0, i 1, ValueIdx.eq_ix2 i⟩
  rw [W41_p13 m hR c]
  show StableHlo.after hostOps14 (W27 (F := Ideal) m hR c) (Proc.devRef .tc main_v56) (ValueIdx.ix2 t l) = _
  after_results
  refine (Cert.Layout.piece_apply _ _ t l).trans ?_
  exact piece13 m hR c t l

end FPiece

end Cert.KernelIdeal.Hand

end
-- ==== Proof.KI.GatherValue14.lean ====
/-
  Edge chunk 1's gather kernel: what it leaves in its output array, entry by entry, at the ideal (extended-real)
  instance, for any contents V of the buffers at the region's entry and any admissible contents of the two index tables.

  At grid point t the two gathered windows hold row (word t of table 0) of the first source array and row (word t of
  table 1) of the second: the block index of a gathered window is (that word read unsigned, 0, 0), the block is one
  row of 128 lanes, and admissibility of the tables says the word is below the 50000 rows. The body stores
  (row + row) · c into the output block, and the output window's block index is (t, 0, 0): block t is row t of the
  output array, every point writes its block back, and the blocks of the 40000 points cover the array. So the array
  ends holding, at (t, 0, l), the sum of the two named rows' entries at lane l, times c.
-/
import proofs.«413139_j22651657519351_3_alg».proof.Proof.KI.Region14
import proofs.«413139_j22651657519351_3_alg».proof.Proof.Spec
import Idealize.ShloMosaic.Lib.Pipeline.Value
import Idealize.ShloMosaic.Lib.ValueIdx
import Idealize.ShloMosaic.Lib.ValueLayout

set_option maxRecDepth 16384

noncomputable section

namespace Cert.KernelIdeal.Hand

open Cert.KernelIdeal Cert.KernelIdeal.Gen
open Idealize.ShloMosaic Idealize.ShloMosaic.TcCoe
open Idealize.SL.Sem
open Idealize.ShloMosaic.Pipeline (Dat Cfg Window)

section GatherValue
variable (V : (c : Dev nD) → (b : Ref sig .tc) → Buf (Elt Ideal) ((c : Thread nD τ).loc b))
variable (a : (pcfg14 (F := Ideal)).Adm)

/-- The grid has 40000 points, one axis. -/
theorem npts14 : (cfg14 a).N = 40000 := N_14

/-- The one coordinate of point t is t. -/
theorem coord14 (t : Fin (cfg14 a).N) : (((cfg14 a).grid.coords t) 0).val = t.val := by
  show t.val / (cfg14 a).grid.stride 0 % 40000 = t.val
  have hs : (cfg14 a).grid.stride 0 = 1 := rfl
  rw [hs]
  have := t.isLt
  have e : (cfg14 a).N = 40000 := rfl
  omega

/-- A grid coordinate, as the 32-bit word the index maps receive and back, is itself. -/
theorem wordCoord14 (n : Nat) (h : n < 40000) : (Scalar.indexCast (BitVec.ofNat 32 n)).toNat = n := by
  show (BitVec.ofNat 32 n).toNat = n
  rw [BitVec.toNat_ofNat]
  exact Nat.mod_eq_of_lt (by omega)

set_option maxHeartbeats 100000 in
/-- Output window: the block index at point t is (t, 0, 0). -/
theorem index14_2 (t : Fin (cfg14 a).N) : ((cfg14 a).win 2).index t = ![t.val, 0, 0] := by
  show cc14_transform_2 ((cfg14 a).grid.coords t) = _
  unfold cc14_transform_2
  dsimp only
  have h := coord14 a t
  have hl : t.val < 40000 := t.isLt
  funext d
  match d with
  | ⟨0, _⟩ => show (BitVec.ofNat 32 (((cfg14 a).grid.coords t) 0).val).toNat = t.val; rw [h]; exact wordCoord14 _ hl
  | ⟨1, _⟩ => rfl
  | ⟨2, _⟩ => rfl

set_option maxHeartbeats 100000 in
/-- Gathered window 0: the block index at point t is (word t of table 0, 0, 0). -/
theorem index14_0 (t : Fin (cfg14 a).N) :
    ((cfg14 a).win 0).index t = ![((a.1 0 (ValueIdx.ix1 (n := 40000) ⟨t.val, t.isLt⟩) : BitVec 32)).toNat, 0, 0] := by
  show cc14_transform_0 k14_off1_inb numel1_S1 a.1 ((cfg14 a).grid.coords t) = _
  unfold cc14_transform_0
  dsimp only
  have h := coord14 a t
  have hl : t.val < 40000 := t.isLt
  funext d
  match d with
  | ⟨0, _⟩ =>
    show ((a.1 0 _ : BitVec 32)).toNat = ((a.1 0 _ : BitVec 32)).toNat
    refine congrArg (fun j => ((a.1 0 j : BitVec 32)).toNat) ?_
    funext k
    match k with
    | ⟨0, _⟩ =>
      apply Fin.ext
      show (Scalar.indexCast (BitVec.ofNat 32 (((cfg14 a).grid.coords t) 0).val)).toNat + 1 * 0 = t.val
      rw [h, wordCoord14 _ hl]; omega
  | ⟨1, _⟩ => rfl
  | ⟨2, _⟩ => rfl

set_option maxHeartbeats 100000 in
/-- Gathered window 1: the block index at point t is (word t of table 1, 0, 0). -/
theorem index14_1 (t : Fin (cfg14 a).N) :
    ((cfg14 a).win 1).index t = ![((a.1 1 (ValueIdx.ix1 (n := 40000) ⟨t.val, t.isLt⟩) : BitVec 32)).toNat, 0, 0] := by
  show cc14_transform_1 k14_off1_inb numel1_S1 a.1 ((cfg14 a).grid.coords t) = _
  unfold cc14_transform_1
  dsimp only
  have h := coord14 a t
  have hl : t.val < 40000 := t.isLt
  funext d
  match d with
  | ⟨0, _⟩ =>
    show ((a.1 1 _ : BitVec 32)).toNat = ((a.1 1 _ : BitVec 32)).toNat
    refine congrArg (fun j => ((a.1 1 j : BitVec 32)).toNat) ?_
    funext k
    match k with
    | ⟨0, _⟩ =>
      apply Fin.ext
      show (Scalar.indexCast (BitVec.ofNat 32 (((cfg14 a).grid.coords t) 0).val)).toNat + 1 * 0 = t.val
      rw [h, wordCoord14 _ hl]; omega
  | ⟨1, _⟩ => rfl
  | ⟨2, _⟩ => rfl

theorem zeros14 : (![0, 0, 0] : Fin 3 → Nat) = fun _ => 0 := funext fun d => by fin_cases d <;> rfl

/-- The arithmetic of one entry: add, then scale. -/
abbrev comb14 (u v : EReal) : EReal := (u + v) * Cert.Spec.scale

/-- The body's payload at an index: the sum of the two loaded rows' entries there, times the scale. -/
theorem pay14_apply (x0 x2 : S1x1x128.Idx → EReal) (y : S1x1x128.Idx) :
    (k14_pay1 (F := Ideal) x0 x2 : S1x1x128.Idx → EReal) y = (x0 y + x2 y) * Cert.Spec.scale := by
  unfold k14_pay1
  rw [shapeCast_self, shapeCast_self]
  rfl

/-- The same with the two rows loaded through the whole-block rectangle. -/
theorem pay14_ld_apply (x0 x2 : Vec Ideal S1x1x128 .f32) (y : S1x1x128.Idx) :
    (k14_pay1 (F := Ideal) (View.ld x0 r14) (View.ld x2 r14) : S1x1x128.Idx → EReal) y = comb14 (x0 y) (x2 y) := by
  have hA : View.ld x0 r14 = x0 := View.ld_unit_zero (Val := Elt Ideal) (S := S1x1x128) (e := .f32) zeros14 _ x0
  have hB : View.ld x2 r14 = x2 := View.ld_unit_zero (Val := Elt Ideal) (S := S1x1x128) (e := .f32) zeros14 _ x2
  rw [hA, hB]
  exact pay14_apply x0 x2 y

/-- The word of table 0 at point t is a row of the 50000-row array. -/
theorem word14_0_lt (t : Fin (cfg14 a).N) : ((a.1 0 (ValueIdx.ix1 (n := 40000) ⟨t.val, t.isLt⟩) : BitVec 32)).toNat < 50000 := by
  obtain ⟨h, -⟩ := a.2.1 ((cfg14 a).grid.coords t)
  have h0 : (((cfg14 a).win 0).index t (0 : Fin 3) + 1) * 1 ≤ 50000 := h 0
  have e0 : ((cfg14 a).win 0).index t (0 : Fin 3) = ((a.1 0 (ValueIdx.ix1 (n := 40000) ⟨t.val, t.isLt⟩) : BitVec 32)).toNat := congrFun (index14_0 a t) (0 : Fin 3)
  rw [e0] at h0
  omega

/-- The word of table 1 at point t is a row of the 50000-row array. -/
theorem word14_1_lt (t : Fin (cfg14 a).N) : ((a.1 1 (ValueIdx.ix1 (n := 40000) ⟨t.val, t.isLt⟩) : BitVec 32)).toNat < 50000 := by
  obtain ⟨h, -⟩ := a.2.2 ((cfg14 a).grid.coords t)
  have h0 : (((cfg14 a).win 1).index t (0 : Fin 3) + 1) * 1 ≤ 50000 := h 0
  have e0 : ((cfg14 a).win 1).index t (0 : Fin 3) = ((a.1 1 (ValueIdx.ix1 (n := 40000) ⟨t.val, t.isLt⟩) : BitVec 32)).toNat := congrFun (index14_1 a t) (0 : Fin 3)
  rw [e0] at h0
  omega

/-- The two source arrays, as functions to the extended reals. -/
abbrev srcRows14 (c : Dev nD) : S50000x1x128.Idx → EReal := V c main_v2
abbrev dstRows14 (c : Dev nD) : S50000x1x128.Idx → EReal := V c main_v4

set_option maxHeartbeats 100000 in
/-- Window 0's block at point t is the row of the first source array that table 0's word t names. -/
theorem iblk14_0_apply (c : Dev nD) (t : Fin (cfg14 a).N) (y : (((cfg14 a).win 0).xblock ((cfg14 a).grid.coords t)).Idx)
    (l : Fin 128) (hl : (y (2 : Fin 3)).val = l.val) :
    (iblk14 V a c 0 t y : EReal)
      = srcRows14 V c (ValueIdx.ix3 (Cert.Spec.node (a.1 0 (ValueIdx.ix1 (n := 40000) ⟨t.val, t.isLt⟩))) (0 : Fin 1) l) := by
  have hw := word14_0_lt a t
  have e0 : ((cfg14 a).win 0).index t (0 : Fin 3) = ((a.1 0 (ValueIdx.ix1 (n := 40000) ⟨t.val, t.isLt⟩) : BitVec 32)).toNat := congrFun (index14_0 a t) (0 : Fin 3)
  have eM : ((cfg14 a).win 0).index t (1 : Fin 3) = 0 := congrFun (index14_0 a t) (1 : Fin 3)
  have e2 : ((cfg14 a).win 0).index t (2 : Fin 3) = 0 := congrFun (index14_0 a t) (2 : Fin 3)
  show V c main_v2 ((((cfg14 a).win 0).blk t).view.emb y) = V c main_v2 _
  refine congrArg (V c main_v2) ?_
  funext d
  apply Fin.ext
  match d with
  | ⟨0, _⟩ =>
    show ((cfg14 a).win 0).index t (0 : Fin 3) * 1 + 1 * (y (0 : Fin 3)).val = (Cert.Spec.node _).val
    have hy : (y (0 : Fin 3)).val < 1 := (y (0 : Fin 3)).isLt
    rw [e0, Cert.Spec.node_val hw]; omega
  | ⟨1, _⟩ =>
    show ((cfg14 a).win 0).index t (1 : Fin 3) * 1 + 1 * (y (1 : Fin 3)).val = 0
    have hy : (y (1 : Fin 3)).val < 1 := (y (1 : Fin 3)).isLt
    rw [eM]; omega
  | ⟨2, _⟩ =>
    show ((cfg14 a).win 0).index t (2 : Fin 3) * 128 + 1 * (y (2 : Fin 3)).val = l.val
    rw [e2, hl]; omega

set_option maxHeartbeats 100000 in
/-- Window 1's block at point t is the row of the second source array that table 1's word t names. -/
theorem iblk14_1_apply (c : Dev nD) (t : Fin (cfg14 a).N) (y : (((cfg14 a).win 1).xblock ((cfg14 a).grid.coords t)).Idx)
    (l : Fin 128) (hl : (y (2 : Fin 3)).val = l.val) :
    (iblk14 V a c 1 t y : EReal)
      = dstRows14 V c (ValueIdx.ix3 (Cert.Spec.node (a.1 1 (ValueIdx.ix1 (n := 40000) ⟨t.val, t.isLt⟩))) (0 : Fin 1) l) := by
  have hw := word14_1_lt a t
  have e0 : ((cfg14 a).win 1).index t (0 : Fin 3) = ((a.1 1 (ValueIdx.ix1 (n := 40000) ⟨t.val, t.isLt⟩) : BitVec 32)).toNat := congrFun (index14_1 a t) (0 : Fin 3)
  have eM : ((cfg14 a).win 1).index t (1 : Fin 3) = 0 := congrFun (index14_1 a t) (1 : Fin 3)
  have e2 : ((cfg14 a).win 1).index t (2 : Fin 3) = 0 := congrFun (index14_1 a t) (2 : Fin 3)
  show V c main_v4 ((((cfg14 a).win 1).blk t).view.emb y) = V c main_v4 _
  refine congrArg (V c main_v4) ?_
  funext d
  apply Fin.ext
  match d with
  | ⟨0, _⟩ =>
    show ((cfg14 a).win 1).index t (0 : Fin 3) * 1 + 1 * (y (0 : Fin 3)).val = (Cert.Spec.node _).val
    have hy : (y (0 : Fin 3)).val < 1 := (y (0 : Fin 3)).isLt
    rw [e0, Cert.Spec.node_val hw]; omega
  | ⟨1, _⟩ =>
    show ((cfg14 a).win 1).index t (1 : Fin 3) * 1 + 1 * (y (1 : Fin 3)).val = 0
    have hy : (y (1 : Fin 3)).val < 1 := (y (1 : Fin 3)).isLt
    rw [eM]; omega
  | ⟨2, _⟩ =>
    show ((cfg14 a).win 1).index t (2 : Fin 3) * 128 + 1 * (y (2 : Fin 3)).val = l.val
    rw [e2, hl]; omega

/-- Entry (t, l) of what the call leaves: the two gathered rows' entries at lane l, added and scaled. -/
def row14 (c : Dev nD) (t : Fin 40000) (l : Fin 128) : EReal :=
  comb14 (srcRows14 V c (ValueIdx.ix3 (Cert.Spec.node (a.1 0 (ValueIdx.ix1 t))) (0 : Fin 1) l))
    (dstRows14 V c (ValueIdx.ix3 (Cert.Spec.node (a.1 1 (ValueIdx.ix1 t))) (0 : Fin 1) l))

/-- The whole output array as one function of its index. -/
def gath14 (c : Dev nD) : S40000x1x128.Idx → EReal :=
  fun i => row14 V a c ⟨(i (0 : Fin 3)).val, (i (0 : Fin 3)).isLt⟩ ⟨(i (2 : Fin 3)).val, (i (2 : Fin 3)).isLt⟩

set_option maxHeartbeats 200000 in
/-- What point t writes back is block t of that function. -/
theorem flushed14_eq (c : Dev nD) (t : Fin (cfg14 a).N) :
    (dat14 (F := Ideal) V a c).flushed 2 t = (((cfg14 a).win 2).blk t).view.read (Elt Ideal) (gath14 V a c) := by
  show ((cfg14 a).win 2).cut ((cfg14 a).grid.coords t) ((dat14 V a c).after 2 t) = _
  rw [after14_2]
  unfold out14_2
  rw [View.canon_unit_zero zeros14]
  funext j
  have e0 : ((cfg14 a).win 2).index t (0 : Fin 3) = t.val := congrFun (index14_2 a t) (0 : Fin 3)
  have e2 : ((cfg14 a).win 2).index t (2 : Fin 3) = 0 := congrFun (index14_2 a t) (2 : Fin 3)
  have hj0 : (j (0 : Fin 3)).val < 1 := (j (0 : Fin 3)).isLt
  show (k14_pay1 (F := Ideal) (View.ld (iblk14 V a c 0 t) r14) (View.ld (iblk14 V a c 1 t) r14) : S1x1x128.Idx → EReal) (((cfg14 a).win 2).xinj ((cfg14 a).grid.coords t) j)
      = gath14 V a c ((((cfg14 a).win 2).blk t).view.emb j)
  refine (pay14_ld_apply (iblk14 V a c 0 t) (iblk14 V a c 1 t) (((cfg14 a).win 2).xinj ((cfg14 a).grid.coords t) j)).trans ?_
  have hT : (⟨t.val, t.isLt⟩ : Fin 40000) = ⟨((((cfg14 a).win 2).blk t).view.emb j (0 : Fin 3)).val, ((((cfg14 a).win 2).blk t).view.emb j (0 : Fin 3)).isLt⟩ :=
    Fin.ext (by
      show t.val = ((cfg14 a).win 2).index t (0 : Fin 3) * 1 + 1 * (j (0 : Fin 3)).val
      rw [e0]; omega)
  have hL : (⟨(j (2 : Fin 3)).val, (j (2 : Fin 3)).isLt⟩ : Fin 128) = ⟨((((cfg14 a).win 2).blk t).view.emb j (2 : Fin 3)).val, ((((cfg14 a).win 2).blk t).view.emb j (2 : Fin 3)).isLt⟩ :=
    Fin.ext (by
      show (j (2 : Fin 3)).val = ((cfg14 a).win 2).index t (2 : Fin 3) * 128 + 1 * (j (2 : Fin 3)).val
      rw [e2]; omega)
  refine Eq.trans ?_ (congrArg₂ (row14 V a c) hT hL)
  unfold row14
  exact congrArg₂ comb14 (iblk14_0_apply V a c t _ _ rfl) (iblk14_1_apply V a c t _ _ rfl)

set_option maxHeartbeats 100000 in
/-- The output window is written back at every point: the next point's block is another row. -/
theorem flush14_2 (t : Fin (cfg14 a).N) : ((cfg14 a).win 2).flush t = true := by
  unfold Window.flush
  rw [Bool.and_eq_true, Bool.or_eq_true, decide_eq_true_eq, decide_eq_true_eq]
  refine ⟨rfl, ?_⟩
  by_cases h : t.val + 1 < (cfg14 a).grid.N
  · refine Or.inr ⟨h, fun e => ?_⟩
    have e0 := congrFun e (0 : Fin 3)
    have eA : ((cfg14 a).win 2).index ⟨t.val + 1, h⟩ (0 : Fin 3) = t.val + 1 := congrFun (index14_2 a ⟨t.val + 1, h⟩) (0 : Fin 3)
    have eB : ((cfg14 a).win 2).index t (0 : Fin 3) = t.val := congrFun (index14_2 a t) (0 : Fin 3)
    rw [eA, eB] at e0
    omega
  · refine Or.inl ?_
    have hlt : t.val < (cfg14 a).grid.N := t.isLt
    omega

set_option maxHeartbeats 100000 in
/-- Every entry of the output array lies in the block of the point its row names. -/
theorem cover14 (i : S40000x1x128.Idx) :
    ∃ t : Fin (cfg14 a).N, ((cfg14 a).win 2).flush t = true ∧ i ∈ (((cfg14 a).win 2).blk t).view.set := by
  have hlt : (i (0 : Fin 3)).val < (cfg14 a).N := by rw [npts14]; exact (i (0 : Fin 3)).isLt
  obtain ⟨t, ht⟩ : ∃ t : Fin (cfg14 a).N, t.val = (i (0 : Fin 3)).val := ⟨⟨_, hlt⟩, rfl⟩
  refine ⟨t, flush14_2 a t, ?_⟩
  have hset := View.set_slice_whole main_v59 (((cfg14 a).win 2).rect t)
  refine (Eq.mpr (congrArg (fun S => i ∈ S) hset) ?_ : i ∈ ((View.whole main_v59).slice (((cfg14 a).win 2).rect t)).set)
  refine Rect.mem_set_unit.mpr (fun d => ?_)
  have e0 : ((cfg14 a).win 2).index t (0 : Fin 3) = t.val := congrFun (index14_2 a t) (0 : Fin 3)
  have eB : ((cfg14 a).win 2).index t (1 : Fin 3) = 0 := congrFun (index14_2 a t) (1 : Fin 3)
  have e2 : ((cfg14 a).win 2).index t (2 : Fin 3) = 0 := congrFun (index14_2 a t) (2 : Fin 3)
  match d with
  | ⟨0, _⟩ =>
    show ((cfg14 a).win 2).index t (0 : Fin 3) * 1 ≤ (i (0 : Fin 3)).val
      ∧ (i (0 : Fin 3)).val < ((cfg14 a).win 2).index t (0 : Fin 3) * 1 + 1
    rw [e0]; omega
  | ⟨1, _⟩ =>
    have hi : (i (1 : Fin 3)).val < 1 := (i (1 : Fin 3)).isLt
    show ((cfg14 a).win 2).index t (1 : Fin 3) * 1 ≤ (i (1 : Fin 3)).val
      ∧ (i (1 : Fin 3)).val < ((cfg14 a).win 2).index t (1 : Fin 3) * 1 + 1
    rw [eB]; omega
  | ⟨2, _⟩ =>
    have hi : (i (2 : Fin 3)).val < 128 := (i (2 : Fin 3)).isLt
    show ((cfg14 a).win 2).index t (2 : Fin 3) * 128 ≤ (i (2 : Fin 3)).val
      ∧ (i (2 : Fin 3)).val < ((cfg14 a).win 2).index t (2 : Fin 3) * 128 + 128
    rw [e2]; omega

/-- So the output array ends holding that function. -/
theorem final14 (c : Dev nD) : (dat14 (F := Ideal) V a c).arrAt 2 (cfg14 a).N = gath14 V a c :=
  (dat14 (F := Ideal) V a c).arrAt_eq_of_cover 2 (gath14 V a c) (fun t _ => flushed14_eq V a c t) (cover14 a)

/-- What gather call 1 leaves in its output array, entry by entry: the two rows its tables name, added and scaled. -/
theorem gather_out14 (c : Dev nD) (t : Fin 40000) (l : Fin 128) :
    ((dat14 (F := Ideal) V a c).arrAt 2 (cfg14 a).N : FVec Ideal S40000x1x128 .f32) (ValueIdx.ix3 t (0 : Fin 1) l)
      = (srcRows14 V c (ValueIdx.ix3 (Cert.Spec.node (a.1 0 (ValueIdx.ix1 t))) (0 : Fin 1) l)
        + dstRows14 V c (ValueIdx.ix3 (Cert.Spec.node (a.1 1 (ValueIdx.ix1 t))) (0 : Fin 1) l)) * Cert.Spec.scale :=
  congrFun (final14 V a c) (ValueIdx.ix3 t (0 : Fin 1) l)
end GatherValue

end Cert.KernelIdeal.Hand

end
-- ==== Proof.KI.Piece14.lean ====
/-
  Gather call 14's output array in terms of the launch arrays.

  Gather call 14 walks its 40000 grid points; at point t it reads row (word t of its source table) of the re-laid source
  projection and row (word t of its destination table) of the re-laid destination projection, adds them lane by lane and
  multiplies by the constant, into row t of its output. Its tables are the slices of the launch endpoint arrays from
  word 520000 on, so word t of a table is the endpoint array's word 40000 · 13 + t, and a re-laid projection's row n, lane l
  is the projected feature (batch l / 64, node n, feature l % 64). So row t, lane l of the output is lane l of the
  specification's row for edge 40000 · 13 + t.
-/
import proofs.«413139_j22651657519351_3_alg».proof.Proof.KI.Fold
import proofs.«413139_j22651657519351_3_alg».proof.Proof.KI.Walk
import proofs.«413139_j22651657519351_3_alg».proof.Proof.KI.Hs2
import proofs.«413139_j22651657519351_3_alg».proof.Proof.KI.GatherValue14
import proofs.«413139_j22651657519351_3_alg».proof.Proof.SpecRows
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe
open Idealize.SL.Sem

section Piece14

variable (m : (ℓ : Loc nD τ sig) → Buf (Elt Ideal) ℓ) (hR : InRange m)

/-- Word t of chunk 14's source table is the launch source array's word 40000 · 13 + t: the table is the slice of the
    array from word 520000 on. -/
theorem tbl14_src (t : Fin 40000) :
    (tbl14 (F := Ideal) m 0 : IVec S40000 32) (ValueIdx.ix1 t)
      = (m (((0 : Dev nD) : Thread nD τ).loc main_arg1) : IVec S800000 32) (ValueIdx.ix1 ⟨40000 * 13 + t.val, Cert.Spec.chunk_lt ⟨13, by norm_num⟩ t⟩) := by
  show extractStridedSlice S40000 ![520000] (m (((0 : Dev nD) : Thread nD τ).loc main_arg1) : IVec S800000 32) slices_S800000_S40000_520000 (ValueIdx.ix1 t) = _
  exact extractStridedSlice_apply (s := S800000) (t := S40000) ![520000] _ slices_S800000_S40000_520000 (ValueIdx.ix1 t) (ValueIdx.ix1 ⟨40000 * 13 + t.val, Cert.Spec.chunk_lt ⟨13, by norm_num⟩ t⟩)
    (fun a => match a with | ⟨0, _⟩ => by show 40000 * 13 + t.val = 520000 + t.val; omega)

/-- Word t of chunk 14's destination table is the launch destination array's word 40000 · 13 + t. -/
theorem tbl14_dst (t : Fin 40000) :
    (tbl14 (F := Ideal) m 1 : IVec S40000 32) (ValueIdx.ix1 t)
      = (m (((0 : Dev nD) : Thread nD τ).loc main_arg2) : IVec S800000 32) (ValueIdx.ix1 ⟨40000 * 13 + t.val, Cert.Spec.chunk_lt ⟨13, by norm_num⟩ t⟩) := by
  show extractStridedSlice S40000 ![520000] (m (((0 : Dev nD) : Thread nD τ).loc main_arg2) : IVec S800000 32) slices_S800000_S40000_520000 (ValueIdx.ix1 t) = _
  exact extractStridedSlice_apply (s := S800000) (t := S40000) ![520000] _ slices_S800000_S40000_520000 (ValueIdx.ix1 t) (ValueIdx.ix1 ⟨40000 * 13 + t.val, Cert.Spec.chunk_lt ⟨13, by norm_num⟩ t⟩)
    (fun a => match a with | ⟨0, _⟩ => by show 40000 * 13 + t.val = 520000 + t.val; omega)

/-- Gather call 14's output array in terms of the launch arrays: row t, lane l is lane l of edge 40000 · 13 + t's row.
    The call adds, at row t, the rows of the two re-laid projections that the tables' words t name, and scales the sum;
    the re-laid projections, untouched since host stretch 1 wrote them, hold at each row the projected features of that
    node, and the tables' words t are the endpoint arrays' words 40000 · 13 + t. -/
theorem piece14 (c : Dev nD) (t : Fin 40000) (l : Fin 128) :
    (W29 (F := Ideal) m hR c main_v59 : FVec Ideal S40000x1x128 .f32) (ValueIdx.ix3 t (0 : Fin 1) l)
      = Cert.Spec.edgeRow (m ((c : Thread nD τ).loc main_arg0)) (m ((c : Thread nD τ).loc main_arg1)) (m ((c : Thread nD τ).loc main_arg2))
          (m ((c : Thread nD τ).loc main_arg3)) (m ((c : Thread nD τ).loc main_arg4))
          ⟨40000 * 13 + t.val, Cert.Spec.chunk_lt ⟨13, by norm_num⟩ t⟩ l := by
  obtain rfl : c = 0 := Subsingleton.elim _ _
  refine (congrFun (W29_arr (F := Ideal) m hR 0 2) _).trans ?_
  refine (gather_out14 (V28 (F := Ideal) m hR) (a14 (F := Ideal) m hR) 0 t l).trans ?_
  have e1 : (W28 (F := Ideal) m hR 0 main_v2 : FVec Ideal S50000x1x128 .f32)
        (ValueIdx.ix3 (Cert.Spec.node ((tbl14 (F := Ideal) m 0 : IVec S40000 32) (ValueIdx.ix1 t))) (0 : Fin 1) l)
      = Cert.Spec.proj (m (((0 : Dev nD) : Thread nD τ).loc main_arg0)) (m (((0 : Dev nD) : Thread nD τ).loc main_arg3))
          ⟨l.val / 64, Cert.Spec.lane_div l⟩
          (Cert.Spec.node ((m (((0 : Dev nD) : Thread nD τ).loc main_arg1) : IVec S800000 32) (ValueIdx.ix1 ⟨40000 * 13 + t.val, Cert.Spec.chunk_lt ⟨13, by norm_num⟩ t⟩)))
          ⟨l.val % 64, Cert.Spec.lane_mod l⟩ := by
    rw [tbl14_src m t]
    exact (congrFun (W28_v2 (F := Ideal) m hR 0) _).trans (hs2_apply m hR 0 _ l)
  have e2 : (W28 (F := Ideal) m hR 0 main_v4 : FVec Ideal S50000x1x128 .f32)
        (ValueIdx.ix3 (Cert.Spec.node ((tbl14 (F := Ideal) m 1 : IVec S40000 32) (ValueIdx.ix1 t))) (0 : Fin 1) l)
      = Cert.Spec.proj (m (((0 : Dev nD) : Thread nD τ).loc main_arg0)) (m (((0 : Dev nD) : Thread nD τ).loc main_arg4))
          ⟨l.val / 64, Cert.Spec.lane_div l⟩
          (Cert.Spec.node ((m (((0 : Dev nD) : Thread nD τ).loc main_arg2) : IVec S800000 32) (ValueIdx.ix1 ⟨40000 * 13 + t.val, Cert.Spec.chunk_lt ⟨13, by norm_num⟩ t⟩)))
          ⟨l.val % 64, Cert.Spec.lane_mod l⟩ := by
    rw [tbl14_dst m t]
    exact (congrFun (W28_v4 (F := Ideal) m hR 0) _).trans (hd2_apply m hR 0 _ l)
  exact congrArg₂ (fun a b : EReal => (a + b) * Cert.Spec.scale) e1 e2

end Piece14

end Cert.KernelIdeal.Hand

end
-- ==== Proof.KI.FPiece14.lean ====
/-
  Chunk 14's rows as the last host stretch finds them. Host stretch 15 reshapes gather call 14's output
  [40000, 1, 128] to [40000, 128]; nothing touches that buffer until the last stretch concatenates the twenty pieces.
  With the call's output read as the rows of the specification, the piece is the specification's chunk number 13.
-/
import proofs.«413139_j22651657519351_3_alg».proof.Proof.Gen.KernelIdeal.Launch
import proofs.«413139_j22651657519351_3_alg».proof.Proof.Gen.KernelIdeal.Skeleton
import proofs.«413139_j22651657519351_3_alg».proof.Proof.Gen.KernelIdeal.Points
import proofs.«413139_j22651657519351_3_alg».proof.Proof.KI.Walk
import proofs.«413139_j22651657519351_3_alg».proof.Proof.KI.Piece14
import proofs.«413139_j22651657519351_3_alg».proof.Proof.Layout
import proofs.«413139_j22651657519351_3_alg».proof.Proof.SpecRows
import Idealize.ShloMosaic.Lib.StableHlo.Run
import Idealize.ShloMosaic.Lib.ValueIdx
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section FPiece

variable (m : (ℓ : Loc nD τ sig) → Buf (Elt Ideal) ℓ) (hR : InRange m)

theorem fpiece14 (c : Dev nD) :
    (W41 (F := Ideal) m hR c main_v60 : FVec Ideal S40000x128 .f32)
      = Cert.Spec.chunk (m ((c : Thread nD τ).loc main_arg0)) (m ((c : Thread nD τ).loc main_arg1)) (m ((c : Thread nD τ).loc main_arg2))
          (m ((c : Thread nD τ).loc main_arg3)) (m ((c : Thread nD τ).loc main_arg4)) (13 : Fin 20) := by
  funext i
  obtain ⟨t, l, rfl⟩ : ∃ (t : Fin 40000) (l : Fin 128), i = ValueIdx.ix2 t l := ⟨i 0, i 1, ValueIdx.eq_ix2 i⟩
  rw [W41_p14 m hR c]
  show StableHlo.after hostOps15 (W29 (F := Ideal) m hR c) (Proc.devRef .tc main_v60) (ValueIdx.ix2 t l) = _
  after_results
  refine (Cert.Layout.piece_apply _ _ t l).trans ?_
  exact piece14 m hR c t l

end FPiece

end Cert.KernelIdeal.Hand

end
-- ==== Proof.KI.GatherValue15.lean ====
/-
  Edge chunk 1's gather kernel: what it leaves in its output array, entry by entry, at the ideal (extended-real)
  instance, for any contents V of the buffers at the region's entry and any admissible contents of the two index tables.

  At grid point t the two gathered windows hold row (word t of table 0) of the first source array and row (word t of
  table 1) of the second: the block index of a gathered window is (that word read unsigned, 0, 0), the block is one
  row of 128 lanes, and admissibility of the tables says the word is below the 50000 rows. The body stores
  (row + row) · c into the output block, and the output window's block index is (t, 0, 0): block t is row t of the
  output array, every point writes its block back, and the blocks of the 40000 points cover the array. So the array
  ends holding, at (t, 0, l), the sum of the two named rows' entries at lane l, times c.
-/
import proofs.«413139_j22651657519351_3_alg».proof.Proof.KI.Region15
import proofs.«413139_j22651657519351_3_alg».proof.Proof.Spec
import Idealize.ShloMosaic.Lib.Pipeline.Value
import Idealize.ShloMosaic.Lib.ValueIdx
import Idealize.ShloMosaic.Lib.ValueLayout

set_option maxRecDepth 16384

noncomputable section

namespace Cert.KernelIdeal.Hand

open Cert.KernelIdeal Cert.KernelIdeal.Gen
open Idealize.ShloMosaic Idealize.ShloMosaic.TcCoe
open Idealize.SL.Sem
open Idealize.ShloMosaic.Pipeline (Dat Cfg Window)

section GatherValue
variable (V : (c : Dev nD) → (b : Ref sig .tc) → Buf (Elt Ideal) ((c : Thread nD τ).loc b))
variable (a : (pcfg15 (F := Ideal)).Adm)

/-- The grid has 40000 points, one axis. -/
theorem npts15 : (cfg15 a).N = 40000 := N_15

/-- The one coordinate of point t is t. -/
theorem coord15 (t : Fin (cfg15 a).N) : (((cfg15 a).grid.coords t) 0).val = t.val := by
  show t.val / (cfg15 a).grid.stride 0 % 40000 = t.val
  have hs : (cfg15 a).grid.stride 0 = 1 := rfl
  rw [hs]
  have := t.isLt
  have e : (cfg15 a).N = 40000 := rfl
  omega

/-- A grid coordinate, as the 32-bit word the index maps receive and back, is itself. -/
theorem wordCoord15 (n : Nat) (h : n < 40000) : (Scalar.indexCast (BitVec.ofNat 32 n)).toNat = n := by
  show (BitVec.ofNat 32 n).toNat = n
  rw [BitVec.toNat_ofNat]
  exact Nat.mod_eq_of_lt (by omega)

set_option maxHeartbeats 100000 in
/-- Output window: the block index at point t is (t, 0, 0). -/
theorem index15_2 (t : Fin (cfg15 a).N) : ((cfg15 a).win 2).index t = ![t.val, 0, 0] := by
  show cc15_transform_2 ((cfg15 a).grid.coords t) = _
  unfold cc15_transform_2
  dsimp only
  have h := coord15 a t
  have hl : t.val < 40000 := t.isLt
  funext d
  match d with
  | ⟨0, _⟩ => show (BitVec.ofNat 32 (((cfg15 a).grid.coords t) 0).val).toNat = t.val; rw [h]; exact wordCoord15 _ hl
  | ⟨1, _⟩ => rfl
  | ⟨2, _⟩ => rfl

set_option maxHeartbeats 100000 in
/-- Gathered window 0: the block index at point t is (word t of table 0, 0, 0). -/
theorem index15_0 (t : Fin (cfg15 a).N) :
    ((cfg15 a).win 0).index t = ![((a.1 0 (ValueIdx.ix1 (n := 40000) ⟨t.val, t.isLt⟩) : BitVec 32)).toNat, 0, 0] := by
  show cc15_transform_0 k15_off1_inb numel1_S1 a.1 ((cfg15 a).grid.coords t) = _
  unfold cc15_transform_0
  dsimp only
  have h := coord15 a t
  have hl : t.val < 40000 := t.isLt
  funext d
  match d with
  | ⟨0, _⟩ =>
    show ((a.1 0 _ : BitVec 32)).toNat = ((a.1 0 _ : BitVec 32)).toNat
    refine congrArg (fun j => ((a.1 0 j : BitVec 32)).toNat) ?_
    funext k
    match k with
    | ⟨0, _⟩ =>
      apply Fin.ext
      show (Scalar.indexCast (BitVec.ofNat 32 (((cfg15 a).grid.coords t) 0).val)).toNat + 1 * 0 = t.val
      rw [h, wordCoord15 _ hl]; omega
  | ⟨1, _⟩ => rfl
  | ⟨2, _⟩ => rfl

set_option maxHeartbeats 100000 in
/-- Gathered window 1: the block index at point t is (word t of table 1, 0, 0). -/
theorem index15_1 (t : Fin (cfg15 a).N) :
    ((cfg15 a).win 1).index t = ![((a.1 1 (ValueIdx.ix1 (n := 40000) ⟨t.val, t.isLt⟩) : BitVec 32)).toNat, 0, 0] := by
  show cc15_transform_1 k15_off1_inb numel1_S1 a.1 ((cfg15 a).grid.coords t) = _
  unfold cc15_transform_1
  dsimp only
  have h := coord15 a t
  have hl : t.val < 40000 := t.isLt
  funext d
  match d with
  | ⟨0, _⟩ =>
    show ((a.1 1 _ : BitVec 32)).toNat = ((a.1 1 _ : BitVec 32)).toNat
    refine congrArg (fun j => ((a.1 1 j : BitVec 32)).toNat) ?_
    funext k
    match k with
    | ⟨0, _⟩ =>
      apply Fin.ext
      show (Scalar.indexCast (BitVec.ofNat 32 (((cfg15 a).grid.coords t) 0).val)).toNat + 1 * 0 = t.val
      rw [h, wordCoord15 _ hl]; omega
  | ⟨1, _⟩ => rfl
  | ⟨2, _⟩ => rfl

theorem zeros15 : (![0, 0, 0] : Fin 3 → Nat) = fun _ => 0 := funext fun d => by fin_cases d <;> rfl

/-- The arithmetic of one entry: add, then scale. -/
abbrev comb15 (u v : EReal) : EReal := (u + v) * Cert.Spec.scale

/-- The body's payload at an index: the sum of the two loaded rows' entries there, times the scale. -/
theorem pay15_apply (x0 x2 : S1x1x128.Idx → EReal) (y : S1x1x128.Idx) :
    (k15_pay1 (F := Ideal) x0 x2 : S1x1x128.Idx → EReal) y = (x0 y + x2 y) * Cert.Spec.scale := by
  unfold k15_pay1
  rw [shapeCast_self, shapeCast_self]
  rfl

/-- The same with the two rows loaded through the whole-block rectangle. -/
theorem pay15_ld_apply (x0 x2 : Vec Ideal S1x1x128 .f32) (y : S1x1x128.Idx) :
    (k15_pay1 (F := Ideal) (View.ld x0 r15) (View.ld x2 r15) : S1x1x128.Idx → EReal) y = comb15 (x0 y) (x2 y) := by
  have hA : View.ld x0 r15 = x0 := View.ld_unit_zero (Val := Elt Ideal) (S := S1x1x128) (e := .f32) zeros15 _ x0
  have hB : View.ld x2 r15 = x2 := View.ld_unit_zero (Val := Elt Ideal) (S := S1x1x128) (e := .f32) zeros15 _ x2
  rw [hA, hB]
  exact pay15_apply x0 x2 y

/-- The word of table 0 at point t is a row of the 50000-row array. -/
theorem word15_0_lt (t : Fin (cfg15 a).N) : ((a.1 0 (ValueIdx.ix1 (n := 40000) ⟨t.val, t.isLt⟩) : BitVec 32)).toNat < 50000 := by
  obtain ⟨h, -⟩ := a.2.1 ((cfg15 a).grid.coords t)
  have h0 : (((cfg15 a).win 0).index t (0 : Fin 3) + 1) * 1 ≤ 50000 := h 0
  have e0 : ((cfg15 a).win 0).index t (0 : Fin 3) = ((a.1 0 (ValueIdx.ix1 (n := 40000) ⟨t.val, t.isLt⟩) : BitVec 32)).toNat := congrFun (index15_0 a t) (0 : Fin 3)
  rw [e0] at h0
  omega

/-- The word of table 1 at point t is a row of the 50000-row array. -/
theorem word15_1_lt (t : Fin (cfg15 a).N) : ((a.1 1 (ValueIdx.ix1 (n := 40000) ⟨t.val, t.isLt⟩) : BitVec 32)).toNat < 50000 := by
  obtain ⟨h, -⟩ := a.2.2 ((cfg15 a).grid.coords t)
  have h0 : (((cfg15 a).win 1).index t (0 : Fin 3) + 1) * 1 ≤ 50000 := h 0
  have e0 : ((cfg15 a).win 1).index t (0 : Fin 3) = ((a.1 1 (ValueIdx.ix1 (n := 40000) ⟨t.val, t.isLt⟩) : BitVec 32)).toNat := congrFun (index15_1 a t) (0 : Fin 3)
  rw [e0] at h0
  omega

/-- The two source arrays, as functions to the extended reals. -/
abbrev srcRows15 (c : Dev nD) : S50000x1x128.Idx → EReal := V c main_v2
abbrev dstRows15 (c : Dev nD) : S50000x1x128.Idx → EReal := V c main_v4

set_option maxHeartbeats 100000 in
/-- Window 0's block at point t is the row of the first source array that table 0's word t names. -/
theorem iblk15_0_apply (c : Dev nD) (t : Fin (cfg15 a).N) (y : (((cfg15 a).win 0).xblock ((cfg15 a).grid.coords t)).Idx)
    (l : Fin 128) (hl : (y (2 : Fin 3)).val = l.val) :
    (iblk15 V a c 0 t y : EReal)
      = srcRows15 V c (ValueIdx.ix3 (Cert.Spec.node (a.1 0 (ValueIdx.ix1 (n := 40000) ⟨t.val, t.isLt⟩))) (0 : Fin 1) l) := by
  have hw := word15_0_lt a t
  have e0 : ((cfg15 a).win 0).index t (0 : Fin 3) = ((a.1 0 (ValueIdx.ix1 (n := 40000) ⟨t.val, t.isLt⟩) : BitVec 32)).toNat := congrFun (index15_0 a t) (0 : Fin 3)
  have eM : ((cfg15 a).win 0).index t (1 : Fin 3) = 0 := congrFun (index15_0 a t) (1 : Fin 3)
  have e2 : ((cfg15 a).win 0).index t (2 : Fin 3) = 0 := congrFun (index15_0 a t) (2 : Fin 3)
  show V c main_v2 ((((cfg15 a).win 0).blk t).view.emb y) = V c main_v2 _
  refine congrArg (V c main_v2) ?_
  funext d
  apply Fin.ext
  match d with
  | ⟨0, _⟩ =>
    show ((cfg15 a).win 0).index t (0 : Fin 3) * 1 + 1 * (y (0 : Fin 3)).val = (Cert.Spec.node _).val
    have hy : (y (0 : Fin 3)).val < 1 := (y (0 : Fin 3)).isLt
    rw [e0, Cert.Spec.node_val hw]; omega
  | ⟨1, _⟩ =>
    show ((cfg15 a).win 0).index t (1 : Fin 3) * 1 + 1 * (y (1 : Fin 3)).val = 0
    have hy : (y (1 : Fin 3)).val < 1 := (y (1 : Fin 3)).isLt
    rw [eM]; omega
  | ⟨2, _⟩ =>
    show ((cfg15 a).win 0).index t (2 : Fin 3) * 128 + 1 * (y (2 : Fin 3)).val = l.val
    rw [e2, hl]; omega

set_option maxHeartbeats 100000 in
/-- Window 1's block at point t is the row of the second source array that table 1's word t names. -/
theorem iblk15_1_apply (c : Dev nD) (t : Fin (cfg15 a).N) (y : (((cfg15 a).win 1).xblock ((cfg15 a).grid.coords t)).Idx)
    (l : Fin 128) (hl : (y (2 : Fin 3)).val = l.val) :
    (iblk15 V a c 1 t y : EReal)
      = dstRows15 V c (ValueIdx.ix3 (Cert.Spec.node (a.1 1 (ValueIdx.ix1 (n := 40000) ⟨t.val, t.isLt⟩))) (0 : Fin 1) l) := by
  have hw := word15_1_lt a t
  have e0 : ((cfg15 a).win 1).index t (0 : Fin 3) = ((a.1 1 (ValueIdx.ix1 (n := 40000) ⟨t.val, t.isLt⟩) : BitVec 32)).toNat := congrFun (index15_1 a t) (0 : Fin 3)
  have eM : ((cfg15 a).win 1).index t (1 : Fin 3) = 0 := congrFun (index15_1 a t) (1 : Fin 3)
  have e2 : ((cfg15 a).win 1).index t (2 : Fin 3) = 0 := congrFun (index15_1 a t) (2 : Fin 3)
  show V c main_v4 ((((cfg15 a).win 1).blk t).view.emb y) = V c main_v4 _
  refine congrArg (V c main_v4) ?_
  funext d
  apply Fin.ext
  match d with
  | ⟨0, _⟩ =>
    show ((cfg15 a).win 1).index t (0 : Fin 3) * 1 + 1 * (y (0 : Fin 3)).val = (Cert.Spec.node _).val
    have hy : (y (0 : Fin 3)).val < 1 := (y (0 : Fin 3)).isLt
    rw [e0, Cert.Spec.node_val hw]; omega
  | ⟨1, _⟩ =>
    show ((cfg15 a).win 1).index t (1 : Fin 3) * 1 + 1 * (y (1 : Fin 3)).val = 0
    have hy : (y (1 : Fin 3)).val < 1 := (y (1 : Fin 3)).isLt
    rw [eM]; omega
  | ⟨2, _⟩ =>
    show ((cfg15 a).win 1).index t (2 : Fin 3) * 128 + 1 * (y (2 : Fin 3)).val = l.val
    rw [e2, hl]; omega

/-- Entry (t, l) of what the call leaves: the two gathered rows' entries at lane l, added and scaled. -/
def row15 (c : Dev nD) (t : Fin 40000) (l : Fin 128) : EReal :=
  comb15 (srcRows15 V c (ValueIdx.ix3 (Cert.Spec.node (a.1 0 (ValueIdx.ix1 t))) (0 : Fin 1) l))
    (dstRows15 V c (ValueIdx.ix3 (Cert.Spec.node (a.1 1 (ValueIdx.ix1 t))) (0 : Fin 1) l))

/-- The whole output array as one function of its index. -/
def gath15 (c : Dev nD) : S40000x1x128.Idx → EReal :=
  fun i => row15 V a c ⟨(i (0 : Fin 3)).val, (i (0 : Fin 3)).isLt⟩ ⟨(i (2 : Fin 3)).val, (i (2 : Fin 3)).isLt⟩

set_option maxHeartbeats 200000 in
/-- What point t writes back is block t of that function. -/
theorem flushed15_eq (c : Dev nD) (t : Fin (cfg15 a).N) :
    (dat15 (F := Ideal) V a c).flushed 2 t = (((cfg15 a).win 2).blk t).view.read (Elt Ideal) (gath15 V a c) := by
  show ((cfg15 a).win 2).cut ((cfg15 a).grid.coords t) ((dat15 V a c).after 2 t) = _
  rw [after15_2]
  unfold out15_2
  rw [View.canon_unit_zero zeros15]
  funext j
  have e0 : ((cfg15 a).win 2).index t (0 : Fin 3) = t.val := congrFun (index15_2 a t) (0 : Fin 3)
  have e2 : ((cfg15 a).win 2).index t (2 : Fin 3) = 0 := congrFun (index15_2 a t) (2 : Fin 3)
  have hj0 : (j (0 : Fin 3)).val < 1 := (j (0 : Fin 3)).isLt
  show (k15_pay1 (F := Ideal) (View.ld (iblk15 V a c 0 t) r15) (View.ld (iblk15 V a c 1 t) r15) : S1x1x128.Idx → EReal) (((cfg15 a).win 2).xinj ((cfg15 a).grid.coords t) j)
      = gath15 V a c ((((cfg15 a).win 2).blk t).view.emb j)
  refine (pay15_ld_apply (iblk15 V a c 0 t) (iblk15 V a c 1 t) (((cfg15 a).win 2).xinj ((cfg15 a).grid.coords t) j)).trans ?_
  have hT : (⟨t.val, t.isLt⟩ : Fin 40000) = ⟨((((cfg15 a).win 2).blk t).view.emb j (0 : Fin 3)).val, ((((cfg15 a).win 2).blk t).view.emb j (0 : Fin 3)).isLt⟩ :=
    Fin.ext (by
      show t.val = ((cfg15 a).win 2).index t (0 : Fin 3) * 1 + 1 * (j (0 : Fin 3)).val
      rw [e0]; omega)
  have hL : (⟨(j (2 : Fin 3)).val, (j (2 : Fin 3)).isLt⟩ : Fin 128) = ⟨((((cfg15 a).win 2).blk t).view.emb j (2 : Fin 3)).val, ((((cfg15 a).win 2).blk t).view.emb j (2 : Fin 3)).isLt⟩ :=
    Fin.ext (by
      show (j (2 : Fin 3)).val = ((cfg15 a).win 2).index t (2 : Fin 3) * 128 + 1 * (j (2 : Fin 3)).val
      rw [e2]; omega)
  refine Eq.trans ?_ (congrArg₂ (row15 V a c) hT hL)
  unfold row15
  exact congrArg₂ comb15 (iblk15_0_apply V a c t _ _ rfl) (iblk15_1_apply V a c t _ _ rfl)

set_option maxHeartbeats 100000 in
/-- The output window is written back at every point: the next point's block is another row. -/
theorem flush15_2 (t : Fin (cfg15 a).N) : ((cfg15 a).win 2).flush t = true := by
  unfold Window.flush
  rw [Bool.and_eq_true, Bool.or_eq_true, decide_eq_true_eq, decide_eq_true_eq]
  refine ⟨rfl, ?_⟩
  by_cases h : t.val + 1 < (cfg15 a).grid.N
  · refine Or.inr ⟨h, fun e => ?_⟩
    have e0 := congrFun e (0 : Fin 3)
    have eA : ((cfg15 a).win 2).index ⟨t.val + 1, h⟩ (0 : Fin 3) = t.val + 1 := congrFun (index15_2 a ⟨t.val + 1, h⟩) (0 : Fin 3)
    have eB : ((cfg15 a).win 2).index t (0 : Fin 3) = t.val := congrFun (index15_2 a t) (0 : Fin 3)
    rw [eA, eB] at e0
    omega
  · refine Or.inl ?_
    have hlt : t.val < (cfg15 a).grid.N := t.isLt
    omega

set_option maxHeartbeats 100000 in
/-- Every entry of the output array lies in the block of the point its row names. -/
theorem cover15 (i : S40000x1x128.Idx) :
    ∃ t : Fin (cfg15 a).N, ((cfg15 a).win 2).flush t = true ∧ i ∈ (((cfg15 a).win 2).blk t).view.set := by
  have hlt : (i (0 : Fin 3)).val < (cfg15 a).N := by rw [npts15]; exact (i (0 : Fin 3)).isLt
  obtain ⟨t, ht⟩ : ∃ t : Fin (cfg15 a).N, t.val = (i (0 : Fin 3)).val := ⟨⟨_, hlt⟩, rfl⟩
  refine ⟨t, flush15_2 a t, ?_⟩
  have hset := View.set_slice_whole main_v63 (((cfg15 a).win 2).rect t)
  refine (Eq.mpr (congrArg (fun S => i ∈ S) hset) ?_ : i ∈ ((View.whole main_v63).slice (((cfg15 a).win 2).rect t)).set)
  refine Rect.mem_set_unit.mpr (fun d => ?_)
  have e0 : ((cfg15 a).win 2).index t (0 : Fin 3) = t.val := congrFun (index15_2 a t) (0 : Fin 3)
  have eB : ((cfg15 a).win 2).index t (1 : Fin 3) = 0 := congrFun (index15_2 a t) (1 : Fin 3)
  have e2 : ((cfg15 a).win 2).index t (2 : Fin 3) = 0 := congrFun (index15_2 a t) (2 : Fin 3)
  match d with
  | ⟨0, _⟩ =>
    show ((cfg15 a).win 2).index t (0 : Fin 3) * 1 ≤ (i (0 : Fin 3)).val
      ∧ (i (0 : Fin 3)).val < ((cfg15 a).win 2).index t (0 : Fin 3) * 1 + 1
    rw [e0]; omega
  | ⟨1, _⟩ =>
    have hi : (i (1 : Fin 3)).val < 1 := (i (1 : Fin 3)).isLt
    show ((cfg15 a).win 2).index t (1 : Fin 3) * 1 ≤ (i (1 : Fin 3)).val
      ∧ (i (1 : Fin 3)).val < ((cfg15 a).win 2).index t (1 : Fin 3) * 1 + 1
    rw [eB]; omega
  | ⟨2, _⟩ =>
    have hi : (i (2 : Fin 3)).val < 128 := (i (2 : Fin 3)).isLt
    show ((cfg15 a).win 2).index t (2 : Fin 3) * 128 ≤ (i (2 : Fin 3)).val
      ∧ (i (2 : Fin 3)).val < ((cfg15 a).win 2).index t (2 : Fin 3) * 128 + 128
    rw [e2]; omega

/-- So the output array ends holding that function. -/
theorem final15 (c : Dev nD) : (dat15 (F := Ideal) V a c).arrAt 2 (cfg15 a).N = gath15 V a c :=
  (dat15 (F := Ideal) V a c).arrAt_eq_of_cover 2 (gath15 V a c) (fun t _ => flushed15_eq V a c t) (cover15 a)

/-- What gather call 1 leaves in its output array, entry by entry: the two rows its tables name, added and scaled. -/
theorem gather_out15 (c : Dev nD) (t : Fin 40000) (l : Fin 128) :
    ((dat15 (F := Ideal) V a c).arrAt 2 (cfg15 a).N : FVec Ideal S40000x1x128 .f32) (ValueIdx.ix3 t (0 : Fin 1) l)
      = (srcRows15 V c (ValueIdx.ix3 (Cert.Spec.node (a.1 0 (ValueIdx.ix1 t))) (0 : Fin 1) l)
        + dstRows15 V c (ValueIdx.ix3 (Cert.Spec.node (a.1 1 (ValueIdx.ix1 t))) (0 : Fin 1) l)) * Cert.Spec.scale :=
  congrFun (final15 V a c) (ValueIdx.ix3 t (0 : Fin 1) l)
end GatherValue

end Cert.KernelIdeal.Hand

end
-- ==== Proof.KI.Piece15.lean ====
/-
  Gather call 15's output array in terms of the launch arrays.

  Gather call 15 walks its 40000 grid points; at point t it reads row (word t of its source table) of the re-laid source
  projection and row (word t of its destination table) of the re-laid destination projection, adds them lane by lane and
  multiplies by the constant, into row t of its output. Its tables are the slices of the launch endpoint arrays from
  word 560000 on, so word t of a table is the endpoint array's word 40000 · 14 + t, and a re-laid projection's row n, lane l
  is the projected feature (batch l / 64, node n, feature l % 64). So row t, lane l of the output is lane l of the
  specification's row for edge 40000 · 14 + t.
-/
import proofs.«413139_j22651657519351_3_alg».proof.Proof.KI.Fold
import proofs.«413139_j22651657519351_3_alg».proof.Proof.KI.Walk
import proofs.«413139_j22651657519351_3_alg».proof.Proof.KI.Hs2
import proofs.«413139_j22651657519351_3_alg».proof.Proof.KI.GatherValue15
import proofs.«413139_j22651657519351_3_alg».proof.Proof.SpecRows
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe
open Idealize.SL.Sem

section Piece15

variable (m : (ℓ : Loc nD τ sig) → Buf (Elt Ideal) ℓ) (hR : InRange m)

/-- Word t of chunk 15's source table is the launch source array's word 40000 · 14 + t: the table is the slice of the
    array from word 560000 on. -/
theorem tbl15_src (t : Fin 40000) :
    (tbl15 (F := Ideal) m 0 : IVec S40000 32) (ValueIdx.ix1 t)
      = (m (((0 : Dev nD) : Thread nD τ).loc main_arg1) : IVec S800000 32) (ValueIdx.ix1 ⟨40000 * 14 + t.val, Cert.Spec.chunk_lt ⟨14, by norm_num⟩ t⟩) := by
  show extractStridedSlice S40000 ![560000] (m (((0 : Dev nD) : Thread nD τ).loc main_arg1) : IVec S800000 32) slices_S800000_S40000_560000 (ValueIdx.ix1 t) = _
  exact extractStridedSlice_apply (s := S800000) (t := S40000) ![560000] _ slices_S800000_S40000_560000 (ValueIdx.ix1 t) (ValueIdx.ix1 ⟨40000 * 14 + t.val, Cert.Spec.chunk_lt ⟨14, by norm_num⟩ t⟩)
    (fun a => match a with | ⟨0, _⟩ => by show 40000 * 14 + t.val = 560000 + t.val; omega)

/-- Word t of chunk 15's destination table is the launch destination array's word 40000 · 14 + t. -/
theorem tbl15_dst (t : Fin 40000) :
    (tbl15 (F := Ideal) m 1 : IVec S40000 32) (ValueIdx.ix1 t)
      = (m (((0 : Dev nD) : Thread nD τ).loc main_arg2) : IVec S800000 32) (ValueIdx.ix1 ⟨40000 * 14 + t.val, Cert.Spec.chunk_lt ⟨14, by norm_num⟩ t⟩) := by
  show extractStridedSlice S40000 ![560000] (m (((0 : Dev nD) : Thread nD τ).loc main_arg2) : IVec S800000 32) slices_S800000_S40000_560000 (ValueIdx.ix1 t) = _
  exact extractStridedSlice_apply (s := S800000) (t := S40000) ![560000] _ slices_S800000_S40000_560000 (ValueIdx.ix1 t) (ValueIdx.ix1 ⟨40000 * 14 + t.val, Cert.Spec.chunk_lt ⟨14, by norm_num⟩ t⟩)
    (fun a => match a with | ⟨0, _⟩ => by show 40000 * 14 + t.val = 560000 + t.val; omega)

/-- Gather call 15's output array in terms of the launch arrays: row t, lane l is lane l of edge 40000 · 14 + t's row.
    The call adds, at row t, the rows of the two re-laid projections that the tables' words t name, and scales the sum;
    the re-laid projections, untouched since host stretch 1 wrote them, hold at each row the projected features of that
    node, and the tables' words t are the endpoint arrays' words 40000 · 14 + t. -/
theorem piece15 (c : Dev nD) (t : Fin 40000) (l : Fin 128) :
    (W31 (F := Ideal) m hR c main_v63 : FVec Ideal S40000x1x128 .f32) (ValueIdx.ix3 t (0 : Fin 1) l)
      = Cert.Spec.edgeRow (m ((c : Thread nD τ).loc main_arg0)) (m ((c : Thread nD τ).loc main_arg1)) (m ((c : Thread nD τ).loc main_arg2))
          (m ((c : Thread nD τ).loc main_arg3)) (m ((c : Thread nD τ).loc main_arg4))
          ⟨40000 * 14 + t.val, Cert.Spec.chunk_lt ⟨14, by norm_num⟩ t⟩ l := by
  obtain rfl : c = 0 := Subsingleton.elim _ _
  refine (congrFun (W31_arr (F := Ideal) m hR 0 2) _).trans ?_
  refine (gather_out15 (V30 (F := Ideal) m hR) (a15 (F := Ideal) m hR) 0 t l).trans ?_
  have e1 : (W30 (F := Ideal) m hR 0 main_v2 : FVec Ideal S50000x1x128 .f32)
        (ValueIdx.ix3 (Cert.Spec.node ((tbl15 (F := Ideal) m 0 : IVec S40000 32) (ValueIdx.ix1 t))) (0 : Fin 1) l)
      = Cert.Spec.proj (m (((0 : Dev nD) : Thread nD τ).loc main_arg0)) (m (((0 : Dev nD) : Thread nD τ).loc main_arg3))
          ⟨l.val / 64, Cert.Spec.lane_div l⟩
          (Cert.Spec.node ((m (((0 : Dev nD) : Thread nD τ).loc main_arg1) : IVec S800000 32) (ValueIdx.ix1 ⟨40000 * 14 + t.val, Cert.Spec.chunk_lt ⟨14, by norm_num⟩ t⟩)))
          ⟨l.val % 64, Cert.Spec.lane_mod l⟩ := by
    rw [tbl15_src m t]
    exact (congrFun (W30_v2 (F := Ideal) m hR 0) _).trans (hs2_apply m hR 0 _ l)
  have e2 : (W30 (F := Ideal) m hR 0 main_v4 : FVec Ideal S50000x1x128 .f32)
        (ValueIdx.ix3 (Cert.Spec.node ((tbl15 (F := Ideal) m 1 : IVec S40000 32) (ValueIdx.ix1 t))) (0 : Fin 1) l)
      = Cert.Spec.proj (m (((0 : Dev nD) : Thread nD τ).loc main_arg0)) (m (((0 : Dev nD) : Thread nD τ).loc main_arg4))
          ⟨l.val / 64, Cert.Spec.lane_div l⟩
          (Cert.Spec.node ((m (((0 : Dev nD) : Thread nD τ).loc main_arg2) : IVec S800000 32) (ValueIdx.ix1 ⟨40000 * 14 + t.val, Cert.Spec.chunk_lt ⟨14, by norm_num⟩ t⟩)))
          ⟨l.val % 64, Cert.Spec.lane_mod l⟩ := by
    rw [tbl15_dst m t]
    exact (congrFun (W30_v4 (F := Ideal) m hR 0) _).trans (hd2_apply m hR 0 _ l)
  exact congrArg₂ (fun a b : EReal => (a + b) * Cert.Spec.scale) e1 e2

end Piece15

end Cert.KernelIdeal.Hand

end
-- ==== Proof.KI.FPiece15.lean ====
/-
  Chunk 15's rows as the last host stretch finds them. Host stretch 16 reshapes gather call 15's output
  [40000, 1, 128] to [40000, 128]; nothing touches that buffer until the last stretch concatenates the twenty pieces.
  With the call's output read as the rows of the specification, the piece is the specification's chunk number 14.
-/
import proofs.«413139_j22651657519351_3_alg».proof.Proof.Gen.KernelIdeal.Launch
import proofs.«413139_j22651657519351_3_alg».proof.Proof.Gen.KernelIdeal.Skeleton
import proofs.«413139_j22651657519351_3_alg».proof.Proof.Gen.KernelIdeal.Points
import proofs.«413139_j22651657519351_3_alg».proof.Proof.KI.Walk
import proofs.«413139_j22651657519351_3_alg».proof.Proof.KI.Piece15
import proofs.«413139_j22651657519351_3_alg».proof.Proof.Layout
import proofs.«413139_j22651657519351_3_alg».proof.Proof.SpecRows
import Idealize.ShloMosaic.Lib.StableHlo.Run
import Idealize.ShloMosaic.Lib.ValueIdx
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section FPiece

variable (m : (ℓ : Loc nD τ sig) → Buf (Elt Ideal) ℓ) (hR : InRange m)

theorem fpiece15 (c : Dev nD) :
    (W41 (F := Ideal) m hR c main_v64 : FVec Ideal S40000x128 .f32)
      = Cert.Spec.chunk (m ((c : Thread nD τ).loc main_arg0)) (m ((c : Thread nD τ).loc main_arg1)) (m ((c : Thread nD τ).loc main_arg2))
          (m ((c : Thread nD τ).loc main_arg3)) (m ((c : Thread nD τ).loc main_arg4)) (14 : Fin 20) := by
  funext i
  obtain ⟨t, l, rfl⟩ : ∃ (t : Fin 40000) (l : Fin 128), i = ValueIdx.ix2 t l := ⟨i 0, i 1, ValueIdx.eq_ix2 i⟩
  rw [W41_p15 m hR c]
  show StableHlo.after hostOps16 (W31 (F := Ideal) m hR c) (Proc.devRef .tc main_v64) (ValueIdx.ix2 t l) = _
  after_results
  refine (Cert.Layout.piece_apply _ _ t l).trans ?_
  exact piece15 m hR c t l

end FPiece

end Cert.KernelIdeal.Hand

end
-- ==== Proof.KI.GatherValue16.lean ====
/-
  Edge chunk 1's gather kernel: what it leaves in its output array, entry by entry, at the ideal (extended-real)
  instance, for any contents V of the buffers at the region's entry and any admissible contents of the two index tables.

  At grid point t the two gathered windows hold row (word t of table 0) of the first source array and row (word t of
  table 1) of the second: the block index of a gathered window is (that word read unsigned, 0, 0), the block is one
  row of 128 lanes, and admissibility of the tables says the word is below the 50000 rows. The body stores
  (row + row) · c into the output block, and the output window's block index is (t, 0, 0): block t is row t of the
  output array, every point writes its block back, and the blocks of the 40000 points cover the array. So the array
  ends holding, at (t, 0, l), the sum of the two named rows' entries at lane l, times c.
-/
import proofs.«413139_j22651657519351_3_alg».proof.Proof.KI.Region16
import proofs.«413139_j22651657519351_3_alg».proof.Proof.Spec
import Idealize.ShloMosaic.Lib.Pipeline.Value
import Idealize.ShloMosaic.Lib.ValueIdx
import Idealize.ShloMosaic.Lib.ValueLayout

set_option maxRecDepth 16384

noncomputable section

namespace Cert.KernelIdeal.Hand

open Cert.KernelIdeal Cert.KernelIdeal.Gen
open Idealize.ShloMosaic Idealize.ShloMosaic.TcCoe
open Idealize.SL.Sem
open Idealize.ShloMosaic.Pipeline (Dat Cfg Window)

section GatherValue
variable (V : (c : Dev nD) → (b : Ref sig .tc) → Buf (Elt Ideal) ((c : Thread nD τ).loc b))
variable (a : (pcfg16 (F := Ideal)).Adm)

/-- The grid has 40000 points, one axis. -/
theorem npts16 : (cfg16 a).N = 40000 := N_16

/-- The one coordinate of point t is t. -/
theorem coord16 (t : Fin (cfg16 a).N) : (((cfg16 a).grid.coords t) 0).val = t.val := by
  show t.val / (cfg16 a).grid.stride 0 % 40000 = t.val
  have hs : (cfg16 a).grid.stride 0 = 1 := rfl
  rw [hs]
  have := t.isLt
  have e : (cfg16 a).N = 40000 := rfl
  omega

/-- A grid coordinate, as the 32-bit word the index maps receive and back, is itself. -/
theorem wordCoord16 (n : Nat) (h : n < 40000) : (Scalar.indexCast (BitVec.ofNat 32 n)).toNat = n := by
  show (BitVec.ofNat 32 n).toNat = n
  rw [BitVec.toNat_ofNat]
  exact Nat.mod_eq_of_lt (by omega)

set_option maxHeartbeats 100000 in
/-- Output window: the block index at point t is (t, 0, 0). -/
theorem index16_2 (t : Fin (cfg16 a).N) : ((cfg16 a).win 2).index t = ![t.val, 0, 0] := by
  show cc16_transform_2 ((cfg16 a).grid.coords t) = _
  unfold cc16_transform_2
  dsimp only
  have h := coord16 a t
  have hl : t.val < 40000 := t.isLt
  funext d
  match d with
  | ⟨0, _⟩ => show (BitVec.ofNat 32 (((cfg16 a).grid.coords t) 0).val).toNat = t.val; rw [h]; exact wordCoord16 _ hl
  | ⟨1, _⟩ => rfl
  | ⟨2, _⟩ => rfl

set_option maxHeartbeats 100000 in
/-- Gathered window 0: the block index at point t is (word t of table 0, 0, 0). -/
theorem index16_0 (t : Fin (cfg16 a).N) :
    ((cfg16 a).win 0).index t = ![((a.1 0 (ValueIdx.ix1 (n := 40000) ⟨t.val, t.isLt⟩) : BitVec 32)).toNat, 0, 0] := by
  show cc16_transform_0 k16_off1_inb numel1_S1 a.1 ((cfg16 a).grid.coords t) = _
  unfold cc16_transform_0
  dsimp only
  have h := coord16 a t
  have hl : t.val < 40000 := t.isLt
  funext d
  match d with
  | ⟨0, _⟩ =>
    show ((a.1 0 _ : BitVec 32)).toNat = ((a.1 0 _ : BitVec 32)).toNat
    refine congrArg (fun j => ((a.1 0 j : BitVec 32)).toNat) ?_
    funext k
    match k with
    | ⟨0, _⟩ =>
      apply Fin.ext
      show (Scalar.indexCast (BitVec.ofNat 32 (((cfg16 a).grid.coords t) 0).val)).toNat + 1 * 0 = t.val
      rw [h, wordCoord16 _ hl]; omega
  | ⟨1, _⟩ => rfl
  | ⟨2, _⟩ => rfl

set_option maxHeartbeats 100000 in
/-- Gathered window 1: the block index at point t is (word t of table 1, 0, 0). -/
theorem index16_1 (t : Fin (cfg16 a).N) :
    ((cfg16 a).win 1).index t = ![((a.1 1 (ValueIdx.ix1 (n := 40000) ⟨t.val, t.isLt⟩) : BitVec 32)).toNat, 0, 0] := by
  show cc16_transform_1 k16_off1_inb numel1_S1 a.1 ((cfg16 a).grid.coords t) = _
  unfold cc16_transform_1
  dsimp only
  have h := coord16 a t
  have hl : t.val < 40000 := t.isLt
  funext d
  match d with
  | ⟨0, _⟩ =>
    show ((a.1 1 _ : BitVec 32)).toNat = ((a.1 1 _ : BitVec 32)).toNat
    refine congrArg (fun j => ((a.1 1 j : BitVec 32)).toNat) ?_
    funext k
    match k with
    | ⟨0, _⟩ =>
      apply Fin.ext
      show (Scalar.indexCast (BitVec.ofNat 32 (((cfg16 a).grid.coords t) 0).val)).toNat + 1 * 0 = t.val
      rw [h, wordCoord16 _ hl]; omega
  | ⟨1, _⟩ => rfl
  | ⟨2, _⟩ => rfl

theorem zeros16 : (![0, 0, 0] : Fin 3 → Nat) = fun _ => 0 := funext fun d => by fin_cases d <;> rfl

/-- The arithmetic of one entry: add, then scale. -/
abbrev comb16 (u v : EReal) : EReal := (u + v) * Cert.Spec.scale

/-- The body's payload at an index: the sum of the two loaded rows' entries there, times the scale. -/
theorem pay16_apply (x0 x2 : S1x1x128.Idx → EReal) (y : S1x1x128.Idx) :
    (k16_pay1 (F := Ideal) x0 x2 : S1x1x128.Idx → EReal) y = (x0 y + x2 y) * Cert.Spec.scale := by
  unfold k16_pay1
  rw [shapeCast_self, shapeCast_self]
  rfl

/-- The same with the two rows loaded through the whole-block rectangle. -/
theorem pay16_ld_apply (x0 x2 : Vec Ideal S1x1x128 .f32) (y : S1x1x128.Idx) :
    (k16_pay1 (F := Ideal) (View.ld x0 r16) (View.ld x2 r16) : S1x1x128.Idx → EReal) y = comb16 (x0 y) (x2 y) := by
  have hA : View.ld x0 r16 = x0 := View.ld_unit_zero (Val := Elt Ideal) (S := S1x1x128) (e := .f32) zeros16 _ x0
  have hB : View.ld x2 r16 = x2 := View.ld_unit_zero (Val := Elt Ideal) (S := S1x1x128) (e := .f32) zeros16 _ x2
  rw [hA, hB]
  exact pay16_apply x0 x2 y

/-- The word of table 0 at point t is a row of the 50000-row array. -/
theorem word16_0_lt (t : Fin (cfg16 a).N) : ((a.1 0 (ValueIdx.ix1 (n := 40000) ⟨t.val, t.isLt⟩) : BitVec 32)).toNat < 50000 := by
  obtain ⟨h, -⟩ := a.2.1 ((cfg16 a).grid.coords t)
  have h0 : (((cfg16 a).win 0).index t (0 : Fin 3) + 1) * 1 ≤ 50000 := h 0
  have e0 : ((cfg16 a).win 0).index t (0 : Fin 3) = ((a.1 0 (ValueIdx.ix1 (n := 40000) ⟨t.val, t.isLt⟩) : BitVec 32)).toNat := congrFun (index16_0 a t) (0 : Fin 3)
  rw [e0] at h0
  omega

/-- The word of table 1 at point t is a row of the 50000-row array. -/
theorem word16_1_lt (t : Fin (cfg16 a).N) : ((a.1 1 (ValueIdx.ix1 (n := 40000) ⟨t.val, t.isLt⟩) : BitVec 32)).toNat < 50000 := by
  obtain ⟨h, -⟩ := a.2.2 ((cfg16 a).grid.coords t)
  have h0 : (((cfg16 a).win 1).index t (0 : Fin 3) + 1) * 1 ≤ 50000 := h 0
  have e0 : ((cfg16 a).win 1).index t (0 : Fin 3) = ((a.1 1 (ValueIdx.ix1 (n := 40000) ⟨t.val, t.isLt⟩) : BitVec 32)).toNat := congrFun (index16_1 a t) (0 : Fin 3)
  rw [e0] at h0
  omega

/-- The two source arrays, as functions to the extended reals. -/
abbrev srcRows16 (c : Dev nD) : S50000x1x128.Idx → EReal := V c main_v2
abbrev dstRows16 (c : Dev nD) : S50000x1x128.Idx → EReal := V c main_v4

set_option maxHeartbeats 100000 in
/-- Window 0's block at point t is the row of the first source array that table 0's word t names. -/
theorem iblk16_0_apply (c : Dev nD) (t : Fin (cfg16 a).N) (y : (((cfg16 a).win 0).xblock ((cfg16 a).grid.coords t)).Idx)
    (l : Fin 128) (hl : (y (2 : Fin 3)).val = l.val) :
    (iblk16 V a c 0 t y : EReal)
      = srcRows16 V c (ValueIdx.ix3 (Cert.Spec.node (a.1 0 (ValueIdx.ix1 (n := 40000) ⟨t.val, t.isLt⟩))) (0 : Fin 1) l) := by
  have hw := word16_0_lt a t
  have e0 : ((cfg16 a).win 0).index t (0 : Fin 3) = ((a.1 0 (ValueIdx.ix1 (n := 40000) ⟨t.val, t.isLt⟩) : BitVec 32)).toNat := congrFun (index16_0 a t) (0 : Fin 3)
  have eM : ((cfg16 a).win 0).index t (1 : Fin 3) = 0 := congrFun (index16_0 a t) (1 : Fin 3)
  have e2 : ((cfg16 a).win 0).index t (2 : Fin 3) = 0 := congrFun (index16_0 a t) (2 : Fin 3)
  show V c main_v2 ((((cfg16 a).win 0).blk t).view.emb y) = V c main_v2 _
  refine congrArg (V c main_v2) ?_
  funext d
  apply Fin.ext
  match d with
  | ⟨0, _⟩ =>
    show ((cfg16 a).win 0).index t (0 : Fin 3) * 1 + 1 * (y (0 : Fin 3)).val = (Cert.Spec.node _).val
    have hy : (y (0 : Fin 3)).val < 1 := (y (0 : Fin 3)).isLt
    rw [e0, Cert.Spec.node_val hw]; omega
  | ⟨1, _⟩ =>
    show ((cfg16 a).win 0).index t (1 : Fin 3) * 1 + 1 * (y (1 : Fin 3)).val = 0
    have hy : (y (1 : Fin 3)).val < 1 := (y (1 : Fin 3)).isLt
    rw [eM]; omega
  | ⟨2, _⟩ =>
    show ((cfg16 a).win 0).index t (2 : Fin 3) * 128 + 1 * (y (2 : Fin 3)).val = l.val
    rw [e2, hl]; omega

set_option maxHeartbeats 100000 in
/-- Window 1's block at point t is the row of the second source array that table 1's word t names. -/
theorem iblk16_1_apply (c : Dev nD) (t : Fin (cfg16 a).N) (y : (((cfg16 a).win 1).xblock ((cfg16 a).grid.coords t)).Idx)
    (l : Fin 128) (hl : (y (2 : Fin 3)).val = l.val) :
    (iblk16 V a c 1 t y : EReal)
      = dstRows16 V c (ValueIdx.ix3 (Cert.Spec.node (a.1 1 (ValueIdx.ix1 (n := 40000) ⟨t.val, t.isLt⟩))) (0 : Fin 1) l) := by
  have hw := word16_1_lt a t
  have e0 : ((cfg16 a).win 1).index t (0 : Fin 3) = ((a.1 1 (ValueIdx.ix1 (n := 40000) ⟨t.val, t.isLt⟩) : BitVec 32)).toNat := congrFun (index16_1 a t) (0 : Fin 3)
  have eM : ((cfg16 a).win 1).index t (1 : Fin 3) = 0 := congrFun (index16_1 a t) (1 : Fin 3)
  have e2 : ((cfg16 a).win 1).index t (2 : Fin 3) = 0 := congrFun (index16_1 a t) (2 : Fin 3)
  show V c main_v4 ((((cfg16 a).win 1).blk t).view.emb y) = V c main_v4 _
  refine congrArg (V c main_v4) ?_
  funext d
  apply Fin.ext
  match d with
  | ⟨0, _⟩ =>
    show ((cfg16 a).win 1).index t (0 : Fin 3) * 1 + 1 * (y (0 : Fin 3)).val = (Cert.Spec.node _).val
    have hy : (y (0 : Fin 3)).val < 1 := (y (0 : Fin 3)).isLt
    rw [e0, Cert.Spec.node_val hw]; omega
  | ⟨1, _⟩ =>
    show ((cfg16 a).win 1).index t (1 : Fin 3) * 1 + 1 * (y (1 : Fin 3)).val = 0
    have hy : (y (1 : Fin 3)).val < 1 := (y (1 : Fin 3)).isLt
    rw [eM]; omega
  | ⟨2, _⟩ =>
    show ((cfg16 a).win 1).index t (2 : Fin 3) * 128 + 1 * (y (2 : Fin 3)).val = l.val
    rw [e2, hl]; omega

/-- Entry (t, l) of what the call leaves: the two gathered rows' entries at lane l, added and scaled. -/
def row16 (c : Dev nD) (t : Fin 40000) (l : Fin 128) : EReal :=
  comb16 (srcRows16 V c (ValueIdx.ix3 (Cert.Spec.node (a.1 0 (ValueIdx.ix1 t))) (0 : Fin 1) l))
    (dstRows16 V c (ValueIdx.ix3 (Cert.Spec.node (a.1 1 (ValueIdx.ix1 t))) (0 : Fin 1) l))

/-- The whole output array as one function of its index. -/
def gath16 (c : Dev nD) : S40000x1x128.Idx → EReal :=
  fun i => row16 V a c ⟨(i (0 : Fin 3)).val, (i (0 : Fin 3)).isLt⟩ ⟨(i (2 : Fin 3)).val, (i (2 : Fin 3)).isLt⟩

set_option maxHeartbeats 200000 in
/-- What point t writes back is block t of that function. -/
theorem flushed16_eq (c : Dev nD) (t : Fin (cfg16 a).N) :
    (dat16 (F := Ideal) V a c).flushed 2 t = (((cfg16 a).win 2).blk t).view.read (Elt Ideal) (gath16 V a c) := by
  show ((cfg16 a).win 2).cut ((cfg16 a).grid.coords t) ((dat16 V a c).after 2 t) = _
  rw [after16_2]
  unfold out16_2
  rw [View.canon_unit_zero zeros16]
  funext j
  have e0 : ((cfg16 a).win 2).index t (0 : Fin 3) = t.val := congrFun (index16_2 a t) (0 : Fin 3)
  have e2 : ((cfg16 a).win 2).index t (2 : Fin 3) = 0 := congrFun (index16_2 a t) (2 : Fin 3)
  have hj0 : (j (0 : Fin 3)).val < 1 := (j (0 : Fin 3)).isLt
  show (k16_pay1 (F := Ideal) (View.ld (iblk16 V a c 0 t) r16) (View.ld (iblk16 V a c 1 t) r16) : S1x1x128.Idx → EReal) (((cfg16 a).win 2).xinj ((cfg16 a).grid.coords t) j)
      = gath16 V a c ((((cfg16 a).win 2).blk t).view.emb j)
  refine (pay16_ld_apply (iblk16 V a c 0 t) (iblk16 V a c 1 t) (((cfg16 a).win 2).xinj ((cfg16 a).grid.coords t) j)).trans ?_
  have hT : (⟨t.val, t.isLt⟩ : Fin 40000) = ⟨((((cfg16 a).win 2).blk t).view.emb j (0 : Fin 3)).val, ((((cfg16 a).win 2).blk t).view.emb j (0 : Fin 3)).isLt⟩ :=
    Fin.ext (by
      show t.val = ((cfg16 a).win 2).index t (0 : Fin 3) * 1 + 1 * (j (0 : Fin 3)).val
      rw [e0]; omega)
  have hL : (⟨(j (2 : Fin 3)).val, (j (2 : Fin 3)).isLt⟩ : Fin 128) = ⟨((((cfg16 a).win 2).blk t).view.emb j (2 : Fin 3)).val, ((((cfg16 a).win 2).blk t).view.emb j (2 : Fin 3)).isLt⟩ :=
    Fin.ext (by
      show (j (2 : Fin 3)).val = ((cfg16 a).win 2).index t (2 : Fin 3) * 128 + 1 * (j (2 : Fin 3)).val
      rw [e2]; omega)
  refine Eq.trans ?_ (congrArg₂ (row16 V a c) hT hL)
  unfold row16
  exact congrArg₂ comb16 (iblk16_0_apply V a c t _ _ rfl) (iblk16_1_apply V a c t _ _ rfl)

set_option maxHeartbeats 100000 in
/-- The output window is written back at every point: the next point's block is another row. -/
theorem flush16_2 (t : Fin (cfg16 a).N) : ((cfg16 a).win 2).flush t = true := by
  unfold Window.flush
  rw [Bool.and_eq_true, Bool.or_eq_true, decide_eq_true_eq, decide_eq_true_eq]
  refine ⟨rfl, ?_⟩
  by_cases h : t.val + 1 < (cfg16 a).grid.N
  · refine Or.inr ⟨h, fun e => ?_⟩
    have e0 := congrFun e (0 : Fin 3)
    have eA : ((cfg16 a).win 2).index ⟨t.val + 1, h⟩ (0 : Fin 3) = t.val + 1 := congrFun (index16_2 a ⟨t.val + 1, h⟩) (0 : Fin 3)
    have eB : ((cfg16 a).win 2).index t (0 : Fin 3) = t.val := congrFun (index16_2 a t) (0 : Fin 3)
    rw [eA, eB] at e0
    omega
  · refine Or.inl ?_
    have hlt : t.val < (cfg16 a).grid.N := t.isLt
    omega

set_option maxHeartbeats 100000 in
/-- Every entry of the output array lies in the block of the point its row names. -/
theorem cover16 (i : S40000x1x128.Idx) :
    ∃ t : Fin (cfg16 a).N, ((cfg16 a).win 2).flush t = true ∧ i ∈ (((cfg16 a).win 2).blk t).view.set := by
  have hlt : (i (0 : Fin 3)).val < (cfg16 a).N := by rw [npts16]; exact (i (0 : Fin 3)).isLt
  obtain ⟨t, ht⟩ : ∃ t : Fin (cfg16 a).N, t.val = (i (0 : Fin 3)).val := ⟨⟨_, hlt⟩, rfl⟩
  refine ⟨t, flush16_2 a t, ?_⟩
  have hset := View.set_slice_whole main_v67 (((cfg16 a).win 2).rect t)
  refine (Eq.mpr (congrArg (fun S => i ∈ S) hset) ?_ : i ∈ ((View.whole main_v67).slice (((cfg16 a).win 2).rect t)).set)
  refine Rect.mem_set_unit.mpr (fun d => ?_)
  have e0 : ((cfg16 a).win 2).index t (0 : Fin 3) = t.val := congrFun (index16_2 a t) (0 : Fin 3)
  have eB : ((cfg16 a).win 2).index t (1 : Fin 3) = 0 := congrFun (index16_2 a t) (1 : Fin 3)
  have e2 : ((cfg16 a).win 2).index t (2 : Fin 3) = 0 := congrFun (index16_2 a t) (2 : Fin 3)
  match d with
  | ⟨0, _⟩ =>
    show ((cfg16 a).win 2).index t (0 : Fin 3) * 1 ≤ (i (0 : Fin 3)).val
      ∧ (i (0 : Fin 3)).val < ((cfg16 a).win 2).index t (0 : Fin 3) * 1 + 1
    rw [e0]; omega
  | ⟨1, _⟩ =>
    have hi : (i (1 : Fin 3)).val < 1 := (i (1 : Fin 3)).isLt
    show ((cfg16 a).win 2).index t (1 : Fin 3) * 1 ≤ (i (1 : Fin 3)).val
      ∧ (i (1 : Fin 3)).val < ((cfg16 a).win 2).index t (1 : Fin 3) * 1 + 1
    rw [eB]; omega
  | ⟨2, _⟩ =>
    have hi : (i (2 : Fin 3)).val < 128 := (i (2 : Fin 3)).isLt
    show ((cfg16 a).win 2).index t (2 : Fin 3) * 128 ≤ (i (2 : Fin 3)).val
      ∧ (i (2 : Fin 3)).val < ((cfg16 a).win 2).index t (2 : Fin 3) * 128 + 128
    rw [e2]; omega

/-- So the output array ends holding that function. -/
theorem final16 (c : Dev nD) : (dat16 (F := Ideal) V a c).arrAt 2 (cfg16 a).N = gath16 V a c :=
  (dat16 (F := Ideal) V a c).arrAt_eq_of_cover 2 (gath16 V a c) (fun t _ => flushed16_eq V a c t) (cover16 a)

/-- What gather call 1 leaves in its output array, entry by entry: the two rows its tables name, added and scaled. -/
theorem gather_out16 (c : Dev nD) (t : Fin 40000) (l : Fin 128) :
    ((dat16 (F := Ideal) V a c).arrAt 2 (cfg16 a).N : FVec Ideal S40000x1x128 .f32) (ValueIdx.ix3 t (0 : Fin 1) l)
      = (srcRows16 V c (ValueIdx.ix3 (Cert.Spec.node (a.1 0 (ValueIdx.ix1 t))) (0 : Fin 1) l)
        + dstRows16 V c (ValueIdx.ix3 (Cert.Spec.node (a.1 1 (ValueIdx.ix1 t))) (0 : Fin 1) l)) * Cert.Spec.scale :=
  congrFun (final16 V a c) (ValueIdx.ix3 t (0 : Fin 1) l)
end GatherValue

end Cert.KernelIdeal.Hand

end
-- ==== Proof.KI.Piece16.lean ====
/-
  Gather call 16's output array in terms of the launch arrays.

  Gather call 16 walks its 40000 grid points; at point t it reads row (word t of its source table) of the re-laid source
  projection and row (word t of its destination table) of the re-laid destination projection, adds them lane by lane and
  multiplies by the constant, into row t of its output. Its tables are the slices of the launch endpoint arrays from
  word 600000 on, so word t of a table is the endpoint array's word 40000 · 15 + t, and a re-laid projection's row n, lane l
  is the projected feature (batch l / 64, node n, feature l % 64). So row t, lane l of the output is lane l of the
  specification's row for edge 40000 · 15 + t.
-/
import proofs.«413139_j22651657519351_3_alg».proof.Proof.KI.Fold
import proofs.«413139_j22651657519351_3_alg».proof.Proof.KI.Walk
import proofs.«413139_j22651657519351_3_alg».proof.Proof.KI.Hs2
import proofs.«413139_j22651657519351_3_alg».proof.Proof.KI.GatherValue16
import proofs.«413139_j22651657519351_3_alg».proof.Proof.SpecRows
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe
open Idealize.SL.Sem

section Piece16

variable (m : (ℓ : Loc nD τ sig) → Buf (Elt Ideal) ℓ) (hR : InRange m)

/-- Word t of chunk 16's source table is the launch source array's word 40000 · 15 + t: the table is the slice of the
    array from word 600000 on. -/
theorem tbl16_src (t : Fin 40000) :
    (tbl16 (F := Ideal) m 0 : IVec S40000 32) (ValueIdx.ix1 t)
      = (m (((0 : Dev nD) : Thread nD τ).loc main_arg1) : IVec S800000 32) (ValueIdx.ix1 ⟨40000 * 15 + t.val, Cert.Spec.chunk_lt ⟨15, by norm_num⟩ t⟩) := by
  show extractStridedSlice S40000 ![600000] (m (((0 : Dev nD) : Thread nD τ).loc main_arg1) : IVec S800000 32) slices_S800000_S40000_600000 (ValueIdx.ix1 t) = _
  exact extractStridedSlice_apply (s := S800000) (t := S40000) ![600000] _ slices_S800000_S40000_600000 (ValueIdx.ix1 t) (ValueIdx.ix1 ⟨40000 * 15 + t.val, Cert.Spec.chunk_lt ⟨15, by norm_num⟩ t⟩)
    (fun a => match a with | ⟨0, _⟩ => by show 40000 * 15 + t.val = 600000 + t.val; omega)

/-- Word t of chunk 16's destination table is the launch destination array's word 40000 · 15 + t. -/
theorem tbl16_dst (t : Fin 40000) :
    (tbl16 (F := Ideal) m 1 : IVec S40000 32) (ValueIdx.ix1 t)
      = (m (((0 : Dev nD) : Thread nD τ).loc main_arg2) : IVec S800000 32) (ValueIdx.ix1 ⟨40000 * 15 + t.val, Cert.Spec.chunk_lt ⟨15, by norm_num⟩ t⟩) := by
  show extractStridedSlice S40000 ![600000] (m (((0 : Dev nD) : Thread nD τ).loc main_arg2) : IVec S800000 32) slices_S800000_S40000_600000 (ValueIdx.ix1 t) = _
  exact extractStridedSlice_apply (s := S800000) (t := S40000) ![600000] _ slices_S800000_S40000_600000 (ValueIdx.ix1 t) (ValueIdx.ix1 ⟨40000 * 15 + t.val, Cert.Spec.chunk_lt ⟨15, by norm_num⟩ t⟩)
    (fun a => match a with | ⟨0, _⟩ => by show 40000 * 15 + t.val = 600000 + t.val; omega)

/-- Gather call 16's output array in terms of the launch arrays: row t, lane l is lane l of edge 40000 · 15 + t's row.
    The call adds, at row t, the rows of the two re-laid projections that the tables' words t name, and scales the sum;
    the re-laid projections, untouched since host stretch 1 wrote them, hold at each row the projected features of that
    node, and the tables' words t are the endpoint arrays' words 40000 · 15 + t. -/
theorem piece16 (c : Dev nD) (t : Fin 40000) (l : Fin 128) :
    (W33 (F := Ideal) m hR c main_v67 : FVec Ideal S40000x1x128 .f32) (ValueIdx.ix3 t (0 : Fin 1) l)
      = Cert.Spec.edgeRow (m ((c : Thread nD τ).loc main_arg0)) (m ((c : Thread nD τ).loc main_arg1)) (m ((c : Thread nD τ).loc main_arg2))
          (m ((c : Thread nD τ).loc main_arg3)) (m ((c : Thread nD τ).loc main_arg4))
          ⟨40000 * 15 + t.val, Cert.Spec.chunk_lt ⟨15, by norm_num⟩ t⟩ l := by
  obtain rfl : c = 0 := Subsingleton.elim _ _
  refine (congrFun (W33_arr (F := Ideal) m hR 0 2) _).trans ?_
  refine (gather_out16 (V32 (F := Ideal) m hR) (a16 (F := Ideal) m hR) 0 t l).trans ?_
  have e1 : (W32 (F := Ideal) m hR 0 main_v2 : FVec Ideal S50000x1x128 .f32)
        (ValueIdx.ix3 (Cert.Spec.node ((tbl16 (F := Ideal) m 0 : IVec S40000 32) (ValueIdx.ix1 t))) (0 : Fin 1) l)
      = Cert.Spec.proj (m (((0 : Dev nD) : Thread nD τ).loc main_arg0)) (m (((0 : Dev nD) : Thread nD τ).loc main_arg3))
          ⟨l.val / 64, Cert.Spec.lane_div l⟩
          (Cert.Spec.node ((m (((0 : Dev nD) : Thread nD τ).loc main_arg1) : IVec S800000 32) (ValueIdx.ix1 ⟨40000 * 15 + t.val, Cert.Spec.chunk_lt ⟨15, by norm_num⟩ t⟩)))
          ⟨l.val % 64, Cert.Spec.lane_mod l⟩ := by
    rw [tbl16_src m t]
    exact (congrFun (W32_v2 (F := Ideal) m hR 0) _).trans (hs2_apply m hR 0 _ l)
  have e2 : (W32 (F := Ideal) m hR 0 main_v4 : FVec Ideal S50000x1x128 .f32)
        (ValueIdx.ix3 (Cert.Spec.node ((tbl16 (F := Ideal) m 1 : IVec S40000 32) (ValueIdx.ix1 t))) (0 : Fin 1) l)
      = Cert.Spec.proj (m (((0 : Dev nD) : Thread nD τ).loc main_arg0)) (m (((0 : Dev nD) : Thread nD τ).loc main_arg4))
          ⟨l.val / 64, Cert.Spec.lane_div l⟩
          (Cert.Spec.node ((m (((0 : Dev nD) : Thread nD τ).loc main_arg2) : IVec S800000 32) (ValueIdx.ix1 ⟨40000 * 15 + t.val, Cert.Spec.chunk_lt ⟨15, by norm_num⟩ t⟩)))
          ⟨l.val % 64, Cert.Spec.lane_mod l⟩ := by
    rw [tbl16_dst m t]
    exact (congrFun (W32_v4 (F := Ideal) m hR 0) _).trans (hd2_apply m hR 0 _ l)
  exact congrArg₂ (fun a b : EReal => (a + b) * Cert.Spec.scale) e1 e2

end Piece16

end Cert.KernelIdeal.Hand

end
-- ==== Proof.KI.FPiece16.lean ====
/-
  Chunk 16's rows as the last host stretch finds them. Host stretch 17 reshapes gather call 16's output
  [40000, 1, 128] to [40000, 128]; nothing touches that buffer until the last stretch concatenates the twenty pieces.
  With the call's output read as the rows of the specification, the piece is the specification's chunk number 15.
-/
import proofs.«413139_j22651657519351_3_alg».proof.Proof.Gen.KernelIdeal.Launch
import proofs.«413139_j22651657519351_3_alg».proof.Proof.Gen.KernelIdeal.Skeleton
import proofs.«413139_j22651657519351_3_alg».proof.Proof.Gen.KernelIdeal.Points
import proofs.«413139_j22651657519351_3_alg».proof.Proof.KI.Walk
import proofs.«413139_j22651657519351_3_alg».proof.Proof.KI.Piece16
import proofs.«413139_j22651657519351_3_alg».proof.Proof.Layout
import proofs.«413139_j22651657519351_3_alg».proof.Proof.SpecRows
import Idealize.ShloMosaic.Lib.StableHlo.Run
import Idealize.ShloMosaic.Lib.ValueIdx
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section FPiece

variable (m : (ℓ : Loc nD τ sig) → Buf (Elt Ideal) ℓ) (hR : InRange m)

theorem fpiece16 (c : Dev nD) :
    (W41 (F := Ideal) m hR c main_v68 : FVec Ideal S40000x128 .f32)
      = Cert.Spec.chunk (m ((c : Thread nD τ).loc main_arg0)) (m ((c : Thread nD τ).loc main_arg1)) (m ((c : Thread nD τ).loc main_arg2))
          (m ((c : Thread nD τ).loc main_arg3)) (m ((c : Thread nD τ).loc main_arg4)) (15 : Fin 20) := by
  funext i
  obtain ⟨t, l, rfl⟩ : ∃ (t : Fin 40000) (l : Fin 128), i = ValueIdx.ix2 t l := ⟨i 0, i 1, ValueIdx.eq_ix2 i⟩
  rw [W41_p16 m hR c]
  show StableHlo.after hostOps17 (W33 (F := Ideal) m hR c) (Proc.devRef .tc main_v68) (ValueIdx.ix2 t l) = _
  after_results
  refine (Cert.Layout.piece_apply _ _ t l).trans ?_
  exact piece16 m hR c t l

end FPiece

end Cert.KernelIdeal.Hand

end
-- ==== Proof.KI.GatherValue17.lean ====
/-
  Edge chunk 1's gather kernel: what it leaves in its output array, entry by entry, at the ideal (extended-real)
  instance, for any contents V of the buffers at the region's entry and any admissible contents of the two index tables.

  At grid point t the two gathered windows hold row (word t of table 0) of the first source array and row (word t of
  table 1) of the second: the block index of a gathered window is (that word read unsigned, 0, 0), the block is one
  row of 128 lanes, and admissibility of the tables says the word is below the 50000 rows. The body stores
  (row + row) · c into the output block, and the output window's block index is (t, 0, 0): block t is row t of the
  output array, every point writes its block back, and the blocks of the 40000 points cover the array. So the array
  ends holding, at (t, 0, l), the sum of the two named rows' entries at lane l, times c.
-/
import proofs.«413139_j22651657519351_3_alg».proof.Proof.KI.Region17
import proofs.«413139_j22651657519351_3_alg».proof.Proof.Spec
import Idealize.ShloMosaic.Lib.Pipeline.Value
import Idealize.ShloMosaic.Lib.ValueIdx
import Idealize.ShloMosaic.Lib.ValueLayout

set_option maxRecDepth 16384

noncomputable section

namespace Cert.KernelIdeal.Hand

open Cert.KernelIdeal Cert.KernelIdeal.Gen
open Idealize.ShloMosaic Idealize.ShloMosaic.TcCoe
open Idealize.SL.Sem
open Idealize.ShloMosaic.Pipeline (Dat Cfg Window)

section GatherValue
variable (V : (c : Dev nD) → (b : Ref sig .tc) → Buf (Elt Ideal) ((c : Thread nD τ).loc b))
variable (a : (pcfg17 (F := Ideal)).Adm)

/-- The grid has 40000 points, one axis. -/
theorem npts17 : (cfg17 a).N = 40000 := N_17

/-- The one coordinate of point t is t. -/
theorem coord17 (t : Fin (cfg17 a).N) : (((cfg17 a).grid.coords t) 0).val = t.val := by
  show t.val / (cfg17 a).grid.stride 0 % 40000 = t.val
  have hs : (cfg17 a).grid.stride 0 = 1 := rfl
  rw [hs]
  have := t.isLt
  have e : (cfg17 a).N = 40000 := rfl
  omega

/-- A grid coordinate, as the 32-bit word the index maps receive and back, is itself. -/
theorem wordCoord17 (n : Nat) (h : n < 40000) : (Scalar.indexCast (BitVec.ofNat 32 n)).toNat = n := by
  show (BitVec.ofNat 32 n).toNat = n
  rw [BitVec.toNat_ofNat]
  exact Nat.mod_eq_of_lt (by omega)

set_option maxHeartbeats 100000 in
/-- Output window: the block index at point t is (t, 0, 0). -/
theorem index17_2 (t : Fin (cfg17 a).N) : ((cfg17 a).win 2).index t = ![t.val, 0, 0] := by
  show cc17_transform_2 ((cfg17 a).grid.coords t) = _
  unfold cc17_transform_2
  dsimp only
  have h := coord17 a t
  have hl : t.val < 40000 := t.isLt
  funext d
  match d with
  | ⟨0, _⟩ => show (BitVec.ofNat 32 (((cfg17 a).grid.coords t) 0).val).toNat = t.val; rw [h]; exact wordCoord17 _ hl
  | ⟨1, _⟩ => rfl
  | ⟨2, _⟩ => rfl

set_option maxHeartbeats 100000 in
/-- Gathered window 0: the block index at point t is (word t of table 0, 0, 0). -/
theorem index17_0 (t : Fin (cfg17 a).N) :
    ((cfg17 a).win 0).index t = ![((a.1 0 (ValueIdx.ix1 (n := 40000) ⟨t.val, t.isLt⟩) : BitVec 32)).toNat, 0, 0] := by
  show cc17_transform_0 k17_off1_inb numel1_S1 a.1 ((cfg17 a).grid.coords t) = _
  unfold cc17_transform_0
  dsimp only
  have h := coord17 a t
  have hl : t.val < 40000 := t.isLt
  funext d
  match d with
  | ⟨0, _⟩ =>
    show ((a.1 0 _ : BitVec 32)).toNat = ((a.1 0 _ : BitVec 32)).toNat
    refine congrArg (fun j => ((a.1 0 j : BitVec 32)).toNat) ?_
    funext k
    match k with
    | ⟨0, _⟩ =>
      apply Fin.ext
      show (Scalar.indexCast (BitVec.ofNat 32 (((cfg17 a).grid.coords t) 0).val)).toNat + 1 * 0 = t.val
      rw [h, wordCoord17 _ hl]; omega
  | ⟨1, _⟩ => rfl
  | ⟨2, _⟩ => rfl

set_option maxHeartbeats 100000 in
/-- Gathered window 1: the block index at point t is (word t of table 1, 0, 0). -/
theorem index17_1 (t : Fin (cfg17 a).N) :
    ((cfg17 a).win 1).index t = ![((a.1 1 (ValueIdx.ix1 (n := 40000) ⟨t.val, t.isLt⟩) : BitVec 32)).toNat, 0, 0] := by
  show cc17_transform_1 k17_off1_inb numel1_S1 a.1 ((cfg17 a).grid.coords t) = _
  unfold cc17_transform_1
  dsimp only
  have h := coord17 a t
  have hl : t.val < 40000 := t.isLt
  funext d
  match d with
  | ⟨0, _⟩ =>
    show ((a.1 1 _ : BitVec 32)).toNat = ((a.1 1 _ : BitVec 32)).toNat
    refine congrArg (fun j => ((a.1 1 j : BitVec 32)).toNat) ?_
    funext k
    match k with
    | ⟨0, _⟩ =>
      apply Fin.ext
      show (Scalar.indexCast (BitVec.ofNat 32 (((cfg17 a).grid.coords t) 0).val)).toNat + 1 * 0 = t.val
      rw [h, wordCoord17 _ hl]; omega
  | ⟨1, _⟩ => rfl
  | ⟨2, _⟩ => rfl

theorem zeros17 : (![0, 0, 0] : Fin 3 → Nat) = fun _ => 0 := funext fun d => by fin_cases d <;> rfl

/-- The arithmetic of one entry: add, then scale. -/
abbrev comb17 (u v : EReal) : EReal := (u + v) * Cert.Spec.scale

/-- The body's payload at an index: the sum of the two loaded rows' entries there, times the scale. -/
theorem pay17_apply (x0 x2 : S1x1x128.Idx → EReal) (y : S1x1x128.Idx) :
    (k17_pay1 (F := Ideal) x0 x2 : S1x1x128.Idx → EReal) y = (x0 y + x2 y) * Cert.Spec.scale := by
  unfold k17_pay1
  rw [shapeCast_self, shapeCast_self]
  rfl

/-- The same with the two rows loaded through the whole-block rectangle. -/
theorem pay17_ld_apply (x0 x2 : Vec Ideal S1x1x128 .f32) (y : S1x1x128.Idx) :
    (k17_pay1 (F := Ideal) (View.ld x0 r17) (View.ld x2 r17) : S1x1x128.Idx → EReal) y = comb17 (x0 y) (x2 y) := by
  have hA : View.ld x0 r17 = x0 := View.ld_unit_zero (Val := Elt Ideal) (S := S1x1x128) (e := .f32) zeros17 _ x0
  have hB : View.ld x2 r17 = x2 := View.ld_unit_zero (Val := Elt Ideal) (S := S1x1x128) (e := .f32) zeros17 _ x2
  rw [hA, hB]
  exact pay17_apply x0 x2 y

/-- The word of table 0 at point t is a row of the 50000-row array. -/
theorem word17_0_lt (t : Fin (cfg17 a).N) : ((a.1 0 (ValueIdx.ix1 (n := 40000) ⟨t.val, t.isLt⟩) : BitVec 32)).toNat < 50000 := by
  obtain ⟨h, -⟩ := a.2.1 ((cfg17 a).grid.coords t)
  have h0 : (((cfg17 a).win 0).index t (0 : Fin 3) + 1) * 1 ≤ 50000 := h 0
  have e0 : ((cfg17 a).win 0).index t (0 : Fin 3) = ((a.1 0 (ValueIdx.ix1 (n := 40000) ⟨t.val, t.isLt⟩) : BitVec 32)).toNat := congrFun (index17_0 a t) (0 : Fin 3)
  rw [e0] at h0
  omega

/-- The word of table 1 at point t is a row of the 50000-row array. -/
theorem word17_1_lt (t : Fin (cfg17 a).N) : ((a.1 1 (ValueIdx.ix1 (n := 40000) ⟨t.val, t.isLt⟩) : BitVec 32)).toNat < 50000 := by
  obtain ⟨h, -⟩ := a.2.2 ((cfg17 a).grid.coords t)
  have h0 : (((cfg17 a).win 1).index t (0 : Fin 3) + 1) * 1 ≤ 50000 := h 0
  have e0 : ((cfg17 a).win 1).index t (0 : Fin 3) = ((a.1 1 (ValueIdx.ix1 (n := 40000) ⟨t.val, t.isLt⟩) : BitVec 32)).toNat := congrFun (index17_1 a t) (0 : Fin 3)
  rw [e0] at h0
  omega

/-- The two source arrays, as functions to the extended reals. -/
abbrev srcRows17 (c : Dev nD) : S50000x1x128.Idx → EReal := V c main_v2
abbrev dstRows17 (c : Dev nD) : S50000x1x128.Idx → EReal := V c main_v4

set_option maxHeartbeats 100000 in
/-- Window 0's block at point t is the row of the first source array that table 0's word t names. -/
theorem iblk17_0_apply (c : Dev nD) (t : Fin (cfg17 a).N) (y : (((cfg17 a).win 0).xblock ((cfg17 a).grid.coords t)).Idx)
    (l : Fin 128) (hl : (y (2 : Fin 3)).val = l.val) :
    (iblk17 V a c 0 t y : EReal)
      = srcRows17 V c (ValueIdx.ix3 (Cert.Spec.node (a.1 0 (ValueIdx.ix1 (n := 40000) ⟨t.val, t.isLt⟩))) (0 : Fin 1) l) := by
  have hw := word17_0_lt a t
  have e0 : ((cfg17 a).win 0).index t (0 : Fin 3) = ((a.1 0 (ValueIdx.ix1 (n := 40000) ⟨t.val, t.isLt⟩) : BitVec 32)).toNat := congrFun (index17_0 a t) (0 : Fin 3)
  have eM : ((cfg17 a).win 0).index t (1 : Fin 3) = 0 := congrFun (index17_0 a t) (1 : Fin 3)
  have e2 : ((cfg17 a).win 0).index t (2 : Fin 3) = 0 := congrFun (index17_0 a t) (2 : Fin 3)
  show V c main_v2 ((((cfg17 a).win 0).blk t).view.emb y) = V c main_v2 _
  refine congrArg (V c main_v2) ?_
  funext d
  apply Fin.ext
  match d with
  | ⟨0, _⟩ =>
    show ((cfg17 a).win 0).index t (0 : Fin 3) * 1 + 1 * (y (0 : Fin 3)).val = (Cert.Spec.node _).val
    have hy : (y (0 : Fin 3)).val < 1 := (y (0 : Fin 3)).isLt
    rw [e0, Cert.Spec.node_val hw]; omega
  | ⟨1, _⟩ =>
    show ((cfg17 a).win 0).index t (1 : Fin 3) * 1 + 1 * (y (1 : Fin 3)).val = 0
    have hy : (y (1 : Fin 3)).val < 1 := (y (1 : Fin 3)).isLt
    rw [eM]; omega
  | ⟨2, _⟩ =>
    show ((cfg17 a).win 0).index t (2 : Fin 3) * 128 + 1 * (y (2 : Fin 3)).val = l.val
    rw [e2, hl]; omega

set_option maxHeartbeats 100000 in
/-- Window 1's block at point t is the row of the second source array that table 1's word t names. -/
theorem iblk17_1_apply (c : Dev nD) (t : Fin (cfg17 a).N) (y : (((cfg17 a).win 1).xblock ((cfg17 a).grid.coords t)).Idx)
    (l : Fin 128) (hl : (y (2 : Fin 3)).val = l.val) :
    (iblk17 V a c 1 t y : EReal)
      = dstRows17 V c (ValueIdx.ix3 (Cert.Spec.node (a.1 1 (ValueIdx.ix1 (n := 40000) ⟨t.val, t.isLt⟩))) (0 : Fin 1) l) := by
  have hw := word17_1_lt a t
  have e0 : ((cfg17 a).win 1).index t (0 : Fin 3) = ((a.1 1 (ValueIdx.ix1 (n := 40000) ⟨t.val, t.isLt⟩) : BitVec 32)).toNat := congrFun (index17_1 a t) (0 : Fin 3)
  have eM : ((cfg17 a).win 1).index t (1 : Fin 3) = 0 := congrFun (index17_1 a t) (1 : Fin 3)
  have e2 : ((cfg17 a).win 1).index t (2 : Fin 3) = 0 := congrFun (index17_1 a t) (2 : Fin 3)
  show V c main_v4 ((((cfg17 a).win 1).blk t).view.emb y) = V c main_v4 _
  refine congrArg (V c main_v4) ?_
  funext d
  apply Fin.ext
  match d with
  | ⟨0, _⟩ =>
    show ((cfg17 a).win 1).index t (0 : Fin 3) * 1 + 1 * (y (0 : Fin 3)).val = (Cert.Spec.node _).val
    have hy : (y (0 : Fin 3)).val < 1 := (y (0 : Fin 3)).isLt
    rw [e0, Cert.Spec.node_val hw]; omega
  | ⟨1, _⟩ =>
    show ((cfg17 a).win 1).index t (1 : Fin 3) * 1 + 1 * (y (1 : Fin 3)).val = 0
    have hy : (y (1 : Fin 3)).val < 1 := (y (1 : Fin 3)).isLt
    rw [eM]; omega
  | ⟨2, _⟩ =>
    show ((cfg17 a).win 1).index t (2 : Fin 3) * 128 + 1 * (y (2 : Fin 3)).val = l.val
    rw [e2, hl]; omega

/-- Entry (t, l) of what the call leaves: the two gathered rows' entries at lane l, added and scaled. -/
def row17 (c : Dev nD) (t : Fin 40000) (l : Fin 128) : EReal :=
  comb17 (srcRows17 V c (ValueIdx.ix3 (Cert.Spec.node (a.1 0 (ValueIdx.ix1 t))) (0 : Fin 1) l))
    (dstRows17 V c (ValueIdx.ix3 (Cert.Spec.node (a.1 1 (ValueIdx.ix1 t))) (0 : Fin 1) l))

/-- The whole output array as one function of its index. -/
def gath17 (c : Dev nD) : S40000x1x128.Idx → EReal :=
  fun i => row17 V a c ⟨(i (0 : Fin 3)).val, (i (0 : Fin 3)).isLt⟩ ⟨(i (2 : Fin 3)).val, (i (2 : Fin 3)).isLt⟩

set_option maxHeartbeats 200000 in
/-- What point t writes back is block t of that function. -/
theorem flushed17_eq (c : Dev nD) (t : Fin (cfg17 a).N) :
    (dat17 (F := Ideal) V a c).flushed 2 t = (((cfg17 a).win 2).blk t).view.read (Elt Ideal) (gath17 V a c) := by
  show ((cfg17 a).win 2).cut ((cfg17 a).grid.coords t) ((dat17 V a c).after 2 t) = _
  rw [after17_2]
  unfold out17_2
  rw [View.canon_unit_zero zeros17]
  funext j
  have e0 : ((cfg17 a).win 2).index t (0 : Fin 3) = t.val := congrFun (index17_2 a t) (0 : Fin 3)
  have e2 : ((cfg17 a).win 2).index t (2 : Fin 3) = 0 := congrFun (index17_2 a t) (2 : Fin 3)
  have hj0 : (j (0 : Fin 3)).val < 1 := (j (0 : Fin 3)).isLt
  show (k17_pay1 (F := Ideal) (View.ld (iblk17 V a c 0 t) r17) (View.ld (iblk17 V a c 1 t) r17) : S1x1x128.Idx → EReal) (((cfg17 a).win 2).xinj ((cfg17 a).grid.coords t) j)
      = gath17 V a c ((((cfg17 a).win 2).blk t).view.emb j)
  refine (pay17_ld_apply (iblk17 V a c 0 t) (iblk17 V a c 1 t) (((cfg17 a).win 2).xinj ((cfg17 a).grid.coords t) j)).trans ?_
  have hT : (⟨t.val, t.isLt⟩ : Fin 40000) = ⟨((((cfg17 a).win 2).blk t).view.emb j (0 : Fin 3)).val, ((((cfg17 a).win 2).blk t).view.emb j (0 : Fin 3)).isLt⟩ :=
    Fin.ext (by
      show t.val = ((cfg17 a).win 2).index t (0 : Fin 3) * 1 + 1 * (j (0 : Fin 3)).val
      rw [e0]; omega)
  have hL : (⟨(j (2 : Fin 3)).val, (j (2 : Fin 3)).isLt⟩ : Fin 128) = ⟨((((cfg17 a).win 2).blk t).view.emb j (2 : Fin 3)).val, ((((cfg17 a).win 2).blk t).view.emb j (2 : Fin 3)).isLt⟩ :=
    Fin.ext (by
      show (j (2 : Fin 3)).val = ((cfg17 a).win 2).index t (2 : Fin 3) * 128 + 1 * (j (2 : Fin 3)).val
      rw [e2]; omega)
  refine Eq.trans ?_ (congrArg₂ (row17 V a c) hT hL)
  unfold row17
  exact congrArg₂ comb17 (iblk17_0_apply V a c t _ _ rfl) (iblk17_1_apply V a c t _ _ rfl)

set_option maxHeartbeats 100000 in
/-- The output window is written back at every point: the next point's block is another row. -/
theorem flush17_2 (t : Fin (cfg17 a).N) : ((cfg17 a).win 2).flush t = true := by
  unfold Window.flush
  rw [Bool.and_eq_true, Bool.or_eq_true, decide_eq_true_eq, decide_eq_true_eq]
  refine ⟨rfl, ?_⟩
  by_cases h : t.val + 1 < (cfg17 a).grid.N
  · refine Or.inr ⟨h, fun e => ?_⟩
    have e0 := congrFun e (0 : Fin 3)
    have eA : ((cfg17 a).win 2).index ⟨t.val + 1, h⟩ (0 : Fin 3) = t.val + 1 := congrFun (index17_2 a ⟨t.val + 1, h⟩) (0 : Fin 3)
    have eB : ((cfg17 a).win 2).index t (0 : Fin 3) = t.val := congrFun (index17_2 a t) (0 : Fin 3)
    rw [eA, eB] at e0
    omega
  · refine Or.inl ?_
    have hlt : t.val < (cfg17 a).grid.N := t.isLt
    omega

set_option maxHeartbeats 100000 in
/-- Every entry of the output array lies in the block of the point its row names. -/
theorem cover17 (i : S40000x1x128.Idx) :
    ∃ t : Fin (cfg17 a).N, ((cfg17 a).win 2).flush t = true ∧ i ∈ (((cfg17 a).win 2).blk t).view.set := by
  have hlt : (i (0 : Fin 3)).val < (cfg17 a).N := by rw [npts17]; exact (i (0 : Fin 3)).isLt
  obtain ⟨t, ht⟩ : ∃ t : Fin (cfg17 a).N, t.val = (i (0 : Fin 3)).val := ⟨⟨_, hlt⟩, rfl⟩
  refine ⟨t, flush17_2 a t, ?_⟩
  have hset := View.set_slice_whole main_v71 (((cfg17 a).win 2).rect t)
  refine (Eq.mpr (congrArg (fun S => i ∈ S) hset) ?_ : i ∈ ((View.whole main_v71).slice (((cfg17 a).win 2).rect t)).set)
  refine Rect.mem_set_unit.mpr (fun d => ?_)
  have e0 : ((cfg17 a).win 2).index t (0 : Fin 3) = t.val := congrFun (index17_2 a t) (0 : Fin 3)
  have eB : ((cfg17 a).win 2).index t (1 : Fin 3) = 0 := congrFun (index17_2 a t) (1 : Fin 3)
  have e2 : ((cfg17 a).win 2).index t (2 : Fin 3) = 0 := congrFun (index17_2 a t) (2 : Fin 3)
  match d with
  | ⟨0, _⟩ =>
    show ((cfg17 a).win 2).index t (0 : Fin 3) * 1 ≤ (i (0 : Fin 3)).val
      ∧ (i (0 : Fin 3)).val < ((cfg17 a).win 2).index t (0 : Fin 3) * 1 + 1
    rw [e0]; omega
  | ⟨1, _⟩ =>
    have hi : (i (1 : Fin 3)).val < 1 := (i (1 : Fin 3)).isLt
    show ((cfg17 a).win 2).index t (1 : Fin 3) * 1 ≤ (i (1 : Fin 3)).val
      ∧ (i (1 : Fin 3)).val < ((cfg17 a).win 2).index t (1 : Fin 3) * 1 + 1
    rw [eB]; omega
  | ⟨2, _⟩ =>
    have hi : (i (2 : Fin 3)).val < 128 := (i (2 : Fin 3)).isLt
    show ((cfg17 a).win 2).index t (2 : Fin 3) * 128 ≤ (i (2 : Fin 3)).val
      ∧ (i (2 : Fin 3)).val < ((cfg17 a).win 2).index t (2 : Fin 3) * 128 + 128
    rw [e2]; omega

/-- So the output array ends holding that function. -/
theorem final17 (c : Dev nD) : (dat17 (F := Ideal) V a c).arrAt 2 (cfg17 a).N = gath17 V a c :=
  (dat17 (F := Ideal) V a c).arrAt_eq_of_cover 2 (gath17 V a c) (fun t _ => flushed17_eq V a c t) (cover17 a)

/-- What gather call 1 leaves in its output array, entry by entry: the two rows its tables name, added and scaled. -/
theorem gather_out17 (c : Dev nD) (t : Fin 40000) (l : Fin 128) :
    ((dat17 (F := Ideal) V a c).arrAt 2 (cfg17 a).N : FVec Ideal S40000x1x128 .f32) (ValueIdx.ix3 t (0 : Fin 1) l)
      = (srcRows17 V c (ValueIdx.ix3 (Cert.Spec.node (a.1 0 (ValueIdx.ix1 t))) (0 : Fin 1) l)
        + dstRows17 V c (ValueIdx.ix3 (Cert.Spec.node (a.1 1 (ValueIdx.ix1 t))) (0 : Fin 1) l)) * Cert.Spec.scale :=
  congrFun (final17 V a c) (ValueIdx.ix3 t (0 : Fin 1) l)
end GatherValue

end Cert.KernelIdeal.Hand

end
-- ==== Proof.KI.Piece17.lean ====
/-
  Gather call 17's output array in terms of the launch arrays.

  Gather call 17 walks its 40000 grid points; at point t it reads row (word t of its source table) of the re-laid source
  projection and row (word t of its destination table) of the re-laid destination projection, adds them lane by lane and
  multiplies by the constant, into row t of its output. Its tables are the slices of the launch endpoint arrays from
  word 640000 on, so word t of a table is the endpoint array's word 40000 · 16 + t, and a re-laid projection's row n, lane l
  is the projected feature (batch l / 64, node n, feature l % 64). So row t, lane l of the output is lane l of the
  specification's row for edge 40000 · 16 + t.
-/
import proofs.«413139_j22651657519351_3_alg».proof.Proof.KI.Fold
import proofs.«413139_j22651657519351_3_alg».proof.Proof.KI.Walk
import proofs.«413139_j22651657519351_3_alg».proof.Proof.KI.Hs2
import proofs.«413139_j22651657519351_3_alg».proof.Proof.KI.GatherValue17
import proofs.«413139_j22651657519351_3_alg».proof.Proof.SpecRows
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe
open Idealize.SL.Sem

section Piece17

variable (m : (ℓ : Loc nD τ sig) → Buf (Elt Ideal) ℓ) (hR : InRange m)

/-- Word t of chunk 17's source table is the launch source array's word 40000 · 16 + t: the table is the slice of the
    array from word 640000 on. -/
theorem tbl17_src (t : Fin 40000) :
    (tbl17 (F := Ideal) m 0 : IVec S40000 32) (ValueIdx.ix1 t)
      = (m (((0 : Dev nD) : Thread nD τ).loc main_arg1) : IVec S800000 32) (ValueIdx.ix1 ⟨40000 * 16 + t.val, Cert.Spec.chunk_lt ⟨16, by norm_num⟩ t⟩) := by
  show extractStridedSlice S40000 ![640000] (m (((0 : Dev nD) : Thread nD τ).loc main_arg1) : IVec S800000 32) slices_S800000_S40000_640000 (ValueIdx.ix1 t) = _
  exact extractStridedSlice_apply (s := S800000) (t := S40000) ![640000] _ slices_S800000_S40000_640000 (ValueIdx.ix1 t) (ValueIdx.ix1 ⟨40000 * 16 + t.val, Cert.Spec.chunk_lt ⟨16, by norm_num⟩ t⟩)
    (fun a => match a with | ⟨0, _⟩ => by show 40000 * 16 + t.val = 640000 + t.val; omega)

/-- Word t of chunk 17's destination table is the launch destination array's word 40000 · 16 + t. -/
theorem tbl17_dst (t : Fin 40000) :
    (tbl17 (F := Ideal) m 1 : IVec S40000 32) (ValueIdx.ix1 t)
      = (m (((0 : Dev nD) : Thread nD τ).loc main_arg2) : IVec S800000 32) (ValueIdx.ix1 ⟨40000 * 16 + t.val, Cert.Spec.chunk_lt ⟨16, by norm_num⟩ t⟩) := by
  show extractStridedSlice S40000 ![640000] (m (((0 : Dev nD) : Thread nD τ).loc main_arg2) : IVec S800000 32) slices_S800000_S40000_640000 (ValueIdx.ix1 t) = _
  exact extractStridedSlice_apply (s := S800000) (t := S40000) ![640000] _ slices_S800000_S40000_640000 (ValueIdx.ix1 t) (ValueIdx.ix1 ⟨40000 * 16 + t.val, Cert.Spec.chunk_lt ⟨16, by norm_num⟩ t⟩)
    (fun a => match a with | ⟨0, _⟩ => by show 40000 * 16 + t.val = 640000 + t.val; omega)

/-- Gather call 17's output array in terms of the launch arrays: row t, lane l is lane l of edge 40000 · 16 + t's row.
    The call adds, at row t, the rows of the two re-laid projections that the tables' words t name, and scales the sum;
    the re-laid projections, untouched since host stretch 1 wrote them, hold at each row the projected features of that
    node, and the tables' words t are the endpoint arrays' words 40000 · 16 + t. -/
theorem piece17 (c : Dev nD) (t : Fin 40000) (l : Fin 128) :
    (W35 (F := Ideal) m hR c main_v71 : FVec Ideal S40000x1x128 .f32) (ValueIdx.ix3 t (0 : Fin 1) l)
      = Cert.Spec.edgeRow (m ((c : Thread nD τ).loc main_arg0)) (m ((c : Thread nD τ).loc main_arg1)) (m ((c : Thread nD τ).loc main_arg2))
          (m ((c : Thread nD τ).loc main_arg3)) (m ((c : Thread nD τ).loc main_arg4))
          ⟨40000 * 16 + t.val, Cert.Spec.chunk_lt ⟨16, by norm_num⟩ t⟩ l := by
  obtain rfl : c = 0 := Subsingleton.elim _ _
  refine (congrFun (W35_arr (F := Ideal) m hR 0 2) _).trans ?_
  refine (gather_out17 (V34 (F := Ideal) m hR) (a17 (F := Ideal) m hR) 0 t l).trans ?_
  have e1 : (W34 (F := Ideal) m hR 0 main_v2 : FVec Ideal S50000x1x128 .f32)
        (ValueIdx.ix3 (Cert.Spec.node ((tbl17 (F := Ideal) m 0 : IVec S40000 32) (ValueIdx.ix1 t))) (0 : Fin 1) l)
      = Cert.Spec.proj (m (((0 : Dev nD) : Thread nD τ).loc main_arg0)) (m (((0 : Dev nD) : Thread nD τ).loc main_arg3))
          ⟨l.val / 64, Cert.Spec.lane_div l⟩
          (Cert.Spec.node ((m (((0 : Dev nD) : Thread nD τ).loc main_arg1) : IVec S800000 32) (ValueIdx.ix1 ⟨40000 * 16 + t.val, Cert.Spec.chunk_lt ⟨16, by norm_num⟩ t⟩)))
          ⟨l.val % 64, Cert.Spec.lane_mod l⟩ := by
    rw [tbl17_src m t]
    exact (congrFun (W34_v2 (F := Ideal) m hR 0) _).trans (hs2_apply m hR 0 _ l)
  have e2 : (W34 (F := Ideal) m hR 0 main_v4 : FVec Ideal S50000x1x128 .f32)
        (ValueIdx.ix3 (Cert.Spec.node ((tbl17 (F := Ideal) m 1 : IVec S40000 32) (ValueIdx.ix1 t))) (0 : Fin 1) l)
      = Cert.Spec.proj (m (((0 : Dev nD) : Thread nD τ).loc main_arg0)) (m (((0 : Dev nD) : Thread nD τ).loc main_arg4))
          ⟨l.val / 64, Cert.Spec.lane_div l⟩
          (Cert.Spec.node ((m (((0 : Dev nD) : Thread nD τ).loc main_arg2) : IVec S800000 32) (ValueIdx.ix1 ⟨40000 * 16 + t.val, Cert.Spec.chunk_lt ⟨16, by norm_num⟩ t⟩)))
          ⟨l.val % 64, Cert.Spec.lane_mod l⟩ := by
    rw [tbl17_dst m t]
    exact (congrFun (W34_v4 (F := Ideal) m hR 0) _).trans (hd2_apply m hR 0 _ l)
  exact congrArg₂ (fun a b : EReal => (a + b) * Cert.Spec.scale) e1 e2

end Piece17

end Cert.KernelIdeal.Hand

end
-- ==== Proof.KI.FPiece17.lean ====
/-
  Chunk 17's rows as the last host stretch finds them. Host stretch 18 reshapes gather call 17's output
  [40000, 1, 128] to [40000, 128]; nothing touches that buffer until the last stretch concatenates the twenty pieces.
  With the call's output read as the rows of the specification, the piece is the specification's chunk number 16.
-/
import proofs.«413139_j22651657519351_3_alg».proof.Proof.Gen.KernelIdeal.Launch
import proofs.«413139_j22651657519351_3_alg».proof.Proof.Gen.KernelIdeal.Skeleton
import proofs.«413139_j22651657519351_3_alg».proof.Proof.Gen.KernelIdeal.Points
import proofs.«413139_j22651657519351_3_alg».proof.Proof.KI.Walk
import proofs.«413139_j22651657519351_3_alg».proof.Proof.KI.Piece17
import proofs.«413139_j22651657519351_3_alg».proof.Proof.Layout
import proofs.«413139_j22651657519351_3_alg».proof.Proof.SpecRows
import Idealize.ShloMosaic.Lib.StableHlo.Run
import Idealize.ShloMosaic.Lib.ValueIdx
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section FPiece

variable (m : (ℓ : Loc nD τ sig) → Buf (Elt Ideal) ℓ) (hR : InRange m)

theorem fpiece17 (c : Dev nD) :
    (W41 (F := Ideal) m hR c main_v72 : FVec Ideal S40000x128 .f32)
      = Cert.Spec.chunk (m ((c : Thread nD τ).loc main_arg0)) (m ((c : Thread nD τ).loc main_arg1)) (m ((c : Thread nD τ).loc main_arg2))
          (m ((c : Thread nD τ).loc main_arg3)) (m ((c : Thread nD τ).loc main_arg4)) (16 : Fin 20) := by
  funext i
  obtain ⟨t, l, rfl⟩ : ∃ (t : Fin 40000) (l : Fin 128), i = ValueIdx.ix2 t l := ⟨i 0, i 1, ValueIdx.eq_ix2 i⟩
  rw [W41_p17 m hR c]
  show StableHlo.after hostOps18 (W35 (F := Ideal) m hR c) (Proc.devRef .tc main_v72) (ValueIdx.ix2 t l) = _
  after_results
  refine (Cert.Layout.piece_apply _ _ t l).trans ?_
  exact piece17 m hR c t l

end FPiece

end Cert.KernelIdeal.Hand

end
-- ==== Proof.KI.GatherValue18.lean ====
/-
  Edge chunk 1's gather kernel: what it leaves in its output array, entry by entry, at the ideal (extended-real)
  instance, for any contents V of the buffers at the region's entry and any admissible contents of the two index tables.

  At grid point t the two gathered windows hold row (word t of table 0) of the first source array and row (word t of
  table 1) of the second: the block index of a gathered window is (that word read unsigned, 0, 0), the block is one
  row of 128 lanes, and admissibility of the tables says the word is below the 50000 rows. The body stores
  (row + row) · c into the output block, and the output window's block index is (t, 0, 0): block t is row t of the
  output array, every point writes its block back, and the blocks of the 40000 points cover the array. So the array
  ends holding, at (t, 0, l), the sum of the two named rows' entries at lane l, times c.
-/
import proofs.«413139_j22651657519351_3_alg».proof.Proof.KI.Region18
import proofs.«413139_j22651657519351_3_alg».proof.Proof.Spec
import Idealize.ShloMosaic.Lib.Pipeline.Value
import Idealize.ShloMosaic.Lib.ValueIdx
import Idealize.ShloMosaic.Lib.ValueLayout

set_option maxRecDepth 16384

noncomputable section

namespace Cert.KernelIdeal.Hand

open Cert.KernelIdeal Cert.KernelIdeal.Gen
open Idealize.ShloMosaic Idealize.ShloMosaic.TcCoe
open Idealize.SL.Sem
open Idealize.ShloMosaic.Pipeline (Dat Cfg Window)

section GatherValue
variable (V : (c : Dev nD) → (b : Ref sig .tc) → Buf (Elt Ideal) ((c : Thread nD τ).loc b))
variable (a : (pcfg18 (F := Ideal)).Adm)

/-- The grid has 40000 points, one axis. -/
theorem npts18 : (cfg18 a).N = 40000 := N_18

/-- The one coordinate of point t is t. -/
theorem coord18 (t : Fin (cfg18 a).N) : (((cfg18 a).grid.coords t) 0).val = t.val := by
  show t.val / (cfg18 a).grid.stride 0 % 40000 = t.val
  have hs : (cfg18 a).grid.stride 0 = 1 := rfl
  rw [hs]
  have := t.isLt
  have e : (cfg18 a).N = 40000 := rfl
  omega

/-- A grid coordinate, as the 32-bit word the index maps receive and back, is itself. -/
theorem wordCoord18 (n : Nat) (h : n < 40000) : (Scalar.indexCast (BitVec.ofNat 32 n)).toNat = n := by
  show (BitVec.ofNat 32 n).toNat = n
  rw [BitVec.toNat_ofNat]
  exact Nat.mod_eq_of_lt (by omega)

set_option maxHeartbeats 100000 in
/-- Output window: the block index at point t is (t, 0, 0). -/
theorem index18_2 (t : Fin (cfg18 a).N) : ((cfg18 a).win 2).index t = ![t.val, 0, 0] := by
  show cc18_transform_2 ((cfg18 a).grid.coords t) = _
  unfold cc18_transform_2
  dsimp only
  have h := coord18 a t
  have hl : t.val < 40000 := t.isLt
  funext d
  match d with
  | ⟨0, _⟩ => show (BitVec.ofNat 32 (((cfg18 a).grid.coords t) 0).val).toNat = t.val; rw [h]; exact wordCoord18 _ hl
  | ⟨1, _⟩ => rfl
  | ⟨2, _⟩ => rfl

set_option maxHeartbeats 100000 in
/-- Gathered window 0: the block index at point t is (word t of table 0, 0, 0). -/
theorem index18_0 (t : Fin (cfg18 a).N) :
    ((cfg18 a).win 0).index t = ![((a.1 0 (ValueIdx.ix1 (n := 40000) ⟨t.val, t.isLt⟩) : BitVec 32)).toNat, 0, 0] := by
  show cc18_transform_0 k18_off1_inb numel1_S1 a.1 ((cfg18 a).grid.coords t) = _
  unfold cc18_transform_0
  dsimp only
  have h := coord18 a t
  have hl : t.val < 40000 := t.isLt
  funext d
  match d with
  | ⟨0, _⟩ =>
    show ((a.1 0 _ : BitVec 32)).toNat = ((a.1 0 _ : BitVec 32)).toNat
    refine congrArg (fun j => ((a.1 0 j : BitVec 32)).toNat) ?_
    funext k
    match k with
    | ⟨0, _⟩ =>
      apply Fin.ext
      show (Scalar.indexCast (BitVec.ofNat 32 (((cfg18 a).grid.coords t) 0).val)).toNat + 1 * 0 = t.val
      rw [h, wordCoord18 _ hl]; omega
  | ⟨1, _⟩ => rfl
  | ⟨2, _⟩ => rfl

set_option maxHeartbeats 100000 in
/-- Gathered window 1: the block index at point t is (word t of table 1, 0, 0). -/
theorem index18_1 (t : Fin (cfg18 a).N) :
    ((cfg18 a).win 1).index t = ![((a.1 1 (ValueIdx.ix1 (n := 40000) ⟨t.val, t.isLt⟩) : BitVec 32)).toNat, 0, 0] := by
  show cc18_transform_1 k18_off1_inb numel1_S1 a.1 ((cfg18 a).grid.coords t) = _
  unfold cc18_transform_1
  dsimp only
  have h := coord18 a t
  have hl : t.val < 40000 := t.isLt
  funext d
  match d with
  | ⟨0, _⟩ =>
    show ((a.1 1 _ : BitVec 32)).toNat = ((a.1 1 _ : BitVec 32)).toNat
    refine congrArg (fun j => ((a.1 1 j : BitVec 32)).toNat) ?_
    funext k
    match k with
    | ⟨0, _⟩ =>
      apply Fin.ext
      show (Scalar.indexCast (BitVec.ofNat 32 (((cfg18 a).grid.coords t) 0).val)).toNat + 1 * 0 = t.val
      rw [h, wordCoord18 _ hl]; omega
  | ⟨1, _⟩ => rfl
  | ⟨2, _⟩ => rfl

theorem zeros18 : (![0, 0, 0] : Fin 3 → Nat) = fun _ => 0 := funext fun d => by fin_cases d <;> rfl

/-- The arithmetic of one entry: add, then scale. -/
abbrev comb18 (u v : EReal) : EReal := (u + v) * Cert.Spec.scale

/-- The body's payload at an index: the sum of the two loaded rows' entries there, times the scale. -/
theorem pay18_apply (x0 x2 : S1x1x128.Idx → EReal) (y : S1x1x128.Idx) :
    (k18_pay1 (F := Ideal) x0 x2 : S1x1x128.Idx → EReal) y = (x0 y + x2 y) * Cert.Spec.scale := by
  unfold k18_pay1
  rw [shapeCast_self, shapeCast_self]
  rfl

/-- The same with the two rows loaded through the whole-block rectangle. -/
theorem pay18_ld_apply (x0 x2 : Vec Ideal S1x1x128 .f32) (y : S1x1x128.Idx) :
    (k18_pay1 (F := Ideal) (View.ld x0 r18) (View.ld x2 r18) : S1x1x128.Idx → EReal) y = comb18 (x0 y) (x2 y) := by
  have hA : View.ld x0 r18 = x0 := View.ld_unit_zero (Val := Elt Ideal) (S := S1x1x128) (e := .f32) zeros18 _ x0
  have hB : View.ld x2 r18 = x2 := View.ld_unit_zero (Val := Elt Ideal) (S := S1x1x128) (e := .f32) zeros18 _ x2
  rw [hA, hB]
  exact pay18_apply x0 x2 y

/-- The word of table 0 at point t is a row of the 50000-row array. -/
theorem word18_0_lt (t : Fin (cfg18 a).N) : ((a.1 0 (ValueIdx.ix1 (n := 40000) ⟨t.val, t.isLt⟩) : BitVec 32)).toNat < 50000 := by
  obtain ⟨h, -⟩ := a.2.1 ((cfg18 a).grid.coords t)
  have h0 : (((cfg18 a).win 0).index t (0 : Fin 3) + 1) * 1 ≤ 50000 := h 0
  have e0 : ((cfg18 a).win 0).index t (0 : Fin 3) = ((a.1 0 (ValueIdx.ix1 (n := 40000) ⟨t.val, t.isLt⟩) : BitVec 32)).toNat := congrFun (index18_0 a t) (0 : Fin 3)
  rw [e0] at h0
  omega

/-- The word of table 1 at point t is a row of the 50000-row array. -/
theorem word18_1_lt (t : Fin (cfg18 a).N) : ((a.1 1 (ValueIdx.ix1 (n := 40000) ⟨t.val, t.isLt⟩) : BitVec 32)).toNat < 50000 := by
  obtain ⟨h, -⟩ := a.2.2 ((cfg18 a).grid.coords t)
  have h0 : (((cfg18 a).win 1).index t (0 : Fin 3) + 1) * 1 ≤ 50000 := h 0
  have e0 : ((cfg18 a).win 1).index t (0 : Fin 3) = ((a.1 1 (ValueIdx.ix1 (n := 40000) ⟨t.val, t.isLt⟩) : BitVec 32)).toNat := congrFun (index18_1 a t) (0 : Fin 3)
  rw [e0] at h0
  omega

/-- The two source arrays, as functions to the extended reals. -/
abbrev srcRows18 (c : Dev nD) : S50000x1x128.Idx → EReal := V c main_v2
abbrev dstRows18 (c : Dev nD) : S50000x1x128.Idx → EReal := V c main_v4

set_option maxHeartbeats 100000 in
/-- Window 0's block at point t is the row of the first source array that table 0's word t names. -/
theorem iblk18_0_apply (c : Dev nD) (t : Fin (cfg18 a).N) (y : (((cfg18 a).win 0).xblock ((cfg18 a).grid.coords t)).Idx)
    (l : Fin 128) (hl : (y (2 : Fin 3)).val = l.val) :
    (iblk18 V a c 0 t y : EReal)
      = srcRows18 V c (ValueIdx.ix3 (Cert.Spec.node (a.1 0 (ValueIdx.ix1 (n := 40000) ⟨t.val, t.isLt⟩))) (0 : Fin 1) l) := by
  have hw := word18_0_lt a t
  have e0 : ((cfg18 a).win 0).index t (0 : Fin 3) = ((a.1 0 (ValueIdx.ix1 (n := 40000) ⟨t.val, t.isLt⟩) : BitVec 32)).toNat := congrFun (index18_0 a t) (0 : Fin 3)
  have eM : ((cfg18 a).win 0).index t (1 : Fin 3) = 0 := congrFun (index18_0 a t) (1 : Fin 3)
  have e2 : ((cfg18 a).win 0).index t (2 : Fin 3) = 0 := congrFun (index18_0 a t) (2 : Fin 3)
  show V c main_v2 ((((cfg18 a).win 0).blk t).view.emb y) = V c main_v2 _
  refine congrArg (V c main_v2) ?_
  funext d
  apply Fin.ext
  match d with
  | ⟨0, _⟩ =>
    show ((cfg18 a).win 0).index t (0 : Fin 3) * 1 + 1 * (y (0 : Fin 3)).val = (Cert.Spec.node _).val
    have hy : (y (0 : Fin 3)).val < 1 := (y (0 : Fin 3)).isLt
    rw [e0, Cert.Spec.node_val hw]; omega
  | ⟨1, _⟩ =>
    show ((cfg18 a).win 0).index t (1 : Fin 3) * 1 + 1 * (y (1 : Fin 3)).val = 0
    have hy : (y (1 : Fin 3)).val < 1 := (y (1 : Fin 3)).isLt
    rw [eM]; omega
  | ⟨2, _⟩ =>
    show ((cfg18 a).win 0).index t (2 : Fin 3) * 128 + 1 * (y (2 : Fin 3)).val = l.val
    rw [e2, hl]; omega

set_option maxHeartbeats 100000 in
/-- Window 1's block at point t is the row of the second source array that table 1's word t names. -/
theorem iblk18_1_apply (c : Dev nD) (t : Fin (cfg18 a).N) (y : (((cfg18 a).win 1).xblock ((cfg18 a).grid.coords t)).Idx)
    (l : Fin 128) (hl : (y (2 : Fin 3)).val = l.val) :
    (iblk18 V a c 1 t y : EReal)
      = dstRows18 V c (ValueIdx.ix3 (Cert.Spec.node (a.1 1 (ValueIdx.ix1 (n := 40000) ⟨t.val, t.isLt⟩))) (0 : Fin 1) l) := by
  have hw := word18_1_lt a t
  have e0 : ((cfg18 a).win 1).index t (0 : Fin 3) = ((a.1 1 (ValueIdx.ix1 (n := 40000) ⟨t.val, t.isLt⟩) : BitVec 32)).toNat := congrFun (index18_1 a t) (0 : Fin 3)
  have eM : ((cfg18 a).win 1).index t (1 : Fin 3) = 0 := congrFun (index18_1 a t) (1 : Fin 3)
  have e2 : ((cfg18 a).win 1).index t (2 : Fin 3) = 0 := congrFun (index18_1 a t) (2 : Fin 3)
  show V c main_v4 ((((cfg18 a).win 1).blk t).view.emb y) = V c main_v4 _
  refine congrArg (V c main_v4) ?_
  funext d
  apply Fin.ext
  match d with
  | ⟨0, _⟩ =>
    show ((cfg18 a).win 1).index t (0 : Fin 3) * 1 + 1 * (y (0 : Fin 3)).val = (Cert.Spec.node _).val
    have hy : (y (0 : Fin 3)).val < 1 := (y (0 : Fin 3)).isLt
    rw [e0, Cert.Spec.node_val hw]; omega
  | ⟨1, _⟩ =>
    show ((cfg18 a).win 1).index t (1 : Fin 3) * 1 + 1 * (y (1 : Fin 3)).val = 0
    have hy : (y (1 : Fin 3)).val < 1 := (y (1 : Fin 3)).isLt
    rw [eM]; omega
  | ⟨2, _⟩ =>
    show ((cfg18 a).win 1).index t (2 : Fin 3) * 128 + 1 * (y (2 : Fin 3)).val = l.val
    rw [e2, hl]; omega

/-- Entry (t, l) of what the call leaves: the two gathered rows' entries at lane l, added and scaled. -/
def row18 (c : Dev nD) (t : Fin 40000) (l : Fin 128) : EReal :=
  comb18 (srcRows18 V c (ValueIdx.ix3 (Cert.Spec.node (a.1 0 (ValueIdx.ix1 t))) (0 : Fin 1) l))
    (dstRows18 V c (ValueIdx.ix3 (Cert.Spec.node (a.1 1 (ValueIdx.ix1 t))) (0 : Fin 1) l))

/-- The whole output array as one function of its index. -/
def gath18 (c : Dev nD) : S40000x1x128.Idx → EReal :=
  fun i => row18 V a c ⟨(i (0 : Fin 3)).val, (i (0 : Fin 3)).isLt⟩ ⟨(i (2 : Fin 3)).val, (i (2 : Fin 3)).isLt⟩

set_option maxHeartbeats 200000 in
/-- What point t writes back is block t of that function. -/
theorem flushed18_eq (c : Dev nD) (t : Fin (cfg18 a).N) :
    (dat18 (F := Ideal) V a c).flushed 2 t = (((cfg18 a).win 2).blk t).view.read (Elt Ideal) (gath18 V a c) := by
  show ((cfg18 a).win 2).cut ((cfg18 a).grid.coords t) ((dat18 V a c).after 2 t) = _
  rw [after18_2]
  unfold out18_2
  rw [View.canon_unit_zero zeros18]
  funext j
  have e0 : ((cfg18 a).win 2).index t (0 : Fin 3) = t.val := congrFun (index18_2 a t) (0 : Fin 3)
  have e2 : ((cfg18 a).win 2).index t (2 : Fin 3) = 0 := congrFun (index18_2 a t) (2 : Fin 3)
  have hj0 : (j (0 : Fin 3)).val < 1 := (j (0 : Fin 3)).isLt
  show (k18_pay1 (F := Ideal) (View.ld (iblk18 V a c 0 t) r18) (View.ld (iblk18 V a c 1 t) r18) : S1x1x128.Idx → EReal) (((cfg18 a).win 2).xinj ((cfg18 a).grid.coords t) j)
      = gath18 V a c ((((cfg18 a).win 2).blk t).view.emb j)
  refine (pay18_ld_apply (iblk18 V a c 0 t) (iblk18 V a c 1 t) (((cfg18 a).win 2).xinj ((cfg18 a).grid.coords t) j)).trans ?_
  have hT : (⟨t.val, t.isLt⟩ : Fin 40000) = ⟨((((cfg18 a).win 2).blk t).view.emb j (0 : Fin 3)).val, ((((cfg18 a).win 2).blk t).view.emb j (0 : Fin 3)).isLt⟩ :=
    Fin.ext (by
      show t.val = ((cfg18 a).win 2).index t (0 : Fin 3) * 1 + 1 * (j (0 : Fin 3)).val
      rw [e0]; omega)
  have hL : (⟨(j (2 : Fin 3)).val, (j (2 : Fin 3)).isLt⟩ : Fin 128) = ⟨((((cfg18 a).win 2).blk t).view.emb j (2 : Fin 3)).val, ((((cfg18 a).win 2).blk t).view.emb j (2 : Fin 3)).isLt⟩ :=
    Fin.ext (by
      show (j (2 : Fin 3)).val = ((cfg18 a).win 2).index t (2 : Fin 3) * 128 + 1 * (j (2 : Fin 3)).val
      rw [e2]; omega)
  refine Eq.trans ?_ (congrArg₂ (row18 V a c) hT hL)
  unfold row18
  exact congrArg₂ comb18 (iblk18_0_apply V a c t _ _ rfl) (iblk18_1_apply V a c t _ _ rfl)

set_option maxHeartbeats 100000 in
/-- The output window is written back at every point: the next point's block is another row. -/
theorem flush18_2 (t : Fin (cfg18 a).N) : ((cfg18 a).win 2).flush t = true := by
  unfold Window.flush
  rw [Bool.and_eq_true, Bool.or_eq_true, decide_eq_true_eq, decide_eq_true_eq]
  refine ⟨rfl, ?_⟩
  by_cases h : t.val + 1 < (cfg18 a).grid.N
  · refine Or.inr ⟨h, fun e => ?_⟩
    have e0 := congrFun e (0 : Fin 3)
    have eA : ((cfg18 a).win 2).index ⟨t.val + 1, h⟩ (0 : Fin 3) = t.val + 1 := congrFun (index18_2 a ⟨t.val + 1, h⟩) (0 : Fin 3)
    have eB : ((cfg18 a).win 2).index t (0 : Fin 3) = t.val := congrFun (index18_2 a t) (0 : Fin 3)
    rw [eA, eB] at e0
    omega
  · refine Or.inl ?_
    have hlt : t.val < (cfg18 a).grid.N := t.isLt
    omega

set_option maxHeartbeats 100000 in
/-- Every entry of the output array lies in the block of the point its row names. -/
theorem cover18 (i : S40000x1x128.Idx) :
    ∃ t : Fin (cfg18 a).N, ((cfg18 a).win 2).flush t = true ∧ i ∈ (((cfg18 a).win 2).blk t).view.set := by
  have hlt : (i (0 : Fin 3)).val < (cfg18 a).N := by rw [npts18]; exact (i (0 : Fin 3)).isLt
  obtain ⟨t, ht⟩ : ∃ t : Fin (cfg18 a).N, t.val = (i (0 : Fin 3)).val := ⟨⟨_, hlt⟩, rfl⟩
  refine ⟨t, flush18_2 a t, ?_⟩
  have hset := View.set_slice_whole main_v75 (((cfg18 a).win 2).rect t)
  refine (Eq.mpr (congrArg (fun S => i ∈ S) hset) ?_ : i ∈ ((View.whole main_v75).slice (((cfg18 a).win 2).rect t)).set)
  refine Rect.mem_set_unit.mpr (fun d => ?_)
  have e0 : ((cfg18 a).win 2).index t (0 : Fin 3) = t.val := congrFun (index18_2 a t) (0 : Fin 3)
  have eB : ((cfg18 a).win 2).index t (1 : Fin 3) = 0 := congrFun (index18_2 a t) (1 : Fin 3)
  have e2 : ((cfg18 a).win 2).index t (2 : Fin 3) = 0 := congrFun (index18_2 a t) (2 : Fin 3)
  match d with
  | ⟨0, _⟩ =>
    show ((cfg18 a).win 2).index t (0 : Fin 3) * 1 ≤ (i (0 : Fin 3)).val
      ∧ (i (0 : Fin 3)).val < ((cfg18 a).win 2).index t (0 : Fin 3) * 1 + 1
    rw [e0]; omega
  | ⟨1, _⟩ =>
    have hi : (i (1 : Fin 3)).val < 1 := (i (1 : Fin 3)).isLt
    show ((cfg18 a).win 2).index t (1 : Fin 3) * 1 ≤ (i (1 : Fin 3)).val
      ∧ (i (1 : Fin 3)).val < ((cfg18 a).win 2).index t (1 : Fin 3) * 1 + 1
    rw [eB]; omega
  | ⟨2, _⟩ =>
    have hi : (i (2 : Fin 3)).val < 128 := (i (2 : Fin 3)).isLt
    show ((cfg18 a).win 2).index t (2 : Fin 3) * 128 ≤ (i (2 : Fin 3)).val
      ∧ (i (2 : Fin 3)).val < ((cfg18 a).win 2).index t (2 : Fin 3) * 128 + 128
    rw [e2]; omega

/-- So the output array ends holding that function. -/
theorem final18 (c : Dev nD) : (dat18 (F := Ideal) V a c).arrAt 2 (cfg18 a).N = gath18 V a c :=
  (dat18 (F := Ideal) V a c).arrAt_eq_of_cover 2 (gath18 V a c) (fun t _ => flushed18_eq V a c t) (cover18 a)

/-- What gather call 1 leaves in its output array, entry by entry: the two rows its tables name, added and scaled. -/
theorem gather_out18 (c : Dev nD) (t : Fin 40000) (l : Fin 128) :
    ((dat18 (F := Ideal) V a c).arrAt 2 (cfg18 a).N : FVec Ideal S40000x1x128 .f32) (ValueIdx.ix3 t (0 : Fin 1) l)
      = (srcRows18 V c (ValueIdx.ix3 (Cert.Spec.node (a.1 0 (ValueIdx.ix1 t))) (0 : Fin 1) l)
        + dstRows18 V c (ValueIdx.ix3 (Cert.Spec.node (a.1 1 (ValueIdx.ix1 t))) (0 : Fin 1) l)) * Cert.Spec.scale :=
  congrFun (final18 V a c) (ValueIdx.ix3 t (0 : Fin 1) l)
end GatherValue

end Cert.KernelIdeal.Hand

end
-- ==== Proof.KI.Piece18.lean ====
/-
  Gather call 18's output array in terms of the launch arrays.

  Gather call 18 walks its 40000 grid points; at point t it reads row (word t of its source table) of the re-laid source
  projection and row (word t of its destination table) of the re-laid destination projection, adds them lane by lane and
  multiplies by the constant, into row t of its output. Its tables are the slices of the launch endpoint arrays from
  word 680000 on, so word t of a table is the endpoint array's word 40000 · 17 + t, and a re-laid projection's row n, lane l
  is the projected feature (batch l / 64, node n, feature l % 64). So row t, lane l of the output is lane l of the
  specification's row for edge 40000 · 17 + t.
-/
import proofs.«413139_j22651657519351_3_alg».proof.Proof.KI.Fold
import proofs.«413139_j22651657519351_3_alg».proof.Proof.KI.Walk
import proofs.«413139_j22651657519351_3_alg».proof.Proof.KI.Hs2
import proofs.«413139_j22651657519351_3_alg».proof.Proof.KI.GatherValue18
import proofs.«413139_j22651657519351_3_alg».proof.Proof.SpecRows
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe
open Idealize.SL.Sem

section Piece18

variable (m : (ℓ : Loc nD τ sig) → Buf (Elt Ideal) ℓ) (hR : InRange m)

/-- Word t of chunk 18's source table is the launch source array's word 40000 · 17 + t: the table is the slice of the
    array from word 680000 on. -/
theorem tbl18_src (t : Fin 40000) :
    (tbl18 (F := Ideal) m 0 : IVec S40000 32) (ValueIdx.ix1 t)
      = (m (((0 : Dev nD) : Thread nD τ).loc main_arg1) : IVec S800000 32) (ValueIdx.ix1 ⟨40000 * 17 + t.val, Cert.Spec.chunk_lt ⟨17, by norm_num⟩ t⟩) := by
  show extractStridedSlice S40000 ![680000] (m (((0 : Dev nD) : Thread nD τ).loc main_arg1) : IVec S800000 32) slices_S800000_S40000_680000 (ValueIdx.ix1 t) = _
  exact extractStridedSlice_apply (s := S800000) (t := S40000) ![680000] _ slices_S800000_S40000_680000 (ValueIdx.ix1 t) (ValueIdx.ix1 ⟨40000 * 17 + t.val, Cert.Spec.chunk_lt ⟨17, by norm_num⟩ t⟩)
    (fun a => match a with | ⟨0, _⟩ => by show 40000 * 17 + t.val = 680000 + t.val; omega)

/-- Word t of chunk 18's destination table is the launch destination array's word 40000 · 17 + t. -/
theorem tbl18_dst (t : Fin 40000) :
    (tbl18 (F := Ideal) m 1 : IVec S40000 32) (ValueIdx.ix1 t)
      = (m (((0 : Dev nD) : Thread nD τ).loc main_arg2) : IVec S800000 32) (ValueIdx.ix1 ⟨40000 * 17 + t.val, Cert.Spec.chunk_lt ⟨17, by norm_num⟩ t⟩) := by
  show extractStridedSlice S40000 ![680000] (m (((0 : Dev nD) : Thread nD τ).loc main_arg2) : IVec S800000 32) slices_S800000_S40000_680000 (ValueIdx.ix1 t) = _
  exact extractStridedSlice_apply (s := S800000) (t := S40000) ![680000] _ slices_S800000_S40000_680000 (ValueIdx.ix1 t) (ValueIdx.ix1 ⟨40000 * 17 + t.val, Cert.Spec.chunk_lt ⟨17, by norm_num⟩ t⟩)
    (fun a => match a with | ⟨0, _⟩ => by show 40000 * 17 + t.val = 680000 + t.val; omega)

/-- Gather call 18's output array in terms of the launch arrays: row t, lane l is lane l of edge 40000 · 17 + t's row.
    The call adds, at row t, the rows of the two re-laid projections that the tables' words t name, and scales the sum;
    the re-laid projections, untouched since host stretch 1 wrote them, hold at each row the projected features of that
    node, and the tables' words t are the endpoint arrays' words 40000 · 17 + t. -/
theorem piece18 (c : Dev nD) (t : Fin 40000) (l : Fin 128) :
    (W37 (F := Ideal) m hR c main_v75 : FVec Ideal S40000x1x128 .f32) (ValueIdx.ix3 t (0 : Fin 1) l)
      = Cert.Spec.edgeRow (m ((c : Thread nD τ).loc main_arg0)) (m ((c : Thread nD τ).loc main_arg1)) (m ((c : Thread nD τ).loc main_arg2))
          (m ((c : Thread nD τ).loc main_arg3)) (m ((c : Thread nD τ).loc main_arg4))
          ⟨40000 * 17 + t.val, Cert.Spec.chunk_lt ⟨17, by norm_num⟩ t⟩ l := by
  obtain rfl : c = 0 := Subsingleton.elim _ _
  refine (congrFun (W37_arr (F := Ideal) m hR 0 2) _).trans ?_
  refine (gather_out18 (V36 (F := Ideal) m hR) (a18 (F := Ideal) m hR) 0 t l).trans ?_
  have e1 : (W36 (F := Ideal) m hR 0 main_v2 : FVec Ideal S50000x1x128 .f32)
        (ValueIdx.ix3 (Cert.Spec.node ((tbl18 (F := Ideal) m 0 : IVec S40000 32) (ValueIdx.ix1 t))) (0 : Fin 1) l)
      = Cert.Spec.proj (m (((0 : Dev nD) : Thread nD τ).loc main_arg0)) (m (((0 : Dev nD) : Thread nD τ).loc main_arg3))
          ⟨l.val / 64, Cert.Spec.lane_div l⟩
          (Cert.Spec.node ((m (((0 : Dev nD) : Thread nD τ).loc main_arg1) : IVec S800000 32) (ValueIdx.ix1 ⟨40000 * 17 + t.val, Cert.Spec.chunk_lt ⟨17, by norm_num⟩ t⟩)))
          ⟨l.val % 64, Cert.Spec.lane_mod l⟩ := by
    rw [tbl18_src m t]
    exact (congrFun (W36_v2 (F := Ideal) m hR 0) _).trans (hs2_apply m hR 0 _ l)
  have e2 : (W36 (F := Ideal) m hR 0 main_v4 : FVec Ideal S50000x1x128 .f32)
        (ValueIdx.ix3 (Cert.Spec.node ((tbl18 (F := Ideal) m 1 : IVec S40000 32) (ValueIdx.ix1 t))) (0 : Fin 1) l)
      = Cert.Spec.proj (m (((0 : Dev nD) : Thread nD τ).loc main_arg0)) (m (((0 : Dev nD) : Thread nD τ).loc main_arg4))
          ⟨l.val / 64, Cert.Spec.lane_div l⟩
          (Cert.Spec.node ((m (((0 : Dev nD) : Thread nD τ).loc main_arg2) : IVec S800000 32) (ValueIdx.ix1 ⟨40000 * 17 + t.val, Cert.Spec.chunk_lt ⟨17, by norm_num⟩ t⟩)))
          ⟨l.val % 64, Cert.Spec.lane_mod l⟩ := by
    rw [tbl18_dst m t]
    exact (congrFun (W36_v4 (F := Ideal) m hR 0) _).trans (hd2_apply m hR 0 _ l)
  exact congrArg₂ (fun a b : EReal => (a + b) * Cert.Spec.scale) e1 e2

end Piece18

end Cert.KernelIdeal.Hand

end
-- ==== Proof.KI.FPiece18.lean ====
/-
  Chunk 18's rows as the last host stretch finds them. Host stretch 19 reshapes gather call 18's output
  [40000, 1, 128] to [40000, 128]; nothing touches that buffer until the last stretch concatenates the twenty pieces.
  With the call's output read as the rows of the specification, the piece is the specification's chunk number 17.
-/
import proofs.«413139_j22651657519351_3_alg».proof.Proof.Gen.KernelIdeal.Launch
import proofs.«413139_j22651657519351_3_alg».proof.Proof.Gen.KernelIdeal.Skeleton
import proofs.«413139_j22651657519351_3_alg».proof.Proof.Gen.KernelIdeal.Points
import proofs.«413139_j22651657519351_3_alg».proof.Proof.KI.Walk
import proofs.«413139_j22651657519351_3_alg».proof.Proof.KI.Piece18
import proofs.«413139_j22651657519351_3_alg».proof.Proof.Layout
import proofs.«413139_j22651657519351_3_alg».proof.Proof.SpecRows
import Idealize.ShloMosaic.Lib.StableHlo.Run
import Idealize.ShloMosaic.Lib.ValueIdx
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section FPiece

variable (m : (ℓ : Loc nD τ sig) → Buf (Elt Ideal) ℓ) (hR : InRange m)

theorem fpiece18 (c : Dev nD) :
    (W41 (F := Ideal) m hR c main_v76 : FVec Ideal S40000x128 .f32)
      = Cert.Spec.chunk (m ((c : Thread nD τ).loc main_arg0)) (m ((c : Thread nD τ).loc main_arg1)) (m ((c : Thread nD τ).loc main_arg2))
          (m ((c : Thread nD τ).loc main_arg3)) (m ((c : Thread nD τ).loc main_arg4)) (17 : Fin 20) := by
  funext i
  obtain ⟨t, l, rfl⟩ : ∃ (t : Fin 40000) (l : Fin 128), i = ValueIdx.ix2 t l := ⟨i 0, i 1, ValueIdx.eq_ix2 i⟩
  rw [W41_p18 m hR c]
  show StableHlo.after hostOps19 (W37 (F := Ideal) m hR c) (Proc.devRef .tc main_v76) (ValueIdx.ix2 t l) = _
  after_results
  refine (Cert.Layout.piece_apply _ _ t l).trans ?_
  exact piece18 m hR c t l

end FPiece

end Cert.KernelIdeal.Hand

end
-- ==== Proof.KI.GatherValue19.lean ====
/-
  Edge chunk 1's gather kernel: what it leaves in its output array, entry by entry, at the ideal (extended-real)
  instance, for any contents V of the buffers at the region's entry and any admissible contents of the two index tables.

  At grid point t the two gathered windows hold row (word t of table 0) of the first source array and row (word t of
  table 1) of the second: the block index of a gathered window is (that word read unsigned, 0, 0), the block is one
  row of 128 lanes, and admissibility of the tables says the word is below the 50000 rows. The body stores
  (row + row) · c into the output block, and the output window's block index is (t, 0, 0): block t is row t of the
  output array, every point writes its block back, and the blocks of the 40000 points cover the array. So the array
  ends holding, at (t, 0, l), the sum of the two named rows' entries at lane l, times c.
-/
import proofs.«413139_j22651657519351_3_alg».proof.Proof.KI.Region19
import proofs.«413139_j22651657519351_3_alg».proof.Proof.Spec
import Idealize.ShloMosaic.Lib.Pipeline.Value
import Idealize.ShloMosaic.Lib.ValueIdx
import Idealize.ShloMosaic.Lib.ValueLayout

set_option maxRecDepth 16384

noncomputable section

namespace Cert.KernelIdeal.Hand

open Cert.KernelIdeal Cert.KernelIdeal.Gen
open Idealize.ShloMosaic Idealize.ShloMosaic.TcCoe
open Idealize.SL.Sem
open Idealize.ShloMosaic.Pipeline (Dat Cfg Window)

section GatherValue
variable (V : (c : Dev nD) → (b : Ref sig .tc) → Buf (Elt Ideal) ((c : Thread nD τ).loc b))
variable (a : (pcfg19 (F := Ideal)).Adm)

/-- The grid has 40000 points, one axis. -/
theorem npts19 : (cfg19 a).N = 40000 := N_19

/-- The one coordinate of point t is t. -/
theorem coord19 (t : Fin (cfg19 a).N) : (((cfg19 a).grid.coords t) 0).val = t.val := by
  show t.val / (cfg19 a).grid.stride 0 % 40000 = t.val
  have hs : (cfg19 a).grid.stride 0 = 1 := rfl
  rw [hs]
  have := t.isLt
  have e : (cfg19 a).N = 40000 := rfl
  omega

/-- A grid coordinate, as the 32-bit word the index maps receive and back, is itself. -/
theorem wordCoord19 (n : Nat) (h : n < 40000) : (Scalar.indexCast (BitVec.ofNat 32 n)).toNat = n := by
  show (BitVec.ofNat 32 n).toNat = n
  rw [BitVec.toNat_ofNat]
  exact Nat.mod_eq_of_lt (by omega)

set_option maxHeartbeats 100000 in
/-- Output window: the block index at point t is (t, 0, 0). -/
theorem index19_2 (t : Fin (cfg19 a).N) : ((cfg19 a).win 2).index t = ![t.val, 0, 0] := by
  show cc19_transform_2 ((cfg19 a).grid.coords t) = _
  unfold cc19_transform_2
  dsimp only
  have h := coord19 a t
  have hl : t.val < 40000 := t.isLt
  funext d
  match d with
  | ⟨0, _⟩ => show (BitVec.ofNat 32 (((cfg19 a).grid.coords t) 0).val).toNat = t.val; rw [h]; exact wordCoord19 _ hl
  | ⟨1, _⟩ => rfl
  | ⟨2, _⟩ => rfl

set_option maxHeartbeats 100000 in
/-- Gathered window 0: the block index at point t is (word t of table 0, 0, 0). -/
theorem index19_0 (t : Fin (cfg19 a).N) :
    ((cfg19 a).win 0).index t = ![((a.1 0 (ValueIdx.ix1 (n := 40000) ⟨t.val, t.isLt⟩) : BitVec 32)).toNat, 0, 0] := by
  show cc19_transform_0 k19_off1_inb numel1_S1 a.1 ((cfg19 a).grid.coords t) = _
  unfold cc19_transform_0
  dsimp only
  have h := coord19 a t
  have hl : t.val < 40000 := t.isLt
  funext d
  match d with
  | ⟨0, _⟩ =>
    show ((a.1 0 _ : BitVec 32)).toNat = ((a.1 0 _ : BitVec 32)).toNat
    refine congrArg (fun j => ((a.1 0 j : BitVec 32)).toNat) ?_
    funext k
    match k with
    | ⟨0, _⟩ =>
      apply Fin.ext
      show (Scalar.indexCast (BitVec.ofNat 32 (((cfg19 a).grid.coords t) 0).val)).toNat + 1 * 0 = t.val
      rw [h, wordCoord19 _ hl]; omega
  | ⟨1, _⟩ => rfl
  | ⟨2, _⟩ => rfl

set_option maxHeartbeats 100000 in
/-- Gathered window 1: the block index at point t is (word t of table 1, 0, 0). -/
theorem index19_1 (t : Fin (cfg19 a).N) :
    ((cfg19 a).win 1).index t = ![((a.1 1 (ValueIdx.ix1 (n := 40000) ⟨t.val, t.isLt⟩) : BitVec 32)).toNat, 0, 0] := by
  show cc19_transform_1 k19_off1_inb numel1_S1 a.1 ((cfg19 a).grid.coords t) = _
  unfold cc19_transform_1
  dsimp only
  have h := coord19 a t
  have hl : t.val < 40000 := t.isLt
  funext d
  match d with
  | ⟨0, _⟩ =>
    show ((a.1 1 _ : BitVec 32)).toNat = ((a.1 1 _ : BitVec 32)).toNat
    refine congrArg (fun j => ((a.1 1 j : BitVec 32)).toNat) ?_
    funext k
    match k with
    | ⟨0, _⟩ =>
      apply Fin.ext
      show (Scalar.indexCast (BitVec.ofNat 32 (((cfg19 a).grid.coords t) 0).val)).toNat + 1 * 0 = t.val
      rw [h, wordCoord19 _ hl]; omega
  | ⟨1, _⟩ => rfl
  | ⟨2, _⟩ => rfl

theorem zeros19 : (![0, 0, 0] : Fin 3 → Nat) = fun _ => 0 := funext fun d => by fin_cases d <;> rfl

/-- The arithmetic of one entry: add, then scale. -/
abbrev comb19 (u v : EReal) : EReal := (u + v) * Cert.Spec.scale

/-- The body's payload at an index: the sum of the two loaded rows' entries there, times the scale. -/
theorem pay19_apply (x0 x2 : S1x1x128.Idx → EReal) (y : S1x1x128.Idx) :
    (k19_pay1 (F := Ideal) x0 x2 : S1x1x128.Idx → EReal) y = (x0 y + x2 y) * Cert.Spec.scale := by
  unfold k19_pay1
  rw [shapeCast_self, shapeCast_self]
  rfl

/-- The same with the two rows loaded through the whole-block rectangle. -/
theorem pay19_ld_apply (x0 x2 : Vec Ideal S1x1x128 .f32) (y : S1x1x128.Idx) :
    (k19_pay1 (F := Ideal) (View.ld x0 r19) (View.ld x2 r19) : S1x1x128.Idx → EReal) y = comb19 (x0 y) (x2 y) := by
  have hA : View.ld x0 r19 = x0 := View.ld_unit_zero (Val := Elt Ideal) (S := S1x1x128) (e := .f32) zeros19 _ x0
  have hB : View.ld x2 r19 = x2 := View.ld_unit_zero (Val := Elt Ideal) (S := S1x1x128) (e := .f32) zeros19 _ x2
  rw [hA, hB]
  exact pay19_apply x0 x2 y

/-- The word of table 0 at point t is a row of the 50000-row array. -/
theorem word19_0_lt (t : Fin (cfg19 a).N) : ((a.1 0 (ValueIdx.ix1 (n := 40000) ⟨t.val, t.isLt⟩) : BitVec 32)).toNat < 50000 := by
  obtain ⟨h, -⟩ := a.2.1 ((cfg19 a).grid.coords t)
  have h0 : (((cfg19 a).win 0).index t (0 : Fin 3) + 1) * 1 ≤ 50000 := h 0
  have e0 : ((cfg19 a).win 0).index t (0 : Fin 3) = ((a.1 0 (ValueIdx.ix1 (n := 40000) ⟨t.val, t.isLt⟩) : BitVec 32)).toNat := congrFun (index19_0 a t) (0 : Fin 3)
  rw [e0] at h0
  omega

/-- The word of table 1 at point t is a row of the 50000-row array. -/
theorem word19_1_lt (t : Fin (cfg19 a).N) : ((a.1 1 (ValueIdx.ix1 (n := 40000) ⟨t.val, t.isLt⟩) : BitVec 32)).toNat < 50000 := by
  obtain ⟨h, -⟩ := a.2.2 ((cfg19 a).grid.coords t)
  have h0 : (((cfg19 a).win 1).index t (0 : Fin 3) + 1) * 1 ≤ 50000 := h 0
  have e0 : ((cfg19 a).win 1).index t (0 : Fin 3) = ((a.1 1 (ValueIdx.ix1 (n := 40000) ⟨t.val, t.isLt⟩) : BitVec 32)).toNat := congrFun (index19_1 a t) (0 : Fin 3)
  rw [e0] at h0
  omega

/-- The two source arrays, as functions to the extended reals. -/
abbrev srcRows19 (c : Dev nD) : S50000x1x128.Idx → EReal := V c main_v2
abbrev dstRows19 (c : Dev nD) : S50000x1x128.Idx → EReal := V c main_v4

set_option maxHeartbeats 100000 in
/-- Window 0's block at point t is the row of the first source array that table 0's word t names. -/
theorem iblk19_0_apply (c : Dev nD) (t : Fin (cfg19 a).N) (y : (((cfg19 a).win 0).xblock ((cfg19 a).grid.coords t)).Idx)
    (l : Fin 128) (hl : (y (2 : Fin 3)).val = l.val) :
    (iblk19 V a c 0 t y : EReal)
      = srcRows19 V c (ValueIdx.ix3 (Cert.Spec.node (a.1 0 (ValueIdx.ix1 (n := 40000) ⟨t.val, t.isLt⟩))) (0 : Fin 1) l) := by
  have hw := word19_0_lt a t
  have e0 : ((cfg19 a).win 0).index t (0 : Fin 3) = ((a.1 0 (ValueIdx.ix1 (n := 40000) ⟨t.val, t.isLt⟩) : BitVec 32)).toNat := congrFun (index19_0 a t) (0 : Fin 3)
  have eM : ((cfg19 a).win 0).index t (1 : Fin 3) = 0 := congrFun (index19_0 a t) (1 : Fin 3)
  have e2 : ((cfg19 a).win 0).index t (2 : Fin 3) = 0 := congrFun (index19_0 a t) (2 : Fin 3)
  show V c main_v2 ((((cfg19 a).win 0).blk t).view.emb y) = V c main_v2 _
  refine congrArg (V c main_v2) ?_
  funext d
  apply Fin.ext
  match d with
  | ⟨0, _⟩ =>
    show ((cfg19 a).win 0).index t (0 : Fin 3) * 1 + 1 * (y (0 : Fin 3)).val = (Cert.Spec.node _).val
    have hy : (y (0 : Fin 3)).val < 1 := (y (0 : Fin 3)).isLt
    rw [e0, Cert.Spec.node_val hw]; omega
  | ⟨1, _⟩ =>
    show ((cfg19 a).win 0).index t (1 : Fin 3) * 1 + 1 * (y (1 : Fin 3)).val = 0
    have hy : (y (1 : Fin 3)).val < 1 := (y (1 : Fin 3)).isLt
    rw [eM]; omega
  | ⟨2, _⟩ =>
    show ((cfg19 a).win 0).index t (2 : Fin 3) * 128 + 1 * (y (2 : Fin 3)).val = l.val
    rw [e2, hl]; omega

set_option maxHeartbeats 100000 in
/-- Window 1's block at point t is the row of the second source array that table 1's word t names. -/
theorem iblk19_1_apply (c : Dev nD) (t : Fin (cfg19 a).N) (y : (((cfg19 a).win 1).xblock ((cfg19 a).grid.coords t)).Idx)
    (l : Fin 128) (hl : (y (2 : Fin 3)).val = l.val) :
    (iblk19 V a c 1 t y : EReal)
      = dstRows19 V c (ValueIdx.ix3 (Cert.Spec.node (a.1 1 (ValueIdx.ix1 (n := 40000) ⟨t.val, t.isLt⟩))) (0 : Fin 1) l) := by
  have hw := word19_1_lt a t
  have e0 : ((cfg19 a).win 1).index t (0 : Fin 3) = ((a.1 1 (ValueIdx.ix1 (n := 40000) ⟨t.val, t.isLt⟩) : BitVec 32)).toNat := congrFun (index19_1 a t) (0 : Fin 3)
  have eM : ((cfg19 a).win 1).index t (1 : Fin 3) = 0 := congrFun (index19_1 a t) (1 : Fin 3)
  have e2 : ((cfg19 a).win 1).index t (2 : Fin 3) = 0 := congrFun (index19_1 a t) (2 : Fin 3)
  show V c main_v4 ((((cfg19 a).win 1).blk t).view.emb y) = V c main_v4 _
  refine congrArg (V c main_v4) ?_
  funext d
  apply Fin.ext
  match d with
  | ⟨0, _⟩ =>
    show ((cfg19 a).win 1).index t (0 : Fin 3) * 1 + 1 * (y (0 : Fin 3)).val = (Cert.Spec.node _).val
    have hy : (y (0 : Fin 3)).val < 1 := (y (0 : Fin 3)).isLt
    rw [e0, Cert.Spec.node_val hw]; omega
  | ⟨1, _⟩ =>
    show ((cfg19 a).win 1).index t (1 : Fin 3) * 1 + 1 * (y (1 : Fin 3)).val = 0
    have hy : (y (1 : Fin 3)).val < 1 := (y (1 : Fin 3)).isLt
    rw [eM]; omega
  | ⟨2, _⟩ =>
    show ((cfg19 a).win 1).index t (2 : Fin 3) * 128 + 1 * (y (2 : Fin 3)).val = l.val
    rw [e2, hl]; omega

/-- Entry (t, l) of what the call leaves: the two gathered rows' entries at lane l, added and scaled. -/
def row19 (c : Dev nD) (t : Fin 40000) (l : Fin 128) : EReal :=
  comb19 (srcRows19 V c (ValueIdx.ix3 (Cert.Spec.node (a.1 0 (ValueIdx.ix1 t))) (0 : Fin 1) l))
    (dstRows19 V c (ValueIdx.ix3 (Cert.Spec.node (a.1 1 (ValueIdx.ix1 t))) (0 : Fin 1) l))

/-- The whole output array as one function of its index. -/
def gath19 (c : Dev nD) : S40000x1x128.Idx → EReal :=
  fun i => row19 V a c ⟨(i (0 : Fin 3)).val, (i (0 : Fin 3)).isLt⟩ ⟨(i (2 : Fin 3)).val, (i (2 : Fin 3)).isLt⟩

set_option maxHeartbeats 200000 in
/-- What point t writes back is block t of that function. -/
theorem flushed19_eq (c : Dev nD) (t : Fin (cfg19 a).N) :
    (dat19 (F := Ideal) V a c).flushed 2 t = (((cfg19 a).win 2).blk t).view.read (Elt Ideal) (gath19 V a c) := by
  show ((cfg19 a).win 2).cut ((cfg19 a).grid.coords t) ((dat19 V a c).after 2 t) = _
  rw [after19_2]
  unfold out19_2
  rw [View.canon_unit_zero zeros19]
  funext j
  have e0 : ((cfg19 a).win 2).index t (0 : Fin 3) = t.val := congrFun (index19_2 a t) (0 : Fin 3)
  have e2 : ((cfg19 a).win 2).index t (2 : Fin 3) = 0 := congrFun (index19_2 a t) (2 : Fin 3)
  have hj0 : (j (0 : Fin 3)).val < 1 := (j (0 : Fin 3)).isLt
  show (k19_pay1 (F := Ideal) (View.ld (iblk19 V a c 0 t) r19) (View.ld (iblk19 V a c 1 t) r19) : S1x1x128.Idx → EReal) (((cfg19 a).win 2).xinj ((cfg19 a).grid.coords t) j)
      = gath19 V a c ((((cfg19 a).win 2).blk t).view.emb j)
  refine (pay19_ld_apply (iblk19 V a c 0 t) (iblk19 V a c 1 t) (((cfg19 a).win 2).xinj ((cfg19 a).grid.coords t) j)).trans ?_
  have hT : (⟨t.val, t.isLt⟩ : Fin 40000) = ⟨((((cfg19 a).win 2).blk t).view.emb j (0 : Fin 3)).val, ((((cfg19 a).win 2).blk t).view.emb j (0 : Fin 3)).isLt⟩ :=
    Fin.ext (by
      show t.val = ((cfg19 a).win 2).index t (0 : Fin 3) * 1 + 1 * (j (0 : Fin 3)).val
      rw [e0]; omega)
  have hL : (⟨(j (2 : Fin 3)).val, (j (2 : Fin 3)).isLt⟩ : Fin 128) = ⟨((((cfg19 a).win 2).blk t).view.emb j (2 : Fin 3)).val, ((((cfg19 a).win 2).blk t).view.emb j (2 : Fin 3)).isLt⟩ :=
    Fin.ext (by
      show (j (2 : Fin 3)).val = ((cfg19 a).win 2).index t (2 : Fin 3) * 128 + 1 * (j (2 : Fin 3)).val
      rw [e2]; omega)
  refine Eq.trans ?_ (congrArg₂ (row19 V a c) hT hL)
  unfold row19
  exact congrArg₂ comb19 (iblk19_0_apply V a c t _ _ rfl) (iblk19_1_apply V a c t _ _ rfl)

set_option maxHeartbeats 100000 in
/-- The output window is written back at every point: the next point's block is another row. -/
theorem flush19_2 (t : Fin (cfg19 a).N) : ((cfg19 a).win 2).flush t = true := by
  unfold Window.flush
  rw [Bool.and_eq_true, Bool.or_eq_true, decide_eq_true_eq, decide_eq_true_eq]
  refine ⟨rfl, ?_⟩
  by_cases h : t.val + 1 < (cfg19 a).grid.N
  · refine Or.inr ⟨h, fun e => ?_⟩
    have e0 := congrFun e (0 : Fin 3)
    have eA : ((cfg19 a).win 2).index ⟨t.val + 1, h⟩ (0 : Fin 3) = t.val + 1 := congrFun (index19_2 a ⟨t.val + 1, h⟩) (0 : Fin 3)
    have eB : ((cfg19 a).win 2).index t (0 : Fin 3) = t.val := congrFun (index19_2 a t) (0 : Fin 3)
    rw [eA, eB] at e0
    omega
  · refine Or.inl ?_
    have hlt : t.val < (cfg19 a).grid.N := t.isLt
    omega

set_option maxHeartbeats 100000 in
/-- Every entry of the output array lies in the block of the point its row names. -/
theorem cover19 (i : S40000x1x128.Idx) :
    ∃ t : Fin (cfg19 a).N, ((cfg19 a).win 2).flush t = true ∧ i ∈ (((cfg19 a).win 2).blk t).view.set := by
  have hlt : (i (0 : Fin 3)).val < (cfg19 a).N := by rw [npts19]; exact (i (0 : Fin 3)).isLt
  obtain ⟨t, ht⟩ : ∃ t : Fin (cfg19 a).N, t.val = (i (0 : Fin 3)).val := ⟨⟨_, hlt⟩, rfl⟩
  refine ⟨t, flush19_2 a t, ?_⟩
  have hset := View.set_slice_whole main_v79 (((cfg19 a).win 2).rect t)
  refine (Eq.mpr (congrArg (fun S => i ∈ S) hset) ?_ : i ∈ ((View.whole main_v79).slice (((cfg19 a).win 2).rect t)).set)
  refine Rect.mem_set_unit.mpr (fun d => ?_)
  have e0 : ((cfg19 a).win 2).index t (0 : Fin 3) = t.val := congrFun (index19_2 a t) (0 : Fin 3)
  have eB : ((cfg19 a).win 2).index t (1 : Fin 3) = 0 := congrFun (index19_2 a t) (1 : Fin 3)
  have e2 : ((cfg19 a).win 2).index t (2 : Fin 3) = 0 := congrFun (index19_2 a t) (2 : Fin 3)
  match d with
  | ⟨0, _⟩ =>
    show ((cfg19 a).win 2).index t (0 : Fin 3) * 1 ≤ (i (0 : Fin 3)).val
      ∧ (i (0 : Fin 3)).val < ((cfg19 a).win 2).index t (0 : Fin 3) * 1 + 1
    rw [e0]; omega
  | ⟨1, _⟩ =>
    have hi : (i (1 : Fin 3)).val < 1 := (i (1 : Fin 3)).isLt
    show ((cfg19 a).win 2).index t (1 : Fin 3) * 1 ≤ (i (1 : Fin 3)).val
      ∧ (i (1 : Fin 3)).val < ((cfg19 a).win 2).index t (1 : Fin 3) * 1 + 1
    rw [eB]; omega
  | ⟨2, _⟩ =>
    have hi : (i (2 : Fin 3)).val < 128 := (i (2 : Fin 3)).isLt
    show ((cfg19 a).win 2).index t (2 : Fin 3) * 128 ≤ (i (2 : Fin 3)).val
      ∧ (i (2 : Fin 3)).val < ((cfg19 a).win 2).index t (2 : Fin 3) * 128 + 128
    rw [e2]; omega

/-- So the output array ends holding that function. -/
theorem final19 (c : Dev nD) : (dat19 (F := Ideal) V a c).arrAt 2 (cfg19 a).N = gath19 V a c :=
  (dat19 (F := Ideal) V a c).arrAt_eq_of_cover 2 (gath19 V a c) (fun t _ => flushed19_eq V a c t) (cover19 a)

/-- What gather call 1 leaves in its output array, entry by entry: the two rows its tables name, added and scaled. -/
theorem gather_out19 (c : Dev nD) (t : Fin 40000) (l : Fin 128) :
    ((dat19 (F := Ideal) V a c).arrAt 2 (cfg19 a).N : FVec Ideal S40000x1x128 .f32) (ValueIdx.ix3 t (0 : Fin 1) l)
      = (srcRows19 V c (ValueIdx.ix3 (Cert.Spec.node (a.1 0 (ValueIdx.ix1 t))) (0 : Fin 1) l)
        + dstRows19 V c (ValueIdx.ix3 (Cert.Spec.node (a.1 1 (ValueIdx.ix1 t))) (0 : Fin 1) l)) * Cert.Spec.scale :=
  congrFun (final19 V a c) (ValueIdx.ix3 t (0 : Fin 1) l)
end GatherValue

end Cert.KernelIdeal.Hand

end
-- ==== Proof.KI.Piece19.lean ====
/-
  Gather call 19's output array in terms of the launch arrays.

  Gather call 19 walks its 40000 grid points; at point t it reads row (word t of its source table) of the re-laid source
  projection and row (word t of its destination table) of the re-laid destination projection, adds them lane by lane and
  multiplies by the constant, into row t of its output. Its tables are the slices of the launch endpoint arrays from
  word 720000 on, so word t of a table is the endpoint array's word 40000 · 18 + t, and a re-laid projection's row n, lane l
  is the projected feature (batch l / 64, node n, feature l % 64). So row t, lane l of the output is lane l of the
  specification's row for edge 40000 · 18 + t.
-/
import proofs.«413139_j22651657519351_3_alg».proof.Proof.KI.Fold
import proofs.«413139_j22651657519351_3_alg».proof.Proof.KI.Walk
import proofs.«413139_j22651657519351_3_alg».proof.Proof.KI.Hs2
import proofs.«413139_j22651657519351_3_alg».proof.Proof.KI.GatherValue19
import proofs.«413139_j22651657519351_3_alg».proof.Proof.SpecRows
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe
open Idealize.SL.Sem

section Piece19

variable (m : (ℓ : Loc nD τ sig) → Buf (Elt Ideal) ℓ) (hR : InRange m)

/-- Word t of chunk 19's source table is the launch source array's word 40000 · 18 + t: the table is the slice of the
    array from word 720000 on. -/
theorem tbl19_src (t : Fin 40000) :
    (tbl19 (F := Ideal) m 0 : IVec S40000 32) (ValueIdx.ix1 t)
      = (m (((0 : Dev nD) : Thread nD τ).loc main_arg1) : IVec S800000 32) (ValueIdx.ix1 ⟨40000 * 18 + t.val, Cert.Spec.chunk_lt ⟨18, by norm_num⟩ t⟩) := by
  show extractStridedSlice S40000 ![720000] (m (((0 : Dev nD) : Thread nD τ).loc main_arg1) : IVec S800000 32) slices_S800000_S40000_720000 (ValueIdx.ix1 t) = _
  exact extractStridedSlice_apply (s := S800000) (t := S40000) ![720000] _ slices_S800000_S40000_720000 (ValueIdx.ix1 t) (ValueIdx.ix1 ⟨40000 * 18 + t.val, Cert.Spec.chunk_lt ⟨18, by norm_num⟩ t⟩)
    (fun a => match a with | ⟨0, _⟩ => by show 40000 * 18 + t.val = 720000 + t.val; omega)

/-- Word t of chunk 19's destination table is the launch destination array's word 40000 · 18 + t. -/
theorem tbl19_dst (t : Fin 40000) :
    (tbl19 (F := Ideal) m 1 : IVec S40000 32) (ValueIdx.ix1 t)
      = (m (((0 : Dev nD) : Thread nD τ).loc main_arg2) : IVec S800000 32) (ValueIdx.ix1 ⟨40000 * 18 + t.val, Cert.Spec.chunk_lt ⟨18, by norm_num⟩ t⟩) := by
  show extractStridedSlice S40000 ![720000] (m (((0 : Dev nD) : Thread nD τ).loc main_arg2) : IVec S800000 32) slices_S800000_S40000_720000 (ValueIdx.ix1 t) = _
  exact extractStridedSlice_apply (s := S800000) (t := S40000) ![720000] _ slices_S800000_S40000_720000 (ValueIdx.ix1 t) (ValueIdx.ix1 ⟨40000 * 18 + t.val, Cert.Spec.chunk_lt ⟨18, by norm_num⟩ t⟩)
    (fun a => match a with | ⟨0, _⟩ => by show 40000 * 18 + t.val = 720000 + t.val; omega)

/-- Gather call 19's output array in terms of the launch arrays: row t, lane l is lane l of edge 40000 · 18 + t's row.
    The call adds, at row t, the rows of the two re-laid projections that the tables' words t name, and scales the sum;
    the re-laid projections, untouched since host stretch 1 wrote them, hold at each row the projected features of that
    node, and the tables' words t are the endpoint arrays' words 40000 · 18 + t. -/
theorem piece19 (c : Dev nD) (t : Fin 40000) (l : Fin 128) :
    (W39 (F := Ideal) m hR c main_v79 : FVec Ideal S40000x1x128 .f32) (ValueIdx.ix3 t (0 : Fin 1) l)
      = Cert.Spec.edgeRow (m ((c : Thread nD τ).loc main_arg0)) (m ((c : Thread nD τ).loc main_arg1)) (m ((c : Thread nD τ).loc main_arg2))
          (m ((c : Thread nD τ).loc main_arg3)) (m ((c : Thread nD τ).loc main_arg4))
          ⟨40000 * 18 + t.val, Cert.Spec.chunk_lt ⟨18, by norm_num⟩ t⟩ l := by
  obtain rfl : c = 0 := Subsingleton.elim _ _
  refine (congrFun (W39_arr (F := Ideal) m hR 0 2) _).trans ?_
  refine (gather_out19 (V38 (F := Ideal) m hR) (a19 (F := Ideal) m hR) 0 t l).trans ?_
  have e1 : (W38 (F := Ideal) m hR 0 main_v2 : FVec Ideal S50000x1x128 .f32)
        (ValueIdx.ix3 (Cert.Spec.node ((tbl19 (F := Ideal) m 0 : IVec S40000 32) (ValueIdx.ix1 t))) (0 : Fin 1) l)
      = Cert.Spec.proj (m (((0 : Dev nD) : Thread nD τ).loc main_arg0)) (m (((0 : Dev nD) : Thread nD τ).loc main_arg3))
          ⟨l.val / 64, Cert.Spec.lane_div l⟩
          (Cert.Spec.node ((m (((0 : Dev nD) : Thread nD τ).loc main_arg1) : IVec S800000 32) (ValueIdx.ix1 ⟨40000 * 18 + t.val, Cert.Spec.chunk_lt ⟨18, by norm_num⟩ t⟩)))
          ⟨l.val % 64, Cert.Spec.lane_mod l⟩ := by
    rw [tbl19_src m t]
    exact (congrFun (W38_v2 (F := Ideal) m hR 0) _).trans (hs2_apply m hR 0 _ l)
  have e2 : (W38 (F := Ideal) m hR 0 main_v4 : FVec Ideal S50000x1x128 .f32)
        (ValueIdx.ix3 (Cert.Spec.node ((tbl19 (F := Ideal) m 1 : IVec S40000 32) (ValueIdx.ix1 t))) (0 : Fin 1) l)
      = Cert.Spec.proj (m (((0 : Dev nD) : Thread nD τ).loc main_arg0)) (m (((0 : Dev nD) : Thread nD τ).loc main_arg4))
          ⟨l.val / 64, Cert.Spec.lane_div l⟩
          (Cert.Spec.node ((m (((0 : Dev nD) : Thread nD τ).loc main_arg2) : IVec S800000 32) (ValueIdx.ix1 ⟨40000 * 18 + t.val, Cert.Spec.chunk_lt ⟨18, by norm_num⟩ t⟩)))
          ⟨l.val % 64, Cert.Spec.lane_mod l⟩ := by
    rw [tbl19_dst m t]
    exact (congrFun (W38_v4 (F := Ideal) m hR 0) _).trans (hd2_apply m hR 0 _ l)
  exact congrArg₂ (fun a b : EReal => (a + b) * Cert.Spec.scale) e1 e2

end Piece19

end Cert.KernelIdeal.Hand

end
-- ==== Proof.KI.FPiece19.lean ====
/-
  Chunk 19's rows as the last host stretch finds them. Host stretch 20 reshapes gather call 19's output
  [40000, 1, 128] to [40000, 128]; nothing touches that buffer until the last stretch concatenates the twenty pieces.
  With the call's output read as the rows of the specification, the piece is the specification's chunk number 18.
-/
import proofs.«413139_j22651657519351_3_alg».proof.Proof.Gen.KernelIdeal.Launch
import proofs.«413139_j22651657519351_3_alg».proof.Proof.Gen.KernelIdeal.Skeleton
import proofs.«413139_j22651657519351_3_alg».proof.Proof.Gen.KernelIdeal.Points
import proofs.«413139_j22651657519351_3_alg».proof.Proof.KI.Walk
import proofs.«413139_j22651657519351_3_alg».proof.Proof.KI.Piece19
import proofs.«413139_j22651657519351_3_alg».proof.Proof.Layout
import proofs.«413139_j22651657519351_3_alg».proof.Proof.SpecRows
import Idealize.ShloMosaic.Lib.StableHlo.Run
import Idealize.ShloMosaic.Lib.ValueIdx
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section FPiece

variable (m : (ℓ : Loc nD τ sig) → Buf (Elt Ideal) ℓ) (hR : InRange m)

theorem fpiece19 (c : Dev nD) :
    (W41 (F := Ideal) m hR c main_v80 : FVec Ideal S40000x128 .f32)
      = Cert.Spec.chunk (m ((c : Thread nD τ).loc main_arg0)) (m ((c : Thread nD τ).loc main_arg1)) (m ((c : Thread nD τ).loc main_arg2))
          (m ((c : Thread nD τ).loc main_arg3)) (m ((c : Thread nD τ).loc main_arg4)) (18 : Fin 20) := by
  funext i
  obtain ⟨t, l, rfl⟩ : ∃ (t : Fin 40000) (l : Fin 128), i = ValueIdx.ix2 t l := ⟨i 0, i 1, ValueIdx.eq_ix2 i⟩
  rw [W41_p19 m hR c]
  show StableHlo.after hostOps20 (W39 (F := Ideal) m hR c) (Proc.devRef .tc main_v80) (ValueIdx.ix2 t l) = _
  after_results
  refine (Cert.Layout.piece_apply _ _ t l).trans ?_
  exact piece19 m hR c t l

end FPiece

end Cert.KernelIdeal.Hand

end
-- ==== Proof.KI.GatherValue20.lean ====
/-
  Edge chunk 1's gather kernel: what it leaves in its output array, entry by entry, at the ideal (extended-real)
  instance, for any contents V of the buffers at the region's entry and any admissible contents of the two index tables.

  At grid point t the two gathered windows hold row (word t of table 0) of the first source array and row (word t of
  table 1) of the second: the block index of a gathered window is (that word read unsigned, 0, 0), the block is one
  row of 128 lanes, and admissibility of the tables says the word is below the 50000 rows. The body stores
  (row + row) · c into the output block, and the output window's block index is (t, 0, 0): block t is row t of the
  output array, every point writes its block back, and the blocks of the 40000 points cover the array. So the array
  ends holding, at (t, 0, l), the sum of the two named rows' entries at lane l, times c.
-/
import proofs.«413139_j22651657519351_3_alg».proof.Proof.KI.Region20
import proofs.«413139_j22651657519351_3_alg».proof.Proof.Spec
import Idealize.ShloMosaic.Lib.Pipeline.Value
import Idealize.ShloMosaic.Lib.ValueIdx
import Idealize.ShloMosaic.Lib.ValueLayout

set_option maxRecDepth 16384

noncomputable section

namespace Cert.KernelIdeal.Hand

open Cert.KernelIdeal Cert.KernelIdeal.Gen
open Idealize.ShloMosaic Idealize.ShloMosaic.TcCoe
open Idealize.SL.Sem
open Idealize.ShloMosaic.Pipeline (Dat Cfg Window)

section GatherValue
variable (V : (c : Dev nD) → (b : Ref sig .tc) → Buf (Elt Ideal) ((c : Thread nD τ).loc b))
variable (a : (pcfg20 (F := Ideal)).Adm)

/-- The grid has 40000 points, one axis. -/
theorem npts20 : (cfg20 a).N = 40000 := N_20

/-- The one coordinate of point t is t. -/
theorem coord20 (t : Fin (cfg20 a).N) : (((cfg20 a).grid.coords t) 0).val = t.val := by
  show t.val / (cfg20 a).grid.stride 0 % 40000 = t.val
  have hs : (cfg20 a).grid.stride 0 = 1 := rfl
  rw [hs]
  have := t.isLt
  have e : (cfg20 a).N = 40000 := rfl
  omega

/-- A grid coordinate, as the 32-bit word the index maps receive and back, is itself. -/
theorem wordCoord20 (n : Nat) (h : n < 40000) : (Scalar.indexCast (BitVec.ofNat 32 n)).toNat = n := by
  show (BitVec.ofNat 32 n).toNat = n
  rw [BitVec.toNat_ofNat]
  exact Nat.mod_eq_of_lt (by omega)

set_option maxHeartbeats 100000 in
/-- Output window: the block index at point t is (t, 0, 0). -/
theorem index20_2 (t : Fin (cfg20 a).N) : ((cfg20 a).win 2).index t = ![t.val, 0, 0] := by
  show cc20_transform_2 ((cfg20 a).grid.coords t) = _
  unfold cc20_transform_2
  dsimp only
  have h := coord20 a t
  have hl : t.val < 40000 := t.isLt
  funext d
  match d with
  | ⟨0, _⟩ => show (BitVec.ofNat 32 (((cfg20 a).grid.coords t) 0).val).toNat = t.val; rw [h]; exact wordCoord20 _ hl
  | ⟨1, _⟩ => rfl
  | ⟨2, _⟩ => rfl

set_option maxHeartbeats 100000 in
/-- Gathered window 0: the block index at point t is (word t of table 0, 0, 0). -/
theorem index20_0 (t : Fin (cfg20 a).N) :
    ((cfg20 a).win 0).index t = ![((a.1 0 (ValueIdx.ix1 (n := 40000) ⟨t.val, t.isLt⟩) : BitVec 32)).toNat, 0, 0] := by
  show cc20_transform_0 k20_off1_inb numel1_S1 a.1 ((cfg20 a).grid.coords t) = _
  unfold cc20_transform_0
  dsimp only
  have h := coord20 a t
  have hl : t.val < 40000 := t.isLt
  funext d
  match d with
  | ⟨0, _⟩ =>
    show ((a.1 0 _ : BitVec 32)).toNat = ((a.1 0 _ : BitVec 32)).toNat
    refine congrArg (fun j => ((a.1 0 j : BitVec 32)).toNat) ?_
    funext k
    match k with
    | ⟨0, _⟩ =>
      apply Fin.ext
      show (Scalar.indexCast (BitVec.ofNat 32 (((cfg20 a).grid.coords t) 0).val)).toNat + 1 * 0 = t.val
      rw [h, wordCoord20 _ hl]; omega
  | ⟨1, _⟩ => rfl
  | ⟨2, _⟩ => rfl

set_option maxHeartbeats 100000 in
/-- Gathered window 1: the block index at point t is (word t of table 1, 0, 0). -/
theorem index20_1 (t : Fin (cfg20 a).N) :
    ((cfg20 a).win 1).index t = ![((a.1 1 (ValueIdx.ix1 (n := 40000) ⟨t.val, t.isLt⟩) : BitVec 32)).toNat, 0, 0] := by
  show cc20_transform_1 k20_off1_inb numel1_S1 a.1 ((cfg20 a).grid.coords t) = _
  unfold cc20_transform_1
  dsimp only
  have h := coord20 a t
  have hl : t.val < 40000 := t.isLt
  funext d
  match d with
  | ⟨0, _⟩ =>
    show ((a.1 1 _ : BitVec 32)).toNat = ((a.1 1 _ : BitVec 32)).toNat
    refine congrArg (fun j => ((a.1 1 j : BitVec 32)).toNat) ?_
    funext k
    match k with
    | ⟨0, _⟩ =>
      apply Fin.ext
      show (Scalar.indexCast (BitVec.ofNat 32 (((cfg20 a).grid.coords t) 0).val)).toNat + 1 * 0 = t.val
      rw [h, wordCoord20 _ hl]; omega
  | ⟨1, _⟩ => rfl
  | ⟨2, _⟩ => rfl

theorem zeros20 : (![0, 0, 0] : Fin 3 → Nat) = fun _ => 0 := funext fun d => by fin_cases d <;> rfl

/-- The arithmetic of one entry: add, then scale. -/
abbrev comb20 (u v : EReal) : EReal := (u + v) * Cert.Spec.scale

/-- The body's payload at an index: the sum of the two loaded rows' entries there, times the scale. -/
theorem pay20_apply (x0 x2 : S1x1x128.Idx → EReal) (y : S1x1x128.Idx) :
    (k20_pay1 (F := Ideal) x0 x2 : S1x1x128.Idx → EReal) y = (x0 y + x2 y) * Cert.Spec.scale := by
  unfold k20_pay1
  rw [shapeCast_self, shapeCast_self]
  rfl

/-- The same with the two rows loaded through the whole-block rectangle. -/
theorem pay20_ld_apply (x0 x2 : Vec Ideal S1x1x128 .f32) (y : S1x1x128.Idx) :
    (k20_pay1 (F := Ideal) (View.ld x0 r20) (View.ld x2 r20) : S1x1x128.Idx → EReal) y = comb20 (x0 y) (x2 y) := by
  have hA : View.ld x0 r20 = x0 := View.ld_unit_zero (Val := Elt Ideal) (S := S1x1x128) (e := .f32) zeros20 _ x0
  have hB : View.ld x2 r20 = x2 := View.ld_unit_zero (Val := Elt Ideal) (S := S1x1x128) (e := .f32) zeros20 _ x2
  rw [hA, hB]
  exact pay20_apply x0 x2 y

/-- The word of table 0 at point t is a row of the 50000-row array. -/
theorem word20_0_lt (t : Fin (cfg20 a).N) : ((a.1 0 (ValueIdx.ix1 (n := 40000) ⟨t.val, t.isLt⟩) : BitVec 32)).toNat < 50000 := by
  obtain ⟨h, -⟩ := a.2.1 ((cfg20 a).grid.coords t)
  have h0 : (((cfg20 a).win 0).index t (0 : Fin 3) + 1) * 1 ≤ 50000 := h 0
  have e0 : ((cfg20 a).win 0).index t (0 : Fin 3) = ((a.1 0 (ValueIdx.ix1 (n := 40000) ⟨t.val, t.isLt⟩) : BitVec 32)).toNat := congrFun (index20_0 a t) (0 : Fin 3)
  rw [e0] at h0
  omega

/-- The word of table 1 at point t is a row of the 50000-row array. -/
theorem word20_1_lt (t : Fin (cfg20 a).N) : ((a.1 1 (ValueIdx.ix1 (n := 40000) ⟨t.val, t.isLt⟩) : BitVec 32)).toNat < 50000 := by
  obtain ⟨h, -⟩ := a.2.2 ((cfg20 a).grid.coords t)
  have h0 : (((cfg20 a).win 1).index t (0 : Fin 3) + 1) * 1 ≤ 50000 := h 0
  have e0 : ((cfg20 a).win 1).index t (0 : Fin 3) = ((a.1 1 (ValueIdx.ix1 (n := 40000) ⟨t.val, t.isLt⟩) : BitVec 32)).toNat := congrFun (index20_1 a t) (0 : Fin 3)
  rw [e0] at h0
  omega

/-- The two source arrays, as functions to the extended reals. -/
abbrev srcRows20 (c : Dev nD) : S50000x1x128.Idx → EReal := V c main_v2
abbrev dstRows20 (c : Dev nD) : S50000x1x128.Idx → EReal := V c main_v4

set_option maxHeartbeats 100000 in
/-- Window 0's block at point t is the row of the first source array that table 0's word t names. -/
theorem iblk20_0_apply (c : Dev nD) (t : Fin (cfg20 a).N) (y : (((cfg20 a).win 0).xblock ((cfg20 a).grid.coords t)).Idx)
    (l : Fin 128) (hl : (y (2 : Fin 3)).val = l.val) :
    (iblk20 V a c 0 t y : EReal)
      = srcRows20 V c (ValueIdx.ix3 (Cert.Spec.node (a.1 0 (ValueIdx.ix1 (n := 40000) ⟨t.val, t.isLt⟩))) (0 : Fin 1) l) := by
  have hw := word20_0_lt a t
  have e0 : ((cfg20 a).win 0).index t (0 : Fin 3) = ((a.1 0 (ValueIdx.ix1 (n := 40000) ⟨t.val, t.isLt⟩) : BitVec 32)).toNat := congrFun (index20_0 a t) (0 : Fin 3)
  have eM : ((cfg20 a).win 0).index t (1 : Fin 3) = 0 := congrFun (index20_0 a t) (1 : Fin 3)
  have e2 : ((cfg20 a).win 0).index t (2 : Fin 3) = 0 := congrFun (index20_0 a t) (2 : Fin 3)
  show V c main_v2 ((((cfg20 a).win 0).blk t).view.emb y) = V c main_v2 _
  refine congrArg (V c main_v2) ?_
  funext d
  apply Fin.ext
  match d with
  | ⟨0, _⟩ =>
    show ((cfg20 a).win 0).index t (0 : Fin 3) * 1 + 1 * (y (0 : Fin 3)).val = (Cert.Spec.node _).val
    have hy : (y (0 : Fin 3)).val < 1 := (y (0 : Fin 3)).isLt
    rw [e0, Cert.Spec.node_val hw]; omega
  | ⟨1, _⟩ =>
    show ((cfg20 a).win 0).index t (1 : Fin 3) * 1 + 1 * (y (1 : Fin 3)).val = 0
    have hy : (y (1 : Fin 3)).val < 1 := (y (1 : Fin 3)).isLt
    rw [eM]; omega
  | ⟨2, _⟩ =>
    show ((cfg20 a).win 0).index t (2 : Fin 3) * 128 + 1 * (y (2 : Fin 3)).val = l.val
    rw [e2, hl]; omega

set_option maxHeartbeats 100000 in
/-- Window 1's block at point t is the row of the second source array that table 1's word t names. -/
theorem iblk20_1_apply (c : Dev nD) (t : Fin (cfg20 a).N) (y : (((cfg20 a).win 1).xblock ((cfg20 a).grid.coords t)).Idx)
    (l : Fin 128) (hl : (y (2 : Fin 3)).val = l.val) :
    (iblk20 V a c 1 t y : EReal)
      = dstRows20 V c (ValueIdx.ix3 (Cert.Spec.node (a.1 1 (ValueIdx.ix1 (n := 40000) ⟨t.val, t.isLt⟩))) (0 : Fin 1) l) := by
  have hw := word20_1_lt a t
  have e0 : ((cfg20 a).win 1).index t (0 : Fin 3) = ((a.1 1 (ValueIdx.ix1 (n := 40000) ⟨t.val, t.isLt⟩) : BitVec 32)).toNat := congrFun (index20_1 a t) (0 : Fin 3)
  have eM : ((cfg20 a).win 1).index t (1 : Fin 3) = 0 := congrFun (index20_1 a t) (1 : Fin 3)
  have e2 : ((cfg20 a).win 1).index t (2 : Fin 3) = 0 := congrFun (index20_1 a t) (2 : Fin 3)
  show V c main_v4 ((((cfg20 a).win 1).blk t).view.emb y) = V c main_v4 _
  refine congrArg (V c main_v4) ?_
  funext d
  apply Fin.ext
  match d with
  | ⟨0, _⟩ =>
    show ((cfg20 a).win 1).index t (0 : Fin 3) * 1 + 1 * (y (0 : Fin 3)).val = (Cert.Spec.node _).val
    have hy : (y (0 : Fin 3)).val < 1 := (y (0 : Fin 3)).isLt
    rw [e0, Cert.Spec.node_val hw]; omega
  | ⟨1, _⟩ =>
    show ((cfg20 a).win 1).index t (1 : Fin 3) * 1 + 1 * (y (1 : Fin 3)).val = 0
    have hy : (y (1 : Fin 3)).val < 1 := (y (1 : Fin 3)).isLt
    rw [eM]; omega
  | ⟨2, _⟩ =>
    show ((cfg20 a).win 1).index t (2 : Fin 3) * 128 + 1 * (y (2 : Fin 3)).val = l.val
    rw [e2, hl]; omega

/-- Entry (t, l) of what the call leaves: the two gathered rows' entries at lane l, added and scaled. -/
def row20 (c : Dev nD) (t : Fin 40000) (l : Fin 128) : EReal :=
  comb20 (srcRows20 V c (ValueIdx.ix3 (Cert.Spec.node (a.1 0 (ValueIdx.ix1 t))) (0 : Fin 1) l))
    (dstRows20 V c (ValueIdx.ix3 (Cert.Spec.node (a.1 1 (ValueIdx.ix1 t))) (0 : Fin 1) l))

/-- The whole output array as one function of its index. -/
def gath20 (c : Dev nD) : S40000x1x128.Idx → EReal :=
  fun i => row20 V a c ⟨(i (0 : Fin 3)).val, (i (0 : Fin 3)).isLt⟩ ⟨(i (2 : Fin 3)).val, (i (2 : Fin 3)).isLt⟩

set_option maxHeartbeats 200000 in
/-- What point t writes back is block t of that function. -/
theorem flushed20_eq (c : Dev nD) (t : Fin (cfg20 a).N) :
    (dat20 (F := Ideal) V a c).flushed 2 t = (((cfg20 a).win 2).blk t).view.read (Elt Ideal) (gath20 V a c) := by
  show ((cfg20 a).win 2).cut ((cfg20 a).grid.coords t) ((dat20 V a c).after 2 t) = _
  rw [after20_2]
  unfold out20_2
  rw [View.canon_unit_zero zeros20]
  funext j
  have e0 : ((cfg20 a).win 2).index t (0 : Fin 3) = t.val := congrFun (index20_2 a t) (0 : Fin 3)
  have e2 : ((cfg20 a).win 2).index t (2 : Fin 3) = 0 := congrFun (index20_2 a t) (2 : Fin 3)
  have hj0 : (j (0 : Fin 3)).val < 1 := (j (0 : Fin 3)).isLt
  show (k20_pay1 (F := Ideal) (View.ld (iblk20 V a c 0 t) r20) (View.ld (iblk20 V a c 1 t) r20) : S1x1x128.Idx → EReal) (((cfg20 a).win 2).xinj ((cfg20 a).grid.coords t) j)
      = gath20 V a c ((((cfg20 a).win 2).blk t).view.emb j)
  refine (pay20_ld_apply (iblk20 V a c 0 t) (iblk20 V a c 1 t) (((cfg20 a).win 2).xinj ((cfg20 a).grid.coords t) j)).trans ?_
  have hT : (⟨t.val, t.isLt⟩ : Fin 40000) = ⟨((((cfg20 a).win 2).blk t).view.emb j (0 : Fin 3)).val, ((((cfg20 a).win 2).blk t).view.emb j (0 : Fin 3)).isLt⟩ :=
    Fin.ext (by
      show t.val = ((cfg20 a).win 2).index t (0 : Fin 3) * 1 + 1 * (j (0 : Fin 3)).val
      rw [e0]; omega)
  have hL : (⟨(j (2 : Fin 3)).val, (j (2 : Fin 3)).isLt⟩ : Fin 128) = ⟨((((cfg20 a).win 2).blk t).view.emb j (2 : Fin 3)).val, ((((cfg20 a).win 2).blk t).view.emb j (2 : Fin 3)).isLt⟩ :=
    Fin.ext (by
      show (j (2 : Fin 3)).val = ((cfg20 a).win 2).index t (2 : Fin 3) * 128 + 1 * (j (2 : Fin 3)).val
      rw [e2]; omega)
  refine Eq.trans ?_ (congrArg₂ (row20 V a c) hT hL)
  unfold row20
  exact congrArg₂ comb20 (iblk20_0_apply V a c t _ _ rfl) (iblk20_1_apply V a c t _ _ rfl)

set_option maxHeartbeats 100000 in
/-- The output window is written back at every point: the next point's block is another row. -/
theorem flush20_2 (t : Fin (cfg20 a).N) : ((cfg20 a).win 2).flush t = true := by
  unfold Window.flush
  rw [Bool.and_eq_true, Bool.or_eq_true, decide_eq_true_eq, decide_eq_true_eq]
  refine ⟨rfl, ?_⟩
  by_cases h : t.val + 1 < (cfg20 a).grid.N
  · refine Or.inr ⟨h, fun e => ?_⟩
    have e0 := congrFun e (0 : Fin 3)
    have eA : ((cfg20 a).win 2).index ⟨t.val + 1, h⟩ (0 : Fin 3) = t.val + 1 := congrFun (index20_2 a ⟨t.val + 1, h⟩) (0 : Fin 3)
    have eB : ((cfg20 a).win 2).index t (0 : Fin 3) = t.val := congrFun (index20_2 a t) (0 : Fin 3)
    rw [eA, eB] at e0
    omega
  · refine Or.inl ?_
    have hlt : t.val < (cfg20 a).grid.N := t.isLt
    omega

set_option maxHeartbeats 100000 in
/-- Every entry of the output array lies in the block of the point its row names. -/
theorem cover20 (i : S40000x1x128.Idx) :
    ∃ t : Fin (cfg20 a).N, ((cfg20 a).win 2).flush t = true ∧ i ∈ (((cfg20 a).win 2).blk t).view.set := by
  have hlt : (i (0 : Fin 3)).val < (cfg20 a).N := by rw [npts20]; exact (i (0 : Fin 3)).isLt
  obtain ⟨t, ht⟩ : ∃ t : Fin (cfg20 a).N, t.val = (i (0 : Fin 3)).val := ⟨⟨_, hlt⟩, rfl⟩
  refine ⟨t, flush20_2 a t, ?_⟩
  have hset := View.set_slice_whole main_v83 (((cfg20 a).win 2).rect t)
  refine (Eq.mpr (congrArg (fun S => i ∈ S) hset) ?_ : i ∈ ((View.whole main_v83).slice (((cfg20 a).win 2).rect t)).set)
  refine Rect.mem_set_unit.mpr (fun d => ?_)
  have e0 : ((cfg20 a).win 2).index t (0 : Fin 3) = t.val := congrFun (index20_2 a t) (0 : Fin 3)
  have eB : ((cfg20 a).win 2).index t (1 : Fin 3) = 0 := congrFun (index20_2 a t) (1 : Fin 3)
  have e2 : ((cfg20 a).win 2).index t (2 : Fin 3) = 0 := congrFun (index20_2 a t) (2 : Fin 3)
  match d with
  | ⟨0, _⟩ =>
    show ((cfg20 a).win 2).index t (0 : Fin 3) * 1 ≤ (i (0 : Fin 3)).val
      ∧ (i (0 : Fin 3)).val < ((cfg20 a).win 2).index t (0 : Fin 3) * 1 + 1
    rw [e0]; omega
  | ⟨1, _⟩ =>
    have hi : (i (1 : Fin 3)).val < 1 := (i (1 : Fin 3)).isLt
    show ((cfg20 a).win 2).index t (1 : Fin 3) * 1 ≤ (i (1 : Fin 3)).val
      ∧ (i (1 : Fin 3)).val < ((cfg20 a).win 2).index t (1 : Fin 3) * 1 + 1
    rw [eB]; omega
  | ⟨2, _⟩ =>
    have hi : (i (2 : Fin 3)).val < 128 := (i (2 : Fin 3)).isLt
    show ((cfg20 a).win 2).index t (2 : Fin 3) * 128 ≤ (i (2 : Fin 3)).val
      ∧ (i (2 : Fin 3)).val < ((cfg20 a).win 2).index t (2 : Fin 3) * 128 + 128
    rw [e2]; omega

/-- So the output array ends holding that function. -/
theorem final20 (c : Dev nD) : (dat20 (F := Ideal) V a c).arrAt 2 (cfg20 a).N = gath20 V a c :=
  (dat20 (F := Ideal) V a c).arrAt_eq_of_cover 2 (gath20 V a c) (fun t _ => flushed20_eq V a c t) (cover20 a)

/-- What gather call 1 leaves in its output array, entry by entry: the two rows its tables name, added and scaled. -/
theorem gather_out20 (c : Dev nD) (t : Fin 40000) (l : Fin 128) :
    ((dat20 (F := Ideal) V a c).arrAt 2 (cfg20 a).N : FVec Ideal S40000x1x128 .f32) (ValueIdx.ix3 t (0 : Fin 1) l)
      = (srcRows20 V c (ValueIdx.ix3 (Cert.Spec.node (a.1 0 (ValueIdx.ix1 t))) (0 : Fin 1) l)
        + dstRows20 V c (ValueIdx.ix3 (Cert.Spec.node (a.1 1 (ValueIdx.ix1 t))) (0 : Fin 1) l)) * Cert.Spec.scale :=
  congrFun (final20 V a c) (ValueIdx.ix3 t (0 : Fin 1) l)
end GatherValue

end Cert.KernelIdeal.Hand

end
-- ==== Proof.KI.Piece20.lean ====
/-
  Gather call 20's output array in terms of the launch arrays.

  Gather call 20 walks its 40000 grid points; at point t it reads row (word t of its source table) of the re-laid source
  projection and row (word t of its destination table) of the re-laid destination projection, adds them lane by lane and
  multiplies by the constant, into row t of its output. Its tables are the slices of the launch endpoint arrays from
  word 760000 on, so word t of a table is the endpoint array's word 40000 · 19 + t, and a re-laid projection's row n, lane l
  is the projected feature (batch l / 64, node n, feature l % 64). So row t, lane l of the output is lane l of the
  specification's row for edge 40000 · 19 + t.
-/
import proofs.«413139_j22651657519351_3_alg».proof.Proof.KI.Fold
import proofs.«413139_j22651657519351_3_alg».proof.Proof.KI.Walk
import proofs.«413139_j22651657519351_3_alg».proof.Proof.KI.Hs2
import proofs.«413139_j22651657519351_3_alg».proof.Proof.KI.GatherValue20
import proofs.«413139_j22651657519351_3_alg».proof.Proof.SpecRows
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe
open Idealize.SL.Sem

section Piece20

variable (m : (ℓ : Loc nD τ sig) → Buf (Elt Ideal) ℓ) (hR : InRange m)

/-- Word t of chunk 20's source table is the launch source array's word 40000 · 19 + t: the table is the slice of the
    array from word 760000 on. -/
theorem tbl20_src (t : Fin 40000) :
    (tbl20 (F := Ideal) m 0 : IVec S40000 32) (ValueIdx.ix1 t)
      = (m (((0 : Dev nD) : Thread nD τ).loc main_arg1) : IVec S800000 32) (ValueIdx.ix1 ⟨40000 * 19 + t.val, Cert.Spec.chunk_lt ⟨19, by norm_num⟩ t⟩) := by
  show extractStridedSlice S40000 ![760000] (m (((0 : Dev nD) : Thread nD τ).loc main_arg1) : IVec S800000 32) slices_S800000_S40000_760000 (ValueIdx.ix1 t) = _
  exact extractStridedSlice_apply (s := S800000) (t := S40000) ![760000] _ slices_S800000_S40000_760000 (ValueIdx.ix1 t) (ValueIdx.ix1 ⟨40000 * 19 + t.val, Cert.Spec.chunk_lt ⟨19, by norm_num⟩ t⟩)
    (fun a => match a with | ⟨0, _⟩ => by show 40000 * 19 + t.val = 760000 + t.val; omega)

/-- Word t of chunk 20's destination table is the launch destination array's word 40000 · 19 + t. -/
theorem tbl20_dst (t : Fin 40000) :
    (tbl20 (F := Ideal) m 1 : IVec S40000 32) (ValueIdx.ix1 t)
      = (m (((0 : Dev nD) : Thread nD τ).loc main_arg2) : IVec S800000 32) (ValueIdx.ix1 ⟨40000 * 19 + t.val, Cert.Spec.chunk_lt ⟨19, by norm_num⟩ t⟩) := by
  show extractStridedSlice S40000 ![760000] (m (((0 : Dev nD) : Thread nD τ).loc main_arg2) : IVec S800000 32) slices_S800000_S40000_760000 (ValueIdx.ix1 t) = _
  exact extractStridedSlice_apply (s := S800000) (t := S40000) ![760000] _ slices_S800000_S40000_760000 (ValueIdx.ix1 t) (ValueIdx.ix1 ⟨40000 * 19 + t.val, Cert.Spec.chunk_lt ⟨19, by norm_num⟩ t⟩)
    (fun a => match a with | ⟨0, _⟩ => by show 40000 * 19 + t.val = 760000 + t.val; omega)

/-- Gather call 20's output array in terms of the launch arrays: row t, lane l is lane l of edge 40000 · 19 + t's row.
    The call adds, at row t, the rows of the two re-laid projections that the tables' words t name, and scales the sum;
    the re-laid projections, untouched since host stretch 1 wrote them, hold at each row the projected features of that
    node, and the tables' words t are the endpoint arrays' words 40000 · 19 + t. -/
theorem piece20 (c : Dev nD) (t : Fin 40000) (l : Fin 128) :
    (W41 (F := Ideal) m hR c main_v83 : FVec Ideal S40000x1x128 .f32) (ValueIdx.ix3 t (0 : Fin 1) l)
      = Cert.Spec.edgeRow (m ((c : Thread nD τ).loc main_arg0)) (m ((c : Thread nD τ).loc main_arg1)) (m ((c : Thread nD τ).loc main_arg2))
          (m ((c : Thread nD τ).loc main_arg3)) (m ((c : Thread nD τ).loc main_arg4))
          ⟨40000 * 19 + t.val, Cert.Spec.chunk_lt ⟨19, by norm_num⟩ t⟩ l := by
  obtain rfl : c = 0 := Subsingleton.elim _ _
  refine (congrFun (W41_arr (F := Ideal) m hR 0 2) _).trans ?_
  refine (gather_out20 (V40 (F := Ideal) m hR) (a20 (F := Ideal) m hR) 0 t l).trans ?_
  have e1 : (W40 (F := Ideal) m hR 0 main_v2 : FVec Ideal S50000x1x128 .f32)
        (ValueIdx.ix3 (Cert.Spec.node ((tbl20 (F := Ideal) m 0 : IVec S40000 32) (ValueIdx.ix1 t))) (0 : Fin 1) l)
      = Cert.Spec.proj (m (((0 : Dev nD) : Thread nD τ).loc main_arg0)) (m (((0 : Dev nD) : Thread nD τ).loc main_arg3))
          ⟨l.val / 64, Cert.Spec.lane_div l⟩
          (Cert.Spec.node ((m (((0 : Dev nD) : Thread nD τ).loc main_arg1) : IVec S800000 32) (ValueIdx.ix1 ⟨40000 * 19 + t.val, Cert.Spec.chunk_lt ⟨19, by norm_num⟩ t⟩)))
          ⟨l.val % 64, Cert.Spec.lane_mod l⟩ := by
    rw [tbl20_src m t]
    exact (congrFun (W40_v2 (F := Ideal) m hR 0) _).trans (hs2_apply m hR 0 _ l)
  have e2 : (W40 (F := Ideal) m hR 0 main_v4 : FVec Ideal S50000x1x128 .f32)
        (ValueIdx.ix3 (Cert.Spec.node ((tbl20 (F := Ideal) m 1 : IVec S40000 32) (ValueIdx.ix1 t))) (0 : Fin 1) l)
      = Cert.Spec.proj (m (((0 : Dev nD) : Thread nD τ).loc main_arg0)) (m (((0 : Dev nD) : Thread nD τ).loc main_arg4))
          ⟨l.val / 64, Cert.Spec.lane_div l⟩
          (Cert.Spec.node ((m (((0 : Dev nD) : Thread nD τ).loc main_arg2) : IVec S800000 32) (ValueIdx.ix1 ⟨40000 * 19 + t.val, Cert.Spec.chunk_lt ⟨19, by norm_num⟩ t⟩)))
          ⟨l.val % 64, Cert.Spec.lane_mod l⟩ := by
    rw [tbl20_dst m t]
    exact (congrFun (W40_v4 (F := Ideal) m hR 0) _).trans (hd2_apply m hR 0 _ l)
  exact congrArg₂ (fun a b : EReal => (a + b) * Cert.Spec.scale) e1 e2

end Piece20

end Cert.KernelIdeal.Hand

end
-- ==== Proof.KI.Final.lean ====
/-
  The kernel's result. The last host stretch reshapes the twentieth gather output, concatenates the twenty pieces
  (sixteen, then four, then the two stacks) into the [800000, 128] array of rows, splits each row into its two batch
  halves and moves the batch axis to the front. Each piece is a chunk of the specification's rows, so the stack is the
  rows themselves, and entry (b, j, e) of the result is lane 64·b + e of edge j's row: the specification.
-/
import proofs.«413139_j22651657519351_3_alg».proof.Proof.Gen.KernelIdeal.Launch
import proofs.«413139_j22651657519351_3_alg».proof.Proof.Gen.KernelIdeal.Skeleton
import proofs.«413139_j22651657519351_3_alg».proof.Proof.Gen.KernelIdeal.Points
import proofs.«413139_j22651657519351_3_alg».proof.Proof.KI.Walk
import proofs.«413139_j22651657519351_3_alg».proof.Proof.KI.FPiece1
import proofs.«413139_j22651657519351_3_alg».proof.Proof.KI.FPiece2
import proofs.«413139_j22651657519351_3_alg».proof.Proof.KI.FPiece3
import proofs.«413139_j22651657519351_3_alg».proof.Proof.KI.FPiece4
import proofs.«413139_j22651657519351_3_alg».proof.Proof.KI.FPiece5
import proofs.«413139_j22651657519351_3_alg».proof.Proof.KI.FPiece6
import proofs.«413139_j22651657519351_3_alg».proof.Proof.KI.FPiece7
import proofs.«413139_j22651657519351_3_alg».proof.Proof.KI.FPiece8
import proofs.«413139_j22651657519351_3_alg».proof.Proof.KI.FPiece9
import proofs.«413139_j22651657519351_3_alg».proof.Proof.KI.FPiece10
import proofs.«413139_j22651657519351_3_alg».proof.Proof.KI.FPiece11
import proofs.«413139_j22651657519351_3_alg».proof.Proof.KI.FPiece12
import proofs.«413139_j22651657519351_3_alg».proof.Proof.KI.FPiece13
import proofs.«413139_j22651657519351_3_alg».proof.Proof.KI.FPiece14
import proofs.«413139_j22651657519351_3_alg».proof.Proof.KI.FPiece15
import proofs.«413139_j22651657519351_3_alg».proof.Proof.KI.FPiece16
import proofs.«413139_j22651657519351_3_alg».proof.Proof.KI.FPiece17
import proofs.«413139_j22651657519351_3_alg».proof.Proof.KI.FPiece18
import proofs.«413139_j22651657519351_3_alg».proof.Proof.KI.FPiece19
import proofs.«413139_j22651657519351_3_alg».proof.Proof.KI.Piece20
import proofs.«413139_j22651657519351_3_alg».proof.Proof.Layout
import proofs.«413139_j22651657519351_3_alg».proof.Proof.SpecRows
import Idealize.ShloMosaic.Lib.StableHlo.Run
import Idealize.ShloMosaic.Lib.ValueIdx
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Tail

/-- The last host stretch's result buffer over ANY contents `Wv` of the buffers before it: the twenty pieces — nineteen
    as they stand, the twentieth reshaped inside the stretch — stacked (sixteen, four, then the two stacks), every
    128-wide row split in two halves, and the two leading axes swapped. No operation of the stretch writes a buffer
    that a later one reads except through the chain itself, so each operand is read at `Wv`. -/
theorem tail_term (Wv : Valuation τ sig (Elt F)) :
    (StableHlo.after hostOps21 Wv (Proc.devRef .tc main_v89) : FVec F S2x800000x64 .f32)
      = transpose S2x800000x64 [1, 0, 2]
          (shapeCast S800000x2x64
            (concatenate S800000x128 0
              [⟨S640000x128, concatenate S640000x128 0
                  [⟨S40000x128, (Wv (Proc.devRef .tc main_v8) : FVec F S40000x128 .f32)⟩, ⟨S40000x128, (Wv (Proc.devRef .tc main_v12) : FVec F S40000x128 .f32)⟩,
                   ⟨S40000x128, (Wv (Proc.devRef .tc main_v16) : FVec F S40000x128 .f32)⟩, ⟨S40000x128, (Wv (Proc.devRef .tc main_v20) : FVec F S40000x128 .f32)⟩,
                   ⟨S40000x128, (Wv (Proc.devRef .tc main_v24) : FVec F S40000x128 .f32)⟩, ⟨S40000x128, (Wv (Proc.devRef .tc main_v28) : FVec F S40000x128 .f32)⟩,
                   ⟨S40000x128, (Wv (Proc.devRef .tc main_v32) : FVec F S40000x128 .f32)⟩, ⟨S40000x128, (Wv (Proc.devRef .tc main_v36) : FVec F S40000x128 .f32)⟩,
                   ⟨S40000x128, (Wv (Proc.devRef .tc main_v40) : FVec F S40000x128 .f32)⟩, ⟨S40000x128, (Wv (Proc.devRef .tc main_v44) : FVec F S40000x128 .f32)⟩,
                   ⟨S40000x128, (Wv (Proc.devRef .tc main_v48) : FVec F S40000x128 .f32)⟩, ⟨S40000x128, (Wv (Proc.devRef .tc main_v52) : FVec F S40000x128 .f32)⟩,
                   ⟨S40000x128, (Wv (Proc.devRef .tc main_v56) : FVec F S40000x128 .f32)⟩, ⟨S40000x128, (Wv (Proc.devRef .tc main_v60) : FVec F S40000x128 .f32)⟩,
                   ⟨S40000x128, (Wv (Proc.devRef .tc main_v64) : FVec F S40000x128 .f32)⟩, ⟨S40000x128, (Wv (Proc.devRef .tc main_v68) : FVec F S40000x128 .f32)⟩]
                  concatenates_S40000x128_S40000x128_S40000x128_S40000x128_S40000x128_S40000x128_S40000x128_S40000x128_S40000x128_S40000x128_S40000x128_S40000x128_S40000x128_S40000x128_S40000x128_S40000x128_S640000x128_d0⟩,
               ⟨S160000x128, concatenate S160000x128 0
                  [⟨S40000x128, (Wv (Proc.devRef .tc main_v72) : FVec F S40000x128 .f32)⟩, ⟨S40000x128, (Wv (Proc.devRef .tc main_v76) : FVec F S40000x128 .f32)⟩,
                   ⟨S40000x128, (Wv (Proc.devRef .tc main_v80) : FVec F S40000x128 .f32)⟩,
                   ⟨S40000x128, shapeCast S40000x128 (Wv (Proc.devRef .tc main_v83) : FVec F S40000x1x128 .f32) shapeCasts_S40000x1x128_S40000x128⟩]
                  concatenates_S40000x128_S40000x128_S40000x128_S40000x128_S160000x128_d0⟩]
              concatenates_S640000x128_S160000x128_S800000x128_d0)
            shapeCasts_S800000x128_S800000x2x64)
          transposes_S800000x2x64_S2x800000x64_1_0_2 := by
  simp (disch := decide) only [StableHlo.after_cons, StableHlo.after_nil, StableHlo.unary_result', StableHlo.binary_result',
    StableHlo.reshape_result', StableHlo.nary_result', StableHlo.reshape_result_ne', StableHlo.nary_result_ne', Matrix.cons_val]
  rfl

end Tail

section Final

variable (m : (ℓ : Loc nD τ sig) → Buf (Elt Ideal) ℓ) (hR : InRange m)

/-- The twentieth piece: gather call 20's output, reshaped inside the last stretch. -/
theorem fpiece20 (c : Dev nD) (hc : S40000x1x128.ShapeCasts S40000x128) :
    shapeCast S40000x128 (W41 (F := Ideal) m hR c main_v83 : FVec Ideal S40000x1x128 .f32) hc
      = Cert.Spec.chunk (m ((c : Thread nD τ).loc main_arg0)) (m ((c : Thread nD τ).loc main_arg1)) (m ((c : Thread nD τ).loc main_arg2))
          (m ((c : Thread nD τ).loc main_arg3)) (m ((c : Thread nD τ).loc main_arg4)) (19 : Fin 20) := by
  funext i
  obtain ⟨t, l, rfl⟩ : ∃ (t : Fin 40000) (l : Fin 128), i = ValueIdx.ix2 t l := ⟨i 0, i 1, ValueIdx.eq_ix2 i⟩
  refine (Cert.Layout.piece_apply _ hc t l).trans ?_
  exact piece20 m hR c t l

/-- The result buffer at the program's end is the specification of the launch-time arguments. -/
theorem final (c : Dev nD) :
    (W42 (F := Ideal) m hR c main_v89 : FVec Ideal S2x800000x64 .f32)
      = Cert.Spec.G (m ((c : Thread nD τ).loc main_arg0)) (m ((c : Thread nD τ).loc main_arg1)) (m ((c : Thread nD τ).loc main_arg2))
          (m ((c : Thread nD τ).loc main_arg3)) (m ((c : Thread nD τ).loc main_arg4)) := by
  funext i
  obtain ⟨b, j, e, rfl⟩ : ∃ (b : Fin 2) (j : Fin 800000) (e : Fin 64), i = ValueIdx.ix3 b j e := ⟨i 0, i 1, i 2, ValueIdx.eq_ix3 i⟩
  -- the program's end is the last stretch run from the contents before it, which stay a parameter
  refine (congrFun (tail_term (F := Ideal) (W41 (F := Ideal) m hR c)) (ValueIdx.ix3 b j e)).trans ?_
  refine (Cert.Layout.tail_apply _ _ _ _ _ _ _ _ _ _ _ _ _ _ _ _ _ _ _ _ _ _ _ _ _ b j e).trans ?_
  rw [fpiece1 m hR c, fpiece2 m hR c, fpiece3 m hR c, fpiece4 m hR c, fpiece5 m hR c, fpiece6 m hR c, fpiece7 m hR c, fpiece8 m hR c, fpiece9 m hR c, fpiece10 m hR c, fpiece11 m hR c, fpiece12 m hR c, fpiece13 m hR c, fpiece14 m hR c, fpiece15 m hR c, fpiece16 m hR c, fpiece17 m hR c, fpiece18 m hR c, fpiece19 m hR c, fpiece20 m hR c,
    Cert.Layout.pieces_eq_fn (Cert.Spec.chunk (m ((c : Thread nD τ).loc main_arg0)) (m ((c : Thread nD τ).loc main_arg1)) (m ((c : Thread nD τ).loc main_arg2))
          (m ((c : Thread nD τ).loc main_arg3)) (m ((c : Thread nD τ).loc main_arg4)))]
  have hb : b.val * 64 + e.val < 128 := by have := b.isLt; have := e.isLt; omega
  rw [Cert.Spec.G_eq_edgeRow _ _ _ _ _ b j e hb]
  exact Cert.Spec.chunk_div_mod _ _ _ _ _ j ⟨b.val * 64 + e.val, hb⟩ _ _

end Final

end Cert.KernelIdeal.Hand

end
-- ==== Proof.lean ====
/-
  The certificate's claim: the projection-and-gather kernel against its jnp reference.

  Both programs compute, for every batch b, edge j and feature e,
      (hs[b, src[j], e] + hd[b, dst[j], e]) · c,      hs = x · W_srcᵀ,  hd = x · W_dstᵀ  (exact sums at the ideal instance),
  with the same float32 word c on both sides (`Cert.Spec.G`). The kernel projects every node once (one pallas_call on a
  2 × 10 grid), re-lays the two projections with the batch folded into the lanes, and gathers the rows of each chunk of
  40000 edges by a pallas_call whose windows' block indices are read from prefetched index tables (twenty such calls),
  then concatenates and re-lays the twenty outputs. The endpoint words index an axis of 50000 nodes: on words below
  50000 (the precondition's added conjuncts) every gathered block lies inside its array, every pipeline's tables are
  admissible, and the program runs; there the reference's negative-index wrap and clamp are the identity.

  The frames of the two kernel programs (word level and ideal) are one text, generic in the float instance: @main as 42
  segments (21 pallas_calls, 21 host stretches) under the several-region launch theorem, each call with its proof data
  and body run; the ideal program's result buffer is then read through the fold of buffer contents, piece by piece, as
  the specification. The reference's run is the generated one, its gathers read by hand.
-/
import proofs.«413139_j22651657519351_3_alg».proof.Defs
import proofs.«413139_j22651657519351_3_alg».proof.Proof.Gen.Kernel
import proofs.«413139_j22651657519351_3_alg».proof.Proof.Gen.KernelIdeal
import proofs.«413139_j22651657519351_3_alg».proof.Proof.Gen.ReferenceIdeal
import proofs.«413139_j22651657519351_3_alg».proof.Proof.Gen.ReferenceIdeal.Run
import proofs.«413139_j22651657519351_3_alg».proof.Proof.Gen.ReferenceIdeal.Read
import proofs.«413139_j22651657519351_3_alg».proof.Proof.Gen.Pre_finite_inputs
import proofs.«413139_j22651657519351_3_alg».proof.Proof.PreRange
import proofs.«413139_j22651657519351_3_alg».proof.Proof.RefValue
import proofs.«413139_j22651657519351_3_alg».proof.Proof.K.Run
import proofs.«413139_j22651657519351_3_alg».proof.Proof.KI.Run
import proofs.«413139_j22651657519351_3_alg».proof.Proof.KI.Final
import Idealize.ShloMosaic.Adequacy
import Idealize.ShloMosaic.Init

noncomputable section

namespace Cert.Proof

open Idealize.ShloMosaic Idealize.SL.Sem

/-- Under the precondition every endpoint word of the word-level program's launch memory is a node id. -/
theorem inRange_K (m : (ℓ : Loc Cert.Kernel.nD Cert.Kernel.τ Cert.Kernel.sig) → Buf (Elt Bits) ℓ)
    (h : Cert.Pre_Kernel (hPre_finite_inputs := Cert.Pre_finite_inputs.Gen.facts) m) : Cert.Kernel.Hand.InRange m :=
  fun c => @Cert.PreRange.range_of_pre Bits _ Cert.Pre_finite_inputs.Gen.facts _ _ _ _ _ (h c)

/-- The same for the ideal program. -/
theorem inRange_KI (m : (ℓ : Loc Cert.KernelIdeal.nD Cert.KernelIdeal.τ Cert.KernelIdeal.sig) → Buf (Elt Ideal) ℓ)
    (h : Cert.Pre_KernelIdeal (hPre_finite_inputs := Cert.Pre_finite_inputs.Gen.facts) m) : Cert.KernelIdeal.Hand.InRange m :=
  fun c => @Cert.PreRange.range_of_pre Ideal _ Cert.Pre_finite_inputs.Gen.facts _ _ _ _ _ (h c)

theorem frame_K : Cert.frame_Kernel (hKernel := Cert.Kernel.Gen.facts) (hPre_finite_inputs := Cert.Pre_finite_inputs.Gen.facts) :=
  fun m ρ h => (θ_run _ _ _).mono (fun _ hr c => (hr c).2) (Cert.Kernel.Hand.run_args m (inRange_K m h) ρ)

theorem frame_KI : Cert.frame_KernelIdeal (hKernelIdeal := Cert.KernelIdeal.Gen.facts) (hPre_finite_inputs := Cert.Pre_finite_inputs.Gen.facts) :=
  fun m ρ h => (θ_run _ _ _).mono (fun _ hr c => (hr c).2) (Cert.KernelIdeal.Hand.run_args m (inRange_KI m h) ρ)

/-- The reference's frame: its generated run with the result dropped. -/
theorem frame_R : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- Both ideal programs end with the specification of the (agreeing) argument arrays in their result buffers. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  have hR := inRange_KI m hpre
  refine ⟨fun c => Cert.Spec.G (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4)), ?_, ?_⟩
  · exact (θ_run _ _ _).mono (fun _ hr c => ⟨(hr c).1.trans (Cert.KernelIdeal.Hand.final m hR c), (hr c).2⟩)
      (Cert.KernelIdeal.Hand.run_args m hR ρ)
  · refine (θ_run _ _ _).mono (fun _ hr c => ⟨?_, (hr c).2⟩)
      (Cert.ReferenceIdeal.RefValue.run_G m' ρ'
        (fun c j => by rw [(hagree c).2.1]; exact (hR c).1 j) (fun c j => by rw [(hagree c).2.2.1]; exact (hR c).2 j))
    rw [(hr c).1, (hagree c).1, (hagree c).2.1, (hagree c).2.2.1, (hagree c).2.2.2.1, (hagree c).2.2.2.2]

theorem claim : Cert.Claim :=
  ⟨Cert.Kernel.Gen.facts, Cert.KernelIdeal.Gen.facts, Cert.ReferenceIdeal.Gen.facts, Cert.Pre_finite_inputs.Gen.facts,
    frame_K, frame_KI, frame_R, trivial, algebraic⟩

end Cert.Proof

end
